-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S768x1536 : Shape := ⟨2, ![768, 1536]⟩
abbrev S768 : Shape := ⟨1, ![768]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S4x256x768 .f32) (main_arg1 : FVec F S768x1536 .f32) (main_arg2 : FVec F S768 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S4x256x768 : Shape := ⟨3, ![4, 256, 768]⟩
abbrev S768x1536 : Shape := ⟨2, ![768, 1536]⟩
abbrev S768 : Shape := ⟨1, ![768]⟩
abbrev S1024x768 : Shape := ⟨2, ![1024, 768]⟩
abbrev S256x768 : Shape := ⟨2, ![256, 768]⟩
abbrev S768x768 : Shape := ⟨2, ![768, 768]⟩
abbrev S1x768 : Shape := ⟨2, ![1, 768]⟩
abbrev S4x8x768 : Shape := ⟨3, ![4, 8, 768]⟩
abbrev S4x2020x768 : Shape := ⟨3, ![4, 2020, 768]⟩
abbrev S1x8x768 : Shape := ⟨3, ![1, 8, 768]⟩
abbrev S1x256x768 : Shape := ⟨3, ![1, 256, 768]⟩
abbrev S1x2020x768 : Shape := ⟨3, ![1, 2020, 768]⟩
abbrev S8x768 : Shape := ⟨2, ![8, 768]⟩
abbrev S255x768 : Shape := ⟨2, ![255, 768]⟩
abbrev S254x768 : Shape := ⟨2, ![254, 768]⟩
abbrev S253x768 : Shape := ⟨2, ![253, 768]⟩
abbrev S252x768 : Shape := ⟨2, ![252, 768]⟩
abbrev S251x768 : Shape := ⟨2, ![251, 768]⟩
abbrev S250x768 : Shape := ⟨2, ![250, 768]⟩
abbrev S249x768 : Shape := ⟨2, ![249, 768]⟩
abbrev S2020x768 : Shape := ⟨2, ![2020, 768]⟩
abbrev S4x248x768 : Shape := ⟨3, ![4, 248, 768]⟩
abbrev S4x1956x768 : Shape := ⟨3, ![4, 1956, 768]⟩
abbrev S1x248x768 : Shape := ⟨3, ![1, 248, 768]⟩
abbrev S1x1956x768 : Shape := ⟨3, ![1, 1956, 768]⟩
abbrev S248x768 : Shape := ⟨2, ![248, 768]⟩
abbrev S247x768 : Shape := ⟨2, ![247, 768]⟩
abbrev S246x768 : Shape := ⟨2, ![246, 768]⟩
abbrev S245x768 : Shape := ⟨2, ![245, 768]⟩
abbrev S244x768 : Shape := ⟨2, ![244, 768]⟩
abbrev S243x768 : Shape := ⟨2, ![243, 768]⟩
abbrev S242x768 : Shape := ⟨2, ![242, 768]⟩
abbrev S241x768 : Shape := ⟨2, ![241, 768]⟩
abbrev S1956x768 : Shape := ⟨2, ![1956, 768]⟩
abbrev S4x240x768 : Shape := ⟨3, ![4, 240, 768]⟩
abbrev S4x1892x768 : Shape := ⟨3, ![4, 1892, 768]⟩
abbrev S1x240x768 : Shape := ⟨3, ![1, 240, 768]⟩
abbrev S1x1892x768 : Shape := ⟨3, ![1, 1892, 768]⟩
abbrev S240x768 : Shape := ⟨2, ![240, 768]⟩
abbrev S239x768 : Shape := ⟨2, ![239, 768]⟩
abbrev S238x768 : Shape := ⟨2, ![238, 768]⟩
abbrev S237x768 : Shape := ⟨2, ![237, 768]⟩
abbrev S236x768 : Shape := ⟨2, ![236, 768]⟩
abbrev S235x768 : Shape := ⟨2, ![235, 768]⟩
abbrev S234x768 : Shape := ⟨2, ![234, 768]⟩
abbrev S233x768 : Shape := ⟨2, ![233, 768]⟩
abbrev S1892x768 : Shape := ⟨2, ![1892, 768]⟩
abbrev S4x232x768 : Shape := ⟨3, ![4, 232, 768]⟩
abbrev S4x1828x768 : Shape := ⟨3, ![4, 1828, 768]⟩
abbrev S1x232x768 : Shape := ⟨3, ![1, 232, 768]⟩
abbrev S1x1828x768 : Shape := ⟨3, ![1, 1828, 768]⟩
abbrev S232x768 : Shape := ⟨2, ![232, 768]⟩
abbrev S231x768 : Shape := ⟨2, ![231, 768]⟩
abbrev S230x768 : Shape := ⟨2, ![230, 768]⟩
abbrev S229x768 : Shape := ⟨2, ![229, 768]⟩
abbrev S228x768 : Shape := ⟨2, ![228, 768]⟩
abbrev S227x768 : Shape := ⟨2, ![227, 768]⟩
abbrev S226x768 : Shape := ⟨2, ![226, 768]⟩
abbrev S225x768 : Shape := ⟨2, ![225, 768]⟩
abbrev S1828x768 : Shape := ⟨2, ![1828, 768]⟩
abbrev S4x224x768 : Shape := ⟨3, ![4, 224, 768]⟩
abbrev S4x1764x768 : Shape := ⟨3, ![4, 1764, 768]⟩
abbrev S1x224x768 : Shape := ⟨3, ![1, 224, 768]⟩
abbrev S1x1764x768 : Shape := ⟨3, ![1, 1764, 768]⟩
abbrev S224x768 : Shape := ⟨2, ![224, 768]⟩
abbrev S223x768 : Shape := ⟨2, ![223, 768]⟩
abbrev S222x768 : Shape := ⟨2, ![222, 768]⟩
abbrev S221x768 : Shape := ⟨2, ![221, 768]⟩
abbrev S220x768 : Shape := ⟨2, ![220, 768]⟩
abbrev S219x768 : Shape := ⟨2, ![219, 768]⟩
abbrev S218x768 : Shape := ⟨2, ![218, 768]⟩
abbrev S217x768 : Shape := ⟨2, ![217, 768]⟩
abbrev S1764x768 : Shape := ⟨2, ![1764, 768]⟩
abbrev S4x216x768 : Shape := ⟨3, ![4, 216, 768]⟩
abbrev S4x1700x768 : Shape := ⟨3, ![4, 1700, 768]⟩
abbrev S1x216x768 : Shape := ⟨3, ![1, 216, 768]⟩
abbrev S1x1700x768 : Shape := ⟨3, ![1, 1700, 768]⟩
abbrev S216x768 : Shape := ⟨2, ![216, 768]⟩
abbrev S215x768 : Shape := ⟨2, ![215, 768]⟩
abbrev S214x768 : Shape := ⟨2, ![214, 768]⟩
abbrev S213x768 : Shape := ⟨2, ![213, 768]⟩
abbrev S212x768 : Shape := ⟨2, ![212, 768]⟩
abbrev S211x768 : Shape := ⟨2, ![211, 768]⟩
abbrev S210x768 : Shape := ⟨2, ![210, 768]⟩
abbrev S209x768 : Shape := ⟨2, ![209, 768]⟩
abbrev S1700x768 : Shape := ⟨2, ![1700, 768]⟩
abbrev S4x208x768 : Shape := ⟨3, ![4, 208, 768]⟩
abbrev S4x1636x768 : Shape := ⟨3, ![4, 1636, 768]⟩
abbrev S1x208x768 : Shape := ⟨3, ![1, 208, 768]⟩
abbrev S1x1636x768 : Shape := ⟨3, ![1, 1636, 768]⟩
abbrev S208x768 : Shape := ⟨2, ![208, 768]⟩
abbrev S207x768 : Shape := ⟨2, ![207, 768]⟩
abbrev S206x768 : Shape := ⟨2, ![206, 768]⟩
abbrev S205x768 : Shape := ⟨2, ![205, 768]⟩
abbrev S204x768 : Shape := ⟨2, ![204, 768]⟩
abbrev S203x768 : Shape := ⟨2, ![203, 768]⟩
abbrev S202x768 : Shape := ⟨2, ![202, 768]⟩
abbrev S201x768 : Shape := ⟨2, ![201, 768]⟩
abbrev S1636x768 : Shape := ⟨2, ![1636, 768]⟩
abbrev S4x200x768 : Shape := ⟨3, ![4, 200, 768]⟩
abbrev S4x1572x768 : Shape := ⟨3, ![4, 1572, 768]⟩
abbrev S1x200x768 : Shape := ⟨3, ![1, 200, 768]⟩
abbrev S1x1572x768 : Shape := ⟨3, ![1, 1572, 768]⟩
abbrev S200x768 : Shape := ⟨2, ![200, 768]⟩
abbrev S199x768 : Shape := ⟨2, ![199, 768]⟩
abbrev S198x768 : Shape := ⟨2, ![198, 768]⟩
abbrev S197x768 : Shape := ⟨2, ![197, 768]⟩
abbrev S196x768 : Shape := ⟨2, ![196, 768]⟩
abbrev S195x768 : Shape := ⟨2, ![195, 768]⟩
abbrev S194x768 : Shape := ⟨2, ![194, 768]⟩
abbrev S193x768 : Shape := ⟨2, ![193, 768]⟩
abbrev S1572x768 : Shape := ⟨2, ![1572, 768]⟩
abbrev S4x192x768 : Shape := ⟨3, ![4, 192, 768]⟩
abbrev S4x1508x768 : Shape := ⟨3, ![4, 1508, 768]⟩
abbrev S1x192x768 : Shape := ⟨3, ![1, 192, 768]⟩
abbrev S1x1508x768 : Shape := ⟨3, ![1, 1508, 768]⟩
abbrev S192x768 : Shape := ⟨2, ![192, 768]⟩
abbrev S191x768 : Shape := ⟨2, ![191, 768]⟩
abbrev S190x768 : Shape := ⟨2, ![190, 768]⟩
abbrev S189x768 : Shape := ⟨2, ![189, 768]⟩
abbrev S188x768 : Shape := ⟨2, ![188, 768]⟩
abbrev S187x768 : Shape := ⟨2, ![187, 768]⟩
abbrev S186x768 : Shape := ⟨2, ![186, 768]⟩
abbrev S185x768 : Shape := ⟨2, ![185, 768]⟩
abbrev S1508x768 : Shape := ⟨2, ![1508, 768]⟩
abbrev S4x184x768 : Shape := ⟨3, ![4, 184, 768]⟩
abbrev S4x1444x768 : Shape := ⟨3, ![4, 1444, 768]⟩
abbrev S1x184x768 : Shape := ⟨3, ![1, 184, 768]⟩
abbrev S1x1444x768 : Shape := ⟨3, ![1, 1444, 768]⟩
abbrev S184x768 : Shape := ⟨2, ![184, 768]⟩
abbrev S183x768 : Shape := ⟨2, ![183, 768]⟩
abbrev S182x768 : Shape := ⟨2, ![182, 768]⟩
abbrev S181x768 : Shape := ⟨2, ![181, 768]⟩
abbrev S180x768 : Shape := ⟨2, ![180, 768]⟩
abbrev S179x768 : Shape := ⟨2, ![179, 768]⟩
abbrev S178x768 : Shape := ⟨2, ![178, 768]⟩
abbrev S177x768 : Shape := ⟨2, ![177, 768]⟩
abbrev S1444x768 : Shape := ⟨2, ![1444, 768]⟩
abbrev S4x176x768 : Shape := ⟨3, ![4, 176, 768]⟩
abbrev S4x1380x768 : Shape := ⟨3, ![4, 1380, 768]⟩
abbrev S1x176x768 : Shape := ⟨3, ![1, 176, 768]⟩
abbrev S1x1380x768 : Shape := ⟨3, ![1, 1380, 768]⟩
abbrev S176x768 : Shape := ⟨2, ![176, 768]⟩
abbrev S175x768 : Shape := ⟨2, ![175, 768]⟩
abbrev S174x768 : Shape := ⟨2, ![174, 768]⟩
abbrev S173x768 : Shape := ⟨2, ![173, 768]⟩
abbrev S172x768 : Shape := ⟨2, ![172, 768]⟩
abbrev S171x768 : Shape := ⟨2, ![171, 768]⟩
abbrev S170x768 : Shape := ⟨2, ![170, 768]⟩
abbrev S169x768 : Shape := ⟨2, ![169, 768]⟩
abbrev S1380x768 : Shape := ⟨2, ![1380, 768]⟩
abbrev S4x168x768 : Shape := ⟨3, ![4, 168, 768]⟩
abbrev S4x1316x768 : Shape := ⟨3, ![4, 1316, 768]⟩
abbrev S1x168x768 : Shape := ⟨3, ![1, 168, 768]⟩
abbrev S1x1316x768 : Shape := ⟨3, ![1, 1316, 768]⟩
abbrev S168x768 : Shape := ⟨2, ![168, 768]⟩
abbrev S167x768 : Shape := ⟨2, ![167, 768]⟩
abbrev S166x768 : Shape := ⟨2, ![166, 768]⟩
abbrev S165x768 : Shape := ⟨2, ![165, 768]⟩
abbrev S164x768 : Shape := ⟨2, ![164, 768]⟩
abbrev S163x768 : Shape := ⟨2, ![163, 768]⟩
abbrev S162x768 : Shape := ⟨2, ![162, 768]⟩
abbrev S161x768 : Shape := ⟨2, ![161, 768]⟩
abbrev S1316x768 : Shape := ⟨2, ![1316, 768]⟩
abbrev S4x160x768 : Shape := ⟨3, ![4, 160, 768]⟩
abbrev S4x1252x768 : Shape := ⟨3, ![4, 1252, 768]⟩
abbrev S1x160x768 : Shape := ⟨3, ![1, 160, 768]⟩
abbrev S1x1252x768 : Shape := ⟨3, ![1, 1252, 768]⟩
abbrev S160x768 : Shape := ⟨2, ![160, 768]⟩
abbrev S159x768 : Shape := ⟨2, ![159, 768]⟩
abbrev S158x768 : Shape := ⟨2, ![158, 768]⟩
abbrev S157x768 : Shape := ⟨2, ![157, 768]⟩
abbrev S156x768 : Shape := ⟨2, ![156, 768]⟩
abbrev S155x768 : Shape := ⟨2, ![155, 768]⟩
abbrev S154x768 : Shape := ⟨2, ![154, 768]⟩
abbrev S153x768 : Shape := ⟨2, ![153, 768]⟩
abbrev S1252x768 : Shape := ⟨2, ![1252, 768]⟩
abbrev S4x152x768 : Shape := ⟨3, ![4, 152, 768]⟩
abbrev S4x1188x768 : Shape := ⟨3, ![4, 1188, 768]⟩
abbrev S1x152x768 : Shape := ⟨3, ![1, 152, 768]⟩
abbrev S1x1188x768 : Shape := ⟨3, ![1, 1188, 768]⟩
abbrev S152x768 : Shape := ⟨2, ![152, 768]⟩
abbrev S151x768 : Shape := ⟨2, ![151, 768]⟩
abbrev S150x768 : Shape := ⟨2, ![150, 768]⟩
abbrev S149x768 : Shape := ⟨2, ![149, 768]⟩
abbrev S148x768 : Shape := ⟨2, ![148, 768]⟩
abbrev S147x768 : Shape := ⟨2, ![147, 768]⟩
abbrev S146x768 : Shape := ⟨2, ![146, 768]⟩
abbrev S145x768 : Shape := ⟨2, ![145, 768]⟩
abbrev S1188x768 : Shape := ⟨2, ![1188, 768]⟩
abbrev S4x144x768 : Shape := ⟨3, ![4, 144, 768]⟩
abbrev S4x1124x768 : Shape := ⟨3, ![4, 1124, 768]⟩
abbrev S1x144x768 : Shape := ⟨3, ![1, 144, 768]⟩
abbrev S1x1124x768 : Shape := ⟨3, ![1, 1124, 768]⟩
abbrev S144x768 : Shape := ⟨2, ![144, 768]⟩
abbrev S143x768 : Shape := ⟨2, ![143, 768]⟩
abbrev S142x768 : Shape := ⟨2, ![142, 768]⟩
abbrev S141x768 : Shape := ⟨2, ![141, 768]⟩
abbrev S140x768 : Shape := ⟨2, ![140, 768]⟩
abbrev S139x768 : Shape := ⟨2, ![139, 768]⟩
abbrev S138x768 : Shape := ⟨2, ![138, 768]⟩
abbrev S137x768 : Shape := ⟨2, ![137, 768]⟩
abbrev S1124x768 : Shape := ⟨2, ![1124, 768]⟩
abbrev S4x136x768 : Shape := ⟨3, ![4, 136, 768]⟩
abbrev S4x1060x768 : Shape := ⟨3, ![4, 1060, 768]⟩
abbrev S1x136x768 : Shape := ⟨3, ![1, 136, 768]⟩
abbrev S1x1060x768 : Shape := ⟨3, ![1, 1060, 768]⟩
abbrev S136x768 : Shape := ⟨2, ![136, 768]⟩
abbrev S135x768 : Shape := ⟨2, ![135, 768]⟩
abbrev S134x768 : Shape := ⟨2, ![134, 768]⟩
abbrev S133x768 : Shape := ⟨2, ![133, 768]⟩
abbrev S132x768 : Shape := ⟨2, ![132, 768]⟩
abbrev S131x768 : Shape := ⟨2, ![131, 768]⟩
abbrev S130x768 : Shape := ⟨2, ![130, 768]⟩
abbrev S129x768 : Shape := ⟨2, ![129, 768]⟩
abbrev S1060x768 : Shape := ⟨2, ![1060, 768]⟩
abbrev S4x128x768 : Shape := ⟨3, ![4, 128, 768]⟩
abbrev S4x996x768 : Shape := ⟨3, ![4, 996, 768]⟩
abbrev S1x128x768 : Shape := ⟨3, ![1, 128, 768]⟩
abbrev S1x996x768 : Shape := ⟨3, ![1, 996, 768]⟩
abbrev S128x768 : Shape := ⟨2, ![128, 768]⟩
abbrev S127x768 : Shape := ⟨2, ![127, 768]⟩
abbrev S126x768 : Shape := ⟨2, ![126, 768]⟩
abbrev S125x768 : Shape := ⟨2, ![125, 768]⟩
abbrev S124x768 : Shape := ⟨2, ![124, 768]⟩
abbrev S123x768 : Shape := ⟨2, ![123, 768]⟩
abbrev S122x768 : Shape := ⟨2, ![122, 768]⟩
abbrev S121x768 : Shape := ⟨2, ![121, 768]⟩
abbrev S996x768 : Shape := ⟨2, ![996, 768]⟩
abbrev S4x120x768 : Shape := ⟨3, ![4, 120, 768]⟩
abbrev S4x932x768 : Shape := ⟨3, ![4, 932, 768]⟩
abbrev S1x120x768 : Shape := ⟨3, ![1, 120, 768]⟩
abbrev S1x932x768 : Shape := ⟨3, ![1, 932, 768]⟩
abbrev S120x768 : Shape := ⟨2, ![120, 768]⟩
abbrev S119x768 : Shape := ⟨2, ![119, 768]⟩
abbrev S118x768 : Shape := ⟨2, ![118, 768]⟩
abbrev S117x768 : Shape := ⟨2, ![117, 768]⟩
abbrev S116x768 : Shape := ⟨2, ![116, 768]⟩
abbrev S115x768 : Shape := ⟨2, ![115, 768]⟩
abbrev S114x768 : Shape := ⟨2, ![114, 768]⟩
abbrev S113x768 : Shape := ⟨2, ![113, 768]⟩
abbrev S932x768 : Shape := ⟨2, ![932, 768]⟩
abbrev S4x112x768 : Shape := ⟨3, ![4, 112, 768]⟩
abbrev S4x868x768 : Shape := ⟨3, ![4, 868, 768]⟩
abbrev S1x112x768 : Shape := ⟨3, ![1, 112, 768]⟩
abbrev S1x868x768 : Shape := ⟨3, ![1, 868, 768]⟩
abbrev S112x768 : Shape := ⟨2, ![112, 768]⟩
abbrev S111x768 : Shape := ⟨2, ![111, 768]⟩
abbrev S110x768 : Shape := ⟨2, ![110, 768]⟩
abbrev S109x768 : Shape := ⟨2, ![109, 768]⟩
abbrev S108x768 : Shape := ⟨2, ![108, 768]⟩
abbrev S107x768 : Shape := ⟨2, ![107, 768]⟩
abbrev S106x768 : Shape := ⟨2, ![106, 768]⟩
abbrev S105x768 : Shape := ⟨2, ![105, 768]⟩
abbrev S868x768 : Shape := ⟨2, ![868, 768]⟩
abbrev S4x104x768 : Shape := ⟨3, ![4, 104, 768]⟩
abbrev S4x804x768 : Shape := ⟨3, ![4, 804, 768]⟩
abbrev S1x104x768 : Shape := ⟨3, ![1, 104, 768]⟩
abbrev S1x804x768 : Shape := ⟨3, ![1, 804, 768]⟩
abbrev S104x768 : Shape := ⟨2, ![104, 768]⟩
abbrev S103x768 : Shape := ⟨2, ![103, 768]⟩
abbrev S102x768 : Shape := ⟨2, ![102, 768]⟩
abbrev S101x768 : Shape := ⟨2, ![101, 768]⟩
abbrev S100x768 : Shape := ⟨2, ![100, 768]⟩
abbrev S99x768 : Shape := ⟨2, ![99, 768]⟩
abbrev S98x768 : Shape := ⟨2, ![98, 768]⟩
abbrev S97x768 : Shape := ⟨2, ![97, 768]⟩
abbrev S804x768 : Shape := ⟨2, ![804, 768]⟩
abbrev S4x96x768 : Shape := ⟨3, ![4, 96, 768]⟩
abbrev S4x740x768 : Shape := ⟨3, ![4, 740, 768]⟩
abbrev S1x96x768 : Shape := ⟨3, ![1, 96, 768]⟩
abbrev S1x740x768 : Shape := ⟨3, ![1, 740, 768]⟩
abbrev S96x768 : Shape := ⟨2, ![96, 768]⟩
abbrev S95x768 : Shape := ⟨2, ![95, 768]⟩
abbrev S94x768 : Shape := ⟨2, ![94, 768]⟩
abbrev S93x768 : Shape := ⟨2, ![93, 768]⟩
abbrev S92x768 : Shape := ⟨2, ![92, 768]⟩
abbrev S91x768 : Shape := ⟨2, ![91, 768]⟩
abbrev S90x768 : Shape := ⟨2, ![90, 768]⟩
abbrev S89x768 : Shape := ⟨2, ![89, 768]⟩
abbrev S740x768 : Shape := ⟨2, ![740, 768]⟩
abbrev S4x88x768 : Shape := ⟨3, ![4, 88, 768]⟩
abbrev S4x676x768 : Shape := ⟨3, ![4, 676, 768]⟩
abbrev S1x88x768 : Shape := ⟨3, ![1, 88, 768]⟩
abbrev S1x676x768 : Shape := ⟨3, ![1, 676, 768]⟩
abbrev S88x768 : Shape := ⟨2, ![88, 768]⟩
abbrev S87x768 : Shape := ⟨2, ![87, 768]⟩
abbrev S86x768 : Shape := ⟨2, ![86, 768]⟩
abbrev S85x768 : Shape := ⟨2, ![85, 768]⟩
abbrev S84x768 : Shape := ⟨2, ![84, 768]⟩
abbrev S83x768 : Shape := ⟨2, ![83, 768]⟩
abbrev S82x768 : Shape := ⟨2, ![82, 768]⟩
abbrev S81x768 : Shape := ⟨2, ![81, 768]⟩
abbrev S676x768 : Shape := ⟨2, ![676, 768]⟩
abbrev S4x80x768 : Shape := ⟨3, ![4, 80, 768]⟩
abbrev S4x612x768 : Shape := ⟨3, ![4, 612, 768]⟩
abbrev S1x80x768 : Shape := ⟨3, ![1, 80, 768]⟩
abbrev S1x612x768 : Shape := ⟨3, ![1, 612, 768]⟩
abbrev S80x768 : Shape := ⟨2, ![80, 768]⟩
abbrev S79x768 : Shape := ⟨2, ![79, 768]⟩
abbrev S78x768 : Shape := ⟨2, ![78, 768]⟩
abbrev S77x768 : Shape := ⟨2, ![77, 768]⟩
abbrev S76x768 : Shape := ⟨2, ![76, 768]⟩
abbrev S75x768 : Shape := ⟨2, ![75, 768]⟩
abbrev S74x768 : Shape := ⟨2, ![74, 768]⟩
abbrev S73x768 : Shape := ⟨2, ![73, 768]⟩
abbrev S612x768 : Shape := ⟨2, ![612, 768]⟩
abbrev S4x72x768 : Shape := ⟨3, ![4, 72, 768]⟩
abbrev S4x548x768 : Shape := ⟨3, ![4, 548, 768]⟩
abbrev S1x72x768 : Shape := ⟨3, ![1, 72, 768]⟩
abbrev S1x548x768 : Shape := ⟨3, ![1, 548, 768]⟩
abbrev S72x768 : Shape := ⟨2, ![72, 768]⟩
abbrev S71x768 : Shape := ⟨2, ![71, 768]⟩
abbrev S70x768 : Shape := ⟨2, ![70, 768]⟩
abbrev S69x768 : Shape := ⟨2, ![69, 768]⟩
abbrev S68x768 : Shape := ⟨2, ![68, 768]⟩
abbrev S67x768 : Shape := ⟨2, ![67, 768]⟩
abbrev S66x768 : Shape := ⟨2, ![66, 768]⟩
abbrev S65x768 : Shape := ⟨2, ![65, 768]⟩
abbrev S548x768 : Shape := ⟨2, ![548, 768]⟩
abbrev S4x64x768 : Shape := ⟨3, ![4, 64, 768]⟩
abbrev S4x484x768 : Shape := ⟨3, ![4, 484, 768]⟩
abbrev S1x64x768 : Shape := ⟨3, ![1, 64, 768]⟩
abbrev S1x484x768 : Shape := ⟨3, ![1, 484, 768]⟩
abbrev S64x768 : Shape := ⟨2, ![64, 768]⟩
abbrev S63x768 : Shape := ⟨2, ![63, 768]⟩
abbrev S62x768 : Shape := ⟨2, ![62, 768]⟩
abbrev S61x768 : Shape := ⟨2, ![61, 768]⟩
abbrev S60x768 : Shape := ⟨2, ![60, 768]⟩
abbrev S59x768 : Shape := ⟨2, ![59, 768]⟩
abbrev S58x768 : Shape := ⟨2, ![58, 768]⟩
abbrev S57x768 : Shape := ⟨2, ![57, 768]⟩
abbrev S484x768 : Shape := ⟨2, ![484, 768]⟩
abbrev S4x56x768 : Shape := ⟨3, ![4, 56, 768]⟩
abbrev S4x420x768 : Shape := ⟨3, ![4, 420, 768]⟩
abbrev S1x56x768 : Shape := ⟨3, ![1, 56, 768]⟩
abbrev S1x420x768 : Shape := ⟨3, ![1, 420, 768]⟩
abbrev S56x768 : Shape := ⟨2, ![56, 768]⟩
abbrev S55x768 : Shape := ⟨2, ![55, 768]⟩
abbrev S54x768 : Shape := ⟨2, ![54, 768]⟩
abbrev S53x768 : Shape := ⟨2, ![53, 768]⟩
abbrev S52x768 : Shape := ⟨2, ![52, 768]⟩
abbrev S51x768 : Shape := ⟨2, ![51, 768]⟩
abbrev S50x768 : Shape := ⟨2, ![50, 768]⟩
abbrev S49x768 : Shape := ⟨2, ![49, 768]⟩
abbrev S420x768 : Shape := ⟨2, ![420, 768]⟩
abbrev S4x48x768 : Shape := ⟨3, ![4, 48, 768]⟩
abbrev S4x356x768 : Shape := ⟨3, ![4, 356, 768]⟩
abbrev S1x48x768 : Shape := ⟨3, ![1, 48, 768]⟩
abbrev S1x356x768 : Shape := ⟨3, ![1, 356, 768]⟩
abbrev S48x768 : Shape := ⟨2, ![48, 768]⟩
abbrev S47x768 : Shape := ⟨2, ![47, 768]⟩
abbrev S46x768 : Shape := ⟨2, ![46, 768]⟩
abbrev S45x768 : Shape := ⟨2, ![45, 768]⟩
abbrev S44x768 : Shape := ⟨2, ![44, 768]⟩
abbrev S43x768 : Shape := ⟨2, ![43, 768]⟩
abbrev S42x768 : Shape := ⟨2, ![42, 768]⟩
abbrev S41x768 : Shape := ⟨2, ![41, 768]⟩
abbrev S356x768 : Shape := ⟨2, ![356, 768]⟩
abbrev S4x40x768 : Shape := ⟨3, ![4, 40, 768]⟩
abbrev S4x292x768 : Shape := ⟨3, ![4, 292, 768]⟩
abbrev S1x40x768 : Shape := ⟨3, ![1, 40, 768]⟩
abbrev S1x292x768 : Shape := ⟨3, ![1, 292, 768]⟩
abbrev S40x768 : Shape := ⟨2, ![40, 768]⟩
abbrev S39x768 : Shape := ⟨2, ![39, 768]⟩
abbrev S38x768 : Shape := ⟨2, ![38, 768]⟩
abbrev S37x768 : Shape := ⟨2, ![37, 768]⟩
abbrev S36x768 : Shape := ⟨2, ![36, 768]⟩
abbrev S35x768 : Shape := ⟨2, ![35, 768]⟩
abbrev S34x768 : Shape := ⟨2, ![34, 768]⟩
abbrev S33x768 : Shape := ⟨2, ![33, 768]⟩
abbrev S292x768 : Shape := ⟨2, ![292, 768]⟩
abbrev S4x32x768 : Shape := ⟨3, ![4, 32, 768]⟩
abbrev S4x228x768 : Shape := ⟨3, ![4, 228, 768]⟩
abbrev S1x32x768 : Shape := ⟨3, ![1, 32, 768]⟩
abbrev S1x228x768 : Shape := ⟨3, ![1, 228, 768]⟩
abbrev S32x768 : Shape := ⟨2, ![32, 768]⟩
abbrev S31x768 : Shape := ⟨2, ![31, 768]⟩
abbrev S30x768 : Shape := ⟨2, ![30, 768]⟩
abbrev S29x768 : Shape := ⟨2, ![29, 768]⟩
abbrev S28x768 : Shape := ⟨2, ![28, 768]⟩
abbrev S27x768 : Shape := ⟨2, ![27, 768]⟩
abbrev S26x768 : Shape := ⟨2, ![26, 768]⟩
abbrev S25x768 : Shape := ⟨2, ![25, 768]⟩
abbrev S4x24x768 : Shape := ⟨3, ![4, 24, 768]⟩
abbrev S4x164x768 : Shape := ⟨3, ![4, 164, 768]⟩
abbrev S1x24x768 : Shape := ⟨3, ![1, 24, 768]⟩
abbrev S1x164x768 : Shape := ⟨3, ![1, 164, 768]⟩
abbrev S24x768 : Shape := ⟨2, ![24, 768]⟩
abbrev S23x768 : Shape := ⟨2, ![23, 768]⟩
abbrev S22x768 : Shape := ⟨2, ![22, 768]⟩
abbrev S21x768 : Shape := ⟨2, ![21, 768]⟩
abbrev S20x768 : Shape := ⟨2, ![20, 768]⟩
abbrev S19x768 : Shape := ⟨2, ![19, 768]⟩
abbrev S18x768 : Shape := ⟨2, ![18, 768]⟩
abbrev S17x768 : Shape := ⟨2, ![17, 768]⟩
abbrev S4x16x768 : Shape := ⟨3, ![4, 16, 768]⟩
abbrev S4x100x768 : Shape := ⟨3, ![4, 100, 768]⟩
abbrev S1x16x768 : Shape := ⟨3, ![1, 16, 768]⟩
abbrev S1x100x768 : Shape := ⟨3, ![1, 100, 768]⟩
abbrev S16x768 : Shape := ⟨2, ![16, 768]⟩
abbrev S15x768 : Shape := ⟨2, ![15, 768]⟩
abbrev S14x768 : Shape := ⟨2, ![14, 768]⟩
abbrev S13x768 : Shape := ⟨2, ![13, 768]⟩
abbrev S12x768 : Shape := ⟨2, ![12, 768]⟩
abbrev S11x768 : Shape := ⟨2, ![11, 768]⟩
abbrev S10x768 : Shape := ⟨2, ![10, 768]⟩
abbrev S9x768 : Shape := ⟨2, ![9, 768]⟩
abbrev S4x36x768 : Shape := ⟨3, ![4, 36, 768]⟩
abbrev S1x36x768 : Shape := ⟨3, ![1, 36, 768]⟩
abbrev S7x768 : Shape := ⟨2, ![7, 768]⟩
abbrev S6x768 : Shape := ⟨2, ![6, 768]⟩
abbrev S5x768 : Shape := ⟨2, ![5, 768]⟩
abbrev S4x768 : Shape := ⟨2, ![4, 768]⟩
abbrev S3x768 : Shape := ⟨2, ![3, 768]⟩
abbrev S2x768 : Shape := ⟨2, ![2, 768]⟩
abbrev S4x24640x768 : Shape := ⟨3, ![4, 24640, 768]⟩
abbrev S4x8256x768 : Shape := ⟨3, ![4, 8256, 768]⟩
abbrev S4x32896x768 : Shape := ⟨3, ![4, 32896, 768]⟩

abbrev nBuf : Space → Nat
  | .hbm => 107
  | .vmem => 231
  | .smem => 0
  | _ => 0

abbrev vmemTy0_0 (i : Nat) : BufTy := match i % 128 with
  | 0 => ⟨S256x768, .f32⟩
  | 1 => ⟨S256x768, .f32⟩
  | 2 => ⟨S768x1536, .f32⟩
  | 3 => ⟨S256x768, .f32⟩
  | 4 => ⟨S256x768, .f32⟩
  | 5 => ⟨S256x768, .f32⟩
  | 6 => ⟨S256x768, .f32⟩
  | 7 => ⟨S1x8x768, .f32⟩
  | 8 => ⟨S1x8x768, .f32⟩
  | 9 => ⟨S1x256x768, .f32⟩
  | 10 => ⟨S1x256x768, .f32⟩
  | 11 => ⟨S1x768, .f32⟩
  | 12 => ⟨S1x2020x768, .f32⟩
  | 13 => ⟨S1x2020x768, .f32⟩
  | 14 => ⟨S1x8x768, .f32⟩
  | 15 => ⟨S1x8x768, .f32⟩
  | 16 => ⟨S1x248x768, .f32⟩
  | 17 => ⟨S1x248x768, .f32⟩
  | 18 => ⟨S1x768, .f32⟩
  | 19 => ⟨S1x1956x768, .f32⟩
  | 20 => ⟨S1x1956x768, .f32⟩
  | 21 => ⟨S1x8x768, .f32⟩
  | 22 => ⟨S1x8x768, .f32⟩
  | 23 => ⟨S1x240x768, .f32⟩
  | 24 => ⟨S1x240x768, .f32⟩
  | 25 => ⟨S1x768, .f32⟩
  | 26 => ⟨S1x1892x768, .f32⟩
  | 27 => ⟨S1x1892x768, .f32⟩
  | 28 => ⟨S1x8x768, .f32⟩
  | 29 => ⟨S1x8x768, .f32⟩
  | 30 => ⟨S1x232x768, .f32⟩
  | 31 => ⟨S1x232x768, .f32⟩
  | 32 => ⟨S1x768, .f32⟩
  | 33 => ⟨S1x1828x768, .f32⟩
  | 34 => ⟨S1x1828x768, .f32⟩
  | 35 => ⟨S1x8x768, .f32⟩
  | 36 => ⟨S1x8x768, .f32⟩
  | 37 => ⟨S1x224x768, .f32⟩
  | 38 => ⟨S1x224x768, .f32⟩
  | 39 => ⟨S1x768, .f32⟩
  | 40 => ⟨S1x1764x768, .f32⟩
  | 41 => ⟨S1x1764x768, .f32⟩
  | 42 => ⟨S1x8x768, .f32⟩
  | 43 => ⟨S1x8x768, .f32⟩
  | 44 => ⟨S1x216x768, .f32⟩
  | 45 => ⟨S1x216x768, .f32⟩
  | 46 => ⟨S1x768, .f32⟩
  | 47 => ⟨S1x1700x768, .f32⟩
  | 48 => ⟨S1x1700x768, .f32⟩
  | 49 => ⟨S1x8x768, .f32⟩
  | 50 => ⟨S1x8x768, .f32⟩
  | 51 => ⟨S1x208x768, .f32⟩
  | 52 => ⟨S1x208x768, .f32⟩
  | 53 => ⟨S1x768, .f32⟩
  | 54 => ⟨S1x1636x768, .f32⟩
  | 55 => ⟨S1x1636x768, .f32⟩
  | 56 => ⟨S1x8x768, .f32⟩
  | 57 => ⟨S1x8x768, .f32⟩
  | 58 => ⟨S1x200x768, .f32⟩
  | 59 => ⟨S1x200x768, .f32⟩
  | 60 => ⟨S1x768, .f32⟩
  | 61 => ⟨S1x1572x768, .f32⟩
  | 62 => ⟨S1x1572x768, .f32⟩
  | 63 => ⟨S1x8x768, .f32⟩
  | 64 => ⟨S1x8x768, .f32⟩
  | 65 => ⟨S1x192x768, .f32⟩
  | 66 => ⟨S1x192x768, .f32⟩
  | 67 => ⟨S1x768, .f32⟩
  | 68 => ⟨S1x1508x768, .f32⟩
  | 69 => ⟨S1x1508x768, .f32⟩
  | 70 => ⟨S1x8x768, .f32⟩
  | 71 => ⟨S1x8x768, .f32⟩
  | 72 => ⟨S1x184x768, .f32⟩
  | 73 => ⟨S1x184x768, .f32⟩
  | 74 => ⟨S1x768, .f32⟩
  | 75 => ⟨S1x1444x768, .f32⟩
  | 76 => ⟨S1x1444x768, .f32⟩
  | 77 => ⟨S1x8x768, .f32⟩
  | 78 => ⟨S1x8x768, .f32⟩
  | 79 => ⟨S1x176x768, .f32⟩
  | 80 => ⟨S1x176x768, .f32⟩
  | 81 => ⟨S1x768, .f32⟩
  | 82 => ⟨S1x1380x768, .f32⟩
  | 83 => ⟨S1x1380x768, .f32⟩
  | 84 => ⟨S1x8x768, .f32⟩
  | 85 => ⟨S1x8x768, .f32⟩
  | 86 => ⟨S1x168x768, .f32⟩
  | 87 => ⟨S1x168x768, .f32⟩
  | 88 => ⟨S1x768, .f32⟩
  | 89 => ⟨S1x1316x768, .f32⟩
  | 90 => ⟨S1x1316x768, .f32⟩
  | 91 => ⟨S1x8x768, .f32⟩
  | 92 => ⟨S1x8x768, .f32⟩
  | 93 => ⟨S1x160x768, .f32⟩
  | 94 => ⟨S1x160x768, .f32⟩
  | 95 => ⟨S1x768, .f32⟩
  | 96 => ⟨S1x1252x768, .f32⟩
  | 97 => ⟨S1x1252x768, .f32⟩
  | 98 => ⟨S1x8x768, .f32⟩
  | 99 => ⟨S1x8x768, .f32⟩
  | 100 => ⟨S1x152x768, .f32⟩
  | 101 => ⟨S1x152x768, .f32⟩
  | 102 => ⟨S1x768, .f32⟩
  | 103 => ⟨S1x1188x768, .f32⟩
  | 104 => ⟨S1x1188x768, .f32⟩
  | 105 => ⟨S1x8x768, .f32⟩
  | 106 => ⟨S1x8x768, .f32⟩
  | 107 => ⟨S1x144x768, .f32⟩
  | 108 => ⟨S1x144x768, .f32⟩
  | 109 => ⟨S1x768, .f32⟩
  | 110 => ⟨S1x1124x768, .f32⟩
  | 111 => ⟨S1x1124x768, .f32⟩
  | 112 => ⟨S1x8x768, .f32⟩
  | 113 => ⟨S1x8x768, .f32⟩
  | 114 => ⟨S1x136x768, .f32⟩
  | 115 => ⟨S1x136x768, .f32⟩
  | 116 => ⟨S1x768, .f32⟩
  | 117 => ⟨S1x1060x768, .f32⟩
  | 118 => ⟨S1x1060x768, .f32⟩
  | 119 => ⟨S1x8x768, .f32⟩
  | 120 => ⟨S1x8x768, .f32⟩
  | 121 => ⟨S1x128x768, .f32⟩
  | 122 => ⟨S1x128x768, .f32⟩
  | 123 => ⟨S1x768, .f32⟩
  | 124 => ⟨S1x996x768, .f32⟩
  | 125 => ⟨S1x996x768, .f32⟩
  | 126 => ⟨S1x8x768, .f32⟩
  | 127 => ⟨S1x8x768, .f32⟩
  | _ => ⟨S4x256x768, .f32⟩

abbrev vmemTy0_1 (i : Nat) : BufTy := match i % 128 with
  | 0 => ⟨S1x120x768, .f32⟩
  | 1 => ⟨S1x120x768, .f32⟩
  | 2 => ⟨S1x768, .f32⟩
  | 3 => ⟨S1x932x768, .f32⟩
  | 4 => ⟨S1x932x768, .f32⟩
  | 5 => ⟨S1x8x768, .f32⟩
  | 6 => ⟨S1x8x768, .f32⟩
  | 7 => ⟨S1x112x768, .f32⟩
  | 8 => ⟨S1x112x768, .f32⟩
  | 9 => ⟨S1x768, .f32⟩
  | 10 => ⟨S1x868x768, .f32⟩
  | 11 => ⟨S1x868x768, .f32⟩
  | 12 => ⟨S1x8x768, .f32⟩
  | 13 => ⟨S1x8x768, .f32⟩
  | 14 => ⟨S1x104x768, .f32⟩
  | 15 => ⟨S1x104x768, .f32⟩
  | 16 => ⟨S1x768, .f32⟩
  | 17 => ⟨S1x804x768, .f32⟩
  | 18 => ⟨S1x804x768, .f32⟩
  | 19 => ⟨S1x8x768, .f32⟩
  | 20 => ⟨S1x8x768, .f32⟩
  | 21 => ⟨S1x96x768, .f32⟩
  | 22 => ⟨S1x96x768, .f32⟩
  | 23 => ⟨S1x768, .f32⟩
  | 24 => ⟨S1x740x768, .f32⟩
  | 25 => ⟨S1x740x768, .f32⟩
  | 26 => ⟨S1x8x768, .f32⟩
  | 27 => ⟨S1x8x768, .f32⟩
  | 28 => ⟨S1x88x768, .f32⟩
  | 29 => ⟨S1x88x768, .f32⟩
  | 30 => ⟨S1x768, .f32⟩
  | 31 => ⟨S1x676x768, .f32⟩
  | 32 => ⟨S1x676x768, .f32⟩
  | 33 => ⟨S1x8x768, .f32⟩
  | 34 => ⟨S1x8x768, .f32⟩
  | 35 => ⟨S1x80x768, .f32⟩
  | 36 => ⟨S1x80x768, .f32⟩
  | 37 => ⟨S1x768, .f32⟩
  | 38 => ⟨S1x612x768, .f32⟩
  | 39 => ⟨S1x612x768, .f32⟩
  | 40 => ⟨S1x8x768, .f32⟩
  | 41 => ⟨S1x8x768, .f32⟩
  | 42 => ⟨S1x72x768, .f32⟩
  | 43 => ⟨S1x72x768, .f32⟩
  | 44 => ⟨S1x768, .f32⟩
  | 45 => ⟨S1x548x768, .f32⟩
  | 46 => ⟨S1x548x768, .f32⟩
  | 47 => ⟨S1x8x768, .f32⟩
  | 48 => ⟨S1x8x768, .f32⟩
  | 49 => ⟨S1x64x768, .f32⟩
  | 50 => ⟨S1x64x768, .f32⟩
  | 51 => ⟨S1x768, .f32⟩
  | 52 => ⟨S1x484x768, .f32⟩
  | 53 => ⟨S1x484x768, .f32⟩
  | 54 => ⟨S1x8x768, .f32⟩
  | 55 => ⟨S1x8x768, .f32⟩
  | 56 => ⟨S1x56x768, .f32⟩
  | 57 => ⟨S1x56x768, .f32⟩
  | 58 => ⟨S1x768, .f32⟩
  | 59 => ⟨S1x420x768, .f32⟩
  | 60 => ⟨S1x420x768, .f32⟩
  | 61 => ⟨S1x8x768, .f32⟩
  | 62 => ⟨S1x8x768, .f32⟩
  | 63 => ⟨S1x48x768, .f32⟩
  | 64 => ⟨S1x48x768, .f32⟩
  | 65 => ⟨S1x768, .f32⟩
  | 66 => ⟨S1x356x768, .f32⟩
  | 67 => ⟨S1x356x768, .f32⟩
  | 68 => ⟨S1x8x768, .f32⟩
  | 69 => ⟨S1x8x768, .f32⟩
  | 70 => ⟨S1x40x768, .f32⟩
  | 71 => ⟨S1x40x768, .f32⟩
  | 72 => ⟨S1x768, .f32⟩
  | 73 => ⟨S1x292x768, .f32⟩
  | 74 => ⟨S1x292x768, .f32⟩
  | 75 => ⟨S1x8x768, .f32⟩
  | 76 => ⟨S1x8x768, .f32⟩
  | 77 => ⟨S1x32x768, .f32⟩
  | 78 => ⟨S1x32x768, .f32⟩
  | 79 => ⟨S1x768, .f32⟩
  | 80 => ⟨S1x228x768, .f32⟩
  | 81 => ⟨S1x228x768, .f32⟩
  | 82 => ⟨S1x8x768, .f32⟩
  | 83 => ⟨S1x8x768, .f32⟩
  | 84 => ⟨S1x24x768, .f32⟩
  | 85 => ⟨S1x24x768, .f32⟩
  | 86 => ⟨S1x768, .f32⟩
  | 87 => ⟨S1x164x768, .f32⟩
  | 88 => ⟨S1x164x768, .f32⟩
  | 89 => ⟨S1x8x768, .f32⟩
  | 90 => ⟨S1x8x768, .f32⟩
  | 91 => ⟨S1x16x768, .f32⟩
  | 92 => ⟨S1x16x768, .f32⟩
  | 93 => ⟨S1x768, .f32⟩
  | 94 => ⟨S1x100x768, .f32⟩
  | 95 => ⟨S1x100x768, .f32⟩
  | 96 => ⟨S1x8x768, .f32⟩
  | 97 => ⟨S1x8x768, .f32⟩
  | 98 => ⟨S1x8x768, .f32⟩
  | 99 => ⟨S1x8x768, .f32⟩
  | 100 => ⟨S1x768, .f32⟩
  | 101 => ⟨S1x36x768, .f32⟩
  | 102 => ⟨S1x36x768, .f32⟩
  | _ => ⟨S4x256x768, .f32⟩

abbrev vmemTy (i : Nat) : BufTy := match i / 128 with
  | 0 => vmemTy0_0 i
  | 1 => vmemTy0_1 i
  | _ => ⟨S4x256x768, .f32⟩

abbrev bufTy : (tb : Table) → Fin (tcTables nBuf tb) → BufTy
  | .hbm, ⟨0, _⟩ => ⟨S4x256x768, .f32⟩
  | .hbm, ⟨1, _⟩ => ⟨S768x1536, .f32⟩
  | .hbm, ⟨2, _⟩ => ⟨S768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S4x256x768, .f32⟩
  | .hbm, ⟨7, _⟩ => ⟨S4x256x768, .f32⟩
  | .hbm, ⟨8, _⟩ => ⟨S1x768, .f32⟩
  | .hbm, ⟨9, _⟩ => ⟨S4x8x768, .f32⟩
  | .hbm, ⟨10, _⟩ => ⟨S4x2020x768, .f32⟩
  | .hbm, ⟨11, _⟩ => ⟨S4x8x768, .f32⟩
  | .hbm, ⟨12, _⟩ => ⟨S4x248x768, .f32⟩
  | .hbm, ⟨13, _⟩ => ⟨S4x1956x768, .f32⟩
  | .hbm, ⟨14, _⟩ => ⟨S4x8x768, .f32⟩
  | .hbm, ⟨15, _⟩ => ⟨S4x240x768, .f32⟩
  | .hbm, ⟨16, _⟩ => ⟨S4x1892x768, .f32⟩
  | .hbm, ⟨17, _⟩ => ⟨S4x8x768, .f32⟩
  | .hbm, ⟨18, _⟩ => ⟨S4x232x768, .f32⟩
  | .hbm, ⟨19, _⟩ => ⟨S4x1828x768, .f32⟩
  | .hbm, ⟨20, _⟩ => ⟨S4x8x768, .f32⟩
  | .hbm, ⟨21, _⟩ => ⟨S4x224x768, .f32⟩
  | .hbm, ⟨22, _⟩ => ⟨S4x1764x768, .f32⟩
  | .hbm, ⟨23, _⟩ => ⟨S4x8x768, .f32⟩
  | .hbm, ⟨24, _⟩ => ⟨S4x216x768, .f32⟩
  | .hbm, ⟨25, _⟩ => ⟨S4x1700x768, .f32⟩
  | .hbm, ⟨26, _⟩ => ⟨S4x8x768, .f32⟩
  | .hbm, ⟨27, _⟩ => ⟨S4x208x768, .f32⟩
  | .hbm, ⟨28, _⟩ => ⟨S4x1636x768, .f32⟩
  | .hbm, ⟨29, _⟩ => ⟨S4x8x768, .f32⟩
  | .hbm, ⟨30, _⟩ => ⟨S4x200x768, .f32⟩
  | .hbm, ⟨31, _⟩ => ⟨S4x1572x768, .f32⟩
  | .hbm, ⟨32, _⟩ => ⟨S4x8x768, .f32⟩
  | .hbm, ⟨33, _⟩ => ⟨S4x192x768, .f32⟩
  | .hbm, ⟨34, _⟩ => ⟨S4x1508x768, .f32⟩
  | .hbm, ⟨35, _⟩ => ⟨S4x8x768, .f32⟩
  | .hbm, ⟨36, _⟩ => ⟨S4x184x768, .f32⟩
  | .hbm, ⟨37, _⟩ => ⟨S4x1444x768, .f32⟩
  | .hbm, ⟨38, _⟩ => ⟨S4x8x768, .f32⟩
  | .hbm, ⟨39, _⟩ => ⟨S4x176x768, .f32⟩
  | .hbm, ⟨40, _⟩ => ⟨S4x1380x768, .f32⟩
  | .hbm, ⟨41, _⟩ => ⟨S4x8x768, .f32⟩
  | .hbm, ⟨42, _⟩ => ⟨S4x168x768, .f32⟩
  | .hbm, ⟨43, _⟩ => ⟨S4x1316x768, .f32⟩
  | .hbm, ⟨44, _⟩ => ⟨S4x8x768, .f32⟩
  | .hbm, ⟨45, _⟩ => ⟨S4x160x768, .f32⟩
  | .hbm, ⟨46, _⟩ => ⟨S4x1252x768, .f32⟩
  | .hbm, ⟨47, _⟩ => ⟨S4x8x768, .f32⟩
  | .hbm, ⟨48, _⟩ => ⟨S4x152x768, .f32⟩
  | .hbm, ⟨49, _⟩ => ⟨S4x1188x768, .f32⟩
  | .hbm, ⟨50, _⟩ => ⟨S4x8x768, .f32⟩
  | .hbm, ⟨51, _⟩ => ⟨S4x144x768, .f32⟩
  | .hbm, ⟨52, _⟩ => ⟨S4x1124x768, .f32⟩
  | .hbm, ⟨53, _⟩ => ⟨S4x8x768, .f32⟩
  | .hbm, ⟨54, _⟩ => ⟨S4x136x768, .f32⟩
  | .hbm, ⟨55, _⟩ => ⟨S4x1060x768, .f32⟩
  | .hbm, ⟨56, _⟩ => ⟨S4x8x768, .f32⟩
  | .hbm, ⟨57, _⟩ => ⟨S4x128x768, .f32⟩
  | .hbm, ⟨58, _⟩ => ⟨S4x996x768, .f32⟩
  | .hbm, ⟨59, _⟩ => ⟨S4x8x768, .f32⟩
  | .hbm, ⟨60, _⟩ => ⟨S4x120x768, .f32⟩
  | .hbm, ⟨61, _⟩ => ⟨S4x932x768, .f32⟩
  | .hbm, ⟨62, _⟩ => ⟨S4x8x768, .f32⟩
  | .hbm, ⟨63, _⟩ => ⟨S4x112x768, .f32⟩
  | .hbm, ⟨64, _⟩ => ⟨S4x868x768, .f32⟩
  | .hbm, ⟨65, _⟩ => ⟨S4x8x768, .f32⟩
  | .hbm, ⟨66, _⟩ => ⟨S4x104x768, .f32⟩
  | .hbm, ⟨67, _⟩ => ⟨S4x804x768, .f32⟩
  | .hbm, ⟨68, _⟩ => ⟨S4x8x768, .f32⟩
  | .hbm, ⟨69, _⟩ => ⟨S4x96x768, .f32⟩
  | .hbm, ⟨70, _⟩ => ⟨S4x740x768, .f32⟩
  | .hbm, ⟨71, _⟩ => ⟨S4x8x768, .f32⟩
  | .hbm, ⟨72, _⟩ => ⟨S4x88x768, .f32⟩
  | .hbm, ⟨73, _⟩ => ⟨S4x676x768, .f32⟩
  | .hbm, ⟨74, _⟩ => ⟨S4x8x768, .f32⟩
  | .hbm, ⟨75, _⟩ => ⟨S4x80x768, .f32⟩
  | .hbm, ⟨76, _⟩ => ⟨S4x612x768, .f32⟩
  | .hbm, ⟨77, _⟩ => ⟨S4x8x768, .f32⟩
  | .hbm, ⟨78, _⟩ => ⟨S4x72x768, .f32⟩
  | .hbm, ⟨79, _⟩ => ⟨S4x548x768, .f32⟩
  | .hbm, ⟨80, _⟩ => ⟨S4x8x768, .f32⟩
  | .hbm, ⟨81, _⟩ => ⟨S4x64x768, .f32⟩
  | .hbm, ⟨82, _⟩ => ⟨S4x484x768, .f32⟩
  | .hbm, ⟨83, _⟩ => ⟨S4x8x768, .f32⟩
  | .hbm, ⟨84, _⟩ => ⟨S4x56x768, .f32⟩
  | .hbm, ⟨85, _⟩ => ⟨S4x420x768, .f32⟩
  | .hbm, ⟨86, _⟩ => ⟨S4x8x768, .f32⟩
  | .hbm, ⟨87, _⟩ => ⟨S4x48x768, .f32⟩
  | .hbm, ⟨88, _⟩ => ⟨S4x356x768, .f32⟩
  | .hbm, ⟨89, _⟩ => ⟨S4x8x768, .f32⟩
  | .hbm, ⟨90, _⟩ => ⟨S4x40x768, .f32⟩
  | .hbm, ⟨91, _⟩ => ⟨S4x292x768, .f32⟩
  | .hbm, ⟨92, _⟩ => ⟨S4x8x768, .f32⟩
  | .hbm, ⟨93, _⟩ => ⟨S4x32x768, .f32⟩
  | .hbm, ⟨94, _⟩ => ⟨S4x228x768, .f32⟩
  | .hbm, ⟨95, _⟩ => ⟨S4x8x768, .f32⟩
  | .hbm, ⟨96, _⟩ => ⟨S4x24x768, .f32⟩
  | .hbm, ⟨97, _⟩ => ⟨S4x164x768, .f32⟩
  | .hbm, ⟨98, _⟩ => ⟨S4x8x768, .f32⟩
  | .hbm, ⟨99, _⟩ => ⟨S4x16x768, .f32⟩
  | .hbm, ⟨100, _⟩ => ⟨S4x100x768, .f32⟩
  | .hbm, ⟨101, _⟩ => ⟨S4x8x768, .f32⟩
  | .hbm, ⟨102, _⟩ => ⟨S4x8x768, .f32⟩
  | .hbm, ⟨103, _⟩ => ⟨S4x36x768, .f32⟩
  | .hbm, ⟨104, _⟩ => ⟨S4x24640x768, .f32⟩
  | .hbm, ⟨105, _⟩ => ⟨S4x8256x768, .f32⟩
  | .hbm, ⟨106, _⟩ => ⟨S4x32896x768, .f32⟩
  | .local _ .vmem, ⟨i, _⟩ => vmemTy i
  | _, _ => ⟨S4x256x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 231 → Bool
  | ⟨i, _⟩ => dmaSemScopedAt i

abbrev sig : RefSig :=
  ofTc nBuf bufTy 0 231 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg3_0 : Ref sig .tc := ⟨.vmem, 75, rfl⟩
abbrev cc10_stg3_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg3_1 : Ref sig .tc := ⟨.vmem, 90, rfl⟩
abbrev cc13_stg0_0 : Ref sig .tc := ⟨.vmem, 91, rfl⟩
abbrev cc13_stg0_1 : Ref sig .tc := ⟨.vmem, 92, rfl⟩
abbrev cc13_stg1_0 : Ref sig .tc := ⟨.vmem, 93, rfl⟩
abbrev cc13_stg1_1 : Ref sig .tc := ⟨.vmem, 94, rfl⟩
abbrev cc13_stg2_0 : Ref sig .tc := ⟨.vmem, 95, rfl⟩
abbrev cc13_stg3_0 : Ref sig .tc := ⟨.vmem, 96, rfl⟩
abbrev cc13_stg3_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg3_0 : Ref sig .tc := ⟨.vmem, 103, rfl⟩
abbrev cc14_stg3_1 : Ref sig .tc := ⟨.vmem, 104, rfl⟩
abbrev cc15_stg0_0 : Ref sig .tc := ⟨.vmem, 105, rfl⟩
abbrev cc15_stg0_1 : Ref sig .tc := ⟨.vmem, 106, rfl⟩
abbrev cc15_stg1_0 : Ref sig .tc := ⟨.vmem, 107, rfl⟩
abbrev cc15_stg1_1 : Ref sig .tc := ⟨.vmem, 108, rfl⟩
abbrev cc15_stg2_0 : Ref sig .tc := ⟨.vmem, 109, rfl⟩
abbrev cc15_stg3_0 : Ref sig .tc := ⟨.vmem, 110, rfl⟩
abbrev cc15_stg3_1 : Ref sig .tc := ⟨.vmem, 111, rfl⟩
abbrev cc16_stg0_0 : Ref sig .tc := ⟨.vmem, 112, rfl⟩
abbrev cc16_stg0_1 : Ref sig .tc := ⟨.vmem, 113, rfl⟩
abbrev cc16_stg1_0 : Ref sig .tc := ⟨.vmem, 114, rfl⟩
abbrev cc16_stg1_1 : Ref sig .tc := ⟨.vmem, 115, rfl⟩
abbrev cc16_stg2_0 : Ref sig .tc := ⟨.vmem, 116, rfl⟩
abbrev cc16_stg3_0 : Ref sig .tc := ⟨.vmem, 117, rfl⟩
abbrev cc16_stg3_1 : Ref sig .tc := ⟨.vmem, 118, rfl⟩
abbrev cc17_stg0_0 : Ref sig .tc := ⟨.vmem, 119, rfl⟩
abbrev cc17_stg0_1 : Ref sig .tc := ⟨.vmem, 120, rfl⟩
abbrev cc17_stg1_0 : Ref sig .tc := ⟨.vmem, 121, rfl⟩
abbrev cc17_stg1_1 : Ref sig .tc := ⟨.vmem, 122, rfl⟩
abbrev cc17_stg2_0 : Ref sig .tc := ⟨.vmem, 123, rfl⟩
abbrev cc17_stg3_0 : Ref sig .tc := ⟨.vmem, 124, rfl⟩
abbrev cc17_stg3_1 : Ref sig .tc := ⟨.vmem, 125, rfl⟩
abbrev cc18_stg0_0 : Ref sig .tc := ⟨.vmem, 126, rfl⟩
abbrev cc18_stg0_1 : Ref sig .tc := ⟨.vmem, 127, rfl⟩
abbrev cc18_stg1_0 : Ref sig .tc := ⟨.vmem, 128, rfl⟩
abbrev cc18_stg1_1 : Ref sig .tc := ⟨.vmem, 129, rfl⟩
abbrev cc18_stg2_0 : Ref sig .tc := ⟨.vmem, 130, rfl⟩
abbrev cc18_stg3_0 : Ref sig .tc := ⟨.vmem, 131, rfl⟩
abbrev cc18_stg3_1 : Ref sig .tc := ⟨.vmem, 132, rfl⟩
abbrev cc19_stg0_0 : Ref sig .tc := ⟨.vmem, 133, rfl⟩
abbrev cc19_stg0_1 : Ref sig .tc := ⟨.vmem, 134, rfl⟩
abbrev cc19_stg1_0 : Ref sig .tc := ⟨.vmem, 135, rfl⟩
abbrev cc19_stg1_1 : Ref sig .tc := ⟨.vmem, 136, rfl⟩
abbrev cc19_stg2_0 : Ref sig .tc := ⟨.vmem, 137, rfl⟩
abbrev cc19_stg3_0 : Ref sig .tc := ⟨.vmem, 138, rfl⟩
abbrev cc19_stg3_1 : Ref sig .tc := ⟨.vmem, 139, rfl⟩
abbrev cc20_stg0_0 : Ref sig .tc := ⟨.vmem, 140, rfl⟩
abbrev cc20_stg0_1 : Ref sig .tc := ⟨.vmem, 141, rfl⟩
abbrev cc20_stg1_0 : Ref sig .tc := ⟨.vmem, 142, rfl⟩
abbrev cc20_stg1_1 : Ref sig .tc := ⟨.vmem, 143, rfl⟩
abbrev cc20_stg2_0 : Ref sig .tc := ⟨.vmem, 144, rfl⟩
abbrev cc20_stg3_0 : Ref sig .tc := ⟨.vmem, 145, rfl⟩
abbrev cc20_stg3_1 : Ref sig .tc := ⟨.vmem, 146, rfl⟩
abbrev cc21_stg0_0 : Ref sig .tc := ⟨.vmem, 147, rfl⟩
abbrev cc21_stg0_1 : Ref sig .tc := ⟨.vmem, 148, rfl⟩
abbrev cc21_stg1_0 : Ref sig .tc := ⟨.vmem, 149, rfl⟩
abbrev cc21_stg1_1 : Ref sig .tc := ⟨.vmem, 150, rfl⟩
abbrev cc21_stg2_0 : Ref sig .tc := ⟨.vmem, 151, rfl⟩
abbrev cc21_stg3_0 : Ref sig .tc := ⟨.vmem, 152, rfl⟩
abbrev cc21_stg3_1 : Ref sig .tc := ⟨.vmem, 153, rfl⟩
abbrev cc22_stg0_0 : Ref sig .tc := ⟨.vmem, 154, rfl⟩
abbrev cc22_stg0_1 : Ref sig .tc := ⟨.vmem, 155, rfl⟩
abbrev cc22_stg1_0 : Ref sig .tc := ⟨.vmem, 156, rfl⟩
abbrev cc22_stg1_1 : Ref sig .tc := ⟨.vmem, 157, rfl⟩
abbrev cc22_stg2_0 : Ref sig .tc := ⟨.vmem, 158, rfl⟩
abbrev cc22_stg3_0 : Ref sig .tc := ⟨.vmem, 159, rfl⟩
abbrev cc22_stg3_1 : Ref sig .tc := ⟨.vmem, 160, rfl⟩
abbrev cc23_stg0_0 : Ref sig .tc := ⟨.vmem, 161, rfl⟩
abbrev cc23_stg0_1 : Ref sig .tc := ⟨.vmem, 162, rfl⟩
abbrev cc23_stg1_0 : Ref sig .tc := ⟨.vmem, 163, rfl⟩
abbrev cc23_stg1_1 : Ref sig .tc := ⟨.vmem, 164, rfl⟩
abbrev cc23_stg2_0 : Ref sig .tc := ⟨.vmem, 165, rfl⟩
abbrev cc23_stg3_0 : Ref sig .tc := ⟨.vmem, 166, rfl⟩
abbrev cc23_stg3_1 : Ref sig .tc := ⟨.vmem, 167, rfl⟩
abbrev cc24_stg0_0 : Ref sig .tc := ⟨.vmem, 168, rfl⟩
abbrev cc24_stg0_1 : Ref sig .tc := ⟨.vmem, 169, rfl⟩
abbrev cc24_stg1_0 : Ref sig .tc := ⟨.vmem, 170, rfl⟩
abbrev cc24_stg1_1 : Ref sig .tc := ⟨.vmem, 171, rfl⟩
abbrev cc24_stg2_0 : Ref sig .tc := ⟨.vmem, 172, rfl⟩
abbrev cc24_stg3_0 : Ref sig .tc := ⟨.vmem, 173, rfl⟩
abbrev cc24_stg3_1 : Ref sig .tc := ⟨.vmem, 174, rfl⟩
abbrev cc25_stg0_0 : Ref sig .tc := ⟨.vmem, 175, rfl⟩
abbrev cc25_stg0_1 : Ref sig .tc := ⟨.vmem, 176, rfl⟩
abbrev cc25_stg1_0 : Ref sig .tc := ⟨.vmem, 177, rfl⟩
abbrev cc25_stg1_1 : Ref sig .tc := ⟨.vmem, 178, rfl⟩
abbrev cc25_stg2_0 : Ref sig .tc := ⟨.vmem, 179, rfl⟩
abbrev cc25_stg3_0 : Ref sig .tc := ⟨.vmem, 180, rfl⟩
abbrev cc25_stg3_1 : Ref sig .tc := ⟨.vmem, 181, rfl⟩
abbrev cc26_stg0_0 : Ref sig .tc := ⟨.vmem, 182, rfl⟩
abbrev cc26_stg0_1 : Ref sig .tc := ⟨.vmem, 183, rfl⟩
abbrev cc26_stg1_0 : Ref sig .tc := ⟨.vmem, 184, rfl⟩
abbrev cc26_stg1_1 : Ref sig .tc := ⟨.vmem, 185, rfl⟩
abbrev cc26_stg2_0 : Ref sig .tc := ⟨.vmem, 186, rfl⟩
abbrev cc26_stg3_0 : Ref sig .tc := ⟨.vmem, 187, rfl⟩
abbrev cc26_stg3_1 : Ref sig .tc := ⟨.vmem, 188, rfl⟩
abbrev cc27_stg0_0 : Ref sig .tc := ⟨.vmem, 189, rfl⟩
abbrev cc27_stg0_1 : Ref sig .tc := ⟨.vmem, 190, rfl⟩
abbrev cc27_stg1_0 : Ref sig .tc := ⟨.vmem, 191, rfl⟩
abbrev cc27_stg1_1 : Ref sig .tc := ⟨.vmem, 192, rfl⟩
abbrev cc27_stg2_0 : Ref sig .tc := ⟨.vmem, 193, rfl⟩
abbrev cc27_stg3_0 : Ref sig .tc := ⟨.vmem, 194, rfl⟩
abbrev cc27_stg3_1 : Ref sig .tc := ⟨.vmem, 195, rfl⟩
abbrev cc28_stg0_0 : Ref sig .tc := ⟨.vmem, 196, rfl⟩
abbrev cc28_stg0_1 : Ref sig .tc := ⟨.vmem, 197, rfl⟩
abbrev cc28_stg1_0 : Ref sig .tc := ⟨.vmem, 198, rfl⟩
abbrev cc28_stg1_1 : Ref sig .tc := ⟨.vmem, 199, rfl⟩
abbrev cc28_stg2_0 : Ref sig .tc := ⟨.vmem, 200, rfl⟩
abbrev cc28_stg3_0 : Ref sig .tc := ⟨.vmem, 201, rfl⟩
abbrev cc28_stg3_1 : Ref sig .tc := ⟨.vmem, 202, rfl⟩
abbrev cc29_stg0_0 : Ref sig .tc := ⟨.vmem, 203, rfl⟩
abbrev cc29_stg0_1 : Ref sig .tc := ⟨.vmem, 204, rfl⟩
abbrev cc29_stg1_0 : Ref sig .tc := ⟨.vmem, 205, rfl⟩
abbrev cc29_stg1_1 : Ref sig .tc := ⟨.vmem, 206, rfl⟩
abbrev cc29_stg2_0 : Ref sig .tc := ⟨.vmem, 207, rfl⟩
abbrev cc29_stg3_0 : Ref sig .tc := ⟨.vmem, 208, rfl⟩
abbrev cc29_stg3_1 : Ref sig .tc := ⟨.vmem, 209, rfl⟩
abbrev cc30_stg0_0 : Ref sig .tc := ⟨.vmem, 210, rfl⟩
abbrev cc30_stg0_1 : Ref sig .tc := ⟨.vmem, 211, rfl⟩
abbrev cc30_stg1_0 : Ref sig .tc := ⟨.vmem, 212, rfl⟩
abbrev cc30_stg1_1 : Ref sig .tc := ⟨.vmem, 213, rfl⟩
abbrev cc30_stg2_0 : Ref sig .tc := ⟨.vmem, 214, rfl⟩
abbrev cc30_stg3_0 : Ref sig .tc := ⟨.vmem, 215, rfl⟩
abbrev cc30_stg3_1 : Ref sig .tc := ⟨.vmem, 216, rfl⟩
abbrev cc31_stg0_0 : Ref sig .tc := ⟨.vmem, 217, rfl⟩
abbrev cc31_stg0_1 : Ref sig .tc := ⟨.vmem, 218, rfl⟩
abbrev cc31_stg1_0 : Ref sig .tc := ⟨.vmem, 219, rfl⟩
abbrev cc31_stg1_1 : Ref sig .tc := ⟨.vmem, 220, rfl⟩
abbrev cc31_stg2_0 : Ref sig .tc := ⟨.vmem, 221, rfl⟩
abbrev cc31_stg3_0 : Ref sig .tc := ⟨.vmem, 222, rfl⟩
abbrev cc31_stg3_1 : Ref sig .tc := ⟨.vmem, 223, rfl⟩
abbrev cc32_stg0_0 : Ref sig .tc := ⟨.vmem, 224, rfl⟩
abbrev cc32_stg0_1 : Ref sig .tc := ⟨.vmem, 225, rfl⟩
abbrev cc32_stg1_0 : Ref sig .tc := ⟨.vmem, 226, rfl⟩
abbrev cc32_stg1_1 : Ref sig .tc := ⟨.vmem, 227, rfl⟩
abbrev cc32_stg2_0 : Ref sig .tc := ⟨.vmem, 228, rfl⟩
abbrev cc32_stg3_0 : Ref sig .tc := ⟨.vmem, 229, rfl⟩
abbrev cc32_stg3_1 : Ref sig .tc := ⟨.vmem, 230, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem3_0 : DmaSem sig := 75
abbrev cc10_sem3_1 : DmaSem sig := 76
abbrev cc11_sem0_0 : DmaSem sig := 77
abbrev cc11_sem0_1 : DmaSem sig := 78
abbrev cc11_sem1_0 : DmaSem sig := 79
abbrev cc11_sem1_1 : DmaSem sig := 80
abbrev cc11_sem2_0 : DmaSem sig := 81
abbrev cc11_sem3_0 : DmaSem sig := 82
abbrev cc11_sem3_1 : DmaSem sig := 83
abbrev cc12_sem0_0 : DmaSem sig := 84
abbrev cc12_sem0_1 : DmaSem sig := 85
abbrev cc12_sem1_0 : DmaSem sig := 86
abbrev cc12_sem1_1 : DmaSem sig := 87
abbrev cc12_sem2_0 : DmaSem sig := 88
abbrev cc12_sem3_0 : DmaSem sig := 89
abbrev cc12_sem3_1 : DmaSem sig := 90
abbrev cc13_sem0_0 : DmaSem sig := 91
abbrev cc13_sem0_1 : DmaSem sig := 92
abbrev cc13_sem1_0 : DmaSem sig := 93
abbrev cc13_sem1_1 : DmaSem sig := 94
abbrev cc13_sem2_0 : DmaSem sig := 95
abbrev cc13_sem3_0 : DmaSem sig := 96
abbrev cc13_sem3_1 : DmaSem sig := 97
abbrev cc14_sem0_0 : DmaSem sig := 98
abbrev cc14_sem0_1 : DmaSem sig := 99
abbrev cc14_sem1_0 : DmaSem sig := 100
abbrev cc14_sem1_1 : DmaSem sig := 101
abbrev cc14_sem2_0 : DmaSem sig := 102
abbrev cc14_sem3_0 : DmaSem sig := 103
abbrev cc14_sem3_1 : DmaSem sig := 104
abbrev cc15_sem0_0 : DmaSem sig := 105
abbrev cc15_sem0_1 : DmaSem sig := 106
abbrev cc15_sem1_0 : DmaSem sig := 107
abbrev cc15_sem1_1 : DmaSem sig := 108
abbrev cc15_sem2_0 : DmaSem sig := 109
abbrev cc15_sem3_0 : DmaSem sig := 110
abbrev cc15_sem3_1 : DmaSem sig := 111
abbrev cc16_sem0_0 : DmaSem sig := 112
abbrev cc16_sem0_1 : DmaSem sig := 113
abbrev cc16_sem1_0 : DmaSem sig := 114
abbrev cc16_sem1_1 : DmaSem sig := 115
abbrev cc16_sem2_0 : DmaSem sig := 116
abbrev cc16_sem3_0 : DmaSem sig := 117
abbrev cc16_sem3_1 : DmaSem sig := 118
abbrev cc17_sem0_0 : DmaSem sig := 119
abbrev cc17_sem0_1 : DmaSem sig := 120
abbrev cc17_sem1_0 : DmaSem sig := 121
abbrev cc17_sem1_1 : DmaSem sig := 122
abbrev cc17_sem2_0 : DmaSem sig := 123
abbrev cc17_sem3_0 : DmaSem sig := 124
abbrev cc17_sem3_1 : DmaSem sig := 125
abbrev cc18_sem0_0 : DmaSem sig := 126
abbrev cc18_sem0_1 : DmaSem sig := 127
abbrev cc18_sem1_0 : DmaSem sig := 128
abbrev cc18_sem1_1 : DmaSem sig := 129
abbrev cc18_sem2_0 : DmaSem sig := 130
abbrev cc18_sem3_0 : DmaSem sig := 131
abbrev cc18_sem3_1 : DmaSem sig := 132
abbrev cc19_sem0_0 : DmaSem sig := 133
abbrev cc19_sem0_1 : DmaSem sig := 134
abbrev cc19_sem1_0 : DmaSem sig := 135
abbrev cc19_sem1_1 : DmaSem sig := 136
abbrev cc19_sem2_0 : DmaSem sig := 137
abbrev cc19_sem3_0 : DmaSem sig := 138
abbrev cc19_sem3_1 : DmaSem sig := 139
abbrev cc20_sem0_0 : DmaSem sig := 140
abbrev cc20_sem0_1 : DmaSem sig := 141
abbrev cc20_sem1_0 : DmaSem sig := 142
abbrev cc20_sem1_1 : DmaSem sig := 143
abbrev cc20_sem2_0 : DmaSem sig := 144
abbrev cc20_sem3_0 : DmaSem sig := 145
abbrev cc20_sem3_1 : DmaSem sig := 146
abbrev cc21_sem0_0 : DmaSem sig := 147
abbrev cc21_sem0_1 : DmaSem sig := 148
abbrev cc21_sem1_0 : DmaSem sig := 149
abbrev cc21_sem1_1 : DmaSem sig := 150
abbrev cc21_sem2_0 : DmaSem sig := 151
abbrev cc21_sem3_0 : DmaSem sig := 152
abbrev cc21_sem3_1 : DmaSem sig := 153
abbrev cc22_sem0_0 : DmaSem sig := 154
abbrev cc22_sem0_1 : DmaSem sig := 155
abbrev cc22_sem1_0 : DmaSem sig := 156
abbrev cc22_sem1_1 : DmaSem sig := 157
abbrev cc22_sem2_0 : DmaSem sig := 158
abbrev cc22_sem3_0 : DmaSem sig := 159
abbrev cc22_sem3_1 : DmaSem sig := 160
abbrev cc23_sem0_0 : DmaSem sig := 161
abbrev cc23_sem0_1 : DmaSem sig := 162
abbrev cc23_sem1_0 : DmaSem sig := 163
abbrev cc23_sem1_1 : DmaSem sig := 164
abbrev cc23_sem2_0 : DmaSem sig := 165
abbrev cc23_sem3_0 : DmaSem sig := 166
abbrev cc23_sem3_1 : DmaSem sig := 167
abbrev cc24_sem0_0 : DmaSem sig := 168
abbrev cc24_sem0_1 : DmaSem sig := 169
abbrev cc24_sem1_0 : DmaSem sig := 170
abbrev cc24_sem1_1 : DmaSem sig := 171
abbrev cc24_sem2_0 : DmaSem sig := 172
abbrev cc24_sem3_0 : DmaSem sig := 173
abbrev cc24_sem3_1 : DmaSem sig := 174
abbrev cc25_sem0_0 : DmaSem sig := 175
abbrev cc25_sem0_1 : DmaSem sig := 176
abbrev cc25_sem1_0 : DmaSem sig := 177
abbrev cc25_sem1_1 : DmaSem sig := 178
abbrev cc25_sem2_0 : DmaSem sig := 179
abbrev cc25_sem3_0 : DmaSem sig := 180
abbrev cc25_sem3_1 : DmaSem sig := 181
abbrev cc26_sem0_0 : DmaSem sig := 182
abbrev cc26_sem0_1 : DmaSem sig := 183
abbrev cc26_sem1_0 : DmaSem sig := 184
abbrev cc26_sem1_1 : DmaSem sig := 185
abbrev cc26_sem2_0 : DmaSem sig := 186
abbrev cc26_sem3_0 : DmaSem sig := 187
abbrev cc26_sem3_1 : DmaSem sig := 188
abbrev cc27_sem0_0 : DmaSem sig := 189
abbrev cc27_sem0_1 : DmaSem sig := 190
abbrev cc27_sem1_0 : DmaSem sig := 191
abbrev cc27_sem1_1 : DmaSem sig := 192
abbrev cc27_sem2_0 : DmaSem sig := 193
abbrev cc27_sem3_0 : DmaSem sig := 194
abbrev cc27_sem3_1 : DmaSem sig := 195
abbrev cc28_sem0_0 : DmaSem sig := 196
abbrev cc28_sem0_1 : DmaSem sig := 197
abbrev cc28_sem1_0 : DmaSem sig := 198
abbrev cc28_sem1_1 : DmaSem sig := 199
abbrev cc28_sem2_0 : DmaSem sig := 200
abbrev cc28_sem3_0 : DmaSem sig := 201
abbrev cc28_sem3_1 : DmaSem sig := 202
abbrev cc29_sem0_0 : DmaSem sig := 203
abbrev cc29_sem0_1 : DmaSem sig := 204
abbrev cc29_sem1_0 : DmaSem sig := 205
abbrev cc29_sem1_1 : DmaSem sig := 206
abbrev cc29_sem2_0 : DmaSem sig := 207
abbrev cc29_sem3_0 : DmaSem sig := 208
abbrev cc29_sem3_1 : DmaSem sig := 209
abbrev cc30_sem0_0 : DmaSem sig := 210
abbrev cc30_sem0_1 : DmaSem sig := 211
abbrev cc30_sem1_0 : DmaSem sig := 212
abbrev cc30_sem1_1 : DmaSem sig := 213
abbrev cc30_sem2_0 : DmaSem sig := 214
abbrev cc30_sem3_0 : DmaSem sig := 215
abbrev cc30_sem3_1 : DmaSem sig := 216
abbrev cc31_sem0_0 : DmaSem sig := 217
abbrev cc31_sem0_1 : DmaSem sig := 218
abbrev cc31_sem1_0 : DmaSem sig := 219
abbrev cc31_sem1_1 : DmaSem sig := 220
abbrev cc31_sem2_0 : DmaSem sig := 221
abbrev cc31_sem3_0 : DmaSem sig := 222
abbrev cc31_sem3_1 : DmaSem sig := 223
abbrev cc32_sem0_0 : DmaSem sig := 224
abbrev cc32_sem0_1 : DmaSem sig := 225
abbrev cc32_sem1_0 : DmaSem sig := 226
abbrev cc32_sem1_1 : DmaSem sig := 227
abbrev cc32_sem2_0 : DmaSem sig := 228
abbrev cc32_sem3_0 : DmaSem sig := 229
abbrev cc32_sem3_1 : DmaSem sig := 230

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2020x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x248x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1956x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x240x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1892x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x8x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x232x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x1828x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x8x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x224x768 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x1764x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x8x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x216x768 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x1700x768 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![4], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x8x768 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x208x768 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x1636x768 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x8x768 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x200x768 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x768 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1x1572x768 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![4], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x8x768 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x192x768 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1x1508x768 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![4], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x8x768 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x184x768 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x768 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1x1444x768 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![4], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x8x768 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x176x768 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x768 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S1x1380x768 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![4], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x8x768 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x168x768 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x768 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S1x1316x768 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![4], ![false]⟩

def cc13_transform_0 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x8x768 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x160x768 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x768 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S1x1252x768 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![4], ![false]⟩

def cc14_transform_0 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x8x768 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x152x768 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x768 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S1x1188x768 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![4], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x8x768 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x144x768 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x768 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S1x1124x768 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![4], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x8x768 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x136x768 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x768 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S1x1060x768 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![4], ![false]⟩

def cc17_transform_0 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc17_transform_1 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S1x8x768 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x128x768 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S1x768 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S1x996x768 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![4], ![false]⟩

def cc18_transform_0 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc18_transform_1 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x8x768 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x120x768 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S1x768 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S1x932x768 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![4], ![false]⟩

def cc19_transform_0 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc19_transform_1 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x8x768 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1x112x768 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S1x768 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S1x868x768 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![4], ![false]⟩

def cc20_transform_0 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc20_transform_1 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage20_0 : Fin 2 → Memref sig .tc .vmem S1x8x768 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S1x104x768 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x768 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S1x804x768 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![4], ![false]⟩

def cc21_transform_0 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc21_transform_1 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage21_0 : Fin 2 → Memref sig .tc .vmem S1x8x768 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S1x96x768 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S1x768 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S1x740x768 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![4], ![false]⟩

def cc22_transform_0 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc22_transform_1 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage22_0 : Fin 2 → Memref sig .tc .vmem S1x8x768 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S1x88x768 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S1x768 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S1x676x768 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev grid23 : Pipeline.Grid := ⟨1, ![4], ![false]⟩

def cc23_transform_0 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc23_transform_1 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage23_0 : Fin 2 → Memref sig .tc .vmem S1x8x768 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S1x80x768 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 1 → Memref sig .tc .vmem S1x768 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S1x612x768 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev grid24 : Pipeline.Grid := ⟨1, ![4], ![false]⟩

def cc24_transform_0 (i : grid24.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc24_transform_1 (i : grid24.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage24_0 : Fin 2 → Memref sig .tc .vmem S1x8x768 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S1x72x768 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 1 → Memref sig .tc .vmem S1x768 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 2 → Memref sig .tc .vmem S1x548x768 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev grid25 : Pipeline.Grid := ⟨1, ![4], ![false]⟩

def cc25_transform_0 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc25_transform_1 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage25_0 : Fin 2 → Memref sig .tc .vmem S1x8x768 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S1x64x768 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 1 → Memref sig .tc .vmem S1x768 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 2 → Memref sig .tc .vmem S1x484x768 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev grid26 : Pipeline.Grid := ⟨1, ![4], ![false]⟩

def cc26_transform_0 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc26_transform_1 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage26_0 : Fin 2 → Memref sig .tc .vmem S1x8x768 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S1x56x768 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev stage26_2 : Fin 1 → Memref sig .tc .vmem S1x768 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S1x420x768 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev grid27 : Pipeline.Grid := ⟨1, ![4], ![false]⟩

def cc27_transform_0 (i : grid27.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc27_transform_1 (i : grid27.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage27_0 : Fin 2 → Memref sig .tc .vmem S1x8x768 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 2 → Memref sig .tc .vmem S1x48x768 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true]

abbrev stage27_2 : Fin 1 → Memref sig .tc .vmem S1x768 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 2 → Memref sig .tc .vmem S1x356x768 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

abbrev grid28 : Pipeline.Grid := ⟨1, ![4], ![false]⟩

def cc28_transform_0 (i : grid28.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc28_transform_1 (i : grid28.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage28_0 : Fin 2 → Memref sig .tc .vmem S1x8x768 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 2 → Memref sig .tc .vmem S1x40x768 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev stage28_2 : Fin 1 → Memref sig .tc .vmem S1x768 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 2 → Memref sig .tc .vmem S1x292x768 .f32 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true]

abbrev grid29 : Pipeline.Grid := ⟨1, ![4], ![false]⟩

def cc29_transform_0 (i : grid29.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc29_transform_1 (i : grid29.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage29_0 : Fin 2 → Memref sig .tc .vmem S1x8x768 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S1x32x768 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev stage29_2 : Fin 1 → Memref sig .tc .vmem S1x768 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 2 → Memref sig .tc .vmem S1x228x768 .f32 := fun | 0 => Memref.whole cc29_stg3_0 | 1 => Memref.whole cc29_stg3_1 | ⟨_ + 2, h⟩ => absurd h (Nat.not_lt.2 (Nat.le_add_left _ _))
abbrev sem29_3 : Fin 2 → DmaSem sig := fun | 0 => cc29_sem3_0 | 1 => cc29_sem3_1 | ⟨_ + 2, h⟩ => absurd h (Nat.not_lt.2 (Nat.le_add_left _ _))
abbrev reads29_3 : Fin grid29.rank → Bool := ![true]

abbrev grid30 : Pipeline.Grid := ⟨1, ![4], ![false]⟩

def cc30_transform_0 (i : grid30.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc30_transform_1 (i : grid30.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc30_transform_2 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_3 (i : grid30.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage30_0 : Fin 2 → Memref sig .tc .vmem S1x8x768 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 2 → Memref sig .tc .vmem S1x24x768 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true]

abbrev stage30_2 : Fin 1 → Memref sig .tc .vmem S1x768 .f32 := fun | 0 => Memref.whole cc30_stg2_0 | ⟨_ + 1, h⟩ => absurd h (Nat.not_lt.2 (Nat.le_add_left _ _))
abbrev sem30_2 : Fin 1 → DmaSem sig := fun | 0 => cc30_sem2_0 | ⟨_ + 1, h⟩ => absurd h (Nat.not_lt.2 (Nat.le_add_left _ _))
abbrev reads30_2 : Fin grid30.rank → Bool := ![false]

abbrev stage30_3 : Fin 2 → Memref sig .tc .vmem S1x164x768 .f32 := fun | 0 => Memref.whole cc30_stg3_0 | 1 => Memref.whole cc30_stg3_1 | ⟨_ + 2, h⟩ => absurd h (Nat.not_lt.2 (Nat.le_add_left _ _))
abbrev sem30_3 : Fin 2 → DmaSem sig := fun | 0 => cc30_sem3_0 | 1 => cc30_sem3_1 | ⟨_ + 2, h⟩ => absurd h (Nat.not_lt.2 (Nat.le_add_left _ _))
abbrev reads30_3 : Fin grid30.rank → Bool := ![true]

abbrev grid31 : Pipeline.Grid := ⟨1, ![4], ![false]⟩

def cc31_transform_0 (i : grid31.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc31_transform_1 (i : grid31.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc31_transform_2 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_3 (i : grid31.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage31_0 : Fin 2 → Memref sig .tc .vmem S1x8x768 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S1x16x768 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev stage31_2 : Fin 1 → Memref sig .tc .vmem S1x768 .f32 := fun | 0 => Memref.whole cc31_stg2_0 | ⟨_ + 1, h⟩ => absurd h (Nat.not_lt.2 (Nat.le_add_left _ _))
abbrev sem31_2 : Fin 1 → DmaSem sig := fun | 0 => cc31_sem2_0 | ⟨_ + 1, h⟩ => absurd h (Nat.not_lt.2 (Nat.le_add_left _ _))
abbrev reads31_2 : Fin grid31.rank → Bool := ![false]

abbrev stage31_3 : Fin 2 → Memref sig .tc .vmem S1x100x768 .f32 := fun | 0 => Memref.whole cc31_stg3_0 | 1 => Memref.whole cc31_stg3_1 | ⟨_ + 2, h⟩ => absurd h (Nat.not_lt.2 (Nat.le_add_left _ _))
abbrev sem31_3 : Fin 2 → DmaSem sig := fun | 0 => cc31_sem3_0 | 1 => cc31_sem3_1 | ⟨_ + 2, h⟩ => absurd h (Nat.not_lt.2 (Nat.le_add_left _ _))
abbrev reads31_3 : Fin grid31.rank → Bool := ![true]

abbrev grid32 : Pipeline.Grid := ⟨1, ![4], ![false]⟩

def cc32_transform_0 (i : grid32.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc32_transform_1 (i : grid32.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc32_transform_2 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_3 (i : grid32.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage32_0 : Fin 2 → Memref sig .tc .vmem S1x8x768 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 2 → Memref sig .tc .vmem S1x8x768 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![true]

abbrev stage32_2 : Fin 1 → Memref sig .tc .vmem S1x768 .f32 := fun | 0 => Memref.whole cc32_stg2_0 | ⟨_ + 1, h⟩ => absurd h (Nat.not_lt.2 (Nat.le_add_left _ _))
abbrev sem32_2 : Fin 1 → DmaSem sig := fun | 0 => cc32_sem2_0 | ⟨_ + 1, h⟩ => absurd h (Nat.not_lt.2 (Nat.le_add_left _ _))
abbrev reads32_2 : Fin grid32.rank → Bool := ![false]

abbrev stage32_3 : Fin 2 → Memref sig .tc .vmem S1x36x768 .f32 := fun | 0 => Memref.whole cc32_stg3_0 | 1 => Memref.whole cc32_stg3_1 | ⟨_ + 2, h⟩ => absurd h (Nat.not_lt.2 (Nat.le_add_left _ _))
abbrev sem32_3 : Fin 2 → DmaSem sig := fun | 0 => cc32_sem3_0 | 1 => cc32_sem3_1 | ⟨_ + 2, h⟩ => absurd h (Nat.not_lt.2 (Nat.le_add_left _ _))
abbrev reads32_3 : Fin grid32.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S1024x768.size a
  hwx0_0 : ∀ i : grid0.Coords, EltTy.bits .f32 = 32 ∨ (Rect.block (s := S1024x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x1536.size a
  hwx0_1 : ∀ i : grid0.Coords, EltTy.bits .f32 = 32 ∨ (Rect.block (s := S768x1536) S768x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S1024x768.size a
  hwx0_2 : ∀ i : grid0.Coords, EltTy.bits .f32 = 32 ∨ (Rect.block (s := S1024x768) S256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S1024x768.size a
  hwx0_3 : ∀ i : grid0.Coords, EltTy.bits .f32 = 32 ∨ (Rect.block (s := S1024x768) S256x768.size (cc0_transform_3 i) (hinb0_3 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x768.size a ≤ S4x8x768.size a
  hwx1_0 : ∀ i : grid1.Coords, EltTy.bits .f32 = 32 ∨ (Rect.block (s := S4x8x768) S1x8x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x768.size a ≤ S4x256x768.size a
  hwx1_1 : ∀ i : grid1.Coords, EltTy.bits .f32 = 32 ∨ (Rect.block (s := S4x256x768) S1x256x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2020x768.size a ≤ S4x2020x768.size a
  hwx1_3 : ∀ i : grid1.Coords, EltTy.bits .f32 = 32 ∨ (Rect.block (s := S4x2020x768) S1x2020x768.size (cc1_transform_3 i) (hinb1_3 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x768.size a ≤ S4x8x768.size a
  hwx2_0 : ∀ i : grid2.Coords, EltTy.bits .f32 = 32 ∨ (Rect.block (s := S4x8x768) S1x8x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x248x768.size a ≤ S4x248x768.size a
  hwx2_1 : ∀ i : grid2.Coords, EltTy.bits .f32 = 32 ∨ (Rect.block (s := S4x248x768) S1x248x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1956x768.size a ≤ S4x1956x768.size a
  hwx2_3 : ∀ i : grid2.Coords, EltTy.bits .f32 = 32 ∨ (Rect.block (s := S4x1956x768) S1x1956x768.size (cc2_transform_3 i) (hinb2_3 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8x768.size a ≤ S4x8x768.size a
  hwx3_0 : ∀ i : grid3.Coords, EltTy.bits .f32 = 32 ∨ (Rect.block (s := S4x8x768) S1x8x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x240x768.size a ≤ S4x240x768.size a
  hwx3_1 : ∀ i : grid3.Coords, EltTy.bits .f32 = 32 ∨ (Rect.block (s := S4x240x768) S1x240x768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1892x768.size a ≤ S4x1892x768.size a
  hwx3_3 : ∀ i : grid3.Coords, EltTy.bits .f32 = 32 ∨ (Rect.block (s := S4x1892x768) S1x1892x768.size (cc3_transform_3 i) (hinb3_3 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x8x768.size a ≤ S4x8x768.size a
  hwx4_0 : ∀ i : grid4.Coords, EltTy.bits .f32 = 32 ∨ (Rect.block (s := S4x8x768) S1x8x768.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x232x768.size a ≤ S4x232x768.size a
  hwx4_1 : ∀ i : grid4.Coords, EltTy.bits .f32 = 32 ∨ (Rect.block (s := S4x232x768) S1x232x768.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x768.size a ≤ S1x768.size a
  hwx4_2 : ∀ i : grid4.Coords, EltTy.bits .f32 = 32 ∨ (Rect.block (s := S1x768) S1x768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1828x768.size a ≤ S4x1828x768.size a
  hwx4_3 : ∀ i : grid4.Coords, EltTy.bits .f32 = 32 ∨ (Rect.block (s := S4x1828x768) S1x1828x768.size (cc4_transform_3 i) (hinb4_3 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x8x768.size a ≤ S4x8x768.size a
  hwx5_0 : ∀ i : grid5.Coords, EltTy.bits .f32 = 32 ∨ (Rect.block (s := S4x8x768) S1x8x768.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x224x768.size a ≤ S4x224x768.size a
  hwx5_1 : ∀ i : grid5.Coords, EltTy.bits .f32 = 32 ∨ (Rect.block (s := S4x224x768) S1x224x768.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x768.size a ≤ S1x768.size a
  hwx5_2 : ∀ i : grid5.Coords, EltTy.bits .f32 = 32 ∨ (Rect.block (s := S1x768) S1x768.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1764x768.size a ≤ S4x1764x768.size a
  hwx5_3 : ∀ i : grid5.Coords, EltTy.bits .f32 = 32 ∨ (Rect.block (s := S4x1764x768) S1x1764x768.size (cc5_transform_3 i) (hinb5_3 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x8x768.size a ≤ S4x8x768.size a
  hwx6_0 : ∀ i : grid6.Coords, EltTy.bits .f32 = 32 ∨ (Rect.block (s := S4x8x768) S1x8x768.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x216x768.size a ≤ S4x216x768.size a
  hwx6_1 : ∀ i : grid6.Coords, EltTy.bits .f32 = 32 ∨ (Rect.block (s := S4x216x768) S1x216x768.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x768.size a ≤ S1x768.size a
  hwx6_2 : ∀ i : grid6.Coords, EltTy.bits .f32 = 32 ∨ (Rect.block (s := S1x768) S1x768.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1700x768.size a ≤ S4x1700x768.size a
  hwx6_3 : ∀ i : grid6.Coords, EltTy.bits .f32 = 32 ∨ (Rect.block (s := S4x1700x768) S1x1700x768.size (cc6_transform_3 i) (hinb6_3 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x8x768.size a ≤ S4x8x768.size a
  hwx7_0 : ∀ i : grid7.Coords, EltTy.bits .f32 = 32 ∨ (Rect.block (s := S4x8x768) S1x8x768.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x208x768.size a ≤ S4x208x768.size a
  hwx7_1 : ∀ i : grid7.Coords, EltTy.bits .f32 = 32 ∨ (Rect.block (s := S4x208x768) S1x208x768.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x768.size a ≤ S1x768.size a
  hwx7_2 : ∀ i : grid7.Coords, EltTy.bits .f32 = 32 ∨ (Rect.block (s := S1x768) S1x768.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1636x768.size a ≤ S4x1636x768.size a
  hwx7_3 : ∀ i : grid7.Coords, EltTy.bits .f32 = 32 ∨ (Rect.block (s := S4x1636x768) S1x1636x768.size (cc7_transform_3 i) (hinb7_3 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x8x768.size a ≤ S4x8x768.size a
  hwx8_0 : ∀ i : grid8.Coords, EltTy.bits .f32 = 32 ∨ (Rect.block (s := S4x8x768) S1x8x768.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x200x768.size a ≤ S4x200x768.size a
  hwx8_1 : ∀ i : grid8.Coords, EltTy.bits .f32 = 32 ∨ (Rect.block (s := S4x200x768) S1x200x768.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x768.size a ≤ S1x768.size a
  hwx8_2 : ∀ i : grid8.Coords, EltTy.bits .f32 = 32 ∨ (Rect.block (s := S1x768) S1x768.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x1572x768.size a ≤ S4x1572x768.size a
  hwx8_3 : ∀ i : grid8.Coords, EltTy.bits .f32 = 32 ∨ (Rect.block (s := S4x1572x768) S1x1572x768.size (cc8_transform_3 i) (hinb8_3 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x8x768.size a ≤ S4x8x768.size a
  hwx9_0 : ∀ i : grid9.Coords, EltTy.bits .f32 = 32 ∨ (Rect.block (s := S4x8x768) S1x8x768.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x192x768.size a ≤ S4x192x768.size a
  hwx9_1 : ∀ i : grid9.Coords, EltTy.bits .f32 = 32 ∨ (Rect.block (s := S4x192x768) S1x192x768.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x768.size a ≤ S1x768.size a
  hwx9_2 : ∀ i : grid9.Coords, EltTy.bits .f32 = 32 ∨ (Rect.block (s := S1x768) S1x768.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x1508x768.size a ≤ S4x1508x768.size a
  hwx9_3 : ∀ i : grid9.Coords, EltTy.bits .f32 = 32 ∨ (Rect.block (s := S4x1508x768) S1x1508x768.size (cc9_transform_3 i) (hinb9_3 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x8x768.size a ≤ S4x8x768.size a
  hwx10_0 : ∀ i : grid10.Coords, EltTy.bits .f32 = 32 ∨ (Rect.block (s := S4x8x768) S1x8x768.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x184x768.size a ≤ S4x184x768.size a
  hwx10_1 : ∀ i : grid10.Coords, EltTy.bits .f32 = 32 ∨ (Rect.block (s := S4x184x768) S1x184x768.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x768.size a ≤ S1x768.size a
  hwx10_2 : ∀ i : grid10.Coords, EltTy.bits .f32 = 32 ∨ (Rect.block (s := S1x768) S1x768.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x1444x768.size a ≤ S4x1444x768.size a
  hwx10_3 : ∀ i : grid10.Coords, EltTy.bits .f32 = 32 ∨ (Rect.block (s := S4x1444x768) S1x1444x768.size (cc10_transform_3 i) (hinb10_3 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x8x768.size a ≤ S4x8x768.size a
  hwx11_0 : ∀ i : grid11.Coords, EltTy.bits .f32 = 32 ∨ (Rect.block (s := S4x8x768) S1x8x768.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x176x768.size a ≤ S4x176x768.size a
  hwx11_1 : ∀ i : grid11.Coords, EltTy.bits .f32 = 32 ∨ (Rect.block (s := S4x176x768) S1x176x768.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x768.size a ≤ S1x768.size a
  hwx11_2 : ∀ i : grid11.Coords, EltTy.bits .f32 = 32 ∨ (Rect.block (s := S1x768) S1x768.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x1380x768.size a ≤ S4x1380x768.size a
  hwx11_3 : ∀ i : grid11.Coords, EltTy.bits .f32 = 32 ∨ (Rect.block (s := S4x1380x768) S1x1380x768.size (cc11_transform_3 i) (hinb11_3 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x8x768.size a ≤ S4x8x768.size a
  hwx12_0 : ∀ i : grid12.Coords, EltTy.bits .f32 = 32 ∨ (Rect.block (s := S4x8x768) S1x8x768.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x168x768.size a ≤ S4x168x768.size a
  hwx12_1 : ∀ i : grid12.Coords, EltTy.bits .f32 = 32 ∨ (Rect.block (s := S4x168x768) S1x168x768.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x768.size a ≤ S1x768.size a
  hwx12_2 : ∀ i : grid12.Coords, EltTy.bits .f32 = 32 ∨ (Rect.block (s := S1x768) S1x768.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1x1316x768.size a ≤ S4x1316x768.size a
  hwx12_3 : ∀ i : grid12.Coords, EltTy.bits .f32 = 32 ∨ (Rect.block (s := S4x1316x768) S1x1316x768.size (cc12_transform_3 i) (hinb12_3 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1x8x768.size a ≤ S4x8x768.size a
  hwx13_0 : ∀ i : grid13.Coords, EltTy.bits .f32 = 32 ∨ (Rect.block (s := S4x8x768) S1x8x768.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x160x768.size a ≤ S4x160x768.size a
  hwx13_1 : ∀ i : grid13.Coords, EltTy.bits .f32 = 32 ∨ (Rect.block (s := S4x160x768) S1x160x768.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x768.size a ≤ S1x768.size a
  hwx13_2 : ∀ i : grid13.Coords, EltTy.bits .f32 = 32 ∨ (Rect.block (s := S1x768) S1x768.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1x1252x768.size a ≤ S4x1252x768.size a
  hwx13_3 : ∀ i : grid13.Coords, EltTy.bits .f32 = 32 ∨ (Rect.block (s := S4x1252x768) S1x1252x768.size (cc13_transform_3 i) (hinb13_3 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x8x768.size a ≤ S4x8x768.size a
  hwx14_0 : ∀ i : grid14.Coords, EltTy.bits .f32 = 32 ∨ (Rect.block (s := S4x8x768) S1x8x768.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x152x768.size a ≤ S4x152x768.size a
  hwx14_1 : ∀ i : grid14.Coords, EltTy.bits .f32 = 32 ∨ (Rect.block (s := S4x152x768) S1x152x768.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x768.size a ≤ S1x768.size a
  hwx14_2 : ∀ i : grid14.Coords, EltTy.bits .f32 = 32 ∨ (Rect.block (s := S1x768) S1x768.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1x1188x768.size a ≤ S4x1188x768.size a
  hwx14_3 : ∀ i : grid14.Coords, EltTy.bits .f32 = 32 ∨ (Rect.block (s := S4x1188x768) S1x1188x768.size (cc14_transform_3 i) (hinb14_3 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x8x768.size a ≤ S4x8x768.size a
  hwx15_0 : ∀ i : grid15.Coords, EltTy.bits .f32 = 32 ∨ (Rect.block (s := S4x8x768) S1x8x768.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x144x768.size a ≤ S4x144x768.size a
  hwx15_1 : ∀ i : grid15.Coords, EltTy.bits .f32 = 32 ∨ (Rect.block (s := S4x144x768) S1x144x768.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x768.size a ≤ S1x768.size a
  hwx15_2 : ∀ i : grid15.Coords, EltTy.bits .f32 = 32 ∨ (Rect.block (s := S1x768) S1x768.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1x1124x768.size a ≤ S4x1124x768.size a
  hwx15_3 : ∀ i : grid15.Coords, EltTy.bits .f32 = 32 ∨ (Rect.block (s := S4x1124x768) S1x1124x768.size (cc15_transform_3 i) (hinb15_3 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x8x768.size a ≤ S4x8x768.size a
  hwx16_0 : ∀ i : grid16.Coords, EltTy.bits .f32 = 32 ∨ (Rect.block (s := S4x8x768) S1x8x768.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x136x768.size a ≤ S4x136x768.size a
  hwx16_1 : ∀ i : grid16.Coords, EltTy.bits .f32 = 32 ∨ (Rect.block (s := S4x136x768) S1x136x768.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x768.size a ≤ S1x768.size a
  hwx16_2 : ∀ i : grid16.Coords, EltTy.bits .f32 = 32 ∨ (Rect.block (s := S1x768) S1x768.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1x1060x768.size a ≤ S4x1060x768.size a
  hwx16_3 : ∀ i : grid16.Coords, EltTy.bits .f32 = 32 ∨ (Rect.block (s := S4x1060x768) S1x1060x768.size (cc16_transform_3 i) (hinb16_3 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1x8x768.size a ≤ S4x8x768.size a
  hwx17_0 : ∀ i : grid17.Coords, EltTy.bits .f32 = 32 ∨ (Rect.block (s := S4x8x768) S1x8x768.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x128x768.size a ≤ S4x128x768.size a
  hwx17_1 : ∀ i : grid17.Coords, EltTy.bits .f32 = 32 ∨ (Rect.block (s := S4x128x768) S1x128x768.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x768.size a ≤ S1x768.size a
  hwx17_2 : ∀ i : grid17.Coords, EltTy.bits .f32 = 32 ∨ (Rect.block (s := S1x768) S1x768.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S1x996x768.size a ≤ S4x996x768.size a
  hwx17_3 : ∀ i : grid17.Coords, EltTy.bits .f32 = 32 ∨ (Rect.block (s := S4x996x768) S1x996x768.size (cc17_transform_3 i) (hinb17_3 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1x8x768.size a ≤ S4x8x768.size a
  hwx18_0 : ∀ i : grid18.Coords, EltTy.bits .f32 = 32 ∨ (Rect.block (s := S4x8x768) S1x8x768.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1x120x768.size a ≤ S4x120x768.size a
  hwx18_1 : ∀ i : grid18.Coords, EltTy.bits .f32 = 32 ∨ (Rect.block (s := S4x120x768) S1x120x768.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x768.size a ≤ S1x768.size a
  hwx18_2 : ∀ i : grid18.Coords, EltTy.bits .f32 = 32 ∨ (Rect.block (s := S1x768) S1x768.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S1x932x768.size a ≤ S4x932x768.size a
  hwx18_3 : ∀ i : grid18.Coords, EltTy.bits .f32 = 32 ∨ (Rect.block (s := S4x932x768) S1x932x768.size (cc18_transform_3 i) (hinb18_3 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1x8x768.size a ≤ S4x8x768.size a
  hwx19_0 : ∀ i : grid19.Coords, EltTy.bits .f32 = 32 ∨ (Rect.block (s := S4x8x768) S1x8x768.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1x112x768.size a ≤ S4x112x768.size a
  hwx19_1 : ∀ i : grid19.Coords, EltTy.bits .f32 = 32 ∨ (Rect.block (s := S4x112x768) S1x112x768.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x768.size a ≤ S1x768.size a
  hwx19_2 : ∀ i : grid19.Coords, EltTy.bits .f32 = 32 ∨ (Rect.block (s := S1x768) S1x768.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S1x868x768.size a ≤ S4x868x768.size a
  hwx19_3 : ∀ i : grid19.Coords, EltTy.bits .f32 = 32 ∨ (Rect.block (s := S4x868x768) S1x868x768.size (cc19_transform_3 i) (hinb19_3 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1x8x768.size a ≤ S4x8x768.size a
  hwx20_0 : ∀ i : grid20.Coords, EltTy.bits .f32 = 32 ∨ (Rect.block (s := S4x8x768) S1x8x768.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1x104x768.size a ≤ S4x104x768.size a
  hwx20_1 : ∀ i : grid20.Coords, EltTy.bits .f32 = 32 ∨ (Rect.block (s := S4x104x768) S1x104x768.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x768.size a ≤ S1x768.size a
  hwx20_2 : ∀ i : grid20.Coords, EltTy.bits .f32 = 32 ∨ (Rect.block (s := S1x768) S1x768.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S1x804x768.size a ≤ S4x804x768.size a
  hwx20_3 : ∀ i : grid20.Coords, EltTy.bits .f32 = 32 ∨ (Rect.block (s := S4x804x768) S1x804x768.size (cc20_transform_3 i) (hinb20_3 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1x8x768.size a ≤ S4x8x768.size a
  hwx21_0 : ∀ i : grid21.Coords, EltTy.bits .f32 = 32 ∨ (Rect.block (s := S4x8x768) S1x8x768.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1x96x768.size a ≤ S4x96x768.size a
  hwx21_1 : ∀ i : grid21.Coords, EltTy.bits .f32 = 32 ∨ (Rect.block (s := S4x96x768) S1x96x768.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x768.size a ≤ S1x768.size a
  hwx21_2 : ∀ i : grid21.Coords, EltTy.bits .f32 = 32 ∨ (Rect.block (s := S1x768) S1x768.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S1x740x768.size a ≤ S4x740x768.size a
  hwx21_3 : ∀ i : grid21.Coords, EltTy.bits .f32 = 32 ∨ (Rect.block (s := S4x740x768) S1x740x768.size (cc21_transform_3 i) (hinb21_3 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1x8x768.size a ≤ S4x8x768.size a
  hwx22_0 : ∀ i : grid22.Coords, EltTy.bits .f32 = 32 ∨ (Rect.block (s := S4x8x768) S1x8x768.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1x88x768.size a ≤ S4x88x768.size a
  hwx22_1 : ∀ i : grid22.Coords, EltTy.bits .f32 = 32 ∨ (Rect.block (s := S4x88x768) S1x88x768.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x768.size a ≤ S1x768.size a
  hwx22_2 : ∀ i : grid22.Coords, EltTy.bits .f32 = 32 ∨ (Rect.block (s := S1x768) S1x768.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S1x676x768.size a ≤ S4x676x768.size a
  hwx22_3 : ∀ i : grid22.Coords, EltTy.bits .f32 = 32 ∨ (Rect.block (s := S4x676x768) S1x676x768.size (cc22_transform_3 i) (hinb22_3 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1x8x768.size a ≤ S4x8x768.size a
  hwx23_0 : ∀ i : grid23.Coords, EltTy.bits .f32 = 32 ∨ (Rect.block (s := S4x8x768) S1x8x768.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1x80x768.size a ≤ S4x80x768.size a
  hwx23_1 : ∀ i : grid23.Coords, EltTy.bits .f32 = 32 ∨ (Rect.block (s := S4x80x768) S1x80x768.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x768.size a ≤ S1x768.size a
  hwx23_2 : ∀ i : grid23.Coords, EltTy.bits .f32 = 32 ∨ (Rect.block (s := S1x768) S1x768.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S1x612x768.size a ≤ S4x612x768.size a
  hwx23_3 : ∀ i : grid23.Coords, EltTy.bits .f32 = 32 ∨ (Rect.block (s := S4x612x768) S1x612x768.size (cc23_transform_3 i) (hinb23_3 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1x8x768.size a ≤ S4x8x768.size a
  hwx24_0 : ∀ i : grid24.Coords, EltTy.bits .f32 = 32 ∨ (Rect.block (s := S4x8x768) S1x8x768.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S1x72x768.size a ≤ S4x72x768.size a
  hwx24_1 : ∀ i : grid24.Coords, EltTy.bits .f32 = 32 ∨ (Rect.block (s := S4x72x768) S1x72x768.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x768.size a ≤ S1x768.size a
  hwx24_2 : ∀ i : grid24.Coords, EltTy.bits .f32 = 32 ∨ (Rect.block (s := S1x768) S1x768.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S1x548x768.size a ≤ S4x548x768.size a
  hwx24_3 : ∀ i : grid24.Coords, EltTy.bits .f32 = 32 ∨ (Rect.block (s := S4x548x768) S1x548x768.size (cc24_transform_3 i) (hinb24_3 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1x8x768.size a ≤ S4x8x768.size a
  hwx25_0 : ∀ i : grid25.Coords, EltTy.bits .f32 = 32 ∨ (Rect.block (s := S4x8x768) S1x8x768.size (cc25_transform_0 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1x64x768.size a ≤ S4x64x768.size a
  hwx25_1 : ∀ i : grid25.Coords, EltTy.bits .f32 = 32 ∨ (Rect.block (s := S4x64x768) S1x64x768.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x768.size a ≤ S1x768.size a
  hwx25_2 : ∀ i : grid25.Coords, EltTy.bits .f32 = 32 ∨ (Rect.block (s := S1x768) S1x768.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S1x484x768.size a ≤ S4x484x768.size a
  hwx25_3 : ∀ i : grid25.Coords, EltTy.bits .f32 = 32 ∨ (Rect.block (s := S4x484x768) S1x484x768.size (cc25_transform_3 i) (hinb25_3 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1x8x768.size a ≤ S4x8x768.size a
  hwx26_0 : ∀ i : grid26.Coords, EltTy.bits .f32 = 32 ∨ (Rect.block (s := S4x8x768) S1x8x768.size (cc26_transform_0 i) (hinb26_0 i)).WholeWords (EltTy.packing .f32)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1x56x768.size a ≤ S4x56x768.size a
  hwx26_1 : ∀ i : grid26.Coords, EltTy.bits .f32 = 32 ∨ (Rect.block (s := S4x56x768) S1x56x768.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x768.size a ≤ S1x768.size a
  hwx26_2 : ∀ i : grid26.Coords, EltTy.bits .f32 = 32 ∨ (Rect.block (s := S1x768) S1x768.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S1x420x768.size a ≤ S4x420x768.size a
  hwx26_3 : ∀ i : grid26.Coords, EltTy.bits .f32 = 32 ∨ (Rect.block (s := S4x420x768) S1x420x768.size (cc26_transform_3 i) (hinb26_3 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1x8x768.size a ≤ S4x8x768.size a
  hwx27_0 : ∀ i : grid27.Coords, EltTy.bits .f32 = 32 ∨ (Rect.block (s := S4x8x768) S1x8x768.size (cc27_transform_0 i) (hinb27_0 i)).WholeWords (EltTy.packing .f32)
  hstage27_1 : ∀ j, (stage27_1 j).IsWhole
  nbuf27_1 : grid27.bufCount reads27_1 false = 2
  hreads27_1 : ∀ i i' : grid27.Coords, (∀ a, reads27_1 a = true → i a = i' a) → cc27_transform_1 i = cc27_transform_1 i'
  hinb27_1 : ∀ (i : grid27.Coords) a, (cc27_transform_1 i a + 1) * S1x48x768.size a ≤ S4x48x768.size a
  hwx27_1 : ∀ i : grid27.Coords, EltTy.bits .f32 = 32 ∨ (Rect.block (s := S4x48x768) S1x48x768.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x768.size a ≤ S1x768.size a
  hwx27_2 : ∀ i : grid27.Coords, EltTy.bits .f32 = 32 ∨ (Rect.block (s := S1x768) S1x768.size (cc27_transform_2 i) (hinb27_2 i)).WholeWords (EltTy.packing .f32)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S1x356x768.size a ≤ S4x356x768.size a
  hwx27_3 : ∀ i : grid27.Coords, EltTy.bits .f32 = 32 ∨ (Rect.block (s := S4x356x768) S1x356x768.size (cc27_transform_3 i) (hinb27_3 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1x8x768.size a ≤ S4x8x768.size a
  hwx28_0 : ∀ i : grid28.Coords, EltTy.bits .f32 = 32 ∨ (Rect.block (s := S4x8x768) S1x8x768.size (cc28_transform_0 i) (hinb28_0 i)).WholeWords (EltTy.packing .f32)
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1x40x768.size a ≤ S4x40x768.size a
  hwx28_1 : ∀ i : grid28.Coords, EltTy.bits .f32 = 32 ∨ (Rect.block (s := S4x40x768) S1x40x768.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x768.size a ≤ S1x768.size a
  hwx28_2 : ∀ i : grid28.Coords, EltTy.bits .f32 = 32 ∨ (Rect.block (s := S1x768) S1x768.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S1x292x768.size a ≤ S4x292x768.size a
  hwx28_3 : ∀ i : grid28.Coords, EltTy.bits .f32 = 32 ∨ (Rect.block (s := S4x292x768) S1x292x768.size (cc28_transform_3 i) (hinb28_3 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S1x8x768.size a ≤ S4x8x768.size a
  hwx29_0 : ∀ i : grid29.Coords, EltTy.bits .f32 = 32 ∨ (Rect.block (s := S4x8x768) S1x8x768.size (cc29_transform_0 i) (hinb29_0 i)).WholeWords (EltTy.packing .f32)
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S1x32x768.size a ≤ S4x32x768.size a
  hwx29_1 : ∀ i : grid29.Coords, EltTy.bits .f32 = 32 ∨ (Rect.block (s := S4x32x768) S1x32x768.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x768.size a ≤ S1x768.size a
  hwx29_2 : ∀ i : grid29.Coords, EltTy.bits .f32 = 32 ∨ (Rect.block (s := S1x768) S1x768.size (cc29_transform_2 i) (hinb29_2 i)).WholeWords (EltTy.packing .f32)
  hstage29_3 : ∀ j, (stage29_3 j).IsWhole
  nbuf29_3 : grid29.bufCount reads29_3 false = 2
  hreads29_3 : ∀ i i' : grid29.Coords, (∀ a, reads29_3 a = true → i a = i' a) → cc29_transform_3 i = cc29_transform_3 i'
  hinb29_3 : ∀ (i : grid29.Coords) a, (cc29_transform_3 i a + 1) * S1x228x768.size a ≤ S4x228x768.size a
  hwx29_3 : ∀ i : grid29.Coords, EltTy.bits .f32 = 32 ∨ (Rect.block (s := S4x228x768) S1x228x768.size (cc29_transform_3 i) (hinb29_3 i)).WholeWords (EltTy.packing .f32)

class K30.Facts₀ : Prop where
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S1x8x768.size a ≤ S4x8x768.size a
  hwx30_0 : ∀ i : grid30.Coords, EltTy.bits .f32 = 32 ∨ (Rect.block (s := S4x8x768) S1x8x768.size (cc30_transform_0 i) (hinb30_0 i)).WholeWords (EltTy.packing .f32)
  hstage30_1 : ∀ j, (stage30_1 j).IsWhole
  nbuf30_1 : grid30.bufCount reads30_1 false = 2
  hreads30_1 : ∀ i i' : grid30.Coords, (∀ a, reads30_1 a = true → i a = i' a) → cc30_transform_1 i = cc30_transform_1 i'
  hinb30_1 : ∀ (i : grid30.Coords) a, (cc30_transform_1 i a + 1) * S1x24x768.size a ≤ S4x24x768.size a
  hwx30_1 : ∀ i : grid30.Coords, EltTy.bits .f32 = 32 ∨ (Rect.block (s := S4x24x768) S1x24x768.size (cc30_transform_1 i) (hinb30_1 i)).WholeWords (EltTy.packing .f32)
  hstage30_2 : ∀ j, (stage30_2 j).IsWhole
  nbuf30_2 : grid30.bufCount reads30_2 true = 1
  hreads30_2 : ∀ i i' : grid30.Coords, (∀ a, reads30_2 a = true → i a = i' a) → cc30_transform_2 i = cc30_transform_2 i'
  hinb30_2 : ∀ (i : grid30.Coords) a, (cc30_transform_2 i a + 1) * S1x768.size a ≤ S1x768.size a
  hwx30_2 : ∀ i : grid30.Coords, EltTy.bits .f32 = 32 ∨ (Rect.block (s := S1x768) S1x768.size (cc30_transform_2 i) (hinb30_2 i)).WholeWords (EltTy.packing .f32)
  hstage30_3 : ∀ j, (stage30_3 j).IsWhole
  nbuf30_3 : grid30.bufCount reads30_3 false = 2
  hreads30_3 : ∀ i i' : grid30.Coords, (∀ a, reads30_3 a = true → i a = i' a) → cc30_transform_3 i = cc30_transform_3 i'
  hinb30_3 : ∀ (i : grid30.Coords) a, (cc30_transform_3 i a + 1) * S1x164x768.size a ≤ S4x164x768.size a
  hwx30_3 : ∀ i : grid30.Coords, EltTy.bits .f32 = 32 ∨ (Rect.block (s := S4x164x768) S1x164x768.size (cc30_transform_3 i) (hinb30_3 i)).WholeWords (EltTy.packing .f32)

class K31.Facts₀ : Prop where
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S1x8x768.size a ≤ S4x8x768.size a
  hwx31_0 : ∀ i : grid31.Coords, EltTy.bits .f32 = 32 ∨ (Rect.block (s := S4x8x768) S1x8x768.size (cc31_transform_0 i) (hinb31_0 i)).WholeWords (EltTy.packing .f32)
  hstage31_1 : ∀ j, (stage31_1 j).IsWhole
  nbuf31_1 : grid31.bufCount reads31_1 false = 2
  hreads31_1 : ∀ i i' : grid31.Coords, (∀ a, reads31_1 a = true → i a = i' a) → cc31_transform_1 i = cc31_transform_1 i'
  hinb31_1 : ∀ (i : grid31.Coords) a, (cc31_transform_1 i a + 1) * S1x16x768.size a ≤ S4x16x768.size a
  hwx31_1 : ∀ i : grid31.Coords, EltTy.bits .f32 = 32 ∨ (Rect.block (s := S4x16x768) S1x16x768.size (cc31_transform_1 i) (hinb31_1 i)).WholeWords (EltTy.packing .f32)
  hstage31_2 : ∀ j, (stage31_2 j).IsWhole
  nbuf31_2 : grid31.bufCount reads31_2 true = 1
  hreads31_2 : ∀ i i' : grid31.Coords, (∀ a, reads31_2 a = true → i a = i' a) → cc31_transform_2 i = cc31_transform_2 i'
  hinb31_2 : ∀ (i : grid31.Coords) a, (cc31_transform_2 i a + 1) * S1x768.size a ≤ S1x768.size a
  hwx31_2 : ∀ i : grid31.Coords, EltTy.bits .f32 = 32 ∨ (Rect.block (s := S1x768) S1x768.size (cc31_transform_2 i) (hinb31_2 i)).WholeWords (EltTy.packing .f32)
  hstage31_3 : ∀ j, (stage31_3 j).IsWhole
  nbuf31_3 : grid31.bufCount reads31_3 false = 2
  hreads31_3 : ∀ i i' : grid31.Coords, (∀ a, reads31_3 a = true → i a = i' a) → cc31_transform_3 i = cc31_transform_3 i'
  hinb31_3 : ∀ (i : grid31.Coords) a, (cc31_transform_3 i a + 1) * S1x100x768.size a ≤ S4x100x768.size a
  hwx31_3 : ∀ i : grid31.Coords, EltTy.bits .f32 = 32 ∨ (Rect.block (s := S4x100x768) S1x100x768.size (cc31_transform_3 i) (hinb31_3 i)).WholeWords (EltTy.packing .f32)

class K32.Facts₀ : Prop where
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S1x8x768.size a ≤ S4x8x768.size a
  hwx32_0 : ∀ i : grid32.Coords, EltTy.bits .f32 = 32 ∨ (Rect.block (s := S4x8x768) S1x8x768.size (cc32_transform_0 i) (hinb32_0 i)).WholeWords (EltTy.packing .f32)
  hstage32_1 : ∀ j, (stage32_1 j).IsWhole
  nbuf32_1 : grid32.bufCount reads32_1 false = 2
  hreads32_1 : ∀ i i' : grid32.Coords, (∀ a, reads32_1 a = true → i a = i' a) → cc32_transform_1 i = cc32_transform_1 i'
  hinb32_1 : ∀ (i : grid32.Coords) a, (cc32_transform_1 i a + 1) * S1x8x768.size a ≤ S4x8x768.size a
  hwx32_1 : ∀ i : grid32.Coords, EltTy.bits .f32 = 32 ∨ (Rect.block (s := S4x8x768) S1x8x768.size (cc32_transform_1 i) (hinb32_1 i)).WholeWords (EltTy.packing .f32)
  hstage32_2 : ∀ j, (stage32_2 j).IsWhole
  nbuf32_2 : grid32.bufCount reads32_2 true = 1
  hreads32_2 : ∀ i i' : grid32.Coords, (∀ a, reads32_2 a = true → i a = i' a) → cc32_transform_2 i = cc32_transform_2 i'
  hinb32_2 : ∀ (i : grid32.Coords) a, (cc32_transform_2 i a + 1) * S1x768.size a ≤ S1x768.size a
  hwx32_2 : ∀ i : grid32.Coords, EltTy.bits .f32 = 32 ∨ (Rect.block (s := S1x768) S1x768.size (cc32_transform_2 i) (hinb32_2 i)).WholeWords (EltTy.packing .f32)
  hstage32_3 : ∀ j, (stage32_3 j).IsWhole
  nbuf32_3 : grid32.bufCount reads32_3 false = 2
  hreads32_3 : ∀ i i' : grid32.Coords, (∀ a, reads32_3 a = true → i a = i' a) → cc32_transform_3 i = cc32_transform_3 i'
  hinb32_3 : ∀ (i : grid32.Coords) a, (cc32_transform_3 i a + 1) * S1x36x768.size a ≤ S4x36x768.size a
  hwx32_3 : ∀ i : grid32.Coords, EltTy.bits .f32 = 32 ∨ (Rect.block (s := S4x36x768) S1x36x768.size (cc32_transform_3 i) (hinb32_3 i)).WholeWords (EltTy.packing .f32)

class Shapes1.Facts₀ : Prop where
  shapeCasts_S4x256x768_S1024x768 : S4x256x768.ShapeCasts S1024x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x1536_S768x1536_0_0 : ∀ a, (![0, 0] : Fin 2 → Nat) a + S768x1536.size a ≤ S768x1536.size a
  h_S768x1536 : 0 < S768x1536.numel
  slices_S768x1536_o0_0_S768x768 : S768x1536.Slices ![0, 0] S768x768
  slices_S768x1536_o0_768_S768x768 : S768x1536.Slices ![0, 768] S768x768
  shapeCasts_S1024x768_S4x256x768 : S1024x768.ShapeCasts S4x256x768
  shapeCasts_S768_S1x768 : S768.ShapeCasts S1x768
  slices_S4x256x768_S4x8x768_0_0_0 : S4x256x768.Slices ![0, 0, 0] S4x8x768
  inb_S1x8x768_S1x8x768_0_0_0 : ∀ a, (![0, 0, 0] : Fin 3 → Nat) a + S1x8x768.size a ≤ S1x8x768.size a
  h_S1x8x768 : 0 < S1x8x768.numel
  shapeCasts_S1x8x768_S8x768 : S1x8x768.ShapeCasts S8x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S8x768_o0_0_S1x768 : S8x768.Slices ![0, 0] S1x768
  broadcasts_S1x768_S256x768 : S1x768.Broadcasts S256x768
  slices_S8x768_o1_0_S1x768 : S8x768.Slices ![1, 0] S1x768
  slices_S256x768_o1_0_S255x768 : S256x768.Slices ![1, 0] S255x768
  broadcasts_S1x768_S255x768 : S1x768.Broadcasts S255x768
  slices_S8x768_o2_0_S1x768 : S8x768.Slices ![2, 0] S1x768
  slices_S256x768_o2_0_S254x768 : S256x768.Slices ![2, 0] S254x768
  broadcasts_S1x768_S254x768 : S1x768.Broadcasts S254x768
  slices_S8x768_o3_0_S1x768 : S8x768.Slices ![3, 0] S1x768
  slices_S256x768_o3_0_S253x768 : S256x768.Slices ![3, 0] S253x768
  broadcasts_S1x768_S253x768 : S1x768.Broadcasts S253x768
  slices_S8x768_o4_0_S1x768 : S8x768.Slices ![4, 0] S1x768
  slices_S256x768_o4_0_S252x768 : S256x768.Slices ![4, 0] S252x768
  broadcasts_S1x768_S252x768 : S1x768.Broadcasts S252x768
  slices_S8x768_o5_0_S1x768 : S8x768.Slices ![5, 0] S1x768
  slices_S256x768_o5_0_S251x768 : S256x768.Slices ![5, 0] S251x768
  broadcasts_S1x768_S251x768 : S1x768.Broadcasts S251x768
  slices_S8x768_o6_0_S1x768 : S8x768.Slices ![6, 0] S1x768
  slices_S256x768_o6_0_S250x768 : S256x768.Slices ![6, 0] S250x768
  broadcasts_S1x768_S250x768 : S1x768.Broadcasts S250x768
  slices_S8x768_o7_0_S1x768 : S8x768.Slices ![7, 0] S1x768
  slices_S256x768_o7_0_S249x768 : S256x768.Slices ![7, 0] S249x768
  broadcasts_S1x768_S249x768 : S1x768.Broadcasts S249x768
  concatenates_S256x768_S255x768_S254x768_S253x768_S252x768_S251x768_S250x768_S249x768_S2020x768_d0 : Shape.Concatenates [S256x768, S255x768, S254x768, S253x768, S252x768, S251x768, S250x768, S249x768] S2020x768 0
  inb_S1x2020x768_S1x2020x768_0_0_0 : ∀ a, (![0, 0, 0] : Fin 3 → Nat) a + S1x2020x768.size a ≤ S1x2020x768.size a
  h_S1x2020x768 : 0 < S1x2020x768.numel
  shapeCasts_S1x2020x768_S2020x768 : S1x2020x768.ShapeCasts S2020x768
  shapeCasts_S2020x768_S1x2020x768 : S2020x768.ShapeCasts S1x2020x768
  slices_S4x256x768_S4x8x768_0_8_0 : S4x256x768.Slices ![0, 8, 0] S4x8x768
  slices_S4x256x768_S4x248x768_0_8_0 : S4x256x768.Slices ![0, 8, 0] S4x248x768
  inb_S1x248x768_S1x248x768_0_0_0 : ∀ a, (![0, 0, 0] : Fin 3 → Nat) a + S1x248x768.size a ≤ S1x248x768.size a
  h_S1x248x768 : 0 < S1x248x768.numel
  shapeCasts_S1x248x768_S248x768 : S1x248x768.ShapeCasts S248x768
  broadcasts_S1x768_S248x768 : S1x768.Broadcasts S248x768
  slices_S248x768_o1_0_S247x768 : S248x768.Slices ![1, 0] S247x768
  broadcasts_S1x768_S247x768 : S1x768.Broadcasts S247x768
  slices_S248x768_o2_0_S246x768 : S248x768.Slices ![2, 0] S246x768
  broadcasts_S1x768_S246x768 : S1x768.Broadcasts S246x768
  slices_S248x768_o3_0_S245x768 : S248x768.Slices ![3, 0] S245x768
  broadcasts_S1x768_S245x768 : S1x768.Broadcasts S245x768
  slices_S248x768_o4_0_S244x768 : S248x768.Slices ![4, 0] S244x768
  broadcasts_S1x768_S244x768 : S1x768.Broadcasts S244x768
  slices_S248x768_o5_0_S243x768 : S248x768.Slices ![5, 0] S243x768
  broadcasts_S1x768_S243x768 : S1x768.Broadcasts S243x768
  slices_S248x768_o6_0_S242x768 : S248x768.Slices ![6, 0] S242x768
  broadcasts_S1x768_S242x768 : S1x768.Broadcasts S242x768
  slices_S248x768_o7_0_S241x768 : S248x768.Slices ![7, 0] S241x768
  broadcasts_S1x768_S241x768 : S1x768.Broadcasts S241x768
  concatenates_S248x768_S247x768_S246x768_S245x768_S244x768_S243x768_S242x768_S241x768_S1956x768_d0 : Shape.Concatenates [S248x768, S247x768, S246x768, S245x768, S244x768, S243x768, S242x768, S241x768] S1956x768 0
  inb_S1x1956x768_S1x1956x768_0_0_0 : ∀ a, (![0, 0, 0] : Fin 3 → Nat) a + S1x1956x768.size a ≤ S1x1956x768.size a
  h_S1x1956x768 : 0 < S1x1956x768.numel
  shapeCasts_S1x1956x768_S1956x768 : S1x1956x768.ShapeCasts S1956x768
  shapeCasts_S1956x768_S1x1956x768 : S1956x768.ShapeCasts S1x1956x768
  slices_S4x256x768_S4x8x768_0_16_0 : S4x256x768.Slices ![0, 16, 0] S4x8x768
  slices_S4x256x768_S4x240x768_0_16_0 : S4x256x768.Slices ![0, 16, 0] S4x240x768
  inb_S1x240x768_S1x240x768_0_0_0 : ∀ a, (![0, 0, 0] : Fin 3 → Nat) a + S1x240x768.size a ≤ S1x240x768.size a
  h_S1x240x768 : 0 < S1x240x768.numel
  shapeCasts_S1x240x768_S240x768 : S1x240x768.ShapeCasts S240x768
  broadcasts_S1x768_S240x768 : S1x768.Broadcasts S240x768
  slices_S240x768_o1_0_S239x768 : S240x768.Slices ![1, 0] S239x768
  broadcasts_S1x768_S239x768 : S1x768.Broadcasts S239x768
  slices_S240x768_o2_0_S238x768 : S240x768.Slices ![2, 0] S238x768
  broadcasts_S1x768_S238x768 : S1x768.Broadcasts S238x768
  slices_S240x768_o3_0_S237x768 : S240x768.Slices ![3, 0] S237x768
  broadcasts_S1x768_S237x768 : S1x768.Broadcasts S237x768
  slices_S240x768_o4_0_S236x768 : S240x768.Slices ![4, 0] S236x768
  broadcasts_S1x768_S236x768 : S1x768.Broadcasts S236x768
  slices_S240x768_o5_0_S235x768 : S240x768.Slices ![5, 0] S235x768
  broadcasts_S1x768_S235x768 : S1x768.Broadcasts S235x768
  slices_S240x768_o6_0_S234x768 : S240x768.Slices ![6, 0] S234x768
  broadcasts_S1x768_S234x768 : S1x768.Broadcasts S234x768
  slices_S240x768_o7_0_S233x768 : S240x768.Slices ![7, 0] S233x768
  broadcasts_S1x768_S233x768 : S1x768.Broadcasts S233x768
  concatenates_S240x768_S239x768_S238x768_S237x768_S236x768_S235x768_S234x768_S233x768_S1892x768_d0 : Shape.Concatenates [S240x768, S239x768, S238x768, S237x768, S236x768, S235x768, S234x768, S233x768] S1892x768 0
  inb_S1x1892x768_S1x1892x768_0_0_0 : ∀ a, (![0, 0, 0] : Fin 3 → Nat) a + S1x1892x768.size a ≤ S1x1892x768.size a
  h_S1x1892x768 : 0 < S1x1892x768.numel
  shapeCasts_S1x1892x768_S1892x768 : S1x1892x768.ShapeCasts S1892x768
  shapeCasts_S1892x768_S1x1892x768 : S1892x768.ShapeCasts S1x1892x768
  slices_S4x256x768_S4x8x768_0_24_0 : S4x256x768.Slices ![0, 24, 0] S4x8x768
  slices_S4x256x768_S4x232x768_0_24_0 : S4x256x768.Slices ![0, 24, 0] S4x232x768
  inb_S1x232x768_S1x232x768_0_0_0 : ∀ a, (![0, 0, 0] : Fin 3 → Nat) a + S1x232x768.size a ≤ S1x232x768.size a
  h_S1x232x768 : 0 < S1x232x768.numel
  shapeCasts_S1x232x768_S232x768 : S1x232x768.ShapeCasts S232x768
  broadcasts_S1x768_S232x768 : S1x768.Broadcasts S232x768
  slices_S232x768_o1_0_S231x768 : S232x768.Slices ![1, 0] S231x768
  broadcasts_S1x768_S231x768 : S1x768.Broadcasts S231x768
  slices_S232x768_o2_0_S230x768 : S232x768.Slices ![2, 0] S230x768
  broadcasts_S1x768_S230x768 : S1x768.Broadcasts S230x768
  slices_S232x768_o3_0_S229x768 : S232x768.Slices ![3, 0] S229x768
  broadcasts_S1x768_S229x768 : S1x768.Broadcasts S229x768
  slices_S232x768_o4_0_S228x768 : S232x768.Slices ![4, 0] S228x768
  broadcasts_S1x768_S228x768 : S1x768.Broadcasts S228x768
  slices_S232x768_o5_0_S227x768 : S232x768.Slices ![5, 0] S227x768
  broadcasts_S1x768_S227x768 : S1x768.Broadcasts S227x768
  slices_S232x768_o6_0_S226x768 : S232x768.Slices ![6, 0] S226x768
  broadcasts_S1x768_S226x768 : S1x768.Broadcasts S226x768
  slices_S232x768_o7_0_S225x768 : S232x768.Slices ![7, 0] S225x768
  broadcasts_S1x768_S225x768 : S1x768.Broadcasts S225x768
  concatenates_S232x768_S231x768_S230x768_S229x768_S228x768_S227x768_S226x768_S225x768_S1828x768_d0 : Shape.Concatenates [S232x768, S231x768, S230x768, S229x768, S228x768, S227x768, S226x768, S225x768] S1828x768 0
  inb_S1x1828x768_S1x1828x768_0_0_0 : ∀ a, (![0, 0, 0] : Fin 3 → Nat) a + S1x1828x768.size a ≤ S1x1828x768.size a
  h_S1x1828x768 : 0 < S1x1828x768.numel
  shapeCasts_S1x1828x768_S1828x768 : S1x1828x768.ShapeCasts S1828x768
  shapeCasts_S1828x768_S1x1828x768 : S1828x768.ShapeCasts S1x1828x768
  slices_S4x256x768_S4x8x768_0_32_0 : S4x256x768.Slices ![0, 32, 0] S4x8x768
  slices_S4x256x768_S4x224x768_0_32_0 : S4x256x768.Slices ![0, 32, 0] S4x224x768
  inb_S1x224x768_S1x224x768_0_0_0 : ∀ a, (![0, 0, 0] : Fin 3 → Nat) a + S1x224x768.size a ≤ S1x224x768.size a
  h_S1x224x768 : 0 < S1x224x768.numel
  shapeCasts_S1x224x768_S224x768 : S1x224x768.ShapeCasts S224x768
  broadcasts_S1x768_S224x768 : S1x768.Broadcasts S224x768
  slices_S224x768_o1_0_S223x768 : S224x768.Slices ![1, 0] S223x768
  broadcasts_S1x768_S223x768 : S1x768.Broadcasts S223x768
  slices_S224x768_o2_0_S222x768 : S224x768.Slices ![2, 0] S222x768
  broadcasts_S1x768_S222x768 : S1x768.Broadcasts S222x768
  slices_S224x768_o3_0_S221x768 : S224x768.Slices ![3, 0] S221x768
  broadcasts_S1x768_S221x768 : S1x768.Broadcasts S221x768
  slices_S224x768_o4_0_S220x768 : S224x768.Slices ![4, 0] S220x768
  broadcasts_S1x768_S220x768 : S1x768.Broadcasts S220x768
  slices_S224x768_o5_0_S219x768 : S224x768.Slices ![5, 0] S219x768
  broadcasts_S1x768_S219x768 : S1x768.Broadcasts S219x768
  slices_S224x768_o6_0_S218x768 : S224x768.Slices ![6, 0] S218x768
  broadcasts_S1x768_S218x768 : S1x768.Broadcasts S218x768
  slices_S224x768_o7_0_S217x768 : S224x768.Slices ![7, 0] S217x768
  broadcasts_S1x768_S217x768 : S1x768.Broadcasts S217x768
  concatenates_S224x768_S223x768_S222x768_S221x768_S220x768_S219x768_S218x768_S217x768_S1764x768_d0 : Shape.Concatenates [S224x768, S223x768, S222x768, S221x768, S220x768, S219x768, S218x768, S217x768] S1764x768 0
  inb_S1x1764x768_S1x1764x768_0_0_0 : ∀ a, (![0, 0, 0] : Fin 3 → Nat) a + S1x1764x768.size a ≤ S1x1764x768.size a
  h_S1x1764x768 : 0 < S1x1764x768.numel
  shapeCasts_S1x1764x768_S1764x768 : S1x1764x768.ShapeCasts S1764x768
  shapeCasts_S1764x768_S1x1764x768 : S1764x768.ShapeCasts S1x1764x768
  slices_S4x256x768_S4x8x768_0_40_0 : S4x256x768.Slices ![0, 40, 0] S4x8x768
  slices_S4x256x768_S4x216x768_0_40_0 : S4x256x768.Slices ![0, 40, 0] S4x216x768
  inb_S1x216x768_S1x216x768_0_0_0 : ∀ a, (![0, 0, 0] : Fin 3 → Nat) a + S1x216x768.size a ≤ S1x216x768.size a
  h_S1x216x768 : 0 < S1x216x768.numel
  shapeCasts_S1x216x768_S216x768 : S1x216x768.ShapeCasts S216x768
  broadcasts_S1x768_S216x768 : S1x768.Broadcasts S216x768
  slices_S216x768_o1_0_S215x768 : S216x768.Slices ![1, 0] S215x768
  broadcasts_S1x768_S215x768 : S1x768.Broadcasts S215x768
  slices_S216x768_o2_0_S214x768 : S216x768.Slices ![2, 0] S214x768
  broadcasts_S1x768_S214x768 : S1x768.Broadcasts S214x768
  slices_S216x768_o3_0_S213x768 : S216x768.Slices ![3, 0] S213x768
  broadcasts_S1x768_S213x768 : S1x768.Broadcasts S213x768
  slices_S216x768_o4_0_S212x768 : S216x768.Slices ![4, 0] S212x768
  broadcasts_S1x768_S212x768 : S1x768.Broadcasts S212x768
  slices_S216x768_o5_0_S211x768 : S216x768.Slices ![5, 0] S211x768
  broadcasts_S1x768_S211x768 : S1x768.Broadcasts S211x768
  slices_S216x768_o6_0_S210x768 : S216x768.Slices ![6, 0] S210x768
  broadcasts_S1x768_S210x768 : S1x768.Broadcasts S210x768
  slices_S216x768_o7_0_S209x768 : S216x768.Slices ![7, 0] S209x768
  broadcasts_S1x768_S209x768 : S1x768.Broadcasts S209x768
  concatenates_S216x768_S215x768_S214x768_S213x768_S212x768_S211x768_S210x768_S209x768_S1700x768_d0 : Shape.Concatenates [S216x768, S215x768, S214x768, S213x768, S212x768, S211x768, S210x768, S209x768] S1700x768 0
  inb_S1x1700x768_S1x1700x768_0_0_0 : ∀ a, (![0, 0, 0] : Fin 3 → Nat) a + S1x1700x768.size a ≤ S1x1700x768.size a
  h_S1x1700x768 : 0 < S1x1700x768.numel
  shapeCasts_S1x1700x768_S1700x768 : S1x1700x768.ShapeCasts S1700x768
  shapeCasts_S1700x768_S1x1700x768 : S1700x768.ShapeCasts S1x1700x768
  slices_S4x256x768_S4x8x768_0_48_0 : S4x256x768.Slices ![0, 48, 0] S4x8x768
  slices_S4x256x768_S4x208x768_0_48_0 : S4x256x768.Slices ![0, 48, 0] S4x208x768
  inb_S1x208x768_S1x208x768_0_0_0 : ∀ a, (![0, 0, 0] : Fin 3 → Nat) a + S1x208x768.size a ≤ S1x208x768.size a
  h_S1x208x768 : 0 < S1x208x768.numel
  shapeCasts_S1x208x768_S208x768 : S1x208x768.ShapeCasts S208x768
  broadcasts_S1x768_S208x768 : S1x768.Broadcasts S208x768
  slices_S208x768_o1_0_S207x768 : S208x768.Slices ![1, 0] S207x768
  broadcasts_S1x768_S207x768 : S1x768.Broadcasts S207x768
  slices_S208x768_o2_0_S206x768 : S208x768.Slices ![2, 0] S206x768
  broadcasts_S1x768_S206x768 : S1x768.Broadcasts S206x768
  slices_S208x768_o3_0_S205x768 : S208x768.Slices ![3, 0] S205x768
  broadcasts_S1x768_S205x768 : S1x768.Broadcasts S205x768
  slices_S208x768_o4_0_S204x768 : S208x768.Slices ![4, 0] S204x768
  broadcasts_S1x768_S204x768 : S1x768.Broadcasts S204x768
  slices_S208x768_o5_0_S203x768 : S208x768.Slices ![5, 0] S203x768
  broadcasts_S1x768_S203x768 : S1x768.Broadcasts S203x768
  slices_S208x768_o6_0_S202x768 : S208x768.Slices ![6, 0] S202x768
  broadcasts_S1x768_S202x768 : S1x768.Broadcasts S202x768
  slices_S208x768_o7_0_S201x768 : S208x768.Slices ![7, 0] S201x768
  broadcasts_S1x768_S201x768 : S1x768.Broadcasts S201x768
  concatenates_S208x768_S207x768_S206x768_S205x768_S204x768_S203x768_S202x768_S201x768_S1636x768_d0 : Shape.Concatenates [S208x768, S207x768, S206x768, S205x768, S204x768, S203x768, S202x768, S201x768] S1636x768 0
  inb_S1x1636x768_S1x1636x768_0_0_0 : ∀ a, (![0, 0, 0] : Fin 3 → Nat) a + S1x1636x768.size a ≤ S1x1636x768.size a
  h_S1x1636x768 : 0 < S1x1636x768.numel
  shapeCasts_S1x1636x768_S1636x768 : S1x1636x768.ShapeCasts S1636x768
  shapeCasts_S1636x768_S1x1636x768 : S1636x768.ShapeCasts S1x1636x768
  slices_S4x256x768_S4x8x768_0_56_0 : S4x256x768.Slices ![0, 56, 0] S4x8x768
  slices_S4x256x768_S4x200x768_0_56_0 : S4x256x768.Slices ![0, 56, 0] S4x200x768
  inb_S1x200x768_S1x200x768_0_0_0 : ∀ a, (![0, 0, 0] : Fin 3 → Nat) a + S1x200x768.size a ≤ S1x200x768.size a
  h_S1x200x768 : 0 < S1x200x768.numel
  shapeCasts_S1x200x768_S200x768 : S1x200x768.ShapeCasts S200x768
  broadcasts_S1x768_S200x768 : S1x768.Broadcasts S200x768
  slices_S200x768_o1_0_S199x768 : S200x768.Slices ![1, 0] S199x768
  broadcasts_S1x768_S199x768 : S1x768.Broadcasts S199x768
  slices_S200x768_o2_0_S198x768 : S200x768.Slices ![2, 0] S198x768
  broadcasts_S1x768_S198x768 : S1x768.Broadcasts S198x768
  slices_S200x768_o3_0_S197x768 : S200x768.Slices ![3, 0] S197x768
  broadcasts_S1x768_S197x768 : S1x768.Broadcasts S197x768
  slices_S200x768_o4_0_S196x768 : S200x768.Slices ![4, 0] S196x768
  broadcasts_S1x768_S196x768 : S1x768.Broadcasts S196x768
  slices_S200x768_o5_0_S195x768 : S200x768.Slices ![5, 0] S195x768
  broadcasts_S1x768_S195x768 : S1x768.Broadcasts S195x768
  slices_S200x768_o6_0_S194x768 : S200x768.Slices ![6, 0] S194x768
  broadcasts_S1x768_S194x768 : S1x768.Broadcasts S194x768
  slices_S200x768_o7_0_S193x768 : S200x768.Slices ![7, 0] S193x768
  broadcasts_S1x768_S193x768 : S1x768.Broadcasts S193x768
  concatenates_S200x768_S199x768_S198x768_S197x768_S196x768_S195x768_S194x768_S193x768_S1572x768_d0 : Shape.Concatenates [S200x768, S199x768, S198x768, S197x768, S196x768, S195x768, S194x768, S193x768] S1572x768 0
  inb_S1x1572x768_S1x1572x768_0_0_0 : ∀ a, (![0, 0, 0] : Fin 3 → Nat) a + S1x1572x768.size a ≤ S1x1572x768.size a
  h_S1x1572x768 : 0 < S1x1572x768.numel
  shapeCasts_S1x1572x768_S1572x768 : S1x1572x768.ShapeCasts S1572x768
  shapeCasts_S1572x768_S1x1572x768 : S1572x768.ShapeCasts S1x1572x768
  slices_S4x256x768_S4x8x768_0_64_0 : S4x256x768.Slices ![0, 64, 0] S4x8x768
  slices_S4x256x768_S4x192x768_0_64_0 : S4x256x768.Slices ![0, 64, 0] S4x192x768
  inb_S1x192x768_S1x192x768_0_0_0 : ∀ a, (![0, 0, 0] : Fin 3 → Nat) a + S1x192x768.size a ≤ S1x192x768.size a
  h_S1x192x768 : 0 < S1x192x768.numel
  shapeCasts_S1x192x768_S192x768 : S1x192x768.ShapeCasts S192x768
  broadcasts_S1x768_S192x768 : S1x768.Broadcasts S192x768
  slices_S192x768_o1_0_S191x768 : S192x768.Slices ![1, 0] S191x768
  broadcasts_S1x768_S191x768 : S1x768.Broadcasts S191x768
  slices_S192x768_o2_0_S190x768 : S192x768.Slices ![2, 0] S190x768
  broadcasts_S1x768_S190x768 : S1x768.Broadcasts S190x768
  slices_S192x768_o3_0_S189x768 : S192x768.Slices ![3, 0] S189x768
  broadcasts_S1x768_S189x768 : S1x768.Broadcasts S189x768
  slices_S192x768_o4_0_S188x768 : S192x768.Slices ![4, 0] S188x768
  broadcasts_S1x768_S188x768 : S1x768.Broadcasts S188x768
  slices_S192x768_o5_0_S187x768 : S192x768.Slices ![5, 0] S187x768
  broadcasts_S1x768_S187x768 : S1x768.Broadcasts S187x768
  slices_S192x768_o6_0_S186x768 : S192x768.Slices ![6, 0] S186x768
  broadcasts_S1x768_S186x768 : S1x768.Broadcasts S186x768
  slices_S192x768_o7_0_S185x768 : S192x768.Slices ![7, 0] S185x768
  broadcasts_S1x768_S185x768 : S1x768.Broadcasts S185x768
  concatenates_S192x768_S191x768_S190x768_S189x768_S188x768_S187x768_S186x768_S185x768_S1508x768_d0 : Shape.Concatenates [S192x768, S191x768, S190x768, S189x768, S188x768, S187x768, S186x768, S185x768] S1508x768 0
  inb_S1x1508x768_S1x1508x768_0_0_0 : ∀ a, (![0, 0, 0] : Fin 3 → Nat) a + S1x1508x768.size a ≤ S1x1508x768.size a
  h_S1x1508x768 : 0 < S1x1508x768.numel
  shapeCasts_S1x1508x768_S1508x768 : S1x1508x768.ShapeCasts S1508x768
  shapeCasts_S1508x768_S1x1508x768 : S1508x768.ShapeCasts S1x1508x768
  slices_S4x256x768_S4x8x768_0_72_0 : S4x256x768.Slices ![0, 72, 0] S4x8x768
  slices_S4x256x768_S4x184x768_0_72_0 : S4x256x768.Slices ![0, 72, 0] S4x184x768
  inb_S1x184x768_S1x184x768_0_0_0 : ∀ a, (![0, 0, 0] : Fin 3 → Nat) a + S1x184x768.size a ≤ S1x184x768.size a
  h_S1x184x768 : 0 < S1x184x768.numel
  shapeCasts_S1x184x768_S184x768 : S1x184x768.ShapeCasts S184x768
  broadcasts_S1x768_S184x768 : S1x768.Broadcasts S184x768
  slices_S184x768_o1_0_S183x768 : S184x768.Slices ![1, 0] S183x768
  broadcasts_S1x768_S183x768 : S1x768.Broadcasts S183x768
  slices_S184x768_o2_0_S182x768 : S184x768.Slices ![2, 0] S182x768
  broadcasts_S1x768_S182x768 : S1x768.Broadcasts S182x768
  slices_S184x768_o3_0_S181x768 : S184x768.Slices ![3, 0] S181x768
  broadcasts_S1x768_S181x768 : S1x768.Broadcasts S181x768
  slices_S184x768_o4_0_S180x768 : S184x768.Slices ![4, 0] S180x768
  broadcasts_S1x768_S180x768 : S1x768.Broadcasts S180x768
  slices_S184x768_o5_0_S179x768 : S184x768.Slices ![5, 0] S179x768
  broadcasts_S1x768_S179x768 : S1x768.Broadcasts S179x768
  slices_S184x768_o6_0_S178x768 : S184x768.Slices ![6, 0] S178x768
  broadcasts_S1x768_S178x768 : S1x768.Broadcasts S178x768
  slices_S184x768_o7_0_S177x768 : S184x768.Slices ![7, 0] S177x768
  broadcasts_S1x768_S177x768 : S1x768.Broadcasts S177x768
  concatenates_S184x768_S183x768_S182x768_S181x768_S180x768_S179x768_S178x768_S177x768_S1444x768_d0 : Shape.Concatenates [S184x768, S183x768, S182x768, S181x768, S180x768, S179x768, S178x768, S177x768] S1444x768 0
  inb_S1x1444x768_S1x1444x768_0_0_0 : ∀ a, (![0, 0, 0] : Fin 3 → Nat) a + S1x1444x768.size a ≤ S1x1444x768.size a
  h_S1x1444x768 : 0 < S1x1444x768.numel
  shapeCasts_S1x1444x768_S1444x768 : S1x1444x768.ShapeCasts S1444x768
  shapeCasts_S1444x768_S1x1444x768 : S1444x768.ShapeCasts S1x1444x768
  slices_S4x256x768_S4x8x768_0_80_0 : S4x256x768.Slices ![0, 80, 0] S4x8x768
  slices_S4x256x768_S4x176x768_0_80_0 : S4x256x768.Slices ![0, 80, 0] S4x176x768
  inb_S1x176x768_S1x176x768_0_0_0 : ∀ a, (![0, 0, 0] : Fin 3 → Nat) a + S1x176x768.size a ≤ S1x176x768.size a
  h_S1x176x768 : 0 < S1x176x768.numel
  shapeCasts_S1x176x768_S176x768 : S1x176x768.ShapeCasts S176x768
  broadcasts_S1x768_S176x768 : S1x768.Broadcasts S176x768
  slices_S176x768_o1_0_S175x768 : S176x768.Slices ![1, 0] S175x768
  broadcasts_S1x768_S175x768 : S1x768.Broadcasts S175x768
  slices_S176x768_o2_0_S174x768 : S176x768.Slices ![2, 0] S174x768
  broadcasts_S1x768_S174x768 : S1x768.Broadcasts S174x768
  slices_S176x768_o3_0_S173x768 : S176x768.Slices ![3, 0] S173x768
  broadcasts_S1x768_S173x768 : S1x768.Broadcasts S173x768
  slices_S176x768_o4_0_S172x768 : S176x768.Slices ![4, 0] S172x768
  broadcasts_S1x768_S172x768 : S1x768.Broadcasts S172x768
  slices_S176x768_o5_0_S171x768 : S176x768.Slices ![5, 0] S171x768
  broadcasts_S1x768_S171x768 : S1x768.Broadcasts S171x768
  slices_S176x768_o6_0_S170x768 : S176x768.Slices ![6, 0] S170x768
  broadcasts_S1x768_S170x768 : S1x768.Broadcasts S170x768
  slices_S176x768_o7_0_S169x768 : S176x768.Slices ![7, 0] S169x768
  broadcasts_S1x768_S169x768 : S1x768.Broadcasts S169x768
  concatenates_S176x768_S175x768_S174x768_S173x768_S172x768_S171x768_S170x768_S169x768_S1380x768_d0 : Shape.Concatenates [S176x768, S175x768, S174x768, S173x768, S172x768, S171x768, S170x768, S169x768] S1380x768 0
  inb_S1x1380x768_S1x1380x768_0_0_0 : ∀ a, (![0, 0, 0] : Fin 3 → Nat) a + S1x1380x768.size a ≤ S1x1380x768.size a
  h_S1x1380x768 : 0 < S1x1380x768.numel
  shapeCasts_S1x1380x768_S1380x768 : S1x1380x768.ShapeCasts S1380x768
  shapeCasts_S1380x768_S1x1380x768 : S1380x768.ShapeCasts S1x1380x768
  slices_S4x256x768_S4x8x768_0_88_0 : S4x256x768.Slices ![0, 88, 0] S4x8x768
  slices_S4x256x768_S4x168x768_0_88_0 : S4x256x768.Slices ![0, 88, 0] S4x168x768
  inb_S1x168x768_S1x168x768_0_0_0 : ∀ a, (![0, 0, 0] : Fin 3 → Nat) a + S1x168x768.size a ≤ S1x168x768.size a
  h_S1x168x768 : 0 < S1x168x768.numel
  shapeCasts_S1x168x768_S168x768 : S1x168x768.ShapeCasts S168x768
  broadcasts_S1x768_S168x768 : S1x768.Broadcasts S168x768
  slices_S168x768_o1_0_S167x768 : S168x768.Slices ![1, 0] S167x768
  broadcasts_S1x768_S167x768 : S1x768.Broadcasts S167x768
  slices_S168x768_o2_0_S166x768 : S168x768.Slices ![2, 0] S166x768
  broadcasts_S1x768_S166x768 : S1x768.Broadcasts S166x768
  slices_S168x768_o3_0_S165x768 : S168x768.Slices ![3, 0] S165x768
  broadcasts_S1x768_S165x768 : S1x768.Broadcasts S165x768
  slices_S168x768_o4_0_S164x768 : S168x768.Slices ![4, 0] S164x768
  broadcasts_S1x768_S164x768 : S1x768.Broadcasts S164x768
  slices_S168x768_o5_0_S163x768 : S168x768.Slices ![5, 0] S163x768
  broadcasts_S1x768_S163x768 : S1x768.Broadcasts S163x768
  slices_S168x768_o6_0_S162x768 : S168x768.Slices ![6, 0] S162x768
  broadcasts_S1x768_S162x768 : S1x768.Broadcasts S162x768
  slices_S168x768_o7_0_S161x768 : S168x768.Slices ![7, 0] S161x768
  broadcasts_S1x768_S161x768 : S1x768.Broadcasts S161x768
  concatenates_S168x768_S167x768_S166x768_S165x768_S164x768_S163x768_S162x768_S161x768_S1316x768_d0 : Shape.Concatenates [S168x768, S167x768, S166x768, S165x768, S164x768, S163x768, S162x768, S161x768] S1316x768 0
  inb_S1x1316x768_S1x1316x768_0_0_0 : ∀ a, (![0, 0, 0] : Fin 3 → Nat) a + S1x1316x768.size a ≤ S1x1316x768.size a
  h_S1x1316x768 : 0 < S1x1316x768.numel
  shapeCasts_S1x1316x768_S1316x768 : S1x1316x768.ShapeCasts S1316x768
  shapeCasts_S1316x768_S1x1316x768 : S1316x768.ShapeCasts S1x1316x768
  slices_S4x256x768_S4x8x768_0_96_0 : S4x256x768.Slices ![0, 96, 0] S4x8x768
  slices_S4x256x768_S4x160x768_0_96_0 : S4x256x768.Slices ![0, 96, 0] S4x160x768
  inb_S1x160x768_S1x160x768_0_0_0 : ∀ a, (![0, 0, 0] : Fin 3 → Nat) a + S1x160x768.size a ≤ S1x160x768.size a
  h_S1x160x768 : 0 < S1x160x768.numel
  shapeCasts_S1x160x768_S160x768 : S1x160x768.ShapeCasts S160x768
  broadcasts_S1x768_S160x768 : S1x768.Broadcasts S160x768
  slices_S160x768_o1_0_S159x768 : S160x768.Slices ![1, 0] S159x768
  broadcasts_S1x768_S159x768 : S1x768.Broadcasts S159x768
  slices_S160x768_o2_0_S158x768 : S160x768.Slices ![2, 0] S158x768
  broadcasts_S1x768_S158x768 : S1x768.Broadcasts S158x768
  slices_S160x768_o3_0_S157x768 : S160x768.Slices ![3, 0] S157x768
  broadcasts_S1x768_S157x768 : S1x768.Broadcasts S157x768
  slices_S160x768_o4_0_S156x768 : S160x768.Slices ![4, 0] S156x768
  broadcasts_S1x768_S156x768 : S1x768.Broadcasts S156x768
  slices_S160x768_o5_0_S155x768 : S160x768.Slices ![5, 0] S155x768
  broadcasts_S1x768_S155x768 : S1x768.Broadcasts S155x768
  slices_S160x768_o6_0_S154x768 : S160x768.Slices ![6, 0] S154x768
  broadcasts_S1x768_S154x768 : S1x768.Broadcasts S154x768
  slices_S160x768_o7_0_S153x768 : S160x768.Slices ![7, 0] S153x768
  broadcasts_S1x768_S153x768 : S1x768.Broadcasts S153x768
  concatenates_S160x768_S159x768_S158x768_S157x768_S156x768_S155x768_S154x768_S153x768_S1252x768_d0 : Shape.Concatenates [S160x768, S159x768, S158x768, S157x768, S156x768, S155x768, S154x768, S153x768] S1252x768 0
  inb_S1x1252x768_S1x1252x768_0_0_0 : ∀ a, (![0, 0, 0] : Fin 3 → Nat) a + S1x1252x768.size a ≤ S1x1252x768.size a
  h_S1x1252x768 : 0 < S1x1252x768.numel
  shapeCasts_S1x1252x768_S1252x768 : S1x1252x768.ShapeCasts S1252x768
  shapeCasts_S1252x768_S1x1252x768 : S1252x768.ShapeCasts S1x1252x768
  slices_S4x256x768_S4x8x768_0_104_0 : S4x256x768.Slices ![0, 104, 0] S4x8x768
  slices_S4x256x768_S4x152x768_0_104_0 : S4x256x768.Slices ![0, 104, 0] S4x152x768
  inb_S1x152x768_S1x152x768_0_0_0 : ∀ a, (![0, 0, 0] : Fin 3 → Nat) a + S1x152x768.size a ≤ S1x152x768.size a
  h_S1x152x768 : 0 < S1x152x768.numel
  shapeCasts_S1x152x768_S152x768 : S1x152x768.ShapeCasts S152x768
  broadcasts_S1x768_S152x768 : S1x768.Broadcasts S152x768
  slices_S152x768_o1_0_S151x768 : S152x768.Slices ![1, 0] S151x768
  broadcasts_S1x768_S151x768 : S1x768.Broadcasts S151x768
  slices_S152x768_o2_0_S150x768 : S152x768.Slices ![2, 0] S150x768
  broadcasts_S1x768_S150x768 : S1x768.Broadcasts S150x768
  slices_S152x768_o3_0_S149x768 : S152x768.Slices ![3, 0] S149x768
  broadcasts_S1x768_S149x768 : S1x768.Broadcasts S149x768
  slices_S152x768_o4_0_S148x768 : S152x768.Slices ![4, 0] S148x768
  broadcasts_S1x768_S148x768 : S1x768.Broadcasts S148x768
  slices_S152x768_o5_0_S147x768 : S152x768.Slices ![5, 0] S147x768
  broadcasts_S1x768_S147x768 : S1x768.Broadcasts S147x768
  slices_S152x768_o6_0_S146x768 : S152x768.Slices ![6, 0] S146x768
  broadcasts_S1x768_S146x768 : S1x768.Broadcasts S146x768
  slices_S152x768_o7_0_S145x768 : S152x768.Slices ![7, 0] S145x768
  broadcasts_S1x768_S145x768 : S1x768.Broadcasts S145x768
  concatenates_S152x768_S151x768_S150x768_S149x768_S148x768_S147x768_S146x768_S145x768_S1188x768_d0 : Shape.Concatenates [S152x768, S151x768, S150x768, S149x768, S148x768, S147x768, S146x768, S145x768] S1188x768 0
  inb_S1x1188x768_S1x1188x768_0_0_0 : ∀ a, (![0, 0, 0] : Fin 3 → Nat) a + S1x1188x768.size a ≤ S1x1188x768.size a
  h_S1x1188x768 : 0 < S1x1188x768.numel
  shapeCasts_S1x1188x768_S1188x768 : S1x1188x768.ShapeCasts S1188x768
  shapeCasts_S1188x768_S1x1188x768 : S1188x768.ShapeCasts S1x1188x768
  slices_S4x256x768_S4x8x768_0_112_0 : S4x256x768.Slices ![0, 112, 0] S4x8x768
  slices_S4x256x768_S4x144x768_0_112_0 : S4x256x768.Slices ![0, 112, 0] S4x144x768
  inb_S1x144x768_S1x144x768_0_0_0 : ∀ a, (![0, 0, 0] : Fin 3 → Nat) a + S1x144x768.size a ≤ S1x144x768.size a
  h_S1x144x768 : 0 < S1x144x768.numel
  shapeCasts_S1x144x768_S144x768 : S1x144x768.ShapeCasts S144x768
  broadcasts_S1x768_S144x768 : S1x768.Broadcasts S144x768
  slices_S144x768_o1_0_S143x768 : S144x768.Slices ![1, 0] S143x768
  broadcasts_S1x768_S143x768 : S1x768.Broadcasts S143x768
  slices_S144x768_o2_0_S142x768 : S144x768.Slices ![2, 0] S142x768
  broadcasts_S1x768_S142x768 : S1x768.Broadcasts S142x768
  slices_S144x768_o3_0_S141x768 : S144x768.Slices ![3, 0] S141x768
  broadcasts_S1x768_S141x768 : S1x768.Broadcasts S141x768
  slices_S144x768_o4_0_S140x768 : S144x768.Slices ![4, 0] S140x768
  broadcasts_S1x768_S140x768 : S1x768.Broadcasts S140x768
  slices_S144x768_o5_0_S139x768 : S144x768.Slices ![5, 0] S139x768
  broadcasts_S1x768_S139x768 : S1x768.Broadcasts S139x768
  slices_S144x768_o6_0_S138x768 : S144x768.Slices ![6, 0] S138x768
  broadcasts_S1x768_S138x768 : S1x768.Broadcasts S138x768
  slices_S144x768_o7_0_S137x768 : S144x768.Slices ![7, 0] S137x768
  broadcasts_S1x768_S137x768 : S1x768.Broadcasts S137x768
  concatenates_S144x768_S143x768_S142x768_S141x768_S140x768_S139x768_S138x768_S137x768_S1124x768_d0 : Shape.Concatenates [S144x768, S143x768, S142x768, S141x768, S140x768, S139x768, S138x768, S137x768] S1124x768 0
  inb_S1x1124x768_S1x1124x768_0_0_0 : ∀ a, (![0, 0, 0] : Fin 3 → Nat) a + S1x1124x768.size a ≤ S1x1124x768.size a
  h_S1x1124x768 : 0 < S1x1124x768.numel
  shapeCasts_S1x1124x768_S1124x768 : S1x1124x768.ShapeCasts S1124x768
  shapeCasts_S1124x768_S1x1124x768 : S1124x768.ShapeCasts S1x1124x768
  slices_S4x256x768_S4x8x768_0_120_0 : S4x256x768.Slices ![0, 120, 0] S4x8x768
  slices_S4x256x768_S4x136x768_0_120_0 : S4x256x768.Slices ![0, 120, 0] S4x136x768
  inb_S1x136x768_S1x136x768_0_0_0 : ∀ a, (![0, 0, 0] : Fin 3 → Nat) a + S1x136x768.size a ≤ S1x136x768.size a
  h_S1x136x768 : 0 < S1x136x768.numel
  shapeCasts_S1x136x768_S136x768 : S1x136x768.ShapeCasts S136x768
  broadcasts_S1x768_S136x768 : S1x768.Broadcasts S136x768
  slices_S136x768_o1_0_S135x768 : S136x768.Slices ![1, 0] S135x768
  broadcasts_S1x768_S135x768 : S1x768.Broadcasts S135x768
  slices_S136x768_o2_0_S134x768 : S136x768.Slices ![2, 0] S134x768
  broadcasts_S1x768_S134x768 : S1x768.Broadcasts S134x768
  slices_S136x768_o3_0_S133x768 : S136x768.Slices ![3, 0] S133x768
  broadcasts_S1x768_S133x768 : S1x768.Broadcasts S133x768
  slices_S136x768_o4_0_S132x768 : S136x768.Slices ![4, 0] S132x768
  broadcasts_S1x768_S132x768 : S1x768.Broadcasts S132x768
  slices_S136x768_o5_0_S131x768 : S136x768.Slices ![5, 0] S131x768
  broadcasts_S1x768_S131x768 : S1x768.Broadcasts S131x768
  slices_S136x768_o6_0_S130x768 : S136x768.Slices ![6, 0] S130x768
  broadcasts_S1x768_S130x768 : S1x768.Broadcasts S130x768
  slices_S136x768_o7_0_S129x768 : S136x768.Slices ![7, 0] S129x768
  broadcasts_S1x768_S129x768 : S1x768.Broadcasts S129x768
  concatenates_S136x768_S135x768_S134x768_S133x768_S132x768_S131x768_S130x768_S129x768_S1060x768_d0 : Shape.Concatenates [S136x768, S135x768, S134x768, S133x768, S132x768, S131x768, S130x768, S129x768] S1060x768 0
  inb_S1x1060x768_S1x1060x768_0_0_0 : ∀ a, (![0, 0, 0] : Fin 3 → Nat) a + S1x1060x768.size a ≤ S1x1060x768.size a
  h_S1x1060x768 : 0 < S1x1060x768.numel
  shapeCasts_S1x1060x768_S1060x768 : S1x1060x768.ShapeCasts S1060x768
  shapeCasts_S1060x768_S1x1060x768 : S1060x768.ShapeCasts S1x1060x768
  slices_S4x256x768_S4x8x768_0_128_0 : S4x256x768.Slices ![0, 128, 0] S4x8x768
  slices_S4x256x768_S4x128x768_0_128_0 : S4x256x768.Slices ![0, 128, 0] S4x128x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  broadcasts_S1x768_S128x768 : S1x768.Broadcasts S128x768
  slices_S128x768_o1_0_S127x768 : S128x768.Slices ![1, 0] S127x768
  broadcasts_S1x768_S127x768 : S1x768.Broadcasts S127x768
  slices_S128x768_o2_0_S126x768 : S128x768.Slices ![2, 0] S126x768
  broadcasts_S1x768_S126x768 : S1x768.Broadcasts S126x768
  slices_S128x768_o3_0_S125x768 : S128x768.Slices ![3, 0] S125x768
  broadcasts_S1x768_S125x768 : S1x768.Broadcasts S125x768
  slices_S128x768_o4_0_S124x768 : S128x768.Slices ![4, 0] S124x768
  broadcasts_S1x768_S124x768 : S1x768.Broadcasts S124x768
  slices_S128x768_o5_0_S123x768 : S128x768.Slices ![5, 0] S123x768
  broadcasts_S1x768_S123x768 : S1x768.Broadcasts S123x768
  slices_S128x768_o6_0_S122x768 : S128x768.Slices ![6, 0] S122x768
  broadcasts_S1x768_S122x768 : S1x768.Broadcasts S122x768
  slices_S128x768_o7_0_S121x768 : S128x768.Slices ![7, 0] S121x768
  broadcasts_S1x768_S121x768 : S1x768.Broadcasts S121x768
  concatenates_S128x768_S127x768_S126x768_S125x768_S124x768_S123x768_S122x768_S121x768_S996x768_d0 : Shape.Concatenates [S128x768, S127x768, S126x768, S125x768, S124x768, S123x768, S122x768, S121x768] S996x768 0
  inb_S1x996x768_S1x996x768_0_0_0 : ∀ a, (![0, 0, 0] : Fin 3 → Nat) a + S1x996x768.size a ≤ S1x996x768.size a
  h_S1x996x768 : 0 < S1x996x768.numel
  shapeCasts_S1x996x768_S996x768 : S1x996x768.ShapeCasts S996x768
  shapeCasts_S996x768_S1x996x768 : S996x768.ShapeCasts S1x996x768
  slices_S4x256x768_S4x8x768_0_136_0 : S4x256x768.Slices ![0, 136, 0] S4x8x768
  slices_S4x256x768_S4x120x768_0_136_0 : S4x256x768.Slices ![0, 136, 0] S4x120x768
  inb_S1x120x768_S1x120x768_0_0_0 : ∀ a, (![0, 0, 0] : Fin 3 → Nat) a + S1x120x768.size a ≤ S1x120x768.size a
  h_S1x120x768 : 0 < S1x120x768.numel
  shapeCasts_S1x120x768_S120x768 : S1x120x768.ShapeCasts S120x768
  broadcasts_S1x768_S120x768 : S1x768.Broadcasts S120x768
  slices_S120x768_o1_0_S119x768 : S120x768.Slices ![1, 0] S119x768
  broadcasts_S1x768_S119x768 : S1x768.Broadcasts S119x768
  slices_S120x768_o2_0_S118x768 : S120x768.Slices ![2, 0] S118x768
  broadcasts_S1x768_S118x768 : S1x768.Broadcasts S118x768
  slices_S120x768_o3_0_S117x768 : S120x768.Slices ![3, 0] S117x768
  broadcasts_S1x768_S117x768 : S1x768.Broadcasts S117x768
  slices_S120x768_o4_0_S116x768 : S120x768.Slices ![4, 0] S116x768
  broadcasts_S1x768_S116x768 : S1x768.Broadcasts S116x768
  slices_S120x768_o5_0_S115x768 : S120x768.Slices ![5, 0] S115x768
  broadcasts_S1x768_S115x768 : S1x768.Broadcasts S115x768
  slices_S120x768_o6_0_S114x768 : S120x768.Slices ![6, 0] S114x768
  broadcasts_S1x768_S114x768 : S1x768.Broadcasts S114x768
  slices_S120x768_o7_0_S113x768 : S120x768.Slices ![7, 0] S113x768
  broadcasts_S1x768_S113x768 : S1x768.Broadcasts S113x768
  concatenates_S120x768_S119x768_S118x768_S117x768_S116x768_S115x768_S114x768_S113x768_S932x768_d0 : Shape.Concatenates [S120x768, S119x768, S118x768, S117x768, S116x768, S115x768, S114x768, S113x768] S932x768 0
  inb_S1x932x768_S1x932x768_0_0_0 : ∀ a, (![0, 0, 0] : Fin 3 → Nat) a + S1x932x768.size a ≤ S1x932x768.size a
  h_S1x932x768 : 0 < S1x932x768.numel
  shapeCasts_S1x932x768_S932x768 : S1x932x768.ShapeCasts S932x768
  shapeCasts_S932x768_S1x932x768 : S932x768.ShapeCasts S1x932x768
  slices_S4x256x768_S4x8x768_0_144_0 : S4x256x768.Slices ![0, 144, 0] S4x8x768
  slices_S4x256x768_S4x112x768_0_144_0 : S4x256x768.Slices ![0, 144, 0] S4x112x768
  inb_S1x112x768_S1x112x768_0_0_0 : ∀ a, (![0, 0, 0] : Fin 3 → Nat) a + S1x112x768.size a ≤ S1x112x768.size a
  h_S1x112x768 : 0 < S1x112x768.numel
  shapeCasts_S1x112x768_S112x768 : S1x112x768.ShapeCasts S112x768
  broadcasts_S1x768_S112x768 : S1x768.Broadcasts S112x768
  slices_S112x768_o1_0_S111x768 : S112x768.Slices ![1, 0] S111x768
  broadcasts_S1x768_S111x768 : S1x768.Broadcasts S111x768
  slices_S112x768_o2_0_S110x768 : S112x768.Slices ![2, 0] S110x768
  broadcasts_S1x768_S110x768 : S1x768.Broadcasts S110x768
  slices_S112x768_o3_0_S109x768 : S112x768.Slices ![3, 0] S109x768
  broadcasts_S1x768_S109x768 : S1x768.Broadcasts S109x768
  slices_S112x768_o4_0_S108x768 : S112x768.Slices ![4, 0] S108x768
  broadcasts_S1x768_S108x768 : S1x768.Broadcasts S108x768
  slices_S112x768_o5_0_S107x768 : S112x768.Slices ![5, 0] S107x768
  broadcasts_S1x768_S107x768 : S1x768.Broadcasts S107x768
  slices_S112x768_o6_0_S106x768 : S112x768.Slices ![6, 0] S106x768
  broadcasts_S1x768_S106x768 : S1x768.Broadcasts S106x768
  slices_S112x768_o7_0_S105x768 : S112x768.Slices ![7, 0] S105x768
  broadcasts_S1x768_S105x768 : S1x768.Broadcasts S105x768
  concatenates_S112x768_S111x768_S110x768_S109x768_S108x768_S107x768_S106x768_S105x768_S868x768_d0 : Shape.Concatenates [S112x768, S111x768, S110x768, S109x768, S108x768, S107x768, S106x768, S105x768] S868x768 0
  inb_S1x868x768_S1x868x768_0_0_0 : ∀ a, (![0, 0, 0] : Fin 3 → Nat) a + S1x868x768.size a ≤ S1x868x768.size a
  h_S1x868x768 : 0 < S1x868x768.numel
  shapeCasts_S1x868x768_S868x768 : S1x868x768.ShapeCasts S868x768
  shapeCasts_S868x768_S1x868x768 : S868x768.ShapeCasts S1x868x768
  slices_S4x256x768_S4x8x768_0_152_0 : S4x256x768.Slices ![0, 152, 0] S4x8x768
  slices_S4x256x768_S4x104x768_0_152_0 : S4x256x768.Slices ![0, 152, 0] S4x104x768
  inb_S1x104x768_S1x104x768_0_0_0 : ∀ a, (![0, 0, 0] : Fin 3 → Nat) a + S1x104x768.size a ≤ S1x104x768.size a
  h_S1x104x768 : 0 < S1x104x768.numel
  shapeCasts_S1x104x768_S104x768 : S1x104x768.ShapeCasts S104x768
  broadcasts_S1x768_S104x768 : S1x768.Broadcasts S104x768
  slices_S104x768_o1_0_S103x768 : S104x768.Slices ![1, 0] S103x768
  broadcasts_S1x768_S103x768 : S1x768.Broadcasts S103x768
  slices_S104x768_o2_0_S102x768 : S104x768.Slices ![2, 0] S102x768
  broadcasts_S1x768_S102x768 : S1x768.Broadcasts S102x768
  slices_S104x768_o3_0_S101x768 : S104x768.Slices ![3, 0] S101x768
  broadcasts_S1x768_S101x768 : S1x768.Broadcasts S101x768
  slices_S104x768_o4_0_S100x768 : S104x768.Slices ![4, 0] S100x768
  broadcasts_S1x768_S100x768 : S1x768.Broadcasts S100x768
  slices_S104x768_o5_0_S99x768 : S104x768.Slices ![5, 0] S99x768
  broadcasts_S1x768_S99x768 : S1x768.Broadcasts S99x768
  slices_S104x768_o6_0_S98x768 : S104x768.Slices ![6, 0] S98x768
  broadcasts_S1x768_S98x768 : S1x768.Broadcasts S98x768
  slices_S104x768_o7_0_S97x768 : S104x768.Slices ![7, 0] S97x768
  broadcasts_S1x768_S97x768 : S1x768.Broadcasts S97x768
  concatenates_S104x768_S103x768_S102x768_S101x768_S100x768_S99x768_S98x768_S97x768_S804x768_d0 : Shape.Concatenates [S104x768, S103x768, S102x768, S101x768, S100x768, S99x768, S98x768, S97x768] S804x768 0
  inb_S1x804x768_S1x804x768_0_0_0 : ∀ a, (![0, 0, 0] : Fin 3 → Nat) a + S1x804x768.size a ≤ S1x804x768.size a
  h_S1x804x768 : 0 < S1x804x768.numel
  shapeCasts_S1x804x768_S804x768 : S1x804x768.ShapeCasts S804x768
  shapeCasts_S804x768_S1x804x768 : S804x768.ShapeCasts S1x804x768
  slices_S4x256x768_S4x8x768_0_160_0 : S4x256x768.Slices ![0, 160, 0] S4x8x768
  slices_S4x256x768_S4x96x768_0_160_0 : S4x256x768.Slices ![0, 160, 0] S4x96x768
  inb_S1x96x768_S1x96x768_0_0_0 : ∀ a, (![0, 0, 0] : Fin 3 → Nat) a + S1x96x768.size a ≤ S1x96x768.size a
  h_S1x96x768 : 0 < S1x96x768.numel
  shapeCasts_S1x96x768_S96x768 : S1x96x768.ShapeCasts S96x768
  broadcasts_S1x768_S96x768 : S1x768.Broadcasts S96x768
  slices_S96x768_o1_0_S95x768 : S96x768.Slices ![1, 0] S95x768
  broadcasts_S1x768_S95x768 : S1x768.Broadcasts S95x768
  slices_S96x768_o2_0_S94x768 : S96x768.Slices ![2, 0] S94x768
  broadcasts_S1x768_S94x768 : S1x768.Broadcasts S94x768
  slices_S96x768_o3_0_S93x768 : S96x768.Slices ![3, 0] S93x768
  broadcasts_S1x768_S93x768 : S1x768.Broadcasts S93x768
  slices_S96x768_o4_0_S92x768 : S96x768.Slices ![4, 0] S92x768
  broadcasts_S1x768_S92x768 : S1x768.Broadcasts S92x768
  slices_S96x768_o5_0_S91x768 : S96x768.Slices ![5, 0] S91x768
  broadcasts_S1x768_S91x768 : S1x768.Broadcasts S91x768
  slices_S96x768_o6_0_S90x768 : S96x768.Slices ![6, 0] S90x768
  broadcasts_S1x768_S90x768 : S1x768.Broadcasts S90x768
  slices_S96x768_o7_0_S89x768 : S96x768.Slices ![7, 0] S89x768
  broadcasts_S1x768_S89x768 : S1x768.Broadcasts S89x768
  concatenates_S96x768_S95x768_S94x768_S93x768_S92x768_S91x768_S90x768_S89x768_S740x768_d0 : Shape.Concatenates [S96x768, S95x768, S94x768, S93x768, S92x768, S91x768, S90x768, S89x768] S740x768 0
  inb_S1x740x768_S1x740x768_0_0_0 : ∀ a, (![0, 0, 0] : Fin 3 → Nat) a + S1x740x768.size a ≤ S1x740x768.size a
  h_S1x740x768 : 0 < S1x740x768.numel
  shapeCasts_S1x740x768_S740x768 : S1x740x768.ShapeCasts S740x768
  shapeCasts_S740x768_S1x740x768 : S740x768.ShapeCasts S1x740x768
  slices_S4x256x768_S4x8x768_0_168_0 : S4x256x768.Slices ![0, 168, 0] S4x8x768
  slices_S4x256x768_S4x88x768_0_168_0 : S4x256x768.Slices ![0, 168, 0] S4x88x768
  inb_S1x88x768_S1x88x768_0_0_0 : ∀ a, (![0, 0, 0] : Fin 3 → Nat) a + S1x88x768.size a ≤ S1x88x768.size a
  h_S1x88x768 : 0 < S1x88x768.numel
  shapeCasts_S1x88x768_S88x768 : S1x88x768.ShapeCasts S88x768
  broadcasts_S1x768_S88x768 : S1x768.Broadcasts S88x768
  slices_S88x768_o1_0_S87x768 : S88x768.Slices ![1, 0] S87x768
  broadcasts_S1x768_S87x768 : S1x768.Broadcasts S87x768
  slices_S88x768_o2_0_S86x768 : S88x768.Slices ![2, 0] S86x768
  broadcasts_S1x768_S86x768 : S1x768.Broadcasts S86x768
  slices_S88x768_o3_0_S85x768 : S88x768.Slices ![3, 0] S85x768
  broadcasts_S1x768_S85x768 : S1x768.Broadcasts S85x768
  slices_S88x768_o4_0_S84x768 : S88x768.Slices ![4, 0] S84x768
  broadcasts_S1x768_S84x768 : S1x768.Broadcasts S84x768
  slices_S88x768_o5_0_S83x768 : S88x768.Slices ![5, 0] S83x768
  broadcasts_S1x768_S83x768 : S1x768.Broadcasts S83x768
  slices_S88x768_o6_0_S82x768 : S88x768.Slices ![6, 0] S82x768
  broadcasts_S1x768_S82x768 : S1x768.Broadcasts S82x768
  slices_S88x768_o7_0_S81x768 : S88x768.Slices ![7, 0] S81x768
  broadcasts_S1x768_S81x768 : S1x768.Broadcasts S81x768
  concatenates_S88x768_S87x768_S86x768_S85x768_S84x768_S83x768_S82x768_S81x768_S676x768_d0 : Shape.Concatenates [S88x768, S87x768, S86x768, S85x768, S84x768, S83x768, S82x768, S81x768] S676x768 0
  inb_S1x676x768_S1x676x768_0_0_0 : ∀ a, (![0, 0, 0] : Fin 3 → Nat) a + S1x676x768.size a ≤ S1x676x768.size a
  h_S1x676x768 : 0 < S1x676x768.numel
  shapeCasts_S1x676x768_S676x768 : S1x676x768.ShapeCasts S676x768
  shapeCasts_S676x768_S1x676x768 : S676x768.ShapeCasts S1x676x768
  slices_S4x256x768_S4x8x768_0_176_0 : S4x256x768.Slices ![0, 176, 0] S4x8x768
  slices_S4x256x768_S4x80x768_0_176_0 : S4x256x768.Slices ![0, 176, 0] S4x80x768
  inb_S1x80x768_S1x80x768_0_0_0 : ∀ a, (![0, 0, 0] : Fin 3 → Nat) a + S1x80x768.size a ≤ S1x80x768.size a
  h_S1x80x768 : 0 < S1x80x768.numel
  shapeCasts_S1x80x768_S80x768 : S1x80x768.ShapeCasts S80x768
  broadcasts_S1x768_S80x768 : S1x768.Broadcasts S80x768
  slices_S80x768_o1_0_S79x768 : S80x768.Slices ![1, 0] S79x768
  broadcasts_S1x768_S79x768 : S1x768.Broadcasts S79x768
  slices_S80x768_o2_0_S78x768 : S80x768.Slices ![2, 0] S78x768
  broadcasts_S1x768_S78x768 : S1x768.Broadcasts S78x768
  slices_S80x768_o3_0_S77x768 : S80x768.Slices ![3, 0] S77x768
  broadcasts_S1x768_S77x768 : S1x768.Broadcasts S77x768
  slices_S80x768_o4_0_S76x768 : S80x768.Slices ![4, 0] S76x768
  broadcasts_S1x768_S76x768 : S1x768.Broadcasts S76x768
  slices_S80x768_o5_0_S75x768 : S80x768.Slices ![5, 0] S75x768
  broadcasts_S1x768_S75x768 : S1x768.Broadcasts S75x768
  slices_S80x768_o6_0_S74x768 : S80x768.Slices ![6, 0] S74x768
  broadcasts_S1x768_S74x768 : S1x768.Broadcasts S74x768
  slices_S80x768_o7_0_S73x768 : S80x768.Slices ![7, 0] S73x768
  broadcasts_S1x768_S73x768 : S1x768.Broadcasts S73x768
  concatenates_S80x768_S79x768_S78x768_S77x768_S76x768_S75x768_S74x768_S73x768_S612x768_d0 : Shape.Concatenates [S80x768, S79x768, S78x768, S77x768, S76x768, S75x768, S74x768, S73x768] S612x768 0
  inb_S1x612x768_S1x612x768_0_0_0 : ∀ a, (![0, 0, 0] : Fin 3 → Nat) a + S1x612x768.size a ≤ S1x612x768.size a
  h_S1x612x768 : 0 < S1x612x768.numel
  shapeCasts_S1x612x768_S612x768 : S1x612x768.ShapeCasts S612x768
  shapeCasts_S612x768_S1x612x768 : S612x768.ShapeCasts S1x612x768
  slices_S4x256x768_S4x8x768_0_184_0 : S4x256x768.Slices ![0, 184, 0] S4x8x768
  slices_S4x256x768_S4x72x768_0_184_0 : S4x256x768.Slices ![0, 184, 0] S4x72x768
  inb_S1x72x768_S1x72x768_0_0_0 : ∀ a, (![0, 0, 0] : Fin 3 → Nat) a + S1x72x768.size a ≤ S1x72x768.size a
  h_S1x72x768 : 0 < S1x72x768.numel
  shapeCasts_S1x72x768_S72x768 : S1x72x768.ShapeCasts S72x768
  broadcasts_S1x768_S72x768 : S1x768.Broadcasts S72x768
  slices_S72x768_o1_0_S71x768 : S72x768.Slices ![1, 0] S71x768
  broadcasts_S1x768_S71x768 : S1x768.Broadcasts S71x768
  slices_S72x768_o2_0_S70x768 : S72x768.Slices ![2, 0] S70x768
  broadcasts_S1x768_S70x768 : S1x768.Broadcasts S70x768
  slices_S72x768_o3_0_S69x768 : S72x768.Slices ![3, 0] S69x768
  broadcasts_S1x768_S69x768 : S1x768.Broadcasts S69x768
  slices_S72x768_o4_0_S68x768 : S72x768.Slices ![4, 0] S68x768
  broadcasts_S1x768_S68x768 : S1x768.Broadcasts S68x768
  slices_S72x768_o5_0_S67x768 : S72x768.Slices ![5, 0] S67x768
  broadcasts_S1x768_S67x768 : S1x768.Broadcasts S67x768
  slices_S72x768_o6_0_S66x768 : S72x768.Slices ![6, 0] S66x768
  broadcasts_S1x768_S66x768 : S1x768.Broadcasts S66x768
  slices_S72x768_o7_0_S65x768 : S72x768.Slices ![7, 0] S65x768
  broadcasts_S1x768_S65x768 : S1x768.Broadcasts S65x768
  concatenates_S72x768_S71x768_S70x768_S69x768_S68x768_S67x768_S66x768_S65x768_S548x768_d0 : Shape.Concatenates [S72x768, S71x768, S70x768, S69x768, S68x768, S67x768, S66x768, S65x768] S548x768 0
  inb_S1x548x768_S1x548x768_0_0_0 : ∀ a, (![0, 0, 0] : Fin 3 → Nat) a + S1x548x768.size a ≤ S1x548x768.size a
  h_S1x548x768 : 0 < S1x548x768.numel
  shapeCasts_S1x548x768_S548x768 : S1x548x768.ShapeCasts S548x768
  shapeCasts_S548x768_S1x548x768 : S548x768.ShapeCasts S1x548x768
  slices_S4x256x768_S4x8x768_0_192_0 : S4x256x768.Slices ![0, 192, 0] S4x8x768
  slices_S4x256x768_S4x64x768_0_192_0 : S4x256x768.Slices ![0, 192, 0] S4x64x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  broadcasts_S1x768_S64x768 : S1x768.Broadcasts S64x768
  slices_S64x768_o1_0_S63x768 : S64x768.Slices ![1, 0] S63x768
  broadcasts_S1x768_S63x768 : S1x768.Broadcasts S63x768
  slices_S64x768_o2_0_S62x768 : S64x768.Slices ![2, 0] S62x768
  broadcasts_S1x768_S62x768 : S1x768.Broadcasts S62x768
  slices_S64x768_o3_0_S61x768 : S64x768.Slices ![3, 0] S61x768
  broadcasts_S1x768_S61x768 : S1x768.Broadcasts S61x768
  slices_S64x768_o4_0_S60x768 : S64x768.Slices ![4, 0] S60x768
  broadcasts_S1x768_S60x768 : S1x768.Broadcasts S60x768
  slices_S64x768_o5_0_S59x768 : S64x768.Slices ![5, 0] S59x768
  broadcasts_S1x768_S59x768 : S1x768.Broadcasts S59x768
  slices_S64x768_o6_0_S58x768 : S64x768.Slices ![6, 0] S58x768
  broadcasts_S1x768_S58x768 : S1x768.Broadcasts S58x768
  slices_S64x768_o7_0_S57x768 : S64x768.Slices ![7, 0] S57x768
  broadcasts_S1x768_S57x768 : S1x768.Broadcasts S57x768
  concatenates_S64x768_S63x768_S62x768_S61x768_S60x768_S59x768_S58x768_S57x768_S484x768_d0 : Shape.Concatenates [S64x768, S63x768, S62x768, S61x768, S60x768, S59x768, S58x768, S57x768] S484x768 0
  inb_S1x484x768_S1x484x768_0_0_0 : ∀ a, (![0, 0, 0] : Fin 3 → Nat) a + S1x484x768.size a ≤ S1x484x768.size a
  h_S1x484x768 : 0 < S1x484x768.numel
  shapeCasts_S1x484x768_S484x768 : S1x484x768.ShapeCasts S484x768
  shapeCasts_S484x768_S1x484x768 : S484x768.ShapeCasts S1x484x768
  slices_S4x256x768_S4x8x768_0_200_0 : S4x256x768.Slices ![0, 200, 0] S4x8x768
  slices_S4x256x768_S4x56x768_0_200_0 : S4x256x768.Slices ![0, 200, 0] S4x56x768
  inb_S1x56x768_S1x56x768_0_0_0 : ∀ a, (![0, 0, 0] : Fin 3 → Nat) a + S1x56x768.size a ≤ S1x56x768.size a
  h_S1x56x768 : 0 < S1x56x768.numel
  shapeCasts_S1x56x768_S56x768 : S1x56x768.ShapeCasts S56x768
  broadcasts_S1x768_S56x768 : S1x768.Broadcasts S56x768
  slices_S56x768_o1_0_S55x768 : S56x768.Slices ![1, 0] S55x768
  broadcasts_S1x768_S55x768 : S1x768.Broadcasts S55x768
  slices_S56x768_o2_0_S54x768 : S56x768.Slices ![2, 0] S54x768
  broadcasts_S1x768_S54x768 : S1x768.Broadcasts S54x768
  slices_S56x768_o3_0_S53x768 : S56x768.Slices ![3, 0] S53x768
  broadcasts_S1x768_S53x768 : S1x768.Broadcasts S53x768
  slices_S56x768_o4_0_S52x768 : S56x768.Slices ![4, 0] S52x768
  broadcasts_S1x768_S52x768 : S1x768.Broadcasts S52x768
  slices_S56x768_o5_0_S51x768 : S56x768.Slices ![5, 0] S51x768
  broadcasts_S1x768_S51x768 : S1x768.Broadcasts S51x768
  slices_S56x768_o6_0_S50x768 : S56x768.Slices ![6, 0] S50x768
  broadcasts_S1x768_S50x768 : S1x768.Broadcasts S50x768
  slices_S56x768_o7_0_S49x768 : S56x768.Slices ![7, 0] S49x768
  broadcasts_S1x768_S49x768 : S1x768.Broadcasts S49x768
  concatenates_S56x768_S55x768_S54x768_S53x768_S52x768_S51x768_S50x768_S49x768_S420x768_d0 : Shape.Concatenates [S56x768, S55x768, S54x768, S53x768, S52x768, S51x768, S50x768, S49x768] S420x768 0
  inb_S1x420x768_S1x420x768_0_0_0 : ∀ a, (![0, 0, 0] : Fin 3 → Nat) a + S1x420x768.size a ≤ S1x420x768.size a
  h_S1x420x768 : 0 < S1x420x768.numel
  shapeCasts_S1x420x768_S420x768 : S1x420x768.ShapeCasts S420x768
  shapeCasts_S420x768_S1x420x768 : S420x768.ShapeCasts S1x420x768
  slices_S4x256x768_S4x8x768_0_208_0 : S4x256x768.Slices ![0, 208, 0] S4x8x768
  slices_S4x256x768_S4x48x768_0_208_0 : S4x256x768.Slices ![0, 208, 0] S4x48x768
  inb_S1x48x768_S1x48x768_0_0_0 : ∀ a, (![0, 0, 0] : Fin 3 → Nat) a + S1x48x768.size a ≤ S1x48x768.size a
  h_S1x48x768 : 0 < S1x48x768.numel
  shapeCasts_S1x48x768_S48x768 : S1x48x768.ShapeCasts S48x768
  broadcasts_S1x768_S48x768 : S1x768.Broadcasts S48x768
  slices_S48x768_o1_0_S47x768 : S48x768.Slices ![1, 0] S47x768
  broadcasts_S1x768_S47x768 : S1x768.Broadcasts S47x768
  slices_S48x768_o2_0_S46x768 : S48x768.Slices ![2, 0] S46x768
  broadcasts_S1x768_S46x768 : S1x768.Broadcasts S46x768
  slices_S48x768_o3_0_S45x768 : S48x768.Slices ![3, 0] S45x768
  broadcasts_S1x768_S45x768 : S1x768.Broadcasts S45x768
  slices_S48x768_o4_0_S44x768 : S48x768.Slices ![4, 0] S44x768
  broadcasts_S1x768_S44x768 : S1x768.Broadcasts S44x768
  slices_S48x768_o5_0_S43x768 : S48x768.Slices ![5, 0] S43x768
  broadcasts_S1x768_S43x768 : S1x768.Broadcasts S43x768
  slices_S48x768_o6_0_S42x768 : S48x768.Slices ![6, 0] S42x768
  broadcasts_S1x768_S42x768 : S1x768.Broadcasts S42x768
  slices_S48x768_o7_0_S41x768 : S48x768.Slices ![7, 0] S41x768
  broadcasts_S1x768_S41x768 : S1x768.Broadcasts S41x768
  concatenates_S48x768_S47x768_S46x768_S45x768_S44x768_S43x768_S42x768_S41x768_S356x768_d0 : Shape.Concatenates [S48x768, S47x768, S46x768, S45x768, S44x768, S43x768, S42x768, S41x768] S356x768 0
  inb_S1x356x768_S1x356x768_0_0_0 : ∀ a, (![0, 0, 0] : Fin 3 → Nat) a + S1x356x768.size a ≤ S1x356x768.size a
  h_S1x356x768 : 0 < S1x356x768.numel
  shapeCasts_S1x356x768_S356x768 : S1x356x768.ShapeCasts S356x768
  shapeCasts_S356x768_S1x356x768 : S356x768.ShapeCasts S1x356x768
  slices_S4x256x768_S4x8x768_0_216_0 : S4x256x768.Slices ![0, 216, 0] S4x8x768
  slices_S4x256x768_S4x40x768_0_216_0 : S4x256x768.Slices ![0, 216, 0] S4x40x768
  inb_S1x40x768_S1x40x768_0_0_0 : ∀ a, (![0, 0, 0] : Fin 3 → Nat) a + S1x40x768.size a ≤ S1x40x768.size a
  h_S1x40x768 : 0 < S1x40x768.numel
  shapeCasts_S1x40x768_S40x768 : S1x40x768.ShapeCasts S40x768
  broadcasts_S1x768_S40x768 : S1x768.Broadcasts S40x768
  slices_S40x768_o1_0_S39x768 : S40x768.Slices ![1, 0] S39x768
  broadcasts_S1x768_S39x768 : S1x768.Broadcasts S39x768
  slices_S40x768_o2_0_S38x768 : S40x768.Slices ![2, 0] S38x768
  broadcasts_S1x768_S38x768 : S1x768.Broadcasts S38x768
  slices_S40x768_o3_0_S37x768 : S40x768.Slices ![3, 0] S37x768
  broadcasts_S1x768_S37x768 : S1x768.Broadcasts S37x768
  slices_S40x768_o4_0_S36x768 : S40x768.Slices ![4, 0] S36x768
  broadcasts_S1x768_S36x768 : S1x768.Broadcasts S36x768
  slices_S40x768_o5_0_S35x768 : S40x768.Slices ![5, 0] S35x768
  broadcasts_S1x768_S35x768 : S1x768.Broadcasts S35x768
  slices_S40x768_o6_0_S34x768 : S40x768.Slices ![6, 0] S34x768
  broadcasts_S1x768_S34x768 : S1x768.Broadcasts S34x768
  slices_S40x768_o7_0_S33x768 : S40x768.Slices ![7, 0] S33x768
  broadcasts_S1x768_S33x768 : S1x768.Broadcasts S33x768
  concatenates_S40x768_S39x768_S38x768_S37x768_S36x768_S35x768_S34x768_S33x768_S292x768_d0 : Shape.Concatenates [S40x768, S39x768, S38x768, S37x768, S36x768, S35x768, S34x768, S33x768] S292x768 0
  inb_S1x292x768_S1x292x768_0_0_0 : ∀ a, (![0, 0, 0] : Fin 3 → Nat) a + S1x292x768.size a ≤ S1x292x768.size a
  h_S1x292x768 : 0 < S1x292x768.numel
  shapeCasts_S1x292x768_S292x768 : S1x292x768.ShapeCasts S292x768
  shapeCasts_S292x768_S1x292x768 : S292x768.ShapeCasts S1x292x768
  slices_S4x256x768_S4x8x768_0_224_0 : S4x256x768.Slices ![0, 224, 0] S4x8x768
  slices_S4x256x768_S4x32x768_0_224_0 : S4x256x768.Slices ![0, 224, 0] S4x32x768
  inb_S1x32x768_S1x32x768_0_0_0 : ∀ a, (![0, 0, 0] : Fin 3 → Nat) a + S1x32x768.size a ≤ S1x32x768.size a
  h_S1x32x768 : 0 < S1x32x768.numel
  shapeCasts_S1x32x768_S32x768 : S1x32x768.ShapeCasts S32x768
  broadcasts_S1x768_S32x768 : S1x768.Broadcasts S32x768
  slices_S32x768_o1_0_S31x768 : S32x768.Slices ![1, 0] S31x768
  broadcasts_S1x768_S31x768 : S1x768.Broadcasts S31x768
  slices_S32x768_o2_0_S30x768 : S32x768.Slices ![2, 0] S30x768
  broadcasts_S1x768_S30x768 : S1x768.Broadcasts S30x768
  slices_S32x768_o3_0_S29x768 : S32x768.Slices ![3, 0] S29x768
  broadcasts_S1x768_S29x768 : S1x768.Broadcasts S29x768
  slices_S32x768_o4_0_S28x768 : S32x768.Slices ![4, 0] S28x768
  broadcasts_S1x768_S28x768 : S1x768.Broadcasts S28x768
  slices_S32x768_o5_0_S27x768 : S32x768.Slices ![5, 0] S27x768
  broadcasts_S1x768_S27x768 : S1x768.Broadcasts S27x768
  slices_S32x768_o6_0_S26x768 : S32x768.Slices ![6, 0] S26x768
  broadcasts_S1x768_S26x768 : S1x768.Broadcasts S26x768
  slices_S32x768_o7_0_S25x768 : S32x768.Slices ![7, 0] S25x768
  broadcasts_S1x768_S25x768 : S1x768.Broadcasts S25x768
  concatenates_S32x768_S31x768_S30x768_S29x768_S28x768_S27x768_S26x768_S25x768_S228x768_d0 : Shape.Concatenates [S32x768, S31x768, S30x768, S29x768, S28x768, S27x768, S26x768, S25x768] S228x768 0
  inb_S1x228x768_S1x228x768_0_0_0 : ∀ a, (![0, 0, 0] : Fin 3 → Nat) a + S1x228x768.size a ≤ S1x228x768.size a
  h_S1x228x768 : 0 < S1x228x768.numel
  shapeCasts_S1x228x768_S228x768 : S1x228x768.ShapeCasts S228x768
  shapeCasts_S228x768_S1x228x768 : S228x768.ShapeCasts S1x228x768
  slices_S4x256x768_S4x8x768_0_232_0 : S4x256x768.Slices ![0, 232, 0] S4x8x768
  slices_S4x256x768_S4x24x768_0_232_0 : S4x256x768.Slices ![0, 232, 0] S4x24x768
  inb_S1x24x768_S1x24x768_0_0_0 : ∀ a, (![0, 0, 0] : Fin 3 → Nat) a + S1x24x768.size a ≤ S1x24x768.size a
  h_S1x24x768 : 0 < S1x24x768.numel
  shapeCasts_S1x24x768_S24x768 : S1x24x768.ShapeCasts S24x768
  broadcasts_S1x768_S24x768 : S1x768.Broadcasts S24x768
  slices_S24x768_o1_0_S23x768 : S24x768.Slices ![1, 0] S23x768
  broadcasts_S1x768_S23x768 : S1x768.Broadcasts S23x768
  slices_S24x768_o2_0_S22x768 : S24x768.Slices ![2, 0] S22x768
  broadcasts_S1x768_S22x768 : S1x768.Broadcasts S22x768
  slices_S24x768_o3_0_S21x768 : S24x768.Slices ![3, 0] S21x768
  broadcasts_S1x768_S21x768 : S1x768.Broadcasts S21x768
  slices_S24x768_o4_0_S20x768 : S24x768.Slices ![4, 0] S20x768
  broadcasts_S1x768_S20x768 : S1x768.Broadcasts S20x768
  slices_S24x768_o5_0_S19x768 : S24x768.Slices ![5, 0] S19x768
  broadcasts_S1x768_S19x768 : S1x768.Broadcasts S19x768
  slices_S24x768_o6_0_S18x768 : S24x768.Slices ![6, 0] S18x768
  broadcasts_S1x768_S18x768 : S1x768.Broadcasts S18x768
  slices_S24x768_o7_0_S17x768 : S24x768.Slices ![7, 0] S17x768
  broadcasts_S1x768_S17x768 : S1x768.Broadcasts S17x768
  concatenates_S24x768_S23x768_S22x768_S21x768_S20x768_S19x768_S18x768_S17x768_S164x768_d0 : Shape.Concatenates [S24x768, S23x768, S22x768, S21x768, S20x768, S19x768, S18x768, S17x768] S164x768 0
  inb_S1x164x768_S1x164x768_0_0_0 : ∀ a, (![0, 0, 0] : Fin 3 → Nat) a + S1x164x768.size a ≤ S1x164x768.size a
  h_S1x164x768 : 0 < S1x164x768.numel
  shapeCasts_S1x164x768_S164x768 : S1x164x768.ShapeCasts S164x768
  shapeCasts_S164x768_S1x164x768 : S164x768.ShapeCasts S1x164x768
  slices_S4x256x768_S4x8x768_0_240_0 : S4x256x768.Slices ![0, 240, 0] S4x8x768
  slices_S4x256x768_S4x16x768_0_240_0 : S4x256x768.Slices ![0, 240, 0] S4x16x768
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  broadcasts_S1x768_S16x768 : S1x768.Broadcasts S16x768
  slices_S16x768_o1_0_S15x768 : S16x768.Slices ![1, 0] S15x768
  broadcasts_S1x768_S15x768 : S1x768.Broadcasts S15x768
  slices_S16x768_o2_0_S14x768 : S16x768.Slices ![2, 0] S14x768
  broadcasts_S1x768_S14x768 : S1x768.Broadcasts S14x768
  slices_S16x768_o3_0_S13x768 : S16x768.Slices ![3, 0] S13x768
  broadcasts_S1x768_S13x768 : S1x768.Broadcasts S13x768
  slices_S16x768_o4_0_S12x768 : S16x768.Slices ![4, 0] S12x768
  broadcasts_S1x768_S12x768 : S1x768.Broadcasts S12x768
  slices_S16x768_o5_0_S11x768 : S16x768.Slices ![5, 0] S11x768
  broadcasts_S1x768_S11x768 : S1x768.Broadcasts S11x768
  slices_S16x768_o6_0_S10x768 : S16x768.Slices ![6, 0] S10x768
  broadcasts_S1x768_S10x768 : S1x768.Broadcasts S10x768
  slices_S16x768_o7_0_S9x768 : S16x768.Slices ![7, 0] S9x768
  broadcasts_S1x768_S9x768 : S1x768.Broadcasts S9x768
  concatenates_S16x768_S15x768_S14x768_S13x768_S12x768_S11x768_S10x768_S9x768_S100x768_d0 : Shape.Concatenates [S16x768, S15x768, S14x768, S13x768, S12x768, S11x768, S10x768, S9x768] S100x768 0
  inb_S1x100x768_S1x100x768_0_0_0 : ∀ a, (![0, 0, 0] : Fin 3 → Nat) a + S1x100x768.size a ≤ S1x100x768.size a
  h_S1x100x768 : 0 < S1x100x768.numel
  shapeCasts_S1x100x768_S100x768 : S1x100x768.ShapeCasts S100x768
  shapeCasts_S100x768_S1x100x768 : S100x768.ShapeCasts S1x100x768
  slices_S4x256x768_S4x8x768_0_248_0 : S4x256x768.Slices ![0, 248, 0] S4x8x768
  broadcasts_S1x768_S8x768 : S1x768.Broadcasts S8x768
  slices_S8x768_o1_0_S7x768 : S8x768.Slices ![1, 0] S7x768
  broadcasts_S1x768_S7x768 : S1x768.Broadcasts S7x768
  slices_S8x768_o2_0_S6x768 : S8x768.Slices ![2, 0] S6x768
  broadcasts_S1x768_S6x768 : S1x768.Broadcasts S6x768
  slices_S8x768_o3_0_S5x768 : S8x768.Slices ![3, 0] S5x768
  broadcasts_S1x768_S5x768 : S1x768.Broadcasts S5x768
  slices_S8x768_o4_0_S4x768 : S8x768.Slices ![4, 0] S4x768
  broadcasts_S1x768_S4x768 : S1x768.Broadcasts S4x768
  slices_S8x768_o5_0_S3x768 : S8x768.Slices ![5, 0] S3x768
  broadcasts_S1x768_S3x768 : S1x768.Broadcasts S3x768
  slices_S8x768_o6_0_S2x768 : S8x768.Slices ![6, 0] S2x768
  broadcasts_S1x768_S2x768 : S1x768.Broadcasts S2x768
  concatenates_S8x768_S7x768_S6x768_S5x768_S4x768_S3x768_S2x768_S1x768_S36x768_d0 : Shape.Concatenates [S8x768, S7x768, S6x768, S5x768, S4x768, S3x768, S2x768, S1x768] S36x768 0
  inb_S1x36x768_S1x36x768_0_0_0 : ∀ a, (![0, 0, 0] : Fin 3 → Nat) a + S1x36x768.size a ≤ S1x36x768.size a
  h_S1x36x768 : 0 < S1x36x768.numel
  shapeCasts_S1x36x768_S36x768 : S1x36x768.ShapeCasts S36x768
  shapeCasts_S36x768_S1x36x768 : S36x768.ShapeCasts S1x36x768
  concatenates_S4x2020x768_S4x1956x768_S4x1892x768_S4x1828x768_S4x1764x768_S4x1700x768_S4x1636x768_S4x1572x768_S4x1508x768_S4x1444x768_S4x1380x768_S4x1316x768_S4x1252x768_S4x1188x768_S4x1124x768_S4x1060x768_S4x24640x768_d1 : Shape.Concatenates [S4x2020x768, S4x1956x768, S4x1892x768, S4x1828x768, S4x1764x768, S4x1700x768, S4x1636x768, S4x1572x768, S4x1508x768, S4x1444x768, S4x1380x768, S4x1316x768, S4x1252x768, S4x1188x768, S4x1124x768, S4x1060x768] S4x24640x768 1
  concatenates_S4x996x768_S4x932x768_S4x868x768_S4x804x768_S4x740x768_S4x676x768_S4x612x768_S4x548x768_S4x484x768_S4x420x768_S4x356x768_S4x292x768_S4x228x768_S4x164x768_S4x100x768_S4x36x768_S4x8256x768_d1 : Shape.Concatenates [S4x996x768, S4x932x768, S4x868x768, S4x804x768, S4x740x768, S4x676x768, S4x612x768, S4x548x768, S4x484x768, S4x420x768, S4x356x768, S4x292x768, S4x228x768, S4x164x768, S4x100x768, S4x36x768] S4x8256x768 1
  concatenates_S4x24640x768_S4x8256x768_S4x32896x768_d1 : Shape.Concatenates [S4x24640x768, S4x8256x768] S4x32896x768 1
  dot_S256x768_S768x768_S256x768_1_1_0_0_n_n_wf : DotDims.WF S256x768 S768x768 S256x768 [1] [1] [0] [0] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.shapes1

variable [Facts₀]

def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x8x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2020x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x8x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x248x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x1956x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x8x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x240x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x1892x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13) S1x8x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S1x232x768.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1x1828x768.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v16) S1x8x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S1x224x768.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S1x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v18) S1x1764x768.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v19) S1x8x768.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v20) S1x216x768.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v4) S1x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v21) S1x1700x768.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v22) S1x8x768.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v23) S1x208x768.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S1x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v24) S1x1636x768.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v25) S1x8x768.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v26) S1x200x768.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v4) S1x768.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v27) S1x1572x768.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v28) S1x8x768.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S1x192x768.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S1x768.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v30) S1x1508x768.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v31) S1x8x768.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v32) S1x184x768.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v4) S1x768.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v33) S1x1444x768.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v34) S1x8x768.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v35) S1x176x768.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v4) S1x768.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v36) S1x1380x768.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v37) S1x8x768.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v38) S1x168x768.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v4) S1x768.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v39) S1x1316x768.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v40) S1x8x768.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v41) S1x160x768.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v4) S1x768.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v42) S1x1252x768.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v43) S1x8x768.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v44) S1x152x768.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v4) S1x768.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v45) S1x1188x768.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v46) S1x8x768.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v47) S1x144x768.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v4) S1x768.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v48) S1x1124x768.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v49) S1x8x768.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v50) S1x136x768.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v4) S1x768.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v51) S1x1060x768.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v52) S1x8x768.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v53) S1x128x768.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v4) S1x768.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v54) S1x996x768.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v55) S1x8x768.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v56) S1x120x768.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v4) S1x768.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v57) S1x932x768.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v58) S1x8x768.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v59) S1x112x768.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v4) S1x768.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v60) S1x868x768.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v61) S1x8x768.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v62) S1x104x768.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v4) S1x768.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v63) S1x804x768.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v64) S1x8x768.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v65) S1x96x768.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v4) S1x768.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v66) S1x740x768.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v67) S1x8x768.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v68) S1x88x768.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v4) S1x768.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v69) S1x676x768.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

abbrev win23_0 : Pipeline.Window sig grid23 :=
  Pipeline.Window.ofSpec (Memref.whole main_v70) S1x8x768.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v71) S1x80x768.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v4) S1x768.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v72) S1x612x768.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_v73) S1x8x768.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v74) S1x72x768.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v4) S1x768.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v75) S1x548x768.size cc24_transform_3 reads24_3 true false 2 stage24_3 sem24_3
    hrank24 hreads24_3 hinb24_3 nbuf24_3 (Memref.isWhole_whole _) hwx24_3 hstage24_3

abbrev win24 : Fin 4 → Pipeline.Window sig grid24 := fun | 0 => win24_0 | 1 => win24_1 | 2 => win24_2 | 3 => win24_3 | ⟨_ + 4, h⟩ => absurd h (Nat.not_lt.2 (Nat.le_add_left _ _))
abbrev spec24 : Fin 4 → Pipeline.WinSpec sig grid24.rank := fun w => (win24 w).toWinSpec

abbrev win25_0 : Pipeline.Window sig grid25 :=
  Pipeline.Window.ofSpec (Memref.whole main_v76) S1x8x768.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v77) S1x64x768.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v4) S1x768.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v78) S1x484x768.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

abbrev win26_0 : Pipeline.Window sig grid26 :=
  Pipeline.Window.ofSpec (Memref.whole main_v79) S1x8x768.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v80) S1x56x768.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_v4) S1x768.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v81) S1x420x768.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_v82) S1x8x768.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v83) S1x48x768.size cc27_transform_1 reads27_1 false false 2 stage27_1 sem27_1
    hrank27 hreads27_1 hinb27_1 nbuf27_1 (Memref.isWhole_whole _) hwx27_1 hstage27_1

abbrev win27_2 : Pipeline.Window sig grid27 :=
  Pipeline.Window.ofSpec (Memref.whole main_v4) S1x768.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v84) S1x356x768.size cc27_transform_3 reads27_3 true false 2 stage27_3 sem27_3
    hrank27 hreads27_3 hinb27_3 nbuf27_3 (Memref.isWhole_whole _) hwx27_3 hstage27_3

abbrev win27 : Fin 4 → Pipeline.Window sig grid27 := fun | 0 => win27_0 | 1 => win27_1 | 2 => win27_2 | 3 => win27_3 | ⟨_ + 4, h⟩ => absurd h (Nat.not_lt.2 (Nat.le_add_left _ _))
abbrev spec27 : Fin 4 → Pipeline.WinSpec sig grid27.rank := fun w => (win27 w).toWinSpec

abbrev win28_0 : Pipeline.Window sig grid28 :=
  Pipeline.Window.ofSpec (Memref.whole main_v85) S1x8x768.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v86) S1x40x768.size cc28_transform_1 reads28_1 false false 2 stage28_1 sem28_1
    hrank28 hreads28_1 hinb28_1 nbuf28_1 (Memref.isWhole_whole _) hwx28_1 hstage28_1

abbrev win28_2 : Pipeline.Window sig grid28 :=
  Pipeline.Window.ofSpec (Memref.whole main_v4) S1x768.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_v87) S1x292x768.size cc28_transform_3 reads28_3 true false 2 stage28_3 sem28_3
    hrank28 hreads28_3 hinb28_3 nbuf28_3 (Memref.isWhole_whole _) hwx28_3 hstage28_3

abbrev win28 : Fin 4 → Pipeline.Window sig grid28 := fun | 0 => win28_0 | 1 => win28_1 | 2 => win28_2 | 3 => win28_3 | ⟨_ + 4, h⟩ => absurd h (Nat.not_lt.2 (Nat.le_add_left _ _))
abbrev spec28 : Fin 4 → Pipeline.WinSpec sig grid28.rank := fun w => (win28 w).toWinSpec

abbrev win29_0 : Pipeline.Window sig grid29 :=
  Pipeline.Window.ofSpec (Memref.whole main_v88) S1x8x768.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v89) S1x32x768.size cc29_transform_1 reads29_1 false false 2 stage29_1 sem29_1
    hrank29 hreads29_1 hinb29_1 nbuf29_1 (Memref.isWhole_whole _) hwx29_1 hstage29_1

abbrev win29_2 : Pipeline.Window sig grid29 :=
  Pipeline.Window.ofSpec (Memref.whole main_v4) S1x768.size cc29_transform_2 reads29_2 false true 1 stage29_2 sem29_2
    hrank29 hreads29_2 hinb29_2 nbuf29_2 (Memref.isWhole_whole _) hwx29_2 hstage29_2

abbrev win29_3 : Pipeline.Window sig grid29 :=
  Pipeline.Window.ofSpec (Memref.whole main_v90) S1x228x768.size cc29_transform_3 reads29_3 true false 2 stage29_3 sem29_3
    hrank29 hreads29_3 hinb29_3 nbuf29_3 (Memref.isWhole_whole _) hwx29_3 hstage29_3

abbrev win29 : Fin 4 → Pipeline.Window sig grid29 := fun | 0 => win29_0 | 1 => win29_1 | 2 => win29_2 | 3 => win29_3 | ⟨_ + 4, h⟩ => absurd h (Nat.not_lt.2 (Nat.le_add_left _ _))
abbrev spec29 : Fin 4 → Pipeline.WinSpec sig grid29.rank := fun w => (win29 w).toWinSpec

abbrev win30_0 : Pipeline.Window sig grid30 :=
  Pipeline.Window.ofSpec (Memref.whole main_v91) S1x8x768.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_v92) S1x24x768.size cc30_transform_1 reads30_1 false false 2 stage30_1 sem30_1
    hrank30 hreads30_1 hinb30_1 nbuf30_1 (Memref.isWhole_whole _) hwx30_1 hstage30_1

abbrev win30_2 : Pipeline.Window sig grid30 :=
  Pipeline.Window.ofSpec (Memref.whole main_v4) S1x768.size cc30_transform_2 reads30_2 false true 1 stage30_2 sem30_2
    hrank30 hreads30_2 hinb30_2 nbuf30_2 (Memref.isWhole_whole _) hwx30_2 hstage30_2

abbrev win30_3 : Pipeline.Window sig grid30 :=
  Pipeline.Window.ofSpec (Memref.whole main_v93) S1x164x768.size cc30_transform_3 reads30_3 true false 2 stage30_3 sem30_3
    hrank30 hreads30_3 hinb30_3 nbuf30_3 (Memref.isWhole_whole _) hwx30_3 hstage30_3

abbrev win30 : Fin 4 → Pipeline.Window sig grid30 := fun | 0 => win30_0 | 1 => win30_1 | 2 => win30_2 | 3 => win30_3 | ⟨_ + 4, h⟩ => absurd h (Nat.not_lt.2 (Nat.le_add_left _ _))
abbrev spec30 : Fin 4 → Pipeline.WinSpec sig grid30.rank := fun w => (win30 w).toWinSpec

abbrev win31_0 : Pipeline.Window sig grid31 :=
  Pipeline.Window.ofSpec (Memref.whole main_v94) S1x8x768.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_v95) S1x16x768.size cc31_transform_1 reads31_1 false false 2 stage31_1 sem31_1
    hrank31 hreads31_1 hinb31_1 nbuf31_1 (Memref.isWhole_whole _) hwx31_1 hstage31_1

abbrev win31_2 : Pipeline.Window sig grid31 :=
  Pipeline.Window.ofSpec (Memref.whole main_v4) S1x768.size cc31_transform_2 reads31_2 false true 1 stage31_2 sem31_2
    hrank31 hreads31_2 hinb31_2 nbuf31_2 (Memref.isWhole_whole _) hwx31_2 hstage31_2

abbrev win31_3 : Pipeline.Window sig grid31 :=
  Pipeline.Window.ofSpec (Memref.whole main_v96) S1x100x768.size cc31_transform_3 reads31_3 true false 2 stage31_3 sem31_3
    hrank31 hreads31_3 hinb31_3 nbuf31_3 (Memref.isWhole_whole _) hwx31_3 hstage31_3

abbrev win31 : Fin 4 → Pipeline.Window sig grid31 := fun | 0 => win31_0 | 1 => win31_1 | 2 => win31_2 | 3 => win31_3 | ⟨_ + 4, h⟩ => absurd h (Nat.not_lt.2 (Nat.le_add_left _ _))
abbrev spec31 : Fin 4 → Pipeline.WinSpec sig grid31.rank := fun w => (win31 w).toWinSpec

abbrev win32_0 : Pipeline.Window sig grid32 :=
  Pipeline.Window.ofSpec (Memref.whole main_v97) S1x8x768.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v98) S1x8x768.size cc32_transform_1 reads32_1 false false 2 stage32_1 sem32_1
    hrank32 hreads32_1 hinb32_1 nbuf32_1 (Memref.isWhole_whole _) hwx32_1 hstage32_1

abbrev win32_2 : Pipeline.Window sig grid32 :=
  Pipeline.Window.ofSpec (Memref.whole main_v4) S1x768.size cc32_transform_2 reads32_2 false true 1 stage32_2 sem32_2
    hrank32 hreads32_2 hinb32_2 nbuf32_2 (Memref.isWhole_whole _) hwx32_2 hstage32_2

abbrev win32_3 : Pipeline.Window sig grid32 :=
  Pipeline.Window.ofSpec (Memref.whole main_v99) S1x36x768.size cc32_transform_3 reads32_3 true false 2 stage32_3 sem32_3
    hrank32 hreads32_3 hinb32_3 nbuf32_3 (Memref.isWhole_whole _) hwx32_3 hstage32_3

abbrev win32 : Fin 4 → Pipeline.Window sig grid32 := fun | 0 => win32_0 | 1 => win32_1 | 2 => win32_2 | 3 => win32_3 | ⟨_ + 4, h⟩ => absurd h (Nat.not_lt.2 (Nat.le_add_left _ _))
abbrev spec32 : Fin 4 → Pipeline.WinSpec sig grid32.rank := fun w => (win32 w).toWinSpec

class Facts : Prop extends Facts₀ where

variable [Facts]
-- ==== ReferenceIdeal.lean ====
abbrev S4x256x768 : Shape := ⟨3, ![4, 256, 768]⟩
abbrev S768x1536 : Shape := ⟨2, ![768, 1536]⟩
abbrev S768 : Shape := ⟨1, ![768]⟩
abbrev S768x768 : Shape := ⟨2, ![768, 768]⟩
abbrev S_ : Shape := ⟨0, ![]⟩
abbrev S256x256 : Shape := ⟨2, ![256, 256]⟩
abbrev S65536 : Shape := ⟨1, ![65536]⟩
abbrev S32896 : Shape := ⟨1, ![32896]⟩
abbrev S65536x1 : Shape := ⟨2, ![65536, 1]⟩
abbrev S32896x1 : Shape := ⟨2, ![32896, 1]⟩
abbrev S4x32896x768 : Shape := ⟨3, ![4, 32896, 768]⟩
abbrev S1x1x768 : Shape := ⟨3, ![1, 1, 768]⟩

abbrev nBuf : Space → Nat
  | .hbm => 147
  | .vmem => 0
  | .smem => 0
  | _ => 0

abbrev hbmTy0_0 (i : Nat) : BufTy := match i % 128 with
  | 0 => ⟨S4x256x768, .f32⟩
  | 1 => ⟨S768x1536, .f32⟩
  | 2 => ⟨S768, .f32⟩
  | 3 => ⟨S768x768, .f32⟩
  | 4 => ⟨S768x768, .f32⟩
  | 5 => ⟨S4x256x768, .f32⟩
  | 6 => ⟨S4x256x768, .f32⟩
  | 7 => ⟨S_, .f32⟩
  | 8 => ⟨S256x256, .f32⟩
  | 9 => ⟨S256x256, .i32⟩
  | 10 => ⟨S_, .i32⟩
  | 11 => ⟨S256x256, .i32⟩
  | 12 => ⟨S256x256, .i32⟩
  | 13 => ⟨S256x256, .i32⟩
  | 14 => ⟨S256x256, .i1⟩
  | 15 => ⟨S_, .f32⟩
  | 16 => ⟨S256x256, .f32⟩
  | 17 => ⟨S256x256, .f32⟩
  | 18 => ⟨S_, .f32⟩
  | 19 => ⟨S256x256, .f32⟩
  | 20 => ⟨S256x256, .i1⟩
  | 21 => ⟨S65536, .i1⟩
  | 22 => ⟨S65536, .i32⟩
  | 23 => ⟨S_, .i32⟩
  | 24 => ⟨S_, .i32⟩
  | 25 => ⟨S65536, .i32⟩
  | 26 => ⟨S_, .i32⟩
  | 27 => ⟨S32896, .i32⟩
  | 28 => ⟨S_, .i32⟩
  | 29 => ⟨S_, .i32⟩
  | 30 => ⟨S65536, .i32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S_, .i32⟩
  | 41 => ⟨S65536, .i32⟩
  | 42 => ⟨S32896, .i32⟩
  | 43 => ⟨S_, .i32⟩
  | 44 => ⟨S_, .i32⟩
  | 45 => ⟨S32896, .i32⟩
  | 46 => ⟨S_, .i32⟩
  | 47 => ⟨S32896, .i32⟩
  | 48 => ⟨S32896, .i32⟩
  | 49 => ⟨S32896, .i32⟩
  | 50 => ⟨S_, .i32⟩
  | 51 => ⟨S32896, .i32⟩
  | 52 => ⟨S32896, .i1⟩
  | 53 => ⟨S32896, .i32⟩
  | 54 => ⟨S32896, .i32⟩
  | 55 => ⟨S_, .i32⟩
  | 56 => ⟨S32896, .i32⟩
  | 57 => ⟨S32896, .i1⟩
  | 58 => ⟨S32896, .i1⟩
  | 59 => ⟨S_, .i32⟩
  | 60 => ⟨S32896, .i32⟩
  | 61 => ⟨S32896, .i32⟩
  | 62 => ⟨S32896, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S32896, .i32⟩
  | 70 => ⟨S32896, .i32⟩
  | 71 => ⟨S_, .i32⟩
  | 72 => ⟨S32896, .i32⟩
  | 73 => ⟨S32896, .i1⟩
  | 74 => ⟨S_, .i32⟩
  | 75 => ⟨S32896, .i32⟩
  | 76 => ⟨S32896, .i1⟩
  | 77 => ⟨S_, .i32⟩
  | 78 => ⟨S_, .i1⟩
  | 79 => ⟨S32896, .i1⟩
  | 80 => ⟨S32896, .i1⟩
  | 81 => ⟨S32896, .i1⟩
  | 82 => ⟨S32896, .i32⟩
  | 83 => ⟨S32896, .i32⟩
  | 84 => ⟨S32896, .i32⟩
  | 85 => ⟨S_, .i32⟩
  | 86 => ⟨S32896, .i32⟩
  | 87 => ⟨S32896, .i32⟩
  | 88 => ⟨S32896, .i32⟩
  | 89 => ⟨S_, .i32⟩
  | 90 => ⟨S32896, .i32⟩
  | 91 => ⟨S32896, .i1⟩
  | 92 => ⟨S32896, .i32⟩
  | 93 => ⟨S32896, .i32⟩
  | 94 => ⟨S_, .i32⟩
  | 95 => ⟨S32896, .i32⟩
  | 96 => ⟨S32896, .i1⟩
  | 97 => ⟨S32896, .i1⟩
  | 98 => ⟨S_, .i32⟩
  | 99 => ⟨S32896, .i32⟩
  | 100 => ⟨S32896, .i32⟩
  | 101 => ⟨S32896, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S32896, .i32⟩
  | 109 => ⟨S32896, .i32⟩
  | 110 => ⟨S_, .i32⟩
  | 111 => ⟨S32896, .i32⟩
  | 112 => ⟨S32896, .i1⟩
  | 113 => ⟨S_, .i32⟩
  | 114 => ⟨S32896, .i32⟩
  | 115 => ⟨S32896, .i1⟩
  | 116 => ⟨S_, .i32⟩
  | 117 => ⟨S_, .i1⟩
  | 118 => ⟨S32896, .i1⟩
  | 119 => ⟨S32896, .i1⟩
  | 120 => ⟨S32896, .i1⟩
  | 121 => ⟨S32896, .i32⟩
  | 122 => ⟨S32896, .i32⟩
  | 123 => ⟨S32896, .i32⟩
  | 124 => ⟨S_, .i32⟩
  | 125 => ⟨S32896, .i32⟩
  | 126 => ⟨S32896, .i1⟩
  | 127 => ⟨S_, .i32⟩
  | _ => ⟨S4x256x768, .f32⟩

abbrev hbmTy0_1 (i : Nat) : BufTy := match i % 128 with
  | 0 => ⟨S32896, .i32⟩
  | 1 => ⟨S32896, .i32⟩
  | 2 => ⟨S32896, .i32⟩
  | 3 => ⟨S32896x1, .i32⟩
  | 4 => ⟨S4x32896x768, .f32⟩
  | 5 => ⟨S_, .i32⟩
  | 6 => ⟨S32896, .i32⟩
  | 7 => ⟨S32896, .i1⟩
  | 8 => ⟨S_, .i32⟩
  | 9 => ⟨S32896, .i32⟩
  | 10 => ⟨S32896, .i32⟩
  | 11 => ⟨S32896, .i32⟩
  | 12 => ⟨S32896x1, .i32⟩
  | 13 => ⟨S4x32896x768, .f32⟩
  | 14 => ⟨S4x32896x768, .f32⟩
  | 15 => ⟨S1x1x768, .f32⟩
  | 16 => ⟨S4x32896x768, .f32⟩
  | 17 => ⟨S4x32896x768, .f32⟩
  | 18 => ⟨S4x32896x768, .f32⟩
  | _ => ⟨S4x256x768, .f32⟩

abbrev hbmTy (i : Nat) : BufTy := match i / 128 with
  | 0 => hbmTy0_0 i
  | 1 => hbmTy0_1 i
  | _ => ⟨S4x256x768, .f32⟩

abbrev bufTy : (tb : Table) → Fin (tcTables nBuf tb) → BufTy
  | .hbm, ⟨i, _⟩ => hbmTy i
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_call3_call0_c : Ref sig .tc := ⟨.hbm, 43, rfl⟩
abbrev main_call3_call0_v0 : Ref sig .tc := ⟨.hbm, 44, rfl⟩
abbrev main_v19 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v20 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v21 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v22 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v23 : Ref sig .tc := ⟨.hbm, 123, rfl⟩
abbrev main_c_9 : Ref sig .tc := ⟨.hbm, 124, rfl⟩
abbrev main_v24 : Ref sig .tc := ⟨.hbm, 125, rfl⟩
abbrev main_v25 : Ref sig .tc := ⟨.hbm, 126, rfl⟩
abbrev main_c_10 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_c_11 : Ref sig .tc := ⟨.hbm, 133, rfl⟩
abbrev main_v31 : Ref sig .tc := ⟨.hbm, 134, rfl⟩
abbrev main_v32 : Ref sig .tc := ⟨.hbm, 135, rfl⟩
abbrev main_c_12 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩

abbrev nD : Nat := 1
abbrev τ : Topo := Topo.v7x

variable {F : FTy → Type} [FloatOps F]

class Facts₀ : Prop where
  slices_S768x1536_S768x768_0_0 : S768x1536.Slices ![0, 0] S768x768
  slices_S768x1536_S768x768_0_768 : S768x1536.Slices ![0, 768] S768x768
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S_S32896 : S_.BroadcastsInDim S32896 (![] : Fin 0 → Fin S32896.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32896_S32896_w32896s1p32895_0 : S32896.ReduceWindows (![32896] : Fin 1 → Nat) ![1] ![32895] ![0] S32896
  bcast_S32896_S32896x1_0 : S32896.BroadcastsInDim S32896x1 (![0] : Fin 1 → Fin S32896x1.rank)
  bcast_S768_S1x1x768_2 : S768.BroadcastsInDim S1x1x768 (![2] : Fin 1 → Fin S1x1x768.rank)
  bcast_S1x1x768_S4x32896x768_0_1_2 : S1x1x768.BroadcastsInDim S4x32896x768 (![0, 1, 2] : Fin 3 → Fin S4x32896x768.rank)
  dot_S4x256x768_S768x768_S4x256x768_2_1_01_0_n_n_wf : DotDims.WF S4x256x768 S768x768 S4x256x768 [2] [1] [0, 1] [0] [] []
  scatter_S32896_S65536x1_S65536_n_0_0_1_wf : ScatterDims.WF S32896 S65536x1 S65536 [] [0] [0] 1
  gather_S4x256x768_S32896x1_S4x32896x768_02_1_n_n_1_1_41768_wf : GatherDims.WF S4x256x768 S32896x1 S4x32896x768 [0, 2] [1] [] [1] [] 1 ![4, 1, 768]

variable [Facts₀]

def dot_S4x256x768_S768x768_S4x256x768_2_1_01_0_n_n : DotDims S4x256x768 S768x768 S4x256x768 where
  lhsContracting := [2]
  rhsContracting := [1]
  lhsNonContracting := [0, 1]
  rhsNonContracting := [0]
  lhsBatch := []
  rhsBatch := []
  wf := dot_S4x256x768_S768x768_S4x256x768_2_1_01_0_n_n_wf
def scatter_S32896_S65536x1_S65536_n_0_0_1 : ScatterDims S32896 S65536x1 S65536 where
  updateWindowDims := []
  insertedWindowDims := [0]
  scatterDimsToOperandDims := [0]
  indexVectorDim := 1
  wf := scatter_S32896_S65536x1_S65536_n_0_0_1_wf
def gather_S4x256x768_S32896x1_S4x32896x768_02_1_n_n_1_1_41768 : GatherDims S4x256x768 S32896x1 S4x32896x768 where
  offsetDims := [0, 2]
  collapsedSliceDims := [1]
  operandBatchingDims := []
  startIndicesBatchingDims := []
  startIndexMap := [1]
  indexVectorDim := 1
  sliceSizes := ![4, 1, 768]
  wf := gather_S4x256x768_S32896x1_S4x32896x768_02_1_n_n_1_1_41768_wf

class Facts : Prop extends Facts₀ where

variable [Facts]
-- ==== Proof.Spec.lean ====
/-
  The mathematics both programs compute, stated once over the argument arrays.

  For a hidden state `x : [4, 256, 768]`, a weight `w : [768, 1536]` and a bias `β : [768]`, put
    p₁ b s o = ∑ k, x b s k · w o k          (the left half of the weight's columns)
    p₂ b s o = ∑ k, x b s k · w o (768 + k)  (the right half).
  The result has one row for every pair `i ≤ j < 256`, the pairs taken row by row (all `j` for `i = 0`, then all
  `j ≥ 1` for `i = 1`, …): the pair `(i, j)` sits at row `rank i j = triOff i + (j - i)`, where `triOff i` counts the
  pairs of the rows before `i`. At that row the result is `tanh ((p₁ b i o + p₂ b j o) + β o)`.
  Every row below 32896 is the rank of exactly one such pair (`rank_surj`), so an array is determined by its values at
  the ranks: two arrays that both hold `pairValue` there are equal (`eq_of_rank_values`).
-/
import Idealize.ShloMosaic.PureOps.Ideal
import Idealize.ShloMosaic.Lib.ValueIdx

noncomputable section

namespace Cert.Tri

open Idealize.ShloMosaic Idealize.ShloMosaic.ValueIdx

/-- How many pairs `(i', j)` with `i' ≤ j < 256` have `i' < i`: row `i'` contributes `256 - i'` of them. -/
def triOff : ℕ → ℕ
  | 0 => 0
  | i + 1 => triOff i + (256 - i)

/-- The row of the pair `(i, j)`, `i ≤ j`, in the packed triangular order. -/
def rank (i j : ℕ) : ℕ := triOff i + (j - i)

theorem triOff_succ (i : ℕ) : triOff (i + 1) = triOff i + (256 - i) := rfl

theorem triOff_mono {a b : ℕ} (h : a ≤ b) : triOff a ≤ triOff b := by
  induction h with
  | refl => exact le_rfl
  | step _ ih => exact ih.trans (Nat.le_add_right _ _)

/-- The closed form, doubled so that no division appears: `2 · triOff i = i · (513 - i)` for `i ≤ 256`. -/
theorem two_triOff (i : ℕ) (hi : i ≤ 256) : 2 * triOff i + i * i = 513 * i := by
  induction i with
  | zero => rfl
  | succ n ih =>
    have := ih (by omega)
    rw [triOff_succ]
    have h256 : 256 - n + n = 256 := by omega
    nlinarith [this, h256]

theorem triOff_256 : triOff 256 = 32896 := by
  have h : ∀ n, n = 256 → triOff n = 32896 := fun n hn => by
    have := two_triOff n (by omega)
    subst hn
    generalize triOff 256 = t at this ⊢
    omega
  exact h 256 rfl

theorem rank_lt {i j : ℕ} (hij : i ≤ j) (hj : j < 256) : rank i j < 32896 := by
  unfold rank
  have h1 : triOff (i + 1) ≤ triOff 256 := triOff_mono (by omega)
  rw [triOff_succ, triOff_256] at h1
  generalize triOff i = t at h1 ⊢
  omega

/-- Every row below `triOff n` is the rank of a pair whose first component is below `n`. -/
theorem rank_surj_below (n : ℕ) (hn : n ≤ 256) (P : ℕ) (hP : P < triOff n) :
    ∃ i j, i < n ∧ i ≤ j ∧ j < 256 ∧ rank i j = P := by
  induction n with
  | zero => exact absurd hP (Nat.not_lt_zero _)
  | succ n ih =>
    by_cases h : P < triOff n
    · obtain ⟨i, j, hi, hij, hj, hr⟩ := ih (by omega) h
      exact ⟨i, j, by omega, hij, hj, hr⟩
    · rw [triOff_succ] at hP
      refine ⟨n, n + (P - triOff n), by omega, by omega, by omega, ?_⟩
      unfold rank
      omega

theorem rank_surj (P : ℕ) (hP : P < 32896) : ∃ i j, i ≤ j ∧ j < 256 ∧ rank i j = P := by
  obtain ⟨i, j, _, hij, hj, hr⟩ := rank_surj_below 256 le_rfl P (by rw [triOff_256]; exact hP)
  exact ⟨i, j, hij, hj, hr⟩

abbrev SHid : Shape := ⟨3, ![4, 256, 768]⟩
abbrev SW : Shape := ⟨2, ![768, 1536]⟩
abbrev SBias : Shape := ⟨1, ![768]⟩
abbrev SOut : Shape := ⟨3, ![4, 32896, 768]⟩

/-- The left projection: the hidden row against the first 768 columns of the weight's row `o`. -/
def proj1 (x : SHid.Idx → EReal) (w : SW.Idx → EReal) (b : Fin 4) (s : Fin 256) (o : Fin 768) : EReal :=
  ∑ k : Fin 768, x (ix3 b s k) * w (ix2 o ⟨k.val, by omega⟩)

/-- The right projection: the hidden row against the last 768 columns of the weight's row `o`. -/
def proj2 (x : SHid.Idx → EReal) (w : SW.Idx → EReal) (b : Fin 4) (s : Fin 256) (o : Fin 768) : EReal :=
  ∑ k : Fin 768, x (ix3 b s k) * w (ix2 o ⟨768 + k.val, by omega⟩)

/-- The value at the pair `(i, j)`: `tanh ((p₁ b i o + p₂ b j o) + β o)`, the two sums added first, then the bias. -/
def pairValue (x : SHid.Idx → EReal) (w : SW.Idx → EReal) (β : SBias.Idx → EReal)
    (b : Fin 4) (i j : Fin 256) (o : Fin 768) : EReal :=
  Ideal.tanh ((proj1 x w b i o + proj2 x w b j o) + β (ix1 o))

/-- An array holds the handshake of `x`, `w`, `β`: at the rank of every pair `i ≤ j` it holds that pair's value. -/
def HoldsPairs (x : SHid.Idx → EReal) (w : SW.Idx → EReal) (β : SBias.Idx → EReal) (out : SOut.Idx → EReal) : Prop :=
  ∀ (b : Fin 4) (i j : Fin 256) (o : Fin 768) (hij : i.val ≤ j.val),
    out (ix3 b ⟨rank i.val j.val, rank_lt hij j.isLt⟩ o) = pairValue x w β b i j o

/-- Two arrays holding the same handshake are one array: the ranks exhaust the rows. -/
theorem eq_of_holdsPairs {x : SHid.Idx → EReal} {w : SW.Idx → EReal} {β : SBias.Idx → EReal}
    {u v : SOut.Idx → EReal} (hu : HoldsPairs x w β u) (hv : HoldsPairs x w β v) : u = v := by
  funext y
  rw [eq_ix3 y]
  obtain ⟨i, j, hij, hj, hr⟩ := rank_surj (y 1).val (y 1).isLt
  have hi : i < 256 := by omega
  have e : y 1 = ⟨rank i j, rank_lt hij hj⟩ := Fin.ext hr.symm
  rw [e]
  exact (hu (y 0) ⟨i, hi⟩ ⟨j, hj⟩ (y 2) hij).trans (hv (y 0) ⟨i, hi⟩ ⟨j, hj⟩ (y 2) hij).symm

end Cert.Tri

end
-- ==== Proof.K.Reg0.lean ====
/- Region 0 of @main (the two products, `cc0__matmul_kernel`, pipeline 0, grid [4] over row blocks), at the
   TensorCore's buffer contents `V` when the region is entered. Four windows: 0 = the hidden states as a matrix
   (block [256,768] of [1024,768], one row block a point), 1 = the weight ([768,1536], one block, fetched at the first
   point and kept), 2 and 3 = the two products (blocks [256,768] of [1024,768], written back at every point).
   The body loads the row block and the weight whole, rounds both to bf16, and multiplies the row block by the left
   half of the weight's columns and by the right half; before each of its two stores it loads the product's buffer
   (the value is not used) and then stores the product over the WHOLE block. So what the body leaves in each product's
   buffer is a function of the two input blocks alone (`out0_2`, `out0_3`), and each input buffer is left as found:
   this is what the pipeline's proof data `dat0` record, and `body_obligation0` is the body's triple at every grid
   point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (the weight: its one block is fetched at the first point only, its block index never
    moves, and every later point finds it where the first left it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Each window's staging buffer is read, and each product's written, whole: `r0_W` is window `W`'s whole block. -/
abbrev r0_0 : Rect S256x768 := Rect.unit (s := S256x768) ![0, 0] S256x768.size inb_S256x768_S256x768_0_0
abbrev r0_1 : Rect S768x1536 := Rect.unit (s := S768x1536) ![0, 0] S768x1536.size inb_S768x1536_S768x1536_0_0
abbrev r0_2 : Rect S256x768 := Rect.unit (s := S256x768) ![0, 0] S256x768.size inb_S256x768_S256x768_0_0
abbrev r0_3 : Rect S256x768 := Rect.unit (s := S256x768) ![0, 0] S256x768.size inb_S256x768_S256x768_0_0

/-! ## What the body leaves in each output window's buffer -/

/-- Window 2's staging buffer after the body, from the input windows' blocks: its one store, of the whole block —
    the row block times the left half of the weight's columns, both rounded to bf16 (the payload is the skeleton's,
    over the two loads). -/
noncomputable def out0_2 (x0 : Vec F S256x768 .f32) (x1 : Vec F S768x1536 .f32) : Vec F S256x768 .f32 :=
  View.canon [⟨r0_2, k0_pay3 (View.ld x0 r0_0) (View.ld x1 r0_1)⟩]
/-- Window 3's likewise: the row block times the right half of the weight's columns. -/
noncomputable def out0_3 (x0 : Vec F S256x768 .f32) (x1 : Vec F S768x1536 .f32) : Vec F S256x768 .f32 :=
  View.canon [⟨r0_3, k0_pay4 (View.ld x0 r0_0) (View.ld x1 r0_1)⟩]

/-- Window 2's store is of the whole block, so it covers the buffer (checked by evaluation). -/
theorem cover0_2 (p0 : Vec F S256x768 .f32) (y : S256x768.Idx) :
    ∃ pc ∈ ([⟨r0_2, p0⟩] : List (View.Piece (Elt F) S256x768 .f32)), y ∈ pc.1.set :=
  View.cover_of_tiled [⟨r0_2, p0⟩] S256x768.size (by rfl) y
/-- Window 3's likewise. -/
theorem cover0_3 (p0 : Vec F S256x768 .f32) (y : S256x768.Idx) :
    ∃ pc ∈ ([⟨r0_3, p0⟩] : List (View.Piece (Elt F) S256x768 .f32)), y ∈ pc.1.set :=
  View.cover_of_tiled [⟨r0_3, p0⟩] S256x768.size (by rfl) y

/-! ## The body's triple -/

set_option maxHeartbeats 1000000 in
/-- The kernel body on whole staging memrefs, the inputs' at read contents `xW` and the outputs' at anything, runs to
    the continuation holding the inputs' as they were and each output's at `out0_W` of the inputs': the two loads of
    the inputs, then for each product the load of its buffer (whatever it holds; the value is dropped) and the one
    store over the whole of it. -/
theorem sound_kernel0 (c : Dev nD) (E : Set ℕ) (i : grid0.Coords) (arg1 : Memref sig .tc .vmem S256x768 .f32) (harg1 : arg1.IsWhole) (arg2 : Memref sig .tc .vmem S768x1536 .f32) (harg2 : arg2.IsWhole) (arg3 : Memref sig .tc .vmem S256x768 .f32) (harg3 : arg3.IsWhole) (arg4 : Memref sig .tc .vmem S256x768 .f32) (harg4 : arg4.IsWhole)
    (x0 : Vec F S256x768 .f32) (x1 : Vec F S768x1536 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and each output's at `out0_W` of the input blocks; the invariant the
    class's (`Pipeline.ΦA`: the scoped rest and the generator register, untouched); nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`, never `rfl`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr
-- ==== Proof.K.Reg1.lean ====
/- Region 1 of @main (triangular chunk 1 of 32, `cc1__tri_kernel`, pipeline 1, grid [4] over the batch), at the
   TensorCore's buffer contents `V` when the region is entered. Four windows: 0 = the eight rows of the first product
   this chunk pairs off (block [1,8,768] of [4,8,768]), 1 = the 256 rows of the second product they are paired with
   (block [1,256,768] of [4,256,768]), 2 = the bias row ([1,768], one block, fetched at the first point and kept),
   3 = the chunk's result (block [1,2020,768] of [4,2020,768], 2020 = 256 + 255 + … + 249, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out1_3`),
   and each input buffer is left as found: this is what the pipeline's proof data `dat1` record, and
   `body_obligation1` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 1 of @main: custom_call 1, `cc1__tri_kernel` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (the bias row: its one block is fetched at the first point only, and every later point
    finds it where the first left it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each staging buffer is read, and the result's written, whole. -/
abbrev r1_0 : Rect S1x8x768 := Rect.unit (s := S1x8x768) ![0, 0, 0] S1x8x768.size inb_S1x8x768_S1x8x768_0_0_0
abbrev r1_1 : Rect S1x256x768 := Rect.unit (s := S1x256x768) ![0, 0, 0] S1x256x768.size inb_S1x256x768_S1x256x768_0_0_0
abbrev r1_2 : Rect S1x768 := Rect.unit (s := S1x768) ![0, 0] S1x768.size inb_S1x768_S1x768_0_0
abbrev r1_3 : Rect S1x2020x768 := Rect.unit (s := S1x2020x768) ![0, 0, 0] S1x2020x768.size inb_S1x2020x768_S1x2020x768_0_0_0

/-! ## What the body leaves in the output window's buffer -/

/-- Window 3's staging buffer after the body, from the input windows' blocks: its one store, of the whole block —
    the eight row-broadcast sums under tanh, concatenated (the payloads are the skeleton's, over the three loads). -/
noncomputable def out1_3 (x0 : Vec F S1x8x768 .f32) (x1 : Vec F S1x256x768 .f32) (x2 : Vec F S1x768 .f32) : Vec F S1x2020x768 .f32 :=
  View.canon [⟨r1_3, k1_pay1 (k1_pay2 (View.ld x0 r1_0)) (k1_pay3 (View.ld x1 r1_1)) (k1_pay4 (View.ld x2 r1_2))
    (k1_pay5 (View.ld x0 r1_0) (View.ld x1 r1_1) (View.ld x2 r1_2)) (k1_pay6 (View.ld x0 r1_0) (View.ld x1 r1_1) (View.ld x2 r1_2))
    (k1_pay7 (View.ld x0 r1_0) (View.ld x1 r1_1) (View.ld x2 r1_2)) (k1_pay8 (View.ld x0 r1_0) (View.ld x1 r1_1) (View.ld x2 r1_2))
    (k1_pay9 (View.ld x0 r1_0) (View.ld x1 r1_1) (View.ld x2 r1_2)) (k1_pay10 (View.ld x0 r1_0) (View.ld x1 r1_1) (View.ld x2 r1_2))
    (k1_pay11 (View.ld x0 r1_0) (View.ld x1 r1_1))⟩]

/-- The store is of the whole block, so it covers the buffer (checked by evaluation). -/
theorem cover1_3 (p0 : Vec F S1x2020x768 .f32) (y : S1x2020x768.Idx) :
    ∃ pc ∈ ([⟨r1_3, p0⟩] : List (View.Piece (Elt F) S1x2020x768 .f32)), y ∈ pc.1.set :=
  View.cover_of_tiled [⟨r1_3, p0⟩] S1x2020x768.size (by rfl) y

/-! ## The body's triple -/

set_option maxHeartbeats 1000000 in
/-- The kernel body on whole staging memrefs, the inputs' at read contents `xW` and the output's at anything, runs to
    the continuation holding the inputs' as they were and the output's at `out1_3` of the inputs': the three loads of
    the first part, the load of the output's buffer (whatever it holds; the value is dropped), and the one store. -/
theorem sound_kernel1 (c : Dev nD) (E : Set ℕ) (i : grid1.Coords) (arg1 : Memref sig .tc .vmem S1x8x768 .f32) (harg1 : arg1.IsWhole) (arg2 : Memref sig .tc .vmem S1x256x768 .f32) (harg2 : arg2.IsWhole) (arg3 : Memref sig .tc .vmem S1x768 .f32) (harg3 : arg3.IsWhole) (arg4 : Memref sig .tc .vmem S1x2020x768 .f32) (harg4 : arg4.IsWhole)
    (x0 : Vec F S1x8x768 .f32) (x1 : Vec F S1x256x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__tri_kernel i arg1 harg1 arg2 harg2 arg3 harg3 arg4 harg4) K := by
  simp only [cc1__tri_kernel_eq_skeleton]; unfold cc1__tri_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    class's (`Pipeline.ΦA`: the scoped rest and the generator register, untouched); nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.K.Reg2.lean ====
/- Region 2 of @main (triangular chunk 2 of 32, `cc2__tri_kernel`, pipeline 2, grid [4] over the batch), at the
   TensorCore's buffer contents `V` when the region is entered. Four windows: 0 = the eight rows of the first product
   this chunk pairs off (block [1,8,768] of [4,8,768]), 1 = the 248 rows of the second product they are paired with
   (block [1,248,768] of [4,248,768]), 2 = the bias row ([1,768], one block, fetched at the first point and kept),
   3 = the chunk's result (block [1,1956,768] of [4,1956,768], 1956 = 248 + 247 + … + 241, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out2_3`),
   and each input buffer is left as found: this is what the pipeline's proof data `dat2` record, and
   `body_obligation2` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 2 of @main: custom_call 2, `cc2__tri_kernel` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2 (the bias row: its one block is fetched at the first point only, and every later point
    finds it where the first left it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Each staging buffer is read, and the result's written, whole. -/
abbrev r2_0 : Rect S1x8x768 := Rect.unit (s := S1x8x768) ![0, 0, 0] S1x8x768.size inb_S1x8x768_S1x8x768_0_0_0
abbrev r2_1 : Rect S1x248x768 := Rect.unit (s := S1x248x768) ![0, 0, 0] S1x248x768.size inb_S1x248x768_S1x248x768_0_0_0
abbrev r2_2 : Rect S1x768 := Rect.unit (s := S1x768) ![0, 0] S1x768.size inb_S1x768_S1x768_0_0
abbrev r2_3 : Rect S1x1956x768 := Rect.unit (s := S1x1956x768) ![0, 0, 0] S1x1956x768.size inb_S1x1956x768_S1x1956x768_0_0_0

/-! ## What the body leaves in the output window's buffer -/

/-- Window 3's staging buffer after the body, from the input windows' blocks: its one store, of the whole block —
    the eight row-broadcast sums under tanh, concatenated (the payloads are the skeleton's, over the three loads). -/
noncomputable def out2_3 (x0 : Vec F S1x8x768 .f32) (x1 : Vec F S1x248x768 .f32) (x2 : Vec F S1x768 .f32) : Vec F S1x1956x768 .f32 :=
  View.canon [⟨r2_3, k2_pay1 (k2_pay2 (View.ld x0 r2_0)) (k2_pay3 (View.ld x1 r2_1)) (k2_pay4 (View.ld x2 r2_2))
    (k2_pay5 (View.ld x0 r2_0) (View.ld x1 r2_1) (View.ld x2 r2_2)) (k2_pay6 (View.ld x0 r2_0) (View.ld x1 r2_1) (View.ld x2 r2_2))
    (k2_pay7 (View.ld x0 r2_0) (View.ld x1 r2_1) (View.ld x2 r2_2)) (k2_pay8 (View.ld x0 r2_0) (View.ld x1 r2_1) (View.ld x2 r2_2))
    (k2_pay9 (View.ld x0 r2_0) (View.ld x1 r2_1) (View.ld x2 r2_2)) (k2_pay10 (View.ld x0 r2_0) (View.ld x1 r2_1) (View.ld x2 r2_2))
    (k2_pay11 (View.ld x0 r2_0) (View.ld x1 r2_1))⟩]

/-- The store is of the whole block, so it covers the buffer (checked by evaluation). -/
theorem cover2_3 (p0 : Vec F S1x1956x768 .f32) (y : S1x1956x768.Idx) :
    ∃ pc ∈ ([⟨r2_3, p0⟩] : List (View.Piece (Elt F) S1x1956x768 .f32)), y ∈ pc.1.set :=
  View.cover_of_tiled [⟨r2_3, p0⟩] S1x1956x768.size (by rfl) y

/-! ## The body's triple -/

set_option maxHeartbeats 1000000 in
/-- The kernel body on whole staging memrefs, the inputs' at read contents `xW` and the output's at anything, runs to
    the continuation holding the inputs' as they were and the output's at `out2_3` of the inputs': the three loads of
    the first part, the load of the output's buffer (whatever it holds; the value is dropped), and the one store. -/
theorem sound_kernel2 (c : Dev nD) (E : Set ℕ) (i : grid2.Coords) (arg1 : Memref sig .tc .vmem S1x8x768 .f32) (harg1 : arg1.IsWhole) (arg2 : Memref sig .tc .vmem S1x248x768 .f32) (harg2 : arg2.IsWhole) (arg3 : Memref sig .tc .vmem S1x768 .f32) (harg3 : arg3.IsWhole) (arg4 : Memref sig .tc .vmem S1x1956x768 .f32) (harg4 : arg4.IsWhole)
    (x0 : Vec F S1x8x768 .f32) (x1 : Vec F S1x248x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__tri_kernel i arg1 harg1 arg2 harg2 arg3 harg3 arg4 harg4) K := by
  simp only [cc2__tri_kernel_eq_skeleton]; unfold cc2__tri_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant the
    class's (`Pipeline.ΦA`: the scoped rest and the generator register, untouched); nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the proof data's definition projected, by `dsimp`). -/
theorem A_eq2 (c : Dev nD) (w : Fin cfg2.W) : (dat2 V c).A w = V c (Pipeline.arrRef spec2 w) := by
  dsimp only [dat2]

/-- What the body leaves, window by window (the proof data's `match` reduced by `dsimp`, never `rfl`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.K.Reg3.lean ====
/- Region 3 of @main (triangular chunk 3 of 32, `cc3__tri_kernel`, pipeline 3, grid [4] over the batch), at the
   TensorCore's buffer contents `V` when the region is entered. Four windows: 0 = the eight rows of the first product
   this chunk pairs off (block [1,8,768] of [4,8,768]), 1 = the 240 rows of the second product they are paired with
   (block [1,240,768] of [4,240,768]), 2 = the bias row ([1,768], one block, fetched at the first point and kept),
   3 = the chunk's result (block [1,1892,768] of [4,1892,768], 1892 = 240 + 239 + … + 233, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out3_3`),
   and each input buffer is left as found: this is what the pipeline's proof data `dat3` record, and
   `body_obligation3` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 3 of @main: custom_call 3, `cc3__tri_kernel` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2 (the bias row: its one block is fetched at the first point only, and every later point
    finds it where the first left it). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Each staging buffer is read, and the result's written, whole. -/
abbrev r3_0 : Rect S1x8x768 := Rect.unit (s := S1x8x768) ![0, 0, 0] S1x8x768.size inb_S1x8x768_S1x8x768_0_0_0
abbrev r3_1 : Rect S1x240x768 := Rect.unit (s := S1x240x768) ![0, 0, 0] S1x240x768.size inb_S1x240x768_S1x240x768_0_0_0
abbrev r3_2 : Rect S1x768 := Rect.unit (s := S1x768) ![0, 0] S1x768.size inb_S1x768_S1x768_0_0
abbrev r3_3 : Rect S1x1892x768 := Rect.unit (s := S1x1892x768) ![0, 0, 0] S1x1892x768.size inb_S1x1892x768_S1x1892x768_0_0_0

/-! ## What the body leaves in the output window's buffer -/

/-- Window 3's staging buffer after the body, from the input windows' blocks: its one store, of the whole block —
    the eight row-broadcast sums under tanh, concatenated (the payloads are the skeleton's, over the three loads). -/
noncomputable def out3_3 (x0 : Vec F S1x8x768 .f32) (x1 : Vec F S1x240x768 .f32) (x2 : Vec F S1x768 .f32) : Vec F S1x1892x768 .f32 :=
  View.canon [⟨r3_3, k3_pay1 (k3_pay2 (View.ld x0 r3_0)) (k3_pay3 (View.ld x1 r3_1)) (k3_pay4 (View.ld x2 r3_2))
    (k3_pay5 (View.ld x0 r3_0) (View.ld x1 r3_1) (View.ld x2 r3_2)) (k3_pay6 (View.ld x0 r3_0) (View.ld x1 r3_1) (View.ld x2 r3_2))
    (k3_pay7 (View.ld x0 r3_0) (View.ld x1 r3_1) (View.ld x2 r3_2)) (k3_pay8 (View.ld x0 r3_0) (View.ld x1 r3_1) (View.ld x2 r3_2))
    (k3_pay9 (View.ld x0 r3_0) (View.ld x1 r3_1) (View.ld x2 r3_2)) (k3_pay10 (View.ld x0 r3_0) (View.ld x1 r3_1) (View.ld x2 r3_2))
    (k3_pay11 (View.ld x0 r3_0) (View.ld x1 r3_1))⟩]

/-- The store is of the whole block, so it covers the buffer (checked by evaluation). -/
theorem cover3_3 (p0 : Vec F S1x1892x768 .f32) (y : S1x1892x768.Idx) :
    ∃ pc ∈ ([⟨r3_3, p0⟩] : List (View.Piece (Elt F) S1x1892x768 .f32)), y ∈ pc.1.set :=
  View.cover_of_tiled [⟨r3_3, p0⟩] S1x1892x768.size (by rfl) y

/-! ## The body's triple -/

set_option maxHeartbeats 1000000 in
/-- The kernel body on whole staging memrefs, the inputs' at read contents `xW` and the output's at anything, runs to
    the continuation holding the inputs' as they were and the output's at `out3_3` of the inputs': the three loads of
    the first part, the load of the output's buffer (whatever it holds; the value is dropped), and the one store. -/
theorem sound_kernel3 (c : Dev nD) (E : Set ℕ) (i : grid3.Coords) (arg1 : Memref sig .tc .vmem S1x8x768 .f32) (harg1 : arg1.IsWhole) (arg2 : Memref sig .tc .vmem S1x240x768 .f32) (harg2 : arg2.IsWhole) (arg3 : Memref sig .tc .vmem S1x768 .f32) (harg3 : arg3.IsWhole) (arg4 : Memref sig .tc .vmem S1x1892x768 .f32) (harg4 : arg4.IsWhole)
    (x0 : Vec F S1x8x768 .f32) (x1 : Vec F S1x240x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__tri_kernel i arg1 harg1 arg2 harg2 arg3 harg3 arg4 harg4) K := by
  simp only [cc3__tri_kernel_eq_skeleton]; unfold cc3__tri_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant the
    class's (`Pipeline.ΦA`: the scoped rest and the generator register, untouched); nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`, never `rfl`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Fr

end
-- ==== Proof.K.Reg4.lean ====
/- Region 4 of @main (triangular chunk 4 of 32, `cc4__tri_kernel`, pipeline 4, grid [4] over the batch), at the
   TensorCore's buffer contents `V` when the region is entered. Four windows: 0 = the eight rows of the first product
   this chunk pairs off (block [1,8,768] of [4,8,768]), 1 = the 232 rows of the second product they are paired with
   (block [1,232,768] of [4,232,768]), 2 = the bias row ([1,768], one block, fetched at the first point and kept),
   3 = the chunk's result (block [1,1828,768] of [4,1828,768], 1828 = 232 + 231 + … + 225, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out4_3`),
   and each input buffer is left as found: this is what the pipeline's proof data `dat4` record, and
   `body_obligation4` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 4 of @main: custom_call 4, `cc4__tri_kernel` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2 (the bias row: its one block is fetched at the first point only, and every later point
    finds it where the first left it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- Each staging buffer is read, and the result's written, whole. -/
abbrev r4_0 : Rect S1x8x768 := Rect.unit (s := S1x8x768) ![0, 0, 0] S1x8x768.size inb_S1x8x768_S1x8x768_0_0_0
abbrev r4_1 : Rect S1x232x768 := Rect.unit (s := S1x232x768) ![0, 0, 0] S1x232x768.size inb_S1x232x768_S1x232x768_0_0_0
abbrev r4_2 : Rect S1x768 := Rect.unit (s := S1x768) ![0, 0] S1x768.size inb_S1x768_S1x768_0_0
abbrev r4_3 : Rect S1x1828x768 := Rect.unit (s := S1x1828x768) ![0, 0, 0] S1x1828x768.size inb_S1x1828x768_S1x1828x768_0_0_0

/-! ## What the body leaves in the output window's buffer -/

/-- Window 3's staging buffer after the body, from the input windows' blocks: its one store, of the whole block —
    the eight row-broadcast sums under tanh, concatenated (the payloads are the skeleton's, over the three loads). -/
noncomputable def out4_3 (x0 : Vec F S1x8x768 .f32) (x1 : Vec F S1x232x768 .f32) (x2 : Vec F S1x768 .f32) : Vec F S1x1828x768 .f32 :=
  View.canon [⟨r4_3, k4_pay1 (k4_pay2 (View.ld x0 r4_0)) (k4_pay3 (View.ld x1 r4_1)) (k4_pay4 (View.ld x2 r4_2))
    (k4_pay5 (View.ld x0 r4_0) (View.ld x1 r4_1) (View.ld x2 r4_2)) (k4_pay6 (View.ld x0 r4_0) (View.ld x1 r4_1) (View.ld x2 r4_2))
    (k4_pay7 (View.ld x0 r4_0) (View.ld x1 r4_1) (View.ld x2 r4_2)) (k4_pay8 (View.ld x0 r4_0) (View.ld x1 r4_1) (View.ld x2 r4_2))
    (k4_pay9 (View.ld x0 r4_0) (View.ld x1 r4_1) (View.ld x2 r4_2)) (k4_pay10 (View.ld x0 r4_0) (View.ld x1 r4_1) (View.ld x2 r4_2))
    (k4_pay11 (View.ld x0 r4_0) (View.ld x1 r4_1))⟩]

/-- The store is of the whole block, so it covers the buffer (checked by evaluation). -/
theorem cover4_3 (p0 : Vec F S1x1828x768 .f32) (y : S1x1828x768.Idx) :
    ∃ pc ∈ ([⟨r4_3, p0⟩] : List (View.Piece (Elt F) S1x1828x768 .f32)), y ∈ pc.1.set :=
  View.cover_of_tiled [⟨r4_3, p0⟩] S1x1828x768.size (by rfl) y

/-! ## The body's triple -/

set_option maxHeartbeats 1000000 in
/-- The kernel body on whole staging memrefs, the inputs' at read contents `xW` and the output's at anything, runs to
    the continuation holding the inputs' as they were and the output's at `out4_3` of the inputs': the three loads of
    the first part, the load of the output's buffer (whatever it holds; the value is dropped), and the one store. -/
theorem sound_kernel4 (c : Dev nD) (E : Set ℕ) (i : grid4.Coords) (arg1 : Memref sig .tc .vmem S1x8x768 .f32) (harg1 : arg1.IsWhole) (arg2 : Memref sig .tc .vmem S1x232x768 .f32) (harg2 : arg2.IsWhole) (arg3 : Memref sig .tc .vmem S1x768 .f32) (harg3 : arg3.IsWhole) (arg4 : Memref sig .tc .vmem S1x1828x768 .f32) (harg4 : arg4.IsWhole)
    (x0 : Vec F S1x8x768 .f32) (x1 : Vec F S1x232x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__tri_kernel i arg1 harg1 arg2 harg2 arg3 harg3 arg4 harg4) K := by
  simp only [cc4__tri_kernel_eq_skeleton]; unfold cc4__tri_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at
    point `t` each input's buffer at its block and the output's at `out4_3` of the input blocks; the invariant the
    class's (`Pipeline.ΦA`: the scoped rest and the generator register, untouched); nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- What the body leaves, window by window (the proof data's `match` reduced by `dsimp`, never `rfl`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Fr

end
-- ==== Proof.K.Reg5.lean ====
/- Region 5 of @main (triangular chunk 5 of 32, `cc5__tri_kernel`, pipeline 5, grid [4] over the batch), at the
   TensorCore's buffer contents `V` when the region is entered. Four windows: 0 = the eight rows of the first product
   this chunk pairs off (block [1,8,768] of [4,8,768]), 1 = the 224 rows of the second product they are paired with
   (block [1,224,768] of [4,224,768]), 2 = the bias row ([1,768], one block, fetched at the first point and kept),
   3 = the chunk's result (block [1,1764,768] of [4,1764,768], 1764 = 224 + 223 + … + 217, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out5_3`),
   and each input buffer is left as found: this is what the pipeline's proof data `dat5` record, and
   `body_obligation5` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 5 of @main: custom_call 5, `cc5__tri_kernel` (pipeline 5), at the entry contents `V` -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2 (the bias row: its one block is fetched at the first point only, and every later point
    finds it where the first left it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Each staging buffer is read, and the result's written, whole. -/
abbrev r5_0 : Rect S1x8x768 := Rect.unit (s := S1x8x768) ![0, 0, 0] S1x8x768.size inb_S1x8x768_S1x8x768_0_0_0
abbrev r5_1 : Rect S1x224x768 := Rect.unit (s := S1x224x768) ![0, 0, 0] S1x224x768.size inb_S1x224x768_S1x224x768_0_0_0
abbrev r5_2 : Rect S1x768 := Rect.unit (s := S1x768) ![0, 0] S1x768.size inb_S1x768_S1x768_0_0
abbrev r5_3 : Rect S1x1764x768 := Rect.unit (s := S1x1764x768) ![0, 0, 0] S1x1764x768.size inb_S1x1764x768_S1x1764x768_0_0_0

/-! ## What the body leaves in the output window's buffer -/

/-- Window 3's staging buffer after the body, from the input windows' blocks: its one store, of the whole block —
    the eight row-broadcast sums under tanh, concatenated (the payloads are the skeleton's, over the three loads). -/
noncomputable def out5_3 (x0 : Vec F S1x8x768 .f32) (x1 : Vec F S1x224x768 .f32) (x2 : Vec F S1x768 .f32) : Vec F S1x1764x768 .f32 :=
  View.canon [⟨r5_3, k5_pay1 (k5_pay2 (View.ld x0 r5_0)) (k5_pay3 (View.ld x1 r5_1)) (k5_pay4 (View.ld x2 r5_2))
    (k5_pay5 (View.ld x0 r5_0) (View.ld x1 r5_1) (View.ld x2 r5_2)) (k5_pay6 (View.ld x0 r5_0) (View.ld x1 r5_1) (View.ld x2 r5_2))
    (k5_pay7 (View.ld x0 r5_0) (View.ld x1 r5_1) (View.ld x2 r5_2)) (k5_pay8 (View.ld x0 r5_0) (View.ld x1 r5_1) (View.ld x2 r5_2))
    (k5_pay9 (View.ld x0 r5_0) (View.ld x1 r5_1) (View.ld x2 r5_2)) (k5_pay10 (View.ld x0 r5_0) (View.ld x1 r5_1) (View.ld x2 r5_2))
    (k5_pay11 (View.ld x0 r5_0) (View.ld x1 r5_1))⟩]

/-- The store is of the whole block, so it covers the buffer (checked by evaluation). -/
theorem cover5_3 (p0 : Vec F S1x1764x768 .f32) (y : S1x1764x768.Idx) :
    ∃ pc ∈ ([⟨r5_3, p0⟩] : List (View.Piece (Elt F) S1x1764x768 .f32)), y ∈ pc.1.set :=
  View.cover_of_tiled [⟨r5_3, p0⟩] S1x1764x768.size (by rfl) y

/-! ## The body's triple -/

set_option maxHeartbeats 1000000 in
/-- The kernel body on whole staging memrefs, the inputs' at read contents `xW` and the output's at anything, runs to
    the continuation holding the inputs' as they were and the output's at `out5_3` of the inputs': the three loads of
    the first part, the load of the output's buffer (whatever it holds; the value is dropped), and the one store. -/
theorem sound_kernel5 (c : Dev nD) (E : Set ℕ) (i : grid5.Coords) (arg1 : Memref sig .tc .vmem S1x8x768 .f32) (harg1 : arg1.IsWhole) (arg2 : Memref sig .tc .vmem S1x224x768 .f32) (harg2 : arg2.IsWhole) (arg3 : Memref sig .tc .vmem S1x768 .f32) (harg3 : arg3.IsWhole) (arg4 : Memref sig .tc .vmem S1x1764x768 .f32) (harg4 : arg4.IsWhole)
    (x0 : Vec F S1x8x768 .f32) (x1 : Vec F S1x224x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__tri_kernel i arg1 harg1 arg2 harg2 arg3 harg3 arg4 harg4) K := by
  simp only [cc5__tri_kernel_eq_skeleton]; unfold cc5__tri_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant the
    class's (`Pipeline.ΦA`: the scoped rest and the generator register, untouched); nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`, never `rfl`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the body obligation's precondition, the windows one by one), -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Fr

end
-- ==== Proof.K.Reg6.lean ====
/- Region 6 of @main (triangular chunk 6 of 32, `cc6__tri_kernel`, pipeline 6, grid [4] over the batch), at the
   TensorCore's buffer contents `V` when the region is entered. Four windows: 0 = the eight rows of the first product
   this chunk pairs off (block [1,8,768] of [4,8,768]), 1 = the 216 rows of the second product they are paired with
   (block [1,216,768] of [4,216,768]), 2 = the bias row ([1,768], one block, fetched at the first point and kept),
   3 = the chunk's result (block [1,1700,768] of [4,1700,768], 1700 = 216 + 215 + … + 209, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out6_3`),
   and each input buffer is left as found: this is what the pipeline's proof data `dat6` record, and
   `body_obligation6` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 6 of @main: custom_call 6, `cc6__tri_kernel` (pipeline 6), at the entry contents `V` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2 (the bias row: its one block is fetched at the first point only, and every later point
    finds it where the first left it). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- Each staging buffer is read, and the result's written, whole. -/
abbrev r6_0 : Rect S1x8x768 := Rect.unit (s := S1x8x768) ![0, 0, 0] S1x8x768.size inb_S1x8x768_S1x8x768_0_0_0
abbrev r6_1 : Rect S1x216x768 := Rect.unit (s := S1x216x768) ![0, 0, 0] S1x216x768.size inb_S1x216x768_S1x216x768_0_0_0
abbrev r6_2 : Rect S1x768 := Rect.unit (s := S1x768) ![0, 0] S1x768.size inb_S1x768_S1x768_0_0
abbrev r6_3 : Rect S1x1700x768 := Rect.unit (s := S1x1700x768) ![0, 0, 0] S1x1700x768.size inb_S1x1700x768_S1x1700x768_0_0_0

/-! ## What the body leaves in the output window's buffer -/

/-- Window 3's staging buffer after the body, from the input windows' blocks: its one store, of the whole block —
    the eight row-broadcast sums under tanh, concatenated (the payloads are the skeleton's, over the three loads). -/
noncomputable def out6_3 (x0 : Vec F S1x8x768 .f32) (x1 : Vec F S1x216x768 .f32) (x2 : Vec F S1x768 .f32) : Vec F S1x1700x768 .f32 :=
  View.canon [⟨r6_3, k6_pay1 (k6_pay2 (View.ld x0 r6_0)) (k6_pay3 (View.ld x1 r6_1)) (k6_pay4 (View.ld x2 r6_2))
    (k6_pay5 (View.ld x0 r6_0) (View.ld x1 r6_1) (View.ld x2 r6_2)) (k6_pay6 (View.ld x0 r6_0) (View.ld x1 r6_1) (View.ld x2 r6_2))
    (k6_pay7 (View.ld x0 r6_0) (View.ld x1 r6_1) (View.ld x2 r6_2)) (k6_pay8 (View.ld x0 r6_0) (View.ld x1 r6_1) (View.ld x2 r6_2))
    (k6_pay9 (View.ld x0 r6_0) (View.ld x1 r6_1) (View.ld x2 r6_2)) (k6_pay10 (View.ld x0 r6_0) (View.ld x1 r6_1) (View.ld x2 r6_2))
    (k6_pay11 (View.ld x0 r6_0) (View.ld x1 r6_1))⟩]

/-- The store is of the whole block, so it covers the buffer (checked by evaluation). -/
theorem cover6_3 (p0 : Vec F S1x1700x768 .f32) (y : S1x1700x768.Idx) :
    ∃ pc ∈ ([⟨r6_3, p0⟩] : List (View.Piece (Elt F) S1x1700x768 .f32)), y ∈ pc.1.set :=
  View.cover_of_tiled [⟨r6_3, p0⟩] S1x1700x768.size (by rfl) y

/-! ## The body's triple -/

set_option maxHeartbeats 1000000 in
/-- The kernel body on whole staging memrefs, the inputs' at read contents `xW` and the output's at anything, runs to
    the continuation holding the inputs' as they were and the output's at `out6_3` of the inputs': the three loads of
    the first part, the load of the output's buffer (whatever it holds; the value is dropped), and the one store. -/
theorem sound_kernel6 (c : Dev nD) (E : Set ℕ) (i : grid6.Coords) (arg1 : Memref sig .tc .vmem S1x8x768 .f32) (harg1 : arg1.IsWhole) (arg2 : Memref sig .tc .vmem S1x216x768 .f32) (harg2 : arg2.IsWhole) (arg3 : Memref sig .tc .vmem S1x768 .f32) (harg3 : arg3.IsWhole) (arg4 : Memref sig .tc .vmem S1x1700x768 .f32) (harg4 : arg4.IsWhole)
    (x0 : Vec F S1x8x768 .f32) (x1 : Vec F S1x216x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__tri_kernel i arg1 harg1 arg2 harg2 arg3 harg3 arg4 harg4) K := by
  simp only [cc6__tri_kernel_eq_skeleton]; unfold cc6__tri_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant the
    class's (`Pipeline.ΦA`: the scoped rest and the generator register, untouched); nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the proof data's definition projected, by `dsimp`). -/
theorem A_eq6 (c : Dev nD) (w : Fin cfg6.W) : (dat6 V c).A w = V c (Pipeline.arrRef spec6 w) := by
  dsimp only [dat6]

/-- What the body leaves, window by window (the proof data's `match` reduced by `dsimp`, never `rfl`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not (`before6_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the body obligation's precondition, the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Fr

end
-- ==== Proof.K.Reg7.lean ====
/- Region 7 of @main (triangular chunk 7 of 32, `cc7__tri_kernel`, pipeline 7, grid [4] over the batch), at the
   TensorCore's buffer contents `V` when the region is entered. Four windows: 0 = the eight rows of the first product
   this chunk pairs off (block [1,8,768] of [4,8,768]), 1 = the 208 rows of the second product they are paired with
   (block [1,208,768] of [4,208,768]), 2 = the bias row ([1,768], one block, fetched at the first point and kept),
   3 = the chunk's result (block [1,1636,768] of [4,1636,768], 1636 = 208 + 207 + … + 201, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out7_3`),
   and each input buffer is left as found: this is what the pipeline's proof data `dat7` record, and
   `body_obligation7` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 7 of @main: custom_call 7, `cc7__tri_kernel` (pipeline 7), at the entry contents `V` -/

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same of input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same of input window 2 (the bias row: its one block is fetched at the first point only, and every later point
    finds it where the first left it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- Each staging buffer is read, and the result's written, whole. -/
abbrev r7_0 : Rect S1x8x768 := Rect.unit (s := S1x8x768) ![0, 0, 0] S1x8x768.size inb_S1x8x768_S1x8x768_0_0_0
abbrev r7_1 : Rect S1x208x768 := Rect.unit (s := S1x208x768) ![0, 0, 0] S1x208x768.size inb_S1x208x768_S1x208x768_0_0_0
abbrev r7_2 : Rect S1x768 := Rect.unit (s := S1x768) ![0, 0] S1x768.size inb_S1x768_S1x768_0_0
abbrev r7_3 : Rect S1x1636x768 := Rect.unit (s := S1x1636x768) ![0, 0, 0] S1x1636x768.size inb_S1x1636x768_S1x1636x768_0_0_0

/-! ## What the body leaves in the output window's buffer -/

/-- Window 3's staging buffer after the body, from the input windows' blocks: its one store, of the whole block —
    the eight row-broadcast sums under tanh, concatenated (the payloads are the skeleton's, over the three loads). -/
noncomputable def out7_3 (x0 : Vec F S1x8x768 .f32) (x1 : Vec F S1x208x768 .f32) (x2 : Vec F S1x768 .f32) : Vec F S1x1636x768 .f32 :=
  View.canon [⟨r7_3, k7_pay1 (k7_pay2 (View.ld x0 r7_0)) (k7_pay3 (View.ld x1 r7_1)) (k7_pay4 (View.ld x2 r7_2))
    (k7_pay5 (View.ld x0 r7_0) (View.ld x1 r7_1) (View.ld x2 r7_2)) (k7_pay6 (View.ld x0 r7_0) (View.ld x1 r7_1) (View.ld x2 r7_2))
    (k7_pay7 (View.ld x0 r7_0) (View.ld x1 r7_1) (View.ld x2 r7_2)) (k7_pay8 (View.ld x0 r7_0) (View.ld x1 r7_1) (View.ld x2 r7_2))
    (k7_pay9 (View.ld x0 r7_0) (View.ld x1 r7_1) (View.ld x2 r7_2)) (k7_pay10 (View.ld x0 r7_0) (View.ld x1 r7_1) (View.ld x2 r7_2))
    (k7_pay11 (View.ld x0 r7_0) (View.ld x1 r7_1))⟩]

/-- The store is of the whole block, so it covers the buffer (checked by evaluation). -/
theorem cover7_3 (p0 : Vec F S1x1636x768 .f32) (y : S1x1636x768.Idx) :
    ∃ pc ∈ ([⟨r7_3, p0⟩] : List (View.Piece (Elt F) S1x1636x768 .f32)), y ∈ pc.1.set :=
  View.cover_of_tiled [⟨r7_3, p0⟩] S1x1636x768.size (by rfl) y

/-! ## The body's triple -/

set_option maxHeartbeats 1000000 in
/-- The kernel body on whole staging memrefs, the inputs' at read contents `xW` and the output's at anything, runs to
    the continuation holding the inputs' as they were and the output's at `out7_3` of the inputs': the three loads of
    the first part, the load of the output's buffer (whatever it holds; the value is dropped), and the one store. -/
theorem sound_kernel7 (c : Dev nD) (E : Set ℕ) (i : grid7.Coords) (arg1 : Memref sig .tc .vmem S1x8x768 .f32) (harg1 : arg1.IsWhole) (arg2 : Memref sig .tc .vmem S1x208x768 .f32) (harg2 : arg2.IsWhole) (arg3 : Memref sig .tc .vmem S1x768 .f32) (harg3 : arg3.IsWhole) (arg4 : Memref sig .tc .vmem S1x1636x768 .f32) (harg4 : arg4.IsWhole)
    (x0 : Vec F S1x8x768 .f32) (x1 : Vec F S1x208x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__tri_kernel i arg1 harg1 arg2 harg2 arg3 harg3 arg4 harg4) K := by
  simp only [cc7__tri_kernel_eq_skeleton]; unfold cc7__tri_kernel_skel
  simp only [k7_part1_eq_skeleton]; unfold k7_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at
    point `t` each input's buffer at its block and the output's at `out7_3` of the input blocks; the invariant the
    class's (`Pipeline.ΦA`: the scoped rest and the generator register, untouched); nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`, never `rfl`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the body obligation's precondition, the windows one by one), -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Fr

end
-- ==== Proof.K.Reg8.lean ====
/- Region 8 of @main (triangular chunk 8 of 32, `cc8__tri_kernel`, pipeline 8, grid [4] over the batch), at the
   TensorCore's buffer contents `V` when the region is entered. Four windows: 0 = the eight rows of the first product
   this chunk pairs off (block [1,8,768] of [4,8,768]), 1 = the 200 rows of the second product they are paired with
   (block [1,200,768] of [4,200,768]), 2 = the bias row ([1,768], one block, fetched at the first point and kept),
   3 = the chunk's result (block [1,1572,768] of [4,1572,768], 1572 = 200 + 199 + … + 193, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out8_3`),
   and each input buffer is left as found: this is what the pipeline's proof data `dat8` record, and
   `body_obligation8` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 8 of @main: custom_call 8, `cc8__tri_kernel` (pipeline 8), at the entry contents `V` -/

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2 (the bias row: its one block is fetched at the first point only, and every later point
    finds it where the first left it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- Each staging buffer is read, and the result's written, whole. -/
abbrev r8_0 : Rect S1x8x768 := Rect.unit (s := S1x8x768) ![0, 0, 0] S1x8x768.size inb_S1x8x768_S1x8x768_0_0_0
abbrev r8_1 : Rect S1x200x768 := Rect.unit (s := S1x200x768) ![0, 0, 0] S1x200x768.size inb_S1x200x768_S1x200x768_0_0_0
abbrev r8_2 : Rect S1x768 := Rect.unit (s := S1x768) ![0, 0] S1x768.size inb_S1x768_S1x768_0_0
abbrev r8_3 : Rect S1x1572x768 := Rect.unit (s := S1x1572x768) ![0, 0, 0] S1x1572x768.size inb_S1x1572x768_S1x1572x768_0_0_0

/-! ## What the body leaves in the output window's buffer -/

/-- Window 3's staging buffer after the body, from the input windows' blocks: its one store, of the whole block —
    the eight row-broadcast sums under tanh, concatenated (the payloads are the skeleton's, over the three loads). -/
noncomputable def out8_3 (x0 : Vec F S1x8x768 .f32) (x1 : Vec F S1x200x768 .f32) (x2 : Vec F S1x768 .f32) : Vec F S1x1572x768 .f32 :=
  View.canon [⟨r8_3, k8_pay1 (k8_pay2 (View.ld x0 r8_0)) (k8_pay3 (View.ld x1 r8_1)) (k8_pay4 (View.ld x2 r8_2))
    (k8_pay5 (View.ld x0 r8_0) (View.ld x1 r8_1) (View.ld x2 r8_2)) (k8_pay6 (View.ld x0 r8_0) (View.ld x1 r8_1) (View.ld x2 r8_2))
    (k8_pay7 (View.ld x0 r8_0) (View.ld x1 r8_1) (View.ld x2 r8_2)) (k8_pay8 (View.ld x0 r8_0) (View.ld x1 r8_1) (View.ld x2 r8_2))
    (k8_pay9 (View.ld x0 r8_0) (View.ld x1 r8_1) (View.ld x2 r8_2)) (k8_pay10 (View.ld x0 r8_0) (View.ld x1 r8_1) (View.ld x2 r8_2))
    (k8_pay11 (View.ld x0 r8_0) (View.ld x1 r8_1))⟩]

/-- The store is of the whole block, so it covers the buffer (checked by evaluation). -/
theorem cover8_3 (p0 : Vec F S1x1572x768 .f32) (y : S1x1572x768.Idx) :
    ∃ pc ∈ ([⟨r8_3, p0⟩] : List (View.Piece (Elt F) S1x1572x768 .f32)), y ∈ pc.1.set :=
  View.cover_of_tiled [⟨r8_3, p0⟩] S1x1572x768.size (by rfl) y

/-! ## The body's triple -/

set_option maxHeartbeats 1000000 in
/-- The kernel body on whole staging memrefs, the inputs' at read contents `xW` and the output's at anything, runs to
    the continuation holding the inputs' as they were and the output's at `out8_3` of the inputs': the three loads of
    the first part, the load of the output's buffer (whatever it holds; the value is dropped), and the one store. -/
theorem sound_kernel8 (c : Dev nD) (E : Set ℕ) (i : grid8.Coords) (arg1 : Memref sig .tc .vmem S1x8x768 .f32) (harg1 : arg1.IsWhole) (arg2 : Memref sig .tc .vmem S1x200x768 .f32) (harg2 : arg2.IsWhole) (arg3 : Memref sig .tc .vmem S1x768 .f32) (harg3 : arg3.IsWhole) (arg4 : Memref sig .tc .vmem S1x1572x768 .f32) (harg4 : arg4.IsWhole)
    (x0 : Vec F S1x8x768 .f32) (x1 : Vec F S1x200x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__tri_kernel i arg1 harg1 arg2 harg2 arg3 harg3 arg4 harg4) K := by
  simp only [cc8__tri_kernel_eq_skeleton]; unfold cc8__tri_kernel_skel
  simp only [k8_part1_eq_skeleton]; unfold k8_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at
    point `t` each input's buffer at its block and the output's at `out8_3` of the input blocks; the invariant the
    class's (`Pipeline.ΦA`: the scoped rest and the generator register, untouched); nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the proof data's definition projected, by `dsimp`). -/
theorem A_eq8 (c : Dev nD) (w : Fin cfg8.W) : (dat8 V c).A w = V c (Pipeline.arrRef spec8 w) := by
  dsimp only [dat8]

/-- What the body leaves, window by window (the proof data's `match` reduced by `dsimp`, never `rfl`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not (`before8_W_of`). -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the body obligation's precondition, the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.Kernel.Fr

end
-- ==== Proof.K.Reg9.lean ====
/- Region 9 of @main (triangular chunk 9 of 32, `cc9__tri_kernel`, pipeline 9, grid [4] over the batch), at the
   TensorCore's buffer contents `V` when the region is entered. Four windows: 0 = the eight rows of the first product
   this chunk pairs off (block [1,8,768] of [4,8,768]), 1 = the 192 rows of the second product they are paired with
   (block [1,192,768] of [4,192,768]), 2 = the bias row ([1,768], one block, fetched at the first point and kept),
   3 = the chunk's result (block [1,1508,768] of [4,1508,768], 1508 = 192 + 191 + … + 185, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out9_3`),
   and each input buffer is left as found: this is what the pipeline's proof data `dat9` record, and
   `body_obligation9` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 9 of @main: custom_call 9, `cc9__tri_kernel` (pipeline 9), at the entry contents `V` -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2 (the bias row: its one block is fetched at the first point only, and every later point
    finds it where the first left it). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- Each staging buffer is read, and the result's written, whole. -/
abbrev r9_0 : Rect S1x8x768 := Rect.unit (s := S1x8x768) ![0, 0, 0] S1x8x768.size inb_S1x8x768_S1x8x768_0_0_0
abbrev r9_1 : Rect S1x192x768 := Rect.unit (s := S1x192x768) ![0, 0, 0] S1x192x768.size inb_S1x192x768_S1x192x768_0_0_0
abbrev r9_2 : Rect S1x768 := Rect.unit (s := S1x768) ![0, 0] S1x768.size inb_S1x768_S1x768_0_0
abbrev r9_3 : Rect S1x1508x768 := Rect.unit (s := S1x1508x768) ![0, 0, 0] S1x1508x768.size inb_S1x1508x768_S1x1508x768_0_0_0

/-! ## What the body leaves in the output window's buffer -/

/-- Window 3's staging buffer after the body, from the input windows' blocks: its one store, of the whole block —
    the eight row-broadcast sums under tanh, concatenated (the payloads are the skeleton's, over the three loads). -/
noncomputable def out9_3 (x0 : Vec F S1x8x768 .f32) (x1 : Vec F S1x192x768 .f32) (x2 : Vec F S1x768 .f32) : Vec F S1x1508x768 .f32 :=
  View.canon [⟨r9_3, k9_pay1 (k9_pay2 (View.ld x0 r9_0)) (k9_pay3 (View.ld x1 r9_1)) (k9_pay4 (View.ld x2 r9_2))
    (k9_pay5 (View.ld x0 r9_0) (View.ld x1 r9_1) (View.ld x2 r9_2)) (k9_pay6 (View.ld x0 r9_0) (View.ld x1 r9_1) (View.ld x2 r9_2))
    (k9_pay7 (View.ld x0 r9_0) (View.ld x1 r9_1) (View.ld x2 r9_2)) (k9_pay8 (View.ld x0 r9_0) (View.ld x1 r9_1) (View.ld x2 r9_2))
    (k9_pay9 (View.ld x0 r9_0) (View.ld x1 r9_1) (View.ld x2 r9_2)) (k9_pay10 (View.ld x0 r9_0) (View.ld x1 r9_1) (View.ld x2 r9_2))
    (k9_pay11 (View.ld x0 r9_0) (View.ld x1 r9_1))⟩]

/-- The store is of the whole block, so it covers the buffer (checked by evaluation). -/
theorem cover9_3 (p0 : Vec F S1x1508x768 .f32) (y : S1x1508x768.Idx) :
    ∃ pc ∈ ([⟨r9_3, p0⟩] : List (View.Piece (Elt F) S1x1508x768 .f32)), y ∈ pc.1.set :=
  View.cover_of_tiled [⟨r9_3, p0⟩] S1x1508x768.size (by rfl) y

/-! ## The body's triple -/

set_option maxHeartbeats 1000000 in
/-- The kernel body on whole staging memrefs, the inputs' at read contents `xW` and the output's at anything, runs to
    the continuation holding the inputs' as they were and the output's at `out9_3` of the inputs': the three loads of
    the first part, the load of the output's buffer (whatever it holds; the value is dropped), and the one store. -/
theorem sound_kernel9 (c : Dev nD) (E : Set ℕ) (i : grid9.Coords) (arg1 : Memref sig .tc .vmem S1x8x768 .f32) (harg1 : arg1.IsWhole) (arg2 : Memref sig .tc .vmem S1x192x768 .f32) (harg2 : arg2.IsWhole) (arg3 : Memref sig .tc .vmem S1x768 .f32) (harg3 : arg3.IsWhole) (arg4 : Memref sig .tc .vmem S1x1508x768 .f32) (harg4 : arg4.IsWhole)
    (x0 : Vec F S1x8x768 .f32) (x1 : Vec F S1x192x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__tri_kernel i arg1 harg1 arg2 harg2 arg3 harg3 arg4 harg4) K := by
  simp only [cc9__tri_kernel_eq_skeleton]; unfold cc9__tri_kernel_skel
  simp only [k9_part1_eq_skeleton]; unfold k9_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at
    point `t` each input's buffer at its block and the output's at `out9_3` of the input blocks; the invariant the
    class's (`Pipeline.ΦA`: the scoped rest and the generator register, untouched); nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents (the proof data's definition projected, by `dsimp`). -/
theorem A_eq9 (c : Dev nD) (w : Fin cfg9.W) : (dat9 V c).A w = V c (Pipeline.arrRef spec9 w) := by
  dsimp only [dat9]

/-- What the body leaves, window by window (the proof data's `match` reduced by `dsimp`, never `rfl`). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not (`before9_W_of`). -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the body obligation's precondition, the windows one by one), -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.Kernel.Fr

end
-- ==== Proof.K.Reg10.lean ====
/- Region 10 of @main (triangular chunk 10 of 32, `cc10__tri_kernel`, pipeline 10, grid [4] over the batch), at the
   TensorCore's buffer contents `V` when the region is entered. Four windows: 0 = the eight rows of the first product
   this chunk pairs off (block [1,8,768] of [4,8,768]), 1 = the 184 rows of the second product they are paired with
   (block [1,184,768] of [4,184,768]), 2 = the bias row ([1,768], one block, fetched at the first point and kept),
   3 = the chunk's result (block [1,1444,768] of [4,1444,768], 1444 = 184 + 183 + … + 177, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out10_3`),
   and each input buffer is left as found: this is what the pipeline's proof data `dat10` record, and
   `body_obligation10` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 10 of @main: custom_call 10, `cc10__tri_kernel` (pipeline 10), at the entry contents `V` -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2 (the bias row: its one block is fetched at the first point only, and every later point
    finds it where the first left it). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- Each staging buffer is read, and the result's written, whole. -/
abbrev r10_0 : Rect S1x8x768 := Rect.unit (s := S1x8x768) ![0, 0, 0] S1x8x768.size inb_S1x8x768_S1x8x768_0_0_0
abbrev r10_1 : Rect S1x184x768 := Rect.unit (s := S1x184x768) ![0, 0, 0] S1x184x768.size inb_S1x184x768_S1x184x768_0_0_0
abbrev r10_2 : Rect S1x768 := Rect.unit (s := S1x768) ![0, 0] S1x768.size inb_S1x768_S1x768_0_0
abbrev r10_3 : Rect S1x1444x768 := Rect.unit (s := S1x1444x768) ![0, 0, 0] S1x1444x768.size inb_S1x1444x768_S1x1444x768_0_0_0

/-! ## What the body leaves in the output window's buffer -/

/-- Window 3's staging buffer after the body, from the input windows' blocks: its one store, of the whole block —
    the eight row-broadcast sums under tanh, concatenated (the payloads are the skeleton's, over the three loads). -/
noncomputable def out10_3 (x0 : Vec F S1x8x768 .f32) (x1 : Vec F S1x184x768 .f32) (x2 : Vec F S1x768 .f32) : Vec F S1x1444x768 .f32 :=
  View.canon [⟨r10_3, k10_pay1 (k10_pay2 (View.ld x0 r10_0)) (k10_pay3 (View.ld x1 r10_1)) (k10_pay4 (View.ld x2 r10_2))
    (k10_pay5 (View.ld x0 r10_0) (View.ld x1 r10_1) (View.ld x2 r10_2)) (k10_pay6 (View.ld x0 r10_0) (View.ld x1 r10_1) (View.ld x2 r10_2))
    (k10_pay7 (View.ld x0 r10_0) (View.ld x1 r10_1) (View.ld x2 r10_2)) (k10_pay8 (View.ld x0 r10_0) (View.ld x1 r10_1) (View.ld x2 r10_2))
    (k10_pay9 (View.ld x0 r10_0) (View.ld x1 r10_1) (View.ld x2 r10_2)) (k10_pay10 (View.ld x0 r10_0) (View.ld x1 r10_1) (View.ld x2 r10_2))
    (k10_pay11 (View.ld x0 r10_0) (View.ld x1 r10_1))⟩]

/-- The store is of the whole block, so it covers the buffer (checked by evaluation). -/
theorem cover10_3 (p0 : Vec F S1x1444x768 .f32) (y : S1x1444x768.Idx) :
    ∃ pc ∈ ([⟨r10_3, p0⟩] : List (View.Piece (Elt F) S1x1444x768 .f32)), y ∈ pc.1.set :=
  View.cover_of_tiled [⟨r10_3, p0⟩] S1x1444x768.size (by rfl) y

/-! ## The body's triple -/

set_option maxHeartbeats 1000000 in
/-- The kernel body on whole staging memrefs, the inputs' at read contents `xW` and the output's at anything, runs to
    the continuation holding the inputs' as they were and the output's at `out10_3` of the inputs': the three loads of
    the first part, the load of the output's buffer (whatever it holds; the value is dropped), and the one store. -/
theorem sound_kernel10 (c : Dev nD) (E : Set ℕ) (i : grid10.Coords) (arg1 : Memref sig .tc .vmem S1x8x768 .f32) (harg1 : arg1.IsWhole) (arg2 : Memref sig .tc .vmem S1x184x768 .f32) (harg2 : arg2.IsWhole) (arg3 : Memref sig .tc .vmem S1x768 .f32) (harg3 : arg3.IsWhole) (arg4 : Memref sig .tc .vmem S1x1444x768 .f32) (harg4 : arg4.IsWhole)
    (x0 : Vec F S1x8x768 .f32) (x1 : Vec F S1x184x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2)) -∗ K ⟨⟩))
      ⊢ wp frame (wpE (defs₀ (F := F)) Variants.none c none) E (cc10__tri_kernel i arg1 harg1 arg2 harg2 arg3 harg3 arg4 harg4) K := by
  simp only [cc10__tri_kernel_eq_skeleton]; unfold cc10__tri_kernel_skel
  simp only [k10_part1_eq_skeleton]; unfold k10_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them (`V`); after the body at
    point `t` each input's buffer at its block and the output's at `out10_3` of the input blocks; the invariant the
    class's (`Pipeline.ΦA`: the scoped rest and the generator register, untouched); nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents (the proof data's definition projected, by `dsimp`). -/
theorem A_eq10 (c : Dev nD) (w : Fin cfg10.W) : (dat10 V c).A w = V c (Pipeline.arrRef spec10 w) := by
  dsimp only [dat10]

/-- What the body leaves, window by window (the proof data's `match` reduced by `dsimp`, never `rfl`). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

/-- Each input's current staging buffer holds its block at every point, fetched there or not (`before10_W_of`). -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t` (the body obligation's precondition, the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
noncomputable def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Regions

end Cert.Kernel.Fr

end
-- ==== Proof.K.Reg11.lean ====
/- Region 11 of @main (triangular chunk 11 of 32, `cc11__tri_kernel`, pipeline 11, grid [4] over the batch), at the
   TensorCore's buffer contents `V` when the region is entered. Four windows: 0 = the eight rows of the first product
   this chunk pairs off (block [1,8,768] of [4,8,768]), 1 = the 176 rows of the second product they are paired with
   (block [1,176,768] of [4,176,768]), 2 = the bias row ([1,768], one block, fetched at the first point and kept),
   3 = the chunk's result (block [1,1380,768] of [4,1380,768], 1380 = 176 + 175 + … + 169, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out11_3`),
   and each input buffer is left as found: this is what the pipeline's proof data `dat11` record, and
   `body_obligation11` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 11 of @main: custom_call 11, `cc11__tri_kernel` (pipeline 11), at the entry contents `V` -/

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2 (the bias row: its one block is fetched at the first point only, and every later point
    finds it where the first left it). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- Each staging buffer is read, and the result's written, whole. -/
abbrev r11_0 : Rect S1x8x768 := Rect.unit (s := S1x8x768) ![0, 0, 0] S1x8x768.size inb_S1x8x768_S1x8x768_0_0_0
abbrev r11_1 : Rect S1x176x768 := Rect.unit (s := S1x176x768) ![0, 0, 0] S1x176x768.size inb_S1x176x768_S1x176x768_0_0_0
abbrev r11_2 : Rect S1x768 := Rect.unit (s := S1x768) ![0, 0] S1x768.size inb_S1x768_S1x768_0_0
abbrev r11_3 : Rect S1x1380x768 := Rect.unit (s := S1x1380x768) ![0, 0, 0] S1x1380x768.size inb_S1x1380x768_S1x1380x768_0_0_0

/-! ## What the body leaves in the output window's buffer -/

/-- Window 3's staging buffer after the body, from the input windows' blocks: its one store, of the whole block —
    the eight row-broadcast sums under tanh, concatenated (the payloads are the skeleton's, over the three loads). -/
noncomputable def out11_3 (x0 : Vec F S1x8x768 .f32) (x1 : Vec F S1x176x768 .f32) (x2 : Vec F S1x768 .f32) : Vec F S1x1380x768 .f32 :=
  View.canon [⟨r11_3, k11_pay1 (k11_pay2 (View.ld x0 r11_0)) (k11_pay3 (View.ld x1 r11_1)) (k11_pay4 (View.ld x2 r11_2))
    (k11_pay5 (View.ld x0 r11_0) (View.ld x1 r11_1) (View.ld x2 r11_2)) (k11_pay6 (View.ld x0 r11_0) (View.ld x1 r11_1) (View.ld x2 r11_2))
    (k11_pay7 (View.ld x0 r11_0) (View.ld x1 r11_1) (View.ld x2 r11_2)) (k11_pay8 (View.ld x0 r11_0) (View.ld x1 r11_1) (View.ld x2 r11_2))
    (k11_pay9 (View.ld x0 r11_0) (View.ld x1 r11_1) (View.ld x2 r11_2)) (k11_pay10 (View.ld x0 r11_0) (View.ld x1 r11_1) (View.ld x2 r11_2))
    (k11_pay11 (View.ld x0 r11_0) (View.ld x1 r11_1))⟩]

/-- The store is of the whole block, so it covers the buffer (checked by evaluation). -/
theorem cover11_3 (p0 : Vec F S1x1380x768 .f32) (y : S1x1380x768.Idx) :
    ∃ pc ∈ ([⟨r11_3, p0⟩] : List (View.Piece (Elt F) S1x1380x768 .f32)), y ∈ pc.1.set :=
  View.cover_of_tiled [⟨r11_3, p0⟩] S1x1380x768.size (by rfl) y

/-! ## The body's triple -/

set_option maxHeartbeats 1000000 in
/-- The kernel body on whole staging memrefs, the inputs' at read contents `xW` and the output's at anything, runs to
    the continuation holding the inputs' as they were and the output's at `out11_3` of the inputs': the three loads of
    the first part, the load of the output's buffer (whatever it holds; the value is dropped), and the one store. -/
theorem sound_kernel11 (c : Dev nD) (E : Set ℕ) (i : grid11.Coords) (arg1 : Memref sig .tc .vmem S1x8x768 .f32) (harg1 : arg1.IsWhole) (arg2 : Memref sig .tc .vmem S1x176x768 .f32) (harg2 : arg2.IsWhole) (arg3 : Memref sig .tc .vmem S1x768 .f32) (harg3 : arg3.IsWhole) (arg4 : Memref sig .tc .vmem S1x1380x768 .f32) (harg4 : arg4.IsWhole)
    (x0 : Vec F S1x8x768 .f32) (x1 : Vec F S1x176x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__tri_kernel i arg1 harg1 arg2 harg2 arg3 harg3 arg4 harg4) K := by
  simp only [cc11__tri_kernel_eq_skeleton]; unfold cc11__tri_kernel_skel
  simp only [k11_part1_eq_skeleton]; unfold k11_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body at
    point `t` each input's buffer at its block and the output's at `out11_3` of the input blocks; the invariant the
    class's (`Pipeline.ΦA`: the scoped rest and the generator register, untouched); nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents (the proof data's definition projected, by `dsimp`). -/
theorem A_eq11 (c : Dev nD) (w : Fin cfg11.W) : (dat11 V c).A w = V c (Pipeline.arrRef spec11 w) := by
  dsimp only [dat11]

/-- What the body leaves, window by window (the proof data's `match` reduced by `dsimp`, never `rfl`). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point, fetched there or not (`before11_W_of`). -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t` (the body obligation's precondition, the windows one by one), -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.Kernel.Fr

end
-- ==== Proof.K.Reg12.lean ====
/- Region 12 of @main (triangular chunk 12 of 32, `cc12__tri_kernel`, pipeline 12, grid [4] over the batch), at the
   TensorCore's buffer contents `V` when the region is entered. Four windows: 0 = the eight rows of the first product
   this chunk pairs off (block [1,8,768] of [4,8,768]), 1 = the 168 rows of the second product they are paired with
   (block [1,168,768] of [4,168,768]), 2 = the bias row ([1,768], one block, fetched at the first point and kept),
   3 = the chunk's result (block [1,1316,768] of [4,1316,768], 1316 = 168 + 167 + … + 161, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out12_3`),
   and each input buffer is left as found: this is what the pipeline's proof data `dat12` record, and
   `body_obligation12` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 12 of @main: custom_call 12, `cc12__tri_kernel` (pipeline 12), at the entry contents `V` -/

/-! ## The windows' blocks -/

/-- Window `w`'s block at point `t`, read off its array as the region finds it (`V`). -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same of input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same of input window 2 (the bias row: its one block is fetched at the first point only, and every later point
    finds it where the first left it). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- Each staging buffer is read, and the result's written, whole. -/
abbrev r12_0 : Rect S1x8x768 := Rect.unit (s := S1x8x768) ![0, 0, 0] S1x8x768.size inb_S1x8x768_S1x8x768_0_0_0
abbrev r12_1 : Rect S1x168x768 := Rect.unit (s := S1x168x768) ![0, 0, 0] S1x168x768.size inb_S1x168x768_S1x168x768_0_0_0
abbrev r12_2 : Rect S1x768 := Rect.unit (s := S1x768) ![0, 0] S1x768.size inb_S1x768_S1x768_0_0
abbrev r12_3 : Rect S1x1316x768 := Rect.unit (s := S1x1316x768) ![0, 0, 0] S1x1316x768.size inb_S1x1316x768_S1x1316x768_0_0_0

/-! ## What the body leaves in the output window's buffer -/

/-- Window 3's staging buffer after the body, from the input windows' blocks: its one store, of the whole block —
    the eight row-broadcast sums under tanh, concatenated (the payloads are the skeleton's, over the three loads). -/
noncomputable def out12_3 (x0 : Vec F S1x8x768 .f32) (x1 : Vec F S1x168x768 .f32) (x2 : Vec F S1x768 .f32) : Vec F S1x1316x768 .f32 :=
  View.canon [⟨r12_3, k12_pay1 (k12_pay2 (View.ld x0 r12_0)) (k12_pay3 (View.ld x1 r12_1)) (k12_pay4 (View.ld x2 r12_2))
    (k12_pay5 (View.ld x0 r12_0) (View.ld x1 r12_1) (View.ld x2 r12_2)) (k12_pay6 (View.ld x0 r12_0) (View.ld x1 r12_1) (View.ld x2 r12_2))
    (k12_pay7 (View.ld x0 r12_0) (View.ld x1 r12_1) (View.ld x2 r12_2)) (k12_pay8 (View.ld x0 r12_0) (View.ld x1 r12_1) (View.ld x2 r12_2))
    (k12_pay9 (View.ld x0 r12_0) (View.ld x1 r12_1) (View.ld x2 r12_2)) (k12_pay10 (View.ld x0 r12_0) (View.ld x1 r12_1) (View.ld x2 r12_2))
    (k12_pay11 (View.ld x0 r12_0) (View.ld x1 r12_1))⟩]

/-- The store is of the whole block, so it covers the buffer (checked by evaluation). -/
theorem cover12_3 (p0 : Vec F S1x1316x768 .f32) (y : S1x1316x768.Idx) :
    ∃ pc ∈ ([⟨r12_3, p0⟩] : List (View.Piece (Elt F) S1x1316x768 .f32)), y ∈ pc.1.set :=
  View.cover_of_tiled [⟨r12_3, p0⟩] S1x1316x768.size (by rfl) y

/-! ## The body's triple -/

set_option maxHeartbeats 1000000 in
/-- The kernel body on whole staging memrefs, the inputs' at read contents `xW` and the output's at anything, runs to
    the continuation holding the inputs' as they were and the output's at `out12_3` of the inputs': the three loads of
    the first part, the load of the output's buffer (whatever it holds; the value is dropped), and the one store. -/
theorem sound_kernel12 (c : Dev nD) (E : Set ℕ) (i : grid12.Coords) (arg1 : Memref sig .tc .vmem S1x8x768 .f32) (harg1 : arg1.IsWhole) (arg2 : Memref sig .tc .vmem S1x168x768 .f32) (harg2 : arg2.IsWhole) (arg3 : Memref sig .tc .vmem S1x768 .f32) (harg3 : arg3.IsWhole) (arg4 : Memref sig .tc .vmem S1x1316x768 .f32) (harg4 : arg4.IsWhole)
    (x0 : Vec F S1x8x768 .f32) (x1 : Vec F S1x168x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__tri_kernel i arg1 harg1 arg2 harg2 arg3 harg3 arg4 harg4) K := by
  simp only [cc12__tri_kernel_eq_skeleton]; unfold cc12__tri_kernel_skel
  simp only [k12_part1_eq_skeleton]; unfold k12_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them (`V`); after the body at
    point `t` each input's buffer at its block and the output's at `out12_3` of the input blocks; the invariant the
    class's (`Pipeline.ΦA`: the scoped rest and the generator register, untouched); nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents (the proof data's definition projected, by `dsimp`). -/
theorem A_eq12 (c : Dev nD) (w : Fin cfg12.W) : (dat12 V c).A w = V c (Pipeline.arrRef spec12 w) := by
  dsimp only [dat12]

/-- What the body leaves, window by window (the proof data's `match` reduced by `dsimp`, never `rfl`). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not (`before12_W_of`). -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t` (the body obligation's precondition, the windows one by one), -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Regions

end Cert.Kernel.Fr

end
-- ==== Proof.K.Reg13.lean ====
/- Region 13 of @main (triangular chunk 13 of 32, `cc13__tri_kernel`, pipeline 13, grid [4] over the batch), at the
   TensorCore's buffer contents `V` when the region is entered. Four windows: 0 = the eight rows of the first product
   this chunk pairs off (block [1,8,768] of [4,8,768]), 1 = the 160 rows of the second product they are paired with
   (block [1,160,768] of [4,160,768]), 2 = the bias row ([1,768], one block, fetched at the first point and kept),
   3 = the chunk's result (block [1,1252,768] of [4,1252,768], 1252 = 160 + 159 + … + 153, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out13_3`),
   and each input buffer is left as found: this is what the pipeline's proof data `dat13` record, and
   `body_obligation13` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 13 of @main: custom_call 13, `cc13__tri_kernel` (pipeline 13), at the entry contents `V` -/

/-! ## The windows' blocks -/

/-- Window `w`'s block at point `t`, read off its array as the region finds it (`V`). -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same of input window 1. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The same of input window 2 (the bias row: its one block is fetched at the first point only, and every later point
    finds it where the first left it). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- Each staging buffer is read, and the result's written, whole. -/
abbrev r13_0 : Rect S1x8x768 := Rect.unit (s := S1x8x768) ![0, 0, 0] S1x8x768.size inb_S1x8x768_S1x8x768_0_0_0
abbrev r13_1 : Rect S1x160x768 := Rect.unit (s := S1x160x768) ![0, 0, 0] S1x160x768.size inb_S1x160x768_S1x160x768_0_0_0
abbrev r13_2 : Rect S1x768 := Rect.unit (s := S1x768) ![0, 0] S1x768.size inb_S1x768_S1x768_0_0
abbrev r13_3 : Rect S1x1252x768 := Rect.unit (s := S1x1252x768) ![0, 0, 0] S1x1252x768.size inb_S1x1252x768_S1x1252x768_0_0_0

/-! ## What the body leaves in the output window's buffer -/

/-- Window 3's staging buffer after the body, from the input windows' blocks: its one store, of the whole block —
    the eight row-broadcast sums under tanh, concatenated (the payloads are the skeleton's, over the three loads). -/
noncomputable def out13_3 (x0 : Vec F S1x8x768 .f32) (x1 : Vec F S1x160x768 .f32) (x2 : Vec F S1x768 .f32) : Vec F S1x1252x768 .f32 :=
  View.canon [⟨r13_3, k13_pay1 (k13_pay2 (View.ld x0 r13_0)) (k13_pay3 (View.ld x1 r13_1)) (k13_pay4 (View.ld x2 r13_2))
    (k13_pay5 (View.ld x0 r13_0) (View.ld x1 r13_1) (View.ld x2 r13_2)) (k13_pay6 (View.ld x0 r13_0) (View.ld x1 r13_1) (View.ld x2 r13_2))
    (k13_pay7 (View.ld x0 r13_0) (View.ld x1 r13_1) (View.ld x2 r13_2)) (k13_pay8 (View.ld x0 r13_0) (View.ld x1 r13_1) (View.ld x2 r13_2))
    (k13_pay9 (View.ld x0 r13_0) (View.ld x1 r13_1) (View.ld x2 r13_2)) (k13_pay10 (View.ld x0 r13_0) (View.ld x1 r13_1) (View.ld x2 r13_2))
    (k13_pay11 (View.ld x0 r13_0) (View.ld x1 r13_1))⟩]

/-- The store is of the whole block, so it covers the buffer (checked by evaluation). -/
theorem cover13_3 (p0 : Vec F S1x1252x768 .f32) (y : S1x1252x768.Idx) :
    ∃ pc ∈ ([⟨r13_3, p0⟩] : List (View.Piece (Elt F) S1x1252x768 .f32)), y ∈ pc.1.set :=
  View.cover_of_tiled [⟨r13_3, p0⟩] S1x1252x768.size (by rfl) y

/-! ## The body's triple -/

set_option maxHeartbeats 1000000 in
/-- The kernel body on whole staging memrefs, the inputs' at read contents `xW` and the output's at anything, runs to
    the continuation holding the inputs' as they were and the output's at `out13_3` of the inputs': the three loads of
    the first part, the load of the output's buffer (whatever it holds; the value is dropped), and the one store. -/
theorem sound_kernel13 (c : Dev nD) (E : Set ℕ) (i : grid13.Coords) (arg1 : Memref sig .tc .vmem S1x8x768 .f32) (harg1 : arg1.IsWhole) (arg2 : Memref sig .tc .vmem S1x160x768 .f32) (harg2 : arg2.IsWhole) (arg3 : Memref sig .tc .vmem S1x768 .f32) (harg3 : arg3.IsWhole) (arg4 : Memref sig .tc .vmem S1x1252x768 .f32) (harg4 : arg4.IsWhole)
    (x0 : Vec F S1x8x768 .f32) (x1 : Vec F S1x160x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13__tri_kernel i arg1 harg1 arg2 harg2 arg3 harg3 arg4 harg4) K := by
  simp only [cc13__tri_kernel_eq_skeleton]; unfold cc13__tri_kernel_skel
  simp only [k13_part1_eq_skeleton]; unfold k13_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The pipeline's proof data -/

/-- The proof data of pipeline 13 on core `c`: the arrays as the region finds them (`V`); after the body at
    point `t` each input's buffer at its block and the output's at `out13_3` of the input blocks; the invariant the
    class's (`Pipeline.ΦA`: the scoped rest and the generator register, untouched); nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents (the proof data's definition projected, by `dsimp`). -/
theorem A_eq13 (c : Dev nD) (w : Fin cfg13.W) : (dat13 V c).A w = V c (Pipeline.arrRef spec13 w) := by
  dsimp only [dat13]

/-- What the body leaves, window by window (the proof data's `match` reduced by `dsimp`, never `rfl`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

/-- Each input's current staging buffer holds its block at every point, fetched there or not (`before13_W_of`). -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t` (the body obligation's precondition, the windows one by one), -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks (`before13_W`), so `sound_kernel13` applies; the
    invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Regions

end Cert.Kernel.Fr

end
-- ==== Proof.K.Reg14.lean ====
/- Region 14 of @main (triangular chunk 14 of 32, `cc14__tri_kernel`, pipeline 14, grid [4] over the batch), at the
   TensorCore's buffer contents `V` when the region is entered. Four windows: 0 = the eight rows of the first product
   this chunk pairs off (block [1,8,768] of [4,8,768]), 1 = the 152 rows of the second product they are paired with
   (block [1,152,768] of [4,152,768]), 2 = the bias row ([1,768], one block, fetched at the first point and kept),
   3 = the chunk's result (block [1,1188,768] of [4,1188,768], 1188 = 152 + 151 + … + 145, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out14_3`),
   and each input buffer is left as found: this is what the pipeline's proof data `dat14` record, and
   `body_obligation14` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 14 of @main: custom_call 14, `cc14__tri_kernel` (pipeline 14), at the entry contents `V` -/

/-! ## The windows' blocks -/

/-- Window `w`'s block at point `t`, read off its array as the region finds it (`V`). -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same of input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same of input window 2 (the bias row: its one block is fetched at the first point only, and every later point
    finds it where the first left it). -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- Each staging buffer is read, and the result's written, whole. -/
abbrev r14_0 : Rect S1x8x768 := Rect.unit (s := S1x8x768) ![0, 0, 0] S1x8x768.size inb_S1x8x768_S1x8x768_0_0_0
abbrev r14_1 : Rect S1x152x768 := Rect.unit (s := S1x152x768) ![0, 0, 0] S1x152x768.size inb_S1x152x768_S1x152x768_0_0_0
abbrev r14_2 : Rect S1x768 := Rect.unit (s := S1x768) ![0, 0] S1x768.size inb_S1x768_S1x768_0_0
abbrev r14_3 : Rect S1x1188x768 := Rect.unit (s := S1x1188x768) ![0, 0, 0] S1x1188x768.size inb_S1x1188x768_S1x1188x768_0_0_0

/-! ## What the body leaves in the output window's buffer -/

/-- Window 3's staging buffer after the body, from the input windows' blocks: its one store, of the whole block —
    the eight row-broadcast sums under tanh, concatenated (the payloads are the skeleton's, over the three loads). -/
noncomputable def out14_3 (x0 : Vec F S1x8x768 .f32) (x1 : Vec F S1x152x768 .f32) (x2 : Vec F S1x768 .f32) : Vec F S1x1188x768 .f32 :=
  View.canon [⟨r14_3, k14_pay1 (k14_pay2 (View.ld x0 r14_0)) (k14_pay3 (View.ld x1 r14_1)) (k14_pay4 (View.ld x2 r14_2))
    (k14_pay5 (View.ld x0 r14_0) (View.ld x1 r14_1) (View.ld x2 r14_2)) (k14_pay6 (View.ld x0 r14_0) (View.ld x1 r14_1) (View.ld x2 r14_2))
    (k14_pay7 (View.ld x0 r14_0) (View.ld x1 r14_1) (View.ld x2 r14_2)) (k14_pay8 (View.ld x0 r14_0) (View.ld x1 r14_1) (View.ld x2 r14_2))
    (k14_pay9 (View.ld x0 r14_0) (View.ld x1 r14_1) (View.ld x2 r14_2)) (k14_pay10 (View.ld x0 r14_0) (View.ld x1 r14_1) (View.ld x2 r14_2))
    (k14_pay11 (View.ld x0 r14_0) (View.ld x1 r14_1))⟩]

/-- The store is of the whole block, so it covers the buffer (checked by evaluation). -/
theorem cover14_3 (p0 : Vec F S1x1188x768 .f32) (y : S1x1188x768.Idx) :
    ∃ pc ∈ ([⟨r14_3, p0⟩] : List (View.Piece (Elt F) S1x1188x768 .f32)), y ∈ pc.1.set :=
  View.cover_of_tiled [⟨r14_3, p0⟩] S1x1188x768.size (by rfl) y

/-! ## The body's triple -/

set_option maxHeartbeats 1000000 in
/-- The kernel body on whole staging memrefs, the inputs' at read contents `xW` and the output's at anything, runs to
    the continuation holding the inputs' as they were and the output's at `out14_3` of the inputs': the three loads of
    the first part, the load of the output's buffer (whatever it holds; the value is dropped), and the one store. -/
theorem sound_kernel14 (c : Dev nD) (E : Set ℕ) (i : grid14.Coords) (arg1 : Memref sig .tc .vmem S1x8x768 .f32) (harg1 : arg1.IsWhole) (arg2 : Memref sig .tc .vmem S1x152x768 .f32) (harg2 : arg2.IsWhole) (arg3 : Memref sig .tc .vmem S1x768 .f32) (harg3 : arg3.IsWhole) (arg4 : Memref sig .tc .vmem S1x1188x768 .f32) (harg4 : arg4.IsWhole)
    (x0 : Vec F S1x8x768 .f32) (x1 : Vec F S1x152x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14__tri_kernel i arg1 harg1 arg2 harg2 arg3 harg3 arg4 harg4) K := by
  simp only [cc14__tri_kernel_eq_skeleton]; unfold cc14__tri_kernel_skel
  simp only [k14_part1_eq_skeleton]; unfold k14_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of pipeline 14 on core `c`: the arrays as the region finds them (`V`); after the body at
    point `t` each input's buffer at its block and the output's at `out14_3` of the input blocks; the invariant the
    class's (`Pipeline.ΦA`: the scoped rest and the generator register, untouched); nothing owed; full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents (the proof data's definition projected, by `dsimp`). -/
theorem A_eq14 (c : Dev nD) (w : Fin cfg14.W) : (dat14 V c).A w = V c (Pipeline.arrRef spec14 w) := by
  dsimp only [dat14]

/-- What the body leaves, window by window (the proof data's `match` reduced by `dsimp`, never `rfl`). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

/-- Each input's current staging buffer holds its block at every point, fetched there or not (`before14_W_of`). -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t` (the body obligation's precondition, the windows one by one), -/
noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
noncomputable def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ (grid14.coords t) _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Regions

end Cert.Kernel.Fr

end
-- ==== Proof.K.Reg15.lean ====
/- Region 15 of @main (triangular chunk 15 of 32, `cc15__tri_kernel`, pipeline 15, grid [4] over the batch), at the
   TensorCore's buffer contents `V` when the region is entered. Four windows: 0 = the eight rows of the first product
   this chunk pairs off (block [1,8,768] of [4,8,768]), 1 = the 144 rows of the second product they are paired with
   (block [1,144,768] of [4,144,768]), 2 = the bias row ([1,768], one block, fetched at the first point and kept),
   3 = the chunk's result (block [1,1124,768] of [4,1124,768], 1124 = 144 + 143 + … + 137, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out15_3`),
   and each input buffer is left as found: this is what the pipeline's proof data `dat15` record, and
   `body_obligation15` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 15 of @main: custom_call 15, `cc15__tri_kernel` (pipeline 15), at the entry contents `V` -/

/-! ## The windows' blocks -/

/-- Window `w`'s block at point `t`, read off its array as the region finds it (`V`). -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same of input window 1. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The same of input window 2 (the bias row: its one block is fetched at the first point only, and every later point
    finds it where the first left it). -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- Each staging buffer is read, and the result's written, whole. -/
abbrev r15_0 : Rect S1x8x768 := Rect.unit (s := S1x8x768) ![0, 0, 0] S1x8x768.size inb_S1x8x768_S1x8x768_0_0_0
abbrev r15_1 : Rect S1x144x768 := Rect.unit (s := S1x144x768) ![0, 0, 0] S1x144x768.size inb_S1x144x768_S1x144x768_0_0_0
abbrev r15_2 : Rect S1x768 := Rect.unit (s := S1x768) ![0, 0] S1x768.size inb_S1x768_S1x768_0_0
abbrev r15_3 : Rect S1x1124x768 := Rect.unit (s := S1x1124x768) ![0, 0, 0] S1x1124x768.size inb_S1x1124x768_S1x1124x768_0_0_0

/-! ## What the body leaves in the output window's buffer -/

/-- Window 3's staging buffer after the body, from the input windows' blocks: its one store, of the whole block —
    the eight row-broadcast sums under tanh, concatenated (the payloads are the skeleton's, over the three loads). -/
noncomputable def out15_3 (x0 : Vec F S1x8x768 .f32) (x1 : Vec F S1x144x768 .f32) (x2 : Vec F S1x768 .f32) : Vec F S1x1124x768 .f32 :=
  View.canon [⟨r15_3, k15_pay1 (k15_pay2 (View.ld x0 r15_0)) (k15_pay3 (View.ld x1 r15_1)) (k15_pay4 (View.ld x2 r15_2))
    (k15_pay5 (View.ld x0 r15_0) (View.ld x1 r15_1) (View.ld x2 r15_2)) (k15_pay6 (View.ld x0 r15_0) (View.ld x1 r15_1) (View.ld x2 r15_2))
    (k15_pay7 (View.ld x0 r15_0) (View.ld x1 r15_1) (View.ld x2 r15_2)) (k15_pay8 (View.ld x0 r15_0) (View.ld x1 r15_1) (View.ld x2 r15_2))
    (k15_pay9 (View.ld x0 r15_0) (View.ld x1 r15_1) (View.ld x2 r15_2)) (k15_pay10 (View.ld x0 r15_0) (View.ld x1 r15_1) (View.ld x2 r15_2))
    (k15_pay11 (View.ld x0 r15_0) (View.ld x1 r15_1))⟩]

/-- The store is of the whole block, so it covers the buffer (checked by evaluation). -/
theorem cover15_3 (p0 : Vec F S1x1124x768 .f32) (y : S1x1124x768.Idx) :
    ∃ pc ∈ ([⟨r15_3, p0⟩] : List (View.Piece (Elt F) S1x1124x768 .f32)), y ∈ pc.1.set :=
  View.cover_of_tiled [⟨r15_3, p0⟩] S1x1124x768.size (by rfl) y

/-! ## The body's triple -/

set_option maxHeartbeats 1000000 in
/-- The kernel body on whole staging memrefs, the inputs' at read contents `xW` and the output's at anything, runs to
    the continuation holding the inputs' as they were and the output's at `out15_3` of the inputs': the three loads of
    the first part, the load of the output's buffer (whatever it holds; the value is dropped), and the one store. -/
theorem sound_kernel15 (c : Dev nD) (E : Set ℕ) (i : grid15.Coords) (arg1 : Memref sig .tc .vmem S1x8x768 .f32) (harg1 : arg1.IsWhole) (arg2 : Memref sig .tc .vmem S1x144x768 .f32) (harg2 : arg2.IsWhole) (arg3 : Memref sig .tc .vmem S1x768 .f32) (harg3 : arg3.IsWhole) (arg4 : Memref sig .tc .vmem S1x1124x768 .f32) (harg4 : arg4.IsWhole)
    (x0 : Vec F S1x8x768 .f32) (x1 : Vec F S1x144x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__tri_kernel i arg1 harg1 arg2 harg2 arg3 harg3 arg4 harg4) K := by
  simp only [cc15__tri_kernel_eq_skeleton]; unfold cc15__tri_kernel_skel
  simp only [k15_part1_eq_skeleton]; unfold k15_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The pipeline's proof data -/

/-- The proof data of pipeline 15 on core `c`: the arrays as the region finds them (`V`); after the body at
    point `t` each input's buffer at its block and the output's at `out15_3` of the input blocks; the invariant the
    class's (`Pipeline.ΦA`: the scoped rest and the generator register, untouched); nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents (the proof data's definition projected, by `dsimp`). -/
theorem A_eq15 (c : Dev nD) (w : Fin cfg15.W) : (dat15 V c).A w = V c (Pipeline.arrRef spec15 w) := by
  dsimp only [dat15]

/-- What the body leaves, window by window (the proof data's `match` reduced by `dsimp`, never `rfl`). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

/-- Each input's current staging buffer holds its block at every point, fetched there or not (`before15_W_of`). -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t` (the body obligation's precondition, the windows one by one), -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks (`before15_W`), so `sound_kernel15` applies; the
    invariant and the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Regions

end Cert.Kernel.Fr

end
-- ==== Proof.K.Reg16.lean ====
/- Region 16 of @main (triangular chunk 16 of 32, `cc16__tri_kernel`, pipeline 16, grid [4] over the batch), at the
   TensorCore's buffer contents `V` when the region is entered. Four windows: 0 = the eight rows of the first product
   this chunk pairs off (block [1,8,768] of [4,8,768]), 1 = the 136 rows of the second product they are paired with
   (block [1,136,768] of [4,136,768]), 2 = the bias row ([1,768], one block, fetched at the first point and kept),
   3 = the chunk's result (block [1,1060,768] of [4,1060,768], 1060 = 136 + 135 + … + 129, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out16_3`),
   and each input buffer is left as found: this is what the pipeline's proof data `dat16` record, and
   `body_obligation16` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 16 of @main: custom_call 16, `cc16__tri_kernel` (pipeline 16), at the entry contents `V` -/

/-! ## The windows' blocks -/

/-- Window `w`'s block at point `t`, read off its array as the region finds it (`V`). -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The same of input window 1. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- The same of input window 2 (the bias row: its one block is fetched at the first point only, and every later point
    finds it where the first left it). -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- Each staging buffer is read, and the result's written, whole. -/
abbrev r16_0 : Rect S1x8x768 := Rect.unit (s := S1x8x768) ![0, 0, 0] S1x8x768.size inb_S1x8x768_S1x8x768_0_0_0
abbrev r16_1 : Rect S1x136x768 := Rect.unit (s := S1x136x768) ![0, 0, 0] S1x136x768.size inb_S1x136x768_S1x136x768_0_0_0
abbrev r16_2 : Rect S1x768 := Rect.unit (s := S1x768) ![0, 0] S1x768.size inb_S1x768_S1x768_0_0
abbrev r16_3 : Rect S1x1060x768 := Rect.unit (s := S1x1060x768) ![0, 0, 0] S1x1060x768.size inb_S1x1060x768_S1x1060x768_0_0_0

/-! ## What the body leaves in the output window's buffer -/

/-- Window 3's staging buffer after the body, from the input windows' blocks: its one store, of the whole block —
    the eight row-broadcast sums under tanh, concatenated (the payloads are the skeleton's, over the three loads). -/
noncomputable def out16_3 (x0 : Vec F S1x8x768 .f32) (x1 : Vec F S1x136x768 .f32) (x2 : Vec F S1x768 .f32) : Vec F S1x1060x768 .f32 :=
  View.canon [⟨r16_3, k16_pay1 (k16_pay2 (View.ld x0 r16_0)) (k16_pay3 (View.ld x1 r16_1)) (k16_pay4 (View.ld x2 r16_2))
    (k16_pay5 (View.ld x0 r16_0) (View.ld x1 r16_1) (View.ld x2 r16_2)) (k16_pay6 (View.ld x0 r16_0) (View.ld x1 r16_1) (View.ld x2 r16_2))
    (k16_pay7 (View.ld x0 r16_0) (View.ld x1 r16_1) (View.ld x2 r16_2)) (k16_pay8 (View.ld x0 r16_0) (View.ld x1 r16_1) (View.ld x2 r16_2))
    (k16_pay9 (View.ld x0 r16_0) (View.ld x1 r16_1) (View.ld x2 r16_2)) (k16_pay10 (View.ld x0 r16_0) (View.ld x1 r16_1) (View.ld x2 r16_2))
    (k16_pay11 (View.ld x0 r16_0) (View.ld x1 r16_1))⟩]

/-- The store is of the whole block, so it covers the buffer (checked by evaluation). -/
theorem cover16_3 (p0 : Vec F S1x1060x768 .f32) (y : S1x1060x768.Idx) :
    ∃ pc ∈ ([⟨r16_3, p0⟩] : List (View.Piece (Elt F) S1x1060x768 .f32)), y ∈ pc.1.set :=
  View.cover_of_tiled [⟨r16_3, p0⟩] S1x1060x768.size (by rfl) y

/-! ## The body's triple -/

set_option maxHeartbeats 1000000 in
/-- The kernel body on whole staging memrefs, the inputs' at read contents `xW` and the output's at anything, runs to
    the continuation holding the inputs' as they were and the output's at `out16_3` of the inputs': the three loads of
    the first part, the load of the output's buffer (whatever it holds; the value is dropped), and the one store. -/
theorem sound_kernel16 (c : Dev nD) (E : Set ℕ) (i : grid16.Coords) (arg1 : Memref sig .tc .vmem S1x8x768 .f32) (harg1 : arg1.IsWhole) (arg2 : Memref sig .tc .vmem S1x136x768 .f32) (harg2 : arg2.IsWhole) (arg3 : Memref sig .tc .vmem S1x768 .f32) (harg3 : arg3.IsWhole) (arg4 : Memref sig .tc .vmem S1x1060x768 .f32) (harg4 : arg4.IsWhole)
    (x0 : Vec F S1x8x768 .f32) (x1 : Vec F S1x136x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out16_3 x0 x1 x2)) -∗ K ⟨⟩))
      ⊢ wp frame (wpE (defs₀ (F := F)) Variants.none c none) E (cc16__tri_kernel i arg1 harg1 arg2 harg2 arg3 harg3 arg4 harg4) K := by
  simp only [cc16__tri_kernel_eq_skeleton]; unfold cc16__tri_kernel_skel
  simp only [k16_part1_eq_skeleton]; unfold k16_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-! ## The pipeline's proof data -/

/-- The proof data of pipeline 16 on core `c`: the arrays as the region finds them (`V`); after the body at
    point `t` each input's buffer at its block and the output's at `out16_3` of the input blocks; the invariant the
    class's (`Pipeline.ΦA`: the scoped rest and the generator register, untouched); nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

/-- The proof data's arrays are the region-entry contents (the proof data's definition projected, by `dsimp`). -/
theorem A_eq16 (c : Dev nD) (w : Fin cfg16.W) : (dat16 V c).A w = V c (Pipeline.arrRef spec16 w) := by
  dsimp only [dat16]

/-- What the body leaves, window by window (the proof data's `match` reduced by `dsimp`, never `rfl`). -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16_3 (iblk16 V c 0 t) (iblk16 V c 1 t) (iblk16 V c 2 t) := by dsimp only [dat16]

/-- Each input's current staging buffer holds its block at every point, fetched there or not (`before16_W_of`). -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation, at a generic point -/

/-- What the body is called with at point `t` (the body obligation's precondition, the windows one by one), -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

/-- The body at any point: the inputs' memrefs hold their blocks (`before16_W`), so `sound_kernel16` applies; the
    invariant and the core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ (grid16.coords t) _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation16 (c : Dev nD) : BodyObligation (dat16 (F := F) V c) (defs₀ (F := F)) Variants.none () Set.univ := fun t => by
  rw [bigSep_W16, bigSep_W16]
  exact sound_body16 V c t

end Regions

end Cert.Kernel.Fr

end
-- ==== Proof.K.Reg17.lean ====
/- Region 17 of @main (triangular chunk 17 of 32, `cc17__tri_kernel`, pipeline 17, grid [4] over the batch), at the
   TensorCore's buffer contents `V` when the region is entered. Four windows: 0 = the eight rows of the first product
   this chunk pairs off (block [1,8,768] of [4,8,768]), 1 = the 128 rows of the second product they are paired with
   (block [1,128,768] of [4,128,768]), 2 = the bias row ([1,768], one block, fetched at the first point and kept),
   3 = the chunk's result (block [1,996,768] of [4,996,768], 996 = 128 + 127 + … + 121, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out17_3`),
   and each input buffer is left as found: this is what the pipeline's proof data `dat17` record, and
   `body_obligation17` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 17 of @main: custom_call 17, `cc17__tri_kernel` (pipeline 17), at the entry contents `V` -/

/-! ## The windows' blocks -/

/-- Window `w`'s block at point `t`, read off its array as the region finds it (`V`). -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The same of input window 1. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
/-- The same of input window 2 (the bias row: its one block is fetched at the first point only, and every later point
    finds it where the first left it). -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

/-- Each staging buffer is read, and the result's written, whole. -/
abbrev r17_0 : Rect S1x8x768 := Rect.unit (s := S1x8x768) ![0, 0, 0] S1x8x768.size inb_S1x8x768_S1x8x768_0_0_0
abbrev r17_1 : Rect S1x128x768 := Rect.unit (s := S1x128x768) ![0, 0, 0] S1x128x768.size inb_S1x128x768_S1x128x768_0_0_0
abbrev r17_2 : Rect S1x768 := Rect.unit (s := S1x768) ![0, 0] S1x768.size inb_S1x768_S1x768_0_0
abbrev r17_3 : Rect S1x996x768 := Rect.unit (s := S1x996x768) ![0, 0, 0] S1x996x768.size inb_S1x996x768_S1x996x768_0_0_0

/-! ## What the body leaves in the output window's buffer -/

/-- Window 3's staging buffer after the body, from the input windows' blocks: its one store, of the whole block —
    the eight row-broadcast sums under tanh, concatenated (the payloads are the skeleton's, over the three loads). -/
noncomputable def out17_3 (x0 : Vec F S1x8x768 .f32) (x1 : Vec F S1x128x768 .f32) (x2 : Vec F S1x768 .f32) : Vec F S1x996x768 .f32 :=
  View.canon [⟨r17_3, k17_pay1 (k17_pay2 (View.ld x0 r17_0)) (k17_pay3 (View.ld x1 r17_1)) (k17_pay4 (View.ld x2 r17_2))
    (k17_pay5 (View.ld x0 r17_0) (View.ld x1 r17_1) (View.ld x2 r17_2)) (k17_pay6 (View.ld x0 r17_0) (View.ld x1 r17_1) (View.ld x2 r17_2))
    (k17_pay7 (View.ld x0 r17_0) (View.ld x1 r17_1) (View.ld x2 r17_2)) (k17_pay8 (View.ld x0 r17_0) (View.ld x1 r17_1) (View.ld x2 r17_2))
    (k17_pay9 (View.ld x0 r17_0) (View.ld x1 r17_1) (View.ld x2 r17_2)) (k17_pay10 (View.ld x0 r17_0) (View.ld x1 r17_1) (View.ld x2 r17_2))
    (k17_pay11 (View.ld x0 r17_0) (View.ld x1 r17_1))⟩]

/-- The store is of the whole block, so it covers the buffer (checked by evaluation). -/
theorem cover17_3 (p0 : Vec F S1x996x768 .f32) (y : S1x996x768.Idx) :
    ∃ pc ∈ ([⟨r17_3, p0⟩] : List (View.Piece (Elt F) S1x996x768 .f32)), y ∈ pc.1.set :=
  View.cover_of_tiled [⟨r17_3, p0⟩] S1x996x768.size (by rfl) y

/-! ## The body's triple -/

set_option maxHeartbeats 1000000 in
/-- The kernel body on whole staging memrefs, the inputs' at read contents `xW` and the output's at anything, runs to
    the continuation holding the inputs' as they were and the output's at `out17_3` of the inputs': the three loads of
    the first part, the load of the output's buffer (whatever it holds; the value is dropped), and the one store. -/
theorem sound_kernel17 (c : Dev nD) (E : Set ℕ) (i : grid17.Coords) (arg1 : Memref sig .tc .vmem S1x8x768 .f32) (harg1 : arg1.IsWhole) (arg2 : Memref sig .tc .vmem S1x128x768 .f32) (harg2 : arg2.IsWhole) (arg3 : Memref sig .tc .vmem S1x768 .f32) (harg3 : arg3.IsWhole) (arg4 : Memref sig .tc .vmem S1x996x768 .f32) (harg4 : arg4.IsWhole)
    (x0 : Vec F S1x8x768 .f32) (x1 : Vec F S1x128x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17__tri_kernel i arg1 harg1 arg2 harg2 arg3 harg3 arg4 harg4) K := by
  simp only [cc17__tri_kernel_eq_skeleton]; unfold cc17__tri_kernel_skel
  simp only [k17_part1_eq_skeleton]; unfold k17_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The pipeline's proof data -/

/-- The proof data of pipeline 17 on core `c`: the arrays as the region finds them (`V`); after the body at
    point `t` each input's buffer at its block and the output's at `out17_3` of the input blocks; the invariant the
    class's (`Pipeline.ΦA`: the scoped rest and the generator register, untouched); nothing owed; full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the region-entry contents (the proof data's definition projected, by `dsimp`). -/
theorem A_eq17 (c : Dev nD) (w : Fin cfg17.W) : (dat17 V c).A w = V c (Pipeline.arrRef spec17 w) := by
  dsimp only [dat17]

/-- What the body leaves, window by window (the proof data's `match` reduced by `dsimp`, never `rfl`). -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

/-- Each input's current staging buffer holds its block at every point, fetched there or not (`before17_W_of`). -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point `t` (the body obligation's precondition, the windows one by one), -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks (`before17_W`), so `sound_kernel17` applies; the
    invariant and the core's `owes` pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ (grid17.coords t) _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Regions

end Cert.Kernel.Fr

end
-- ==== Proof.K.Reg18.lean ====
/- Region 18 of @main (triangular chunk 18 of 32, `cc18__tri_kernel`, pipeline 18, grid [4] over the batch), at the
   TensorCore's buffer contents `V` when the region is entered. Four windows: 0 = the eight rows of the first product
   this chunk pairs off (block [1,8,768] of [4,8,768]), 1 = the 120 rows of the second product they are paired with
   (block [1,120,768] of [4,120,768]), 2 = the bias row ([1,768], one block, fetched at the first point and kept),
   3 = the chunk's result (block [1,932,768] of [4,932,768], 932 = 120 + 119 + … + 113, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out18_3`),
   and each input buffer is left as found: this is what the pipeline's proof data `dat18` record, and
   `body_obligation18` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 18 of @main: custom_call 18, `cc18__tri_kernel` (pipeline 18), at the entry contents `V` -/

/-! ## The windows' blocks -/

/-- Window `w`'s block at point `t`, read off its array as the region finds it (`V`). -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The same of input window 1. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
/-- The same of input window 2 (the bias row: its one block is fetched at the first point only, and every later point
    finds it where the first left it). -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

/-- Each staging buffer is read, and the result's written, whole. -/
abbrev r18_0 : Rect S1x8x768 := Rect.unit (s := S1x8x768) ![0, 0, 0] S1x8x768.size inb_S1x8x768_S1x8x768_0_0_0
abbrev r18_1 : Rect S1x120x768 := Rect.unit (s := S1x120x768) ![0, 0, 0] S1x120x768.size inb_S1x120x768_S1x120x768_0_0_0
abbrev r18_2 : Rect S1x768 := Rect.unit (s := S1x768) ![0, 0] S1x768.size inb_S1x768_S1x768_0_0
abbrev r18_3 : Rect S1x932x768 := Rect.unit (s := S1x932x768) ![0, 0, 0] S1x932x768.size inb_S1x932x768_S1x932x768_0_0_0

/-! ## What the body leaves in the output window's buffer -/

/-- Window 3's staging buffer after the body, from the input windows' blocks: its one store, of the whole block —
    the eight row-broadcast sums under tanh, concatenated (the payloads are the skeleton's, over the three loads). -/
noncomputable def out18_3 (x0 : Vec F S1x8x768 .f32) (x1 : Vec F S1x120x768 .f32) (x2 : Vec F S1x768 .f32) : Vec F S1x932x768 .f32 :=
  View.canon [⟨r18_3, k18_pay1 (k18_pay2 (View.ld x0 r18_0)) (k18_pay3 (View.ld x1 r18_1)) (k18_pay4 (View.ld x2 r18_2))
    (k18_pay5 (View.ld x0 r18_0) (View.ld x1 r18_1) (View.ld x2 r18_2)) (k18_pay6 (View.ld x0 r18_0) (View.ld x1 r18_1) (View.ld x2 r18_2))
    (k18_pay7 (View.ld x0 r18_0) (View.ld x1 r18_1) (View.ld x2 r18_2)) (k18_pay8 (View.ld x0 r18_0) (View.ld x1 r18_1) (View.ld x2 r18_2))
    (k18_pay9 (View.ld x0 r18_0) (View.ld x1 r18_1) (View.ld x2 r18_2)) (k18_pay10 (View.ld x0 r18_0) (View.ld x1 r18_1) (View.ld x2 r18_2))
    (k18_pay11 (View.ld x0 r18_0) (View.ld x1 r18_1))⟩]

/-- The store is of the whole block, so it covers the buffer (checked by evaluation). -/
theorem cover18_3 (p0 : Vec F S1x932x768 .f32) (y : S1x932x768.Idx) :
    ∃ pc ∈ ([⟨r18_3, p0⟩] : List (View.Piece (Elt F) S1x932x768 .f32)), y ∈ pc.1.set :=
  View.cover_of_tiled [⟨r18_3, p0⟩] S1x932x768.size (by rfl) y

/-! ## The body's triple -/

set_option maxHeartbeats 1000000 in
/-- The kernel body on whole staging memrefs, the inputs' at read contents `xW` and the output's at anything, runs to
    the continuation holding the inputs' as they were and the output's at `out18_3` of the inputs': the three loads of
    the first part, the load of the output's buffer (whatever it holds; the value is dropped), and the one store. -/
theorem sound_kernel18 (c : Dev nD) (E : Set ℕ) (i : grid18.Coords) (arg1 : Memref sig .tc .vmem S1x8x768 .f32) (harg1 : arg1.IsWhole) (arg2 : Memref sig .tc .vmem S1x120x768 .f32) (harg2 : arg2.IsWhole) (arg3 : Memref sig .tc .vmem S1x768 .f32) (harg3 : arg3.IsWhole) (arg4 : Memref sig .tc .vmem S1x932x768 .f32) (harg4 : arg4.IsWhole)
    (x0 : Vec F S1x8x768 .f32) (x1 : Vec F S1x120x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out18_3 x0 x1 x2)) -∗ K ⟨⟩))
      ⊢ wp frame (wpE (defs₀ (F := F)) Variants.none c none) E (cc18__tri_kernel i arg1 harg1 arg2 harg2 arg3 harg3 arg4 harg4) K := by
  simp only [cc18__tri_kernel_eq_skeleton]; unfold cc18__tri_kernel_skel
  simp only [k18_part1_eq_skeleton]; unfold k18_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The pipeline's proof data -/

/-- The proof data of pipeline 18 on core `c`: the arrays as the region finds them (`V`); after the body at
    point `t` each input's buffer at its block and the output's at `out18_3` of the input blocks; the invariant the
    class's (`Pipeline.ΦA`: the scoped rest and the generator register, untouched); nothing owed; full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the region-entry contents (the proof data's definition projected, by `dsimp`). -/
theorem A_eq18 (c : Dev nD) (w : Fin cfg18.W) : (dat18 V c).A w = V c (Pipeline.arrRef spec18 w) := by
  dsimp only [dat18]

/-- What the body leaves, window by window (the proof data's `match` reduced by `dsimp`, never `rfl`). -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = out18_3 (iblk18 V c 0 t) (iblk18 V c 1 t) (iblk18 V c 2 t) := by dsimp only [dat18]

/-- Each input's current staging buffer holds its block at every point, fetched there or not (`before18_W_of`). -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point `t` (the body obligation's precondition, the windows one by one), -/
noncomputable def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
noncomputable def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks (`before18_W`), so `sound_kernel18` applies; the
    invariant and the core's `owes` pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ (grid18.coords t) _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

end Regions

end Cert.Kernel.Fr

end
-- ==== Proof.K.Reg19.lean ====
/- Region 19 of @main (triangular chunk 19 of 32, `cc19__tri_kernel`, pipeline 19, grid [4] over the batch), at the
   TensorCore's buffer contents `V` when the region is entered. Four windows: 0 = the eight rows of the first product
   this chunk pairs off (block [1,8,768] of [4,8,768]), 1 = the 112 rows of the second product they are paired with
   (block [1,112,768] of [4,112,768]), 2 = the bias row ([1,768], one block, fetched at the first point and kept),
   3 = the chunk's result (block [1,868,768] of [4,868,768], 868 = 112 + 111 + … + 105, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out19_3`),
   and each input buffer is left as found: this is what the pipeline's proof data `dat19` record, and
   `body_obligation19` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 19 of @main: custom_call 19, `cc19__tri_kernel` (pipeline 19), at the entry contents `V` -/

/-! ## The windows' blocks -/

/-- Window `w`'s block at point `t`, read off its array as the region finds it (`V`). -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The same of input window 1. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
/-- The same of input window 2 (the bias row: its one block is fetched at the first point only, and every later point
    finds it where the first left it). -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- Each staging buffer is read, and the result's written, whole. -/
abbrev r19_0 : Rect S1x8x768 := Rect.unit (s := S1x8x768) ![0, 0, 0] S1x8x768.size inb_S1x8x768_S1x8x768_0_0_0
abbrev r19_1 : Rect S1x112x768 := Rect.unit (s := S1x112x768) ![0, 0, 0] S1x112x768.size inb_S1x112x768_S1x112x768_0_0_0
abbrev r19_2 : Rect S1x768 := Rect.unit (s := S1x768) ![0, 0] S1x768.size inb_S1x768_S1x768_0_0
abbrev r19_3 : Rect S1x868x768 := Rect.unit (s := S1x868x768) ![0, 0, 0] S1x868x768.size inb_S1x868x768_S1x868x768_0_0_0

/-! ## What the body leaves in the output window's buffer -/

/-- Window 3's staging buffer after the body, from the input windows' blocks: its one store, of the whole block —
    the eight row-broadcast sums under tanh, concatenated (the payloads are the skeleton's, over the three loads). -/
noncomputable def out19_3 (x0 : Vec F S1x8x768 .f32) (x1 : Vec F S1x112x768 .f32) (x2 : Vec F S1x768 .f32) : Vec F S1x868x768 .f32 :=
  View.canon [⟨r19_3, k19_pay1 (k19_pay2 (View.ld x0 r19_0)) (k19_pay3 (View.ld x1 r19_1)) (k19_pay4 (View.ld x2 r19_2))
    (k19_pay5 (View.ld x0 r19_0) (View.ld x1 r19_1) (View.ld x2 r19_2)) (k19_pay6 (View.ld x0 r19_0) (View.ld x1 r19_1) (View.ld x2 r19_2))
    (k19_pay7 (View.ld x0 r19_0) (View.ld x1 r19_1) (View.ld x2 r19_2)) (k19_pay8 (View.ld x0 r19_0) (View.ld x1 r19_1) (View.ld x2 r19_2))
    (k19_pay9 (View.ld x0 r19_0) (View.ld x1 r19_1) (View.ld x2 r19_2)) (k19_pay10 (View.ld x0 r19_0) (View.ld x1 r19_1) (View.ld x2 r19_2))
    (k19_pay11 (View.ld x0 r19_0) (View.ld x1 r19_1))⟩]

/-- The store is of the whole block, so it covers the buffer (checked by evaluation). -/
theorem cover19_3 (p0 : Vec F S1x868x768 .f32) (y : S1x868x768.Idx) :
    ∃ pc ∈ ([⟨r19_3, p0⟩] : List (View.Piece (Elt F) S1x868x768 .f32)), y ∈ pc.1.set :=
  View.cover_of_tiled [⟨r19_3, p0⟩] S1x868x768.size (by rfl) y

/-! ## The body's triple -/

set_option maxHeartbeats 1000000 in
/-- The kernel body on whole staging memrefs, the inputs' at read contents `xW` and the output's at anything, runs to
    the continuation holding the inputs' as they were and the output's at `out19_3` of the inputs': the three loads of
    the first part, the load of the output's buffer (whatever it holds; the value is dropped), and the one store. -/
theorem sound_kernel19 (c : Dev nD) (E : Set ℕ) (i : grid19.Coords) (arg1 : Memref sig .tc .vmem S1x8x768 .f32) (harg1 : arg1.IsWhole) (arg2 : Memref sig .tc .vmem S1x112x768 .f32) (harg2 : arg2.IsWhole) (arg3 : Memref sig .tc .vmem S1x768 .f32) (harg3 : arg3.IsWhole) (arg4 : Memref sig .tc .vmem S1x868x768 .f32) (harg4 : arg4.IsWhole)
    (x0 : Vec F S1x8x768 .f32) (x1 : Vec F S1x112x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out19_3 x0 x1 x2)) -∗ K ⟨⟩))
      ⊢ wp frame (wpE (defs₀ (F := F)) Variants.none c none) E (cc19__tri_kernel i arg1 harg1 arg2 harg2 arg3 harg3 arg4 harg4) K := by
  simp only [cc19__tri_kernel_eq_skeleton]; unfold cc19__tri_kernel_skel
  simp only [k19_part1_eq_skeleton]; unfold k19_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-! ## The pipeline's proof data -/

/-- The proof data of pipeline 19 on core `c`: the arrays as the region finds them (`V`); after the body at
    point `t` each input's buffer at its block and the output's at `out19_3` of the input blocks; the invariant the
    class's (`Pipeline.ΦA`: the scoped rest and the generator register, untouched); nothing owed; full shares. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

/-- The proof data's arrays are the region-entry contents (the proof data's definition projected, by `dsimp`). -/
theorem A_eq19 (c : Dev nD) (w : Fin cfg19.W) : (dat19 V c).A w = V c (Pipeline.arrRef spec19 w) := by
  dsimp only [dat19]

/-- What the body leaves, window by window (the proof data's `match` reduced by `dsimp`, never `rfl`). -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = out19_3 (iblk19 V c 0 t) (iblk19 V c 1 t) (iblk19 V c 2 t) := by dsimp only [dat19]

/-- Each input's current staging buffer holds its block at every point, fetched there or not (`before19_W_of`). -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-! ## The body obligation, at a generic point -/

/-- What the body is called with at point `t` (the body obligation's precondition, the windows one by one), -/
noncomputable def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
noncomputable def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

/-- The body at any point: the inputs' memrefs hold their blocks (`before19_W`), so `sound_kernel19` applies; the
    invariant and the core's `owes` pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ (grid19.coords t) _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Regions

end Cert.Kernel.Fr

end
-- ==== Proof.K.Reg20.lean ====
/- Region 20 of @main (triangular chunk 20 of 32, `cc20__tri_kernel`, pipeline 20, grid [4] over the batch), at the
   TensorCore's buffer contents `V` when the region is entered. Four windows: 0 = the eight rows of the first product
   this chunk pairs off (block [1,8,768] of [4,8,768]), 1 = the 104 rows of the second product they are paired with
   (block [1,104,768] of [4,104,768]), 2 = the bias row ([1,768], one block, fetched at the first point and kept),
   3 = the chunk's result (block [1,804,768] of [4,804,768], 804 = 104 + 103 + … + 97, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out20_3`),
   and each input buffer is left as found: this is what the pipeline's proof data `dat20` record, and
   `body_obligation20` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 20 of @main: custom_call 20, `cc20__tri_kernel` (pipeline 20), at the entry contents `V` -/

/-! ## The windows' blocks -/

/-- Window `w`'s block at point `t`, read off its array as the region finds it (`V`). -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The same of input window 1. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
/-- The same of input window 2 (the bias row: its one block is fetched at the first point only, and every later point
    finds it where the first left it). -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses -/

/-- Each staging buffer is read, and the result's written, whole. -/
abbrev r20_0 : Rect S1x8x768 := Rect.unit (s := S1x8x768) ![0, 0, 0] S1x8x768.size inb_S1x8x768_S1x8x768_0_0_0
abbrev r20_1 : Rect S1x104x768 := Rect.unit (s := S1x104x768) ![0, 0, 0] S1x104x768.size inb_S1x104x768_S1x104x768_0_0_0
abbrev r20_2 : Rect S1x768 := Rect.unit (s := S1x768) ![0, 0] S1x768.size inb_S1x768_S1x768_0_0
abbrev r20_3 : Rect S1x804x768 := Rect.unit (s := S1x804x768) ![0, 0, 0] S1x804x768.size inb_S1x804x768_S1x804x768_0_0_0

/-! ## What the body leaves in the output window's buffer -/

/-- Window 3's staging buffer after the body, from the input windows' blocks: its one store, of the whole block —
    the eight row-broadcast sums under tanh, concatenated (the payloads are the skeleton's, over the three loads). -/
noncomputable def out20_3 (x0 : Vec F S1x8x768 .f32) (x1 : Vec F S1x104x768 .f32) (x2 : Vec F S1x768 .f32) : Vec F S1x804x768 .f32 :=
  View.canon [⟨r20_3, k20_pay1 (k20_pay2 (View.ld x0 r20_0)) (k20_pay3 (View.ld x1 r20_1)) (k20_pay4 (View.ld x2 r20_2))
    (k20_pay5 (View.ld x0 r20_0) (View.ld x1 r20_1) (View.ld x2 r20_2)) (k20_pay6 (View.ld x0 r20_0) (View.ld x1 r20_1) (View.ld x2 r20_2))
    (k20_pay7 (View.ld x0 r20_0) (View.ld x1 r20_1) (View.ld x2 r20_2)) (k20_pay8 (View.ld x0 r20_0) (View.ld x1 r20_1) (View.ld x2 r20_2))
    (k20_pay9 (View.ld x0 r20_0) (View.ld x1 r20_1) (View.ld x2 r20_2)) (k20_pay10 (View.ld x0 r20_0) (View.ld x1 r20_1) (View.ld x2 r20_2))
    (k20_pay11 (View.ld x0 r20_0) (View.ld x1 r20_1))⟩]

/-- The store is of the whole block, so it covers the buffer (checked by evaluation). -/
theorem cover20_3 (p0 : Vec F S1x804x768 .f32) (y : S1x804x768.Idx) :
    ∃ pc ∈ ([⟨r20_3, p0⟩] : List (View.Piece (Elt F) S1x804x768 .f32)), y ∈ pc.1.set :=
  View.cover_of_tiled [⟨r20_3, p0⟩] S1x804x768.size (by rfl) y

/-! ## The body's triple -/

set_option maxHeartbeats 1000000 in
/-- The kernel body on whole staging memrefs, the inputs' at read contents `xW` and the output's at anything, runs to
    the continuation holding the inputs' as they were and the output's at `out20_3` of the inputs': the three loads of
    the first part, the load of the output's buffer (whatever it holds; the value is dropped), and the one store. -/
theorem sound_kernel20 (c : Dev nD) (E : Set ℕ) (i : grid20.Coords) (arg1 : Memref sig .tc .vmem S1x8x768 .f32) (harg1 : arg1.IsWhole) (arg2 : Memref sig .tc .vmem S1x104x768 .f32) (harg2 : arg2.IsWhole) (arg3 : Memref sig .tc .vmem S1x768 .f32) (harg3 : arg3.IsWhole) (arg4 : Memref sig .tc .vmem S1x804x768 .f32) (harg4 : arg4.IsWhole)
    (x0 : Vec F S1x8x768 .f32) (x1 : Vec F S1x104x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out20_3 x0 x1 x2)) -∗ K ⟨⟩))
      ⊢ wp frame (wpE (defs₀ (F := F)) Variants.none c none) E (cc20__tri_kernel i arg1 harg1 arg2 harg2 arg3 harg3 arg4 harg4) K := by
  simp only [cc20__tri_kernel_eq_skeleton]; unfold cc20__tri_kernel_skel
  simp only [k20_part1_eq_skeleton]; unfold k20_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover20_3 _)

/-! ## The pipeline's proof data -/

/-- The proof data of pipeline 20 on core `c`: the arrays as the region finds them (`V`); after the body at
    point `t` each input's buffer at its block and the output's at `out20_3` of the input blocks; the invariant the
    class's (`Pipeline.ΦA`: the scoped rest and the generator register, untouched); nothing owed; full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => out20_3 (iblk20 V c 0 t) (iblk20 V c 1 t) (iblk20 V c 2 t)
  Φ _ := Pipeline.ΦA spec20 c
  q _ := fullShare
  owed _ := 0

/-- The proof data's arrays are the region-entry contents (the proof data's definition projected, by `dsimp`). -/
theorem A_eq20 (c : Dev nD) (w : Fin cfg20.W) : (dat20 V c).A w = V c (Pipeline.arrRef spec20 w) := by
  dsimp only [dat20]

/-- What the body leaves, window by window (the proof data's `match` reduced by `dsimp`, never `rfl`). -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = out20_3 (iblk20 V c 0 t) (iblk20 V c 1 t) (iblk20 V c 2 t) := by dsimp only [dat20]

/-- Each input's current staging buffer holds its block at every point, fetched there or not (`before20_W_of`). -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d

/-! ## The body obligation, at a generic point -/

/-- What the body is called with at point `t` (the body obligation's precondition, the windows one by one), -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t))

/-- The body at any point: the inputs' memrefs hold their blocks (`before20_W`), so `sound_kernel20` applies; the
    invariant and the core's `owes` pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2]
  rw [show (dat20 V c).Φ t.succ = (dat20 V c).Φ t.castSucc from rfl,
    show (dat20 V c).owesAt () t.succ = (dat20 V c).owesAt () t.castSucc from rfl,
    after20_0, after20_1, after20_2, after20_3]
  iintro ⟨HΦ, Ho, ⟨%d0, H0⟩, ⟨%d1, H1⟩, ⟨%d2, H2⟩, ⟨%d3, H3⟩⟩
  iapply (sound_kernel20 c Set.univ (grid20.coords t) _ _ _ _ _ _ _ _ (iblk20 V c 0 t) (iblk20 V c 1 t) (iblk20 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation20 (c : Dev nD) : BodyObligation (dat20 (F := F) V c) (defs₀ (F := F)) Variants.none () Set.univ := fun t => by
  rw [bigSep_W20, bigSep_W20]
  exact sound_body20 V c t

end Regions

end Cert.Kernel.Fr

end
-- ==== Proof.K.Reg21.lean ====
/- Region 21 of @main (triangular chunk 21 of 32, `cc21__tri_kernel`, pipeline 21, grid [4] over the batch), at the
   TensorCore's buffer contents `V` when the region is entered. Four windows: 0 = the eight rows of the first product
   this chunk pairs off (block [1,8,768] of [4,8,768]), 1 = the 96 rows of the second product they are paired with
   (block [1,96,768] of [4,96,768]), 2 = the bias row ([1,768], one block, fetched at the first point and kept),
   3 = the chunk's result (block [1,740,768] of [4,740,768], 740 = 96 + 95 + … + 89, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out21_3`),
   and each input buffer is left as found: this is what the pipeline's proof data `dat21` record, and
   `body_obligation21` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 21 of @main: custom_call 21, `cc21__tri_kernel` (pipeline 21), at the entry contents `V` -/

/-! ## The windows' blocks -/

/-- Window `w`'s block at point `t`, read off its array as the region finds it (`V`). -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The same of input window 1. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
/-- The same of input window 2 (the bias row: its one block is fetched at the first point only, and every later point
    finds it where the first left it). -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- Each staging buffer is read, and the result's written, whole. -/
abbrev r21_0 : Rect S1x8x768 := Rect.unit (s := S1x8x768) ![0, 0, 0] S1x8x768.size inb_S1x8x768_S1x8x768_0_0_0
abbrev r21_1 : Rect S1x96x768 := Rect.unit (s := S1x96x768) ![0, 0, 0] S1x96x768.size inb_S1x96x768_S1x96x768_0_0_0
abbrev r21_2 : Rect S1x768 := Rect.unit (s := S1x768) ![0, 0] S1x768.size inb_S1x768_S1x768_0_0
abbrev r21_3 : Rect S1x740x768 := Rect.unit (s := S1x740x768) ![0, 0, 0] S1x740x768.size inb_S1x740x768_S1x740x768_0_0_0

/-! ## What the body leaves in the output window's buffer -/

/-- Window 3's staging buffer after the body, from the input windows' blocks: its one store, of the whole block —
    the eight row-broadcast sums under tanh, concatenated (the payloads are the skeleton's, over the three loads). -/
noncomputable def out21_3 (x0 : Vec F S1x8x768 .f32) (x1 : Vec F S1x96x768 .f32) (x2 : Vec F S1x768 .f32) : Vec F S1x740x768 .f32 :=
  View.canon [⟨r21_3, k21_pay1 (k21_pay2 (View.ld x0 r21_0)) (k21_pay3 (View.ld x1 r21_1)) (k21_pay4 (View.ld x2 r21_2))
    (k21_pay5 (View.ld x0 r21_0) (View.ld x1 r21_1) (View.ld x2 r21_2)) (k21_pay6 (View.ld x0 r21_0) (View.ld x1 r21_1) (View.ld x2 r21_2))
    (k21_pay7 (View.ld x0 r21_0) (View.ld x1 r21_1) (View.ld x2 r21_2)) (k21_pay8 (View.ld x0 r21_0) (View.ld x1 r21_1) (View.ld x2 r21_2))
    (k21_pay9 (View.ld x0 r21_0) (View.ld x1 r21_1) (View.ld x2 r21_2)) (k21_pay10 (View.ld x0 r21_0) (View.ld x1 r21_1) (View.ld x2 r21_2))
    (k21_pay11 (View.ld x0 r21_0) (View.ld x1 r21_1))⟩]

/-- The store is of the whole block, so it covers the buffer (checked by evaluation). -/
theorem cover21_3 (p0 : Vec F S1x740x768 .f32) (y : S1x740x768.Idx) :
    ∃ pc ∈ ([⟨r21_3, p0⟩] : List (View.Piece (Elt F) S1x740x768 .f32)), y ∈ pc.1.set :=
  View.cover_of_tiled [⟨r21_3, p0⟩] S1x740x768.size (by rfl) y

/-! ## The body's triple -/

set_option maxHeartbeats 1000000 in
/-- The kernel body on whole staging memrefs, the inputs' at read contents `xW` and the output's at anything, runs to
    the continuation holding the inputs' as they were and the output's at `out21_3` of the inputs': the three loads of
    the first part, the load of the output's buffer (whatever it holds; the value is dropped), and the one store. -/
theorem sound_kernel21 (c : Dev nD) (E : Set ℕ) (i : grid21.Coords) (arg1 : Memref sig .tc .vmem S1x8x768 .f32) (harg1 : arg1.IsWhole) (arg2 : Memref sig .tc .vmem S1x96x768 .f32) (harg2 : arg2.IsWhole) (arg3 : Memref sig .tc .vmem S1x768 .f32) (harg3 : arg3.IsWhole) (arg4 : Memref sig .tc .vmem S1x740x768 .f32) (harg4 : arg4.IsWhole)
    (x0 : Vec F S1x8x768 .f32) (x1 : Vec F S1x96x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out21_3 x0 x1 x2)) -∗ K ⟨⟩))
      ⊢ wp frame (wpE (defs₀ (F := F)) Variants.none c none) E (cc21__tri_kernel i arg1 harg1 arg2 harg2 arg3 harg3 arg4 harg4) K := by
  simp only [cc21__tri_kernel_eq_skeleton]; unfold cc21__tri_kernel_skel
  simp only [k21_part1_eq_skeleton]; unfold k21_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover21_3 _)

/-! ## The pipeline's proof data -/

/-- The proof data of pipeline 21 on core `c`: the arrays as the region finds them (`V`); after the body at
    point `t` each input's buffer at its block and the output's at `out21_3` of the input blocks; the invariant the
    class's (`Pipeline.ΦA`: the scoped rest and the generator register, untouched); nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21_3 (iblk21 V c 0 t) (iblk21 V c 1 t) (iblk21 V c 2 t)
  Φ _ := Pipeline.ΦA spec21 c
  q _ := fullShare
  owed _ := 0

/-- The proof data's arrays are the region-entry contents (the proof data's definition projected, by `dsimp`). -/
theorem A_eq21 (c : Dev nD) (w : Fin cfg21.W) : (dat21 V c).A w = V c (Pipeline.arrRef spec21 w) := by
  dsimp only [dat21]

/-- What the body leaves, window by window (the proof data's `match` reduced by `dsimp`, never `rfl`). -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21_3 (iblk21 V c 0 t) (iblk21 V c 1 t) (iblk21 V c 2 t) := by dsimp only [dat21]

/-- Each input's current staging buffer holds its block at every point, fetched there or not (`before21_W_of`). -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d

/-! ## The body obligation, at a generic point -/

/-- What the body is called with at point `t` (the body obligation's precondition, the windows one by one), -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t))

/-- The body at any point: the inputs' memrefs hold their blocks (`before21_W`), so `sound_kernel21` applies; the
    invariant and the core's `owes` pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).Φ t.succ = (dat21 V c).Φ t.castSucc from rfl,
    show (dat21 V c).owesAt () t.succ = (dat21 V c).owesAt () t.castSucc from rfl,
    after21_0, after21_1, after21_2, after21_3]
  iintro ⟨HΦ, Ho, ⟨%d0, H0⟩, ⟨%d1, H1⟩, ⟨%d2, H2⟩, ⟨%d3, H3⟩⟩
  iapply (sound_kernel21 c Set.univ (grid21.coords t) _ _ _ _ _ _ _ _ (iblk21 V c 0 t) (iblk21 V c 1 t) (iblk21 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation21 (c : Dev nD) : BodyObligation (dat21 (F := F) V c) (defs₀ (F := F)) Variants.none () Set.univ := fun t => by
  rw [bigSep_W21, bigSep_W21]
  exact sound_body21 V c t

end Regions

end Cert.Kernel.Fr

end
-- ==== Proof.K.Reg22.lean ====
/- Region 22 of @main (triangular chunk 22 of 32, `cc22__tri_kernel`, pipeline 22, grid [4] over the batch), at the
   TensorCore's buffer contents `V` when the region is entered. Four windows: 0 = the eight rows of the first product
   this chunk pairs off (block [1,8,768] of [4,8,768]), 1 = the 88 rows of the second product they are paired with
   (block [1,88,768] of [4,88,768]), 2 = the bias row ([1,768], one block, fetched at the first point and kept),
   3 = the chunk's result (block [1,676,768] of [4,676,768], 676 = 88 + 87 + … + 81, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out22_3`),
   and each input buffer is left as found: this is what the pipeline's proof data `dat22` record, and
   `body_obligation22` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 22 of @main: custom_call 22, `cc22__tri_kernel` (pipeline 22), at the entry contents `V` -/

/-! ## The windows' blocks -/

/-- Window `w`'s block at point `t`, read off its array as the region finds it (`V`). -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The same of input window 1. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
/-- The same of input window 2 (the bias row: its one block is fetched at the first point only, and every later point
    finds it where the first left it). -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses -/

/-- Each staging buffer is read, and the result's written, whole. -/
abbrev r22_0 : Rect S1x8x768 := Rect.unit (s := S1x8x768) ![0, 0, 0] S1x8x768.size inb_S1x8x768_S1x8x768_0_0_0
abbrev r22_1 : Rect S1x88x768 := Rect.unit (s := S1x88x768) ![0, 0, 0] S1x88x768.size inb_S1x88x768_S1x88x768_0_0_0
abbrev r22_2 : Rect S1x768 := Rect.unit (s := S1x768) ![0, 0] S1x768.size inb_S1x768_S1x768_0_0
abbrev r22_3 : Rect S1x676x768 := Rect.unit (s := S1x676x768) ![0, 0, 0] S1x676x768.size inb_S1x676x768_S1x676x768_0_0_0

/-! ## What the body leaves in the output window's buffer -/

/-- Window 3's staging buffer after the body, from the input windows' blocks: its one store, of the whole block —
    the eight row-broadcast sums under tanh, concatenated (the payloads are the skeleton's, over the three loads). -/
noncomputable def out22_3 (x0 : Vec F S1x8x768 .f32) (x1 : Vec F S1x88x768 .f32) (x2 : Vec F S1x768 .f32) : Vec F S1x676x768 .f32 :=
  View.canon [⟨r22_3, k22_pay1 (k22_pay2 (View.ld x0 r22_0)) (k22_pay3 (View.ld x1 r22_1)) (k22_pay4 (View.ld x2 r22_2))
    (k22_pay5 (View.ld x0 r22_0) (View.ld x1 r22_1) (View.ld x2 r22_2)) (k22_pay6 (View.ld x0 r22_0) (View.ld x1 r22_1) (View.ld x2 r22_2))
    (k22_pay7 (View.ld x0 r22_0) (View.ld x1 r22_1) (View.ld x2 r22_2)) (k22_pay8 (View.ld x0 r22_0) (View.ld x1 r22_1) (View.ld x2 r22_2))
    (k22_pay9 (View.ld x0 r22_0) (View.ld x1 r22_1) (View.ld x2 r22_2)) (k22_pay10 (View.ld x0 r22_0) (View.ld x1 r22_1) (View.ld x2 r22_2))
    (k22_pay11 (View.ld x0 r22_0) (View.ld x1 r22_1))⟩]

/-- The store is of the whole block, so it covers the buffer (checked by evaluation). -/
theorem cover22_3 (p0 : Vec F S1x676x768 .f32) (y : S1x676x768.Idx) :
    ∃ pc ∈ ([⟨r22_3, p0⟩] : List (View.Piece (Elt F) S1x676x768 .f32)), y ∈ pc.1.set :=
  View.cover_of_tiled [⟨r22_3, p0⟩] S1x676x768.size (by rfl) y

/-! ## The body's triple -/

set_option maxHeartbeats 1000000 in
/-- The kernel body on whole staging memrefs, the inputs' at read contents `xW` and the output's at anything, runs to
    the continuation holding the inputs' as they were and the output's at `out22_3` of the inputs': the three loads of
    the first part, the load of the output's buffer (whatever it holds; the value is dropped), and the one store. -/
theorem sound_kernel22 (c : Dev nD) (E : Set ℕ) (i : grid22.Coords) (arg1 : Memref sig .tc .vmem S1x8x768 .f32) (harg1 : arg1.IsWhole) (arg2 : Memref sig .tc .vmem S1x88x768 .f32) (harg2 : arg2.IsWhole) (arg3 : Memref sig .tc .vmem S1x768 .f32) (harg3 : arg3.IsWhole) (arg4 : Memref sig .tc .vmem S1x676x768 .f32) (harg4 : arg4.IsWhole)
    (x0 : Vec F S1x8x768 .f32) (x1 : Vec F S1x88x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22__tri_kernel i arg1 harg1 arg2 harg2 arg3 harg3 arg4 harg4) K := by
  simp only [cc22__tri_kernel_eq_skeleton]; unfold cc22__tri_kernel_skel
  simp only [k22_part1_eq_skeleton]; unfold k22_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-! ## The pipeline's proof data -/

/-- The proof data of pipeline 22 on core `c`: the arrays as the region finds them (`V`); after the body at
    point `t` each input's buffer at its block and the output's at `out22_3` of the input blocks; the invariant the
    class's (`Pipeline.ΦA`: the scoped rest and the generator register, untouched); nothing owed; full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents (the proof data's definition projected, by `dsimp`). -/
theorem A_eq22 (c : Dev nD) (w : Fin cfg22.W) : (dat22 V c).A w = V c (Pipeline.arrRef spec22 w) := by
  dsimp only [dat22]

/-- What the body leaves, window by window (the proof data's `match` reduced by `dsimp`, never `rfl`). -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

/-- Each input's current staging buffer holds its block at every point, fetched there or not (`before22_W_of`). -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t` (the body obligation's precondition, the windows one by one), -/
noncomputable def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
noncomputable def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks (`before22_W`), so `sound_kernel22` applies; the
    invariant and the core's `owes` pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ (grid22.coords t) _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

end Regions

end Cert.Kernel.Fr

end
-- ==== Proof.K.Reg23.lean ====
/- Region 23 of @main (triangular chunk 23 of 32, `cc23__tri_kernel`, pipeline 23, grid [4] over the batch), at the
   TensorCore's buffer contents `V` when the region is entered. Four windows: 0 = the eight rows of the first product
   this chunk pairs off (block [1,8,768] of [4,8,768]), 1 = the 80 rows of the second product they are paired with
   (block [1,80,768] of [4,80,768]), 2 = the bias row ([1,768], one block, fetched at the first point and kept),
   3 = the chunk's result (block [1,612,768] of [4,612,768], 612 = 80 + 79 + … + 73, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out23_3`),
   and each input buffer is left as found: this is what the pipeline's proof data `dat23` record, and
   `body_obligation23` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 23 of @main: custom_call 23, `cc23__tri_kernel` (pipeline 23), at the entry contents `V` -/

/-! ## The windows' blocks -/

/-- Window `w`'s block at point `t`, read off its array as the region finds it (`V`). -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The same of input window 1. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
/-- The same of input window 2 (the bias row: its one block is fetched at the first point only, and every later point
    finds it where the first left it). -/
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses -/

/-- Each staging buffer is read, and the result's written, whole. -/
abbrev r23_0 : Rect S1x8x768 := Rect.unit (s := S1x8x768) ![0, 0, 0] S1x8x768.size inb_S1x8x768_S1x8x768_0_0_0
abbrev r23_1 : Rect S1x80x768 := Rect.unit (s := S1x80x768) ![0, 0, 0] S1x80x768.size inb_S1x80x768_S1x80x768_0_0_0
abbrev r23_2 : Rect S1x768 := Rect.unit (s := S1x768) ![0, 0] S1x768.size inb_S1x768_S1x768_0_0
abbrev r23_3 : Rect S1x612x768 := Rect.unit (s := S1x612x768) ![0, 0, 0] S1x612x768.size inb_S1x612x768_S1x612x768_0_0_0

/-! ## What the body leaves in the output window's buffer -/

/-- Window 3's staging buffer after the body, from the input windows' blocks: its one store, of the whole block —
    the eight row-broadcast sums under tanh, concatenated (the payloads are the skeleton's, over the three loads). -/
noncomputable def out23_3 (x0 : Vec F S1x8x768 .f32) (x1 : Vec F S1x80x768 .f32) (x2 : Vec F S1x768 .f32) : Vec F S1x612x768 .f32 :=
  View.canon [⟨r23_3, k23_pay1 (k23_pay2 (View.ld x0 r23_0)) (k23_pay3 (View.ld x1 r23_1)) (k23_pay4 (View.ld x2 r23_2))
    (k23_pay5 (View.ld x0 r23_0) (View.ld x1 r23_1) (View.ld x2 r23_2)) (k23_pay6 (View.ld x0 r23_0) (View.ld x1 r23_1) (View.ld x2 r23_2))
    (k23_pay7 (View.ld x0 r23_0) (View.ld x1 r23_1) (View.ld x2 r23_2)) (k23_pay8 (View.ld x0 r23_0) (View.ld x1 r23_1) (View.ld x2 r23_2))
    (k23_pay9 (View.ld x0 r23_0) (View.ld x1 r23_1) (View.ld x2 r23_2)) (k23_pay10 (View.ld x0 r23_0) (View.ld x1 r23_1) (View.ld x2 r23_2))
    (k23_pay11 (View.ld x0 r23_0) (View.ld x1 r23_1))⟩]

/-- The store is of the whole block, so it covers the buffer (checked by evaluation). -/
theorem cover23_3 (p0 : Vec F S1x612x768 .f32) (y : S1x612x768.Idx) :
    ∃ pc ∈ ([⟨r23_3, p0⟩] : List (View.Piece (Elt F) S1x612x768 .f32)), y ∈ pc.1.set :=
  View.cover_of_tiled [⟨r23_3, p0⟩] S1x612x768.size (by rfl) y

/-! ## The body's triple -/

set_option maxHeartbeats 1000000 in
/-- The kernel body on whole staging memrefs, the inputs' at read contents `xW` and the output's at anything, runs to
    the continuation holding the inputs' as they were and the output's at `out23_3` of the inputs': the three loads of
    the first part, the load of the output's buffer (whatever it holds; the value is dropped), and the one store. -/
theorem sound_kernel23 (c : Dev nD) (E : Set ℕ) (i : grid23.Coords) (arg1 : Memref sig .tc .vmem S1x8x768 .f32) (harg1 : arg1.IsWhole) (arg2 : Memref sig .tc .vmem S1x80x768 .f32) (harg2 : arg2.IsWhole) (arg3 : Memref sig .tc .vmem S1x768 .f32) (harg3 : arg3.IsWhole) (arg4 : Memref sig .tc .vmem S1x612x768 .f32) (harg4 : arg4.IsWhole)
    (x0 : Vec F S1x8x768 .f32) (x1 : Vec F S1x80x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23__tri_kernel i arg1 harg1 arg2 harg2 arg3 harg3 arg4 harg4) K := by
  simp only [cc23__tri_kernel_eq_skeleton]; unfold cc23__tri_kernel_skel
  simp only [k23_part1_eq_skeleton]; unfold k23_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover23_3 _)

/-! ## The pipeline's proof data -/

/-- The proof data of pipeline 23 on core `c`: the arrays as the region finds them (`V`); after the body at
    point `t` each input's buffer at its block and the output's at `out23_3` of the input blocks; the invariant the
    class's (`Pipeline.ΦA`: the scoped rest and the generator register, untouched); nothing owed; full shares. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

/-- The proof data's arrays are the region-entry contents (the proof data's definition projected, by `dsimp`). -/
theorem A_eq23 (c : Dev nD) (w : Fin cfg23.W) : (dat23 V c).A w = V c (Pipeline.arrRef spec23 w) := by
  dsimp only [dat23]

/-- What the body leaves, window by window (the proof data's `match` reduced by `dsimp`, never `rfl`). -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

/-- Each input's current staging buffer holds its block at every point, fetched there or not (`before23_W_of`). -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

/-! ## The body obligation, at a generic point -/

/-- What the body is called with at point `t` (the body obligation's precondition, the windows one by one), -/
noncomputable def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

/-- and what it returns. -/
noncomputable def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

/-- The body at any point: the inputs' memrefs hold their blocks (`before23_W`), so `sound_kernel23` applies; the
    invariant and the core's `owes` pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ (grid23.coords t) _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation23 (c : Dev nD) : BodyObligation (dat23 (F := F) V c) (defs₀ (F := F)) Variants.none () Set.univ := fun t => by
  rw [bigSep_W23, bigSep_W23]
  exact sound_body23 V c t

end Regions

end Cert.Kernel.Fr

end
-- ==== Proof.K.Reg24.lean ====
/- Region 24 of @main (triangular chunk 24 of 32, `cc24__tri_kernel`, pipeline 24, grid [4] over the batch), at the
   TensorCore's buffer contents `V` when the region is entered. Four windows: 0 = the eight rows of the first product
   this chunk pairs off (block [1,8,768] of [4,8,768]), 1 = the 72 rows of the second product they are paired with
   (block [1,72,768] of [4,72,768]), 2 = the bias row ([1,768], one block, fetched at the first point and kept),
   3 = the chunk's result (block [1,548,768] of [4,548,768], 548 = 72 + 71 + … + 65, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out24_3`),
   and each input buffer is left as found: this is what the pipeline's proof data `dat24` record, and
   `body_obligation24` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 24 of @main: custom_call 24, `cc24__tri_kernel` (pipeline 24), at the entry contents `V` -/

/-! ## The windows' blocks -/

/-- Window `w`'s block at point `t`, read off its array as the region finds it (`V`). -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
/-- The same of input window 1. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
/-- The same of input window 2 (the bias row: its one block is fetched at the first point only, and every later point
    finds it where the first left it). -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses -/

/-- Each staging buffer is read, and the result's written, whole. -/
abbrev r24_0 : Rect S1x8x768 := Rect.unit (s := S1x8x768) ![0, 0, 0] S1x8x768.size inb_S1x8x768_S1x8x768_0_0_0
abbrev r24_1 : Rect S1x72x768 := Rect.unit (s := S1x72x768) ![0, 0, 0] S1x72x768.size inb_S1x72x768_S1x72x768_0_0_0
abbrev r24_2 : Rect S1x768 := Rect.unit (s := S1x768) ![0, 0] S1x768.size inb_S1x768_S1x768_0_0
abbrev r24_3 : Rect S1x548x768 := Rect.unit (s := S1x548x768) ![0, 0, 0] S1x548x768.size inb_S1x548x768_S1x548x768_0_0_0

/-! ## What the body leaves in the output window's buffer -/

/-- Window 3's staging buffer after the body, from the input windows' blocks: its one store, of the whole block —
    the eight row-broadcast sums under tanh, concatenated (the payloads are the skeleton's, over the three loads). -/
noncomputable def out24_3 (x0 : Vec F S1x8x768 .f32) (x1 : Vec F S1x72x768 .f32) (x2 : Vec F S1x768 .f32) : Vec F S1x548x768 .f32 :=
  View.canon [⟨r24_3, k24_pay1 (k24_pay2 (View.ld x0 r24_0)) (k24_pay3 (View.ld x1 r24_1)) (k24_pay4 (View.ld x2 r24_2))
    (k24_pay5 (View.ld x0 r24_0) (View.ld x1 r24_1) (View.ld x2 r24_2)) (k24_pay6 (View.ld x0 r24_0) (View.ld x1 r24_1) (View.ld x2 r24_2))
    (k24_pay7 (View.ld x0 r24_0) (View.ld x1 r24_1) (View.ld x2 r24_2)) (k24_pay8 (View.ld x0 r24_0) (View.ld x1 r24_1) (View.ld x2 r24_2))
    (k24_pay9 (View.ld x0 r24_0) (View.ld x1 r24_1) (View.ld x2 r24_2)) (k24_pay10 (View.ld x0 r24_0) (View.ld x1 r24_1) (View.ld x2 r24_2))
    (k24_pay11 (View.ld x0 r24_0) (View.ld x1 r24_1))⟩]

/-- The store is of the whole block, so it covers the buffer (checked by evaluation). -/
theorem cover24_3 (p0 : Vec F S1x548x768 .f32) (y : S1x548x768.Idx) :
    ∃ pc ∈ ([⟨r24_3, p0⟩] : List (View.Piece (Elt F) S1x548x768 .f32)), y ∈ pc.1.set :=
  View.cover_of_tiled [⟨r24_3, p0⟩] S1x548x768.size (by rfl) y

/-! ## The body's triple -/

set_option maxHeartbeats 1000000 in
/-- The kernel body on whole staging memrefs, the inputs' at read contents `xW` and the output's at anything, runs to
    the continuation holding the inputs' as they were and the output's at `out24_3` of the inputs': the three loads of
    the first part, the load of the output's buffer (whatever it holds; the value is dropped), and the one store. -/
theorem sound_kernel24 (c : Dev nD) (E : Set ℕ) (i : grid24.Coords) (arg1 : Memref sig .tc .vmem S1x8x768 .f32) (harg1 : arg1.IsWhole) (arg2 : Memref sig .tc .vmem S1x72x768 .f32) (harg2 : arg2.IsWhole) (arg3 : Memref sig .tc .vmem S1x768 .f32) (harg3 : arg3.IsWhole) (arg4 : Memref sig .tc .vmem S1x548x768 .f32) (harg4 : arg4.IsWhole)
    (x0 : Vec F S1x8x768 .f32) (x1 : Vec F S1x72x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out24_3 x0 x1 x2)) -∗ K ⟨⟩))
      ⊢ wp frame (wpE (defs₀ (F := F)) Variants.none c none) E (cc24__tri_kernel i arg1 harg1 arg2 harg2 arg3 harg3 arg4 harg4) K := by
  simp only [cc24__tri_kernel_eq_skeleton]; unfold cc24__tri_kernel_skel
  simp only [k24_part1_eq_skeleton]; unfold k24_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-! ## The pipeline's proof data -/

/-- The proof data of pipeline 24 on core `c`: the arrays as the region finds them (`V`); after the body at
    point `t` each input's buffer at its block and the output's at `out24_3` of the input blocks; the invariant the
    class's (`Pipeline.ΦA`: the scoped rest and the generator register, untouched); nothing owed; full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

/-- The proof data's arrays are the region-entry contents (the proof data's definition projected, by `dsimp`). -/
theorem A_eq24 (c : Dev nD) (w : Fin cfg24.W) : (dat24 V c).A w = V c (Pipeline.arrRef spec24 w) := by
  dsimp only [dat24]

/-- What the body leaves, window by window (the proof data's `match` reduced by `dsimp`, never `rfl`). -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = out24_3 (iblk24 V c 0 t) (iblk24 V c 1 t) (iblk24 V c 2 t) := by dsimp only [dat24]

/-- Each input's current staging buffer holds its block at every point, fetched there or not (`before24_W_of`). -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-! ## The body obligation, at a generic point -/

/-- What the body is called with at point `t` (the body obligation's precondition, the windows one by one), -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

/-- The body at any point: the inputs' memrefs hold their blocks (`before24_W`), so `sound_kernel24` applies; the
    invariant and the core's `owes` pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Regions

end Cert.Kernel.Fr

end
-- ==== Proof.K.Reg25.lean ====
/- Region 25 of @main (triangular chunk 25 of 32, `cc25__tri_kernel`, pipeline 25, grid [4] over the batch), at the
   TensorCore's buffer contents `V` when the region is entered. Four windows: 0 = the eight rows of the first product
   this chunk pairs off (block [1,8,768] of [4,8,768]), 1 = the 64 rows of the second product they are paired with
   (block [1,64,768] of [4,64,768]), 2 = the bias row ([1,768], one block, fetched at the first point and kept),
   3 = the chunk's result (block [1,484,768] of [4,484,768], 484 = 64 + 63 + … + 57, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out25_3`),
   and each input buffer is left as found: this is what the pipeline's proof data `dat25` record, and
   `body_obligation25` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 25 of @main: custom_call 25, `cc25__tri_kernel` (pipeline 25), at the entry contents `V` -/

/-! ## The windows' blocks -/

/-- Window `w`'s block at point `t`, read off its array as the region finds it (`V`). -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
/-- The same of input window 1. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
/-- The same of input window 2 (the bias row: its one block is fetched at the first point only, and every later point
    finds it where the first left it). -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses -/

/-- Each staging buffer is read, and the result's written, whole. -/
abbrev r25_0 : Rect S1x8x768 := Rect.unit (s := S1x8x768) ![0, 0, 0] S1x8x768.size inb_S1x8x768_S1x8x768_0_0_0
abbrev r25_1 : Rect S1x64x768 := Rect.unit (s := S1x64x768) ![0, 0, 0] S1x64x768.size inb_S1x64x768_S1x64x768_0_0_0
abbrev r25_2 : Rect S1x768 := Rect.unit (s := S1x768) ![0, 0] S1x768.size inb_S1x768_S1x768_0_0
abbrev r25_3 : Rect S1x484x768 := Rect.unit (s := S1x484x768) ![0, 0, 0] S1x484x768.size inb_S1x484x768_S1x484x768_0_0_0

/-! ## What the body leaves in the output window's buffer -/

/-- Window 3's staging buffer after the body, from the input windows' blocks: its one store, of the whole block —
    the eight row-broadcast sums under tanh, concatenated (the payloads are the skeleton's, over the three loads). -/
noncomputable def out25_3 (x0 : Vec F S1x8x768 .f32) (x1 : Vec F S1x64x768 .f32) (x2 : Vec F S1x768 .f32) : Vec F S1x484x768 .f32 :=
  View.canon [⟨r25_3, k25_pay1 (k25_pay2 (View.ld x0 r25_0)) (k25_pay3 (View.ld x1 r25_1)) (k25_pay4 (View.ld x2 r25_2))
    (k25_pay5 (View.ld x0 r25_0) (View.ld x1 r25_1) (View.ld x2 r25_2)) (k25_pay6 (View.ld x0 r25_0) (View.ld x1 r25_1) (View.ld x2 r25_2))
    (k25_pay7 (View.ld x0 r25_0) (View.ld x1 r25_1) (View.ld x2 r25_2)) (k25_pay8 (View.ld x0 r25_0) (View.ld x1 r25_1) (View.ld x2 r25_2))
    (k25_pay9 (View.ld x0 r25_0) (View.ld x1 r25_1) (View.ld x2 r25_2)) (k25_pay10 (View.ld x0 r25_0) (View.ld x1 r25_1) (View.ld x2 r25_2))
    (k25_pay11 (View.ld x0 r25_0) (View.ld x1 r25_1))⟩]

/-- The store is of the whole block, so it covers the buffer (checked by evaluation). -/
theorem cover25_3 (p0 : Vec F S1x484x768 .f32) (y : S1x484x768.Idx) :
    ∃ pc ∈ ([⟨r25_3, p0⟩] : List (View.Piece (Elt F) S1x484x768 .f32)), y ∈ pc.1.set :=
  View.cover_of_tiled [⟨r25_3, p0⟩] S1x484x768.size (by rfl) y

/-! ## The body's triple -/

set_option maxHeartbeats 1000000 in
/-- The kernel body on whole staging memrefs, the inputs' at read contents `xW` and the output's at anything, runs to
    the continuation holding the inputs' as they were and the output's at `out25_3` of the inputs': the three loads of
    the first part, the load of the output's buffer (whatever it holds; the value is dropped), and the one store. -/
theorem sound_kernel25 (c : Dev nD) (E : Set ℕ) (i : grid25.Coords) (arg1 : Memref sig .tc .vmem S1x8x768 .f32) (harg1 : arg1.IsWhole) (arg2 : Memref sig .tc .vmem S1x64x768 .f32) (harg2 : arg2.IsWhole) (arg3 : Memref sig .tc .vmem S1x768 .f32) (harg3 : arg3.IsWhole) (arg4 : Memref sig .tc .vmem S1x484x768 .f32) (harg4 : arg4.IsWhole)
    (x0 : Vec F S1x8x768 .f32) (x1 : Vec F S1x64x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out25_3 x0 x1 x2)) -∗ K ⟨⟩))
      ⊢ wp frame (wpE (defs₀ (F := F)) Variants.none c none) E (cc25__tri_kernel i arg1 harg1 arg2 harg2 arg3 harg3 arg4 harg4) K := by
  simp only [cc25__tri_kernel_eq_skeleton]; unfold cc25__tri_kernel_skel
  simp only [k25_part1_eq_skeleton]; unfold k25_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-! ## The pipeline's proof data -/

/-- The proof data of pipeline 25 on core `c`: the arrays as the region finds them (`V`); after the body at
    point `t` each input's buffer at its block and the output's at `out25_3` of the input blocks; the invariant the
    class's (`Pipeline.ΦA`: the scoped rest and the generator register, untouched); nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

/-- The proof data's arrays are the region-entry contents (the proof data's definition projected, by `dsimp`). -/
theorem A_eq25 (c : Dev nD) (w : Fin cfg25.W) : (dat25 V c).A w = V c (Pipeline.arrRef spec25 w) := by
  dsimp only [dat25]

/-- What the body leaves, window by window (the proof data's `match` reduced by `dsimp`, never `rfl`). -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = out25_3 (iblk25 V c 0 t) (iblk25 V c 1 t) (iblk25 V c 2 t) := by dsimp only [dat25]

/-- Each input's current staging buffer holds its block at every point, fetched there or not (`before25_W_of`). -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-! ## The body obligation, at a generic point -/

/-- What the body is called with at point `t` (the body obligation's precondition, the windows one by one), -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

/-- The body at any point: the inputs' memrefs hold their blocks (`before25_W`), so `sound_kernel25` applies; the
    invariant and the core's `owes` pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Regions

end Cert.Kernel.Fr

end
-- ==== Proof.K.Reg26.lean ====
/- Region 26 of @main (triangular chunk 26 of 32, `cc26__tri_kernel`, pipeline 26, grid [4] over the batch), at the
   TensorCore's buffer contents `V` when the region is entered. Four windows: 0 = the eight rows of the first product
   this chunk pairs off (block [1,8,768] of [4,8,768]), 1 = the 56 rows of the second product they are paired with
   (block [1,56,768] of [4,56,768]), 2 = the bias row ([1,768], one block, fetched at the first point and kept),
   3 = the chunk's result (block [1,420,768] of [4,420,768], 420 = 56 + 55 + … + 49, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out26_3`),
   and each input buffer is left as found: this is what the pipeline's proof data `dat26` record, and
   `body_obligation26` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 26 of @main: custom_call 26, `cc26__tri_kernel` (pipeline 26), at the entry contents `V` -/

/-! ## The windows' blocks -/

/-- Window `w`'s block at point `t`, read off its array as the region finds it (`V`). -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)
/-- The same of input window 1. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)
/-- The same of input window 2 (the bias row: its one block is fetched at the first point only, and every later point
    finds it where the first left it). -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's accesses -/

/-- Each staging buffer is read, and the result's written, whole. -/
abbrev r26_0 : Rect S1x8x768 := Rect.unit (s := S1x8x768) ![0, 0, 0] S1x8x768.size inb_S1x8x768_S1x8x768_0_0_0
abbrev r26_1 : Rect S1x56x768 := Rect.unit (s := S1x56x768) ![0, 0, 0] S1x56x768.size inb_S1x56x768_S1x56x768_0_0_0
abbrev r26_2 : Rect S1x768 := Rect.unit (s := S1x768) ![0, 0] S1x768.size inb_S1x768_S1x768_0_0
abbrev r26_3 : Rect S1x420x768 := Rect.unit (s := S1x420x768) ![0, 0, 0] S1x420x768.size inb_S1x420x768_S1x420x768_0_0_0

/-! ## What the body leaves in the output window's buffer -/

/-- Window 3's staging buffer after the body, from the input windows' blocks: its one store, of the whole block —
    the eight row-broadcast sums under tanh, concatenated (the payloads are the skeleton's, over the three loads). -/
noncomputable def out26_3 (x0 : Vec F S1x8x768 .f32) (x1 : Vec F S1x56x768 .f32) (x2 : Vec F S1x768 .f32) : Vec F S1x420x768 .f32 :=
  View.canon [⟨r26_3, k26_pay1 (k26_pay2 (View.ld x0 r26_0)) (k26_pay3 (View.ld x1 r26_1)) (k26_pay4 (View.ld x2 r26_2))
    (k26_pay5 (View.ld x0 r26_0) (View.ld x1 r26_1) (View.ld x2 r26_2)) (k26_pay6 (View.ld x0 r26_0) (View.ld x1 r26_1) (View.ld x2 r26_2))
    (k26_pay7 (View.ld x0 r26_0) (View.ld x1 r26_1) (View.ld x2 r26_2)) (k26_pay8 (View.ld x0 r26_0) (View.ld x1 r26_1) (View.ld x2 r26_2))
    (k26_pay9 (View.ld x0 r26_0) (View.ld x1 r26_1) (View.ld x2 r26_2)) (k26_pay10 (View.ld x0 r26_0) (View.ld x1 r26_1) (View.ld x2 r26_2))
    (k26_pay11 (View.ld x0 r26_0) (View.ld x1 r26_1))⟩]

/-- The store is of the whole block, so it covers the buffer (checked by evaluation). -/
theorem cover26_3 (p0 : Vec F S1x420x768 .f32) (y : S1x420x768.Idx) :
    ∃ pc ∈ ([⟨r26_3, p0⟩] : List (View.Piece (Elt F) S1x420x768 .f32)), y ∈ pc.1.set :=
  View.cover_of_tiled [⟨r26_3, p0⟩] S1x420x768.size (by rfl) y

/-! ## The body's triple -/

set_option maxHeartbeats 1000000 in
/-- The kernel body on whole staging memrefs, the inputs' at read contents `xW` and the output's at anything, runs to
    the continuation holding the inputs' as they were and the output's at `out26_3` of the inputs': the three loads of
    the first part, the load of the output's buffer (whatever it holds; the value is dropped), and the one store. -/
theorem sound_kernel26 (c : Dev nD) (E : Set ℕ) (i : grid26.Coords) (arg1 : Memref sig .tc .vmem S1x8x768 .f32) (harg1 : arg1.IsWhole) (arg2 : Memref sig .tc .vmem S1x56x768 .f32) (harg2 : arg2.IsWhole) (arg3 : Memref sig .tc .vmem S1x768 .f32) (harg3 : arg3.IsWhole) (arg4 : Memref sig .tc .vmem S1x420x768 .f32) (harg4 : arg4.IsWhole)
    (x0 : Vec F S1x8x768 .f32) (x1 : Vec F S1x56x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out26_3 x0 x1 x2)) -∗ K ⟨⟩))
      ⊢ wp frame (wpE (defs₀ (F := F)) Variants.none c none) E (cc26__tri_kernel i arg1 harg1 arg2 harg2 arg3 harg3 arg4 harg4) K := by
  simp only [cc26__tri_kernel_eq_skeleton]; unfold cc26__tri_kernel_skel
  simp only [k26_part1_eq_skeleton]; unfold k26_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover26_3 _)

/-! ## The pipeline's proof data -/

/-- The proof data of pipeline 26 on core `c`: the arrays as the region finds them (`V`); after the body at
    point `t` each input's buffer at its block and the output's at `out26_3` of the input blocks; the invariant the
    class's (`Pipeline.ΦA`: the scoped rest and the generator register, untouched); nothing owed; full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26_3 (iblk26 V c 0 t) (iblk26 V c 1 t) (iblk26 V c 2 t)
  Φ _ := Pipeline.ΦA spec26 c
  q _ := fullShare
  owed _ := 0

/-- The proof data's arrays are the region-entry contents (the proof data's definition projected, by `dsimp`). -/
theorem A_eq26 (c : Dev nD) (w : Fin cfg26.W) : (dat26 V c).A w = V c (Pipeline.arrRef spec26 w) := by
  dsimp only [dat26]

/-- What the body leaves, window by window (the proof data's `match` reduced by `dsimp`, never `rfl`). -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = out26_3 (iblk26 V c 0 t) (iblk26 V c 1 t) (iblk26 V c 2 t) := by dsimp only [dat26]

/-- Each input's current staging buffer holds its block at every point, fetched there or not (`before26_W_of`). -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point `t` (the body obligation's precondition, the windows one by one), -/
noncomputable def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
noncomputable def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' memrefs hold their blocks (`before26_W`), so `sound_kernel26` applies; the
    invariant and the core's `owes` pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ (grid26.coords t) _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation26 (c : Dev nD) : BodyObligation (dat26 (F := F) V c) (defs₀ (F := F)) Variants.none () Set.univ := fun t => by
  rw [bigSep_W26, bigSep_W26]
  exact sound_body26 V c t

end Regions

end Cert.Kernel.Fr

end
-- ==== Proof.K.Reg27.lean ====
/- Region 27 of @main (triangular chunk 27 of 32, `cc27__tri_kernel`, pipeline 27, grid [4] over the batch), at the
   TensorCore's buffer contents `V` when the region is entered. Four windows: 0 = the eight rows of the first product
   this chunk pairs off (block [1,8,768] of [4,8,768]), 1 = the 48 rows of the second product they are paired with
   (block [1,48,768] of [4,48,768]), 2 = the bias row ([1,768], one block, fetched at the first point and kept),
   3 = the chunk's result (block [1,356,768] of [4,356,768], 356 = 48 + 47 + … + 41, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out27_3`),
   and each input buffer is left as found: this is what the pipeline's proof data `dat27` record, and
   `body_obligation27` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 27 of @main: custom_call 27, `cc27__tri_kernel` (pipeline 27), at the entry contents `V` -/

/-! ## The windows' blocks -/

/-- Window `w`'s block at point `t`, read off its array as the region finds it (`V`). -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)
/-- The same of input window 1. -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)
/-- The same of input window 2 (the bias row: its one block is fetched at the first point only, and every later point
    finds it where the first left it). -/
theorem before27_2_of {c : Dev nD} (dat : Dat τ (Elt F) Unit ℕ (UR sig nD τ) ℕ cfg27 c) (hA : dat.A 2 = V c (Pipeline.arrRef spec27 2))
    (hafter : ∀ t, dat.after 2 t = iblk27 V c 2 t) (t : Fin cfg27.N) (d) : dat.before 2 t d = iblk27 V c 2 t :=
  (dat.before_in_eq_fetched 2 rfl (fun _ => rfl) (fun _ _ _ => rfl) (fun t => by rw [hafter]; unfold Dat.blockOf iblk27; rw [hA]; try rfl) t d).trans
    (by unfold Dat.fetched Dat.blockOf iblk27; rw [hA]; try rfl)

/-! ## The body's accesses -/

/-- Each staging buffer is read, and the result's written, whole. -/
abbrev r27_0 : Rect S1x8x768 := Rect.unit (s := S1x8x768) ![0, 0, 0] S1x8x768.size inb_S1x8x768_S1x8x768_0_0_0
abbrev r27_1 : Rect S1x48x768 := Rect.unit (s := S1x48x768) ![0, 0, 0] S1x48x768.size inb_S1x48x768_S1x48x768_0_0_0
abbrev r27_2 : Rect S1x768 := Rect.unit (s := S1x768) ![0, 0] S1x768.size inb_S1x768_S1x768_0_0
abbrev r27_3 : Rect S1x356x768 := Rect.unit (s := S1x356x768) ![0, 0, 0] S1x356x768.size inb_S1x356x768_S1x356x768_0_0_0

/-! ## What the body leaves in the output window's buffer -/

/-- Window 3's staging buffer after the body, from the input windows' blocks: its one store, of the whole block —
    the eight row-broadcast sums under tanh, concatenated (the payloads are the skeleton's, over the three loads). -/
noncomputable def out27_3 (x0 : Vec F S1x8x768 .f32) (x1 : Vec F S1x48x768 .f32) (x2 : Vec F S1x768 .f32) : Vec F S1x356x768 .f32 :=
  View.canon [⟨r27_3, k27_pay1 (k27_pay2 (View.ld x0 r27_0)) (k27_pay3 (View.ld x1 r27_1)) (k27_pay4 (View.ld x2 r27_2))
    (k27_pay5 (View.ld x0 r27_0) (View.ld x1 r27_1) (View.ld x2 r27_2)) (k27_pay6 (View.ld x0 r27_0) (View.ld x1 r27_1) (View.ld x2 r27_2))
    (k27_pay7 (View.ld x0 r27_0) (View.ld x1 r27_1) (View.ld x2 r27_2)) (k27_pay8 (View.ld x0 r27_0) (View.ld x1 r27_1) (View.ld x2 r27_2))
    (k27_pay9 (View.ld x0 r27_0) (View.ld x1 r27_1) (View.ld x2 r27_2)) (k27_pay10 (View.ld x0 r27_0) (View.ld x1 r27_1) (View.ld x2 r27_2))
    (k27_pay11 (View.ld x0 r27_0) (View.ld x1 r27_1))⟩]

/-- The store is of the whole block, so it covers the buffer (checked by evaluation). -/
theorem cover27_3 (p0 : Vec F S1x356x768 .f32) (y : S1x356x768.Idx) :
    ∃ pc ∈ ([⟨r27_3, p0⟩] : List (View.Piece (Elt F) S1x356x768 .f32)), y ∈ pc.1.set :=
  View.cover_of_tiled [⟨r27_3, p0⟩] S1x356x768.size (by rfl) y

/-! ## The body's triple -/

set_option maxHeartbeats 1000000 in
/-- The kernel body on whole staging memrefs, the inputs' at read contents `xW` and the output's at anything, runs to
    the continuation holding the inputs' as they were and the output's at `out27_3` of the inputs': the three loads of
    the first part, the load of the output's buffer (whatever it holds; the value is dropped), and the one store. -/
theorem sound_kernel27 (c : Dev nD) (E : Set ℕ) (i : grid27.Coords) (arg1 : Memref sig .tc .vmem S1x8x768 .f32) (harg1 : arg1.IsWhole) (arg2 : Memref sig .tc .vmem S1x48x768 .f32) (harg2 : arg2.IsWhole) (arg3 : Memref sig .tc .vmem S1x768 .f32) (harg3 : arg3.IsWhole) (arg4 : Memref sig .tc .vmem S1x356x768 .f32) (harg4 : arg4.IsWhole)
    (x0 : Vec F S1x8x768 .f32) (x1 : Vec F S1x48x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out27_3 x0 x1 x2)) -∗ K ⟨⟩))
      ⊢ wp frame (wpE (defs₀ (F := F)) Variants.none c none) E (cc27__tri_kernel i arg1 harg1 arg2 harg2 arg3 harg3 arg4 harg4) K := by
  simp only [cc27__tri_kernel_eq_skeleton]; unfold cc27__tri_kernel_skel
  simp only [k27_part1_eq_skeleton]; unfold k27_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover27_3 _)

/-! ## The pipeline's proof data -/

/-- The proof data of pipeline 27 on core `c`: the arrays as the region finds them (`V`); after the body at
    point `t` each input's buffer at its block and the output's at `out27_3` of the input blocks; the invariant the
    class's (`Pipeline.ΦA`: the scoped rest and the generator register, untouched); nothing owed; full shares. -/
noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => iblk27 V c 2 t
    | ⟨3, _⟩ => out27_3 (iblk27 V c 0 t) (iblk27 V c 1 t) (iblk27 V c 2 t)
  Φ _ := Pipeline.ΦA spec27 c
  q _ := fullShare
  owed _ := 0

/-- The proof data's arrays are the region-entry contents (the proof data's definition projected, by `dsimp`). -/
theorem A_eq27 (c : Dev nD) (w : Fin cfg27.W) : (dat27 V c).A w = V c (Pipeline.arrRef spec27 w) := by
  dsimp only [dat27]

/-- What the body leaves, window by window (the proof data's `match` reduced by `dsimp`, never `rfl`). -/
theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = iblk27 V c 2 t := by dsimp only [dat27]
theorem after27_3 (c : Dev nD) (t : Fin cfg27.N) : (dat27 V c).after 3 t = out27_3 (iblk27 V c 0 t) (iblk27 V c 1 t) (iblk27 V c 2 t) := by dsimp only [dat27]

/-- Each input's current staging buffer holds its block at every point, fetched there or not (`before27_W_of`). -/
theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d
theorem before27_2 (c : Dev nD) (t : Fin cfg27.N) (d) : (dat27 V c).before 2 t d = iblk27 V c 2 t :=
  before27_2_of V (dat27 V c) (A_eq27 V c 2) (after27_2 V c) t d

/-! ## The body obligation, at a generic point -/

/-- What the body is called with at point `t` (the body obligation's precondition, the windows one by one), -/
noncomputable def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d))
    ∗ (∃ d, owns (c : Thread nD τ) (st27_3 t) fullShare ((dat27 V c).before 3 t d)))

/-- and what it returns. -/
noncomputable def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t)
    ∗ owns (c : Thread nD τ) (st27_3 t) fullShare ((dat27 V c).after 3 t))

/-- The body at any point: the inputs' memrefs hold their blocks (`before27_W`), so `sound_kernel27` applies; the
    invariant and the core's `owes` pass through unread. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1, before27_2]
  rw [show (dat27 V c).Φ t.succ = (dat27 V c).Φ t.castSucc from rfl,
    show (dat27 V c).owesAt () t.succ = (dat27 V c).owesAt () t.castSucc from rfl,
    after27_0, after27_1, after27_2, after27_3]
  iintro ⟨HΦ, Ho, ⟨%d0, H0⟩, ⟨%d1, H1⟩, ⟨%d2, H2⟩, ⟨%d3, H3⟩⟩
  iapply (sound_kernel27 c Set.univ (grid27.coords t) _ _ _ _ _ _ _ _ (iblk27 V c 0 t) (iblk27 V c 1 t) (iblk27 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation27 (c : Dev nD) : BodyObligation (dat27 (F := F) V c) (defs₀ (F := F)) Variants.none () Set.univ := fun t => by
  rw [bigSep_W27, bigSep_W27]
  exact sound_body27 V c t

end Regions

end Cert.Kernel.Fr

end
-- ==== Proof.K.Reg28.lean ====
/- Region 28 of @main (triangular chunk 28 of 32, `cc28__tri_kernel`, pipeline 28, grid [4] over the batch), at the
   TensorCore's buffer contents `V` when the region is entered. Four windows: 0 = the eight rows of the first product
   this chunk pairs off (block [1,8,768] of [4,8,768]), 1 = the 40 rows of the second product they are paired with
   (block [1,40,768] of [4,40,768]), 2 = the bias row ([1,768], one block, fetched at the first point and kept),
   3 = the chunk's result (block [1,292,768] of [4,292,768], 292 = 40 + 39 + … + 33, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out28_3`),
   and each input buffer is left as found: this is what the pipeline's proof data `dat28` record, and
   `body_obligation28` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 28 of @main: custom_call 28, `cc28__tri_kernel` (pipeline 28), at the entry contents `V` -/

/-! ## The windows' blocks -/

/-- Window `w`'s block at point `t`, read off its array as the region finds it (`V`). -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)
/-- The same of input window 1. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)
/-- The same of input window 2 (the bias row: its one block is fetched at the first point only, and every later point
    finds it where the first left it). -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-! ## The body's accesses -/

/-- Each staging buffer is read, and the result's written, whole. -/
abbrev r28_0 : Rect S1x8x768 := Rect.unit (s := S1x8x768) ![0, 0, 0] S1x8x768.size inb_S1x8x768_S1x8x768_0_0_0
abbrev r28_1 : Rect S1x40x768 := Rect.unit (s := S1x40x768) ![0, 0, 0] S1x40x768.size inb_S1x40x768_S1x40x768_0_0_0
abbrev r28_2 : Rect S1x768 := Rect.unit (s := S1x768) ![0, 0] S1x768.size inb_S1x768_S1x768_0_0
abbrev r28_3 : Rect S1x292x768 := Rect.unit (s := S1x292x768) ![0, 0, 0] S1x292x768.size inb_S1x292x768_S1x292x768_0_0_0

/-! ## What the body leaves in the output window's buffer -/

/-- Window 3's staging buffer after the body, from the input windows' blocks: its one store, of the whole block —
    the eight row-broadcast sums under tanh, concatenated (the payloads are the skeleton's, over the three loads). -/
noncomputable def out28_3 (x0 : Vec F S1x8x768 .f32) (x1 : Vec F S1x40x768 .f32) (x2 : Vec F S1x768 .f32) : Vec F S1x292x768 .f32 :=
  View.canon [⟨r28_3, k28_pay1 (k28_pay2 (View.ld x0 r28_0)) (k28_pay3 (View.ld x1 r28_1)) (k28_pay4 (View.ld x2 r28_2))
    (k28_pay5 (View.ld x0 r28_0) (View.ld x1 r28_1) (View.ld x2 r28_2)) (k28_pay6 (View.ld x0 r28_0) (View.ld x1 r28_1) (View.ld x2 r28_2))
    (k28_pay7 (View.ld x0 r28_0) (View.ld x1 r28_1) (View.ld x2 r28_2)) (k28_pay8 (View.ld x0 r28_0) (View.ld x1 r28_1) (View.ld x2 r28_2))
    (k28_pay9 (View.ld x0 r28_0) (View.ld x1 r28_1) (View.ld x2 r28_2)) (k28_pay10 (View.ld x0 r28_0) (View.ld x1 r28_1) (View.ld x2 r28_2))
    (k28_pay11 (View.ld x0 r28_0) (View.ld x1 r28_1))⟩]

/-- The store is of the whole block, so it covers the buffer (checked by evaluation). -/
theorem cover28_3 (p0 : Vec F S1x292x768 .f32) (y : S1x292x768.Idx) :
    ∃ pc ∈ ([⟨r28_3, p0⟩] : List (View.Piece (Elt F) S1x292x768 .f32)), y ∈ pc.1.set :=
  View.cover_of_tiled [⟨r28_3, p0⟩] S1x292x768.size (by rfl) y

/-! ## The body's triple -/

set_option maxHeartbeats 1000000 in
/-- The kernel body on whole staging memrefs, the inputs' at read contents `xW` and the output's at anything, runs to
    the continuation holding the inputs' as they were and the output's at `out28_3` of the inputs': the three loads of
    the first part, the load of the output's buffer (whatever it holds; the value is dropped), and the one store. -/
theorem sound_kernel28 (c : Dev nD) (E : Set ℕ) (i : grid28.Coords) (arg1 : Memref sig .tc .vmem S1x8x768 .f32) (harg1 : arg1.IsWhole) (arg2 : Memref sig .tc .vmem S1x40x768 .f32) (harg2 : arg2.IsWhole) (arg3 : Memref sig .tc .vmem S1x768 .f32) (harg3 : arg3.IsWhole) (arg4 : Memref sig .tc .vmem S1x292x768 .f32) (harg4 : arg4.IsWhole)
    (x0 : Vec F S1x8x768 .f32) (x1 : Vec F S1x40x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out28_3 x0 x1 x2)) -∗ K ⟨⟩))
      ⊢ wp frame (wpE (defs₀ (F := F)) Variants.none c none) E (cc28__tri_kernel i arg1 harg1 arg2 harg2 arg3 harg3 arg4 harg4) K := by
  simp only [cc28__tri_kernel_eq_skeleton]; unfold cc28__tri_kernel_skel
  simp only [k28_part1_eq_skeleton]; unfold k28_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover28_3 _)

/-! ## The pipeline's proof data -/

/-- The proof data of pipeline 28 on core `c`: the arrays as the region finds them (`V`); after the body at
    point `t` each input's buffer at its block and the output's at `out28_3` of the input blocks; the invariant the
    class's (`Pipeline.ΦA`: the scoped rest and the generator register, untouched); nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => out28_3 (iblk28 V c 0 t) (iblk28 V c 1 t) (iblk28 V c 2 t)
  Φ _ := Pipeline.ΦA spec28 c
  q _ := fullShare
  owed _ := 0

/-- The proof data's arrays are the region-entry contents (the proof data's definition projected, by `dsimp`). -/
theorem A_eq28 (c : Dev nD) (w : Fin cfg28.W) : (dat28 V c).A w = V c (Pipeline.arrRef spec28 w) := by
  dsimp only [dat28]

/-- What the body leaves, window by window (the proof data's `match` reduced by `dsimp`, never `rfl`). -/
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = out28_3 (iblk28 V c 0 t) (iblk28 V c 1 t) (iblk28 V c 2 t) := by dsimp only [dat28]

/-- Each input's current staging buffer holds its block at every point, fetched there or not (`before28_W_of`). -/
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d

/-! ## The body obligation, at a generic point -/

/-- What the body is called with at point `t` (the body obligation's precondition, the windows one by one), -/
noncomputable def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d)))

/-- and what it returns. -/
noncomputable def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t))

/-- The body at any point: the inputs' memrefs hold their blocks (`before28_W`), so `sound_kernel28` applies; the
    invariant and the core's `owes` pass through unread. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2]
  rw [show (dat28 V c).Φ t.succ = (dat28 V c).Φ t.castSucc from rfl,
    show (dat28 V c).owesAt () t.succ = (dat28 V c).owesAt () t.castSucc from rfl,
    after28_0, after28_1, after28_2, after28_3]
  iintro ⟨HΦ, Ho, ⟨%d0, H0⟩, ⟨%d1, H1⟩, ⟨%d2, H2⟩, ⟨%d3, H3⟩⟩
  iapply (sound_kernel28 c Set.univ (grid28.coords t) _ _ _ _ _ _ _ _ (iblk28 V c 0 t) (iblk28 V c 1 t) (iblk28 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation28 (c : Dev nD) : BodyObligation (dat28 (F := F) V c) (defs₀ (F := F)) Variants.none () Set.univ := fun t => by
  rw [bigSep_W28, bigSep_W28]
  exact sound_body28 V c t

end Regions

end Cert.Kernel.Fr

end
-- ==== Proof.K.Reg29.lean ====
/- Region 29 of @main (triangular chunk 29 of 32, `cc29__tri_kernel`, pipeline 29, grid [4] over the batch), at the
   TensorCore's buffer contents `V` when the region is entered. Four windows: 0 = the eight rows of the first product
   this chunk pairs off (block [1,8,768] of [4,8,768]), 1 = the 32 rows of the second product they are paired with
   (block [1,32,768] of [4,32,768]), 2 = the bias row ([1,768], one block, fetched at the first point and kept),
   3 = the chunk's result (block [1,228,768] of [4,228,768], 228 = 32 + 31 + … + 25, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out29_3`),
   and each input buffer is left as found: this is what the pipeline's proof data `dat29` record, and
   `body_obligation29` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 29 of @main: custom_call 29, `cc29__tri_kernel` (pipeline 29), at the entry contents `V` -/

/-! ## The windows' blocks -/

/-- Window `w`'s block at point `t`, read off its array as the region finds it (`V`). -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)
/-- The same of input window 1. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)
/-- The same of input window 2 (the bias row: its one block is fetched at the first point only, and every later point
    finds it where the first left it). -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses -/

/-- Each staging buffer is read, and the result's written, whole. -/
abbrev r29_0 : Rect S1x8x768 := Rect.unit (s := S1x8x768) ![0, 0, 0] S1x8x768.size inb_S1x8x768_S1x8x768_0_0_0
abbrev r29_1 : Rect S1x32x768 := Rect.unit (s := S1x32x768) ![0, 0, 0] S1x32x768.size inb_S1x32x768_S1x32x768_0_0_0
abbrev r29_2 : Rect S1x768 := Rect.unit (s := S1x768) ![0, 0] S1x768.size inb_S1x768_S1x768_0_0
abbrev r29_3 : Rect S1x228x768 := Rect.unit (s := S1x228x768) ![0, 0, 0] S1x228x768.size inb_S1x228x768_S1x228x768_0_0_0

/-! ## What the body leaves in the output window's buffer -/

/-- Window 3's staging buffer after the body, from the input windows' blocks: its one store, of the whole block —
    the eight row-broadcast sums under tanh, concatenated (the payloads are the skeleton's, over the three loads). -/
noncomputable def out29_3 (x0 : Vec F S1x8x768 .f32) (x1 : Vec F S1x32x768 .f32) (x2 : Vec F S1x768 .f32) : Vec F S1x228x768 .f32 :=
  View.canon [⟨r29_3, k29_pay1 (k29_pay2 (View.ld x0 r29_0)) (k29_pay3 (View.ld x1 r29_1)) (k29_pay4 (View.ld x2 r29_2))
    (k29_pay5 (View.ld x0 r29_0) (View.ld x1 r29_1) (View.ld x2 r29_2)) (k29_pay6 (View.ld x0 r29_0) (View.ld x1 r29_1) (View.ld x2 r29_2))
    (k29_pay7 (View.ld x0 r29_0) (View.ld x1 r29_1) (View.ld x2 r29_2)) (k29_pay8 (View.ld x0 r29_0) (View.ld x1 r29_1) (View.ld x2 r29_2))
    (k29_pay9 (View.ld x0 r29_0) (View.ld x1 r29_1) (View.ld x2 r29_2)) (k29_pay10 (View.ld x0 r29_0) (View.ld x1 r29_1) (View.ld x2 r29_2))
    (k29_pay11 (View.ld x0 r29_0) (View.ld x1 r29_1))⟩]

/-- The store is of the whole block, so it covers the buffer (checked by evaluation). -/
theorem cover29_3 (p0 : Vec F S1x228x768 .f32) (y : S1x228x768.Idx) :
    ∃ pc ∈ ([⟨r29_3, p0⟩] : List (View.Piece (Elt F) S1x228x768 .f32)), y ∈ pc.1.set :=
  View.cover_of_tiled [⟨r29_3, p0⟩] S1x228x768.size (by rfl) y

/-! ## The body's triple -/

set_option maxHeartbeats 1000000 in
/-- The kernel body on whole staging memrefs, the inputs' at read contents `xW` and the output's at anything, runs to
    the continuation holding the inputs' as they were and the output's at `out29_3` of the inputs': the three loads of
    the first part, the load of the output's buffer (whatever it holds; the value is dropped), and the one store. -/
theorem sound_kernel29 (c : Dev nD) (E : Set ℕ) (i : grid29.Coords) (arg1 : Memref sig .tc .vmem S1x8x768 .f32) (harg1 : arg1.IsWhole) (arg2 : Memref sig .tc .vmem S1x32x768 .f32) (harg2 : arg2.IsWhole) (arg3 : Memref sig .tc .vmem S1x768 .f32) (harg3 : arg3.IsWhole) (arg4 : Memref sig .tc .vmem S1x228x768 .f32) (harg4 : arg4.IsWhole)
    (x0 : Vec F S1x8x768 .f32) (x1 : Vec F S1x32x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out29_3 x0 x1 x2)) -∗ K ⟨⟩))
      ⊢ wp frame (wpE (defs₀ (F := F)) Variants.none c none) E (cc29__tri_kernel i arg1 harg1 arg2 harg2 arg3 harg3 arg4 harg4) K := by
  simp only [cc29__tri_kernel_eq_skeleton]; unfold cc29__tri_kernel_skel
  simp only [k29_part1_eq_skeleton]; unfold k29_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover29_3 _)

/-! ## The pipeline's proof data -/

/-- The proof data of pipeline 29 on core `c`: the arrays as the region finds them (`V`); after the body at
    point `t` each input's buffer at its block and the output's at `out29_3` of the input blocks; the invariant the
    class's (`Pipeline.ΦA`: the scoped rest and the generator register, untouched); nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => out29_3 (iblk29 V c 0 t) (iblk29 V c 1 t) (iblk29 V c 2 t)
  Φ _ := Pipeline.ΦA spec29 c
  q _ := fullShare
  owed _ := 0

/-- The proof data's arrays are the region-entry contents (the proof data's definition projected, by `dsimp`). -/
theorem A_eq29 (c : Dev nD) (w : Fin cfg29.W) : (dat29 V c).A w = V c (Pipeline.arrRef spec29 w) := by
  dsimp only [dat29]

/-- What the body leaves, window by window (the proof data's `match` reduced by `dsimp`, never `rfl`). -/
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = out29_3 (iblk29 V c 0 t) (iblk29 V c 1 t) (iblk29 V c 2 t) := by dsimp only [dat29]

/-- Each input's current staging buffer holds its block at every point, fetched there or not (`before29_W_of`). -/
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d

/-! ## The body obligation, at a generic point -/

/-- What the body is called with at point `t` (the body obligation's precondition, the windows one by one), -/
noncomputable def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d)))

/-- and what it returns. -/
noncomputable def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t))

/-- The body at any point: the inputs' memrefs hold their blocks (`before29_W`), so `sound_kernel29` applies; the
    invariant and the core's `owes` pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2]
  rw [show (dat29 V c).Φ t.succ = (dat29 V c).Φ t.castSucc from rfl,
    show (dat29 V c).owesAt () t.succ = (dat29 V c).owesAt () t.castSucc from rfl,
    after29_0, after29_1, after29_2, after29_3]
  iintro ⟨HΦ, Ho, ⟨%d0, H0⟩, ⟨%d1, H1⟩, ⟨%d2, H2⟩, ⟨%d3, H3⟩⟩
  iapply (sound_kernel29 c Set.univ (grid29.coords t) _ _ _ _ _ _ _ _ (iblk29 V c 0 t) (iblk29 V c 1 t) (iblk29 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation29 (c : Dev nD) : BodyObligation (dat29 (F := F) V c) (defs₀ (F := F)) Variants.none () Set.univ := fun t => by
  rw [bigSep_W29, bigSep_W29]
  exact sound_body29 V c t

end Regions

end Cert.Kernel.Fr

end
-- ==== Proof.K.Reg30.lean ====
/- Region 30 of @main (triangular chunk 30 of 32, `cc30__tri_kernel`, pipeline 30, grid [4] over the batch), at the
   TensorCore's buffer contents `V` when the region is entered. Four windows: 0 = the eight rows of the first product
   this chunk pairs off (block [1,8,768] of [4,8,768]), 1 = the 24 rows of the second product they are paired with
   (block [1,24,768] of [4,24,768]), 2 = the bias row ([1,768], one block, fetched at the first point and kept),
   3 = the chunk's result (block [1,164,768] of [4,164,768], 164 = 24 + 23 + … + 17, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out30_3`),
   and each input buffer is left as found: this is what the pipeline's proof data `dat30` record, and
   `body_obligation30` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 30 of @main: custom_call 30, `cc30__tri_kernel` (pipeline 30), at the entry contents `V` -/

/-! ## The windows' blocks -/

/-- Window `w`'s block at point `t`, read off its array as the region finds it (`V`). -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)
/-- The same of input window 1. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)
/-- The same of input window 2 (the bias row: its one block is fetched at the first point only, and every later point
    finds it where the first left it). -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's accesses -/

/-- Each staging buffer is read, and the result's written, whole. -/
abbrev r30_0 : Rect S1x8x768 := Rect.unit (s := S1x8x768) ![0, 0, 0] S1x8x768.size inb_S1x8x768_S1x8x768_0_0_0
abbrev r30_1 : Rect S1x24x768 := Rect.unit (s := S1x24x768) ![0, 0, 0] S1x24x768.size inb_S1x24x768_S1x24x768_0_0_0
abbrev r30_2 : Rect S1x768 := Rect.unit (s := S1x768) ![0, 0] S1x768.size inb_S1x768_S1x768_0_0
abbrev r30_3 : Rect S1x164x768 := Rect.unit (s := S1x164x768) ![0, 0, 0] S1x164x768.size inb_S1x164x768_S1x164x768_0_0_0

/-! ## What the body leaves in the output window's buffer -/

/-- Window 3's staging buffer after the body, from the input windows' blocks: its one store, of the whole block —
    the eight row-broadcast sums under tanh, concatenated (the payloads are the skeleton's, over the three loads). -/
noncomputable def out30_3 (x0 : Vec F S1x8x768 .f32) (x1 : Vec F S1x24x768 .f32) (x2 : Vec F S1x768 .f32) : Vec F S1x164x768 .f32 :=
  View.canon [⟨r30_3, k30_pay1 (k30_pay2 (View.ld x0 r30_0)) (k30_pay3 (View.ld x1 r30_1)) (k30_pay4 (View.ld x2 r30_2))
    (k30_pay5 (View.ld x0 r30_0) (View.ld x1 r30_1) (View.ld x2 r30_2)) (k30_pay6 (View.ld x0 r30_0) (View.ld x1 r30_1) (View.ld x2 r30_2))
    (k30_pay7 (View.ld x0 r30_0) (View.ld x1 r30_1) (View.ld x2 r30_2)) (k30_pay8 (View.ld x0 r30_0) (View.ld x1 r30_1) (View.ld x2 r30_2))
    (k30_pay9 (View.ld x0 r30_0) (View.ld x1 r30_1) (View.ld x2 r30_2)) (k30_pay10 (View.ld x0 r30_0) (View.ld x1 r30_1) (View.ld x2 r30_2))
    (k30_pay11 (View.ld x0 r30_0) (View.ld x1 r30_1))⟩]

/-- The store is of the whole block, so it covers the buffer (checked by evaluation). -/
theorem cover30_3 (p0 : Vec F S1x164x768 .f32) (y : S1x164x768.Idx) :
    ∃ pc ∈ ([⟨r30_3, p0⟩] : List (View.Piece (Elt F) S1x164x768 .f32)), y ∈ pc.1.set :=
  View.cover_of_tiled [⟨r30_3, p0⟩] S1x164x768.size (by rfl) y

/-! ## The body's triple -/

set_option maxHeartbeats 1000000 in
/-- The kernel body on whole staging memrefs, the inputs' at read contents `xW` and the output's at anything, runs to
    the continuation holding the inputs' as they were and the output's at `out30_3` of the inputs': the three loads of
    the first part, the load of the output's buffer (whatever it holds; the value is dropped), and the one store. -/
theorem sound_kernel30 (c : Dev nD) (E : Set ℕ) (i : grid30.Coords) (arg1 : Memref sig .tc .vmem S1x8x768 .f32) (harg1 : arg1.IsWhole) (arg2 : Memref sig .tc .vmem S1x24x768 .f32) (harg2 : arg2.IsWhole) (arg3 : Memref sig .tc .vmem S1x768 .f32) (harg3 : arg3.IsWhole) (arg4 : Memref sig .tc .vmem S1x164x768 .f32) (harg4 : arg4.IsWhole)
    (x0 : Vec F S1x8x768 .f32) (x1 : Vec F S1x24x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out30_3 x0 x1 x2)) -∗ K ⟨⟩))
      ⊢ wp frame (wpE (defs₀ (F := F)) Variants.none c none) E (cc30__tri_kernel i arg1 harg1 arg2 harg2 arg3 harg3 arg4 harg4) K := by
  simp only [cc30__tri_kernel_eq_skeleton]; unfold cc30__tri_kernel_skel
  simp only [k30_part1_eq_skeleton]; unfold k30_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover30_3 _)

/-! ## The pipeline's proof data -/

/-- The proof data of pipeline 30 on core `c`: the arrays as the region finds them (`V`); after the body at
    point `t` each input's buffer at its block and the output's at `out30_3` of the input blocks; the invariant the
    class's (`Pipeline.ΦA`: the scoped rest and the generator register, untouched); nothing owed; full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => out30_3 (iblk30 V c 0 t) (iblk30 V c 1 t) (iblk30 V c 2 t)
  Φ _ := Pipeline.ΦA spec30 c
  q _ := fullShare
  owed _ := 0

/-- The proof data's arrays are the region-entry contents (the proof data's definition projected, by `dsimp`). -/
theorem A_eq30 (c : Dev nD) (w : Fin cfg30.W) : (dat30 V c).A w = V c (Pipeline.arrRef spec30 w) := by
  dsimp only [dat30]

/-- What the body leaves, window by window (the proof data's `match` reduced by `dsimp`, never `rfl`). -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = out30_3 (iblk30 V c 0 t) (iblk30 V c 1 t) (iblk30 V c 2 t) := by dsimp only [dat30]

/-- Each input's current staging buffer holds its block at every point, fetched there or not (`before30_W_of`). -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point `t` (the body obligation's precondition, the windows one by one), -/
noncomputable def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d))
    ∗ (∃ d, owns (c : Thread nD τ) (st30_3 t) fullShare ((dat30 V c).before 3 t d)))

/-- and what it returns. -/
noncomputable def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t)
    ∗ owns (c : Thread nD τ) (st30_3 t) fullShare ((dat30 V c).after 3 t))

/-- The body at any point: the inputs' memrefs hold their blocks (`before30_W`), so `sound_kernel30` applies; the
    invariant and the core's `owes` pass through unread. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1, before30_2]
  rw [show (dat30 V c).Φ t.succ = (dat30 V c).Φ t.castSucc from rfl,
    show (dat30 V c).owesAt () t.succ = (dat30 V c).owesAt () t.castSucc from rfl,
    after30_0, after30_1, after30_2, after30_3]
  iintro ⟨HΦ, Ho, ⟨%d0, H0⟩, ⟨%d1, H1⟩, ⟨%d2, H2⟩, ⟨%d3, H3⟩⟩
  iapply (sound_kernel30 c Set.univ (grid30.coords t) _ _ _ _ _ _ _ _ (iblk30 V c 0 t) (iblk30 V c 1 t) (iblk30 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation30 (c : Dev nD) : BodyObligation (dat30 (F := F) V c) (defs₀ (F := F)) Variants.none () Set.univ := fun t => by
  rw [bigSep_W30, bigSep_W30]
  exact sound_body30 V c t

end Regions

end Cert.Kernel.Fr

end
-- ==== Proof.K.Reg31.lean ====
/- Region 31 of @main (triangular chunk 31 of 32, `cc31__tri_kernel`, pipeline 31, grid [4] over the batch), at the
   TensorCore's buffer contents `V` when the region is entered. Four windows: 0 = the eight rows of the first product
   this chunk pairs off (block [1,8,768] of [4,8,768]), 1 = the 16 rows of the second product they are paired with
   (block [1,16,768] of [4,16,768]), 2 = the bias row ([1,768], one block, fetched at the first point and kept),
   3 = the chunk's result (block [1,100,768] of [4,100,768], 100 = 16 + 15 + … + 9, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out31_3`),
   and each input buffer is left as found: this is what the pipeline's proof data `dat31` record, and
   `body_obligation31` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 31 of @main: custom_call 31, `cc31__tri_kernel` (pipeline 31), at the entry contents `V` -/

/-! ## The windows' blocks -/

/-- Window `w`'s block at point `t`, read off its array as the region finds it (`V`). -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)
/-- The same of input window 1. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)
/-- The same of input window 2 (the bias row: its one block is fetched at the first point only, and every later point
    finds it where the first left it). -/
theorem before31_2_of {c : Dev nD} (dat : Dat τ (Elt F) Unit ℕ (UR sig nD τ) ℕ cfg31 c) (hA : dat.A 2 = V c (Pipeline.arrRef spec31 2))
    (hafter : ∀ t, dat.after 2 t = iblk31 V c 2 t) (t : Fin cfg31.N) (d) : dat.before 2 t d = iblk31 V c 2 t :=
  (dat.before_in_eq_fetched 2 rfl (fun _ => rfl) (fun _ _ _ => rfl) (fun t => by rw [hafter]; unfold Dat.blockOf iblk31; rw [hA]; try rfl) t d).trans
    (by unfold Dat.fetched Dat.blockOf iblk31; rw [hA]; try rfl)

/-! ## The body's accesses -/

/-- Each staging buffer is read, and the result's written, whole. -/
abbrev r31_0 : Rect S1x8x768 := Rect.unit (s := S1x8x768) ![0, 0, 0] S1x8x768.size inb_S1x8x768_S1x8x768_0_0_0
abbrev r31_1 : Rect S1x16x768 := Rect.unit (s := S1x16x768) ![0, 0, 0] S1x16x768.size inb_S1x16x768_S1x16x768_0_0_0
abbrev r31_2 : Rect S1x768 := Rect.unit (s := S1x768) ![0, 0] S1x768.size inb_S1x768_S1x768_0_0
abbrev r31_3 : Rect S1x100x768 := Rect.unit (s := S1x100x768) ![0, 0, 0] S1x100x768.size inb_S1x100x768_S1x100x768_0_0_0

/-! ## What the body leaves in the output window's buffer -/

/-- Window 3's staging buffer after the body, from the input windows' blocks: its one store, of the whole block —
    the eight row-broadcast sums under tanh, concatenated (the payloads are the skeleton's, over the three loads). -/
noncomputable def out31_3 (x0 : Vec F S1x8x768 .f32) (x1 : Vec F S1x16x768 .f32) (x2 : Vec F S1x768 .f32) : Vec F S1x100x768 .f32 :=
  View.canon [⟨r31_3, k31_pay1 (k31_pay2 (View.ld x0 r31_0)) (k31_pay3 (View.ld x1 r31_1)) (k31_pay4 (View.ld x2 r31_2))
    (k31_pay5 (View.ld x0 r31_0) (View.ld x1 r31_1) (View.ld x2 r31_2)) (k31_pay6 (View.ld x0 r31_0) (View.ld x1 r31_1) (View.ld x2 r31_2))
    (k31_pay7 (View.ld x0 r31_0) (View.ld x1 r31_1) (View.ld x2 r31_2)) (k31_pay8 (View.ld x0 r31_0) (View.ld x1 r31_1) (View.ld x2 r31_2))
    (k31_pay9 (View.ld x0 r31_0) (View.ld x1 r31_1) (View.ld x2 r31_2)) (k31_pay10 (View.ld x0 r31_0) (View.ld x1 r31_1) (View.ld x2 r31_2))
    (k31_pay11 (View.ld x0 r31_0) (View.ld x1 r31_1))⟩]

/-- The store is of the whole block, so it covers the buffer (checked by evaluation). -/
theorem cover31_3 (p0 : Vec F S1x100x768 .f32) (y : S1x100x768.Idx) :
    ∃ pc ∈ ([⟨r31_3, p0⟩] : List (View.Piece (Elt F) S1x100x768 .f32)), y ∈ pc.1.set :=
  View.cover_of_tiled [⟨r31_3, p0⟩] S1x100x768.size (by rfl) y

/-! ## The body's triple -/

set_option maxHeartbeats 1000000 in
/-- The kernel body on whole staging memrefs, the inputs' at read contents `xW` and the output's at anything, runs to
    the continuation holding the inputs' as they were and the output's at `out31_3` of the inputs': the three loads of
    the first part, the load of the output's buffer (whatever it holds; the value is dropped), and the one store. -/
theorem sound_kernel31 (c : Dev nD) (E : Set ℕ) (i : grid31.Coords) (arg1 : Memref sig .tc .vmem S1x8x768 .f32) (harg1 : arg1.IsWhole) (arg2 : Memref sig .tc .vmem S1x16x768 .f32) (harg2 : arg2.IsWhole) (arg3 : Memref sig .tc .vmem S1x768 .f32) (harg3 : arg3.IsWhole) (arg4 : Memref sig .tc .vmem S1x100x768 .f32) (harg4 : arg4.IsWhole)
    (x0 : Vec F S1x8x768 .f32) (x1 : Vec F S1x16x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out31_3 x0 x1 x2)) -∗ K ⟨⟩))
      ⊢ wp frame (wpE (defs₀ (F := F)) Variants.none c none) E (cc31__tri_kernel i arg1 harg1 arg2 harg2 arg3 harg3 arg4 harg4) K := by
  simp only [cc31__tri_kernel_eq_skeleton]; unfold cc31__tri_kernel_skel
  simp only [k31_part1_eq_skeleton]; unfold k31_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover31_3 _)

/-! ## The pipeline's proof data -/

/-- The proof data of pipeline 31 on core `c`: the arrays as the region finds them (`V`); after the body at
    point `t` each input's buffer at its block and the output's at `out31_3` of the input blocks; the invariant the
    class's (`Pipeline.ΦA`: the scoped rest and the generator register, untouched); nothing owed; full shares. -/
noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => iblk31 V c 2 t
    | ⟨3, _⟩ => out31_3 (iblk31 V c 0 t) (iblk31 V c 1 t) (iblk31 V c 2 t)
  Φ _ := Pipeline.ΦA spec31 c
  q _ := fullShare
  owed _ := 0

/-- The proof data's arrays are the region-entry contents (the proof data's definition projected, by `dsimp`). -/
theorem A_eq31 (c : Dev nD) (w : Fin cfg31.W) : (dat31 V c).A w = V c (Pipeline.arrRef spec31 w) := by
  dsimp only [dat31]

/-- What the body leaves, window by window (the proof data's `match` reduced by `dsimp`, never `rfl`). -/
theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = iblk31 V c 2 t := by dsimp only [dat31]
theorem after31_3 (c : Dev nD) (t : Fin cfg31.N) : (dat31 V c).after 3 t = out31_3 (iblk31 V c 0 t) (iblk31 V c 1 t) (iblk31 V c 2 t) := by dsimp only [dat31]

/-- Each input's current staging buffer holds its block at every point, fetched there or not (`before31_W_of`). -/
theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d
theorem before31_2 (c : Dev nD) (t : Fin cfg31.N) (d) : (dat31 V c).before 2 t d = iblk31 V c 2 t :=
  before31_2_of V (dat31 V c) (A_eq31 V c 2) (after31_2 V c) t d

/-! ## The body obligation, at a generic point -/

/-- What the body is called with at point `t` (the body obligation's precondition, the windows one by one), -/
noncomputable def bodyPre31 (c : Dev nD) (t : Fin cfg31.N) : sProp 𝕄 :=
  iprop((dat31 V c).Φ t.castSucc ∗ (dat31 V c).owesAt () t.castSucc
    ∗ (∃ d, owns (c : Thread nD τ) (st31_0 t) fullShare ((dat31 V c).before 0 t d))
    ∗ (∃ d, owns (c : Thread nD τ) (st31_1 t) fullShare ((dat31 V c).before 1 t d))
    ∗ (∃ d, owns (c : Thread nD τ) (st31_2 t) fullShare ((dat31 V c).before 2 t d))
    ∗ (∃ d, owns (c : Thread nD τ) (st31_3 t) fullShare ((dat31 V c).before 3 t d)))

/-- and what it returns. -/
noncomputable def bodyPost31 (c : Dev nD) (t : Fin cfg31.N) : sProp 𝕄 :=
  iprop((dat31 V c).Φ t.succ ∗ (dat31 V c).owesAt () t.succ
    ∗ owns (c : Thread nD τ) (st31_0 t) fullShare ((dat31 V c).after 0 t)
    ∗ owns (c : Thread nD τ) (st31_1 t) fullShare ((dat31 V c).after 1 t)
    ∗ owns (c : Thread nD τ) (st31_2 t) fullShare ((dat31 V c).after 2 t)
    ∗ owns (c : Thread nD τ) (st31_3 t) fullShare ((dat31 V c).after 3 t))

/-- The body at any point: the inputs' memrefs hold their blocks (`before31_W`), so `sound_kernel31` applies; the
    invariant and the core's `owes` pass through unread. -/
theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1, before31_2]
  rw [show (dat31 V c).Φ t.succ = (dat31 V c).Φ t.castSucc from rfl,
    show (dat31 V c).owesAt () t.succ = (dat31 V c).owesAt () t.castSucc from rfl,
    after31_0, after31_1, after31_2, after31_3]
  iintro ⟨HΦ, Ho, ⟨%d0, H0⟩, ⟨%d1, H1⟩, ⟨%d2, H2⟩, ⟨%d3, H3⟩⟩
  iapply (sound_kernel31 c Set.univ (grid31.coords t) _ _ _ _ _ _ _ _ (iblk31 V c 0 t) (iblk31 V c 1 t) (iblk31 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation31 (c : Dev nD) : BodyObligation (dat31 (F := F) V c) (defs₀ (F := F)) Variants.none () Set.univ := fun t => by
  rw [bigSep_W31, bigSep_W31]
  exact sound_body31 V c t

end Regions

end Cert.Kernel.Fr

end
-- ==== Proof.K.Reg32.lean ====
/- Region 32 of @main (triangular chunk 32 of 32, `cc32__tri_kernel`, pipeline 32, grid [4] over the batch), at the
   TensorCore's buffer contents `V` when the region is entered. Four windows: 0 = the eight rows of the first product
   this chunk pairs off (block [1,8,768] of [4,8,768]), 1 = the 8 rows of the second product they are paired with
   (block [1,8,768] of [4,8,768]), 2 = the bias row ([1,768], one block, fetched at the first point and kept),
   3 = the chunk's result (block [1,36,768] of [4,36,768], 36 = 8 + 7 + … + 1, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out32_3`),
   and each input buffer is left as found: this is what the pipeline's proof data `dat32` record, and
   `body_obligation32` is the body's triple at every grid point against them. -/
import proofs.«116342_j30605936951494_1_alg».proof.Proof.Gen.Kernel.Launch
import proofs.«116342_j30605936951494_1_alg».proof.Proof.Gen.Kernel.Skeleton
import proofs.«116342_j30605936951494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 32 of @main: custom_call 32, `cc32__tri_kernel` (pipeline 32), at the entry contents `V` -/

/-! ## The windows' blocks -/

/-- Window `w`'s block at point `t`, read off its array as the region finds it (`V`). -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)
/-- The same of input window 1. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)
/-- The same of input window 2 (the bias row: its one block is fetched at the first point only, and every later point
    finds it where the first left it). -/
theorem before32_2_of {c : Dev nD} (dat : Dat τ (Elt F) Unit ℕ (UR sig nD τ) ℕ cfg32 c) (hA : dat.A 2 = V c (Pipeline.arrRef spec32 2))
    (hafter : ∀ t, dat.after 2 t = iblk32 V c 2 t) (t : Fin cfg32.N) (d) : dat.before 2 t d = iblk32 V c 2 t :=
  (dat.before_in_eq_fetched 2 rfl (fun _ => rfl) (fun _ _ _ => rfl) (fun t => by rw [hafter]; unfold Dat.blockOf iblk32; rw [hA]; try rfl) t d).trans
    (by unfold Dat.fetched Dat.blockOf iblk32; rw [hA]; try rfl)

/-! ## The body's accesses -/

/-- Each staging buffer is read, and the result's written, whole. -/
abbrev r32_0 : Rect S1x8x768 := Rect.unit (s := S1x8x768) ![0, 0, 0] S1x8x768.size inb_S1x8x768_S1x8x768_0_0_0
abbrev r32_1 : Rect S1x8x768 := Rect.unit (s := S1x8x768) ![0, 0, 0] S1x8x768.size inb_S1x8x768_S1x8x768_0_0_0
abbrev r32_2 : Rect S1x768 := Rect.unit (s := S1x768) ![0, 0] S1x768.size inb_S1x768_S1x768_0_0
abbrev r32_3 : Rect S1x36x768 := Rect.unit (s := S1x36x768) ![0, 0, 0] S1x36x768.size inb_S1x36x768_S1x36x768_0_0_0

/-! ## What the body leaves in the output window's buffer -/

/-- Window 3's staging buffer after the body, from the input windows' blocks: its one store, of the whole block —
    the eight row-broadcast sums under tanh, concatenated (the payloads are the skeleton's, over the three loads). -/
noncomputable def out32_3 (x0 : Vec F S1x8x768 .f32) (x1 : Vec F S1x8x768 .f32) (x2 : Vec F S1x768 .f32) : Vec F S1x36x768 .f32 :=
  View.canon [⟨r32_3, k32_pay1 (k32_pay2 (View.ld x0 r32_0)) (k32_pay3 (View.ld x1 r32_1)) (k32_pay4 (View.ld x2 r32_2))
    (k32_pay5 (View.ld x0 r32_0) (View.ld x1 r32_1) (View.ld x2 r32_2)) (k32_pay6 (View.ld x0 r32_0) (View.ld x1 r32_1) (View.ld x2 r32_2))
    (k32_pay7 (View.ld x0 r32_0) (View.ld x1 r32_1) (View.ld x2 r32_2)) (k32_pay8 (View.ld x0 r32_0) (View.ld x1 r32_1) (View.ld x2 r32_2))
    (k32_pay9 (View.ld x0 r32_0) (View.ld x1 r32_1) (View.ld x2 r32_2)) (k32_pay10 (View.ld x0 r32_0) (View.ld x1 r32_1) (View.ld x2 r32_2))
    (k32_pay11 (View.ld x0 r32_0) (View.ld x1 r32_1))⟩]

/-- The store is of the whole block, so it covers the buffer (checked by evaluation). -/
theorem cover32_3 (p0 : Vec F S1x36x768 .f32) (y : S1x36x768.Idx) :
    ∃ pc ∈ ([⟨r32_3, p0⟩] : List (View.Piece (Elt F) S1x36x768 .f32)), y ∈ pc.1.set :=
  View.cover_of_tiled [⟨r32_3, p0⟩] S1x36x768.size (by rfl) y

/-! ## The body's triple -/

set_option maxHeartbeats 1000000 in
/-- The kernel body on whole staging memrefs, the inputs' at read contents `xW` and the output's at anything, runs to
    the continuation holding the inputs' as they were and the output's at `out32_3` of the inputs': the three loads of
    the first part, the load of the output's buffer (whatever it holds; the value is dropped), and the one store. -/
theorem sound_kernel32 (c : Dev nD) (E : Set ℕ) (i : grid32.Coords) (arg1 : Memref sig .tc .vmem S1x8x768 .f32) (harg1 : arg1.IsWhole) (arg2 : Memref sig .tc .vmem S1x8x768 .f32) (harg2 : arg2.IsWhole) (arg3 : Memref sig .tc .vmem S1x768 .f32) (harg3 : arg3.IsWhole) (arg4 : Memref sig .tc .vmem S1x36x768 .f32) (harg4 : arg4.IsWhole)
    (x0 : Vec F S1x8x768 .f32) (x1 : Vec F S1x8x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out32_3 x0 x1 x2)) -∗ K ⟨⟩))
      ⊢ wp frame (wpE (defs₀ (F := F)) Variants.none c none) E (cc32__tri_kernel i arg1 harg1 arg2 harg2 arg3 harg3 arg4 harg4) K := by
  simp only [cc32__tri_kernel_eq_skeleton]; unfold cc32__tri_kernel_skel
  simp only [k32_part1_eq_skeleton]; unfold k32_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover32_3 _)

/-! ## The pipeline's proof data -/

/-- The proof data of pipeline 32 on core `c`: the arrays as the region finds them (`V`); after the body at
    point `t` each input's buffer at its block and the output's at `out32_3` of the input blocks; the invariant the
    class's (`Pipeline.ΦA`: the scoped rest and the generator register, untouched); nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => iblk32 V c 2 t
    | ⟨3, _⟩ => out32_3 (iblk32 V c 0 t) (iblk32 V c 1 t) (iblk32 V c 2 t)
  Φ _ := Pipeline.ΦA spec32 c
  q _ := fullShare
  owed _ := 0

/-- The proof data's arrays are the region-entry contents (the proof data's definition projected, by `dsimp`). -/
theorem A_eq32 (c : Dev nD) (w : Fin cfg32.W) : (dat32 V c).A w = V c (Pipeline.arrRef spec32 w) := by
  dsimp only [dat32]

/-- What the body leaves, window by window (the proof data's `match` reduced by `dsimp`, never `rfl`). -/
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = iblk32 V c 2 t := by dsimp only [dat32]
theorem after32_3 (c : Dev nD) (t : Fin cfg32.N) : (dat32 V c).after 3 t = out32_3 (iblk32 V c 0 t) (iblk32 V c 1 t) (iblk32 V c 2 t) := by dsimp only [dat32]

/-- Each input's current staging buffer holds its block at every point, fetched there or not (`before32_W_of`). -/
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d
theorem before32_2 (c : Dev nD) (t : Fin cfg32.N) (d) : (dat32 V c).before 2 t d = iblk32 V c 2 t :=
  before32_2_of V (dat32 V c) (A_eq32 V c 2) (after32_2 V c) t d

/-! ## The body obligation, at a generic point -/

/-- What the body is called with at point `t` (the body obligation's precondition, the windows one by one), -/
noncomputable def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d))
    ∗ (∃ d, owns (c : Thread nD τ) (st32_3 t) fullShare ((dat32 V c).before 3 t d)))

/-- and what it returns. -/
noncomputable def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t)
    ∗ owns (c : Thread nD τ) (st32_3 t) fullShare ((dat32 V c).after 3 t))

/-- The body at any point: the inputs' memrefs hold their blocks (`before32_W`), so `sound_kernel32` applies; the
    invariant and the core's `owes` pass through unread. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1, before32_2]
  rw [show (dat32 V c).Φ t.succ = (dat32 V c).Φ t.castSucc from rfl,
    show (dat32 V c).owesAt () t.succ = (dat32 V c).owesAt () t.castSucc from rfl,
    after32_0, after32_1, after32_2, after32_3]
  iintro ⟨HΦ, Ho, ⟨%d0, H0⟩, ⟨%d1, H1⟩, ⟨%d2, H2⟩, ⟨%d3, H3⟩⟩
  iapply (sound_kernel32 c Set.univ (grid32.coords t) _ _ _ _ _ _ _ _ (iblk32 V c 0 t) (iblk32 V c 1 t) (iblk32 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation32 (c : Dev nD) : BodyObligation (dat32 (F := F) V c) (defs₀ (F := F)) Variants.none () Set.univ := fun t => by
  rw [bigSep_W32, bigSep_W32]
  exact sound_body32 V c t

end Regions

end Cert.Kernel.Fr

end
-- ==== Proof.K.Fold.lean ====
import proofs.«116342_j30605936951494_1_alg».proof.Proof.K.Reg0
import proofs.«116342_j30605936951494_1_alg».proof.Proof.K.Reg1
import proofs.«116342_j30605936951494_1_alg».proof.Proof.K.Reg2
import proofs.«116342_j30605936951494_1_alg».proof.Proof.K.Reg3
import proofs.«116342_j30605936951494_1_alg».proof.Proof.K.Reg4
import proofs.«116342_j30605936951494_1_alg».proof.Proof.K.Reg5
import proofs.«116342_j30605936951494_1_alg».proof.Proof.K.Reg6
import proofs.«116342_j30605936951494_1_alg».proof.Proof.K.Reg7
import proofs.«116342_j30605936951494_1_alg».proof.Proof.K.Reg8
import proofs.«116342_j30605936951494_1_alg».proof.Proof.K.Reg9
import proofs.«116342_j30605936951494_1_alg».proof.Proof.K.Reg10
import proofs.«116342_j30605936951494_1_alg».proof.Proof.K.Reg11
import proofs.«116342_j30605936951494_1_alg».proof.Proof.K.Reg12
import proofs.«116342_j30605936951494_1_alg».proof.Proof.K.Reg13
import proofs.«116342_j30605936951494_1_alg».proof.Proof.K.Reg14
import proofs.«116342_j30605936951494_1_alg».proof.Proof.K.Reg15
import proofs.«116342_j30605936951494_1_alg».proof.Proof.K.Reg16
import proofs.«116342_j30605936951494_1_alg».proof.Proof.K.Reg17
import proofs.«116342_j30605936951494_1_alg».proof.Proof.K.Reg18
import proofs.«116342_j30605936951494_1_alg».proof.Proof.K.Reg19
import proofs.«116342_j30605936951494_1_alg».proof.Proof.K.Reg20
import proofs.«116342_j30605936951494_1_alg».proof.Proof.K.Reg21
import proofs.«116342_j30605936951494_1_alg».proof.Proof.K.Reg22
import proofs.«116342_j30605936951494_1_alg».proof.Proof.K.Reg23
import proofs.«116342_j30605936951494_1_alg».proof.Proof.K.Reg24
import proofs.«116342_j30605936951494_1_alg».proof.Proof.K.Reg25
import proofs.«116342_j30605936951494_1_alg».proof.Proof.K.Reg26
import proofs.«116342_j30605936951494_1_alg».proof.Proof.K.Reg27
import proofs.«116342_j30605936951494_1_alg».proof.Proof.K.Reg28
import proofs.«116342_j30605936951494_1_alg».proof.Proof.K.Reg29
import proofs.«116342_j30605936951494_1_alg».proof.Proof.K.Reg30
import proofs.«116342_j30605936951494_1_alg».proof.Proof.K.Reg31
import proofs.«116342_j30605936951494_1_alg».proof.Proof.K.Reg32
import Idealize.ShloMosaic.Lib.Pipeline.FrameBody
import Idealize.ShloMosaic.Lib.Pipeline.RegionsLoop
import Idealize.ShloMosaic.Lib.Pipeline.FrameSuffix
import Idealize.ShloMosaic.Lib.Tactic

/-!
# The buffer contents at every boundary of @main, and what rides along

@main is 34 stretches of host operations with 33 kernel regions between them: 67 items, 68 boundaries. At boundary
J core c's buffers hold W J c: W 0 is the launch memory; a stretch rewrites the buffers its operations write
(StableHlo.after); a region leaves each of its windows' arrays at what its write-backs fold to (Dat.arrAt … N, which for
an input window is the array as entered) and every other buffer as entered (Pipeline.withArrays). V J is W J read
at the TensorCore's references, the form a region's proof data take.

No item writes an argument array: the stretches write only their own results, region 0 reads main_arg1 through an input
window and no other region names an argument. So each argument's buffer at every boundary is the launch memory's.

The family pdats gives every pipeline its proof data at the contents its region is entered from; the thread state
between two items is "every unscoped buffer at the boundary's contents" beside R: the generator register at some state
and the core owing nothing.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core c's buffers at launch. -/
abbrev W0 : Dev nD → Valuation τ sig (Elt F) := fun c b => (s₀ m ρ).mem ((c : Dev nD), b)

/-- After the host stretch before region 0: the contents region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: the contents region 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: the contents region 2 is entered from. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: the contents region 3 is entered from. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: the contents region 4 is entered from. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: the contents region 5 is entered from. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its arrays at what the pipeline leaves, every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references. -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: the contents region 6 is entered from. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its arrays at what the pipeline leaves, every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references. -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7: the contents region 7 is entered from. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- At region 7's exit: its arrays at what the pipeline leaves, every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references. -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch before region 8: the contents region 8 is entered from. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- At region 8's exit: its arrays at what the pipeline leaves, every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references. -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch before region 9: the contents region 9 is entered from. -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b
/-- At region 9's exit: its arrays at what the pipeline leaves, every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references. -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch before region 10: the contents region 10 is entered from. -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b
/-- At region 10's exit: its arrays at what the pipeline leaves, every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references. -/
abbrev V22 : (c : Dev nD) → (b : Ref sig .tc) → Buf (Elt F) ((c : Thread nD τ).loc b) := fun c b => W22 m ρ c b
/-- At region 10's exit each of its arrays holds what the pipeline leaves, and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the host stretch before region 11: the contents region 11 is entered from. -/
abbrev W23 : Dev nD → Valuation τ sig (Elt F) := fun c => StableHlo.after hostOps11 (W22 m ρ c)
/-- The same read at the TensorCore's references. -/
abbrev V23 : (c : Dev nD) → (b : Ref sig .tc) → Buf (Elt F) ((c : Thread nD τ).loc b) := fun c b => W23 m ρ c b
/-- At region 11's exit: its arrays at what the pipeline leaves, every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references. -/
abbrev V24 : (c : Dev nD) → (b : Ref sig .tc) → Buf (Elt F) ((c : Thread nD τ).loc b) := fun c b => W24 m ρ c b
/-- At region 11's exit each of its arrays holds what the pipeline leaves, and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After the host stretch before region 12: the contents region 12 is entered from. -/
abbrev W25 : Dev nD → Valuation τ sig (Elt F) := fun c => StableHlo.after hostOps12 (W24 m ρ c)
/-- The same read at the TensorCore's references. -/
abbrev V25 : (c : Dev nD) → (b : Ref sig .tc) → Buf (Elt F) ((c : Thread nD τ).loc b) := fun c b => W25 m ρ c b
/-- At region 12's exit: its arrays at what the pipeline leaves, every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references. -/
abbrev V26 : (c : Dev nD) → (b : Ref sig .tc) → Buf (Elt F) ((c : Thread nD τ).loc b) := fun c b => W26 m ρ c b
/-- At region 12's exit each of its arrays holds what the pipeline leaves, and every other buffer what it held at entry. -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After the host stretch before region 13: the contents region 13 is entered from. -/
abbrev W27 : Dev nD → Valuation τ sig (Elt F) := fun c => StableHlo.after hostOps13 (W26 m ρ c)
/-- The same read at the TensorCore's references. -/
abbrev V27 : (c : Dev nD) → (b : Ref sig .tc) → Buf (Elt F) ((c : Thread nD τ).loc b) := fun c b => W27 m ρ c b
/-- At region 13's exit: its arrays at what the pipeline leaves, every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references. -/
abbrev V28 : (c : Dev nD) → (b : Ref sig .tc) → Buf (Elt F) ((c : Thread nD τ).loc b) := fun c b => W28 m ρ c b
/-- At region 13's exit each of its arrays holds what the pipeline leaves, and every other buffer what it held at entry. -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After the host stretch before region 14: the contents region 14 is entered from. -/
abbrev W29 : Dev nD → Valuation τ sig (Elt F) := fun c => StableHlo.after hostOps14 (W28 m ρ c)
/-- The same read at the TensorCore's references. -/
abbrev V29 : (c : Dev nD) → (b : Ref sig .tc) → Buf (Elt F) ((c : Thread nD τ).loc b) := fun c b => W29 m ρ c b
/-- At region 14's exit: its arrays at what the pipeline leaves, every other buffer as entered. -/
noncomputable def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references. -/
abbrev V30 : (c : Dev nD) → (b : Ref sig .tc) → Buf (Elt F) ((c : Thread nD τ).loc b) := fun c b => W30 m ρ c b
/-- At region 14's exit each of its arrays holds what the pipeline leaves, and every other buffer what it held at entry. -/
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After the host stretch before region 15: the contents region 15 is entered from. -/
abbrev W31 : Dev nD → Valuation τ sig (Elt F) := fun c => StableHlo.after hostOps15 (W30 m ρ c)
/-- The same read at the TensorCore's references. -/
abbrev V31 : (c : Dev nD) → (b : Ref sig .tc) → Buf (Elt F) ((c : Thread nD τ).loc b) := fun c b => W31 m ρ c b
/-- At region 15's exit: its arrays at what the pipeline leaves, every other buffer as entered. -/
noncomputable def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
/-- The same read at the TensorCore's references. -/
abbrev V32 : (c : Dev nD) → (b : Ref sig .tc) → Buf (Elt F) ((c : Thread nD τ).loc b) := fun c b => W32 m ρ c b
/-- At region 15's exit each of its arrays holds what the pipeline leaves, and every other buffer what it held at entry. -/
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After the host stretch before region 16: the contents region 16 is entered from. -/
abbrev W33 : Dev nD → Valuation τ sig (Elt F) := fun c => StableHlo.after hostOps16 (W32 m ρ c)
/-- The same read at the TensorCore's references. -/
abbrev V33 : (c : Dev nD) → (b : Ref sig .tc) → Buf (Elt F) ((c : Thread nD τ).loc b) := fun c b => W33 m ρ c b
/-- At region 16's exit: its arrays at what the pipeline leaves, every other buffer as entered. -/
noncomputable def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
/-- The same read at the TensorCore's references. -/
abbrev V34 : (c : Dev nD) → (b : Ref sig .tc) → Buf (Elt F) ((c : Thread nD τ).loc b) := fun c b => W34 m ρ c b
/-- At region 16's exit each of its arrays holds what the pipeline leaves, and every other buffer what it held at entry. -/
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- After the host stretch before region 17: the contents region 17 is entered from. -/
abbrev W35 : Dev nD → Valuation τ sig (Elt F) := fun c => StableHlo.after hostOps17 (W34 m ρ c)
/-- The same read at the TensorCore's references. -/
abbrev V35 : (c : Dev nD) → (b : Ref sig .tc) → Buf (Elt F) ((c : Thread nD τ).loc b) := fun c b => W35 m ρ c b
/-- At region 17's exit: its arrays at what the pipeline leaves, every other buffer as entered. -/
noncomputable def W36 (c : Dev nD) : Valuation τ sig (Elt F) :=
  Pipeline.withArrays spec17 c (W35 m ρ c) fun w => (dat17 (V35 m ρ) c).arrAt w cfg17.N
theorem W36_arr (c : Dev nD) (w : Fin cfg17.W) :
    W36 m ρ c (Proc.devRef .tc (Pipeline.arrRef spec17 w)) = (dat17 (V35 m ρ) c).arrAt w cfg17.N := by
  unfold W36; exact Pipeline.withArrays_arr spec17 launch17.win.arr_inj c _ _ w
theorem W36_of_ne (c : Dev nD) (b : Ref sig .tc) (hb : ∀ w, Pipeline.arrRef spec17 w ≠ b) :
    W36 m ρ c (Proc.devRef .tc b) = W35 m ρ c (Proc.devRef .tc b) := by
  unfold W36; exact Pipeline.withArrays_of_ne spec17 c _ _ b hb
/-- The same read at the TensorCore's references. -/
abbrev V36 : (c : Dev nD) → (b : Ref sig .tc) → Buf (Elt F) ((c : Thread nD τ).loc b) := fun c b => W36 m ρ c b
/-- At region 17's exit each of its arrays holds what the pipeline leaves, and every other buffer what it held at entry. -/
theorem hF17 (c : Dev nD) (w : Fin cfg17.W) : (dat17 (V35 m ρ) c).arrAt w cfg17.N = V36 m ρ c (Pipeline.arrRef spec17 w) :=
  (W36_arr m ρ c w).symm
theorem hrest17 (c : Dev nD) : ∀ b, b ∉ Finset.univ.image (Pipeline.arrRef spec17) → V36 m ρ c b = V35 m ρ c b :=
  fun b hb => W36_of_ne m ρ c b fun w e => hb (Finset.mem_image.mpr ⟨w, Finset.mem_univ _, e⟩)

/-- After the host stretch before region 18: the contents region 18 is entered from. -/
abbrev W37 : Dev nD → Valuation τ sig (Elt F) := fun c => StableHlo.after hostOps18 (W36 m ρ c)
/-- The same read at the TensorCore's references. -/
abbrev V37 : (c : Dev nD) → (b : Ref sig .tc) → Buf (Elt F) ((c : Thread nD τ).loc b) := fun c b => W37 m ρ c b
/-- At region 18's exit: its arrays at what the pipeline leaves, every other buffer as entered. -/
noncomputable def W38 (c : Dev nD) : Valuation τ sig (Elt F) :=
  Pipeline.withArrays spec18 c (W37 m ρ c) fun w => (dat18 (V37 m ρ) c).arrAt w cfg18.N
theorem W38_arr (c : Dev nD) (w : Fin cfg18.W) :
    W38 m ρ c (Proc.devRef .tc (Pipeline.arrRef spec18 w)) = (dat18 (V37 m ρ) c).arrAt w cfg18.N := by
  unfold W38; exact Pipeline.withArrays_arr spec18 launch18.win.arr_inj c _ _ w
theorem W38_of_ne (c : Dev nD) (b : Ref sig .tc) (hb : ∀ w, Pipeline.arrRef spec18 w ≠ b) :
    W38 m ρ c (Proc.devRef .tc b) = W37 m ρ c (Proc.devRef .tc b) := by
  unfold W38; exact Pipeline.withArrays_of_ne spec18 c _ _ b hb
/-- The same read at the TensorCore's references. -/
abbrev V38 : (c : Dev nD) → (b : Ref sig .tc) → Buf (Elt F) ((c : Thread nD τ).loc b) := fun c b => W38 m ρ c b
/-- At region 18's exit each of its arrays holds what the pipeline leaves, and every other buffer what it held at entry. -/
theorem hF18 (c : Dev nD) (w : Fin cfg18.W) : (dat18 (V37 m ρ) c).arrAt w cfg18.N = V38 m ρ c (Pipeline.arrRef spec18 w) :=
  (W38_arr m ρ c w).symm
theorem hrest18 (c : Dev nD) : ∀ b, b ∉ Finset.univ.image (Pipeline.arrRef spec18) → V38 m ρ c b = V37 m ρ c b :=
  fun b hb => W38_of_ne m ρ c b fun w e => hb (Finset.mem_image.mpr ⟨w, Finset.mem_univ _, e⟩)

/-- After the host stretch before region 19: the contents region 19 is entered from. -/
abbrev W39 : Dev nD → Valuation τ sig (Elt F) := fun c => StableHlo.after hostOps19 (W38 m ρ c)
/-- The same read at the TensorCore's references. -/
abbrev V39 : (c : Dev nD) → (b : Ref sig .tc) → Buf (Elt F) ((c : Thread nD τ).loc b) := fun c b => W39 m ρ c b
/-- At region 19's exit: its arrays at what the pipeline leaves, every other buffer as entered. -/
noncomputable def W40 (c : Dev nD) : Valuation τ sig (Elt F) :=
  Pipeline.withArrays spec19 c (W39 m ρ c) fun w => (dat19 (V39 m ρ) c).arrAt w cfg19.N
theorem W40_arr (c : Dev nD) (w : Fin cfg19.W) :
    W40 m ρ c (Proc.devRef .tc (Pipeline.arrRef spec19 w)) = (dat19 (V39 m ρ) c).arrAt w cfg19.N := by
  unfold W40; exact Pipeline.withArrays_arr spec19 launch19.win.arr_inj c _ _ w
theorem W40_of_ne (c : Dev nD) (b : Ref sig .tc) (hb : ∀ w, Pipeline.arrRef spec19 w ≠ b) :
    W40 m ρ c (Proc.devRef .tc b) = W39 m ρ c (Proc.devRef .tc b) := by
  unfold W40; exact Pipeline.withArrays_of_ne spec19 c _ _ b hb
/-- The same read at the TensorCore's references. -/
abbrev V40 : (c : Dev nD) → (b : Ref sig .tc) → Buf (Elt F) ((c : Thread nD τ).loc b) := fun c b => W40 m ρ c b
/-- At region 19's exit each of its arrays holds what the pipeline leaves, and every other buffer what it held at entry. -/
theorem hF19 (c : Dev nD) (w : Fin cfg19.W) : (dat19 (V39 m ρ) c).arrAt w cfg19.N = V40 m ρ c (Pipeline.arrRef spec19 w) :=
  (W40_arr m ρ c w).symm
theorem hrest19 (c : Dev nD) : ∀ b, b ∉ Finset.univ.image (Pipeline.arrRef spec19) → V40 m ρ c b = V39 m ρ c b :=
  fun b hb => W40_of_ne m ρ c b fun w e => hb (Finset.mem_image.mpr ⟨w, Finset.mem_univ _, e⟩)

/-- After the host stretch before region 20: the contents region 20 is entered from. -/
abbrev W41 : Dev nD → Valuation τ sig (Elt F) := fun c => StableHlo.after hostOps20 (W40 m ρ c)
/-- The same read at the TensorCore's references. -/
abbrev V41 : (c : Dev nD) → (b : Ref sig .tc) → Buf (Elt F) ((c : Thread nD τ).loc b) := fun c b => W41 m ρ c b
/-- At region 20's exit: its arrays at what the pipeline leaves, every other buffer as entered. -/
noncomputable def W42 (c : Dev nD) : Valuation τ sig (Elt F) :=
  Pipeline.withArrays spec20 c (W41 m ρ c) fun w => (dat20 (V41 m ρ) c).arrAt w cfg20.N
theorem W42_arr (c : Dev nD) (w : Fin cfg20.W) :
    W42 m ρ c (Proc.devRef .tc (Pipeline.arrRef spec20 w)) = (dat20 (V41 m ρ) c).arrAt w cfg20.N := by
  unfold W42; exact Pipeline.withArrays_arr spec20 launch20.win.arr_inj c _ _ w
theorem W42_of_ne (c : Dev nD) (b : Ref sig .tc) (hb : ∀ w, Pipeline.arrRef spec20 w ≠ b) :
    W42 m ρ c (Proc.devRef .tc b) = W41 m ρ c (Proc.devRef .tc b) := by
  unfold W42; exact Pipeline.withArrays_of_ne spec20 c _ _ b hb
/-- The same read at the TensorCore's references. -/
abbrev V42 : (c : Dev nD) → (b : Ref sig .tc) → Buf (Elt F) ((c : Thread nD τ).loc b) := fun c b => W42 m ρ c b
/-- At region 20's exit each of its arrays holds what the pipeline leaves, and every other buffer what it held at entry. -/
theorem hF20 (c : Dev nD) (w : Fin cfg20.W) : (dat20 (V41 m ρ) c).arrAt w cfg20.N = V42 m ρ c (Pipeline.arrRef spec20 w) :=
  (W42_arr m ρ c w).symm
theorem hrest20 (c : Dev nD) : ∀ b, b ∉ Finset.univ.image (Pipeline.arrRef spec20) → V42 m ρ c b = V41 m ρ c b :=
  fun b hb => W42_of_ne m ρ c b fun w e => hb (Finset.mem_image.mpr ⟨w, Finset.mem_univ _, e⟩)

/-- After the host stretch before region 21: the contents region 21 is entered from. -/
abbrev W43 : Dev nD → Valuation τ sig (Elt F) := fun c => StableHlo.after hostOps21 (W42 m ρ c)
/-- The same read at the TensorCore's references. -/
abbrev V43 : (c : Dev nD) → (b : Ref sig .tc) → Buf (Elt F) ((c : Thread nD τ).loc b) := fun c b => W43 m ρ c b
/-- At region 21's exit: its arrays at what the pipeline leaves, every other buffer as entered. -/
noncomputable def W44 (c : Dev nD) : Valuation τ sig (Elt F) :=
  Pipeline.withArrays spec21 c (W43 m ρ c) fun w => (dat21 (V43 m ρ) c).arrAt w cfg21.N
theorem W44_arr (c : Dev nD) (w : Fin cfg21.W) :
    W44 m ρ c (Proc.devRef .tc (Pipeline.arrRef spec21 w)) = (dat21 (V43 m ρ) c).arrAt w cfg21.N := by
  unfold W44; exact Pipeline.withArrays_arr spec21 launch21.win.arr_inj c _ _ w
theorem W44_of_ne (c : Dev nD) (b : Ref sig .tc) (hb : ∀ w, Pipeline.arrRef spec21 w ≠ b) :
    W44 m ρ c (Proc.devRef .tc b) = W43 m ρ c (Proc.devRef .tc b) := by
  unfold W44; exact Pipeline.withArrays_of_ne spec21 c _ _ b hb
/-- The same read at the TensorCore's references. -/
abbrev V44 : (c : Dev nD) → (b : Ref sig .tc) → Buf (Elt F) ((c : Thread nD τ).loc b) := fun c b => W44 m ρ c b
/-- At region 21's exit each of its arrays holds what the pipeline leaves, and every other buffer what it held at entry. -/
theorem hF21 (c : Dev nD) (w : Fin cfg21.W) : (dat21 (V43 m ρ) c).arrAt w cfg21.N = V44 m ρ c (Pipeline.arrRef spec21 w) :=
  (W44_arr m ρ c w).symm
theorem hrest21 (c : Dev nD) : ∀ b, b ∉ Finset.univ.image (Pipeline.arrRef spec21) → V44 m ρ c b = V43 m ρ c b :=
  fun b hb => W44_of_ne m ρ c b fun w e => hb (Finset.mem_image.mpr ⟨w, Finset.mem_univ _, e⟩)

/-- After the host stretch before region 22: the contents region 22 is entered from. -/
abbrev W45 : Dev nD → Valuation τ sig (Elt F) := fun c => StableHlo.after hostOps22 (W44 m ρ c)
/-- The same read at the TensorCore's references. -/
abbrev V45 : (c : Dev nD) → (b : Ref sig .tc) → Buf (Elt F) ((c : Thread nD τ).loc b) := fun c b => W45 m ρ c b
/-- At region 22's exit: its arrays at what the pipeline leaves, every other buffer as entered. -/
noncomputable def W46 (c : Dev nD) : Valuation τ sig (Elt F) :=
  Pipeline.withArrays spec22 c (W45 m ρ c) fun w => (dat22 (V45 m ρ) c).arrAt w cfg22.N
theorem W46_arr (c : Dev nD) (w : Fin cfg22.W) :
    W46 m ρ c (Proc.devRef .tc (Pipeline.arrRef spec22 w)) = (dat22 (V45 m ρ) c).arrAt w cfg22.N := by
  unfold W46; exact Pipeline.withArrays_arr spec22 launch22.win.arr_inj c _ _ w
theorem W46_of_ne (c : Dev nD) (b : Ref sig .tc) (hb : ∀ w, Pipeline.arrRef spec22 w ≠ b) :
    W46 m ρ c (Proc.devRef .tc b) = W45 m ρ c (Proc.devRef .tc b) := by
  unfold W46; exact Pipeline.withArrays_of_ne spec22 c _ _ b hb
/-- The same read at the TensorCore's references. -/
abbrev V46 : (c : Dev nD) → (b : Ref sig .tc) → Buf (Elt F) ((c : Thread nD τ).loc b) := fun c b => W46 m ρ c b
/-- At region 22's exit each of its arrays holds what the pipeline leaves, and every other buffer what it held at entry. -/
theorem hF22 (c : Dev nD) (w : Fin cfg22.W) : (dat22 (V45 m ρ) c).arrAt w cfg22.N = V46 m ρ c (Pipeline.arrRef spec22 w) :=
  (W46_arr m ρ c w).symm
theorem hrest22 (c : Dev nD) : ∀ b, b ∉ Finset.univ.image (Pipeline.arrRef spec22) → V46 m ρ c b = V45 m ρ c b :=
  fun b hb => W46_of_ne m ρ c b fun w e => hb (Finset.mem_image.mpr ⟨w, Finset.mem_univ _, e⟩)

/-- After the host stretch before region 23: the contents region 23 is entered from. -/
abbrev W47 : Dev nD → Valuation τ sig (Elt F) := fun c => StableHlo.after hostOps23 (W46 m ρ c)
/-- The same read at the TensorCore's references. -/
abbrev V47 : (c : Dev nD) → (b : Ref sig .tc) → Buf (Elt F) ((c : Thread nD τ).loc b) := fun c b => W47 m ρ c b
/-- At region 23's exit: its arrays at what the pipeline leaves, every other buffer as entered. -/
noncomputable def W48 (c : Dev nD) : Valuation τ sig (Elt F) :=
  Pipeline.withArrays spec23 c (W47 m ρ c) fun w => (dat23 (V47 m ρ) c).arrAt w cfg23.N
theorem W48_arr (c : Dev nD) (w : Fin cfg23.W) :
    W48 m ρ c (Proc.devRef .tc (Pipeline.arrRef spec23 w)) = (dat23 (V47 m ρ) c).arrAt w cfg23.N := by
  unfold W48; exact Pipeline.withArrays_arr spec23 launch23.win.arr_inj c _ _ w
theorem W48_of_ne (c : Dev nD) (b : Ref sig .tc) (hb : ∀ w, Pipeline.arrRef spec23 w ≠ b) :
    W48 m ρ c (Proc.devRef .tc b) = W47 m ρ c (Proc.devRef .tc b) := by
  unfold W48; exact Pipeline.withArrays_of_ne spec23 c _ _ b hb
/-- The same read at the TensorCore's references. -/
abbrev V48 : (c : Dev nD) → (b : Ref sig .tc) → Buf (Elt F) ((c : Thread nD τ).loc b) := fun c b => W48 m ρ c b
/-- At region 23's exit each of its arrays holds what the pipeline leaves, and every other buffer what it held at entry. -/
theorem hF23 (c : Dev nD) (w : Fin cfg23.W) : (dat23 (V47 m ρ) c).arrAt w cfg23.N = V48 m ρ c (Pipeline.arrRef spec23 w) :=
  (W48_arr m ρ c w).symm
theorem hrest23 (c : Dev nD) : ∀ b, b ∉ Finset.univ.image (Pipeline.arrRef spec23) → V48 m ρ c b = V47 m ρ c b :=
  fun b hb => W48_of_ne m ρ c b fun w e => hb (Finset.mem_image.mpr ⟨w, Finset.mem_univ _, e⟩)

/-- After the host stretch before region 24: the contents region 24 is entered from. -/
abbrev W49 : Dev nD → Valuation τ sig (Elt F) := fun c => StableHlo.after hostOps24 (W48 m ρ c)
/-- The same read at the TensorCore's references. -/
abbrev V49 : (c : Dev nD) → (b : Ref sig .tc) → Buf (Elt F) ((c : Thread nD τ).loc b) := fun c b => W49 m ρ c b
/-- At region 24's exit: its arrays at what the pipeline leaves, every other buffer as entered. -/
noncomputable def W50 (c : Dev nD) : Valuation τ sig (Elt F) :=
  Pipeline.withArrays spec24 c (W49 m ρ c) fun w => (dat24 (V49 m ρ) c).arrAt w cfg24.N
theorem W50_arr (c : Dev nD) (w : Fin cfg24.W) :
    W50 m ρ c (Proc.devRef .tc (Pipeline.arrRef spec24 w)) = (dat24 (V49 m ρ) c).arrAt w cfg24.N := by
  unfold W50; exact Pipeline.withArrays_arr spec24 launch24.win.arr_inj c _ _ w
theorem W50_of_ne (c : Dev nD) (b : Ref sig .tc) (hb : ∀ w, Pipeline.arrRef spec24 w ≠ b) :
    W50 m ρ c (Proc.devRef .tc b) = W49 m ρ c (Proc.devRef .tc b) := by
  unfold W50; exact Pipeline.withArrays_of_ne spec24 c _ _ b hb
/-- The same read at the TensorCore's references. -/
abbrev V50 : (c : Dev nD) → (b : Ref sig .tc) → Buf (Elt F) ((c : Thread nD τ).loc b) := fun c b => W50 m ρ c b
/-- At region 24's exit each of its arrays holds what the pipeline leaves, and every other buffer what it held at entry. -/
theorem hF24 (c : Dev nD) (w : Fin cfg24.W) : (dat24 (V49 m ρ) c).arrAt w cfg24.N = V50 m ρ c (Pipeline.arrRef spec24 w) :=
  (W50_arr m ρ c w).symm
theorem hrest24 (c : Dev nD) : ∀ b, b ∉ Finset.univ.image (Pipeline.arrRef spec24) → V50 m ρ c b = V49 m ρ c b :=
  fun b hb => W50_of_ne m ρ c b fun w e => hb (Finset.mem_image.mpr ⟨w, Finset.mem_univ _, e⟩)

/-- After the host stretch before region 25: the contents region 25 is entered from. -/
abbrev W51 : Dev nD → Valuation τ sig (Elt F) := fun c => StableHlo.after hostOps25 (W50 m ρ c)
/-- The same read at the TensorCore's references. -/
abbrev V51 : (c : Dev nD) → (b : Ref sig .tc) → Buf (Elt F) ((c : Thread nD τ).loc b) := fun c b => W51 m ρ c b
/-- At region 25's exit: its arrays at what the pipeline leaves, every other buffer as entered. -/
noncomputable def W52 (c : Dev nD) : Valuation τ sig (Elt F) :=
  Pipeline.withArrays spec25 c (W51 m ρ c) fun w => (dat25 (V51 m ρ) c).arrAt w cfg25.N
theorem W52_arr (c : Dev nD) (w : Fin cfg25.W) :
    W52 m ρ c (Proc.devRef .tc (Pipeline.arrRef spec25 w)) = (dat25 (V51 m ρ) c).arrAt w cfg25.N := by
  unfold W52; exact Pipeline.withArrays_arr spec25 launch25.win.arr_inj c _ _ w
theorem W52_of_ne (c : Dev nD) (b : Ref sig .tc) (hb : ∀ w, Pipeline.arrRef spec25 w ≠ b) :
    W52 m ρ c (Proc.devRef .tc b) = W51 m ρ c (Proc.devRef .tc b) := by
  unfold W52; exact Pipeline.withArrays_of_ne spec25 c _ _ b hb
/-- The same read at the TensorCore's references. -/
abbrev V52 : (c : Dev nD) → (b : Ref sig .tc) → Buf (Elt F) ((c : Thread nD τ).loc b) := fun c b => W52 m ρ c b
/-- At region 25's exit each of its arrays holds what the pipeline leaves, and every other buffer what it held at entry. -/
theorem hF25 (c : Dev nD) (w : Fin cfg25.W) : (dat25 (V51 m ρ) c).arrAt w cfg25.N = V52 m ρ c (Pipeline.arrRef spec25 w) :=
  (W52_arr m ρ c w).symm
theorem hrest25 (c : Dev nD) : ∀ b, b ∉ Finset.univ.image (Pipeline.arrRef spec25) → V52 m ρ c b = V51 m ρ c b :=
  fun b hb => W52_of_ne m ρ c b fun w e => hb (Finset.mem_image.mpr ⟨w, Finset.mem_univ _, e⟩)

/-- After the host stretch before region 26: the contents region 26 is entered from. -/
abbrev W53 : Dev nD → Valuation τ sig (Elt F) := fun c => StableHlo.after hostOps26 (W52 m ρ c)
/-- The same read at the TensorCore's references. -/
abbrev V53 : (c : Dev nD) → (b : Ref sig .tc) → Buf (Elt F) ((c : Thread nD τ).loc b) := fun c b => W53 m ρ c b
/-- At region 26's exit: its arrays at what the pipeline leaves, every other buffer as entered. -/
noncomputable def W54 (c : Dev nD) : Valuation τ sig (Elt F) :=
  Pipeline.withArrays spec26 c (W53 m ρ c) fun w => (dat26 (V53 m ρ) c).arrAt w cfg26.N
theorem W54_arr (c : Dev nD) (w : Fin cfg26.W) :
    W54 m ρ c (Proc.devRef .tc (Pipeline.arrRef spec26 w)) = (dat26 (V53 m ρ) c).arrAt w cfg26.N := by
  unfold W54; exact Pipeline.withArrays_arr spec26 launch26.win.arr_inj c _ _ w
theorem W54_of_ne (c : Dev nD) (b : Ref sig .tc) (hb : ∀ w, Pipeline.arrRef spec26 w ≠ b) :
    W54 m ρ c (Proc.devRef .tc b) = W53 m ρ c (Proc.devRef .tc b) := by
  unfold W54; exact Pipeline.withArrays_of_ne spec26 c _ _ b hb
/-- The same read at the TensorCore's references. -/
abbrev V54 : (c : Dev nD) → (b : Ref sig .tc) → Buf (Elt F) ((c : Thread nD τ).loc b) := fun c b => W54 m ρ c b
/-- At region 26's exit each of its arrays holds what the pipeline leaves, and every other buffer what it held at entry. -/
theorem hF26 (c : Dev nD) (w : Fin cfg26.W) : (dat26 (V53 m ρ) c).arrAt w cfg26.N = V54 m ρ c (Pipeline.arrRef spec26 w) :=
  (W54_arr m ρ c w).symm
theorem hrest26 (c : Dev nD) : ∀ b, b ∉ Finset.univ.image (Pipeline.arrRef spec26) → V54 m ρ c b = V53 m ρ c b :=
  fun b hb => W54_of_ne m ρ c b fun w e => hb (Finset.mem_image.mpr ⟨w, Finset.mem_univ _, e⟩)

/-- After the host stretch before region 27: the contents region 27 is entered from. -/
abbrev W55 : Dev nD → Valuation τ sig (Elt F) := fun c => StableHlo.after hostOps27 (W54 m ρ c)
/-- The same read at the TensorCore's references. -/
abbrev V55 : (c : Dev nD) → (b : Ref sig .tc) → Buf (Elt F) ((c : Thread nD τ).loc b) := fun c b => W55 m ρ c b
/-- At region 27's exit: its arrays at what the pipeline leaves, every other buffer as entered. -/
noncomputable def W56 (c : Dev nD) : Valuation τ sig (Elt F) :=
  Pipeline.withArrays spec27 c (W55 m ρ c) fun w => (dat27 (V55 m ρ) c).arrAt w cfg27.N
theorem W56_arr (c : Dev nD) (w : Fin cfg27.W) :
    W56 m ρ c (Proc.devRef .tc (Pipeline.arrRef spec27 w)) = (dat27 (V55 m ρ) c).arrAt w cfg27.N := by
  unfold W56; exact Pipeline.withArrays_arr spec27 launch27.win.arr_inj c _ _ w
theorem W56_of_ne (c : Dev nD) (b : Ref sig .tc) (hb : ∀ w, Pipeline.arrRef spec27 w ≠ b) :
    W56 m ρ c (Proc.devRef .tc b) = W55 m ρ c (Proc.devRef .tc b) := by
  unfold W56; exact Pipeline.withArrays_of_ne spec27 c _ _ b hb
/-- The same read at the TensorCore's references. -/
abbrev V56 : (c : Dev nD) → (b : Ref sig .tc) → Buf (Elt F) ((c : Thread nD τ).loc b) := fun c b => W56 m ρ c b
/-- At region 27's exit each of its arrays holds what the pipeline leaves, and every other buffer what it held at entry. -/
theorem hF27 (c : Dev nD) (w : Fin cfg27.W) : (dat27 (V55 m ρ) c).arrAt w cfg27.N = V56 m ρ c (Pipeline.arrRef spec27 w) :=
  (W56_arr m ρ c w).symm
theorem hrest27 (c : Dev nD) : ∀ b, b ∉ Finset.univ.image (Pipeline.arrRef spec27) → V56 m ρ c b = V55 m ρ c b :=
  fun b hb => W56_of_ne m ρ c b fun w e => hb (Finset.mem_image.mpr ⟨w, Finset.mem_univ _, e⟩)

/-- After the host stretch before region 28: the contents region 28 is entered from. -/
abbrev W57 : Dev nD → Valuation τ sig (Elt F) := fun c => StableHlo.after hostOps28 (W56 m ρ c)
/-- The same read at the TensorCore's references. -/
abbrev V57 : (c : Dev nD) → (b : Ref sig .tc) → Buf (Elt F) ((c : Thread nD τ).loc b) := fun c b => W57 m ρ c b
/-- At region 28's exit: its arrays at what the pipeline leaves, every other buffer as entered. -/
noncomputable def W58 (c : Dev nD) : Valuation τ sig (Elt F) :=
  Pipeline.withArrays spec28 c (W57 m ρ c) fun w => (dat28 (V57 m ρ) c).arrAt w cfg28.N
theorem W58_arr (c : Dev nD) (w : Fin cfg28.W) :
    W58 m ρ c (Proc.devRef .tc (Pipeline.arrRef spec28 w)) = (dat28 (V57 m ρ) c).arrAt w cfg28.N := by
  unfold W58; exact Pipeline.withArrays_arr spec28 launch28.win.arr_inj c _ _ w
theorem W58_of_ne (c : Dev nD) (b : Ref sig .tc) (hb : ∀ w, Pipeline.arrRef spec28 w ≠ b) :
    W58 m ρ c (Proc.devRef .tc b) = W57 m ρ c (Proc.devRef .tc b) := by
  unfold W58; exact Pipeline.withArrays_of_ne spec28 c _ _ b hb
/-- The same read at the TensorCore's references. -/
abbrev V58 : (c : Dev nD) → (b : Ref sig .tc) → Buf (Elt F) ((c : Thread nD τ).loc b) := fun c b => W58 m ρ c b
/-- At region 28's exit each of its arrays holds what the pipeline leaves, and every other buffer what it held at entry. -/
theorem hF28 (c : Dev nD) (w : Fin cfg28.W) : (dat28 (V57 m ρ) c).arrAt w cfg28.N = V58 m ρ c (Pipeline.arrRef spec28 w) :=
  (W58_arr m ρ c w).symm
theorem hrest28 (c : Dev nD) : ∀ b, b ∉ Finset.univ.image (Pipeline.arrRef spec28) → V58 m ρ c b = V57 m ρ c b :=
  fun b hb => W58_of_ne m ρ c b fun w e => hb (Finset.mem_image.mpr ⟨w, Finset.mem_univ _, e⟩)

/-- After the host stretch before region 29: the contents region 29 is entered from. -/
abbrev W59 : Dev nD → Valuation τ sig (Elt F) := fun c => StableHlo.after hostOps29 (W58 m ρ c)
/-- The same read at the TensorCore's references. -/
abbrev V59 : (c : Dev nD) → (b : Ref sig .tc) → Buf (Elt F) ((c : Thread nD τ).loc b) := fun c b => W59 m ρ c b
/-- At region 29's exit: its arrays at what the pipeline leaves, every other buffer as entered. -/
noncomputable def W60 (c : Dev nD) : Valuation τ sig (Elt F) :=
  Pipeline.withArrays spec29 c (W59 m ρ c) fun w => (dat29 (V59 m ρ) c).arrAt w cfg29.N
theorem W60_arr (c : Dev nD) (w : Fin cfg29.W) :
    W60 m ρ c (Proc.devRef .tc (Pipeline.arrRef spec29 w)) = (dat29 (V59 m ρ) c).arrAt w cfg29.N := by
  unfold W60; exact Pipeline.withArrays_arr spec29 launch29.win.arr_inj c _ _ w
theorem W60_of_ne (c : Dev nD) (b : Ref sig .tc) (hb : ∀ w, Pipeline.arrRef spec29 w ≠ b) :
    W60 m ρ c (Proc.devRef .tc b) = W59 m ρ c (Proc.devRef .tc b) := by
  unfold W60; exact Pipeline.withArrays_of_ne spec29 c _ _ b hb
/-- The same read at the TensorCore's references. -/
abbrev V60 : (c : Dev nD) → (b : Ref sig .tc) → Buf (Elt F) ((c : Thread nD τ).loc b) := fun c b => W60 m ρ c b
/-- At region 29's exit each of its arrays holds what the pipeline leaves, and every other buffer what it held at entry. -/
theorem hF29 (c : Dev nD) (w : Fin cfg29.W) : (dat29 (V59 m ρ) c).arrAt w cfg29.N = V60 m ρ c (Pipeline.arrRef spec29 w) :=
  (W60_arr m ρ c w).symm
theorem hrest29 (c : Dev nD) : ∀ b, b ∉ Finset.univ.image (Pipeline.arrRef spec29) → V60 m ρ c b = V59 m ρ c b :=
  fun b hb => W60_of_ne m ρ c b fun w e => hb (Finset.mem_image.mpr ⟨w, Finset.mem_univ _, e⟩)

/-- After the host stretch before region 30: the contents region 30 is entered from. -/
abbrev W61 : Dev nD → Valuation τ sig (Elt F) := fun c => StableHlo.after hostOps30 (W60 m ρ c)
/-- The same read at the TensorCore's references. -/
abbrev V61 : (c : Dev nD) → (b : Ref sig .tc) → Buf (Elt F) ((c : Thread nD τ).loc b) := fun c b => W61 m ρ c b
/-- At region 30's exit: its arrays at what the pipeline leaves, every other buffer as entered. -/
noncomputable def W62 (c : Dev nD) : Valuation τ sig (Elt F) :=
  Pipeline.withArrays spec30 c (W61 m ρ c) fun w => (dat30 (V61 m ρ) c).arrAt w cfg30.N
theorem W62_arr (c : Dev nD) (w : Fin cfg30.W) :
    W62 m ρ c (Proc.devRef .tc (Pipeline.arrRef spec30 w)) = (dat30 (V61 m ρ) c).arrAt w cfg30.N := by
  unfold W62; exact Pipeline.withArrays_arr spec30 launch30.win.arr_inj c _ _ w
theorem W62_of_ne (c : Dev nD) (b : Ref sig .tc) (hb : ∀ w, Pipeline.arrRef spec30 w ≠ b) :
    W62 m ρ c (Proc.devRef .tc b) = W61 m ρ c (Proc.devRef .tc b) := by
  unfold W62; exact Pipeline.withArrays_of_ne spec30 c _ _ b hb
/-- The same read at the TensorCore's references. -/
abbrev V62 : (c : Dev nD) → (b : Ref sig .tc) → Buf (Elt F) ((c : Thread nD τ).loc b) := fun c b => W62 m ρ c b
/-- At region 30's exit each of its arrays holds what the pipeline leaves, and every other buffer what it held at entry. -/
theorem hF30 (c : Dev nD) (w : Fin cfg30.W) : (dat30 (V61 m ρ) c).arrAt w cfg30.N = V62 m ρ c (Pipeline.arrRef spec30 w) :=
  (W62_arr m ρ c w).symm
theorem hrest30 (c : Dev nD) : ∀ b, b ∉ Finset.univ.image (Pipeline.arrRef spec30) → V62 m ρ c b = V61 m ρ c b :=
  fun b hb => W62_of_ne m ρ c b fun w e => hb (Finset.mem_image.mpr ⟨w, Finset.mem_univ _, e⟩)

/-- After the host stretch before region 31: the contents region 31 is entered from. -/
abbrev W63 : Dev nD → Valuation τ sig (Elt F) := fun c => StableHlo.after hostOps31 (W62 m ρ c)
/-- The same read at the TensorCore's references. -/
abbrev V63 : (c : Dev nD) → (b : Ref sig .tc) → Buf (Elt F) ((c : Thread nD τ).loc b) := fun c b => W63 m ρ c b
/-- At region 31's exit: its arrays at what the pipeline leaves, every other buffer as entered. -/
noncomputable def W64 (c : Dev nD) : Valuation τ sig (Elt F) :=
  Pipeline.withArrays spec31 c (W63 m ρ c) fun w => (dat31 (V63 m ρ) c).arrAt w cfg31.N
theorem W64_arr (c : Dev nD) (w : Fin cfg31.W) :
    W64 m ρ c (Proc.devRef .tc (Pipeline.arrRef spec31 w)) = (dat31 (V63 m ρ) c).arrAt w cfg31.N := by
  unfold W64; exact Pipeline.withArrays_arr spec31 launch31.win.arr_inj c _ _ w
theorem W64_of_ne (c : Dev nD) (b : Ref sig .tc) (hb : ∀ w, Pipeline.arrRef spec31 w ≠ b) :
    W64 m ρ c (Proc.devRef .tc b) = W63 m ρ c (Proc.devRef .tc b) := by
  unfold W64; exact Pipeline.withArrays_of_ne spec31 c _ _ b hb
/-- The same read at the TensorCore's references. -/
abbrev V64 : (c : Dev nD) → (b : Ref sig .tc) → Buf (Elt F) ((c : Thread nD τ).loc b) := fun c b => W64 m ρ c b
/-- At region 31's exit each of its arrays holds what the pipeline leaves, and every other buffer what it held at entry. -/
theorem hF31 (c : Dev nD) (w : Fin cfg31.W) : (dat31 (V63 m ρ) c).arrAt w cfg31.N = V64 m ρ c (Pipeline.arrRef spec31 w) :=
  (W64_arr m ρ c w).symm
theorem hrest31 (c : Dev nD) : ∀ b, b ∉ Finset.univ.image (Pipeline.arrRef spec31) → V64 m ρ c b = V63 m ρ c b :=
  fun b hb => W64_of_ne m ρ c b fun w e => hb (Finset.mem_image.mpr ⟨w, Finset.mem_univ _, e⟩)

/-- After the host stretch before region 32: the contents region 32 is entered from. -/
abbrev W65 : Dev nD → Valuation τ sig (Elt F) := fun c => StableHlo.after hostOps32 (W64 m ρ c)
/-- The same read at the TensorCore's references. -/
abbrev V65 : (c : Dev nD) → (b : Ref sig .tc) → Buf (Elt F) ((c : Thread nD τ).loc b) := fun c b => W65 m ρ c b
/-- At region 32's exit: its arrays at what the pipeline leaves, every other buffer as entered. -/
noncomputable def W66 (c : Dev nD) : Valuation τ sig (Elt F) :=
  Pipeline.withArrays spec32 c (W65 m ρ c) fun w => (dat32 (V65 m ρ) c).arrAt w cfg32.N
theorem W66_arr (c : Dev nD) (w : Fin cfg32.W) :
    W66 m ρ c (Proc.devRef .tc (Pipeline.arrRef spec32 w)) = (dat32 (V65 m ρ) c).arrAt w cfg32.N := by
  unfold W66; exact Pipeline.withArrays_arr spec32 launch32.win.arr_inj c _ _ w
theorem W66_of_ne (c : Dev nD) (b : Ref sig .tc) (hb : ∀ w, Pipeline.arrRef spec32 w ≠ b) :
    W66 m ρ c (Proc.devRef .tc b) = W65 m ρ c (Proc.devRef .tc b) := by
  unfold W66; exact Pipeline.withArrays_of_ne spec32 c _ _ b hb
/-- The same read at the TensorCore's references. -/
abbrev V66 : (c : Dev nD) → (b : Ref sig .tc) → Buf (Elt F) ((c : Thread nD τ).loc b) := fun c b => W66 m ρ c b
/-- At region 32's exit each of its arrays holds what the pipeline leaves, and every other buffer what it held at entry. -/
theorem hF32 (c : Dev nD) (w : Fin cfg32.W) : (dat32 (V65 m ρ) c).arrAt w cfg32.N = V66 m ρ c (Pipeline.arrRef spec32 w) :=
  (W66_arr m ρ c w).symm
theorem hrest32 (c : Dev nD) : ∀ b, b ∉ Finset.univ.image (Pipeline.arrRef spec32) → V66 m ρ c b = V65 m ρ c b :=
  fun b hb => W66_of_ne m ρ c b fun w e => hb (Finset.mem_image.mpr ⟨w, Finset.mem_univ _, e⟩)

/-- After the last host stretch: the contents @main returns with. -/
abbrev W67 : Dev nD → Valuation τ sig (Elt F) := fun c => StableHlo.after hostOps33 (W66 m ρ c)
/-- The same read at the TensorCore's references. -/
abbrev V67 : (c : Dev nD) → (b : Ref sig .tc) → Buf (Elt F) ((c : Thread nD τ).loc b) := fun c b => W67 m ρ c b

/-! ## The arguments end as launched

A buffer no operation of a stretch writes is the same before and after it (every operation writes its own result
only, and which reference is which is decided); a buffer that is none of a region's arrays is the same before and
after the region; an input window's array is never written back. -/

/-- A reference is written by no operation of a literal stretch: the stretch's result references, one by one. -/
local macro "not_written" ops:ident : tactic => `(tactic|
  (refine List.forall_iff_forall_mem.mp ?_
   simp only [$ops:ident, List.Forall, StableHlo.nullary_writes, StableHlo.unary_writes, StableHlo.binary_writes,
     StableHlo.ternary_writes, StableHlo.quaternary_writes, StableHlo.reshape_writes, StableHlo.nary_writes,
     StableHlo.binaryIndexed_writes, Finset.mem_singleton]
   repeat' apply And.intro
   all_goals exact StableHlo.devRef_ne_of_ne (by decide)))

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (StableHlo.after_of_forall_not_mem (b := Proc.devRef .tc main_arg0) _ _ (by not_written hostOps0)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (by not_written hostOps1)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (by not_written hostOps2)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_forall_not_mem (b := Proc.devRef .tc main_arg0) _ _ (by not_written hostOps3)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (StableHlo.after_of_forall_not_mem (b := Proc.devRef .tc main_arg0) _ _ (by not_written hostOps4)).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (StableHlo.after_of_forall_not_mem (b := Proc.devRef .tc main_arg0) _ _ (by not_written hostOps5)).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (StableHlo.after_of_forall_not_mem (b := Proc.devRef .tc main_arg0) _ _ (by not_written hostOps6)).trans (W12_main_arg0 m ρ c)
theorem W14_main_arg0 (c : Dev nD) : W14 m ρ c (Proc.devRef .tc main_arg0) = m ((c : Thread nD τ).loc main_arg0) :=
  (W14_of_ne m ρ c main_arg0 (by decide)).trans (W13_main_arg0 m ρ c)
theorem W15_main_arg0 (c : Dev nD) : W15 m ρ c (Proc.devRef .tc main_arg0) = m ((c : Thread nD τ).loc main_arg0) :=
  (StableHlo.after_of_forall_not_mem (b := Proc.devRef .tc main_arg0) _ _ (by not_written hostOps7)).trans (W14_main_arg0 m ρ c)
theorem W16_main_arg0 (c : Dev nD) : W16 m ρ c (Proc.devRef .tc main_arg0) = m ((c : Thread nD τ).loc main_arg0) :=
  (W16_of_ne m ρ c main_arg0 (by decide)).trans (W15_main_arg0 m ρ c)
theorem W17_main_arg0 (c : Dev nD) : W17 m ρ c (Proc.devRef .tc main_arg0) = m ((c : Thread nD τ).loc main_arg0) :=
  (StableHlo.after_of_forall_not_mem (b := Proc.devRef .tc main_arg0) _ _ (by not_written hostOps8)).trans (W16_main_arg0 m ρ c)
theorem W18_main_arg0 (c : Dev nD) : W18 m ρ c (Proc.devRef .tc main_arg0) = m ((c : Thread nD τ).loc main_arg0) :=
  (W18_of_ne m ρ c main_arg0 (by decide)).trans (W17_main_arg0 m ρ c)
theorem W19_main_arg0 (c : Dev nD) : W19 m ρ c (Proc.devRef .tc main_arg0) = m ((c : Thread nD τ).loc main_arg0) :=
  (StableHlo.after_of_forall_not_mem (b := Proc.devRef .tc main_arg0) _ _ (by not_written hostOps9)).trans (W18_main_arg0 m ρ c)
theorem W20_main_arg0 (c : Dev nD) : W20 m ρ c (Proc.devRef .tc main_arg0) = m ((c : Thread nD τ).loc main_arg0) :=
  (W20_of_ne m ρ c main_arg0 (by decide)).trans (W19_main_arg0 m ρ c)
theorem W21_main_arg0 (c : Dev nD) : W21 m ρ c (Proc.devRef .tc main_arg0) = m ((c : Thread nD τ).loc main_arg0) :=
  (StableHlo.after_of_forall_not_mem (b := Proc.devRef .tc main_arg0) _ _ (by not_written hostOps10)).trans (W20_main_arg0 m ρ c)
theorem W22_main_arg0 (c : Dev nD) : W22 m ρ c (Proc.devRef .tc main_arg0) = m ((c : Thread nD τ).loc main_arg0) :=
  (W22_of_ne m ρ c main_arg0 (by decide)).trans (W21_main_arg0 m ρ c)
theorem W23_main_arg0 (c : Dev nD) : W23 m ρ c (Proc.devRef .tc main_arg0) = m ((c : Thread nD τ).loc main_arg0) :=
  (StableHlo.after_of_forall_not_mem (b := Proc.devRef .tc main_arg0) _ _ (by not_written hostOps11)).trans (W22_main_arg0 m ρ c)
theorem W24_main_arg0 (c : Dev nD) : W24 m ρ c (Proc.devRef .tc main_arg0) = m ((c : Thread nD τ).loc main_arg0) :=
  (W24_of_ne m ρ c main_arg0 (by decide)).trans (W23_main_arg0 m ρ c)
theorem W25_main_arg0 (c : Dev nD) : W25 m ρ c (Proc.devRef .tc main_arg0) = m ((c : Thread nD τ).loc main_arg0) :=
  (StableHlo.after_of_forall_not_mem (b := Proc.devRef .tc main_arg0) _ _ (by not_written hostOps12)).trans (W24_main_arg0 m ρ c)
theorem W26_main_arg0 (c : Dev nD) : W26 m ρ c (Proc.devRef .tc main_arg0) = m ((c : Thread nD τ).loc main_arg0) :=
  (W26_of_ne m ρ c main_arg0 (by decide)).trans (W25_main_arg0 m ρ c)
theorem W27_main_arg0 (c : Dev nD) : W27 m ρ c (Proc.devRef .tc main_arg0) = m ((c : Thread nD τ).loc main_arg0) :=
  (StableHlo.after_of_forall_not_mem (b := Proc.devRef .tc main_arg0) _ _ (by not_written hostOps13)).trans (W26_main_arg0 m ρ c)
theorem W28_main_arg0 (c : Dev nD) : W28 m ρ c (Proc.devRef .tc main_arg0) = m ((c : Thread nD τ).loc main_arg0) :=
  (W28_of_ne m ρ c main_arg0 (by decide)).trans (W27_main_arg0 m ρ c)
theorem W29_main_arg0 (c : Dev nD) : W29 m ρ c (Proc.devRef .tc main_arg0) = m ((c : Thread nD τ).loc main_arg0) :=
  (StableHlo.after_of_forall_not_mem (b := Proc.devRef .tc main_arg0) _ _ (by not_written hostOps14)).trans (W28_main_arg0 m ρ c)
theorem W30_main_arg0 (c : Dev nD) : W30 m ρ c (Proc.devRef .tc main_arg0) = m ((c : Thread nD τ).loc main_arg0) :=
  (W30_of_ne m ρ c main_arg0 (by decide)).trans (W29_main_arg0 m ρ c)
theorem W31_main_arg0 (c : Dev nD) : W31 m ρ c (Proc.devRef .tc main_arg0) = m ((c : Thread nD τ).loc main_arg0) :=
  (StableHlo.after_of_forall_not_mem (b := Proc.devRef .tc main_arg0) _ _ (by not_written hostOps15)).trans (W30_main_arg0 m ρ c)
theorem W32_main_arg0 (c : Dev nD) : W32 m ρ c (Proc.devRef .tc main_arg0) = m ((c : Thread nD τ).loc main_arg0) :=
  (W32_of_ne m ρ c main_arg0 (by decide)).trans (W31_main_arg0 m ρ c)
theorem W33_main_arg0 (c : Dev nD) : W33 m ρ c (Proc.devRef .tc main_arg0) = m ((c : Thread nD τ).loc main_arg0) :=
  (StableHlo.after_of_forall_not_mem (b := Proc.devRef .tc main_arg0) _ _ (by not_written hostOps16)).trans (W32_main_arg0 m ρ c)
theorem W34_main_arg0 (c : Dev nD) : W34 m ρ c (Proc.devRef .tc main_arg0) = m ((c : Thread nD τ).loc main_arg0) :=
  (W34_of_ne m ρ c main_arg0 (by decide)).trans (W33_main_arg0 m ρ c)
theorem W35_main_arg0 (c : Dev nD) : W35 m ρ c (Proc.devRef .tc main_arg0) = m ((c : Thread nD τ).loc main_arg0) :=
  (StableHlo.after_of_forall_not_mem (b := Proc.devRef .tc main_arg0) _ _ (by not_written hostOps17)).trans (W34_main_arg0 m ρ c)
theorem W36_main_arg0 (c : Dev nD) : W36 m ρ c (Proc.devRef .tc main_arg0) = m ((c : Thread nD τ).loc main_arg0) :=
  (W36_of_ne m ρ c main_arg0 (by decide)).trans (W35_main_arg0 m ρ c)
theorem W37_main_arg0 (c : Dev nD) : W37 m ρ c (Proc.devRef .tc main_arg0) = m ((c : Thread nD τ).loc main_arg0) :=
  (StableHlo.after_of_forall_not_mem (b := Proc.devRef .tc main_arg0) _ _ (by not_written hostOps18)).trans (W36_main_arg0 m ρ c)
theorem W38_main_arg0 (c : Dev nD) : W38 m ρ c (Proc.devRef .tc main_arg0) = m ((c : Thread nD τ).loc main_arg0) :=
  (W38_of_ne m ρ c main_arg0 (by decide)).trans (W37_main_arg0 m ρ c)
theorem W39_main_arg0 (c : Dev nD) : W39 m ρ c (Proc.devRef .tc main_arg0) = m ((c : Thread nD τ).loc main_arg0) :=
  (StableHlo.after_of_forall_not_mem (b := Proc.devRef .tc main_arg0) _ _ (by not_written hostOps19)).trans (W38_main_arg0 m ρ c)
theorem W40_main_arg0 (c : Dev nD) : W40 m ρ c (Proc.devRef .tc main_arg0) = m ((c : Thread nD τ).loc main_arg0) :=
  (W40_of_ne m ρ c main_arg0 (by decide)).trans (W39_main_arg0 m ρ c)
theorem W41_main_arg0 (c : Dev nD) : W41 m ρ c (Proc.devRef .tc main_arg0) = m ((c : Thread nD τ).loc main_arg0) :=
  (StableHlo.after_of_forall_not_mem (b := Proc.devRef .tc main_arg0) _ _ (by not_written hostOps20)).trans (W40_main_arg0 m ρ c)
theorem W42_main_arg0 (c : Dev nD) : W42 m ρ c (Proc.devRef .tc main_arg0) = m ((c : Thread nD τ).loc main_arg0) :=
  (W42_of_ne m ρ c main_arg0 (by decide)).trans (W41_main_arg0 m ρ c)
theorem W43_main_arg0 (c : Dev nD) : W43 m ρ c (Proc.devRef .tc main_arg0) = m ((c : Thread nD τ).loc main_arg0) :=
  (StableHlo.after_of_forall_not_mem (b := Proc.devRef .tc main_arg0) _ _ (by not_written hostOps21)).trans (W42_main_arg0 m ρ c)
theorem W44_main_arg0 (c : Dev nD) : W44 m ρ c (Proc.devRef .tc main_arg0) = m ((c : Thread nD τ).loc main_arg0) :=
  (W44_of_ne m ρ c main_arg0 (by decide)).trans (W43_main_arg0 m ρ c)
theorem W45_main_arg0 (c : Dev nD) : W45 m ρ c (Proc.devRef .tc main_arg0) = m ((c : Thread nD τ).loc main_arg0) :=
  (StableHlo.after_of_forall_not_mem (b := Proc.devRef .tc main_arg0) _ _ (by not_written hostOps22)).trans (W44_main_arg0 m ρ c)
theorem W46_main_arg0 (c : Dev nD) : W46 m ρ c (Proc.devRef .tc main_arg0) = m ((c : Thread nD τ).loc main_arg0) :=
  (W46_of_ne m ρ c main_arg0 (by decide)).trans (W45_main_arg0 m ρ c)
theorem W47_main_arg0 (c : Dev nD) : W47 m ρ c (Proc.devRef .tc main_arg0) = m ((c : Thread nD τ).loc main_arg0) :=
  (StableHlo.after_of_forall_not_mem (b := Proc.devRef .tc main_arg0) _ _ (by not_written hostOps23)).trans (W46_main_arg0 m ρ c)
theorem W48_main_arg0 (c : Dev nD) : W48 m ρ c (Proc.devRef .tc main_arg0) = m ((c : Thread nD τ).loc main_arg0) :=
  (W48_of_ne m ρ c main_arg0 (by decide)).trans (W47_main_arg0 m ρ c)
theorem W49_main_arg0 (c : Dev nD) : W49 m ρ c (Proc.devRef .tc main_arg0) = m ((c : Thread nD τ).loc main_arg0) :=
  (StableHlo.after_of_forall_not_mem (b := Proc.devRef .tc main_arg0) _ _ (by not_written hostOps24)).trans (W48_main_arg0 m ρ c)
theorem W50_main_arg0 (c : Dev nD) : W50 m ρ c (Proc.devRef .tc main_arg0) = m ((c : Thread nD τ).loc main_arg0) :=
  (W50_of_ne m ρ c main_arg0 (by decide)).trans (W49_main_arg0 m ρ c)
theorem W51_main_arg0 (c : Dev nD) : W51 m ρ c (Proc.devRef .tc main_arg0) = m ((c : Thread nD τ).loc main_arg0) :=
  (StableHlo.after_of_forall_not_mem (b := Proc.devRef .tc main_arg0) _ _ (by not_written hostOps25)).trans (W50_main_arg0 m ρ c)
theorem W52_main_arg0 (c : Dev nD) : W52 m ρ c (Proc.devRef .tc main_arg0) = m ((c : Thread nD τ).loc main_arg0) :=
  (W52_of_ne m ρ c main_arg0 (by decide)).trans (W51_main_arg0 m ρ c)
theorem W53_main_arg0 (c : Dev nD) : W53 m ρ c (Proc.devRef .tc main_arg0) = m ((c : Thread nD τ).loc main_arg0) :=
  (StableHlo.after_of_forall_not_mem (b := Proc.devRef .tc main_arg0) _ _ (by not_written hostOps26)).trans (W52_main_arg0 m ρ c)
theorem W54_main_arg0 (c : Dev nD) : W54 m ρ c (Proc.devRef .tc main_arg0) = m ((c : Thread nD τ).loc main_arg0) :=
  (W54_of_ne m ρ c main_arg0 (by decide)).trans (W53_main_arg0 m ρ c)
theorem W55_main_arg0 (c : Dev nD) : W55 m ρ c (Proc.devRef .tc main_arg0) = m ((c : Thread nD τ).loc main_arg0) :=
  (StableHlo.after_of_forall_not_mem (b := Proc.devRef .tc main_arg0) _ _ (by not_written hostOps27)).trans (W54_main_arg0 m ρ c)
theorem W56_main_arg0 (c : Dev nD) : W56 m ρ c (Proc.devRef .tc main_arg0) = m ((c : Thread nD τ).loc main_arg0) :=
  (W56_of_ne m ρ c main_arg0 (by decide)).trans (W55_main_arg0 m ρ c)
theorem W57_main_arg0 (c : Dev nD) : W57 m ρ c (Proc.devRef .tc main_arg0) = m ((c : Thread nD τ).loc main_arg0) :=
  (StableHlo.after_of_forall_not_mem (b := Proc.devRef .tc main_arg0) _ _ (by not_written hostOps28)).trans (W56_main_arg0 m ρ c)
theorem W58_main_arg0 (c : Dev nD) : W58 m ρ c (Proc.devRef .tc main_arg0) = m ((c : Thread nD τ).loc main_arg0) :=
  (W58_of_ne m ρ c main_arg0 (by decide)).trans (W57_main_arg0 m ρ c)
theorem W59_main_arg0 (c : Dev nD) : W59 m ρ c (Proc.devRef .tc main_arg0) = m ((c : Thread nD τ).loc main_arg0) :=
  (StableHlo.after_of_forall_not_mem (b := Proc.devRef .tc main_arg0) _ _ (by not_written hostOps29)).trans (W58_main_arg0 m ρ c)
theorem W60_main_arg0 (c : Dev nD) : W60 m ρ c (Proc.devRef .tc main_arg0) = m ((c : Thread nD τ).loc main_arg0) :=
  (W60_of_ne m ρ c main_arg0 (by decide)).trans (W59_main_arg0 m ρ c)
theorem W61_main_arg0 (c : Dev nD) : W61 m ρ c (Proc.devRef .tc main_arg0) = m ((c : Thread nD τ).loc main_arg0) :=
  (StableHlo.after_of_forall_not_mem (b := Proc.devRef .tc main_arg0) _ _ (by not_written hostOps30)).trans (W60_main_arg0 m ρ c)
theorem W62_main_arg0 (c : Dev nD) : W62 m ρ c (Proc.devRef .tc main_arg0) = m ((c : Thread nD τ).loc main_arg0) :=
  (W62_of_ne m ρ c main_arg0 (by decide)).trans (W61_main_arg0 m ρ c)
theorem W63_main_arg0 (c : Dev nD) : W63 m ρ c (Proc.devRef .tc main_arg0) = m ((c : Thread nD τ).loc main_arg0) :=
  (StableHlo.after_of_forall_not_mem (b := Proc.devRef .tc main_arg0) _ _ (by not_written hostOps31)).trans (W62_main_arg0 m ρ c)
theorem W64_main_arg0 (c : Dev nD) : W64 m ρ c (Proc.devRef .tc main_arg0) = m ((c : Thread nD τ).loc main_arg0) :=
  (W64_of_ne m ρ c main_arg0 (by decide)).trans (W63_main_arg0 m ρ c)
theorem W65_main_arg0 (c : Dev nD) : W65 m ρ c (Proc.devRef .tc main_arg0) = m ((c : Thread nD τ).loc main_arg0) :=
  (StableHlo.after_of_forall_not_mem (b := Proc.devRef .tc main_arg0) _ _ (by not_written hostOps32)).trans (W64_main_arg0 m ρ c)
theorem W66_main_arg0 (c : Dev nD) : W66 m ρ c (Proc.devRef .tc main_arg0) = m ((c : Thread nD τ).loc main_arg0) :=
  (W66_of_ne m ρ c main_arg0 (by decide)).trans (W65_main_arg0 m ρ c)
theorem W67_main_arg0 (c : Dev nD) : W67 m ρ c (Proc.devRef .tc main_arg0) = m ((c : Thread nD τ).loc main_arg0) :=
  (StableHlo.after_of_forall_not_mem (b := Proc.devRef .tc main_arg0) _ _ (by not_written hostOps33)).trans (W66_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (StableHlo.after_of_forall_not_mem (b := Proc.devRef .tc main_arg1) _ _ (by not_written hostOps0)).trans (W0_main_arg1 m ρ c)
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written hostOps1)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (by not_written hostOps2)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_forall_not_mem (b := Proc.devRef .tc main_arg1) _ _ (by not_written hostOps3)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (StableHlo.after_of_forall_not_mem (b := Proc.devRef .tc main_arg1) _ _ (by not_written hostOps4)).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (StableHlo.after_of_forall_not_mem (b := Proc.devRef .tc main_arg1) _ _ (by not_written hostOps5)).trans (W10_main_arg1 m ρ c)
theorem W12_main_arg1 (c : Dev nD) : W12 m ρ c (Proc.devRef .tc main_arg1) = m ((c : Thread nD τ).loc main_arg1) :=
  (W12_of_ne m ρ c main_arg1 (by decide)).trans (W11_main_arg1 m ρ c)
theorem W13_main_arg1 (c : Dev nD) : W13 m ρ c (Proc.devRef .tc main_arg1) = m ((c : Thread nD τ).loc main_arg1) :=
  (StableHlo.after_of_forall_not_mem (b := Proc.devRef .tc main_arg1) _ _ (by not_written hostOps6)).trans (W12_main_arg1 m ρ c)
theorem W14_main_arg1 (c : Dev nD) : W14 m ρ c (Proc.devRef .tc main_arg1) = m ((c : Thread nD τ).loc main_arg1) :=
  (W14_of_ne m ρ c main_arg1 (by decide)).trans (W13_main_arg1 m ρ c)
theorem W15_main_arg1 (c : Dev nD) : W15 m ρ c (Proc.devRef .tc main_arg1) = m ((c : Thread nD τ).loc main_arg1) :=
  (StableHlo.after_of_forall_not_mem (b := Proc.devRef .tc main_arg1) _ _ (by not_written hostOps7)).trans (W14_main_arg1 m ρ c)
theorem W16_main_arg1 (c : Dev nD) : W16 m ρ c (Proc.devRef .tc main_arg1) = m ((c : Thread nD τ).loc main_arg1) :=
  (W16_of_ne m ρ c main_arg1 (by decide)).trans (W15_main_arg1 m ρ c)
theorem W17_main_arg1 (c : Dev nD) : W17 m ρ c (Proc.devRef .tc main_arg1) = m ((c : Thread nD τ).loc main_arg1) :=
  (StableHlo.after_of_forall_not_mem (b := Proc.devRef .tc main_arg1) _ _ (by not_written hostOps8)).trans (W16_main_arg1 m ρ c)
theorem W18_main_arg1 (c : Dev nD) : W18 m ρ c (Proc.devRef .tc main_arg1) = m ((c : Thread nD τ).loc main_arg1) :=
  (W18_of_ne m ρ c main_arg1 (by decide)).trans (W17_main_arg1 m ρ c)
theorem W19_main_arg1 (c : Dev nD) : W19 m ρ c (Proc.devRef .tc main_arg1) = m ((c : Thread nD τ).loc main_arg1) :=
  (StableHlo.after_of_forall_not_mem (b := Proc.devRef .tc main_arg1) _ _ (by not_written hostOps9)).trans (W18_main_arg1 m ρ c)
theorem W20_main_arg1 (c : Dev nD) : W20 m ρ c (Proc.devRef .tc main_arg1) = m ((c : Thread nD τ).loc main_arg1) :=
  (W20_of_ne m ρ c main_arg1 (by decide)).trans (W19_main_arg1 m ρ c)
theorem W21_main_arg1 (c : Dev nD) : W21 m ρ c (Proc.devRef .tc main_arg1) = m ((c : Thread nD τ).loc main_arg1) :=
  (StableHlo.after_of_forall_not_mem (b := Proc.devRef .tc main_arg1) _ _ (by not_written hostOps10)).trans (W20_main_arg1 m ρ c)
theorem W22_main_arg1 (c : Dev nD) : W22 m ρ c (Proc.devRef .tc main_arg1) = m ((c : Thread nD τ).loc main_arg1) :=
  (W22_of_ne m ρ c main_arg1 (by decide)).trans (W21_main_arg1 m ρ c)
theorem W23_main_arg1 (c : Dev nD) : W23 m ρ c (Proc.devRef .tc main_arg1) = m ((c : Thread nD τ).loc main_arg1) :=
  (StableHlo.after_of_forall_not_mem (b := Proc.devRef .tc main_arg1) _ _ (by not_written hostOps11)).trans (W22_main_arg1 m ρ c)
theorem W24_main_arg1 (c : Dev nD) : W24 m ρ c (Proc.devRef .tc main_arg1) = m ((c : Thread nD τ).loc main_arg1) :=
  (W24_of_ne m ρ c main_arg1 (by decide)).trans (W23_main_arg1 m ρ c)
theorem W25_main_arg1 (c : Dev nD) : W25 m ρ c (Proc.devRef .tc main_arg1) = m ((c : Thread nD τ).loc main_arg1) :=
  (StableHlo.after_of_forall_not_mem (b := Proc.devRef .tc main_arg1) _ _ (by not_written hostOps12)).trans (W24_main_arg1 m ρ c)
theorem W26_main_arg1 (c : Dev nD) : W26 m ρ c (Proc.devRef .tc main_arg1) = m ((c : Thread nD τ).loc main_arg1) :=
  (W26_of_ne m ρ c main_arg1 (by decide)).trans (W25_main_arg1 m ρ c)
theorem W27_main_arg1 (c : Dev nD) : W27 m ρ c (Proc.devRef .tc main_arg1) = m ((c : Thread nD τ).loc main_arg1) :=
  (StableHlo.after_of_forall_not_mem (b := Proc.devRef .tc main_arg1) _ _ (by not_written hostOps13)).trans (W26_main_arg1 m ρ c)
theorem W28_main_arg1 (c : Dev nD) : W28 m ρ c (Proc.devRef .tc main_arg1) = m ((c : Thread nD τ).loc main_arg1) :=
  (W28_of_ne m ρ c main_arg1 (by decide)).trans (W27_main_arg1 m ρ c)
theorem W29_main_arg1 (c : Dev nD) : W29 m ρ c (Proc.devRef .tc main_arg1) = m ((c : Thread nD τ).loc main_arg1) :=
  (StableHlo.after_of_forall_not_mem (b := Proc.devRef .tc main_arg1) _ _ (by not_written hostOps14)).trans (W28_main_arg1 m ρ c)
theorem W30_main_arg1 (c : Dev nD) : W30 m ρ c (Proc.devRef .tc main_arg1) = m ((c : Thread nD τ).loc main_arg1) :=
  (W30_of_ne m ρ c main_arg1 (by decide)).trans (W29_main_arg1 m ρ c)
theorem W31_main_arg1 (c : Dev nD) : W31 m ρ c (Proc.devRef .tc main_arg1) = m ((c : Thread nD τ).loc main_arg1) :=
  (StableHlo.after_of_forall_not_mem (b := Proc.devRef .tc main_arg1) _ _ (by not_written hostOps15)).trans (W30_main_arg1 m ρ c)
theorem W32_main_arg1 (c : Dev nD) : W32 m ρ c (Proc.devRef .tc main_arg1) = m ((c : Thread nD τ).loc main_arg1) :=
  (W32_of_ne m ρ c main_arg1 (by decide)).trans (W31_main_arg1 m ρ c)
theorem W33_main_arg1 (c : Dev nD) : W33 m ρ c (Proc.devRef .tc main_arg1) = m ((c : Thread nD τ).loc main_arg1) :=
  (StableHlo.after_of_forall_not_mem (b := Proc.devRef .tc main_arg1) _ _ (by not_written hostOps16)).trans (W32_main_arg1 m ρ c)
theorem W34_main_arg1 (c : Dev nD) : W34 m ρ c (Proc.devRef .tc main_arg1) = m ((c : Thread nD τ).loc main_arg1) :=
  (W34_of_ne m ρ c main_arg1 (by decide)).trans (W33_main_arg1 m ρ c)
theorem W35_main_arg1 (c : Dev nD) : W35 m ρ c (Proc.devRef .tc main_arg1) = m ((c : Thread nD τ).loc main_arg1) :=
  (StableHlo.after_of_forall_not_mem (b := Proc.devRef .tc main_arg1) _ _ (by not_written hostOps17)).trans (W34_main_arg1 m ρ c)
theorem W36_main_arg1 (c : Dev nD) : W36 m ρ c (Proc.devRef .tc main_arg1) = m ((c : Thread nD τ).loc main_arg1) :=
  (W36_of_ne m ρ c main_arg1 (by decide)).trans (W35_main_arg1 m ρ c)
theorem W37_main_arg1 (c : Dev nD) : W37 m ρ c (Proc.devRef .tc main_arg1) = m ((c : Thread nD τ).loc main_arg1) :=
  (StableHlo.after_of_forall_not_mem (b := Proc.devRef .tc main_arg1) _ _ (by not_written hostOps18)).trans (W36_main_arg1 m ρ c)
theorem W38_main_arg1 (c : Dev nD) : W38 m ρ c (Proc.devRef .tc main_arg1) = m ((c : Thread nD τ).loc main_arg1) :=
  (W38_of_ne m ρ c main_arg1 (by decide)).trans (W37_main_arg1 m ρ c)
theorem W39_main_arg1 (c : Dev nD) : W39 m ρ c (Proc.devRef .tc main_arg1) = m ((c : Thread nD τ).loc main_arg1) :=
  (StableHlo.after_of_forall_not_mem (b := Proc.devRef .tc main_arg1) _ _ (by not_written hostOps19)).trans (W38_main_arg1 m ρ c)
theorem W40_main_arg1 (c : Dev nD) : W40 m ρ c (Proc.devRef .tc main_arg1) = m ((c : Thread nD τ).loc main_arg1) :=
  (W40_of_ne m ρ c main_arg1 (by decide)).trans (W39_main_arg1 m ρ c)
theorem W41_main_arg1 (c : Dev nD) : W41 m ρ c (Proc.devRef .tc main_arg1) = m ((c : Thread nD τ).loc main_arg1) :=
  (StableHlo.after_of_forall_not_mem (b := Proc.devRef .tc main_arg1) _ _ (by not_written hostOps20)).trans (W40_main_arg1 m ρ c)
theorem W42_main_arg1 (c : Dev nD) : W42 m ρ c (Proc.devRef .tc main_arg1) = m ((c : Thread nD τ).loc main_arg1) :=
  (W42_of_ne m ρ c main_arg1 (by decide)).trans (W41_main_arg1 m ρ c)
theorem W43_main_arg1 (c : Dev nD) : W43 m ρ c (Proc.devRef .tc main_arg1) = m ((c : Thread nD τ).loc main_arg1) :=
  (StableHlo.after_of_forall_not_mem (b := Proc.devRef .tc main_arg1) _ _ (by not_written hostOps21)).trans (W42_main_arg1 m ρ c)
theorem W44_main_arg1 (c : Dev nD) : W44 m ρ c (Proc.devRef .tc main_arg1) = m ((c : Thread nD τ).loc main_arg1) :=
  (W44_of_ne m ρ c main_arg1 (by decide)).trans (W43_main_arg1 m ρ c)
theorem W45_main_arg1 (c : Dev nD) : W45 m ρ c (Proc.devRef .tc main_arg1) = m ((c : Thread nD τ).loc main_arg1) :=
  (StableHlo.after_of_forall_not_mem (b := Proc.devRef .tc main_arg1) _ _ (by not_written hostOps22)).trans (W44_main_arg1 m ρ c)
theorem W46_main_arg1 (c : Dev nD) : W46 m ρ c (Proc.devRef .tc main_arg1) = m ((c : Thread nD τ).loc main_arg1) :=
  (W46_of_ne m ρ c main_arg1 (by decide)).trans (W45_main_arg1 m ρ c)
theorem W47_main_arg1 (c : Dev nD) : W47 m ρ c (Proc.devRef .tc main_arg1) = m ((c : Thread nD τ).loc main_arg1) :=
  (StableHlo.after_of_forall_not_mem (b := Proc.devRef .tc main_arg1) _ _ (by not_written hostOps23)).trans (W46_main_arg1 m ρ c)
theorem W48_main_arg1 (c : Dev nD) : W48 m ρ c (Proc.devRef .tc main_arg1) = m ((c : Thread nD τ).loc main_arg1) :=
  (W48_of_ne m ρ c main_arg1 (by decide)).trans (W47_main_arg1 m ρ c)
theorem W49_main_arg1 (c : Dev nD) : W49 m ρ c (Proc.devRef .tc main_arg1) = m ((c : Thread nD τ).loc main_arg1) :=
  (StableHlo.after_of_forall_not_mem (b := Proc.devRef .tc main_arg1) _ _ (by not_written hostOps24)).trans (W48_main_arg1 m ρ c)
theorem W50_main_arg1 (c : Dev nD) : W50 m ρ c (Proc.devRef .tc main_arg1) = m ((c : Thread nD τ).loc main_arg1) :=
  (W50_of_ne m ρ c main_arg1 (by decide)).trans (W49_main_arg1 m ρ c)
theorem W51_main_arg1 (c : Dev nD) : W51 m ρ c (Proc.devRef .tc main_arg1) = m ((c : Thread nD τ).loc main_arg1) :=
  (StableHlo.after_of_forall_not_mem (b := Proc.devRef .tc main_arg1) _ _ (by not_written hostOps25)).trans (W50_main_arg1 m ρ c)
theorem W52_main_arg1 (c : Dev nD) : W52 m ρ c (Proc.devRef .tc main_arg1) = m ((c : Thread nD τ).loc main_arg1) :=
  (W52_of_ne m ρ c main_arg1 (by decide)).trans (W51_main_arg1 m ρ c)
theorem W53_main_arg1 (c : Dev nD) : W53 m ρ c (Proc.devRef .tc main_arg1) = m ((c : Thread nD τ).loc main_arg1) :=
  (StableHlo.after_of_forall_not_mem (b := Proc.devRef .tc main_arg1) _ _ (by not_written hostOps26)).trans (W52_main_arg1 m ρ c)
theorem W54_main_arg1 (c : Dev nD) : W54 m ρ c (Proc.devRef .tc main_arg1) = m ((c : Thread nD τ).loc main_arg1) :=
  (W54_of_ne m ρ c main_arg1 (by decide)).trans (W53_main_arg1 m ρ c)
theorem W55_main_arg1 (c : Dev nD) : W55 m ρ c (Proc.devRef .tc main_arg1) = m ((c : Thread nD τ).loc main_arg1) :=
  (StableHlo.after_of_forall_not_mem (b := Proc.devRef .tc main_arg1) _ _ (by not_written hostOps27)).trans (W54_main_arg1 m ρ c)
theorem W56_main_arg1 (c : Dev nD) : W56 m ρ c (Proc.devRef .tc main_arg1) = m ((c : Thread nD τ).loc main_arg1) :=
  (W56_of_ne m ρ c main_arg1 (by decide)).trans (W55_main_arg1 m ρ c)
theorem W57_main_arg1 (c : Dev nD) : W57 m ρ c (Proc.devRef .tc main_arg1) = m ((c : Thread nD τ).loc main_arg1) :=
  (StableHlo.after_of_forall_not_mem (b := Proc.devRef .tc main_arg1) _ _ (by not_written hostOps28)).trans (W56_main_arg1 m ρ c)
theorem W58_main_arg1 (c : Dev nD) : W58 m ρ c (Proc.devRef .tc main_arg1) = m ((c : Thread nD τ).loc main_arg1) :=
  (W58_of_ne m ρ c main_arg1 (by decide)).trans (W57_main_arg1 m ρ c)
theorem W59_main_arg1 (c : Dev nD) : W59 m ρ c (Proc.devRef .tc main_arg1) = m ((c : Thread nD τ).loc main_arg1) :=
  (StableHlo.after_of_forall_not_mem (b := Proc.devRef .tc main_arg1) _ _ (by not_written hostOps29)).trans (W58_main_arg1 m ρ c)
theorem W60_main_arg1 (c : Dev nD) : W60 m ρ c (Proc.devRef .tc main_arg1) = m ((c : Thread nD τ).loc main_arg1) :=
  (W60_of_ne m ρ c main_arg1 (by decide)).trans (W59_main_arg1 m ρ c)
theorem W61_main_arg1 (c : Dev nD) : W61 m ρ c (Proc.devRef .tc main_arg1) = m ((c : Thread nD τ).loc main_arg1) :=
  (StableHlo.after_of_forall_not_mem (b := Proc.devRef .tc main_arg1) _ _ (by not_written hostOps30)).trans (W60_main_arg1 m ρ c)
theorem W62_main_arg1 (c : Dev nD) : W62 m ρ c (Proc.devRef .tc main_arg1) = m ((c : Thread nD τ).loc main_arg1) :=
  (W62_of_ne m ρ c main_arg1 (by decide)).trans (W61_main_arg1 m ρ c)
theorem W63_main_arg1 (c : Dev nD) : W63 m ρ c (Proc.devRef .tc main_arg1) = m ((c : Thread nD τ).loc main_arg1) :=
  (StableHlo.after_of_forall_not_mem (b := Proc.devRef .tc main_arg1) _ _ (by not_written hostOps31)).trans (W62_main_arg1 m ρ c)
theorem W64_main_arg1 (c : Dev nD) : W64 m ρ c (Proc.devRef .tc main_arg1) = m ((c : Thread nD τ).loc main_arg1) :=
  (W64_of_ne m ρ c main_arg1 (by decide)).trans (W63_main_arg1 m ρ c)
theorem W65_main_arg1 (c : Dev nD) : W65 m ρ c (Proc.devRef .tc main_arg1) = m ((c : Thread nD τ).loc main_arg1) :=
  (StableHlo.after_of_forall_not_mem (b := Proc.devRef .tc main_arg1) _ _ (by not_written hostOps32)).trans (W64_main_arg1 m ρ c)
theorem W66_main_arg1 (c : Dev nD) : W66 m ρ c (Proc.devRef .tc main_arg1) = m ((c : Thread nD τ).loc main_arg1) :=
  (W66_of_ne m ρ c main_arg1 (by decide)).trans (W65_main_arg1 m ρ c)
theorem W67_main_arg1 (c : Dev nD) : W67 m ρ c (Proc.devRef .tc main_arg1) = m ((c : Thread nD τ).loc main_arg1) :=
  (StableHlo.after_of_forall_not_mem (b := Proc.devRef .tc main_arg1) _ _ (by not_written hostOps33)).trans (W66_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (StableHlo.after_of_forall_not_mem (b := Proc.devRef .tc main_arg2) _ _ (by not_written hostOps0)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written hostOps1)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (by not_written hostOps2)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_forall_not_mem (b := Proc.devRef .tc main_arg2) _ _ (by not_written hostOps3)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (StableHlo.after_of_forall_not_mem (b := Proc.devRef .tc main_arg2) _ _ (by not_written hostOps4)).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (StableHlo.after_of_forall_not_mem (b := Proc.devRef .tc main_arg2) _ _ (by not_written hostOps5)).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W13_main_arg2 (c : Dev nD) : W13 m ρ c (Proc.devRef .tc main_arg2) = m ((c : Thread nD τ).loc main_arg2) :=
  (StableHlo.after_of_forall_not_mem (b := Proc.devRef .tc main_arg2) _ _ (by not_written hostOps6)).trans (W12_main_arg2 m ρ c)
theorem W14_main_arg2 (c : Dev nD) : W14 m ρ c (Proc.devRef .tc main_arg2) = m ((c : Thread nD τ).loc main_arg2) :=
  (W14_of_ne m ρ c main_arg2 (by decide)).trans (W13_main_arg2 m ρ c)
theorem W15_main_arg2 (c : Dev nD) : W15 m ρ c (Proc.devRef .tc main_arg2) = m ((c : Thread nD τ).loc main_arg2) :=
  (StableHlo.after_of_forall_not_mem (b := Proc.devRef .tc main_arg2) _ _ (by not_written hostOps7)).trans (W14_main_arg2 m ρ c)
theorem W16_main_arg2 (c : Dev nD) : W16 m ρ c (Proc.devRef .tc main_arg2) = m ((c : Thread nD τ).loc main_arg2) :=
  (W16_of_ne m ρ c main_arg2 (by decide)).trans (W15_main_arg2 m ρ c)
theorem W17_main_arg2 (c : Dev nD) : W17 m ρ c (Proc.devRef .tc main_arg2) = m ((c : Thread nD τ).loc main_arg2) :=
  (StableHlo.after_of_forall_not_mem (b := Proc.devRef .tc main_arg2) _ _ (by not_written hostOps8)).trans (W16_main_arg2 m ρ c)
theorem W18_main_arg2 (c : Dev nD) : W18 m ρ c (Proc.devRef .tc main_arg2) = m ((c : Thread nD τ).loc main_arg2) :=
  (W18_of_ne m ρ c main_arg2 (by decide)).trans (W17_main_arg2 m ρ c)
theorem W19_main_arg2 (c : Dev nD) : W19 m ρ c (Proc.devRef .tc main_arg2) = m ((c : Thread nD τ).loc main_arg2) :=
  (StableHlo.after_of_forall_not_mem (b := Proc.devRef .tc main_arg2) _ _ (by not_written hostOps9)).trans (W18_main_arg2 m ρ c)
theorem W20_main_arg2 (c : Dev nD) : W20 m ρ c (Proc.devRef .tc main_arg2) = m ((c : Thread nD τ).loc main_arg2) :=
  (W20_of_ne m ρ c main_arg2 (by decide)).trans (W19_main_arg2 m ρ c)
theorem W21_main_arg2 (c : Dev nD) : W21 m ρ c (Proc.devRef .tc main_arg2) = m ((c : Thread nD τ).loc main_arg2) :=
  (StableHlo.after_of_forall_not_mem (b := Proc.devRef .tc main_arg2) _ _ (by not_written hostOps10)).trans (W20_main_arg2 m ρ c)
theorem W22_main_arg2 (c : Dev nD) : W22 m ρ c (Proc.devRef .tc main_arg2) = m ((c : Thread nD τ).loc main_arg2) :=
  (W22_of_ne m ρ c main_arg2 (by decide)).trans (W21_main_arg2 m ρ c)
theorem W23_main_arg2 (c : Dev nD) : W23 m ρ c (Proc.devRef .tc main_arg2) = m ((c : Thread nD τ).loc main_arg2) :=
  (StableHlo.after_of_forall_not_mem (b := Proc.devRef .tc main_arg2) _ _ (by not_written hostOps11)).trans (W22_main_arg2 m ρ c)
theorem W24_main_arg2 (c : Dev nD) : W24 m ρ c (Proc.devRef .tc main_arg2) = m ((c : Thread nD τ).loc main_arg2) :=
  (W24_of_ne m ρ c main_arg2 (by decide)).trans (W23_main_arg2 m ρ c)
theorem W25_main_arg2 (c : Dev nD) : W25 m ρ c (Proc.devRef .tc main_arg2) = m ((c : Thread nD τ).loc main_arg2) :=
  (StableHlo.after_of_forall_not_mem (b := Proc.devRef .tc main_arg2) _ _ (by not_written hostOps12)).trans (W24_main_arg2 m ρ c)
theorem W26_main_arg2 (c : Dev nD) : W26 m ρ c (Proc.devRef .tc main_arg2) = m ((c : Thread nD τ).loc main_arg2) :=
  (W26_of_ne m ρ c main_arg2 (by decide)).trans (W25_main_arg2 m ρ c)
theorem W27_main_arg2 (c : Dev nD) : W27 m ρ c (Proc.devRef .tc main_arg2) = m ((c : Thread nD τ).loc main_arg2) :=
  (StableHlo.after_of_forall_not_mem (b := Proc.devRef .tc main_arg2) _ _ (by not_written hostOps13)).trans (W26_main_arg2 m ρ c)
theorem W28_main_arg2 (c : Dev nD) : W28 m ρ c (Proc.devRef .tc main_arg2) = m ((c : Thread nD τ).loc main_arg2) :=
  (W28_of_ne m ρ c main_arg2 (by decide)).trans (W27_main_arg2 m ρ c)
theorem W29_main_arg2 (c : Dev nD) : W29 m ρ c (Proc.devRef .tc main_arg2) = m ((c : Thread nD τ).loc main_arg2) :=
  (StableHlo.after_of_forall_not_mem (b := Proc.devRef .tc main_arg2) _ _ (by not_written hostOps14)).trans (W28_main_arg2 m ρ c)
theorem W30_main_arg2 (c : Dev nD) : W30 m ρ c (Proc.devRef .tc main_arg2) = m ((c : Thread nD τ).loc main_arg2) :=
  (W30_of_ne m ρ c main_arg2 (by decide)).trans (W29_main_arg2 m ρ c)
theorem W31_main_arg2 (c : Dev nD) : W31 m ρ c (Proc.devRef .tc main_arg2) = m ((c : Thread nD τ).loc main_arg2) :=
  (StableHlo.after_of_forall_not_mem (b := Proc.devRef .tc main_arg2) _ _ (by not_written hostOps15)).trans (W30_main_arg2 m ρ c)
theorem W32_main_arg2 (c : Dev nD) : W32 m ρ c (Proc.devRef .tc main_arg2) = m ((c : Thread nD τ).loc main_arg2) :=
  (W32_of_ne m ρ c main_arg2 (by decide)).trans (W31_main_arg2 m ρ c)
theorem W33_main_arg2 (c : Dev nD) : W33 m ρ c (Proc.devRef .tc main_arg2) = m ((c : Thread nD τ).loc main_arg2) :=
  (StableHlo.after_of_forall_not_mem (b := Proc.devRef .tc main_arg2) _ _ (by not_written hostOps16)).trans (W32_main_arg2 m ρ c)
theorem W34_main_arg2 (c : Dev nD) : W34 m ρ c (Proc.devRef .tc main_arg2) = m ((c : Thread nD τ).loc main_arg2) :=
  (W34_of_ne m ρ c main_arg2 (by decide)).trans (W33_main_arg2 m ρ c)
theorem W35_main_arg2 (c : Dev nD) : W35 m ρ c (Proc.devRef .tc main_arg2) = m ((c : Thread nD τ).loc main_arg2) :=
  (StableHlo.after_of_forall_not_mem (b := Proc.devRef .tc main_arg2) _ _ (by not_written hostOps17)).trans (W34_main_arg2 m ρ c)
theorem W36_main_arg2 (c : Dev nD) : W36 m ρ c (Proc.devRef .tc main_arg2) = m ((c : Thread nD τ).loc main_arg2) :=
  (W36_of_ne m ρ c main_arg2 (by decide)).trans (W35_main_arg2 m ρ c)
theorem W37_main_arg2 (c : Dev nD) : W37 m ρ c (Proc.devRef .tc main_arg2) = m ((c : Thread nD τ).loc main_arg2) :=
  (StableHlo.after_of_forall_not_mem (b := Proc.devRef .tc main_arg2) _ _ (by not_written hostOps18)).trans (W36_main_arg2 m ρ c)
theorem W38_main_arg2 (c : Dev nD) : W38 m ρ c (Proc.devRef .tc main_arg2) = m ((c : Thread nD τ).loc main_arg2) :=
  (W38_of_ne m ρ c main_arg2 (by decide)).trans (W37_main_arg2 m ρ c)
theorem W39_main_arg2 (c : Dev nD) : W39 m ρ c (Proc.devRef .tc main_arg2) = m ((c : Thread nD τ).loc main_arg2) :=
  (StableHlo.after_of_forall_not_mem (b := Proc.devRef .tc main_arg2) _ _ (by not_written hostOps19)).trans (W38_main_arg2 m ρ c)
theorem W40_main_arg2 (c : Dev nD) : W40 m ρ c (Proc.devRef .tc main_arg2) = m ((c : Thread nD τ).loc main_arg2) :=
  (W40_of_ne m ρ c main_arg2 (by decide)).trans (W39_main_arg2 m ρ c)
theorem W41_main_arg2 (c : Dev nD) : W41 m ρ c (Proc.devRef .tc main_arg2) = m ((c : Thread nD τ).loc main_arg2) :=
  (StableHlo.after_of_forall_not_mem (b := Proc.devRef .tc main_arg2) _ _ (by not_written hostOps20)).trans (W40_main_arg2 m ρ c)
theorem W42_main_arg2 (c : Dev nD) : W42 m ρ c (Proc.devRef .tc main_arg2) = m ((c : Thread nD τ).loc main_arg2) :=
  (W42_of_ne m ρ c main_arg2 (by decide)).trans (W41_main_arg2 m ρ c)
theorem W43_main_arg2 (c : Dev nD) : W43 m ρ c (Proc.devRef .tc main_arg2) = m ((c : Thread nD τ).loc main_arg2) :=
  (StableHlo.after_of_forall_not_mem (b := Proc.devRef .tc main_arg2) _ _ (by not_written hostOps21)).trans (W42_main_arg2 m ρ c)
theorem W44_main_arg2 (c : Dev nD) : W44 m ρ c (Proc.devRef .tc main_arg2) = m ((c : Thread nD τ).loc main_arg2) :=
  (W44_of_ne m ρ c main_arg2 (by decide)).trans (W43_main_arg2 m ρ c)
theorem W45_main_arg2 (c : Dev nD) : W45 m ρ c (Proc.devRef .tc main_arg2) = m ((c : Thread nD τ).loc main_arg2) :=
  (StableHlo.after_of_forall_not_mem (b := Proc.devRef .tc main_arg2) _ _ (by not_written hostOps22)).trans (W44_main_arg2 m ρ c)
theorem W46_main_arg2 (c : Dev nD) : W46 m ρ c (Proc.devRef .tc main_arg2) = m ((c : Thread nD τ).loc main_arg2) :=
  (W46_of_ne m ρ c main_arg2 (by decide)).trans (W45_main_arg2 m ρ c)
theorem W47_main_arg2 (c : Dev nD) : W47 m ρ c (Proc.devRef .tc main_arg2) = m ((c : Thread nD τ).loc main_arg2) :=
  (StableHlo.after_of_forall_not_mem (b := Proc.devRef .tc main_arg2) _ _ (by not_written hostOps23)).trans (W46_main_arg2 m ρ c)
theorem W48_main_arg2 (c : Dev nD) : W48 m ρ c (Proc.devRef .tc main_arg2) = m ((c : Thread nD τ).loc main_arg2) :=
  (W48_of_ne m ρ c main_arg2 (by decide)).trans (W47_main_arg2 m ρ c)
theorem W49_main_arg2 (c : Dev nD) : W49 m ρ c (Proc.devRef .tc main_arg2) = m ((c : Thread nD τ).loc main_arg2) :=
  (StableHlo.after_of_forall_not_mem (b := Proc.devRef .tc main_arg2) _ _ (by not_written hostOps24)).trans (W48_main_arg2 m ρ c)
theorem W50_main_arg2 (c : Dev nD) : W50 m ρ c (Proc.devRef .tc main_arg2) = m ((c : Thread nD τ).loc main_arg2) :=
  (W50_of_ne m ρ c main_arg2 (by decide)).trans (W49_main_arg2 m ρ c)
theorem W51_main_arg2 (c : Dev nD) : W51 m ρ c (Proc.devRef .tc main_arg2) = m ((c : Thread nD τ).loc main_arg2) :=
  (StableHlo.after_of_forall_not_mem (b := Proc.devRef .tc main_arg2) _ _ (by not_written hostOps25)).trans (W50_main_arg2 m ρ c)
theorem W52_main_arg2 (c : Dev nD) : W52 m ρ c (Proc.devRef .tc main_arg2) = m ((c : Thread nD τ).loc main_arg2) :=
  (W52_of_ne m ρ c main_arg2 (by decide)).trans (W51_main_arg2 m ρ c)
theorem W53_main_arg2 (c : Dev nD) : W53 m ρ c (Proc.devRef .tc main_arg2) = m ((c : Thread nD τ).loc main_arg2) :=
  (StableHlo.after_of_forall_not_mem (b := Proc.devRef .tc main_arg2) _ _ (by not_written hostOps26)).trans (W52_main_arg2 m ρ c)
theorem W54_main_arg2 (c : Dev nD) : W54 m ρ c (Proc.devRef .tc main_arg2) = m ((c : Thread nD τ).loc main_arg2) :=
  (W54_of_ne m ρ c main_arg2 (by decide)).trans (W53_main_arg2 m ρ c)
theorem W55_main_arg2 (c : Dev nD) : W55 m ρ c (Proc.devRef .tc main_arg2) = m ((c : Thread nD τ).loc main_arg2) :=
  (StableHlo.after_of_forall_not_mem (b := Proc.devRef .tc main_arg2) _ _ (by not_written hostOps27)).trans (W54_main_arg2 m ρ c)
theorem W56_main_arg2 (c : Dev nD) : W56 m ρ c (Proc.devRef .tc main_arg2) = m ((c : Thread nD τ).loc main_arg2) :=
  (W56_of_ne m ρ c main_arg2 (by decide)).trans (W55_main_arg2 m ρ c)
theorem W57_main_arg2 (c : Dev nD) : W57 m ρ c (Proc.devRef .tc main_arg2) = m ((c : Thread nD τ).loc main_arg2) :=
  (StableHlo.after_of_forall_not_mem (b := Proc.devRef .tc main_arg2) _ _ (by not_written hostOps28)).trans (W56_main_arg2 m ρ c)
theorem W58_main_arg2 (c : Dev nD) : W58 m ρ c (Proc.devRef .tc main_arg2) = m ((c : Thread nD τ).loc main_arg2) :=
  (W58_of_ne m ρ c main_arg2 (by decide)).trans (W57_main_arg2 m ρ c)
theorem W59_main_arg2 (c : Dev nD) : W59 m ρ c (Proc.devRef .tc main_arg2) = m ((c : Thread nD τ).loc main_arg2) :=
  (StableHlo.after_of_forall_not_mem (b := Proc.devRef .tc main_arg2) _ _ (by not_written hostOps29)).trans (W58_main_arg2 m ρ c)
theorem W60_main_arg2 (c : Dev nD) : W60 m ρ c (Proc.devRef .tc main_arg2) = m ((c : Thread nD τ).loc main_arg2) :=
  (W60_of_ne m ρ c main_arg2 (by decide)).trans (W59_main_arg2 m ρ c)
theorem W61_main_arg2 (c : Dev nD) : W61 m ρ c (Proc.devRef .tc main_arg2) = m ((c : Thread nD τ).loc main_arg2) :=
  (StableHlo.after_of_forall_not_mem (b := Proc.devRef .tc main_arg2) _ _ (by not_written hostOps30)).trans (W60_main_arg2 m ρ c)
theorem W62_main_arg2 (c : Dev nD) : W62 m ρ c (Proc.devRef .tc main_arg2) = m ((c : Thread nD τ).loc main_arg2) :=
  (W62_of_ne m ρ c main_arg2 (by decide)).trans (W61_main_arg2 m ρ c)
theorem W63_main_arg2 (c : Dev nD) : W63 m ρ c (Proc.devRef .tc main_arg2) = m ((c : Thread nD τ).loc main_arg2) :=
  (StableHlo.after_of_forall_not_mem (b := Proc.devRef .tc main_arg2) _ _ (by not_written hostOps31)).trans (W62_main_arg2 m ρ c)
theorem W64_main_arg2 (c : Dev nD) : W64 m ρ c (Proc.devRef .tc main_arg2) = m ((c : Thread nD τ).loc main_arg2) :=
  (W64_of_ne m ρ c main_arg2 (by decide)).trans (W63_main_arg2 m ρ c)
theorem W65_main_arg2 (c : Dev nD) : W65 m ρ c (Proc.devRef .tc main_arg2) = m ((c : Thread nD τ).loc main_arg2) :=
  (StableHlo.after_of_forall_not_mem (b := Proc.devRef .tc main_arg2) _ _ (by not_written hostOps32)).trans (W64_main_arg2 m ρ c)
theorem W66_main_arg2 (c : Dev nD) : W66 m ρ c (Proc.devRef .tc main_arg2) = m ((c : Thread nD τ).loc main_arg2) :=
  (W66_of_ne m ρ c main_arg2 (by decide)).trans (W65_main_arg2 m ρ c)
theorem W67_main_arg2 (c : Dev nD) : W67 m ρ c (Proc.devRef .tc main_arg2) = m ((c : Thread nD τ).loc main_arg2) :=
  (StableHlo.after_of_forall_not_mem (b := Proc.devRef .tc main_arg2) _ _ (by not_written hostOps33)).trans (W66_main_arg2 m ρ c)

/-! ## The proof data family and the thread state -/

/-- The prefetched tables' admissible contents: no pipeline has a table. -/
abbrev adm : (p : Fin 33) → (pcfgs (F := F) p).Adm := fun p => (cfgs p).toPCfg_adm
/-- Every pipeline's proof data, each at the contents its region is entered from — a literal match, so that the
    configuration pinned at a numeral reduces to the printed one. -/
noncomputable def pdats : (p : Fin 33) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨17, _⟩ => fun c => dat17 (V35 m ρ) c
  | ⟨18, _⟩ => fun c => dat18 (V37 m ρ) c
  | ⟨19, _⟩ => fun c => dat19 (V39 m ρ) c
  | ⟨20, _⟩ => fun c => dat20 (V41 m ρ) c
  | ⟨21, _⟩ => fun c => dat21 (V43 m ρ) c
  | ⟨22, _⟩ => fun c => dat22 (V45 m ρ) c
  | ⟨23, _⟩ => fun c => dat23 (V47 m ρ) c
  | ⟨24, _⟩ => fun c => dat24 (V49 m ρ) c
  | ⟨25, _⟩ => fun c => dat25 (V51 m ρ) c
  | ⟨26, _⟩ => fun c => dat26 (V53 m ρ) c
  | ⟨27, _⟩ => fun c => dat27 (V55 m ρ) c
  | ⟨28, _⟩ => fun c => dat28 (V57 m ρ) c
  | ⟨29, _⟩ => fun c => dat29 (V59 m ρ) c
  | ⟨30, _⟩ => fun c => dat30 (V61 m ρ) c
  | ⟨31, _⟩ => fun c => dat31 (V63 m ρ) c
  | ⟨32, _⟩ => fun c => dat32 (V65 m ρ) c
  | ⟨_ + 33, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owes, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along: it leaves those
    references at StableHlo.after ops (W c), the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- No operation of stretch 4 allocates a buffer. -/
theorem hostOps4_fresh : (hostOps4 : List (HloOp τ sig (Elt F))).Forall fun op => op.fresh = ∅ := by
  simp only [List.Forall]; repeat' constructor
/-- No operation of stretch 5 allocates a buffer. -/
theorem hostOps5_fresh : (hostOps5 : List (HloOp τ sig (Elt F))).Forall fun op => op.fresh = ∅ := by
  simp only [List.Forall]; repeat' constructor
/-- No operation of stretch 6 allocates a buffer. -/
theorem hostOps6_fresh : (hostOps6 : List (HloOp τ sig (Elt F))).Forall fun op => op.fresh = ∅ := by
  simp only [List.Forall]; repeat' constructor
/-- No operation of stretch 7 allocates a buffer. -/
theorem hostOps7_fresh : (hostOps7 : List (HloOp τ sig (Elt F))).Forall fun op => op.fresh = ∅ := by
  simp only [List.Forall]; repeat' constructor
/-- No operation of stretch 8 allocates a buffer. -/
theorem hostOps8_fresh : (hostOps8 : List (HloOp τ sig (Elt F))).Forall fun op => op.fresh = ∅ := by
  simp only [List.Forall]; repeat' constructor
/-- No operation of stretch 9 allocates a buffer. -/
theorem hostOps9_fresh : (hostOps9 : List (HloOp τ sig (Elt F))).Forall fun op => op.fresh = ∅ := by
  simp only [List.Forall]; repeat' constructor
/-- No operation of stretch 10 allocates a buffer. -/
theorem hostOps10_fresh : (hostOps10 : List (HloOp τ sig (Elt F))).Forall fun op => op.fresh = ∅ := by
  simp only [List.Forall]; repeat' constructor
/-- No operation of stretch 11 allocates a buffer. -/
theorem hostOps11_fresh : (hostOps11 : List (HloOp τ sig (Elt F))).Forall fun op => op.fresh = ∅ := by
  simp only [List.Forall]; repeat' constructor
/-- No operation of stretch 12 allocates a buffer. -/
theorem hostOps12_fresh : (hostOps12 : List (HloOp τ sig (Elt F))).Forall fun op => op.fresh = ∅ := by
  simp only [List.Forall]; repeat' constructor
/-- No operation of stretch 13 allocates a buffer. -/
theorem hostOps13_fresh : (hostOps13 : List (HloOp τ sig (Elt F))).Forall fun op => op.fresh = ∅ := by
  simp only [List.Forall]; repeat' constructor
/-- No operation of stretch 14 allocates a buffer. -/
theorem hostOps14_fresh : (hostOps14 : List (HloOp τ sig (Elt F))).Forall fun op => op.fresh = ∅ := by
  simp only [List.Forall]; repeat' constructor
/-- No operation of stretch 15 allocates a buffer. -/
theorem hostOps15_fresh : (hostOps15 : List (HloOp τ sig (Elt F))).Forall fun op => op.fresh = ∅ := by
  simp only [List.Forall]; repeat' constructor
/-- No operation of stretch 16 allocates a buffer. -/
theorem hostOps16_fresh : (hostOps16 : List (HloOp τ sig (Elt F))).Forall fun op => op.fresh = ∅ := by
  simp only [List.Forall]; repeat' constructor
/-- No operation of stretch 17 allocates a buffer. -/
theorem hostOps17_fresh : (hostOps17 : List (HloOp τ sig (Elt F))).Forall fun op => op.fresh = ∅ := by
  simp only [List.Forall]; repeat' constructor
/-- No operation of stretch 18 allocates a buffer. -/
theorem hostOps18_fresh : (hostOps18 : List (HloOp τ sig (Elt F))).Forall fun op => op.fresh = ∅ := by
  simp only [List.Forall]; repeat' constructor
/-- No operation of stretch 19 allocates a buffer. -/
theorem hostOps19_fresh : (hostOps19 : List (HloOp τ sig (Elt F))).Forall fun op => op.fresh = ∅ := by
  simp only [List.Forall]; repeat' constructor
/-- No operation of stretch 20 allocates a buffer. -/
theorem hostOps20_fresh : (hostOps20 : List (HloOp τ sig (Elt F))).Forall fun op => op.fresh = ∅ := by
  simp only [List.Forall]; repeat' constructor
/-- No operation of stretch 21 allocates a buffer. -/
theorem hostOps21_fresh : (hostOps21 : List (HloOp τ sig (Elt F))).Forall fun op => op.fresh = ∅ := by
  simp only [List.Forall]; repeat' constructor
/-- No operation of stretch 22 allocates a buffer. -/
theorem hostOps22_fresh : (hostOps22 : List (HloOp τ sig (Elt F))).Forall fun op => op.fresh = ∅ := by
  simp only [List.Forall]; repeat' constructor
/-- No operation of stretch 23 allocates a buffer. -/
theorem hostOps23_fresh : (hostOps23 : List (HloOp τ sig (Elt F))).Forall fun op => op.fresh = ∅ := by
  simp only [List.Forall]; repeat' constructor
/-- No operation of stretch 24 allocates a buffer. -/
theorem hostOps24_fresh : (hostOps24 : List (HloOp τ sig (Elt F))).Forall fun op => op.fresh = ∅ := by
  simp only [List.Forall]; repeat' constructor
/-- No operation of stretch 25 allocates a buffer. -/
theorem hostOps25_fresh : (hostOps25 : List (HloOp τ sig (Elt F))).Forall fun op => op.fresh = ∅ := by
  simp only [List.Forall]; repeat' constructor
/-- No operation of stretch 26 allocates a buffer. -/
theorem hostOps26_fresh : (hostOps26 : List (HloOp τ sig (Elt F))).Forall fun op => op.fresh = ∅ := by
  simp only [List.Forall]; repeat' constructor
/-- No operation of stretch 27 allocates a buffer. -/
theorem hostOps27_fresh : (hostOps27 : List (HloOp τ sig (Elt F))).Forall fun op => op.fresh = ∅ := by
  simp only [List.Forall]; repeat' constructor
/-- No operation of stretch 28 allocates a buffer. -/
theorem hostOps28_fresh : (hostOps28 : List (HloOp τ sig (Elt F))).Forall fun op => op.fresh = ∅ := by
  simp only [List.Forall]; repeat' constructor
/-- No operation of stretch 29 allocates a buffer. -/
theorem hostOps29_fresh : (hostOps29 : List (HloOp τ sig (Elt F))).Forall fun op => op.fresh = ∅ := by
  simp only [List.Forall]; repeat' constructor
/-- No operation of stretch 30 allocates a buffer. -/
theorem hostOps30_fresh : (hostOps30 : List (HloOp τ sig (Elt F))).Forall fun op => op.fresh = ∅ := by
  simp only [List.Forall]; repeat' constructor
/-- No operation of stretch 31 allocates a buffer. -/
theorem hostOps31_fresh : (hostOps31 : List (HloOp τ sig (Elt F))).Forall fun op => op.fresh = ∅ := by
  simp only [List.Forall]; repeat' constructor
/-- No operation of stretch 32 allocates a buffer. -/
theorem hostOps32_fresh : (hostOps32 : List (HloOp τ sig (Elt F))).Forall fun op => op.fresh = ∅ := by
  simp only [List.Forall]; repeat' constructor
/-- No operation of stretch 33 allocates a buffer. -/
theorem hostOps33_fresh : (hostOps33 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W67 m ρ c) ∗ ∃ r, prngReg c r)

end Cert.Kernel.Fr

end
-- ==== Proof.K.SegA.lean ====
import proofs.«116342_j30605936951494_1_alg».proof.Proof.K.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 0 (custom_call 0): entered from every unscoped buffer at W1, left at W2. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 1 (custom_call 1): entered from every unscoped buffer at W3, left at W4. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 2 (custom_call 2): entered from every unscoped buffer at W5, left at W6. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 3 (custom_call 3): entered from every unscoped buffer at W7, left at W8. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 4 (custom_call 4): entered from every unscoped buffer at W9, left at W10. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 5 (custom_call 5): entered from every unscoped buffer at W11, left at W12. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 6 (custom_call 6): entered from every unscoped buffer at W13, left at W14. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 7 (custom_call 7): entered from every unscoped buffer at W15, left at W16. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 8 (custom_call 8): entered from every unscoped buffer at W17, left at W18. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.SegB.lean ====
import proofs.«116342_j30605936951494_1_alg».proof.Proof.K.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 9 (custom_call 9): entered from every unscoped buffer at W19, left at W20. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 10 (custom_call 10): entered from every unscoped buffer at W21, left at W22. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 11 (custom_call 11): entered from every unscoped buffer at W23, left at W24. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 12 (custom_call 12): entered from every unscoped buffer at W25, left at W26. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 13 (custom_call 13): entered from every unscoped buffer at W27, left at W28. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 14 (custom_call 14): entered from every unscoped buffer at W29, left at W30. -/
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 15 (custom_call 15): entered from every unscoped buffer at W31, left at W32. -/
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 16 (custom_call 16): entered from every unscoped buffer at W33, left at W34. -/
noncomputable def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.SegC.lean ====
import proofs.«116342_j30605936951494_1_alg».proof.Proof.K.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 17 (custom_call 17): entered from every unscoped buffer at W35, left at W36. -/
noncomputable def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V35 m ρ) c).loose
  hwaits := Pipeline.hwaits_of_owed_zero _ _ _ _ L lv 17 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec17 c (V35 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V35 m ρ c) (V36 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 18 (custom_call 18): entered from every unscoped buffer at W37, left at W38. -/
noncomputable def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V37 m ρ) c).loose
  hwaits := Pipeline.hwaits_of_owed_zero _ _ _ _ L lv 18 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec18 c (V37 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V37 m ρ c) (V38 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 19 (custom_call 19): entered from every unscoped buffer at W39, left at W40. -/
noncomputable def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V39 m ρ) c).loose
  hwaits := Pipeline.hwaits_of_owed_zero _ _ _ _ L lv 19 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec19 c (V39 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V39 m ρ c) (V40 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 20 (custom_call 20): entered from every unscoped buffer at W41, left at W42. -/
noncomputable def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V41 m ρ) c).loose
  hwaits := Pipeline.hwaits_of_owed_zero _ _ _ _ L lv 20 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec20 c (V41 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V41 m ρ c) (V42 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 21 (custom_call 21): entered from every unscoped buffer at W43, left at W44. -/
noncomputable def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V43 m ρ) c).loose
  hwaits := Pipeline.hwaits_of_owed_zero _ _ _ _ L lv 21 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec21 c (V43 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V43 m ρ c) (V44 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 22 (custom_call 22): entered from every unscoped buffer at W45, left at W46. -/
noncomputable def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V45 m ρ) c).loose
  hwaits := Pipeline.hwaits_of_owed_zero _ _ _ _ L lv 22 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec22 c (V45 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V45 m ρ c) (V46 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 23 (custom_call 23): entered from every unscoped buffer at W47, left at W48. -/
noncomputable def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V47 m ρ) c).loose
  hwaits := Pipeline.hwaits_of_owed_zero _ _ _ _ L lv 23 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec23 c (V47 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V47 m ρ c) (V48 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 24 (custom_call 24): entered from every unscoped buffer at W49, left at W50. -/
noncomputable def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V49 m ρ) c).loose
  hwaits := Pipeline.hwaits_of_owed_zero _ _ _ _ L lv 24 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec24 c (V49 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V49 m ρ c) (V50 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.SegD.lean ====
import proofs.«116342_j30605936951494_1_alg».proof.Proof.K.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 25 (custom_call 25): entered from every unscoped buffer at W51, left at W52. -/
noncomputable def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V51 m ρ) c).loose
  hwaits := Pipeline.hwaits_of_owed_zero _ _ _ _ L lv 25 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec25 c (V51 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V51 m ρ c) (V52 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 26 (custom_call 26): entered from every unscoped buffer at W53, left at W54. -/
noncomputable def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (V53 m ρ) c).loose
  hwaits := Pipeline.hwaits_of_owed_zero _ _ _ _ L lv 26 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec26 c (V53 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 26 c).Φ 0 = Pipeline.ΦA spec26 c from rfl]; unfold Pipeline.ΦA
    iintro ⟨Hp, -, Hr⟩
    isplitl [Hr]; · iexact Hr
    iexact Hp
  hout c := by
    rw [Pipeline.ownSems0_none, show (pdats m ρ 26 c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (V53 m ρ c) (V54 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 27 (custom_call 27): entered from every unscoped buffer at W55, left at W56. -/
noncomputable def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (V55 m ρ) c).loose
  hwaits := Pipeline.hwaits_of_owed_zero _ _ _ _ L lv 27 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X c := iprop(∃ r, prngReg c r)
  Y c := iprop(∃ r, prngReg c r)
  Z c := Pipeline.unscopedRest (Ix := Unit) (Name := ℕ) (U := UR sig nD τ) (Lvl := ℕ) spec27 c (V55 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (V55 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 27 c).Φ 0 = Pipeline.ΦA spec27 c from rfl]; unfold Pipeline.ΦA
    iintro ⟨Hp, -, Hr⟩
    isplitl [Hr]; · iexact Hr
    iexact Hp
  hout c := by
    rw [Pipeline.ownSems0_none, show (pdats m ρ 27 c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (V55 m ρ c) (V56 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 28 (custom_call 28): entered from every unscoped buffer at W57, left at W58. -/
noncomputable def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (V57 m ρ) c).loose
  hwaits := Pipeline.hwaits_of_owed_zero _ _ _ _ L lv 28 fun _ _ => rfl
  pre c := iprop(StableHlo.held (c : Thread nD τ) (Pipeline.ucRefs τ sig) (W57 m ρ c) ∗ R c)
  post c := iprop(StableHlo.held (c : Thread nD τ) (Pipeline.ucRefs τ sig) (W58 m ρ c) ∗ R c)
  X c := iprop(∃ r, prngReg c r)
  Y c := iprop(∃ r, prngReg c r)
  Z c := Pipeline.unscopedRest (Ix := Unit) (Name := ℕ) (U := UR sig nD τ) (Lvl := ℕ) spec28 c (V57 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (V57 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (V57 m ρ c) (V58 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 29 (custom_call 29): entered from every unscoped buffer at W59, left at W60. -/
noncomputable def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (V59 m ρ) c).loose
  hwaits := Pipeline.hwaits_of_owed_zero _ _ _ _ L lv 29 fun _ _ => rfl
  pre c := iprop(StableHlo.held (c : Thread nD τ) (Pipeline.ucRefs τ sig) (W59 m ρ c) ∗ R c)
  post c := iprop(StableHlo.held (c : Thread nD τ) (Pipeline.ucRefs τ sig) (W60 m ρ c) ∗ R c)
  X c := iprop(∃ r, prngReg c r)
  Y c := iprop(∃ r, prngReg c r)
  Z c := Pipeline.unscopedRest (Ix := Unit) (Name := ℕ) (U := UR sig nD τ) (Lvl := ℕ) spec29 c (V59 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (V59 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (V59 m ρ c) (V60 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 30 (custom_call 30): entered from every unscoped buffer at W61, left at W62. -/
noncomputable def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (V61 m ρ) c).loose
  hwaits := Pipeline.hwaits_of_owed_zero _ _ _ _ L lv 30 fun _ _ => rfl
  pre c := iprop(StableHlo.held (c : Thread nD τ) (Pipeline.ucRefs τ sig) (W61 m ρ c) ∗ R c)
  post c := iprop(StableHlo.held (c : Thread nD τ) (Pipeline.ucRefs τ sig) (W62 m ρ c) ∗ R c)
  X c := iprop(∃ r, prngReg c r)
  Y c := iprop(∃ r, prngReg c r)
  Z c := Pipeline.unscopedRest (Ix := Unit) (Name := ℕ) (U := UR sig nD τ) (Lvl := ℕ) spec30 c (V61 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (V61 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 30 c).Φ 0 = Pipeline.ΦA spec30 c from rfl]; unfold Pipeline.ΦA
    iintro ⟨Hp, -, Hr⟩
    isplitl [Hr]; · iexact Hr
    iexact Hp
  hout c := by
    rw [Pipeline.ownSems0_none, show (pdats m ρ 30 c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (V61 m ρ c) (V62 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 31 (custom_call 31): entered from every unscoped buffer at W63, left at W64. -/
noncomputable def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (V63 m ρ) c).loose
  hwaits := Pipeline.hwaits_of_owed_zero _ _ _ _ L lv 31 fun _ _ => rfl
  pre c := iprop(StableHlo.held (c : Thread nD τ) (Pipeline.ucRefs τ sig) (W63 m ρ c) ∗ R c)
  post c := iprop(StableHlo.held (c : Thread nD τ) (Pipeline.ucRefs τ sig) (W64 m ρ c) ∗ R c)
  X c := iprop(∃ r, prngReg c r)
  Y c := iprop(∃ r, prngReg c r)
  Z c := Pipeline.unscopedRest (Ix := Unit) (Name := ℕ) (U := UR sig nD τ) (Lvl := ℕ) spec31 c (V63 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (V63 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 31 c).Φ 0 = Pipeline.ΦA spec31 c from rfl]; unfold Pipeline.ΦA
    iintro ⟨Hp, -, Hr⟩
    isplitl [Hr]; · iexact Hr
    iexact Hp
  hout c := by
    rw [Pipeline.ownSems0_none, show (pdats m ρ 31 c).Φ (Fin.last _) = Pipeline.ΦA spec31 c from rfl]; unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (V63 m ρ c) (V64 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 32 (custom_call 32): entered from every unscoped buffer at W65, left at W66. -/
noncomputable def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (V65 m ρ) c).loose
  hwaits := Pipeline.hwaits_of_owed_zero _ _ _ _ L lv 32 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec32 c (V65 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (V65 m ρ c) (V66 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KI.Reg0.lean ====
/- Region 0 of @main (the two products, `cc0__matmul_kernel`, pipeline 0, grid [4] over row blocks), at the
   TensorCore's buffer contents `V` when the region is entered. Four windows: 0 = the hidden states as a matrix
   (block [256,768] of [1024,768], one row block a point), 1 = the weight ([768,1536], one block, fetched at the first
   point and kept), 2 and 3 = the two products (blocks [256,768] of [1024,768], written back at every point).
   The body loads the row block and the weight whole, rounds both to bf16, and multiplies the row block by the left
   half of the weight's columns and by the right half; before each of its two stores it loads the product's buffer
   (the value is not used) and then stores the product over the WHOLE block. So what the body leaves in each product's
   buffer is a function of the two input blocks alone (`out0_2`, `out0_3`), and each input buffer is left as found:
   this is what the pipeline's proof data `dat0` record, and `body_obligation0` is the body's triple at every grid
   point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (the weight: its one block is fetched at the first point only, its block index never
    moves, and every later point finds it where the first left it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Each window's staging buffer is read, and each product's written, whole: `r0_W` is window `W`'s whole block. -/
abbrev r0_0 : Rect S256x768 := Rect.unit (s := S256x768) ![0, 0] S256x768.size inb_S256x768_S256x768_0_0
abbrev r0_1 : Rect S768x1536 := Rect.unit (s := S768x1536) ![0, 0] S768x1536.size inb_S768x1536_S768x1536_0_0
abbrev r0_2 : Rect S256x768 := Rect.unit (s := S256x768) ![0, 0] S256x768.size inb_S256x768_S256x768_0_0
abbrev r0_3 : Rect S256x768 := Rect.unit (s := S256x768) ![0, 0] S256x768.size inb_S256x768_S256x768_0_0

/-! ## What the body leaves in each output window's buffer -/

/-- Window 2's staging buffer after the body, from the input windows' blocks: its one store, of the whole block —
    the row block times the left half of the weight's columns, both rounded to bf16 (the payload is the skeleton's,
    over the two loads). -/
noncomputable def out0_2 (x0 : Vec F S256x768 .f32) (x1 : Vec F S768x1536 .f32) : Vec F S256x768 .f32 :=
  View.canon [⟨r0_2, k0_pay3 (View.ld x0 r0_0) (View.ld x1 r0_1)⟩]
/-- Window 3's likewise: the row block times the right half of the weight's columns. -/
noncomputable def out0_3 (x0 : Vec F S256x768 .f32) (x1 : Vec F S768x1536 .f32) : Vec F S256x768 .f32 :=
  View.canon [⟨r0_3, k0_pay4 (View.ld x0 r0_0) (View.ld x1 r0_1)⟩]

/-- Window 2's store is of the whole block, so it covers the buffer (checked by evaluation). -/
theorem cover0_2 (p0 : Vec F S256x768 .f32) (y : S256x768.Idx) :
    ∃ pc ∈ ([⟨r0_2, p0⟩] : List (View.Piece (Elt F) S256x768 .f32)), y ∈ pc.1.set :=
  View.cover_of_tiled [⟨r0_2, p0⟩] S256x768.size (by rfl) y
/-- Window 3's likewise. -/
theorem cover0_3 (p0 : Vec F S256x768 .f32) (y : S256x768.Idx) :
    ∃ pc ∈ ([⟨r0_3, p0⟩] : List (View.Piece (Elt F) S256x768 .f32)), y ∈ pc.1.set :=
  View.cover_of_tiled [⟨r0_3, p0⟩] S256x768.size (by rfl) y

/-! ## The body's triple -/

set_option maxHeartbeats 1000000 in
/-- The kernel body on whole staging memrefs, the inputs' at read contents `xW` and the outputs' at anything, runs to
    the continuation holding the inputs' as they were and each output's at `out0_W` of the inputs': the two loads of
    the inputs, then for each product the load of its buffer (whatever it holds; the value is dropped) and the one
    store over the whole of it. -/
theorem sound_kernel0 (c : Dev nD) (E : Set ℕ) (i : grid0.Coords) (arg1 : Memref sig .tc .vmem S256x768 .f32) (harg1 : arg1.IsWhole) (arg2 : Memref sig .tc .vmem S768x1536 .f32) (harg2 : arg2.IsWhole) (arg3 : Memref sig .tc .vmem S256x768 .f32) (harg3 : arg3.IsWhole) (arg4 : Memref sig .tc .vmem S256x768 .f32) (harg4 : arg4.IsWhole)
    (x0 : Vec F S256x768 .f32) (x1 : Vec F S768x1536 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and each output's at `out0_W` of the input blocks; the invariant the
    class's (`Pipeline.ΦA`: the scoped rest and the generator register, untouched); nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`, never `rfl`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr
-- ==== Proof.KI.Reg1.lean ====
/- Region 1 of @main (triangular chunk 1 of 32, `cc1__tri_kernel`, pipeline 1, grid [4] over the batch), at the
   TensorCore's buffer contents `V` when the region is entered. Four windows: 0 = the eight rows of the first product
   this chunk pairs off (block [1,8,768] of [4,8,768]), 1 = the 256 rows of the second product they are paired with
   (block [1,256,768] of [4,256,768]), 2 = the bias row ([1,768], one block, fetched at the first point and kept),
   3 = the chunk's result (block [1,2020,768] of [4,2020,768], 2020 = 256 + 255 + … + 249, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out1_3`),
   and each input buffer is left as found: this is what the pipeline's proof data `dat1` record, and
   `body_obligation1` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 1 of @main: custom_call 1, `cc1__tri_kernel` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (the bias row: its one block is fetched at the first point only, and every later point
    finds it where the first left it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each staging buffer is read, and the result's written, whole. -/
abbrev r1_0 : Rect S1x8x768 := Rect.unit (s := S1x8x768) ![0, 0, 0] S1x8x768.size inb_S1x8x768_S1x8x768_0_0_0
abbrev r1_1 : Rect S1x256x768 := Rect.unit (s := S1x256x768) ![0, 0, 0] S1x256x768.size inb_S1x256x768_S1x256x768_0_0_0
abbrev r1_2 : Rect S1x768 := Rect.unit (s := S1x768) ![0, 0] S1x768.size inb_S1x768_S1x768_0_0
abbrev r1_3 : Rect S1x2020x768 := Rect.unit (s := S1x2020x768) ![0, 0, 0] S1x2020x768.size inb_S1x2020x768_S1x2020x768_0_0_0

/-! ## What the body leaves in the output window's buffer -/

/-- Window 3's staging buffer after the body, from the input windows' blocks: its one store, of the whole block —
    the eight row-broadcast sums under tanh, concatenated (the payloads are the skeleton's, over the three loads). -/
noncomputable def out1_3 (x0 : Vec F S1x8x768 .f32) (x1 : Vec F S1x256x768 .f32) (x2 : Vec F S1x768 .f32) : Vec F S1x2020x768 .f32 :=
  View.canon [⟨r1_3, k1_pay1 (k1_pay2 (View.ld x0 r1_0)) (k1_pay3 (View.ld x1 r1_1)) (k1_pay4 (View.ld x2 r1_2))
    (k1_pay5 (View.ld x0 r1_0) (View.ld x1 r1_1) (View.ld x2 r1_2)) (k1_pay6 (View.ld x0 r1_0) (View.ld x1 r1_1) (View.ld x2 r1_2))
    (k1_pay7 (View.ld x0 r1_0) (View.ld x1 r1_1) (View.ld x2 r1_2)) (k1_pay8 (View.ld x0 r1_0) (View.ld x1 r1_1) (View.ld x2 r1_2))
    (k1_pay9 (View.ld x0 r1_0) (View.ld x1 r1_1) (View.ld x2 r1_2)) (k1_pay10 (View.ld x0 r1_0) (View.ld x1 r1_1) (View.ld x2 r1_2))
    (k1_pay11 (View.ld x0 r1_0) (View.ld x1 r1_1))⟩]

/-- The store is of the whole block, so it covers the buffer (checked by evaluation). -/
theorem cover1_3 (p0 : Vec F S1x2020x768 .f32) (y : S1x2020x768.Idx) :
    ∃ pc ∈ ([⟨r1_3, p0⟩] : List (View.Piece (Elt F) S1x2020x768 .f32)), y ∈ pc.1.set :=
  View.cover_of_tiled [⟨r1_3, p0⟩] S1x2020x768.size (by rfl) y

/-! ## The body's triple -/

set_option maxHeartbeats 1000000 in
/-- The kernel body on whole staging memrefs, the inputs' at read contents `xW` and the output's at anything, runs to
    the continuation holding the inputs' as they were and the output's at `out1_3` of the inputs': the three loads of
    the first part, the load of the output's buffer (whatever it holds; the value is dropped), and the one store. -/
theorem sound_kernel1 (c : Dev nD) (E : Set ℕ) (i : grid1.Coords) (arg1 : Memref sig .tc .vmem S1x8x768 .f32) (harg1 : arg1.IsWhole) (arg2 : Memref sig .tc .vmem S1x256x768 .f32) (harg2 : arg2.IsWhole) (arg3 : Memref sig .tc .vmem S1x768 .f32) (harg3 : arg3.IsWhole) (arg4 : Memref sig .tc .vmem S1x2020x768 .f32) (harg4 : arg4.IsWhole)
    (x0 : Vec F S1x8x768 .f32) (x1 : Vec F S1x256x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__tri_kernel i arg1 harg1 arg2 harg2 arg3 harg3 arg4 harg4) K := by
  simp only [cc1__tri_kernel_eq_skeleton]; unfold cc1__tri_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    class's (`Pipeline.ΦA`: the scoped rest and the generator register, untouched); nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KI.Reg2.lean ====
/- Region 2 of @main (triangular chunk 2 of 32, `cc2__tri_kernel`, pipeline 2, grid [4] over the batch), at the
   TensorCore's buffer contents `V` when the region is entered. Four windows: 0 = the eight rows of the first product
   this chunk pairs off (block [1,8,768] of [4,8,768]), 1 = the 248 rows of the second product they are paired with
   (block [1,248,768] of [4,248,768]), 2 = the bias row ([1,768], one block, fetched at the first point and kept),
   3 = the chunk's result (block [1,1956,768] of [4,1956,768], 1956 = 248 + 247 + … + 241, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out2_3`),
   and each input buffer is left as found: this is what the pipeline's proof data `dat2` record, and
   `body_obligation2` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 2 of @main: custom_call 2, `cc2__tri_kernel` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2 (the bias row: its one block is fetched at the first point only, and every later point
    finds it where the first left it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Each staging buffer is read, and the result's written, whole. -/
abbrev r2_0 : Rect S1x8x768 := Rect.unit (s := S1x8x768) ![0, 0, 0] S1x8x768.size inb_S1x8x768_S1x8x768_0_0_0
abbrev r2_1 : Rect S1x248x768 := Rect.unit (s := S1x248x768) ![0, 0, 0] S1x248x768.size inb_S1x248x768_S1x248x768_0_0_0
abbrev r2_2 : Rect S1x768 := Rect.unit (s := S1x768) ![0, 0] S1x768.size inb_S1x768_S1x768_0_0
abbrev r2_3 : Rect S1x1956x768 := Rect.unit (s := S1x1956x768) ![0, 0, 0] S1x1956x768.size inb_S1x1956x768_S1x1956x768_0_0_0

/-! ## What the body leaves in the output window's buffer -/

/-- Window 3's staging buffer after the body, from the input windows' blocks: its one store, of the whole block —
    the eight row-broadcast sums under tanh, concatenated (the payloads are the skeleton's, over the three loads). -/
noncomputable def out2_3 (x0 : Vec F S1x8x768 .f32) (x1 : Vec F S1x248x768 .f32) (x2 : Vec F S1x768 .f32) : Vec F S1x1956x768 .f32 :=
  View.canon [⟨r2_3, k2_pay1 (k2_pay2 (View.ld x0 r2_0)) (k2_pay3 (View.ld x1 r2_1)) (k2_pay4 (View.ld x2 r2_2))
    (k2_pay5 (View.ld x0 r2_0) (View.ld x1 r2_1) (View.ld x2 r2_2)) (k2_pay6 (View.ld x0 r2_0) (View.ld x1 r2_1) (View.ld x2 r2_2))
    (k2_pay7 (View.ld x0 r2_0) (View.ld x1 r2_1) (View.ld x2 r2_2)) (k2_pay8 (View.ld x0 r2_0) (View.ld x1 r2_1) (View.ld x2 r2_2))
    (k2_pay9 (View.ld x0 r2_0) (View.ld x1 r2_1) (View.ld x2 r2_2)) (k2_pay10 (View.ld x0 r2_0) (View.ld x1 r2_1) (View.ld x2 r2_2))
    (k2_pay11 (View.ld x0 r2_0) (View.ld x1 r2_1))⟩]

/-- The store is of the whole block, so it covers the buffer (checked by evaluation). -/
theorem cover2_3 (p0 : Vec F S1x1956x768 .f32) (y : S1x1956x768.Idx) :
    ∃ pc ∈ ([⟨r2_3, p0⟩] : List (View.Piece (Elt F) S1x1956x768 .f32)), y ∈ pc.1.set :=
  View.cover_of_tiled [⟨r2_3, p0⟩] S1x1956x768.size (by rfl) y

/-! ## The body's triple -/

set_option maxHeartbeats 1000000 in
/-- The kernel body on whole staging memrefs, the inputs' at read contents `xW` and the output's at anything, runs to
    the continuation holding the inputs' as they were and the output's at `out2_3` of the inputs': the three loads of
    the first part, the load of the output's buffer (whatever it holds; the value is dropped), and the one store. -/
theorem sound_kernel2 (c : Dev nD) (E : Set ℕ) (i : grid2.Coords) (arg1 : Memref sig .tc .vmem S1x8x768 .f32) (harg1 : arg1.IsWhole) (arg2 : Memref sig .tc .vmem S1x248x768 .f32) (harg2 : arg2.IsWhole) (arg3 : Memref sig .tc .vmem S1x768 .f32) (harg3 : arg3.IsWhole) (arg4 : Memref sig .tc .vmem S1x1956x768 .f32) (harg4 : arg4.IsWhole)
    (x0 : Vec F S1x8x768 .f32) (x1 : Vec F S1x248x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__tri_kernel i arg1 harg1 arg2 harg2 arg3 harg3 arg4 harg4) K := by
  simp only [cc2__tri_kernel_eq_skeleton]; unfold cc2__tri_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant the
    class's (`Pipeline.ΦA`: the scoped rest and the generator register, untouched); nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the proof data's definition projected, by `dsimp`). -/
theorem A_eq2 (c : Dev nD) (w : Fin cfg2.W) : (dat2 V c).A w = V c (Pipeline.arrRef spec2 w) := by
  dsimp only [dat2]

/-- What the body leaves, window by window (the proof data's `match` reduced by `dsimp`, never `rfl`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.KI.Reg3.lean ====
/- Region 3 of @main (triangular chunk 3 of 32, `cc3__tri_kernel`, pipeline 3, grid [4] over the batch), at the
   TensorCore's buffer contents `V` when the region is entered. Four windows: 0 = the eight rows of the first product
   this chunk pairs off (block [1,8,768] of [4,8,768]), 1 = the 240 rows of the second product they are paired with
   (block [1,240,768] of [4,240,768]), 2 = the bias row ([1,768], one block, fetched at the first point and kept),
   3 = the chunk's result (block [1,1892,768] of [4,1892,768], 1892 = 240 + 239 + … + 233, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out3_3`),
   and each input buffer is left as found: this is what the pipeline's proof data `dat3` record, and
   `body_obligation3` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 3 of @main: custom_call 3, `cc3__tri_kernel` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2 (the bias row: its one block is fetched at the first point only, and every later point
    finds it where the first left it). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Each staging buffer is read, and the result's written, whole. -/
abbrev r3_0 : Rect S1x8x768 := Rect.unit (s := S1x8x768) ![0, 0, 0] S1x8x768.size inb_S1x8x768_S1x8x768_0_0_0
abbrev r3_1 : Rect S1x240x768 := Rect.unit (s := S1x240x768) ![0, 0, 0] S1x240x768.size inb_S1x240x768_S1x240x768_0_0_0
abbrev r3_2 : Rect S1x768 := Rect.unit (s := S1x768) ![0, 0] S1x768.size inb_S1x768_S1x768_0_0
abbrev r3_3 : Rect S1x1892x768 := Rect.unit (s := S1x1892x768) ![0, 0, 0] S1x1892x768.size inb_S1x1892x768_S1x1892x768_0_0_0

/-! ## What the body leaves in the output window's buffer -/

/-- Window 3's staging buffer after the body, from the input windows' blocks: its one store, of the whole block —
    the eight row-broadcast sums under tanh, concatenated (the payloads are the skeleton's, over the three loads). -/
noncomputable def out3_3 (x0 : Vec F S1x8x768 .f32) (x1 : Vec F S1x240x768 .f32) (x2 : Vec F S1x768 .f32) : Vec F S1x1892x768 .f32 :=
  View.canon [⟨r3_3, k3_pay1 (k3_pay2 (View.ld x0 r3_0)) (k3_pay3 (View.ld x1 r3_1)) (k3_pay4 (View.ld x2 r3_2))
    (k3_pay5 (View.ld x0 r3_0) (View.ld x1 r3_1) (View.ld x2 r3_2)) (k3_pay6 (View.ld x0 r3_0) (View.ld x1 r3_1) (View.ld x2 r3_2))
    (k3_pay7 (View.ld x0 r3_0) (View.ld x1 r3_1) (View.ld x2 r3_2)) (k3_pay8 (View.ld x0 r3_0) (View.ld x1 r3_1) (View.ld x2 r3_2))
    (k3_pay9 (View.ld x0 r3_0) (View.ld x1 r3_1) (View.ld x2 r3_2)) (k3_pay10 (View.ld x0 r3_0) (View.ld x1 r3_1) (View.ld x2 r3_2))
    (k3_pay11 (View.ld x0 r3_0) (View.ld x1 r3_1))⟩]

/-- The store is of the whole block, so it covers the buffer (checked by evaluation). -/
theorem cover3_3 (p0 : Vec F S1x1892x768 .f32) (y : S1x1892x768.Idx) :
    ∃ pc ∈ ([⟨r3_3, p0⟩] : List (View.Piece (Elt F) S1x1892x768 .f32)), y ∈ pc.1.set :=
  View.cover_of_tiled [⟨r3_3, p0⟩] S1x1892x768.size (by rfl) y

/-! ## The body's triple -/

set_option maxHeartbeats 1000000 in
/-- The kernel body on whole staging memrefs, the inputs' at read contents `xW` and the output's at anything, runs to
    the continuation holding the inputs' as they were and the output's at `out3_3` of the inputs': the three loads of
    the first part, the load of the output's buffer (whatever it holds; the value is dropped), and the one store. -/
theorem sound_kernel3 (c : Dev nD) (E : Set ℕ) (i : grid3.Coords) (arg1 : Memref sig .tc .vmem S1x8x768 .f32) (harg1 : arg1.IsWhole) (arg2 : Memref sig .tc .vmem S1x240x768 .f32) (harg2 : arg2.IsWhole) (arg3 : Memref sig .tc .vmem S1x768 .f32) (harg3 : arg3.IsWhole) (arg4 : Memref sig .tc .vmem S1x1892x768 .f32) (harg4 : arg4.IsWhole)
    (x0 : Vec F S1x8x768 .f32) (x1 : Vec F S1x240x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__tri_kernel i arg1 harg1 arg2 harg2 arg3 harg3 arg4 harg4) K := by
  simp only [cc3__tri_kernel_eq_skeleton]; unfold cc3__tri_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant the
    class's (`Pipeline.ΦA`: the scoped rest and the generator register, untouched); nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`, never `rfl`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Fr

end
-- ==== Proof.KI.Reg4.lean ====
/- Region 4 of @main (triangular chunk 4 of 32, `cc4__tri_kernel`, pipeline 4, grid [4] over the batch), at the
   TensorCore's buffer contents `V` when the region is entered. Four windows: 0 = the eight rows of the first product
   this chunk pairs off (block [1,8,768] of [4,8,768]), 1 = the 232 rows of the second product they are paired with
   (block [1,232,768] of [4,232,768]), 2 = the bias row ([1,768], one block, fetched at the first point and kept),
   3 = the chunk's result (block [1,1828,768] of [4,1828,768], 1828 = 232 + 231 + … + 225, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out4_3`),
   and each input buffer is left as found: this is what the pipeline's proof data `dat4` record, and
   `body_obligation4` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 4 of @main: custom_call 4, `cc4__tri_kernel` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2 (the bias row: its one block is fetched at the first point only, and every later point
    finds it where the first left it). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- Each staging buffer is read, and the result's written, whole. -/
abbrev r4_0 : Rect S1x8x768 := Rect.unit (s := S1x8x768) ![0, 0, 0] S1x8x768.size inb_S1x8x768_S1x8x768_0_0_0
abbrev r4_1 : Rect S1x232x768 := Rect.unit (s := S1x232x768) ![0, 0, 0] S1x232x768.size inb_S1x232x768_S1x232x768_0_0_0
abbrev r4_2 : Rect S1x768 := Rect.unit (s := S1x768) ![0, 0] S1x768.size inb_S1x768_S1x768_0_0
abbrev r4_3 : Rect S1x1828x768 := Rect.unit (s := S1x1828x768) ![0, 0, 0] S1x1828x768.size inb_S1x1828x768_S1x1828x768_0_0_0

/-! ## What the body leaves in the output window's buffer -/

/-- Window 3's staging buffer after the body, from the input windows' blocks: its one store, of the whole block —
    the eight row-broadcast sums under tanh, concatenated (the payloads are the skeleton's, over the three loads). -/
noncomputable def out4_3 (x0 : Vec F S1x8x768 .f32) (x1 : Vec F S1x232x768 .f32) (x2 : Vec F S1x768 .f32) : Vec F S1x1828x768 .f32 :=
  View.canon [⟨r4_3, k4_pay1 (k4_pay2 (View.ld x0 r4_0)) (k4_pay3 (View.ld x1 r4_1)) (k4_pay4 (View.ld x2 r4_2))
    (k4_pay5 (View.ld x0 r4_0) (View.ld x1 r4_1) (View.ld x2 r4_2)) (k4_pay6 (View.ld x0 r4_0) (View.ld x1 r4_1) (View.ld x2 r4_2))
    (k4_pay7 (View.ld x0 r4_0) (View.ld x1 r4_1) (View.ld x2 r4_2)) (k4_pay8 (View.ld x0 r4_0) (View.ld x1 r4_1) (View.ld x2 r4_2))
    (k4_pay9 (View.ld x0 r4_0) (View.ld x1 r4_1) (View.ld x2 r4_2)) (k4_pay10 (View.ld x0 r4_0) (View.ld x1 r4_1) (View.ld x2 r4_2))
    (k4_pay11 (View.ld x0 r4_0) (View.ld x1 r4_1))⟩]

/-- The store is of the whole block, so it covers the buffer (checked by evaluation). -/
theorem cover4_3 (p0 : Vec F S1x1828x768 .f32) (y : S1x1828x768.Idx) :
    ∃ pc ∈ ([⟨r4_3, p0⟩] : List (View.Piece (Elt F) S1x1828x768 .f32)), y ∈ pc.1.set :=
  View.cover_of_tiled [⟨r4_3, p0⟩] S1x1828x768.size (by rfl) y

/-! ## The body's triple -/

set_option maxHeartbeats 1000000 in
/-- The kernel body on whole staging memrefs, the inputs' at read contents `xW` and the output's at anything, runs to
    the continuation holding the inputs' as they were and the output's at `out4_3` of the inputs': the three loads of
    the first part, the load of the output's buffer (whatever it holds; the value is dropped), and the one store. -/
theorem sound_kernel4 (c : Dev nD) (E : Set ℕ) (i : grid4.Coords) (arg1 : Memref sig .tc .vmem S1x8x768 .f32) (harg1 : arg1.IsWhole) (arg2 : Memref sig .tc .vmem S1x232x768 .f32) (harg2 : arg2.IsWhole) (arg3 : Memref sig .tc .vmem S1x768 .f32) (harg3 : arg3.IsWhole) (arg4 : Memref sig .tc .vmem S1x1828x768 .f32) (harg4 : arg4.IsWhole)
    (x0 : Vec F S1x8x768 .f32) (x1 : Vec F S1x232x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__tri_kernel i arg1 harg1 arg2 harg2 arg3 harg3 arg4 harg4) K := by
  simp only [cc4__tri_kernel_eq_skeleton]; unfold cc4__tri_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at
    point `t` each input's buffer at its block and the output's at `out4_3` of the input blocks; the invariant the
    class's (`Pipeline.ΦA`: the scoped rest and the generator register, untouched); nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- What the body leaves, window by window (the proof data's `match` reduced by `dsimp`, never `rfl`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Fr

end
-- ==== Proof.KI.Reg5.lean ====
/- Region 5 of @main (triangular chunk 5 of 32, `cc5__tri_kernel`, pipeline 5, grid [4] over the batch), at the
   TensorCore's buffer contents `V` when the region is entered. Four windows: 0 = the eight rows of the first product
   this chunk pairs off (block [1,8,768] of [4,8,768]), 1 = the 224 rows of the second product they are paired with
   (block [1,224,768] of [4,224,768]), 2 = the bias row ([1,768], one block, fetched at the first point and kept),
   3 = the chunk's result (block [1,1764,768] of [4,1764,768], 1764 = 224 + 223 + … + 217, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out5_3`),
   and each input buffer is left as found: this is what the pipeline's proof data `dat5` record, and
   `body_obligation5` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 5 of @main: custom_call 5, `cc5__tri_kernel` (pipeline 5), at the entry contents `V` -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The same of input window 2 (the bias row: its one block is fetched at the first point only, and every later point
    finds it where the first left it). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Each staging buffer is read, and the result's written, whole. -/
abbrev r5_0 : Rect S1x8x768 := Rect.unit (s := S1x8x768) ![0, 0, 0] S1x8x768.size inb_S1x8x768_S1x8x768_0_0_0
abbrev r5_1 : Rect S1x224x768 := Rect.unit (s := S1x224x768) ![0, 0, 0] S1x224x768.size inb_S1x224x768_S1x224x768_0_0_0
abbrev r5_2 : Rect S1x768 := Rect.unit (s := S1x768) ![0, 0] S1x768.size inb_S1x768_S1x768_0_0
abbrev r5_3 : Rect S1x1764x768 := Rect.unit (s := S1x1764x768) ![0, 0, 0] S1x1764x768.size inb_S1x1764x768_S1x1764x768_0_0_0

/-! ## What the body leaves in the output window's buffer -/

/-- Window 3's staging buffer after the body, from the input windows' blocks: its one store, of the whole block —
    the eight row-broadcast sums under tanh, concatenated (the payloads are the skeleton's, over the three loads). -/
noncomputable def out5_3 (x0 : Vec F S1x8x768 .f32) (x1 : Vec F S1x224x768 .f32) (x2 : Vec F S1x768 .f32) : Vec F S1x1764x768 .f32 :=
  View.canon [⟨r5_3, k5_pay1 (k5_pay2 (View.ld x0 r5_0)) (k5_pay3 (View.ld x1 r5_1)) (k5_pay4 (View.ld x2 r5_2))
    (k5_pay5 (View.ld x0 r5_0) (View.ld x1 r5_1) (View.ld x2 r5_2)) (k5_pay6 (View.ld x0 r5_0) (View.ld x1 r5_1) (View.ld x2 r5_2))
    (k5_pay7 (View.ld x0 r5_0) (View.ld x1 r5_1) (View.ld x2 r5_2)) (k5_pay8 (View.ld x0 r5_0) (View.ld x1 r5_1) (View.ld x2 r5_2))
    (k5_pay9 (View.ld x0 r5_0) (View.ld x1 r5_1) (View.ld x2 r5_2)) (k5_pay10 (View.ld x0 r5_0) (View.ld x1 r5_1) (View.ld x2 r5_2))
    (k5_pay11 (View.ld x0 r5_0) (View.ld x1 r5_1))⟩]

/-- The store is of the whole block, so it covers the buffer (checked by evaluation). -/
theorem cover5_3 (p0 : Vec F S1x1764x768 .f32) (y : S1x1764x768.Idx) :
    ∃ pc ∈ ([⟨r5_3, p0⟩] : List (View.Piece (Elt F) S1x1764x768 .f32)), y ∈ pc.1.set :=
  View.cover_of_tiled [⟨r5_3, p0⟩] S1x1764x768.size (by rfl) y

/-! ## The body's triple -/

set_option maxHeartbeats 1000000 in
/-- The kernel body on whole staging memrefs, the inputs' at read contents `xW` and the output's at anything, runs to
    the continuation holding the inputs' as they were and the output's at `out5_3` of the inputs': the three loads of
    the first part, the load of the output's buffer (whatever it holds; the value is dropped), and the one store. -/
theorem sound_kernel5 (c : Dev nD) (E : Set ℕ) (i : grid5.Coords) (arg1 : Memref sig .tc .vmem S1x8x768 .f32) (harg1 : arg1.IsWhole) (arg2 : Memref sig .tc .vmem S1x224x768 .f32) (harg2 : arg2.IsWhole) (arg3 : Memref sig .tc .vmem S1x768 .f32) (harg3 : arg3.IsWhole) (arg4 : Memref sig .tc .vmem S1x1764x768 .f32) (harg4 : arg4.IsWhole)
    (x0 : Vec F S1x8x768 .f32) (x1 : Vec F S1x224x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__tri_kernel i arg1 harg1 arg2 harg2 arg3 harg3 arg4 harg4) K := by
  simp only [cc5__tri_kernel_eq_skeleton]; unfold cc5__tri_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant the
    class's (`Pipeline.ΦA`: the scoped rest and the generator register, untouched); nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`, never `rfl`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the body obligation's precondition, the windows one by one), -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Fr

end
-- ==== Proof.KI.Reg6.lean ====
/- Region 6 of @main (triangular chunk 6 of 32, `cc6__tri_kernel`, pipeline 6, grid [4] over the batch), at the
   TensorCore's buffer contents `V` when the region is entered. Four windows: 0 = the eight rows of the first product
   this chunk pairs off (block [1,8,768] of [4,8,768]), 1 = the 216 rows of the second product they are paired with
   (block [1,216,768] of [4,216,768]), 2 = the bias row ([1,768], one block, fetched at the first point and kept),
   3 = the chunk's result (block [1,1700,768] of [4,1700,768], 1700 = 216 + 215 + … + 209, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out6_3`),
   and each input buffer is left as found: this is what the pipeline's proof data `dat6` record, and
   `body_obligation6` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 6 of @main: custom_call 6, `cc6__tri_kernel` (pipeline 6), at the entry contents `V` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same of input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same of input window 2 (the bias row: its one block is fetched at the first point only, and every later point
    finds it where the first left it). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- Each staging buffer is read, and the result's written, whole. -/
abbrev r6_0 : Rect S1x8x768 := Rect.unit (s := S1x8x768) ![0, 0, 0] S1x8x768.size inb_S1x8x768_S1x8x768_0_0_0
abbrev r6_1 : Rect S1x216x768 := Rect.unit (s := S1x216x768) ![0, 0, 0] S1x216x768.size inb_S1x216x768_S1x216x768_0_0_0
abbrev r6_2 : Rect S1x768 := Rect.unit (s := S1x768) ![0, 0] S1x768.size inb_S1x768_S1x768_0_0
abbrev r6_3 : Rect S1x1700x768 := Rect.unit (s := S1x1700x768) ![0, 0, 0] S1x1700x768.size inb_S1x1700x768_S1x1700x768_0_0_0

/-! ## What the body leaves in the output window's buffer -/

/-- Window 3's staging buffer after the body, from the input windows' blocks: its one store, of the whole block —
    the eight row-broadcast sums under tanh, concatenated (the payloads are the skeleton's, over the three loads). -/
noncomputable def out6_3 (x0 : Vec F S1x8x768 .f32) (x1 : Vec F S1x216x768 .f32) (x2 : Vec F S1x768 .f32) : Vec F S1x1700x768 .f32 :=
  View.canon [⟨r6_3, k6_pay1 (k6_pay2 (View.ld x0 r6_0)) (k6_pay3 (View.ld x1 r6_1)) (k6_pay4 (View.ld x2 r6_2))
    (k6_pay5 (View.ld x0 r6_0) (View.ld x1 r6_1) (View.ld x2 r6_2)) (k6_pay6 (View.ld x0 r6_0) (View.ld x1 r6_1) (View.ld x2 r6_2))
    (k6_pay7 (View.ld x0 r6_0) (View.ld x1 r6_1) (View.ld x2 r6_2)) (k6_pay8 (View.ld x0 r6_0) (View.ld x1 r6_1) (View.ld x2 r6_2))
    (k6_pay9 (View.ld x0 r6_0) (View.ld x1 r6_1) (View.ld x2 r6_2)) (k6_pay10 (View.ld x0 r6_0) (View.ld x1 r6_1) (View.ld x2 r6_2))
    (k6_pay11 (View.ld x0 r6_0) (View.ld x1 r6_1))⟩]

/-- The store is of the whole block, so it covers the buffer (checked by evaluation). -/
theorem cover6_3 (p0 : Vec F S1x1700x768 .f32) (y : S1x1700x768.Idx) :
    ∃ pc ∈ ([⟨r6_3, p0⟩] : List (View.Piece (Elt F) S1x1700x768 .f32)), y ∈ pc.1.set :=
  View.cover_of_tiled [⟨r6_3, p0⟩] S1x1700x768.size (by rfl) y

/-! ## The body's triple -/

set_option maxHeartbeats 1000000 in
/-- The kernel body on whole staging memrefs, the inputs' at read contents `xW` and the output's at anything, runs to
    the continuation holding the inputs' as they were and the output's at `out6_3` of the inputs': the three loads of
    the first part, the load of the output's buffer (whatever it holds; the value is dropped), and the one store. -/
theorem sound_kernel6 (c : Dev nD) (E : Set ℕ) (i : grid6.Coords) (arg1 : Memref sig .tc .vmem S1x8x768 .f32) (harg1 : arg1.IsWhole) (arg2 : Memref sig .tc .vmem S1x216x768 .f32) (harg2 : arg2.IsWhole) (arg3 : Memref sig .tc .vmem S1x768 .f32) (harg3 : arg3.IsWhole) (arg4 : Memref sig .tc .vmem S1x1700x768 .f32) (harg4 : arg4.IsWhole)
    (x0 : Vec F S1x8x768 .f32) (x1 : Vec F S1x216x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__tri_kernel i arg1 harg1 arg2 harg2 arg3 harg3 arg4 harg4) K := by
  simp only [cc6__tri_kernel_eq_skeleton]; unfold cc6__tri_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant the
    class's (`Pipeline.ΦA`: the scoped rest and the generator register, untouched); nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the proof data's definition projected, by `dsimp`). -/
theorem A_eq6 (c : Dev nD) (w : Fin cfg6.W) : (dat6 V c).A w = V c (Pipeline.arrRef spec6 w) := by
  dsimp only [dat6]

/-- What the body leaves, window by window (the proof data's `match` reduced by `dsimp`, never `rfl`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not (`before6_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the body obligation's precondition, the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Fr

end
-- ==== Proof.KI.Reg7.lean ====
/- Region 7 of @main (triangular chunk 7 of 32, `cc7__tri_kernel`, pipeline 7, grid [4] over the batch), at the
   TensorCore's buffer contents `V` when the region is entered. Four windows: 0 = the eight rows of the first product
   this chunk pairs off (block [1,8,768] of [4,8,768]), 1 = the 208 rows of the second product they are paired with
   (block [1,208,768] of [4,208,768]), 2 = the bias row ([1,768], one block, fetched at the first point and kept),
   3 = the chunk's result (block [1,1636,768] of [4,1636,768], 1636 = 208 + 207 + … + 201, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out7_3`),
   and each input buffer is left as found: this is what the pipeline's proof data `dat7` record, and
   `body_obligation7` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 7 of @main: custom_call 7, `cc7__tri_kernel` (pipeline 7), at the entry contents `V` -/

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same of input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same of input window 2 (the bias row: its one block is fetched at the first point only, and every later point
    finds it where the first left it). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- Each staging buffer is read, and the result's written, whole. -/
abbrev r7_0 : Rect S1x8x768 := Rect.unit (s := S1x8x768) ![0, 0, 0] S1x8x768.size inb_S1x8x768_S1x8x768_0_0_0
abbrev r7_1 : Rect S1x208x768 := Rect.unit (s := S1x208x768) ![0, 0, 0] S1x208x768.size inb_S1x208x768_S1x208x768_0_0_0
abbrev r7_2 : Rect S1x768 := Rect.unit (s := S1x768) ![0, 0] S1x768.size inb_S1x768_S1x768_0_0
abbrev r7_3 : Rect S1x1636x768 := Rect.unit (s := S1x1636x768) ![0, 0, 0] S1x1636x768.size inb_S1x1636x768_S1x1636x768_0_0_0

/-! ## What the body leaves in the output window's buffer -/

/-- Window 3's staging buffer after the body, from the input windows' blocks: its one store, of the whole block —
    the eight row-broadcast sums under tanh, concatenated (the payloads are the skeleton's, over the three loads). -/
noncomputable def out7_3 (x0 : Vec F S1x8x768 .f32) (x1 : Vec F S1x208x768 .f32) (x2 : Vec F S1x768 .f32) : Vec F S1x1636x768 .f32 :=
  View.canon [⟨r7_3, k7_pay1 (k7_pay2 (View.ld x0 r7_0)) (k7_pay3 (View.ld x1 r7_1)) (k7_pay4 (View.ld x2 r7_2))
    (k7_pay5 (View.ld x0 r7_0) (View.ld x1 r7_1) (View.ld x2 r7_2)) (k7_pay6 (View.ld x0 r7_0) (View.ld x1 r7_1) (View.ld x2 r7_2))
    (k7_pay7 (View.ld x0 r7_0) (View.ld x1 r7_1) (View.ld x2 r7_2)) (k7_pay8 (View.ld x0 r7_0) (View.ld x1 r7_1) (View.ld x2 r7_2))
    (k7_pay9 (View.ld x0 r7_0) (View.ld x1 r7_1) (View.ld x2 r7_2)) (k7_pay10 (View.ld x0 r7_0) (View.ld x1 r7_1) (View.ld x2 r7_2))
    (k7_pay11 (View.ld x0 r7_0) (View.ld x1 r7_1))⟩]

/-- The store is of the whole block, so it covers the buffer (checked by evaluation). -/
theorem cover7_3 (p0 : Vec F S1x1636x768 .f32) (y : S1x1636x768.Idx) :
    ∃ pc ∈ ([⟨r7_3, p0⟩] : List (View.Piece (Elt F) S1x1636x768 .f32)), y ∈ pc.1.set :=
  View.cover_of_tiled [⟨r7_3, p0⟩] S1x1636x768.size (by rfl) y

/-! ## The body's triple -/

set_option maxHeartbeats 1000000 in
/-- The kernel body on whole staging memrefs, the inputs' at read contents `xW` and the output's at anything, runs to
    the continuation holding the inputs' as they were and the output's at `out7_3` of the inputs': the three loads of
    the first part, the load of the output's buffer (whatever it holds; the value is dropped), and the one store. -/
theorem sound_kernel7 (c : Dev nD) (E : Set ℕ) (i : grid7.Coords) (arg1 : Memref sig .tc .vmem S1x8x768 .f32) (harg1 : arg1.IsWhole) (arg2 : Memref sig .tc .vmem S1x208x768 .f32) (harg2 : arg2.IsWhole) (arg3 : Memref sig .tc .vmem S1x768 .f32) (harg3 : arg3.IsWhole) (arg4 : Memref sig .tc .vmem S1x1636x768 .f32) (harg4 : arg4.IsWhole)
    (x0 : Vec F S1x8x768 .f32) (x1 : Vec F S1x208x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__tri_kernel i arg1 harg1 arg2 harg2 arg3 harg3 arg4 harg4) K := by
  simp only [cc7__tri_kernel_eq_skeleton]; unfold cc7__tri_kernel_skel
  simp only [k7_part1_eq_skeleton]; unfold k7_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at
    point `t` each input's buffer at its block and the output's at `out7_3` of the input blocks; the invariant the
    class's (`Pipeline.ΦA`: the scoped rest and the generator register, untouched); nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`, never `rfl`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the body obligation's precondition, the windows one by one), -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Fr

end
-- ==== Proof.KI.Reg8.lean ====
/- Region 8 of @main (triangular chunk 8 of 32, `cc8__tri_kernel`, pipeline 8, grid [4] over the batch), at the
   TensorCore's buffer contents `V` when the region is entered. Four windows: 0 = the eight rows of the first product
   this chunk pairs off (block [1,8,768] of [4,8,768]), 1 = the 200 rows of the second product they are paired with
   (block [1,200,768] of [4,200,768]), 2 = the bias row ([1,768], one block, fetched at the first point and kept),
   3 = the chunk's result (block [1,1572,768] of [4,1572,768], 1572 = 200 + 199 + … + 193, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out8_3`),
   and each input buffer is left as found: this is what the pipeline's proof data `dat8` record, and
   `body_obligation8` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 8 of @main: custom_call 8, `cc8__tri_kernel` (pipeline 8), at the entry contents `V` -/

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same of input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same of input window 2 (the bias row: its one block is fetched at the first point only, and every later point
    finds it where the first left it). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- Each staging buffer is read, and the result's written, whole. -/
abbrev r8_0 : Rect S1x8x768 := Rect.unit (s := S1x8x768) ![0, 0, 0] S1x8x768.size inb_S1x8x768_S1x8x768_0_0_0
abbrev r8_1 : Rect S1x200x768 := Rect.unit (s := S1x200x768) ![0, 0, 0] S1x200x768.size inb_S1x200x768_S1x200x768_0_0_0
abbrev r8_2 : Rect S1x768 := Rect.unit (s := S1x768) ![0, 0] S1x768.size inb_S1x768_S1x768_0_0
abbrev r8_3 : Rect S1x1572x768 := Rect.unit (s := S1x1572x768) ![0, 0, 0] S1x1572x768.size inb_S1x1572x768_S1x1572x768_0_0_0

/-! ## What the body leaves in the output window's buffer -/

/-- Window 3's staging buffer after the body, from the input windows' blocks: its one store, of the whole block —
    the eight row-broadcast sums under tanh, concatenated (the payloads are the skeleton's, over the three loads). -/
noncomputable def out8_3 (x0 : Vec F S1x8x768 .f32) (x1 : Vec F S1x200x768 .f32) (x2 : Vec F S1x768 .f32) : Vec F S1x1572x768 .f32 :=
  View.canon [⟨r8_3, k8_pay1 (k8_pay2 (View.ld x0 r8_0)) (k8_pay3 (View.ld x1 r8_1)) (k8_pay4 (View.ld x2 r8_2))
    (k8_pay5 (View.ld x0 r8_0) (View.ld x1 r8_1) (View.ld x2 r8_2)) (k8_pay6 (View.ld x0 r8_0) (View.ld x1 r8_1) (View.ld x2 r8_2))
    (k8_pay7 (View.ld x0 r8_0) (View.ld x1 r8_1) (View.ld x2 r8_2)) (k8_pay8 (View.ld x0 r8_0) (View.ld x1 r8_1) (View.ld x2 r8_2))
    (k8_pay9 (View.ld x0 r8_0) (View.ld x1 r8_1) (View.ld x2 r8_2)) (k8_pay10 (View.ld x0 r8_0) (View.ld x1 r8_1) (View.ld x2 r8_2))
    (k8_pay11 (View.ld x0 r8_0) (View.ld x1 r8_1))⟩]

/-- The store is of the whole block, so it covers the buffer (checked by evaluation). -/
theorem cover8_3 (p0 : Vec F S1x1572x768 .f32) (y : S1x1572x768.Idx) :
    ∃ pc ∈ ([⟨r8_3, p0⟩] : List (View.Piece (Elt F) S1x1572x768 .f32)), y ∈ pc.1.set :=
  View.cover_of_tiled [⟨r8_3, p0⟩] S1x1572x768.size (by rfl) y

/-! ## The body's triple -/

set_option maxHeartbeats 1000000 in
/-- The kernel body on whole staging memrefs, the inputs' at read contents `xW` and the output's at anything, runs to
    the continuation holding the inputs' as they were and the output's at `out8_3` of the inputs': the three loads of
    the first part, the load of the output's buffer (whatever it holds; the value is dropped), and the one store. -/
theorem sound_kernel8 (c : Dev nD) (E : Set ℕ) (i : grid8.Coords) (arg1 : Memref sig .tc .vmem S1x8x768 .f32) (harg1 : arg1.IsWhole) (arg2 : Memref sig .tc .vmem S1x200x768 .f32) (harg2 : arg2.IsWhole) (arg3 : Memref sig .tc .vmem S1x768 .f32) (harg3 : arg3.IsWhole) (arg4 : Memref sig .tc .vmem S1x1572x768 .f32) (harg4 : arg4.IsWhole)
    (x0 : Vec F S1x8x768 .f32) (x1 : Vec F S1x200x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__tri_kernel i arg1 harg1 arg2 harg2 arg3 harg3 arg4 harg4) K := by
  simp only [cc8__tri_kernel_eq_skeleton]; unfold cc8__tri_kernel_skel
  simp only [k8_part1_eq_skeleton]; unfold k8_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at
    point `t` each input's buffer at its block and the output's at `out8_3` of the input blocks; the invariant the
    class's (`Pipeline.ΦA`: the scoped rest and the generator register, untouched); nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the proof data's definition projected, by `dsimp`). -/
theorem A_eq8 (c : Dev nD) (w : Fin cfg8.W) : (dat8 V c).A w = V c (Pipeline.arrRef spec8 w) := by
  dsimp only [dat8]

/-- What the body leaves, window by window (the proof data's `match` reduced by `dsimp`, never `rfl`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not (`before8_W_of`). -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the body obligation's precondition, the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.KernelIdeal.Fr

end
-- ==== Proof.KI.Reg9.lean ====
/- Region 9 of @main (triangular chunk 9 of 32, `cc9__tri_kernel`, pipeline 9, grid [4] over the batch), at the
   TensorCore's buffer contents `V` when the region is entered. Four windows: 0 = the eight rows of the first product
   this chunk pairs off (block [1,8,768] of [4,8,768]), 1 = the 192 rows of the second product they are paired with
   (block [1,192,768] of [4,192,768]), 2 = the bias row ([1,768], one block, fetched at the first point and kept),
   3 = the chunk's result (block [1,1508,768] of [4,1508,768], 1508 = 192 + 191 + … + 185, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out9_3`),
   and each input buffer is left as found: this is what the pipeline's proof data `dat9` record, and
   `body_obligation9` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 9 of @main: custom_call 9, `cc9__tri_kernel` (pipeline 9), at the entry contents `V` -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same of input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same of input window 2 (the bias row: its one block is fetched at the first point only, and every later point
    finds it where the first left it). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- Each staging buffer is read, and the result's written, whole. -/
abbrev r9_0 : Rect S1x8x768 := Rect.unit (s := S1x8x768) ![0, 0, 0] S1x8x768.size inb_S1x8x768_S1x8x768_0_0_0
abbrev r9_1 : Rect S1x192x768 := Rect.unit (s := S1x192x768) ![0, 0, 0] S1x192x768.size inb_S1x192x768_S1x192x768_0_0_0
abbrev r9_2 : Rect S1x768 := Rect.unit (s := S1x768) ![0, 0] S1x768.size inb_S1x768_S1x768_0_0
abbrev r9_3 : Rect S1x1508x768 := Rect.unit (s := S1x1508x768) ![0, 0, 0] S1x1508x768.size inb_S1x1508x768_S1x1508x768_0_0_0

/-! ## What the body leaves in the output window's buffer -/

/-- Window 3's staging buffer after the body, from the input windows' blocks: its one store, of the whole block —
    the eight row-broadcast sums under tanh, concatenated (the payloads are the skeleton's, over the three loads). -/
noncomputable def out9_3 (x0 : Vec F S1x8x768 .f32) (x1 : Vec F S1x192x768 .f32) (x2 : Vec F S1x768 .f32) : Vec F S1x1508x768 .f32 :=
  View.canon [⟨r9_3, k9_pay1 (k9_pay2 (View.ld x0 r9_0)) (k9_pay3 (View.ld x1 r9_1)) (k9_pay4 (View.ld x2 r9_2))
    (k9_pay5 (View.ld x0 r9_0) (View.ld x1 r9_1) (View.ld x2 r9_2)) (k9_pay6 (View.ld x0 r9_0) (View.ld x1 r9_1) (View.ld x2 r9_2))
    (k9_pay7 (View.ld x0 r9_0) (View.ld x1 r9_1) (View.ld x2 r9_2)) (k9_pay8 (View.ld x0 r9_0) (View.ld x1 r9_1) (View.ld x2 r9_2))
    (k9_pay9 (View.ld x0 r9_0) (View.ld x1 r9_1) (View.ld x2 r9_2)) (k9_pay10 (View.ld x0 r9_0) (View.ld x1 r9_1) (View.ld x2 r9_2))
    (k9_pay11 (View.ld x0 r9_0) (View.ld x1 r9_1))⟩]

/-- The store is of the whole block, so it covers the buffer (checked by evaluation). -/
theorem cover9_3 (p0 : Vec F S1x1508x768 .f32) (y : S1x1508x768.Idx) :
    ∃ pc ∈ ([⟨r9_3, p0⟩] : List (View.Piece (Elt F) S1x1508x768 .f32)), y ∈ pc.1.set :=
  View.cover_of_tiled [⟨r9_3, p0⟩] S1x1508x768.size (by rfl) y

/-! ## The body's triple -/

set_option maxHeartbeats 1000000 in
/-- The kernel body on whole staging memrefs, the inputs' at read contents `xW` and the output's at anything, runs to
    the continuation holding the inputs' as they were and the output's at `out9_3` of the inputs': the three loads of
    the first part, the load of the output's buffer (whatever it holds; the value is dropped), and the one store. -/
theorem sound_kernel9 (c : Dev nD) (E : Set ℕ) (i : grid9.Coords) (arg1 : Memref sig .tc .vmem S1x8x768 .f32) (harg1 : arg1.IsWhole) (arg2 : Memref sig .tc .vmem S1x192x768 .f32) (harg2 : arg2.IsWhole) (arg3 : Memref sig .tc .vmem S1x768 .f32) (harg3 : arg3.IsWhole) (arg4 : Memref sig .tc .vmem S1x1508x768 .f32) (harg4 : arg4.IsWhole)
    (x0 : Vec F S1x8x768 .f32) (x1 : Vec F S1x192x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__tri_kernel i arg1 harg1 arg2 harg2 arg3 harg3 arg4 harg4) K := by
  simp only [cc9__tri_kernel_eq_skeleton]; unfold cc9__tri_kernel_skel
  simp only [k9_part1_eq_skeleton]; unfold k9_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at
    point `t` each input's buffer at its block and the output's at `out9_3` of the input blocks; the invariant the
    class's (`Pipeline.ΦA`: the scoped rest and the generator register, untouched); nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents (the proof data's definition projected, by `dsimp`). -/
theorem A_eq9 (c : Dev nD) (w : Fin cfg9.W) : (dat9 V c).A w = V c (Pipeline.arrRef spec9 w) := by
  dsimp only [dat9]

/-- What the body leaves, window by window (the proof data's `match` reduced by `dsimp`, never `rfl`). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not (`before9_W_of`). -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the body obligation's precondition, the windows one by one), -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.KernelIdeal.Fr

end
-- ==== Proof.KI.Reg10.lean ====
/- Region 10 of @main (triangular chunk 10 of 32, `cc10__tri_kernel`, pipeline 10, grid [4] over the batch), at the
   TensorCore's buffer contents `V` when the region is entered. Four windows: 0 = the eight rows of the first product
   this chunk pairs off (block [1,8,768] of [4,8,768]), 1 = the 184 rows of the second product they are paired with
   (block [1,184,768] of [4,184,768]), 2 = the bias row ([1,768], one block, fetched at the first point and kept),
   3 = the chunk's result (block [1,1444,768] of [4,1444,768], 1444 = 184 + 183 + … + 177, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out10_3`),
   and each input buffer is left as found: this is what the pipeline's proof data `dat10` record, and
   `body_obligation10` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 10 of @main: custom_call 10, `cc10__tri_kernel` (pipeline 10), at the entry contents `V` -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same of input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same of input window 2 (the bias row: its one block is fetched at the first point only, and every later point
    finds it where the first left it). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- Each staging buffer is read, and the result's written, whole. -/
abbrev r10_0 : Rect S1x8x768 := Rect.unit (s := S1x8x768) ![0, 0, 0] S1x8x768.size inb_S1x8x768_S1x8x768_0_0_0
abbrev r10_1 : Rect S1x184x768 := Rect.unit (s := S1x184x768) ![0, 0, 0] S1x184x768.size inb_S1x184x768_S1x184x768_0_0_0
abbrev r10_2 : Rect S1x768 := Rect.unit (s := S1x768) ![0, 0] S1x768.size inb_S1x768_S1x768_0_0
abbrev r10_3 : Rect S1x1444x768 := Rect.unit (s := S1x1444x768) ![0, 0, 0] S1x1444x768.size inb_S1x1444x768_S1x1444x768_0_0_0

/-! ## What the body leaves in the output window's buffer -/

/-- Window 3's staging buffer after the body, from the input windows' blocks: its one store, of the whole block —
    the eight row-broadcast sums under tanh, concatenated (the payloads are the skeleton's, over the three loads). -/
noncomputable def out10_3 (x0 : Vec F S1x8x768 .f32) (x1 : Vec F S1x184x768 .f32) (x2 : Vec F S1x768 .f32) : Vec F S1x1444x768 .f32 :=
  View.canon [⟨r10_3, k10_pay1 (k10_pay2 (View.ld x0 r10_0)) (k10_pay3 (View.ld x1 r10_1)) (k10_pay4 (View.ld x2 r10_2))
    (k10_pay5 (View.ld x0 r10_0) (View.ld x1 r10_1) (View.ld x2 r10_2)) (k10_pay6 (View.ld x0 r10_0) (View.ld x1 r10_1) (View.ld x2 r10_2))
    (k10_pay7 (View.ld x0 r10_0) (View.ld x1 r10_1) (View.ld x2 r10_2)) (k10_pay8 (View.ld x0 r10_0) (View.ld x1 r10_1) (View.ld x2 r10_2))
    (k10_pay9 (View.ld x0 r10_0) (View.ld x1 r10_1) (View.ld x2 r10_2)) (k10_pay10 (View.ld x0 r10_0) (View.ld x1 r10_1) (View.ld x2 r10_2))
    (k10_pay11 (View.ld x0 r10_0) (View.ld x1 r10_1))⟩]

/-- The store is of the whole block, so it covers the buffer (checked by evaluation). -/
theorem cover10_3 (p0 : Vec F S1x1444x768 .f32) (y : S1x1444x768.Idx) :
    ∃ pc ∈ ([⟨r10_3, p0⟩] : List (View.Piece (Elt F) S1x1444x768 .f32)), y ∈ pc.1.set :=
  View.cover_of_tiled [⟨r10_3, p0⟩] S1x1444x768.size (by rfl) y

/-! ## The body's triple -/

set_option maxHeartbeats 1000000 in
/-- The kernel body on whole staging memrefs, the inputs' at read contents `xW` and the output's at anything, runs to
    the continuation holding the inputs' as they were and the output's at `out10_3` of the inputs': the three loads of
    the first part, the load of the output's buffer (whatever it holds; the value is dropped), and the one store. -/
theorem sound_kernel10 (c : Dev nD) (E : Set ℕ) (i : grid10.Coords) (arg1 : Memref sig .tc .vmem S1x8x768 .f32) (harg1 : arg1.IsWhole) (arg2 : Memref sig .tc .vmem S1x184x768 .f32) (harg2 : arg2.IsWhole) (arg3 : Memref sig .tc .vmem S1x768 .f32) (harg3 : arg3.IsWhole) (arg4 : Memref sig .tc .vmem S1x1444x768 .f32) (harg4 : arg4.IsWhole)
    (x0 : Vec F S1x8x768 .f32) (x1 : Vec F S1x184x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2)) -∗ K ⟨⟩))
      ⊢ wp frame (wpE (defs₀ (F := F)) Variants.none c none) E (cc10__tri_kernel i arg1 harg1 arg2 harg2 arg3 harg3 arg4 harg4) K := by
  simp only [cc10__tri_kernel_eq_skeleton]; unfold cc10__tri_kernel_skel
  simp only [k10_part1_eq_skeleton]; unfold k10_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them (`V`); after the body at
    point `t` each input's buffer at its block and the output's at `out10_3` of the input blocks; the invariant the
    class's (`Pipeline.ΦA`: the scoped rest and the generator register, untouched); nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents (the proof data's definition projected, by `dsimp`). -/
theorem A_eq10 (c : Dev nD) (w : Fin cfg10.W) : (dat10 V c).A w = V c (Pipeline.arrRef spec10 w) := by
  dsimp only [dat10]

/-- What the body leaves, window by window (the proof data's `match` reduced by `dsimp`, never `rfl`). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

/-- Each input's current staging buffer holds its block at every point, fetched there or not (`before10_W_of`). -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t` (the body obligation's precondition, the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
noncomputable def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Regions

end Cert.KernelIdeal.Fr

end
-- ==== Proof.KI.Reg11.lean ====
/- Region 11 of @main (triangular chunk 11 of 32, `cc11__tri_kernel`, pipeline 11, grid [4] over the batch), at the
   TensorCore's buffer contents `V` when the region is entered. Four windows: 0 = the eight rows of the first product
   this chunk pairs off (block [1,8,768] of [4,8,768]), 1 = the 176 rows of the second product they are paired with
   (block [1,176,768] of [4,176,768]), 2 = the bias row ([1,768], one block, fetched at the first point and kept),
   3 = the chunk's result (block [1,1380,768] of [4,1380,768], 1380 = 176 + 175 + … + 169, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out11_3`),
   and each input buffer is left as found: this is what the pipeline's proof data `dat11` record, and
   `body_obligation11` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 11 of @main: custom_call 11, `cc11__tri_kernel` (pipeline 11), at the entry contents `V` -/

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The same of input window 1. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The same of input window 2 (the bias row: its one block is fetched at the first point only, and every later point
    finds it where the first left it). -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- Each staging buffer is read, and the result's written, whole. -/
abbrev r11_0 : Rect S1x8x768 := Rect.unit (s := S1x8x768) ![0, 0, 0] S1x8x768.size inb_S1x8x768_S1x8x768_0_0_0
abbrev r11_1 : Rect S1x176x768 := Rect.unit (s := S1x176x768) ![0, 0, 0] S1x176x768.size inb_S1x176x768_S1x176x768_0_0_0
abbrev r11_2 : Rect S1x768 := Rect.unit (s := S1x768) ![0, 0] S1x768.size inb_S1x768_S1x768_0_0
abbrev r11_3 : Rect S1x1380x768 := Rect.unit (s := S1x1380x768) ![0, 0, 0] S1x1380x768.size inb_S1x1380x768_S1x1380x768_0_0_0

/-! ## What the body leaves in the output window's buffer -/

/-- Window 3's staging buffer after the body, from the input windows' blocks: its one store, of the whole block —
    the eight row-broadcast sums under tanh, concatenated (the payloads are the skeleton's, over the three loads). -/
noncomputable def out11_3 (x0 : Vec F S1x8x768 .f32) (x1 : Vec F S1x176x768 .f32) (x2 : Vec F S1x768 .f32) : Vec F S1x1380x768 .f32 :=
  View.canon [⟨r11_3, k11_pay1 (k11_pay2 (View.ld x0 r11_0)) (k11_pay3 (View.ld x1 r11_1)) (k11_pay4 (View.ld x2 r11_2))
    (k11_pay5 (View.ld x0 r11_0) (View.ld x1 r11_1) (View.ld x2 r11_2)) (k11_pay6 (View.ld x0 r11_0) (View.ld x1 r11_1) (View.ld x2 r11_2))
    (k11_pay7 (View.ld x0 r11_0) (View.ld x1 r11_1) (View.ld x2 r11_2)) (k11_pay8 (View.ld x0 r11_0) (View.ld x1 r11_1) (View.ld x2 r11_2))
    (k11_pay9 (View.ld x0 r11_0) (View.ld x1 r11_1) (View.ld x2 r11_2)) (k11_pay10 (View.ld x0 r11_0) (View.ld x1 r11_1) (View.ld x2 r11_2))
    (k11_pay11 (View.ld x0 r11_0) (View.ld x1 r11_1))⟩]

/-- The store is of the whole block, so it covers the buffer (checked by evaluation). -/
theorem cover11_3 (p0 : Vec F S1x1380x768 .f32) (y : S1x1380x768.Idx) :
    ∃ pc ∈ ([⟨r11_3, p0⟩] : List (View.Piece (Elt F) S1x1380x768 .f32)), y ∈ pc.1.set :=
  View.cover_of_tiled [⟨r11_3, p0⟩] S1x1380x768.size (by rfl) y

/-! ## The body's triple -/

set_option maxHeartbeats 1000000 in
/-- The kernel body on whole staging memrefs, the inputs' at read contents `xW` and the output's at anything, runs to
    the continuation holding the inputs' as they were and the output's at `out11_3` of the inputs': the three loads of
    the first part, the load of the output's buffer (whatever it holds; the value is dropped), and the one store. -/
theorem sound_kernel11 (c : Dev nD) (E : Set ℕ) (i : grid11.Coords) (arg1 : Memref sig .tc .vmem S1x8x768 .f32) (harg1 : arg1.IsWhole) (arg2 : Memref sig .tc .vmem S1x176x768 .f32) (harg2 : arg2.IsWhole) (arg3 : Memref sig .tc .vmem S1x768 .f32) (harg3 : arg3.IsWhole) (arg4 : Memref sig .tc .vmem S1x1380x768 .f32) (harg4 : arg4.IsWhole)
    (x0 : Vec F S1x8x768 .f32) (x1 : Vec F S1x176x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__tri_kernel i arg1 harg1 arg2 harg2 arg3 harg3 arg4 harg4) K := by
  simp only [cc11__tri_kernel_eq_skeleton]; unfold cc11__tri_kernel_skel
  simp only [k11_part1_eq_skeleton]; unfold k11_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body at
    point `t` each input's buffer at its block and the output's at `out11_3` of the input blocks; the invariant the
    class's (`Pipeline.ΦA`: the scoped rest and the generator register, untouched); nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents (the proof data's definition projected, by `dsimp`). -/
theorem A_eq11 (c : Dev nD) (w : Fin cfg11.W) : (dat11 V c).A w = V c (Pipeline.arrRef spec11 w) := by
  dsimp only [dat11]

/-- What the body leaves, window by window (the proof data's `match` reduced by `dsimp`, never `rfl`). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point, fetched there or not (`before11_W_of`). -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t` (the body obligation's precondition, the windows one by one), -/
noncomputable def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
noncomputable def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.KernelIdeal.Fr

end
-- ==== Proof.KI.Reg12.lean ====
/- Region 12 of @main (triangular chunk 12 of 32, `cc12__tri_kernel`, pipeline 12, grid [4] over the batch), at the
   TensorCore's buffer contents `V` when the region is entered. Four windows: 0 = the eight rows of the first product
   this chunk pairs off (block [1,8,768] of [4,8,768]), 1 = the 168 rows of the second product they are paired with
   (block [1,168,768] of [4,168,768]), 2 = the bias row ([1,768], one block, fetched at the first point and kept),
   3 = the chunk's result (block [1,1316,768] of [4,1316,768], 1316 = 168 + 167 + … + 161, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out12_3`),
   and each input buffer is left as found: this is what the pipeline's proof data `dat12` record, and
   `body_obligation12` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 12 of @main: custom_call 12, `cc12__tri_kernel` (pipeline 12), at the entry contents `V` -/

/-! ## The windows' blocks -/

/-- Window `w`'s block at point `t`, read off its array as the region finds it (`V`). -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The same of input window 1. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- The same of input window 2 (the bias row: its one block is fetched at the first point only, and every later point
    finds it where the first left it). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- Each staging buffer is read, and the result's written, whole. -/
abbrev r12_0 : Rect S1x8x768 := Rect.unit (s := S1x8x768) ![0, 0, 0] S1x8x768.size inb_S1x8x768_S1x8x768_0_0_0
abbrev r12_1 : Rect S1x168x768 := Rect.unit (s := S1x168x768) ![0, 0, 0] S1x168x768.size inb_S1x168x768_S1x168x768_0_0_0
abbrev r12_2 : Rect S1x768 := Rect.unit (s := S1x768) ![0, 0] S1x768.size inb_S1x768_S1x768_0_0
abbrev r12_3 : Rect S1x1316x768 := Rect.unit (s := S1x1316x768) ![0, 0, 0] S1x1316x768.size inb_S1x1316x768_S1x1316x768_0_0_0

/-! ## What the body leaves in the output window's buffer -/

/-- Window 3's staging buffer after the body, from the input windows' blocks: its one store, of the whole block —
    the eight row-broadcast sums under tanh, concatenated (the payloads are the skeleton's, over the three loads). -/
noncomputable def out12_3 (x0 : Vec F S1x8x768 .f32) (x1 : Vec F S1x168x768 .f32) (x2 : Vec F S1x768 .f32) : Vec F S1x1316x768 .f32 :=
  View.canon [⟨r12_3, k12_pay1 (k12_pay2 (View.ld x0 r12_0)) (k12_pay3 (View.ld x1 r12_1)) (k12_pay4 (View.ld x2 r12_2))
    (k12_pay5 (View.ld x0 r12_0) (View.ld x1 r12_1) (View.ld x2 r12_2)) (k12_pay6 (View.ld x0 r12_0) (View.ld x1 r12_1) (View.ld x2 r12_2))
    (k12_pay7 (View.ld x0 r12_0) (View.ld x1 r12_1) (View.ld x2 r12_2)) (k12_pay8 (View.ld x0 r12_0) (View.ld x1 r12_1) (View.ld x2 r12_2))
    (k12_pay9 (View.ld x0 r12_0) (View.ld x1 r12_1) (View.ld x2 r12_2)) (k12_pay10 (View.ld x0 r12_0) (View.ld x1 r12_1) (View.ld x2 r12_2))
    (k12_pay11 (View.ld x0 r12_0) (View.ld x1 r12_1))⟩]

/-- The store is of the whole block, so it covers the buffer (checked by evaluation). -/
theorem cover12_3 (p0 : Vec F S1x1316x768 .f32) (y : S1x1316x768.Idx) :
    ∃ pc ∈ ([⟨r12_3, p0⟩] : List (View.Piece (Elt F) S1x1316x768 .f32)), y ∈ pc.1.set :=
  View.cover_of_tiled [⟨r12_3, p0⟩] S1x1316x768.size (by rfl) y

/-! ## The body's triple -/

set_option maxHeartbeats 1000000 in
/-- The kernel body on whole staging memrefs, the inputs' at read contents `xW` and the output's at anything, runs to
    the continuation holding the inputs' as they were and the output's at `out12_3` of the inputs': the three loads of
    the first part, the load of the output's buffer (whatever it holds; the value is dropped), and the one store. -/
theorem sound_kernel12 (c : Dev nD) (E : Set ℕ) (i : grid12.Coords) (arg1 : Memref sig .tc .vmem S1x8x768 .f32) (harg1 : arg1.IsWhole) (arg2 : Memref sig .tc .vmem S1x168x768 .f32) (harg2 : arg2.IsWhole) (arg3 : Memref sig .tc .vmem S1x768 .f32) (harg3 : arg3.IsWhole) (arg4 : Memref sig .tc .vmem S1x1316x768 .f32) (harg4 : arg4.IsWhole)
    (x0 : Vec F S1x8x768 .f32) (x1 : Vec F S1x168x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__tri_kernel i arg1 harg1 arg2 harg2 arg3 harg3 arg4 harg4) K := by
  simp only [cc12__tri_kernel_eq_skeleton]; unfold cc12__tri_kernel_skel
  simp only [k12_part1_eq_skeleton]; unfold k12_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 12 on core `c`: the arrays as the region finds them (`V`); after the body at
    point `t` each input's buffer at its block and the output's at `out12_3` of the input blocks; the invariant the
    class's (`Pipeline.ΦA`: the scoped rest and the generator register, untouched); nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents (the proof data's definition projected, by `dsimp`). -/
theorem A_eq12 (c : Dev nD) (w : Fin cfg12.W) : (dat12 V c).A w = V c (Pipeline.arrRef spec12 w) := by
  dsimp only [dat12]

/-- What the body leaves, window by window (the proof data's `match` reduced by `dsimp`, never `rfl`). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not (`before12_W_of`). -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t` (the body obligation's precondition, the windows one by one), -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ (grid12.coords t) _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Regions

end Cert.KernelIdeal.Fr

end
-- ==== Proof.KI.Reg13.lean ====
/- Region 13 of @main (triangular chunk 13 of 32, `cc13__tri_kernel`, pipeline 13, grid [4] over the batch), at the
   TensorCore's buffer contents `V` when the region is entered. Four windows: 0 = the eight rows of the first product
   this chunk pairs off (block [1,8,768] of [4,8,768]), 1 = the 160 rows of the second product they are paired with
   (block [1,160,768] of [4,160,768]), 2 = the bias row ([1,768], one block, fetched at the first point and kept),
   3 = the chunk's result (block [1,1252,768] of [4,1252,768], 1252 = 160 + 159 + … + 153, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out13_3`),
   and each input buffer is left as found: this is what the pipeline's proof data `dat13` record, and
   `body_obligation13` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 13 of @main: custom_call 13, `cc13__tri_kernel` (pipeline 13), at the entry contents `V` -/

/-! ## The windows' blocks -/

/-- Window `w`'s block at point `t`, read off its array as the region finds it (`V`). -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The same of input window 1. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- The same of input window 2 (the bias row: its one block is fetched at the first point only, and every later point
    finds it where the first left it). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- Each staging buffer is read, and the result's written, whole. -/
abbrev r13_0 : Rect S1x8x768 := Rect.unit (s := S1x8x768) ![0, 0, 0] S1x8x768.size inb_S1x8x768_S1x8x768_0_0_0
abbrev r13_1 : Rect S1x160x768 := Rect.unit (s := S1x160x768) ![0, 0, 0] S1x160x768.size inb_S1x160x768_S1x160x768_0_0_0
abbrev r13_2 : Rect S1x768 := Rect.unit (s := S1x768) ![0, 0] S1x768.size inb_S1x768_S1x768_0_0
abbrev r13_3 : Rect S1x1252x768 := Rect.unit (s := S1x1252x768) ![0, 0, 0] S1x1252x768.size inb_S1x1252x768_S1x1252x768_0_0_0

/-! ## What the body leaves in the output window's buffer -/

/-- Window 3's staging buffer after the body, from the input windows' blocks: its one store, of the whole block —
    the eight row-broadcast sums under tanh, concatenated (the payloads are the skeleton's, over the three loads). -/
noncomputable def out13_3 (x0 : Vec F S1x8x768 .f32) (x1 : Vec F S1x160x768 .f32) (x2 : Vec F S1x768 .f32) : Vec F S1x1252x768 .f32 :=
  View.canon [⟨r13_3, k13_pay1 (k13_pay2 (View.ld x0 r13_0)) (k13_pay3 (View.ld x1 r13_1)) (k13_pay4 (View.ld x2 r13_2))
    (k13_pay5 (View.ld x0 r13_0) (View.ld x1 r13_1) (View.ld x2 r13_2)) (k13_pay6 (View.ld x0 r13_0) (View.ld x1 r13_1) (View.ld x2 r13_2))
    (k13_pay7 (View.ld x0 r13_0) (View.ld x1 r13_1) (View.ld x2 r13_2)) (k13_pay8 (View.ld x0 r13_0) (View.ld x1 r13_1) (View.ld x2 r13_2))
    (k13_pay9 (View.ld x0 r13_0) (View.ld x1 r13_1) (View.ld x2 r13_2)) (k13_pay10 (View.ld x0 r13_0) (View.ld x1 r13_1) (View.ld x2 r13_2))
    (k13_pay11 (View.ld x0 r13_0) (View.ld x1 r13_1))⟩]

/-- The store is of the whole block, so it covers the buffer (checked by evaluation). -/
theorem cover13_3 (p0 : Vec F S1x1252x768 .f32) (y : S1x1252x768.Idx) :
    ∃ pc ∈ ([⟨r13_3, p0⟩] : List (View.Piece (Elt F) S1x1252x768 .f32)), y ∈ pc.1.set :=
  View.cover_of_tiled [⟨r13_3, p0⟩] S1x1252x768.size (by rfl) y

/-! ## The body's triple -/

set_option maxHeartbeats 1000000 in
/-- The kernel body on whole staging memrefs, the inputs' at read contents `xW` and the output's at anything, runs to
    the continuation holding the inputs' as they were and the output's at `out13_3` of the inputs': the three loads of
    the first part, the load of the output's buffer (whatever it holds; the value is dropped), and the one store. -/
theorem sound_kernel13 (c : Dev nD) (E : Set ℕ) (i : grid13.Coords) (arg1 : Memref sig .tc .vmem S1x8x768 .f32) (harg1 : arg1.IsWhole) (arg2 : Memref sig .tc .vmem S1x160x768 .f32) (harg2 : arg2.IsWhole) (arg3 : Memref sig .tc .vmem S1x768 .f32) (harg3 : arg3.IsWhole) (arg4 : Memref sig .tc .vmem S1x1252x768 .f32) (harg4 : arg4.IsWhole)
    (x0 : Vec F S1x8x768 .f32) (x1 : Vec F S1x160x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13__tri_kernel i arg1 harg1 arg2 harg2 arg3 harg3 arg4 harg4) K := by
  simp only [cc13__tri_kernel_eq_skeleton]; unfold cc13__tri_kernel_skel
  simp only [k13_part1_eq_skeleton]; unfold k13_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The pipeline's proof data -/

/-- The proof data of pipeline 13 on core `c`: the arrays as the region finds them (`V`); after the body at
    point `t` each input's buffer at its block and the output's at `out13_3` of the input blocks; the invariant the
    class's (`Pipeline.ΦA`: the scoped rest and the generator register, untouched); nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents (the proof data's definition projected, by `dsimp`). -/
theorem A_eq13 (c : Dev nD) (w : Fin cfg13.W) : (dat13 V c).A w = V c (Pipeline.arrRef spec13 w) := by
  dsimp only [dat13]

/-- What the body leaves, window by window (the proof data's `match` reduced by `dsimp`, never `rfl`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

/-- Each input's current staging buffer holds its block at every point, fetched there or not (`before13_W_of`). -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t` (the body obligation's precondition, the windows one by one), -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks (`before13_W`), so `sound_kernel13` applies; the
    invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Regions

end Cert.KernelIdeal.Fr

end
-- ==== Proof.KI.Reg14.lean ====
/- Region 14 of @main (triangular chunk 14 of 32, `cc14__tri_kernel`, pipeline 14, grid [4] over the batch), at the
   TensorCore's buffer contents `V` when the region is entered. Four windows: 0 = the eight rows of the first product
   this chunk pairs off (block [1,8,768] of [4,8,768]), 1 = the 152 rows of the second product they are paired with
   (block [1,152,768] of [4,152,768]), 2 = the bias row ([1,768], one block, fetched at the first point and kept),
   3 = the chunk's result (block [1,1188,768] of [4,1188,768], 1188 = 152 + 151 + … + 145, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out14_3`),
   and each input buffer is left as found: this is what the pipeline's proof data `dat14` record, and
   `body_obligation14` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 14 of @main: custom_call 14, `cc14__tri_kernel` (pipeline 14), at the entry contents `V` -/

/-! ## The windows' blocks -/

/-- Window `w`'s block at point `t`, read off its array as the region finds it (`V`). -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The same of input window 1. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- The same of input window 2 (the bias row: its one block is fetched at the first point only, and every later point
    finds it where the first left it). -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- Each staging buffer is read, and the result's written, whole. -/
abbrev r14_0 : Rect S1x8x768 := Rect.unit (s := S1x8x768) ![0, 0, 0] S1x8x768.size inb_S1x8x768_S1x8x768_0_0_0
abbrev r14_1 : Rect S1x152x768 := Rect.unit (s := S1x152x768) ![0, 0, 0] S1x152x768.size inb_S1x152x768_S1x152x768_0_0_0
abbrev r14_2 : Rect S1x768 := Rect.unit (s := S1x768) ![0, 0] S1x768.size inb_S1x768_S1x768_0_0
abbrev r14_3 : Rect S1x1188x768 := Rect.unit (s := S1x1188x768) ![0, 0, 0] S1x1188x768.size inb_S1x1188x768_S1x1188x768_0_0_0

/-! ## What the body leaves in the output window's buffer -/

/-- Window 3's staging buffer after the body, from the input windows' blocks: its one store, of the whole block —
    the eight row-broadcast sums under tanh, concatenated (the payloads are the skeleton's, over the three loads). -/
noncomputable def out14_3 (x0 : Vec F S1x8x768 .f32) (x1 : Vec F S1x152x768 .f32) (x2 : Vec F S1x768 .f32) : Vec F S1x1188x768 .f32 :=
  View.canon [⟨r14_3, k14_pay1 (k14_pay2 (View.ld x0 r14_0)) (k14_pay3 (View.ld x1 r14_1)) (k14_pay4 (View.ld x2 r14_2))
    (k14_pay5 (View.ld x0 r14_0) (View.ld x1 r14_1) (View.ld x2 r14_2)) (k14_pay6 (View.ld x0 r14_0) (View.ld x1 r14_1) (View.ld x2 r14_2))
    (k14_pay7 (View.ld x0 r14_0) (View.ld x1 r14_1) (View.ld x2 r14_2)) (k14_pay8 (View.ld x0 r14_0) (View.ld x1 r14_1) (View.ld x2 r14_2))
    (k14_pay9 (View.ld x0 r14_0) (View.ld x1 r14_1) (View.ld x2 r14_2)) (k14_pay10 (View.ld x0 r14_0) (View.ld x1 r14_1) (View.ld x2 r14_2))
    (k14_pay11 (View.ld x0 r14_0) (View.ld x1 r14_1))⟩]

/-- The store is of the whole block, so it covers the buffer (checked by evaluation). -/
theorem cover14_3 (p0 : Vec F S1x1188x768 .f32) (y : S1x1188x768.Idx) :
    ∃ pc ∈ ([⟨r14_3, p0⟩] : List (View.Piece (Elt F) S1x1188x768 .f32)), y ∈ pc.1.set :=
  View.cover_of_tiled [⟨r14_3, p0⟩] S1x1188x768.size (by rfl) y

/-! ## The body's triple -/

set_option maxHeartbeats 1000000 in
/-- The kernel body on whole staging memrefs, the inputs' at read contents `xW` and the output's at anything, runs to
    the continuation holding the inputs' as they were and the output's at `out14_3` of the inputs': the three loads of
    the first part, the load of the output's buffer (whatever it holds; the value is dropped), and the one store. -/
theorem sound_kernel14 (c : Dev nD) (E : Set ℕ) (i : grid14.Coords) (arg1 : Memref sig .tc .vmem S1x8x768 .f32) (harg1 : arg1.IsWhole) (arg2 : Memref sig .tc .vmem S1x152x768 .f32) (harg2 : arg2.IsWhole) (arg3 : Memref sig .tc .vmem S1x768 .f32) (harg3 : arg3.IsWhole) (arg4 : Memref sig .tc .vmem S1x1188x768 .f32) (harg4 : arg4.IsWhole)
    (x0 : Vec F S1x8x768 .f32) (x1 : Vec F S1x152x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14__tri_kernel i arg1 harg1 arg2 harg2 arg3 harg3 arg4 harg4) K := by
  simp only [cc14__tri_kernel_eq_skeleton]; unfold cc14__tri_kernel_skel
  simp only [k14_part1_eq_skeleton]; unfold k14_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of pipeline 14 on core `c`: the arrays as the region finds them (`V`); after the body at
    point `t` each input's buffer at its block and the output's at `out14_3` of the input blocks; the invariant the
    class's (`Pipeline.ΦA`: the scoped rest and the generator register, untouched); nothing owed; full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents (the proof data's definition projected, by `dsimp`). -/
theorem A_eq14 (c : Dev nD) (w : Fin cfg14.W) : (dat14 V c).A w = V c (Pipeline.arrRef spec14 w) := by
  dsimp only [dat14]

/-- What the body leaves, window by window (the proof data's `match` reduced by `dsimp`, never `rfl`). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

/-- Each input's current staging buffer holds its block at every point, fetched there or not (`before14_W_of`). -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t` (the body obligation's precondition, the windows one by one), -/
noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
noncomputable def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ (grid14.coords t) _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Regions

end Cert.KernelIdeal.Fr

end
-- ==== Proof.KI.Reg15.lean ====
/- Region 15 of @main (triangular chunk 15 of 32, `cc15__tri_kernel`, pipeline 15, grid [4] over the batch), at the
   TensorCore's buffer contents `V` when the region is entered. Four windows: 0 = the eight rows of the first product
   this chunk pairs off (block [1,8,768] of [4,8,768]), 1 = the 144 rows of the second product they are paired with
   (block [1,144,768] of [4,144,768]), 2 = the bias row ([1,768], one block, fetched at the first point and kept),
   3 = the chunk's result (block [1,1124,768] of [4,1124,768], 1124 = 144 + 143 + … + 137, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out15_3`),
   and each input buffer is left as found: this is what the pipeline's proof data `dat15` record, and
   `body_obligation15` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 15 of @main: custom_call 15, `cc15__tri_kernel` (pipeline 15), at the entry contents `V` -/

/-! ## The windows' blocks -/

/-- Window `w`'s block at point `t`, read off its array as the region finds it (`V`). -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The same of input window 1. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- The same of input window 2 (the bias row: its one block is fetched at the first point only, and every later point
    finds it where the first left it). -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- Each staging buffer is read, and the result's written, whole. -/
abbrev r15_0 : Rect S1x8x768 := Rect.unit (s := S1x8x768) ![0, 0, 0] S1x8x768.size inb_S1x8x768_S1x8x768_0_0_0
abbrev r15_1 : Rect S1x144x768 := Rect.unit (s := S1x144x768) ![0, 0, 0] S1x144x768.size inb_S1x144x768_S1x144x768_0_0_0
abbrev r15_2 : Rect S1x768 := Rect.unit (s := S1x768) ![0, 0] S1x768.size inb_S1x768_S1x768_0_0
abbrev r15_3 : Rect S1x1124x768 := Rect.unit (s := S1x1124x768) ![0, 0, 0] S1x1124x768.size inb_S1x1124x768_S1x1124x768_0_0_0

/-! ## What the body leaves in the output window's buffer -/

/-- Window 3's staging buffer after the body, from the input windows' blocks: its one store, of the whole block —
    the eight row-broadcast sums under tanh, concatenated (the payloads are the skeleton's, over the three loads). -/
noncomputable def out15_3 (x0 : Vec F S1x8x768 .f32) (x1 : Vec F S1x144x768 .f32) (x2 : Vec F S1x768 .f32) : Vec F S1x1124x768 .f32 :=
  View.canon [⟨r15_3, k15_pay1 (k15_pay2 (View.ld x0 r15_0)) (k15_pay3 (View.ld x1 r15_1)) (k15_pay4 (View.ld x2 r15_2))
    (k15_pay5 (View.ld x0 r15_0) (View.ld x1 r15_1) (View.ld x2 r15_2)) (k15_pay6 (View.ld x0 r15_0) (View.ld x1 r15_1) (View.ld x2 r15_2))
    (k15_pay7 (View.ld x0 r15_0) (View.ld x1 r15_1) (View.ld x2 r15_2)) (k15_pay8 (View.ld x0 r15_0) (View.ld x1 r15_1) (View.ld x2 r15_2))
    (k15_pay9 (View.ld x0 r15_0) (View.ld x1 r15_1) (View.ld x2 r15_2)) (k15_pay10 (View.ld x0 r15_0) (View.ld x1 r15_1) (View.ld x2 r15_2))
    (k15_pay11 (View.ld x0 r15_0) (View.ld x1 r15_1))⟩]

/-- The store is of the whole block, so it covers the buffer (checked by evaluation). -/
theorem cover15_3 (p0 : Vec F S1x1124x768 .f32) (y : S1x1124x768.Idx) :
    ∃ pc ∈ ([⟨r15_3, p0⟩] : List (View.Piece (Elt F) S1x1124x768 .f32)), y ∈ pc.1.set :=
  View.cover_of_tiled [⟨r15_3, p0⟩] S1x1124x768.size (by rfl) y

/-! ## The body's triple -/

set_option maxHeartbeats 1000000 in
/-- The kernel body on whole staging memrefs, the inputs' at read contents `xW` and the output's at anything, runs to
    the continuation holding the inputs' as they were and the output's at `out15_3` of the inputs': the three loads of
    the first part, the load of the output's buffer (whatever it holds; the value is dropped), and the one store. -/
theorem sound_kernel15 (c : Dev nD) (E : Set ℕ) (i : grid15.Coords) (arg1 : Memref sig .tc .vmem S1x8x768 .f32) (harg1 : arg1.IsWhole) (arg2 : Memref sig .tc .vmem S1x144x768 .f32) (harg2 : arg2.IsWhole) (arg3 : Memref sig .tc .vmem S1x768 .f32) (harg3 : arg3.IsWhole) (arg4 : Memref sig .tc .vmem S1x1124x768 .f32) (harg4 : arg4.IsWhole)
    (x0 : Vec F S1x8x768 .f32) (x1 : Vec F S1x144x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__tri_kernel i arg1 harg1 arg2 harg2 arg3 harg3 arg4 harg4) K := by
  simp only [cc15__tri_kernel_eq_skeleton]; unfold cc15__tri_kernel_skel
  simp only [k15_part1_eq_skeleton]; unfold k15_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The pipeline's proof data -/

/-- The proof data of pipeline 15 on core `c`: the arrays as the region finds them (`V`); after the body at
    point `t` each input's buffer at its block and the output's at `out15_3` of the input blocks; the invariant the
    class's (`Pipeline.ΦA`: the scoped rest and the generator register, untouched); nothing owed; full shares. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the region-entry contents (the proof data's definition projected, by `dsimp`). -/
theorem A_eq15 (c : Dev nD) (w : Fin cfg15.W) : (dat15 V c).A w = V c (Pipeline.arrRef spec15 w) := by
  dsimp only [dat15]

/-- What the body leaves, window by window (the proof data's `match` reduced by `dsimp`, never `rfl`). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

/-- Each input's current staging buffer holds its block at every point, fetched there or not (`before15_W_of`). -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t` (the body obligation's precondition, the windows one by one), -/
noncomputable def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
noncomputable def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks (`before15_W`), so `sound_kernel15` applies; the
    invariant and the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ (grid15.coords t) _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation15 (c : Dev nD) : BodyObligation (dat15 (F := F) V c) (defs₀ (F := F)) Variants.none () Set.univ := fun t => by
  rw [bigSep_W15, bigSep_W15]
  exact sound_body15 V c t

end Regions

end Cert.KernelIdeal.Fr

end
-- ==== Proof.KI.Reg16.lean ====
/- Region 16 of @main (triangular chunk 16 of 32, `cc16__tri_kernel`, pipeline 16, grid [4] over the batch), at the
   TensorCore's buffer contents `V` when the region is entered. Four windows: 0 = the eight rows of the first product
   this chunk pairs off (block [1,8,768] of [4,8,768]), 1 = the 136 rows of the second product they are paired with
   (block [1,136,768] of [4,136,768]), 2 = the bias row ([1,768], one block, fetched at the first point and kept),
   3 = the chunk's result (block [1,1060,768] of [4,1060,768], 1060 = 136 + 135 + … + 129, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out16_3`),
   and each input buffer is left as found: this is what the pipeline's proof data `dat16` record, and
   `body_obligation16` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 16 of @main: custom_call 16, `cc16__tri_kernel` (pipeline 16), at the entry contents `V` -/

/-! ## The windows' blocks -/

/-- Window `w`'s block at point `t`, read off its array as the region finds it (`V`). -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The same of input window 1. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- The same of input window 2 (the bias row: its one block is fetched at the first point only, and every later point
    finds it where the first left it). -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- Each staging buffer is read, and the result's written, whole. -/
abbrev r16_0 : Rect S1x8x768 := Rect.unit (s := S1x8x768) ![0, 0, 0] S1x8x768.size inb_S1x8x768_S1x8x768_0_0_0
abbrev r16_1 : Rect S1x136x768 := Rect.unit (s := S1x136x768) ![0, 0, 0] S1x136x768.size inb_S1x136x768_S1x136x768_0_0_0
abbrev r16_2 : Rect S1x768 := Rect.unit (s := S1x768) ![0, 0] S1x768.size inb_S1x768_S1x768_0_0
abbrev r16_3 : Rect S1x1060x768 := Rect.unit (s := S1x1060x768) ![0, 0, 0] S1x1060x768.size inb_S1x1060x768_S1x1060x768_0_0_0

/-! ## What the body leaves in the output window's buffer -/

/-- Window 3's staging buffer after the body, from the input windows' blocks: its one store, of the whole block —
    the eight row-broadcast sums under tanh, concatenated (the payloads are the skeleton's, over the three loads). -/
noncomputable def out16_3 (x0 : Vec F S1x8x768 .f32) (x1 : Vec F S1x136x768 .f32) (x2 : Vec F S1x768 .f32) : Vec F S1x1060x768 .f32 :=
  View.canon [⟨r16_3, k16_pay1 (k16_pay2 (View.ld x0 r16_0)) (k16_pay3 (View.ld x1 r16_1)) (k16_pay4 (View.ld x2 r16_2))
    (k16_pay5 (View.ld x0 r16_0) (View.ld x1 r16_1) (View.ld x2 r16_2)) (k16_pay6 (View.ld x0 r16_0) (View.ld x1 r16_1) (View.ld x2 r16_2))
    (k16_pay7 (View.ld x0 r16_0) (View.ld x1 r16_1) (View.ld x2 r16_2)) (k16_pay8 (View.ld x0 r16_0) (View.ld x1 r16_1) (View.ld x2 r16_2))
    (k16_pay9 (View.ld x0 r16_0) (View.ld x1 r16_1) (View.ld x2 r16_2)) (k16_pay10 (View.ld x0 r16_0) (View.ld x1 r16_1) (View.ld x2 r16_2))
    (k16_pay11 (View.ld x0 r16_0) (View.ld x1 r16_1))⟩]

/-- The store is of the whole block, so it covers the buffer (checked by evaluation). -/
theorem cover16_3 (p0 : Vec F S1x1060x768 .f32) (y : S1x1060x768.Idx) :
    ∃ pc ∈ ([⟨r16_3, p0⟩] : List (View.Piece (Elt F) S1x1060x768 .f32)), y ∈ pc.1.set :=
  View.cover_of_tiled [⟨r16_3, p0⟩] S1x1060x768.size (by rfl) y

/-! ## The body's triple -/

set_option maxHeartbeats 1000000 in
/-- The kernel body on whole staging memrefs, the inputs' at read contents `xW` and the output's at anything, runs to
    the continuation holding the inputs' as they were and the output's at `out16_3` of the inputs': the three loads of
    the first part, the load of the output's buffer (whatever it holds; the value is dropped), and the one store. -/
theorem sound_kernel16 (c : Dev nD) (E : Set ℕ) (i : grid16.Coords) (arg1 : Memref sig .tc .vmem S1x8x768 .f32) (harg1 : arg1.IsWhole) (arg2 : Memref sig .tc .vmem S1x136x768 .f32) (harg2 : arg2.IsWhole) (arg3 : Memref sig .tc .vmem S1x768 .f32) (harg3 : arg3.IsWhole) (arg4 : Memref sig .tc .vmem S1x1060x768 .f32) (harg4 : arg4.IsWhole)
    (x0 : Vec F S1x8x768 .f32) (x1 : Vec F S1x136x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out16_3 x0 x1 x2)) -∗ K ⟨⟩))
      ⊢ wp frame (wpE (defs₀ (F := F)) Variants.none c none) E (cc16__tri_kernel i arg1 harg1 arg2 harg2 arg3 harg3 arg4 harg4) K := by
  simp only [cc16__tri_kernel_eq_skeleton]; unfold cc16__tri_kernel_skel
  simp only [k16_part1_eq_skeleton]; unfold k16_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-! ## The pipeline's proof data -/

/-- The proof data of pipeline 16 on core `c`: the arrays as the region finds them (`V`); after the body at
    point `t` each input's buffer at its block and the output's at `out16_3` of the input blocks; the invariant the
    class's (`Pipeline.ΦA`: the scoped rest and the generator register, untouched); nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

/-- The proof data's arrays are the region-entry contents (the proof data's definition projected, by `dsimp`). -/
theorem A_eq16 (c : Dev nD) (w : Fin cfg16.W) : (dat16 V c).A w = V c (Pipeline.arrRef spec16 w) := by
  dsimp only [dat16]

/-- What the body leaves, window by window (the proof data's `match` reduced by `dsimp`, never `rfl`). -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16_3 (iblk16 V c 0 t) (iblk16 V c 1 t) (iblk16 V c 2 t) := by dsimp only [dat16]

/-- Each input's current staging buffer holds its block at every point, fetched there or not (`before16_W_of`). -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation, at a generic point -/

/-- What the body is called with at point `t` (the body obligation's precondition, the windows one by one), -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

/-- The body at any point: the inputs' memrefs hold their blocks (`before16_W`), so `sound_kernel16` applies; the
    invariant and the core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ (grid16.coords t) _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation16 (c : Dev nD) : BodyObligation (dat16 (F := F) V c) (defs₀ (F := F)) Variants.none () Set.univ := fun t => by
  rw [bigSep_W16, bigSep_W16]
  exact sound_body16 V c t

end Regions

end Cert.KernelIdeal.Fr

end
-- ==== Proof.KI.Reg17.lean ====
/- Region 17 of @main (triangular chunk 17 of 32, `cc17__tri_kernel`, pipeline 17, grid [4] over the batch), at the
   TensorCore's buffer contents `V` when the region is entered. Four windows: 0 = the eight rows of the first product
   this chunk pairs off (block [1,8,768] of [4,8,768]), 1 = the 128 rows of the second product they are paired with
   (block [1,128,768] of [4,128,768]), 2 = the bias row ([1,768], one block, fetched at the first point and kept),
   3 = the chunk's result (block [1,996,768] of [4,996,768], 996 = 128 + 127 + … + 121, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out17_3`),
   and each input buffer is left as found: this is what the pipeline's proof data `dat17` record, and
   `body_obligation17` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 17 of @main: custom_call 17, `cc17__tri_kernel` (pipeline 17), at the entry contents `V` -/

/-! ## The windows' blocks -/

/-- Window `w`'s block at point `t`, read off its array as the region finds it (`V`). -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The same of input window 1. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
/-- The same of input window 2 (the bias row: its one block is fetched at the first point only, and every later point
    finds it where the first left it). -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

/-- Each staging buffer is read, and the result's written, whole. -/
abbrev r17_0 : Rect S1x8x768 := Rect.unit (s := S1x8x768) ![0, 0, 0] S1x8x768.size inb_S1x8x768_S1x8x768_0_0_0
abbrev r17_1 : Rect S1x128x768 := Rect.unit (s := S1x128x768) ![0, 0, 0] S1x128x768.size inb_S1x128x768_S1x128x768_0_0_0
abbrev r17_2 : Rect S1x768 := Rect.unit (s := S1x768) ![0, 0] S1x768.size inb_S1x768_S1x768_0_0
abbrev r17_3 : Rect S1x996x768 := Rect.unit (s := S1x996x768) ![0, 0, 0] S1x996x768.size inb_S1x996x768_S1x996x768_0_0_0

/-! ## What the body leaves in the output window's buffer -/

/-- Window 3's staging buffer after the body, from the input windows' blocks: its one store, of the whole block —
    the eight row-broadcast sums under tanh, concatenated (the payloads are the skeleton's, over the three loads). -/
noncomputable def out17_3 (x0 : Vec F S1x8x768 .f32) (x1 : Vec F S1x128x768 .f32) (x2 : Vec F S1x768 .f32) : Vec F S1x996x768 .f32 :=
  View.canon [⟨r17_3, k17_pay1 (k17_pay2 (View.ld x0 r17_0)) (k17_pay3 (View.ld x1 r17_1)) (k17_pay4 (View.ld x2 r17_2))
    (k17_pay5 (View.ld x0 r17_0) (View.ld x1 r17_1) (View.ld x2 r17_2)) (k17_pay6 (View.ld x0 r17_0) (View.ld x1 r17_1) (View.ld x2 r17_2))
    (k17_pay7 (View.ld x0 r17_0) (View.ld x1 r17_1) (View.ld x2 r17_2)) (k17_pay8 (View.ld x0 r17_0) (View.ld x1 r17_1) (View.ld x2 r17_2))
    (k17_pay9 (View.ld x0 r17_0) (View.ld x1 r17_1) (View.ld x2 r17_2)) (k17_pay10 (View.ld x0 r17_0) (View.ld x1 r17_1) (View.ld x2 r17_2))
    (k17_pay11 (View.ld x0 r17_0) (View.ld x1 r17_1))⟩]

/-- The store is of the whole block, so it covers the buffer (checked by evaluation). -/
theorem cover17_3 (p0 : Vec F S1x996x768 .f32) (y : S1x996x768.Idx) :
    ∃ pc ∈ ([⟨r17_3, p0⟩] : List (View.Piece (Elt F) S1x996x768 .f32)), y ∈ pc.1.set :=
  View.cover_of_tiled [⟨r17_3, p0⟩] S1x996x768.size (by rfl) y

/-! ## The body's triple -/

set_option maxHeartbeats 1000000 in
/-- The kernel body on whole staging memrefs, the inputs' at read contents `xW` and the output's at anything, runs to
    the continuation holding the inputs' as they were and the output's at `out17_3` of the inputs': the three loads of
    the first part, the load of the output's buffer (whatever it holds; the value is dropped), and the one store. -/
theorem sound_kernel17 (c : Dev nD) (E : Set ℕ) (i : grid17.Coords) (arg1 : Memref sig .tc .vmem S1x8x768 .f32) (harg1 : arg1.IsWhole) (arg2 : Memref sig .tc .vmem S1x128x768 .f32) (harg2 : arg2.IsWhole) (arg3 : Memref sig .tc .vmem S1x768 .f32) (harg3 : arg3.IsWhole) (arg4 : Memref sig .tc .vmem S1x996x768 .f32) (harg4 : arg4.IsWhole)
    (x0 : Vec F S1x8x768 .f32) (x1 : Vec F S1x128x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17__tri_kernel i arg1 harg1 arg2 harg2 arg3 harg3 arg4 harg4) K := by
  simp only [cc17__tri_kernel_eq_skeleton]; unfold cc17__tri_kernel_skel
  simp only [k17_part1_eq_skeleton]; unfold k17_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The pipeline's proof data -/

/-- The proof data of pipeline 17 on core `c`: the arrays as the region finds them (`V`); after the body at
    point `t` each input's buffer at its block and the output's at `out17_3` of the input blocks; the invariant the
    class's (`Pipeline.ΦA`: the scoped rest and the generator register, untouched); nothing owed; full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the region-entry contents (the proof data's definition projected, by `dsimp`). -/
theorem A_eq17 (c : Dev nD) (w : Fin cfg17.W) : (dat17 V c).A w = V c (Pipeline.arrRef spec17 w) := by
  dsimp only [dat17]

/-- What the body leaves, window by window (the proof data's `match` reduced by `dsimp`, never `rfl`). -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

/-- Each input's current staging buffer holds its block at every point, fetched there or not (`before17_W_of`). -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point `t` (the body obligation's precondition, the windows one by one), -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks (`before17_W`), so `sound_kernel17` applies; the
    invariant and the core's `owes` pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ (grid17.coords t) _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Regions

end Cert.KernelIdeal.Fr

end
-- ==== Proof.KI.Reg18.lean ====
/- Region 18 of @main (triangular chunk 18 of 32, `cc18__tri_kernel`, pipeline 18, grid [4] over the batch), at the
   TensorCore's buffer contents `V` when the region is entered. Four windows: 0 = the eight rows of the first product
   this chunk pairs off (block [1,8,768] of [4,8,768]), 1 = the 120 rows of the second product they are paired with
   (block [1,120,768] of [4,120,768]), 2 = the bias row ([1,768], one block, fetched at the first point and kept),
   3 = the chunk's result (block [1,932,768] of [4,932,768], 932 = 120 + 119 + … + 113, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out18_3`),
   and each input buffer is left as found: this is what the pipeline's proof data `dat18` record, and
   `body_obligation18` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 18 of @main: custom_call 18, `cc18__tri_kernel` (pipeline 18), at the entry contents `V` -/

/-! ## The windows' blocks -/

/-- Window `w`'s block at point `t`, read off its array as the region finds it (`V`). -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The same of input window 1. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
/-- The same of input window 2 (the bias row: its one block is fetched at the first point only, and every later point
    finds it where the first left it). -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

/-- Each staging buffer is read, and the result's written, whole. -/
abbrev r18_0 : Rect S1x8x768 := Rect.unit (s := S1x8x768) ![0, 0, 0] S1x8x768.size inb_S1x8x768_S1x8x768_0_0_0
abbrev r18_1 : Rect S1x120x768 := Rect.unit (s := S1x120x768) ![0, 0, 0] S1x120x768.size inb_S1x120x768_S1x120x768_0_0_0
abbrev r18_2 : Rect S1x768 := Rect.unit (s := S1x768) ![0, 0] S1x768.size inb_S1x768_S1x768_0_0
abbrev r18_3 : Rect S1x932x768 := Rect.unit (s := S1x932x768) ![0, 0, 0] S1x932x768.size inb_S1x932x768_S1x932x768_0_0_0

/-! ## What the body leaves in the output window's buffer -/

/-- Window 3's staging buffer after the body, from the input windows' blocks: its one store, of the whole block —
    the eight row-broadcast sums under tanh, concatenated (the payloads are the skeleton's, over the three loads). -/
noncomputable def out18_3 (x0 : Vec F S1x8x768 .f32) (x1 : Vec F S1x120x768 .f32) (x2 : Vec F S1x768 .f32) : Vec F S1x932x768 .f32 :=
  View.canon [⟨r18_3, k18_pay1 (k18_pay2 (View.ld x0 r18_0)) (k18_pay3 (View.ld x1 r18_1)) (k18_pay4 (View.ld x2 r18_2))
    (k18_pay5 (View.ld x0 r18_0) (View.ld x1 r18_1) (View.ld x2 r18_2)) (k18_pay6 (View.ld x0 r18_0) (View.ld x1 r18_1) (View.ld x2 r18_2))
    (k18_pay7 (View.ld x0 r18_0) (View.ld x1 r18_1) (View.ld x2 r18_2)) (k18_pay8 (View.ld x0 r18_0) (View.ld x1 r18_1) (View.ld x2 r18_2))
    (k18_pay9 (View.ld x0 r18_0) (View.ld x1 r18_1) (View.ld x2 r18_2)) (k18_pay10 (View.ld x0 r18_0) (View.ld x1 r18_1) (View.ld x2 r18_2))
    (k18_pay11 (View.ld x0 r18_0) (View.ld x1 r18_1))⟩]

/-- The store is of the whole block, so it covers the buffer (checked by evaluation). -/
theorem cover18_3 (p0 : Vec F S1x932x768 .f32) (y : S1x932x768.Idx) :
    ∃ pc ∈ ([⟨r18_3, p0⟩] : List (View.Piece (Elt F) S1x932x768 .f32)), y ∈ pc.1.set :=
  View.cover_of_tiled [⟨r18_3, p0⟩] S1x932x768.size (by rfl) y

/-! ## The body's triple -/

set_option maxHeartbeats 1000000 in
/-- The kernel body on whole staging memrefs, the inputs' at read contents `xW` and the output's at anything, runs to
    the continuation holding the inputs' as they were and the output's at `out18_3` of the inputs': the three loads of
    the first part, the load of the output's buffer (whatever it holds; the value is dropped), and the one store. -/
theorem sound_kernel18 (c : Dev nD) (E : Set ℕ) (i : grid18.Coords) (arg1 : Memref sig .tc .vmem S1x8x768 .f32) (harg1 : arg1.IsWhole) (arg2 : Memref sig .tc .vmem S1x120x768 .f32) (harg2 : arg2.IsWhole) (arg3 : Memref sig .tc .vmem S1x768 .f32) (harg3 : arg3.IsWhole) (arg4 : Memref sig .tc .vmem S1x932x768 .f32) (harg4 : arg4.IsWhole)
    (x0 : Vec F S1x8x768 .f32) (x1 : Vec F S1x120x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out18_3 x0 x1 x2)) -∗ K ⟨⟩))
      ⊢ wp frame (wpE (defs₀ (F := F)) Variants.none c none) E (cc18__tri_kernel i arg1 harg1 arg2 harg2 arg3 harg3 arg4 harg4) K := by
  simp only [cc18__tri_kernel_eq_skeleton]; unfold cc18__tri_kernel_skel
  simp only [k18_part1_eq_skeleton]; unfold k18_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The pipeline's proof data -/

/-- The proof data of pipeline 18 on core `c`: the arrays as the region finds them (`V`); after the body at
    point `t` each input's buffer at its block and the output's at `out18_3` of the input blocks; the invariant the
    class's (`Pipeline.ΦA`: the scoped rest and the generator register, untouched); nothing owed; full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the region-entry contents (the proof data's definition projected, by `dsimp`). -/
theorem A_eq18 (c : Dev nD) (w : Fin cfg18.W) : (dat18 V c).A w = V c (Pipeline.arrRef spec18 w) := by
  dsimp only [dat18]

/-- What the body leaves, window by window (the proof data's `match` reduced by `dsimp`, never `rfl`). -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = out18_3 (iblk18 V c 0 t) (iblk18 V c 1 t) (iblk18 V c 2 t) := by dsimp only [dat18]

/-- Each input's current staging buffer holds its block at every point, fetched there or not (`before18_W_of`). -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point `t` (the body obligation's precondition, the windows one by one), -/
noncomputable def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
noncomputable def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks (`before18_W`), so `sound_kernel18` applies; the
    invariant and the core's `owes` pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ (grid18.coords t) _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

end Regions

end Cert.KernelIdeal.Fr

end
-- ==== Proof.KI.Reg19.lean ====
/- Region 19 of @main (triangular chunk 19 of 32, `cc19__tri_kernel`, pipeline 19, grid [4] over the batch), at the
   TensorCore's buffer contents `V` when the region is entered. Four windows: 0 = the eight rows of the first product
   this chunk pairs off (block [1,8,768] of [4,8,768]), 1 = the 112 rows of the second product they are paired with
   (block [1,112,768] of [4,112,768]), 2 = the bias row ([1,768], one block, fetched at the first point and kept),
   3 = the chunk's result (block [1,868,768] of [4,868,768], 868 = 112 + 111 + … + 105, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out19_3`),
   and each input buffer is left as found: this is what the pipeline's proof data `dat19` record, and
   `body_obligation19` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 19 of @main: custom_call 19, `cc19__tri_kernel` (pipeline 19), at the entry contents `V` -/

/-! ## The windows' blocks -/

/-- Window `w`'s block at point `t`, read off its array as the region finds it (`V`). -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The same of input window 1. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
/-- The same of input window 2 (the bias row: its one block is fetched at the first point only, and every later point
    finds it where the first left it). -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- Each staging buffer is read, and the result's written, whole. -/
abbrev r19_0 : Rect S1x8x768 := Rect.unit (s := S1x8x768) ![0, 0, 0] S1x8x768.size inb_S1x8x768_S1x8x768_0_0_0
abbrev r19_1 : Rect S1x112x768 := Rect.unit (s := S1x112x768) ![0, 0, 0] S1x112x768.size inb_S1x112x768_S1x112x768_0_0_0
abbrev r19_2 : Rect S1x768 := Rect.unit (s := S1x768) ![0, 0] S1x768.size inb_S1x768_S1x768_0_0
abbrev r19_3 : Rect S1x868x768 := Rect.unit (s := S1x868x768) ![0, 0, 0] S1x868x768.size inb_S1x868x768_S1x868x768_0_0_0

/-! ## What the body leaves in the output window's buffer -/

/-- Window 3's staging buffer after the body, from the input windows' blocks: its one store, of the whole block —
    the eight row-broadcast sums under tanh, concatenated (the payloads are the skeleton's, over the three loads). -/
noncomputable def out19_3 (x0 : Vec F S1x8x768 .f32) (x1 : Vec F S1x112x768 .f32) (x2 : Vec F S1x768 .f32) : Vec F S1x868x768 .f32 :=
  View.canon [⟨r19_3, k19_pay1 (k19_pay2 (View.ld x0 r19_0)) (k19_pay3 (View.ld x1 r19_1)) (k19_pay4 (View.ld x2 r19_2))
    (k19_pay5 (View.ld x0 r19_0) (View.ld x1 r19_1) (View.ld x2 r19_2)) (k19_pay6 (View.ld x0 r19_0) (View.ld x1 r19_1) (View.ld x2 r19_2))
    (k19_pay7 (View.ld x0 r19_0) (View.ld x1 r19_1) (View.ld x2 r19_2)) (k19_pay8 (View.ld x0 r19_0) (View.ld x1 r19_1) (View.ld x2 r19_2))
    (k19_pay9 (View.ld x0 r19_0) (View.ld x1 r19_1) (View.ld x2 r19_2)) (k19_pay10 (View.ld x0 r19_0) (View.ld x1 r19_1) (View.ld x2 r19_2))
    (k19_pay11 (View.ld x0 r19_0) (View.ld x1 r19_1))⟩]

/-- The store is of the whole block, so it covers the buffer (checked by evaluation). -/
theorem cover19_3 (p0 : Vec F S1x868x768 .f32) (y : S1x868x768.Idx) :
    ∃ pc ∈ ([⟨r19_3, p0⟩] : List (View.Piece (Elt F) S1x868x768 .f32)), y ∈ pc.1.set :=
  View.cover_of_tiled [⟨r19_3, p0⟩] S1x868x768.size (by rfl) y

/-! ## The body's triple -/

set_option maxHeartbeats 1000000 in
/-- The kernel body on whole staging memrefs, the inputs' at read contents `xW` and the output's at anything, runs to
    the continuation holding the inputs' as they were and the output's at `out19_3` of the inputs': the three loads of
    the first part, the load of the output's buffer (whatever it holds; the value is dropped), and the one store. -/
theorem sound_kernel19 (c : Dev nD) (E : Set ℕ) (i : grid19.Coords) (arg1 : Memref sig .tc .vmem S1x8x768 .f32) (harg1 : arg1.IsWhole) (arg2 : Memref sig .tc .vmem S1x112x768 .f32) (harg2 : arg2.IsWhole) (arg3 : Memref sig .tc .vmem S1x768 .f32) (harg3 : arg3.IsWhole) (arg4 : Memref sig .tc .vmem S1x868x768 .f32) (harg4 : arg4.IsWhole)
    (x0 : Vec F S1x8x768 .f32) (x1 : Vec F S1x112x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out19_3 x0 x1 x2)) -∗ K ⟨⟩))
      ⊢ wp frame (wpE (defs₀ (F := F)) Variants.none c none) E (cc19__tri_kernel i arg1 harg1 arg2 harg2 arg3 harg3 arg4 harg4) K := by
  simp only [cc19__tri_kernel_eq_skeleton]; unfold cc19__tri_kernel_skel
  simp only [k19_part1_eq_skeleton]; unfold k19_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-! ## The pipeline's proof data -/

/-- The proof data of pipeline 19 on core `c`: the arrays as the region finds them (`V`); after the body at
    point `t` each input's buffer at its block and the output's at `out19_3` of the input blocks; the invariant the
    class's (`Pipeline.ΦA`: the scoped rest and the generator register, untouched); nothing owed; full shares. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

/-- The proof data's arrays are the region-entry contents (the proof data's definition projected, by `dsimp`). -/
theorem A_eq19 (c : Dev nD) (w : Fin cfg19.W) : (dat19 V c).A w = V c (Pipeline.arrRef spec19 w) := by
  dsimp only [dat19]

/-- What the body leaves, window by window (the proof data's `match` reduced by `dsimp`, never `rfl`). -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = out19_3 (iblk19 V c 0 t) (iblk19 V c 1 t) (iblk19 V c 2 t) := by dsimp only [dat19]

/-- Each input's current staging buffer holds its block at every point, fetched there or not (`before19_W_of`). -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-! ## The body obligation, at a generic point -/

/-- What the body is called with at point `t` (the body obligation's precondition, the windows one by one), -/
noncomputable def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
noncomputable def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

/-- The body at any point: the inputs' memrefs hold their blocks (`before19_W`), so `sound_kernel19` applies; the
    invariant and the core's `owes` pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ (grid19.coords t) _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Regions

end Cert.KernelIdeal.Fr

end
-- ==== Proof.KI.Reg20.lean ====
/- Region 20 of @main (triangular chunk 20 of 32, `cc20__tri_kernel`, pipeline 20, grid [4] over the batch), at the
   TensorCore's buffer contents `V` when the region is entered. Four windows: 0 = the eight rows of the first product
   this chunk pairs off (block [1,8,768] of [4,8,768]), 1 = the 104 rows of the second product they are paired with
   (block [1,104,768] of [4,104,768]), 2 = the bias row ([1,768], one block, fetched at the first point and kept),
   3 = the chunk's result (block [1,804,768] of [4,804,768], 804 = 104 + 103 + … + 97, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out20_3`),
   and each input buffer is left as found: this is what the pipeline's proof data `dat20` record, and
   `body_obligation20` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 20 of @main: custom_call 20, `cc20__tri_kernel` (pipeline 20), at the entry contents `V` -/

/-! ## The windows' blocks -/

/-- Window `w`'s block at point `t`, read off its array as the region finds it (`V`). -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The same of input window 1. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
/-- The same of input window 2 (the bias row: its one block is fetched at the first point only, and every later point
    finds it where the first left it). -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses -/

/-- Each staging buffer is read, and the result's written, whole. -/
abbrev r20_0 : Rect S1x8x768 := Rect.unit (s := S1x8x768) ![0, 0, 0] S1x8x768.size inb_S1x8x768_S1x8x768_0_0_0
abbrev r20_1 : Rect S1x104x768 := Rect.unit (s := S1x104x768) ![0, 0, 0] S1x104x768.size inb_S1x104x768_S1x104x768_0_0_0
abbrev r20_2 : Rect S1x768 := Rect.unit (s := S1x768) ![0, 0] S1x768.size inb_S1x768_S1x768_0_0
abbrev r20_3 : Rect S1x804x768 := Rect.unit (s := S1x804x768) ![0, 0, 0] S1x804x768.size inb_S1x804x768_S1x804x768_0_0_0

/-! ## What the body leaves in the output window's buffer -/

/-- Window 3's staging buffer after the body, from the input windows' blocks: its one store, of the whole block —
    the eight row-broadcast sums under tanh, concatenated (the payloads are the skeleton's, over the three loads). -/
noncomputable def out20_3 (x0 : Vec F S1x8x768 .f32) (x1 : Vec F S1x104x768 .f32) (x2 : Vec F S1x768 .f32) : Vec F S1x804x768 .f32 :=
  View.canon [⟨r20_3, k20_pay1 (k20_pay2 (View.ld x0 r20_0)) (k20_pay3 (View.ld x1 r20_1)) (k20_pay4 (View.ld x2 r20_2))
    (k20_pay5 (View.ld x0 r20_0) (View.ld x1 r20_1) (View.ld x2 r20_2)) (k20_pay6 (View.ld x0 r20_0) (View.ld x1 r20_1) (View.ld x2 r20_2))
    (k20_pay7 (View.ld x0 r20_0) (View.ld x1 r20_1) (View.ld x2 r20_2)) (k20_pay8 (View.ld x0 r20_0) (View.ld x1 r20_1) (View.ld x2 r20_2))
    (k20_pay9 (View.ld x0 r20_0) (View.ld x1 r20_1) (View.ld x2 r20_2)) (k20_pay10 (View.ld x0 r20_0) (View.ld x1 r20_1) (View.ld x2 r20_2))
    (k20_pay11 (View.ld x0 r20_0) (View.ld x1 r20_1))⟩]

/-- The store is of the whole block, so it covers the buffer (checked by evaluation). -/
theorem cover20_3 (p0 : Vec F S1x804x768 .f32) (y : S1x804x768.Idx) :
    ∃ pc ∈ ([⟨r20_3, p0⟩] : List (View.Piece (Elt F) S1x804x768 .f32)), y ∈ pc.1.set :=
  View.cover_of_tiled [⟨r20_3, p0⟩] S1x804x768.size (by rfl) y

/-! ## The body's triple -/

set_option maxHeartbeats 1000000 in
/-- The kernel body on whole staging memrefs, the inputs' at read contents `xW` and the output's at anything, runs to
    the continuation holding the inputs' as they were and the output's at `out20_3` of the inputs': the three loads of
    the first part, the load of the output's buffer (whatever it holds; the value is dropped), and the one store. -/
theorem sound_kernel20 (c : Dev nD) (E : Set ℕ) (i : grid20.Coords) (arg1 : Memref sig .tc .vmem S1x8x768 .f32) (harg1 : arg1.IsWhole) (arg2 : Memref sig .tc .vmem S1x104x768 .f32) (harg2 : arg2.IsWhole) (arg3 : Memref sig .tc .vmem S1x768 .f32) (harg3 : arg3.IsWhole) (arg4 : Memref sig .tc .vmem S1x804x768 .f32) (harg4 : arg4.IsWhole)
    (x0 : Vec F S1x8x768 .f32) (x1 : Vec F S1x104x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out20_3 x0 x1 x2)) -∗ K ⟨⟩))
      ⊢ wp frame (wpE (defs₀ (F := F)) Variants.none c none) E (cc20__tri_kernel i arg1 harg1 arg2 harg2 arg3 harg3 arg4 harg4) K := by
  simp only [cc20__tri_kernel_eq_skeleton]; unfold cc20__tri_kernel_skel
  simp only [k20_part1_eq_skeleton]; unfold k20_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover20_3 _)

/-! ## The pipeline's proof data -/

/-- The proof data of pipeline 20 on core `c`: the arrays as the region finds them (`V`); after the body at
    point `t` each input's buffer at its block and the output's at `out20_3` of the input blocks; the invariant the
    class's (`Pipeline.ΦA`: the scoped rest and the generator register, untouched); nothing owed; full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => out20_3 (iblk20 V c 0 t) (iblk20 V c 1 t) (iblk20 V c 2 t)
  Φ _ := Pipeline.ΦA spec20 c
  q _ := fullShare
  owed _ := 0

/-- The proof data's arrays are the region-entry contents (the proof data's definition projected, by `dsimp`). -/
theorem A_eq20 (c : Dev nD) (w : Fin cfg20.W) : (dat20 V c).A w = V c (Pipeline.arrRef spec20 w) := by
  dsimp only [dat20]

/-- What the body leaves, window by window (the proof data's `match` reduced by `dsimp`, never `rfl`). -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = out20_3 (iblk20 V c 0 t) (iblk20 V c 1 t) (iblk20 V c 2 t) := by dsimp only [dat20]

/-- Each input's current staging buffer holds its block at every point, fetched there or not (`before20_W_of`). -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d

/-! ## The body obligation, at a generic point -/

/-- What the body is called with at point `t` (the body obligation's precondition, the windows one by one), -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t))

/-- The body at any point: the inputs' memrefs hold their blocks (`before20_W`), so `sound_kernel20` applies; the
    invariant and the core's `owes` pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2]
  rw [show (dat20 V c).Φ t.succ = (dat20 V c).Φ t.castSucc from rfl,
    show (dat20 V c).owesAt () t.succ = (dat20 V c).owesAt () t.castSucc from rfl,
    after20_0, after20_1, after20_2, after20_3]
  iintro ⟨HΦ, Ho, ⟨%d0, H0⟩, ⟨%d1, H1⟩, ⟨%d2, H2⟩, ⟨%d3, H3⟩⟩
  iapply (sound_kernel20 c Set.univ (grid20.coords t) _ _ _ _ _ _ _ _ (iblk20 V c 0 t) (iblk20 V c 1 t) (iblk20 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation20 (c : Dev nD) : BodyObligation (dat20 (F := F) V c) (defs₀ (F := F)) Variants.none () Set.univ := fun t => by
  rw [bigSep_W20, bigSep_W20]
  exact sound_body20 V c t

end Regions

end Cert.KernelIdeal.Fr

end
-- ==== Proof.KI.Reg21.lean ====
/- Region 21 of @main (triangular chunk 21 of 32, `cc21__tri_kernel`, pipeline 21, grid [4] over the batch), at the
   TensorCore's buffer contents `V` when the region is entered. Four windows: 0 = the eight rows of the first product
   this chunk pairs off (block [1,8,768] of [4,8,768]), 1 = the 96 rows of the second product they are paired with
   (block [1,96,768] of [4,96,768]), 2 = the bias row ([1,768], one block, fetched at the first point and kept),
   3 = the chunk's result (block [1,740,768] of [4,740,768], 740 = 96 + 95 + … + 89, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out21_3`),
   and each input buffer is left as found: this is what the pipeline's proof data `dat21` record, and
   `body_obligation21` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 21 of @main: custom_call 21, `cc21__tri_kernel` (pipeline 21), at the entry contents `V` -/

/-! ## The windows' blocks -/

/-- Window `w`'s block at point `t`, read off its array as the region finds it (`V`). -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The same of input window 1. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
/-- The same of input window 2 (the bias row: its one block is fetched at the first point only, and every later point
    finds it where the first left it). -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- Each staging buffer is read, and the result's written, whole. -/
abbrev r21_0 : Rect S1x8x768 := Rect.unit (s := S1x8x768) ![0, 0, 0] S1x8x768.size inb_S1x8x768_S1x8x768_0_0_0
abbrev r21_1 : Rect S1x96x768 := Rect.unit (s := S1x96x768) ![0, 0, 0] S1x96x768.size inb_S1x96x768_S1x96x768_0_0_0
abbrev r21_2 : Rect S1x768 := Rect.unit (s := S1x768) ![0, 0] S1x768.size inb_S1x768_S1x768_0_0
abbrev r21_3 : Rect S1x740x768 := Rect.unit (s := S1x740x768) ![0, 0, 0] S1x740x768.size inb_S1x740x768_S1x740x768_0_0_0

/-! ## What the body leaves in the output window's buffer -/

/-- Window 3's staging buffer after the body, from the input windows' blocks: its one store, of the whole block —
    the eight row-broadcast sums under tanh, concatenated (the payloads are the skeleton's, over the three loads). -/
noncomputable def out21_3 (x0 : Vec F S1x8x768 .f32) (x1 : Vec F S1x96x768 .f32) (x2 : Vec F S1x768 .f32) : Vec F S1x740x768 .f32 :=
  View.canon [⟨r21_3, k21_pay1 (k21_pay2 (View.ld x0 r21_0)) (k21_pay3 (View.ld x1 r21_1)) (k21_pay4 (View.ld x2 r21_2))
    (k21_pay5 (View.ld x0 r21_0) (View.ld x1 r21_1) (View.ld x2 r21_2)) (k21_pay6 (View.ld x0 r21_0) (View.ld x1 r21_1) (View.ld x2 r21_2))
    (k21_pay7 (View.ld x0 r21_0) (View.ld x1 r21_1) (View.ld x2 r21_2)) (k21_pay8 (View.ld x0 r21_0) (View.ld x1 r21_1) (View.ld x2 r21_2))
    (k21_pay9 (View.ld x0 r21_0) (View.ld x1 r21_1) (View.ld x2 r21_2)) (k21_pay10 (View.ld x0 r21_0) (View.ld x1 r21_1) (View.ld x2 r21_2))
    (k21_pay11 (View.ld x0 r21_0) (View.ld x1 r21_1))⟩]

/-- The store is of the whole block, so it covers the buffer (checked by evaluation). -/
theorem cover21_3 (p0 : Vec F S1x740x768 .f32) (y : S1x740x768.Idx) :
    ∃ pc ∈ ([⟨r21_3, p0⟩] : List (View.Piece (Elt F) S1x740x768 .f32)), y ∈ pc.1.set :=
  View.cover_of_tiled [⟨r21_3, p0⟩] S1x740x768.size (by rfl) y

/-! ## The body's triple -/

set_option maxHeartbeats 1000000 in
/-- The kernel body on whole staging memrefs, the inputs' at read contents `xW` and the output's at anything, runs to
    the continuation holding the inputs' as they were and the output's at `out21_3` of the inputs': the three loads of
    the first part, the load of the output's buffer (whatever it holds; the value is dropped), and the one store. -/
theorem sound_kernel21 (c : Dev nD) (E : Set ℕ) (i : grid21.Coords) (arg1 : Memref sig .tc .vmem S1x8x768 .f32) (harg1 : arg1.IsWhole) (arg2 : Memref sig .tc .vmem S1x96x768 .f32) (harg2 : arg2.IsWhole) (arg3 : Memref sig .tc .vmem S1x768 .f32) (harg3 : arg3.IsWhole) (arg4 : Memref sig .tc .vmem S1x740x768 .f32) (harg4 : arg4.IsWhole)
    (x0 : Vec F S1x8x768 .f32) (x1 : Vec F S1x96x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out21_3 x0 x1 x2)) -∗ K ⟨⟩))
      ⊢ wp frame (wpE (defs₀ (F := F)) Variants.none c none) E (cc21__tri_kernel i arg1 harg1 arg2 harg2 arg3 harg3 arg4 harg4) K := by
  simp only [cc21__tri_kernel_eq_skeleton]; unfold cc21__tri_kernel_skel
  simp only [k21_part1_eq_skeleton]; unfold k21_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover21_3 _)

/-! ## The pipeline's proof data -/

/-- The proof data of pipeline 21 on core `c`: the arrays as the region finds them (`V`); after the body at
    point `t` each input's buffer at its block and the output's at `out21_3` of the input blocks; the invariant the
    class's (`Pipeline.ΦA`: the scoped rest and the generator register, untouched); nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => out21_3 (iblk21 V c 0 t) (iblk21 V c 1 t) (iblk21 V c 2 t)
  Φ _ := Pipeline.ΦA spec21 c
  q _ := fullShare
  owed _ := 0

/-- The proof data's arrays are the region-entry contents (the proof data's definition projected, by `dsimp`). -/
theorem A_eq21 (c : Dev nD) (w : Fin cfg21.W) : (dat21 V c).A w = V c (Pipeline.arrRef spec21 w) := by
  dsimp only [dat21]

/-- What the body leaves, window by window (the proof data's `match` reduced by `dsimp`, never `rfl`). -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = out21_3 (iblk21 V c 0 t) (iblk21 V c 1 t) (iblk21 V c 2 t) := by dsimp only [dat21]

/-- Each input's current staging buffer holds its block at every point, fetched there or not (`before21_W_of`). -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d

/-! ## The body obligation, at a generic point -/

/-- What the body is called with at point `t` (the body obligation's precondition, the windows one by one), -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t))

/-- The body at any point: the inputs' memrefs hold their blocks (`before21_W`), so `sound_kernel21` applies; the
    invariant and the core's `owes` pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2]
  rw [show (dat21 V c).Φ t.succ = (dat21 V c).Φ t.castSucc from rfl,
    show (dat21 V c).owesAt () t.succ = (dat21 V c).owesAt () t.castSucc from rfl,
    after21_0, after21_1, after21_2, after21_3]
  iintro ⟨HΦ, Ho, ⟨%d0, H0⟩, ⟨%d1, H1⟩, ⟨%d2, H2⟩, ⟨%d3, H3⟩⟩
  iapply (sound_kernel21 c Set.univ (grid21.coords t) _ _ _ _ _ _ _ _ (iblk21 V c 0 t) (iblk21 V c 1 t) (iblk21 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation21 (c : Dev nD) : BodyObligation (dat21 (F := F) V c) (defs₀ (F := F)) Variants.none () Set.univ := fun t => by
  rw [bigSep_W21, bigSep_W21]
  exact sound_body21 V c t

end Regions

end Cert.KernelIdeal.Fr

end
-- ==== Proof.KI.Reg22.lean ====
/- Region 22 of @main (triangular chunk 22 of 32, `cc22__tri_kernel`, pipeline 22, grid [4] over the batch), at the
   TensorCore's buffer contents `V` when the region is entered. Four windows: 0 = the eight rows of the first product
   this chunk pairs off (block [1,8,768] of [4,8,768]), 1 = the 88 rows of the second product they are paired with
   (block [1,88,768] of [4,88,768]), 2 = the bias row ([1,768], one block, fetched at the first point and kept),
   3 = the chunk's result (block [1,676,768] of [4,676,768], 676 = 88 + 87 + … + 81, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out22_3`),
   and each input buffer is left as found: this is what the pipeline's proof data `dat22` record, and
   `body_obligation22` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 22 of @main: custom_call 22, `cc22__tri_kernel` (pipeline 22), at the entry contents `V` -/

/-! ## The windows' blocks -/

/-- Window `w`'s block at point `t`, read off its array as the region finds it (`V`). -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The same of input window 1. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
/-- The same of input window 2 (the bias row: its one block is fetched at the first point only, and every later point
    finds it where the first left it). -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses -/

/-- Each staging buffer is read, and the result's written, whole. -/
abbrev r22_0 : Rect S1x8x768 := Rect.unit (s := S1x8x768) ![0, 0, 0] S1x8x768.size inb_S1x8x768_S1x8x768_0_0_0
abbrev r22_1 : Rect S1x88x768 := Rect.unit (s := S1x88x768) ![0, 0, 0] S1x88x768.size inb_S1x88x768_S1x88x768_0_0_0
abbrev r22_2 : Rect S1x768 := Rect.unit (s := S1x768) ![0, 0] S1x768.size inb_S1x768_S1x768_0_0
abbrev r22_3 : Rect S1x676x768 := Rect.unit (s := S1x676x768) ![0, 0, 0] S1x676x768.size inb_S1x676x768_S1x676x768_0_0_0

/-! ## What the body leaves in the output window's buffer -/

/-- Window 3's staging buffer after the body, from the input windows' blocks: its one store, of the whole block —
    the eight row-broadcast sums under tanh, concatenated (the payloads are the skeleton's, over the three loads). -/
noncomputable def out22_3 (x0 : Vec F S1x8x768 .f32) (x1 : Vec F S1x88x768 .f32) (x2 : Vec F S1x768 .f32) : Vec F S1x676x768 .f32 :=
  View.canon [⟨r22_3, k22_pay1 (k22_pay2 (View.ld x0 r22_0)) (k22_pay3 (View.ld x1 r22_1)) (k22_pay4 (View.ld x2 r22_2))
    (k22_pay5 (View.ld x0 r22_0) (View.ld x1 r22_1) (View.ld x2 r22_2)) (k22_pay6 (View.ld x0 r22_0) (View.ld x1 r22_1) (View.ld x2 r22_2))
    (k22_pay7 (View.ld x0 r22_0) (View.ld x1 r22_1) (View.ld x2 r22_2)) (k22_pay8 (View.ld x0 r22_0) (View.ld x1 r22_1) (View.ld x2 r22_2))
    (k22_pay9 (View.ld x0 r22_0) (View.ld x1 r22_1) (View.ld x2 r22_2)) (k22_pay10 (View.ld x0 r22_0) (View.ld x1 r22_1) (View.ld x2 r22_2))
    (k22_pay11 (View.ld x0 r22_0) (View.ld x1 r22_1))⟩]

/-- The store is of the whole block, so it covers the buffer (checked by evaluation). -/
theorem cover22_3 (p0 : Vec F S1x676x768 .f32) (y : S1x676x768.Idx) :
    ∃ pc ∈ ([⟨r22_3, p0⟩] : List (View.Piece (Elt F) S1x676x768 .f32)), y ∈ pc.1.set :=
  View.cover_of_tiled [⟨r22_3, p0⟩] S1x676x768.size (by rfl) y

/-! ## The body's triple -/

set_option maxHeartbeats 1000000 in
/-- The kernel body on whole staging memrefs, the inputs' at read contents `xW` and the output's at anything, runs to
    the continuation holding the inputs' as they were and the output's at `out22_3` of the inputs': the three loads of
    the first part, the load of the output's buffer (whatever it holds; the value is dropped), and the one store. -/
theorem sound_kernel22 (c : Dev nD) (E : Set ℕ) (i : grid22.Coords) (arg1 : Memref sig .tc .vmem S1x8x768 .f32) (harg1 : arg1.IsWhole) (arg2 : Memref sig .tc .vmem S1x88x768 .f32) (harg2 : arg2.IsWhole) (arg3 : Memref sig .tc .vmem S1x768 .f32) (harg3 : arg3.IsWhole) (arg4 : Memref sig .tc .vmem S1x676x768 .f32) (harg4 : arg4.IsWhole)
    (x0 : Vec F S1x8x768 .f32) (x1 : Vec F S1x88x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22__tri_kernel i arg1 harg1 arg2 harg2 arg3 harg3 arg4 harg4) K := by
  simp only [cc22__tri_kernel_eq_skeleton]; unfold cc22__tri_kernel_skel
  simp only [k22_part1_eq_skeleton]; unfold k22_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-! ## The pipeline's proof data -/

/-- The proof data of pipeline 22 on core `c`: the arrays as the region finds them (`V`); after the body at
    point `t` each input's buffer at its block and the output's at `out22_3` of the input blocks; the invariant the
    class's (`Pipeline.ΦA`: the scoped rest and the generator register, untouched); nothing owed; full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents (the proof data's definition projected, by `dsimp`). -/
theorem A_eq22 (c : Dev nD) (w : Fin cfg22.W) : (dat22 V c).A w = V c (Pipeline.arrRef spec22 w) := by
  dsimp only [dat22]

/-- What the body leaves, window by window (the proof data's `match` reduced by `dsimp`, never `rfl`). -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

/-- Each input's current staging buffer holds its block at every point, fetched there or not (`before22_W_of`). -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t` (the body obligation's precondition, the windows one by one), -/
noncomputable def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
noncomputable def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks (`before22_W`), so `sound_kernel22` applies; the
    invariant and the core's `owes` pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ (grid22.coords t) _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

end Regions

end Cert.KernelIdeal.Fr

end
-- ==== Proof.KI.Reg23.lean ====
/- Region 23 of @main (triangular chunk 23 of 32, `cc23__tri_kernel`, pipeline 23, grid [4] over the batch), at the
   TensorCore's buffer contents `V` when the region is entered. Four windows: 0 = the eight rows of the first product
   this chunk pairs off (block [1,8,768] of [4,8,768]), 1 = the 80 rows of the second product they are paired with
   (block [1,80,768] of [4,80,768]), 2 = the bias row ([1,768], one block, fetched at the first point and kept),
   3 = the chunk's result (block [1,612,768] of [4,612,768], 612 = 80 + 79 + … + 73, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out23_3`),
   and each input buffer is left as found: this is what the pipeline's proof data `dat23` record, and
   `body_obligation23` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 23 of @main: custom_call 23, `cc23__tri_kernel` (pipeline 23), at the entry contents `V` -/

/-! ## The windows' blocks -/

/-- Window `w`'s block at point `t`, read off its array as the region finds it (`V`). -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The same of input window 1. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)
/-- The same of input window 2 (the bias row: its one block is fetched at the first point only, and every later point
    finds it where the first left it). -/
theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses -/

/-- Each staging buffer is read, and the result's written, whole. -/
abbrev r23_0 : Rect S1x8x768 := Rect.unit (s := S1x8x768) ![0, 0, 0] S1x8x768.size inb_S1x8x768_S1x8x768_0_0_0
abbrev r23_1 : Rect S1x80x768 := Rect.unit (s := S1x80x768) ![0, 0, 0] S1x80x768.size inb_S1x80x768_S1x80x768_0_0_0
abbrev r23_2 : Rect S1x768 := Rect.unit (s := S1x768) ![0, 0] S1x768.size inb_S1x768_S1x768_0_0
abbrev r23_3 : Rect S1x612x768 := Rect.unit (s := S1x612x768) ![0, 0, 0] S1x612x768.size inb_S1x612x768_S1x612x768_0_0_0

/-! ## What the body leaves in the output window's buffer -/

/-- Window 3's staging buffer after the body, from the input windows' blocks: its one store, of the whole block —
    the eight row-broadcast sums under tanh, concatenated (the payloads are the skeleton's, over the three loads). -/
noncomputable def out23_3 (x0 : Vec F S1x8x768 .f32) (x1 : Vec F S1x80x768 .f32) (x2 : Vec F S1x768 .f32) : Vec F S1x612x768 .f32 :=
  View.canon [⟨r23_3, k23_pay1 (k23_pay2 (View.ld x0 r23_0)) (k23_pay3 (View.ld x1 r23_1)) (k23_pay4 (View.ld x2 r23_2))
    (k23_pay5 (View.ld x0 r23_0) (View.ld x1 r23_1) (View.ld x2 r23_2)) (k23_pay6 (View.ld x0 r23_0) (View.ld x1 r23_1) (View.ld x2 r23_2))
    (k23_pay7 (View.ld x0 r23_0) (View.ld x1 r23_1) (View.ld x2 r23_2)) (k23_pay8 (View.ld x0 r23_0) (View.ld x1 r23_1) (View.ld x2 r23_2))
    (k23_pay9 (View.ld x0 r23_0) (View.ld x1 r23_1) (View.ld x2 r23_2)) (k23_pay10 (View.ld x0 r23_0) (View.ld x1 r23_1) (View.ld x2 r23_2))
    (k23_pay11 (View.ld x0 r23_0) (View.ld x1 r23_1))⟩]

/-- The store is of the whole block, so it covers the buffer (checked by evaluation). -/
theorem cover23_3 (p0 : Vec F S1x612x768 .f32) (y : S1x612x768.Idx) :
    ∃ pc ∈ ([⟨r23_3, p0⟩] : List (View.Piece (Elt F) S1x612x768 .f32)), y ∈ pc.1.set :=
  View.cover_of_tiled [⟨r23_3, p0⟩] S1x612x768.size (by rfl) y

/-! ## The body's triple -/

set_option maxHeartbeats 1000000 in
/-- The kernel body on whole staging memrefs, the inputs' at read contents `xW` and the output's at anything, runs to
    the continuation holding the inputs' as they were and the output's at `out23_3` of the inputs': the three loads of
    the first part, the load of the output's buffer (whatever it holds; the value is dropped), and the one store. -/
theorem sound_kernel23 (c : Dev nD) (E : Set ℕ) (i : grid23.Coords) (arg1 : Memref sig .tc .vmem S1x8x768 .f32) (harg1 : arg1.IsWhole) (arg2 : Memref sig .tc .vmem S1x80x768 .f32) (harg2 : arg2.IsWhole) (arg3 : Memref sig .tc .vmem S1x768 .f32) (harg3 : arg3.IsWhole) (arg4 : Memref sig .tc .vmem S1x612x768 .f32) (harg4 : arg4.IsWhole)
    (x0 : Vec F S1x8x768 .f32) (x1 : Vec F S1x80x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23__tri_kernel i arg1 harg1 arg2 harg2 arg3 harg3 arg4 harg4) K := by
  simp only [cc23__tri_kernel_eq_skeleton]; unfold cc23__tri_kernel_skel
  simp only [k23_part1_eq_skeleton]; unfold k23_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover23_3 _)

/-! ## The pipeline's proof data -/

/-- The proof data of pipeline 23 on core `c`: the arrays as the region finds them (`V`); after the body at
    point `t` each input's buffer at its block and the output's at `out23_3` of the input blocks; the invariant the
    class's (`Pipeline.ΦA`: the scoped rest and the generator register, untouched); nothing owed; full shares. -/
noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

/-- The proof data's arrays are the region-entry contents (the proof data's definition projected, by `dsimp`). -/
theorem A_eq23 (c : Dev nD) (w : Fin cfg23.W) : (dat23 V c).A w = V c (Pipeline.arrRef spec23 w) := by
  dsimp only [dat23]

/-- What the body leaves, window by window (the proof data's `match` reduced by `dsimp`, never `rfl`). -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

/-- Each input's current staging buffer holds its block at every point, fetched there or not (`before23_W_of`). -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

/-! ## The body obligation, at a generic point -/

/-- What the body is called with at point `t` (the body obligation's precondition, the windows one by one), -/
noncomputable def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

/-- and what it returns. -/
noncomputable def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

/-- The body at any point: the inputs' memrefs hold their blocks (`before23_W`), so `sound_kernel23` applies; the
    invariant and the core's `owes` pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ (grid23.coords t) _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation23 (c : Dev nD) : BodyObligation (dat23 (F := F) V c) (defs₀ (F := F)) Variants.none () Set.univ := fun t => by
  rw [bigSep_W23, bigSep_W23]
  exact sound_body23 V c t

end Regions

end Cert.KernelIdeal.Fr

end
-- ==== Proof.KI.Reg24.lean ====
/- Region 24 of @main (triangular chunk 24 of 32, `cc24__tri_kernel`, pipeline 24, grid [4] over the batch), at the
   TensorCore's buffer contents `V` when the region is entered. Four windows: 0 = the eight rows of the first product
   this chunk pairs off (block [1,8,768] of [4,8,768]), 1 = the 72 rows of the second product they are paired with
   (block [1,72,768] of [4,72,768]), 2 = the bias row ([1,768], one block, fetched at the first point and kept),
   3 = the chunk's result (block [1,548,768] of [4,548,768], 548 = 72 + 71 + … + 65, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out24_3`),
   and each input buffer is left as found: this is what the pipeline's proof data `dat24` record, and
   `body_obligation24` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 24 of @main: custom_call 24, `cc24__tri_kernel` (pipeline 24), at the entry contents `V` -/

/-! ## The windows' blocks -/

/-- Window `w`'s block at point `t`, read off its array as the region finds it (`V`). -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
/-- The same of input window 1. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
/-- The same of input window 2 (the bias row: its one block is fetched at the first point only, and every later point
    finds it where the first left it). -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses -/

/-- Each staging buffer is read, and the result's written, whole. -/
abbrev r24_0 : Rect S1x8x768 := Rect.unit (s := S1x8x768) ![0, 0, 0] S1x8x768.size inb_S1x8x768_S1x8x768_0_0_0
abbrev r24_1 : Rect S1x72x768 := Rect.unit (s := S1x72x768) ![0, 0, 0] S1x72x768.size inb_S1x72x768_S1x72x768_0_0_0
abbrev r24_2 : Rect S1x768 := Rect.unit (s := S1x768) ![0, 0] S1x768.size inb_S1x768_S1x768_0_0
abbrev r24_3 : Rect S1x548x768 := Rect.unit (s := S1x548x768) ![0, 0, 0] S1x548x768.size inb_S1x548x768_S1x548x768_0_0_0

/-! ## What the body leaves in the output window's buffer -/

/-- Window 3's staging buffer after the body, from the input windows' blocks: its one store, of the whole block —
    the eight row-broadcast sums under tanh, concatenated (the payloads are the skeleton's, over the three loads). -/
noncomputable def out24_3 (x0 : Vec F S1x8x768 .f32) (x1 : Vec F S1x72x768 .f32) (x2 : Vec F S1x768 .f32) : Vec F S1x548x768 .f32 :=
  View.canon [⟨r24_3, k24_pay1 (k24_pay2 (View.ld x0 r24_0)) (k24_pay3 (View.ld x1 r24_1)) (k24_pay4 (View.ld x2 r24_2))
    (k24_pay5 (View.ld x0 r24_0) (View.ld x1 r24_1) (View.ld x2 r24_2)) (k24_pay6 (View.ld x0 r24_0) (View.ld x1 r24_1) (View.ld x2 r24_2))
    (k24_pay7 (View.ld x0 r24_0) (View.ld x1 r24_1) (View.ld x2 r24_2)) (k24_pay8 (View.ld x0 r24_0) (View.ld x1 r24_1) (View.ld x2 r24_2))
    (k24_pay9 (View.ld x0 r24_0) (View.ld x1 r24_1) (View.ld x2 r24_2)) (k24_pay10 (View.ld x0 r24_0) (View.ld x1 r24_1) (View.ld x2 r24_2))
    (k24_pay11 (View.ld x0 r24_0) (View.ld x1 r24_1))⟩]

/-- The store is of the whole block, so it covers the buffer (checked by evaluation). -/
theorem cover24_3 (p0 : Vec F S1x548x768 .f32) (y : S1x548x768.Idx) :
    ∃ pc ∈ ([⟨r24_3, p0⟩] : List (View.Piece (Elt F) S1x548x768 .f32)), y ∈ pc.1.set :=
  View.cover_of_tiled [⟨r24_3, p0⟩] S1x548x768.size (by rfl) y

/-! ## The body's triple -/

set_option maxHeartbeats 1000000 in
/-- The kernel body on whole staging memrefs, the inputs' at read contents `xW` and the output's at anything, runs to
    the continuation holding the inputs' as they were and the output's at `out24_3` of the inputs': the three loads of
    the first part, the load of the output's buffer (whatever it holds; the value is dropped), and the one store. -/
theorem sound_kernel24 (c : Dev nD) (E : Set ℕ) (i : grid24.Coords) (arg1 : Memref sig .tc .vmem S1x8x768 .f32) (harg1 : arg1.IsWhole) (arg2 : Memref sig .tc .vmem S1x72x768 .f32) (harg2 : arg2.IsWhole) (arg3 : Memref sig .tc .vmem S1x768 .f32) (harg3 : arg3.IsWhole) (arg4 : Memref sig .tc .vmem S1x548x768 .f32) (harg4 : arg4.IsWhole)
    (x0 : Vec F S1x8x768 .f32) (x1 : Vec F S1x72x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out24_3 x0 x1 x2)) -∗ K ⟨⟩))
      ⊢ wp frame (wpE (defs₀ (F := F)) Variants.none c none) E (cc24__tri_kernel i arg1 harg1 arg2 harg2 arg3 harg3 arg4 harg4) K := by
  simp only [cc24__tri_kernel_eq_skeleton]; unfold cc24__tri_kernel_skel
  simp only [k24_part1_eq_skeleton]; unfold k24_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover24_3 _)

/-! ## The pipeline's proof data -/

/-- The proof data of pipeline 24 on core `c`: the arrays as the region finds them (`V`); after the body at
    point `t` each input's buffer at its block and the output's at `out24_3` of the input blocks; the invariant the
    class's (`Pipeline.ΦA`: the scoped rest and the generator register, untouched); nothing owed; full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => out24_3 (iblk24 V c 0 t) (iblk24 V c 1 t) (iblk24 V c 2 t)
  Φ _ := Pipeline.ΦA spec24 c
  q _ := fullShare
  owed _ := 0

/-- The proof data's arrays are the region-entry contents (the proof data's definition projected, by `dsimp`). -/
theorem A_eq24 (c : Dev nD) (w : Fin cfg24.W) : (dat24 V c).A w = V c (Pipeline.arrRef spec24 w) := by
  dsimp only [dat24]

/-- What the body leaves, window by window (the proof data's `match` reduced by `dsimp`, never `rfl`). -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = out24_3 (iblk24 V c 0 t) (iblk24 V c 1 t) (iblk24 V c 2 t) := by dsimp only [dat24]

/-- Each input's current staging buffer holds its block at every point, fetched there or not (`before24_W_of`). -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d

/-! ## The body obligation, at a generic point -/

/-- What the body is called with at point `t` (the body obligation's precondition, the windows one by one), -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t))

/-- The body at any point: the inputs' memrefs hold their blocks (`before24_W`), so `sound_kernel24` applies; the
    invariant and the core's `owes` pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2]
  rw [show (dat24 V c).Φ t.succ = (dat24 V c).Φ t.castSucc from rfl,
    show (dat24 V c).owesAt () t.succ = (dat24 V c).owesAt () t.castSucc from rfl,
    after24_0, after24_1, after24_2, after24_3]
  iintro ⟨HΦ, Ho, ⟨%d0, H0⟩, ⟨%d1, H1⟩, ⟨%d2, H2⟩, ⟨%d3, H3⟩⟩
  iapply (sound_kernel24 c Set.univ (grid24.coords t) _ _ _ _ _ _ _ _ (iblk24 V c 0 t) (iblk24 V c 1 t) (iblk24 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation24 (c : Dev nD) : BodyObligation (dat24 (F := F) V c) (defs₀ (F := F)) Variants.none () Set.univ := fun t => by
  rw [bigSep_W24, bigSep_W24]
  exact sound_body24 V c t

end Regions

end Cert.KernelIdeal.Fr

end
-- ==== Proof.KI.Reg25.lean ====
/- Region 25 of @main (triangular chunk 25 of 32, `cc25__tri_kernel`, pipeline 25, grid [4] over the batch), at the
   TensorCore's buffer contents `V` when the region is entered. Four windows: 0 = the eight rows of the first product
   this chunk pairs off (block [1,8,768] of [4,8,768]), 1 = the 64 rows of the second product they are paired with
   (block [1,64,768] of [4,64,768]), 2 = the bias row ([1,768], one block, fetched at the first point and kept),
   3 = the chunk's result (block [1,484,768] of [4,484,768], 484 = 64 + 63 + … + 57, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out25_3`),
   and each input buffer is left as found: this is what the pipeline's proof data `dat25` record, and
   `body_obligation25` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 25 of @main: custom_call 25, `cc25__tri_kernel` (pipeline 25), at the entry contents `V` -/

/-! ## The windows' blocks -/

/-- Window `w`'s block at point `t`, read off its array as the region finds it (`V`). -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)
/-- The same of input window 1. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)
/-- The same of input window 2 (the bias row: its one block is fetched at the first point only, and every later point
    finds it where the first left it). -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses -/

/-- Each staging buffer is read, and the result's written, whole. -/
abbrev r25_0 : Rect S1x8x768 := Rect.unit (s := S1x8x768) ![0, 0, 0] S1x8x768.size inb_S1x8x768_S1x8x768_0_0_0
abbrev r25_1 : Rect S1x64x768 := Rect.unit (s := S1x64x768) ![0, 0, 0] S1x64x768.size inb_S1x64x768_S1x64x768_0_0_0
abbrev r25_2 : Rect S1x768 := Rect.unit (s := S1x768) ![0, 0] S1x768.size inb_S1x768_S1x768_0_0
abbrev r25_3 : Rect S1x484x768 := Rect.unit (s := S1x484x768) ![0, 0, 0] S1x484x768.size inb_S1x484x768_S1x484x768_0_0_0

/-! ## What the body leaves in the output window's buffer -/

/-- Window 3's staging buffer after the body, from the input windows' blocks: its one store, of the whole block —
    the eight row-broadcast sums under tanh, concatenated (the payloads are the skeleton's, over the three loads). -/
noncomputable def out25_3 (x0 : Vec F S1x8x768 .f32) (x1 : Vec F S1x64x768 .f32) (x2 : Vec F S1x768 .f32) : Vec F S1x484x768 .f32 :=
  View.canon [⟨r25_3, k25_pay1 (k25_pay2 (View.ld x0 r25_0)) (k25_pay3 (View.ld x1 r25_1)) (k25_pay4 (View.ld x2 r25_2))
    (k25_pay5 (View.ld x0 r25_0) (View.ld x1 r25_1) (View.ld x2 r25_2)) (k25_pay6 (View.ld x0 r25_0) (View.ld x1 r25_1) (View.ld x2 r25_2))
    (k25_pay7 (View.ld x0 r25_0) (View.ld x1 r25_1) (View.ld x2 r25_2)) (k25_pay8 (View.ld x0 r25_0) (View.ld x1 r25_1) (View.ld x2 r25_2))
    (k25_pay9 (View.ld x0 r25_0) (View.ld x1 r25_1) (View.ld x2 r25_2)) (k25_pay10 (View.ld x0 r25_0) (View.ld x1 r25_1) (View.ld x2 r25_2))
    (k25_pay11 (View.ld x0 r25_0) (View.ld x1 r25_1))⟩]

/-- The store is of the whole block, so it covers the buffer (checked by evaluation). -/
theorem cover25_3 (p0 : Vec F S1x484x768 .f32) (y : S1x484x768.Idx) :
    ∃ pc ∈ ([⟨r25_3, p0⟩] : List (View.Piece (Elt F) S1x484x768 .f32)), y ∈ pc.1.set :=
  View.cover_of_tiled [⟨r25_3, p0⟩] S1x484x768.size (by rfl) y

/-! ## The body's triple -/

set_option maxHeartbeats 1000000 in
/-- The kernel body on whole staging memrefs, the inputs' at read contents `xW` and the output's at anything, runs to
    the continuation holding the inputs' as they were and the output's at `out25_3` of the inputs': the three loads of
    the first part, the load of the output's buffer (whatever it holds; the value is dropped), and the one store. -/
theorem sound_kernel25 (c : Dev nD) (E : Set ℕ) (i : grid25.Coords) (arg1 : Memref sig .tc .vmem S1x8x768 .f32) (harg1 : arg1.IsWhole) (arg2 : Memref sig .tc .vmem S1x64x768 .f32) (harg2 : arg2.IsWhole) (arg3 : Memref sig .tc .vmem S1x768 .f32) (harg3 : arg3.IsWhole) (arg4 : Memref sig .tc .vmem S1x484x768 .f32) (harg4 : arg4.IsWhole)
    (x0 : Vec F S1x8x768 .f32) (x1 : Vec F S1x64x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out25_3 x0 x1 x2)) -∗ K ⟨⟩))
      ⊢ wp frame (wpE (defs₀ (F := F)) Variants.none c none) E (cc25__tri_kernel i arg1 harg1 arg2 harg2 arg3 harg3 arg4 harg4) K := by
  simp only [cc25__tri_kernel_eq_skeleton]; unfold cc25__tri_kernel_skel
  simp only [k25_part1_eq_skeleton]; unfold k25_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover25_3 _)

/-! ## The pipeline's proof data -/

/-- The proof data of pipeline 25 on core `c`: the arrays as the region finds them (`V`); after the body at
    point `t` each input's buffer at its block and the output's at `out25_3` of the input blocks; the invariant the
    class's (`Pipeline.ΦA`: the scoped rest and the generator register, untouched); nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => out25_3 (iblk25 V c 0 t) (iblk25 V c 1 t) (iblk25 V c 2 t)
  Φ _ := Pipeline.ΦA spec25 c
  q _ := fullShare
  owed _ := 0

/-- The proof data's arrays are the region-entry contents (the proof data's definition projected, by `dsimp`). -/
theorem A_eq25 (c : Dev nD) (w : Fin cfg25.W) : (dat25 V c).A w = V c (Pipeline.arrRef spec25 w) := by
  dsimp only [dat25]

/-- What the body leaves, window by window (the proof data's `match` reduced by `dsimp`, never `rfl`). -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = out25_3 (iblk25 V c 0 t) (iblk25 V c 1 t) (iblk25 V c 2 t) := by dsimp only [dat25]

/-- Each input's current staging buffer holds its block at every point, fetched there or not (`before25_W_of`). -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d

/-! ## The body obligation, at a generic point -/

/-- What the body is called with at point `t` (the body obligation's precondition, the windows one by one), -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t))

/-- The body at any point: the inputs' memrefs hold their blocks (`before25_W`), so `sound_kernel25` applies; the
    invariant and the core's `owes` pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2]
  rw [show (dat25 V c).Φ t.succ = (dat25 V c).Φ t.castSucc from rfl,
    show (dat25 V c).owesAt () t.succ = (dat25 V c).owesAt () t.castSucc from rfl,
    after25_0, after25_1, after25_2, after25_3]
  iintro ⟨HΦ, Ho, ⟨%d0, H0⟩, ⟨%d1, H1⟩, ⟨%d2, H2⟩, ⟨%d3, H3⟩⟩
  iapply (sound_kernel25 c Set.univ (grid25.coords t) _ _ _ _ _ _ _ _ (iblk25 V c 0 t) (iblk25 V c 1 t) (iblk25 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation25 (c : Dev nD) : BodyObligation (dat25 (F := F) V c) (defs₀ (F := F)) Variants.none () Set.univ := fun t => by
  rw [bigSep_W25, bigSep_W25]
  exact sound_body25 V c t

end Regions

end Cert.KernelIdeal.Fr

end
-- ==== Proof.KI.Reg26.lean ====
/- Region 26 of @main (triangular chunk 26 of 32, `cc26__tri_kernel`, pipeline 26, grid [4] over the batch), at the
   TensorCore's buffer contents `V` when the region is entered. Four windows: 0 = the eight rows of the first product
   this chunk pairs off (block [1,8,768] of [4,8,768]), 1 = the 56 rows of the second product they are paired with
   (block [1,56,768] of [4,56,768]), 2 = the bias row ([1,768], one block, fetched at the first point and kept),
   3 = the chunk's result (block [1,420,768] of [4,420,768], 420 = 56 + 55 + … + 49, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out26_3`),
   and each input buffer is left as found: this is what the pipeline's proof data `dat26` record, and
   `body_obligation26` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 26 of @main: custom_call 26, `cc26__tri_kernel` (pipeline 26), at the entry contents `V` -/

/-! ## The windows' blocks -/

/-- Window `w`'s block at point `t`, read off its array as the region finds it (`V`). -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)
/-- The same of input window 1. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)
/-- The same of input window 2 (the bias row: its one block is fetched at the first point only, and every later point
    finds it where the first left it). -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's accesses -/

/-- Each staging buffer is read, and the result's written, whole. -/
abbrev r26_0 : Rect S1x8x768 := Rect.unit (s := S1x8x768) ![0, 0, 0] S1x8x768.size inb_S1x8x768_S1x8x768_0_0_0
abbrev r26_1 : Rect S1x56x768 := Rect.unit (s := S1x56x768) ![0, 0, 0] S1x56x768.size inb_S1x56x768_S1x56x768_0_0_0
abbrev r26_2 : Rect S1x768 := Rect.unit (s := S1x768) ![0, 0] S1x768.size inb_S1x768_S1x768_0_0
abbrev r26_3 : Rect S1x420x768 := Rect.unit (s := S1x420x768) ![0, 0, 0] S1x420x768.size inb_S1x420x768_S1x420x768_0_0_0

/-! ## What the body leaves in the output window's buffer -/

/-- Window 3's staging buffer after the body, from the input windows' blocks: its one store, of the whole block —
    the eight row-broadcast sums under tanh, concatenated (the payloads are the skeleton's, over the three loads). -/
noncomputable def out26_3 (x0 : Vec F S1x8x768 .f32) (x1 : Vec F S1x56x768 .f32) (x2 : Vec F S1x768 .f32) : Vec F S1x420x768 .f32 :=
  View.canon [⟨r26_3, k26_pay1 (k26_pay2 (View.ld x0 r26_0)) (k26_pay3 (View.ld x1 r26_1)) (k26_pay4 (View.ld x2 r26_2))
    (k26_pay5 (View.ld x0 r26_0) (View.ld x1 r26_1) (View.ld x2 r26_2)) (k26_pay6 (View.ld x0 r26_0) (View.ld x1 r26_1) (View.ld x2 r26_2))
    (k26_pay7 (View.ld x0 r26_0) (View.ld x1 r26_1) (View.ld x2 r26_2)) (k26_pay8 (View.ld x0 r26_0) (View.ld x1 r26_1) (View.ld x2 r26_2))
    (k26_pay9 (View.ld x0 r26_0) (View.ld x1 r26_1) (View.ld x2 r26_2)) (k26_pay10 (View.ld x0 r26_0) (View.ld x1 r26_1) (View.ld x2 r26_2))
    (k26_pay11 (View.ld x0 r26_0) (View.ld x1 r26_1))⟩]

/-- The store is of the whole block, so it covers the buffer (checked by evaluation). -/
theorem cover26_3 (p0 : Vec F S1x420x768 .f32) (y : S1x420x768.Idx) :
    ∃ pc ∈ ([⟨r26_3, p0⟩] : List (View.Piece (Elt F) S1x420x768 .f32)), y ∈ pc.1.set :=
  View.cover_of_tiled [⟨r26_3, p0⟩] S1x420x768.size (by rfl) y

/-! ## The body's triple -/

set_option maxHeartbeats 1000000 in
/-- The kernel body on whole staging memrefs, the inputs' at read contents `xW` and the output's at anything, runs to
    the continuation holding the inputs' as they were and the output's at `out26_3` of the inputs': the three loads of
    the first part, the load of the output's buffer (whatever it holds; the value is dropped), and the one store. -/
theorem sound_kernel26 (c : Dev nD) (E : Set ℕ) (i : grid26.Coords) (arg1 : Memref sig .tc .vmem S1x8x768 .f32) (harg1 : arg1.IsWhole) (arg2 : Memref sig .tc .vmem S1x56x768 .f32) (harg2 : arg2.IsWhole) (arg3 : Memref sig .tc .vmem S1x768 .f32) (harg3 : arg3.IsWhole) (arg4 : Memref sig .tc .vmem S1x420x768 .f32) (harg4 : arg4.IsWhole)
    (x0 : Vec F S1x8x768 .f32) (x1 : Vec F S1x56x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out26_3 x0 x1 x2)) -∗ K ⟨⟩))
      ⊢ wp frame (wpE (defs₀ (F := F)) Variants.none c none) E (cc26__tri_kernel i arg1 harg1 arg2 harg2 arg3 harg3 arg4 harg4) K := by
  simp only [cc26__tri_kernel_eq_skeleton]; unfold cc26__tri_kernel_skel
  simp only [k26_part1_eq_skeleton]; unfold k26_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover26_3 _)

/-! ## The pipeline's proof data -/

/-- The proof data of pipeline 26 on core `c`: the arrays as the region finds them (`V`); after the body at
    point `t` each input's buffer at its block and the output's at `out26_3` of the input blocks; the invariant the
    class's (`Pipeline.ΦA`: the scoped rest and the generator register, untouched); nothing owed; full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26_3 (iblk26 V c 0 t) (iblk26 V c 1 t) (iblk26 V c 2 t)
  Φ _ := Pipeline.ΦA spec26 c
  q _ := fullShare
  owed _ := 0

/-- The proof data's arrays are the region-entry contents (the proof data's definition projected, by `dsimp`). -/
theorem A_eq26 (c : Dev nD) (w : Fin cfg26.W) : (dat26 V c).A w = V c (Pipeline.arrRef spec26 w) := by
  dsimp only [dat26]

/-- What the body leaves, window by window (the proof data's `match` reduced by `dsimp`, never `rfl`). -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = out26_3 (iblk26 V c 0 t) (iblk26 V c 1 t) (iblk26 V c 2 t) := by dsimp only [dat26]

/-- Each input's current staging buffer holds its block at every point, fetched there or not (`before26_W_of`). -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point `t` (the body obligation's precondition, the windows one by one), -/
noncomputable def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
noncomputable def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' memrefs hold their blocks (`before26_W`), so `sound_kernel26` applies; the
    invariant and the core's `owes` pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ (grid26.coords t) _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation26 (c : Dev nD) : BodyObligation (dat26 (F := F) V c) (defs₀ (F := F)) Variants.none () Set.univ := fun t => by
  rw [bigSep_W26, bigSep_W26]
  exact sound_body26 V c t

end Regions

end Cert.KernelIdeal.Fr

end
-- ==== Proof.KI.Reg27.lean ====
/- Region 27 of @main (triangular chunk 27 of 32, `cc27__tri_kernel`, pipeline 27, grid [4] over the batch), at the
   TensorCore's buffer contents `V` when the region is entered. Four windows: 0 = the eight rows of the first product
   this chunk pairs off (block [1,8,768] of [4,8,768]), 1 = the 48 rows of the second product they are paired with
   (block [1,48,768] of [4,48,768]), 2 = the bias row ([1,768], one block, fetched at the first point and kept),
   3 = the chunk's result (block [1,356,768] of [4,356,768], 356 = 48 + 47 + … + 41, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out27_3`),
   and each input buffer is left as found: this is what the pipeline's proof data `dat27` record, and
   `body_obligation27` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 27 of @main: custom_call 27, `cc27__tri_kernel` (pipeline 27), at the entry contents `V` -/

/-! ## The windows' blocks -/

/-- Window `w`'s block at point `t`, read off its array as the region finds it (`V`). -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)
/-- The same of input window 1. -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)
/-- The same of input window 2 (the bias row: its one block is fetched at the first point only, and every later point
    finds it where the first left it). -/
theorem before27_2_of {c : Dev nD} (dat : Dat τ (Elt F) Unit ℕ (UR sig nD τ) ℕ cfg27 c) (hA : dat.A 2 = V c (Pipeline.arrRef spec27 2))
    (hafter : ∀ t, dat.after 2 t = iblk27 V c 2 t) (t : Fin cfg27.N) (d) : dat.before 2 t d = iblk27 V c 2 t :=
  (dat.before_in_eq_fetched 2 rfl (fun _ => rfl) (fun _ _ _ => rfl) (fun t => by rw [hafter]; unfold Dat.blockOf iblk27; rw [hA]; try rfl) t d).trans
    (by unfold Dat.fetched Dat.blockOf iblk27; rw [hA]; try rfl)

/-! ## The body's accesses -/

/-- Each staging buffer is read, and the result's written, whole. -/
abbrev r27_0 : Rect S1x8x768 := Rect.unit (s := S1x8x768) ![0, 0, 0] S1x8x768.size inb_S1x8x768_S1x8x768_0_0_0
abbrev r27_1 : Rect S1x48x768 := Rect.unit (s := S1x48x768) ![0, 0, 0] S1x48x768.size inb_S1x48x768_S1x48x768_0_0_0
abbrev r27_2 : Rect S1x768 := Rect.unit (s := S1x768) ![0, 0] S1x768.size inb_S1x768_S1x768_0_0
abbrev r27_3 : Rect S1x356x768 := Rect.unit (s := S1x356x768) ![0, 0, 0] S1x356x768.size inb_S1x356x768_S1x356x768_0_0_0

/-! ## What the body leaves in the output window's buffer -/

/-- Window 3's staging buffer after the body, from the input windows' blocks: its one store, of the whole block —
    the eight row-broadcast sums under tanh, concatenated (the payloads are the skeleton's, over the three loads). -/
noncomputable def out27_3 (x0 : Vec F S1x8x768 .f32) (x1 : Vec F S1x48x768 .f32) (x2 : Vec F S1x768 .f32) : Vec F S1x356x768 .f32 :=
  View.canon [⟨r27_3, k27_pay1 (k27_pay2 (View.ld x0 r27_0)) (k27_pay3 (View.ld x1 r27_1)) (k27_pay4 (View.ld x2 r27_2))
    (k27_pay5 (View.ld x0 r27_0) (View.ld x1 r27_1) (View.ld x2 r27_2)) (k27_pay6 (View.ld x0 r27_0) (View.ld x1 r27_1) (View.ld x2 r27_2))
    (k27_pay7 (View.ld x0 r27_0) (View.ld x1 r27_1) (View.ld x2 r27_2)) (k27_pay8 (View.ld x0 r27_0) (View.ld x1 r27_1) (View.ld x2 r27_2))
    (k27_pay9 (View.ld x0 r27_0) (View.ld x1 r27_1) (View.ld x2 r27_2)) (k27_pay10 (View.ld x0 r27_0) (View.ld x1 r27_1) (View.ld x2 r27_2))
    (k27_pay11 (View.ld x0 r27_0) (View.ld x1 r27_1))⟩]

/-- The store is of the whole block, so it covers the buffer (checked by evaluation). -/
theorem cover27_3 (p0 : Vec F S1x356x768 .f32) (y : S1x356x768.Idx) :
    ∃ pc ∈ ([⟨r27_3, p0⟩] : List (View.Piece (Elt F) S1x356x768 .f32)), y ∈ pc.1.set :=
  View.cover_of_tiled [⟨r27_3, p0⟩] S1x356x768.size (by rfl) y

/-! ## The body's triple -/

set_option maxHeartbeats 1000000 in
/-- The kernel body on whole staging memrefs, the inputs' at read contents `xW` and the output's at anything, runs to
    the continuation holding the inputs' as they were and the output's at `out27_3` of the inputs': the three loads of
    the first part, the load of the output's buffer (whatever it holds; the value is dropped), and the one store. -/
theorem sound_kernel27 (c : Dev nD) (E : Set ℕ) (i : grid27.Coords) (arg1 : Memref sig .tc .vmem S1x8x768 .f32) (harg1 : arg1.IsWhole) (arg2 : Memref sig .tc .vmem S1x48x768 .f32) (harg2 : arg2.IsWhole) (arg3 : Memref sig .tc .vmem S1x768 .f32) (harg3 : arg3.IsWhole) (arg4 : Memref sig .tc .vmem S1x356x768 .f32) (harg4 : arg4.IsWhole)
    (x0 : Vec F S1x8x768 .f32) (x1 : Vec F S1x48x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out27_3 x0 x1 x2)) -∗ K ⟨⟩))
      ⊢ wp frame (wpE (defs₀ (F := F)) Variants.none c none) E (cc27__tri_kernel i arg1 harg1 arg2 harg2 arg3 harg3 arg4 harg4) K := by
  simp only [cc27__tri_kernel_eq_skeleton]; unfold cc27__tri_kernel_skel
  simp only [k27_part1_eq_skeleton]; unfold k27_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover27_3 _)

/-! ## The pipeline's proof data -/

/-- The proof data of pipeline 27 on core `c`: the arrays as the region finds them (`V`); after the body at
    point `t` each input's buffer at its block and the output's at `out27_3` of the input blocks; the invariant the
    class's (`Pipeline.ΦA`: the scoped rest and the generator register, untouched); nothing owed; full shares. -/
noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => iblk27 V c 2 t
    | ⟨3, _⟩ => out27_3 (iblk27 V c 0 t) (iblk27 V c 1 t) (iblk27 V c 2 t)
  Φ _ := Pipeline.ΦA spec27 c
  q _ := fullShare
  owed _ := 0

/-- The proof data's arrays are the region-entry contents (the proof data's definition projected, by `dsimp`). -/
theorem A_eq27 (c : Dev nD) (w : Fin cfg27.W) : (dat27 V c).A w = V c (Pipeline.arrRef spec27 w) := by
  dsimp only [dat27]

/-- What the body leaves, window by window (the proof data's `match` reduced by `dsimp`, never `rfl`). -/
theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = iblk27 V c 2 t := by dsimp only [dat27]
theorem after27_3 (c : Dev nD) (t : Fin cfg27.N) : (dat27 V c).after 3 t = out27_3 (iblk27 V c 0 t) (iblk27 V c 1 t) (iblk27 V c 2 t) := by dsimp only [dat27]

/-- Each input's current staging buffer holds its block at every point, fetched there or not (`before27_W_of`). -/
theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d
theorem before27_2 (c : Dev nD) (t : Fin cfg27.N) (d) : (dat27 V c).before 2 t d = iblk27 V c 2 t :=
  before27_2_of V (dat27 V c) (A_eq27 V c 2) (after27_2 V c) t d

/-! ## The body obligation, at a generic point -/

/-- What the body is called with at point `t` (the body obligation's precondition, the windows one by one), -/
noncomputable def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d))
    ∗ (∃ d, owns (c : Thread nD τ) (st27_3 t) fullShare ((dat27 V c).before 3 t d)))

/-- and what it returns. -/
noncomputable def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t)
    ∗ owns (c : Thread nD τ) (st27_3 t) fullShare ((dat27 V c).after 3 t))

/-- The body at any point: the inputs' memrefs hold their blocks (`before27_W`), so `sound_kernel27` applies; the
    invariant and the core's `owes` pass through unread. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1, before27_2]
  rw [show (dat27 V c).Φ t.succ = (dat27 V c).Φ t.castSucc from rfl,
    show (dat27 V c).owesAt () t.succ = (dat27 V c).owesAt () t.castSucc from rfl,
    after27_0, after27_1, after27_2, after27_3]
  iintro ⟨HΦ, Ho, ⟨%d0, H0⟩, ⟨%d1, H1⟩, ⟨%d2, H2⟩, ⟨%d3, H3⟩⟩
  iapply (sound_kernel27 c Set.univ (grid27.coords t) _ _ _ _ _ _ _ _ (iblk27 V c 0 t) (iblk27 V c 1 t) (iblk27 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation27 (c : Dev nD) : BodyObligation (dat27 (F := F) V c) (defs₀ (F := F)) Variants.none () Set.univ := fun t => by
  rw [bigSep_W27, bigSep_W27]
  exact sound_body27 V c t

end Regions

end Cert.KernelIdeal.Fr

end
-- ==== Proof.KI.Reg28.lean ====
/- Region 28 of @main (triangular chunk 28 of 32, `cc28__tri_kernel`, pipeline 28, grid [4] over the batch), at the
   TensorCore's buffer contents `V` when the region is entered. Four windows: 0 = the eight rows of the first product
   this chunk pairs off (block [1,8,768] of [4,8,768]), 1 = the 40 rows of the second product they are paired with
   (block [1,40,768] of [4,40,768]), 2 = the bias row ([1,768], one block, fetched at the first point and kept),
   3 = the chunk's result (block [1,292,768] of [4,292,768], 292 = 40 + 39 + … + 33, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out28_3`),
   and each input buffer is left as found: this is what the pipeline's proof data `dat28` record, and
   `body_obligation28` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 28 of @main: custom_call 28, `cc28__tri_kernel` (pipeline 28), at the entry contents `V` -/

/-! ## The windows' blocks -/

/-- Window `w`'s block at point `t`, read off its array as the region finds it (`V`). -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)
/-- The same of input window 1. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)
/-- The same of input window 2 (the bias row: its one block is fetched at the first point only, and every later point
    finds it where the first left it). -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-! ## The body's accesses -/

/-- Each staging buffer is read, and the result's written, whole. -/
abbrev r28_0 : Rect S1x8x768 := Rect.unit (s := S1x8x768) ![0, 0, 0] S1x8x768.size inb_S1x8x768_S1x8x768_0_0_0
abbrev r28_1 : Rect S1x40x768 := Rect.unit (s := S1x40x768) ![0, 0, 0] S1x40x768.size inb_S1x40x768_S1x40x768_0_0_0
abbrev r28_2 : Rect S1x768 := Rect.unit (s := S1x768) ![0, 0] S1x768.size inb_S1x768_S1x768_0_0
abbrev r28_3 : Rect S1x292x768 := Rect.unit (s := S1x292x768) ![0, 0, 0] S1x292x768.size inb_S1x292x768_S1x292x768_0_0_0

/-! ## What the body leaves in the output window's buffer -/

/-- Window 3's staging buffer after the body, from the input windows' blocks: its one store, of the whole block —
    the eight row-broadcast sums under tanh, concatenated (the payloads are the skeleton's, over the three loads). -/
noncomputable def out28_3 (x0 : Vec F S1x8x768 .f32) (x1 : Vec F S1x40x768 .f32) (x2 : Vec F S1x768 .f32) : Vec F S1x292x768 .f32 :=
  View.canon [⟨r28_3, k28_pay1 (k28_pay2 (View.ld x0 r28_0)) (k28_pay3 (View.ld x1 r28_1)) (k28_pay4 (View.ld x2 r28_2))
    (k28_pay5 (View.ld x0 r28_0) (View.ld x1 r28_1) (View.ld x2 r28_2)) (k28_pay6 (View.ld x0 r28_0) (View.ld x1 r28_1) (View.ld x2 r28_2))
    (k28_pay7 (View.ld x0 r28_0) (View.ld x1 r28_1) (View.ld x2 r28_2)) (k28_pay8 (View.ld x0 r28_0) (View.ld x1 r28_1) (View.ld x2 r28_2))
    (k28_pay9 (View.ld x0 r28_0) (View.ld x1 r28_1) (View.ld x2 r28_2)) (k28_pay10 (View.ld x0 r28_0) (View.ld x1 r28_1) (View.ld x2 r28_2))
    (k28_pay11 (View.ld x0 r28_0) (View.ld x1 r28_1))⟩]

/-- The store is of the whole block, so it covers the buffer (checked by evaluation). -/
theorem cover28_3 (p0 : Vec F S1x292x768 .f32) (y : S1x292x768.Idx) :
    ∃ pc ∈ ([⟨r28_3, p0⟩] : List (View.Piece (Elt F) S1x292x768 .f32)), y ∈ pc.1.set :=
  View.cover_of_tiled [⟨r28_3, p0⟩] S1x292x768.size (by rfl) y

/-! ## The body's triple -/

set_option maxHeartbeats 1000000 in
/-- The kernel body on whole staging memrefs, the inputs' at read contents `xW` and the output's at anything, runs to
    the continuation holding the inputs' as they were and the output's at `out28_3` of the inputs': the three loads of
    the first part, the load of the output's buffer (whatever it holds; the value is dropped), and the one store. -/
theorem sound_kernel28 (c : Dev nD) (E : Set ℕ) (i : grid28.Coords) (arg1 : Memref sig .tc .vmem S1x8x768 .f32) (harg1 : arg1.IsWhole) (arg2 : Memref sig .tc .vmem S1x40x768 .f32) (harg2 : arg2.IsWhole) (arg3 : Memref sig .tc .vmem S1x768 .f32) (harg3 : arg3.IsWhole) (arg4 : Memref sig .tc .vmem S1x292x768 .f32) (harg4 : arg4.IsWhole)
    (x0 : Vec F S1x8x768 .f32) (x1 : Vec F S1x40x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out28_3 x0 x1 x2)) -∗ K ⟨⟩))
      ⊢ wp frame (wpE (defs₀ (F := F)) Variants.none c none) E (cc28__tri_kernel i arg1 harg1 arg2 harg2 arg3 harg3 arg4 harg4) K := by
  simp only [cc28__tri_kernel_eq_skeleton]; unfold cc28__tri_kernel_skel
  simp only [k28_part1_eq_skeleton]; unfold k28_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover28_3 _)

/-! ## The pipeline's proof data -/

/-- The proof data of pipeline 28 on core `c`: the arrays as the region finds them (`V`); after the body at
    point `t` each input's buffer at its block and the output's at `out28_3` of the input blocks; the invariant the
    class's (`Pipeline.ΦA`: the scoped rest and the generator register, untouched); nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => out28_3 (iblk28 V c 0 t) (iblk28 V c 1 t) (iblk28 V c 2 t)
  Φ _ := Pipeline.ΦA spec28 c
  q _ := fullShare
  owed _ := 0

/-- The proof data's arrays are the region-entry contents (the proof data's definition projected, by `dsimp`). -/
theorem A_eq28 (c : Dev nD) (w : Fin cfg28.W) : (dat28 V c).A w = V c (Pipeline.arrRef spec28 w) := by
  dsimp only [dat28]

/-- What the body leaves, window by window (the proof data's `match` reduced by `dsimp`, never `rfl`). -/
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = out28_3 (iblk28 V c 0 t) (iblk28 V c 1 t) (iblk28 V c 2 t) := by dsimp only [dat28]

/-- Each input's current staging buffer holds its block at every point, fetched there or not (`before28_W_of`). -/
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d

/-! ## The body obligation, at a generic point -/

/-- What the body is called with at point `t` (the body obligation's precondition, the windows one by one), -/
noncomputable def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d)))

/-- and what it returns. -/
noncomputable def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t))

/-- The body at any point: the inputs' memrefs hold their blocks (`before28_W`), so `sound_kernel28` applies; the
    invariant and the core's `owes` pass through unread. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2]
  rw [show (dat28 V c).Φ t.succ = (dat28 V c).Φ t.castSucc from rfl,
    show (dat28 V c).owesAt () t.succ = (dat28 V c).owesAt () t.castSucc from rfl,
    after28_0, after28_1, after28_2, after28_3]
  iintro ⟨HΦ, Ho, ⟨%d0, H0⟩, ⟨%d1, H1⟩, ⟨%d2, H2⟩, ⟨%d3, H3⟩⟩
  iapply (sound_kernel28 c Set.univ (grid28.coords t) _ _ _ _ _ _ _ _ (iblk28 V c 0 t) (iblk28 V c 1 t) (iblk28 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation28 (c : Dev nD) : BodyObligation (dat28 (F := F) V c) (defs₀ (F := F)) Variants.none () Set.univ := fun t => by
  rw [bigSep_W28, bigSep_W28]
  exact sound_body28 V c t

end Regions

end Cert.KernelIdeal.Fr

end
-- ==== Proof.KI.Reg29.lean ====
/- Region 29 of @main (triangular chunk 29 of 32, `cc29__tri_kernel`, pipeline 29, grid [4] over the batch), at the
   TensorCore's buffer contents `V` when the region is entered. Four windows: 0 = the eight rows of the first product
   this chunk pairs off (block [1,8,768] of [4,8,768]), 1 = the 32 rows of the second product they are paired with
   (block [1,32,768] of [4,32,768]), 2 = the bias row ([1,768], one block, fetched at the first point and kept),
   3 = the chunk's result (block [1,228,768] of [4,228,768], 228 = 32 + 31 + … + 25, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out29_3`),
   and each input buffer is left as found: this is what the pipeline's proof data `dat29` record, and
   `body_obligation29` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 29 of @main: custom_call 29, `cc29__tri_kernel` (pipeline 29), at the entry contents `V` -/

/-! ## The windows' blocks -/

/-- Window `w`'s block at point `t`, read off its array as the region finds it (`V`). -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)
/-- The same of input window 1. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)
/-- The same of input window 2 (the bias row: its one block is fetched at the first point only, and every later point
    finds it where the first left it). -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses -/

/-- Each staging buffer is read, and the result's written, whole. -/
abbrev r29_0 : Rect S1x8x768 := Rect.unit (s := S1x8x768) ![0, 0, 0] S1x8x768.size inb_S1x8x768_S1x8x768_0_0_0
abbrev r29_1 : Rect S1x32x768 := Rect.unit (s := S1x32x768) ![0, 0, 0] S1x32x768.size inb_S1x32x768_S1x32x768_0_0_0
abbrev r29_2 : Rect S1x768 := Rect.unit (s := S1x768) ![0, 0] S1x768.size inb_S1x768_S1x768_0_0
abbrev r29_3 : Rect S1x228x768 := Rect.unit (s := S1x228x768) ![0, 0, 0] S1x228x768.size inb_S1x228x768_S1x228x768_0_0_0

/-! ## What the body leaves in the output window's buffer -/

/-- Window 3's staging buffer after the body, from the input windows' blocks: its one store, of the whole block —
    the eight row-broadcast sums under tanh, concatenated (the payloads are the skeleton's, over the three loads). -/
noncomputable def out29_3 (x0 : Vec F S1x8x768 .f32) (x1 : Vec F S1x32x768 .f32) (x2 : Vec F S1x768 .f32) : Vec F S1x228x768 .f32 :=
  View.canon [⟨r29_3, k29_pay1 (k29_pay2 (View.ld x0 r29_0)) (k29_pay3 (View.ld x1 r29_1)) (k29_pay4 (View.ld x2 r29_2))
    (k29_pay5 (View.ld x0 r29_0) (View.ld x1 r29_1) (View.ld x2 r29_2)) (k29_pay6 (View.ld x0 r29_0) (View.ld x1 r29_1) (View.ld x2 r29_2))
    (k29_pay7 (View.ld x0 r29_0) (View.ld x1 r29_1) (View.ld x2 r29_2)) (k29_pay8 (View.ld x0 r29_0) (View.ld x1 r29_1) (View.ld x2 r29_2))
    (k29_pay9 (View.ld x0 r29_0) (View.ld x1 r29_1) (View.ld x2 r29_2)) (k29_pay10 (View.ld x0 r29_0) (View.ld x1 r29_1) (View.ld x2 r29_2))
    (k29_pay11 (View.ld x0 r29_0) (View.ld x1 r29_1))⟩]

/-- The store is of the whole block, so it covers the buffer (checked by evaluation). -/
theorem cover29_3 (p0 : Vec F S1x228x768 .f32) (y : S1x228x768.Idx) :
    ∃ pc ∈ ([⟨r29_3, p0⟩] : List (View.Piece (Elt F) S1x228x768 .f32)), y ∈ pc.1.set :=
  View.cover_of_tiled [⟨r29_3, p0⟩] S1x228x768.size (by rfl) y

/-! ## The body's triple -/

set_option maxHeartbeats 1000000 in
/-- The kernel body on whole staging memrefs, the inputs' at read contents `xW` and the output's at anything, runs to
    the continuation holding the inputs' as they were and the output's at `out29_3` of the inputs': the three loads of
    the first part, the load of the output's buffer (whatever it holds; the value is dropped), and the one store. -/
theorem sound_kernel29 (c : Dev nD) (E : Set ℕ) (i : grid29.Coords) (arg1 : Memref sig .tc .vmem S1x8x768 .f32) (harg1 : arg1.IsWhole) (arg2 : Memref sig .tc .vmem S1x32x768 .f32) (harg2 : arg2.IsWhole) (arg3 : Memref sig .tc .vmem S1x768 .f32) (harg3 : arg3.IsWhole) (arg4 : Memref sig .tc .vmem S1x228x768 .f32) (harg4 : arg4.IsWhole)
    (x0 : Vec F S1x8x768 .f32) (x1 : Vec F S1x32x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out29_3 x0 x1 x2)) -∗ K ⟨⟩))
      ⊢ wp frame (wpE (defs₀ (F := F)) Variants.none c none) E (cc29__tri_kernel i arg1 harg1 arg2 harg2 arg3 harg3 arg4 harg4) K := by
  simp only [cc29__tri_kernel_eq_skeleton]; unfold cc29__tri_kernel_skel
  simp only [k29_part1_eq_skeleton]; unfold k29_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover29_3 _)

/-! ## The pipeline's proof data -/

/-- The proof data of pipeline 29 on core `c`: the arrays as the region finds them (`V`); after the body at
    point `t` each input's buffer at its block and the output's at `out29_3` of the input blocks; the invariant the
    class's (`Pipeline.ΦA`: the scoped rest and the generator register, untouched); nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => out29_3 (iblk29 V c 0 t) (iblk29 V c 1 t) (iblk29 V c 2 t)
  Φ _ := Pipeline.ΦA spec29 c
  q _ := fullShare
  owed _ := 0

/-- The proof data's arrays are the region-entry contents (the proof data's definition projected, by `dsimp`). -/
theorem A_eq29 (c : Dev nD) (w : Fin cfg29.W) : (dat29 V c).A w = V c (Pipeline.arrRef spec29 w) := by
  dsimp only [dat29]

/-- What the body leaves, window by window (the proof data's `match` reduced by `dsimp`, never `rfl`). -/
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = out29_3 (iblk29 V c 0 t) (iblk29 V c 1 t) (iblk29 V c 2 t) := by dsimp only [dat29]

/-- Each input's current staging buffer holds its block at every point, fetched there or not (`before29_W_of`). -/
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d

/-! ## The body obligation, at a generic point -/

/-- What the body is called with at point `t` (the body obligation's precondition, the windows one by one), -/
noncomputable def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d)))

/-- and what it returns. -/
noncomputable def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t))

/-- The body at any point: the inputs' memrefs hold their blocks (`before29_W`), so `sound_kernel29` applies; the
    invariant and the core's `owes` pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2]
  rw [show (dat29 V c).Φ t.succ = (dat29 V c).Φ t.castSucc from rfl,
    show (dat29 V c).owesAt () t.succ = (dat29 V c).owesAt () t.castSucc from rfl,
    after29_0, after29_1, after29_2, after29_3]
  iintro ⟨HΦ, Ho, ⟨%d0, H0⟩, ⟨%d1, H1⟩, ⟨%d2, H2⟩, ⟨%d3, H3⟩⟩
  iapply (sound_kernel29 c Set.univ (grid29.coords t) _ _ _ _ _ _ _ _ (iblk29 V c 0 t) (iblk29 V c 1 t) (iblk29 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation29 (c : Dev nD) : BodyObligation (dat29 (F := F) V c) (defs₀ (F := F)) Variants.none () Set.univ := fun t => by
  rw [bigSep_W29, bigSep_W29]
  exact sound_body29 V c t

end Regions

end Cert.KernelIdeal.Fr

end
-- ==== Proof.KI.Reg30.lean ====
/- Region 30 of @main (triangular chunk 30 of 32, `cc30__tri_kernel`, pipeline 30, grid [4] over the batch), at the
   TensorCore's buffer contents `V` when the region is entered. Four windows: 0 = the eight rows of the first product
   this chunk pairs off (block [1,8,768] of [4,8,768]), 1 = the 24 rows of the second product they are paired with
   (block [1,24,768] of [4,24,768]), 2 = the bias row ([1,768], one block, fetched at the first point and kept),
   3 = the chunk's result (block [1,164,768] of [4,164,768], 164 = 24 + 23 + … + 17, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out30_3`),
   and each input buffer is left as found: this is what the pipeline's proof data `dat30` record, and
   `body_obligation30` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 30 of @main: custom_call 30, `cc30__tri_kernel` (pipeline 30), at the entry contents `V` -/

/-! ## The windows' blocks -/

/-- Window `w`'s block at point `t`, read off its array as the region finds it (`V`). -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)
/-- The same of input window 1. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)
/-- The same of input window 2 (the bias row: its one block is fetched at the first point only, and every later point
    finds it where the first left it). -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's accesses -/

/-- Each staging buffer is read, and the result's written, whole. -/
abbrev r30_0 : Rect S1x8x768 := Rect.unit (s := S1x8x768) ![0, 0, 0] S1x8x768.size inb_S1x8x768_S1x8x768_0_0_0
abbrev r30_1 : Rect S1x24x768 := Rect.unit (s := S1x24x768) ![0, 0, 0] S1x24x768.size inb_S1x24x768_S1x24x768_0_0_0
abbrev r30_2 : Rect S1x768 := Rect.unit (s := S1x768) ![0, 0] S1x768.size inb_S1x768_S1x768_0_0
abbrev r30_3 : Rect S1x164x768 := Rect.unit (s := S1x164x768) ![0, 0, 0] S1x164x768.size inb_S1x164x768_S1x164x768_0_0_0

/-! ## What the body leaves in the output window's buffer -/

/-- Window 3's staging buffer after the body, from the input windows' blocks: its one store, of the whole block —
    the eight row-broadcast sums under tanh, concatenated (the payloads are the skeleton's, over the three loads). -/
noncomputable def out30_3 (x0 : Vec F S1x8x768 .f32) (x1 : Vec F S1x24x768 .f32) (x2 : Vec F S1x768 .f32) : Vec F S1x164x768 .f32 :=
  View.canon [⟨r30_3, k30_pay1 (k30_pay2 (View.ld x0 r30_0)) (k30_pay3 (View.ld x1 r30_1)) (k30_pay4 (View.ld x2 r30_2))
    (k30_pay5 (View.ld x0 r30_0) (View.ld x1 r30_1) (View.ld x2 r30_2)) (k30_pay6 (View.ld x0 r30_0) (View.ld x1 r30_1) (View.ld x2 r30_2))
    (k30_pay7 (View.ld x0 r30_0) (View.ld x1 r30_1) (View.ld x2 r30_2)) (k30_pay8 (View.ld x0 r30_0) (View.ld x1 r30_1) (View.ld x2 r30_2))
    (k30_pay9 (View.ld x0 r30_0) (View.ld x1 r30_1) (View.ld x2 r30_2)) (k30_pay10 (View.ld x0 r30_0) (View.ld x1 r30_1) (View.ld x2 r30_2))
    (k30_pay11 (View.ld x0 r30_0) (View.ld x1 r30_1))⟩]

/-- The store is of the whole block, so it covers the buffer (checked by evaluation). -/
theorem cover30_3 (p0 : Vec F S1x164x768 .f32) (y : S1x164x768.Idx) :
    ∃ pc ∈ ([⟨r30_3, p0⟩] : List (View.Piece (Elt F) S1x164x768 .f32)), y ∈ pc.1.set :=
  View.cover_of_tiled [⟨r30_3, p0⟩] S1x164x768.size (by rfl) y

/-! ## The body's triple -/

set_option maxHeartbeats 1000000 in
/-- The kernel body on whole staging memrefs, the inputs' at read contents `xW` and the output's at anything, runs to
    the continuation holding the inputs' as they were and the output's at `out30_3` of the inputs': the three loads of
    the first part, the load of the output's buffer (whatever it holds; the value is dropped), and the one store. -/
theorem sound_kernel30 (c : Dev nD) (E : Set ℕ) (i : grid30.Coords) (arg1 : Memref sig .tc .vmem S1x8x768 .f32) (harg1 : arg1.IsWhole) (arg2 : Memref sig .tc .vmem S1x24x768 .f32) (harg2 : arg2.IsWhole) (arg3 : Memref sig .tc .vmem S1x768 .f32) (harg3 : arg3.IsWhole) (arg4 : Memref sig .tc .vmem S1x164x768 .f32) (harg4 : arg4.IsWhole)
    (x0 : Vec F S1x8x768 .f32) (x1 : Vec F S1x24x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out30_3 x0 x1 x2)) -∗ K ⟨⟩))
      ⊢ wp frame (wpE (defs₀ (F := F)) Variants.none c none) E (cc30__tri_kernel i arg1 harg1 arg2 harg2 arg3 harg3 arg4 harg4) K := by
  simp only [cc30__tri_kernel_eq_skeleton]; unfold cc30__tri_kernel_skel
  simp only [k30_part1_eq_skeleton]; unfold k30_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover30_3 _)

/-! ## The pipeline's proof data -/

/-- The proof data of pipeline 30 on core `c`: the arrays as the region finds them (`V`); after the body at
    point `t` each input's buffer at its block and the output's at `out30_3` of the input blocks; the invariant the
    class's (`Pipeline.ΦA`: the scoped rest and the generator register, untouched); nothing owed; full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => out30_3 (iblk30 V c 0 t) (iblk30 V c 1 t) (iblk30 V c 2 t)
  Φ _ := Pipeline.ΦA spec30 c
  q _ := fullShare
  owed _ := 0

/-- The proof data's arrays are the region-entry contents (the proof data's definition projected, by `dsimp`). -/
theorem A_eq30 (c : Dev nD) (w : Fin cfg30.W) : (dat30 V c).A w = V c (Pipeline.arrRef spec30 w) := by
  dsimp only [dat30]

/-- What the body leaves, window by window (the proof data's `match` reduced by `dsimp`, never `rfl`). -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = out30_3 (iblk30 V c 0 t) (iblk30 V c 1 t) (iblk30 V c 2 t) := by dsimp only [dat30]

/-- Each input's current staging buffer holds its block at every point, fetched there or not (`before30_W_of`). -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point `t` (the body obligation's precondition, the windows one by one), -/
noncomputable def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d))
    ∗ (∃ d, owns (c : Thread nD τ) (st30_3 t) fullShare ((dat30 V c).before 3 t d)))

/-- and what it returns. -/
noncomputable def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t)
    ∗ owns (c : Thread nD τ) (st30_3 t) fullShare ((dat30 V c).after 3 t))

/-- The body at any point: the inputs' memrefs hold their blocks (`before30_W`), so `sound_kernel30` applies; the
    invariant and the core's `owes` pass through unread. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1, before30_2]
  rw [show (dat30 V c).Φ t.succ = (dat30 V c).Φ t.castSucc from rfl,
    show (dat30 V c).owesAt () t.succ = (dat30 V c).owesAt () t.castSucc from rfl,
    after30_0, after30_1, after30_2, after30_3]
  iintro ⟨HΦ, Ho, ⟨%d0, H0⟩, ⟨%d1, H1⟩, ⟨%d2, H2⟩, ⟨%d3, H3⟩⟩
  iapply (sound_kernel30 c Set.univ (grid30.coords t) _ _ _ _ _ _ _ _ (iblk30 V c 0 t) (iblk30 V c 1 t) (iblk30 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation30 (c : Dev nD) : BodyObligation (dat30 (F := F) V c) (defs₀ (F := F)) Variants.none () Set.univ := fun t => by
  rw [bigSep_W30, bigSep_W30]
  exact sound_body30 V c t

end Regions

end Cert.KernelIdeal.Fr

end
-- ==== Proof.KI.Reg31.lean ====
/- Region 31 of @main (triangular chunk 31 of 32, `cc31__tri_kernel`, pipeline 31, grid [4] over the batch), at the
   TensorCore's buffer contents `V` when the region is entered. Four windows: 0 = the eight rows of the first product
   this chunk pairs off (block [1,8,768] of [4,8,768]), 1 = the 16 rows of the second product they are paired with
   (block [1,16,768] of [4,16,768]), 2 = the bias row ([1,768], one block, fetched at the first point and kept),
   3 = the chunk's result (block [1,100,768] of [4,100,768], 100 = 16 + 15 + … + 9, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out31_3`),
   and each input buffer is left as found: this is what the pipeline's proof data `dat31` record, and
   `body_obligation31` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 31 of @main: custom_call 31, `cc31__tri_kernel` (pipeline 31), at the entry contents `V` -/

/-! ## The windows' blocks -/

/-- Window `w`'s block at point `t`, read off its array as the region finds it (`V`). -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)
/-- The same of input window 1. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)
/-- The same of input window 2 (the bias row: its one block is fetched at the first point only, and every later point
    finds it where the first left it). -/
theorem before31_2_of {c : Dev nD} (dat : Dat τ (Elt F) Unit ℕ (UR sig nD τ) ℕ cfg31 c) (hA : dat.A 2 = V c (Pipeline.arrRef spec31 2))
    (hafter : ∀ t, dat.after 2 t = iblk31 V c 2 t) (t : Fin cfg31.N) (d) : dat.before 2 t d = iblk31 V c 2 t :=
  (dat.before_in_eq_fetched 2 rfl (fun _ => rfl) (fun _ _ _ => rfl) (fun t => by rw [hafter]; unfold Dat.blockOf iblk31; rw [hA]; try rfl) t d).trans
    (by unfold Dat.fetched Dat.blockOf iblk31; rw [hA]; try rfl)

/-! ## The body's accesses -/

/-- Each staging buffer is read, and the result's written, whole. -/
abbrev r31_0 : Rect S1x8x768 := Rect.unit (s := S1x8x768) ![0, 0, 0] S1x8x768.size inb_S1x8x768_S1x8x768_0_0_0
abbrev r31_1 : Rect S1x16x768 := Rect.unit (s := S1x16x768) ![0, 0, 0] S1x16x768.size inb_S1x16x768_S1x16x768_0_0_0
abbrev r31_2 : Rect S1x768 := Rect.unit (s := S1x768) ![0, 0] S1x768.size inb_S1x768_S1x768_0_0
abbrev r31_3 : Rect S1x100x768 := Rect.unit (s := S1x100x768) ![0, 0, 0] S1x100x768.size inb_S1x100x768_S1x100x768_0_0_0

/-! ## What the body leaves in the output window's buffer -/

/-- Window 3's staging buffer after the body, from the input windows' blocks: its one store, of the whole block —
    the eight row-broadcast sums under tanh, concatenated (the payloads are the skeleton's, over the three loads). -/
noncomputable def out31_3 (x0 : Vec F S1x8x768 .f32) (x1 : Vec F S1x16x768 .f32) (x2 : Vec F S1x768 .f32) : Vec F S1x100x768 .f32 :=
  View.canon [⟨r31_3, k31_pay1 (k31_pay2 (View.ld x0 r31_0)) (k31_pay3 (View.ld x1 r31_1)) (k31_pay4 (View.ld x2 r31_2))
    (k31_pay5 (View.ld x0 r31_0) (View.ld x1 r31_1) (View.ld x2 r31_2)) (k31_pay6 (View.ld x0 r31_0) (View.ld x1 r31_1) (View.ld x2 r31_2))
    (k31_pay7 (View.ld x0 r31_0) (View.ld x1 r31_1) (View.ld x2 r31_2)) (k31_pay8 (View.ld x0 r31_0) (View.ld x1 r31_1) (View.ld x2 r31_2))
    (k31_pay9 (View.ld x0 r31_0) (View.ld x1 r31_1) (View.ld x2 r31_2)) (k31_pay10 (View.ld x0 r31_0) (View.ld x1 r31_1) (View.ld x2 r31_2))
    (k31_pay11 (View.ld x0 r31_0) (View.ld x1 r31_1))⟩]

/-- The store is of the whole block, so it covers the buffer (checked by evaluation). -/
theorem cover31_3 (p0 : Vec F S1x100x768 .f32) (y : S1x100x768.Idx) :
    ∃ pc ∈ ([⟨r31_3, p0⟩] : List (View.Piece (Elt F) S1x100x768 .f32)), y ∈ pc.1.set :=
  View.cover_of_tiled [⟨r31_3, p0⟩] S1x100x768.size (by rfl) y

/-! ## The body's triple -/

set_option maxHeartbeats 1000000 in
/-- The kernel body on whole staging memrefs, the inputs' at read contents `xW` and the output's at anything, runs to
    the continuation holding the inputs' as they were and the output's at `out31_3` of the inputs': the three loads of
    the first part, the load of the output's buffer (whatever it holds; the value is dropped), and the one store. -/
theorem sound_kernel31 (c : Dev nD) (E : Set ℕ) (i : grid31.Coords) (arg1 : Memref sig .tc .vmem S1x8x768 .f32) (harg1 : arg1.IsWhole) (arg2 : Memref sig .tc .vmem S1x16x768 .f32) (harg2 : arg2.IsWhole) (arg3 : Memref sig .tc .vmem S1x768 .f32) (harg3 : arg3.IsWhole) (arg4 : Memref sig .tc .vmem S1x100x768 .f32) (harg4 : arg4.IsWhole)
    (x0 : Vec F S1x8x768 .f32) (x1 : Vec F S1x16x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out31_3 x0 x1 x2)) -∗ K ⟨⟩))
      ⊢ wp frame (wpE (defs₀ (F := F)) Variants.none c none) E (cc31__tri_kernel i arg1 harg1 arg2 harg2 arg3 harg3 arg4 harg4) K := by
  simp only [cc31__tri_kernel_eq_skeleton]; unfold cc31__tri_kernel_skel
  simp only [k31_part1_eq_skeleton]; unfold k31_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover31_3 _)

/-! ## The pipeline's proof data -/

/-- The proof data of pipeline 31 on core `c`: the arrays as the region finds them (`V`); after the body at
    point `t` each input's buffer at its block and the output's at `out31_3` of the input blocks; the invariant the
    class's (`Pipeline.ΦA`: the scoped rest and the generator register, untouched); nothing owed; full shares. -/
noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => iblk31 V c 2 t
    | ⟨3, _⟩ => out31_3 (iblk31 V c 0 t) (iblk31 V c 1 t) (iblk31 V c 2 t)
  Φ _ := Pipeline.ΦA spec31 c
  q _ := fullShare
  owed _ := 0

/-- The proof data's arrays are the region-entry contents (the proof data's definition projected, by `dsimp`). -/
theorem A_eq31 (c : Dev nD) (w : Fin cfg31.W) : (dat31 V c).A w = V c (Pipeline.arrRef spec31 w) := by
  dsimp only [dat31]

/-- What the body leaves, window by window (the proof data's `match` reduced by `dsimp`, never `rfl`). -/
theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = iblk31 V c 2 t := by dsimp only [dat31]
theorem after31_3 (c : Dev nD) (t : Fin cfg31.N) : (dat31 V c).after 3 t = out31_3 (iblk31 V c 0 t) (iblk31 V c 1 t) (iblk31 V c 2 t) := by dsimp only [dat31]

/-- Each input's current staging buffer holds its block at every point, fetched there or not (`before31_W_of`). -/
theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d
theorem before31_2 (c : Dev nD) (t : Fin cfg31.N) (d) : (dat31 V c).before 2 t d = iblk31 V c 2 t :=
  before31_2_of V (dat31 V c) (A_eq31 V c 2) (after31_2 V c) t d

/-! ## The body obligation, at a generic point -/

/-- What the body is called with at point `t` (the body obligation's precondition, the windows one by one), -/
noncomputable def bodyPre31 (c : Dev nD) (t : Fin cfg31.N) : sProp 𝕄 :=
  iprop((dat31 V c).Φ t.castSucc ∗ (dat31 V c).owesAt () t.castSucc
    ∗ (∃ d, owns (c : Thread nD τ) (st31_0 t) fullShare ((dat31 V c).before 0 t d))
    ∗ (∃ d, owns (c : Thread nD τ) (st31_1 t) fullShare ((dat31 V c).before 1 t d))
    ∗ (∃ d, owns (c : Thread nD τ) (st31_2 t) fullShare ((dat31 V c).before 2 t d))
    ∗ (∃ d, owns (c : Thread nD τ) (st31_3 t) fullShare ((dat31 V c).before 3 t d)))

/-- and what it returns. -/
noncomputable def bodyPost31 (c : Dev nD) (t : Fin cfg31.N) : sProp 𝕄 :=
  iprop((dat31 V c).Φ t.succ ∗ (dat31 V c).owesAt () t.succ
    ∗ owns (c : Thread nD τ) (st31_0 t) fullShare ((dat31 V c).after 0 t)
    ∗ owns (c : Thread nD τ) (st31_1 t) fullShare ((dat31 V c).after 1 t)
    ∗ owns (c : Thread nD τ) (st31_2 t) fullShare ((dat31 V c).after 2 t)
    ∗ owns (c : Thread nD τ) (st31_3 t) fullShare ((dat31 V c).after 3 t))

/-- The body at any point: the inputs' memrefs hold their blocks (`before31_W`), so `sound_kernel31` applies; the
    invariant and the core's `owes` pass through unread. -/
theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1, before31_2]
  rw [show (dat31 V c).Φ t.succ = (dat31 V c).Φ t.castSucc from rfl,
    show (dat31 V c).owesAt () t.succ = (dat31 V c).owesAt () t.castSucc from rfl,
    after31_0, after31_1, after31_2, after31_3]
  iintro ⟨HΦ, Ho, ⟨%d0, H0⟩, ⟨%d1, H1⟩, ⟨%d2, H2⟩, ⟨%d3, H3⟩⟩
  iapply (sound_kernel31 c Set.univ (grid31.coords t) _ _ _ _ _ _ _ _ (iblk31 V c 0 t) (iblk31 V c 1 t) (iblk31 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation31 (c : Dev nD) : BodyObligation (dat31 (F := F) V c) (defs₀ (F := F)) Variants.none () Set.univ := fun t => by
  rw [bigSep_W31, bigSep_W31]
  exact sound_body31 V c t

end Regions

end Cert.KernelIdeal.Fr

end
-- ==== Proof.KI.Reg32.lean ====
/- Region 32 of @main (triangular chunk 32 of 32, `cc32__tri_kernel`, pipeline 32, grid [4] over the batch), at the
   TensorCore's buffer contents `V` when the region is entered. Four windows: 0 = the eight rows of the first product
   this chunk pairs off (block [1,8,768] of [4,8,768]), 1 = the 8 rows of the second product they are paired with
   (block [1,8,768] of [4,8,768]), 2 = the bias row ([1,768], one block, fetched at the first point and kept),
   3 = the chunk's result (block [1,36,768] of [4,36,768], 36 = 8 + 7 + … + 1, written back at every point).
   The body loads the three input blocks whole, loads the result block (the value is not used), and stores over the
   WHOLE result block one value: the eight row-broadcast sums tanh(p1[i] + p2[i:] + bias), i = 0..7, laid one under
   the other. So what the body leaves in the result buffer is a function of the three input blocks alone (`out32_3`),
   and each input buffer is left as found: this is what the pipeline's proof data `dat32` record, and
   `body_obligation32` is the body's triple at every grid point against them. -/
import proofs.«116342_j30605936951494_1_alg».proof.Proof.Gen.KernelIdeal.Launch
import proofs.«116342_j30605936951494_1_alg».proof.Proof.Gen.KernelIdeal.Skeleton
import proofs.«116342_j30605936951494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at, which
-- the run instantiates
variable (V : (c : Dev nD) → (b : Ref sig .tc) → Buf (Elt F) ((c : Thread nD τ).loc b))

/-! # REGION 32 of @main: custom_call 32, `cc32__tri_kernel` (pipeline 32), at the entry contents `V` -/

/-! ## The windows' blocks -/

/-- Window `w`'s block at point `t`, read off its array as the region finds it (`V`). -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- Input window 0's current staging buffer holds its block at every point, fetched there or not, for ANY proof
    data whose array is `V`'s (`hA`) and whose body leaves the block in place (`hafter`): an input not fetched at a
    point has the block index of the point before, so the buffer still holds this point's block
    (`Dat.before_in_eq_fetched`); the window is uncut and never idle. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)
/-- The same of input window 1. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)
/-- The same of input window 2 (the bias row: its one block is fetched at the first point only, and every later point
    finds it where the first left it). -/
theorem before32_2_of {c : Dev nD} (dat : Dat τ (Elt F) Unit ℕ (UR sig nD τ) ℕ cfg32 c) (hA : dat.A 2 = V c (Pipeline.arrRef spec32 2))
    (hafter : ∀ t, dat.after 2 t = iblk32 V c 2 t) (t : Fin cfg32.N) (d) : dat.before 2 t d = iblk32 V c 2 t :=
  (dat.before_in_eq_fetched 2 rfl (fun _ => rfl) (fun _ _ _ => rfl) (fun t => by rw [hafter]; unfold Dat.blockOf iblk32; rw [hA]; try rfl) t d).trans
    (by unfold Dat.fetched Dat.blockOf iblk32; rw [hA]; try rfl)

/-! ## The body's accesses -/

/-- Each staging buffer is read, and the result's written, whole. -/
abbrev r32_0 : Rect S1x8x768 := Rect.unit (s := S1x8x768) ![0, 0, 0] S1x8x768.size inb_S1x8x768_S1x8x768_0_0_0
abbrev r32_1 : Rect S1x8x768 := Rect.unit (s := S1x8x768) ![0, 0, 0] S1x8x768.size inb_S1x8x768_S1x8x768_0_0_0
abbrev r32_2 : Rect S1x768 := Rect.unit (s := S1x768) ![0, 0] S1x768.size inb_S1x768_S1x768_0_0
abbrev r32_3 : Rect S1x36x768 := Rect.unit (s := S1x36x768) ![0, 0, 0] S1x36x768.size inb_S1x36x768_S1x36x768_0_0_0

/-! ## What the body leaves in the output window's buffer -/

/-- Window 3's staging buffer after the body, from the input windows' blocks: its one store, of the whole block —
    the eight row-broadcast sums under tanh, concatenated (the payloads are the skeleton's, over the three loads). -/
noncomputable def out32_3 (x0 : Vec F S1x8x768 .f32) (x1 : Vec F S1x8x768 .f32) (x2 : Vec F S1x768 .f32) : Vec F S1x36x768 .f32 :=
  View.canon [⟨r32_3, k32_pay1 (k32_pay2 (View.ld x0 r32_0)) (k32_pay3 (View.ld x1 r32_1)) (k32_pay4 (View.ld x2 r32_2))
    (k32_pay5 (View.ld x0 r32_0) (View.ld x1 r32_1) (View.ld x2 r32_2)) (k32_pay6 (View.ld x0 r32_0) (View.ld x1 r32_1) (View.ld x2 r32_2))
    (k32_pay7 (View.ld x0 r32_0) (View.ld x1 r32_1) (View.ld x2 r32_2)) (k32_pay8 (View.ld x0 r32_0) (View.ld x1 r32_1) (View.ld x2 r32_2))
    (k32_pay9 (View.ld x0 r32_0) (View.ld x1 r32_1) (View.ld x2 r32_2)) (k32_pay10 (View.ld x0 r32_0) (View.ld x1 r32_1) (View.ld x2 r32_2))
    (k32_pay11 (View.ld x0 r32_0) (View.ld x1 r32_1))⟩]

/-- The store is of the whole block, so it covers the buffer (checked by evaluation). -/
theorem cover32_3 (p0 : Vec F S1x36x768 .f32) (y : S1x36x768.Idx) :
    ∃ pc ∈ ([⟨r32_3, p0⟩] : List (View.Piece (Elt F) S1x36x768 .f32)), y ∈ pc.1.set :=
  View.cover_of_tiled [⟨r32_3, p0⟩] S1x36x768.size (by rfl) y

/-! ## The body's triple -/

set_option maxHeartbeats 1000000 in
/-- The kernel body on whole staging memrefs, the inputs' at read contents `xW` and the output's at anything, runs to
    the continuation holding the inputs' as they were and the output's at `out32_3` of the inputs': the three loads of
    the first part, the load of the output's buffer (whatever it holds; the value is dropped), and the one store. -/
theorem sound_kernel32 (c : Dev nD) (E : Set ℕ) (i : grid32.Coords) (arg1 : Memref sig .tc .vmem S1x8x768 .f32) (harg1 : arg1.IsWhole) (arg2 : Memref sig .tc .vmem S1x8x768 .f32) (harg2 : arg2.IsWhole) (arg3 : Memref sig .tc .vmem S1x768 .f32) (harg3 : arg3.IsWhole) (arg4 : Memref sig .tc .vmem S1x36x768 .f32) (harg4 : arg4.IsWhole)
    (x0 : Vec F S1x8x768 .f32) (x1 : Vec F S1x8x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out32_3 x0 x1 x2)) -∗ K ⟨⟩))
      ⊢ wp frame (wpE (defs₀ (F := F)) Variants.none c none) E (cc32__tri_kernel i arg1 harg1 arg2 harg2 arg3 harg3 arg4 harg4) K := by
  simp only [cc32__tri_kernel_eq_skeleton]; unfold cc32__tri_kernel_skel
  simp only [k32_part1_eq_skeleton]; unfold k32_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover32_3 _)

/-! ## The pipeline's proof data -/

/-- The proof data of pipeline 32 on core `c`: the arrays as the region finds them (`V`); after the body at
    point `t` each input's buffer at its block and the output's at `out32_3` of the input blocks; the invariant the
    class's (`Pipeline.ΦA`: the scoped rest and the generator register, untouched); nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => iblk32 V c 2 t
    | ⟨3, _⟩ => out32_3 (iblk32 V c 0 t) (iblk32 V c 1 t) (iblk32 V c 2 t)
  Φ _ := Pipeline.ΦA spec32 c
  q _ := fullShare
  owed _ := 0

/-- The proof data's arrays are the region-entry contents (the proof data's definition projected, by `dsimp`). -/
theorem A_eq32 (c : Dev nD) (w : Fin cfg32.W) : (dat32 V c).A w = V c (Pipeline.arrRef spec32 w) := by
  dsimp only [dat32]

/-- What the body leaves, window by window (the proof data's `match` reduced by `dsimp`, never `rfl`). -/
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = iblk32 V c 2 t := by dsimp only [dat32]
theorem after32_3 (c : Dev nD) (t : Fin cfg32.N) : (dat32 V c).after 3 t = out32_3 (iblk32 V c 0 t) (iblk32 V c 1 t) (iblk32 V c 2 t) := by dsimp only [dat32]

/-- Each input's current staging buffer holds its block at every point, fetched there or not (`before32_W_of`). -/
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d
theorem before32_2 (c : Dev nD) (t : Fin cfg32.N) (d) : (dat32 V c).before 2 t d = iblk32 V c 2 t :=
  before32_2_of V (dat32 V c) (A_eq32 V c 2) (after32_2 V c) t d

/-! ## The body obligation, at a generic point -/

/-- What the body is called with at point `t` (the body obligation's precondition, the windows one by one), -/
noncomputable def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d))
    ∗ (∃ d, owns (c : Thread nD τ) (st32_3 t) fullShare ((dat32 V c).before 3 t d)))

/-- and what it returns. -/
noncomputable def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t)
    ∗ owns (c : Thread nD τ) (st32_3 t) fullShare ((dat32 V c).after 3 t))

/-- The body at any point: the inputs' memrefs hold their blocks (`before32_W`), so `sound_kernel32` applies; the
    invariant and the core's `owes` pass through unread. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1, before32_2]
  rw [show (dat32 V c).Φ t.succ = (dat32 V c).Φ t.castSucc from rfl,
    show (dat32 V c).owesAt () t.succ = (dat32 V c).owesAt () t.castSucc from rfl,
    after32_0, after32_1, after32_2, after32_3]
  iintro ⟨HΦ, Ho, ⟨%d0, H0⟩, ⟨%d1, H1⟩, ⟨%d2, H2⟩, ⟨%d3, H3⟩⟩
  iapply (sound_kernel32 c Set.univ (grid32.coords t) _ _ _ _ _ _ _ _ (iblk32 V c 0 t) (iblk32 V c 1 t) (iblk32 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation32 (c : Dev nD) : BodyObligation (dat32 (F := F) V c) (defs₀ (F := F)) Variants.none () Set.univ := fun t => by
  rw [bigSep_W32, bigSep_W32]
  exact sound_body32 V c t

end Regions

end Cert.KernelIdeal.Fr

end
-- ==== Proof.KI.Fold.lean ====
import proofs.«116342_j30605936951494_1_alg».proof.Proof.KI.Reg0
import proofs.«116342_j30605936951494_1_alg».proof.Proof.KI.Reg1
import proofs.«116342_j30605936951494_1_alg».proof.Proof.KI.Reg2
import proofs.«116342_j30605936951494_1_alg».proof.Proof.KI.Reg3
import proofs.«116342_j30605936951494_1_alg».proof.Proof.KI.Reg4
import proofs.«116342_j30605936951494_1_alg».proof.Proof.KI.Reg5
import proofs.«116342_j30605936951494_1_alg».proof.Proof.KI.Reg6
import proofs.«116342_j30605936951494_1_alg».proof.Proof.KI.Reg7
import proofs.«116342_j30605936951494_1_alg».proof.Proof.KI.Reg8
import proofs.«116342_j30605936951494_1_alg».proof.Proof.KI.Reg9
import proofs.«116342_j30605936951494_1_alg».proof.Proof.KI.Reg10
import proofs.«116342_j30605936951494_1_alg».proof.Proof.KI.Reg11
import proofs.«116342_j30605936951494_1_alg».proof.Proof.KI.Reg12
import proofs.«116342_j30605936951494_1_alg».proof.Proof.KI.Reg13
import proofs.«116342_j30605936951494_1_alg».proof.Proof.KI.Reg14
import proofs.«116342_j30605936951494_1_alg».proof.Proof.KI.Reg15
import proofs.«116342_j30605936951494_1_alg».proof.Proof.KI.Reg16
import proofs.«116342_j30605936951494_1_alg».proof.Proof.KI.Reg17
import proofs.«116342_j30605936951494_1_alg».proof.Proof.KI.Reg18
import proofs.«116342_j30605936951494_1_alg».proof.Proof.KI.Reg19
import proofs.«116342_j30605936951494_1_alg».proof.Proof.KI.Reg20
import proofs.«116342_j30605936951494_1_alg».proof.Proof.KI.Reg21
import proofs.«116342_j30605936951494_1_alg».proof.Proof.KI.Reg22
import proofs.«116342_j30605936951494_1_alg».proof.Proof.KI.Reg23
import proofs.«116342_j30605936951494_1_alg».proof.Proof.KI.Reg24
import proofs.«116342_j30605936951494_1_alg».proof.Proof.KI.Reg25
import proofs.«116342_j30605936951494_1_alg».proof.Proof.KI.Reg26
import proofs.«116342_j30605936951494_1_alg».proof.Proof.KI.Reg27
import proofs.«116342_j30605936951494_1_alg».proof.Proof.KI.Reg28
import proofs.«116342_j30605936951494_1_alg».proof.Proof.KI.Reg29
import proofs.«116342_j30605936951494_1_alg».proof.Proof.KI.Reg30
import proofs.«116342_j30605936951494_1_alg».proof.Proof.KI.Reg31
import proofs.«116342_j30605936951494_1_alg».proof.Proof.KI.Reg32
import Idealize.ShloMosaic.Lib.Pipeline.FrameBody
import Idealize.ShloMosaic.Lib.Pipeline.RegionsLoop
import Idealize.ShloMosaic.Lib.Pipeline.FrameSuffix
import Idealize.ShloMosaic.Lib.Tactic

/-!
# The buffer contents at every boundary of @main, and what rides along

@main is 34 stretches of host operations with 33 kernel regions between them: 67 items, 68 boundaries. At boundary
J core c's buffers hold W J c: W 0 is the launch memory; a stretch rewrites the buffers its operations write
(StableHlo.after); a region leaves each of its windows' arrays at what its write-backs fold to (Dat.arrAt … N, which for
an input window is the array as entered) and every other buffer as entered (Pipeline.withArrays). V J is W J read
at the TensorCore's references, the form a region's proof data take.

No item writes an argument array: the stretches write only their own results, region 0 reads main_arg1 through an input
window and no other region names an argument. So each argument's buffer at every boundary is the launch memory's.

The family pdats gives every pipeline its proof data at the contents its region is entered from; the thread state
between two items is "every unscoped buffer at the boundary's contents" beside R: the generator register at some state
and the core owing nothing.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core c's buffers at launch. -/
abbrev W0 : Dev nD → Valuation τ sig (Elt F) := fun c b => (s₀ m ρ).mem ((c : Dev nD), b)

/-- After the host stretch before region 0: the contents region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: the contents region 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: the contents region 2 is entered from. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: the contents region 3 is entered from. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: the contents region 4 is entered from. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: the contents region 5 is entered from. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its arrays at what the pipeline leaves, every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references. -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: the contents region 6 is entered from. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its arrays at what the pipeline leaves, every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references. -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7: the contents region 7 is entered from. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- At region 7's exit: its arrays at what the pipeline leaves, every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references. -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch before region 8: the contents region 8 is entered from. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- At region 8's exit: its arrays at what the pipeline leaves, every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references. -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch before region 9: the contents region 9 is entered from. -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b
/-- At region 9's exit: its arrays at what the pipeline leaves, every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references. -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch before region 10: the contents region 10 is entered from. -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b
/-- At region 10's exit: its arrays at what the pipeline leaves, every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references. -/
abbrev V22 : (c : Dev nD) → (b : Ref sig .tc) → Buf (Elt F) ((c : Thread nD τ).loc b) := fun c b => W22 m ρ c b
/-- At region 10's exit each of its arrays holds what the pipeline leaves, and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the host stretch before region 11: the contents region 11 is entered from. -/
abbrev W23 : Dev nD → Valuation τ sig (Elt F) := fun c => StableHlo.after hostOps11 (W22 m ρ c)
/-- The same read at the TensorCore's references. -/
abbrev V23 : (c : Dev nD) → (b : Ref sig .tc) → Buf (Elt F) ((c : Thread nD τ).loc b) := fun c b => W23 m ρ c b
/-- At region 11's exit: its arrays at what the pipeline leaves, every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references. -/
abbrev V24 : (c : Dev nD) → (b : Ref sig .tc) → Buf (Elt F) ((c : Thread nD τ).loc b) := fun c b => W24 m ρ c b
/-- At region 11's exit each of its arrays holds what the pipeline leaves, and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After the host stretch before region 12: the contents region 12 is entered from. -/
abbrev W25 : Dev nD → Valuation τ sig (Elt F) := fun c => StableHlo.after hostOps12 (W24 m ρ c)
/-- The same read at the TensorCore's references. -/
abbrev V25 : (c : Dev nD) → (b : Ref sig .tc) → Buf (Elt F) ((c : Thread nD τ).loc b) := fun c b => W25 m ρ c b
/-- At region 12's exit: its arrays at what the pipeline leaves, every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references. -/
abbrev V26 : (c : Dev nD) → (b : Ref sig .tc) → Buf (Elt F) ((c : Thread nD τ).loc b) := fun c b => W26 m ρ c b
/-- At region 12's exit each of its arrays holds what the pipeline leaves, and every other buffer what it held at entry. -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After the host stretch before region 13: the contents region 13 is entered from. -/
abbrev W27 : Dev nD → Valuation τ sig (Elt F) := fun c => StableHlo.after hostOps13 (W26 m ρ c)
/-- The same read at the TensorCore's references. -/
abbrev V27 : (c : Dev nD) → (b : Ref sig .tc) → Buf (Elt F) ((c : Thread nD τ).loc b) := fun c b => W27 m ρ c b
/-- At region 13's exit: its arrays at what the pipeline leaves, every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references. -/
abbrev V28 : (c : Dev nD) → (b : Ref sig .tc) → Buf (Elt F) ((c : Thread nD τ).loc b) := fun c b => W28 m ρ c b
/-- At region 13's exit each of its arrays holds what the pipeline leaves, and every other buffer what it held at entry. -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After the host stretch before region 14: the contents region 14 is entered from. -/
abbrev W29 : Dev nD → Valuation τ sig (Elt F) := fun c => StableHlo.after hostOps14 (W28 m ρ c)
/-- The same read at the TensorCore's references. -/
abbrev V29 : (c : Dev nD) → (b : Ref sig .tc) → Buf (Elt F) ((c : Thread nD τ).loc b) := fun c b => W29 m ρ c b
/-- At region 14's exit: its arrays at what the pipeline leaves, every other buffer as entered. -/
noncomputable def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references. -/
abbrev V30 : (c : Dev nD) → (b : Ref sig .tc) → Buf (Elt F) ((c : Thread nD τ).loc b) := fun c b => W30 m ρ c b
/-- At region 14's exit each of its arrays holds what the pipeline leaves, and every other buffer what it held at entry. -/
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After the host stretch before region 15: the contents region 15 is entered from. -/
abbrev W31 : Dev nD → Valuation τ sig (Elt F) := fun c => StableHlo.after hostOps15 (W30 m ρ c)
/-- The same read at the TensorCore's references. -/
abbrev V31 : (c : Dev nD) → (b : Ref sig .tc) → Buf (Elt F) ((c : Thread nD τ).loc b) := fun c b => W31 m ρ c b
/-- At region 15's exit: its arrays at what the pipeline leaves, every other buffer as entered. -/
noncomputable def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
/-- The same read at the TensorCore's references. -/
abbrev V32 : (c : Dev nD) → (b : Ref sig .tc) → Buf (Elt F) ((c : Thread nD τ).loc b) := fun c b => W32 m ρ c b
/-- At region 15's exit each of its arrays holds what the pipeline leaves, and every other buffer what it held at entry. -/
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After the host stretch before region 16: the contents region 16 is entered from. -/
abbrev W33 : Dev nD → Valuation τ sig (Elt F) := fun c => StableHlo.after hostOps16 (W32 m ρ c)
/-- The same read at the TensorCore's references. -/
abbrev V33 : (c : Dev nD) → (b : Ref sig .tc) → Buf (Elt F) ((c : Thread nD τ).loc b) := fun c b => W33 m ρ c b
/-- At region 16's exit: its arrays at what the pipeline leaves, every other buffer as entered. -/
noncomputable def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
/-- The same read at the TensorCore's references. -/
abbrev V34 : (c : Dev nD) → (b : Ref sig .tc) → Buf (Elt F) ((c : Thread nD τ).loc b) := fun c b => W34 m ρ c b
/-- At region 16's exit each of its arrays holds what the pipeline leaves, and every other buffer what it held at entry. -/
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- After the host stretch before region 17: the contents region 17 is entered from. -/
abbrev W35 : Dev nD → Valuation τ sig (Elt F) := fun c => StableHlo.after hostOps17 (W34 m ρ c)
/-- The same read at the TensorCore's references. -/
abbrev V35 : (c : Dev nD) → (b : Ref sig .tc) → Buf (Elt F) ((c : Thread nD τ).loc b) := fun c b => W35 m ρ c b
/-- At region 17's exit: its arrays at what the pipeline leaves, every other buffer as entered. -/
noncomputable def W36 (c : Dev nD) : Valuation τ sig (Elt F) :=
  Pipeline.withArrays spec17 c (W35 m ρ c) fun w => (dat17 (V35 m ρ) c).arrAt w cfg17.N
theorem W36_arr (c : Dev nD) (w : Fin cfg17.W) :
    W36 m ρ c (Proc.devRef .tc (Pipeline.arrRef spec17 w)) = (dat17 (V35 m ρ) c).arrAt w cfg17.N := by
  unfold W36; exact Pipeline.withArrays_arr spec17 launch17.win.arr_inj c _ _ w
theorem W36_of_ne (c : Dev nD) (b : Ref sig .tc) (hb : ∀ w, Pipeline.arrRef spec17 w ≠ b) :
    W36 m ρ c (Proc.devRef .tc b) = W35 m ρ c (Proc.devRef .tc b) := by
  unfold W36; exact Pipeline.withArrays_of_ne spec17 c _ _ b hb
/-- The same read at the TensorCore's references. -/
abbrev V36 : (c : Dev nD) → (b : Ref sig .tc) → Buf (Elt F) ((c : Thread nD τ).loc b) := fun c b => W36 m ρ c b
/-- At region 17's exit each of its arrays holds what the pipeline leaves, and every other buffer what it held at entry. -/
theorem hF17 (c : Dev nD) (w : Fin cfg17.W) : (dat17 (V35 m ρ) c).arrAt w cfg17.N = V36 m ρ c (Pipeline.arrRef spec17 w) :=
  (W36_arr m ρ c w).symm
theorem hrest17 (c : Dev nD) : ∀ b, b ∉ Finset.univ.image (Pipeline.arrRef spec17) → V36 m ρ c b = V35 m ρ c b :=
  fun b hb => W36_of_ne m ρ c b fun w e => hb (Finset.mem_image.mpr ⟨w, Finset.mem_univ _, e⟩)

/-- After the host stretch before region 18: the contents region 18 is entered from. -/
abbrev W37 : Dev nD → Valuation τ sig (Elt F) := fun c => StableHlo.after hostOps18 (W36 m ρ c)
/-- The same read at the TensorCore's references. -/
abbrev V37 : (c : Dev nD) → (b : Ref sig .tc) → Buf (Elt F) ((c : Thread nD τ).loc b) := fun c b => W37 m ρ c b
/-- At region 18's exit: its arrays at what the pipeline leaves, every other buffer as entered. -/
noncomputable def W38 (c : Dev nD) : Valuation τ sig (Elt F) :=
  Pipeline.withArrays spec18 c (W37 m ρ c) fun w => (dat18 (V37 m ρ) c).arrAt w cfg18.N
theorem W38_arr (c : Dev nD) (w : Fin cfg18.W) :
    W38 m ρ c (Proc.devRef .tc (Pipeline.arrRef spec18 w)) = (dat18 (V37 m ρ) c).arrAt w cfg18.N := by
  unfold W38; exact Pipeline.withArrays_arr spec18 launch18.win.arr_inj c _ _ w
theorem W38_of_ne (c : Dev nD) (b : Ref sig .tc) (hb : ∀ w, Pipeline.arrRef spec18 w ≠ b) :
    W38 m ρ c (Proc.devRef .tc b) = W37 m ρ c (Proc.devRef .tc b) := by
  unfold W38; exact Pipeline.withArrays_of_ne spec18 c _ _ b hb
/-- The same read at the TensorCore's references. -/
abbrev V38 : (c : Dev nD) → (b : Ref sig .tc) → Buf (Elt F) ((c : Thread nD τ).loc b) := fun c b => W38 m ρ c b
/-- At region 18's exit each of its arrays holds what the pipeline leaves, and every other buffer what it held at entry. -/
theorem hF18 (c : Dev nD) (w : Fin cfg18.W) : (dat18 (V37 m ρ) c).arrAt w cfg18.N = V38 m ρ c (Pipeline.arrRef spec18 w) :=
  (W38_arr m ρ c w).symm
theorem hrest18 (c : Dev nD) : ∀ b, b ∉ Finset.univ.image (Pipeline.arrRef spec18) → V38 m ρ c b = V37 m ρ c b :=
  fun b hb => W38_of_ne m ρ c b fun w e => hb (Finset.mem_image.mpr ⟨w, Finset.mem_univ _, e⟩)

/-- After the host stretch before region 19: the contents region 19 is entered from. -/
abbrev W39 : Dev nD → Valuation τ sig (Elt F) := fun c => StableHlo.after hostOps19 (W38 m ρ c)
/-- The same read at the TensorCore's references. -/
abbrev V39 : (c : Dev nD) → (b : Ref sig .tc) → Buf (Elt F) ((c : Thread nD τ).loc b) := fun c b => W39 m ρ c b
/-- At region 19's exit: its arrays at what the pipeline leaves, every other buffer as entered. -/
noncomputable def W40 (c : Dev nD) : Valuation τ sig (Elt F) :=
  Pipeline.withArrays spec19 c (W39 m ρ c) fun w => (dat19 (V39 m ρ) c).arrAt w cfg19.N
theorem W40_arr (c : Dev nD) (w : Fin cfg19.W) :
    W40 m ρ c (Proc.devRef .tc (Pipeline.arrRef spec19 w)) = (dat19 (V39 m ρ) c).arrAt w cfg19.N := by
  unfold W40; exact Pipeline.withArrays_arr spec19 launch19.win.arr_inj c _ _ w
theorem W40_of_ne (c : Dev nD) (b : Ref sig .tc) (hb : ∀ w, Pipeline.arrRef spec19 w ≠ b) :
    W40 m ρ c (Proc.devRef .tc b) = W39 m ρ c (Proc.devRef .tc b) := by
  unfold W40; exact Pipeline.withArrays_of_ne spec19 c _ _ b hb
/-- The same read at the TensorCore's references. -/
abbrev V40 : (c : Dev nD) → (b : Ref sig .tc) → Buf (Elt F) ((c : Thread nD τ).loc b) := fun c b => W40 m ρ c b
/-- At region 19's exit each of its arrays holds what the pipeline leaves, and every other buffer what it held at entry. -/
theorem hF19 (c : Dev nD) (w : Fin cfg19.W) : (dat19 (V39 m ρ) c).arrAt w cfg19.N = V40 m ρ c (Pipeline.arrRef spec19 w) :=
  (W40_arr m ρ c w).symm
theorem hrest19 (c : Dev nD) : ∀ b, b ∉ Finset.univ.image (Pipeline.arrRef spec19) → V40 m ρ c b = V39 m ρ c b :=
  fun b hb => W40_of_ne m ρ c b fun w e => hb (Finset.mem_image.mpr ⟨w, Finset.mem_univ _, e⟩)

/-- After the host stretch before region 20: the contents region 20 is entered from. -/
abbrev W41 : Dev nD → Valuation τ sig (Elt F) := fun c => StableHlo.after hostOps20 (W40 m ρ c)
/-- The same read at the TensorCore's references. -/
abbrev V41 : (c : Dev nD) → (b : Ref sig .tc) → Buf (Elt F) ((c : Thread nD τ).loc b) := fun c b => W41 m ρ c b
/-- At region 20's exit: its arrays at what the pipeline leaves, every other buffer as entered. -/
noncomputable def W42 (c : Dev nD) : Valuation τ sig (Elt F) :=
  Pipeline.withArrays spec20 c (W41 m ρ c) fun w => (dat20 (V41 m ρ) c).arrAt w cfg20.N
theorem W42_arr (c : Dev nD) (w : Fin cfg20.W) :
    W42 m ρ c (Proc.devRef .tc (Pipeline.arrRef spec20 w)) = (dat20 (V41 m ρ) c).arrAt w cfg20.N := by
  unfold W42; exact Pipeline.withArrays_arr spec20 launch20.win.arr_inj c _ _ w
theorem W42_of_ne (c : Dev nD) (b : Ref sig .tc) (hb : ∀ w, Pipeline.arrRef spec20 w ≠ b) :
    W42 m ρ c (Proc.devRef .tc b) = W41 m ρ c (Proc.devRef .tc b) := by
  unfold W42; exact Pipeline.withArrays_of_ne spec20 c _ _ b hb
/-- The same read at the TensorCore's references. -/
abbrev V42 : (c : Dev nD) → (b : Ref sig .tc) → Buf (Elt F) ((c : Thread nD τ).loc b) := fun c b => W42 m ρ c b
/-- At region 20's exit each of its arrays holds what the pipeline leaves, and every other buffer what it held at entry. -/
theorem hF20 (c : Dev nD) (w : Fin cfg20.W) : (dat20 (V41 m ρ) c).arrAt w cfg20.N = V42 m ρ c (Pipeline.arrRef spec20 w) :=
  (W42_arr m ρ c w).symm
theorem hrest20 (c : Dev nD) : ∀ b, b ∉ Finset.univ.image (Pipeline.arrRef spec20) → V42 m ρ c b = V41 m ρ c b :=
  fun b hb => W42_of_ne m ρ c b fun w e => hb (Finset.mem_image.mpr ⟨w, Finset.mem_univ _, e⟩)

/-- After the host stretch before region 21: the contents region 21 is entered from. -/
abbrev W43 : Dev nD → Valuation τ sig (Elt F) := fun c => StableHlo.after hostOps21 (W42 m ρ c)
/-- The same read at the TensorCore's references. -/
abbrev V43 : (c : Dev nD) → (b : Ref sig .tc) → Buf (Elt F) ((c : Thread nD τ).loc b) := fun c b => W43 m ρ c b
/-- At region 21's exit: its arrays at what the pipeline leaves, every other buffer as entered. -/
noncomputable def W44 (c : Dev nD) : Valuation τ sig (Elt F) :=
  Pipeline.withArrays spec21 c (W43 m ρ c) fun w => (dat21 (V43 m ρ) c).arrAt w cfg21.N
theorem W44_arr (c : Dev nD) (w : Fin cfg21.W) :
    W44 m ρ c (Proc.devRef .tc (Pipeline.arrRef spec21 w)) = (dat21 (V43 m ρ) c).arrAt w cfg21.N := by
  unfold W44; exact Pipeline.withArrays_arr spec21 launch21.win.arr_inj c _ _ w
theorem W44_of_ne (c : Dev nD) (b : Ref sig .tc) (hb : ∀ w, Pipeline.arrRef spec21 w ≠ b) :
    W44 m ρ c (Proc.devRef .tc b) = W43 m ρ c (Proc.devRef .tc b) := by
  unfold W44; exact Pipeline.withArrays_of_ne spec21 c _ _ b hb
/-- The same read at the TensorCore's references. -/
abbrev V44 : (c : Dev nD) → (b : Ref sig .tc) → Buf (Elt F) ((c : Thread nD τ).loc b) := fun c b => W44 m ρ c b
/-- At region 21's exit each of its arrays holds what the pipeline leaves, and every other buffer what it held at entry. -/
theorem hF21 (c : Dev nD) (w : Fin cfg21.W) : (dat21 (V43 m ρ) c).arrAt w cfg21.N = V44 m ρ c (Pipeline.arrRef spec21 w) :=
  (W44_arr m ρ c w).symm
theorem hrest21 (c : Dev nD) : ∀ b, b ∉ Finset.univ.image (Pipeline.arrRef spec21) → V44 m ρ c b = V43 m ρ c b :=
  fun b hb => W44_of_ne m ρ c b fun w e => hb (Finset.mem_image.mpr ⟨w, Finset.mem_univ _, e⟩)

/-- After the host stretch before region 22: the contents region 22 is entered from. -/
abbrev W45 : Dev nD → Valuation τ sig (Elt F) := fun c => StableHlo.after hostOps22 (W44 m ρ c)
/-- The same read at the TensorCore's references. -/
abbrev V45 : (c : Dev nD) → (b : Ref sig .tc) → Buf (Elt F) ((c : Thread nD τ).loc b) := fun c b => W45 m ρ c b
/-- At region 22's exit: its arrays at what the pipeline leaves, every other buffer as entered. -/
noncomputable def W46 (c : Dev nD) : Valuation τ sig (Elt F) :=
  Pipeline.withArrays spec22 c (W45 m ρ c) fun w => (dat22 (V45 m ρ) c).arrAt w cfg22.N
theorem W46_arr (c : Dev nD) (w : Fin cfg22.W) :
    W46 m ρ c (Proc.devRef .tc (Pipeline.arrRef spec22 w)) = (dat22 (V45 m ρ) c).arrAt w cfg22.N := by
  unfold W46; exact Pipeline.withArrays_arr spec22 launch22.win.arr_inj c _ _ w
theorem W46_of_ne (c : Dev nD) (b : Ref sig .tc) (hb : ∀ w, Pipeline.arrRef spec22 w ≠ b) :
    W46 m ρ c (Proc.devRef .tc b) = W45 m ρ c (Proc.devRef .tc b) := by
  unfold W46; exact Pipeline.withArrays_of_ne spec22 c _ _ b hb
/-- The same read at the TensorCore's references. -/
abbrev V46 : (c : Dev nD) → (b : Ref sig .tc) → Buf (Elt F) ((c : Thread nD τ).loc b) := fun c b => W46 m ρ c b
/-- At region 22's exit each of its arrays holds what the pipeline leaves, and every other buffer what it held at entry. -/
theorem hF22 (c : Dev nD) (w : Fin cfg22.W) : (dat22 (V45 m ρ) c).arrAt w cfg22.N = V46 m ρ c (Pipeline.arrRef spec22 w) :=
  (W46_arr m ρ c w).symm
theorem hrest22 (c : Dev nD) : ∀ b, b ∉ Finset.univ.image (Pipeline.arrRef spec22) → V46 m ρ c b = V45 m ρ c b :=
  fun b hb => W46_of_ne m ρ c b fun w e => hb (Finset.mem_image.mpr ⟨w, Finset.mem_univ _, e⟩)

/-- After the host stretch before region 23: the contents region 23 is entered from. -/
abbrev W47 : Dev nD → Valuation τ sig (Elt F) := fun c => StableHlo.after hostOps23 (W46 m ρ c)
/-- The same read at the TensorCore's references. -/
abbrev V47 : (c : Dev nD) → (b : Ref sig .tc) → Buf (Elt F) ((c : Thread nD τ).loc b) := fun c b => W47 m ρ c b
/-- At region 23's exit: its arrays at what the pipeline leaves, every other buffer as entered. -/
noncomputable def W48 (c : Dev nD) : Valuation τ sig (Elt F) :=
  Pipeline.withArrays spec23 c (W47 m ρ c) fun w => (dat23 (V47 m ρ) c).arrAt w cfg23.N
theorem W48_arr (c : Dev nD) (w : Fin cfg23.W) :
    W48 m ρ c (Proc.devRef .tc (Pipeline.arrRef spec23 w)) = (dat23 (V47 m ρ) c).arrAt w cfg23.N := by
  unfold W48; exact Pipeline.withArrays_arr spec23 launch23.win.arr_inj c _ _ w
theorem W48_of_ne (c : Dev nD) (b : Ref sig .tc) (hb : ∀ w, Pipeline.arrRef spec23 w ≠ b) :
    W48 m ρ c (Proc.devRef .tc b) = W47 m ρ c (Proc.devRef .tc b) := by
  unfold W48; exact Pipeline.withArrays_of_ne spec23 c _ _ b hb
/-- The same read at the TensorCore's references. -/
abbrev V48 : (c : Dev nD) → (b : Ref sig .tc) → Buf (Elt F) ((c : Thread nD τ).loc b) := fun c b => W48 m ρ c b
/-- At region 23's exit each of its arrays holds what the pipeline leaves, and every other buffer what it held at entry. -/
theorem hF23 (c : Dev nD) (w : Fin cfg23.W) : (dat23 (V47 m ρ) c).arrAt w cfg23.N = V48 m ρ c (Pipeline.arrRef spec23 w) :=
  (W48_arr m ρ c w).symm
theorem hrest23 (c : Dev nD) : ∀ b, b ∉ Finset.univ.image (Pipeline.arrRef spec23) → V48 m ρ c b = V47 m ρ c b :=
  fun b hb => W48_of_ne m ρ c b fun w e => hb (Finset.mem_image.mpr ⟨w, Finset.mem_univ _, e⟩)

/-- After the host stretch before region 24: the contents region 24 is entered from. -/
abbrev W49 : Dev nD → Valuation τ sig (Elt F) := fun c => StableHlo.after hostOps24 (W48 m ρ c)
/-- The same read at the TensorCore's references. -/
abbrev V49 : (c : Dev nD) → (b : Ref sig .tc) → Buf (Elt F) ((c : Thread nD τ).loc b) := fun c b => W49 m ρ c b
/-- At region 24's exit: its arrays at what the pipeline leaves, every other buffer as entered. -/
noncomputable def W50 (c : Dev nD) : Valuation τ sig (Elt F) :=
  Pipeline.withArrays spec24 c (W49 m ρ c) fun w => (dat24 (V49 m ρ) c).arrAt w cfg24.N
theorem W50_arr (c : Dev nD) (w : Fin cfg24.W) :
    W50 m ρ c (Proc.devRef .tc (Pipeline.arrRef spec24 w)) = (dat24 (V49 m ρ) c).arrAt w cfg24.N := by
  unfold W50; exact Pipeline.withArrays_arr spec24 launch24.win.arr_inj c _ _ w
theorem W50_of_ne (c : Dev nD) (b : Ref sig .tc) (hb : ∀ w, Pipeline.arrRef spec24 w ≠ b) :
    W50 m ρ c (Proc.devRef .tc b) = W49 m ρ c (Proc.devRef .tc b) := by
  unfold W50; exact Pipeline.withArrays_of_ne spec24 c _ _ b hb
/-- The same read at the TensorCore's references. -/
abbrev V50 : (c : Dev nD) → (b : Ref sig .tc) → Buf (Elt F) ((c : Thread nD τ).loc b) := fun c b => W50 m ρ c b
/-- At region 24's exit each of its arrays holds what the pipeline leaves, and every other buffer what it held at entry. -/
theorem hF24 (c : Dev nD) (w : Fin cfg24.W) : (dat24 (V49 m ρ) c).arrAt w cfg24.N = V50 m ρ c (Pipeline.arrRef spec24 w) :=
  (W50_arr m ρ c w).symm
theorem hrest24 (c : Dev nD) : ∀ b, b ∉ Finset.univ.image (Pipeline.arrRef spec24) → V50 m ρ c b = V49 m ρ c b :=
  fun b hb => W50_of_ne m ρ c b fun w e => hb (Finset.mem_image.mpr ⟨w, Finset.mem_univ _, e⟩)

/-- After the host stretch before region 25: the contents region 25 is entered from. -/
abbrev W51 : Dev nD → Valuation τ sig (Elt F) := fun c => StableHlo.after hostOps25 (W50 m ρ c)
/-- The same read at the TensorCore's references. -/
abbrev V51 : (c : Dev nD) → (b : Ref sig .tc) → Buf (Elt F) ((c : Thread nD τ).loc b) := fun c b => W51 m ρ c b
/-- At region 25's exit: its arrays at what the pipeline leaves, every other buffer as entered. -/
noncomputable def W52 (c : Dev nD) : Valuation τ sig (Elt F) :=
  Pipeline.withArrays spec25 c (W51 m ρ c) fun w => (dat25 (V51 m ρ) c).arrAt w cfg25.N
theorem W52_arr (c : Dev nD) (w : Fin cfg25.W) :
    W52 m ρ c (Proc.devRef .tc (Pipeline.arrRef spec25 w)) = (dat25 (V51 m ρ) c).arrAt w cfg25.N := by
  unfold W52; exact Pipeline.withArrays_arr spec25 launch25.win.arr_inj c _ _ w
theorem W52_of_ne (c : Dev nD) (b : Ref sig .tc) (hb : ∀ w, Pipeline.arrRef spec25 w ≠ b) :
    W52 m ρ c (Proc.devRef .tc b) = W51 m ρ c (Proc.devRef .tc b) := by
  unfold W52; exact Pipeline.withArrays_of_ne spec25 c _ _ b hb
/-- The same read at the TensorCore's references. -/
abbrev V52 : (c : Dev nD) → (b : Ref sig .tc) → Buf (Elt F) ((c : Thread nD τ).loc b) := fun c b => W52 m ρ c b
/-- At region 25's exit each of its arrays holds what the pipeline leaves, and every other buffer what it held at entry. -/
theorem hF25 (c : Dev nD) (w : Fin cfg25.W) : (dat25 (V51 m ρ) c).arrAt w cfg25.N = V52 m ρ c (Pipeline.arrRef spec25 w) :=
  (W52_arr m ρ c w).symm
theorem hrest25 (c : Dev nD) : ∀ b, b ∉ Finset.univ.image (Pipeline.arrRef spec25) → V52 m ρ c b = V51 m ρ c b :=
  fun b hb => W52_of_ne m ρ c b fun w e => hb (Finset.mem_image.mpr ⟨w, Finset.mem_univ _, e⟩)

/-- After the host stretch before region 26: the contents region 26 is entered from. -/
abbrev W53 : Dev nD → Valuation τ sig (Elt F) := fun c => StableHlo.after hostOps26 (W52 m ρ c)
/-- The same read at the TensorCore's references. -/
abbrev V53 : (c : Dev nD) → (b : Ref sig .tc) → Buf (Elt F) ((c : Thread nD τ).loc b) := fun c b => W53 m ρ c b
/-- At region 26's exit: its arrays at what the pipeline leaves, every other buffer as entered. -/
noncomputable def W54 (c : Dev nD) : Valuation τ sig (Elt F) :=
  Pipeline.withArrays spec26 c (W53 m ρ c) fun w => (dat26 (V53 m ρ) c).arrAt w cfg26.N
theorem W54_arr (c : Dev nD) (w : Fin cfg26.W) :
    W54 m ρ c (Proc.devRef .tc (Pipeline.arrRef spec26 w)) = (dat26 (V53 m ρ) c).arrAt w cfg26.N := by
  unfold W54; exact Pipeline.withArrays_arr spec26 launch26.win.arr_inj c _ _ w
theorem W54_of_ne (c : Dev nD) (b : Ref sig .tc) (hb : ∀ w, Pipeline.arrRef spec26 w ≠ b) :
    W54 m ρ c (Proc.devRef .tc b) = W53 m ρ c (Proc.devRef .tc b) := by
  unfold W54; exact Pipeline.withArrays_of_ne spec26 c _ _ b hb
/-- The same read at the TensorCore's references. -/
abbrev V54 : (c : Dev nD) → (b : Ref sig .tc) → Buf (Elt F) ((c : Thread nD τ).loc b) := fun c b => W54 m ρ c b
/-- At region 26's exit each of its arrays holds what the pipeline leaves, and every other buffer what it held at entry. -/
theorem hF26 (c : Dev nD) (w : Fin cfg26.W) : (dat26 (V53 m ρ) c).arrAt w cfg26.N = V54 m ρ c (Pipeline.arrRef spec26 w) :=
  (W54_arr m ρ c w).symm
theorem hrest26 (c : Dev nD) : ∀ b, b ∉ Finset.univ.image (Pipeline.arrRef spec26) → V54 m ρ c b = V53 m ρ c b :=
  fun b hb => W54_of_ne m ρ c b fun w e => hb (Finset.mem_image.mpr ⟨w, Finset.mem_univ _, e⟩)

/-- After the host stretch before region 27: the contents region 27 is entered from. -/
abbrev W55 : Dev nD → Valuation τ sig (Elt F) := fun c => StableHlo.after hostOps27 (W54 m ρ c)
/-- The same read at the TensorCore's references. -/
abbrev V55 : (c : Dev nD) → (b : Ref sig .tc) → Buf (Elt F) ((c : Thread nD τ).loc b) := fun c b => W55 m ρ c b
/-- At region 27's exit: its arrays at what the pipeline leaves, every other buffer as entered. -/
noncomputable def W56 (c : Dev nD) : Valuation τ sig (Elt F) :=
  Pipeline.withArrays spec27 c (W55 m ρ c) fun w => (dat27 (V55 m ρ) c).arrAt w cfg27.N
theorem W56_arr (c : Dev nD) (w : Fin cfg27.W) :
    W56 m ρ c (Proc.devRef .tc (Pipeline.arrRef spec27 w)) = (dat27 (V55 m ρ) c).arrAt w cfg27.N := by
  unfold W56; exact Pipeline.withArrays_arr spec27 launch27.win.arr_inj c _ _ w
theorem W56_of_ne (c : Dev nD) (b : Ref sig .tc) (hb : ∀ w, Pipeline.arrRef spec27 w ≠ b) :
    W56 m ρ c (Proc.devRef .tc b) = W55 m ρ c (Proc.devRef .tc b) := by
  unfold W56; exact Pipeline.withArrays_of_ne spec27 c _ _ b hb
/-- The same read at the TensorCore's references. -/
abbrev V56 : (c : Dev nD) → (b : Ref sig .tc) → Buf (Elt F) ((c : Thread nD τ).loc b) := fun c b => W56 m ρ c b
/-- At region 27's exit each of its arrays holds what the pipeline leaves, and every other buffer what it held at entry. -/
theorem hF27 (c : Dev nD) (w : Fin cfg27.W) : (dat27 (V55 m ρ) c).arrAt w cfg27.N = V56 m ρ c (Pipeline.arrRef spec27 w) :=
  (W56_arr m ρ c w).symm
theorem hrest27 (c : Dev nD) : ∀ b, b ∉ Finset.univ.image (Pipeline.arrRef spec27) → V56 m ρ c b = V55 m ρ c b :=
  fun b hb => W56_of_ne m ρ c b fun w e => hb (Finset.mem_image.mpr ⟨w, Finset.mem_univ _, e⟩)

/-- After the host stretch before region 28: the contents region 28 is entered from. -/
abbrev W57 : Dev nD → Valuation τ sig (Elt F) := fun c => StableHlo.after hostOps28 (W56 m ρ c)
/-- The same read at the TensorCore's references. -/
abbrev V57 : (c : Dev nD) → (b : Ref sig .tc) → Buf (Elt F) ((c : Thread nD τ).loc b) := fun c b => W57 m ρ c b
/-- At region 28's exit: its arrays at what the pipeline leaves, every other buffer as entered. -/
noncomputable def W58 (c : Dev nD) : Valuation τ sig (Elt F) :=
  Pipeline.withArrays spec28 c (W57 m ρ c) fun w => (dat28 (V57 m ρ) c).arrAt w cfg28.N
theorem W58_arr (c : Dev nD) (w : Fin cfg28.W) :
    W58 m ρ c (Proc.devRef .tc (Pipeline.arrRef spec28 w)) = (dat28 (V57 m ρ) c).arrAt w cfg28.N := by
  unfold W58; exact Pipeline.withArrays_arr spec28 launch28.win.arr_inj c _ _ w
theorem W58_of_ne (c : Dev nD) (b : Ref sig .tc) (hb : ∀ w, Pipeline.arrRef spec28 w ≠ b) :
    W58 m ρ c (Proc.devRef .tc b) = W57 m ρ c (Proc.devRef .tc b) := by
  unfold W58; exact Pipeline.withArrays_of_ne spec28 c _ _ b hb
/-- The same read at the TensorCore's references. -/
abbrev V58 : (c : Dev nD) → (b : Ref sig .tc) → Buf (Elt F) ((c : Thread nD τ).loc b) := fun c b => W58 m ρ c b
/-- At region 28's exit each of its arrays holds what the pipeline leaves, and every other buffer what it held at entry. -/
theorem hF28 (c : Dev nD) (w : Fin cfg28.W) : (dat28 (V57 m ρ) c).arrAt w cfg28.N = V58 m ρ c (Pipeline.arrRef spec28 w) :=
  (W58_arr m ρ c w).symm
theorem hrest28 (c : Dev nD) : ∀ b, b ∉ Finset.univ.image (Pipeline.arrRef spec28) → V58 m ρ c b = V57 m ρ c b :=
  fun b hb => W58_of_ne m ρ c b fun w e => hb (Finset.mem_image.mpr ⟨w, Finset.mem_univ _, e⟩)

/-- After the host stretch before region 29: the contents region 29 is entered from. -/
abbrev W59 : Dev nD → Valuation τ sig (Elt F) := fun c => StableHlo.after hostOps29 (W58 m ρ c)
/-- The same read at the TensorCore's references. -/
abbrev V59 : (c : Dev nD) → (b : Ref sig .tc) → Buf (Elt F) ((c : Thread nD τ).loc b) := fun c b => W59 m ρ c b
/-- At region 29's exit: its arrays at what the pipeline leaves, every other buffer as entered. -/
noncomputable def W60 (c : Dev nD) : Valuation τ sig (Elt F) :=
  Pipeline.withArrays spec29 c (W59 m ρ c) fun w => (dat29 (V59 m ρ) c).arrAt w cfg29.N
theorem W60_arr (c : Dev nD) (w : Fin cfg29.W) :
    W60 m ρ c (Proc.devRef .tc (Pipeline.arrRef spec29 w)) = (dat29 (V59 m ρ) c).arrAt w cfg29.N := by
  unfold W60; exact Pipeline.withArrays_arr spec29 launch29.win.arr_inj c _ _ w
theorem W60_of_ne (c : Dev nD) (b : Ref sig .tc) (hb : ∀ w, Pipeline.arrRef spec29 w ≠ b) :
    W60 m ρ c (Proc.devRef .tc b) = W59 m ρ c (Proc.devRef .tc b) := by
  unfold W60; exact Pipeline.withArrays_of_ne spec29 c _ _ b hb
/-- The same read at the TensorCore's references. -/
abbrev V60 : (c : Dev nD) → (b : Ref sig .tc) → Buf (Elt F) ((c : Thread nD τ).loc b) := fun c b => W60 m ρ c b
/-- At region 29's exit each of its arrays holds what the pipeline leaves, and every other buffer what it held at entry. -/
theorem hF29 (c : Dev nD) (w : Fin cfg29.W) : (dat29 (V59 m ρ) c).arrAt w cfg29.N = V60 m ρ c (Pipeline.arrRef spec29 w) :=
  (W60_arr m ρ c w).symm
theorem hrest29 (c : Dev nD) : ∀ b, b ∉ Finset.univ.image (Pipeline.arrRef spec29) → V60 m ρ c b = V59 m ρ c b :=
  fun b hb => W60_of_ne m ρ c b fun w e => hb (Finset.mem_image.mpr ⟨w, Finset.mem_univ _, e⟩)

/-- After the host stretch before region 30: the contents region 30 is entered from. -/
abbrev W61 : Dev nD → Valuation τ sig (Elt F) := fun c => StableHlo.after hostOps30 (W60 m ρ c)
/-- The same read at the TensorCore's references. -/
abbrev V61 : (c : Dev nD) → (b : Ref sig .tc) → Buf (Elt F) ((c : Thread nD τ).loc b) := fun c b => W61 m ρ c b
/-- At region 30's exit: its arrays at what the pipeline leaves, every other buffer as entered. -/
noncomputable def W62 (c : Dev nD) : Valuation τ sig (Elt F) :=
  Pipeline.withArrays spec30 c (W61 m ρ c) fun w => (dat30 (V61 m ρ) c).arrAt w cfg30.N
theorem W62_arr (c : Dev nD) (w : Fin cfg30.W) :
    W62 m ρ c (Proc.devRef .tc (Pipeline.arrRef spec30 w)) = (dat30 (V61 m ρ) c).arrAt w cfg30.N := by
  unfold W62; exact Pipeline.withArrays_arr spec30 launch30.win.arr_inj c _ _ w
theorem W62_of_ne (c : Dev nD) (b : Ref sig .tc) (hb : ∀ w, Pipeline.arrRef spec30 w ≠ b) :
    W62 m ρ c (Proc.devRef .tc b) = W61 m ρ c (Proc.devRef .tc b) := by
  unfold W62; exact Pipeline.withArrays_of_ne spec30 c _ _ b hb
/-- The same read at the TensorCore's references. -/
abbrev V62 : (c : Dev nD) → (b : Ref sig .tc) → Buf (Elt F) ((c : Thread nD τ).loc b) := fun c b => W62 m ρ c b
/-- At region 30's exit each of its arrays holds what the pipeline leaves, and every other buffer what it held at entry. -/
theorem hF30 (c : Dev nD) (w : Fin cfg30.W) : (dat30 (V61 m ρ) c).arrAt w cfg30.N = V62 m ρ c (Pipeline.arrRef spec30 w) :=
  (W62_arr m ρ c w).symm
theorem hrest30 (c : Dev nD) : ∀ b, b ∉ Finset.univ.image (Pipeline.arrRef spec30) → V62 m ρ c b = V61 m ρ c b :=
  fun b hb => W62_of_ne m ρ c b fun w e => hb (Finset.mem_image.mpr ⟨w, Finset.mem_univ _, e⟩)

/-- After the host stretch before region 31: the contents region 31 is entered from. -/
abbrev W63 : Dev nD → Valuation τ sig (Elt F) := fun c => StableHlo.after hostOps31 (W62 m ρ c)
/-- The same read at the TensorCore's references. -/
abbrev V63 : (c : Dev nD) → (b : Ref sig .tc) → Buf (Elt F) ((c : Thread nD τ).loc b) := fun c b => W63 m ρ c b
/-- At region 31's exit: its arrays at what the pipeline leaves, every other buffer as entered. -/
noncomputable def W64 (c : Dev nD) : Valuation τ sig (Elt F) :=
  Pipeline.withArrays spec31 c (W63 m ρ c) fun w => (dat31 (V63 m ρ) c).arrAt w cfg31.N
theorem W64_arr (c : Dev nD) (w : Fin cfg31.W) :
    W64 m ρ c (Proc.devRef .tc (Pipeline.arrRef spec31 w)) = (dat31 (V63 m ρ) c).arrAt w cfg31.N := by
  unfold W64; exact Pipeline.withArrays_arr spec31 launch31.win.arr_inj c _ _ w
theorem W64_of_ne (c : Dev nD) (b : Ref sig .tc) (hb : ∀ w, Pipeline.arrRef spec31 w ≠ b) :
    W64 m ρ c (Proc.devRef .tc b) = W63 m ρ c (Proc.devRef .tc b) := by
  unfold W64; exact Pipeline.withArrays_of_ne spec31 c _ _ b hb
/-- The same read at the TensorCore's references. -/
abbrev V64 : (c : Dev nD) → (b : Ref sig .tc) → Buf (Elt F) ((c : Thread nD τ).loc b) := fun c b => W64 m ρ c b
/-- At region 31's exit each of its arrays holds what the pipeline leaves, and every other buffer what it held at entry. -/
theorem hF31 (c : Dev nD) (w : Fin cfg31.W) : (dat31 (V63 m ρ) c).arrAt w cfg31.N = V64 m ρ c (Pipeline.arrRef spec31 w) :=
  (W64_arr m ρ c w).symm
theorem hrest31 (c : Dev nD) : ∀ b, b ∉ Finset.univ.image (Pipeline.arrRef spec31) → V64 m ρ c b = V63 m ρ c b :=
  fun b hb => W64_of_ne m ρ c b fun w e => hb (Finset.mem_image.mpr ⟨w, Finset.mem_univ _, e⟩)

/-- After the host stretch before region 32: the contents region 32 is entered from. -/
abbrev W65 : Dev nD → Valuation τ sig (Elt F) := fun c => StableHlo.after hostOps32 (W64 m ρ c)
/-- The same read at the TensorCore's references. -/
abbrev V65 : (c : Dev nD) → (b : Ref sig .tc) → Buf (Elt F) ((c : Thread nD τ).loc b) := fun c b => W65 m ρ c b
/-- At region 32's exit: its arrays at what the pipeline leaves, every other buffer as entered. -/
noncomputable def W66 (c : Dev nD) : Valuation τ sig (Elt F) :=
  Pipeline.withArrays spec32 c (W65 m ρ c) fun w => (dat32 (V65 m ρ) c).arrAt w cfg32.N
theorem W66_arr (c : Dev nD) (w : Fin cfg32.W) :
    W66 m ρ c (Proc.devRef .tc (Pipeline.arrRef spec32 w)) = (dat32 (V65 m ρ) c).arrAt w cfg32.N := by
  unfold W66; exact Pipeline.withArrays_arr spec32 launch32.win.arr_inj c _ _ w
theorem W66_of_ne (c : Dev nD) (b : Ref sig .tc) (hb : ∀ w, Pipeline.arrRef spec32 w ≠ b) :
    W66 m ρ c (Proc.devRef .tc b) = W65 m ρ c (Proc.devRef .tc b) := by
  unfold W66; exact Pipeline.withArrays_of_ne spec32 c _ _ b hb
/-- The same read at the TensorCore's references. -/
abbrev V66 : (c : Dev nD) → (b : Ref sig .tc) → Buf (Elt F) ((c : Thread nD τ).loc b) := fun c b => W66 m ρ c b
/-- At region 32's exit each of its arrays holds what the pipeline leaves, and every other buffer what it held at entry. -/
theorem hF32 (c : Dev nD) (w : Fin cfg32.W) : (dat32 (V65 m ρ) c).arrAt w cfg32.N = V66 m ρ c (Pipeline.arrRef spec32 w) :=
  (W66_arr m ρ c w).symm
theorem hrest32 (c : Dev nD) : ∀ b, b ∉ Finset.univ.image (Pipeline.arrRef spec32) → V66 m ρ c b = V65 m ρ c b :=
  fun b hb => W66_of_ne m ρ c b fun w e => hb (Finset.mem_image.mpr ⟨w, Finset.mem_univ _, e⟩)

/-- After the last host stretch: the contents @main returns with. -/
abbrev W67 : Dev nD → Valuation τ sig (Elt F) := fun c => StableHlo.after hostOps33 (W66 m ρ c)
/-- The same read at the TensorCore's references. -/
abbrev V67 : (c : Dev nD) → (b : Ref sig .tc) → Buf (Elt F) ((c : Thread nD τ).loc b) := fun c b => W67 m ρ c b

/-! ## The arguments end as launched

A buffer no operation of a stretch writes is the same before and after it (every operation writes its own result
only, and which reference is which is decided); a buffer that is none of a region's arrays is the same before and
after the region; an input window's array is never written back. -/

/-- A reference is written by no operation of a literal stretch: the stretch's result references, one by one. -/
local macro "not_written" ops:ident : tactic => `(tactic|
  (refine List.forall_iff_forall_mem.mp ?_
   simp only [$ops:ident, List.Forall, StableHlo.nullary_writes, StableHlo.unary_writes, StableHlo.binary_writes,
     StableHlo.ternary_writes, StableHlo.quaternary_writes, StableHlo.reshape_writes, StableHlo.nary_writes,
     StableHlo.binaryIndexed_writes, Finset.mem_singleton]
   repeat' apply And.intro
   all_goals exact StableHlo.devRef_ne_of_ne (by decide)))

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (StableHlo.after_of_forall_not_mem (b := Proc.devRef .tc main_arg0) _ _ (by not_written hostOps0)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (by not_written hostOps1)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (by not_written hostOps2)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_forall_not_mem (b := Proc.devRef .tc main_arg0) _ _ (by not_written hostOps3)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (StableHlo.after_of_forall_not_mem (b := Proc.devRef .tc main_arg0) _ _ (by not_written hostOps4)).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (StableHlo.after_of_forall_not_mem (b := Proc.devRef .tc main_arg0) _ _ (by not_written hostOps5)).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (StableHlo.after_of_forall_not_mem (b := Proc.devRef .tc main_arg0) _ _ (by not_written hostOps6)).trans (W12_main_arg0 m ρ c)
theorem W14_main_arg0 (c : Dev nD) : W14 m ρ c (Proc.devRef .tc main_arg0) = m ((c : Thread nD τ).loc main_arg0) :=
  (W14_of_ne m ρ c main_arg0 (by decide)).trans (W13_main_arg0 m ρ c)
theorem W15_main_arg0 (c : Dev nD) : W15 m ρ c (Proc.devRef .tc main_arg0) = m ((c : Thread nD τ).loc main_arg0) :=
  (StableHlo.after_of_forall_not_mem (b := Proc.devRef .tc main_arg0) _ _ (by not_written hostOps7)).trans (W14_main_arg0 m ρ c)
theorem W16_main_arg0 (c : Dev nD) : W16 m ρ c (Proc.devRef .tc main_arg0) = m ((c : Thread nD τ).loc main_arg0) :=
  (W16_of_ne m ρ c main_arg0 (by decide)).trans (W15_main_arg0 m ρ c)
theorem W17_main_arg0 (c : Dev nD) : W17 m ρ c (Proc.devRef .tc main_arg0) = m ((c : Thread nD τ).loc main_arg0) :=
  (StableHlo.after_of_forall_not_mem (b := Proc.devRef .tc main_arg0) _ _ (by not_written hostOps8)).trans (W16_main_arg0 m ρ c)
theorem W18_main_arg0 (c : Dev nD) : W18 m ρ c (Proc.devRef .tc main_arg0) = m ((c : Thread nD τ).loc main_arg0) :=
  (W18_of_ne m ρ c main_arg0 (by decide)).trans (W17_main_arg0 m ρ c)
theorem W19_main_arg0 (c : Dev nD) : W19 m ρ c (Proc.devRef .tc main_arg0) = m ((c : Thread nD τ).loc main_arg0) :=
  (StableHlo.after_of_forall_not_mem (b := Proc.devRef .tc main_arg0) _ _ (by not_written hostOps9)).trans (W18_main_arg0 m ρ c)
theorem W20_main_arg0 (c : Dev nD) : W20 m ρ c (Proc.devRef .tc main_arg0) = m ((c : Thread nD τ).loc main_arg0) :=
  (W20_of_ne m ρ c main_arg0 (by decide)).trans (W19_main_arg0 m ρ c)
theorem W21_main_arg0 (c : Dev nD) : W21 m ρ c (Proc.devRef .tc main_arg0) = m ((c : Thread nD τ).loc main_arg0) :=
  (StableHlo.after_of_forall_not_mem (b := Proc.devRef .tc main_arg0) _ _ (by not_written hostOps10)).trans (W20_main_arg0 m ρ c)
theorem W22_main_arg0 (c : Dev nD) : W22 m ρ c (Proc.devRef .tc main_arg0) = m ((c : Thread nD τ).loc main_arg0) :=
  (W22_of_ne m ρ c main_arg0 (by decide)).trans (W21_main_arg0 m ρ c)
theorem W23_main_arg0 (c : Dev nD) : W23 m ρ c (Proc.devRef .tc main_arg0) = m ((c : Thread nD τ).loc main_arg0) :=
  (StableHlo.after_of_forall_not_mem (b := Proc.devRef .tc main_arg0) _ _ (by not_written hostOps11)).trans (W22_main_arg0 m ρ c)
theorem W24_main_arg0 (c : Dev nD) : W24 m ρ c (Proc.devRef .tc main_arg0) = m ((c : Thread nD τ).loc main_arg0) :=
  (W24_of_ne m ρ c main_arg0 (by decide)).trans (W23_main_arg0 m ρ c)
theorem W25_main_arg0 (c : Dev nD) : W25 m ρ c (Proc.devRef .tc main_arg0) = m ((c : Thread nD τ).loc main_arg0) :=
  (StableHlo.after_of_forall_not_mem (b := Proc.devRef .tc main_arg0) _ _ (by not_written hostOps12)).trans (W24_main_arg0 m ρ c)
theorem W26_main_arg0 (c : Dev nD) : W26 m ρ c (Proc.devRef .tc main_arg0) = m ((c : Thread nD τ).loc main_arg0) :=
  (W26_of_ne m ρ c main_arg0 (by decide)).trans (W25_main_arg0 m ρ c)
theorem W27_main_arg0 (c : Dev nD) : W27 m ρ c (Proc.devRef .tc main_arg0) = m ((c : Thread nD τ).loc main_arg0) :=
  (StableHlo.after_of_forall_not_mem (b := Proc.devRef .tc main_arg0) _ _ (by not_written hostOps13)).trans (W26_main_arg0 m ρ c)
theorem W28_main_arg0 (c : Dev nD) : W28 m ρ c (Proc.devRef .tc main_arg0) = m ((c : Thread nD τ).loc main_arg0) :=
  (W28_of_ne m ρ c main_arg0 (by decide)).trans (W27_main_arg0 m ρ c)
theorem W29_main_arg0 (c : Dev nD) : W29 m ρ c (Proc.devRef .tc main_arg0) = m ((c : Thread nD τ).loc main_arg0) :=
  (StableHlo.after_of_forall_not_mem (b := Proc.devRef .tc main_arg0) _ _ (by not_written hostOps14)).trans (W28_main_arg0 m ρ c)
theorem W30_main_arg0 (c : Dev nD) : W30 m ρ c (Proc.devRef .tc main_arg0) = m ((c : Thread nD τ).loc main_arg0) :=
  (W30_of_ne m ρ c main_arg0 (by decide)).trans (W29_main_arg0 m ρ c)
theorem W31_main_arg0 (c : Dev nD) : W31 m ρ c (Proc.devRef .tc main_arg0) = m ((c : Thread nD τ).loc main_arg0) :=
  (StableHlo.after_of_forall_not_mem (b := Proc.devRef .tc main_arg0) _ _ (by not_written hostOps15)).trans (W30_main_arg0 m ρ c)
theorem W32_main_arg0 (c : Dev nD) : W32 m ρ c (Proc.devRef .tc main_arg0) = m ((c : Thread nD τ).loc main_arg0) :=
  (W32_of_ne m ρ c main_arg0 (by decide)).trans (W31_main_arg0 m ρ c)
theorem W33_main_arg0 (c : Dev nD) : W33 m ρ c (Proc.devRef .tc main_arg0) = m ((c : Thread nD τ).loc main_arg0) :=
  (StableHlo.after_of_forall_not_mem (b := Proc.devRef .tc main_arg0) _ _ (by not_written hostOps16)).trans (W32_main_arg0 m ρ c)
theorem W34_main_arg0 (c : Dev nD) : W34 m ρ c (Proc.devRef .tc main_arg0) = m ((c : Thread nD τ).loc main_arg0) :=
  (W34_of_ne m ρ c main_arg0 (by decide)).trans (W33_main_arg0 m ρ c)
theorem W35_main_arg0 (c : Dev nD) : W35 m ρ c (Proc.devRef .tc main_arg0) = m ((c : Thread nD τ).loc main_arg0) :=
  (StableHlo.after_of_forall_not_mem (b := Proc.devRef .tc main_arg0) _ _ (by not_written hostOps17)).trans (W34_main_arg0 m ρ c)
theorem W36_main_arg0 (c : Dev nD) : W36 m ρ c (Proc.devRef .tc main_arg0) = m ((c : Thread nD τ).loc main_arg0) :=
  (W36_of_ne m ρ c main_arg0 (by decide)).trans (W35_main_arg0 m ρ c)
theorem W37_main_arg0 (c : Dev nD) : W37 m ρ c (Proc.devRef .tc main_arg0) = m ((c : Thread nD τ).loc main_arg0) :=
  (StableHlo.after_of_forall_not_mem (b := Proc.devRef .tc main_arg0) _ _ (by not_written hostOps18)).trans (W36_main_arg0 m ρ c)
theorem W38_main_arg0 (c : Dev nD) : W38 m ρ c (Proc.devRef .tc main_arg0) = m ((c : Thread nD τ).loc main_arg0) :=
  (W38_of_ne m ρ c main_arg0 (by decide)).trans (W37_main_arg0 m ρ c)
theorem W39_main_arg0 (c : Dev nD) : W39 m ρ c (Proc.devRef .tc main_arg0) = m ((c : Thread nD τ).loc main_arg0) :=
  (StableHlo.after_of_forall_not_mem (b := Proc.devRef .tc main_arg0) _ _ (by not_written hostOps19)).trans (W38_main_arg0 m ρ c)
theorem W40_main_arg0 (c : Dev nD) : W40 m ρ c (Proc.devRef .tc main_arg0) = m ((c : Thread nD τ).loc main_arg0) :=
  (W40_of_ne m ρ c main_arg0 (by decide)).trans (W39_main_arg0 m ρ c)
theorem W41_main_arg0 (c : Dev nD) : W41 m ρ c (Proc.devRef .tc main_arg0) = m ((c : Thread nD τ).loc main_arg0) :=
  (StableHlo.after_of_forall_not_mem (b := Proc.devRef .tc main_arg0) _ _ (by not_written hostOps20)).trans (W40_main_arg0 m ρ c)
theorem W42_main_arg0 (c : Dev nD) : W42 m ρ c (Proc.devRef .tc main_arg0) = m ((c : Thread nD τ).loc main_arg0) :=
  (W42_of_ne m ρ c main_arg0 (by decide)).trans (W41_main_arg0 m ρ c)
theorem W43_main_arg0 (c : Dev nD) : W43 m ρ c (Proc.devRef .tc main_arg0) = m ((c : Thread nD τ).loc main_arg0) :=
  (StableHlo.after_of_forall_not_mem (b := Proc.devRef .tc main_arg0) _ _ (by not_written hostOps21)).trans (W42_main_arg0 m ρ c)
theorem W44_main_arg0 (c : Dev nD) : W44 m ρ c (Proc.devRef .tc main_arg0) = m ((c : Thread nD τ).loc main_arg0) :=
  (W44_of_ne m ρ c main_arg0 (by decide)).trans (W43_main_arg0 m ρ c)
theorem W45_main_arg0 (c : Dev nD) : W45 m ρ c (Proc.devRef .tc main_arg0) = m ((c : Thread nD τ).loc main_arg0) :=
  (StableHlo.after_of_forall_not_mem (b := Proc.devRef .tc main_arg0) _ _ (by not_written hostOps22)).trans (W44_main_arg0 m ρ c)
theorem W46_main_arg0 (c : Dev nD) : W46 m ρ c (Proc.devRef .tc main_arg0) = m ((c : Thread nD τ).loc main_arg0) :=
  (W46_of_ne m ρ c main_arg0 (by decide)).trans (W45_main_arg0 m ρ c)
theorem W47_main_arg0 (c : Dev nD) : W47 m ρ c (Proc.devRef .tc main_arg0) = m ((c : Thread nD τ).loc main_arg0) :=
  (StableHlo.after_of_forall_not_mem (b := Proc.devRef .tc main_arg0) _ _ (by not_written hostOps23)).trans (W46_main_arg0 m ρ c)
theorem W48_main_arg0 (c : Dev nD) : W48 m ρ c (Proc.devRef .tc main_arg0) = m ((c : Thread nD τ).loc main_arg0) :=
  (W48_of_ne m ρ c main_arg0 (by decide)).trans (W47_main_arg0 m ρ c)
theorem W49_main_arg0 (c : Dev nD) : W49 m ρ c (Proc.devRef .tc main_arg0) = m ((c : Thread nD τ).loc main_arg0) :=
  (StableHlo.after_of_forall_not_mem (b := Proc.devRef .tc main_arg0) _ _ (by not_written hostOps24)).trans (W48_main_arg0 m ρ c)
theorem W50_main_arg0 (c : Dev nD) : W50 m ρ c (Proc.devRef .tc main_arg0) = m ((c : Thread nD τ).loc main_arg0) :=
  (W50_of_ne m ρ c main_arg0 (by decide)).trans (W49_main_arg0 m ρ c)
theorem W51_main_arg0 (c : Dev nD) : W51 m ρ c (Proc.devRef .tc main_arg0) = m ((c : Thread nD τ).loc main_arg0) :=
  (StableHlo.after_of_forall_not_mem (b := Proc.devRef .tc main_arg0) _ _ (by not_written hostOps25)).trans (W50_main_arg0 m ρ c)
theorem W52_main_arg0 (c : Dev nD) : W52 m ρ c (Proc.devRef .tc main_arg0) = m ((c : Thread nD τ).loc main_arg0) :=
  (W52_of_ne m ρ c main_arg0 (by decide)).trans (W51_main_arg0 m ρ c)
theorem W53_main_arg0 (c : Dev nD) : W53 m ρ c (Proc.devRef .tc main_arg0) = m ((c : Thread nD τ).loc main_arg0) :=
  (StableHlo.after_of_forall_not_mem (b := Proc.devRef .tc main_arg0) _ _ (by not_written hostOps26)).trans (W52_main_arg0 m ρ c)
theorem W54_main_arg0 (c : Dev nD) : W54 m ρ c (Proc.devRef .tc main_arg0) = m ((c : Thread nD τ).loc main_arg0) :=
  (W54_of_ne m ρ c main_arg0 (by decide)).trans (W53_main_arg0 m ρ c)
theorem W55_main_arg0 (c : Dev nD) : W55 m ρ c (Proc.devRef .tc main_arg0) = m ((c : Thread nD τ).loc main_arg0) :=
  (StableHlo.after_of_forall_not_mem (b := Proc.devRef .tc main_arg0) _ _ (by not_written hostOps27)).trans (W54_main_arg0 m ρ c)
theorem W56_main_arg0 (c : Dev nD) : W56 m ρ c (Proc.devRef .tc main_arg0) = m ((c : Thread nD τ).loc main_arg0) :=
  (W56_of_ne m ρ c main_arg0 (by decide)).trans (W55_main_arg0 m ρ c)
theorem W57_main_arg0 (c : Dev nD) : W57 m ρ c (Proc.devRef .tc main_arg0) = m ((c : Thread nD τ).loc main_arg0) :=
  (StableHlo.after_of_forall_not_mem (b := Proc.devRef .tc main_arg0) _ _ (by not_written hostOps28)).trans (W56_main_arg0 m ρ c)
theorem W58_main_arg0 (c : Dev nD) : W58 m ρ c (Proc.devRef .tc main_arg0) = m ((c : Thread nD τ).loc main_arg0) :=
  (W58_of_ne m ρ c main_arg0 (by decide)).trans (W57_main_arg0 m ρ c)
theorem W59_main_arg0 (c : Dev nD) : W59 m ρ c (Proc.devRef .tc main_arg0) = m ((c : Thread nD τ).loc main_arg0) :=
  (StableHlo.after_of_forall_not_mem (b := Proc.devRef .tc main_arg0) _ _ (by not_written hostOps29)).trans (W58_main_arg0 m ρ c)
theorem W60_main_arg0 (c : Dev nD) : W60 m ρ c (Proc.devRef .tc main_arg0) = m ((c : Thread nD τ).loc main_arg0) :=
  (W60_of_ne m ρ c main_arg0 (by decide)).trans (W59_main_arg0 m ρ c)
theorem W61_main_arg0 (c : Dev nD) : W61 m ρ c (Proc.devRef .tc main_arg0) = m ((c : Thread nD τ).loc main_arg0) :=
  (StableHlo.after_of_forall_not_mem (b := Proc.devRef .tc main_arg0) _ _ (by not_written hostOps30)).trans (W60_main_arg0 m ρ c)
theorem W62_main_arg0 (c : Dev nD) : W62 m ρ c (Proc.devRef .tc main_arg0) = m ((c : Thread nD τ).loc main_arg0) :=
  (W62_of_ne m ρ c main_arg0 (by decide)).trans (W61_main_arg0 m ρ c)
theorem W63_main_arg0 (c : Dev nD) : W63 m ρ c (Proc.devRef .tc main_arg0) = m ((c : Thread nD τ).loc main_arg0) :=
  (StableHlo.after_of_forall_not_mem (b := Proc.devRef .tc main_arg0) _ _ (by not_written hostOps31)).trans (W62_main_arg0 m ρ c)
theorem W64_main_arg0 (c : Dev nD) : W64 m ρ c (Proc.devRef .tc main_arg0) = m ((c : Thread nD τ).loc main_arg0) :=
  (W64_of_ne m ρ c main_arg0 (by decide)).trans (W63_main_arg0 m ρ c)
theorem W65_main_arg0 (c : Dev nD) : W65 m ρ c (Proc.devRef .tc main_arg0) = m ((c : Thread nD τ).loc main_arg0) :=
  (StableHlo.after_of_forall_not_mem (b := Proc.devRef .tc main_arg0) _ _ (by not_written hostOps32)).trans (W64_main_arg0 m ρ c)
theorem W66_main_arg0 (c : Dev nD) : W66 m ρ c (Proc.devRef .tc main_arg0) = m ((c : Thread nD τ).loc main_arg0) :=
  (W66_of_ne m ρ c main_arg0 (by decide)).trans (W65_main_arg0 m ρ c)
theorem W67_main_arg0 (c : Dev nD) : W67 m ρ c (Proc.devRef .tc main_arg0) = m ((c : Thread nD τ).loc main_arg0) :=
  (StableHlo.after_of_forall_not_mem (b := Proc.devRef .tc main_arg0) _ _ (by not_written hostOps33)).trans (W66_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (StableHlo.after_of_forall_not_mem (b := Proc.devRef .tc main_arg1) _ _ (by not_written hostOps0)).trans (W0_main_arg1 m ρ c)
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written hostOps1)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (by not_written hostOps2)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_forall_not_mem (b := Proc.devRef .tc main_arg1) _ _ (by not_written hostOps3)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (StableHlo.after_of_forall_not_mem (b := Proc.devRef .tc main_arg1) _ _ (by not_written hostOps4)).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (StableHlo.after_of_forall_not_mem (b := Proc.devRef .tc main_arg1) _ _ (by not_written hostOps5)).trans (W10_main_arg1 m ρ c)
theorem W12_main_arg1 (c : Dev nD) : W12 m ρ c (Proc.devRef .tc main_arg1) = m ((c : Thread nD τ).loc main_arg1) :=
  (W12_of_ne m ρ c main_arg1 (by decide)).trans (W11_main_arg1 m ρ c)
theorem W13_main_arg1 (c : Dev nD) : W13 m ρ c (Proc.devRef .tc main_arg1) = m ((c : Thread nD τ).loc main_arg1) :=
  (StableHlo.after_of_forall_not_mem (b := Proc.devRef .tc main_arg1) _ _ (by not_written hostOps6)).trans (W12_main_arg1 m ρ c)
theorem W14_main_arg1 (c : Dev nD) : W14 m ρ c (Proc.devRef .tc main_arg1) = m ((c : Thread nD τ).loc main_arg1) :=
  (W14_of_ne m ρ c main_arg1 (by decide)).trans (W13_main_arg1 m ρ c)
theorem W15_main_arg1 (c : Dev nD) : W15 m ρ c (Proc.devRef .tc main_arg1) = m ((c : Thread nD τ).loc main_arg1) :=
  (StableHlo.after_of_forall_not_mem (b := Proc.devRef .tc main_arg1) _ _ (by not_written hostOps7)).trans (W14_main_arg1 m ρ c)
theorem W16_main_arg1 (c : Dev nD) : W16 m ρ c (Proc.devRef .tc main_arg1) = m ((c : Thread nD τ).loc main_arg1) :=
  (W16_of_ne m ρ c main_arg1 (by decide)).trans (W15_main_arg1 m ρ c)
theorem W17_main_arg1 (c : Dev nD) : W17 m ρ c (Proc.devRef .tc main_arg1) = m ((c : Thread nD τ).loc main_arg1) :=
  (StableHlo.after_of_forall_not_mem (b := Proc.devRef .tc main_arg1) _ _ (by not_written hostOps8)).trans (W16_main_arg1 m ρ c)
theorem W18_main_arg1 (c : Dev nD) : W18 m ρ c (Proc.devRef .tc main_arg1) = m ((c : Thread nD τ).loc main_arg1) :=
  (W18_of_ne m ρ c main_arg1 (by decide)).trans (W17_main_arg1 m ρ c)
theorem W19_main_arg1 (c : Dev nD) : W19 m ρ c (Proc.devRef .tc main_arg1) = m ((c : Thread nD τ).loc main_arg1) :=
  (StableHlo.after_of_forall_not_mem (b := Proc.devRef .tc main_arg1) _ _ (by not_written hostOps9)).trans (W18_main_arg1 m ρ c)
theorem W20_main_arg1 (c : Dev nD) : W20 m ρ c (Proc.devRef .tc main_arg1) = m ((c : Thread nD τ).loc main_arg1) :=
  (W20_of_ne m ρ c main_arg1 (by decide)).trans (W19_main_arg1 m ρ c)
theorem W21_main_arg1 (c : Dev nD) : W21 m ρ c (Proc.devRef .tc main_arg1) = m ((c : Thread nD τ).loc main_arg1) :=
  (StableHlo.after_of_forall_not_mem (b := Proc.devRef .tc main_arg1) _ _ (by not_written hostOps10)).trans (W20_main_arg1 m ρ c)
theorem W22_main_arg1 (c : Dev nD) : W22 m ρ c (Proc.devRef .tc main_arg1) = m ((c : Thread nD τ).loc main_arg1) :=
  (W22_of_ne m ρ c main_arg1 (by decide)).trans (W21_main_arg1 m ρ c)
theorem W23_main_arg1 (c : Dev nD) : W23 m ρ c (Proc.devRef .tc main_arg1) = m ((c : Thread nD τ).loc main_arg1) :=
  (StableHlo.after_of_forall_not_mem (b := Proc.devRef .tc main_arg1) _ _ (by not_written hostOps11)).trans (W22_main_arg1 m ρ c)
theorem W24_main_arg1 (c : Dev nD) : W24 m ρ c (Proc.devRef .tc main_arg1) = m ((c : Thread nD τ).loc main_arg1) :=
  (W24_of_ne m ρ c main_arg1 (by decide)).trans (W23_main_arg1 m ρ c)
theorem W25_main_arg1 (c : Dev nD) : W25 m ρ c (Proc.devRef .tc main_arg1) = m ((c : Thread nD τ).loc main_arg1) :=
  (StableHlo.after_of_forall_not_mem (b := Proc.devRef .tc main_arg1) _ _ (by not_written hostOps12)).trans (W24_main_arg1 m ρ c)
theorem W26_main_arg1 (c : Dev nD) : W26 m ρ c (Proc.devRef .tc main_arg1) = m ((c : Thread nD τ).loc main_arg1) :=
  (W26_of_ne m ρ c main_arg1 (by decide)).trans (W25_main_arg1 m ρ c)
theorem W27_main_arg1 (c : Dev nD) : W27 m ρ c (Proc.devRef .tc main_arg1) = m ((c : Thread nD τ).loc main_arg1) :=
  (StableHlo.after_of_forall_not_mem (b := Proc.devRef .tc main_arg1) _ _ (by not_written hostOps13)).trans (W26_main_arg1 m ρ c)
theorem W28_main_arg1 (c : Dev nD) : W28 m ρ c (Proc.devRef .tc main_arg1) = m ((c : Thread nD τ).loc main_arg1) :=
  (W28_of_ne m ρ c main_arg1 (by decide)).trans (W27_main_arg1 m ρ c)
theorem W29_main_arg1 (c : Dev nD) : W29 m ρ c (Proc.devRef .tc main_arg1) = m ((c : Thread nD τ).loc main_arg1) :=
  (StableHlo.after_of_forall_not_mem (b := Proc.devRef .tc main_arg1) _ _ (by not_written hostOps14)).trans (W28_main_arg1 m ρ c)
theorem W30_main_arg1 (c : Dev nD) : W30 m ρ c (Proc.devRef .tc main_arg1) = m ((c : Thread nD τ).loc main_arg1) :=
  (W30_of_ne m ρ c main_arg1 (by decide)).trans (W29_main_arg1 m ρ c)
theorem W31_main_arg1 (c : Dev nD) : W31 m ρ c (Proc.devRef .tc main_arg1) = m ((c : Thread nD τ).loc main_arg1) :=
  (StableHlo.after_of_forall_not_mem (b := Proc.devRef .tc main_arg1) _ _ (by not_written hostOps15)).trans (W30_main_arg1 m ρ c)
theorem W32_main_arg1 (c : Dev nD) : W32 m ρ c (Proc.devRef .tc main_arg1) = m ((c : Thread nD τ).loc main_arg1) :=
  (W32_of_ne m ρ c main_arg1 (by decide)).trans (W31_main_arg1 m ρ c)
theorem W33_main_arg1 (c : Dev nD) : W33 m ρ c (Proc.devRef .tc main_arg1) = m ((c : Thread nD τ).loc main_arg1) :=
  (StableHlo.after_of_forall_not_mem (b := Proc.devRef .tc main_arg1) _ _ (by not_written hostOps16)).trans (W32_main_arg1 m ρ c)
theorem W34_main_arg1 (c : Dev nD) : W34 m ρ c (Proc.devRef .tc main_arg1) = m ((c : Thread nD τ).loc main_arg1) :=
  (W34_of_ne m ρ c main_arg1 (by decide)).trans (W33_main_arg1 m ρ c)
theorem W35_main_arg1 (c : Dev nD) : W35 m ρ c (Proc.devRef .tc main_arg1) = m ((c : Thread nD τ).loc main_arg1) :=
  (StableHlo.after_of_forall_not_mem (b := Proc.devRef .tc main_arg1) _ _ (by not_written hostOps17)).trans (W34_main_arg1 m ρ c)
theorem W36_main_arg1 (c : Dev nD) : W36 m ρ c (Proc.devRef .tc main_arg1) = m ((c : Thread nD τ).loc main_arg1) :=
  (W36_of_ne m ρ c main_arg1 (by decide)).trans (W35_main_arg1 m ρ c)
theorem W37_main_arg1 (c : Dev nD) : W37 m ρ c (Proc.devRef .tc main_arg1) = m ((c : Thread nD τ).loc main_arg1) :=
  (StableHlo.after_of_forall_not_mem (b := Proc.devRef .tc main_arg1) _ _ (by not_written hostOps18)).trans (W36_main_arg1 m ρ c)
theorem W38_main_arg1 (c : Dev nD) : W38 m ρ c (Proc.devRef .tc main_arg1) = m ((c : Thread nD τ).loc main_arg1) :=
  (W38_of_ne m ρ c main_arg1 (by decide)).trans (W37_main_arg1 m ρ c)
theorem W39_main_arg1 (c : Dev nD) : W39 m ρ c (Proc.devRef .tc main_arg1) = m ((c : Thread nD τ).loc main_arg1) :=
  (StableHlo.after_of_forall_not_mem (b := Proc.devRef .tc main_arg1) _ _ (by not_written hostOps19)).trans (W38_main_arg1 m ρ c)
theorem W40_main_arg1 (c : Dev nD) : W40 m ρ c (Proc.devRef .tc main_arg1) = m ((c : Thread nD τ).loc main_arg1) :=
  (W40_of_ne m ρ c main_arg1 (by decide)).trans (W39_main_arg1 m ρ c)
theorem W41_main_arg1 (c : Dev nD) : W41 m ρ c (Proc.devRef .tc main_arg1) = m ((c : Thread nD τ).loc main_arg1) :=
  (StableHlo.after_of_forall_not_mem (b := Proc.devRef .tc main_arg1) _ _ (by not_written hostOps20)).trans (W40_main_arg1 m ρ c)
theorem W42_main_arg1 (c : Dev nD) : W42 m ρ c (Proc.devRef .tc main_arg1) = m ((c : Thread nD τ).loc main_arg1) :=
  (W42_of_ne m ρ c main_arg1 (by decide)).trans (W41_main_arg1 m ρ c)
theorem W43_main_arg1 (c : Dev nD) : W43 m ρ c (Proc.devRef .tc main_arg1) = m ((c : Thread nD τ).loc main_arg1) :=
  (StableHlo.after_of_forall_not_mem (b := Proc.devRef .tc main_arg1) _ _ (by not_written hostOps21)).trans (W42_main_arg1 m ρ c)
theorem W44_main_arg1 (c : Dev nD) : W44 m ρ c (Proc.devRef .tc main_arg1) = m ((c : Thread nD τ).loc main_arg1) :=
  (W44_of_ne m ρ c main_arg1 (by decide)).trans (W43_main_arg1 m ρ c)
theorem W45_main_arg1 (c : Dev nD) : W45 m ρ c (Proc.devRef .tc main_arg1) = m ((c : Thread nD τ).loc main_arg1) :=
  (StableHlo.after_of_forall_not_mem (b := Proc.devRef .tc main_arg1) _ _ (by not_written hostOps22)).trans (W44_main_arg1 m ρ c)
theorem W46_main_arg1 (c : Dev nD) : W46 m ρ c (Proc.devRef .tc main_arg1) = m ((c : Thread nD τ).loc main_arg1) :=
  (W46_of_ne m ρ c main_arg1 (by decide)).trans (W45_main_arg1 m ρ c)
theorem W47_main_arg1 (c : Dev nD) : W47 m ρ c (Proc.devRef .tc main_arg1) = m ((c : Thread nD τ).loc main_arg1) :=
  (StableHlo.after_of_forall_not_mem (b := Proc.devRef .tc main_arg1) _ _ (by not_written hostOps23)).trans (W46_main_arg1 m ρ c)
theorem W48_main_arg1 (c : Dev nD) : W48 m ρ c (Proc.devRef .tc main_arg1) = m ((c : Thread nD τ).loc main_arg1) :=
  (W48_of_ne m ρ c main_arg1 (by decide)).trans (W47_main_arg1 m ρ c)
theorem W49_main_arg1 (c : Dev nD) : W49 m ρ c (Proc.devRef .tc main_arg1) = m ((c : Thread nD τ).loc main_arg1) :=
  (StableHlo.after_of_forall_not_mem (b := Proc.devRef .tc main_arg1) _ _ (by not_written hostOps24)).trans (W48_main_arg1 m ρ c)
theorem W50_main_arg1 (c : Dev nD) : W50 m ρ c (Proc.devRef .tc main_arg1) = m ((c : Thread nD τ).loc main_arg1) :=
  (W50_of_ne m ρ c main_arg1 (by decide)).trans (W49_main_arg1 m ρ c)
theorem W51_main_arg1 (c : Dev nD) : W51 m ρ c (Proc.devRef .tc main_arg1) = m ((c : Thread nD τ).loc main_arg1) :=
  (StableHlo.after_of_forall_not_mem (b := Proc.devRef .tc main_arg1) _ _ (by not_written hostOps25)).trans (W50_main_arg1 m ρ c)
theorem W52_main_arg1 (c : Dev nD) : W52 m ρ c (Proc.devRef .tc main_arg1) = m ((c : Thread nD τ).loc main_arg1) :=
  (W52_of_ne m ρ c main_arg1 (by decide)).trans (W51_main_arg1 m ρ c)
theorem W53_main_arg1 (c : Dev nD) : W53 m ρ c (Proc.devRef .tc main_arg1) = m ((c : Thread nD τ).loc main_arg1) :=
  (StableHlo.after_of_forall_not_mem (b := Proc.devRef .tc main_arg1) _ _ (by not_written hostOps26)).trans (W52_main_arg1 m ρ c)
theorem W54_main_arg1 (c : Dev nD) : W54 m ρ c (Proc.devRef .tc main_arg1) = m ((c : Thread nD τ).loc main_arg1) :=
  (W54_of_ne m ρ c main_arg1 (by decide)).trans (W53_main_arg1 m ρ c)
theorem W55_main_arg1 (c : Dev nD) : W55 m ρ c (Proc.devRef .tc main_arg1) = m ((c : Thread nD τ).loc main_arg1) :=
  (StableHlo.after_of_forall_not_mem (b := Proc.devRef .tc main_arg1) _ _ (by not_written hostOps27)).trans (W54_main_arg1 m ρ c)
theorem W56_main_arg1 (c : Dev nD) : W56 m ρ c (Proc.devRef .tc main_arg1) = m ((c : Thread nD τ).loc main_arg1) :=
  (W56_of_ne m ρ c main_arg1 (by decide)).trans (W55_main_arg1 m ρ c)
theorem W57_main_arg1 (c : Dev nD) : W57 m ρ c (Proc.devRef .tc main_arg1) = m ((c : Thread nD τ).loc main_arg1) :=
  (StableHlo.after_of_forall_not_mem (b := Proc.devRef .tc main_arg1) _ _ (by not_written hostOps28)).trans (W56_main_arg1 m ρ c)
theorem W58_main_arg1 (c : Dev nD) : W58 m ρ c (Proc.devRef .tc main_arg1) = m ((c : Thread nD τ).loc main_arg1) :=
  (W58_of_ne m ρ c main_arg1 (by decide)).trans (W57_main_arg1 m ρ c)
theorem W59_main_arg1 (c : Dev nD) : W59 m ρ c (Proc.devRef .tc main_arg1) = m ((c : Thread nD τ).loc main_arg1) :=
  (StableHlo.after_of_forall_not_mem (b := Proc.devRef .tc main_arg1) _ _ (by not_written hostOps29)).trans (W58_main_arg1 m ρ c)
theorem W60_main_arg1 (c : Dev nD) : W60 m ρ c (Proc.devRef .tc main_arg1) = m ((c : Thread nD τ).loc main_arg1) :=
  (W60_of_ne m ρ c main_arg1 (by decide)).trans (W59_main_arg1 m ρ c)
theorem W61_main_arg1 (c : Dev nD) : W61 m ρ c (Proc.devRef .tc main_arg1) = m ((c : Thread nD τ).loc main_arg1) :=
  (StableHlo.after_of_forall_not_mem (b := Proc.devRef .tc main_arg1) _ _ (by not_written hostOps30)).trans (W60_main_arg1 m ρ c)
theorem W62_main_arg1 (c : Dev nD) : W62 m ρ c (Proc.devRef .tc main_arg1) = m ((c : Thread nD τ).loc main_arg1) :=
  (W62_of_ne m ρ c main_arg1 (by decide)).trans (W61_main_arg1 m ρ c)
theorem W63_main_arg1 (c : Dev nD) : W63 m ρ c (Proc.devRef .tc main_arg1) = m ((c : Thread nD τ).loc main_arg1) :=
  (StableHlo.after_of_forall_not_mem (b := Proc.devRef .tc main_arg1) _ _ (by not_written hostOps31)).trans (W62_main_arg1 m ρ c)
theorem W64_main_arg1 (c : Dev nD) : W64 m ρ c (Proc.devRef .tc main_arg1) = m ((c : Thread nD τ).loc main_arg1) :=
  (W64_of_ne m ρ c main_arg1 (by decide)).trans (W63_main_arg1 m ρ c)
theorem W65_main_arg1 (c : Dev nD) : W65 m ρ c (Proc.devRef .tc main_arg1) = m ((c : Thread nD τ).loc main_arg1) :=
  (StableHlo.after_of_forall_not_mem (b := Proc.devRef .tc main_arg1) _ _ (by not_written hostOps32)).trans (W64_main_arg1 m ρ c)
theorem W66_main_arg1 (c : Dev nD) : W66 m ρ c (Proc.devRef .tc main_arg1) = m ((c : Thread nD τ).loc main_arg1) :=
  (W66_of_ne m ρ c main_arg1 (by decide)).trans (W65_main_arg1 m ρ c)
theorem W67_main_arg1 (c : Dev nD) : W67 m ρ c (Proc.devRef .tc main_arg1) = m ((c : Thread nD τ).loc main_arg1) :=
  (StableHlo.after_of_forall_not_mem (b := Proc.devRef .tc main_arg1) _ _ (by not_written hostOps33)).trans (W66_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (StableHlo.after_of_forall_not_mem (b := Proc.devRef .tc main_arg2) _ _ (by not_written hostOps0)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written hostOps1)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (by not_written hostOps2)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_forall_not_mem (b := Proc.devRef .tc main_arg2) _ _ (by not_written hostOps3)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (StableHlo.after_of_forall_not_mem (b := Proc.devRef .tc main_arg2) _ _ (by not_written hostOps4)).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (StableHlo.after_of_forall_not_mem (b := Proc.devRef .tc main_arg2) _ _ (by not_written hostOps5)).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W13_main_arg2 (c : Dev nD) : W13 m ρ c (Proc.devRef .tc main_arg2) = m ((c : Thread nD τ).loc main_arg2) :=
  (StableHlo.after_of_forall_not_mem (b := Proc.devRef .tc main_arg2) _ _ (by not_written hostOps6)).trans (W12_main_arg2 m ρ c)
theorem W14_main_arg2 (c : Dev nD) : W14 m ρ c (Proc.devRef .tc main_arg2) = m ((c : Thread nD τ).loc main_arg2) :=
  (W14_of_ne m ρ c main_arg2 (by decide)).trans (W13_main_arg2 m ρ c)
theorem W15_main_arg2 (c : Dev nD) : W15 m ρ c (Proc.devRef .tc main_arg2) = m ((c : Thread nD τ).loc main_arg2) :=
  (StableHlo.after_of_forall_not_mem (b := Proc.devRef .tc main_arg2) _ _ (by not_written hostOps7)).trans (W14_main_arg2 m ρ c)
theorem W16_main_arg2 (c : Dev nD) : W16 m ρ c (Proc.devRef .tc main_arg2) = m ((c : Thread nD τ).loc main_arg2) :=
  (W16_of_ne m ρ c main_arg2 (by decide)).trans (W15_main_arg2 m ρ c)
theorem W17_main_arg2 (c : Dev nD) : W17 m ρ c (Proc.devRef .tc main_arg2) = m ((c : Thread nD τ).loc main_arg2) :=
  (StableHlo.after_of_forall_not_mem (b := Proc.devRef .tc main_arg2) _ _ (by not_written hostOps8)).trans (W16_main_arg2 m ρ c)
theorem W18_main_arg2 (c : Dev nD) : W18 m ρ c (Proc.devRef .tc main_arg2) = m ((c : Thread nD τ).loc main_arg2) :=
  (W18_of_ne m ρ c main_arg2 (by decide)).trans (W17_main_arg2 m ρ c)
theorem W19_main_arg2 (c : Dev nD) : W19 m ρ c (Proc.devRef .tc main_arg2) = m ((c : Thread nD τ).loc main_arg2) :=
  (StableHlo.after_of_forall_not_mem (b := Proc.devRef .tc main_arg2) _ _ (by not_written hostOps9)).trans (W18_main_arg2 m ρ c)
theorem W20_main_arg2 (c : Dev nD) : W20 m ρ c (Proc.devRef .tc main_arg2) = m ((c : Thread nD τ).loc main_arg2) :=
  (W20_of_ne m ρ c main_arg2 (by decide)).trans (W19_main_arg2 m ρ c)
theorem W21_main_arg2 (c : Dev nD) : W21 m ρ c (Proc.devRef .tc main_arg2) = m ((c : Thread nD τ).loc main_arg2) :=
  (StableHlo.after_of_forall_not_mem (b := Proc.devRef .tc main_arg2) _ _ (by not_written hostOps10)).trans (W20_main_arg2 m ρ c)
theorem W22_main_arg2 (c : Dev nD) : W22 m ρ c (Proc.devRef .tc main_arg2) = m ((c : Thread nD τ).loc main_arg2) :=
  (W22_of_ne m ρ c main_arg2 (by decide)).trans (W21_main_arg2 m ρ c)
theorem W23_main_arg2 (c : Dev nD) : W23 m ρ c (Proc.devRef .tc main_arg2) = m ((c : Thread nD τ).loc main_arg2) :=
  (StableHlo.after_of_forall_not_mem (b := Proc.devRef .tc main_arg2) _ _ (by not_written hostOps11)).trans (W22_main_arg2 m ρ c)
theorem W24_main_arg2 (c : Dev nD) : W24 m ρ c (Proc.devRef .tc main_arg2) = m ((c : Thread nD τ).loc main_arg2) :=
  (W24_of_ne m ρ c main_arg2 (by decide)).trans (W23_main_arg2 m ρ c)
theorem W25_main_arg2 (c : Dev nD) : W25 m ρ c (Proc.devRef .tc main_arg2) = m ((c : Thread nD τ).loc main_arg2) :=
  (StableHlo.after_of_forall_not_mem (b := Proc.devRef .tc main_arg2) _ _ (by not_written hostOps12)).trans (W24_main_arg2 m ρ c)
theorem W26_main_arg2 (c : Dev nD) : W26 m ρ c (Proc.devRef .tc main_arg2) = m ((c : Thread nD τ).loc main_arg2) :=
  (W26_of_ne m ρ c main_arg2 (by decide)).trans (W25_main_arg2 m ρ c)
theorem W27_main_arg2 (c : Dev nD) : W27 m ρ c (Proc.devRef .tc main_arg2) = m ((c : Thread nD τ).loc main_arg2) :=
  (StableHlo.after_of_forall_not_mem (b := Proc.devRef .tc main_arg2) _ _ (by not_written hostOps13)).trans (W26_main_arg2 m ρ c)
theorem W28_main_arg2 (c : Dev nD) : W28 m ρ c (Proc.devRef .tc main_arg2) = m ((c : Thread nD τ).loc main_arg2) :=
  (W28_of_ne m ρ c main_arg2 (by decide)).trans (W27_main_arg2 m ρ c)
theorem W29_main_arg2 (c : Dev nD) : W29 m ρ c (Proc.devRef .tc main_arg2) = m ((c : Thread nD τ).loc main_arg2) :=
  (StableHlo.after_of_forall_not_mem (b := Proc.devRef .tc main_arg2) _ _ (by not_written hostOps14)).trans (W28_main_arg2 m ρ c)
theorem W30_main_arg2 (c : Dev nD) : W30 m ρ c (Proc.devRef .tc main_arg2) = m ((c : Thread nD τ).loc main_arg2) :=
  (W30_of_ne m ρ c main_arg2 (by decide)).trans (W29_main_arg2 m ρ c)
theorem W31_main_arg2 (c : Dev nD) : W31 m ρ c (Proc.devRef .tc main_arg2) = m ((c : Thread nD τ).loc main_arg2) :=
  (StableHlo.after_of_forall_not_mem (b := Proc.devRef .tc main_arg2) _ _ (by not_written hostOps15)).trans (W30_main_arg2 m ρ c)
theorem W32_main_arg2 (c : Dev nD) : W32 m ρ c (Proc.devRef .tc main_arg2) = m ((c : Thread nD τ).loc main_arg2) :=
  (W32_of_ne m ρ c main_arg2 (by decide)).trans (W31_main_arg2 m ρ c)
theorem W33_main_arg2 (c : Dev nD) : W33 m ρ c (Proc.devRef .tc main_arg2) = m ((c : Thread nD τ).loc main_arg2) :=
  (StableHlo.after_of_forall_not_mem (b := Proc.devRef .tc main_arg2) _ _ (by not_written hostOps16)).trans (W32_main_arg2 m ρ c)
theorem W34_main_arg2 (c : Dev nD) : W34 m ρ c (Proc.devRef .tc main_arg2) = m ((c : Thread nD τ).loc main_arg2) :=
  (W34_of_ne m ρ c main_arg2 (by decide)).trans (W33_main_arg2 m ρ c)
theorem W35_main_arg2 (c : Dev nD) : W35 m ρ c (Proc.devRef .tc main_arg2) = m ((c : Thread nD τ).loc main_arg2) :=
  (StableHlo.after_of_forall_not_mem (b := Proc.devRef .tc main_arg2) _ _ (by not_written hostOps17)).trans (W34_main_arg2 m ρ c)
theorem W36_main_arg2 (c : Dev nD) : W36 m ρ c (Proc.devRef .tc main_arg2) = m ((c : Thread nD τ).loc main_arg2) :=
  (W36_of_ne m ρ c main_arg2 (by decide)).trans (W35_main_arg2 m ρ c)
theorem W37_main_arg2 (c : Dev nD) : W37 m ρ c (Proc.devRef .tc main_arg2) = m ((c : Thread nD τ).loc main_arg2) :=
  (StableHlo.after_of_forall_not_mem (b := Proc.devRef .tc main_arg2) _ _ (by not_written hostOps18)).trans (W36_main_arg2 m ρ c)
theorem W38_main_arg2 (c : Dev nD) : W38 m ρ c (Proc.devRef .tc main_arg2) = m ((c : Thread nD τ).loc main_arg2) :=
  (W38_of_ne m ρ c main_arg2 (by decide)).trans (W37_main_arg2 m ρ c)
theorem W39_main_arg2 (c : Dev nD) : W39 m ρ c (Proc.devRef .tc main_arg2) = m ((c : Thread nD τ).loc main_arg2) :=
  (StableHlo.after_of_forall_not_mem (b := Proc.devRef .tc main_arg2) _ _ (by not_written hostOps19)).trans (W38_main_arg2 m ρ c)
theorem W40_main_arg2 (c : Dev nD) : W40 m ρ c (Proc.devRef .tc main_arg2) = m ((c : Thread nD τ).loc main_arg2) :=
  (W40_of_ne m ρ c main_arg2 (by decide)).trans (W39_main_arg2 m ρ c)
theorem W41_main_arg2 (c : Dev nD) : W41 m ρ c (Proc.devRef .tc main_arg2) = m ((c : Thread nD τ).loc main_arg2) :=
  (StableHlo.after_of_forall_not_mem (b := Proc.devRef .tc main_arg2) _ _ (by not_written hostOps20)).trans (W40_main_arg2 m ρ c)
theorem W42_main_arg2 (c : Dev nD) : W42 m ρ c (Proc.devRef .tc main_arg2) = m ((c : Thread nD τ).loc main_arg2) :=
  (W42_of_ne m ρ c main_arg2 (by decide)).trans (W41_main_arg2 m ρ c)
theorem W43_main_arg2 (c : Dev nD) : W43 m ρ c (Proc.devRef .tc main_arg2) = m ((c : Thread nD τ).loc main_arg2) :=
  (StableHlo.after_of_forall_not_mem (b := Proc.devRef .tc main_arg2) _ _ (by not_written hostOps21)).trans (W42_main_arg2 m ρ c)
theorem W44_main_arg2 (c : Dev nD) : W44 m ρ c (Proc.devRef .tc main_arg2) = m ((c : Thread nD τ).loc main_arg2) :=
  (W44_of_ne m ρ c main_arg2 (by decide)).trans (W43_main_arg2 m ρ c)
theorem W45_main_arg2 (c : Dev nD) : W45 m ρ c (Proc.devRef .tc main_arg2) = m ((c : Thread nD τ).loc main_arg2) :=
  (StableHlo.after_of_forall_not_mem (b := Proc.devRef .tc main_arg2) _ _ (by not_written hostOps22)).trans (W44_main_arg2 m ρ c)
theorem W46_main_arg2 (c : Dev nD) : W46 m ρ c (Proc.devRef .tc main_arg2) = m ((c : Thread nD τ).loc main_arg2) :=
  (W46_of_ne m ρ c main_arg2 (by decide)).trans (W45_main_arg2 m ρ c)
theorem W47_main_arg2 (c : Dev nD) : W47 m ρ c (Proc.devRef .tc main_arg2) = m ((c : Thread nD τ).loc main_arg2) :=
  (StableHlo.after_of_forall_not_mem (b := Proc.devRef .tc main_arg2) _ _ (by not_written hostOps23)).trans (W46_main_arg2 m ρ c)
theorem W48_main_arg2 (c : Dev nD) : W48 m ρ c (Proc.devRef .tc main_arg2) = m ((c : Thread nD τ).loc main_arg2) :=
  (W48_of_ne m ρ c main_arg2 (by decide)).trans (W47_main_arg2 m ρ c)
theorem W49_main_arg2 (c : Dev nD) : W49 m ρ c (Proc.devRef .tc main_arg2) = m ((c : Thread nD τ).loc main_arg2) :=
  (StableHlo.after_of_forall_not_mem (b := Proc.devRef .tc main_arg2) _ _ (by not_written hostOps24)).trans (W48_main_arg2 m ρ c)
theorem W50_main_arg2 (c : Dev nD) : W50 m ρ c (Proc.devRef .tc main_arg2) = m ((c : Thread nD τ).loc main_arg2) :=
  (W50_of_ne m ρ c main_arg2 (by decide)).trans (W49_main_arg2 m ρ c)
theorem W51_main_arg2 (c : Dev nD) : W51 m ρ c (Proc.devRef .tc main_arg2) = m ((c : Thread nD τ).loc main_arg2) :=
  (StableHlo.after_of_forall_not_mem (b := Proc.devRef .tc main_arg2) _ _ (by not_written hostOps25)).trans (W50_main_arg2 m ρ c)
theorem W52_main_arg2 (c : Dev nD) : W52 m ρ c (Proc.devRef .tc main_arg2) = m ((c : Thread nD τ).loc main_arg2) :=
  (W52_of_ne m ρ c main_arg2 (by decide)).trans (W51_main_arg2 m ρ c)
theorem W53_main_arg2 (c : Dev nD) : W53 m ρ c (Proc.devRef .tc main_arg2) = m ((c : Thread nD τ).loc main_arg2) :=
  (StableHlo.after_of_forall_not_mem (b := Proc.devRef .tc main_arg2) _ _ (by not_written hostOps26)).trans (W52_main_arg2 m ρ c)
theorem W54_main_arg2 (c : Dev nD) : W54 m ρ c (Proc.devRef .tc main_arg2) = m ((c : Thread nD τ).loc main_arg2) :=
  (W54_of_ne m ρ c main_arg2 (by decide)).trans (W53_main_arg2 m ρ c)
theorem W55_main_arg2 (c : Dev nD) : W55 m ρ c (Proc.devRef .tc main_arg2) = m ((c : Thread nD τ).loc main_arg2) :=
  (StableHlo.after_of_forall_not_mem (b := Proc.devRef .tc main_arg2) _ _ (by not_written hostOps27)).trans (W54_main_arg2 m ρ c)
theorem W56_main_arg2 (c : Dev nD) : W56 m ρ c (Proc.devRef .tc main_arg2) = m ((c : Thread nD τ).loc main_arg2) :=
  (W56_of_ne m ρ c main_arg2 (by decide)).trans (W55_main_arg2 m ρ c)
theorem W57_main_arg2 (c : Dev nD) : W57 m ρ c (Proc.devRef .tc main_arg2) = m ((c : Thread nD τ).loc main_arg2) :=
  (StableHlo.after_of_forall_not_mem (b := Proc.devRef .tc main_arg2) _ _ (by not_written hostOps28)).trans (W56_main_arg2 m ρ c)
theorem W58_main_arg2 (c : Dev nD) : W58 m ρ c (Proc.devRef .tc main_arg2) = m ((c : Thread nD τ).loc main_arg2) :=
  (W58_of_ne m ρ c main_arg2 (by decide)).trans (W57_main_arg2 m ρ c)
theorem W59_main_arg2 (c : Dev nD) : W59 m ρ c (Proc.devRef .tc main_arg2) = m ((c : Thread nD τ).loc main_arg2) :=
  (StableHlo.after_of_forall_not_mem (b := Proc.devRef .tc main_arg2) _ _ (by not_written hostOps29)).trans (W58_main_arg2 m ρ c)
theorem W60_main_arg2 (c : Dev nD) : W60 m ρ c (Proc.devRef .tc main_arg2) = m ((c : Thread nD τ).loc main_arg2) :=
  (W60_of_ne m ρ c main_arg2 (by decide)).trans (W59_main_arg2 m ρ c)
theorem W61_main_arg2 (c : Dev nD) : W61 m ρ c (Proc.devRef .tc main_arg2) = m ((c : Thread nD τ).loc main_arg2) :=
  (StableHlo.after_of_forall_not_mem (b := Proc.devRef .tc main_arg2) _ _ (by not_written hostOps30)).trans (W60_main_arg2 m ρ c)
theorem W62_main_arg2 (c : Dev nD) : W62 m ρ c (Proc.devRef .tc main_arg2) = m ((c : Thread nD τ).loc main_arg2) :=
  (W62_of_ne m ρ c main_arg2 (by decide)).trans (W61_main_arg2 m ρ c)
theorem W63_main_arg2 (c : Dev nD) : W63 m ρ c (Proc.devRef .tc main_arg2) = m ((c : Thread nD τ).loc main_arg2) :=
  (StableHlo.after_of_forall_not_mem (b := Proc.devRef .tc main_arg2) _ _ (by not_written hostOps31)).trans (W62_main_arg2 m ρ c)
theorem W64_main_arg2 (c : Dev nD) : W64 m ρ c (Proc.devRef .tc main_arg2) = m ((c : Thread nD τ).loc main_arg2) :=
  (W64_of_ne m ρ c main_arg2 (by decide)).trans (W63_main_arg2 m ρ c)
theorem W65_main_arg2 (c : Dev nD) : W65 m ρ c (Proc.devRef .tc main_arg2) = m ((c : Thread nD τ).loc main_arg2) :=
  (StableHlo.after_of_forall_not_mem (b := Proc.devRef .tc main_arg2) _ _ (by not_written hostOps32)).trans (W64_main_arg2 m ρ c)
theorem W66_main_arg2 (c : Dev nD) : W66 m ρ c (Proc.devRef .tc main_arg2) = m ((c : Thread nD τ).loc main_arg2) :=
  (W66_of_ne m ρ c main_arg2 (by decide)).trans (W65_main_arg2 m ρ c)
theorem W67_main_arg2 (c : Dev nD) : W67 m ρ c (Proc.devRef .tc main_arg2) = m ((c : Thread nD τ).loc main_arg2) :=
  (StableHlo.after_of_forall_not_mem (b := Proc.devRef .tc main_arg2) _ _ (by not_written hostOps33)).trans (W66_main_arg2 m ρ c)

/-! ## The proof data family and the thread state -/

/-- The prefetched tables' admissible contents: no pipeline has a table. -/
abbrev adm : (p : Fin 33) → (pcfgs (F := F) p).Adm := fun p => (cfgs p).toPCfg_adm
/-- Every pipeline's proof data, each at the contents its region is entered from — a literal match, so that the
    configuration pinned at a numeral reduces to the printed one. -/
noncomputable def pdats : (p : Fin 33) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨17, _⟩ => fun c => dat17 (V35 m ρ) c
  | ⟨18, _⟩ => fun c => dat18 (V37 m ρ) c
  | ⟨19, _⟩ => fun c => dat19 (V39 m ρ) c
  | ⟨20, _⟩ => fun c => dat20 (V41 m ρ) c
  | ⟨21, _⟩ => fun c => dat21 (V43 m ρ) c
  | ⟨22, _⟩ => fun c => dat22 (V45 m ρ) c
  | ⟨23, _⟩ => fun c => dat23 (V47 m ρ) c
  | ⟨24, _⟩ => fun c => dat24 (V49 m ρ) c
  | ⟨25, _⟩ => fun c => dat25 (V51 m ρ) c
  | ⟨26, _⟩ => fun c => dat26 (V53 m ρ) c
  | ⟨27, _⟩ => fun c => dat27 (V55 m ρ) c
  | ⟨28, _⟩ => fun c => dat28 (V57 m ρ) c
  | ⟨29, _⟩ => fun c => dat29 (V59 m ρ) c
  | ⟨30, _⟩ => fun c => dat30 (V61 m ρ) c
  | ⟨31, _⟩ => fun c => dat31 (V63 m ρ) c
  | ⟨32, _⟩ => fun c => dat32 (V65 m ρ) c
  | ⟨_ + 33, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owes, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along: it leaves those
    references at StableHlo.after ops (W c), the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- No operation of stretch 4 allocates a buffer. -/
theorem hostOps4_fresh : (hostOps4 : List (HloOp τ sig (Elt F))).Forall fun op => op.fresh = ∅ := by
  simp only [List.Forall]; repeat' constructor
/-- No operation of stretch 5 allocates a buffer. -/
theorem hostOps5_fresh : (hostOps5 : List (HloOp τ sig (Elt F))).Forall fun op => op.fresh = ∅ := by
  simp only [List.Forall]; repeat' constructor
/-- No operation of stretch 6 allocates a buffer. -/
theorem hostOps6_fresh : (hostOps6 : List (HloOp τ sig (Elt F))).Forall fun op => op.fresh = ∅ := by
  simp only [List.Forall]; repeat' constructor
/-- No operation of stretch 7 allocates a buffer. -/
theorem hostOps7_fresh : (hostOps7 : List (HloOp τ sig (Elt F))).Forall fun op => op.fresh = ∅ := by
  simp only [List.Forall]; repeat' constructor
/-- No operation of stretch 8 allocates a buffer. -/
theorem hostOps8_fresh : (hostOps8 : List (HloOp τ sig (Elt F))).Forall fun op => op.fresh = ∅ := by
  simp only [List.Forall]; repeat' constructor
/-- No operation of stretch 9 allocates a buffer. -/
theorem hostOps9_fresh : (hostOps9 : List (HloOp τ sig (Elt F))).Forall fun op => op.fresh = ∅ := by
  simp only [List.Forall]; repeat' constructor
/-- No operation of stretch 10 allocates a buffer. -/
theorem hostOps10_fresh : (hostOps10 : List (HloOp τ sig (Elt F))).Forall fun op => op.fresh = ∅ := by
  simp only [List.Forall]; repeat' constructor
/-- No operation of stretch 11 allocates a buffer. -/
theorem hostOps11_fresh : (hostOps11 : List (HloOp τ sig (Elt F))).Forall fun op => op.fresh = ∅ := by
  simp only [List.Forall]; repeat' constructor
/-- No operation of stretch 12 allocates a buffer. -/
theorem hostOps12_fresh : (hostOps12 : List (HloOp τ sig (Elt F))).Forall fun op => op.fresh = ∅ := by
  simp only [List.Forall]; repeat' constructor
/-- No operation of stretch 13 allocates a buffer. -/
theorem hostOps13_fresh : (hostOps13 : List (HloOp τ sig (Elt F))).Forall fun op => op.fresh = ∅ := by
  simp only [List.Forall]; repeat' constructor
/-- No operation of stretch 14 allocates a buffer. -/
theorem hostOps14_fresh : (hostOps14 : List (HloOp τ sig (Elt F))).Forall fun op => op.fresh = ∅ := by
  simp only [List.Forall]; repeat' constructor
/-- No operation of stretch 15 allocates a buffer. -/
theorem hostOps15_fresh : (hostOps15 : List (HloOp τ sig (Elt F))).Forall fun op => op.fresh = ∅ := by
  simp only [List.Forall]; repeat' constructor
/-- No operation of stretch 16 allocates a buffer. -/
theorem hostOps16_fresh : (hostOps16 : List (HloOp τ sig (Elt F))).Forall fun op => op.fresh = ∅ := by
  simp only [List.Forall]; repeat' constructor
/-- No operation of stretch 17 allocates a buffer. -/
theorem hostOps17_fresh : (hostOps17 : List (HloOp τ sig (Elt F))).Forall fun op => op.fresh = ∅ := by
  simp only [List.Forall]; repeat' constructor
/-- No operation of stretch 18 allocates a buffer. -/
theorem hostOps18_fresh : (hostOps18 : List (HloOp τ sig (Elt F))).Forall fun op => op.fresh = ∅ := by
  simp only [List.Forall]; repeat' constructor
/-- No operation of stretch 19 allocates a buffer. -/
theorem hostOps19_fresh : (hostOps19 : List (HloOp τ sig (Elt F))).Forall fun op => op.fresh = ∅ := by
  simp only [List.Forall]; repeat' constructor
/-- No operation of stretch 20 allocates a buffer. -/
theorem hostOps20_fresh : (hostOps20 : List (HloOp τ sig (Elt F))).Forall fun op => op.fresh = ∅ := by
  simp only [List.Forall]; repeat' constructor
/-- No operation of stretch 21 allocates a buffer. -/
theorem hostOps21_fresh : (hostOps21 : List (HloOp τ sig (Elt F))).Forall fun op => op.fresh = ∅ := by
  simp only [List.Forall]; repeat' constructor
/-- No operation of stretch 22 allocates a buffer. -/
theorem hostOps22_fresh : (hostOps22 : List (HloOp τ sig (Elt F))).Forall fun op => op.fresh = ∅ := by
  simp only [List.Forall]; repeat' constructor
/-- No operation of stretch 23 allocates a buffer. -/
theorem hostOps23_fresh : (hostOps23 : List (HloOp τ sig (Elt F))).Forall fun op => op.fresh = ∅ := by
  simp only [List.Forall]; repeat' constructor
/-- No operation of stretch 24 allocates a buffer. -/
theorem hostOps24_fresh : (hostOps24 : List (HloOp τ sig (Elt F))).Forall fun op => op.fresh = ∅ := by
  simp only [List.Forall]; repeat' constructor
/-- No operation of stretch 25 allocates a buffer. -/
theorem hostOps25_fresh : (hostOps25 : List (HloOp τ sig (Elt F))).Forall fun op => op.fresh = ∅ := by
  simp only [List.Forall]; repeat' constructor
/-- No operation of stretch 26 allocates a buffer. -/
theorem hostOps26_fresh : (hostOps26 : List (HloOp τ sig (Elt F))).Forall fun op => op.fresh = ∅ := by
  simp only [List.Forall]; repeat' constructor
/-- No operation of stretch 27 allocates a buffer. -/
theorem hostOps27_fresh : (hostOps27 : List (HloOp τ sig (Elt F))).Forall fun op => op.fresh = ∅ := by
  simp only [List.Forall]; repeat' constructor
/-- No operation of stretch 28 allocates a buffer. -/
theorem hostOps28_fresh : (hostOps28 : List (HloOp τ sig (Elt F))).Forall fun op => op.fresh = ∅ := by
  simp only [List.Forall]; repeat' constructor
/-- No operation of stretch 29 allocates a buffer. -/
theorem hostOps29_fresh : (hostOps29 : List (HloOp τ sig (Elt F))).Forall fun op => op.fresh = ∅ := by
  simp only [List.Forall]; repeat' constructor
/-- No operation of stretch 30 allocates a buffer. -/
theorem hostOps30_fresh : (hostOps30 : List (HloOp τ sig (Elt F))).Forall fun op => op.fresh = ∅ := by
  simp only [List.Forall]; repeat' constructor
/-- No operation of stretch 31 allocates a buffer. -/
theorem hostOps31_fresh : (hostOps31 : List (HloOp τ sig (Elt F))).Forall fun op => op.fresh = ∅ := by
  simp only [List.Forall]; repeat' constructor
/-- No operation of stretch 32 allocates a buffer. -/
theorem hostOps32_fresh : (hostOps32 : List (HloOp τ sig (Elt F))).Forall fun op => op.fresh = ∅ := by
  simp only [List.Forall]; repeat' constructor
/-- No operation of stretch 33 allocates a buffer. -/
theorem hostOps33_fresh : (hostOps33 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W67 m ρ c) ∗ ∃ r, prngReg c r)

end Cert.KernelIdeal.Fr

end
-- ==== Proof.KI.SegA.lean ====
import proofs.«116342_j30605936951494_1_alg».proof.Proof.KI.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 0 (custom_call 0): entered from every unscoped buffer at W1, left at W2. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 1 (custom_call 1): entered from every unscoped buffer at W3, left at W4. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 2 (custom_call 2): entered from every unscoped buffer at W5, left at W6. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 3 (custom_call 3): entered from every unscoped buffer at W7, left at W8. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 4 (custom_call 4): entered from every unscoped buffer at W9, left at W10. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 5 (custom_call 5): entered from every unscoped buffer at W11, left at W12. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 6 (custom_call 6): entered from every unscoped buffer at W13, left at W14. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 7 (custom_call 7): entered from every unscoped buffer at W15, left at W16. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 8 (custom_call 8): entered from every unscoped buffer at W17, left at W18. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.SegB.lean ====
import proofs.«116342_j30605936951494_1_alg».proof.Proof.KI.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 9 (custom_call 9): entered from every unscoped buffer at W19, left at W20. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 10 (custom_call 10): entered from every unscoped buffer at W21, left at W22. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 11 (custom_call 11): entered from every unscoped buffer at W23, left at W24. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 12 (custom_call 12): entered from every unscoped buffer at W25, left at W26. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 13 (custom_call 13): entered from every unscoped buffer at W27, left at W28. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 14 (custom_call 14): entered from every unscoped buffer at W29, left at W30. -/
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 15 (custom_call 15): entered from every unscoped buffer at W31, left at W32. -/
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 16 (custom_call 16): entered from every unscoped buffer at W33, left at W34. -/
noncomputable def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.SegC.lean ====
import proofs.«116342_j30605936951494_1_alg».proof.Proof.KI.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 17 (custom_call 17): entered from every unscoped buffer at W35, left at W36. -/
noncomputable def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V35 m ρ) c).loose
  hwaits := Pipeline.hwaits_of_owed_zero _ _ _ _ L lv 17 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec17 c (V35 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V35 m ρ c) (V36 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 18 (custom_call 18): entered from every unscoped buffer at W37, left at W38. -/
noncomputable def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V37 m ρ) c).loose
  hwaits := Pipeline.hwaits_of_owed_zero _ _ _ _ L lv 18 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec18 c (V37 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V37 m ρ c) (V38 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 19 (custom_call 19): entered from every unscoped buffer at W39, left at W40. -/
noncomputable def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V39 m ρ) c).loose
  hwaits := Pipeline.hwaits_of_owed_zero _ _ _ _ L lv 19 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec19 c (V39 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V39 m ρ c) (V40 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 20 (custom_call 20): entered from every unscoped buffer at W41, left at W42. -/
noncomputable def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V41 m ρ) c).loose
  hwaits := Pipeline.hwaits_of_owed_zero _ _ _ _ L lv 20 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec20 c (V41 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V41 m ρ c) (V42 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 21 (custom_call 21): entered from every unscoped buffer at W43, left at W44. -/
noncomputable def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V43 m ρ) c).loose
  hwaits := Pipeline.hwaits_of_owed_zero _ _ _ _ L lv 21 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec21 c (V43 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V43 m ρ c) (V44 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 22 (custom_call 22): entered from every unscoped buffer at W45, left at W46. -/
noncomputable def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V45 m ρ) c).loose
  hwaits := Pipeline.hwaits_of_owed_zero _ _ _ _ L lv 22 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec22 c (V45 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V45 m ρ c) (V46 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 23 (custom_call 23): entered from every unscoped buffer at W47, left at W48. -/
noncomputable def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V47 m ρ) c).loose
  hwaits := Pipeline.hwaits_of_owed_zero _ _ _ _ L lv 23 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec23 c (V47 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V47 m ρ c) (V48 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 24 (custom_call 24): entered from every unscoped buffer at W49, left at W50. -/
noncomputable def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V49 m ρ) c).loose
  hwaits := Pipeline.hwaits_of_owed_zero _ _ _ _ L lv 24 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec24 c (V49 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V49 m ρ c) (V50 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.SegD.lean ====
import proofs.«116342_j30605936951494_1_alg».proof.Proof.KI.Fold

/-!
# Kernel regions of @main as segments of the run

A kernel region sits between two host stretches. Its record is stated over the thread state "every unscoped buffer at the boundary's contents,
the generator register at some state, nothing owed". On entry the region's arrays are split out of the unscoped buffers
at the contents the region is entered from (they are whole, distinct, unscoped buffers, held at the full share) and the
rest of the unscoped buffers bypasses the region; the generator register goes into the pipeline's invariant and comes
back out of it; at the exit the arrays, now at what the write-backs leave, are put back beside the bypassing rest, which
is exactly every unscoped buffer at the exit contents. The body owes nothing at any point, so the pipeline's waits need
no level facts, and the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the configuration pinned at a pipeline index unifies with the printed configuration
-- only when unification may unfold plain definitions in a metavariable's type
set_option backward.isDefEq.respectTransparency.types false in
/-- REGION 25 (custom_call 25): entered from every unscoped buffer at W51, left at W52. -/
noncomputable def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V51 m ρ) c).loose
  hwaits := Pipeline.hwaits_of_owed_zero _ _ _ _ L lv 25 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec25 c (V51 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V51 m ρ c) (V52 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 26 (custom_call 26): entered from every unscoped buffer at W53, left at W54. -/
noncomputable def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (V53 m ρ) c).loose
  hwaits := Pipeline.hwaits_of_owed_zero _ _ _ _ L lv 26 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec26 c (V53 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 26 c).Φ 0 = Pipeline.ΦA spec26 c from rfl]; unfold Pipeline.ΦA
    iintro ⟨Hp, -, Hr⟩
    isplitl [Hr]; · iexact Hr
    iexact Hp
  hout c := by
    rw [Pipeline.ownSems0_none, show (pdats m ρ 26 c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (V53 m ρ c) (V54 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 27 (custom_call 27): entered from every unscoped buffer at W55, left at W56. -/
noncomputable def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (V55 m ρ) c).loose
  hwaits := Pipeline.hwaits_of_owed_zero _ _ _ _ L lv 27 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X c := iprop(∃ r, prngReg c r)
  Y c := iprop(∃ r, prngReg c r)
  Z c := Pipeline.unscopedRest (Ix := Unit) (Name := ℕ) (U := UR sig nD τ) (Lvl := ℕ) spec27 c (V55 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (V55 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 27 c).Φ 0 = Pipeline.ΦA spec27 c from rfl]; unfold Pipeline.ΦA
    iintro ⟨Hp, -, Hr⟩
    isplitl [Hr]; · iexact Hr
    iexact Hp
  hout c := by
    rw [Pipeline.ownSems0_none, show (pdats m ρ 27 c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (V55 m ρ c) (V56 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 28 (custom_call 28): entered from every unscoped buffer at W57, left at W58. -/
noncomputable def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (V57 m ρ) c).loose
  hwaits := Pipeline.hwaits_of_owed_zero _ _ _ _ L lv 28 fun _ _ => rfl
  pre c := iprop(StableHlo.held (c : Thread nD τ) (Pipeline.ucRefs τ sig) (W57 m ρ c) ∗ R c)
  post c := iprop(StableHlo.held (c : Thread nD τ) (Pipeline.ucRefs τ sig) (W58 m ρ c) ∗ R c)
  X c := iprop(∃ r, prngReg c r)
  Y c := iprop(∃ r, prngReg c r)
  Z c := Pipeline.unscopedRest (Ix := Unit) (Name := ℕ) (U := UR sig nD τ) (Lvl := ℕ) spec28 c (V57 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (V57 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (V57 m ρ c) (V58 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 29 (custom_call 29): entered from every unscoped buffer at W59, left at W60. -/
noncomputable def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (V59 m ρ) c).loose
  hwaits := Pipeline.hwaits_of_owed_zero _ _ _ _ L lv 29 fun _ _ => rfl
  pre c := iprop(StableHlo.held (c : Thread nD τ) (Pipeline.ucRefs τ sig) (W59 m ρ c) ∗ R c)
  post c := iprop(StableHlo.held (c : Thread nD τ) (Pipeline.ucRefs τ sig) (W60 m ρ c) ∗ R c)
  X c := iprop(∃ r, prngReg c r)
  Y c := iprop(∃ r, prngReg c r)
  Z c := Pipeline.unscopedRest (Ix := Unit) (Name := ℕ) (U := UR sig nD τ) (Lvl := ℕ) spec29 c (V59 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (V59 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (V59 m ρ c) (V60 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 30 (custom_call 30): entered from every unscoped buffer at W61, left at W62. -/
noncomputable def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (V61 m ρ) c).loose
  hwaits := Pipeline.hwaits_of_owed_zero _ _ _ _ L lv 30 fun _ _ => rfl
  pre c := iprop(StableHlo.held (c : Thread nD τ) (Pipeline.ucRefs τ sig) (W61 m ρ c) ∗ R c)
  post c := iprop(StableHlo.held (c : Thread nD τ) (Pipeline.ucRefs τ sig) (W62 m ρ c) ∗ R c)
  X c := iprop(∃ r, prngReg c r)
  Y c := iprop(∃ r, prngReg c r)
  Z c := Pipeline.unscopedRest (Ix := Unit) (Name := ℕ) (U := UR sig nD τ) (Lvl := ℕ) spec30 c (V61 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (V61 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 30 c).Φ 0 = Pipeline.ΦA spec30 c from rfl]; unfold Pipeline.ΦA
    iintro ⟨Hp, -, Hr⟩
    isplitl [Hr]; · iexact Hr
    iexact Hp
  hout c := by
    rw [Pipeline.ownSems0_none, show (pdats m ρ 30 c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (V61 m ρ c) (V62 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 31 (custom_call 31): entered from every unscoped buffer at W63, left at W64. -/
noncomputable def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (V63 m ρ) c).loose
  hwaits := Pipeline.hwaits_of_owed_zero _ _ _ _ L lv 31 fun _ _ => rfl
  pre c := iprop(StableHlo.held (c : Thread nD τ) (Pipeline.ucRefs τ sig) (W63 m ρ c) ∗ R c)
  post c := iprop(StableHlo.held (c : Thread nD τ) (Pipeline.ucRefs τ sig) (W64 m ρ c) ∗ R c)
  X c := iprop(∃ r, prngReg c r)
  Y c := iprop(∃ r, prngReg c r)
  Z c := Pipeline.unscopedRest (Ix := Unit) (Name := ℕ) (U := UR sig nD τ) (Lvl := ℕ) spec31 c (V63 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (V63 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 31 c).Φ 0 = Pipeline.ΦA spec31 c from rfl]; unfold Pipeline.ΦA
    iintro ⟨Hp, -, Hr⟩
    isplitl [Hr]; · iexact Hr
    iexact Hp
  hout c := by
    rw [Pipeline.ownSems0_none, show (pdats m ρ 31 c).Φ (Fin.last _) = Pipeline.ΦA spec31 c from rfl]; unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (V63 m ρ c) (V64 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the configuration pinned at a pipeline index unifies with the printed configuration
-- only when unification may unfold plain definitions in a metavariable's type
set_option backward.isDefEq.respectTransparency.types false in
/-- REGION 32 (custom_call 32): entered from every unscoped buffer at W65, left at W66. -/
noncomputable def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (V65 m ρ) c).loose
  hwaits := Pipeline.hwaits_of_owed_zero _ _ _ _ L lv 32 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec32 c (V65 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (V65 m ρ c) (V66 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Keep.lean ====
import proofs.«116342_j30605936951494_1_alg».proof.Proof.KI.Fold

/-!
# Which buffer still holds, later, what an earlier item left

A host stretch rewrites the buffers its operations write and no other; a region rewrites its output array, leaves its
input arrays as it found them (an input window is never written back) and touches no other buffer. Stretch K
(2 ≤ K ≤ 32) writes exactly the two row bands chunk K reads, so every other reference is the same on both sides of it
(keepH K). The two products viewed [4, 256, 768] (main_v2, main_v3) and the bias row (main_v4) are written once, by
the stretch before region 1 (boundary 3): at every later boundary J they hold what they held there.
-/

set_option maxRecDepth 16384

noncomputable section

namespace Cert.KernelIdeal.Val

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ) (ρ : Dev nD → PrngReg)

/-- One operation's written reference is among a literal list of references. -/
local macro "wr_in" : tactic => `(tactic|
  (simp only [StableHlo.nullary_writes, StableHlo.unary_writes, StableHlo.binary_writes, StableHlo.ternary_writes,
     StableHlo.quaternary_writes, StableHlo.reshape_writes, StableHlo.binaryIndexed_writes, StableHlo.unaryIndexed_writes,
     StableHlo.nary_writes, Finset.singleton_subset_iff, List.mem_toFinset]
   exact List.mem_map_of_mem (by decide)))

/-! ## One host stretch, any reference it does not write -/

theorem keepH2 (c : Dev nD) (b : Ref sig .tc) (hb : b ∉ [main_v7, main_v8]) :
    W5 m ρ c (Proc.devRef .tc b) = W4 m ρ c (Proc.devRef .tc b) :=
  StableHlo.after_of_writes_sub (W := [main_v7, main_v8]) hostOps2 _
    (by simp only [List.Forall]; exact ⟨by wr_in, by wr_in⟩) hb
theorem keepH3 (c : Dev nD) (b : Ref sig .tc) (hb : b ∉ [main_v10, main_v11]) :
    W7 m ρ c (Proc.devRef .tc b) = W6 m ρ c (Proc.devRef .tc b) :=
  StableHlo.after_of_writes_sub (W := [main_v10, main_v11]) hostOps3 _
    (by simp only [List.Forall]; exact ⟨by wr_in, by wr_in⟩) hb
theorem keepH4 (c : Dev nD) (b : Ref sig .tc) (hb : b ∉ [main_v13, main_v14]) :
    W9 m ρ c (Proc.devRef .tc b) = W8 m ρ c (Proc.devRef .tc b) :=
  StableHlo.after_of_writes_sub (W := [main_v13, main_v14]) hostOps4 _
    (by simp only [List.Forall]; exact ⟨by wr_in, by wr_in⟩) hb
theorem keepH5 (c : Dev nD) (b : Ref sig .tc) (hb : b ∉ [main_v16, main_v17]) :
    W11 m ρ c (Proc.devRef .tc b) = W10 m ρ c (Proc.devRef .tc b) :=
  StableHlo.after_of_writes_sub (W := [main_v16, main_v17]) hostOps5 _
    (by simp only [List.Forall]; exact ⟨by wr_in, by wr_in⟩) hb
theorem keepH6 (c : Dev nD) (b : Ref sig .tc) (hb : b ∉ [main_v19, main_v20]) :
    W13 m ρ c (Proc.devRef .tc b) = W12 m ρ c (Proc.devRef .tc b) :=
  StableHlo.after_of_writes_sub (W := [main_v19, main_v20]) hostOps6 _
    (by simp only [List.Forall]; exact ⟨by wr_in, by wr_in⟩) hb
theorem keepH7 (c : Dev nD) (b : Ref sig .tc) (hb : b ∉ [main_v22, main_v23]) :
    W15 m ρ c (Proc.devRef .tc b) = W14 m ρ c (Proc.devRef .tc b) :=
  StableHlo.after_of_writes_sub (W := [main_v22, main_v23]) hostOps7 _
    (by simp only [List.Forall]; exact ⟨by wr_in, by wr_in⟩) hb
theorem keepH8 (c : Dev nD) (b : Ref sig .tc) (hb : b ∉ [main_v25, main_v26]) :
    W17 m ρ c (Proc.devRef .tc b) = W16 m ρ c (Proc.devRef .tc b) :=
  StableHlo.after_of_writes_sub (W := [main_v25, main_v26]) hostOps8 _
    (by simp only [List.Forall]; exact ⟨by wr_in, by wr_in⟩) hb
theorem keepH9 (c : Dev nD) (b : Ref sig .tc) (hb : b ∉ [main_v28, main_v29]) :
    W19 m ρ c (Proc.devRef .tc b) = W18 m ρ c (Proc.devRef .tc b) :=
  StableHlo.after_of_writes_sub (W := [main_v28, main_v29]) hostOps9 _
    (by simp only [List.Forall]; exact ⟨by wr_in, by wr_in⟩) hb
theorem keepH10 (c : Dev nD) (b : Ref sig .tc) (hb : b ∉ [main_v31, main_v32]) :
    W21 m ρ c (Proc.devRef .tc b) = W20 m ρ c (Proc.devRef .tc b) :=
  StableHlo.after_of_writes_sub (W := [main_v31, main_v32]) hostOps10 _
    (by simp only [List.Forall]; exact ⟨by wr_in, by wr_in⟩) hb
theorem keepH11 (c : Dev nD) (b : Ref sig .tc) (hb : b ∉ [main_v34, main_v35]) :
    W23 m ρ c (Proc.devRef .tc b) = W22 m ρ c (Proc.devRef .tc b) :=
  StableHlo.after_of_writes_sub (W := [main_v34, main_v35]) hostOps11 _
    (by simp only [List.Forall]; exact ⟨by wr_in, by wr_in⟩) hb
theorem keepH12 (c : Dev nD) (b : Ref sig .tc) (hb : b ∉ [main_v37, main_v38]) :
    W25 m ρ c (Proc.devRef .tc b) = W24 m ρ c (Proc.devRef .tc b) :=
  StableHlo.after_of_writes_sub (W := [main_v37, main_v38]) hostOps12 _
    (by simp only [List.Forall]; exact ⟨by wr_in, by wr_in⟩) hb
theorem keepH13 (c : Dev nD) (b : Ref sig .tc) (hb : b ∉ [main_v40, main_v41]) :
    W27 m ρ c (Proc.devRef .tc b) = W26 m ρ c (Proc.devRef .tc b) :=
  StableHlo.after_of_writes_sub (W := [main_v40, main_v41]) hostOps13 _
    (by simp only [List.Forall]; exact ⟨by wr_in, by wr_in⟩) hb
theorem keepH14 (c : Dev nD) (b : Ref sig .tc) (hb : b ∉ [main_v43, main_v44]) :
    W29 m ρ c (Proc.devRef .tc b) = W28 m ρ c (Proc.devRef .tc b) :=
  StableHlo.after_of_writes_sub (W := [main_v43, main_v44]) hostOps14 _
    (by simp only [List.Forall]; exact ⟨by wr_in, by wr_in⟩) hb
theorem keepH15 (c : Dev nD) (b : Ref sig .tc) (hb : b ∉ [main_v46, main_v47]) :
    W31 m ρ c (Proc.devRef .tc b) = W30 m ρ c (Proc.devRef .tc b) :=
  StableHlo.after_of_writes_sub (W := [main_v46, main_v47]) hostOps15 _
    (by simp only [List.Forall]; exact ⟨by wr_in, by wr_in⟩) hb
theorem keepH16 (c : Dev nD) (b : Ref sig .tc) (hb : b ∉ [main_v49, main_v50]) :
    W33 m ρ c (Proc.devRef .tc b) = W32 m ρ c (Proc.devRef .tc b) :=
  StableHlo.after_of_writes_sub (W := [main_v49, main_v50]) hostOps16 _
    (by simp only [List.Forall]; exact ⟨by wr_in, by wr_in⟩) hb
theorem keepH17 (c : Dev nD) (b : Ref sig .tc) (hb : b ∉ [main_v52, main_v53]) :
    W35 m ρ c (Proc.devRef .tc b) = W34 m ρ c (Proc.devRef .tc b) :=
  StableHlo.after_of_writes_sub (W := [main_v52, main_v53]) hostOps17 _
    (by simp only [List.Forall]; exact ⟨by wr_in, by wr_in⟩) hb
theorem keepH18 (c : Dev nD) (b : Ref sig .tc) (hb : b ∉ [main_v55, main_v56]) :
    W37 m ρ c (Proc.devRef .tc b) = W36 m ρ c (Proc.devRef .tc b) :=
  StableHlo.after_of_writes_sub (W := [main_v55, main_v56]) hostOps18 _
    (by simp only [List.Forall]; exact ⟨by wr_in, by wr_in⟩) hb
theorem keepH19 (c : Dev nD) (b : Ref sig .tc) (hb : b ∉ [main_v58, main_v59]) :
    W39 m ρ c (Proc.devRef .tc b) = W38 m ρ c (Proc.devRef .tc b) :=
  StableHlo.after_of_writes_sub (W := [main_v58, main_v59]) hostOps19 _
    (by simp only [List.Forall]; exact ⟨by wr_in, by wr_in⟩) hb
theorem keepH20 (c : Dev nD) (b : Ref sig .tc) (hb : b ∉ [main_v61, main_v62]) :
    W41 m ρ c (Proc.devRef .tc b) = W40 m ρ c (Proc.devRef .tc b) :=
  StableHlo.after_of_writes_sub (W := [main_v61, main_v62]) hostOps20 _
    (by simp only [List.Forall]; exact ⟨by wr_in, by wr_in⟩) hb
theorem keepH21 (c : Dev nD) (b : Ref sig .tc) (hb : b ∉ [main_v64, main_v65]) :
    W43 m ρ c (Proc.devRef .tc b) = W42 m ρ c (Proc.devRef .tc b) :=
  StableHlo.after_of_writes_sub (W := [main_v64, main_v65]) hostOps21 _
    (by simp only [List.Forall]; exact ⟨by wr_in, by wr_in⟩) hb
theorem keepH22 (c : Dev nD) (b : Ref sig .tc) (hb : b ∉ [main_v67, main_v68]) :
    W45 m ρ c (Proc.devRef .tc b) = W44 m ρ c (Proc.devRef .tc b) :=
  StableHlo.after_of_writes_sub (W := [main_v67, main_v68]) hostOps22 _
    (by simp only [List.Forall]; exact ⟨by wr_in, by wr_in⟩) hb
theorem keepH23 (c : Dev nD) (b : Ref sig .tc) (hb : b ∉ [main_v70, main_v71]) :
    W47 m ρ c (Proc.devRef .tc b) = W46 m ρ c (Proc.devRef .tc b) :=
  StableHlo.after_of_writes_sub (W := [main_v70, main_v71]) hostOps23 _
    (by simp only [List.Forall]; exact ⟨by wr_in, by wr_in⟩) hb
theorem keepH24 (c : Dev nD) (b : Ref sig .tc) (hb : b ∉ [main_v73, main_v74]) :
    W49 m ρ c (Proc.devRef .tc b) = W48 m ρ c (Proc.devRef .tc b) :=
  StableHlo.after_of_writes_sub (W := [main_v73, main_v74]) hostOps24 _
    (by simp only [List.Forall]; exact ⟨by wr_in, by wr_in⟩) hb
theorem keepH25 (c : Dev nD) (b : Ref sig .tc) (hb : b ∉ [main_v76, main_v77]) :
    W51 m ρ c (Proc.devRef .tc b) = W50 m ρ c (Proc.devRef .tc b) :=
  StableHlo.after_of_writes_sub (W := [main_v76, main_v77]) hostOps25 _
    (by simp only [List.Forall]; exact ⟨by wr_in, by wr_in⟩) hb
theorem keepH26 (c : Dev nD) (b : Ref sig .tc) (hb : b ∉ [main_v79, main_v80]) :
    W53 m ρ c (Proc.devRef .tc b) = W52 m ρ c (Proc.devRef .tc b) :=
  StableHlo.after_of_writes_sub (W := [main_v79, main_v80]) hostOps26 _
    (by simp only [List.Forall]; exact ⟨by wr_in, by wr_in⟩) hb
theorem keepH27 (c : Dev nD) (b : Ref sig .tc) (hb : b ∉ [main_v82, main_v83]) :
    W55 m ρ c (Proc.devRef .tc b) = W54 m ρ c (Proc.devRef .tc b) :=
  StableHlo.after_of_writes_sub (W := [main_v82, main_v83]) hostOps27 _
    (by simp only [List.Forall]; exact ⟨by wr_in, by wr_in⟩) hb
theorem keepH28 (c : Dev nD) (b : Ref sig .tc) (hb : b ∉ [main_v85, main_v86]) :
    W57 m ρ c (Proc.devRef .tc b) = W56 m ρ c (Proc.devRef .tc b) :=
  StableHlo.after_of_writes_sub (W := [main_v85, main_v86]) hostOps28 _
    (by simp only [List.Forall]; exact ⟨by wr_in, by wr_in⟩) hb
theorem keepH29 (c : Dev nD) (b : Ref sig .tc) (hb : b ∉ [main_v88, main_v89]) :
    W59 m ρ c (Proc.devRef .tc b) = W58 m ρ c (Proc.devRef .tc b) :=
  StableHlo.after_of_writes_sub (W := [main_v88, main_v89]) hostOps29 _
    (by simp only [List.Forall]; exact ⟨by wr_in, by wr_in⟩) hb
theorem keepH30 (c : Dev nD) (b : Ref sig .tc) (hb : b ∉ [main_v91, main_v92]) :
    W61 m ρ c (Proc.devRef .tc b) = W60 m ρ c (Proc.devRef .tc b) :=
  StableHlo.after_of_writes_sub (W := [main_v91, main_v92]) hostOps30 _
    (by simp only [List.Forall]; exact ⟨by wr_in, by wr_in⟩) hb
theorem keepH31 (c : Dev nD) (b : Ref sig .tc) (hb : b ∉ [main_v94, main_v95]) :
    W63 m ρ c (Proc.devRef .tc b) = W62 m ρ c (Proc.devRef .tc b) :=
  StableHlo.after_of_writes_sub (W := [main_v94, main_v95]) hostOps31 _
    (by simp only [List.Forall]; exact ⟨by wr_in, by wr_in⟩) hb
theorem keepH32 (c : Dev nD) (b : Ref sig .tc) (hb : b ∉ [main_v97, main_v98]) :
    W65 m ρ c (Proc.devRef .tc b) = W64 m ρ c (Proc.devRef .tc b) :=
  StableHlo.after_of_writes_sub (W := [main_v97, main_v98]) hostOps32 _
    (by simp only [List.Forall]; exact ⟨by wr_in, by wr_in⟩) hb

/-! ## main_v2 from boundary 3 on -/

theorem W3_main_v2 (c : Dev nD) : W3 m ρ c (Proc.devRef .tc main_v2) = W3 m ρ c (Proc.devRef .tc main_v2) := rfl
theorem W4_main_v2 (c : Dev nD) : W4 m ρ c (Proc.devRef .tc main_v2) = W3 m ρ c (Proc.devRef .tc main_v2) :=
  (W4_of_ne m ρ c main_v2 (by decide)).trans (W3_main_v2 m ρ c)
theorem W5_main_v2 (c : Dev nD) : W5 m ρ c (Proc.devRef .tc main_v2) = W3 m ρ c (Proc.devRef .tc main_v2) :=
  (keepH2 m ρ c main_v2 (by decide)).trans (W4_main_v2 m ρ c)
theorem W6_main_v2 (c : Dev nD) : W6 m ρ c (Proc.devRef .tc main_v2) = W3 m ρ c (Proc.devRef .tc main_v2) :=
  (W6_of_ne m ρ c main_v2 (by decide)).trans (W5_main_v2 m ρ c)
theorem W7_main_v2 (c : Dev nD) : W7 m ρ c (Proc.devRef .tc main_v2) = W3 m ρ c (Proc.devRef .tc main_v2) :=
  (keepH3 m ρ c main_v2 (by decide)).trans (W6_main_v2 m ρ c)
theorem W8_main_v2 (c : Dev nD) : W8 m ρ c (Proc.devRef .tc main_v2) = W3 m ρ c (Proc.devRef .tc main_v2) :=
  (W8_of_ne m ρ c main_v2 (by decide)).trans (W7_main_v2 m ρ c)
theorem W9_main_v2 (c : Dev nD) : W9 m ρ c (Proc.devRef .tc main_v2) = W3 m ρ c (Proc.devRef .tc main_v2) :=
  (keepH4 m ρ c main_v2 (by decide)).trans (W8_main_v2 m ρ c)
theorem W10_main_v2 (c : Dev nD) : W10 m ρ c (Proc.devRef .tc main_v2) = W3 m ρ c (Proc.devRef .tc main_v2) :=
  (W10_of_ne m ρ c main_v2 (by decide)).trans (W9_main_v2 m ρ c)
theorem W11_main_v2 (c : Dev nD) : W11 m ρ c (Proc.devRef .tc main_v2) = W3 m ρ c (Proc.devRef .tc main_v2) :=
  (keepH5 m ρ c main_v2 (by decide)).trans (W10_main_v2 m ρ c)
theorem W12_main_v2 (c : Dev nD) : W12 m ρ c (Proc.devRef .tc main_v2) = W3 m ρ c (Proc.devRef .tc main_v2) :=
  (W12_of_ne m ρ c main_v2 (by decide)).trans (W11_main_v2 m ρ c)
theorem W13_main_v2 (c : Dev nD) : W13 m ρ c (Proc.devRef .tc main_v2) = W3 m ρ c (Proc.devRef .tc main_v2) :=
  (keepH6 m ρ c main_v2 (by decide)).trans (W12_main_v2 m ρ c)
theorem W14_main_v2 (c : Dev nD) : W14 m ρ c (Proc.devRef .tc main_v2) = W3 m ρ c (Proc.devRef .tc main_v2) :=
  (W14_of_ne m ρ c main_v2 (by decide)).trans (W13_main_v2 m ρ c)
theorem W15_main_v2 (c : Dev nD) : W15 m ρ c (Proc.devRef .tc main_v2) = W3 m ρ c (Proc.devRef .tc main_v2) :=
  (keepH7 m ρ c main_v2 (by decide)).trans (W14_main_v2 m ρ c)
theorem W16_main_v2 (c : Dev nD) : W16 m ρ c (Proc.devRef .tc main_v2) = W3 m ρ c (Proc.devRef .tc main_v2) :=
  (W16_of_ne m ρ c main_v2 (by decide)).trans (W15_main_v2 m ρ c)
theorem W17_main_v2 (c : Dev nD) : W17 m ρ c (Proc.devRef .tc main_v2) = W3 m ρ c (Proc.devRef .tc main_v2) :=
  (keepH8 m ρ c main_v2 (by decide)).trans (W16_main_v2 m ρ c)
theorem W18_main_v2 (c : Dev nD) : W18 m ρ c (Proc.devRef .tc main_v2) = W3 m ρ c (Proc.devRef .tc main_v2) :=
  (W18_of_ne m ρ c main_v2 (by decide)).trans (W17_main_v2 m ρ c)
theorem W19_main_v2 (c : Dev nD) : W19 m ρ c (Proc.devRef .tc main_v2) = W3 m ρ c (Proc.devRef .tc main_v2) :=
  (keepH9 m ρ c main_v2 (by decide)).trans (W18_main_v2 m ρ c)
theorem W20_main_v2 (c : Dev nD) : W20 m ρ c (Proc.devRef .tc main_v2) = W3 m ρ c (Proc.devRef .tc main_v2) :=
  (W20_of_ne m ρ c main_v2 (by decide)).trans (W19_main_v2 m ρ c)
theorem W21_main_v2 (c : Dev nD) : W21 m ρ c (Proc.devRef .tc main_v2) = W3 m ρ c (Proc.devRef .tc main_v2) :=
  (keepH10 m ρ c main_v2 (by decide)).trans (W20_main_v2 m ρ c)
theorem W22_main_v2 (c : Dev nD) : W22 m ρ c (Proc.devRef .tc main_v2) = W3 m ρ c (Proc.devRef .tc main_v2) :=
  (W22_of_ne m ρ c main_v2 (by decide)).trans (W21_main_v2 m ρ c)
theorem W23_main_v2 (c : Dev nD) : W23 m ρ c (Proc.devRef .tc main_v2) = W3 m ρ c (Proc.devRef .tc main_v2) :=
  (keepH11 m ρ c main_v2 (by decide)).trans (W22_main_v2 m ρ c)
theorem W24_main_v2 (c : Dev nD) : W24 m ρ c (Proc.devRef .tc main_v2) = W3 m ρ c (Proc.devRef .tc main_v2) :=
  (W24_of_ne m ρ c main_v2 (by decide)).trans (W23_main_v2 m ρ c)
theorem W25_main_v2 (c : Dev nD) : W25 m ρ c (Proc.devRef .tc main_v2) = W3 m ρ c (Proc.devRef .tc main_v2) :=
  (keepH12 m ρ c main_v2 (by decide)).trans (W24_main_v2 m ρ c)
theorem W26_main_v2 (c : Dev nD) : W26 m ρ c (Proc.devRef .tc main_v2) = W3 m ρ c (Proc.devRef .tc main_v2) :=
  (W26_of_ne m ρ c main_v2 (by decide)).trans (W25_main_v2 m ρ c)
theorem W27_main_v2 (c : Dev nD) : W27 m ρ c (Proc.devRef .tc main_v2) = W3 m ρ c (Proc.devRef .tc main_v2) :=
  (keepH13 m ρ c main_v2 (by decide)).trans (W26_main_v2 m ρ c)
theorem W28_main_v2 (c : Dev nD) : W28 m ρ c (Proc.devRef .tc main_v2) = W3 m ρ c (Proc.devRef .tc main_v2) :=
  (W28_of_ne m ρ c main_v2 (by decide)).trans (W27_main_v2 m ρ c)
theorem W29_main_v2 (c : Dev nD) : W29 m ρ c (Proc.devRef .tc main_v2) = W3 m ρ c (Proc.devRef .tc main_v2) :=
  (keepH14 m ρ c main_v2 (by decide)).trans (W28_main_v2 m ρ c)
theorem W30_main_v2 (c : Dev nD) : W30 m ρ c (Proc.devRef .tc main_v2) = W3 m ρ c (Proc.devRef .tc main_v2) :=
  (W30_of_ne m ρ c main_v2 (by decide)).trans (W29_main_v2 m ρ c)
theorem W31_main_v2 (c : Dev nD) : W31 m ρ c (Proc.devRef .tc main_v2) = W3 m ρ c (Proc.devRef .tc main_v2) :=
  (keepH15 m ρ c main_v2 (by decide)).trans (W30_main_v2 m ρ c)
theorem W32_main_v2 (c : Dev nD) : W32 m ρ c (Proc.devRef .tc main_v2) = W3 m ρ c (Proc.devRef .tc main_v2) :=
  (W32_of_ne m ρ c main_v2 (by decide)).trans (W31_main_v2 m ρ c)
theorem W33_main_v2 (c : Dev nD) : W33 m ρ c (Proc.devRef .tc main_v2) = W3 m ρ c (Proc.devRef .tc main_v2) :=
  (keepH16 m ρ c main_v2 (by decide)).trans (W32_main_v2 m ρ c)
theorem W34_main_v2 (c : Dev nD) : W34 m ρ c (Proc.devRef .tc main_v2) = W3 m ρ c (Proc.devRef .tc main_v2) :=
  (W34_of_ne m ρ c main_v2 (by decide)).trans (W33_main_v2 m ρ c)
theorem W35_main_v2 (c : Dev nD) : W35 m ρ c (Proc.devRef .tc main_v2) = W3 m ρ c (Proc.devRef .tc main_v2) :=
  (keepH17 m ρ c main_v2 (by decide)).trans (W34_main_v2 m ρ c)
theorem W36_main_v2 (c : Dev nD) : W36 m ρ c (Proc.devRef .tc main_v2) = W3 m ρ c (Proc.devRef .tc main_v2) :=
  (W36_of_ne m ρ c main_v2 (by decide)).trans (W35_main_v2 m ρ c)
theorem W37_main_v2 (c : Dev nD) : W37 m ρ c (Proc.devRef .tc main_v2) = W3 m ρ c (Proc.devRef .tc main_v2) :=
  (keepH18 m ρ c main_v2 (by decide)).trans (W36_main_v2 m ρ c)
theorem W38_main_v2 (c : Dev nD) : W38 m ρ c (Proc.devRef .tc main_v2) = W3 m ρ c (Proc.devRef .tc main_v2) :=
  (W38_of_ne m ρ c main_v2 (by decide)).trans (W37_main_v2 m ρ c)
theorem W39_main_v2 (c : Dev nD) : W39 m ρ c (Proc.devRef .tc main_v2) = W3 m ρ c (Proc.devRef .tc main_v2) :=
  (keepH19 m ρ c main_v2 (by decide)).trans (W38_main_v2 m ρ c)
theorem W40_main_v2 (c : Dev nD) : W40 m ρ c (Proc.devRef .tc main_v2) = W3 m ρ c (Proc.devRef .tc main_v2) :=
  (W40_of_ne m ρ c main_v2 (by decide)).trans (W39_main_v2 m ρ c)
theorem W41_main_v2 (c : Dev nD) : W41 m ρ c (Proc.devRef .tc main_v2) = W3 m ρ c (Proc.devRef .tc main_v2) :=
  (keepH20 m ρ c main_v2 (by decide)).trans (W40_main_v2 m ρ c)
theorem W42_main_v2 (c : Dev nD) : W42 m ρ c (Proc.devRef .tc main_v2) = W3 m ρ c (Proc.devRef .tc main_v2) :=
  (W42_of_ne m ρ c main_v2 (by decide)).trans (W41_main_v2 m ρ c)
theorem W43_main_v2 (c : Dev nD) : W43 m ρ c (Proc.devRef .tc main_v2) = W3 m ρ c (Proc.devRef .tc main_v2) :=
  (keepH21 m ρ c main_v2 (by decide)).trans (W42_main_v2 m ρ c)
theorem W44_main_v2 (c : Dev nD) : W44 m ρ c (Proc.devRef .tc main_v2) = W3 m ρ c (Proc.devRef .tc main_v2) :=
  (W44_of_ne m ρ c main_v2 (by decide)).trans (W43_main_v2 m ρ c)
theorem W45_main_v2 (c : Dev nD) : W45 m ρ c (Proc.devRef .tc main_v2) = W3 m ρ c (Proc.devRef .tc main_v2) :=
  (keepH22 m ρ c main_v2 (by decide)).trans (W44_main_v2 m ρ c)
theorem W46_main_v2 (c : Dev nD) : W46 m ρ c (Proc.devRef .tc main_v2) = W3 m ρ c (Proc.devRef .tc main_v2) :=
  (W46_of_ne m ρ c main_v2 (by decide)).trans (W45_main_v2 m ρ c)
theorem W47_main_v2 (c : Dev nD) : W47 m ρ c (Proc.devRef .tc main_v2) = W3 m ρ c (Proc.devRef .tc main_v2) :=
  (keepH23 m ρ c main_v2 (by decide)).trans (W46_main_v2 m ρ c)
theorem W48_main_v2 (c : Dev nD) : W48 m ρ c (Proc.devRef .tc main_v2) = W3 m ρ c (Proc.devRef .tc main_v2) :=
  (W48_of_ne m ρ c main_v2 (by decide)).trans (W47_main_v2 m ρ c)
theorem W49_main_v2 (c : Dev nD) : W49 m ρ c (Proc.devRef .tc main_v2) = W3 m ρ c (Proc.devRef .tc main_v2) :=
  (keepH24 m ρ c main_v2 (by decide)).trans (W48_main_v2 m ρ c)
theorem W50_main_v2 (c : Dev nD) : W50 m ρ c (Proc.devRef .tc main_v2) = W3 m ρ c (Proc.devRef .tc main_v2) :=
  (W50_of_ne m ρ c main_v2 (by decide)).trans (W49_main_v2 m ρ c)
theorem W51_main_v2 (c : Dev nD) : W51 m ρ c (Proc.devRef .tc main_v2) = W3 m ρ c (Proc.devRef .tc main_v2) :=
  (keepH25 m ρ c main_v2 (by decide)).trans (W50_main_v2 m ρ c)
theorem W52_main_v2 (c : Dev nD) : W52 m ρ c (Proc.devRef .tc main_v2) = W3 m ρ c (Proc.devRef .tc main_v2) :=
  (W52_of_ne m ρ c main_v2 (by decide)).trans (W51_main_v2 m ρ c)
theorem W53_main_v2 (c : Dev nD) : W53 m ρ c (Proc.devRef .tc main_v2) = W3 m ρ c (Proc.devRef .tc main_v2) :=
  (keepH26 m ρ c main_v2 (by decide)).trans (W52_main_v2 m ρ c)
theorem W54_main_v2 (c : Dev nD) : W54 m ρ c (Proc.devRef .tc main_v2) = W3 m ρ c (Proc.devRef .tc main_v2) :=
  (W54_of_ne m ρ c main_v2 (by decide)).trans (W53_main_v2 m ρ c)
theorem W55_main_v2 (c : Dev nD) : W55 m ρ c (Proc.devRef .tc main_v2) = W3 m ρ c (Proc.devRef .tc main_v2) :=
  (keepH27 m ρ c main_v2 (by decide)).trans (W54_main_v2 m ρ c)
theorem W56_main_v2 (c : Dev nD) : W56 m ρ c (Proc.devRef .tc main_v2) = W3 m ρ c (Proc.devRef .tc main_v2) :=
  (W56_of_ne m ρ c main_v2 (by decide)).trans (W55_main_v2 m ρ c)
theorem W57_main_v2 (c : Dev nD) : W57 m ρ c (Proc.devRef .tc main_v2) = W3 m ρ c (Proc.devRef .tc main_v2) :=
  (keepH28 m ρ c main_v2 (by decide)).trans (W56_main_v2 m ρ c)
theorem W58_main_v2 (c : Dev nD) : W58 m ρ c (Proc.devRef .tc main_v2) = W3 m ρ c (Proc.devRef .tc main_v2) :=
  (W58_of_ne m ρ c main_v2 (by decide)).trans (W57_main_v2 m ρ c)
theorem W59_main_v2 (c : Dev nD) : W59 m ρ c (Proc.devRef .tc main_v2) = W3 m ρ c (Proc.devRef .tc main_v2) :=
  (keepH29 m ρ c main_v2 (by decide)).trans (W58_main_v2 m ρ c)
theorem W60_main_v2 (c : Dev nD) : W60 m ρ c (Proc.devRef .tc main_v2) = W3 m ρ c (Proc.devRef .tc main_v2) :=
  (W60_of_ne m ρ c main_v2 (by decide)).trans (W59_main_v2 m ρ c)
theorem W61_main_v2 (c : Dev nD) : W61 m ρ c (Proc.devRef .tc main_v2) = W3 m ρ c (Proc.devRef .tc main_v2) :=
  (keepH30 m ρ c main_v2 (by decide)).trans (W60_main_v2 m ρ c)
theorem W62_main_v2 (c : Dev nD) : W62 m ρ c (Proc.devRef .tc main_v2) = W3 m ρ c (Proc.devRef .tc main_v2) :=
  (W62_of_ne m ρ c main_v2 (by decide)).trans (W61_main_v2 m ρ c)
theorem W63_main_v2 (c : Dev nD) : W63 m ρ c (Proc.devRef .tc main_v2) = W3 m ρ c (Proc.devRef .tc main_v2) :=
  (keepH31 m ρ c main_v2 (by decide)).trans (W62_main_v2 m ρ c)
theorem W64_main_v2 (c : Dev nD) : W64 m ρ c (Proc.devRef .tc main_v2) = W3 m ρ c (Proc.devRef .tc main_v2) :=
  (W64_of_ne m ρ c main_v2 (by decide)).trans (W63_main_v2 m ρ c)
theorem W65_main_v2 (c : Dev nD) : W65 m ρ c (Proc.devRef .tc main_v2) = W3 m ρ c (Proc.devRef .tc main_v2) :=
  (keepH32 m ρ c main_v2 (by decide)).trans (W64_main_v2 m ρ c)

/-! ## main_v3 from boundary 3 on -/

theorem W3_main_v3 (c : Dev nD) : W3 m ρ c (Proc.devRef .tc main_v3) = W3 m ρ c (Proc.devRef .tc main_v3) := rfl
theorem W4_main_v3 (c : Dev nD) : W4 m ρ c (Proc.devRef .tc main_v3) = W3 m ρ c (Proc.devRef .tc main_v3) :=
  ((W4_arr m ρ c 1).trans (((dat1 (V3 m ρ) c).arrAt_in 1 rfl _).trans (A_eq1 (V3 m ρ) c 1))).trans (W3_main_v3 m ρ c)
theorem W5_main_v3 (c : Dev nD) : W5 m ρ c (Proc.devRef .tc main_v3) = W3 m ρ c (Proc.devRef .tc main_v3) :=
  (keepH2 m ρ c main_v3 (by decide)).trans (W4_main_v3 m ρ c)
theorem W6_main_v3 (c : Dev nD) : W6 m ρ c (Proc.devRef .tc main_v3) = W3 m ρ c (Proc.devRef .tc main_v3) :=
  (W6_of_ne m ρ c main_v3 (by decide)).trans (W5_main_v3 m ρ c)
theorem W7_main_v3 (c : Dev nD) : W7 m ρ c (Proc.devRef .tc main_v3) = W3 m ρ c (Proc.devRef .tc main_v3) :=
  (keepH3 m ρ c main_v3 (by decide)).trans (W6_main_v3 m ρ c)
theorem W8_main_v3 (c : Dev nD) : W8 m ρ c (Proc.devRef .tc main_v3) = W3 m ρ c (Proc.devRef .tc main_v3) :=
  (W8_of_ne m ρ c main_v3 (by decide)).trans (W7_main_v3 m ρ c)
theorem W9_main_v3 (c : Dev nD) : W9 m ρ c (Proc.devRef .tc main_v3) = W3 m ρ c (Proc.devRef .tc main_v3) :=
  (keepH4 m ρ c main_v3 (by decide)).trans (W8_main_v3 m ρ c)
theorem W10_main_v3 (c : Dev nD) : W10 m ρ c (Proc.devRef .tc main_v3) = W3 m ρ c (Proc.devRef .tc main_v3) :=
  (W10_of_ne m ρ c main_v3 (by decide)).trans (W9_main_v3 m ρ c)
theorem W11_main_v3 (c : Dev nD) : W11 m ρ c (Proc.devRef .tc main_v3) = W3 m ρ c (Proc.devRef .tc main_v3) :=
  (keepH5 m ρ c main_v3 (by decide)).trans (W10_main_v3 m ρ c)
theorem W12_main_v3 (c : Dev nD) : W12 m ρ c (Proc.devRef .tc main_v3) = W3 m ρ c (Proc.devRef .tc main_v3) :=
  (W12_of_ne m ρ c main_v3 (by decide)).trans (W11_main_v3 m ρ c)
theorem W13_main_v3 (c : Dev nD) : W13 m ρ c (Proc.devRef .tc main_v3) = W3 m ρ c (Proc.devRef .tc main_v3) :=
  (keepH6 m ρ c main_v3 (by decide)).trans (W12_main_v3 m ρ c)
theorem W14_main_v3 (c : Dev nD) : W14 m ρ c (Proc.devRef .tc main_v3) = W3 m ρ c (Proc.devRef .tc main_v3) :=
  (W14_of_ne m ρ c main_v3 (by decide)).trans (W13_main_v3 m ρ c)
theorem W15_main_v3 (c : Dev nD) : W15 m ρ c (Proc.devRef .tc main_v3) = W3 m ρ c (Proc.devRef .tc main_v3) :=
  (keepH7 m ρ c main_v3 (by decide)).trans (W14_main_v3 m ρ c)
theorem W16_main_v3 (c : Dev nD) : W16 m ρ c (Proc.devRef .tc main_v3) = W3 m ρ c (Proc.devRef .tc main_v3) :=
  (W16_of_ne m ρ c main_v3 (by decide)).trans (W15_main_v3 m ρ c)
theorem W17_main_v3 (c : Dev nD) : W17 m ρ c (Proc.devRef .tc main_v3) = W3 m ρ c (Proc.devRef .tc main_v3) :=
  (keepH8 m ρ c main_v3 (by decide)).trans (W16_main_v3 m ρ c)
theorem W18_main_v3 (c : Dev nD) : W18 m ρ c (Proc.devRef .tc main_v3) = W3 m ρ c (Proc.devRef .tc main_v3) :=
  (W18_of_ne m ρ c main_v3 (by decide)).trans (W17_main_v3 m ρ c)
theorem W19_main_v3 (c : Dev nD) : W19 m ρ c (Proc.devRef .tc main_v3) = W3 m ρ c (Proc.devRef .tc main_v3) :=
  (keepH9 m ρ c main_v3 (by decide)).trans (W18_main_v3 m ρ c)
theorem W20_main_v3 (c : Dev nD) : W20 m ρ c (Proc.devRef .tc main_v3) = W3 m ρ c (Proc.devRef .tc main_v3) :=
  (W20_of_ne m ρ c main_v3 (by decide)).trans (W19_main_v3 m ρ c)
theorem W21_main_v3 (c : Dev nD) : W21 m ρ c (Proc.devRef .tc main_v3) = W3 m ρ c (Proc.devRef .tc main_v3) :=
  (keepH10 m ρ c main_v3 (by decide)).trans (W20_main_v3 m ρ c)
theorem W22_main_v3 (c : Dev nD) : W22 m ρ c (Proc.devRef .tc main_v3) = W3 m ρ c (Proc.devRef .tc main_v3) :=
  (W22_of_ne m ρ c main_v3 (by decide)).trans (W21_main_v3 m ρ c)
theorem W23_main_v3 (c : Dev nD) : W23 m ρ c (Proc.devRef .tc main_v3) = W3 m ρ c (Proc.devRef .tc main_v3) :=
  (keepH11 m ρ c main_v3 (by decide)).trans (W22_main_v3 m ρ c)
theorem W24_main_v3 (c : Dev nD) : W24 m ρ c (Proc.devRef .tc main_v3) = W3 m ρ c (Proc.devRef .tc main_v3) :=
  (W24_of_ne m ρ c main_v3 (by decide)).trans (W23_main_v3 m ρ c)
theorem W25_main_v3 (c : Dev nD) : W25 m ρ c (Proc.devRef .tc main_v3) = W3 m ρ c (Proc.devRef .tc main_v3) :=
  (keepH12 m ρ c main_v3 (by decide)).trans (W24_main_v3 m ρ c)
theorem W26_main_v3 (c : Dev nD) : W26 m ρ c (Proc.devRef .tc main_v3) = W3 m ρ c (Proc.devRef .tc main_v3) :=
  (W26_of_ne m ρ c main_v3 (by decide)).trans (W25_main_v3 m ρ c)
theorem W27_main_v3 (c : Dev nD) : W27 m ρ c (Proc.devRef .tc main_v3) = W3 m ρ c (Proc.devRef .tc main_v3) :=
  (keepH13 m ρ c main_v3 (by decide)).trans (W26_main_v3 m ρ c)
theorem W28_main_v3 (c : Dev nD) : W28 m ρ c (Proc.devRef .tc main_v3) = W3 m ρ c (Proc.devRef .tc main_v3) :=
  (W28_of_ne m ρ c main_v3 (by decide)).trans (W27_main_v3 m ρ c)
theorem W29_main_v3 (c : Dev nD) : W29 m ρ c (Proc.devRef .tc main_v3) = W3 m ρ c (Proc.devRef .tc main_v3) :=
  (keepH14 m ρ c main_v3 (by decide)).trans (W28_main_v3 m ρ c)
theorem W30_main_v3 (c : Dev nD) : W30 m ρ c (Proc.devRef .tc main_v3) = W3 m ρ c (Proc.devRef .tc main_v3) :=
  (W30_of_ne m ρ c main_v3 (by decide)).trans (W29_main_v3 m ρ c)
theorem W31_main_v3 (c : Dev nD) : W31 m ρ c (Proc.devRef .tc main_v3) = W3 m ρ c (Proc.devRef .tc main_v3) :=
  (keepH15 m ρ c main_v3 (by decide)).trans (W30_main_v3 m ρ c)
theorem W32_main_v3 (c : Dev nD) : W32 m ρ c (Proc.devRef .tc main_v3) = W3 m ρ c (Proc.devRef .tc main_v3) :=
  (W32_of_ne m ρ c main_v3 (by decide)).trans (W31_main_v3 m ρ c)
theorem W33_main_v3 (c : Dev nD) : W33 m ρ c (Proc.devRef .tc main_v3) = W3 m ρ c (Proc.devRef .tc main_v3) :=
  (keepH16 m ρ c main_v3 (by decide)).trans (W32_main_v3 m ρ c)
theorem W34_main_v3 (c : Dev nD) : W34 m ρ c (Proc.devRef .tc main_v3) = W3 m ρ c (Proc.devRef .tc main_v3) :=
  (W34_of_ne m ρ c main_v3 (by decide)).trans (W33_main_v3 m ρ c)
theorem W35_main_v3 (c : Dev nD) : W35 m ρ c (Proc.devRef .tc main_v3) = W3 m ρ c (Proc.devRef .tc main_v3) :=
  (keepH17 m ρ c main_v3 (by decide)).trans (W34_main_v3 m ρ c)
theorem W36_main_v3 (c : Dev nD) : W36 m ρ c (Proc.devRef .tc main_v3) = W3 m ρ c (Proc.devRef .tc main_v3) :=
  (W36_of_ne m ρ c main_v3 (by decide)).trans (W35_main_v3 m ρ c)
theorem W37_main_v3 (c : Dev nD) : W37 m ρ c (Proc.devRef .tc main_v3) = W3 m ρ c (Proc.devRef .tc main_v3) :=
  (keepH18 m ρ c main_v3 (by decide)).trans (W36_main_v3 m ρ c)
theorem W38_main_v3 (c : Dev nD) : W38 m ρ c (Proc.devRef .tc main_v3) = W3 m ρ c (Proc.devRef .tc main_v3) :=
  (W38_of_ne m ρ c main_v3 (by decide)).trans (W37_main_v3 m ρ c)
theorem W39_main_v3 (c : Dev nD) : W39 m ρ c (Proc.devRef .tc main_v3) = W3 m ρ c (Proc.devRef .tc main_v3) :=
  (keepH19 m ρ c main_v3 (by decide)).trans (W38_main_v3 m ρ c)
theorem W40_main_v3 (c : Dev nD) : W40 m ρ c (Proc.devRef .tc main_v3) = W3 m ρ c (Proc.devRef .tc main_v3) :=
  (W40_of_ne m ρ c main_v3 (by decide)).trans (W39_main_v3 m ρ c)
theorem W41_main_v3 (c : Dev nD) : W41 m ρ c (Proc.devRef .tc main_v3) = W3 m ρ c (Proc.devRef .tc main_v3) :=
  (keepH20 m ρ c main_v3 (by decide)).trans (W40_main_v3 m ρ c)
theorem W42_main_v3 (c : Dev nD) : W42 m ρ c (Proc.devRef .tc main_v3) = W3 m ρ c (Proc.devRef .tc main_v3) :=
  (W42_of_ne m ρ c main_v3 (by decide)).trans (W41_main_v3 m ρ c)
theorem W43_main_v3 (c : Dev nD) : W43 m ρ c (Proc.devRef .tc main_v3) = W3 m ρ c (Proc.devRef .tc main_v3) :=
  (keepH21 m ρ c main_v3 (by decide)).trans (W42_main_v3 m ρ c)
theorem W44_main_v3 (c : Dev nD) : W44 m ρ c (Proc.devRef .tc main_v3) = W3 m ρ c (Proc.devRef .tc main_v3) :=
  (W44_of_ne m ρ c main_v3 (by decide)).trans (W43_main_v3 m ρ c)
theorem W45_main_v3 (c : Dev nD) : W45 m ρ c (Proc.devRef .tc main_v3) = W3 m ρ c (Proc.devRef .tc main_v3) :=
  (keepH22 m ρ c main_v3 (by decide)).trans (W44_main_v3 m ρ c)
theorem W46_main_v3 (c : Dev nD) : W46 m ρ c (Proc.devRef .tc main_v3) = W3 m ρ c (Proc.devRef .tc main_v3) :=
  (W46_of_ne m ρ c main_v3 (by decide)).trans (W45_main_v3 m ρ c)
theorem W47_main_v3 (c : Dev nD) : W47 m ρ c (Proc.devRef .tc main_v3) = W3 m ρ c (Proc.devRef .tc main_v3) :=
  (keepH23 m ρ c main_v3 (by decide)).trans (W46_main_v3 m ρ c)
theorem W48_main_v3 (c : Dev nD) : W48 m ρ c (Proc.devRef .tc main_v3) = W3 m ρ c (Proc.devRef .tc main_v3) :=
  (W48_of_ne m ρ c main_v3 (by decide)).trans (W47_main_v3 m ρ c)
theorem W49_main_v3 (c : Dev nD) : W49 m ρ c (Proc.devRef .tc main_v3) = W3 m ρ c (Proc.devRef .tc main_v3) :=
  (keepH24 m ρ c main_v3 (by decide)).trans (W48_main_v3 m ρ c)
theorem W50_main_v3 (c : Dev nD) : W50 m ρ c (Proc.devRef .tc main_v3) = W3 m ρ c (Proc.devRef .tc main_v3) :=
  (W50_of_ne m ρ c main_v3 (by decide)).trans (W49_main_v3 m ρ c)
theorem W51_main_v3 (c : Dev nD) : W51 m ρ c (Proc.devRef .tc main_v3) = W3 m ρ c (Proc.devRef .tc main_v3) :=
  (keepH25 m ρ c main_v3 (by decide)).trans (W50_main_v3 m ρ c)
theorem W52_main_v3 (c : Dev nD) : W52 m ρ c (Proc.devRef .tc main_v3) = W3 m ρ c (Proc.devRef .tc main_v3) :=
  (W52_of_ne m ρ c main_v3 (by decide)).trans (W51_main_v3 m ρ c)
theorem W53_main_v3 (c : Dev nD) : W53 m ρ c (Proc.devRef .tc main_v3) = W3 m ρ c (Proc.devRef .tc main_v3) :=
  (keepH26 m ρ c main_v3 (by decide)).trans (W52_main_v3 m ρ c)
theorem W54_main_v3 (c : Dev nD) : W54 m ρ c (Proc.devRef .tc main_v3) = W3 m ρ c (Proc.devRef .tc main_v3) :=
  (W54_of_ne m ρ c main_v3 (by decide)).trans (W53_main_v3 m ρ c)
theorem W55_main_v3 (c : Dev nD) : W55 m ρ c (Proc.devRef .tc main_v3) = W3 m ρ c (Proc.devRef .tc main_v3) :=
  (keepH27 m ρ c main_v3 (by decide)).trans (W54_main_v3 m ρ c)
theorem W56_main_v3 (c : Dev nD) : W56 m ρ c (Proc.devRef .tc main_v3) = W3 m ρ c (Proc.devRef .tc main_v3) :=
  (W56_of_ne m ρ c main_v3 (by decide)).trans (W55_main_v3 m ρ c)
theorem W57_main_v3 (c : Dev nD) : W57 m ρ c (Proc.devRef .tc main_v3) = W3 m ρ c (Proc.devRef .tc main_v3) :=
  (keepH28 m ρ c main_v3 (by decide)).trans (W56_main_v3 m ρ c)
theorem W58_main_v3 (c : Dev nD) : W58 m ρ c (Proc.devRef .tc main_v3) = W3 m ρ c (Proc.devRef .tc main_v3) :=
  (W58_of_ne m ρ c main_v3 (by decide)).trans (W57_main_v3 m ρ c)
theorem W59_main_v3 (c : Dev nD) : W59 m ρ c (Proc.devRef .tc main_v3) = W3 m ρ c (Proc.devRef .tc main_v3) :=
  (keepH29 m ρ c main_v3 (by decide)).trans (W58_main_v3 m ρ c)
theorem W60_main_v3 (c : Dev nD) : W60 m ρ c (Proc.devRef .tc main_v3) = W3 m ρ c (Proc.devRef .tc main_v3) :=
  (W60_of_ne m ρ c main_v3 (by decide)).trans (W59_main_v3 m ρ c)
theorem W61_main_v3 (c : Dev nD) : W61 m ρ c (Proc.devRef .tc main_v3) = W3 m ρ c (Proc.devRef .tc main_v3) :=
  (keepH30 m ρ c main_v3 (by decide)).trans (W60_main_v3 m ρ c)
theorem W62_main_v3 (c : Dev nD) : W62 m ρ c (Proc.devRef .tc main_v3) = W3 m ρ c (Proc.devRef .tc main_v3) :=
  (W62_of_ne m ρ c main_v3 (by decide)).trans (W61_main_v3 m ρ c)
theorem W63_main_v3 (c : Dev nD) : W63 m ρ c (Proc.devRef .tc main_v3) = W3 m ρ c (Proc.devRef .tc main_v3) :=
  (keepH31 m ρ c main_v3 (by decide)).trans (W62_main_v3 m ρ c)
theorem W64_main_v3 (c : Dev nD) : W64 m ρ c (Proc.devRef .tc main_v3) = W3 m ρ c (Proc.devRef .tc main_v3) :=
  (W64_of_ne m ρ c main_v3 (by decide)).trans (W63_main_v3 m ρ c)
theorem W65_main_v3 (c : Dev nD) : W65 m ρ c (Proc.devRef .tc main_v3) = W3 m ρ c (Proc.devRef .tc main_v3) :=
  (keepH32 m ρ c main_v3 (by decide)).trans (W64_main_v3 m ρ c)

/-! ## main_v4 from boundary 3 on -/

theorem W3_main_v4 (c : Dev nD) : W3 m ρ c (Proc.devRef .tc main_v4) = W3 m ρ c (Proc.devRef .tc main_v4) := rfl
theorem W4_main_v4 (c : Dev nD) : W4 m ρ c (Proc.devRef .tc main_v4) = W3 m ρ c (Proc.devRef .tc main_v4) :=
  ((W4_arr m ρ c 2).trans (((dat1 (V3 m ρ) c).arrAt_in 2 rfl _).trans (A_eq1 (V3 m ρ) c 2))).trans (W3_main_v4 m ρ c)
theorem W5_main_v4 (c : Dev nD) : W5 m ρ c (Proc.devRef .tc main_v4) = W3 m ρ c (Proc.devRef .tc main_v4) :=
  (keepH2 m ρ c main_v4 (by decide)).trans (W4_main_v4 m ρ c)
theorem W6_main_v4 (c : Dev nD) : W6 m ρ c (Proc.devRef .tc main_v4) = W3 m ρ c (Proc.devRef .tc main_v4) :=
  ((W6_arr m ρ c 2).trans (((dat2 (V5 m ρ) c).arrAt_in 2 rfl _).trans (A_eq2 (V5 m ρ) c 2))).trans (W5_main_v4 m ρ c)
theorem W7_main_v4 (c : Dev nD) : W7 m ρ c (Proc.devRef .tc main_v4) = W3 m ρ c (Proc.devRef .tc main_v4) :=
  (keepH3 m ρ c main_v4 (by decide)).trans (W6_main_v4 m ρ c)
theorem W8_main_v4 (c : Dev nD) : W8 m ρ c (Proc.devRef .tc main_v4) = W3 m ρ c (Proc.devRef .tc main_v4) :=
  ((W8_arr m ρ c 2).trans (((dat3 (V7 m ρ) c).arrAt_in 2 rfl _).trans (A_eq3 (V7 m ρ) c 2))).trans (W7_main_v4 m ρ c)
theorem W9_main_v4 (c : Dev nD) : W9 m ρ c (Proc.devRef .tc main_v4) = W3 m ρ c (Proc.devRef .tc main_v4) :=
  (keepH4 m ρ c main_v4 (by decide)).trans (W8_main_v4 m ρ c)
theorem W10_main_v4 (c : Dev nD) : W10 m ρ c (Proc.devRef .tc main_v4) = W3 m ρ c (Proc.devRef .tc main_v4) :=
  ((W10_arr m ρ c 2).trans (((dat4 (V9 m ρ) c).arrAt_in 2 rfl _).trans (A_eq4 (V9 m ρ) c 2))).trans (W9_main_v4 m ρ c)
theorem W11_main_v4 (c : Dev nD) : W11 m ρ c (Proc.devRef .tc main_v4) = W3 m ρ c (Proc.devRef .tc main_v4) :=
  (keepH5 m ρ c main_v4 (by decide)).trans (W10_main_v4 m ρ c)
theorem W12_main_v4 (c : Dev nD) : W12 m ρ c (Proc.devRef .tc main_v4) = W3 m ρ c (Proc.devRef .tc main_v4) :=
  ((W12_arr m ρ c 2).trans (((dat5 (V11 m ρ) c).arrAt_in 2 rfl _).trans (A_eq5 (V11 m ρ) c 2))).trans (W11_main_v4 m ρ c)
theorem W13_main_v4 (c : Dev nD) : W13 m ρ c (Proc.devRef .tc main_v4) = W3 m ρ c (Proc.devRef .tc main_v4) :=
  (keepH6 m ρ c main_v4 (by decide)).trans (W12_main_v4 m ρ c)
theorem W14_main_v4 (c : Dev nD) : W14 m ρ c (Proc.devRef .tc main_v4) = W3 m ρ c (Proc.devRef .tc main_v4) :=
  ((W14_arr m ρ c 2).trans (((dat6 (V13 m ρ) c).arrAt_in 2 rfl _).trans (A_eq6 (V13 m ρ) c 2))).trans (W13_main_v4 m ρ c)
theorem W15_main_v4 (c : Dev nD) : W15 m ρ c (Proc.devRef .tc main_v4) = W3 m ρ c (Proc.devRef .tc main_v4) :=
  (keepH7 m ρ c main_v4 (by decide)).trans (W14_main_v4 m ρ c)
theorem W16_main_v4 (c : Dev nD) : W16 m ρ c (Proc.devRef .tc main_v4) = W3 m ρ c (Proc.devRef .tc main_v4) :=
  ((W16_arr m ρ c 2).trans (((dat7 (V15 m ρ) c).arrAt_in 2 rfl _).trans (A_eq7 (V15 m ρ) c 2))).trans (W15_main_v4 m ρ c)
theorem W17_main_v4 (c : Dev nD) : W17 m ρ c (Proc.devRef .tc main_v4) = W3 m ρ c (Proc.devRef .tc main_v4) :=
  (keepH8 m ρ c main_v4 (by decide)).trans (W16_main_v4 m ρ c)
theorem W18_main_v4 (c : Dev nD) : W18 m ρ c (Proc.devRef .tc main_v4) = W3 m ρ c (Proc.devRef .tc main_v4) :=
  ((W18_arr m ρ c 2).trans (((dat8 (V17 m ρ) c).arrAt_in 2 rfl _).trans (A_eq8 (V17 m ρ) c 2))).trans (W17_main_v4 m ρ c)
theorem W19_main_v4 (c : Dev nD) : W19 m ρ c (Proc.devRef .tc main_v4) = W3 m ρ c (Proc.devRef .tc main_v4) :=
  (keepH9 m ρ c main_v4 (by decide)).trans (W18_main_v4 m ρ c)
theorem W20_main_v4 (c : Dev nD) : W20 m ρ c (Proc.devRef .tc main_v4) = W3 m ρ c (Proc.devRef .tc main_v4) :=
  ((W20_arr m ρ c 2).trans (((dat9 (V19 m ρ) c).arrAt_in 2 rfl _).trans (A_eq9 (V19 m ρ) c 2))).trans (W19_main_v4 m ρ c)
theorem W21_main_v4 (c : Dev nD) : W21 m ρ c (Proc.devRef .tc main_v4) = W3 m ρ c (Proc.devRef .tc main_v4) :=
  (keepH10 m ρ c main_v4 (by decide)).trans (W20_main_v4 m ρ c)
theorem W22_main_v4 (c : Dev nD) : W22 m ρ c (Proc.devRef .tc main_v4) = W3 m ρ c (Proc.devRef .tc main_v4) :=
  ((W22_arr m ρ c 2).trans (((dat10 (V21 m ρ) c).arrAt_in 2 rfl _).trans (A_eq10 (V21 m ρ) c 2))).trans (W21_main_v4 m ρ c)
theorem W23_main_v4 (c : Dev nD) : W23 m ρ c (Proc.devRef .tc main_v4) = W3 m ρ c (Proc.devRef .tc main_v4) :=
  (keepH11 m ρ c main_v4 (by decide)).trans (W22_main_v4 m ρ c)
theorem W24_main_v4 (c : Dev nD) : W24 m ρ c (Proc.devRef .tc main_v4) = W3 m ρ c (Proc.devRef .tc main_v4) :=
  ((W24_arr m ρ c 2).trans (((dat11 (V23 m ρ) c).arrAt_in 2 rfl _).trans (A_eq11 (V23 m ρ) c 2))).trans (W23_main_v4 m ρ c)
theorem W25_main_v4 (c : Dev nD) : W25 m ρ c (Proc.devRef .tc main_v4) = W3 m ρ c (Proc.devRef .tc main_v4) :=
  (keepH12 m ρ c main_v4 (by decide)).trans (W24_main_v4 m ρ c)
theorem W26_main_v4 (c : Dev nD) : W26 m ρ c (Proc.devRef .tc main_v4) = W3 m ρ c (Proc.devRef .tc main_v4) :=
  ((W26_arr m ρ c 2).trans (((dat12 (V25 m ρ) c).arrAt_in 2 rfl _).trans (A_eq12 (V25 m ρ) c 2))).trans (W25_main_v4 m ρ c)
theorem W27_main_v4 (c : Dev nD) : W27 m ρ c (Proc.devRef .tc main_v4) = W3 m ρ c (Proc.devRef .tc main_v4) :=
  (keepH13 m ρ c main_v4 (by decide)).trans (W26_main_v4 m ρ c)
theorem W28_main_v4 (c : Dev nD) : W28 m ρ c (Proc.devRef .tc main_v4) = W3 m ρ c (Proc.devRef .tc main_v4) :=
  ((W28_arr m ρ c 2).trans (((dat13 (V27 m ρ) c).arrAt_in 2 rfl _).trans (A_eq13 (V27 m ρ) c 2))).trans (W27_main_v4 m ρ c)
theorem W29_main_v4 (c : Dev nD) : W29 m ρ c (Proc.devRef .tc main_v4) = W3 m ρ c (Proc.devRef .tc main_v4) :=
  (keepH14 m ρ c main_v4 (by decide)).trans (W28_main_v4 m ρ c)
theorem W30_main_v4 (c : Dev nD) : W30 m ρ c (Proc.devRef .tc main_v4) = W3 m ρ c (Proc.devRef .tc main_v4) :=
  ((W30_arr m ρ c 2).trans (((dat14 (V29 m ρ) c).arrAt_in 2 rfl _).trans (A_eq14 (V29 m ρ) c 2))).trans (W29_main_v4 m ρ c)
theorem W31_main_v4 (c : Dev nD) : W31 m ρ c (Proc.devRef .tc main_v4) = W3 m ρ c (Proc.devRef .tc main_v4) :=
  (keepH15 m ρ c main_v4 (by decide)).trans (W30_main_v4 m ρ c)
theorem W32_main_v4 (c : Dev nD) : W32 m ρ c (Proc.devRef .tc main_v4) = W3 m ρ c (Proc.devRef .tc main_v4) :=
  ((W32_arr m ρ c 2).trans (((dat15 (V31 m ρ) c).arrAt_in 2 rfl _).trans (A_eq15 (V31 m ρ) c 2))).trans (W31_main_v4 m ρ c)
theorem W33_main_v4 (c : Dev nD) : W33 m ρ c (Proc.devRef .tc main_v4) = W3 m ρ c (Proc.devRef .tc main_v4) :=
  (keepH16 m ρ c main_v4 (by decide)).trans (W32_main_v4 m ρ c)
theorem W34_main_v4 (c : Dev nD) : W34 m ρ c (Proc.devRef .tc main_v4) = W3 m ρ c (Proc.devRef .tc main_v4) :=
  ((W34_arr m ρ c 2).trans (((dat16 (V33 m ρ) c).arrAt_in 2 rfl _).trans (A_eq16 (V33 m ρ) c 2))).trans (W33_main_v4 m ρ c)
theorem W35_main_v4 (c : Dev nD) : W35 m ρ c (Proc.devRef .tc main_v4) = W3 m ρ c (Proc.devRef .tc main_v4) :=
  (keepH17 m ρ c main_v4 (by decide)).trans (W34_main_v4 m ρ c)
theorem W36_main_v4 (c : Dev nD) : W36 m ρ c (Proc.devRef .tc main_v4) = W3 m ρ c (Proc.devRef .tc main_v4) :=
  ((W36_arr m ρ c 2).trans (((dat17 (V35 m ρ) c).arrAt_in 2 rfl _).trans (A_eq17 (V35 m ρ) c 2))).trans (W35_main_v4 m ρ c)
theorem W37_main_v4 (c : Dev nD) : W37 m ρ c (Proc.devRef .tc main_v4) = W3 m ρ c (Proc.devRef .tc main_v4) :=
  (keepH18 m ρ c main_v4 (by decide)).trans (W36_main_v4 m ρ c)
theorem W38_main_v4 (c : Dev nD) : W38 m ρ c (Proc.devRef .tc main_v4) = W3 m ρ c (Proc.devRef .tc main_v4) :=
  ((W38_arr m ρ c 2).trans (((dat18 (V37 m ρ) c).arrAt_in 2 rfl _).trans (A_eq18 (V37 m ρ) c 2))).trans (W37_main_v4 m ρ c)
theorem W39_main_v4 (c : Dev nD) : W39 m ρ c (Proc.devRef .tc main_v4) = W3 m ρ c (Proc.devRef .tc main_v4) :=
  (keepH19 m ρ c main_v4 (by decide)).trans (W38_main_v4 m ρ c)
theorem W40_main_v4 (c : Dev nD) : W40 m ρ c (Proc.devRef .tc main_v4) = W3 m ρ c (Proc.devRef .tc main_v4) :=
  ((W40_arr m ρ c 2).trans (((dat19 (V39 m ρ) c).arrAt_in 2 rfl _).trans (A_eq19 (V39 m ρ) c 2))).trans (W39_main_v4 m ρ c)
theorem W41_main_v4 (c : Dev nD) : W41 m ρ c (Proc.devRef .tc main_v4) = W3 m ρ c (Proc.devRef .tc main_v4) :=
  (keepH20 m ρ c main_v4 (by decide)).trans (W40_main_v4 m ρ c)
theorem W42_main_v4 (c : Dev nD) : W42 m ρ c (Proc.devRef .tc main_v4) = W3 m ρ c (Proc.devRef .tc main_v4) :=
  ((W42_arr m ρ c 2).trans (((dat20 (V41 m ρ) c).arrAt_in 2 rfl _).trans (A_eq20 (V41 m ρ) c 2))).trans (W41_main_v4 m ρ c)
theorem W43_main_v4 (c : Dev nD) : W43 m ρ c (Proc.devRef .tc main_v4) = W3 m ρ c (Proc.devRef .tc main_v4) :=
  (keepH21 m ρ c main_v4 (by decide)).trans (W42_main_v4 m ρ c)
theorem W44_main_v4 (c : Dev nD) : W44 m ρ c (Proc.devRef .tc main_v4) = W3 m ρ c (Proc.devRef .tc main_v4) :=
  ((W44_arr m ρ c 2).trans (((dat21 (V43 m ρ) c).arrAt_in 2 rfl _).trans (A_eq21 (V43 m ρ) c 2))).trans (W43_main_v4 m ρ c)
theorem W45_main_v4 (c : Dev nD) : W45 m ρ c (Proc.devRef .tc main_v4) = W3 m ρ c (Proc.devRef .tc main_v4) :=
  (keepH22 m ρ c main_v4 (by decide)).trans (W44_main_v4 m ρ c)
theorem W46_main_v4 (c : Dev nD) : W46 m ρ c (Proc.devRef .tc main_v4) = W3 m ρ c (Proc.devRef .tc main_v4) :=
  ((W46_arr m ρ c 2).trans (((dat22 (V45 m ρ) c).arrAt_in 2 rfl _).trans (A_eq22 (V45 m ρ) c 2))).trans (W45_main_v4 m ρ c)
theorem W47_main_v4 (c : Dev nD) : W47 m ρ c (Proc.devRef .tc main_v4) = W3 m ρ c (Proc.devRef .tc main_v4) :=
  (keepH23 m ρ c main_v4 (by decide)).trans (W46_main_v4 m ρ c)
theorem W48_main_v4 (c : Dev nD) : W48 m ρ c (Proc.devRef .tc main_v4) = W3 m ρ c (Proc.devRef .tc main_v4) :=
  ((W48_arr m ρ c 2).trans (((dat23 (V47 m ρ) c).arrAt_in 2 rfl _).trans (A_eq23 (V47 m ρ) c 2))).trans (W47_main_v4 m ρ c)
theorem W49_main_v4 (c : Dev nD) : W49 m ρ c (Proc.devRef .tc main_v4) = W3 m ρ c (Proc.devRef .tc main_v4) :=
  (keepH24 m ρ c main_v4 (by decide)).trans (W48_main_v4 m ρ c)
theorem W50_main_v4 (c : Dev nD) : W50 m ρ c (Proc.devRef .tc main_v4) = W3 m ρ c (Proc.devRef .tc main_v4) :=
  ((W50_arr m ρ c 2).trans (((dat24 (V49 m ρ) c).arrAt_in 2 rfl _).trans (A_eq24 (V49 m ρ) c 2))).trans (W49_main_v4 m ρ c)
theorem W51_main_v4 (c : Dev nD) : W51 m ρ c (Proc.devRef .tc main_v4) = W3 m ρ c (Proc.devRef .tc main_v4) :=
  (keepH25 m ρ c main_v4 (by decide)).trans (W50_main_v4 m ρ c)
theorem W52_main_v4 (c : Dev nD) : W52 m ρ c (Proc.devRef .tc main_v4) = W3 m ρ c (Proc.devRef .tc main_v4) :=
  ((W52_arr m ρ c 2).trans (((dat25 (V51 m ρ) c).arrAt_in 2 rfl _).trans (A_eq25 (V51 m ρ) c 2))).trans (W51_main_v4 m ρ c)
theorem W53_main_v4 (c : Dev nD) : W53 m ρ c (Proc.devRef .tc main_v4) = W3 m ρ c (Proc.devRef .tc main_v4) :=
  (keepH26 m ρ c main_v4 (by decide)).trans (W52_main_v4 m ρ c)
theorem W54_main_v4 (c : Dev nD) : W54 m ρ c (Proc.devRef .tc main_v4) = W3 m ρ c (Proc.devRef .tc main_v4) :=
  ((W54_arr m ρ c 2).trans (((dat26 (V53 m ρ) c).arrAt_in 2 rfl _).trans (A_eq26 (V53 m ρ) c 2))).trans (W53_main_v4 m ρ c)
theorem W55_main_v4 (c : Dev nD) : W55 m ρ c (Proc.devRef .tc main_v4) = W3 m ρ c (Proc.devRef .tc main_v4) :=
  (keepH27 m ρ c main_v4 (by decide)).trans (W54_main_v4 m ρ c)
theorem W56_main_v4 (c : Dev nD) : W56 m ρ c (Proc.devRef .tc main_v4) = W3 m ρ c (Proc.devRef .tc main_v4) :=
  ((W56_arr m ρ c 2).trans (((dat27 (V55 m ρ) c).arrAt_in 2 rfl _).trans (A_eq27 (V55 m ρ) c 2))).trans (W55_main_v4 m ρ c)
theorem W57_main_v4 (c : Dev nD) : W57 m ρ c (Proc.devRef .tc main_v4) = W3 m ρ c (Proc.devRef .tc main_v4) :=
  (keepH28 m ρ c main_v4 (by decide)).trans (W56_main_v4 m ρ c)
theorem W58_main_v4 (c : Dev nD) : W58 m ρ c (Proc.devRef .tc main_v4) = W3 m ρ c (Proc.devRef .tc main_v4) :=
  ((W58_arr m ρ c 2).trans (((dat28 (V57 m ρ) c).arrAt_in 2 rfl _).trans (A_eq28 (V57 m ρ) c 2))).trans (W57_main_v4 m ρ c)
theorem W59_main_v4 (c : Dev nD) : W59 m ρ c (Proc.devRef .tc main_v4) = W3 m ρ c (Proc.devRef .tc main_v4) :=
  (keepH29 m ρ c main_v4 (by decide)).trans (W58_main_v4 m ρ c)
theorem W60_main_v4 (c : Dev nD) : W60 m ρ c (Proc.devRef .tc main_v4) = W3 m ρ c (Proc.devRef .tc main_v4) :=
  ((W60_arr m ρ c 2).trans (((dat29 (V59 m ρ) c).arrAt_in 2 rfl _).trans (A_eq29 (V59 m ρ) c 2))).trans (W59_main_v4 m ρ c)
theorem W61_main_v4 (c : Dev nD) : W61 m ρ c (Proc.devRef .tc main_v4) = W3 m ρ c (Proc.devRef .tc main_v4) :=
  (keepH30 m ρ c main_v4 (by decide)).trans (W60_main_v4 m ρ c)
theorem W62_main_v4 (c : Dev nD) : W62 m ρ c (Proc.devRef .tc main_v4) = W3 m ρ c (Proc.devRef .tc main_v4) :=
  ((W62_arr m ρ c 2).trans (((dat30 (V61 m ρ) c).arrAt_in 2 rfl _).trans (A_eq30 (V61 m ρ) c 2))).trans (W61_main_v4 m ρ c)
theorem W63_main_v4 (c : Dev nD) : W63 m ρ c (Proc.devRef .tc main_v4) = W3 m ρ c (Proc.devRef .tc main_v4) :=
  (keepH31 m ρ c main_v4 (by decide)).trans (W62_main_v4 m ρ c)
theorem W64_main_v4 (c : Dev nD) : W64 m ρ c (Proc.devRef .tc main_v4) = W3 m ρ c (Proc.devRef .tc main_v4) :=
  ((W64_arr m ρ c 2).trans (((dat31 (V63 m ρ) c).arrAt_in 2 rfl _).trans (A_eq31 (V63 m ρ) c 2))).trans (W63_main_v4 m ρ c)
theorem W65_main_v4 (c : Dev nD) : W65 m ρ c (Proc.devRef .tc main_v4) = W3 m ρ c (Proc.devRef .tc main_v4) :=
  (keepH32 m ρ c main_v4 (by decide)).trans (W64_main_v4 m ρ c)

end Cert.KernelIdeal.Val

end
-- ==== Proof.KI.KeepOut.lean ====
import proofs.«116342_j30605936951494_1_alg».proof.Proof.KI.Keep

/-!
# Each chunk's result at the last stretch's entry

Region K writes its result array once, at its exit (boundary 2K+2), as what its pipeline's write-backs fold to. No later
item writes it: the later stretches write their own row bands, the later regions their own arrays. So at boundary 66,
where the concatenations read it, it still holds that fold.
-/

set_option maxRecDepth 16384

noncomputable section

namespace Cert.KernelIdeal.Val

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ) (ρ : Dev nD → PrngReg)

/-! ## chunk 1: main_v6 -/

theorem out1_kept (c : Dev nD) : W66 m ρ c (Proc.devRef .tc main_v6) = W4 m ρ c (Proc.devRef .tc main_v6) :=
  (W66_of_ne m ρ c main_v6 (by decide)).trans
  ((keepH32 m ρ c main_v6 (by decide)).trans
  ((W64_of_ne m ρ c main_v6 (by decide)).trans
  ((keepH31 m ρ c main_v6 (by decide)).trans
  ((W62_of_ne m ρ c main_v6 (by decide)).trans
  ((keepH30 m ρ c main_v6 (by decide)).trans
  ((W60_of_ne m ρ c main_v6 (by decide)).trans
  ((keepH29 m ρ c main_v6 (by decide)).trans
  ((W58_of_ne m ρ c main_v6 (by decide)).trans
  ((keepH28 m ρ c main_v6 (by decide)).trans
  ((W56_of_ne m ρ c main_v6 (by decide)).trans
  ((keepH27 m ρ c main_v6 (by decide)).trans
  ((W54_of_ne m ρ c main_v6 (by decide)).trans
  ((keepH26 m ρ c main_v6 (by decide)).trans
  ((W52_of_ne m ρ c main_v6 (by decide)).trans
  ((keepH25 m ρ c main_v6 (by decide)).trans
  ((W50_of_ne m ρ c main_v6 (by decide)).trans
  ((keepH24 m ρ c main_v6 (by decide)).trans
  ((W48_of_ne m ρ c main_v6 (by decide)).trans
  ((keepH23 m ρ c main_v6 (by decide)).trans
  ((W46_of_ne m ρ c main_v6 (by decide)).trans
  ((keepH22 m ρ c main_v6 (by decide)).trans
  ((W44_of_ne m ρ c main_v6 (by decide)).trans
  ((keepH21 m ρ c main_v6 (by decide)).trans
  ((W42_of_ne m ρ c main_v6 (by decide)).trans
  ((keepH20 m ρ c main_v6 (by decide)).trans
  ((W40_of_ne m ρ c main_v6 (by decide)).trans
  ((keepH19 m ρ c main_v6 (by decide)).trans
  ((W38_of_ne m ρ c main_v6 (by decide)).trans
  ((keepH18 m ρ c main_v6 (by decide)).trans
  ((W36_of_ne m ρ c main_v6 (by decide)).trans
  ((keepH17 m ρ c main_v6 (by decide)).trans
  ((W34_of_ne m ρ c main_v6 (by decide)).trans
  ((keepH16 m ρ c main_v6 (by decide)).trans
  ((W32_of_ne m ρ c main_v6 (by decide)).trans
  ((keepH15 m ρ c main_v6 (by decide)).trans
  ((W30_of_ne m ρ c main_v6 (by decide)).trans
  ((keepH14 m ρ c main_v6 (by decide)).trans
  ((W28_of_ne m ρ c main_v6 (by decide)).trans
  ((keepH13 m ρ c main_v6 (by decide)).trans
  ((W26_of_ne m ρ c main_v6 (by decide)).trans
  ((keepH12 m ρ c main_v6 (by decide)).trans
  ((W24_of_ne m ρ c main_v6 (by decide)).trans
  ((keepH11 m ρ c main_v6 (by decide)).trans
  ((W22_of_ne m ρ c main_v6 (by decide)).trans
  ((keepH10 m ρ c main_v6 (by decide)).trans
  ((W20_of_ne m ρ c main_v6 (by decide)).trans
  ((keepH9 m ρ c main_v6 (by decide)).trans
  ((W18_of_ne m ρ c main_v6 (by decide)).trans
  ((keepH8 m ρ c main_v6 (by decide)).trans
  ((W16_of_ne m ρ c main_v6 (by decide)).trans
  ((keepH7 m ρ c main_v6 (by decide)).trans
  ((W14_of_ne m ρ c main_v6 (by decide)).trans
  ((keepH6 m ρ c main_v6 (by decide)).trans
  ((W12_of_ne m ρ c main_v6 (by decide)).trans
  ((keepH5 m ρ c main_v6 (by decide)).trans
  ((W10_of_ne m ρ c main_v6 (by decide)).trans
  ((keepH4 m ρ c main_v6 (by decide)).trans
  ((W8_of_ne m ρ c main_v6 (by decide)).trans
  ((keepH3 m ρ c main_v6 (by decide)).trans
  ((W6_of_ne m ρ c main_v6 (by decide)).trans
  ((keepH2 m ρ c main_v6 (by decide)))))))))))))))))))))))))))))))))))))))))))))))))))))))))))))))
theorem out1_final (c : Dev nD) :
    W66 m ρ c (Proc.devRef .tc main_v6) = (dat1 (V3 m ρ) c).arrAt 3 cfg1.N :=
  (out1_kept m ρ c).trans (W4_arr m ρ c 3)

/-! ## chunk 2: main_v9 -/

theorem out2_kept (c : Dev nD) : W66 m ρ c (Proc.devRef .tc main_v9) = W6 m ρ c (Proc.devRef .tc main_v9) :=
  (W66_of_ne m ρ c main_v9 (by decide)).trans
  ((keepH32 m ρ c main_v9 (by decide)).trans
  ((W64_of_ne m ρ c main_v9 (by decide)).trans
  ((keepH31 m ρ c main_v9 (by decide)).trans
  ((W62_of_ne m ρ c main_v9 (by decide)).trans
  ((keepH30 m ρ c main_v9 (by decide)).trans
  ((W60_of_ne m ρ c main_v9 (by decide)).trans
  ((keepH29 m ρ c main_v9 (by decide)).trans
  ((W58_of_ne m ρ c main_v9 (by decide)).trans
  ((keepH28 m ρ c main_v9 (by decide)).trans
  ((W56_of_ne m ρ c main_v9 (by decide)).trans
  ((keepH27 m ρ c main_v9 (by decide)).trans
  ((W54_of_ne m ρ c main_v9 (by decide)).trans
  ((keepH26 m ρ c main_v9 (by decide)).trans
  ((W52_of_ne m ρ c main_v9 (by decide)).trans
  ((keepH25 m ρ c main_v9 (by decide)).trans
  ((W50_of_ne m ρ c main_v9 (by decide)).trans
  ((keepH24 m ρ c main_v9 (by decide)).trans
  ((W48_of_ne m ρ c main_v9 (by decide)).trans
  ((keepH23 m ρ c main_v9 (by decide)).trans
  ((W46_of_ne m ρ c main_v9 (by decide)).trans
  ((keepH22 m ρ c main_v9 (by decide)).trans
  ((W44_of_ne m ρ c main_v9 (by decide)).trans
  ((keepH21 m ρ c main_v9 (by decide)).trans
  ((W42_of_ne m ρ c main_v9 (by decide)).trans
  ((keepH20 m ρ c main_v9 (by decide)).trans
  ((W40_of_ne m ρ c main_v9 (by decide)).trans
  ((keepH19 m ρ c main_v9 (by decide)).trans
  ((W38_of_ne m ρ c main_v9 (by decide)).trans
  ((keepH18 m ρ c main_v9 (by decide)).trans
  ((W36_of_ne m ρ c main_v9 (by decide)).trans
  ((keepH17 m ρ c main_v9 (by decide)).trans
  ((W34_of_ne m ρ c main_v9 (by decide)).trans
  ((keepH16 m ρ c main_v9 (by decide)).trans
  ((W32_of_ne m ρ c main_v9 (by decide)).trans
  ((keepH15 m ρ c main_v9 (by decide)).trans
  ((W30_of_ne m ρ c main_v9 (by decide)).trans
  ((keepH14 m ρ c main_v9 (by decide)).trans
  ((W28_of_ne m ρ c main_v9 (by decide)).trans
  ((keepH13 m ρ c main_v9 (by decide)).trans
  ((W26_of_ne m ρ c main_v9 (by decide)).trans
  ((keepH12 m ρ c main_v9 (by decide)).trans
  ((W24_of_ne m ρ c main_v9 (by decide)).trans
  ((keepH11 m ρ c main_v9 (by decide)).trans
  ((W22_of_ne m ρ c main_v9 (by decide)).trans
  ((keepH10 m ρ c main_v9 (by decide)).trans
  ((W20_of_ne m ρ c main_v9 (by decide)).trans
  ((keepH9 m ρ c main_v9 (by decide)).trans
  ((W18_of_ne m ρ c main_v9 (by decide)).trans
  ((keepH8 m ρ c main_v9 (by decide)).trans
  ((W16_of_ne m ρ c main_v9 (by decide)).trans
  ((keepH7 m ρ c main_v9 (by decide)).trans
  ((W14_of_ne m ρ c main_v9 (by decide)).trans
  ((keepH6 m ρ c main_v9 (by decide)).trans
  ((W12_of_ne m ρ c main_v9 (by decide)).trans
  ((keepH5 m ρ c main_v9 (by decide)).trans
  ((W10_of_ne m ρ c main_v9 (by decide)).trans
  ((keepH4 m ρ c main_v9 (by decide)).trans
  ((W8_of_ne m ρ c main_v9 (by decide)).trans
  ((keepH3 m ρ c main_v9 (by decide)))))))))))))))))))))))))))))))))))))))))))))))))))))))))))))
theorem out2_final (c : Dev nD) :
    W66 m ρ c (Proc.devRef .tc main_v9) = (dat2 (V5 m ρ) c).arrAt 3 cfg2.N :=
  (out2_kept m ρ c).trans (W6_arr m ρ c 3)

/-! ## chunk 3: main_v12 -/

theorem out3_kept (c : Dev nD) : W66 m ρ c (Proc.devRef .tc main_v12) = W8 m ρ c (Proc.devRef .tc main_v12) :=
  (W66_of_ne m ρ c main_v12 (by decide)).trans
  ((keepH32 m ρ c main_v12 (by decide)).trans
  ((W64_of_ne m ρ c main_v12 (by decide)).trans
  ((keepH31 m ρ c main_v12 (by decide)).trans
  ((W62_of_ne m ρ c main_v12 (by decide)).trans
  ((keepH30 m ρ c main_v12 (by decide)).trans
  ((W60_of_ne m ρ c main_v12 (by decide)).trans
  ((keepH29 m ρ c main_v12 (by decide)).trans
  ((W58_of_ne m ρ c main_v12 (by decide)).trans
  ((keepH28 m ρ c main_v12 (by decide)).trans
  ((W56_of_ne m ρ c main_v12 (by decide)).trans
  ((keepH27 m ρ c main_v12 (by decide)).trans
  ((W54_of_ne m ρ c main_v12 (by decide)).trans
  ((keepH26 m ρ c main_v12 (by decide)).trans
  ((W52_of_ne m ρ c main_v12 (by decide)).trans
  ((keepH25 m ρ c main_v12 (by decide)).trans
  ((W50_of_ne m ρ c main_v12 (by decide)).trans
  ((keepH24 m ρ c main_v12 (by decide)).trans
  ((W48_of_ne m ρ c main_v12 (by decide)).trans
  ((keepH23 m ρ c main_v12 (by decide)).trans
  ((W46_of_ne m ρ c main_v12 (by decide)).trans
  ((keepH22 m ρ c main_v12 (by decide)).trans
  ((W44_of_ne m ρ c main_v12 (by decide)).trans
  ((keepH21 m ρ c main_v12 (by decide)).trans
  ((W42_of_ne m ρ c main_v12 (by decide)).trans
  ((keepH20 m ρ c main_v12 (by decide)).trans
  ((W40_of_ne m ρ c main_v12 (by decide)).trans
  ((keepH19 m ρ c main_v12 (by decide)).trans
  ((W38_of_ne m ρ c main_v12 (by decide)).trans
  ((keepH18 m ρ c main_v12 (by decide)).trans
  ((W36_of_ne m ρ c main_v12 (by decide)).trans
  ((keepH17 m ρ c main_v12 (by decide)).trans
  ((W34_of_ne m ρ c main_v12 (by decide)).trans
  ((keepH16 m ρ c main_v12 (by decide)).trans
  ((W32_of_ne m ρ c main_v12 (by decide)).trans
  ((keepH15 m ρ c main_v12 (by decide)).trans
  ((W30_of_ne m ρ c main_v12 (by decide)).trans
  ((keepH14 m ρ c main_v12 (by decide)).trans
  ((W28_of_ne m ρ c main_v12 (by decide)).trans
  ((keepH13 m ρ c main_v12 (by decide)).trans
  ((W26_of_ne m ρ c main_v12 (by decide)).trans
  ((keepH12 m ρ c main_v12 (by decide)).trans
  ((W24_of_ne m ρ c main_v12 (by decide)).trans
  ((keepH11 m ρ c main_v12 (by decide)).trans
  ((W22_of_ne m ρ c main_v12 (by decide)).trans
  ((keepH10 m ρ c main_v12 (by decide)).trans
  ((W20_of_ne m ρ c main_v12 (by decide)).trans
  ((keepH9 m ρ c main_v12 (by decide)).trans
  ((W18_of_ne m ρ c main_v12 (by decide)).trans
  ((keepH8 m ρ c main_v12 (by decide)).trans
  ((W16_of_ne m ρ c main_v12 (by decide)).trans
  ((keepH7 m ρ c main_v12 (by decide)).trans
  ((W14_of_ne m ρ c main_v12 (by decide)).trans
  ((keepH6 m ρ c main_v12 (by decide)).trans
  ((W12_of_ne m ρ c main_v12 (by decide)).trans
  ((keepH5 m ρ c main_v12 (by decide)).trans
  ((W10_of_ne m ρ c main_v12 (by decide)).trans
  ((keepH4 m ρ c main_v12 (by decide)))))))))))))))))))))))))))))))))))))))))))))))))))))))))))
theorem out3_final (c : Dev nD) :
    W66 m ρ c (Proc.devRef .tc main_v12) = (dat3 (V7 m ρ) c).arrAt 3 cfg3.N :=
  (out3_kept m ρ c).trans (W8_arr m ρ c 3)

/-! ## chunk 4: main_v15 -/

theorem out4_kept (c : Dev nD) : W66 m ρ c (Proc.devRef .tc main_v15) = W10 m ρ c (Proc.devRef .tc main_v15) :=
  (W66_of_ne m ρ c main_v15 (by decide)).trans
  ((keepH32 m ρ c main_v15 (by decide)).trans
  ((W64_of_ne m ρ c main_v15 (by decide)).trans
  ((keepH31 m ρ c main_v15 (by decide)).trans
  ((W62_of_ne m ρ c main_v15 (by decide)).trans
  ((keepH30 m ρ c main_v15 (by decide)).trans
  ((W60_of_ne m ρ c main_v15 (by decide)).trans
  ((keepH29 m ρ c main_v15 (by decide)).trans
  ((W58_of_ne m ρ c main_v15 (by decide)).trans
  ((keepH28 m ρ c main_v15 (by decide)).trans
  ((W56_of_ne m ρ c main_v15 (by decide)).trans
  ((keepH27 m ρ c main_v15 (by decide)).trans
  ((W54_of_ne m ρ c main_v15 (by decide)).trans
  ((keepH26 m ρ c main_v15 (by decide)).trans
  ((W52_of_ne m ρ c main_v15 (by decide)).trans
  ((keepH25 m ρ c main_v15 (by decide)).trans
  ((W50_of_ne m ρ c main_v15 (by decide)).trans
  ((keepH24 m ρ c main_v15 (by decide)).trans
  ((W48_of_ne m ρ c main_v15 (by decide)).trans
  ((keepH23 m ρ c main_v15 (by decide)).trans
  ((W46_of_ne m ρ c main_v15 (by decide)).trans
  ((keepH22 m ρ c main_v15 (by decide)).trans
  ((W44_of_ne m ρ c main_v15 (by decide)).trans
  ((keepH21 m ρ c main_v15 (by decide)).trans
  ((W42_of_ne m ρ c main_v15 (by decide)).trans
  ((keepH20 m ρ c main_v15 (by decide)).trans
  ((W40_of_ne m ρ c main_v15 (by decide)).trans
  ((keepH19 m ρ c main_v15 (by decide)).trans
  ((W38_of_ne m ρ c main_v15 (by decide)).trans
  ((keepH18 m ρ c main_v15 (by decide)).trans
  ((W36_of_ne m ρ c main_v15 (by decide)).trans
  ((keepH17 m ρ c main_v15 (by decide)).trans
  ((W34_of_ne m ρ c main_v15 (by decide)).trans
  ((keepH16 m ρ c main_v15 (by decide)).trans
  ((W32_of_ne m ρ c main_v15 (by decide)).trans
  ((keepH15 m ρ c main_v15 (by decide)).trans
  ((W30_of_ne m ρ c main_v15 (by decide)).trans
  ((keepH14 m ρ c main_v15 (by decide)).trans
  ((W28_of_ne m ρ c main_v15 (by decide)).trans
  ((keepH13 m ρ c main_v15 (by decide)).trans
  ((W26_of_ne m ρ c main_v15 (by decide)).trans
  ((keepH12 m ρ c main_v15 (by decide)).trans
  ((W24_of_ne m ρ c main_v15 (by decide)).trans
  ((keepH11 m ρ c main_v15 (by decide)).trans
  ((W22_of_ne m ρ c main_v15 (by decide)).trans
  ((keepH10 m ρ c main_v15 (by decide)).trans
  ((W20_of_ne m ρ c main_v15 (by decide)).trans
  ((keepH9 m ρ c main_v15 (by decide)).trans
  ((W18_of_ne m ρ c main_v15 (by decide)).trans
  ((keepH8 m ρ c main_v15 (by decide)).trans
  ((W16_of_ne m ρ c main_v15 (by decide)).trans
  ((keepH7 m ρ c main_v15 (by decide)).trans
  ((W14_of_ne m ρ c main_v15 (by decide)).trans
  ((keepH6 m ρ c main_v15 (by decide)).trans
  ((W12_of_ne m ρ c main_v15 (by decide)).trans
  ((keepH5 m ρ c main_v15 (by decide)))))))))))))))))))))))))))))))))))))))))))))))))))))))))
theorem out4_final (c : Dev nD) :
    W66 m ρ c (Proc.devRef .tc main_v15) = (dat4 (V9 m ρ) c).arrAt 3 cfg4.N :=
  (out4_kept m ρ c).trans (W10_arr m ρ c 3)

/-! ## chunk 5: main_v18 -/

theorem out5_kept (c : Dev nD) : W66 m ρ c (Proc.devRef .tc main_v18) = W12 m ρ c (Proc.devRef .tc main_v18) :=
  (W66_of_ne m ρ c main_v18 (by decide)).trans
  ((keepH32 m ρ c main_v18 (by decide)).trans
  ((W64_of_ne m ρ c main_v18 (by decide)).trans
  ((keepH31 m ρ c main_v18 (by decide)).trans
  ((W62_of_ne m ρ c main_v18 (by decide)).trans
  ((keepH30 m ρ c main_v18 (by decide)).trans
  ((W60_of_ne m ρ c main_v18 (by decide)).trans
  ((keepH29 m ρ c main_v18 (by decide)).trans
  ((W58_of_ne m ρ c main_v18 (by decide)).trans
  ((keepH28 m ρ c main_v18 (by decide)).trans
  ((W56_of_ne m ρ c main_v18 (by decide)).trans
  ((keepH27 m ρ c main_v18 (by decide)).trans
  ((W54_of_ne m ρ c main_v18 (by decide)).trans
  ((keepH26 m ρ c main_v18 (by decide)).trans
  ((W52_of_ne m ρ c main_v18 (by decide)).trans
  ((keepH25 m ρ c main_v18 (by decide)).trans
  ((W50_of_ne m ρ c main_v18 (by decide)).trans
  ((keepH24 m ρ c main_v18 (by decide)).trans
  ((W48_of_ne m ρ c main_v18 (by decide)).trans
  ((keepH23 m ρ c main_v18 (by decide)).trans
  ((W46_of_ne m ρ c main_v18 (by decide)).trans
  ((keepH22 m ρ c main_v18 (by decide)).trans
  ((W44_of_ne m ρ c main_v18 (by decide)).trans
  ((keepH21 m ρ c main_v18 (by decide)).trans
  ((W42_of_ne m ρ c main_v18 (by decide)).trans
  ((keepH20 m ρ c main_v18 (by decide)).trans
  ((W40_of_ne m ρ c main_v18 (by decide)).trans
  ((keepH19 m ρ c main_v18 (by decide)).trans
  ((W38_of_ne m ρ c main_v18 (by decide)).trans
  ((keepH18 m ρ c main_v18 (by decide)).trans
  ((W36_of_ne m ρ c main_v18 (by decide)).trans
  ((keepH17 m ρ c main_v18 (by decide)).trans
  ((W34_of_ne m ρ c main_v18 (by decide)).trans
  ((keepH16 m ρ c main_v18 (by decide)).trans
  ((W32_of_ne m ρ c main_v18 (by decide)).trans
  ((keepH15 m ρ c main_v18 (by decide)).trans
  ((W30_of_ne m ρ c main_v18 (by decide)).trans
  ((keepH14 m ρ c main_v18 (by decide)).trans
  ((W28_of_ne m ρ c main_v18 (by decide)).trans
  ((keepH13 m ρ c main_v18 (by decide)).trans
  ((W26_of_ne m ρ c main_v18 (by decide)).trans
  ((keepH12 m ρ c main_v18 (by decide)).trans
  ((W24_of_ne m ρ c main_v18 (by decide)).trans
  ((keepH11 m ρ c main_v18 (by decide)).trans
  ((W22_of_ne m ρ c main_v18 (by decide)).trans
  ((keepH10 m ρ c main_v18 (by decide)).trans
  ((W20_of_ne m ρ c main_v18 (by decide)).trans
  ((keepH9 m ρ c main_v18 (by decide)).trans
  ((W18_of_ne m ρ c main_v18 (by decide)).trans
  ((keepH8 m ρ c main_v18 (by decide)).trans
  ((W16_of_ne m ρ c main_v18 (by decide)).trans
  ((keepH7 m ρ c main_v18 (by decide)).trans
  ((W14_of_ne m ρ c main_v18 (by decide)).trans
  ((keepH6 m ρ c main_v18 (by decide)))))))))))))))))))))))))))))))))))))))))))))))))))))))
theorem out5_final (c : Dev nD) :
    W66 m ρ c (Proc.devRef .tc main_v18) = (dat5 (V11 m ρ) c).arrAt 3 cfg5.N :=
  (out5_kept m ρ c).trans (W12_arr m ρ c 3)

/-! ## chunk 6: main_v21 -/

theorem out6_kept (c : Dev nD) : W66 m ρ c (Proc.devRef .tc main_v21) = W14 m ρ c (Proc.devRef .tc main_v21) :=
  (W66_of_ne m ρ c main_v21 (by decide)).trans
  ((keepH32 m ρ c main_v21 (by decide)).trans
  ((W64_of_ne m ρ c main_v21 (by decide)).trans
  ((keepH31 m ρ c main_v21 (by decide)).trans
  ((W62_of_ne m ρ c main_v21 (by decide)).trans
  ((keepH30 m ρ c main_v21 (by decide)).trans
  ((W60_of_ne m ρ c main_v21 (by decide)).trans
  ((keepH29 m ρ c main_v21 (by decide)).trans
  ((W58_of_ne m ρ c main_v21 (by decide)).trans
  ((keepH28 m ρ c main_v21 (by decide)).trans
  ((W56_of_ne m ρ c main_v21 (by decide)).trans
  ((keepH27 m ρ c main_v21 (by decide)).trans
  ((W54_of_ne m ρ c main_v21 (by decide)).trans
  ((keepH26 m ρ c main_v21 (by decide)).trans
  ((W52_of_ne m ρ c main_v21 (by decide)).trans
  ((keepH25 m ρ c main_v21 (by decide)).trans
  ((W50_of_ne m ρ c main_v21 (by decide)).trans
  ((keepH24 m ρ c main_v21 (by decide)).trans
  ((W48_of_ne m ρ c main_v21 (by decide)).trans
  ((keepH23 m ρ c main_v21 (by decide)).trans
  ((W46_of_ne m ρ c main_v21 (by decide)).trans
  ((keepH22 m ρ c main_v21 (by decide)).trans
  ((W44_of_ne m ρ c main_v21 (by decide)).trans
  ((keepH21 m ρ c main_v21 (by decide)).trans
  ((W42_of_ne m ρ c main_v21 (by decide)).trans
  ((keepH20 m ρ c main_v21 (by decide)).trans
  ((W40_of_ne m ρ c main_v21 (by decide)).trans
  ((keepH19 m ρ c main_v21 (by decide)).trans
  ((W38_of_ne m ρ c main_v21 (by decide)).trans
  ((keepH18 m ρ c main_v21 (by decide)).trans
  ((W36_of_ne m ρ c main_v21 (by decide)).trans
  ((keepH17 m ρ c main_v21 (by decide)).trans
  ((W34_of_ne m ρ c main_v21 (by decide)).trans
  ((keepH16 m ρ c main_v21 (by decide)).trans
  ((W32_of_ne m ρ c main_v21 (by decide)).trans
  ((keepH15 m ρ c main_v21 (by decide)).trans
  ((W30_of_ne m ρ c main_v21 (by decide)).trans
  ((keepH14 m ρ c main_v21 (by decide)).trans
  ((W28_of_ne m ρ c main_v21 (by decide)).trans
  ((keepH13 m ρ c main_v21 (by decide)).trans
  ((W26_of_ne m ρ c main_v21 (by decide)).trans
  ((keepH12 m ρ c main_v21 (by decide)).trans
  ((W24_of_ne m ρ c main_v21 (by decide)).trans
  ((keepH11 m ρ c main_v21 (by decide)).trans
  ((W22_of_ne m ρ c main_v21 (by decide)).trans
  ((keepH10 m ρ c main_v21 (by decide)).trans
  ((W20_of_ne m ρ c main_v21 (by decide)).trans
  ((keepH9 m ρ c main_v21 (by decide)).trans
  ((W18_of_ne m ρ c main_v21 (by decide)).trans
  ((keepH8 m ρ c main_v21 (by decide)).trans
  ((W16_of_ne m ρ c main_v21 (by decide)).trans
  ((keepH7 m ρ c main_v21 (by decide)))))))))))))))))))))))))))))))))))))))))))))))))))))
theorem out6_final (c : Dev nD) :
    W66 m ρ c (Proc.devRef .tc main_v21) = (dat6 (V13 m ρ) c).arrAt 3 cfg6.N :=
  (out6_kept m ρ c).trans (W14_arr m ρ c 3)

/-! ## chunk 7: main_v24 -/

theorem out7_kept (c : Dev nD) : W66 m ρ c (Proc.devRef .tc main_v24) = W16 m ρ c (Proc.devRef .tc main_v24) :=
  (W66_of_ne m ρ c main_v24 (by decide)).trans
  ((keepH32 m ρ c main_v24 (by decide)).trans
  ((W64_of_ne m ρ c main_v24 (by decide)).trans
  ((keepH31 m ρ c main_v24 (by decide)).trans
  ((W62_of_ne m ρ c main_v24 (by decide)).trans
  ((keepH30 m ρ c main_v24 (by decide)).trans
  ((W60_of_ne m ρ c main_v24 (by decide)).trans
  ((keepH29 m ρ c main_v24 (by decide)).trans
  ((W58_of_ne m ρ c main_v24 (by decide)).trans
  ((keepH28 m ρ c main_v24 (by decide)).trans
  ((W56_of_ne m ρ c main_v24 (by decide)).trans
  ((keepH27 m ρ c main_v24 (by decide)).trans
  ((W54_of_ne m ρ c main_v24 (by decide)).trans
  ((keepH26 m ρ c main_v24 (by decide)).trans
  ((W52_of_ne m ρ c main_v24 (by decide)).trans
  ((keepH25 m ρ c main_v24 (by decide)).trans
  ((W50_of_ne m ρ c main_v24 (by decide)).trans
  ((keepH24 m ρ c main_v24 (by decide)).trans
  ((W48_of_ne m ρ c main_v24 (by decide)).trans
  ((keepH23 m ρ c main_v24 (by decide)).trans
  ((W46_of_ne m ρ c main_v24 (by decide)).trans
  ((keepH22 m ρ c main_v24 (by decide)).trans
  ((W44_of_ne m ρ c main_v24 (by decide)).trans
  ((keepH21 m ρ c main_v24 (by decide)).trans
  ((W42_of_ne m ρ c main_v24 (by decide)).trans
  ((keepH20 m ρ c main_v24 (by decide)).trans
  ((W40_of_ne m ρ c main_v24 (by decide)).trans
  ((keepH19 m ρ c main_v24 (by decide)).trans
  ((W38_of_ne m ρ c main_v24 (by decide)).trans
  ((keepH18 m ρ c main_v24 (by decide)).trans
  ((W36_of_ne m ρ c main_v24 (by decide)).trans
  ((keepH17 m ρ c main_v24 (by decide)).trans
  ((W34_of_ne m ρ c main_v24 (by decide)).trans
  ((keepH16 m ρ c main_v24 (by decide)).trans
  ((W32_of_ne m ρ c main_v24 (by decide)).trans
  ((keepH15 m ρ c main_v24 (by decide)).trans
  ((W30_of_ne m ρ c main_v24 (by decide)).trans
  ((keepH14 m ρ c main_v24 (by decide)).trans
  ((W28_of_ne m ρ c main_v24 (by decide)).trans
  ((keepH13 m ρ c main_v24 (by decide)).trans
  ((W26_of_ne m ρ c main_v24 (by decide)).trans
  ((keepH12 m ρ c main_v24 (by decide)).trans
  ((W24_of_ne m ρ c main_v24 (by decide)).trans
  ((keepH11 m ρ c main_v24 (by decide)).trans
  ((W22_of_ne m ρ c main_v24 (by decide)).trans
  ((keepH10 m ρ c main_v24 (by decide)).trans
  ((W20_of_ne m ρ c main_v24 (by decide)).trans
  ((keepH9 m ρ c main_v24 (by decide)).trans
  ((W18_of_ne m ρ c main_v24 (by decide)).trans
  ((keepH8 m ρ c main_v24 (by decide)))))))))))))))))))))))))))))))))))))))))))))))))))
theorem out7_final (c : Dev nD) :
    W66 m ρ c (Proc.devRef .tc main_v24) = (dat7 (V15 m ρ) c).arrAt 3 cfg7.N :=
  (out7_kept m ρ c).trans (W16_arr m ρ c 3)

/-! ## chunk 8: main_v27 -/

theorem out8_kept (c : Dev nD) : W66 m ρ c (Proc.devRef .tc main_v27) = W18 m ρ c (Proc.devRef .tc main_v27) :=
  (W66_of_ne m ρ c main_v27 (by decide)).trans
  ((keepH32 m ρ c main_v27 (by decide)).trans
  ((W64_of_ne m ρ c main_v27 (by decide)).trans
  ((keepH31 m ρ c main_v27 (by decide)).trans
  ((W62_of_ne m ρ c main_v27 (by decide)).trans
  ((keepH30 m ρ c main_v27 (by decide)).trans
  ((W60_of_ne m ρ c main_v27 (by decide)).trans
  ((keepH29 m ρ c main_v27 (by decide)).trans
  ((W58_of_ne m ρ c main_v27 (by decide)).trans
  ((keepH28 m ρ c main_v27 (by decide)).trans
  ((W56_of_ne m ρ c main_v27 (by decide)).trans
  ((keepH27 m ρ c main_v27 (by decide)).trans
  ((W54_of_ne m ρ c main_v27 (by decide)).trans
  ((keepH26 m ρ c main_v27 (by decide)).trans
  ((W52_of_ne m ρ c main_v27 (by decide)).trans
  ((keepH25 m ρ c main_v27 (by decide)).trans
  ((W50_of_ne m ρ c main_v27 (by decide)).trans
  ((keepH24 m ρ c main_v27 (by decide)).trans
  ((W48_of_ne m ρ c main_v27 (by decide)).trans
  ((keepH23 m ρ c main_v27 (by decide)).trans
  ((W46_of_ne m ρ c main_v27 (by decide)).trans
  ((keepH22 m ρ c main_v27 (by decide)).trans
  ((W44_of_ne m ρ c main_v27 (by decide)).trans
  ((keepH21 m ρ c main_v27 (by decide)).trans
  ((W42_of_ne m ρ c main_v27 (by decide)).trans
  ((keepH20 m ρ c main_v27 (by decide)).trans
  ((W40_of_ne m ρ c main_v27 (by decide)).trans
  ((keepH19 m ρ c main_v27 (by decide)).trans
  ((W38_of_ne m ρ c main_v27 (by decide)).trans
  ((keepH18 m ρ c main_v27 (by decide)).trans
  ((W36_of_ne m ρ c main_v27 (by decide)).trans
  ((keepH17 m ρ c main_v27 (by decide)).trans
  ((W34_of_ne m ρ c main_v27 (by decide)).trans
  ((keepH16 m ρ c main_v27 (by decide)).trans
  ((W32_of_ne m ρ c main_v27 (by decide)).trans
  ((keepH15 m ρ c main_v27 (by decide)).trans
  ((W30_of_ne m ρ c main_v27 (by decide)).trans
  ((keepH14 m ρ c main_v27 (by decide)).trans
  ((W28_of_ne m ρ c main_v27 (by decide)).trans
  ((keepH13 m ρ c main_v27 (by decide)).trans
  ((W26_of_ne m ρ c main_v27 (by decide)).trans
  ((keepH12 m ρ c main_v27 (by decide)).trans
  ((W24_of_ne m ρ c main_v27 (by decide)).trans
  ((keepH11 m ρ c main_v27 (by decide)).trans
  ((W22_of_ne m ρ c main_v27 (by decide)).trans
  ((keepH10 m ρ c main_v27 (by decide)).trans
  ((W20_of_ne m ρ c main_v27 (by decide)).trans
  ((keepH9 m ρ c main_v27 (by decide)))))))))))))))))))))))))))))))))))))))))))))))))
theorem out8_final (c : Dev nD) :
    W66 m ρ c (Proc.devRef .tc main_v27) = (dat8 (V17 m ρ) c).arrAt 3 cfg8.N :=
  (out8_kept m ρ c).trans (W18_arr m ρ c 3)

/-! ## chunk 9: main_v30 -/

theorem out9_kept (c : Dev nD) : W66 m ρ c (Proc.devRef .tc main_v30) = W20 m ρ c (Proc.devRef .tc main_v30) :=
  (W66_of_ne m ρ c main_v30 (by decide)).trans
  ((keepH32 m ρ c main_v30 (by decide)).trans
  ((W64_of_ne m ρ c main_v30 (by decide)).trans
  ((keepH31 m ρ c main_v30 (by decide)).trans
  ((W62_of_ne m ρ c main_v30 (by decide)).trans
  ((keepH30 m ρ c main_v30 (by decide)).trans
  ((W60_of_ne m ρ c main_v30 (by decide)).trans
  ((keepH29 m ρ c main_v30 (by decide)).trans
  ((W58_of_ne m ρ c main_v30 (by decide)).trans
  ((keepH28 m ρ c main_v30 (by decide)).trans
  ((W56_of_ne m ρ c main_v30 (by decide)).trans
  ((keepH27 m ρ c main_v30 (by decide)).trans
  ((W54_of_ne m ρ c main_v30 (by decide)).trans
  ((keepH26 m ρ c main_v30 (by decide)).trans
  ((W52_of_ne m ρ c main_v30 (by decide)).trans
  ((keepH25 m ρ c main_v30 (by decide)).trans
  ((W50_of_ne m ρ c main_v30 (by decide)).trans
  ((keepH24 m ρ c main_v30 (by decide)).trans
  ((W48_of_ne m ρ c main_v30 (by decide)).trans
  ((keepH23 m ρ c main_v30 (by decide)).trans
  ((W46_of_ne m ρ c main_v30 (by decide)).trans
  ((keepH22 m ρ c main_v30 (by decide)).trans
  ((W44_of_ne m ρ c main_v30 (by decide)).trans
  ((keepH21 m ρ c main_v30 (by decide)).trans
  ((W42_of_ne m ρ c main_v30 (by decide)).trans
  ((keepH20 m ρ c main_v30 (by decide)).trans
  ((W40_of_ne m ρ c main_v30 (by decide)).trans
  ((keepH19 m ρ c main_v30 (by decide)).trans
  ((W38_of_ne m ρ c main_v30 (by decide)).trans
  ((keepH18 m ρ c main_v30 (by decide)).trans
  ((W36_of_ne m ρ c main_v30 (by decide)).trans
  ((keepH17 m ρ c main_v30 (by decide)).trans
  ((W34_of_ne m ρ c main_v30 (by decide)).trans
  ((keepH16 m ρ c main_v30 (by decide)).trans
  ((W32_of_ne m ρ c main_v30 (by decide)).trans
  ((keepH15 m ρ c main_v30 (by decide)).trans
  ((W30_of_ne m ρ c main_v30 (by decide)).trans
  ((keepH14 m ρ c main_v30 (by decide)).trans
  ((W28_of_ne m ρ c main_v30 (by decide)).trans
  ((keepH13 m ρ c main_v30 (by decide)).trans
  ((W26_of_ne m ρ c main_v30 (by decide)).trans
  ((keepH12 m ρ c main_v30 (by decide)).trans
  ((W24_of_ne m ρ c main_v30 (by decide)).trans
  ((keepH11 m ρ c main_v30 (by decide)).trans
  ((W22_of_ne m ρ c main_v30 (by decide)).trans
  ((keepH10 m ρ c main_v30 (by decide)))))))))))))))))))))))))))))))))))))))))))))))
theorem out9_final (c : Dev nD) :
    W66 m ρ c (Proc.devRef .tc main_v30) = (dat9 (V19 m ρ) c).arrAt 3 cfg9.N :=
  (out9_kept m ρ c).trans (W20_arr m ρ c 3)

/-! ## chunk 10: main_v33 -/

theorem out10_kept (c : Dev nD) : W66 m ρ c (Proc.devRef .tc main_v33) = W22 m ρ c (Proc.devRef .tc main_v33) :=
  (W66_of_ne m ρ c main_v33 (by decide)).trans
  ((keepH32 m ρ c main_v33 (by decide)).trans
  ((W64_of_ne m ρ c main_v33 (by decide)).trans
  ((keepH31 m ρ c main_v33 (by decide)).trans
  ((W62_of_ne m ρ c main_v33 (by decide)).trans
  ((keepH30 m ρ c main_v33 (by decide)).trans
  ((W60_of_ne m ρ c main_v33 (by decide)).trans
  ((keepH29 m ρ c main_v33 (by decide)).trans
  ((W58_of_ne m ρ c main_v33 (by decide)).trans
  ((keepH28 m ρ c main_v33 (by decide)).trans
  ((W56_of_ne m ρ c main_v33 (by decide)).trans
  ((keepH27 m ρ c main_v33 (by decide)).trans
  ((W54_of_ne m ρ c main_v33 (by decide)).trans
  ((keepH26 m ρ c main_v33 (by decide)).trans
  ((W52_of_ne m ρ c main_v33 (by decide)).trans
  ((keepH25 m ρ c main_v33 (by decide)).trans
  ((W50_of_ne m ρ c main_v33 (by decide)).trans
  ((keepH24 m ρ c main_v33 (by decide)).trans
  ((W48_of_ne m ρ c main_v33 (by decide)).trans
  ((keepH23 m ρ c main_v33 (by decide)).trans
  ((W46_of_ne m ρ c main_v33 (by decide)).trans
  ((keepH22 m ρ c main_v33 (by decide)).trans
  ((W44_of_ne m ρ c main_v33 (by decide)).trans
  ((keepH21 m ρ c main_v33 (by decide)).trans
  ((W42_of_ne m ρ c main_v33 (by decide)).trans
  ((keepH20 m ρ c main_v33 (by decide)).trans
  ((W40_of_ne m ρ c main_v33 (by decide)).trans
  ((keepH19 m ρ c main_v33 (by decide)).trans
  ((W38_of_ne m ρ c main_v33 (by decide)).trans
  ((keepH18 m ρ c main_v33 (by decide)).trans
  ((W36_of_ne m ρ c main_v33 (by decide)).trans
  ((keepH17 m ρ c main_v33 (by decide)).trans
  ((W34_of_ne m ρ c main_v33 (by decide)).trans
  ((keepH16 m ρ c main_v33 (by decide)).trans
  ((W32_of_ne m ρ c main_v33 (by decide)).trans
  ((keepH15 m ρ c main_v33 (by decide)).trans
  ((W30_of_ne m ρ c main_v33 (by decide)).trans
  ((keepH14 m ρ c main_v33 (by decide)).trans
  ((W28_of_ne m ρ c main_v33 (by decide)).trans
  ((keepH13 m ρ c main_v33 (by decide)).trans
  ((W26_of_ne m ρ c main_v33 (by decide)).trans
  ((keepH12 m ρ c main_v33 (by decide)).trans
  ((W24_of_ne m ρ c main_v33 (by decide)).trans
  ((keepH11 m ρ c main_v33 (by decide)))))))))))))))))))))))))))))))))))))))))))))
theorem out10_final (c : Dev nD) :
    W66 m ρ c (Proc.devRef .tc main_v33) = (dat10 (V21 m ρ) c).arrAt 3 cfg10.N :=
  (out10_kept m ρ c).trans (W22_arr m ρ c 3)

/-! ## chunk 11: main_v36 -/

theorem out11_kept (c : Dev nD) : W66 m ρ c (Proc.devRef .tc main_v36) = W24 m ρ c (Proc.devRef .tc main_v36) :=
  (W66_of_ne m ρ c main_v36 (by decide)).trans
  ((keepH32 m ρ c main_v36 (by decide)).trans
  ((W64_of_ne m ρ c main_v36 (by decide)).trans
  ((keepH31 m ρ c main_v36 (by decide)).trans
  ((W62_of_ne m ρ c main_v36 (by decide)).trans
  ((keepH30 m ρ c main_v36 (by decide)).trans
  ((W60_of_ne m ρ c main_v36 (by decide)).trans
  ((keepH29 m ρ c main_v36 (by decide)).trans
  ((W58_of_ne m ρ c main_v36 (by decide)).trans
  ((keepH28 m ρ c main_v36 (by decide)).trans
  ((W56_of_ne m ρ c main_v36 (by decide)).trans
  ((keepH27 m ρ c main_v36 (by decide)).trans
  ((W54_of_ne m ρ c main_v36 (by decide)).trans
  ((keepH26 m ρ c main_v36 (by decide)).trans
  ((W52_of_ne m ρ c main_v36 (by decide)).trans
  ((keepH25 m ρ c main_v36 (by decide)).trans
  ((W50_of_ne m ρ c main_v36 (by decide)).trans
  ((keepH24 m ρ c main_v36 (by decide)).trans
  ((W48_of_ne m ρ c main_v36 (by decide)).trans
  ((keepH23 m ρ c main_v36 (by decide)).trans
  ((W46_of_ne m ρ c main_v36 (by decide)).trans
  ((keepH22 m ρ c main_v36 (by decide)).trans
  ((W44_of_ne m ρ c main_v36 (by decide)).trans
  ((keepH21 m ρ c main_v36 (by decide)).trans
  ((W42_of_ne m ρ c main_v36 (by decide)).trans
  ((keepH20 m ρ c main_v36 (by decide)).trans
  ((W40_of_ne m ρ c main_v36 (by decide)).trans
  ((keepH19 m ρ c main_v36 (by decide)).trans
  ((W38_of_ne m ρ c main_v36 (by decide)).trans
  ((keepH18 m ρ c main_v36 (by decide)).trans
  ((W36_of_ne m ρ c main_v36 (by decide)).trans
  ((keepH17 m ρ c main_v36 (by decide)).trans
  ((W34_of_ne m ρ c main_v36 (by decide)).trans
  ((keepH16 m ρ c main_v36 (by decide)).trans
  ((W32_of_ne m ρ c main_v36 (by decide)).trans
  ((keepH15 m ρ c main_v36 (by decide)).trans
  ((W30_of_ne m ρ c main_v36 (by decide)).trans
  ((keepH14 m ρ c main_v36 (by decide)).trans
  ((W28_of_ne m ρ c main_v36 (by decide)).trans
  ((keepH13 m ρ c main_v36 (by decide)).trans
  ((W26_of_ne m ρ c main_v36 (by decide)).trans
  ((keepH12 m ρ c main_v36 (by decide)))))))))))))))))))))))))))))))))))))))))))
theorem out11_final (c : Dev nD) :
    W66 m ρ c (Proc.devRef .tc main_v36) = (dat11 (V23 m ρ) c).arrAt 3 cfg11.N :=
  (out11_kept m ρ c).trans (W24_arr m ρ c 3)

/-! ## chunk 12: main_v39 -/

theorem out12_kept (c : Dev nD) : W66 m ρ c (Proc.devRef .tc main_v39) = W26 m ρ c (Proc.devRef .tc main_v39) :=
  (W66_of_ne m ρ c main_v39 (by decide)).trans
  ((keepH32 m ρ c main_v39 (by decide)).trans
  ((W64_of_ne m ρ c main_v39 (by decide)).trans
  ((keepH31 m ρ c main_v39 (by decide)).trans
  ((W62_of_ne m ρ c main_v39 (by decide)).trans
  ((keepH30 m ρ c main_v39 (by decide)).trans
  ((W60_of_ne m ρ c main_v39 (by decide)).trans
  ((keepH29 m ρ c main_v39 (by decide)).trans
  ((W58_of_ne m ρ c main_v39 (by decide)).trans
  ((keepH28 m ρ c main_v39 (by decide)).trans
  ((W56_of_ne m ρ c main_v39 (by decide)).trans
  ((keepH27 m ρ c main_v39 (by decide)).trans
  ((W54_of_ne m ρ c main_v39 (by decide)).trans
  ((keepH26 m ρ c main_v39 (by decide)).trans
  ((W52_of_ne m ρ c main_v39 (by decide)).trans
  ((keepH25 m ρ c main_v39 (by decide)).trans
  ((W50_of_ne m ρ c main_v39 (by decide)).trans
  ((keepH24 m ρ c main_v39 (by decide)).trans
  ((W48_of_ne m ρ c main_v39 (by decide)).trans
  ((keepH23 m ρ c main_v39 (by decide)).trans
  ((W46_of_ne m ρ c main_v39 (by decide)).trans
  ((keepH22 m ρ c main_v39 (by decide)).trans
  ((W44_of_ne m ρ c main_v39 (by decide)).trans
  ((keepH21 m ρ c main_v39 (by decide)).trans
  ((W42_of_ne m ρ c main_v39 (by decide)).trans
  ((keepH20 m ρ c main_v39 (by decide)).trans
  ((W40_of_ne m ρ c main_v39 (by decide)).trans
  ((keepH19 m ρ c main_v39 (by decide)).trans
  ((W38_of_ne m ρ c main_v39 (by decide)).trans
  ((keepH18 m ρ c main_v39 (by decide)).trans
  ((W36_of_ne m ρ c main_v39 (by decide)).trans
  ((keepH17 m ρ c main_v39 (by decide)).trans
  ((W34_of_ne m ρ c main_v39 (by decide)).trans
  ((keepH16 m ρ c main_v39 (by decide)).trans
  ((W32_of_ne m ρ c main_v39 (by decide)).trans
  ((keepH15 m ρ c main_v39 (by decide)).trans
  ((W30_of_ne m ρ c main_v39 (by decide)).trans
  ((keepH14 m ρ c main_v39 (by decide)).trans
  ((W28_of_ne m ρ c main_v39 (by decide)).trans
  ((keepH13 m ρ c main_v39 (by decide)))))))))))))))))))))))))))))))))))))))))
theorem out12_final (c : Dev nD) :
    W66 m ρ c (Proc.devRef .tc main_v39) = (dat12 (V25 m ρ) c).arrAt 3 cfg12.N :=
  (out12_kept m ρ c).trans (W26_arr m ρ c 3)

/-! ## chunk 13: main_v42 -/

theorem out13_kept (c : Dev nD) : W66 m ρ c (Proc.devRef .tc main_v42) = W28 m ρ c (Proc.devRef .tc main_v42) :=
  (W66_of_ne m ρ c main_v42 (by decide)).trans
  ((keepH32 m ρ c main_v42 (by decide)).trans
  ((W64_of_ne m ρ c main_v42 (by decide)).trans
  ((keepH31 m ρ c main_v42 (by decide)).trans
  ((W62_of_ne m ρ c main_v42 (by decide)).trans
  ((keepH30 m ρ c main_v42 (by decide)).trans
  ((W60_of_ne m ρ c main_v42 (by decide)).trans
  ((keepH29 m ρ c main_v42 (by decide)).trans
  ((W58_of_ne m ρ c main_v42 (by decide)).trans
  ((keepH28 m ρ c main_v42 (by decide)).trans
  ((W56_of_ne m ρ c main_v42 (by decide)).trans
  ((keepH27 m ρ c main_v42 (by decide)).trans
  ((W54_of_ne m ρ c main_v42 (by decide)).trans
  ((keepH26 m ρ c main_v42 (by decide)).trans
  ((W52_of_ne m ρ c main_v42 (by decide)).trans
  ((keepH25 m ρ c main_v42 (by decide)).trans
  ((W50_of_ne m ρ c main_v42 (by decide)).trans
  ((keepH24 m ρ c main_v42 (by decide)).trans
  ((W48_of_ne m ρ c main_v42 (by decide)).trans
  ((keepH23 m ρ c main_v42 (by decide)).trans
  ((W46_of_ne m ρ c main_v42 (by decide)).trans
  ((keepH22 m ρ c main_v42 (by decide)).trans
  ((W44_of_ne m ρ c main_v42 (by decide)).trans
  ((keepH21 m ρ c main_v42 (by decide)).trans
  ((W42_of_ne m ρ c main_v42 (by decide)).trans
  ((keepH20 m ρ c main_v42 (by decide)).trans
  ((W40_of_ne m ρ c main_v42 (by decide)).trans
  ((keepH19 m ρ c main_v42 (by decide)).trans
  ((W38_of_ne m ρ c main_v42 (by decide)).trans
  ((keepH18 m ρ c main_v42 (by decide)).trans
  ((W36_of_ne m ρ c main_v42 (by decide)).trans
  ((keepH17 m ρ c main_v42 (by decide)).trans
  ((W34_of_ne m ρ c main_v42 (by decide)).trans
  ((keepH16 m ρ c main_v42 (by decide)).trans
  ((W32_of_ne m ρ c main_v42 (by decide)).trans
  ((keepH15 m ρ c main_v42 (by decide)).trans
  ((W30_of_ne m ρ c main_v42 (by decide)).trans
  ((keepH14 m ρ c main_v42 (by decide)))))))))))))))))))))))))))))))))))))))
theorem out13_final (c : Dev nD) :
    W66 m ρ c (Proc.devRef .tc main_v42) = (dat13 (V27 m ρ) c).arrAt 3 cfg13.N :=
  (out13_kept m ρ c).trans (W28_arr m ρ c 3)

/-! ## chunk 14: main_v45 -/

theorem out14_kept (c : Dev nD) : W66 m ρ c (Proc.devRef .tc main_v45) = W30 m ρ c (Proc.devRef .tc main_v45) :=
  (W66_of_ne m ρ c main_v45 (by decide)).trans
  ((keepH32 m ρ c main_v45 (by decide)).trans
  ((W64_of_ne m ρ c main_v45 (by decide)).trans
  ((keepH31 m ρ c main_v45 (by decide)).trans
  ((W62_of_ne m ρ c main_v45 (by decide)).trans
  ((keepH30 m ρ c main_v45 (by decide)).trans
  ((W60_of_ne m ρ c main_v45 (by decide)).trans
  ((keepH29 m ρ c main_v45 (by decide)).trans
  ((W58_of_ne m ρ c main_v45 (by decide)).trans
  ((keepH28 m ρ c main_v45 (by decide)).trans
  ((W56_of_ne m ρ c main_v45 (by decide)).trans
  ((keepH27 m ρ c main_v45 (by decide)).trans
  ((W54_of_ne m ρ c main_v45 (by decide)).trans
  ((keepH26 m ρ c main_v45 (by decide)).trans
  ((W52_of_ne m ρ c main_v45 (by decide)).trans
  ((keepH25 m ρ c main_v45 (by decide)).trans
  ((W50_of_ne m ρ c main_v45 (by decide)).trans
  ((keepH24 m ρ c main_v45 (by decide)).trans
  ((W48_of_ne m ρ c main_v45 (by decide)).trans
  ((keepH23 m ρ c main_v45 (by decide)).trans
  ((W46_of_ne m ρ c main_v45 (by decide)).trans
  ((keepH22 m ρ c main_v45 (by decide)).trans
  ((W44_of_ne m ρ c main_v45 (by decide)).trans
  ((keepH21 m ρ c main_v45 (by decide)).trans
  ((W42_of_ne m ρ c main_v45 (by decide)).trans
  ((keepH20 m ρ c main_v45 (by decide)).trans
  ((W40_of_ne m ρ c main_v45 (by decide)).trans
  ((keepH19 m ρ c main_v45 (by decide)).trans
  ((W38_of_ne m ρ c main_v45 (by decide)).trans
  ((keepH18 m ρ c main_v45 (by decide)).trans
  ((W36_of_ne m ρ c main_v45 (by decide)).trans
  ((keepH17 m ρ c main_v45 (by decide)).trans
  ((W34_of_ne m ρ c main_v45 (by decide)).trans
  ((keepH16 m ρ c main_v45 (by decide)).trans
  ((W32_of_ne m ρ c main_v45 (by decide)).trans
  ((keepH15 m ρ c main_v45 (by decide)))))))))))))))))))))))))))))))))))))
theorem out14_final (c : Dev nD) :
    W66 m ρ c (Proc.devRef .tc main_v45) = (dat14 (V29 m ρ) c).arrAt 3 cfg14.N :=
  (out14_kept m ρ c).trans (W30_arr m ρ c 3)

/-! ## chunk 15: main_v48 -/

theorem out15_kept (c : Dev nD) : W66 m ρ c (Proc.devRef .tc main_v48) = W32 m ρ c (Proc.devRef .tc main_v48) :=
  (W66_of_ne m ρ c main_v48 (by decide)).trans
  ((keepH32 m ρ c main_v48 (by decide)).trans
  ((W64_of_ne m ρ c main_v48 (by decide)).trans
  ((keepH31 m ρ c main_v48 (by decide)).trans
  ((W62_of_ne m ρ c main_v48 (by decide)).trans
  ((keepH30 m ρ c main_v48 (by decide)).trans
  ((W60_of_ne m ρ c main_v48 (by decide)).trans
  ((keepH29 m ρ c main_v48 (by decide)).trans
  ((W58_of_ne m ρ c main_v48 (by decide)).trans
  ((keepH28 m ρ c main_v48 (by decide)).trans
  ((W56_of_ne m ρ c main_v48 (by decide)).trans
  ((keepH27 m ρ c main_v48 (by decide)).trans
  ((W54_of_ne m ρ c main_v48 (by decide)).trans
  ((keepH26 m ρ c main_v48 (by decide)).trans
  ((W52_of_ne m ρ c main_v48 (by decide)).trans
  ((keepH25 m ρ c main_v48 (by decide)).trans
  ((W50_of_ne m ρ c main_v48 (by decide)).trans
  ((keepH24 m ρ c main_v48 (by decide)).trans
  ((W48_of_ne m ρ c main_v48 (by decide)).trans
  ((keepH23 m ρ c main_v48 (by decide)).trans
  ((W46_of_ne m ρ c main_v48 (by decide)).trans
  ((keepH22 m ρ c main_v48 (by decide)).trans
  ((W44_of_ne m ρ c main_v48 (by decide)).trans
  ((keepH21 m ρ c main_v48 (by decide)).trans
  ((W42_of_ne m ρ c main_v48 (by decide)).trans
  ((keepH20 m ρ c main_v48 (by decide)).trans
  ((W40_of_ne m ρ c main_v48 (by decide)).trans
  ((keepH19 m ρ c main_v48 (by decide)).trans
  ((W38_of_ne m ρ c main_v48 (by decide)).trans
  ((keepH18 m ρ c main_v48 (by decide)).trans
  ((W36_of_ne m ρ c main_v48 (by decide)).trans
  ((keepH17 m ρ c main_v48 (by decide)).trans
  ((W34_of_ne m ρ c main_v48 (by decide)).trans
  ((keepH16 m ρ c main_v48 (by decide)))))))))))))))))))))))))))))))))))
theorem out15_final (c : Dev nD) :
    W66 m ρ c (Proc.devRef .tc main_v48) = (dat15 (V31 m ρ) c).arrAt 3 cfg15.N :=
  (out15_kept m ρ c).trans (W32_arr m ρ c 3)

/-! ## chunk 16: main_v51 -/

theorem out16_kept (c : Dev nD) : W66 m ρ c (Proc.devRef .tc main_v51) = W34 m ρ c (Proc.devRef .tc main_v51) :=
  (W66_of_ne m ρ c main_v51 (by decide)).trans
  ((keepH32 m ρ c main_v51 (by decide)).trans
  ((W64_of_ne m ρ c main_v51 (by decide)).trans
  ((keepH31 m ρ c main_v51 (by decide)).trans
  ((W62_of_ne m ρ c main_v51 (by decide)).trans
  ((keepH30 m ρ c main_v51 (by decide)).trans
  ((W60_of_ne m ρ c main_v51 (by decide)).trans
  ((keepH29 m ρ c main_v51 (by decide)).trans
  ((W58_of_ne m ρ c main_v51 (by decide)).trans
  ((keepH28 m ρ c main_v51 (by decide)).trans
  ((W56_of_ne m ρ c main_v51 (by decide)).trans
  ((keepH27 m ρ c main_v51 (by decide)).trans
  ((W54_of_ne m ρ c main_v51 (by decide)).trans
  ((keepH26 m ρ c main_v51 (by decide)).trans
  ((W52_of_ne m ρ c main_v51 (by decide)).trans
  ((keepH25 m ρ c main_v51 (by decide)).trans
  ((W50_of_ne m ρ c main_v51 (by decide)).trans
  ((keepH24 m ρ c main_v51 (by decide)).trans
  ((W48_of_ne m ρ c main_v51 (by decide)).trans
  ((keepH23 m ρ c main_v51 (by decide)).trans
  ((W46_of_ne m ρ c main_v51 (by decide)).trans
  ((keepH22 m ρ c main_v51 (by decide)).trans
  ((W44_of_ne m ρ c main_v51 (by decide)).trans
  ((keepH21 m ρ c main_v51 (by decide)).trans
  ((W42_of_ne m ρ c main_v51 (by decide)).trans
  ((keepH20 m ρ c main_v51 (by decide)).trans
  ((W40_of_ne m ρ c main_v51 (by decide)).trans
  ((keepH19 m ρ c main_v51 (by decide)).trans
  ((W38_of_ne m ρ c main_v51 (by decide)).trans
  ((keepH18 m ρ c main_v51 (by decide)).trans
  ((W36_of_ne m ρ c main_v51 (by decide)).trans
  ((keepH17 m ρ c main_v51 (by decide)))))))))))))))))))))))))))))))))
theorem out16_final (c : Dev nD) :
    W66 m ρ c (Proc.devRef .tc main_v51) = (dat16 (V33 m ρ) c).arrAt 3 cfg16.N :=
  (out16_kept m ρ c).trans (W34_arr m ρ c 3)

/-! ## chunk 17: main_v54 -/

theorem out17_kept (c : Dev nD) : W66 m ρ c (Proc.devRef .tc main_v54) = W36 m ρ c (Proc.devRef .tc main_v54) :=
  (W66_of_ne m ρ c main_v54 (by decide)).trans
  ((keepH32 m ρ c main_v54 (by decide)).trans
  ((W64_of_ne m ρ c main_v54 (by decide)).trans
  ((keepH31 m ρ c main_v54 (by decide)).trans
  ((W62_of_ne m ρ c main_v54 (by decide)).trans
  ((keepH30 m ρ c main_v54 (by decide)).trans
  ((W60_of_ne m ρ c main_v54 (by decide)).trans
  ((keepH29 m ρ c main_v54 (by decide)).trans
  ((W58_of_ne m ρ c main_v54 (by decide)).trans
  ((keepH28 m ρ c main_v54 (by decide)).trans
  ((W56_of_ne m ρ c main_v54 (by decide)).trans
  ((keepH27 m ρ c main_v54 (by decide)).trans
  ((W54_of_ne m ρ c main_v54 (by decide)).trans
  ((keepH26 m ρ c main_v54 (by decide)).trans
  ((W52_of_ne m ρ c main_v54 (by decide)).trans
  ((keepH25 m ρ c main_v54 (by decide)).trans
  ((W50_of_ne m ρ c main_v54 (by decide)).trans
  ((keepH24 m ρ c main_v54 (by decide)).trans
  ((W48_of_ne m ρ c main_v54 (by decide)).trans
  ((keepH23 m ρ c main_v54 (by decide)).trans
  ((W46_of_ne m ρ c main_v54 (by decide)).trans
  ((keepH22 m ρ c main_v54 (by decide)).trans
  ((W44_of_ne m ρ c main_v54 (by decide)).trans
  ((keepH21 m ρ c main_v54 (by decide)).trans
  ((W42_of_ne m ρ c main_v54 (by decide)).trans
  ((keepH20 m ρ c main_v54 (by decide)).trans
  ((W40_of_ne m ρ c main_v54 (by decide)).trans
  ((keepH19 m ρ c main_v54 (by decide)).trans
  ((W38_of_ne m ρ c main_v54 (by decide)).trans
  ((keepH18 m ρ c main_v54 (by decide)))))))))))))))))))))))))))))))
theorem out17_final (c : Dev nD) :
    W66 m ρ c (Proc.devRef .tc main_v54) = (dat17 (V35 m ρ) c).arrAt 3 cfg17.N :=
  (out17_kept m ρ c).trans (W36_arr m ρ c 3)

/-! ## chunk 18: main_v57 -/

theorem out18_kept (c : Dev nD) : W66 m ρ c (Proc.devRef .tc main_v57) = W38 m ρ c (Proc.devRef .tc main_v57) :=
  (W66_of_ne m ρ c main_v57 (by decide)).trans
  ((keepH32 m ρ c main_v57 (by decide)).trans
  ((W64_of_ne m ρ c main_v57 (by decide)).trans
  ((keepH31 m ρ c main_v57 (by decide)).trans
  ((W62_of_ne m ρ c main_v57 (by decide)).trans
  ((keepH30 m ρ c main_v57 (by decide)).trans
  ((W60_of_ne m ρ c main_v57 (by decide)).trans
  ((keepH29 m ρ c main_v57 (by decide)).trans
  ((W58_of_ne m ρ c main_v57 (by decide)).trans
  ((keepH28 m ρ c main_v57 (by decide)).trans
  ((W56_of_ne m ρ c main_v57 (by decide)).trans
  ((keepH27 m ρ c main_v57 (by decide)).trans
  ((W54_of_ne m ρ c main_v57 (by decide)).trans
  ((keepH26 m ρ c main_v57 (by decide)).trans
  ((W52_of_ne m ρ c main_v57 (by decide)).trans
  ((keepH25 m ρ c main_v57 (by decide)).trans
  ((W50_of_ne m ρ c main_v57 (by decide)).trans
  ((keepH24 m ρ c main_v57 (by decide)).trans
  ((W48_of_ne m ρ c main_v57 (by decide)).trans
  ((keepH23 m ρ c main_v57 (by decide)).trans
  ((W46_of_ne m ρ c main_v57 (by decide)).trans
  ((keepH22 m ρ c main_v57 (by decide)).trans
  ((W44_of_ne m ρ c main_v57 (by decide)).trans
  ((keepH21 m ρ c main_v57 (by decide)).trans
  ((W42_of_ne m ρ c main_v57 (by decide)).trans
  ((keepH20 m ρ c main_v57 (by decide)).trans
  ((W40_of_ne m ρ c main_v57 (by decide)).trans
  ((keepH19 m ρ c main_v57 (by decide)))))))))))))))))))))))))))))
theorem out18_final (c : Dev nD) :
    W66 m ρ c (Proc.devRef .tc main_v57) = (dat18 (V37 m ρ) c).arrAt 3 cfg18.N :=
  (out18_kept m ρ c).trans (W38_arr m ρ c 3)

/-! ## chunk 19: main_v60 -/

theorem out19_kept (c : Dev nD) : W66 m ρ c (Proc.devRef .tc main_v60) = W40 m ρ c (Proc.devRef .tc main_v60) :=
  (W66_of_ne m ρ c main_v60 (by decide)).trans
  ((keepH32 m ρ c main_v60 (by decide)).trans
  ((W64_of_ne m ρ c main_v60 (by decide)).trans
  ((keepH31 m ρ c main_v60 (by decide)).trans
  ((W62_of_ne m ρ c main_v60 (by decide)).trans
  ((keepH30 m ρ c main_v60 (by decide)).trans
  ((W60_of_ne m ρ c main_v60 (by decide)).trans
  ((keepH29 m ρ c main_v60 (by decide)).trans
  ((W58_of_ne m ρ c main_v60 (by decide)).trans
  ((keepH28 m ρ c main_v60 (by decide)).trans
  ((W56_of_ne m ρ c main_v60 (by decide)).trans
  ((keepH27 m ρ c main_v60 (by decide)).trans
  ((W54_of_ne m ρ c main_v60 (by decide)).trans
  ((keepH26 m ρ c main_v60 (by decide)).trans
  ((W52_of_ne m ρ c main_v60 (by decide)).trans
  ((keepH25 m ρ c main_v60 (by decide)).trans
  ((W50_of_ne m ρ c main_v60 (by decide)).trans
  ((keepH24 m ρ c main_v60 (by decide)).trans
  ((W48_of_ne m ρ c main_v60 (by decide)).trans
  ((keepH23 m ρ c main_v60 (by decide)).trans
  ((W46_of_ne m ρ c main_v60 (by decide)).trans
  ((keepH22 m ρ c main_v60 (by decide)).trans
  ((W44_of_ne m ρ c main_v60 (by decide)).trans
  ((keepH21 m ρ c main_v60 (by decide)).trans
  ((W42_of_ne m ρ c main_v60 (by decide)).trans
  ((keepH20 m ρ c main_v60 (by decide)))))))))))))))))))))))))))
theorem out19_final (c : Dev nD) :
    W66 m ρ c (Proc.devRef .tc main_v60) = (dat19 (V39 m ρ) c).arrAt 3 cfg19.N :=
  (out19_kept m ρ c).trans (W40_arr m ρ c 3)

/-! ## chunk 20: main_v63 -/

theorem out20_kept (c : Dev nD) : W66 m ρ c (Proc.devRef .tc main_v63) = W42 m ρ c (Proc.devRef .tc main_v63) :=
  (W66_of_ne m ρ c main_v63 (by decide)).trans
  ((keepH32 m ρ c main_v63 (by decide)).trans
  ((W64_of_ne m ρ c main_v63 (by decide)).trans
  ((keepH31 m ρ c main_v63 (by decide)).trans
  ((W62_of_ne m ρ c main_v63 (by decide)).trans
  ((keepH30 m ρ c main_v63 (by decide)).trans
  ((W60_of_ne m ρ c main_v63 (by decide)).trans
  ((keepH29 m ρ c main_v63 (by decide)).trans
  ((W58_of_ne m ρ c main_v63 (by decide)).trans
  ((keepH28 m ρ c main_v63 (by decide)).trans
  ((W56_of_ne m ρ c main_v63 (by decide)).trans
  ((keepH27 m ρ c main_v63 (by decide)).trans
  ((W54_of_ne m ρ c main_v63 (by decide)).trans
  ((keepH26 m ρ c main_v63 (by decide)).trans
  ((W52_of_ne m ρ c main_v63 (by decide)).trans
  ((keepH25 m ρ c main_v63 (by decide)).trans
  ((W50_of_ne m ρ c main_v63 (by decide)).trans
  ((keepH24 m ρ c main_v63 (by decide)).trans
  ((W48_of_ne m ρ c main_v63 (by decide)).trans
  ((keepH23 m ρ c main_v63 (by decide)).trans
  ((W46_of_ne m ρ c main_v63 (by decide)).trans
  ((keepH22 m ρ c main_v63 (by decide)).trans
  ((W44_of_ne m ρ c main_v63 (by decide)).trans
  ((keepH21 m ρ c main_v63 (by decide)))))))))))))))))))))))))
theorem out20_final (c : Dev nD) :
    W66 m ρ c (Proc.devRef .tc main_v63) = (dat20 (V41 m ρ) c).arrAt 3 cfg20.N :=
  (out20_kept m ρ c).trans (W42_arr m ρ c 3)

/-! ## chunk 21: main_v66 -/

theorem out21_kept (c : Dev nD) : W66 m ρ c (Proc.devRef .tc main_v66) = W44 m ρ c (Proc.devRef .tc main_v66) :=
  (W66_of_ne m ρ c main_v66 (by decide)).trans
  ((keepH32 m ρ c main_v66 (by decide)).trans
  ((W64_of_ne m ρ c main_v66 (by decide)).trans
  ((keepH31 m ρ c main_v66 (by decide)).trans
  ((W62_of_ne m ρ c main_v66 (by decide)).trans
  ((keepH30 m ρ c main_v66 (by decide)).trans
  ((W60_of_ne m ρ c main_v66 (by decide)).trans
  ((keepH29 m ρ c main_v66 (by decide)).trans
  ((W58_of_ne m ρ c main_v66 (by decide)).trans
  ((keepH28 m ρ c main_v66 (by decide)).trans
  ((W56_of_ne m ρ c main_v66 (by decide)).trans
  ((keepH27 m ρ c main_v66 (by decide)).trans
  ((W54_of_ne m ρ c main_v66 (by decide)).trans
  ((keepH26 m ρ c main_v66 (by decide)).trans
  ((W52_of_ne m ρ c main_v66 (by decide)).trans
  ((keepH25 m ρ c main_v66 (by decide)).trans
  ((W50_of_ne m ρ c main_v66 (by decide)).trans
  ((keepH24 m ρ c main_v66 (by decide)).trans
  ((W48_of_ne m ρ c main_v66 (by decide)).trans
  ((keepH23 m ρ c main_v66 (by decide)).trans
  ((W46_of_ne m ρ c main_v66 (by decide)).trans
  ((keepH22 m ρ c main_v66 (by decide)))))))))))))))))))))))
theorem out21_final (c : Dev nD) :
    W66 m ρ c (Proc.devRef .tc main_v66) = (dat21 (V43 m ρ) c).arrAt 3 cfg21.N :=
  (out21_kept m ρ c).trans (W44_arr m ρ c 3)

/-! ## chunk 22: main_v69 -/

theorem out22_kept (c : Dev nD) : W66 m ρ c (Proc.devRef .tc main_v69) = W46 m ρ c (Proc.devRef .tc main_v69) :=
  (W66_of_ne m ρ c main_v69 (by decide)).trans
  ((keepH32 m ρ c main_v69 (by decide)).trans
  ((W64_of_ne m ρ c main_v69 (by decide)).trans
  ((keepH31 m ρ c main_v69 (by decide)).trans
  ((W62_of_ne m ρ c main_v69 (by decide)).trans
  ((keepH30 m ρ c main_v69 (by decide)).trans
  ((W60_of_ne m ρ c main_v69 (by decide)).trans
  ((keepH29 m ρ c main_v69 (by decide)).trans
  ((W58_of_ne m ρ c main_v69 (by decide)).trans
  ((keepH28 m ρ c main_v69 (by decide)).trans
  ((W56_of_ne m ρ c main_v69 (by decide)).trans
  ((keepH27 m ρ c main_v69 (by decide)).trans
  ((W54_of_ne m ρ c main_v69 (by decide)).trans
  ((keepH26 m ρ c main_v69 (by decide)).trans
  ((W52_of_ne m ρ c main_v69 (by decide)).trans
  ((keepH25 m ρ c main_v69 (by decide)).trans
  ((W50_of_ne m ρ c main_v69 (by decide)).trans
  ((keepH24 m ρ c main_v69 (by decide)).trans
  ((W48_of_ne m ρ c main_v69 (by decide)).trans
  ((keepH23 m ρ c main_v69 (by decide)))))))))))))))))))))
theorem out22_final (c : Dev nD) :
    W66 m ρ c (Proc.devRef .tc main_v69) = (dat22 (V45 m ρ) c).arrAt 3 cfg22.N :=
  (out22_kept m ρ c).trans (W46_arr m ρ c 3)

/-! ## chunk 23: main_v72 -/

theorem out23_kept (c : Dev nD) : W66 m ρ c (Proc.devRef .tc main_v72) = W48 m ρ c (Proc.devRef .tc main_v72) :=
  (W66_of_ne m ρ c main_v72 (by decide)).trans
  ((keepH32 m ρ c main_v72 (by decide)).trans
  ((W64_of_ne m ρ c main_v72 (by decide)).trans
  ((keepH31 m ρ c main_v72 (by decide)).trans
  ((W62_of_ne m ρ c main_v72 (by decide)).trans
  ((keepH30 m ρ c main_v72 (by decide)).trans
  ((W60_of_ne m ρ c main_v72 (by decide)).trans
  ((keepH29 m ρ c main_v72 (by decide)).trans
  ((W58_of_ne m ρ c main_v72 (by decide)).trans
  ((keepH28 m ρ c main_v72 (by decide)).trans
  ((W56_of_ne m ρ c main_v72 (by decide)).trans
  ((keepH27 m ρ c main_v72 (by decide)).trans
  ((W54_of_ne m ρ c main_v72 (by decide)).trans
  ((keepH26 m ρ c main_v72 (by decide)).trans
  ((W52_of_ne m ρ c main_v72 (by decide)).trans
  ((keepH25 m ρ c main_v72 (by decide)).trans
  ((W50_of_ne m ρ c main_v72 (by decide)).trans
  ((keepH24 m ρ c main_v72 (by decide)))))))))))))))))))
theorem out23_final (c : Dev nD) :
    W66 m ρ c (Proc.devRef .tc main_v72) = (dat23 (V47 m ρ) c).arrAt 3 cfg23.N :=
  (out23_kept m ρ c).trans (W48_arr m ρ c 3)

/-! ## chunk 24: main_v75 -/

theorem out24_kept (c : Dev nD) : W66 m ρ c (Proc.devRef .tc main_v75) = W50 m ρ c (Proc.devRef .tc main_v75) :=
  (W66_of_ne m ρ c main_v75 (by decide)).trans
  ((keepH32 m ρ c main_v75 (by decide)).trans
  ((W64_of_ne m ρ c main_v75 (by decide)).trans
  ((keepH31 m ρ c main_v75 (by decide)).trans
  ((W62_of_ne m ρ c main_v75 (by decide)).trans
  ((keepH30 m ρ c main_v75 (by decide)).trans
  ((W60_of_ne m ρ c main_v75 (by decide)).trans
  ((keepH29 m ρ c main_v75 (by decide)).trans
  ((W58_of_ne m ρ c main_v75 (by decide)).trans
  ((keepH28 m ρ c main_v75 (by decide)).trans
  ((W56_of_ne m ρ c main_v75 (by decide)).trans
  ((keepH27 m ρ c main_v75 (by decide)).trans
  ((W54_of_ne m ρ c main_v75 (by decide)).trans
  ((keepH26 m ρ c main_v75 (by decide)).trans
  ((W52_of_ne m ρ c main_v75 (by decide)).trans
  ((keepH25 m ρ c main_v75 (by decide)))))))))))))))))
theorem out24_final (c : Dev nD) :
    W66 m ρ c (Proc.devRef .tc main_v75) = (dat24 (V49 m ρ) c).arrAt 3 cfg24.N :=
  (out24_kept m ρ c).trans (W50_arr m ρ c 3)

/-! ## chunk 25: main_v78 -/

theorem out25_kept (c : Dev nD) : W66 m ρ c (Proc.devRef .tc main_v78) = W52 m ρ c (Proc.devRef .tc main_v78) :=
  (W66_of_ne m ρ c main_v78 (by decide)).trans
  ((keepH32 m ρ c main_v78 (by decide)).trans
  ((W64_of_ne m ρ c main_v78 (by decide)).trans
  ((keepH31 m ρ c main_v78 (by decide)).trans
  ((W62_of_ne m ρ c main_v78 (by decide)).trans
  ((keepH30 m ρ c main_v78 (by decide)).trans
  ((W60_of_ne m ρ c main_v78 (by decide)).trans
  ((keepH29 m ρ c main_v78 (by decide)).trans
  ((W58_of_ne m ρ c main_v78 (by decide)).trans
  ((keepH28 m ρ c main_v78 (by decide)).trans
  ((W56_of_ne m ρ c main_v78 (by decide)).trans
  ((keepH27 m ρ c main_v78 (by decide)).trans
  ((W54_of_ne m ρ c main_v78 (by decide)).trans
  ((keepH26 m ρ c main_v78 (by decide)))))))))))))))
theorem out25_final (c : Dev nD) :
    W66 m ρ c (Proc.devRef .tc main_v78) = (dat25 (V51 m ρ) c).arrAt 3 cfg25.N :=
  (out25_kept m ρ c).trans (W52_arr m ρ c 3)

/-! ## chunk 26: main_v81 -/

theorem out26_kept (c : Dev nD) : W66 m ρ c (Proc.devRef .tc main_v81) = W54 m ρ c (Proc.devRef .tc main_v81) :=
  (W66_of_ne m ρ c main_v81 (by decide)).trans
  ((keepH32 m ρ c main_v81 (by decide)).trans
  ((W64_of_ne m ρ c main_v81 (by decide)).trans
  ((keepH31 m ρ c main_v81 (by decide)).trans
  ((W62_of_ne m ρ c main_v81 (by decide)).trans
  ((keepH30 m ρ c main_v81 (by decide)).trans
  ((W60_of_ne m ρ c main_v81 (by decide)).trans
  ((keepH29 m ρ c main_v81 (by decide)).trans
  ((W58_of_ne m ρ c main_v81 (by decide)).trans
  ((keepH28 m ρ c main_v81 (by decide)).trans
  ((W56_of_ne m ρ c main_v81 (by decide)).trans
  ((keepH27 m ρ c main_v81 (by decide)))))))))))))
theorem out26_final (c : Dev nD) :
    W66 m ρ c (Proc.devRef .tc main_v81) = (dat26 (V53 m ρ) c).arrAt 3 cfg26.N :=
  (out26_kept m ρ c).trans (W54_arr m ρ c 3)

/-! ## chunk 27: main_v84 -/

theorem out27_kept (c : Dev nD) : W66 m ρ c (Proc.devRef .tc main_v84) = W56 m ρ c (Proc.devRef .tc main_v84) :=
  (W66_of_ne m ρ c main_v84 (by decide)).trans
  ((keepH32 m ρ c main_v84 (by decide)).trans
  ((W64_of_ne m ρ c main_v84 (by decide)).trans
  ((keepH31 m ρ c main_v84 (by decide)).trans
  ((W62_of_ne m ρ c main_v84 (by decide)).trans
  ((keepH30 m ρ c main_v84 (by decide)).trans
  ((W60_of_ne m ρ c main_v84 (by decide)).trans
  ((keepH29 m ρ c main_v84 (by decide)).trans
  ((W58_of_ne m ρ c main_v84 (by decide)).trans
  ((keepH28 m ρ c main_v84 (by decide)))))))))))
theorem out27_final (c : Dev nD) :
    W66 m ρ c (Proc.devRef .tc main_v84) = (dat27 (V55 m ρ) c).arrAt 3 cfg27.N :=
  (out27_kept m ρ c).trans (W56_arr m ρ c 3)

/-! ## chunk 28: main_v87 -/

theorem out28_kept (c : Dev nD) : W66 m ρ c (Proc.devRef .tc main_v87) = W58 m ρ c (Proc.devRef .tc main_v87) :=
  (W66_of_ne m ρ c main_v87 (by decide)).trans
  ((keepH32 m ρ c main_v87 (by decide)).trans
  ((W64_of_ne m ρ c main_v87 (by decide)).trans
  ((keepH31 m ρ c main_v87 (by decide)).trans
  ((W62_of_ne m ρ c main_v87 (by decide)).trans
  ((keepH30 m ρ c main_v87 (by decide)).trans
  ((W60_of_ne m ρ c main_v87 (by decide)).trans
  ((keepH29 m ρ c main_v87 (by decide)))))))))
theorem out28_final (c : Dev nD) :
    W66 m ρ c (Proc.devRef .tc main_v87) = (dat28 (V57 m ρ) c).arrAt 3 cfg28.N :=
  (out28_kept m ρ c).trans (W58_arr m ρ c 3)

/-! ## chunk 29: main_v90 -/

theorem out29_kept (c : Dev nD) : W66 m ρ c (Proc.devRef .tc main_v90) = W60 m ρ c (Proc.devRef .tc main_v90) :=
  (W66_of_ne m ρ c main_v90 (by decide)).trans
  ((keepH32 m ρ c main_v90 (by decide)).trans
  ((W64_of_ne m ρ c main_v90 (by decide)).trans
  ((keepH31 m ρ c main_v90 (by decide)).trans
  ((W62_of_ne m ρ c main_v90 (by decide)).trans
  ((keepH30 m ρ c main_v90 (by decide)))))))
theorem out29_final (c : Dev nD) :
    W66 m ρ c (Proc.devRef .tc main_v90) = (dat29 (V59 m ρ) c).arrAt 3 cfg29.N :=
  (out29_kept m ρ c).trans (W60_arr m ρ c 3)

/-! ## chunk 30: main_v93 -/

theorem out30_kept (c : Dev nD) : W66 m ρ c (Proc.devRef .tc main_v93) = W62 m ρ c (Proc.devRef .tc main_v93) :=
  (W66_of_ne m ρ c main_v93 (by decide)).trans
  ((keepH32 m ρ c main_v93 (by decide)).trans
  ((W64_of_ne m ρ c main_v93 (by decide)).trans
  ((keepH31 m ρ c main_v93 (by decide)))))
theorem out30_final (c : Dev nD) :
    W66 m ρ c (Proc.devRef .tc main_v93) = (dat30 (V61 m ρ) c).arrAt 3 cfg30.N :=
  (out30_kept m ρ c).trans (W62_arr m ρ c 3)

/-! ## chunk 31: main_v96 -/

theorem out31_kept (c : Dev nD) : W66 m ρ c (Proc.devRef .tc main_v96) = W64 m ρ c (Proc.devRef .tc main_v96) :=
  (W66_of_ne m ρ c main_v96 (by decide)).trans
  ((keepH32 m ρ c main_v96 (by decide)))
theorem out31_final (c : Dev nD) :
    W66 m ρ c (Proc.devRef .tc main_v96) = (dat31 (V63 m ρ) c).arrAt 3 cfg31.N :=
  (out31_kept m ρ c).trans (W64_arr m ρ c 3)

/-! ## chunk 32: main_v99 -/

theorem out32_final (c : Dev nD) :
    W66 m ρ c (Proc.devRef .tc main_v99) = (dat32 (V65 m ρ) c).arrAt 3 cfg32.N :=
  W66_arr m ρ c 3

end Cert.KernelIdeal.Val

end
-- ==== Proof.KI.PayM.lean ====
import proofs.«116342_j30605936951494_1_alg».proof.Proof.Gen.KernelIdeal.Skeleton
import Idealize.ShloMosaic.Lib.ValueIdx
import Idealize.ShloMosaic.Lib.Pipeline.Value
import Idealize.ShloMosaic.PureOps.Ideal.Laws

/-!
# The two products of the matrix-product kernel, read at an index

The first kernel multiplies a block of 256 rows of the hidden state, `x0 : [256, 768]`, by the two halves of the
weight `x1 : [768, 1536]` (output feature `o`, input feature `k` in columns `k` and `768 + k`), contracting the
LAST axis of both operands. Over the extended reals the change of format to bf16 is the identity, so

  first product  (r, o) = ∑ k, x0 (r, k) * x1 (o, k)
  second product (r, o) = ∑ k, x0 (r, k) * x1 (o, 768 + k).

The proof reads the matrix unit's product at an output index as the sum over its contraction index, re-indexes that
one-axis contraction index by its coordinate `k : Fin 768`, and identifies the two operand indices coordinate by
coordinate: the left operand is read at (row of the output, k), the right at (column of the output, k).
-/

noncomputable section

open scoped BigOperators

namespace Cert.KernelIdeal.Val

open Idealize.ShloMosaic Idealize.SL.Sem Idealize.ShloMosaic.ValueIdx
open Cert.KernelIdeal Cert.KernelIdeal.Gen

/-! ## The operand indices of the product, axis by axis -/

/-- The left operand's row is the output's row. -/
theorem lhs_mm_0 (i : S256x768.Idx) (q : dot_S256x768_S768x768_S256x768_1_1_0_0_n_n.contr.Idx) :
    (dot_S256x768_S768x768_S256x768_1_1_0_0_n_n.lhsIdx i q 0).val = (i 0).val := by
  unfold DotDims.lhsIdx
  rw [dif_neg (show ¬(0 : Fin S256x768.rank) ∈ dot_S256x768_S768x768_S256x768_1_1_0_0_n_n.lhsBatch by decide), dif_pos (show (0 : Fin S256x768.rank) ∈ dot_S256x768_S768x768_S256x768_1_1_0_0_n_n.lhsNonContracting by decide)]
  rfl

/-- The left operand's column is the contraction position. -/
theorem lhs_mm_1 (i : S256x768.Idx) (q : dot_S256x768_S768x768_S256x768_1_1_0_0_n_n.contr.Idx) :
    (dot_S256x768_S768x768_S256x768_1_1_0_0_n_n.lhsIdx i q 1).val = (q ⟨0, by decide⟩).val :=
  dot_S256x768_S768x768_S256x768_1_1_0_0_n_n.lhsIdx_val_of_single rfl i q

/-- The right operand's row (an output feature) is the output's column. -/
theorem rhs_mm_0 (i : S256x768.Idx) (q : dot_S256x768_S768x768_S256x768_1_1_0_0_n_n.contr.Idx) :
    (dot_S256x768_S768x768_S256x768_1_1_0_0_n_n.rhsIdx i q 0).val = (i 1).val := by
  unfold DotDims.rhsIdx
  rw [dif_neg (show ¬(0 : Fin S768x768.rank) ∈ dot_S256x768_S768x768_S256x768_1_1_0_0_n_n.rhsBatch by decide), dif_pos (show (0 : Fin S768x768.rank) ∈ dot_S256x768_S768x768_S256x768_1_1_0_0_n_n.rhsNonContracting by decide)]
  rfl

/-- The right operand's column is the contraction position. -/
theorem rhs_mm_1 (i : S256x768.Idx) (q : dot_S256x768_S768x768_S256x768_1_1_0_0_n_n.contr.Idx) :
    (dot_S256x768_S768x768_S256x768_1_1_0_0_n_n.rhsIdx i q 1).val = (q ⟨0, by decide⟩).val :=
  dot_S256x768_S768x768_S256x768_1_1_0_0_n_n.rhsIdx_val_of_single rfl i q

/-! ## The product into the zero accumulator at an index -/

/-- A [256, 768] by [768, 768] product contracting both last axes, accumulated into zero: entry (r, o) is
    `∑ k, l (r, k) * w (o, k)`. -/
theorem mm_apply (l : FVec Ideal S256x768 .bf16) (w : FVec Ideal S768x768 .bf16) (r : Fin 256) (o : Fin 768) :
    matmul dot_S256x768_S768x768_S256x768_1_1_0_0_n_n none l w (constant (F := Ideal) S256x768 .f32 0x00000000#32) (ix2 r o)
      = ∑ k : Fin 768, l (ix2 r k) * w (ix2 o k) := by
  simp only [matmul]
  rw [Ideal.matmul_constant_zero_apply, ← Equiv.sum_comp (contrEquiv1 dot_S256x768_S768x768_S256x768_1_1_0_0_n_n 768 rfl rfl).symm]
  refine Finset.sum_congr rfl fun k _ => ?_
  have hk := contrEquiv1_symm_val dot_S256x768_S768x768_S256x768_1_1_0_0_n_n 768 rfl rfl k
  have el : dot_S256x768_S768x768_S256x768_1_1_0_0_n_n.lhsIdx (ix2 r o) ((contrEquiv1 dot_S256x768_S768x768_S256x768_1_1_0_0_n_n 768 rfl rfl).symm k) = ix2 r k := funext fun a => Fin.ext (by
    match a with
    | ⟨0, _⟩ => exact lhs_mm_0 _ _
    | ⟨1, _⟩ => exact (lhs_mm_1 _ _).trans hk)
  have er : dot_S256x768_S768x768_S256x768_1_1_0_0_n_n.rhsIdx (ix2 r o) ((contrEquiv1 dot_S256x768_S768x768_S256x768_1_1_0_0_n_n 768 rfl rfl).symm k) = ix2 o k := funext fun a => Fin.ext (by
    match a with
    | ⟨0, _⟩ => exact rhs_mm_0 _ _
    | ⟨1, _⟩ => exact (rhs_mm_1 _ _).trans hk)
  rw [el, er]

/-! ## The operands of the product at an index -/

/-- The hidden block in bf16 is the hidden block. -/
theorem mm_pay1_apply (x0 : Vec Ideal S256x768 .f32) (j : S256x768.Idx) : k0_pay1 x0 j = x0 j := by
  unfold k0_pay1
  rw [truncf_apply, shapeCast_self]

/-- The weight in bf16 is the weight. -/
theorem mm_pay2_apply (x1 : Vec Ideal S768x1536 .f32) (j : S768x1536.Idx) : k0_pay2 x1 j = x1 j := by
  unfold k0_pay2
  rw [truncf_apply]

/-- The first half of the weight's columns. -/
theorem w1_apply (x1 : Vec Ideal S768x1536 .f32) (o k : Fin 768) :
    extractStridedSlice S768x768 ![0, 0] (k0_pay2 x1) slices_S768x1536_o0_0_S768x768 (ix2 o k)
      = x1 (ix2 o (⟨k.val, by omega⟩ : Fin 1536)) := by
  refine (extractStridedSlice_apply _ _ _ (ix2 o k) (ix2 o (⟨k.val, by omega⟩ : Fin 1536)) fun a => ?_).trans (mm_pay2_apply x1 _)
  match a with
  | ⟨0, _⟩ => show o.val = 0 + o.val; omega
  | ⟨1, _⟩ => show k.val = 0 + k.val; omega

/-- The second half of the weight's columns. -/
theorem w2_apply (x1 : Vec Ideal S768x1536 .f32) (o k : Fin 768) :
    extractStridedSlice S768x768 ![0, 768] (k0_pay2 x1) slices_S768x1536_o0_768_S768x768 (ix2 o k)
      = x1 (ix2 o (⟨768 + k.val, by omega⟩ : Fin 1536)) := by
  refine (extractStridedSlice_apply _ _ _ (ix2 o k) (ix2 o (⟨768 + k.val, by omega⟩ : Fin 1536)) fun a => ?_).trans (mm_pay2_apply x1 _)
  match a with
  | ⟨0, _⟩ => show o.val = 0 + o.val; omega
  | ⟨1, _⟩ => show 768 + k.val = 768 + k.val; rfl

/-! ## The two stored values at an index -/

/-- The first product: the hidden block against the weight's first 768 columns. -/
theorem mm_pay3_apply (x0 : Vec Ideal S256x768 .f32) (x1 : Vec Ideal S768x1536 .f32) (r : Fin 256) (o : Fin 768) :
    k0_pay3 x0 x1 (ix2 r o) = ∑ k : Fin 768, x0 (ix2 r k) * x1 (ix2 o (⟨k.val, by omega⟩ : Fin 1536)) := by
  unfold k0_pay3
  refine (mm_apply _ _ r o).trans ?_
  refine Finset.sum_congr rfl fun k _ => ?_
  rw [mm_pay1_apply, w1_apply]

/-- The second product: the hidden block against the weight's last 768 columns. -/
theorem mm_pay4_apply (x0 : Vec Ideal S256x768 .f32) (x1 : Vec Ideal S768x1536 .f32) (r : Fin 256) (o : Fin 768) :
    k0_pay4 x0 x1 (ix2 r o) = ∑ k : Fin 768, x0 (ix2 r k) * x1 (ix2 o (⟨768 + k.val, by omega⟩ : Fin 1536)) := by
  unfold k0_pay4
  refine (mm_apply _ _ r o).trans ?_
  refine Finset.sum_congr rfl fun k _ => ?_
  rw [mm_pay1_apply, w2_apply]

end Cert.KernelIdeal.Val
-- ==== Proof.KI.ValM.lean ====
import proofs.«116342_j30605936951494_1_alg».proof.Proof.KI.Reg0
import proofs.«116342_j30605936951494_1_alg».proof.Proof.KI.PayM
import Idealize.ShloMosaic.Lib.Pipeline.Value
import Idealize.ShloMosaic.Lib.ValueIdx

/-!
# The two products as whole arrays

The first kernel runs over the four blocks of 256 rows of the hidden state `h : [1024, 768]`; at block `t` it reads
rows `256 t … 256 t + 255` of `h` and the whole weight `w : [768, 1536]`, and writes back rows `256 t … 256 t + 255`
of each product. Entry (r, o) of what it writes at block `t` is `∑ k, h (256 t + r, k) * w (o, k)` (and with column
`768 + k` of `w` for the second product): row `256 t + r` of ONE function of the two whole arrays. The four blocks
tile the 1024 rows (row `i` is in block `i / 256`), so after the region each product array is that function:

  first  product (i, o) = ∑ k, h (i, k) * w (o, k)
  second product (i, o) = ∑ k, h (i, k) * w (o, 768 + k).
-/

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The two products of whole arrays -/

/-- `h · w[:, :768]ᵀ`: entry (i, o) is `∑ k, h (i, k) * w (o, k)`. -/
def prodLo (h : Vec Ideal S1024x768 .f32) (w : Vec Ideal S768x1536 .f32) : Vec Ideal S1024x768 .f32 :=
  fun i => ∑ k : Fin 768, h (ix2 (⟨(i 0).val, idx2_lt0 i⟩ : Fin 1024) k)
    * w (ix2 (⟨(i 1).val, idx2_lt1 i⟩ : Fin 768) (⟨k.val, by omega⟩ : Fin 1536))

/-- `h · w[:, 768:]ᵀ`: entry (i, o) is `∑ k, h (i, k) * w (o, 768 + k)`. -/
def prodHi (h : Vec Ideal S1024x768 .f32) (w : Vec Ideal S768x1536 .f32) : Vec Ideal S1024x768 .f32 :=
  fun i => ∑ k : Fin 768, h (ix2 (⟨(i 0).val, idx2_lt0 i⟩ : Fin 1024) k)
    * w (ix2 (⟨(i 1).val, idx2_lt1 i⟩ : Fin 768) (⟨768 + k.val, by omega⟩ : Fin 1536))

/-! ## One block of rows: the stored values are rows of the whole products -/

/-- If `x0` holds rows `256 n …` of `h` and `x1` is `w`, the first stored value at `j` is the first product at the index
    `i` that is `j` moved `256 n` rows down. -/
theorem mm_pay3_rows (h : Vec Ideal S1024x768 .f32) (w : Vec Ideal S768x1536 .f32) (x0 : Vec Ideal S256x768 .f32)
    (x1 : Vec Ideal S768x1536 .f32) (n : Nat)
    (hx0 : ∀ (y : S256x768.Idx) (i' : S1024x768.Idx), (i' 0).val = 256 * n + (y 0).val → (i' 1).val = (y 1).val → x0 y = h i')
    (hx1 : x1 = w) (j : S256x768.Idx) (i : S1024x768.Idx)
    (hi0 : (i 0).val = 256 * n + (j 0).val) (hi1 : (i 1).val = (j 1).val) :
    k0_pay3 x0 x1 j = prodLo h w i := by
  obtain ⟨r, o, rfl⟩ : ∃ (r : Fin 256) (o : Fin 768), j = ix2 r o := ⟨j 0, j 1, eq_ix2 j⟩
  subst hx1
  refine (mm_pay3_apply x0 x1 r o).trans ?_
  unfold prodLo
  refine Finset.sum_congr rfl fun k _ => ?_
  have e0 : x0 (ix2 r k) = h (ix2 (⟨(i 0).val, idx2_lt0 i⟩ : Fin 1024) k) := hx0 _ _ hi0 rfl
  have e1 : (ix2 o (⟨k.val, by omega⟩ : Fin 1536) : S768x1536.Idx) = ix2 (⟨(i 1).val, idx2_lt1 i⟩ : Fin 768) (⟨k.val, by omega⟩ : Fin 1536) := by
    funext a; apply Fin.ext
    match a with
    | ⟨0, _⟩ => exact hi1.symm
    | ⟨1, _⟩ => rfl
  rw [e0, e1]

/-- The same of the second stored value and the second product. -/
theorem mm_pay4_rows (h : Vec Ideal S1024x768 .f32) (w : Vec Ideal S768x1536 .f32) (x0 : Vec Ideal S256x768 .f32)
    (x1 : Vec Ideal S768x1536 .f32) (n : Nat)
    (hx0 : ∀ (y : S256x768.Idx) (i' : S1024x768.Idx), (i' 0).val = 256 * n + (y 0).val → (i' 1).val = (y 1).val → x0 y = h i')
    (hx1 : x1 = w) (j : S256x768.Idx) (i : S1024x768.Idx)
    (hi0 : (i 0).val = 256 * n + (j 0).val) (hi1 : (i 1).val = (j 1).val) :
    k0_pay4 x0 x1 j = prodHi h w i := by
  obtain ⟨r, o, rfl⟩ : ∃ (r : Fin 256) (o : Fin 768), j = ix2 r o := ⟨j 0, j 1, eq_ix2 j⟩
  subst hx1
  refine (mm_pay4_apply x0 x1 r o).trans ?_
  unfold prodHi
  refine Finset.sum_congr rfl fun k _ => ?_
  have e0 : x0 (ix2 r k) = h (ix2 (⟨(i 0).val, idx2_lt0 i⟩ : Fin 1024) k) := hx0 _ _ hi0 rfl
  have e1 : (ix2 o (⟨768 + k.val, by omega⟩ : Fin 1536) : S768x1536.Idx) = ix2 (⟨(i 1).val, idx2_lt1 i⟩ : Fin 768) (⟨768 + k.val, by omega⟩ : Fin 1536) := by
    funext a; apply Fin.ext
    match a with
    | ⟨0, _⟩ => exact hi1.symm
    | ⟨1, _⟩ => rfl
  rw [e0, e1]

/-! ## The region's windows at a grid point -/

section Region
variable (V : (c : Dev nD) → (b : Ref sig .tc) → Buf (Elt Ideal) ((c : Thread nD τ).loc b))

theorem mm_hz : (![0, 0] : Fin 2 → Nat) = fun _ => 0 := funext fun a => by fin_cases a <;> rfl

/-- The printed index maps over the four grid points: the hidden block and both product blocks are block `t` of their
    rows, the weight is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The hidden state as the region finds it. -/
abbrev hidden (c : Dev nD) : Vec Ideal S1024x768 .f32 := V c main_v0
/-- The weight as the region finds it. -/
abbrev weight (c : Dev nD) : Vec Ideal S768x1536 .f32 := V c main_arg1

/-- The hidden window's block at point `t` is rows `256 t … 256 t + 255` of the hidden state. -/
theorem iblk0_0_apply (c : Dev nD) (t : Fin cfg0.N) (y : S256x768.Idx) (i : S1024x768.Idx)
    (h0 : (i 0).val = 256 * t.val + (y 0).val) (h1 : (i 1).val = (y 1).val) :
    (iblk0 V c 0 t : Vec Ideal S256x768 .f32) y = hidden V c i := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 768 + 1 * (y 1).val = (i 1).val; rw [e1, h1]; omega

/-- The weight window's block at every point is the whole weight. -/
theorem iblk0_1_eq (c : Dev nD) (t : Fin cfg0.N) : (iblk0 V c 1 t : Vec Ideal S768x1536 .f32) = weight V c := by
  obtain ⟨-, -, e0, e1, -⟩ := idx_facts0 t
  funext y
  unfold iblk0
  rw [View.read_apply]
  show V c main_arg1 _ = V c main_arg1 _
  congr 1
  funext a
  apply Fin.ext
  match a with
  | ⟨0, _⟩ => show win0_1.index t (0 : Fin 2) * 768 + 1 * (y 0).val = (y 0).val; rw [e0]; omega
  | ⟨1, _⟩ => show win0_1.index t (1 : Fin 2) * 1536 + 1 * (y 1).val = (y 1).val; rw [e1]; omega

/-! ## What each point writes back, and the arrays after the region -/

/-- Point `t` writes back block `t` of the first product of the hidden state and the weight. -/
theorem flushed0_2_eq (c : Dev nD) (t : Fin cfg0.N) :
    (dat0 V c).flushed 2 t = ((cfg0.win 2).blk t).view.read (Elt Ideal) (prodLo (hidden V c) (weight V c)) := by
  show (cfg0.win 2).cut (grid0.coords t) ((dat0 V c).after 2 t) = _
  rw [after0_2]
  unfold out0_2
  rw [View.canon_unit_zero mm_hz]
  simp only [View.ld_unit_zero (S := S256x768) mm_hz, View.ld_unit_zero (S := S768x1536) mm_hz]
  obtain ⟨-, -, -, -, e0, e1, -⟩ := idx_facts0 t
  funext j
  show k0_pay3 (iblk0 V c 0 t) (iblk0 V c 1 t) j = prodLo (hidden V c) (weight V c) (((cfg0.win 2).blk t).view.emb j)
  refine mm_pay3_rows (hidden V c) (weight V c) (iblk0 V c 0 t) (iblk0 V c 1 t) t.val
    (fun y i' h0 h1 => iblk0_0_apply V c t y i' h0 h1) (iblk0_1_eq V c t) j (((cfg0.win 2).blk t).view.emb j) ?_ ?_
  · show win0_2.index t (0 : Fin 2) * 256 + 1 * (j 0).val = 256 * t.val + (j 0).val; rw [e0]; omega
  · show win0_2.index t (1 : Fin 2) * 768 + 1 * (j 1).val = (j 1).val; rw [e1]; omega

/-- Point `t` writes back block `t` of the second product. -/
theorem flushed0_3_eq (c : Dev nD) (t : Fin cfg0.N) :
    (dat0 V c).flushed 3 t = ((cfg0.win 3).blk t).view.read (Elt Ideal) (prodHi (hidden V c) (weight V c)) := by
  show (cfg0.win 3).cut (grid0.coords t) ((dat0 V c).after 3 t) = _
  rw [after0_3]
  unfold out0_3
  rw [View.canon_unit_zero mm_hz]
  simp only [View.ld_unit_zero (S := S256x768) mm_hz, View.ld_unit_zero (S := S768x1536) mm_hz]
  obtain ⟨-, -, -, -, -, -, e0, e1⟩ := idx_facts0 t
  funext j
  show k0_pay4 (iblk0 V c 0 t) (iblk0 V c 1 t) j = prodHi (hidden V c) (weight V c) (((cfg0.win 3).blk t).view.emb j)
  refine mm_pay4_rows (hidden V c) (weight V c) (iblk0 V c 0 t) (iblk0 V c 1 t) t.val
    (fun y i' h0 h1 => iblk0_0_apply V c t y i' h0 h1) (iblk0_1_eq V c t) j (((cfg0.win 3).blk t).view.emb j) ?_ ?_
  · show win0_3.index t (0 : Fin 2) * 256 + 1 * (j 0).val = 256 * t.val + (j 0).val; rw [e0]; omega
  · show win0_3.index t (1 : Fin 2) * 768 + 1 * (j 1).val = (j 1).val; rw [e1]; omega

/-- An index of the first product's array is in point `t`'s block iff each coordinate is in the block's range. -/
theorem mem_blk0_2 (t : Fin cfg0.N) (i : S1024x768.Idx) :
    i ∈ ((cfg0.win 2).blk t).view.set ↔ ∀ a : Fin 2, win0_2.index t a * S256x768.size a ≤ (i a).val ∧ (i a).val < win0_2.index t a * S256x768.size a + S256x768.size a := by
  show i ∈ ((View.whole main_v1_0).slice (win0_2.rect t)).set ↔ _
  rw [View.set_slice_whole, Rect.mem_set_unit]
  exact Iff.rfl

/-- The same of the second product's array. -/
theorem mem_blk0_3 (t : Fin cfg0.N) (i : S1024x768.Idx) :
    i ∈ ((cfg0.win 3).blk t).view.set ↔ ∀ a : Fin 2, win0_3.index t a * S256x768.size a ≤ (i a).val ∧ (i a).val < win0_3.index t a * S256x768.size a + S256x768.size a := by
  show i ∈ ((View.whole main_v1_1).slice (win0_3.rect t)).set ↔ _
  rw [View.set_slice_whole, Rect.mem_set_unit]
  exact Iff.rfl

/-- Row `i` is in the block of point `i / 256`: the four blocks cover the first product's array. -/
theorem rows_cover0_2 (i : S1024x768.Idx) : ∃ t : Fin cfg0.N, (cfg0.win 2).flush t = true ∧ i ∈ ((cfg0.win 2).blk t).view.set := by
  have hi0 : (i 0).val < 1024 := idx2_lt0 i
  have hi1 : (i 1).val < 768 := idx2_lt1 i
  have hN : cfg0.N = 4 := N_0
  refine ⟨⟨(i 0).val / 256, by rw [hN]; omega⟩, flush0_2 _, ?_⟩
  obtain ⟨-, -, -, -, e0, e1, -⟩ := idx_facts0 ⟨(i 0).val / 256, by rw [hN]; omega⟩
  rw [mem_blk0_2]
  intro a
  match a with
  | ⟨0, _⟩ => show win0_2.index _ (0 : Fin 2) * 256 ≤ (i 0).val ∧ (i 0).val < win0_2.index _ (0 : Fin 2) * 256 + 256; rw [e0]; show (i 0).val / 256 * 256 ≤ (i 0).val ∧ (i 0).val < (i 0).val / 256 * 256 + 256; omega
  | ⟨1, _⟩ => show win0_2.index _ (1 : Fin 2) * 768 ≤ (i 1).val ∧ (i 1).val < win0_2.index _ (1 : Fin 2) * 768 + 768; rw [e1]; omega

/-- and the second's. -/
theorem rows_cover0_3 (i : S1024x768.Idx) : ∃ t : Fin cfg0.N, (cfg0.win 3).flush t = true ∧ i ∈ ((cfg0.win 3).blk t).view.set := by
  have hi0 : (i 0).val < 1024 := idx2_lt0 i
  have hi1 : (i 1).val < 768 := idx2_lt1 i
  have hN : cfg0.N = 4 := N_0
  refine ⟨⟨(i 0).val / 256, by rw [hN]; omega⟩, flush0_3 _, ?_⟩
  obtain ⟨-, -, -, -, -, -, e0, e1⟩ := idx_facts0 ⟨(i 0).val / 256, by rw [hN]; omega⟩
  rw [mem_blk0_3]
  intro a
  match a with
  | ⟨0, _⟩ => show win0_3.index _ (0 : Fin 2) * 256 ≤ (i 0).val ∧ (i 0).val < win0_3.index _ (0 : Fin 2) * 256 + 256; rw [e0]; show (i 0).val / 256 * 256 ≤ (i 0).val ∧ (i 0).val < (i 0).val / 256 * 256 + 256; omega
  | ⟨1, _⟩ => show win0_3.index _ (1 : Fin 2) * 768 ≤ (i 1).val ∧ (i 1).val < win0_3.index _ (1 : Fin 2) * 768 + 768; rw [e1]; omega

/-- After the region the first product's array is the first product of the hidden state and the weight. -/
theorem final0_2_eq (c : Dev nD) : (dat0 V c).arrAt 2 cfg0.N = prodLo (hidden V c) (weight V c) :=
  (dat0 V c).arrAt_eq_of_cover 2 (prodLo (hidden V c) (weight V c)) (fun t _ => flushed0_2_eq V c t) rows_cover0_2

/-- and the second product's array the second product. -/
theorem final0_3_eq (c : Dev nD) : (dat0 V c).arrAt 3 cfg0.N = prodHi (hidden V c) (weight V c) :=
  (dat0 V c).arrAt_eq_of_cover 3 (prodHi (hidden V c) (weight V c)) (fun t _ => flushed0_3_eq V c t) rows_cover0_3

/-- Entry (row, o) of the first product's array after the region. -/
theorem final0_2 (c : Dev nD) (row : Fin 1024) (o : Fin 768) :
    ((dat0 V c).arrAt 2 cfg0.N : Vec Ideal S1024x768 .f32) (ix2 row o)
      = ∑ k : Fin 768, hidden V c (ix2 row k) * weight V c (ix2 o (⟨k.val, by omega⟩ : Fin 1536)) := by
  rw [final0_2_eq]; rfl

/-- Entry (row, o) of the second product's array after the region. -/
theorem final0_3 (c : Dev nD) (row : Fin 1024) (o : Fin 768) :
    ((dat0 V c).arrAt 3 cfg0.N : Vec Ideal S1024x768 .f32) (ix2 row o)
      = ∑ k : Fin 768, hidden V c (ix2 row k) * weight V c (ix2 o (⟨768 + k.val, by omega⟩ : Fin 1536)) := by
  rw [final0_3_eq]; rfl

end Region

end Cert.KernelIdeal.Val

end
-- ==== Proof.KI.HostPure.lean ====
/-
  The layout operations of the kernel program's host side, each read at ONE index over variables of the literal
  array types: no program, no valuation.

  The program flattens the hidden state [4, 256, 768] to [1024, 768] (row `256·b + s`), un-flattens the two products
  back, views the bias [768] as [1, 768], cuts row bands `[i0, i0 + L)` out of the products, and lays the 32 chunk
  results end to end along the row axis in three concatenations (16 + 16, then the two halves). Read at an index each
  of these is the operand at an index given by coordinate arithmetic.

  Chunk `n` (rows `8n … 8n + 7` of the triangle) starts at `triOff (8n) = 2052·n - 32·n²` in the packed order: the
  arithmetic fact that places each chunk's result inside the concatenation.
-/
import proofs.«116342_j30605936951494_1_alg».proof.Proof.Spec
import Idealize.ShloMosaic.Lib.Pipeline.Value
import Idealize.ShloMosaic.Lib.ValueLayout

noncomputable section

namespace Cert.KernelIdeal.Val

open Idealize.ShloMosaic Idealize.ShloMosaic.ValueIdx

variable {α : Type}

/-! ## The reshapes -/

/-- The hidden state flattened: row `256·b + s` of the [1024, 768] view is row `s` of batch `b`. -/
theorem flatten_apply (x : (⟨3, ![4, 256, 768]⟩ : Shape).Idx → α)
    (h : (⟨3, ![4, 256, 768]⟩ : Shape).ShapeCasts ⟨2, ![1024, 768]⟩) (b : Fin 4) (s : Fin 256) (o : Fin 768)
    (row : Fin 1024) (hrow : row.val = 256 * b.val + s.val) :
    shapeCast ⟨2, ![1024, 768]⟩ x h (ix2 row o) = x (ix3 b s o) :=
  shapeCast_apply x h _ _ (by
    rw [Shape.rowMajor_val_three, Shape.rowMajor_val_two]
    show (b.val * 256 + s.val) * 768 + o.val = row.val * 768 + o.val
    rw [hrow, Nat.mul_comm b.val 256])

/-- A [1024, 768] product viewed [4, 256, 768]: row `s` of batch `b` is row `256·b + s` of the flat product. -/
theorem unflatten_apply (y : (⟨2, ![1024, 768]⟩ : Shape).Idx → α)
    (h : (⟨2, ![1024, 768]⟩ : Shape).ShapeCasts ⟨3, ![4, 256, 768]⟩) (b : Fin 4) (s : Fin 256) (o : Fin 768)
    (row : Fin 1024) (hrow : row.val = 256 * b.val + s.val) :
    shapeCast ⟨3, ![4, 256, 768]⟩ y h (ix3 b s o) = y (ix2 row o) :=
  shapeCast_apply y h _ _ (by
    rw [Shape.rowMajor_val_three, Shape.rowMajor_val_two]
    show row.val * 768 + o.val = (b.val * 256 + s.val) * 768 + o.val
    rw [hrow, Nat.mul_comm b.val 256])

/-- The bias viewed as one row. -/
theorem bias_row_apply (β : (⟨1, ![768]⟩ : Shape).Idx → α) (h : (⟨1, ![768]⟩ : Shape).ShapeCasts ⟨2, ![1, 768]⟩)
    (u : Fin 1) (o : Fin 768) : shapeCast ⟨2, ![1, 768]⟩ β h (ix2 u o) = β (ix1 o) :=
  shapeCast_a_1a_apply β h u o

/-! ## A band of rows -/

/-- Rows `[i0, i0 + L)` of a [4, 256, 768] array: row `s` of the band is row `i0 + s` of the array. -/
theorem band_apply {L : ℕ} (i0 : ℕ) (x : (⟨3, ![4, 256, 768]⟩ : Shape).Idx → α)
    (h : (⟨3, ![4, 256, 768]⟩ : Shape).Slices ![0, i0, 0] ⟨3, ![4, L, 768]⟩) (b : Fin 4) (s : Fin L) (o : Fin 768)
    (row : Fin 256) (hrow : row.val = i0 + s.val) :
    extractStridedSlice ⟨3, ![4, L, 768]⟩ ![0, i0, 0] x h (ix3 b s o) = x (ix3 b row o) :=
  extractStridedSlice_apply _ x h _ _ fun a =>
    match a with
    | ⟨0, _⟩ => by show b.val = 0 + b.val; omega
    | ⟨1, _⟩ => hrow
    | ⟨2, _⟩ => by show o.val = 0 + o.val; omega

/-! ## Pieces laid end to end along the rows -/

/-- A concatenation along the row axis of pieces [4, ·, 768] whose row extents are the naturals `ns`, read inside piece
    `k`: with `pre` the extents before it summed, row `pre + q` of the result is row `q` of piece `k`. The result's row
    is any `j` with that value. (The extents are a separate list of numbers so that the rows before a piece are computed on
    numbers alone, whatever the pieces' contents are.) -/
theorem cat_rows_apply {T n : ℕ} (xs : List ((s : Shape) × (s.Idx → α)))
    (h : Shape.Concatenates (xs.map (·.1)) ⟨3, ![4, T, 768]⟩ 1)
    (ns : List ℕ) (hns : xs.map (·.1) = ns.map fun e => (⟨3, ![4, e, 768]⟩ : Shape))
    (k : ℕ) (x : (⟨3, ![4, n, 768]⟩ : Shape).Idx → α) (hxk : xs[k]? = some ⟨⟨3, ![4, n, 768]⟩, x⟩)
    (pre : ℕ) (hpre : (ns.take k).sum = pre)
    (b : Fin 4) (j : Fin T) (q : Fin n) (o : Fin 768) (hj : j.val = pre + q.val) :
    concatenate ⟨3, ![4, T, 768]⟩ 1 xs h (ix3 b j o) = x (ix3 b q o) := by
  obtain ⟨hk, hxk'⟩ := List.getElem?_eq_some_iff.mp hxk
  have hpre' : (((xs.take k).map (·.1)).map fun s : Shape =>
      if h : s.rank = 3 then s.size ((1 : Fin 3).cast h.symm) else 0).sum = pre := by
    rw [List.map_take, hns, ← List.map_take, List.map_map, ← hpre]
    congr 1
    exact List.map_id'' (fun e => rfl) _
  exact concatenate_apply_piece (t := ⟨3, ![4, T, 768]⟩) 1 xs h _ k hk ⟨3, ![4, n, 768]⟩ x hxk' rfl pre hpre' (ix3 b q o)
    (fun a ha =>
      match a, ha with
      | ⟨0, _⟩, _ => rfl
      | ⟨1, _⟩, ha => absurd rfl ha
      | ⟨2, _⟩, _ => rfl)
    hj.symm

/-! ## Where a chunk starts in the packed order -/

open Cert.Tri

/-- Chunk `n` (rows `8n … 8n + 7` of the triangle) starts at `2052·n - 32·n²`. -/
theorem triOff_chunk (n : ℕ) (hn : n ≤ 32) : triOff (8 * n) + 32 * (n * n) = 2052 * n := by
  have h := two_triOff (8 * n) (by omega)
  have e : 8 * n * (8 * n) = 64 * (n * n) := by ring
  rw [e] at h
  omega

/-- The same with the chunk's first row `a = 8n` and its start `t` given as numbers: `triOff a = t`. -/
theorem triOff_chunk_eq (n a t : ℕ) (hn : n ≤ 32) (ha : a = 8 * n) (ht : t + 32 * (n * n) = 2052 * n) : triOff a = t := by
  subst ha
  have := triOff_chunk n hn
  omega

end Cert.KernelIdeal.Val

end
-- ==== Proof.KI.HostRead.lean ====
/-
  The first two host stretches of the kernel program read at an index, for any buffer contents `W` they start from.

  The stretch before the product kernel flattens the hidden state: row `256·b + s` of main_v0 is row `s` of batch `b` of
  the argument. The stretch after it views the two flat products [1024, 768] as [4, 256, 768] (main_v2, main_v3), the
  bias as one row (main_v4), and cuts the first eight rows of the first product (main_v5, chunk 1's rows): each entry of
  what it writes is one entry of a buffer it reads.
-/
import proofs.«116342_j30605936951494_1_alg».proof.Proof.Gen.KernelIdeal.Launch
import proofs.«116342_j30605936951494_1_alg».proof.Proof.KI.HostPure
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx

variable {F : FTy → Type} [FloatOps F]

/-- The flattened hidden state. -/
theorem host0_hidden (W : Valuation τ sig (Elt F)) (b : Fin 4) (s : Fin 256) (k : Fin 768) (row : Fin 1024)
    (hrow : row.val = 256 * b.val + s.val) :
    (StableHlo.after hostOps0 W (Proc.devRef .tc main_v0) : Vec F S1024x768 .f32) (ix2 row k)
      = (W (Proc.devRef .tc main_arg0) : Vec F S4x256x768 .f32) (ix3 b s k) := by
  simp only [hostOps0]
  after_results
  exact flatten_apply _ _ b s k row hrow

/-- The first product viewed by batch. -/
theorem host1_p1 (W : Valuation τ sig (Elt F)) (b : Fin 4) (s : Fin 256) (o : Fin 768) (row : Fin 1024)
    (hrow : row.val = 256 * b.val + s.val) :
    (StableHlo.after hostOps1 W (Proc.devRef .tc main_v2) : Vec F S4x256x768 .f32) (ix3 b s o)
      = (W (Proc.devRef .tc main_v1_0) : Vec F S1024x768 .f32) (ix2 row o) := by
  simp only [hostOps1]
  after_results
  exact unflatten_apply _ _ b s o row hrow

/-- The second product viewed by batch. -/
theorem host1_p2 (W : Valuation τ sig (Elt F)) (b : Fin 4) (s : Fin 256) (o : Fin 768) (row : Fin 1024)
    (hrow : row.val = 256 * b.val + s.val) :
    (StableHlo.after hostOps1 W (Proc.devRef .tc main_v3) : Vec F S4x256x768 .f32) (ix3 b s o)
      = (W (Proc.devRef .tc main_v1_1) : Vec F S1024x768 .f32) (ix2 row o) := by
  simp only [hostOps1]
  after_results
  exact unflatten_apply _ _ b s o row hrow

/-- The bias as one row. -/
theorem host1_bias (W : Valuation τ sig (Elt F)) (u : Fin 1) (o : Fin 768) :
    (StableHlo.after hostOps1 W (Proc.devRef .tc main_v4) : Vec F S1x768 .f32) (ix2 u o)
      = (W (Proc.devRef .tc main_arg2) : Vec F S768 .f32) (ix1 o) := by
  simp only [hostOps1]
  after_results
  exact bias_row_apply _ _ u o

/-- Chunk 1's eight rows: the first eight rows of the first product, batch by batch. -/
theorem host1_rows (W : Valuation τ sig (Elt F)) (b : Fin 4) (r : Fin 8) (o : Fin 768) (row : Fin 1024)
    (hrow : row.val = 256 * b.val + r.val) :
    (StableHlo.after hostOps1 W (Proc.devRef .tc main_v5) : Vec F S4x8x768 .f32) (ix3 b r o)
      = (W (Proc.devRef .tc main_v1_0) : Vec F S1024x768 .f32) (ix2 row o) := by
  simp only [hostOps1]
  after_results
  refine (band_apply 0 _ _ b r o ⟨r.val, by omega⟩ (by simp)).trans ?_
  exact unflatten_apply _ _ b _ o row hrow

end Cert.KernelIdeal.Val

end
-- ==== Proof.KI.Proj.lean ====
/-
  The two products and the bias, as the triangular chunks find them, in terms of the program's arguments.

  Region 0 multiplies the flattened hidden state by the two halves of the weight: row `256·b + s` of its first result is
  `∑ k, x b s k · w o k`, of its second `∑ k, x b s k · w o (768 + k)` — the specification's two projections `proj1`,
  `proj2` at `(b, s, o)`. The stretch after it only re-views these (by batch) and the bias (as one row), so at
  boundary 3, where the chunks' inputs are cut from, main_v2 holds `proj1`, main_v3 holds `proj2` and main_v4 the bias.
-/
import proofs.«116342_j30605936951494_1_alg».proof.Proof.KI.Fold
import proofs.«116342_j30605936951494_1_alg».proof.Proof.KI.ValM
import proofs.«116342_j30605936951494_1_alg».proof.Proof.KI.HostRead
import proofs.«116342_j30605936951494_1_alg».proof.Proof.Spec

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The hidden state argument on core `c`, at its literal type. -/
abbrev argX (c : Dev nD) : Cert.Tri.SHid.Idx → EReal := m ((c : Thread nD τ).loc main_arg0)
/-- The weight argument. -/
abbrev argW (c : Dev nD) : Cert.Tri.SW.Idx → EReal := m ((c : Thread nD τ).loc main_arg1)
/-- The bias argument. -/
abbrev argB (c : Dev nD) : Cert.Tri.SBias.Idx → EReal := m ((c : Thread nD τ).loc main_arg2)

/-- What region 0 reads as the flattened hidden state: row `256·b + s` is the argument's row `s` of batch `b`. -/
theorem hidden_entry (c : Dev nD) (b : Fin 4) (s : Fin 256) (k : Fin 768) (row : Fin 1024)
    (hrow : row.val = 256 * b.val + s.val) : hidden (V1 m ρ) c (ix2 row k) = argX m c (ix3 b s k) :=
  host0_hidden (W0 m ρ c) b s k row hrow

/-- What region 0 reads as the weight: the argument. -/
theorem weight_entry (c : Dev nD) : weight (V1 m ρ) c = argW m c := W1_main_arg1 m ρ c

/-- Region 0's first result, flat: the first projection. -/
theorem prod1_W2 (c : Dev nD) (b : Fin 4) (s : Fin 256) (o : Fin 768) (row : Fin 1024)
    (hrow : row.val = 256 * b.val + s.val) :
    (W2 m ρ c (Proc.devRef .tc main_v1_0) : Vec Ideal S1024x768 .f32) (ix2 row o)
      = Cert.Tri.proj1 (argX m c) (argW m c) b s o := by
  calc (W2 m ρ c (Proc.devRef .tc main_v1_0) : Vec Ideal S1024x768 .f32) (ix2 row o)
      = ((dat0 (V1 m ρ) c).arrAt 2 cfg0.N : Vec Ideal S1024x768 .f32) (ix2 row o) := congrFun (W2_arr m ρ c 2) _
    _ = ∑ k : Fin 768, hidden (V1 m ρ) c (ix2 row k) * weight (V1 m ρ) c (ix2 o (⟨k.val, by omega⟩ : Fin 1536)) :=
        final0_2 (V1 m ρ) c row o
    _ = Cert.Tri.proj1 (argX m c) (argW m c) b s o := by
        unfold Cert.Tri.proj1
        refine Finset.sum_congr rfl fun k _ => ?_
        rw [hidden_entry m ρ c b s k row hrow, weight_entry m ρ c]

/-- Region 0's second result, flat: the second projection. -/
theorem prod2_W2 (c : Dev nD) (b : Fin 4) (s : Fin 256) (o : Fin 768) (row : Fin 1024)
    (hrow : row.val = 256 * b.val + s.val) :
    (W2 m ρ c (Proc.devRef .tc main_v1_1) : Vec Ideal S1024x768 .f32) (ix2 row o)
      = Cert.Tri.proj2 (argX m c) (argW m c) b s o := by
  calc (W2 m ρ c (Proc.devRef .tc main_v1_1) : Vec Ideal S1024x768 .f32) (ix2 row o)
      = ((dat0 (V1 m ρ) c).arrAt 3 cfg0.N : Vec Ideal S1024x768 .f32) (ix2 row o) := congrFun (W2_arr m ρ c 3) _
    _ = ∑ k : Fin 768, hidden (V1 m ρ) c (ix2 row k) * weight (V1 m ρ) c (ix2 o (⟨768 + k.val, by omega⟩ : Fin 1536)) :=
        final0_3 (V1 m ρ) c row o
    _ = Cert.Tri.proj2 (argX m c) (argW m c) b s o := by
        unfold Cert.Tri.proj2
        refine Finset.sum_congr rfl fun k _ => ?_
        rw [hidden_entry m ρ c b s k row hrow, weight_entry m ρ c]

/-- At boundary 3 the first product viewed by batch is the first projection. -/
theorem p1_W3 (c : Dev nD) (b : Fin 4) (s : Fin 256) (o : Fin 768) :
    (W3 m ρ c (Proc.devRef .tc main_v2) : Vec Ideal S4x256x768 .f32) (ix3 b s o)
      = Cert.Tri.proj1 (argX m c) (argW m c) b s o :=
  (host1_p1 (W2 m ρ c) b s o ⟨256 * b.val + s.val, by omega⟩ rfl).trans (prod1_W2 m ρ c b s o _ rfl)

/-- At boundary 3 the second product viewed by batch is the second projection. -/
theorem p2_W3 (c : Dev nD) (b : Fin 4) (s : Fin 256) (o : Fin 768) :
    (W3 m ρ c (Proc.devRef .tc main_v3) : Vec Ideal S4x256x768 .f32) (ix3 b s o)
      = Cert.Tri.proj2 (argX m c) (argW m c) b s o :=
  (host1_p2 (W2 m ρ c) b s o ⟨256 * b.val + s.val, by omega⟩ rfl).trans (prod2_W2 m ρ c b s o _ rfl)

/-- At boundary 3 chunk 1's eight rows are rows 0 … 7 of the first projection. -/
theorem rows1_W3 (c : Dev nD) (b : Fin 4) (r : Fin 8) (o : Fin 768) :
    (W3 m ρ c (Proc.devRef .tc main_v5) : Vec Ideal S4x8x768 .f32) (ix3 b r o)
      = Cert.Tri.proj1 (argX m c) (argW m c) b ⟨r.val, by omega⟩ o :=
  (host1_rows (W2 m ρ c) b r o ⟨256 * b.val + r.val, by omega⟩ rfl).trans (prod1_W2 m ρ c b ⟨r.val, by omega⟩ o _ rfl)

/-- At boundary 3 the bias row is the bias argument. -/
theorem bias_W3 (c : Dev nD) (u : Fin 1) (o : Fin 768) :
    (W3 m ρ c (Proc.devRef .tc main_v4) : Vec Ideal S1x768 .f32) (ix2 u o) = argB m c (ix1 o) :=
  (host1_bias (W2 m ρ c) u o).trans (congrFun (W2_main_arg2 m ρ c) _)

end Cert.KernelIdeal.Val

end
-- ==== Proof.KI.OutEq.lean ====
/-
  The last host stretch read as one value: the program's result is the 32 chunk results laid end to end along the row
  axis, the first sixteen into one array of 24640 rows, the last sixteen into one of 8256 rows, and those two into the
  32896 rows of the result. Stated for any buffer contents `W` the stretch starts from: the three concatenations write
  three fresh buffers and read only the chunk results, so the result buffer afterwards is this term over `W` at the 32
  chunk result buffers.
-/
import proofs.«116342_j30605936951494_1_alg».proof.Proof.Gen.KernelIdeal.Launch
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable {F : FTy → Type} [FloatOps F]

/-- The result buffer after the last stretch: the two half-concatenations of the chunk results, concatenated. -/
theorem out_eq (W : Valuation τ sig (Elt F)) :
    StableHlo.after hostOps33 W (Proc.devRef .tc main_v102)
      = concatenate S4x32896x768 1
          [⟨S4x24640x768, concatenate S4x24640x768 1 [⟨S4x2020x768, W (Proc.devRef .tc main_v6)⟩, ⟨S4x1956x768, W (Proc.devRef .tc main_v9)⟩, ⟨S4x1892x768, W (Proc.devRef .tc main_v12)⟩, ⟨S4x1828x768, W (Proc.devRef .tc main_v15)⟩, ⟨S4x1764x768, W (Proc.devRef .tc main_v18)⟩, ⟨S4x1700x768, W (Proc.devRef .tc main_v21)⟩, ⟨S4x1636x768, W (Proc.devRef .tc main_v24)⟩, ⟨S4x1572x768, W (Proc.devRef .tc main_v27)⟩, ⟨S4x1508x768, W (Proc.devRef .tc main_v30)⟩, ⟨S4x1444x768, W (Proc.devRef .tc main_v33)⟩, ⟨S4x1380x768, W (Proc.devRef .tc main_v36)⟩, ⟨S4x1316x768, W (Proc.devRef .tc main_v39)⟩, ⟨S4x1252x768, W (Proc.devRef .tc main_v42)⟩, ⟨S4x1188x768, W (Proc.devRef .tc main_v45)⟩, ⟨S4x1124x768, W (Proc.devRef .tc main_v48)⟩, ⟨S4x1060x768, W (Proc.devRef .tc main_v51)⟩] concatenates_S4x2020x768_S4x1956x768_S4x1892x768_S4x1828x768_S4x1764x768_S4x1700x768_S4x1636x768_S4x1572x768_S4x1508x768_S4x1444x768_S4x1380x768_S4x1316x768_S4x1252x768_S4x1188x768_S4x1124x768_S4x1060x768_S4x24640x768_d1⟩,
           ⟨S4x8256x768, concatenate S4x8256x768 1 [⟨S4x996x768, W (Proc.devRef .tc main_v54)⟩, ⟨S4x932x768, W (Proc.devRef .tc main_v57)⟩, ⟨S4x868x768, W (Proc.devRef .tc main_v60)⟩, ⟨S4x804x768, W (Proc.devRef .tc main_v63)⟩, ⟨S4x740x768, W (Proc.devRef .tc main_v66)⟩, ⟨S4x676x768, W (Proc.devRef .tc main_v69)⟩, ⟨S4x612x768, W (Proc.devRef .tc main_v72)⟩, ⟨S4x548x768, W (Proc.devRef .tc main_v75)⟩, ⟨S4x484x768, W (Proc.devRef .tc main_v78)⟩, ⟨S4x420x768, W (Proc.devRef .tc main_v81)⟩, ⟨S4x356x768, W (Proc.devRef .tc main_v84)⟩, ⟨S4x292x768, W (Proc.devRef .tc main_v87)⟩, ⟨S4x228x768, W (Proc.devRef .tc main_v90)⟩, ⟨S4x164x768, W (Proc.devRef .tc main_v93)⟩, ⟨S4x100x768, W (Proc.devRef .tc main_v96)⟩, ⟨S4x36x768, W (Proc.devRef .tc main_v99)⟩] concatenates_S4x996x768_S4x932x768_S4x868x768_S4x804x768_S4x740x768_S4x676x768_S4x612x768_S4x548x768_S4x484x768_S4x420x768_S4x356x768_S4x292x768_S4x228x768_S4x164x768_S4x100x768_S4x36x768_S4x8256x768_d1⟩]
          concatenates_S4x24640x768_S4x8256x768_S4x32896x768_d1 := by
  simp only [hostOps33]
  after_results
  rfl

end Cert.KernelIdeal.Val

end
-- ==== Proof.KI.OutPiece.lean ====
import proofs.«116342_j30605936951494_1_alg».proof.Proof.KI.OutEq
import proofs.«116342_j30605936951494_1_alg».proof.Proof.KI.HostPure

/-!
# The result read inside one chunk's rows

Chunk K contributes 8·(256 - 8(K-1)) - 28 rows; the chunks before it contribute the rows before. A row j of the result
with j = (rows before chunk K) + p, p below chunk K's extent, falls in the first half (K ≤ 16) or the second (the
first half's 24640 rows less), and there in piece K: the result at row j is chunk K's result at row p.
-/

set_option maxRecDepth 16384

noncomputable section

namespace Cert.KernelIdeal.Val

open Cert.KernelIdeal Cert.KernelIdeal.Gen
open Idealize.ShloMosaic Idealize.ShloMosaic.TcCoe Idealize.ShloMosaic.ValueIdx

variable {F : FTy → Type} [FloatOps F]

/-- Chunk 1: rows 0 … 2019 of the result. -/
theorem out_piece1 (W : Valuation τ sig (Elt F)) (b : Fin 4) (j : Fin 32896) (p : Fin 2020) (o : Fin 768)
    (hj : j.val = 0 + p.val) :
    StableHlo.after hostOps33 W (Proc.devRef .tc main_v102) (ix3 b j o) = W (Proc.devRef .tc main_v6) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 0 _ rfl 0 (by decide) b ⟨j.val, hq⟩ p o hj

/-- Chunk 2: rows 2020 … 3975 of the result. -/
theorem out_piece2 (W : Valuation τ sig (Elt F)) (b : Fin 4) (j : Fin 32896) (p : Fin 1956) (o : Fin 768)
    (hj : j.val = 2020 + p.val) :
    StableHlo.after hostOps33 W (Proc.devRef .tc main_v102) (ix3 b j o) = W (Proc.devRef .tc main_v9) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 1 _ rfl 2020 (by decide) b ⟨j.val, hq⟩ p o hj

/-- Chunk 3: rows 3976 … 5867 of the result. -/
theorem out_piece3 (W : Valuation τ sig (Elt F)) (b : Fin 4) (j : Fin 32896) (p : Fin 1892) (o : Fin 768)
    (hj : j.val = 3976 + p.val) :
    StableHlo.after hostOps33 W (Proc.devRef .tc main_v102) (ix3 b j o) = W (Proc.devRef .tc main_v12) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 2 _ rfl 3976 (by decide) b ⟨j.val, hq⟩ p o hj

/-- Chunk 4: rows 5868 … 7695 of the result. -/
theorem out_piece4 (W : Valuation τ sig (Elt F)) (b : Fin 4) (j : Fin 32896) (p : Fin 1828) (o : Fin 768)
    (hj : j.val = 5868 + p.val) :
    StableHlo.after hostOps33 W (Proc.devRef .tc main_v102) (ix3 b j o) = W (Proc.devRef .tc main_v15) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 3 _ rfl 5868 (by decide) b ⟨j.val, hq⟩ p o hj

/-- Chunk 5: rows 7696 … 9459 of the result. -/
theorem out_piece5 (W : Valuation τ sig (Elt F)) (b : Fin 4) (j : Fin 32896) (p : Fin 1764) (o : Fin 768)
    (hj : j.val = 7696 + p.val) :
    StableHlo.after hostOps33 W (Proc.devRef .tc main_v102) (ix3 b j o) = W (Proc.devRef .tc main_v18) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 4 _ rfl 7696 (by decide) b ⟨j.val, hq⟩ p o hj

/-- Chunk 6: rows 9460 … 11159 of the result. -/
theorem out_piece6 (W : Valuation τ sig (Elt F)) (b : Fin 4) (j : Fin 32896) (p : Fin 1700) (o : Fin 768)
    (hj : j.val = 9460 + p.val) :
    StableHlo.after hostOps33 W (Proc.devRef .tc main_v102) (ix3 b j o) = W (Proc.devRef .tc main_v21) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 5 _ rfl 9460 (by decide) b ⟨j.val, hq⟩ p o hj

/-- Chunk 7: rows 11160 … 12795 of the result. -/
theorem out_piece7 (W : Valuation τ sig (Elt F)) (b : Fin 4) (j : Fin 32896) (p : Fin 1636) (o : Fin 768)
    (hj : j.val = 11160 + p.val) :
    StableHlo.after hostOps33 W (Proc.devRef .tc main_v102) (ix3 b j o) = W (Proc.devRef .tc main_v24) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 6 _ rfl 11160 (by decide) b ⟨j.val, hq⟩ p o hj

/-- Chunk 8: rows 12796 … 14367 of the result. -/
theorem out_piece8 (W : Valuation τ sig (Elt F)) (b : Fin 4) (j : Fin 32896) (p : Fin 1572) (o : Fin 768)
    (hj : j.val = 12796 + p.val) :
    StableHlo.after hostOps33 W (Proc.devRef .tc main_v102) (ix3 b j o) = W (Proc.devRef .tc main_v27) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 7 _ rfl 12796 (by decide) b ⟨j.val, hq⟩ p o hj

/-- Chunk 9: rows 14368 … 15875 of the result. -/
theorem out_piece9 (W : Valuation τ sig (Elt F)) (b : Fin 4) (j : Fin 32896) (p : Fin 1508) (o : Fin 768)
    (hj : j.val = 14368 + p.val) :
    StableHlo.after hostOps33 W (Proc.devRef .tc main_v102) (ix3 b j o) = W (Proc.devRef .tc main_v30) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 8 _ rfl 14368 (by decide) b ⟨j.val, hq⟩ p o hj

/-- Chunk 10: rows 15876 … 17319 of the result. -/
theorem out_piece10 (W : Valuation τ sig (Elt F)) (b : Fin 4) (j : Fin 32896) (p : Fin 1444) (o : Fin 768)
    (hj : j.val = 15876 + p.val) :
    StableHlo.after hostOps33 W (Proc.devRef .tc main_v102) (ix3 b j o) = W (Proc.devRef .tc main_v33) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 9 _ rfl 15876 (by decide) b ⟨j.val, hq⟩ p o hj

/-- Chunk 11: rows 17320 … 18699 of the result. -/
theorem out_piece11 (W : Valuation τ sig (Elt F)) (b : Fin 4) (j : Fin 32896) (p : Fin 1380) (o : Fin 768)
    (hj : j.val = 17320 + p.val) :
    StableHlo.after hostOps33 W (Proc.devRef .tc main_v102) (ix3 b j o) = W (Proc.devRef .tc main_v36) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 10 _ rfl 17320 (by decide) b ⟨j.val, hq⟩ p o hj

/-- Chunk 12: rows 18700 … 20015 of the result. -/
theorem out_piece12 (W : Valuation τ sig (Elt F)) (b : Fin 4) (j : Fin 32896) (p : Fin 1316) (o : Fin 768)
    (hj : j.val = 18700 + p.val) :
    StableHlo.after hostOps33 W (Proc.devRef .tc main_v102) (ix3 b j o) = W (Proc.devRef .tc main_v39) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 11 _ rfl 18700 (by decide) b ⟨j.val, hq⟩ p o hj

/-- Chunk 13: rows 20016 … 21267 of the result. -/
theorem out_piece13 (W : Valuation τ sig (Elt F)) (b : Fin 4) (j : Fin 32896) (p : Fin 1252) (o : Fin 768)
    (hj : j.val = 20016 + p.val) :
    StableHlo.after hostOps33 W (Proc.devRef .tc main_v102) (ix3 b j o) = W (Proc.devRef .tc main_v42) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 12 _ rfl 20016 (by decide) b ⟨j.val, hq⟩ p o hj

/-- Chunk 14: rows 21268 … 22455 of the result. -/
theorem out_piece14 (W : Valuation τ sig (Elt F)) (b : Fin 4) (j : Fin 32896) (p : Fin 1188) (o : Fin 768)
    (hj : j.val = 21268 + p.val) :
    StableHlo.after hostOps33 W (Proc.devRef .tc main_v102) (ix3 b j o) = W (Proc.devRef .tc main_v45) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 13 _ rfl 21268 (by decide) b ⟨j.val, hq⟩ p o hj

/-- Chunk 15: rows 22456 … 23579 of the result. -/
theorem out_piece15 (W : Valuation τ sig (Elt F)) (b : Fin 4) (j : Fin 32896) (p : Fin 1124) (o : Fin 768)
    (hj : j.val = 22456 + p.val) :
    StableHlo.after hostOps33 W (Proc.devRef .tc main_v102) (ix3 b j o) = W (Proc.devRef .tc main_v48) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 14 _ rfl 22456 (by decide) b ⟨j.val, hq⟩ p o hj

/-- Chunk 16: rows 23580 … 24639 of the result. -/
theorem out_piece16 (W : Valuation τ sig (Elt F)) (b : Fin 4) (j : Fin 32896) (p : Fin 1060) (o : Fin 768)
    (hj : j.val = 23580 + p.val) :
    StableHlo.after hostOps33 W (Proc.devRef .tc main_v102) (ix3 b j o) = W (Proc.devRef .tc main_v51) (ix3 b p o) := by
  rw [out_eq W]
  have hq : j.val < 24640 := by omega
  refine (cat_rows_apply _ _ [24640, 8256] rfl 0 _ rfl 0 (by decide) b j (⟨j.val, hq⟩ : Fin 24640) o (by simp)).trans ?_
  exact cat_rows_apply _ _ [2020, 1956, 1892, 1828, 1764, 1700, 1636, 1572, 1508, 1444, 1380, 1316, 1252, 1188, 1124, 1060] rfl 15 _ rfl 23580 (by decide) b ⟨j.val, hq⟩ p o hj

/-- Chunk 17: rows 24640 … 25635 of the result. -/
theorem out_piece17 (W : Valuation τ sig (Elt F)) (b : Fin 4) (j : Fin 32896) (p : Fin 996) (o : Fin 768)
    (hj : j.val = 24640 + p.val) :
    StableHlo.after hostOps33 W (Proc.devRef .tc main_v102) (ix3 b j o) = W (Proc.devRef .tc main_v54) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 0 _ rfl 0 (by decide) b ⟨j.val - 24640, hq⟩ p o (by simp; omega)

/-- Chunk 18: rows 25636 … 26567 of the result. -/
theorem out_piece18 (W : Valuation τ sig (Elt F)) (b : Fin 4) (j : Fin 32896) (p : Fin 932) (o : Fin 768)
    (hj : j.val = 25636 + p.val) :
    StableHlo.after hostOps33 W (Proc.devRef .tc main_v102) (ix3 b j o) = W (Proc.devRef .tc main_v57) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 1 _ rfl 996 (by decide) b ⟨j.val - 24640, hq⟩ p o (by simp; omega)

/-- Chunk 19: rows 26568 … 27435 of the result. -/
theorem out_piece19 (W : Valuation τ sig (Elt F)) (b : Fin 4) (j : Fin 32896) (p : Fin 868) (o : Fin 768)
    (hj : j.val = 26568 + p.val) :
    StableHlo.after hostOps33 W (Proc.devRef .tc main_v102) (ix3 b j o) = W (Proc.devRef .tc main_v60) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 2 _ rfl 1928 (by decide) b ⟨j.val - 24640, hq⟩ p o (by simp; omega)

/-- Chunk 20: rows 27436 … 28239 of the result. -/
theorem out_piece20 (W : Valuation τ sig (Elt F)) (b : Fin 4) (j : Fin 32896) (p : Fin 804) (o : Fin 768)
    (hj : j.val = 27436 + p.val) :
    StableHlo.after hostOps33 W (Proc.devRef .tc main_v102) (ix3 b j o) = W (Proc.devRef .tc main_v63) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 3 _ rfl 2796 (by decide) b ⟨j.val - 24640, hq⟩ p o (by simp; omega)

/-- Chunk 21: rows 28240 … 28979 of the result. -/
theorem out_piece21 (W : Valuation τ sig (Elt F)) (b : Fin 4) (j : Fin 32896) (p : Fin 740) (o : Fin 768)
    (hj : j.val = 28240 + p.val) :
    StableHlo.after hostOps33 W (Proc.devRef .tc main_v102) (ix3 b j o) = W (Proc.devRef .tc main_v66) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 4 _ rfl 3600 (by decide) b ⟨j.val - 24640, hq⟩ p o (by simp; omega)

/-- Chunk 22: rows 28980 … 29655 of the result. -/
theorem out_piece22 (W : Valuation τ sig (Elt F)) (b : Fin 4) (j : Fin 32896) (p : Fin 676) (o : Fin 768)
    (hj : j.val = 28980 + p.val) :
    StableHlo.after hostOps33 W (Proc.devRef .tc main_v102) (ix3 b j o) = W (Proc.devRef .tc main_v69) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 5 _ rfl 4340 (by decide) b ⟨j.val - 24640, hq⟩ p o (by simp; omega)

/-- Chunk 23: rows 29656 … 30267 of the result. -/
theorem out_piece23 (W : Valuation τ sig (Elt F)) (b : Fin 4) (j : Fin 32896) (p : Fin 612) (o : Fin 768)
    (hj : j.val = 29656 + p.val) :
    StableHlo.after hostOps33 W (Proc.devRef .tc main_v102) (ix3 b j o) = W (Proc.devRef .tc main_v72) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 6 _ rfl 5016 (by decide) b ⟨j.val - 24640, hq⟩ p o (by simp; omega)

/-- Chunk 24: rows 30268 … 30815 of the result. -/
theorem out_piece24 (W : Valuation τ sig (Elt F)) (b : Fin 4) (j : Fin 32896) (p : Fin 548) (o : Fin 768)
    (hj : j.val = 30268 + p.val) :
    StableHlo.after hostOps33 W (Proc.devRef .tc main_v102) (ix3 b j o) = W (Proc.devRef .tc main_v75) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 7 _ rfl 5628 (by decide) b ⟨j.val - 24640, hq⟩ p o (by simp; omega)

/-- Chunk 25: rows 30816 … 31299 of the result. -/
theorem out_piece25 (W : Valuation τ sig (Elt F)) (b : Fin 4) (j : Fin 32896) (p : Fin 484) (o : Fin 768)
    (hj : j.val = 30816 + p.val) :
    StableHlo.after hostOps33 W (Proc.devRef .tc main_v102) (ix3 b j o) = W (Proc.devRef .tc main_v78) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 8 _ rfl 6176 (by decide) b ⟨j.val - 24640, hq⟩ p o (by simp; omega)

/-- Chunk 26: rows 31300 … 31719 of the result. -/
theorem out_piece26 (W : Valuation τ sig (Elt F)) (b : Fin 4) (j : Fin 32896) (p : Fin 420) (o : Fin 768)
    (hj : j.val = 31300 + p.val) :
    StableHlo.after hostOps33 W (Proc.devRef .tc main_v102) (ix3 b j o) = W (Proc.devRef .tc main_v81) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 9 _ rfl 6660 (by decide) b ⟨j.val - 24640, hq⟩ p o (by simp; omega)

/-- Chunk 27: rows 31720 … 32075 of the result. -/
theorem out_piece27 (W : Valuation τ sig (Elt F)) (b : Fin 4) (j : Fin 32896) (p : Fin 356) (o : Fin 768)
    (hj : j.val = 31720 + p.val) :
    StableHlo.after hostOps33 W (Proc.devRef .tc main_v102) (ix3 b j o) = W (Proc.devRef .tc main_v84) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 10 _ rfl 7080 (by decide) b ⟨j.val - 24640, hq⟩ p o (by simp; omega)

/-- Chunk 28: rows 32076 … 32367 of the result. -/
theorem out_piece28 (W : Valuation τ sig (Elt F)) (b : Fin 4) (j : Fin 32896) (p : Fin 292) (o : Fin 768)
    (hj : j.val = 32076 + p.val) :
    StableHlo.after hostOps33 W (Proc.devRef .tc main_v102) (ix3 b j o) = W (Proc.devRef .tc main_v87) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 11 _ rfl 7436 (by decide) b ⟨j.val - 24640, hq⟩ p o (by simp; omega)

/-- Chunk 29: rows 32368 … 32595 of the result. -/
theorem out_piece29 (W : Valuation τ sig (Elt F)) (b : Fin 4) (j : Fin 32896) (p : Fin 228) (o : Fin 768)
    (hj : j.val = 32368 + p.val) :
    StableHlo.after hostOps33 W (Proc.devRef .tc main_v102) (ix3 b j o) = W (Proc.devRef .tc main_v90) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 12 _ rfl 7728 (by decide) b ⟨j.val - 24640, hq⟩ p o (by simp; omega)

/-- Chunk 30: rows 32596 … 32759 of the result. -/
theorem out_piece30 (W : Valuation τ sig (Elt F)) (b : Fin 4) (j : Fin 32896) (p : Fin 164) (o : Fin 768)
    (hj : j.val = 32596 + p.val) :
    StableHlo.after hostOps33 W (Proc.devRef .tc main_v102) (ix3 b j o) = W (Proc.devRef .tc main_v93) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 13 _ rfl 7956 (by decide) b ⟨j.val - 24640, hq⟩ p o (by simp; omega)

/-- Chunk 31: rows 32760 … 32859 of the result. -/
theorem out_piece31 (W : Valuation τ sig (Elt F)) (b : Fin 4) (j : Fin 32896) (p : Fin 100) (o : Fin 768)
    (hj : j.val = 32760 + p.val) :
    StableHlo.after hostOps33 W (Proc.devRef .tc main_v102) (ix3 b j o) = W (Proc.devRef .tc main_v96) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 14 _ rfl 8120 (by decide) b ⟨j.val - 24640, hq⟩ p o (by simp; omega)

/-- Chunk 32: rows 32860 … 32895 of the result. -/
theorem out_piece32 (W : Valuation τ sig (Elt F)) (b : Fin 4) (j : Fin 32896) (p : Fin 36) (o : Fin 768)
    (hj : j.val = 32860 + p.val) :
    StableHlo.after hostOps33 W (Proc.devRef .tc main_v102) (ix3 b j o) = W (Proc.devRef .tc main_v99) (ix3 b p o) := by
  rw [out_eq W]
  have hq : j.val - 24640 < 8256 := by omega
  refine (cat_rows_apply _ _ [24640, 8256] rfl 1 _ rfl 24640 (by decide) b j (⟨j.val - 24640, hq⟩ : Fin 8256) o (by simp; omega)).trans ?_
  exact cat_rows_apply _ _ [996, 932, 868, 804, 740, 676, 612, 548, 484, 420, 356, 292, 228, 164, 100, 36] rfl 15 _ rfl 8220 (by decide) b ⟨j.val - 24640, hq⟩ p o (by simp; omega)

end Cert.KernelIdeal.Val

end
-- ==== Proof.KI.PayLib.lean ====
/-
  The stored value of a triangular chunk, read at an index: everything that does not depend on which chunk it is.

  A chunk pairs eight consecutive rows `i` of the first product with the rows `j ≥ i` of the second. Inside the chunk
  the second product starts at the chunk's first row, so with `L` rows of it in view, local row `r` (0 ≤ r < 8) is
  paired with the local rows `r, …, L - 1`: piece `r` has `L - r` rows, and its row `d` is
  `tanh ((p₁ row r + p₂ row (r + d)) + bias)`. The kernel stores the eight pieces one under the other, so piece `r`
  starts at local row `locOff L r = L + (L - 1) + … + (L - r + 1)`. In the packed triangular order these are the
  offsets `triOff` counted from the chunk's first row (`triOff_add_locOff`).

  Here: `locOff` and its arithmetic; one piece read at a row (`piece0_apply` for the first piece, which adds the
  second product whole; `pieceR_apply` for the others, which add a slice of it; `piece1_apply` for a last piece of a
  single row, where nothing is broadcast); and a concatenation of eight row blocks read at a row of its piece `k`
  (`cat8_at0` … `cat8_at7`).
-/
import proofs.«116342_j30605936951494_1_alg».proof.Proof.Spec
import Idealize.ShloMosaic.Lib.ValueLayout

noncomputable section

namespace Cert.KernelIdeal.Val

open Idealize.ShloMosaic Idealize.ShloMosaic.ValueIdx Cert.Tri

/-! ## Where a piece starts -/

/-- The rows of pieces `0 … r - 1` when the first has `L` rows and each next one a row fewer. -/
def locOff (L : ℕ) : ℕ → ℕ
  | 0 => 0
  | r + 1 => locOff L r + (L - r)

theorem locOff_zero (L : ℕ) : locOff L 0 = 0 := rfl

theorem locOff_succ (L r : ℕ) : locOff L (r + 1) = locOff L r + (L - r) := rfl

/-- The packed triangular offset of row `i0 + r` is that of row `i0` plus the local offset with `256 - i0` rows in view. -/
theorem triOff_add_locOff (i0 r : ℕ) : triOff (i0 + r) = triOff i0 + locOff (256 - i0) r := by
  induction r with
  | zero => rfl
  | succ r ih =>
    rw [← Nat.add_assoc, triOff_succ, ih]
    show _ = triOff i0 + (locOff (256 - i0) r + (256 - i0 - r))
    omega

/-- With all 256 rows in view the local offset is the packed triangular offset itself. -/
theorem locOff_256 (r : ℕ) : locOff 256 r = triOff r := by
  have h := triOff_add_locOff 0 r
  rw [Nat.zero_add, Nat.sub_zero] at h
  have h0 : triOff 0 = 0 := rfl
  omega

/-- A row of piece `r` lies inside the eight pieces' `8 L - 28` rows. -/
theorem locOff_add_lt {L r d : ℕ} (hr : r < 8) (hL : 8 ≤ L) (hd : r + d < L) : locOff L r + d < 8 * L - 28 := by
  have h : r = 0 ∨ r = 1 ∨ r = 2 ∨ r = 3 ∨ r = 4 ∨ r = 5 ∨ r = 6 ∨ r = 7 := by omega
  rcases h with rfl | rfl | rfl | rfl | rfl | rfl | rfl | rfl <;> simp only [locOff] <;> omega

/-! ## One piece at a row -/

section Piece
variable {L m : ℕ}

/-- The first piece: row 0 of the first block, broadcast over the rows, plus the second block whole, plus the bias row;
    at row `d` it pairs row 0 with row `d`. -/
theorem piece0_apply (x0 : FVec Ideal ⟨3, ![1, 8, 768]⟩ .f32) (x1 : FVec Ideal ⟨3, ![1, L, 768]⟩ .f32)
    (x2 : FVec Ideal ⟨2, ![1, 768]⟩ .f32)
    (h0 : (⟨3, ![1, 8, 768]⟩ : Shape).ShapeCasts ⟨2, ![8, 768]⟩) (h1 : (⟨3, ![1, L, 768]⟩ : Shape).ShapeCasts ⟨2, ![L, 768]⟩)
    (h2 : (⟨2, ![1, 768]⟩ : Shape).ShapeCasts ⟨2, ![1, 768]⟩)
    (hA : (⟨2, ![8, 768]⟩ : Shape).Slices ![0, 0] ⟨2, ![1, 768]⟩)
    (hb hb' : (⟨2, ![1, 768]⟩ : Shape).Broadcasts ⟨2, ![L, 768]⟩) (d : ℕ) (hd : d < L) (o : Fin 768) :
    tanh (addf (addf (broadcastTo ⟨2, ![L, 768]⟩ (extractStridedSlice ⟨2, ![1, 768]⟩ ![0, 0] (shapeCast ⟨2, ![8, 768]⟩ x0 h0) hA) hb)
        (shapeCast ⟨2, ![L, 768]⟩ x1 h1)) (broadcastTo ⟨2, ![L, 768]⟩ (shapeCast ⟨2, ![1, 768]⟩ x2 h2) hb')) (ix2 ⟨d, hd⟩ o)
      = Ideal.tanh ((x0 (ix3 0 0 o) + x1 (ix3 0 ⟨d, hd⟩ o)) + x2 (ix2 0 o)) := by
  show Ideal.tanh ((_ + _) + _) = _
  rw [broadcastTo_1b_ab_apply, broadcastTo_1b_ab_apply, slice2_axis0_apply 0 _ hA 0 o 0 rfl, shapeCast_1ab_ab_apply,
    shapeCast_1ab_ab_apply, shapeCast_self]

/-- A later piece, cut from local row `r` on: row `r` of the first block, broadcast over the rows, plus the second
    block from row `r` on, plus the bias row; at row `d` it pairs row `r` with row `r + d`. -/
theorem pieceR_apply (r : ℕ) (x0 : FVec Ideal ⟨3, ![1, 8, 768]⟩ .f32) (x1 : FVec Ideal ⟨3, ![1, L, 768]⟩ .f32)
    (x2 : FVec Ideal ⟨2, ![1, 768]⟩ .f32)
    (h0 : (⟨3, ![1, 8, 768]⟩ : Shape).ShapeCasts ⟨2, ![8, 768]⟩) (h1 : (⟨3, ![1, L, 768]⟩ : Shape).ShapeCasts ⟨2, ![L, 768]⟩)
    (h2 : (⟨2, ![1, 768]⟩ : Shape).ShapeCasts ⟨2, ![1, 768]⟩)
    (hA : (⟨2, ![8, 768]⟩ : Shape).Slices ![r, 0] ⟨2, ![1, 768]⟩) (hB : (⟨2, ![L, 768]⟩ : Shape).Slices ![r, 0] ⟨2, ![m, 768]⟩)
    (hb hb' : (⟨2, ![1, 768]⟩ : Shape).Broadcasts ⟨2, ![m, 768]⟩) (d : ℕ) (hd : d < m) (o : Fin 768)
    (rr : Fin 8) (hrr : rr.val = r) (q : Fin L) (hq : q.val = r + d) :
    tanh (addf (addf (broadcastTo ⟨2, ![m, 768]⟩ (extractStridedSlice ⟨2, ![1, 768]⟩ ![r, 0] (shapeCast ⟨2, ![8, 768]⟩ x0 h0) hA) hb)
        (extractStridedSlice ⟨2, ![m, 768]⟩ ![r, 0] (shapeCast ⟨2, ![L, 768]⟩ x1 h1) hB))
        (broadcastTo ⟨2, ![m, 768]⟩ (shapeCast ⟨2, ![1, 768]⟩ x2 h2) hb')) (ix2 ⟨d, hd⟩ o)
      = Ideal.tanh ((x0 (ix3 0 rr o) + x1 (ix3 0 q o)) + x2 (ix2 0 o)) := by
  show Ideal.tanh ((_ + _) + _) = _
  rw [broadcastTo_1b_ab_apply, broadcastTo_1b_ab_apply, slice2_axis0_apply r _ hA 0 o rr hrr,
    slice2_axis0_apply r _ hB ⟨d, hd⟩ o q hq, shapeCast_1ab_ab_apply, shapeCast_1ab_ab_apply, shapeCast_self]

/-- A last piece of ONE row (the chunk whose second block has eight rows): the two rows and the bias row are added as
    they are, nothing is broadcast. -/
theorem piece1_apply (r : ℕ) (x0 : FVec Ideal ⟨3, ![1, 8, 768]⟩ .f32) (x1 : FVec Ideal ⟨3, ![1, L, 768]⟩ .f32)
    (x2 : FVec Ideal ⟨2, ![1, 768]⟩ .f32)
    (h0 : (⟨3, ![1, 8, 768]⟩ : Shape).ShapeCasts ⟨2, ![8, 768]⟩) (h1 : (⟨3, ![1, L, 768]⟩ : Shape).ShapeCasts ⟨2, ![L, 768]⟩)
    (h2 : (⟨2, ![1, 768]⟩ : Shape).ShapeCasts ⟨2, ![1, 768]⟩)
    (hA : (⟨2, ![8, 768]⟩ : Shape).Slices ![r, 0] ⟨2, ![1, 768]⟩) (hB : (⟨2, ![L, 768]⟩ : Shape).Slices ![r, 0] ⟨2, ![1, 768]⟩)
    (d : ℕ) (hd : d < 1) (o : Fin 768) (rr : Fin 8) (hrr : rr.val = r) (q : Fin L) (hq : q.val = r + d) :
    tanh (addf (addf (extractStridedSlice ⟨2, ![1, 768]⟩ ![r, 0] (shapeCast ⟨2, ![8, 768]⟩ x0 h0) hA)
        (extractStridedSlice ⟨2, ![1, 768]⟩ ![r, 0] (shapeCast ⟨2, ![L, 768]⟩ x1 h1) hB))
        (shapeCast ⟨2, ![1, 768]⟩ x2 h2)) (ix2 ⟨d, hd⟩ o)
      = Ideal.tanh ((x0 (ix3 0 rr o) + x1 (ix3 0 q o)) + x2 (ix2 0 o)) := by
  have hd0 : d = 0 := by omega
  subst hd0
  show Ideal.tanh ((_ + _) + _) = _
  rw [slice2_axis0_apply r _ hA ⟨0, hd⟩ o rr hrr, slice2_axis0_apply r _ hB ⟨0, hd⟩ o q hq, shapeCast_1ab_ab_apply,
    shapeCast_1ab_ab_apply, shapeCast_self]
  rfl

end Piece

/-! ## Eight row blocks laid one under the other, read at a row -/

section Cat
variable {α : Type} {m0 m1 m2 m3 m4 m5 m6 m7 T : ℕ}

/-- Off the concatenation axis (the rows) an index of a piece and the index of the whole have the same coordinate. -/
theorem off_axis {a b : ℕ} {d : Fin a} {p : Fin b} {o : Fin 768} (c : Fin 2) (hc : c.cast (rfl : (2 : ℕ) = 2) ≠ 0) :
    ((ix2 d o : (⟨2, ![a, 768]⟩ : Shape).Idx) c).val = ((ix2 p o : (⟨2, ![b, 768]⟩ : Shape).Idx) (c.cast (rfl : (2 : ℕ) = 2))).val :=
  match c, hc with
  | ⟨0, _⟩, hc => absurd rfl hc
  | ⟨1, _⟩, _ => rfl

/-- Piece 0 of eight: the rows after the first none pieces. -/
theorem cat8_at0 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m0) (o : Fin 768) (p : Fin T) (hp : p.val = d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v0 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 0 (by simp) ⟨2, ![m0, 768]⟩ v0 rfl rfl
    (0) rfl (ix2 ⟨d, hd⟩ o) off_axis
    (by show 0 + d = p.val; omega)

/-- Piece 1 of eight: the rows after the first 1 piece. -/
theorem cat8_at1 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m1) (o : Fin 768) (p : Fin T) (hp : p.val = m0 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v1 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 1 (by simp) ⟨2, ![m1, 768]⟩ v1 rfl rfl
    (m0 + 0) rfl (ix2 ⟨d, hd⟩ o) off_axis
    (by show m0 + 0 + d = p.val; omega)

/-- Piece 2 of eight: the rows after the first 2 pieces. -/
theorem cat8_at2 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m2) (o : Fin 768) (p : Fin T) (hp : p.val = m0 + m1 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v2 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 2 (by simp) ⟨2, ![m2, 768]⟩ v2 rfl rfl
    (m0 + (m1 + 0)) rfl (ix2 ⟨d, hd⟩ o) off_axis
    (by show m0 + (m1 + 0) + d = p.val; omega)

/-- Piece 3 of eight: the rows after the first 3 pieces. -/
theorem cat8_at3 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m3) (o : Fin 768) (p : Fin T) (hp : p.val = m0 + m1 + m2 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v3 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 3 (by simp) ⟨2, ![m3, 768]⟩ v3 rfl rfl
    (m0 + (m1 + (m2 + 0))) rfl (ix2 ⟨d, hd⟩ o) off_axis
    (by show m0 + (m1 + (m2 + 0)) + d = p.val; omega)

/-- Piece 4 of eight: the rows after the first 4 pieces. -/
theorem cat8_at4 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m4) (o : Fin 768) (p : Fin T) (hp : p.val = m0 + m1 + m2 + m3 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v4 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 4 (by simp) ⟨2, ![m4, 768]⟩ v4 rfl rfl
    (m0 + (m1 + (m2 + (m3 + 0)))) rfl (ix2 ⟨d, hd⟩ o) off_axis
    (by show m0 + (m1 + (m2 + (m3 + 0))) + d = p.val; omega)

/-- Piece 5 of eight: the rows after the first 5 pieces. -/
theorem cat8_at5 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m5) (o : Fin 768) (p : Fin T) (hp : p.val = m0 + m1 + m2 + m3 + m4 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v5 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 5 (by simp) ⟨2, ![m5, 768]⟩ v5 rfl rfl
    (m0 + (m1 + (m2 + (m3 + (m4 + 0))))) rfl (ix2 ⟨d, hd⟩ o) off_axis
    (by show m0 + (m1 + (m2 + (m3 + (m4 + 0)))) + d = p.val; omega)

/-- Piece 6 of eight: the rows after the first 6 pieces. -/
theorem cat8_at6 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m6) (o : Fin 768) (p : Fin T) (hp : p.val = m0 + m1 + m2 + m3 + m4 + m5 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v6 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 6 (by simp) ⟨2, ![m6, 768]⟩ v6 rfl rfl
    (m0 + (m1 + (m2 + (m3 + (m4 + (m5 + 0)))))) rfl (ix2 ⟨d, hd⟩ o) off_axis
    (by show m0 + (m1 + (m2 + (m3 + (m4 + (m5 + 0))))) + d = p.val; omega)

/-- Piece 7 of eight: the rows after the first 7 pieces. -/
theorem cat8_at7 (v0 : (⟨2, ![m0, 768]⟩ : Shape).Idx → α) (v1 : (⟨2, ![m1, 768]⟩ : Shape).Idx → α)
    (v2 : (⟨2, ![m2, 768]⟩ : Shape).Idx → α) (v3 : (⟨2, ![m3, 768]⟩ : Shape).Idx → α)
    (v4 : (⟨2, ![m4, 768]⟩ : Shape).Idx → α) (v5 : (⟨2, ![m5, 768]⟩ : Shape).Idx → α)
    (v6 : (⟨2, ![m6, 768]⟩ : Shape).Idx → α) (v7 : (⟨2, ![m7, 768]⟩ : Shape).Idx → α)
    (h : Shape.Concatenates [⟨2, ![m0, 768]⟩, ⟨2, ![m1, 768]⟩, ⟨2, ![m2, 768]⟩, ⟨2, ![m3, 768]⟩, ⟨2, ![m4, 768]⟩, ⟨2, ![m5, 768]⟩, ⟨2, ![m6, 768]⟩, ⟨2, ![m7, 768]⟩] ⟨2, ![T, 768]⟩ 0)
    (d : ℕ) (hd : d < m7) (o : Fin 768) (p : Fin T) (hp : p.val = m0 + m1 + m2 + m3 + m4 + m5 + m6 + d) :
    concatenate ⟨2, ![T, 768]⟩ 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) = v7 (ix2 ⟨d, hd⟩ o) :=
  concatenate_apply_piece (t := ⟨2, ![T, 768]⟩) 0 [⟨⟨2, ![m0, 768]⟩, v0⟩, ⟨⟨2, ![m1, 768]⟩, v1⟩, ⟨⟨2, ![m2, 768]⟩, v2⟩, ⟨⟨2, ![m3, 768]⟩, v3⟩, ⟨⟨2, ![m4, 768]⟩, v4⟩, ⟨⟨2, ![m5, 768]⟩, v5⟩, ⟨⟨2, ![m6, 768]⟩, v6⟩, ⟨⟨2, ![m7, 768]⟩, v7⟩] h (ix2 p o) 7 (by simp) ⟨2, ![m7, 768]⟩ v7 rfl rfl
    (m0 + (m1 + (m2 + (m3 + (m4 + (m5 + (m6 + 0))))))) rfl (ix2 ⟨d, hd⟩ o) off_axis
    (by show m0 + (m1 + (m2 + (m3 + (m4 + (m5 + (m6 + 0)))))) + d = p.val; omega)

end Cat

end Cert.KernelIdeal.Val

end
-- ==== Proof.KI.PayT1.lean ====
/-
  Chunk 1's stored value, read at an index.

  The body stores one value over its whole result block: the eight pieces `tanh ((p₁ row r + p₂ rows r…) + bias)`,
  `r = 0 … 7`, laid one under the other and given a leading unit axis. With 256 rows of the second product in view,
  piece `r` has `256 - r` rows and starts at row `locOff 256 r`. So the stored value at row `locOff 256 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 1 stores, as a function of the three blocks it loads. -/
abbrev stored1 {F : FTy → Type} [FloatOps F] (x0 : Vec F S1x8x768 .f32) (x1 : Vec F S1x256x768 .f32) (x2 : Vec F S1x768 .f32) :
    Vec F S1x2020x768 .f32 :=
  k1_pay1 (k1_pay2 x0) (k1_pay3 x1) (k1_pay4 x2) (k1_pay5 x0 x1 x2) (k1_pay6 x0 x1 x2) (k1_pay7 x0 x1 x2) (k1_pay8 x0 x1 x2)
    (k1_pay9 x0 x1 x2) (k1_pay10 x0 x1 x2) (k1_pay11 x0 x1)

/-- The stored value at row `locOff 256 r + d` of its block pairs row `r` of the first block with row `r + d` of the
    second. -/
theorem pay1_apply (x0 : Vec Ideal S1x8x768 .f32) (x1 : Vec Ideal S1x256x768 .f32) (x2 : Vec Ideal S1x768 .f32)
    (r : Fin 8) (d : ℕ) (q : Fin 256) (hq : q.val = r.val + d) (p : Fin 2020) (hp : p.val = locOff 256 r.val + d) (o : Fin 768) :
    stored1 x0 x1 x2 (ix3 0 p o) = Ideal.tanh ((x0 (ix3 0 r o) + x1 (ix3 0 q o)) + x2 (ix2 0 o)) := by
  have hql := q.isLt
  unfold stored1 k1_pay1
  refine (shapeCast_ab_1ab_apply _ _ 0 p o).trans ?_
  match r, hq, hp with
  | ⟨0, _⟩, hq, hp =>
    have hq : q.val = 0 + d := hq
    have hp : p.val = locOff 256 0 + d := hp
    have hd : d < 256 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 256 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 256 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 256 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 256 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 256 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 256 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 256 7 + d := hp
    refine (cat8_at7 _ _ _ _ _ _ _ _ _ d (by omega) o p (by simp only [locOff] at hp; omega)).trans ?_
    -- the last piece has 249 rows; a last piece of a single row is stored without broadcasts and has its own lemma
    first
      | have single : (249 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT1.lean ====
/-
  Chunk 1's result array after its region, read at an index.

  The region's grid is the batch: point `t` loads batch `t`'s eight rows of the first product's slice, batch `t`'s 256
  rows of the second product's slice and the bias row, and writes back the whole block `t` of the result. What it
  writes is the body's stored value of those three blocks. So the result array is ONE function of the three arrays it
  reads — at batch `b`, row `p`: the stored value of batch `b`'s blocks at row `p` (`G1`) —, every point writes its
  block of that function (`flushed1_eq`), the four blocks cover the array (`cover1`), hence the array ends as that
  function (`arr1_eq`); and at row `locOff 256 r + d` the stored value is the pair of row `r` with row `r + d`
  (`final1`).
-/
import proofs.«116342_j30605936951494_1_alg».proof.Proof.KI.Reg1
import proofs.«116342_j30605936951494_1_alg».proof.Proof.KI.PayT1
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA1 : (![0, 0, 0] : Fin 3 → Nat) = fun _ => 0 := funext fun a => by fin_cases a <;> rfl
theorem hzB1 : (![0, 0] : Fin 2 → Nat) = fun _ => 0 := funext fun a => by fin_cases a <;> rfl

/-- The grid is the batch: point `t` works on batch `t`. -/
noncomputable def batch1 (t : Fin cfg1.N) : Fin 4 := ⟨t.val, lt_of_lt_of_eq t.isLt N_1⟩

/-- The printed index maps, decided over the four points: the three batched windows sit at block `(t, 0, 0)`, the bias
    row at its one block. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Batch `b`'s eight rows of the first product's slice, as a block. -/
noncomputable def blk1_0 (c : Dev nD) (b : Fin 4) : Vec Ideal S1x8x768 .f32 :=
  fun y => (V c main_v5 : S4x8x768.Idx → EReal) (ix3 b (y 1 : Fin 8) (y 2 : Fin 768))
/-- Batch `b`'s 256 rows of the second product's slice, as a block. -/
noncomputable def blk1_1 (c : Dev nD) (b : Fin 4) : Vec Ideal S1x256x768 .f32 :=
  fun y => (V c main_v3 : S4x256x768.Idx → EReal) (ix3 b (y 1 : Fin 256) (y 2 : Fin 768))
/-- The bias row. -/
noncomputable def blk1_2 (c : Dev nD) : Vec Ideal S1x768 .f32 := fun y => (V c main_v4 : S1x768.Idx → EReal) y

theorem iblk1_0_eq (c : Dev nD) (t : Fin cfg1.N) : (iblk1 V c 0 t : Vec Ideal S1x8x768 .f32) = blk1_0 V c (batch1 t) := by
  obtain ⟨e0, e1, e2, -⟩ := idx_facts1 t
  funext y
  unfold iblk1 blk1_0
  rw [View.read_apply]
  show V c main_v5 _ = V c main_v5 _
  congr 1
  funext a
  apply Fin.ext
  match a with
  | ⟨0, _⟩ => show win1_0.index t (0 : Fin 3) * 1 + 1 * (y 0).val = t.val; have hy : (y 0).val < 1 := (y 0).isLt; omega
  | ⟨1, _⟩ => show win1_0.index t (1 : Fin 3) * 8 + 1 * (y 1).val = (y 1).val; omega
  | ⟨2, _⟩ => show win1_0.index t (2 : Fin 3) * 768 + 1 * (y 2).val = (y 2).val; omega

theorem iblk1_1_eq (c : Dev nD) (t : Fin cfg1.N) : (iblk1 V c 1 t : Vec Ideal S1x256x768 .f32) = blk1_1 V c (batch1 t) := by
  obtain ⟨-, -, -, e0, e1, e2, -⟩ := idx_facts1 t
  funext y
  unfold iblk1 blk1_1
  rw [View.read_apply]
  show V c main_v3 _ = V c main_v3 _
  congr 1
  funext a
  apply Fin.ext
  match a with
  | ⟨0, _⟩ => show win1_1.index t (0 : Fin 3) * 1 + 1 * (y 0).val = t.val; have hy : (y 0).val < 1 := (y 0).isLt; omega
  | ⟨1, _⟩ => show win1_1.index t (1 : Fin 3) * 256 + 1 * (y 1).val = (y 1).val; omega
  | ⟨2, _⟩ => show win1_1.index t (2 : Fin 3) * 768 + 1 * (y 2).val = (y 2).val; omega

theorem iblk1_2_eq (c : Dev nD) (t : Fin cfg1.N) : (iblk1 V c 2 t : Vec Ideal S1x768 .f32) = blk1_2 V c := by
  obtain ⟨-, -, -, -, -, -, e0, e1, -⟩ := idx_facts1 t
  funext y
  unfold iblk1 blk1_2
  rw [View.read_apply]
  show V c main_v4 _ = V c main_v4 _
  congr 1
  funext a
  apply Fin.ext
  match a with
  | ⟨0, _⟩ => show win1_2.index t (0 : Fin 2) * 1 + 1 * (y 0).val = (y 0).val; omega
  | ⟨1, _⟩ => show win1_2.index t (1 : Fin 2) * 768 + 1 * (y 1).val = (y 1).val; omega

/-- The result array as ONE function of the three arrays the chunk reads: at batch `b`, row `p`, the value the body
    stores for batch `b`'s blocks, read at row `p`. -/
noncomputable def G1 (c : Dev nD) : S4x2020x768.Idx → EReal :=
  fun i => stored1 (blk1_0 V c (i 0 : Fin 4)) (blk1_1 V c (i 0 : Fin 4)) (blk1_2 V c) (ix3 (0 : Fin 1) (i 1 : Fin 2020) (i 2 : Fin 768))

/-- What point `t` writes back is block `t` of `G1`. -/
theorem flushed1_eq (c : Dev nD) (t : Fin cfg1.N) :
    (dat1 (F := Ideal) V c).flushed 3 t = ((cfg1.win 3).blk t).view.read (Elt Ideal) (G1 V c) := by
  obtain ⟨-, -, -, -, -, -, -, -, e0, e1, e2⟩ := idx_facts1 t
  show (cfg1.win 3).cut (grid1.coords t) ((dat1 (F := Ideal) V c).after 3 t) = _
  rw [after1_3]
  unfold out1_3
  rw [View.canon_unit_zero hzA1]
  simp only [View.ld_unit_zero (S := S1x8x768) hzA1, View.ld_unit_zero (S := S1x256x768) hzA1, View.ld_unit_zero (S := S1x768) hzB1]
  rw [iblk1_0_eq, iblk1_1_eq, iblk1_2_eq]
  funext j
  show stored1 (blk1_0 V c (batch1 t)) (blk1_1 V c (batch1 t)) (blk1_2 V c) j = G1 V c (((cfg1.win 3).blk t).view.emb j)
  have hj0 : (j 0).val < 1 := (j 0).isLt
  have he : ((cfg1.win 3).blk t).view.emb j = (ix3 (batch1 t) (j 1 : Fin 2020) (j 2 : Fin 768) : S4x2020x768.Idx) := by
    funext a
    apply Fin.ext
    match a with
    | ⟨0, _⟩ => show win1_3.index t (0 : Fin 3) * 1 + 1 * (j 0).val = t.val; omega
    | ⟨1, _⟩ => show win1_3.index t (1 : Fin 3) * 2020 + 1 * (j 1).val = (j 1).val; omega
    | ⟨2, _⟩ => show win1_3.index t (2 : Fin 3) * 768 + 1 * (j 2).val = (j 2).val; omega
  rw [he]
  show _ = stored1 (blk1_0 V c (batch1 t)) (blk1_1 V c (batch1 t)) (blk1_2 V c) (ix3 (0 : Fin 1) (j 1 : Fin 2020) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk1 (t : Fin cfg1.N) (i : S4x2020x768.Idx) :
    i ∈ ((cfg1.win 3).blk t).view.set ↔ ∀ a : Fin 3, win1_3.index t a * S1x2020x768.size a ≤ (i a).val ∧ (i a).val < win1_3.index t a * S1x2020x768.size a + S1x2020x768.size a := by
  show i ∈ ((View.whole main_v6).slice (win1_3.rect t)).set ↔ _
  rw [View.set_slice_whole, Rect.mem_set_unit]
  exact Iff.rfl

/-- Batch `b` of the result is written by point `b`. -/
theorem cover1 (i : S4x2020x768.Idx) : ∃ t : Fin cfg1.N, (cfg1.win 3).flush t = true ∧ i ∈ ((cfg1.win 3).blk t).view.set := by
  have hi0 : (i 0).val < 4 := (i 0).isLt
  have hi1 : (i 1).val < 2020 := (i 1).isLt
  have hi2 : (i 2).val < 768 := (i 2).isLt
  let t : Fin cfg1.N := ⟨(i 0).val, lt_of_lt_of_eq hi0 N_1.symm⟩
  obtain ⟨-, -, -, -, -, -, -, -, e0, e1, e2⟩ := idx_facts1 t
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; rw [e0]; show (i 0).val * 1 ≤ (i 0).val ∧ (i 0).val < (i 0).val * 1 + 1; omega
  | ⟨1, _⟩ => show win1_3.index t (1 : Fin 3) * 2020 ≤ (i 1).val ∧ (i 1).val < win1_3.index t (1 : Fin 3) * 2020 + 2020; omega
  | ⟨2, _⟩ => show win1_3.index t (2 : Fin 3) * 768 ≤ (i 2).val ∧ (i 2).val < win1_3.index t (2 : Fin 3) * 768 + 768; omega

/-- The result array after the region is `G1`. -/
theorem arr1_eq (c : Dev nD) : (dat1 (F := Ideal) V c).arrAt 3 cfg1.N = G1 V c :=
  (dat1 (F := Ideal) V c).arrAt_eq_of_cover 3 (G1 V c) (fun t _ => flushed1_eq V c t) cover1

/-- The three arrays the chunk reads, at their literal types (so that their entries add as extended reals). -/
abbrev src1_0 (c : Dev nD) : S4x8x768.Idx → EReal := V c main_v5
abbrev src1_1 (c : Dev nD) : S4x256x768.Idx → EReal := V c main_v3
abbrev src1_2 (c : Dev nD) : S1x768.Idx → EReal := V c main_v4

/-- The result array at batch `b`, row `locOff 256 r + d`: the pair of row `r` of the first slice with row `r + d` of
    the second, at batch `b`. -/
theorem final1 (c : Dev nD) (b : Fin 4) (r : Fin 8) (d : ℕ) (q : Fin 256) (hq : q.val = r.val + d)
    (p : Fin 2020) (hp : p.val = locOff 256 r.val + d) (o : Fin 768) :
    (dat1 (F := Ideal) V c).arrAt 3 cfg1.N (ix3 b p o)
      = Ideal.tanh ((src1_0 V c (ix3 b r o) + src1_1 V c (ix3 b q o)) + src1_2 V c (ix2 0 o)) := by
  rw [arr1_eq]
  show stored1 (blk1_0 V c b) (blk1_1 V c b) (blk1_2 V c) (ix3 0 p o) = _
  rw [pay1_apply _ _ _ r d q hq p hp o]
  rfl

end Cert.KernelIdeal.Val

end
-- ==== Proof.KI.Case1.lean ====
/-
  Chunk 1 of the triangle: the pairs (i, j) with i < 8.

  The first chunk's region reads its eight rows 0 … 7 of the first projection (cut by the host at boundary 3), the whole
  second projection and the bias row as boundary 3 holds them. Its result, still in place when the last stretch reads
  it, holds at local row `locOff 256 r + d` the value of the pair (r, r + d). The chunk starts the packed order (row 0)
  and the pair (i, j) sits at `triOff i + (j - i) = locOff 256 i + (j - i)`: inside this chunk's piece of the concatenation,
  the first.
-/
import proofs.«116342_j30605936951494_1_alg».proof.Proof.KI.KeepOut
import proofs.«116342_j30605936951494_1_alg».proof.Proof.KI.Proj
import proofs.«116342_j30605936951494_1_alg».proof.Proof.KI.OutPiece
import proofs.«116342_j30605936951494_1_alg».proof.Proof.KI.ValT1
import proofs.«116342_j30605936951494_1_alg».proof.Proof.KI.PayLib

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 256 r + d` holds the pair (r, r + d). -/
theorem chunk1 (c : Dev nD) (b : Fin 4) (r : Fin 8) (d : ℕ) (hd : r.val + d < 256) (p : Fin 2020)
    (hp : p.val = locOff 256 r.val + d) (o : Fin 768) :
    (W66 m ρ c (Proc.devRef .tc main_v6) : Vec Ideal S4x2020x768 .f32) (ix3 b p o)
      = Cert.Tri.pairValue (argX m c) (argW m c) (argB m c) b ⟨r.val, by omega⟩ ⟨r.val + d, hd⟩ o := by
  have e0 : src1_0 (V3 m ρ) c (ix3 b r o) = Cert.Tri.proj1 (argX m c) (argW m c) b ⟨r.val, by omega⟩ o :=
    rows1_W3 m ρ c b r o
  have e1 : src1_1 (V3 m ρ) c (ix3 b (⟨r.val + d, hd⟩ : Fin 256) o)
      = Cert.Tri.proj2 (argX m c) (argW m c) b ⟨r.val + d, hd⟩ o :=
    p2_W3 m ρ c b _ o
  have e2 : src1_2 (V3 m ρ) c (ix2 0 o) = argB m c (ix1 o) := bias_W3 m ρ c 0 o
  calc (W66 m ρ c (Proc.devRef .tc main_v6) : Vec Ideal S4x2020x768 .f32) (ix3 b p o)
      = ((dat1 (F := Ideal) (V3 m ρ) c).arrAt 3 cfg1.N : Vec Ideal S4x2020x768 .f32) (ix3 b p o) :=
        congrFun (out1_final m ρ c) _
    _ = Ideal.tanh ((src1_0 (V3 m ρ) c (ix3 b r o) + src1_1 (V3 m ρ) c (ix3 b (⟨r.val + d, hd⟩ : Fin 256) o))
          + src1_2 (V3 m ρ) c (ix2 0 o)) :=
        final1 (V3 m ρ) c b r d ⟨r.val + d, hd⟩ rfl p hp o
    _ = Cert.Tri.pairValue (argX m c) (argW m c) (argB m c) b ⟨r.val, by omega⟩ ⟨r.val + d, hd⟩ o := by
        rw [e0, e1, e2]
        rfl

/-- The program's result at the rank of a pair (i, j) of this chunk (`i / 8 = 0`). -/
theorem case1 (c : Dev nD) (b : Fin 4) (i j : Fin 256) (o : Fin 768) (hij : i.val ≤ j.val) (hK : i.val / 8 = 0) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val < 8 := by omega
  have hj : i.val + (j.val - i.val) = j.val := by omega
  have hd : i.val + (j.val - i.val) < 256 := by have := j.isLt; omega
  have hT : locOff 256 i.val + (j.val - i.val) < 2020 := by
    have := locOff_add_lt (L := 256) hr (by norm_num) hd
    omega
  have hrank : Cert.Tri.rank i.val j.val = 0 + (locOff 256 i.val + (j.val - i.val)) := by
    have h1 : locOff 256 i.val = Cert.Tri.triOff i.val := locOff_256 i.val
    unfold Cert.Tri.rank
    omega
  refine (out_piece1 (W66 m ρ c) b _ ⟨_, hT⟩ o hrank).trans ?_
  refine (chunk1 m ρ c b ⟨i.val, hr⟩ (j.val - i.val) hd ⟨_, hT⟩ rfl o).trans ?_
  exact congrArg₂ (fun i' j' : Fin 256 => Cert.Tri.pairValue (argX m c) (argW m c) (argB m c) b i' j' o)
    (Fin.ext rfl) (Fin.ext hj)

end Cert.KernelIdeal.Val

end
-- ==== Proof.KI.Bands.lean ====
import proofs.«116342_j30605936951494_1_alg».proof.Proof.Gen.KernelIdeal.Launch
import proofs.«116342_j30605936951494_1_alg».proof.Proof.KI.HostPure
import Idealize.ShloMosaic.Lib.StableHlo.Run

/-!
# The row bands each chunk reads

Before region K (K ≥ 2) the host cuts two bands out of the products viewed [4, 256, 768]: the chunk's eight rows
i0 … i0 + 7 of the first product and the rows i0 … 255 of the second, i0 = 8(K-1). For any buffer contents W the
stretch starts from, row s of a band is row i0 + s of the product it is cut from.
-/

set_option maxRecDepth 16384

noncomputable section

namespace Cert.KernelIdeal.Val

open Cert.KernelIdeal Cert.KernelIdeal.Gen
open Idealize.ShloMosaic Idealize.ShloMosaic.TcCoe Idealize.ShloMosaic.ValueIdx

variable {F : FTy → Type} [FloatOps F]

/-- Chunk 2's eight rows of the first product. -/
theorem host2_rows (W : Valuation τ sig (Elt F)) (b : Fin 4) (r : Fin 8) (o : Fin 768) (row : Fin 256)
    (hrow : row.val = 8 + r.val) :
    (StableHlo.after hostOps2 W (Proc.devRef .tc main_v7) : Vec F S4x8x768 .f32) (ix3 b r o)
      = (W (Proc.devRef .tc main_v2) : Vec F S4x256x768 .f32) (ix3 b row o) := by
  simp only [hostOps2]
  after_results
  exact band_apply 8 _ _ b r o row hrow
/-- The rows of the second product chunk 2 pairs them with. -/
theorem host2_pair (W : Valuation τ sig (Elt F)) (b : Fin 4) (s : Fin 248) (o : Fin 768) (row : Fin 256)
    (hrow : row.val = 8 + s.val) :
    (StableHlo.after hostOps2 W (Proc.devRef .tc main_v8) : Vec F S4x248x768 .f32) (ix3 b s o)
      = (W (Proc.devRef .tc main_v3) : Vec F S4x256x768 .f32) (ix3 b row o) := by
  simp only [hostOps2]
  after_results
  exact band_apply 8 _ _ b s o row hrow

/-- Chunk 3's eight rows of the first product. -/
theorem host3_rows (W : Valuation τ sig (Elt F)) (b : Fin 4) (r : Fin 8) (o : Fin 768) (row : Fin 256)
    (hrow : row.val = 16 + r.val) :
    (StableHlo.after hostOps3 W (Proc.devRef .tc main_v10) : Vec F S4x8x768 .f32) (ix3 b r o)
      = (W (Proc.devRef .tc main_v2) : Vec F S4x256x768 .f32) (ix3 b row o) := by
  simp only [hostOps3]
  after_results
  exact band_apply 16 _ _ b r o row hrow
/-- The rows of the second product chunk 3 pairs them with. -/
theorem host3_pair (W : Valuation τ sig (Elt F)) (b : Fin 4) (s : Fin 240) (o : Fin 768) (row : Fin 256)
    (hrow : row.val = 16 + s.val) :
    (StableHlo.after hostOps3 W (Proc.devRef .tc main_v11) : Vec F S4x240x768 .f32) (ix3 b s o)
      = (W (Proc.devRef .tc main_v3) : Vec F S4x256x768 .f32) (ix3 b row o) := by
  simp only [hostOps3]
  after_results
  exact band_apply 16 _ _ b s o row hrow

/-- Chunk 4's eight rows of the first product. -/
theorem host4_rows (W : Valuation τ sig (Elt F)) (b : Fin 4) (r : Fin 8) (o : Fin 768) (row : Fin 256)
    (hrow : row.val = 24 + r.val) :
    (StableHlo.after hostOps4 W (Proc.devRef .tc main_v13) : Vec F S4x8x768 .f32) (ix3 b r o)
      = (W (Proc.devRef .tc main_v2) : Vec F S4x256x768 .f32) (ix3 b row o) := by
  simp only [hostOps4]
  after_results
  exact band_apply 24 _ _ b r o row hrow
/-- The rows of the second product chunk 4 pairs them with. -/
theorem host4_pair (W : Valuation τ sig (Elt F)) (b : Fin 4) (s : Fin 232) (o : Fin 768) (row : Fin 256)
    (hrow : row.val = 24 + s.val) :
    (StableHlo.after hostOps4 W (Proc.devRef .tc main_v14) : Vec F S4x232x768 .f32) (ix3 b s o)
      = (W (Proc.devRef .tc main_v3) : Vec F S4x256x768 .f32) (ix3 b row o) := by
  simp only [hostOps4]
  after_results
  exact band_apply 24 _ _ b s o row hrow

/-- Chunk 5's eight rows of the first product. -/
theorem host5_rows (W : Valuation τ sig (Elt F)) (b : Fin 4) (r : Fin 8) (o : Fin 768) (row : Fin 256)
    (hrow : row.val = 32 + r.val) :
    (StableHlo.after hostOps5 W (Proc.devRef .tc main_v16) : Vec F S4x8x768 .f32) (ix3 b r o)
      = (W (Proc.devRef .tc main_v2) : Vec F S4x256x768 .f32) (ix3 b row o) := by
  simp only [hostOps5]
  after_results
  exact band_apply 32 _ _ b r o row hrow
/-- The rows of the second product chunk 5 pairs them with. -/
theorem host5_pair (W : Valuation τ sig (Elt F)) (b : Fin 4) (s : Fin 224) (o : Fin 768) (row : Fin 256)
    (hrow : row.val = 32 + s.val) :
    (StableHlo.after hostOps5 W (Proc.devRef .tc main_v17) : Vec F S4x224x768 .f32) (ix3 b s o)
      = (W (Proc.devRef .tc main_v3) : Vec F S4x256x768 .f32) (ix3 b row o) := by
  simp only [hostOps5]
  after_results
  exact band_apply 32 _ _ b s o row hrow

/-- Chunk 6's eight rows of the first product. -/
theorem host6_rows (W : Valuation τ sig (Elt F)) (b : Fin 4) (r : Fin 8) (o : Fin 768) (row : Fin 256)
    (hrow : row.val = 40 + r.val) :
    (StableHlo.after hostOps6 W (Proc.devRef .tc main_v19) : Vec F S4x8x768 .f32) (ix3 b r o)
      = (W (Proc.devRef .tc main_v2) : Vec F S4x256x768 .f32) (ix3 b row o) := by
  simp only [hostOps6]
  after_results
  exact band_apply 40 _ _ b r o row hrow
/-- The rows of the second product chunk 6 pairs them with. -/
theorem host6_pair (W : Valuation τ sig (Elt F)) (b : Fin 4) (s : Fin 216) (o : Fin 768) (row : Fin 256)
    (hrow : row.val = 40 + s.val) :
    (StableHlo.after hostOps6 W (Proc.devRef .tc main_v20) : Vec F S4x216x768 .f32) (ix3 b s o)
      = (W (Proc.devRef .tc main_v3) : Vec F S4x256x768 .f32) (ix3 b row o) := by
  simp only [hostOps6]
  after_results
  exact band_apply 40 _ _ b s o row hrow

/-- Chunk 7's eight rows of the first product. -/
theorem host7_rows (W : Valuation τ sig (Elt F)) (b : Fin 4) (r : Fin 8) (o : Fin 768) (row : Fin 256)
    (hrow : row.val = 48 + r.val) :
    (StableHlo.after hostOps7 W (Proc.devRef .tc main_v22) : Vec F S4x8x768 .f32) (ix3 b r o)
      = (W (Proc.devRef .tc main_v2) : Vec F S4x256x768 .f32) (ix3 b row o) := by
  simp only [hostOps7]
  after_results
  exact band_apply 48 _ _ b r o row hrow
/-- The rows of the second product chunk 7 pairs them with. -/
theorem host7_pair (W : Valuation τ sig (Elt F)) (b : Fin 4) (s : Fin 208) (o : Fin 768) (row : Fin 256)
    (hrow : row.val = 48 + s.val) :
    (StableHlo.after hostOps7 W (Proc.devRef .tc main_v23) : Vec F S4x208x768 .f32) (ix3 b s o)
      = (W (Proc.devRef .tc main_v3) : Vec F S4x256x768 .f32) (ix3 b row o) := by
  simp only [hostOps7]
  after_results
  exact band_apply 48 _ _ b s o row hrow

/-- Chunk 8's eight rows of the first product. -/
theorem host8_rows (W : Valuation τ sig (Elt F)) (b : Fin 4) (r : Fin 8) (o : Fin 768) (row : Fin 256)
    (hrow : row.val = 56 + r.val) :
    (StableHlo.after hostOps8 W (Proc.devRef .tc main_v25) : Vec F S4x8x768 .f32) (ix3 b r o)
      = (W (Proc.devRef .tc main_v2) : Vec F S4x256x768 .f32) (ix3 b row o) := by
  simp only [hostOps8]
  after_results
  exact band_apply 56 _ _ b r o row hrow
/-- The rows of the second product chunk 8 pairs them with. -/
theorem host8_pair (W : Valuation τ sig (Elt F)) (b : Fin 4) (s : Fin 200) (o : Fin 768) (row : Fin 256)
    (hrow : row.val = 56 + s.val) :
    (StableHlo.after hostOps8 W (Proc.devRef .tc main_v26) : Vec F S4x200x768 .f32) (ix3 b s o)
      = (W (Proc.devRef .tc main_v3) : Vec F S4x256x768 .f32) (ix3 b row o) := by
  simp only [hostOps8]
  after_results
  exact band_apply 56 _ _ b s o row hrow

/-- Chunk 9's eight rows of the first product. -/
theorem host9_rows (W : Valuation τ sig (Elt F)) (b : Fin 4) (r : Fin 8) (o : Fin 768) (row : Fin 256)
    (hrow : row.val = 64 + r.val) :
    (StableHlo.after hostOps9 W (Proc.devRef .tc main_v28) : Vec F S4x8x768 .f32) (ix3 b r o)
      = (W (Proc.devRef .tc main_v2) : Vec F S4x256x768 .f32) (ix3 b row o) := by
  simp only [hostOps9]
  after_results
  exact band_apply 64 _ _ b r o row hrow
/-- The rows of the second product chunk 9 pairs them with. -/
theorem host9_pair (W : Valuation τ sig (Elt F)) (b : Fin 4) (s : Fin 192) (o : Fin 768) (row : Fin 256)
    (hrow : row.val = 64 + s.val) :
    (StableHlo.after hostOps9 W (Proc.devRef .tc main_v29) : Vec F S4x192x768 .f32) (ix3 b s o)
      = (W (Proc.devRef .tc main_v3) : Vec F S4x256x768 .f32) (ix3 b row o) := by
  simp only [hostOps9]
  after_results
  exact band_apply 64 _ _ b s o row hrow

/-- Chunk 10's eight rows of the first product. -/
theorem host10_rows (W : Valuation τ sig (Elt F)) (b : Fin 4) (r : Fin 8) (o : Fin 768) (row : Fin 256)
    (hrow : row.val = 72 + r.val) :
    (StableHlo.after hostOps10 W (Proc.devRef .tc main_v31) : Vec F S4x8x768 .f32) (ix3 b r o)
      = (W (Proc.devRef .tc main_v2) : Vec F S4x256x768 .f32) (ix3 b row o) := by
  simp only [hostOps10]
  after_results
  exact band_apply 72 _ _ b r o row hrow
/-- The rows of the second product chunk 10 pairs them with. -/
theorem host10_pair (W : Valuation τ sig (Elt F)) (b : Fin 4) (s : Fin 184) (o : Fin 768) (row : Fin 256)
    (hrow : row.val = 72 + s.val) :
    (StableHlo.after hostOps10 W (Proc.devRef .tc main_v32) : Vec F S4x184x768 .f32) (ix3 b s o)
      = (W (Proc.devRef .tc main_v3) : Vec F S4x256x768 .f32) (ix3 b row o) := by
  simp only [hostOps10]
  after_results
  exact band_apply 72 _ _ b s o row hrow

/-- Chunk 11's eight rows of the first product. -/
theorem host11_rows (W : Valuation τ sig (Elt F)) (b : Fin 4) (r : Fin 8) (o : Fin 768) (row : Fin 256)
    (hrow : row.val = 80 + r.val) :
    (StableHlo.after hostOps11 W (Proc.devRef .tc main_v34) : Vec F S4x8x768 .f32) (ix3 b r o)
      = (W (Proc.devRef .tc main_v2) : Vec F S4x256x768 .f32) (ix3 b row o) := by
  simp only [hostOps11]
  after_results
  exact band_apply 80 _ _ b r o row hrow
/-- The rows of the second product chunk 11 pairs them with. -/
theorem host11_pair (W : Valuation τ sig (Elt F)) (b : Fin 4) (s : Fin 176) (o : Fin 768) (row : Fin 256)
    (hrow : row.val = 80 + s.val) :
    (StableHlo.after hostOps11 W (Proc.devRef .tc main_v35) : Vec F S4x176x768 .f32) (ix3 b s o)
      = (W (Proc.devRef .tc main_v3) : Vec F S4x256x768 .f32) (ix3 b row o) := by
  simp only [hostOps11]
  after_results
  exact band_apply 80 _ _ b s o row hrow

/-- Chunk 12's eight rows of the first product. -/
theorem host12_rows (W : Valuation τ sig (Elt F)) (b : Fin 4) (r : Fin 8) (o : Fin 768) (row : Fin 256)
    (hrow : row.val = 88 + r.val) :
    (StableHlo.after hostOps12 W (Proc.devRef .tc main_v37) : Vec F S4x8x768 .f32) (ix3 b r o)
      = (W (Proc.devRef .tc main_v2) : Vec F S4x256x768 .f32) (ix3 b row o) := by
  simp only [hostOps12]
  after_results
  exact band_apply 88 _ _ b r o row hrow
/-- The rows of the second product chunk 12 pairs them with. -/
theorem host12_pair (W : Valuation τ sig (Elt F)) (b : Fin 4) (s : Fin 168) (o : Fin 768) (row : Fin 256)
    (hrow : row.val = 88 + s.val) :
    (StableHlo.after hostOps12 W (Proc.devRef .tc main_v38) : Vec F S4x168x768 .f32) (ix3 b s o)
      = (W (Proc.devRef .tc main_v3) : Vec F S4x256x768 .f32) (ix3 b row o) := by
  simp only [hostOps12]
  after_results
  exact band_apply 88 _ _ b s o row hrow

/-- Chunk 13's eight rows of the first product. -/
theorem host13_rows (W : Valuation τ sig (Elt F)) (b : Fin 4) (r : Fin 8) (o : Fin 768) (row : Fin 256)
    (hrow : row.val = 96 + r.val) :
    (StableHlo.after hostOps13 W (Proc.devRef .tc main_v40) : Vec F S4x8x768 .f32) (ix3 b r o)
      = (W (Proc.devRef .tc main_v2) : Vec F S4x256x768 .f32) (ix3 b row o) := by
  simp only [hostOps13]
  after_results
  exact band_apply 96 _ _ b r o row hrow
/-- The rows of the second product chunk 13 pairs them with. -/
theorem host13_pair (W : Valuation τ sig (Elt F)) (b : Fin 4) (s : Fin 160) (o : Fin 768) (row : Fin 256)
    (hrow : row.val = 96 + s.val) :
    (StableHlo.after hostOps13 W (Proc.devRef .tc main_v41) : Vec F S4x160x768 .f32) (ix3 b s o)
      = (W (Proc.devRef .tc main_v3) : Vec F S4x256x768 .f32) (ix3 b row o) := by
  simp only [hostOps13]
  after_results
  exact band_apply 96 _ _ b s o row hrow

/-- Chunk 14's eight rows of the first product. -/
theorem host14_rows (W : Valuation τ sig (Elt F)) (b : Fin 4) (r : Fin 8) (o : Fin 768) (row : Fin 256)
    (hrow : row.val = 104 + r.val) :
    (StableHlo.after hostOps14 W (Proc.devRef .tc main_v43) : Vec F S4x8x768 .f32) (ix3 b r o)
      = (W (Proc.devRef .tc main_v2) : Vec F S4x256x768 .f32) (ix3 b row o) := by
  simp only [hostOps14]
  after_results
  exact band_apply 104 _ _ b r o row hrow
/-- The rows of the second product chunk 14 pairs them with. -/
theorem host14_pair (W : Valuation τ sig (Elt F)) (b : Fin 4) (s : Fin 152) (o : Fin 768) (row : Fin 256)
    (hrow : row.val = 104 + s.val) :
    (StableHlo.after hostOps14 W (Proc.devRef .tc main_v44) : Vec F S4x152x768 .f32) (ix3 b s o)
      = (W (Proc.devRef .tc main_v3) : Vec F S4x256x768 .f32) (ix3 b row o) := by
  simp only [hostOps14]
  after_results
  exact band_apply 104 _ _ b s o row hrow

/-- Chunk 15's eight rows of the first product. -/
theorem host15_rows (W : Valuation τ sig (Elt F)) (b : Fin 4) (r : Fin 8) (o : Fin 768) (row : Fin 256)
    (hrow : row.val = 112 + r.val) :
    (StableHlo.after hostOps15 W (Proc.devRef .tc main_v46) : Vec F S4x8x768 .f32) (ix3 b r o)
      = (W (Proc.devRef .tc main_v2) : Vec F S4x256x768 .f32) (ix3 b row o) := by
  simp only [hostOps15]
  after_results
  exact band_apply 112 _ _ b r o row hrow
/-- The rows of the second product chunk 15 pairs them with. -/
theorem host15_pair (W : Valuation τ sig (Elt F)) (b : Fin 4) (s : Fin 144) (o : Fin 768) (row : Fin 256)
    (hrow : row.val = 112 + s.val) :
    (StableHlo.after hostOps15 W (Proc.devRef .tc main_v47) : Vec F S4x144x768 .f32) (ix3 b s o)
      = (W (Proc.devRef .tc main_v3) : Vec F S4x256x768 .f32) (ix3 b row o) := by
  simp only [hostOps15]
  after_results
  exact band_apply 112 _ _ b s o row hrow

/-- Chunk 16's eight rows of the first product. -/
theorem host16_rows (W : Valuation τ sig (Elt F)) (b : Fin 4) (r : Fin 8) (o : Fin 768) (row : Fin 256)
    (hrow : row.val = 120 + r.val) :
    (StableHlo.after hostOps16 W (Proc.devRef .tc main_v49) : Vec F S4x8x768 .f32) (ix3 b r o)
      = (W (Proc.devRef .tc main_v2) : Vec F S4x256x768 .f32) (ix3 b row o) := by
  simp only [hostOps16]
  after_results
  exact band_apply 120 _ _ b r o row hrow
/-- The rows of the second product chunk 16 pairs them with. -/
theorem host16_pair (W : Valuation τ sig (Elt F)) (b : Fin 4) (s : Fin 136) (o : Fin 768) (row : Fin 256)
    (hrow : row.val = 120 + s.val) :
    (StableHlo.after hostOps16 W (Proc.devRef .tc main_v50) : Vec F S4x136x768 .f32) (ix3 b s o)
      = (W (Proc.devRef .tc main_v3) : Vec F S4x256x768 .f32) (ix3 b row o) := by
  simp only [hostOps16]
  after_results
  exact band_apply 120 _ _ b s o row hrow

/-- Chunk 17's eight rows of the first product. -/
theorem host17_rows (W : Valuation τ sig (Elt F)) (b : Fin 4) (r : Fin 8) (o : Fin 768) (row : Fin 256)
    (hrow : row.val = 128 + r.val) :
    (StableHlo.after hostOps17 W (Proc.devRef .tc main_v52) : Vec F S4x8x768 .f32) (ix3 b r o)
      = (W (Proc.devRef .tc main_v2) : Vec F S4x256x768 .f32) (ix3 b row o) := by
  simp only [hostOps17]
  after_results
  exact band_apply 128 _ _ b r o row hrow
/-- The rows of the second product chunk 17 pairs them with. -/
theorem host17_pair (W : Valuation τ sig (Elt F)) (b : Fin 4) (s : Fin 128) (o : Fin 768) (row : Fin 256)
    (hrow : row.val = 128 + s.val) :
    (StableHlo.after hostOps17 W (Proc.devRef .tc main_v53) : Vec F S4x128x768 .f32) (ix3 b s o)
      = (W (Proc.devRef .tc main_v3) : Vec F S4x256x768 .f32) (ix3 b row o) := by
  simp only [hostOps17]
  after_results
  exact band_apply 128 _ _ b s o row hrow

/-- Chunk 18's eight rows of the first product. -/
theorem host18_rows (W : Valuation τ sig (Elt F)) (b : Fin 4) (r : Fin 8) (o : Fin 768) (row : Fin 256)
    (hrow : row.val = 136 + r.val) :
    (StableHlo.after hostOps18 W (Proc.devRef .tc main_v55) : Vec F S4x8x768 .f32) (ix3 b r o)
      = (W (Proc.devRef .tc main_v2) : Vec F S4x256x768 .f32) (ix3 b row o) := by
  simp only [hostOps18]
  after_results
  exact band_apply 136 _ _ b r o row hrow
/-- The rows of the second product chunk 18 pairs them with. -/
theorem host18_pair (W : Valuation τ sig (Elt F)) (b : Fin 4) (s : Fin 120) (o : Fin 768) (row : Fin 256)
    (hrow : row.val = 136 + s.val) :
    (StableHlo.after hostOps18 W (Proc.devRef .tc main_v56) : Vec F S4x120x768 .f32) (ix3 b s o)
      = (W (Proc.devRef .tc main_v3) : Vec F S4x256x768 .f32) (ix3 b row o) := by
  simp only [hostOps18]
  after_results
  exact band_apply 136 _ _ b s o row hrow

/-- Chunk 19's eight rows of the first product. -/
theorem host19_rows (W : Valuation τ sig (Elt F)) (b : Fin 4) (r : Fin 8) (o : Fin 768) (row : Fin 256)
    (hrow : row.val = 144 + r.val) :
    (StableHlo.after hostOps19 W (Proc.devRef .tc main_v58) : Vec F S4x8x768 .f32) (ix3 b r o)
      = (W (Proc.devRef .tc main_v2) : Vec F S4x256x768 .f32) (ix3 b row o) := by
  simp only [hostOps19]
  after_results
  exact band_apply 144 _ _ b r o row hrow
/-- The rows of the second product chunk 19 pairs them with. -/
theorem host19_pair (W : Valuation τ sig (Elt F)) (b : Fin 4) (s : Fin 112) (o : Fin 768) (row : Fin 256)
    (hrow : row.val = 144 + s.val) :
    (StableHlo.after hostOps19 W (Proc.devRef .tc main_v59) : Vec F S4x112x768 .f32) (ix3 b s o)
      = (W (Proc.devRef .tc main_v3) : Vec F S4x256x768 .f32) (ix3 b row o) := by
  simp only [hostOps19]
  after_results
  exact band_apply 144 _ _ b s o row hrow

/-- Chunk 20's eight rows of the first product. -/
theorem host20_rows (W : Valuation τ sig (Elt F)) (b : Fin 4) (r : Fin 8) (o : Fin 768) (row : Fin 256)
    (hrow : row.val = 152 + r.val) :
    (StableHlo.after hostOps20 W (Proc.devRef .tc main_v61) : Vec F S4x8x768 .f32) (ix3 b r o)
      = (W (Proc.devRef .tc main_v2) : Vec F S4x256x768 .f32) (ix3 b row o) := by
  simp only [hostOps20]
  after_results
  exact band_apply 152 _ _ b r o row hrow
/-- The rows of the second product chunk 20 pairs them with. -/
theorem host20_pair (W : Valuation τ sig (Elt F)) (b : Fin 4) (s : Fin 104) (o : Fin 768) (row : Fin 256)
    (hrow : row.val = 152 + s.val) :
    (StableHlo.after hostOps20 W (Proc.devRef .tc main_v62) : Vec F S4x104x768 .f32) (ix3 b s o)
      = (W (Proc.devRef .tc main_v3) : Vec F S4x256x768 .f32) (ix3 b row o) := by
  simp only [hostOps20]
  after_results
  exact band_apply 152 _ _ b s o row hrow

/-- Chunk 21's eight rows of the first product. -/
theorem host21_rows (W : Valuation τ sig (Elt F)) (b : Fin 4) (r : Fin 8) (o : Fin 768) (row : Fin 256)
    (hrow : row.val = 160 + r.val) :
    (StableHlo.after hostOps21 W (Proc.devRef .tc main_v64) : Vec F S4x8x768 .f32) (ix3 b r o)
      = (W (Proc.devRef .tc main_v2) : Vec F S4x256x768 .f32) (ix3 b row o) := by
  simp only [hostOps21]
  after_results
  exact band_apply 160 _ _ b r o row hrow
/-- The rows of the second product chunk 21 pairs them with. -/
theorem host21_pair (W : Valuation τ sig (Elt F)) (b : Fin 4) (s : Fin 96) (o : Fin 768) (row : Fin 256)
    (hrow : row.val = 160 + s.val) :
    (StableHlo.after hostOps21 W (Proc.devRef .tc main_v65) : Vec F S4x96x768 .f32) (ix3 b s o)
      = (W (Proc.devRef .tc main_v3) : Vec F S4x256x768 .f32) (ix3 b row o) := by
  simp only [hostOps21]
  after_results
  exact band_apply 160 _ _ b s o row hrow

/-- Chunk 22's eight rows of the first product. -/
theorem host22_rows (W : Valuation τ sig (Elt F)) (b : Fin 4) (r : Fin 8) (o : Fin 768) (row : Fin 256)
    (hrow : row.val = 168 + r.val) :
    (StableHlo.after hostOps22 W (Proc.devRef .tc main_v67) : Vec F S4x8x768 .f32) (ix3 b r o)
      = (W (Proc.devRef .tc main_v2) : Vec F S4x256x768 .f32) (ix3 b row o) := by
  simp only [hostOps22]
  after_results
  exact band_apply 168 _ _ b r o row hrow
/-- The rows of the second product chunk 22 pairs them with. -/
theorem host22_pair (W : Valuation τ sig (Elt F)) (b : Fin 4) (s : Fin 88) (o : Fin 768) (row : Fin 256)
    (hrow : row.val = 168 + s.val) :
    (StableHlo.after hostOps22 W (Proc.devRef .tc main_v68) : Vec F S4x88x768 .f32) (ix3 b s o)
      = (W (Proc.devRef .tc main_v3) : Vec F S4x256x768 .f32) (ix3 b row o) := by
  simp only [hostOps22]
  after_results
  exact band_apply 168 _ _ b s o row hrow

/-- Chunk 23's eight rows of the first product. -/
theorem host23_rows (W : Valuation τ sig (Elt F)) (b : Fin 4) (r : Fin 8) (o : Fin 768) (row : Fin 256)
    (hrow : row.val = 176 + r.val) :
    (StableHlo.after hostOps23 W (Proc.devRef .tc main_v70) : Vec F S4x8x768 .f32) (ix3 b r o)
      = (W (Proc.devRef .tc main_v2) : Vec F S4x256x768 .f32) (ix3 b row o) := by
  simp only [hostOps23]
  after_results
  exact band_apply 176 _ _ b r o row hrow
/-- The rows of the second product chunk 23 pairs them with. -/
theorem host23_pair (W : Valuation τ sig (Elt F)) (b : Fin 4) (s : Fin 80) (o : Fin 768) (row : Fin 256)
    (hrow : row.val = 176 + s.val) :
    (StableHlo.after hostOps23 W (Proc.devRef .tc main_v71) : Vec F S4x80x768 .f32) (ix3 b s o)
      = (W (Proc.devRef .tc main_v3) : Vec F S4x256x768 .f32) (ix3 b row o) := by
  simp only [hostOps23]
  after_results
  exact band_apply 176 _ _ b s o row hrow

/-- Chunk 24's eight rows of the first product. -/
theorem host24_rows (W : Valuation τ sig (Elt F)) (b : Fin 4) (r : Fin 8) (o : Fin 768) (row : Fin 256)
    (hrow : row.val = 184 + r.val) :
    (StableHlo.after hostOps24 W (Proc.devRef .tc main_v73) : Vec F S4x8x768 .f32) (ix3 b r o)
      = (W (Proc.devRef .tc main_v2) : Vec F S4x256x768 .f32) (ix3 b row o) := by
  simp only [hostOps24]
  after_results
  exact band_apply 184 _ _ b r o row hrow
/-- The rows of the second product chunk 24 pairs them with. -/
theorem host24_pair (W : Valuation τ sig (Elt F)) (b : Fin 4) (s : Fin 72) (o : Fin 768) (row : Fin 256)
    (hrow : row.val = 184 + s.val) :
    (StableHlo.after hostOps24 W (Proc.devRef .tc main_v74) : Vec F S4x72x768 .f32) (ix3 b s o)
      = (W (Proc.devRef .tc main_v3) : Vec F S4x256x768 .f32) (ix3 b row o) := by
  simp only [hostOps24]
  after_results
  exact band_apply 184 _ _ b s o row hrow

/-- Chunk 25's eight rows of the first product. -/
theorem host25_rows (W : Valuation τ sig (Elt F)) (b : Fin 4) (r : Fin 8) (o : Fin 768) (row : Fin 256)
    (hrow : row.val = 192 + r.val) :
    (StableHlo.after hostOps25 W (Proc.devRef .tc main_v76) : Vec F S4x8x768 .f32) (ix3 b r o)
      = (W (Proc.devRef .tc main_v2) : Vec F S4x256x768 .f32) (ix3 b row o) := by
  simp only [hostOps25]
  after_results
  exact band_apply 192 _ _ b r o row hrow
/-- The rows of the second product chunk 25 pairs them with. -/
theorem host25_pair (W : Valuation τ sig (Elt F)) (b : Fin 4) (s : Fin 64) (o : Fin 768) (row : Fin 256)
    (hrow : row.val = 192 + s.val) :
    (StableHlo.after hostOps25 W (Proc.devRef .tc main_v77) : Vec F S4x64x768 .f32) (ix3 b s o)
      = (W (Proc.devRef .tc main_v3) : Vec F S4x256x768 .f32) (ix3 b row o) := by
  simp only [hostOps25]
  after_results
  exact band_apply 192 _ _ b s o row hrow

/-- Chunk 26's eight rows of the first product. -/
theorem host26_rows (W : Valuation τ sig (Elt F)) (b : Fin 4) (r : Fin 8) (o : Fin 768) (row : Fin 256)
    (hrow : row.val = 200 + r.val) :
    (StableHlo.after hostOps26 W (Proc.devRef .tc main_v79) : Vec F S4x8x768 .f32) (ix3 b r o)
      = (W (Proc.devRef .tc main_v2) : Vec F S4x256x768 .f32) (ix3 b row o) := by
  simp only [hostOps26]
  after_results
  exact band_apply 200 _ _ b r o row hrow
/-- The rows of the second product chunk 26 pairs them with. -/
theorem host26_pair (W : Valuation τ sig (Elt F)) (b : Fin 4) (s : Fin 56) (o : Fin 768) (row : Fin 256)
    (hrow : row.val = 200 + s.val) :
    (StableHlo.after hostOps26 W (Proc.devRef .tc main_v80) : Vec F S4x56x768 .f32) (ix3 b s o)
      = (W (Proc.devRef .tc main_v3) : Vec F S4x256x768 .f32) (ix3 b row o) := by
  simp only [hostOps26]
  after_results
  exact band_apply 200 _ _ b s o row hrow

/-- Chunk 27's eight rows of the first product. -/
theorem host27_rows (W : Valuation τ sig (Elt F)) (b : Fin 4) (r : Fin 8) (o : Fin 768) (row : Fin 256)
    (hrow : row.val = 208 + r.val) :
    (StableHlo.after hostOps27 W (Proc.devRef .tc main_v82) : Vec F S4x8x768 .f32) (ix3 b r o)
      = (W (Proc.devRef .tc main_v2) : Vec F S4x256x768 .f32) (ix3 b row o) := by
  simp only [hostOps27]
  after_results
  exact band_apply 208 _ _ b r o row hrow
/-- The rows of the second product chunk 27 pairs them with. -/
theorem host27_pair (W : Valuation τ sig (Elt F)) (b : Fin 4) (s : Fin 48) (o : Fin 768) (row : Fin 256)
    (hrow : row.val = 208 + s.val) :
    (StableHlo.after hostOps27 W (Proc.devRef .tc main_v83) : Vec F S4x48x768 .f32) (ix3 b s o)
      = (W (Proc.devRef .tc main_v3) : Vec F S4x256x768 .f32) (ix3 b row o) := by
  simp only [hostOps27]
  after_results
  exact band_apply 208 _ _ b s o row hrow

/-- Chunk 28's eight rows of the first product. -/
theorem host28_rows (W : Valuation τ sig (Elt F)) (b : Fin 4) (r : Fin 8) (o : Fin 768) (row : Fin 256)
    (hrow : row.val = 216 + r.val) :
    (StableHlo.after hostOps28 W (Proc.devRef .tc main_v85) : Vec F S4x8x768 .f32) (ix3 b r o)
      = (W (Proc.devRef .tc main_v2) : Vec F S4x256x768 .f32) (ix3 b row o) := by
  simp only [hostOps28]
  after_results
  exact band_apply 216 _ _ b r o row hrow
/-- The rows of the second product chunk 28 pairs them with. -/
theorem host28_pair (W : Valuation τ sig (Elt F)) (b : Fin 4) (s : Fin 40) (o : Fin 768) (row : Fin 256)
    (hrow : row.val = 216 + s.val) :
    (StableHlo.after hostOps28 W (Proc.devRef .tc main_v86) : Vec F S4x40x768 .f32) (ix3 b s o)
      = (W (Proc.devRef .tc main_v3) : Vec F S4x256x768 .f32) (ix3 b row o) := by
  simp only [hostOps28]
  after_results
  exact band_apply 216 _ _ b s o row hrow

/-- Chunk 29's eight rows of the first product. -/
theorem host29_rows (W : Valuation τ sig (Elt F)) (b : Fin 4) (r : Fin 8) (o : Fin 768) (row : Fin 256)
    (hrow : row.val = 224 + r.val) :
    (StableHlo.after hostOps29 W (Proc.devRef .tc main_v88) : Vec F S4x8x768 .f32) (ix3 b r o)
      = (W (Proc.devRef .tc main_v2) : Vec F S4x256x768 .f32) (ix3 b row o) := by
  simp only [hostOps29]
  after_results
  exact band_apply 224 _ _ b r o row hrow
/-- The rows of the second product chunk 29 pairs them with. -/
theorem host29_pair (W : Valuation τ sig (Elt F)) (b : Fin 4) (s : Fin 32) (o : Fin 768) (row : Fin 256)
    (hrow : row.val = 224 + s.val) :
    (StableHlo.after hostOps29 W (Proc.devRef .tc main_v89) : Vec F S4x32x768 .f32) (ix3 b s o)
      = (W (Proc.devRef .tc main_v3) : Vec F S4x256x768 .f32) (ix3 b row o) := by
  simp only [hostOps29]
  after_results
  exact band_apply 224 _ _ b s o row hrow

/-- Chunk 30's eight rows of the first product. -/
theorem host30_rows (W : Valuation τ sig (Elt F)) (b : Fin 4) (r : Fin 8) (o : Fin 768) (row : Fin 256)
    (hrow : row.val = 232 + r.val) :
    (StableHlo.after hostOps30 W (Proc.devRef .tc main_v91) : Vec F S4x8x768 .f32) (ix3 b r o)
      = (W (Proc.devRef .tc main_v2) : Vec F S4x256x768 .f32) (ix3 b row o) := by
  simp only [hostOps30]
  after_results
  exact band_apply 232 _ _ b r o row hrow
/-- The rows of the second product chunk 30 pairs them with. -/
theorem host30_pair (W : Valuation τ sig (Elt F)) (b : Fin 4) (s : Fin 24) (o : Fin 768) (row : Fin 256)
    (hrow : row.val = 232 + s.val) :
    (StableHlo.after hostOps30 W (Proc.devRef .tc main_v92) : Vec F S4x24x768 .f32) (ix3 b s o)
      = (W (Proc.devRef .tc main_v3) : Vec F S4x256x768 .f32) (ix3 b row o) := by
  simp only [hostOps30]
  after_results
  exact band_apply 232 _ _ b s o row hrow

/-- Chunk 31's eight rows of the first product. -/
theorem host31_rows (W : Valuation τ sig (Elt F)) (b : Fin 4) (r : Fin 8) (o : Fin 768) (row : Fin 256)
    (hrow : row.val = 240 + r.val) :
    (StableHlo.after hostOps31 W (Proc.devRef .tc main_v94) : Vec F S4x8x768 .f32) (ix3 b r o)
      = (W (Proc.devRef .tc main_v2) : Vec F S4x256x768 .f32) (ix3 b row o) := by
  simp only [hostOps31]
  after_results
  exact band_apply 240 _ _ b r o row hrow
/-- The rows of the second product chunk 31 pairs them with. -/
theorem host31_pair (W : Valuation τ sig (Elt F)) (b : Fin 4) (s : Fin 16) (o : Fin 768) (row : Fin 256)
    (hrow : row.val = 240 + s.val) :
    (StableHlo.after hostOps31 W (Proc.devRef .tc main_v95) : Vec F S4x16x768 .f32) (ix3 b s o)
      = (W (Proc.devRef .tc main_v3) : Vec F S4x256x768 .f32) (ix3 b row o) := by
  simp only [hostOps31]
  after_results
  exact band_apply 240 _ _ b s o row hrow

/-- Chunk 32's eight rows of the first product. -/
theorem host32_rows (W : Valuation τ sig (Elt F)) (b : Fin 4) (r : Fin 8) (o : Fin 768) (row : Fin 256)
    (hrow : row.val = 248 + r.val) :
    (StableHlo.after hostOps32 W (Proc.devRef .tc main_v97) : Vec F S4x8x768 .f32) (ix3 b r o)
      = (W (Proc.devRef .tc main_v2) : Vec F S4x256x768 .f32) (ix3 b row o) := by
  simp only [hostOps32]
  after_results
  exact band_apply 248 _ _ b r o row hrow
/-- The rows of the second product chunk 32 pairs them with. -/
theorem host32_pair (W : Valuation τ sig (Elt F)) (b : Fin 4) (s : Fin 8) (o : Fin 768) (row : Fin 256)
    (hrow : row.val = 248 + s.val) :
    (StableHlo.after hostOps32 W (Proc.devRef .tc main_v98) : Vec F S4x8x768 .f32) (ix3 b s o)
      = (W (Proc.devRef .tc main_v3) : Vec F S4x256x768 .f32) (ix3 b row o) := by
  simp only [hostOps32]
  after_results
  exact band_apply 248 _ _ b s o row hrow

end Cert.KernelIdeal.Val

end
-- ==== Proof.KI.PayT2.lean ====
/-
  Chunk 2's stored value, read at an index.

  The body stores one value over its whole result block: the eight pieces `tanh ((p₁ row r + p₂ rows r…) + bias)`,
  `r = 0 … 7`, laid one under the other and given a leading unit axis. With 248 rows of the second product in view,
  piece `r` has `248 - r` rows and starts at row `locOff 248 r`. So the stored value at row `locOff 248 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 2 stores, as a function of the three blocks it loads. -/
abbrev stored2 {F : FTy → Type} [FloatOps F] (x0 : Vec F S1x8x768 .f32) (x1 : Vec F S1x248x768 .f32) (x2 : Vec F S1x768 .f32) :
    Vec F S1x1956x768 .f32 :=
  k2_pay1 (k2_pay2 x0) (k2_pay3 x1) (k2_pay4 x2) (k2_pay5 x0 x1 x2) (k2_pay6 x0 x1 x2) (k2_pay7 x0 x1 x2) (k2_pay8 x0 x1 x2)
    (k2_pay9 x0 x1 x2) (k2_pay10 x0 x1 x2) (k2_pay11 x0 x1)

/-- The stored value at row `locOff 248 r + d` of its block pairs row `r` of the first block with row `r + d` of the
    second. -/
theorem pay2_apply (x0 : Vec Ideal S1x8x768 .f32) (x1 : Vec Ideal S1x248x768 .f32) (x2 : Vec Ideal S1x768 .f32)
    (r : Fin 8) (d : ℕ) (q : Fin 248) (hq : q.val = r.val + d) (p : Fin 1956) (hp : p.val = locOff 248 r.val + d) (o : Fin 768) :
    stored2 x0 x1 x2 (ix3 0 p o) = Ideal.tanh ((x0 (ix3 0 r o) + x1 (ix3 0 q o)) + x2 (ix2 0 o)) := by
  have hql := q.isLt
  unfold stored2 k2_pay1
  refine (shapeCast_ab_1ab_apply _ _ 0 p o).trans ?_
  match r, hq, hp with
  | ⟨0, _⟩, hq, hp =>
    have hq : q.val = 0 + d := hq
    have hp : p.val = locOff 248 0 + d := hp
    have hd : d < 248 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 248 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 248 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 248 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 248 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 248 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 248 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 248 7 + d := hp
    refine (cat8_at7 _ _ _ _ _ _ _ _ _ d (by omega) o p (by simp only [locOff] at hp; omega)).trans ?_
    -- the last piece has 241 rows; a last piece of a single row is stored without broadcasts and has its own lemma
    first
      | have single : (241 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT2.lean ====
/-
  Chunk 2's result array after its region, read at an index.

  The region's grid is the batch: point `t` loads batch `t`'s eight rows of the first product's slice, batch `t`'s 248
  rows of the second product's slice and the bias row, and writes back the whole block `t` of the result. What it
  writes is the body's stored value of those three blocks. So the result array is ONE function of the three arrays it
  reads — at batch `b`, row `p`: the stored value of batch `b`'s blocks at row `p` (`G2`) —, every point writes its
  block of that function (`flushed2_eq`), the four blocks cover the array (`cover2`), hence the array ends as that
  function (`arr2_eq`); and at row `locOff 248 r + d` the stored value is the pair of row `r` with row `r + d`
  (`final2`).
-/
import proofs.«116342_j30605936951494_1_alg».proof.Proof.KI.Reg2
import proofs.«116342_j30605936951494_1_alg».proof.Proof.KI.PayT2
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA2 : (![0, 0, 0] : Fin 3 → Nat) = fun _ => 0 := funext fun a => by fin_cases a <;> rfl
theorem hzB2 : (![0, 0] : Fin 2 → Nat) = fun _ => 0 := funext fun a => by fin_cases a <;> rfl

/-- The grid is the batch: point `t` works on batch `t`. -/
noncomputable def batch2 (t : Fin cfg2.N) : Fin 4 := ⟨t.val, lt_of_lt_of_eq t.isLt N_2⟩

/-- The printed index maps, decided over the four points: the three batched windows sit at block `(t, 0, 0)`, the bias
    row at its one block. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- Batch `b`'s eight rows of the first product's slice, as a block. -/
noncomputable def blk2_0 (c : Dev nD) (b : Fin 4) : Vec Ideal S1x8x768 .f32 :=
  fun y => (V c main_v7 : S4x8x768.Idx → EReal) (ix3 b (y 1 : Fin 8) (y 2 : Fin 768))
/-- Batch `b`'s 248 rows of the second product's slice, as a block. -/
noncomputable def blk2_1 (c : Dev nD) (b : Fin 4) : Vec Ideal S1x248x768 .f32 :=
  fun y => (V c main_v8 : S4x248x768.Idx → EReal) (ix3 b (y 1 : Fin 248) (y 2 : Fin 768))
/-- The bias row. -/
noncomputable def blk2_2 (c : Dev nD) : Vec Ideal S1x768 .f32 := fun y => (V c main_v4 : S1x768.Idx → EReal) y

theorem iblk2_0_eq (c : Dev nD) (t : Fin cfg2.N) : (iblk2 V c 0 t : Vec Ideal S1x8x768 .f32) = blk2_0 V c (batch2 t) := by
  obtain ⟨e0, e1, e2, -⟩ := idx_facts2 t
  funext y
  unfold iblk2 blk2_0
  rw [View.read_apply]
  show V c main_v7 _ = V c main_v7 _
  congr 1
  funext a
  apply Fin.ext
  match a with
  | ⟨0, _⟩ => show win2_0.index t (0 : Fin 3) * 1 + 1 * (y 0).val = t.val; have hy : (y 0).val < 1 := (y 0).isLt; omega
  | ⟨1, _⟩ => show win2_0.index t (1 : Fin 3) * 8 + 1 * (y 1).val = (y 1).val; omega
  | ⟨2, _⟩ => show win2_0.index t (2 : Fin 3) * 768 + 1 * (y 2).val = (y 2).val; omega

theorem iblk2_1_eq (c : Dev nD) (t : Fin cfg2.N) : (iblk2 V c 1 t : Vec Ideal S1x248x768 .f32) = blk2_1 V c (batch2 t) := by
  obtain ⟨-, -, -, e0, e1, e2, -⟩ := idx_facts2 t
  funext y
  unfold iblk2 blk2_1
  rw [View.read_apply]
  show V c main_v8 _ = V c main_v8 _
  congr 1
  funext a
  apply Fin.ext
  match a with
  | ⟨0, _⟩ => show win2_1.index t (0 : Fin 3) * 1 + 1 * (y 0).val = t.val; have hy : (y 0).val < 1 := (y 0).isLt; omega
  | ⟨1, _⟩ => show win2_1.index t (1 : Fin 3) * 248 + 1 * (y 1).val = (y 1).val; omega
  | ⟨2, _⟩ => show win2_1.index t (2 : Fin 3) * 768 + 1 * (y 2).val = (y 2).val; omega

theorem iblk2_2_eq (c : Dev nD) (t : Fin cfg2.N) : (iblk2 V c 2 t : Vec Ideal S1x768 .f32) = blk2_2 V c := by
  obtain ⟨-, -, -, -, -, -, e0, e1, -⟩ := idx_facts2 t
  funext y
  unfold iblk2 blk2_2
  rw [View.read_apply]
  show V c main_v4 _ = V c main_v4 _
  congr 1
  funext a
  apply Fin.ext
  match a with
  | ⟨0, _⟩ => show win2_2.index t (0 : Fin 2) * 1 + 1 * (y 0).val = (y 0).val; omega
  | ⟨1, _⟩ => show win2_2.index t (1 : Fin 2) * 768 + 1 * (y 1).val = (y 1).val; omega

/-- The result array as ONE function of the three arrays the chunk reads: at batch `b`, row `p`, the value the body
    stores for batch `b`'s blocks, read at row `p`. -/
noncomputable def G2 (c : Dev nD) : S4x1956x768.Idx → EReal :=
  fun i => stored2 (blk2_0 V c (i 0 : Fin 4)) (blk2_1 V c (i 0 : Fin 4)) (blk2_2 V c) (ix3 (0 : Fin 1) (i 1 : Fin 1956) (i 2 : Fin 768))

/-- What point `t` writes back is block `t` of `G2`. -/
theorem flushed2_eq (c : Dev nD) (t : Fin cfg2.N) :
    (dat2 (F := Ideal) V c).flushed 3 t = ((cfg2.win 3).blk t).view.read (Elt Ideal) (G2 V c) := by
  obtain ⟨-, -, -, -, -, -, -, -, e0, e1, e2⟩ := idx_facts2 t
  show (cfg2.win 3).cut (grid2.coords t) ((dat2 (F := Ideal) V c).after 3 t) = _
  rw [after2_3]
  unfold out2_3
  rw [View.canon_unit_zero hzA2]
  simp only [View.ld_unit_zero (S := S1x8x768) hzA2, View.ld_unit_zero (S := S1x248x768) hzA2, View.ld_unit_zero (S := S1x768) hzB2]
  rw [iblk2_0_eq, iblk2_1_eq, iblk2_2_eq]
  funext j
  show stored2 (blk2_0 V c (batch2 t)) (blk2_1 V c (batch2 t)) (blk2_2 V c) j = G2 V c (((cfg2.win 3).blk t).view.emb j)
  have hj0 : (j 0).val < 1 := (j 0).isLt
  have he : ((cfg2.win 3).blk t).view.emb j = (ix3 (batch2 t) (j 1 : Fin 1956) (j 2 : Fin 768) : S4x1956x768.Idx) := by
    funext a
    apply Fin.ext
    match a with
    | ⟨0, _⟩ => show win2_3.index t (0 : Fin 3) * 1 + 1 * (j 0).val = t.val; omega
    | ⟨1, _⟩ => show win2_3.index t (1 : Fin 3) * 1956 + 1 * (j 1).val = (j 1).val; omega
    | ⟨2, _⟩ => show win2_3.index t (2 : Fin 3) * 768 + 1 * (j 2).val = (j 2).val; omega
  rw [he]
  show _ = stored2 (blk2_0 V c (batch2 t)) (blk2_1 V c (batch2 t)) (blk2_2 V c) (ix3 (0 : Fin 1) (j 1 : Fin 1956) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk2 (t : Fin cfg2.N) (i : S4x1956x768.Idx) :
    i ∈ ((cfg2.win 3).blk t).view.set ↔ ∀ a : Fin 3, win2_3.index t a * S1x1956x768.size a ≤ (i a).val ∧ (i a).val < win2_3.index t a * S1x1956x768.size a + S1x1956x768.size a := by
  show i ∈ ((View.whole main_v9).slice (win2_3.rect t)).set ↔ _
  rw [View.set_slice_whole, Rect.mem_set_unit]
  exact Iff.rfl

/-- Batch `b` of the result is written by point `b`. -/
theorem cover2 (i : S4x1956x768.Idx) : ∃ t : Fin cfg2.N, (cfg2.win 3).flush t = true ∧ i ∈ ((cfg2.win 3).blk t).view.set := by
  have hi0 : (i 0).val < 4 := (i 0).isLt
  have hi1 : (i 1).val < 1956 := (i 1).isLt
  have hi2 : (i 2).val < 768 := (i 2).isLt
  let t : Fin cfg2.N := ⟨(i 0).val, lt_of_lt_of_eq hi0 N_2.symm⟩
  obtain ⟨-, -, -, -, -, -, -, -, e0, e1, e2⟩ := idx_facts2 t
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; rw [e0]; show (i 0).val * 1 ≤ (i 0).val ∧ (i 0).val < (i 0).val * 1 + 1; omega
  | ⟨1, _⟩ => show win2_3.index t (1 : Fin 3) * 1956 ≤ (i 1).val ∧ (i 1).val < win2_3.index t (1 : Fin 3) * 1956 + 1956; omega
  | ⟨2, _⟩ => show win2_3.index t (2 : Fin 3) * 768 ≤ (i 2).val ∧ (i 2).val < win2_3.index t (2 : Fin 3) * 768 + 768; omega

/-- The result array after the region is `G2`. -/
theorem arr2_eq (c : Dev nD) : (dat2 (F := Ideal) V c).arrAt 3 cfg2.N = G2 V c :=
  (dat2 (F := Ideal) V c).arrAt_eq_of_cover 3 (G2 V c) (fun t _ => flushed2_eq V c t) cover2

/-- The three arrays the chunk reads, at their literal types (so that their entries add as extended reals). -/
abbrev src2_0 (c : Dev nD) : S4x8x768.Idx → EReal := V c main_v7
abbrev src2_1 (c : Dev nD) : S4x248x768.Idx → EReal := V c main_v8
abbrev src2_2 (c : Dev nD) : S1x768.Idx → EReal := V c main_v4

/-- The result array at batch `b`, row `locOff 248 r + d`: the pair of row `r` of the first slice with row `r + d` of
    the second, at batch `b`. -/
theorem final2 (c : Dev nD) (b : Fin 4) (r : Fin 8) (d : ℕ) (q : Fin 248) (hq : q.val = r.val + d)
    (p : Fin 1956) (hp : p.val = locOff 248 r.val + d) (o : Fin 768) :
    (dat2 (F := Ideal) V c).arrAt 3 cfg2.N (ix3 b p o)
      = Ideal.tanh ((src2_0 V c (ix3 b r o) + src2_1 V c (ix3 b q o)) + src2_2 V c (ix2 0 o)) := by
  rw [arr2_eq]
  show stored2 (blk2_0 V c b) (blk2_1 V c b) (blk2_2 V c) (ix3 0 p o) = _
  rw [pay2_apply _ _ _ r d q hq p hp o]
  rfl

end Cert.KernelIdeal.Val

end
-- ==== Proof.KI.Case2.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT2
import proofs.«116342_j30605936951494_1_alg».proof.Proof.KI.PayLib

/-!
# Chunk 2 of the triangle: the pairs (i, j) with 8 ≤ i < 8 + 8

The chunk's region reads three arrays: its eight rows 8 … 8 + 7 of the first projection, the rows 8 … 255 of the
second, and the bias row, each cut by the host from what boundary 3 holds. Its result, still in place when the last
stretch reads it, holds at local row `locOff 248 r + d` the value of the pair (8 + r, 8 + r + d). In the packed
order the chunk starts at row 2020 = triOff 8 and the pair (i, j) sits at `triOff i + (j - i)`: with `r = i mod 8` and
`d = j - i` that is row 2020 + (locOff 248 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 248 r + d` holds the pair (8 + r, 8 + r + d). -/
theorem chunk2 (c : Dev nD) (b : Fin 4) (r : Fin 8) (d : ℕ) (hd : r.val + d < 248) (p : Fin 1956)
    (hp : p.val = locOff 248 r.val + d) (o : Fin 768) :
    (W66 m ρ c (Proc.devRef .tc main_v9) : Vec Ideal S4x1956x768 .f32) (ix3 b p o)
      = Cert.Tri.pairValue (argX m c) (argW m c) (argB m c) b ⟨8 + r.val, by omega⟩ ⟨8 + r.val + d, by omega⟩ o := by
  have e0 : src2_0 (V5 m ρ) c (ix3 b r o)
      = Cert.Tri.proj1 (argX m c) (argW m c) b ⟨8 + r.val, by omega⟩ o :=
    (host2_rows (W4 m ρ c) b r o ⟨8 + r.val, by omega⟩ rfl).trans
      ((congrFun (W4_main_v2 m ρ c) _).trans (p1_W3 m ρ c b _ o))
  have e1 : src2_1 (V5 m ρ) c (ix3 b (⟨r.val + d, hd⟩ : Fin 248) o)
      = Cert.Tri.proj2 (argX m c) (argW m c) b ⟨8 + r.val + d, by omega⟩ o :=
    (host2_pair (W4 m ρ c) b ⟨r.val + d, hd⟩ o ⟨8 + r.val + d, by omega⟩
        (by show 8 + r.val + d = 8 + (r.val + d); omega)).trans
      ((congrFun (W4_main_v3 m ρ c) _).trans (p2_W3 m ρ c b _ o))
  have e2 : src2_2 (V5 m ρ) c (ix2 0 o) = argB m c (ix1 o) :=
    (congrFun (W5_main_v4 m ρ c) _).trans (bias_W3 m ρ c 0 o)
  calc (W66 m ρ c (Proc.devRef .tc main_v9) : Vec Ideal S4x1956x768 .f32) (ix3 b p o)
      = ((dat2 (F := Ideal) (V5 m ρ) c).arrAt 3 cfg2.N : Vec Ideal S4x1956x768 .f32) (ix3 b p o) :=
        congrFun (out2_final m ρ c) _
    _ = Ideal.tanh ((src2_0 (V5 m ρ) c (ix3 b r o) + src2_1 (V5 m ρ) c (ix3 b (⟨r.val + d, hd⟩ : Fin 248) o))
          + src2_2 (V5 m ρ) c (ix2 0 o)) :=
        final2 (V5 m ρ) c b r d ⟨r.val + d, hd⟩ rfl p hp o
    _ = Cert.Tri.pairValue (argX m c) (argW m c) (argB m c) b ⟨8 + r.val, by omega⟩ ⟨8 + r.val + d, by omega⟩ o := by
        rw [e0, e1, e2]
        rfl

/-- The program's result at the rank of a pair (i, j) of this chunk (`i / 8 = 1`). -/
theorem case2 (c : Dev nD) (b : Fin 4) (i j : Fin 256) (o : Fin 768) (hij : i.val ≤ j.val) (hK : i.val / 8 = 1) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 8 + i.val % 8 = i.val := by omega
  have hj : 8 + i.val % 8 + (j.val - i.val) = j.val := by omega
  have hd : i.val % 8 + (j.val - i.val) < 248 := by have := j.isLt; omega
  have hT : locOff 248 (i.val % 8) + (j.val - i.val) < 1956 := by
    have := locOff_add_lt (L := 248) hr (by norm_num) hd
    omega
  have hrank : Cert.Tri.rank i.val j.val = 2020 + (locOff 248 (i.val % 8) + (j.val - i.val)) := by
    have h0 : Cert.Tri.triOff i.val = Cert.Tri.triOff (8 + i.val % 8) := congrArg Cert.Tri.triOff hi.symm
    have h1 : Cert.Tri.triOff (8 + i.val % 8) = Cert.Tri.triOff 8 + locOff 248 (i.val % 8) :=
      triOff_add_locOff 8 (i.val % 8)
    have h2 : Cert.Tri.triOff 8 = 2020 := triOff_chunk_eq 1 8 2020 (by norm_num) rfl rfl
    unfold Cert.Tri.rank
    omega
  refine (out_piece2 (W66 m ρ c) b _ ⟨_, hT⟩ o hrank).trans ?_
  refine (chunk2 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT3.lean ====
/-
  Chunk 3's stored value, read at an index.

  The body stores one value over its whole result block: the eight pieces `tanh ((p₁ row r + p₂ rows r…) + bias)`,
  `r = 0 … 7`, laid one under the other and given a leading unit axis. With 240 rows of the second product in view,
  piece `r` has `240 - r` rows and starts at row `locOff 240 r`. So the stored value at row `locOff 240 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 3 stores, as a function of the three blocks it loads. -/
abbrev stored3 {F : FTy → Type} [FloatOps F] (x0 : Vec F S1x8x768 .f32) (x1 : Vec F S1x240x768 .f32) (x2 : Vec F S1x768 .f32) :
    Vec F S1x1892x768 .f32 :=
  k3_pay1 (k3_pay2 x0) (k3_pay3 x1) (k3_pay4 x2) (k3_pay5 x0 x1 x2) (k3_pay6 x0 x1 x2) (k3_pay7 x0 x1 x2) (k3_pay8 x0 x1 x2)
    (k3_pay9 x0 x1 x2) (k3_pay10 x0 x1 x2) (k3_pay11 x0 x1)

/-- The stored value at row `locOff 240 r + d` of its block pairs row `r` of the first block with row `r + d` of the
    second. -/
theorem pay3_apply (x0 : Vec Ideal S1x8x768 .f32) (x1 : Vec Ideal S1x240x768 .f32) (x2 : Vec Ideal S1x768 .f32)
    (r : Fin 8) (d : ℕ) (q : Fin 240) (hq : q.val = r.val + d) (p : Fin 1892) (hp : p.val = locOff 240 r.val + d) (o : Fin 768) :
    stored3 x0 x1 x2 (ix3 0 p o) = Ideal.tanh ((x0 (ix3 0 r o) + x1 (ix3 0 q o)) + x2 (ix2 0 o)) := by
  have hql := q.isLt
  unfold stored3 k3_pay1
  refine (shapeCast_ab_1ab_apply _ _ 0 p o).trans ?_
  match r, hq, hp with
  | ⟨0, _⟩, hq, hp =>
    have hq : q.val = 0 + d := hq
    have hp : p.val = locOff 240 0 + d := hp
    have hd : d < 240 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 240 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 240 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 240 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 240 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 240 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 240 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 240 7 + d := hp
    refine (cat8_at7 _ _ _ _ _ _ _ _ _ d (by omega) o p (by simp only [locOff] at hp; omega)).trans ?_
    -- the last piece has 233 rows; a last piece of a single row is stored without broadcasts and has its own lemma
    first
      | have single : (233 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT3.lean ====
/-
  Chunk 3's result array after its region, read at an index.

  The region's grid is the batch: point `t` loads batch `t`'s eight rows of the first product's slice, batch `t`'s 240
  rows of the second product's slice and the bias row, and writes back the whole block `t` of the result. What it
  writes is the body's stored value of those three blocks. So the result array is ONE function of the three arrays it
  reads — at batch `b`, row `p`: the stored value of batch `b`'s blocks at row `p` (`G3`) —, every point writes its
  block of that function (`flushed3_eq`), the four blocks cover the array (`cover3`), hence the array ends as that
  function (`arr3_eq`); and at row `locOff 240 r + d` the stored value is the pair of row `r` with row `r + d`
  (`final3`).
-/
import proofs.«116342_j30605936951494_1_alg».proof.Proof.KI.Reg3
import proofs.«116342_j30605936951494_1_alg».proof.Proof.KI.PayT3
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA3 : (![0, 0, 0] : Fin 3 → Nat) = fun _ => 0 := funext fun a => by fin_cases a <;> rfl
theorem hzB3 : (![0, 0] : Fin 2 → Nat) = fun _ => 0 := funext fun a => by fin_cases a <;> rfl

/-- The grid is the batch: point `t` works on batch `t`. -/
noncomputable def batch3 (t : Fin cfg3.N) : Fin 4 := ⟨t.val, lt_of_lt_of_eq t.isLt N_3⟩

/-- The printed index maps, decided over the four points: the three batched windows sit at block `(t, 0, 0)`, the bias
    row at its one block. -/
theorem idx_facts3 : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- Batch `b`'s eight rows of the first product's slice, as a block. -/
noncomputable def blk3_0 (c : Dev nD) (b : Fin 4) : Vec Ideal S1x8x768 .f32 :=
  fun y => (V c main_v10 : S4x8x768.Idx → EReal) (ix3 b (y 1 : Fin 8) (y 2 : Fin 768))
/-- Batch `b`'s 240 rows of the second product's slice, as a block. -/
noncomputable def blk3_1 (c : Dev nD) (b : Fin 4) : Vec Ideal S1x240x768 .f32 :=
  fun y => (V c main_v11 : S4x240x768.Idx → EReal) (ix3 b (y 1 : Fin 240) (y 2 : Fin 768))
/-- The bias row. -/
noncomputable def blk3_2 (c : Dev nD) : Vec Ideal S1x768 .f32 := fun y => (V c main_v4 : S1x768.Idx → EReal) y

theorem iblk3_0_eq (c : Dev nD) (t : Fin cfg3.N) : (iblk3 V c 0 t : Vec Ideal S1x8x768 .f32) = blk3_0 V c (batch3 t) := by
  obtain ⟨e0, e1, e2, -⟩ := idx_facts3 t
  funext y
  unfold iblk3 blk3_0
  rw [View.read_apply]
  show V c main_v10 _ = V c main_v10 _
  congr 1
  funext a
  apply Fin.ext
  match a with
  | ⟨0, _⟩ => show win3_0.index t (0 : Fin 3) * 1 + 1 * (y 0).val = t.val; have hy : (y 0).val < 1 := (y 0).isLt; omega
  | ⟨1, _⟩ => show win3_0.index t (1 : Fin 3) * 8 + 1 * (y 1).val = (y 1).val; omega
  | ⟨2, _⟩ => show win3_0.index t (2 : Fin 3) * 768 + 1 * (y 2).val = (y 2).val; omega

theorem iblk3_1_eq (c : Dev nD) (t : Fin cfg3.N) : (iblk3 V c 1 t : Vec Ideal S1x240x768 .f32) = blk3_1 V c (batch3 t) := by
  obtain ⟨-, -, -, e0, e1, e2, -⟩ := idx_facts3 t
  funext y
  unfold iblk3 blk3_1
  rw [View.read_apply]
  show V c main_v11 _ = V c main_v11 _
  congr 1
  funext a
  apply Fin.ext
  match a with
  | ⟨0, _⟩ => show win3_1.index t (0 : Fin 3) * 1 + 1 * (y 0).val = t.val; have hy : (y 0).val < 1 := (y 0).isLt; omega
  | ⟨1, _⟩ => show win3_1.index t (1 : Fin 3) * 240 + 1 * (y 1).val = (y 1).val; omega
  | ⟨2, _⟩ => show win3_1.index t (2 : Fin 3) * 768 + 1 * (y 2).val = (y 2).val; omega

theorem iblk3_2_eq (c : Dev nD) (t : Fin cfg3.N) : (iblk3 V c 2 t : Vec Ideal S1x768 .f32) = blk3_2 V c := by
  obtain ⟨-, -, -, -, -, -, e0, e1, -⟩ := idx_facts3 t
  funext y
  unfold iblk3 blk3_2
  rw [View.read_apply]
  show V c main_v4 _ = V c main_v4 _
  congr 1
  funext a
  apply Fin.ext
  match a with
  | ⟨0, _⟩ => show win3_2.index t (0 : Fin 2) * 1 + 1 * (y 0).val = (y 0).val; omega
  | ⟨1, _⟩ => show win3_2.index t (1 : Fin 2) * 768 + 1 * (y 1).val = (y 1).val; omega

/-- The result array as ONE function of the three arrays the chunk reads: at batch `b`, row `p`, the value the body
    stores for batch `b`'s blocks, read at row `p`. -/
noncomputable def G3 (c : Dev nD) : S4x1892x768.Idx → EReal :=
  fun i => stored3 (blk3_0 V c (i 0 : Fin 4)) (blk3_1 V c (i 0 : Fin 4)) (blk3_2 V c) (ix3 (0 : Fin 1) (i 1 : Fin 1892) (i 2 : Fin 768))

/-- What point `t` writes back is block `t` of `G3`. -/
theorem flushed3_eq (c : Dev nD) (t : Fin cfg3.N) :
    (dat3 (F := Ideal) V c).flushed 3 t = ((cfg3.win 3).blk t).view.read (Elt Ideal) (G3 V c) := by
  obtain ⟨-, -, -, -, -, -, -, -, e0, e1, e2⟩ := idx_facts3 t
  show (cfg3.win 3).cut (grid3.coords t) ((dat3 (F := Ideal) V c).after 3 t) = _
  rw [after3_3]
  unfold out3_3
  rw [View.canon_unit_zero hzA3]
  simp only [View.ld_unit_zero (S := S1x8x768) hzA3, View.ld_unit_zero (S := S1x240x768) hzA3, View.ld_unit_zero (S := S1x768) hzB3]
  rw [iblk3_0_eq, iblk3_1_eq, iblk3_2_eq]
  funext j
  show stored3 (blk3_0 V c (batch3 t)) (blk3_1 V c (batch3 t)) (blk3_2 V c) j = G3 V c (((cfg3.win 3).blk t).view.emb j)
  have hj0 : (j 0).val < 1 := (j 0).isLt
  have he : ((cfg3.win 3).blk t).view.emb j = (ix3 (batch3 t) (j 1 : Fin 1892) (j 2 : Fin 768) : S4x1892x768.Idx) := by
    funext a
    apply Fin.ext
    match a with
    | ⟨0, _⟩ => show win3_3.index t (0 : Fin 3) * 1 + 1 * (j 0).val = t.val; omega
    | ⟨1, _⟩ => show win3_3.index t (1 : Fin 3) * 1892 + 1 * (j 1).val = (j 1).val; omega
    | ⟨2, _⟩ => show win3_3.index t (2 : Fin 3) * 768 + 1 * (j 2).val = (j 2).val; omega
  rw [he]
  show _ = stored3 (blk3_0 V c (batch3 t)) (blk3_1 V c (batch3 t)) (blk3_2 V c) (ix3 (0 : Fin 1) (j 1 : Fin 1892) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk3 (t : Fin cfg3.N) (i : S4x1892x768.Idx) :
    i ∈ ((cfg3.win 3).blk t).view.set ↔ ∀ a : Fin 3, win3_3.index t a * S1x1892x768.size a ≤ (i a).val ∧ (i a).val < win3_3.index t a * S1x1892x768.size a + S1x1892x768.size a := by
  show i ∈ ((View.whole main_v12).slice (win3_3.rect t)).set ↔ _
  rw [View.set_slice_whole, Rect.mem_set_unit]
  exact Iff.rfl

/-- Batch `b` of the result is written by point `b`. -/
theorem cover3 (i : S4x1892x768.Idx) : ∃ t : Fin cfg3.N, (cfg3.win 3).flush t = true ∧ i ∈ ((cfg3.win 3).blk t).view.set := by
  have hi0 : (i 0).val < 4 := (i 0).isLt
  have hi1 : (i 1).val < 1892 := (i 1).isLt
  have hi2 : (i 2).val < 768 := (i 2).isLt
  let t : Fin cfg3.N := ⟨(i 0).val, lt_of_lt_of_eq hi0 N_3.symm⟩
  obtain ⟨-, -, -, -, -, -, -, -, e0, e1, e2⟩ := idx_facts3 t
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; rw [e0]; show (i 0).val * 1 ≤ (i 0).val ∧ (i 0).val < (i 0).val * 1 + 1; omega
  | ⟨1, _⟩ => show win3_3.index t (1 : Fin 3) * 1892 ≤ (i 1).val ∧ (i 1).val < win3_3.index t (1 : Fin 3) * 1892 + 1892; omega
  | ⟨2, _⟩ => show win3_3.index t (2 : Fin 3) * 768 ≤ (i 2).val ∧ (i 2).val < win3_3.index t (2 : Fin 3) * 768 + 768; omega

/-- The result array after the region is `G3`. -/
theorem arr3_eq (c : Dev nD) : (dat3 (F := Ideal) V c).arrAt 3 cfg3.N = G3 V c :=
  (dat3 (F := Ideal) V c).arrAt_eq_of_cover 3 (G3 V c) (fun t _ => flushed3_eq V c t) cover3

/-- The three arrays the chunk reads, at their literal types (so that their entries add as extended reals). -/
abbrev src3_0 (c : Dev nD) : S4x8x768.Idx → EReal := V c main_v10
abbrev src3_1 (c : Dev nD) : S4x240x768.Idx → EReal := V c main_v11
abbrev src3_2 (c : Dev nD) : S1x768.Idx → EReal := V c main_v4

/-- The result array at batch `b`, row `locOff 240 r + d`: the pair of row `r` of the first slice with row `r + d` of
    the second, at batch `b`. -/
theorem final3 (c : Dev nD) (b : Fin 4) (r : Fin 8) (d : ℕ) (q : Fin 240) (hq : q.val = r.val + d)
    (p : Fin 1892) (hp : p.val = locOff 240 r.val + d) (o : Fin 768) :
    (dat3 (F := Ideal) V c).arrAt 3 cfg3.N (ix3 b p o)
      = Ideal.tanh ((src3_0 V c (ix3 b r o) + src3_1 V c (ix3 b q o)) + src3_2 V c (ix2 0 o)) := by
  rw [arr3_eq]
  show stored3 (blk3_0 V c b) (blk3_1 V c b) (blk3_2 V c) (ix3 0 p o) = _
  rw [pay3_apply _ _ _ r d q hq p hp o]
  rfl

end Cert.KernelIdeal.Val

end
-- ==== Proof.KI.Case3.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT3
import proofs.«116342_j30605936951494_1_alg».proof.Proof.KI.PayLib

/-!
# Chunk 3 of the triangle: the pairs (i, j) with 16 ≤ i < 16 + 8

The chunk's region reads three arrays: its eight rows 16 … 16 + 7 of the first projection, the rows 16 … 255 of the
second, and the bias row, each cut by the host from what boundary 3 holds. Its result, still in place when the last
stretch reads it, holds at local row `locOff 240 r + d` the value of the pair (16 + r, 16 + r + d). In the packed
order the chunk starts at row 3976 = triOff 16 and the pair (i, j) sits at `triOff i + (j - i)`: with `r = i mod 8` and
`d = j - i` that is row 3976 + (locOff 240 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 240 r + d` holds the pair (16 + r, 16 + r + d). -/
theorem chunk3 (c : Dev nD) (b : Fin 4) (r : Fin 8) (d : ℕ) (hd : r.val + d < 240) (p : Fin 1892)
    (hp : p.val = locOff 240 r.val + d) (o : Fin 768) :
    (W66 m ρ c (Proc.devRef .tc main_v12) : Vec Ideal S4x1892x768 .f32) (ix3 b p o)
      = Cert.Tri.pairValue (argX m c) (argW m c) (argB m c) b ⟨16 + r.val, by omega⟩ ⟨16 + r.val + d, by omega⟩ o := by
  have e0 : src3_0 (V7 m ρ) c (ix3 b r o)
      = Cert.Tri.proj1 (argX m c) (argW m c) b ⟨16 + r.val, by omega⟩ o :=
    (host3_rows (W6 m ρ c) b r o ⟨16 + r.val, by omega⟩ rfl).trans
      ((congrFun (W6_main_v2 m ρ c) _).trans (p1_W3 m ρ c b _ o))
  have e1 : src3_1 (V7 m ρ) c (ix3 b (⟨r.val + d, hd⟩ : Fin 240) o)
      = Cert.Tri.proj2 (argX m c) (argW m c) b ⟨16 + r.val + d, by omega⟩ o :=
    (host3_pair (W6 m ρ c) b ⟨r.val + d, hd⟩ o ⟨16 + r.val + d, by omega⟩
        (by show 16 + r.val + d = 16 + (r.val + d); omega)).trans
      ((congrFun (W6_main_v3 m ρ c) _).trans (p2_W3 m ρ c b _ o))
  have e2 : src3_2 (V7 m ρ) c (ix2 0 o) = argB m c (ix1 o) :=
    (congrFun (W7_main_v4 m ρ c) _).trans (bias_W3 m ρ c 0 o)
  calc (W66 m ρ c (Proc.devRef .tc main_v12) : Vec Ideal S4x1892x768 .f32) (ix3 b p o)
      = ((dat3 (F := Ideal) (V7 m ρ) c).arrAt 3 cfg3.N : Vec Ideal S4x1892x768 .f32) (ix3 b p o) :=
        congrFun (out3_final m ρ c) _
    _ = Ideal.tanh ((src3_0 (V7 m ρ) c (ix3 b r o) + src3_1 (V7 m ρ) c (ix3 b (⟨r.val + d, hd⟩ : Fin 240) o))
          + src3_2 (V7 m ρ) c (ix2 0 o)) :=
        final3 (V7 m ρ) c b r d ⟨r.val + d, hd⟩ rfl p hp o
    _ = Cert.Tri.pairValue (argX m c) (argW m c) (argB m c) b ⟨16 + r.val, by omega⟩ ⟨16 + r.val + d, by omega⟩ o := by
        rw [e0, e1, e2]
        rfl

/-- The program's result at the rank of a pair (i, j) of this chunk (`i / 8 = 2`). -/
theorem case3 (c : Dev nD) (b : Fin 4) (i j : Fin 256) (o : Fin 768) (hij : i.val ≤ j.val) (hK : i.val / 8 = 2) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 16 + i.val % 8 = i.val := by omega
  have hj : 16 + i.val % 8 + (j.val - i.val) = j.val := by omega
  have hd : i.val % 8 + (j.val - i.val) < 240 := by have := j.isLt; omega
  have hT : locOff 240 (i.val % 8) + (j.val - i.val) < 1892 := by
    have := locOff_add_lt (L := 240) hr (by norm_num) hd
    omega
  have hrank : Cert.Tri.rank i.val j.val = 3976 + (locOff 240 (i.val % 8) + (j.val - i.val)) := by
    have h0 : Cert.Tri.triOff i.val = Cert.Tri.triOff (16 + i.val % 8) := congrArg Cert.Tri.triOff hi.symm
    have h1 : Cert.Tri.triOff (16 + i.val % 8) = Cert.Tri.triOff 16 + locOff 240 (i.val % 8) :=
      triOff_add_locOff 16 (i.val % 8)
    have h2 : Cert.Tri.triOff 16 = 3976 := triOff_chunk_eq 2 16 3976 (by norm_num) rfl rfl
    unfold Cert.Tri.rank
    omega
  refine (out_piece3 (W66 m ρ c) b _ ⟨_, hT⟩ o hrank).trans ?_
  refine (chunk3 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT4.lean ====
/-
  Chunk 4's stored value, read at an index.

  The body stores one value over its whole result block: the eight pieces `tanh ((p₁ row r + p₂ rows r…) + bias)`,
  `r = 0 … 7`, laid one under the other and given a leading unit axis. With 232 rows of the second product in view,
  piece `r` has `232 - r` rows and starts at row `locOff 232 r`. So the stored value at row `locOff 232 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 4 stores, as a function of the three blocks it loads. -/
abbrev stored4 {F : FTy → Type} [FloatOps F] (x0 : Vec F S1x8x768 .f32) (x1 : Vec F S1x232x768 .f32) (x2 : Vec F S1x768 .f32) :
    Vec F S1x1828x768 .f32 :=
  k4_pay1 (k4_pay2 x0) (k4_pay3 x1) (k4_pay4 x2) (k4_pay5 x0 x1 x2) (k4_pay6 x0 x1 x2) (k4_pay7 x0 x1 x2) (k4_pay8 x0 x1 x2)
    (k4_pay9 x0 x1 x2) (k4_pay10 x0 x1 x2) (k4_pay11 x0 x1)

/-- The stored value at row `locOff 232 r + d` of its block pairs row `r` of the first block with row `r + d` of the
    second. -/
theorem pay4_apply (x0 : Vec Ideal S1x8x768 .f32) (x1 : Vec Ideal S1x232x768 .f32) (x2 : Vec Ideal S1x768 .f32)
    (r : Fin 8) (d : ℕ) (q : Fin 232) (hq : q.val = r.val + d) (p : Fin 1828) (hp : p.val = locOff 232 r.val + d) (o : Fin 768) :
    stored4 x0 x1 x2 (ix3 0 p o) = Ideal.tanh ((x0 (ix3 0 r o) + x1 (ix3 0 q o)) + x2 (ix2 0 o)) := by
  have hql := q.isLt
  unfold stored4 k4_pay1
  refine (shapeCast_ab_1ab_apply _ _ 0 p o).trans ?_
  match r, hq, hp with
  | ⟨0, _⟩, hq, hp =>
    have hq : q.val = 0 + d := hq
    have hp : p.val = locOff 232 0 + d := hp
    have hd : d < 232 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 232 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 232 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 232 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 232 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 232 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 232 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 232 7 + d := hp
    refine (cat8_at7 _ _ _ _ _ _ _ _ _ d (by omega) o p (by simp only [locOff] at hp; omega)).trans ?_
    -- the last piece has 225 rows; a last piece of a single row is stored without broadcasts and has its own lemma
    first
      | have single : (225 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT4.lean ====
/-
  Chunk 4's result array after its region, read at an index.

  The region's grid is the batch: point `t` loads batch `t`'s eight rows of the first product's slice, batch `t`'s 232
  rows of the second product's slice and the bias row, and writes back the whole block `t` of the result. What it
  writes is the body's stored value of those three blocks. So the result array is ONE function of the three arrays it
  reads — at batch `b`, row `p`: the stored value of batch `b`'s blocks at row `p` (`G4`) —, every point writes its
  block of that function (`flushed4_eq`), the four blocks cover the array (`cover4`), hence the array ends as that
  function (`arr4_eq`); and at row `locOff 232 r + d` the stored value is the pair of row `r` with row `r + d`
  (`final4`).
-/
import proofs.«116342_j30605936951494_1_alg».proof.Proof.KI.Reg4
import proofs.«116342_j30605936951494_1_alg».proof.Proof.KI.PayT4
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA4 : (![0, 0, 0] : Fin 3 → Nat) = fun _ => 0 := funext fun a => by fin_cases a <;> rfl
theorem hzB4 : (![0, 0] : Fin 2 → Nat) = fun _ => 0 := funext fun a => by fin_cases a <;> rfl

/-- The grid is the batch: point `t` works on batch `t`. -/
noncomputable def batch4 (t : Fin cfg4.N) : Fin 4 := ⟨t.val, lt_of_lt_of_eq t.isLt N_4⟩

/-- The printed index maps, decided over the four points: the three batched windows sit at block `(t, 0, 0)`, the bias
    row at its one block. -/
theorem idx_facts4 : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0
    ∧ win4_3.index t (0 : Fin 3) = t.val ∧ win4_3.index t (1 : Fin 3) = 0 ∧ win4_3.index t (2 : Fin 3) = 0 :=
  (by decide +kernel : ∀ t : Fin grid4.N, _)

/-- Batch `b`'s eight rows of the first product's slice, as a block. -/
noncomputable def blk4_0 (c : Dev nD) (b : Fin 4) : Vec Ideal S1x8x768 .f32 :=
  fun y => (V c main_v13 : S4x8x768.Idx → EReal) (ix3 b (y 1 : Fin 8) (y 2 : Fin 768))
/-- Batch `b`'s 232 rows of the second product's slice, as a block. -/
noncomputable def blk4_1 (c : Dev nD) (b : Fin 4) : Vec Ideal S1x232x768 .f32 :=
  fun y => (V c main_v14 : S4x232x768.Idx → EReal) (ix3 b (y 1 : Fin 232) (y 2 : Fin 768))
/-- The bias row. -/
noncomputable def blk4_2 (c : Dev nD) : Vec Ideal S1x768 .f32 := fun y => (V c main_v4 : S1x768.Idx → EReal) y

theorem iblk4_0_eq (c : Dev nD) (t : Fin cfg4.N) : (iblk4 V c 0 t : Vec Ideal S1x8x768 .f32) = blk4_0 V c (batch4 t) := by
  obtain ⟨e0, e1, e2, -⟩ := idx_facts4 t
  funext y
  unfold iblk4 blk4_0
  rw [View.read_apply]
  show V c main_v13 _ = V c main_v13 _
  congr 1
  funext a
  apply Fin.ext
  match a with
  | ⟨0, _⟩ => show win4_0.index t (0 : Fin 3) * 1 + 1 * (y 0).val = t.val; have hy : (y 0).val < 1 := (y 0).isLt; omega
  | ⟨1, _⟩ => show win4_0.index t (1 : Fin 3) * 8 + 1 * (y 1).val = (y 1).val; omega
  | ⟨2, _⟩ => show win4_0.index t (2 : Fin 3) * 768 + 1 * (y 2).val = (y 2).val; omega

theorem iblk4_1_eq (c : Dev nD) (t : Fin cfg4.N) : (iblk4 V c 1 t : Vec Ideal S1x232x768 .f32) = blk4_1 V c (batch4 t) := by
  obtain ⟨-, -, -, e0, e1, e2, -⟩ := idx_facts4 t
  funext y
  unfold iblk4 blk4_1
  rw [View.read_apply]
  show V c main_v14 _ = V c main_v14 _
  congr 1
  funext a
  apply Fin.ext
  match a with
  | ⟨0, _⟩ => show win4_1.index t (0 : Fin 3) * 1 + 1 * (y 0).val = t.val; have hy : (y 0).val < 1 := (y 0).isLt; omega
  | ⟨1, _⟩ => show win4_1.index t (1 : Fin 3) * 232 + 1 * (y 1).val = (y 1).val; omega
  | ⟨2, _⟩ => show win4_1.index t (2 : Fin 3) * 768 + 1 * (y 2).val = (y 2).val; omega

theorem iblk4_2_eq (c : Dev nD) (t : Fin cfg4.N) : (iblk4 V c 2 t : Vec Ideal S1x768 .f32) = blk4_2 V c := by
  obtain ⟨-, -, -, -, -, -, e0, e1, -⟩ := idx_facts4 t
  funext y
  unfold iblk4 blk4_2
  rw [View.read_apply]
  show V c main_v4 _ = V c main_v4 _
  congr 1
  funext a
  apply Fin.ext
  match a with
  | ⟨0, _⟩ => show win4_2.index t (0 : Fin 2) * 1 + 1 * (y 0).val = (y 0).val; omega
  | ⟨1, _⟩ => show win4_2.index t (1 : Fin 2) * 768 + 1 * (y 1).val = (y 1).val; omega

/-- The result array as ONE function of the three arrays the chunk reads: at batch `b`, row `p`, the value the body
    stores for batch `b`'s blocks, read at row `p`. -/
noncomputable def G4 (c : Dev nD) : S4x1828x768.Idx → EReal :=
  fun i => stored4 (blk4_0 V c (i 0 : Fin 4)) (blk4_1 V c (i 0 : Fin 4)) (blk4_2 V c) (ix3 (0 : Fin 1) (i 1 : Fin 1828) (i 2 : Fin 768))

/-- What point `t` writes back is block `t` of `G4`. -/
theorem flushed4_eq (c : Dev nD) (t : Fin cfg4.N) :
    (dat4 (F := Ideal) V c).flushed 3 t = ((cfg4.win 3).blk t).view.read (Elt Ideal) (G4 V c) := by
  obtain ⟨-, -, -, -, -, -, -, -, e0, e1, e2⟩ := idx_facts4 t
  show (cfg4.win 3).cut (grid4.coords t) ((dat4 (F := Ideal) V c).after 3 t) = _
  rw [after4_3]
  unfold out4_3
  rw [View.canon_unit_zero hzA4]
  simp only [View.ld_unit_zero (S := S1x8x768) hzA4, View.ld_unit_zero (S := S1x232x768) hzA4, View.ld_unit_zero (S := S1x768) hzB4]
  rw [iblk4_0_eq, iblk4_1_eq, iblk4_2_eq]
  funext j
  show stored4 (blk4_0 V c (batch4 t)) (blk4_1 V c (batch4 t)) (blk4_2 V c) j = G4 V c (((cfg4.win 3).blk t).view.emb j)
  have hj0 : (j 0).val < 1 := (j 0).isLt
  have he : ((cfg4.win 3).blk t).view.emb j = (ix3 (batch4 t) (j 1 : Fin 1828) (j 2 : Fin 768) : S4x1828x768.Idx) := by
    funext a
    apply Fin.ext
    match a with
    | ⟨0, _⟩ => show win4_3.index t (0 : Fin 3) * 1 + 1 * (j 0).val = t.val; omega
    | ⟨1, _⟩ => show win4_3.index t (1 : Fin 3) * 1828 + 1 * (j 1).val = (j 1).val; omega
    | ⟨2, _⟩ => show win4_3.index t (2 : Fin 3) * 768 + 1 * (j 2).val = (j 2).val; omega
  rw [he]
  show _ = stored4 (blk4_0 V c (batch4 t)) (blk4_1 V c (batch4 t)) (blk4_2 V c) (ix3 (0 : Fin 1) (j 1 : Fin 1828) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk4 (t : Fin cfg4.N) (i : S4x1828x768.Idx) :
    i ∈ ((cfg4.win 3).blk t).view.set ↔ ∀ a : Fin 3, win4_3.index t a * S1x1828x768.size a ≤ (i a).val ∧ (i a).val < win4_3.index t a * S1x1828x768.size a + S1x1828x768.size a := by
  show i ∈ ((View.whole main_v15).slice (win4_3.rect t)).set ↔ _
  rw [View.set_slice_whole, Rect.mem_set_unit]
  exact Iff.rfl

/-- Batch `b` of the result is written by point `b`. -/
theorem cover4 (i : S4x1828x768.Idx) : ∃ t : Fin cfg4.N, (cfg4.win 3).flush t = true ∧ i ∈ ((cfg4.win 3).blk t).view.set := by
  have hi0 : (i 0).val < 4 := (i 0).isLt
  have hi1 : (i 1).val < 1828 := (i 1).isLt
  have hi2 : (i 2).val < 768 := (i 2).isLt
  let t : Fin cfg4.N := ⟨(i 0).val, lt_of_lt_of_eq hi0 N_4.symm⟩
  obtain ⟨-, -, -, -, -, -, -, -, e0, e1, e2⟩ := idx_facts4 t
  refine ⟨t, flush4_3 t, ?_⟩
  rw [mem_blk4]
  intro a
  match a with
  | ⟨0, _⟩ => show win4_3.index t (0 : Fin 3) * 1 ≤ (i 0).val ∧ (i 0).val < win4_3.index t (0 : Fin 3) * 1 + 1; rw [e0]; show (i 0).val * 1 ≤ (i 0).val ∧ (i 0).val < (i 0).val * 1 + 1; omega
  | ⟨1, _⟩ => show win4_3.index t (1 : Fin 3) * 1828 ≤ (i 1).val ∧ (i 1).val < win4_3.index t (1 : Fin 3) * 1828 + 1828; omega
  | ⟨2, _⟩ => show win4_3.index t (2 : Fin 3) * 768 ≤ (i 2).val ∧ (i 2).val < win4_3.index t (2 : Fin 3) * 768 + 768; omega

/-- The result array after the region is `G4`. -/
theorem arr4_eq (c : Dev nD) : (dat4 (F := Ideal) V c).arrAt 3 cfg4.N = G4 V c :=
  (dat4 (F := Ideal) V c).arrAt_eq_of_cover 3 (G4 V c) (fun t _ => flushed4_eq V c t) cover4

/-- The three arrays the chunk reads, at their literal types (so that their entries add as extended reals). -/
abbrev src4_0 (c : Dev nD) : S4x8x768.Idx → EReal := V c main_v13
abbrev src4_1 (c : Dev nD) : S4x232x768.Idx → EReal := V c main_v14
abbrev src4_2 (c : Dev nD) : S1x768.Idx → EReal := V c main_v4

/-- The result array at batch `b`, row `locOff 232 r + d`: the pair of row `r` of the first slice with row `r + d` of
    the second, at batch `b`. -/
theorem final4 (c : Dev nD) (b : Fin 4) (r : Fin 8) (d : ℕ) (q : Fin 232) (hq : q.val = r.val + d)
    (p : Fin 1828) (hp : p.val = locOff 232 r.val + d) (o : Fin 768) :
    (dat4 (F := Ideal) V c).arrAt 3 cfg4.N (ix3 b p o)
      = Ideal.tanh ((src4_0 V c (ix3 b r o) + src4_1 V c (ix3 b q o)) + src4_2 V c (ix2 0 o)) := by
  rw [arr4_eq]
  show stored4 (blk4_0 V c b) (blk4_1 V c b) (blk4_2 V c) (ix3 0 p o) = _
  rw [pay4_apply _ _ _ r d q hq p hp o]
  rfl

end Cert.KernelIdeal.Val

end
-- ==== Proof.KI.Case4.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT4
import proofs.«116342_j30605936951494_1_alg».proof.Proof.KI.PayLib

/-!
# Chunk 4 of the triangle: the pairs (i, j) with 24 ≤ i < 24 + 8

The chunk's region reads three arrays: its eight rows 24 … 24 + 7 of the first projection, the rows 24 … 255 of the
second, and the bias row, each cut by the host from what boundary 3 holds. Its result, still in place when the last
stretch reads it, holds at local row `locOff 232 r + d` the value of the pair (24 + r, 24 + r + d). In the packed
order the chunk starts at row 5868 = triOff 24 and the pair (i, j) sits at `triOff i + (j - i)`: with `r = i mod 8` and
`d = j - i` that is row 5868 + (locOff 232 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 232 r + d` holds the pair (24 + r, 24 + r + d). -/
theorem chunk4 (c : Dev nD) (b : Fin 4) (r : Fin 8) (d : ℕ) (hd : r.val + d < 232) (p : Fin 1828)
    (hp : p.val = locOff 232 r.val + d) (o : Fin 768) :
    (W66 m ρ c (Proc.devRef .tc main_v15) : Vec Ideal S4x1828x768 .f32) (ix3 b p o)
      = Cert.Tri.pairValue (argX m c) (argW m c) (argB m c) b ⟨24 + r.val, by omega⟩ ⟨24 + r.val + d, by omega⟩ o := by
  have e0 : src4_0 (V9 m ρ) c (ix3 b r o)
      = Cert.Tri.proj1 (argX m c) (argW m c) b ⟨24 + r.val, by omega⟩ o :=
    (host4_rows (W8 m ρ c) b r o ⟨24 + r.val, by omega⟩ rfl).trans
      ((congrFun (W8_main_v2 m ρ c) _).trans (p1_W3 m ρ c b _ o))
  have e1 : src4_1 (V9 m ρ) c (ix3 b (⟨r.val + d, hd⟩ : Fin 232) o)
      = Cert.Tri.proj2 (argX m c) (argW m c) b ⟨24 + r.val + d, by omega⟩ o :=
    (host4_pair (W8 m ρ c) b ⟨r.val + d, hd⟩ o ⟨24 + r.val + d, by omega⟩
        (by show 24 + r.val + d = 24 + (r.val + d); omega)).trans
      ((congrFun (W8_main_v3 m ρ c) _).trans (p2_W3 m ρ c b _ o))
  have e2 : src4_2 (V9 m ρ) c (ix2 0 o) = argB m c (ix1 o) :=
    (congrFun (W9_main_v4 m ρ c) _).trans (bias_W3 m ρ c 0 o)
  calc (W66 m ρ c (Proc.devRef .tc main_v15) : Vec Ideal S4x1828x768 .f32) (ix3 b p o)
      = ((dat4 (F := Ideal) (V9 m ρ) c).arrAt 3 cfg4.N : Vec Ideal S4x1828x768 .f32) (ix3 b p o) :=
        congrFun (out4_final m ρ c) _
    _ = Ideal.tanh ((src4_0 (V9 m ρ) c (ix3 b r o) + src4_1 (V9 m ρ) c (ix3 b (⟨r.val + d, hd⟩ : Fin 232) o))
          + src4_2 (V9 m ρ) c (ix2 0 o)) :=
        final4 (V9 m ρ) c b r d ⟨r.val + d, hd⟩ rfl p hp o
    _ = Cert.Tri.pairValue (argX m c) (argW m c) (argB m c) b ⟨24 + r.val, by omega⟩ ⟨24 + r.val + d, by omega⟩ o := by
        rw [e0, e1, e2]
        rfl

/-- The program's result at the rank of a pair (i, j) of this chunk (`i / 8 = 3`). -/
theorem case4 (c : Dev nD) (b : Fin 4) (i j : Fin 256) (o : Fin 768) (hij : i.val ≤ j.val) (hK : i.val / 8 = 3) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 24 + i.val % 8 = i.val := by omega
  have hj : 24 + i.val % 8 + (j.val - i.val) = j.val := by omega
  have hd : i.val % 8 + (j.val - i.val) < 232 := by have := j.isLt; omega
  have hT : locOff 232 (i.val % 8) + (j.val - i.val) < 1828 := by
    have := locOff_add_lt (L := 232) hr (by norm_num) hd
    omega
  have hrank : Cert.Tri.rank i.val j.val = 5868 + (locOff 232 (i.val % 8) + (j.val - i.val)) := by
    have h0 : Cert.Tri.triOff i.val = Cert.Tri.triOff (24 + i.val % 8) := congrArg Cert.Tri.triOff hi.symm
    have h1 : Cert.Tri.triOff (24 + i.val % 8) = Cert.Tri.triOff 24 + locOff 232 (i.val % 8) :=
      triOff_add_locOff 24 (i.val % 8)
    have h2 : Cert.Tri.triOff 24 = 5868 := triOff_chunk_eq 3 24 5868 (by norm_num) rfl rfl
    unfold Cert.Tri.rank
    omega
  refine (out_piece4 (W66 m ρ c) b _ ⟨_, hT⟩ o hrank).trans ?_
  refine (chunk4 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT5.lean ====
/-
  Chunk 5's stored value, read at an index.

  The body stores one value over its whole result block: the eight pieces `tanh ((p₁ row r + p₂ rows r…) + bias)`,
  `r = 0 … 7`, laid one under the other and given a leading unit axis. With 224 rows of the second product in view,
  piece `r` has `224 - r` rows and starts at row `locOff 224 r`. So the stored value at row `locOff 224 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 5 stores, as a function of the three blocks it loads. -/
abbrev stored5 {F : FTy → Type} [FloatOps F] (x0 : Vec F S1x8x768 .f32) (x1 : Vec F S1x224x768 .f32) (x2 : Vec F S1x768 .f32) :
    Vec F S1x1764x768 .f32 :=
  k5_pay1 (k5_pay2 x0) (k5_pay3 x1) (k5_pay4 x2) (k5_pay5 x0 x1 x2) (k5_pay6 x0 x1 x2) (k5_pay7 x0 x1 x2) (k5_pay8 x0 x1 x2)
    (k5_pay9 x0 x1 x2) (k5_pay10 x0 x1 x2) (k5_pay11 x0 x1)

/-- The stored value at row `locOff 224 r + d` of its block pairs row `r` of the first block with row `r + d` of the
    second. -/
theorem pay5_apply (x0 : Vec Ideal S1x8x768 .f32) (x1 : Vec Ideal S1x224x768 .f32) (x2 : Vec Ideal S1x768 .f32)
    (r : Fin 8) (d : ℕ) (q : Fin 224) (hq : q.val = r.val + d) (p : Fin 1764) (hp : p.val = locOff 224 r.val + d) (o : Fin 768) :
    stored5 x0 x1 x2 (ix3 0 p o) = Ideal.tanh ((x0 (ix3 0 r o) + x1 (ix3 0 q o)) + x2 (ix2 0 o)) := by
  have hql := q.isLt
  unfold stored5 k5_pay1
  refine (shapeCast_ab_1ab_apply _ _ 0 p o).trans ?_
  match r, hq, hp with
  | ⟨0, _⟩, hq, hp =>
    have hq : q.val = 0 + d := hq
    have hp : p.val = locOff 224 0 + d := hp
    have hd : d < 224 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 224 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 224 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 224 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 224 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 224 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 224 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 224 7 + d := hp
    refine (cat8_at7 _ _ _ _ _ _ _ _ _ d (by omega) o p (by simp only [locOff] at hp; omega)).trans ?_
    -- the last piece has 217 rows; a last piece of a single row is stored without broadcasts and has its own lemma
    first
      | have single : (217 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT5.lean ====
/-
  Chunk 5's result array after its region, read at an index.

  The region's grid is the batch: point `t` loads batch `t`'s eight rows of the first product's slice, batch `t`'s 224
  rows of the second product's slice and the bias row, and writes back the whole block `t` of the result. What it
  writes is the body's stored value of those three blocks. So the result array is ONE function of the three arrays it
  reads — at batch `b`, row `p`: the stored value of batch `b`'s blocks at row `p` (`G5`) —, every point writes its
  block of that function (`flushed5_eq`), the four blocks cover the array (`cover5`), hence the array ends as that
  function (`arr5_eq`); and at row `locOff 224 r + d` the stored value is the pair of row `r` with row `r + d`
  (`final5`).
-/
import proofs.«116342_j30605936951494_1_alg».proof.Proof.KI.Reg5
import proofs.«116342_j30605936951494_1_alg».proof.Proof.KI.PayT5
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA5 : (![0, 0, 0] : Fin 3 → Nat) = fun _ => 0 := funext fun a => by fin_cases a <;> rfl
theorem hzB5 : (![0, 0] : Fin 2 → Nat) = fun _ => 0 := funext fun a => by fin_cases a <;> rfl

/-- The grid is the batch: point `t` works on batch `t`. -/
noncomputable def batch5 (t : Fin cfg5.N) : Fin 4 := ⟨t.val, lt_of_lt_of_eq t.isLt N_5⟩

/-- The printed index maps, decided over the four points: the three batched windows sit at block `(t, 0, 0)`, the bias
    row at its one block. -/
theorem idx_facts5 : ∀ t : Fin cfg5.N,
    win5_0.index t (0 : Fin 3) = t.val ∧ win5_0.index t (1 : Fin 3) = 0 ∧ win5_0.index t (2 : Fin 3) = 0
    ∧ win5_1.index t (0 : Fin 3) = t.val ∧ win5_1.index t (1 : Fin 3) = 0 ∧ win5_1.index t (2 : Fin 3) = 0
    ∧ win5_2.index t (0 : Fin 2) = 0 ∧ win5_2.index t (1 : Fin 2) = 0
    ∧ win5_3.index t (0 : Fin 3) = t.val ∧ win5_3.index t (1 : Fin 3) = 0 ∧ win5_3.index t (2 : Fin 3) = 0 :=
  (by decide +kernel : ∀ t : Fin grid5.N, _)

/-- Batch `b`'s eight rows of the first product's slice, as a block. -/
noncomputable def blk5_0 (c : Dev nD) (b : Fin 4) : Vec Ideal S1x8x768 .f32 :=
  fun y => (V c main_v16 : S4x8x768.Idx → EReal) (ix3 b (y 1 : Fin 8) (y 2 : Fin 768))
/-- Batch `b`'s 224 rows of the second product's slice, as a block. -/
noncomputable def blk5_1 (c : Dev nD) (b : Fin 4) : Vec Ideal S1x224x768 .f32 :=
  fun y => (V c main_v17 : S4x224x768.Idx → EReal) (ix3 b (y 1 : Fin 224) (y 2 : Fin 768))
/-- The bias row. -/
noncomputable def blk5_2 (c : Dev nD) : Vec Ideal S1x768 .f32 := fun y => (V c main_v4 : S1x768.Idx → EReal) y

theorem iblk5_0_eq (c : Dev nD) (t : Fin cfg5.N) : (iblk5 V c 0 t : Vec Ideal S1x8x768 .f32) = blk5_0 V c (batch5 t) := by
  obtain ⟨e0, e1, e2, -⟩ := idx_facts5 t
  funext y
  unfold iblk5 blk5_0
  rw [View.read_apply]
  show V c main_v16 _ = V c main_v16 _
  congr 1
  funext a
  apply Fin.ext
  match a with
  | ⟨0, _⟩ => show win5_0.index t (0 : Fin 3) * 1 + 1 * (y 0).val = t.val; have hy : (y 0).val < 1 := (y 0).isLt; omega
  | ⟨1, _⟩ => show win5_0.index t (1 : Fin 3) * 8 + 1 * (y 1).val = (y 1).val; omega
  | ⟨2, _⟩ => show win5_0.index t (2 : Fin 3) * 768 + 1 * (y 2).val = (y 2).val; omega

theorem iblk5_1_eq (c : Dev nD) (t : Fin cfg5.N) : (iblk5 V c 1 t : Vec Ideal S1x224x768 .f32) = blk5_1 V c (batch5 t) := by
  obtain ⟨-, -, -, e0, e1, e2, -⟩ := idx_facts5 t
  funext y
  unfold iblk5 blk5_1
  rw [View.read_apply]
  show V c main_v17 _ = V c main_v17 _
  congr 1
  funext a
  apply Fin.ext
  match a with
  | ⟨0, _⟩ => show win5_1.index t (0 : Fin 3) * 1 + 1 * (y 0).val = t.val; have hy : (y 0).val < 1 := (y 0).isLt; omega
  | ⟨1, _⟩ => show win5_1.index t (1 : Fin 3) * 224 + 1 * (y 1).val = (y 1).val; omega
  | ⟨2, _⟩ => show win5_1.index t (2 : Fin 3) * 768 + 1 * (y 2).val = (y 2).val; omega

theorem iblk5_2_eq (c : Dev nD) (t : Fin cfg5.N) : (iblk5 V c 2 t : Vec Ideal S1x768 .f32) = blk5_2 V c := by
  obtain ⟨-, -, -, -, -, -, e0, e1, -⟩ := idx_facts5 t
  funext y
  unfold iblk5 blk5_2
  rw [View.read_apply]
  show V c main_v4 _ = V c main_v4 _
  congr 1
  funext a
  apply Fin.ext
  match a with
  | ⟨0, _⟩ => show win5_2.index t (0 : Fin 2) * 1 + 1 * (y 0).val = (y 0).val; omega
  | ⟨1, _⟩ => show win5_2.index t (1 : Fin 2) * 768 + 1 * (y 1).val = (y 1).val; omega

/-- The result array as ONE function of the three arrays the chunk reads: at batch `b`, row `p`, the value the body
    stores for batch `b`'s blocks, read at row `p`. -/
noncomputable def G5 (c : Dev nD) : S4x1764x768.Idx → EReal :=
  fun i => stored5 (blk5_0 V c (i 0 : Fin 4)) (blk5_1 V c (i 0 : Fin 4)) (blk5_2 V c) (ix3 (0 : Fin 1) (i 1 : Fin 1764) (i 2 : Fin 768))

/-- What point `t` writes back is block `t` of `G5`. -/
theorem flushed5_eq (c : Dev nD) (t : Fin cfg5.N) :
    (dat5 (F := Ideal) V c).flushed 3 t = ((cfg5.win 3).blk t).view.read (Elt Ideal) (G5 V c) := by
  obtain ⟨-, -, -, -, -, -, -, -, e0, e1, e2⟩ := idx_facts5 t
  show (cfg5.win 3).cut (grid5.coords t) ((dat5 (F := Ideal) V c).after 3 t) = _
  rw [after5_3]
  unfold out5_3
  rw [View.canon_unit_zero hzA5]
  simp only [View.ld_unit_zero (S := S1x8x768) hzA5, View.ld_unit_zero (S := S1x224x768) hzA5, View.ld_unit_zero (S := S1x768) hzB5]
  rw [iblk5_0_eq, iblk5_1_eq, iblk5_2_eq]
  funext j
  show stored5 (blk5_0 V c (batch5 t)) (blk5_1 V c (batch5 t)) (blk5_2 V c) j = G5 V c (((cfg5.win 3).blk t).view.emb j)
  have hj0 : (j 0).val < 1 := (j 0).isLt
  have he : ((cfg5.win 3).blk t).view.emb j = (ix3 (batch5 t) (j 1 : Fin 1764) (j 2 : Fin 768) : S4x1764x768.Idx) := by
    funext a
    apply Fin.ext
    match a with
    | ⟨0, _⟩ => show win5_3.index t (0 : Fin 3) * 1 + 1 * (j 0).val = t.val; omega
    | ⟨1, _⟩ => show win5_3.index t (1 : Fin 3) * 1764 + 1 * (j 1).val = (j 1).val; omega
    | ⟨2, _⟩ => show win5_3.index t (2 : Fin 3) * 768 + 1 * (j 2).val = (j 2).val; omega
  rw [he]
  show _ = stored5 (blk5_0 V c (batch5 t)) (blk5_1 V c (batch5 t)) (blk5_2 V c) (ix3 (0 : Fin 1) (j 1 : Fin 1764) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk5 (t : Fin cfg5.N) (i : S4x1764x768.Idx) :
    i ∈ ((cfg5.win 3).blk t).view.set ↔ ∀ a : Fin 3, win5_3.index t a * S1x1764x768.size a ≤ (i a).val ∧ (i a).val < win5_3.index t a * S1x1764x768.size a + S1x1764x768.size a := by
  show i ∈ ((View.whole main_v18).slice (win5_3.rect t)).set ↔ _
  rw [View.set_slice_whole, Rect.mem_set_unit]
  exact Iff.rfl

/-- Batch `b` of the result is written by point `b`. -/
theorem cover5 (i : S4x1764x768.Idx) : ∃ t : Fin cfg5.N, (cfg5.win 3).flush t = true ∧ i ∈ ((cfg5.win 3).blk t).view.set := by
  have hi0 : (i 0).val < 4 := (i 0).isLt
  have hi1 : (i 1).val < 1764 := (i 1).isLt
  have hi2 : (i 2).val < 768 := (i 2).isLt
  let t : Fin cfg5.N := ⟨(i 0).val, lt_of_lt_of_eq hi0 N_5.symm⟩
  obtain ⟨-, -, -, -, -, -, -, -, e0, e1, e2⟩ := idx_facts5 t
  refine ⟨t, flush5_3 t, ?_⟩
  rw [mem_blk5]
  intro a
  match a with
  | ⟨0, _⟩ => show win5_3.index t (0 : Fin 3) * 1 ≤ (i 0).val ∧ (i 0).val < win5_3.index t (0 : Fin 3) * 1 + 1; rw [e0]; show (i 0).val * 1 ≤ (i 0).val ∧ (i 0).val < (i 0).val * 1 + 1; omega
  | ⟨1, _⟩ => show win5_3.index t (1 : Fin 3) * 1764 ≤ (i 1).val ∧ (i 1).val < win5_3.index t (1 : Fin 3) * 1764 + 1764; omega
  | ⟨2, _⟩ => show win5_3.index t (2 : Fin 3) * 768 ≤ (i 2).val ∧ (i 2).val < win5_3.index t (2 : Fin 3) * 768 + 768; omega

/-- The result array after the region is `G5`. -/
theorem arr5_eq (c : Dev nD) : (dat5 (F := Ideal) V c).arrAt 3 cfg5.N = G5 V c :=
  (dat5 (F := Ideal) V c).arrAt_eq_of_cover 3 (G5 V c) (fun t _ => flushed5_eq V c t) cover5

/-- The three arrays the chunk reads, at their literal types (so that their entries add as extended reals). -/
abbrev src5_0 (c : Dev nD) : S4x8x768.Idx → EReal := V c main_v16
abbrev src5_1 (c : Dev nD) : S4x224x768.Idx → EReal := V c main_v17
abbrev src5_2 (c : Dev nD) : S1x768.Idx → EReal := V c main_v4

/-- The result array at batch `b`, row `locOff 224 r + d`: the pair of row `r` of the first slice with row `r + d` of
    the second, at batch `b`. -/
theorem final5 (c : Dev nD) (b : Fin 4) (r : Fin 8) (d : ℕ) (q : Fin 224) (hq : q.val = r.val + d)
    (p : Fin 1764) (hp : p.val = locOff 224 r.val + d) (o : Fin 768) :
    (dat5 (F := Ideal) V c).arrAt 3 cfg5.N (ix3 b p o)
      = Ideal.tanh ((src5_0 V c (ix3 b r o) + src5_1 V c (ix3 b q o)) + src5_2 V c (ix2 0 o)) := by
  rw [arr5_eq]
  show stored5 (blk5_0 V c b) (blk5_1 V c b) (blk5_2 V c) (ix3 0 p o) = _
  rw [pay5_apply _ _ _ r d q hq p hp o]
  rfl

end Cert.KernelIdeal.Val

end
-- ==== Proof.KI.Case5.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT5
import proofs.«116342_j30605936951494_1_alg».proof.Proof.KI.PayLib

/-!
# Chunk 5 of the triangle: the pairs (i, j) with 32 ≤ i < 32 + 8

The chunk's region reads three arrays: its eight rows 32 … 32 + 7 of the first projection, the rows 32 … 255 of the
second, and the bias row, each cut by the host from what boundary 3 holds. Its result, still in place when the last
stretch reads it, holds at local row `locOff 224 r + d` the value of the pair (32 + r, 32 + r + d). In the packed
order the chunk starts at row 7696 = triOff 32 and the pair (i, j) sits at `triOff i + (j - i)`: with `r = i mod 8` and
`d = j - i` that is row 7696 + (locOff 224 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 224 r + d` holds the pair (32 + r, 32 + r + d). -/
theorem chunk5 (c : Dev nD) (b : Fin 4) (r : Fin 8) (d : ℕ) (hd : r.val + d < 224) (p : Fin 1764)
    (hp : p.val = locOff 224 r.val + d) (o : Fin 768) :
    (W66 m ρ c (Proc.devRef .tc main_v18) : Vec Ideal S4x1764x768 .f32) (ix3 b p o)
      = Cert.Tri.pairValue (argX m c) (argW m c) (argB m c) b ⟨32 + r.val, by omega⟩ ⟨32 + r.val + d, by omega⟩ o := by
  have e0 : src5_0 (V11 m ρ) c (ix3 b r o)
      = Cert.Tri.proj1 (argX m c) (argW m c) b ⟨32 + r.val, by omega⟩ o :=
    (host5_rows (W10 m ρ c) b r o ⟨32 + r.val, by omega⟩ rfl).trans
      ((congrFun (W10_main_v2 m ρ c) _).trans (p1_W3 m ρ c b _ o))
  have e1 : src5_1 (V11 m ρ) c (ix3 b (⟨r.val + d, hd⟩ : Fin 224) o)
      = Cert.Tri.proj2 (argX m c) (argW m c) b ⟨32 + r.val + d, by omega⟩ o :=
    (host5_pair (W10 m ρ c) b ⟨r.val + d, hd⟩ o ⟨32 + r.val + d, by omega⟩
        (by show 32 + r.val + d = 32 + (r.val + d); omega)).trans
      ((congrFun (W10_main_v3 m ρ c) _).trans (p2_W3 m ρ c b _ o))
  have e2 : src5_2 (V11 m ρ) c (ix2 0 o) = argB m c (ix1 o) :=
    (congrFun (W11_main_v4 m ρ c) _).trans (bias_W3 m ρ c 0 o)
  calc (W66 m ρ c (Proc.devRef .tc main_v18) : Vec Ideal S4x1764x768 .f32) (ix3 b p o)
      = ((dat5 (F := Ideal) (V11 m ρ) c).arrAt 3 cfg5.N : Vec Ideal S4x1764x768 .f32) (ix3 b p o) :=
        congrFun (out5_final m ρ c) _
    _ = Ideal.tanh ((src5_0 (V11 m ρ) c (ix3 b r o) + src5_1 (V11 m ρ) c (ix3 b (⟨r.val + d, hd⟩ : Fin 224) o))
          + src5_2 (V11 m ρ) c (ix2 0 o)) :=
        final5 (V11 m ρ) c b r d ⟨r.val + d, hd⟩ rfl p hp o
    _ = Cert.Tri.pairValue (argX m c) (argW m c) (argB m c) b ⟨32 + r.val, by omega⟩ ⟨32 + r.val + d, by omega⟩ o := by
        rw [e0, e1, e2]
        rfl

/-- The program's result at the rank of a pair (i, j) of this chunk (`i / 8 = 4`). -/
theorem case5 (c : Dev nD) (b : Fin 4) (i j : Fin 256) (o : Fin 768) (hij : i.val ≤ j.val) (hK : i.val / 8 = 4) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 32 + i.val % 8 = i.val := by omega
  have hj : 32 + i.val % 8 + (j.val - i.val) = j.val := by omega
  have hd : i.val % 8 + (j.val - i.val) < 224 := by have := j.isLt; omega
  have hT : locOff 224 (i.val % 8) + (j.val - i.val) < 1764 := by
    have := locOff_add_lt (L := 224) hr (by norm_num) hd
    omega
  have hrank : Cert.Tri.rank i.val j.val = 7696 + (locOff 224 (i.val % 8) + (j.val - i.val)) := by
    have h0 : Cert.Tri.triOff i.val = Cert.Tri.triOff (32 + i.val % 8) := congrArg Cert.Tri.triOff hi.symm
    have h1 : Cert.Tri.triOff (32 + i.val % 8) = Cert.Tri.triOff 32 + locOff 224 (i.val % 8) :=
      triOff_add_locOff 32 (i.val % 8)
    have h2 : Cert.Tri.triOff 32 = 7696 := triOff_chunk_eq 4 32 7696 (by norm_num) rfl rfl
    unfold Cert.Tri.rank
    omega
  refine (out_piece5 (W66 m ρ c) b _ ⟨_, hT⟩ o hrank).trans ?_
  refine (chunk5 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT6.lean ====
/-
  Chunk 6's stored value, read at an index.

  The body stores one value over its whole result block: the eight pieces `tanh ((p₁ row r + p₂ rows r…) + bias)`,
  `r = 0 … 7`, laid one under the other and given a leading unit axis. With 216 rows of the second product in view,
  piece `r` has `216 - r` rows and starts at row `locOff 216 r`. So the stored value at row `locOff 216 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 6 stores, as a function of the three blocks it loads. -/
abbrev stored6 {F : FTy → Type} [FloatOps F] (x0 : Vec F S1x8x768 .f32) (x1 : Vec F S1x216x768 .f32) (x2 : Vec F S1x768 .f32) :
    Vec F S1x1700x768 .f32 :=
  k6_pay1 (k6_pay2 x0) (k6_pay3 x1) (k6_pay4 x2) (k6_pay5 x0 x1 x2) (k6_pay6 x0 x1 x2) (k6_pay7 x0 x1 x2) (k6_pay8 x0 x1 x2)
    (k6_pay9 x0 x1 x2) (k6_pay10 x0 x1 x2) (k6_pay11 x0 x1)

/-- The stored value at row `locOff 216 r + d` of its block pairs row `r` of the first block with row `r + d` of the
    second. -/
theorem pay6_apply (x0 : Vec Ideal S1x8x768 .f32) (x1 : Vec Ideal S1x216x768 .f32) (x2 : Vec Ideal S1x768 .f32)
    (r : Fin 8) (d : ℕ) (q : Fin 216) (hq : q.val = r.val + d) (p : Fin 1700) (hp : p.val = locOff 216 r.val + d) (o : Fin 768) :
    stored6 x0 x1 x2 (ix3 0 p o) = Ideal.tanh ((x0 (ix3 0 r o) + x1 (ix3 0 q o)) + x2 (ix2 0 o)) := by
  have hql := q.isLt
  unfold stored6 k6_pay1
  refine (shapeCast_ab_1ab_apply _ _ 0 p o).trans ?_
  match r, hq, hp with
  | ⟨0, _⟩, hq, hp =>
    have hq : q.val = 0 + d := hq
    have hp : p.val = locOff 216 0 + d := hp
    have hd : d < 216 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 216 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 216 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 216 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 216 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 216 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 216 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 216 7 + d := hp
    refine (cat8_at7 _ _ _ _ _ _ _ _ _ d (by omega) o p (by simp only [locOff] at hp; omega)).trans ?_
    -- the last piece has 209 rows; a last piece of a single row is stored without broadcasts and has its own lemma
    first
      | have single : (209 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT6.lean ====
/-
  Chunk 6's result array after its region, read at an index.

  The region's grid is the batch: point `t` loads batch `t`'s eight rows of the first product's slice, batch `t`'s 216
  rows of the second product's slice and the bias row, and writes back the whole block `t` of the result. What it
  writes is the body's stored value of those three blocks. So the result array is ONE function of the three arrays it
  reads — at batch `b`, row `p`: the stored value of batch `b`'s blocks at row `p` (`G6`) —, every point writes its
  block of that function (`flushed6_eq`), the four blocks cover the array (`cover6`), hence the array ends as that
  function (`arr6_eq`); and at row `locOff 216 r + d` the stored value is the pair of row `r` with row `r + d`
  (`final6`).
-/
import proofs.«116342_j30605936951494_1_alg».proof.Proof.KI.Reg6
import proofs.«116342_j30605936951494_1_alg».proof.Proof.KI.PayT6
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA6 : (![0, 0, 0] : Fin 3 → Nat) = fun _ => 0 := funext fun a => by fin_cases a <;> rfl
theorem hzB6 : (![0, 0] : Fin 2 → Nat) = fun _ => 0 := funext fun a => by fin_cases a <;> rfl

/-- The grid is the batch: point `t` works on batch `t`. -/
noncomputable def batch6 (t : Fin cfg6.N) : Fin 4 := ⟨t.val, lt_of_lt_of_eq t.isLt N_6⟩

/-- The printed index maps, decided over the four points: the three batched windows sit at block `(t, 0, 0)`, the bias
    row at its one block. -/
theorem idx_facts6 : ∀ t : Fin cfg6.N,
    win6_0.index t (0 : Fin 3) = t.val ∧ win6_0.index t (1 : Fin 3) = 0 ∧ win6_0.index t (2 : Fin 3) = 0
    ∧ win6_1.index t (0 : Fin 3) = t.val ∧ win6_1.index t (1 : Fin 3) = 0 ∧ win6_1.index t (2 : Fin 3) = 0
    ∧ win6_2.index t (0 : Fin 2) = 0 ∧ win6_2.index t (1 : Fin 2) = 0
    ∧ win6_3.index t (0 : Fin 3) = t.val ∧ win6_3.index t (1 : Fin 3) = 0 ∧ win6_3.index t (2 : Fin 3) = 0 :=
  (by decide +kernel : ∀ t : Fin grid6.N, _)

/-- Batch `b`'s eight rows of the first product's slice, as a block. -/
noncomputable def blk6_0 (c : Dev nD) (b : Fin 4) : Vec Ideal S1x8x768 .f32 :=
  fun y => (V c main_v19 : S4x8x768.Idx → EReal) (ix3 b (y 1 : Fin 8) (y 2 : Fin 768))
/-- Batch `b`'s 216 rows of the second product's slice, as a block. -/
noncomputable def blk6_1 (c : Dev nD) (b : Fin 4) : Vec Ideal S1x216x768 .f32 :=
  fun y => (V c main_v20 : S4x216x768.Idx → EReal) (ix3 b (y 1 : Fin 216) (y 2 : Fin 768))
/-- The bias row. -/
noncomputable def blk6_2 (c : Dev nD) : Vec Ideal S1x768 .f32 := fun y => (V c main_v4 : S1x768.Idx → EReal) y

theorem iblk6_0_eq (c : Dev nD) (t : Fin cfg6.N) : (iblk6 V c 0 t : Vec Ideal S1x8x768 .f32) = blk6_0 V c (batch6 t) := by
  obtain ⟨e0, e1, e2, -⟩ := idx_facts6 t
  funext y
  unfold iblk6 blk6_0
  rw [View.read_apply]
  show V c main_v19 _ = V c main_v19 _
  congr 1
  funext a
  apply Fin.ext
  match a with
  | ⟨0, _⟩ => show win6_0.index t (0 : Fin 3) * 1 + 1 * (y 0).val = t.val; have hy : (y 0).val < 1 := (y 0).isLt; omega
  | ⟨1, _⟩ => show win6_0.index t (1 : Fin 3) * 8 + 1 * (y 1).val = (y 1).val; omega
  | ⟨2, _⟩ => show win6_0.index t (2 : Fin 3) * 768 + 1 * (y 2).val = (y 2).val; omega

theorem iblk6_1_eq (c : Dev nD) (t : Fin cfg6.N) : (iblk6 V c 1 t : Vec Ideal S1x216x768 .f32) = blk6_1 V c (batch6 t) := by
  obtain ⟨-, -, -, e0, e1, e2, -⟩ := idx_facts6 t
  funext y
  unfold iblk6 blk6_1
  rw [View.read_apply]
  show V c main_v20 _ = V c main_v20 _
  congr 1
  funext a
  apply Fin.ext
  match a with
  | ⟨0, _⟩ => show win6_1.index t (0 : Fin 3) * 1 + 1 * (y 0).val = t.val; have hy : (y 0).val < 1 := (y 0).isLt; omega
  | ⟨1, _⟩ => show win6_1.index t (1 : Fin 3) * 216 + 1 * (y 1).val = (y 1).val; omega
  | ⟨2, _⟩ => show win6_1.index t (2 : Fin 3) * 768 + 1 * (y 2).val = (y 2).val; omega

theorem iblk6_2_eq (c : Dev nD) (t : Fin cfg6.N) : (iblk6 V c 2 t : Vec Ideal S1x768 .f32) = blk6_2 V c := by
  obtain ⟨-, -, -, -, -, -, e0, e1, -⟩ := idx_facts6 t
  funext y
  unfold iblk6 blk6_2
  rw [View.read_apply]
  show V c main_v4 _ = V c main_v4 _
  congr 1
  funext a
  apply Fin.ext
  match a with
  | ⟨0, _⟩ => show win6_2.index t (0 : Fin 2) * 1 + 1 * (y 0).val = (y 0).val; omega
  | ⟨1, _⟩ => show win6_2.index t (1 : Fin 2) * 768 + 1 * (y 1).val = (y 1).val; omega

/-- The result array as ONE function of the three arrays the chunk reads: at batch `b`, row `p`, the value the body
    stores for batch `b`'s blocks, read at row `p`. -/
noncomputable def G6 (c : Dev nD) : S4x1700x768.Idx → EReal :=
  fun i => stored6 (blk6_0 V c (i 0 : Fin 4)) (blk6_1 V c (i 0 : Fin 4)) (blk6_2 V c) (ix3 (0 : Fin 1) (i 1 : Fin 1700) (i 2 : Fin 768))

/-- What point `t` writes back is block `t` of `G6`. -/
theorem flushed6_eq (c : Dev nD) (t : Fin cfg6.N) :
    (dat6 (F := Ideal) V c).flushed 3 t = ((cfg6.win 3).blk t).view.read (Elt Ideal) (G6 V c) := by
  obtain ⟨-, -, -, -, -, -, -, -, e0, e1, e2⟩ := idx_facts6 t
  show (cfg6.win 3).cut (grid6.coords t) ((dat6 (F := Ideal) V c).after 3 t) = _
  rw [after6_3]
  unfold out6_3
  rw [View.canon_unit_zero hzA6]
  simp only [View.ld_unit_zero (S := S1x8x768) hzA6, View.ld_unit_zero (S := S1x216x768) hzA6, View.ld_unit_zero (S := S1x768) hzB6]
  rw [iblk6_0_eq, iblk6_1_eq, iblk6_2_eq]
  funext j
  show stored6 (blk6_0 V c (batch6 t)) (blk6_1 V c (batch6 t)) (blk6_2 V c) j = G6 V c (((cfg6.win 3).blk t).view.emb j)
  have hj0 : (j 0).val < 1 := (j 0).isLt
  have he : ((cfg6.win 3).blk t).view.emb j = (ix3 (batch6 t) (j 1 : Fin 1700) (j 2 : Fin 768) : S4x1700x768.Idx) := by
    funext a
    apply Fin.ext
    match a with
    | ⟨0, _⟩ => show win6_3.index t (0 : Fin 3) * 1 + 1 * (j 0).val = t.val; omega
    | ⟨1, _⟩ => show win6_3.index t (1 : Fin 3) * 1700 + 1 * (j 1).val = (j 1).val; omega
    | ⟨2, _⟩ => show win6_3.index t (2 : Fin 3) * 768 + 1 * (j 2).val = (j 2).val; omega
  rw [he]
  show _ = stored6 (blk6_0 V c (batch6 t)) (blk6_1 V c (batch6 t)) (blk6_2 V c) (ix3 (0 : Fin 1) (j 1 : Fin 1700) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk6 (t : Fin cfg6.N) (i : S4x1700x768.Idx) :
    i ∈ ((cfg6.win 3).blk t).view.set ↔ ∀ a : Fin 3, win6_3.index t a * S1x1700x768.size a ≤ (i a).val ∧ (i a).val < win6_3.index t a * S1x1700x768.size a + S1x1700x768.size a := by
  show i ∈ ((View.whole main_v21).slice (win6_3.rect t)).set ↔ _
  rw [View.set_slice_whole, Rect.mem_set_unit]
  exact Iff.rfl

/-- Batch `b` of the result is written by point `b`. -/
theorem cover6 (i : S4x1700x768.Idx) : ∃ t : Fin cfg6.N, (cfg6.win 3).flush t = true ∧ i ∈ ((cfg6.win 3).blk t).view.set := by
  have hi0 : (i 0).val < 4 := (i 0).isLt
  have hi1 : (i 1).val < 1700 := (i 1).isLt
  have hi2 : (i 2).val < 768 := (i 2).isLt
  let t : Fin cfg6.N := ⟨(i 0).val, lt_of_lt_of_eq hi0 N_6.symm⟩
  obtain ⟨-, -, -, -, -, -, -, -, e0, e1, e2⟩ := idx_facts6 t
  refine ⟨t, flush6_3 t, ?_⟩
  rw [mem_blk6]
  intro a
  match a with
  | ⟨0, _⟩ => show win6_3.index t (0 : Fin 3) * 1 ≤ (i 0).val ∧ (i 0).val < win6_3.index t (0 : Fin 3) * 1 + 1; rw [e0]; show (i 0).val * 1 ≤ (i 0).val ∧ (i 0).val < (i 0).val * 1 + 1; omega
  | ⟨1, _⟩ => show win6_3.index t (1 : Fin 3) * 1700 ≤ (i 1).val ∧ (i 1).val < win6_3.index t (1 : Fin 3) * 1700 + 1700; omega
  | ⟨2, _⟩ => show win6_3.index t (2 : Fin 3) * 768 ≤ (i 2).val ∧ (i 2).val < win6_3.index t (2 : Fin 3) * 768 + 768; omega

/-- The result array after the region is `G6`. -/
theorem arr6_eq (c : Dev nD) : (dat6 (F := Ideal) V c).arrAt 3 cfg6.N = G6 V c :=
  (dat6 (F := Ideal) V c).arrAt_eq_of_cover 3 (G6 V c) (fun t _ => flushed6_eq V c t) cover6

/-- The three arrays the chunk reads, at their literal types (so that their entries add as extended reals). -/
abbrev src6_0 (c : Dev nD) : S4x8x768.Idx → EReal := V c main_v19
abbrev src6_1 (c : Dev nD) : S4x216x768.Idx → EReal := V c main_v20
abbrev src6_2 (c : Dev nD) : S1x768.Idx → EReal := V c main_v4

/-- The result array at batch `b`, row `locOff 216 r + d`: the pair of row `r` of the first slice with row `r + d` of
    the second, at batch `b`. -/
theorem final6 (c : Dev nD) (b : Fin 4) (r : Fin 8) (d : ℕ) (q : Fin 216) (hq : q.val = r.val + d)
    (p : Fin 1700) (hp : p.val = locOff 216 r.val + d) (o : Fin 768) :
    (dat6 (F := Ideal) V c).arrAt 3 cfg6.N (ix3 b p o)
      = Ideal.tanh ((src6_0 V c (ix3 b r o) + src6_1 V c (ix3 b q o)) + src6_2 V c (ix2 0 o)) := by
  rw [arr6_eq]
  show stored6 (blk6_0 V c b) (blk6_1 V c b) (blk6_2 V c) (ix3 0 p o) = _
  rw [pay6_apply _ _ _ r d q hq p hp o]
  rfl

end Cert.KernelIdeal.Val

end
-- ==== Proof.KI.Case6.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT6
import proofs.«116342_j30605936951494_1_alg».proof.Proof.KI.PayLib

/-!
# Chunk 6 of the triangle: the pairs (i, j) with 40 ≤ i < 40 + 8

The chunk's region reads three arrays: its eight rows 40 … 40 + 7 of the first projection, the rows 40 … 255 of the
second, and the bias row, each cut by the host from what boundary 3 holds. Its result, still in place when the last
stretch reads it, holds at local row `locOff 216 r + d` the value of the pair (40 + r, 40 + r + d). In the packed
order the chunk starts at row 9460 = triOff 40 and the pair (i, j) sits at `triOff i + (j - i)`: with `r = i mod 8` and
`d = j - i` that is row 9460 + (locOff 216 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 216 r + d` holds the pair (40 + r, 40 + r + d). -/
theorem chunk6 (c : Dev nD) (b : Fin 4) (r : Fin 8) (d : ℕ) (hd : r.val + d < 216) (p : Fin 1700)
    (hp : p.val = locOff 216 r.val + d) (o : Fin 768) :
    (W66 m ρ c (Proc.devRef .tc main_v21) : Vec Ideal S4x1700x768 .f32) (ix3 b p o)
      = Cert.Tri.pairValue (argX m c) (argW m c) (argB m c) b ⟨40 + r.val, by omega⟩ ⟨40 + r.val + d, by omega⟩ o := by
  have e0 : src6_0 (V13 m ρ) c (ix3 b r o)
      = Cert.Tri.proj1 (argX m c) (argW m c) b ⟨40 + r.val, by omega⟩ o :=
    (host6_rows (W12 m ρ c) b r o ⟨40 + r.val, by omega⟩ rfl).trans
      ((congrFun (W12_main_v2 m ρ c) _).trans (p1_W3 m ρ c b _ o))
  have e1 : src6_1 (V13 m ρ) c (ix3 b (⟨r.val + d, hd⟩ : Fin 216) o)
      = Cert.Tri.proj2 (argX m c) (argW m c) b ⟨40 + r.val + d, by omega⟩ o :=
    (host6_pair (W12 m ρ c) b ⟨r.val + d, hd⟩ o ⟨40 + r.val + d, by omega⟩
        (by show 40 + r.val + d = 40 + (r.val + d); omega)).trans
      ((congrFun (W12_main_v3 m ρ c) _).trans (p2_W3 m ρ c b _ o))
  have e2 : src6_2 (V13 m ρ) c (ix2 0 o) = argB m c (ix1 o) :=
    (congrFun (W13_main_v4 m ρ c) _).trans (bias_W3 m ρ c 0 o)
  calc (W66 m ρ c (Proc.devRef .tc main_v21) : Vec Ideal S4x1700x768 .f32) (ix3 b p o)
      = ((dat6 (F := Ideal) (V13 m ρ) c).arrAt 3 cfg6.N : Vec Ideal S4x1700x768 .f32) (ix3 b p o) :=
        congrFun (out6_final m ρ c) _
    _ = Ideal.tanh ((src6_0 (V13 m ρ) c (ix3 b r o) + src6_1 (V13 m ρ) c (ix3 b (⟨r.val + d, hd⟩ : Fin 216) o))
          + src6_2 (V13 m ρ) c (ix2 0 o)) :=
        final6 (V13 m ρ) c b r d ⟨r.val + d, hd⟩ rfl p hp o
    _ = Cert.Tri.pairValue (argX m c) (argW m c) (argB m c) b ⟨40 + r.val, by omega⟩ ⟨40 + r.val + d, by omega⟩ o := by
        rw [e0, e1, e2]
        rfl

/-- The program's result at the rank of a pair (i, j) of this chunk (`i / 8 = 5`). -/
theorem case6 (c : Dev nD) (b : Fin 4) (i j : Fin 256) (o : Fin 768) (hij : i.val ≤ j.val) (hK : i.val / 8 = 5) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 40 + i.val % 8 = i.val := by omega
  have hj : 40 + i.val % 8 + (j.val - i.val) = j.val := by omega
  have hd : i.val % 8 + (j.val - i.val) < 216 := by have := j.isLt; omega
  have hT : locOff 216 (i.val % 8) + (j.val - i.val) < 1700 := by
    have := locOff_add_lt (L := 216) hr (by norm_num) hd
    omega
  have hrank : Cert.Tri.rank i.val j.val = 9460 + (locOff 216 (i.val % 8) + (j.val - i.val)) := by
    have h0 : Cert.Tri.triOff i.val = Cert.Tri.triOff (40 + i.val % 8) := congrArg Cert.Tri.triOff hi.symm
    have h1 : Cert.Tri.triOff (40 + i.val % 8) = Cert.Tri.triOff 40 + locOff 216 (i.val % 8) :=
      triOff_add_locOff 40 (i.val % 8)
    have h2 : Cert.Tri.triOff 40 = 9460 := triOff_chunk_eq 5 40 9460 (by norm_num) rfl rfl
    unfold Cert.Tri.rank
    omega
  refine (out_piece6 (W66 m ρ c) b _ ⟨_, hT⟩ o hrank).trans ?_
  refine (chunk6 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT7.lean ====
/-
  Chunk 7's stored value, read at an index.

  The body stores one value over its whole result block: the eight pieces `tanh ((p₁ row r + p₂ rows r…) + bias)`,
  `r = 0 … 7`, laid one under the other and given a leading unit axis. With 208 rows of the second product in view,
  piece `r` has `208 - r` rows and starts at row `locOff 208 r`. So the stored value at row `locOff 208 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 7 stores, as a function of the three blocks it loads. -/
abbrev stored7 {F : FTy → Type} [FloatOps F] (x0 : Vec F S1x8x768 .f32) (x1 : Vec F S1x208x768 .f32) (x2 : Vec F S1x768 .f32) :
    Vec F S1x1636x768 .f32 :=
  k7_pay1 (k7_pay2 x0) (k7_pay3 x1) (k7_pay4 x2) (k7_pay5 x0 x1 x2) (k7_pay6 x0 x1 x2) (k7_pay7 x0 x1 x2) (k7_pay8 x0 x1 x2)
    (k7_pay9 x0 x1 x2) (k7_pay10 x0 x1 x2) (k7_pay11 x0 x1)

/-- The stored value at row `locOff 208 r + d` of its block pairs row `r` of the first block with row `r + d` of the
    second. -/
theorem pay7_apply (x0 : Vec Ideal S1x8x768 .f32) (x1 : Vec Ideal S1x208x768 .f32) (x2 : Vec Ideal S1x768 .f32)
    (r : Fin 8) (d : ℕ) (q : Fin 208) (hq : q.val = r.val + d) (p : Fin 1636) (hp : p.val = locOff 208 r.val + d) (o : Fin 768) :
    stored7 x0 x1 x2 (ix3 0 p o) = Ideal.tanh ((x0 (ix3 0 r o) + x1 (ix3 0 q o)) + x2 (ix2 0 o)) := by
  have hql := q.isLt
  unfold stored7 k7_pay1
  refine (shapeCast_ab_1ab_apply _ _ 0 p o).trans ?_
  match r, hq, hp with
  | ⟨0, _⟩, hq, hp =>
    have hq : q.val = 0 + d := hq
    have hp : p.val = locOff 208 0 + d := hp
    have hd : d < 208 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 208 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 208 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 208 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 208 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 208 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 208 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 208 7 + d := hp
    refine (cat8_at7 _ _ _ _ _ _ _ _ _ d (by omega) o p (by simp only [locOff] at hp; omega)).trans ?_
    -- the last piece has 201 rows; a last piece of a single row is stored without broadcasts and has its own lemma
    first
      | have single : (201 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT7.lean ====
/-
  Chunk 7's result array after its region, read at an index.

  The region's grid is the batch: point `t` loads batch `t`'s eight rows of the first product's slice, batch `t`'s 208
  rows of the second product's slice and the bias row, and writes back the whole block `t` of the result. What it
  writes is the body's stored value of those three blocks. So the result array is ONE function of the three arrays it
  reads — at batch `b`, row `p`: the stored value of batch `b`'s blocks at row `p` (`G7`) —, every point writes its
  block of that function (`flushed7_eq`), the four blocks cover the array (`cover7`), hence the array ends as that
  function (`arr7_eq`); and at row `locOff 208 r + d` the stored value is the pair of row `r` with row `r + d`
  (`final7`).
-/
import proofs.«116342_j30605936951494_1_alg».proof.Proof.KI.Reg7
import proofs.«116342_j30605936951494_1_alg».proof.Proof.KI.PayT7
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA7 : (![0, 0, 0] : Fin 3 → Nat) = fun _ => 0 := funext fun a => by fin_cases a <;> rfl
theorem hzB7 : (![0, 0] : Fin 2 → Nat) = fun _ => 0 := funext fun a => by fin_cases a <;> rfl

/-- The grid is the batch: point `t` works on batch `t`. -/
noncomputable def batch7 (t : Fin cfg7.N) : Fin 4 := ⟨t.val, lt_of_lt_of_eq t.isLt N_7⟩

/-- The printed index maps, decided over the four points: the three batched windows sit at block `(t, 0, 0)`, the bias
    row at its one block. -/
theorem idx_facts7 : ∀ t : Fin cfg7.N,
    win7_0.index t (0 : Fin 3) = t.val ∧ win7_0.index t (1 : Fin 3) = 0 ∧ win7_0.index t (2 : Fin 3) = 0
    ∧ win7_1.index t (0 : Fin 3) = t.val ∧ win7_1.index t (1 : Fin 3) = 0 ∧ win7_1.index t (2 : Fin 3) = 0
    ∧ win7_2.index t (0 : Fin 2) = 0 ∧ win7_2.index t (1 : Fin 2) = 0
    ∧ win7_3.index t (0 : Fin 3) = t.val ∧ win7_3.index t (1 : Fin 3) = 0 ∧ win7_3.index t (2 : Fin 3) = 0 :=
  (by decide +kernel : ∀ t : Fin grid7.N, _)

/-- Batch `b`'s eight rows of the first product's slice, as a block. -/
noncomputable def blk7_0 (c : Dev nD) (b : Fin 4) : Vec Ideal S1x8x768 .f32 :=
  fun y => (V c main_v22 : S4x8x768.Idx → EReal) (ix3 b (y 1 : Fin 8) (y 2 : Fin 768))
/-- Batch `b`'s 208 rows of the second product's slice, as a block. -/
noncomputable def blk7_1 (c : Dev nD) (b : Fin 4) : Vec Ideal S1x208x768 .f32 :=
  fun y => (V c main_v23 : S4x208x768.Idx → EReal) (ix3 b (y 1 : Fin 208) (y 2 : Fin 768))
/-- The bias row. -/
noncomputable def blk7_2 (c : Dev nD) : Vec Ideal S1x768 .f32 := fun y => (V c main_v4 : S1x768.Idx → EReal) y

theorem iblk7_0_eq (c : Dev nD) (t : Fin cfg7.N) : (iblk7 V c 0 t : Vec Ideal S1x8x768 .f32) = blk7_0 V c (batch7 t) := by
  obtain ⟨e0, e1, e2, -⟩ := idx_facts7 t
  funext y
  unfold iblk7 blk7_0
  rw [View.read_apply]
  show V c main_v22 _ = V c main_v22 _
  congr 1
  funext a
  apply Fin.ext
  match a with
  | ⟨0, _⟩ => show win7_0.index t (0 : Fin 3) * 1 + 1 * (y 0).val = t.val; have hy : (y 0).val < 1 := (y 0).isLt; omega
  | ⟨1, _⟩ => show win7_0.index t (1 : Fin 3) * 8 + 1 * (y 1).val = (y 1).val; omega
  | ⟨2, _⟩ => show win7_0.index t (2 : Fin 3) * 768 + 1 * (y 2).val = (y 2).val; omega

theorem iblk7_1_eq (c : Dev nD) (t : Fin cfg7.N) : (iblk7 V c 1 t : Vec Ideal S1x208x768 .f32) = blk7_1 V c (batch7 t) := by
  obtain ⟨-, -, -, e0, e1, e2, -⟩ := idx_facts7 t
  funext y
  unfold iblk7 blk7_1
  rw [View.read_apply]
  show V c main_v23 _ = V c main_v23 _
  congr 1
  funext a
  apply Fin.ext
  match a with
  | ⟨0, _⟩ => show win7_1.index t (0 : Fin 3) * 1 + 1 * (y 0).val = t.val; have hy : (y 0).val < 1 := (y 0).isLt; omega
  | ⟨1, _⟩ => show win7_1.index t (1 : Fin 3) * 208 + 1 * (y 1).val = (y 1).val; omega
  | ⟨2, _⟩ => show win7_1.index t (2 : Fin 3) * 768 + 1 * (y 2).val = (y 2).val; omega

theorem iblk7_2_eq (c : Dev nD) (t : Fin cfg7.N) : (iblk7 V c 2 t : Vec Ideal S1x768 .f32) = blk7_2 V c := by
  obtain ⟨-, -, -, -, -, -, e0, e1, -⟩ := idx_facts7 t
  funext y
  unfold iblk7 blk7_2
  rw [View.read_apply]
  show V c main_v4 _ = V c main_v4 _
  congr 1
  funext a
  apply Fin.ext
  match a with
  | ⟨0, _⟩ => show win7_2.index t (0 : Fin 2) * 1 + 1 * (y 0).val = (y 0).val; omega
  | ⟨1, _⟩ => show win7_2.index t (1 : Fin 2) * 768 + 1 * (y 1).val = (y 1).val; omega

/-- The result array as ONE function of the three arrays the chunk reads: at batch `b`, row `p`, the value the body
    stores for batch `b`'s blocks, read at row `p`. -/
noncomputable def G7 (c : Dev nD) : S4x1636x768.Idx → EReal :=
  fun i => stored7 (blk7_0 V c (i 0 : Fin 4)) (blk7_1 V c (i 0 : Fin 4)) (blk7_2 V c) (ix3 (0 : Fin 1) (i 1 : Fin 1636) (i 2 : Fin 768))

/-- What point `t` writes back is block `t` of `G7`. -/
theorem flushed7_eq (c : Dev nD) (t : Fin cfg7.N) :
    (dat7 (F := Ideal) V c).flushed 3 t = ((cfg7.win 3).blk t).view.read (Elt Ideal) (G7 V c) := by
  obtain ⟨-, -, -, -, -, -, -, -, e0, e1, e2⟩ := idx_facts7 t
  show (cfg7.win 3).cut (grid7.coords t) ((dat7 (F := Ideal) V c).after 3 t) = _
  rw [after7_3]
  unfold out7_3
  rw [View.canon_unit_zero hzA7]
  simp only [View.ld_unit_zero (S := S1x8x768) hzA7, View.ld_unit_zero (S := S1x208x768) hzA7, View.ld_unit_zero (S := S1x768) hzB7]
  rw [iblk7_0_eq, iblk7_1_eq, iblk7_2_eq]
  funext j
  show stored7 (blk7_0 V c (batch7 t)) (blk7_1 V c (batch7 t)) (blk7_2 V c) j = G7 V c (((cfg7.win 3).blk t).view.emb j)
  have hj0 : (j 0).val < 1 := (j 0).isLt
  have he : ((cfg7.win 3).blk t).view.emb j = (ix3 (batch7 t) (j 1 : Fin 1636) (j 2 : Fin 768) : S4x1636x768.Idx) := by
    funext a
    apply Fin.ext
    match a with
    | ⟨0, _⟩ => show win7_3.index t (0 : Fin 3) * 1 + 1 * (j 0).val = t.val; omega
    | ⟨1, _⟩ => show win7_3.index t (1 : Fin 3) * 1636 + 1 * (j 1).val = (j 1).val; omega
    | ⟨2, _⟩ => show win7_3.index t (2 : Fin 3) * 768 + 1 * (j 2).val = (j 2).val; omega
  rw [he]
  show _ = stored7 (blk7_0 V c (batch7 t)) (blk7_1 V c (batch7 t)) (blk7_2 V c) (ix3 (0 : Fin 1) (j 1 : Fin 1636) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk7 (t : Fin cfg7.N) (i : S4x1636x768.Idx) :
    i ∈ ((cfg7.win 3).blk t).view.set ↔ ∀ a : Fin 3, win7_3.index t a * S1x1636x768.size a ≤ (i a).val ∧ (i a).val < win7_3.index t a * S1x1636x768.size a + S1x1636x768.size a := by
  show i ∈ ((View.whole main_v24).slice (win7_3.rect t)).set ↔ _
  rw [View.set_slice_whole, Rect.mem_set_unit]
  exact Iff.rfl

/-- Batch `b` of the result is written by point `b`. -/
theorem cover7 (i : S4x1636x768.Idx) : ∃ t : Fin cfg7.N, (cfg7.win 3).flush t = true ∧ i ∈ ((cfg7.win 3).blk t).view.set := by
  have hi0 : (i 0).val < 4 := (i 0).isLt
  have hi1 : (i 1).val < 1636 := (i 1).isLt
  have hi2 : (i 2).val < 768 := (i 2).isLt
  let t : Fin cfg7.N := ⟨(i 0).val, lt_of_lt_of_eq hi0 N_7.symm⟩
  obtain ⟨-, -, -, -, -, -, -, -, e0, e1, e2⟩ := idx_facts7 t
  refine ⟨t, flush7_3 t, ?_⟩
  rw [mem_blk7]
  intro a
  match a with
  | ⟨0, _⟩ => show win7_3.index t (0 : Fin 3) * 1 ≤ (i 0).val ∧ (i 0).val < win7_3.index t (0 : Fin 3) * 1 + 1; rw [e0]; show (i 0).val * 1 ≤ (i 0).val ∧ (i 0).val < (i 0).val * 1 + 1; omega
  | ⟨1, _⟩ => show win7_3.index t (1 : Fin 3) * 1636 ≤ (i 1).val ∧ (i 1).val < win7_3.index t (1 : Fin 3) * 1636 + 1636; omega
  | ⟨2, _⟩ => show win7_3.index t (2 : Fin 3) * 768 ≤ (i 2).val ∧ (i 2).val < win7_3.index t (2 : Fin 3) * 768 + 768; omega

/-- The result array after the region is `G7`. -/
theorem arr7_eq (c : Dev nD) : (dat7 (F := Ideal) V c).arrAt 3 cfg7.N = G7 V c :=
  (dat7 (F := Ideal) V c).arrAt_eq_of_cover 3 (G7 V c) (fun t _ => flushed7_eq V c t) cover7

/-- The three arrays the chunk reads, at their literal types (so that their entries add as extended reals). -/
abbrev src7_0 (c : Dev nD) : S4x8x768.Idx → EReal := V c main_v22
abbrev src7_1 (c : Dev nD) : S4x208x768.Idx → EReal := V c main_v23
abbrev src7_2 (c : Dev nD) : S1x768.Idx → EReal := V c main_v4

/-- The result array at batch `b`, row `locOff 208 r + d`: the pair of row `r` of the first slice with row `r + d` of
    the second, at batch `b`. -/
theorem final7 (c : Dev nD) (b : Fin 4) (r : Fin 8) (d : ℕ) (q : Fin 208) (hq : q.val = r.val + d)
    (p : Fin 1636) (hp : p.val = locOff 208 r.val + d) (o : Fin 768) :
    (dat7 (F := Ideal) V c).arrAt 3 cfg7.N (ix3 b p o)
      = Ideal.tanh ((src7_0 V c (ix3 b r o) + src7_1 V c (ix3 b q o)) + src7_2 V c (ix2 0 o)) := by
  rw [arr7_eq]
  show stored7 (blk7_0 V c b) (blk7_1 V c b) (blk7_2 V c) (ix3 0 p o) = _
  rw [pay7_apply _ _ _ r d q hq p hp o]
  rfl

end Cert.KernelIdeal.Val

end
-- ==== Proof.KI.Case7.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT7
import proofs.«116342_j30605936951494_1_alg».proof.Proof.KI.PayLib

/-!
# Chunk 7 of the triangle: the pairs (i, j) with 48 ≤ i < 48 + 8

The chunk's region reads three arrays: its eight rows 48 … 48 + 7 of the first projection, the rows 48 … 255 of the
second, and the bias row, each cut by the host from what boundary 3 holds. Its result, still in place when the last
stretch reads it, holds at local row `locOff 208 r + d` the value of the pair (48 + r, 48 + r + d). In the packed
order the chunk starts at row 11160 = triOff 48 and the pair (i, j) sits at `triOff i + (j - i)`: with `r = i mod 8` and
`d = j - i` that is row 11160 + (locOff 208 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 208 r + d` holds the pair (48 + r, 48 + r + d). -/
theorem chunk7 (c : Dev nD) (b : Fin 4) (r : Fin 8) (d : ℕ) (hd : r.val + d < 208) (p : Fin 1636)
    (hp : p.val = locOff 208 r.val + d) (o : Fin 768) :
    (W66 m ρ c (Proc.devRef .tc main_v24) : Vec Ideal S4x1636x768 .f32) (ix3 b p o)
      = Cert.Tri.pairValue (argX m c) (argW m c) (argB m c) b ⟨48 + r.val, by omega⟩ ⟨48 + r.val + d, by omega⟩ o := by
  have e0 : src7_0 (V15 m ρ) c (ix3 b r o)
      = Cert.Tri.proj1 (argX m c) (argW m c) b ⟨48 + r.val, by omega⟩ o :=
    (host7_rows (W14 m ρ c) b r o ⟨48 + r.val, by omega⟩ rfl).trans
      ((congrFun (W14_main_v2 m ρ c) _).trans (p1_W3 m ρ c b _ o))
  have e1 : src7_1 (V15 m ρ) c (ix3 b (⟨r.val + d, hd⟩ : Fin 208) o)
      = Cert.Tri.proj2 (argX m c) (argW m c) b ⟨48 + r.val + d, by omega⟩ o :=
    (host7_pair (W14 m ρ c) b ⟨r.val + d, hd⟩ o ⟨48 + r.val + d, by omega⟩
        (by show 48 + r.val + d = 48 + (r.val + d); omega)).trans
      ((congrFun (W14_main_v3 m ρ c) _).trans (p2_W3 m ρ c b _ o))
  have e2 : src7_2 (V15 m ρ) c (ix2 0 o) = argB m c (ix1 o) :=
    (congrFun (W15_main_v4 m ρ c) _).trans (bias_W3 m ρ c 0 o)
  calc (W66 m ρ c (Proc.devRef .tc main_v24) : Vec Ideal S4x1636x768 .f32) (ix3 b p o)
      = ((dat7 (F := Ideal) (V15 m ρ) c).arrAt 3 cfg7.N : Vec Ideal S4x1636x768 .f32) (ix3 b p o) :=
        congrFun (out7_final m ρ c) _
    _ = Ideal.tanh ((src7_0 (V15 m ρ) c (ix3 b r o) + src7_1 (V15 m ρ) c (ix3 b (⟨r.val + d, hd⟩ : Fin 208) o))
          + src7_2 (V15 m ρ) c (ix2 0 o)) :=
        final7 (V15 m ρ) c b r d ⟨r.val + d, hd⟩ rfl p hp o
    _ = Cert.Tri.pairValue (argX m c) (argW m c) (argB m c) b ⟨48 + r.val, by omega⟩ ⟨48 + r.val + d, by omega⟩ o := by
        rw [e0, e1, e2]
        rfl

/-- The program's result at the rank of a pair (i, j) of this chunk (`i / 8 = 6`). -/
theorem case7 (c : Dev nD) (b : Fin 4) (i j : Fin 256) (o : Fin 768) (hij : i.val ≤ j.val) (hK : i.val / 8 = 6) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 48 + i.val % 8 = i.val := by omega
  have hj : 48 + i.val % 8 + (j.val - i.val) = j.val := by omega
  have hd : i.val % 8 + (j.val - i.val) < 208 := by have := j.isLt; omega
  have hT : locOff 208 (i.val % 8) + (j.val - i.val) < 1636 := by
    have := locOff_add_lt (L := 208) hr (by norm_num) hd
    omega
  have hrank : Cert.Tri.rank i.val j.val = 11160 + (locOff 208 (i.val % 8) + (j.val - i.val)) := by
    have h0 : Cert.Tri.triOff i.val = Cert.Tri.triOff (48 + i.val % 8) := congrArg Cert.Tri.triOff hi.symm
    have h1 : Cert.Tri.triOff (48 + i.val % 8) = Cert.Tri.triOff 48 + locOff 208 (i.val % 8) :=
      triOff_add_locOff 48 (i.val % 8)
    have h2 : Cert.Tri.triOff 48 = 11160 := triOff_chunk_eq 6 48 11160 (by norm_num) rfl rfl
    unfold Cert.Tri.rank
    omega
  refine (out_piece7 (W66 m ρ c) b _ ⟨_, hT⟩ o hrank).trans ?_
  refine (chunk7 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT8.lean ====
/-
  Chunk 8's stored value, read at an index.

  The body stores one value over its whole result block: the eight pieces `tanh ((p₁ row r + p₂ rows r…) + bias)`,
  `r = 0 … 7`, laid one under the other and given a leading unit axis. With 200 rows of the second product in view,
  piece `r` has `200 - r` rows and starts at row `locOff 200 r`. So the stored value at row `locOff 200 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 8 stores, as a function of the three blocks it loads. -/
abbrev stored8 {F : FTy → Type} [FloatOps F] (x0 : Vec F S1x8x768 .f32) (x1 : Vec F S1x200x768 .f32) (x2 : Vec F S1x768 .f32) :
    Vec F S1x1572x768 .f32 :=
  k8_pay1 (k8_pay2 x0) (k8_pay3 x1) (k8_pay4 x2) (k8_pay5 x0 x1 x2) (k8_pay6 x0 x1 x2) (k8_pay7 x0 x1 x2) (k8_pay8 x0 x1 x2)
    (k8_pay9 x0 x1 x2) (k8_pay10 x0 x1 x2) (k8_pay11 x0 x1)

/-- The stored value at row `locOff 200 r + d` of its block pairs row `r` of the first block with row `r + d` of the
    second. -/
theorem pay8_apply (x0 : Vec Ideal S1x8x768 .f32) (x1 : Vec Ideal S1x200x768 .f32) (x2 : Vec Ideal S1x768 .f32)
    (r : Fin 8) (d : ℕ) (q : Fin 200) (hq : q.val = r.val + d) (p : Fin 1572) (hp : p.val = locOff 200 r.val + d) (o : Fin 768) :
    stored8 x0 x1 x2 (ix3 0 p o) = Ideal.tanh ((x0 (ix3 0 r o) + x1 (ix3 0 q o)) + x2 (ix2 0 o)) := by
  have hql := q.isLt
  unfold stored8 k8_pay1
  refine (shapeCast_ab_1ab_apply _ _ 0 p o).trans ?_
  match r, hq, hp with
  | ⟨0, _⟩, hq, hp =>
    have hq : q.val = 0 + d := hq
    have hp : p.val = locOff 200 0 + d := hp
    have hd : d < 200 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 200 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 200 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 200 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 200 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 200 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 200 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 200 7 + d := hp
    refine (cat8_at7 _ _ _ _ _ _ _ _ _ d (by omega) o p (by simp only [locOff] at hp; omega)).trans ?_
    -- the last piece has 193 rows; a last piece of a single row is stored without broadcasts and has its own lemma
    first
      | have single : (193 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT8.lean ====
/-
  Chunk 8's result array after its region, read at an index.

  The region's grid is the batch: point `t` loads batch `t`'s eight rows of the first product's slice, batch `t`'s 200
  rows of the second product's slice and the bias row, and writes back the whole block `t` of the result. What it
  writes is the body's stored value of those three blocks. So the result array is ONE function of the three arrays it
  reads — at batch `b`, row `p`: the stored value of batch `b`'s blocks at row `p` (`G8`) —, every point writes its
  block of that function (`flushed8_eq`), the four blocks cover the array (`cover8`), hence the array ends as that
  function (`arr8_eq`); and at row `locOff 200 r + d` the stored value is the pair of row `r` with row `r + d`
  (`final8`).
-/
import proofs.«116342_j30605936951494_1_alg».proof.Proof.KI.Reg8
import proofs.«116342_j30605936951494_1_alg».proof.Proof.KI.PayT8
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA8 : (![0, 0, 0] : Fin 3 → Nat) = fun _ => 0 := funext fun a => by fin_cases a <;> rfl
theorem hzB8 : (![0, 0] : Fin 2 → Nat) = fun _ => 0 := funext fun a => by fin_cases a <;> rfl

/-- The grid is the batch: point `t` works on batch `t`. -/
noncomputable def batch8 (t : Fin cfg8.N) : Fin 4 := ⟨t.val, lt_of_lt_of_eq t.isLt N_8⟩

/-- The printed index maps, decided over the four points: the three batched windows sit at block `(t, 0, 0)`, the bias
    row at its one block. -/
theorem idx_facts8 : ∀ t : Fin cfg8.N,
    win8_0.index t (0 : Fin 3) = t.val ∧ win8_0.index t (1 : Fin 3) = 0 ∧ win8_0.index t (2 : Fin 3) = 0
    ∧ win8_1.index t (0 : Fin 3) = t.val ∧ win8_1.index t (1 : Fin 3) = 0 ∧ win8_1.index t (2 : Fin 3) = 0
    ∧ win8_2.index t (0 : Fin 2) = 0 ∧ win8_2.index t (1 : Fin 2) = 0
    ∧ win8_3.index t (0 : Fin 3) = t.val ∧ win8_3.index t (1 : Fin 3) = 0 ∧ win8_3.index t (2 : Fin 3) = 0 :=
  (by decide +kernel : ∀ t : Fin grid8.N, _)

/-- Batch `b`'s eight rows of the first product's slice, as a block. -/
noncomputable def blk8_0 (c : Dev nD) (b : Fin 4) : Vec Ideal S1x8x768 .f32 :=
  fun y => (V c main_v25 : S4x8x768.Idx → EReal) (ix3 b (y 1 : Fin 8) (y 2 : Fin 768))
/-- Batch `b`'s 200 rows of the second product's slice, as a block. -/
noncomputable def blk8_1 (c : Dev nD) (b : Fin 4) : Vec Ideal S1x200x768 .f32 :=
  fun y => (V c main_v26 : S4x200x768.Idx → EReal) (ix3 b (y 1 : Fin 200) (y 2 : Fin 768))
/-- The bias row. -/
noncomputable def blk8_2 (c : Dev nD) : Vec Ideal S1x768 .f32 := fun y => (V c main_v4 : S1x768.Idx → EReal) y

theorem iblk8_0_eq (c : Dev nD) (t : Fin cfg8.N) : (iblk8 V c 0 t : Vec Ideal S1x8x768 .f32) = blk8_0 V c (batch8 t) := by
  obtain ⟨e0, e1, e2, -⟩ := idx_facts8 t
  funext y
  unfold iblk8 blk8_0
  rw [View.read_apply]
  show V c main_v25 _ = V c main_v25 _
  congr 1
  funext a
  apply Fin.ext
  match a with
  | ⟨0, _⟩ => show win8_0.index t (0 : Fin 3) * 1 + 1 * (y 0).val = t.val; have hy : (y 0).val < 1 := (y 0).isLt; omega
  | ⟨1, _⟩ => show win8_0.index t (1 : Fin 3) * 8 + 1 * (y 1).val = (y 1).val; omega
  | ⟨2, _⟩ => show win8_0.index t (2 : Fin 3) * 768 + 1 * (y 2).val = (y 2).val; omega

theorem iblk8_1_eq (c : Dev nD) (t : Fin cfg8.N) : (iblk8 V c 1 t : Vec Ideal S1x200x768 .f32) = blk8_1 V c (batch8 t) := by
  obtain ⟨-, -, -, e0, e1, e2, -⟩ := idx_facts8 t
  funext y
  unfold iblk8 blk8_1
  rw [View.read_apply]
  show V c main_v26 _ = V c main_v26 _
  congr 1
  funext a
  apply Fin.ext
  match a with
  | ⟨0, _⟩ => show win8_1.index t (0 : Fin 3) * 1 + 1 * (y 0).val = t.val; have hy : (y 0).val < 1 := (y 0).isLt; omega
  | ⟨1, _⟩ => show win8_1.index t (1 : Fin 3) * 200 + 1 * (y 1).val = (y 1).val; omega
  | ⟨2, _⟩ => show win8_1.index t (2 : Fin 3) * 768 + 1 * (y 2).val = (y 2).val; omega

theorem iblk8_2_eq (c : Dev nD) (t : Fin cfg8.N) : (iblk8 V c 2 t : Vec Ideal S1x768 .f32) = blk8_2 V c := by
  obtain ⟨-, -, -, -, -, -, e0, e1, -⟩ := idx_facts8 t
  funext y
  unfold iblk8 blk8_2
  rw [View.read_apply]
  show V c main_v4 _ = V c main_v4 _
  congr 1
  funext a
  apply Fin.ext
  match a with
  | ⟨0, _⟩ => show win8_2.index t (0 : Fin 2) * 1 + 1 * (y 0).val = (y 0).val; omega
  | ⟨1, _⟩ => show win8_2.index t (1 : Fin 2) * 768 + 1 * (y 1).val = (y 1).val; omega

/-- The result array as ONE function of the three arrays the chunk reads: at batch `b`, row `p`, the value the body
    stores for batch `b`'s blocks, read at row `p`. -/
noncomputable def G8 (c : Dev nD) : S4x1572x768.Idx → EReal :=
  fun i => stored8 (blk8_0 V c (i 0 : Fin 4)) (blk8_1 V c (i 0 : Fin 4)) (blk8_2 V c) (ix3 (0 : Fin 1) (i 1 : Fin 1572) (i 2 : Fin 768))

/-- What point `t` writes back is block `t` of `G8`. -/
theorem flushed8_eq (c : Dev nD) (t : Fin cfg8.N) :
    (dat8 (F := Ideal) V c).flushed 3 t = ((cfg8.win 3).blk t).view.read (Elt Ideal) (G8 V c) := by
  obtain ⟨-, -, -, -, -, -, -, -, e0, e1, e2⟩ := idx_facts8 t
  show (cfg8.win 3).cut (grid8.coords t) ((dat8 (F := Ideal) V c).after 3 t) = _
  rw [after8_3]
  unfold out8_3
  rw [View.canon_unit_zero hzA8]
  simp only [View.ld_unit_zero (S := S1x8x768) hzA8, View.ld_unit_zero (S := S1x200x768) hzA8, View.ld_unit_zero (S := S1x768) hzB8]
  rw [iblk8_0_eq, iblk8_1_eq, iblk8_2_eq]
  funext j
  show stored8 (blk8_0 V c (batch8 t)) (blk8_1 V c (batch8 t)) (blk8_2 V c) j = G8 V c (((cfg8.win 3).blk t).view.emb j)
  have hj0 : (j 0).val < 1 := (j 0).isLt
  have he : ((cfg8.win 3).blk t).view.emb j = (ix3 (batch8 t) (j 1 : Fin 1572) (j 2 : Fin 768) : S4x1572x768.Idx) := by
    funext a
    apply Fin.ext
    match a with
    | ⟨0, _⟩ => show win8_3.index t (0 : Fin 3) * 1 + 1 * (j 0).val = t.val; omega
    | ⟨1, _⟩ => show win8_3.index t (1 : Fin 3) * 1572 + 1 * (j 1).val = (j 1).val; omega
    | ⟨2, _⟩ => show win8_3.index t (2 : Fin 3) * 768 + 1 * (j 2).val = (j 2).val; omega
  rw [he]
  show _ = stored8 (blk8_0 V c (batch8 t)) (blk8_1 V c (batch8 t)) (blk8_2 V c) (ix3 (0 : Fin 1) (j 1 : Fin 1572) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk8 (t : Fin cfg8.N) (i : S4x1572x768.Idx) :
    i ∈ ((cfg8.win 3).blk t).view.set ↔ ∀ a : Fin 3, win8_3.index t a * S1x1572x768.size a ≤ (i a).val ∧ (i a).val < win8_3.index t a * S1x1572x768.size a + S1x1572x768.size a := by
  show i ∈ ((View.whole main_v27).slice (win8_3.rect t)).set ↔ _
  rw [View.set_slice_whole, Rect.mem_set_unit]
  exact Iff.rfl

/-- Batch `b` of the result is written by point `b`. -/
theorem cover8 (i : S4x1572x768.Idx) : ∃ t : Fin cfg8.N, (cfg8.win 3).flush t = true ∧ i ∈ ((cfg8.win 3).blk t).view.set := by
  have hi0 : (i 0).val < 4 := (i 0).isLt
  have hi1 : (i 1).val < 1572 := (i 1).isLt
  have hi2 : (i 2).val < 768 := (i 2).isLt
  let t : Fin cfg8.N := ⟨(i 0).val, lt_of_lt_of_eq hi0 N_8.symm⟩
  obtain ⟨-, -, -, -, -, -, -, -, e0, e1, e2⟩ := idx_facts8 t
  refine ⟨t, flush8_3 t, ?_⟩
  rw [mem_blk8]
  intro a
  match a with
  | ⟨0, _⟩ => show win8_3.index t (0 : Fin 3) * 1 ≤ (i 0).val ∧ (i 0).val < win8_3.index t (0 : Fin 3) * 1 + 1; rw [e0]; show (i 0).val * 1 ≤ (i 0).val ∧ (i 0).val < (i 0).val * 1 + 1; omega
  | ⟨1, _⟩ => show win8_3.index t (1 : Fin 3) * 1572 ≤ (i 1).val ∧ (i 1).val < win8_3.index t (1 : Fin 3) * 1572 + 1572; omega
  | ⟨2, _⟩ => show win8_3.index t (2 : Fin 3) * 768 ≤ (i 2).val ∧ (i 2).val < win8_3.index t (2 : Fin 3) * 768 + 768; omega

/-- The result array after the region is `G8`. -/
theorem arr8_eq (c : Dev nD) : (dat8 (F := Ideal) V c).arrAt 3 cfg8.N = G8 V c :=
  (dat8 (F := Ideal) V c).arrAt_eq_of_cover 3 (G8 V c) (fun t _ => flushed8_eq V c t) cover8

/-- The three arrays the chunk reads, at their literal types (so that their entries add as extended reals). -/
abbrev src8_0 (c : Dev nD) : S4x8x768.Idx → EReal := V c main_v25
abbrev src8_1 (c : Dev nD) : S4x200x768.Idx → EReal := V c main_v26
abbrev src8_2 (c : Dev nD) : S1x768.Idx → EReal := V c main_v4

/-- The result array at batch `b`, row `locOff 200 r + d`: the pair of row `r` of the first slice with row `r + d` of
    the second, at batch `b`. -/
theorem final8 (c : Dev nD) (b : Fin 4) (r : Fin 8) (d : ℕ) (q : Fin 200) (hq : q.val = r.val + d)
    (p : Fin 1572) (hp : p.val = locOff 200 r.val + d) (o : Fin 768) :
    (dat8 (F := Ideal) V c).arrAt 3 cfg8.N (ix3 b p o)
      = Ideal.tanh ((src8_0 V c (ix3 b r o) + src8_1 V c (ix3 b q o)) + src8_2 V c (ix2 0 o)) := by
  rw [arr8_eq]
  show stored8 (blk8_0 V c b) (blk8_1 V c b) (blk8_2 V c) (ix3 0 p o) = _
  rw [pay8_apply _ _ _ r d q hq p hp o]
  rfl

end Cert.KernelIdeal.Val

end
-- ==== Proof.KI.Case8.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT8
import proofs.«116342_j30605936951494_1_alg».proof.Proof.KI.PayLib

/-!
# Chunk 8 of the triangle: the pairs (i, j) with 56 ≤ i < 56 + 8

The chunk's region reads three arrays: its eight rows 56 … 56 + 7 of the first projection, the rows 56 … 255 of the
second, and the bias row, each cut by the host from what boundary 3 holds. Its result, still in place when the last
stretch reads it, holds at local row `locOff 200 r + d` the value of the pair (56 + r, 56 + r + d). In the packed
order the chunk starts at row 12796 = triOff 56 and the pair (i, j) sits at `triOff i + (j - i)`: with `r = i mod 8` and
`d = j - i` that is row 12796 + (locOff 200 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 200 r + d` holds the pair (56 + r, 56 + r + d). -/
theorem chunk8 (c : Dev nD) (b : Fin 4) (r : Fin 8) (d : ℕ) (hd : r.val + d < 200) (p : Fin 1572)
    (hp : p.val = locOff 200 r.val + d) (o : Fin 768) :
    (W66 m ρ c (Proc.devRef .tc main_v27) : Vec Ideal S4x1572x768 .f32) (ix3 b p o)
      = Cert.Tri.pairValue (argX m c) (argW m c) (argB m c) b ⟨56 + r.val, by omega⟩ ⟨56 + r.val + d, by omega⟩ o := by
  have e0 : src8_0 (V17 m ρ) c (ix3 b r o)
      = Cert.Tri.proj1 (argX m c) (argW m c) b ⟨56 + r.val, by omega⟩ o :=
    (host8_rows (W16 m ρ c) b r o ⟨56 + r.val, by omega⟩ rfl).trans
      ((congrFun (W16_main_v2 m ρ c) _).trans (p1_W3 m ρ c b _ o))
  have e1 : src8_1 (V17 m ρ) c (ix3 b (⟨r.val + d, hd⟩ : Fin 200) o)
      = Cert.Tri.proj2 (argX m c) (argW m c) b ⟨56 + r.val + d, by omega⟩ o :=
    (host8_pair (W16 m ρ c) b ⟨r.val + d, hd⟩ o ⟨56 + r.val + d, by omega⟩
        (by show 56 + r.val + d = 56 + (r.val + d); omega)).trans
      ((congrFun (W16_main_v3 m ρ c) _).trans (p2_W3 m ρ c b _ o))
  have e2 : src8_2 (V17 m ρ) c (ix2 0 o) = argB m c (ix1 o) :=
    (congrFun (W17_main_v4 m ρ c) _).trans (bias_W3 m ρ c 0 o)
  calc (W66 m ρ c (Proc.devRef .tc main_v27) : Vec Ideal S4x1572x768 .f32) (ix3 b p o)
      = ((dat8 (F := Ideal) (V17 m ρ) c).arrAt 3 cfg8.N : Vec Ideal S4x1572x768 .f32) (ix3 b p o) :=
        congrFun (out8_final m ρ c) _
    _ = Ideal.tanh ((src8_0 (V17 m ρ) c (ix3 b r o) + src8_1 (V17 m ρ) c (ix3 b (⟨r.val + d, hd⟩ : Fin 200) o))
          + src8_2 (V17 m ρ) c (ix2 0 o)) :=
        final8 (V17 m ρ) c b r d ⟨r.val + d, hd⟩ rfl p hp o
    _ = Cert.Tri.pairValue (argX m c) (argW m c) (argB m c) b ⟨56 + r.val, by omega⟩ ⟨56 + r.val + d, by omega⟩ o := by
        rw [e0, e1, e2]
        rfl

/-- The program's result at the rank of a pair (i, j) of this chunk (`i / 8 = 7`). -/
theorem case8 (c : Dev nD) (b : Fin 4) (i j : Fin 256) (o : Fin 768) (hij : i.val ≤ j.val) (hK : i.val / 8 = 7) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 56 + i.val % 8 = i.val := by omega
  have hj : 56 + i.val % 8 + (j.val - i.val) = j.val := by omega
  have hd : i.val % 8 + (j.val - i.val) < 200 := by have := j.isLt; omega
  have hT : locOff 200 (i.val % 8) + (j.val - i.val) < 1572 := by
    have := locOff_add_lt (L := 200) hr (by norm_num) hd
    omega
  have hrank : Cert.Tri.rank i.val j.val = 12796 + (locOff 200 (i.val % 8) + (j.val - i.val)) := by
    have h0 : Cert.Tri.triOff i.val = Cert.Tri.triOff (56 + i.val % 8) := congrArg Cert.Tri.triOff hi.symm
    have h1 : Cert.Tri.triOff (56 + i.val % 8) = Cert.Tri.triOff 56 + locOff 200 (i.val % 8) :=
      triOff_add_locOff 56 (i.val % 8)
    have h2 : Cert.Tri.triOff 56 = 12796 := triOff_chunk_eq 7 56 12796 (by norm_num) rfl rfl
    unfold Cert.Tri.rank
    omega
  refine (out_piece8 (W66 m ρ c) b _ ⟨_, hT⟩ o hrank).trans ?_
  refine (chunk8 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT9.lean ====
/-
  Chunk 9's stored value, read at an index.

  The body stores one value over its whole result block: the eight pieces `tanh ((p₁ row r + p₂ rows r…) + bias)`,
  `r = 0 … 7`, laid one under the other and given a leading unit axis. With 192 rows of the second product in view,
  piece `r` has `192 - r` rows and starts at row `locOff 192 r`. So the stored value at row `locOff 192 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 9 stores, as a function of the three blocks it loads. -/
abbrev stored9 {F : FTy → Type} [FloatOps F] (x0 : Vec F S1x8x768 .f32) (x1 : Vec F S1x192x768 .f32) (x2 : Vec F S1x768 .f32) :
    Vec F S1x1508x768 .f32 :=
  k9_pay1 (k9_pay2 x0) (k9_pay3 x1) (k9_pay4 x2) (k9_pay5 x0 x1 x2) (k9_pay6 x0 x1 x2) (k9_pay7 x0 x1 x2) (k9_pay8 x0 x1 x2)
    (k9_pay9 x0 x1 x2) (k9_pay10 x0 x1 x2) (k9_pay11 x0 x1)

/-- The stored value at row `locOff 192 r + d` of its block pairs row `r` of the first block with row `r + d` of the
    second. -/
theorem pay9_apply (x0 : Vec Ideal S1x8x768 .f32) (x1 : Vec Ideal S1x192x768 .f32) (x2 : Vec Ideal S1x768 .f32)
    (r : Fin 8) (d : ℕ) (q : Fin 192) (hq : q.val = r.val + d) (p : Fin 1508) (hp : p.val = locOff 192 r.val + d) (o : Fin 768) :
    stored9 x0 x1 x2 (ix3 0 p o) = Ideal.tanh ((x0 (ix3 0 r o) + x1 (ix3 0 q o)) + x2 (ix2 0 o)) := by
  have hql := q.isLt
  unfold stored9 k9_pay1
  refine (shapeCast_ab_1ab_apply _ _ 0 p o).trans ?_
  match r, hq, hp with
  | ⟨0, _⟩, hq, hp =>
    have hq : q.val = 0 + d := hq
    have hp : p.val = locOff 192 0 + d := hp
    have hd : d < 192 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 192 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 192 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 192 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 192 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 192 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 192 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 192 7 + d := hp
    refine (cat8_at7 _ _ _ _ _ _ _ _ _ d (by omega) o p (by simp only [locOff] at hp; omega)).trans ?_
    -- the last piece has 185 rows; a last piece of a single row is stored without broadcasts and has its own lemma
    first
      | have single : (185 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT9.lean ====
/-
  Chunk 9's result array after its region, read at an index.

  The region's grid is the batch: point `t` loads batch `t`'s eight rows of the first product's slice, batch `t`'s 192
  rows of the second product's slice and the bias row, and writes back the whole block `t` of the result. What it
  writes is the body's stored value of those three blocks. So the result array is ONE function of the three arrays it
  reads — at batch `b`, row `p`: the stored value of batch `b`'s blocks at row `p` (`G9`) —, every point writes its
  block of that function (`flushed9_eq`), the four blocks cover the array (`cover9`), hence the array ends as that
  function (`arr9_eq`); and at row `locOff 192 r + d` the stored value is the pair of row `r` with row `r + d`
  (`final9`).
-/
import proofs.«116342_j30605936951494_1_alg».proof.Proof.KI.Reg9
import proofs.«116342_j30605936951494_1_alg».proof.Proof.KI.PayT9
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA9 : (![0, 0, 0] : Fin 3 → Nat) = fun _ => 0 := funext fun a => by fin_cases a <;> rfl
theorem hzB9 : (![0, 0] : Fin 2 → Nat) = fun _ => 0 := funext fun a => by fin_cases a <;> rfl

/-- The grid is the batch: point `t` works on batch `t`. -/
noncomputable def batch9 (t : Fin cfg9.N) : Fin 4 := ⟨t.val, lt_of_lt_of_eq t.isLt N_9⟩

/-- The printed index maps, decided over the four points: the three batched windows sit at block `(t, 0, 0)`, the bias
    row at its one block. -/
theorem idx_facts9 : ∀ t : Fin cfg9.N,
    win9_0.index t (0 : Fin 3) = t.val ∧ win9_0.index t (1 : Fin 3) = 0 ∧ win9_0.index t (2 : Fin 3) = 0
    ∧ win9_1.index t (0 : Fin 3) = t.val ∧ win9_1.index t (1 : Fin 3) = 0 ∧ win9_1.index t (2 : Fin 3) = 0
    ∧ win9_2.index t (0 : Fin 2) = 0 ∧ win9_2.index t (1 : Fin 2) = 0
    ∧ win9_3.index t (0 : Fin 3) = t.val ∧ win9_3.index t (1 : Fin 3) = 0 ∧ win9_3.index t (2 : Fin 3) = 0 :=
  (by decide +kernel : ∀ t : Fin grid9.N, _)

/-- Batch `b`'s eight rows of the first product's slice, as a block. -/
noncomputable def blk9_0 (c : Dev nD) (b : Fin 4) : Vec Ideal S1x8x768 .f32 :=
  fun y => (V c main_v28 : S4x8x768.Idx → EReal) (ix3 b (y 1 : Fin 8) (y 2 : Fin 768))
/-- Batch `b`'s 192 rows of the second product's slice, as a block. -/
noncomputable def blk9_1 (c : Dev nD) (b : Fin 4) : Vec Ideal S1x192x768 .f32 :=
  fun y => (V c main_v29 : S4x192x768.Idx → EReal) (ix3 b (y 1 : Fin 192) (y 2 : Fin 768))
/-- The bias row. -/
noncomputable def blk9_2 (c : Dev nD) : Vec Ideal S1x768 .f32 := fun y => (V c main_v4 : S1x768.Idx → EReal) y

theorem iblk9_0_eq (c : Dev nD) (t : Fin cfg9.N) : (iblk9 V c 0 t : Vec Ideal S1x8x768 .f32) = blk9_0 V c (batch9 t) := by
  obtain ⟨e0, e1, e2, -⟩ := idx_facts9 t
  funext y
  unfold iblk9 blk9_0
  rw [View.read_apply]
  show V c main_v28 _ = V c main_v28 _
  congr 1
  funext a
  apply Fin.ext
  match a with
  | ⟨0, _⟩ => show win9_0.index t (0 : Fin 3) * 1 + 1 * (y 0).val = t.val; have hy : (y 0).val < 1 := (y 0).isLt; omega
  | ⟨1, _⟩ => show win9_0.index t (1 : Fin 3) * 8 + 1 * (y 1).val = (y 1).val; omega
  | ⟨2, _⟩ => show win9_0.index t (2 : Fin 3) * 768 + 1 * (y 2).val = (y 2).val; omega

theorem iblk9_1_eq (c : Dev nD) (t : Fin cfg9.N) : (iblk9 V c 1 t : Vec Ideal S1x192x768 .f32) = blk9_1 V c (batch9 t) := by
  obtain ⟨-, -, -, e0, e1, e2, -⟩ := idx_facts9 t
  funext y
  unfold iblk9 blk9_1
  rw [View.read_apply]
  show V c main_v29 _ = V c main_v29 _
  congr 1
  funext a
  apply Fin.ext
  match a with
  | ⟨0, _⟩ => show win9_1.index t (0 : Fin 3) * 1 + 1 * (y 0).val = t.val; have hy : (y 0).val < 1 := (y 0).isLt; omega
  | ⟨1, _⟩ => show win9_1.index t (1 : Fin 3) * 192 + 1 * (y 1).val = (y 1).val; omega
  | ⟨2, _⟩ => show win9_1.index t (2 : Fin 3) * 768 + 1 * (y 2).val = (y 2).val; omega

theorem iblk9_2_eq (c : Dev nD) (t : Fin cfg9.N) : (iblk9 V c 2 t : Vec Ideal S1x768 .f32) = blk9_2 V c := by
  obtain ⟨-, -, -, -, -, -, e0, e1, -⟩ := idx_facts9 t
  funext y
  unfold iblk9 blk9_2
  rw [View.read_apply]
  show V c main_v4 _ = V c main_v4 _
  congr 1
  funext a
  apply Fin.ext
  match a with
  | ⟨0, _⟩ => show win9_2.index t (0 : Fin 2) * 1 + 1 * (y 0).val = (y 0).val; omega
  | ⟨1, _⟩ => show win9_2.index t (1 : Fin 2) * 768 + 1 * (y 1).val = (y 1).val; omega

/-- The result array as ONE function of the three arrays the chunk reads: at batch `b`, row `p`, the value the body
    stores for batch `b`'s blocks, read at row `p`. -/
noncomputable def G9 (c : Dev nD) : S4x1508x768.Idx → EReal :=
  fun i => stored9 (blk9_0 V c (i 0 : Fin 4)) (blk9_1 V c (i 0 : Fin 4)) (blk9_2 V c) (ix3 (0 : Fin 1) (i 1 : Fin 1508) (i 2 : Fin 768))

/-- What point `t` writes back is block `t` of `G9`. -/
theorem flushed9_eq (c : Dev nD) (t : Fin cfg9.N) :
    (dat9 (F := Ideal) V c).flushed 3 t = ((cfg9.win 3).blk t).view.read (Elt Ideal) (G9 V c) := by
  obtain ⟨-, -, -, -, -, -, -, -, e0, e1, e2⟩ := idx_facts9 t
  show (cfg9.win 3).cut (grid9.coords t) ((dat9 (F := Ideal) V c).after 3 t) = _
  rw [after9_3]
  unfold out9_3
  rw [View.canon_unit_zero hzA9]
  simp only [View.ld_unit_zero (S := S1x8x768) hzA9, View.ld_unit_zero (S := S1x192x768) hzA9, View.ld_unit_zero (S := S1x768) hzB9]
  rw [iblk9_0_eq, iblk9_1_eq, iblk9_2_eq]
  funext j
  show stored9 (blk9_0 V c (batch9 t)) (blk9_1 V c (batch9 t)) (blk9_2 V c) j = G9 V c (((cfg9.win 3).blk t).view.emb j)
  have hj0 : (j 0).val < 1 := (j 0).isLt
  have he : ((cfg9.win 3).blk t).view.emb j = (ix3 (batch9 t) (j 1 : Fin 1508) (j 2 : Fin 768) : S4x1508x768.Idx) := by
    funext a
    apply Fin.ext
    match a with
    | ⟨0, _⟩ => show win9_3.index t (0 : Fin 3) * 1 + 1 * (j 0).val = t.val; omega
    | ⟨1, _⟩ => show win9_3.index t (1 : Fin 3) * 1508 + 1 * (j 1).val = (j 1).val; omega
    | ⟨2, _⟩ => show win9_3.index t (2 : Fin 3) * 768 + 1 * (j 2).val = (j 2).val; omega
  rw [he]
  show _ = stored9 (blk9_0 V c (batch9 t)) (blk9_1 V c (batch9 t)) (blk9_2 V c) (ix3 (0 : Fin 1) (j 1 : Fin 1508) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk9 (t : Fin cfg9.N) (i : S4x1508x768.Idx) :
    i ∈ ((cfg9.win 3).blk t).view.set ↔ ∀ a : Fin 3, win9_3.index t a * S1x1508x768.size a ≤ (i a).val ∧ (i a).val < win9_3.index t a * S1x1508x768.size a + S1x1508x768.size a := by
  show i ∈ ((View.whole main_v30).slice (win9_3.rect t)).set ↔ _
  rw [View.set_slice_whole, Rect.mem_set_unit]
  exact Iff.rfl

/-- Batch `b` of the result is written by point `b`. -/
theorem cover9 (i : S4x1508x768.Idx) : ∃ t : Fin cfg9.N, (cfg9.win 3).flush t = true ∧ i ∈ ((cfg9.win 3).blk t).view.set := by
  have hi0 : (i 0).val < 4 := (i 0).isLt
  have hi1 : (i 1).val < 1508 := (i 1).isLt
  have hi2 : (i 2).val < 768 := (i 2).isLt
  let t : Fin cfg9.N := ⟨(i 0).val, lt_of_lt_of_eq hi0 N_9.symm⟩
  obtain ⟨-, -, -, -, -, -, -, -, e0, e1, e2⟩ := idx_facts9 t
  refine ⟨t, flush9_3 t, ?_⟩
  rw [mem_blk9]
  intro a
  match a with
  | ⟨0, _⟩ => show win9_3.index t (0 : Fin 3) * 1 ≤ (i 0).val ∧ (i 0).val < win9_3.index t (0 : Fin 3) * 1 + 1; rw [e0]; show (i 0).val * 1 ≤ (i 0).val ∧ (i 0).val < (i 0).val * 1 + 1; omega
  | ⟨1, _⟩ => show win9_3.index t (1 : Fin 3) * 1508 ≤ (i 1).val ∧ (i 1).val < win9_3.index t (1 : Fin 3) * 1508 + 1508; omega
  | ⟨2, _⟩ => show win9_3.index t (2 : Fin 3) * 768 ≤ (i 2).val ∧ (i 2).val < win9_3.index t (2 : Fin 3) * 768 + 768; omega

/-- The result array after the region is `G9`. -/
theorem arr9_eq (c : Dev nD) : (dat9 (F := Ideal) V c).arrAt 3 cfg9.N = G9 V c :=
  (dat9 (F := Ideal) V c).arrAt_eq_of_cover 3 (G9 V c) (fun t _ => flushed9_eq V c t) cover9

/-- The three arrays the chunk reads, at their literal types (so that their entries add as extended reals). -/
abbrev src9_0 (c : Dev nD) : S4x8x768.Idx → EReal := V c main_v28
abbrev src9_1 (c : Dev nD) : S4x192x768.Idx → EReal := V c main_v29
abbrev src9_2 (c : Dev nD) : S1x768.Idx → EReal := V c main_v4

/-- The result array at batch `b`, row `locOff 192 r + d`: the pair of row `r` of the first slice with row `r + d` of
    the second, at batch `b`. -/
theorem final9 (c : Dev nD) (b : Fin 4) (r : Fin 8) (d : ℕ) (q : Fin 192) (hq : q.val = r.val + d)
    (p : Fin 1508) (hp : p.val = locOff 192 r.val + d) (o : Fin 768) :
    (dat9 (F := Ideal) V c).arrAt 3 cfg9.N (ix3 b p o)
      = Ideal.tanh ((src9_0 V c (ix3 b r o) + src9_1 V c (ix3 b q o)) + src9_2 V c (ix2 0 o)) := by
  rw [arr9_eq]
  show stored9 (blk9_0 V c b) (blk9_1 V c b) (blk9_2 V c) (ix3 0 p o) = _
  rw [pay9_apply _ _ _ r d q hq p hp o]
  rfl

end Cert.KernelIdeal.Val

end
-- ==== Proof.KI.Case9.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT9
import proofs.«116342_j30605936951494_1_alg».proof.Proof.KI.PayLib

/-!
# Chunk 9 of the triangle: the pairs (i, j) with 64 ≤ i < 64 + 8

The chunk's region reads three arrays: its eight rows 64 … 64 + 7 of the first projection, the rows 64 … 255 of the
second, and the bias row, each cut by the host from what boundary 3 holds. Its result, still in place when the last
stretch reads it, holds at local row `locOff 192 r + d` the value of the pair (64 + r, 64 + r + d). In the packed
order the chunk starts at row 14368 = triOff 64 and the pair (i, j) sits at `triOff i + (j - i)`: with `r = i mod 8` and
`d = j - i` that is row 14368 + (locOff 192 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 192 r + d` holds the pair (64 + r, 64 + r + d). -/
theorem chunk9 (c : Dev nD) (b : Fin 4) (r : Fin 8) (d : ℕ) (hd : r.val + d < 192) (p : Fin 1508)
    (hp : p.val = locOff 192 r.val + d) (o : Fin 768) :
    (W66 m ρ c (Proc.devRef .tc main_v30) : Vec Ideal S4x1508x768 .f32) (ix3 b p o)
      = Cert.Tri.pairValue (argX m c) (argW m c) (argB m c) b ⟨64 + r.val, by omega⟩ ⟨64 + r.val + d, by omega⟩ o := by
  have e0 : src9_0 (V19 m ρ) c (ix3 b r o)
      = Cert.Tri.proj1 (argX m c) (argW m c) b ⟨64 + r.val, by omega⟩ o :=
    (host9_rows (W18 m ρ c) b r o ⟨64 + r.val, by omega⟩ rfl).trans
      ((congrFun (W18_main_v2 m ρ c) _).trans (p1_W3 m ρ c b _ o))
  have e1 : src9_1 (V19 m ρ) c (ix3 b (⟨r.val + d, hd⟩ : Fin 192) o)
      = Cert.Tri.proj2 (argX m c) (argW m c) b ⟨64 + r.val + d, by omega⟩ o :=
    (host9_pair (W18 m ρ c) b ⟨r.val + d, hd⟩ o ⟨64 + r.val + d, by omega⟩
        (by show 64 + r.val + d = 64 + (r.val + d); omega)).trans
      ((congrFun (W18_main_v3 m ρ c) _).trans (p2_W3 m ρ c b _ o))
  have e2 : src9_2 (V19 m ρ) c (ix2 0 o) = argB m c (ix1 o) :=
    (congrFun (W19_main_v4 m ρ c) _).trans (bias_W3 m ρ c 0 o)
  calc (W66 m ρ c (Proc.devRef .tc main_v30) : Vec Ideal S4x1508x768 .f32) (ix3 b p o)
      = ((dat9 (F := Ideal) (V19 m ρ) c).arrAt 3 cfg9.N : Vec Ideal S4x1508x768 .f32) (ix3 b p o) :=
        congrFun (out9_final m ρ c) _
    _ = Ideal.tanh ((src9_0 (V19 m ρ) c (ix3 b r o) + src9_1 (V19 m ρ) c (ix3 b (⟨r.val + d, hd⟩ : Fin 192) o))
          + src9_2 (V19 m ρ) c (ix2 0 o)) :=
        final9 (V19 m ρ) c b r d ⟨r.val + d, hd⟩ rfl p hp o
    _ = Cert.Tri.pairValue (argX m c) (argW m c) (argB m c) b ⟨64 + r.val, by omega⟩ ⟨64 + r.val + d, by omega⟩ o := by
        rw [e0, e1, e2]
        rfl

/-- The program's result at the rank of a pair (i, j) of this chunk (`i / 8 = 8`). -/
theorem case9 (c : Dev nD) (b : Fin 4) (i j : Fin 256) (o : Fin 768) (hij : i.val ≤ j.val) (hK : i.val / 8 = 8) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 64 + i.val % 8 = i.val := by omega
  have hj : 64 + i.val % 8 + (j.val - i.val) = j.val := by omega
  have hd : i.val % 8 + (j.val - i.val) < 192 := by have := j.isLt; omega
  have hT : locOff 192 (i.val % 8) + (j.val - i.val) < 1508 := by
    have := locOff_add_lt (L := 192) hr (by norm_num) hd
    omega
  have hrank : Cert.Tri.rank i.val j.val = 14368 + (locOff 192 (i.val % 8) + (j.val - i.val)) := by
    have h0 : Cert.Tri.triOff i.val = Cert.Tri.triOff (64 + i.val % 8) := congrArg Cert.Tri.triOff hi.symm
    have h1 : Cert.Tri.triOff (64 + i.val % 8) = Cert.Tri.triOff 64 + locOff 192 (i.val % 8) :=
      triOff_add_locOff 64 (i.val % 8)
    have h2 : Cert.Tri.triOff 64 = 14368 := triOff_chunk_eq 8 64 14368 (by norm_num) rfl rfl
    unfold Cert.Tri.rank
    omega
  refine (out_piece9 (W66 m ρ c) b _ ⟨_, hT⟩ o hrank).trans ?_
  refine (chunk9 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT10.lean ====
/-
  Chunk 10's stored value, read at an index.

  The body stores one value over its whole result block: the eight pieces `tanh ((p₁ row r + p₂ rows r…) + bias)`,
  `r = 0 … 7`, laid one under the other and given a leading unit axis. With 184 rows of the second product in view,
  piece `r` has `184 - r` rows and starts at row `locOff 184 r`. So the stored value at row `locOff 184 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 10 stores, as a function of the three blocks it loads. -/
abbrev stored10 {F : FTy → Type} [FloatOps F] (x0 : Vec F S1x8x768 .f32) (x1 : Vec F S1x184x768 .f32) (x2 : Vec F S1x768 .f32) :
    Vec F S1x1444x768 .f32 :=
  k10_pay1 (k10_pay2 x0) (k10_pay3 x1) (k10_pay4 x2) (k10_pay5 x0 x1 x2) (k10_pay6 x0 x1 x2) (k10_pay7 x0 x1 x2) (k10_pay8 x0 x1 x2)
    (k10_pay9 x0 x1 x2) (k10_pay10 x0 x1 x2) (k10_pay11 x0 x1)

/-- The stored value at row `locOff 184 r + d` of its block pairs row `r` of the first block with row `r + d` of the
    second. -/
theorem pay10_apply (x0 : Vec Ideal S1x8x768 .f32) (x1 : Vec Ideal S1x184x768 .f32) (x2 : Vec Ideal S1x768 .f32)
    (r : Fin 8) (d : ℕ) (q : Fin 184) (hq : q.val = r.val + d) (p : Fin 1444) (hp : p.val = locOff 184 r.val + d) (o : Fin 768) :
    stored10 x0 x1 x2 (ix3 0 p o) = Ideal.tanh ((x0 (ix3 0 r o) + x1 (ix3 0 q o)) + x2 (ix2 0 o)) := by
  have hql := q.isLt
  unfold stored10 k10_pay1
  refine (shapeCast_ab_1ab_apply _ _ 0 p o).trans ?_
  match r, hq, hp with
  | ⟨0, _⟩, hq, hp =>
    have hq : q.val = 0 + d := hq
    have hp : p.val = locOff 184 0 + d := hp
    have hd : d < 184 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 184 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 184 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 184 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 184 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 184 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 184 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 184 7 + d := hp
    refine (cat8_at7 _ _ _ _ _ _ _ _ _ d (by omega) o p (by simp only [locOff] at hp; omega)).trans ?_
    -- the last piece has 177 rows; a last piece of a single row is stored without broadcasts and has its own lemma
    first
      | have single : (177 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT10.lean ====
/-
  Chunk 10's result array after its region, read at an index.

  The region's grid is the batch: point `t` loads batch `t`'s eight rows of the first product's slice, batch `t`'s 184
  rows of the second product's slice and the bias row, and writes back the whole block `t` of the result. What it
  writes is the body's stored value of those three blocks. So the result array is ONE function of the three arrays it
  reads — at batch `b`, row `p`: the stored value of batch `b`'s blocks at row `p` (`G10`) —, every point writes its
  block of that function (`flushed10_eq`), the four blocks cover the array (`cover10`), hence the array ends as that
  function (`arr10_eq`); and at row `locOff 184 r + d` the stored value is the pair of row `r` with row `r + d`
  (`final10`).
-/
import proofs.«116342_j30605936951494_1_alg».proof.Proof.KI.Reg10
import proofs.«116342_j30605936951494_1_alg».proof.Proof.KI.PayT10
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA10 : (![0, 0, 0] : Fin 3 → Nat) = fun _ => 0 := funext fun a => by fin_cases a <;> rfl
theorem hzB10 : (![0, 0] : Fin 2 → Nat) = fun _ => 0 := funext fun a => by fin_cases a <;> rfl

/-- The grid is the batch: point `t` works on batch `t`. -/
noncomputable def batch10 (t : Fin cfg10.N) : Fin 4 := ⟨t.val, lt_of_lt_of_eq t.isLt N_10⟩

/-- The printed index maps, decided over the four points: the three batched windows sit at block `(t, 0, 0)`, the bias
    row at its one block. -/
theorem idx_facts10 : ∀ t : Fin cfg10.N,
    win10_0.index t (0 : Fin 3) = t.val ∧ win10_0.index t (1 : Fin 3) = 0 ∧ win10_0.index t (2 : Fin 3) = 0
    ∧ win10_1.index t (0 : Fin 3) = t.val ∧ win10_1.index t (1 : Fin 3) = 0 ∧ win10_1.index t (2 : Fin 3) = 0
    ∧ win10_2.index t (0 : Fin 2) = 0 ∧ win10_2.index t (1 : Fin 2) = 0
    ∧ win10_3.index t (0 : Fin 3) = t.val ∧ win10_3.index t (1 : Fin 3) = 0 ∧ win10_3.index t (2 : Fin 3) = 0 :=
  (by decide +kernel : ∀ t : Fin grid10.N, _)

/-- Batch `b`'s eight rows of the first product's slice, as a block. -/
noncomputable def blk10_0 (c : Dev nD) (b : Fin 4) : Vec Ideal S1x8x768 .f32 :=
  fun y => (V c main_v31 : S4x8x768.Idx → EReal) (ix3 b (y 1 : Fin 8) (y 2 : Fin 768))
/-- Batch `b`'s 184 rows of the second product's slice, as a block. -/
noncomputable def blk10_1 (c : Dev nD) (b : Fin 4) : Vec Ideal S1x184x768 .f32 :=
  fun y => (V c main_v32 : S4x184x768.Idx → EReal) (ix3 b (y 1 : Fin 184) (y 2 : Fin 768))
/-- The bias row. -/
noncomputable def blk10_2 (c : Dev nD) : Vec Ideal S1x768 .f32 := fun y => (V c main_v4 : S1x768.Idx → EReal) y

theorem iblk10_0_eq (c : Dev nD) (t : Fin cfg10.N) : (iblk10 V c 0 t : Vec Ideal S1x8x768 .f32) = blk10_0 V c (batch10 t) := by
  obtain ⟨e0, e1, e2, -⟩ := idx_facts10 t
  funext y
  unfold iblk10 blk10_0
  rw [View.read_apply]
  show V c main_v31 _ = V c main_v31 _
  congr 1
  funext a
  apply Fin.ext
  match a with
  | ⟨0, _⟩ => show win10_0.index t (0 : Fin 3) * 1 + 1 * (y 0).val = t.val; have hy : (y 0).val < 1 := (y 0).isLt; omega
  | ⟨1, _⟩ => show win10_0.index t (1 : Fin 3) * 8 + 1 * (y 1).val = (y 1).val; omega
  | ⟨2, _⟩ => show win10_0.index t (2 : Fin 3) * 768 + 1 * (y 2).val = (y 2).val; omega

theorem iblk10_1_eq (c : Dev nD) (t : Fin cfg10.N) : (iblk10 V c 1 t : Vec Ideal S1x184x768 .f32) = blk10_1 V c (batch10 t) := by
  obtain ⟨-, -, -, e0, e1, e2, -⟩ := idx_facts10 t
  funext y
  unfold iblk10 blk10_1
  rw [View.read_apply]
  show V c main_v32 _ = V c main_v32 _
  congr 1
  funext a
  apply Fin.ext
  match a with
  | ⟨0, _⟩ => show win10_1.index t (0 : Fin 3) * 1 + 1 * (y 0).val = t.val; have hy : (y 0).val < 1 := (y 0).isLt; omega
  | ⟨1, _⟩ => show win10_1.index t (1 : Fin 3) * 184 + 1 * (y 1).val = (y 1).val; omega
  | ⟨2, _⟩ => show win10_1.index t (2 : Fin 3) * 768 + 1 * (y 2).val = (y 2).val; omega

theorem iblk10_2_eq (c : Dev nD) (t : Fin cfg10.N) : (iblk10 V c 2 t : Vec Ideal S1x768 .f32) = blk10_2 V c := by
  obtain ⟨-, -, -, -, -, -, e0, e1, -⟩ := idx_facts10 t
  funext y
  unfold iblk10 blk10_2
  rw [View.read_apply]
  show V c main_v4 _ = V c main_v4 _
  congr 1
  funext a
  apply Fin.ext
  match a with
  | ⟨0, _⟩ => show win10_2.index t (0 : Fin 2) * 1 + 1 * (y 0).val = (y 0).val; omega
  | ⟨1, _⟩ => show win10_2.index t (1 : Fin 2) * 768 + 1 * (y 1).val = (y 1).val; omega

/-- The result array as ONE function of the three arrays the chunk reads: at batch `b`, row `p`, the value the body
    stores for batch `b`'s blocks, read at row `p`. -/
noncomputable def G10 (c : Dev nD) : S4x1444x768.Idx → EReal :=
  fun i => stored10 (blk10_0 V c (i 0 : Fin 4)) (blk10_1 V c (i 0 : Fin 4)) (blk10_2 V c) (ix3 (0 : Fin 1) (i 1 : Fin 1444) (i 2 : Fin 768))

/-- What point `t` writes back is block `t` of `G10`. -/
theorem flushed10_eq (c : Dev nD) (t : Fin cfg10.N) :
    (dat10 (F := Ideal) V c).flushed 3 t = ((cfg10.win 3).blk t).view.read (Elt Ideal) (G10 V c) := by
  obtain ⟨-, -, -, -, -, -, -, -, e0, e1, e2⟩ := idx_facts10 t
  show (cfg10.win 3).cut (grid10.coords t) ((dat10 (F := Ideal) V c).after 3 t) = _
  rw [after10_3]
  unfold out10_3
  rw [View.canon_unit_zero hzA10]
  simp only [View.ld_unit_zero (S := S1x8x768) hzA10, View.ld_unit_zero (S := S1x184x768) hzA10, View.ld_unit_zero (S := S1x768) hzB10]
  rw [iblk10_0_eq, iblk10_1_eq, iblk10_2_eq]
  funext j
  show stored10 (blk10_0 V c (batch10 t)) (blk10_1 V c (batch10 t)) (blk10_2 V c) j = G10 V c (((cfg10.win 3).blk t).view.emb j)
  have hj0 : (j 0).val < 1 := (j 0).isLt
  have he : ((cfg10.win 3).blk t).view.emb j = (ix3 (batch10 t) (j 1 : Fin 1444) (j 2 : Fin 768) : S4x1444x768.Idx) := by
    funext a
    apply Fin.ext
    match a with
    | ⟨0, _⟩ => show win10_3.index t (0 : Fin 3) * 1 + 1 * (j 0).val = t.val; omega
    | ⟨1, _⟩ => show win10_3.index t (1 : Fin 3) * 1444 + 1 * (j 1).val = (j 1).val; omega
    | ⟨2, _⟩ => show win10_3.index t (2 : Fin 3) * 768 + 1 * (j 2).val = (j 2).val; omega
  rw [he]
  show _ = stored10 (blk10_0 V c (batch10 t)) (blk10_1 V c (batch10 t)) (blk10_2 V c) (ix3 (0 : Fin 1) (j 1 : Fin 1444) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk10 (t : Fin cfg10.N) (i : S4x1444x768.Idx) :
    i ∈ ((cfg10.win 3).blk t).view.set ↔ ∀ a : Fin 3, win10_3.index t a * S1x1444x768.size a ≤ (i a).val ∧ (i a).val < win10_3.index t a * S1x1444x768.size a + S1x1444x768.size a := by
  show i ∈ ((View.whole main_v33).slice (win10_3.rect t)).set ↔ _
  rw [View.set_slice_whole, Rect.mem_set_unit]
  exact Iff.rfl

/-- Batch `b` of the result is written by point `b`. -/
theorem cover10 (i : S4x1444x768.Idx) : ∃ t : Fin cfg10.N, (cfg10.win 3).flush t = true ∧ i ∈ ((cfg10.win 3).blk t).view.set := by
  have hi0 : (i 0).val < 4 := (i 0).isLt
  have hi1 : (i 1).val < 1444 := (i 1).isLt
  have hi2 : (i 2).val < 768 := (i 2).isLt
  let t : Fin cfg10.N := ⟨(i 0).val, lt_of_lt_of_eq hi0 N_10.symm⟩
  obtain ⟨-, -, -, -, -, -, -, -, e0, e1, e2⟩ := idx_facts10 t
  refine ⟨t, flush10_3 t, ?_⟩
  rw [mem_blk10]
  intro a
  match a with
  | ⟨0, _⟩ => show win10_3.index t (0 : Fin 3) * 1 ≤ (i 0).val ∧ (i 0).val < win10_3.index t (0 : Fin 3) * 1 + 1; rw [e0]; show (i 0).val * 1 ≤ (i 0).val ∧ (i 0).val < (i 0).val * 1 + 1; omega
  | ⟨1, _⟩ => show win10_3.index t (1 : Fin 3) * 1444 ≤ (i 1).val ∧ (i 1).val < win10_3.index t (1 : Fin 3) * 1444 + 1444; omega
  | ⟨2, _⟩ => show win10_3.index t (2 : Fin 3) * 768 ≤ (i 2).val ∧ (i 2).val < win10_3.index t (2 : Fin 3) * 768 + 768; omega

/-- The result array after the region is `G10`. -/
theorem arr10_eq (c : Dev nD) : (dat10 (F := Ideal) V c).arrAt 3 cfg10.N = G10 V c :=
  (dat10 (F := Ideal) V c).arrAt_eq_of_cover 3 (G10 V c) (fun t _ => flushed10_eq V c t) cover10

/-- The three arrays the chunk reads, at their literal types (so that their entries add as extended reals). -/
abbrev src10_0 (c : Dev nD) : S4x8x768.Idx → EReal := V c main_v31
abbrev src10_1 (c : Dev nD) : S4x184x768.Idx → EReal := V c main_v32
abbrev src10_2 (c : Dev nD) : S1x768.Idx → EReal := V c main_v4

/-- The result array at batch `b`, row `locOff 184 r + d`: the pair of row `r` of the first slice with row `r + d` of
    the second, at batch `b`. -/
theorem final10 (c : Dev nD) (b : Fin 4) (r : Fin 8) (d : ℕ) (q : Fin 184) (hq : q.val = r.val + d)
    (p : Fin 1444) (hp : p.val = locOff 184 r.val + d) (o : Fin 768) :
    (dat10 (F := Ideal) V c).arrAt 3 cfg10.N (ix3 b p o)
      = Ideal.tanh ((src10_0 V c (ix3 b r o) + src10_1 V c (ix3 b q o)) + src10_2 V c (ix2 0 o)) := by
  rw [arr10_eq]
  show stored10 (blk10_0 V c b) (blk10_1 V c b) (blk10_2 V c) (ix3 0 p o) = _
  rw [pay10_apply _ _ _ r d q hq p hp o]
  rfl

end Cert.KernelIdeal.Val

end
-- ==== Proof.KI.Case10.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT10
import proofs.«116342_j30605936951494_1_alg».proof.Proof.KI.PayLib

/-!
# Chunk 10 of the triangle: the pairs (i, j) with 72 ≤ i < 72 + 8

The chunk's region reads three arrays: its eight rows 72 … 72 + 7 of the first projection, the rows 72 … 255 of the
second, and the bias row, each cut by the host from what boundary 3 holds. Its result, still in place when the last
stretch reads it, holds at local row `locOff 184 r + d` the value of the pair (72 + r, 72 + r + d). In the packed
order the chunk starts at row 15876 = triOff 72 and the pair (i, j) sits at `triOff i + (j - i)`: with `r = i mod 8` and
`d = j - i` that is row 15876 + (locOff 184 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 184 r + d` holds the pair (72 + r, 72 + r + d). -/
theorem chunk10 (c : Dev nD) (b : Fin 4) (r : Fin 8) (d : ℕ) (hd : r.val + d < 184) (p : Fin 1444)
    (hp : p.val = locOff 184 r.val + d) (o : Fin 768) :
    (W66 m ρ c (Proc.devRef .tc main_v33) : Vec Ideal S4x1444x768 .f32) (ix3 b p o)
      = Cert.Tri.pairValue (argX m c) (argW m c) (argB m c) b ⟨72 + r.val, by omega⟩ ⟨72 + r.val + d, by omega⟩ o := by
  have e0 : src10_0 (V21 m ρ) c (ix3 b r o)
      = Cert.Tri.proj1 (argX m c) (argW m c) b ⟨72 + r.val, by omega⟩ o :=
    (host10_rows (W20 m ρ c) b r o ⟨72 + r.val, by omega⟩ rfl).trans
      ((congrFun (W20_main_v2 m ρ c) _).trans (p1_W3 m ρ c b _ o))
  have e1 : src10_1 (V21 m ρ) c (ix3 b (⟨r.val + d, hd⟩ : Fin 184) o)
      = Cert.Tri.proj2 (argX m c) (argW m c) b ⟨72 + r.val + d, by omega⟩ o :=
    (host10_pair (W20 m ρ c) b ⟨r.val + d, hd⟩ o ⟨72 + r.val + d, by omega⟩
        (by show 72 + r.val + d = 72 + (r.val + d); omega)).trans
      ((congrFun (W20_main_v3 m ρ c) _).trans (p2_W3 m ρ c b _ o))
  have e2 : src10_2 (V21 m ρ) c (ix2 0 o) = argB m c (ix1 o) :=
    (congrFun (W21_main_v4 m ρ c) _).trans (bias_W3 m ρ c 0 o)
  calc (W66 m ρ c (Proc.devRef .tc main_v33) : Vec Ideal S4x1444x768 .f32) (ix3 b p o)
      = ((dat10 (F := Ideal) (V21 m ρ) c).arrAt 3 cfg10.N : Vec Ideal S4x1444x768 .f32) (ix3 b p o) :=
        congrFun (out10_final m ρ c) _
    _ = Ideal.tanh ((src10_0 (V21 m ρ) c (ix3 b r o) + src10_1 (V21 m ρ) c (ix3 b (⟨r.val + d, hd⟩ : Fin 184) o))
          + src10_2 (V21 m ρ) c (ix2 0 o)) :=
        final10 (V21 m ρ) c b r d ⟨r.val + d, hd⟩ rfl p hp o
    _ = Cert.Tri.pairValue (argX m c) (argW m c) (argB m c) b ⟨72 + r.val, by omega⟩ ⟨72 + r.val + d, by omega⟩ o := by
        rw [e0, e1, e2]
        rfl

/-- The program's result at the rank of a pair (i, j) of this chunk (`i / 8 = 9`). -/
theorem case10 (c : Dev nD) (b : Fin 4) (i j : Fin 256) (o : Fin 768) (hij : i.val ≤ j.val) (hK : i.val / 8 = 9) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 72 + i.val % 8 = i.val := by omega
  have hj : 72 + i.val % 8 + (j.val - i.val) = j.val := by omega
  have hd : i.val % 8 + (j.val - i.val) < 184 := by have := j.isLt; omega
  have hT : locOff 184 (i.val % 8) + (j.val - i.val) < 1444 := by
    have := locOff_add_lt (L := 184) hr (by norm_num) hd
    omega
  have hrank : Cert.Tri.rank i.val j.val = 15876 + (locOff 184 (i.val % 8) + (j.val - i.val)) := by
    have h0 : Cert.Tri.triOff i.val = Cert.Tri.triOff (72 + i.val % 8) := congrArg Cert.Tri.triOff hi.symm
    have h1 : Cert.Tri.triOff (72 + i.val % 8) = Cert.Tri.triOff 72 + locOff 184 (i.val % 8) :=
      triOff_add_locOff 72 (i.val % 8)
    have h2 : Cert.Tri.triOff 72 = 15876 := triOff_chunk_eq 9 72 15876 (by norm_num) rfl rfl
    unfold Cert.Tri.rank
    omega
  refine (out_piece10 (W66 m ρ c) b _ ⟨_, hT⟩ o hrank).trans ?_
  refine (chunk10 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT11.lean ====
/-
  Chunk 11's stored value, read at an index.

  The body stores one value over its whole result block: the eight pieces `tanh ((p₁ row r + p₂ rows r…) + bias)`,
  `r = 0 … 7`, laid one under the other and given a leading unit axis. With 176 rows of the second product in view,
  piece `r` has `176 - r` rows and starts at row `locOff 176 r`. So the stored value at row `locOff 176 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 11 stores, as a function of the three blocks it loads. -/
abbrev stored11 {F : FTy → Type} [FloatOps F] (x0 : Vec F S1x8x768 .f32) (x1 : Vec F S1x176x768 .f32) (x2 : Vec F S1x768 .f32) :
    Vec F S1x1380x768 .f32 :=
  k11_pay1 (k11_pay2 x0) (k11_pay3 x1) (k11_pay4 x2) (k11_pay5 x0 x1 x2) (k11_pay6 x0 x1 x2) (k11_pay7 x0 x1 x2) (k11_pay8 x0 x1 x2)
    (k11_pay9 x0 x1 x2) (k11_pay10 x0 x1 x2) (k11_pay11 x0 x1)

/-- The stored value at row `locOff 176 r + d` of its block pairs row `r` of the first block with row `r + d` of the
    second. -/
theorem pay11_apply (x0 : Vec Ideal S1x8x768 .f32) (x1 : Vec Ideal S1x176x768 .f32) (x2 : Vec Ideal S1x768 .f32)
    (r : Fin 8) (d : ℕ) (q : Fin 176) (hq : q.val = r.val + d) (p : Fin 1380) (hp : p.val = locOff 176 r.val + d) (o : Fin 768) :
    stored11 x0 x1 x2 (ix3 0 p o) = Ideal.tanh ((x0 (ix3 0 r o) + x1 (ix3 0 q o)) + x2 (ix2 0 o)) := by
  have hql := q.isLt
  unfold stored11 k11_pay1
  refine (shapeCast_ab_1ab_apply _ _ 0 p o).trans ?_
  match r, hq, hp with
  | ⟨0, _⟩, hq, hp =>
    have hq : q.val = 0 + d := hq
    have hp : p.val = locOff 176 0 + d := hp
    have hd : d < 176 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 176 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 176 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 176 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 176 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 176 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 176 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 176 7 + d := hp
    refine (cat8_at7 _ _ _ _ _ _ _ _ _ d (by omega) o p (by simp only [locOff] at hp; omega)).trans ?_
    -- the last piece has 169 rows; a last piece of a single row is stored without broadcasts and has its own lemma
    first
      | have single : (169 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT11.lean ====
/-
  Chunk 11's result array after its region, read at an index.

  The region's grid is the batch: point `t` loads batch `t`'s eight rows of the first product's slice, batch `t`'s 176
  rows of the second product's slice and the bias row, and writes back the whole block `t` of the result. What it
  writes is the body's stored value of those three blocks. So the result array is ONE function of the three arrays it
  reads — at batch `b`, row `p`: the stored value of batch `b`'s blocks at row `p` (`G11`) —, every point writes its
  block of that function (`flushed11_eq`), the four blocks cover the array (`cover11`), hence the array ends as that
  function (`arr11_eq`); and at row `locOff 176 r + d` the stored value is the pair of row `r` with row `r + d`
  (`final11`).
-/
import proofs.«116342_j30605936951494_1_alg».proof.Proof.KI.Reg11
import proofs.«116342_j30605936951494_1_alg».proof.Proof.KI.PayT11
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA11 : (![0, 0, 0] : Fin 3 → Nat) = fun _ => 0 := funext fun a => by fin_cases a <;> rfl
theorem hzB11 : (![0, 0] : Fin 2 → Nat) = fun _ => 0 := funext fun a => by fin_cases a <;> rfl

/-- The grid is the batch: point `t` works on batch `t`. -/
noncomputable def batch11 (t : Fin cfg11.N) : Fin 4 := ⟨t.val, lt_of_lt_of_eq t.isLt N_11⟩

/-- The printed index maps, decided over the four points: the three batched windows sit at block `(t, 0, 0)`, the bias
    row at its one block. -/
theorem idx_facts11 : ∀ t : Fin cfg11.N,
    win11_0.index t (0 : Fin 3) = t.val ∧ win11_0.index t (1 : Fin 3) = 0 ∧ win11_0.index t (2 : Fin 3) = 0
    ∧ win11_1.index t (0 : Fin 3) = t.val ∧ win11_1.index t (1 : Fin 3) = 0 ∧ win11_1.index t (2 : Fin 3) = 0
    ∧ win11_2.index t (0 : Fin 2) = 0 ∧ win11_2.index t (1 : Fin 2) = 0
    ∧ win11_3.index t (0 : Fin 3) = t.val ∧ win11_3.index t (1 : Fin 3) = 0 ∧ win11_3.index t (2 : Fin 3) = 0 :=
  (by decide +kernel : ∀ t : Fin grid11.N, _)

/-- Batch `b`'s eight rows of the first product's slice, as a block. -/
noncomputable def blk11_0 (c : Dev nD) (b : Fin 4) : Vec Ideal S1x8x768 .f32 :=
  fun y => (V c main_v34 : S4x8x768.Idx → EReal) (ix3 b (y 1 : Fin 8) (y 2 : Fin 768))
/-- Batch `b`'s 176 rows of the second product's slice, as a block. -/
noncomputable def blk11_1 (c : Dev nD) (b : Fin 4) : Vec Ideal S1x176x768 .f32 :=
  fun y => (V c main_v35 : S4x176x768.Idx → EReal) (ix3 b (y 1 : Fin 176) (y 2 : Fin 768))
/-- The bias row. -/
noncomputable def blk11_2 (c : Dev nD) : Vec Ideal S1x768 .f32 := fun y => (V c main_v4 : S1x768.Idx → EReal) y

theorem iblk11_0_eq (c : Dev nD) (t : Fin cfg11.N) : (iblk11 V c 0 t : Vec Ideal S1x8x768 .f32) = blk11_0 V c (batch11 t) := by
  obtain ⟨e0, e1, e2, -⟩ := idx_facts11 t
  funext y
  unfold iblk11 blk11_0
  rw [View.read_apply]
  show V c main_v34 _ = V c main_v34 _
  congr 1
  funext a
  apply Fin.ext
  match a with
  | ⟨0, _⟩ => show win11_0.index t (0 : Fin 3) * 1 + 1 * (y 0).val = t.val; have hy : (y 0).val < 1 := (y 0).isLt; omega
  | ⟨1, _⟩ => show win11_0.index t (1 : Fin 3) * 8 + 1 * (y 1).val = (y 1).val; omega
  | ⟨2, _⟩ => show win11_0.index t (2 : Fin 3) * 768 + 1 * (y 2).val = (y 2).val; omega

theorem iblk11_1_eq (c : Dev nD) (t : Fin cfg11.N) : (iblk11 V c 1 t : Vec Ideal S1x176x768 .f32) = blk11_1 V c (batch11 t) := by
  obtain ⟨-, -, -, e0, e1, e2, -⟩ := idx_facts11 t
  funext y
  unfold iblk11 blk11_1
  rw [View.read_apply]
  show V c main_v35 _ = V c main_v35 _
  congr 1
  funext a
  apply Fin.ext
  match a with
  | ⟨0, _⟩ => show win11_1.index t (0 : Fin 3) * 1 + 1 * (y 0).val = t.val; have hy : (y 0).val < 1 := (y 0).isLt; omega
  | ⟨1, _⟩ => show win11_1.index t (1 : Fin 3) * 176 + 1 * (y 1).val = (y 1).val; omega
  | ⟨2, _⟩ => show win11_1.index t (2 : Fin 3) * 768 + 1 * (y 2).val = (y 2).val; omega

theorem iblk11_2_eq (c : Dev nD) (t : Fin cfg11.N) : (iblk11 V c 2 t : Vec Ideal S1x768 .f32) = blk11_2 V c := by
  obtain ⟨-, -, -, -, -, -, e0, e1, -⟩ := idx_facts11 t
  funext y
  unfold iblk11 blk11_2
  rw [View.read_apply]
  show V c main_v4 _ = V c main_v4 _
  congr 1
  funext a
  apply Fin.ext
  match a with
  | ⟨0, _⟩ => show win11_2.index t (0 : Fin 2) * 1 + 1 * (y 0).val = (y 0).val; omega
  | ⟨1, _⟩ => show win11_2.index t (1 : Fin 2) * 768 + 1 * (y 1).val = (y 1).val; omega

/-- The result array as ONE function of the three arrays the chunk reads: at batch `b`, row `p`, the value the body
    stores for batch `b`'s blocks, read at row `p`. -/
noncomputable def G11 (c : Dev nD) : S4x1380x768.Idx → EReal :=
  fun i => stored11 (blk11_0 V c (i 0 : Fin 4)) (blk11_1 V c (i 0 : Fin 4)) (blk11_2 V c) (ix3 (0 : Fin 1) (i 1 : Fin 1380) (i 2 : Fin 768))

/-- What point `t` writes back is block `t` of `G11`. -/
theorem flushed11_eq (c : Dev nD) (t : Fin cfg11.N) :
    (dat11 (F := Ideal) V c).flushed 3 t = ((cfg11.win 3).blk t).view.read (Elt Ideal) (G11 V c) := by
  obtain ⟨-, -, -, -, -, -, -, -, e0, e1, e2⟩ := idx_facts11 t
  show (cfg11.win 3).cut (grid11.coords t) ((dat11 (F := Ideal) V c).after 3 t) = _
  rw [after11_3]
  unfold out11_3
  rw [View.canon_unit_zero hzA11]
  simp only [View.ld_unit_zero (S := S1x8x768) hzA11, View.ld_unit_zero (S := S1x176x768) hzA11, View.ld_unit_zero (S := S1x768) hzB11]
  rw [iblk11_0_eq, iblk11_1_eq, iblk11_2_eq]
  funext j
  show stored11 (blk11_0 V c (batch11 t)) (blk11_1 V c (batch11 t)) (blk11_2 V c) j = G11 V c (((cfg11.win 3).blk t).view.emb j)
  have hj0 : (j 0).val < 1 := (j 0).isLt
  have he : ((cfg11.win 3).blk t).view.emb j = (ix3 (batch11 t) (j 1 : Fin 1380) (j 2 : Fin 768) : S4x1380x768.Idx) := by
    funext a
    apply Fin.ext
    match a with
    | ⟨0, _⟩ => show win11_3.index t (0 : Fin 3) * 1 + 1 * (j 0).val = t.val; omega
    | ⟨1, _⟩ => show win11_3.index t (1 : Fin 3) * 1380 + 1 * (j 1).val = (j 1).val; omega
    | ⟨2, _⟩ => show win11_3.index t (2 : Fin 3) * 768 + 1 * (j 2).val = (j 2).val; omega
  rw [he]
  show _ = stored11 (blk11_0 V c (batch11 t)) (blk11_1 V c (batch11 t)) (blk11_2 V c) (ix3 (0 : Fin 1) (j 1 : Fin 1380) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk11 (t : Fin cfg11.N) (i : S4x1380x768.Idx) :
    i ∈ ((cfg11.win 3).blk t).view.set ↔ ∀ a : Fin 3, win11_3.index t a * S1x1380x768.size a ≤ (i a).val ∧ (i a).val < win11_3.index t a * S1x1380x768.size a + S1x1380x768.size a := by
  show i ∈ ((View.whole main_v36).slice (win11_3.rect t)).set ↔ _
  rw [View.set_slice_whole, Rect.mem_set_unit]
  exact Iff.rfl

/-- Batch `b` of the result is written by point `b`. -/
theorem cover11 (i : S4x1380x768.Idx) : ∃ t : Fin cfg11.N, (cfg11.win 3).flush t = true ∧ i ∈ ((cfg11.win 3).blk t).view.set := by
  have hi0 : (i 0).val < 4 := (i 0).isLt
  have hi1 : (i 1).val < 1380 := (i 1).isLt
  have hi2 : (i 2).val < 768 := (i 2).isLt
  let t : Fin cfg11.N := ⟨(i 0).val, lt_of_lt_of_eq hi0 N_11.symm⟩
  obtain ⟨-, -, -, -, -, -, -, -, e0, e1, e2⟩ := idx_facts11 t
  refine ⟨t, flush11_3 t, ?_⟩
  rw [mem_blk11]
  intro a
  match a with
  | ⟨0, _⟩ => show win11_3.index t (0 : Fin 3) * 1 ≤ (i 0).val ∧ (i 0).val < win11_3.index t (0 : Fin 3) * 1 + 1; rw [e0]; show (i 0).val * 1 ≤ (i 0).val ∧ (i 0).val < (i 0).val * 1 + 1; omega
  | ⟨1, _⟩ => show win11_3.index t (1 : Fin 3) * 1380 ≤ (i 1).val ∧ (i 1).val < win11_3.index t (1 : Fin 3) * 1380 + 1380; omega
  | ⟨2, _⟩ => show win11_3.index t (2 : Fin 3) * 768 ≤ (i 2).val ∧ (i 2).val < win11_3.index t (2 : Fin 3) * 768 + 768; omega

/-- The result array after the region is `G11`. -/
theorem arr11_eq (c : Dev nD) : (dat11 (F := Ideal) V c).arrAt 3 cfg11.N = G11 V c :=
  (dat11 (F := Ideal) V c).arrAt_eq_of_cover 3 (G11 V c) (fun t _ => flushed11_eq V c t) cover11

/-- The three arrays the chunk reads, at their literal types (so that their entries add as extended reals). -/
abbrev src11_0 (c : Dev nD) : S4x8x768.Idx → EReal := V c main_v34
abbrev src11_1 (c : Dev nD) : S4x176x768.Idx → EReal := V c main_v35
abbrev src11_2 (c : Dev nD) : S1x768.Idx → EReal := V c main_v4

/-- The result array at batch `b`, row `locOff 176 r + d`: the pair of row `r` of the first slice with row `r + d` of
    the second, at batch `b`. -/
theorem final11 (c : Dev nD) (b : Fin 4) (r : Fin 8) (d : ℕ) (q : Fin 176) (hq : q.val = r.val + d)
    (p : Fin 1380) (hp : p.val = locOff 176 r.val + d) (o : Fin 768) :
    (dat11 (F := Ideal) V c).arrAt 3 cfg11.N (ix3 b p o)
      = Ideal.tanh ((src11_0 V c (ix3 b r o) + src11_1 V c (ix3 b q o)) + src11_2 V c (ix2 0 o)) := by
  rw [arr11_eq]
  show stored11 (blk11_0 V c b) (blk11_1 V c b) (blk11_2 V c) (ix3 0 p o) = _
  rw [pay11_apply _ _ _ r d q hq p hp o]
  rfl

end Cert.KernelIdeal.Val

end
-- ==== Proof.KI.Case11.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT11
import proofs.«116342_j30605936951494_1_alg».proof.Proof.KI.PayLib

/-!
# Chunk 11 of the triangle: the pairs (i, j) with 80 ≤ i < 80 + 8

The chunk's region reads three arrays: its eight rows 80 … 80 + 7 of the first projection, the rows 80 … 255 of the
second, and the bias row, each cut by the host from what boundary 3 holds. Its result, still in place when the last
stretch reads it, holds at local row `locOff 176 r + d` the value of the pair (80 + r, 80 + r + d). In the packed
order the chunk starts at row 17320 = triOff 80 and the pair (i, j) sits at `triOff i + (j - i)`: with `r = i mod 8` and
`d = j - i` that is row 17320 + (locOff 176 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 176 r + d` holds the pair (80 + r, 80 + r + d). -/
theorem chunk11 (c : Dev nD) (b : Fin 4) (r : Fin 8) (d : ℕ) (hd : r.val + d < 176) (p : Fin 1380)
    (hp : p.val = locOff 176 r.val + d) (o : Fin 768) :
    (W66 m ρ c (Proc.devRef .tc main_v36) : Vec Ideal S4x1380x768 .f32) (ix3 b p o)
      = Cert.Tri.pairValue (argX m c) (argW m c) (argB m c) b ⟨80 + r.val, by omega⟩ ⟨80 + r.val + d, by omega⟩ o := by
  have e0 : src11_0 (V23 m ρ) c (ix3 b r o)
      = Cert.Tri.proj1 (argX m c) (argW m c) b ⟨80 + r.val, by omega⟩ o :=
    (host11_rows (W22 m ρ c) b r o ⟨80 + r.val, by omega⟩ rfl).trans
      ((congrFun (W22_main_v2 m ρ c) _).trans (p1_W3 m ρ c b _ o))
  have e1 : src11_1 (V23 m ρ) c (ix3 b (⟨r.val + d, hd⟩ : Fin 176) o)
      = Cert.Tri.proj2 (argX m c) (argW m c) b ⟨80 + r.val + d, by omega⟩ o :=
    (host11_pair (W22 m ρ c) b ⟨r.val + d, hd⟩ o ⟨80 + r.val + d, by omega⟩
        (by show 80 + r.val + d = 80 + (r.val + d); omega)).trans
      ((congrFun (W22_main_v3 m ρ c) _).trans (p2_W3 m ρ c b _ o))
  have e2 : src11_2 (V23 m ρ) c (ix2 0 o) = argB m c (ix1 o) :=
    (congrFun (W23_main_v4 m ρ c) _).trans (bias_W3 m ρ c 0 o)
  calc (W66 m ρ c (Proc.devRef .tc main_v36) : Vec Ideal S4x1380x768 .f32) (ix3 b p o)
      = ((dat11 (F := Ideal) (V23 m ρ) c).arrAt 3 cfg11.N : Vec Ideal S4x1380x768 .f32) (ix3 b p o) :=
        congrFun (out11_final m ρ c) _
    _ = Ideal.tanh ((src11_0 (V23 m ρ) c (ix3 b r o) + src11_1 (V23 m ρ) c (ix3 b (⟨r.val + d, hd⟩ : Fin 176) o))
          + src11_2 (V23 m ρ) c (ix2 0 o)) :=
        final11 (V23 m ρ) c b r d ⟨r.val + d, hd⟩ rfl p hp o
    _ = Cert.Tri.pairValue (argX m c) (argW m c) (argB m c) b ⟨80 + r.val, by omega⟩ ⟨80 + r.val + d, by omega⟩ o := by
        rw [e0, e1, e2]
        rfl

/-- The program's result at the rank of a pair (i, j) of this chunk (`i / 8 = 10`). -/
theorem case11 (c : Dev nD) (b : Fin 4) (i j : Fin 256) (o : Fin 768) (hij : i.val ≤ j.val) (hK : i.val / 8 = 10) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 80 + i.val % 8 = i.val := by omega
  have hj : 80 + i.val % 8 + (j.val - i.val) = j.val := by omega
  have hd : i.val % 8 + (j.val - i.val) < 176 := by have := j.isLt; omega
  have hT : locOff 176 (i.val % 8) + (j.val - i.val) < 1380 := by
    have := locOff_add_lt (L := 176) hr (by norm_num) hd
    omega
  have hrank : Cert.Tri.rank i.val j.val = 17320 + (locOff 176 (i.val % 8) + (j.val - i.val)) := by
    have h0 : Cert.Tri.triOff i.val = Cert.Tri.triOff (80 + i.val % 8) := congrArg Cert.Tri.triOff hi.symm
    have h1 : Cert.Tri.triOff (80 + i.val % 8) = Cert.Tri.triOff 80 + locOff 176 (i.val % 8) :=
      triOff_add_locOff 80 (i.val % 8)
    have h2 : Cert.Tri.triOff 80 = 17320 := triOff_chunk_eq 10 80 17320 (by norm_num) rfl rfl
    unfold Cert.Tri.rank
    omega
  refine (out_piece11 (W66 m ρ c) b _ ⟨_, hT⟩ o hrank).trans ?_
  refine (chunk11 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT12.lean ====
/-
  Chunk 12's stored value, read at an index.

  The body stores one value over its whole result block: the eight pieces `tanh ((p₁ row r + p₂ rows r…) + bias)`,
  `r = 0 … 7`, laid one under the other and given a leading unit axis. With 168 rows of the second product in view,
  piece `r` has `168 - r` rows and starts at row `locOff 168 r`. So the stored value at row `locOff 168 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 12 stores, as a function of the three blocks it loads. -/
abbrev stored12 {F : FTy → Type} [FloatOps F] (x0 : Vec F S1x8x768 .f32) (x1 : Vec F S1x168x768 .f32) (x2 : Vec F S1x768 .f32) :
    Vec F S1x1316x768 .f32 :=
  k12_pay1 (k12_pay2 x0) (k12_pay3 x1) (k12_pay4 x2) (k12_pay5 x0 x1 x2) (k12_pay6 x0 x1 x2) (k12_pay7 x0 x1 x2) (k12_pay8 x0 x1 x2)
    (k12_pay9 x0 x1 x2) (k12_pay10 x0 x1 x2) (k12_pay11 x0 x1)

/-- The stored value at row `locOff 168 r + d` of its block pairs row `r` of the first block with row `r + d` of the
    second. -/
theorem pay12_apply (x0 : Vec Ideal S1x8x768 .f32) (x1 : Vec Ideal S1x168x768 .f32) (x2 : Vec Ideal S1x768 .f32)
    (r : Fin 8) (d : ℕ) (q : Fin 168) (hq : q.val = r.val + d) (p : Fin 1316) (hp : p.val = locOff 168 r.val + d) (o : Fin 768) :
    stored12 x0 x1 x2 (ix3 0 p o) = Ideal.tanh ((x0 (ix3 0 r o) + x1 (ix3 0 q o)) + x2 (ix2 0 o)) := by
  have hql := q.isLt
  unfold stored12 k12_pay1
  refine (shapeCast_ab_1ab_apply _ _ 0 p o).trans ?_
  match r, hq, hp with
  | ⟨0, _⟩, hq, hp =>
    have hq : q.val = 0 + d := hq
    have hp : p.val = locOff 168 0 + d := hp
    have hd : d < 168 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 168 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 168 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 168 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 168 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 168 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 168 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 168 7 + d := hp
    refine (cat8_at7 _ _ _ _ _ _ _ _ _ d (by omega) o p (by simp only [locOff] at hp; omega)).trans ?_
    -- the last piece has 161 rows; a last piece of a single row is stored without broadcasts and has its own lemma
    first
      | have single : (161 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT12.lean ====
/-
  Chunk 12's result array after its region, read at an index.

  The region's grid is the batch: point `t` loads batch `t`'s eight rows of the first product's slice, batch `t`'s 168
  rows of the second product's slice and the bias row, and writes back the whole block `t` of the result. What it
  writes is the body's stored value of those three blocks. So the result array is ONE function of the three arrays it
  reads — at batch `b`, row `p`: the stored value of batch `b`'s blocks at row `p` (`G12`) —, every point writes its
  block of that function (`flushed12_eq`), the four blocks cover the array (`cover12`), hence the array ends as that
  function (`arr12_eq`); and at row `locOff 168 r + d` the stored value is the pair of row `r` with row `r + d`
  (`final12`).
-/
import proofs.«116342_j30605936951494_1_alg».proof.Proof.KI.Reg12
import proofs.«116342_j30605936951494_1_alg».proof.Proof.KI.PayT12
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA12 : (![0, 0, 0] : Fin 3 → Nat) = fun _ => 0 := funext fun a => by fin_cases a <;> rfl
theorem hzB12 : (![0, 0] : Fin 2 → Nat) = fun _ => 0 := funext fun a => by fin_cases a <;> rfl

/-- The grid is the batch: point `t` works on batch `t`. -/
noncomputable def batch12 (t : Fin cfg12.N) : Fin 4 := ⟨t.val, lt_of_lt_of_eq t.isLt N_12⟩

/-- The printed index maps, decided over the four points: the three batched windows sit at block `(t, 0, 0)`, the bias
    row at its one block. -/
theorem idx_facts12 : ∀ t : Fin cfg12.N,
    win12_0.index t (0 : Fin 3) = t.val ∧ win12_0.index t (1 : Fin 3) = 0 ∧ win12_0.index t (2 : Fin 3) = 0
    ∧ win12_1.index t (0 : Fin 3) = t.val ∧ win12_1.index t (1 : Fin 3) = 0 ∧ win12_1.index t (2 : Fin 3) = 0
    ∧ win12_2.index t (0 : Fin 2) = 0 ∧ win12_2.index t (1 : Fin 2) = 0
    ∧ win12_3.index t (0 : Fin 3) = t.val ∧ win12_3.index t (1 : Fin 3) = 0 ∧ win12_3.index t (2 : Fin 3) = 0 :=
  (by decide +kernel : ∀ t : Fin grid12.N, _)

/-- Batch `b`'s eight rows of the first product's slice, as a block. -/
noncomputable def blk12_0 (c : Dev nD) (b : Fin 4) : Vec Ideal S1x8x768 .f32 :=
  fun y => (V c main_v37 : S4x8x768.Idx → EReal) (ix3 b (y 1 : Fin 8) (y 2 : Fin 768))
/-- Batch `b`'s 168 rows of the second product's slice, as a block. -/
noncomputable def blk12_1 (c : Dev nD) (b : Fin 4) : Vec Ideal S1x168x768 .f32 :=
  fun y => (V c main_v38 : S4x168x768.Idx → EReal) (ix3 b (y 1 : Fin 168) (y 2 : Fin 768))
/-- The bias row. -/
noncomputable def blk12_2 (c : Dev nD) : Vec Ideal S1x768 .f32 := fun y => (V c main_v4 : S1x768.Idx → EReal) y

theorem iblk12_0_eq (c : Dev nD) (t : Fin cfg12.N) : (iblk12 V c 0 t : Vec Ideal S1x8x768 .f32) = blk12_0 V c (batch12 t) := by
  obtain ⟨e0, e1, e2, -⟩ := idx_facts12 t
  funext y
  unfold iblk12 blk12_0
  rw [View.read_apply]
  show V c main_v37 _ = V c main_v37 _
  congr 1
  funext a
  apply Fin.ext
  match a with
  | ⟨0, _⟩ => show win12_0.index t (0 : Fin 3) * 1 + 1 * (y 0).val = t.val; have hy : (y 0).val < 1 := (y 0).isLt; omega
  | ⟨1, _⟩ => show win12_0.index t (1 : Fin 3) * 8 + 1 * (y 1).val = (y 1).val; omega
  | ⟨2, _⟩ => show win12_0.index t (2 : Fin 3) * 768 + 1 * (y 2).val = (y 2).val; omega

theorem iblk12_1_eq (c : Dev nD) (t : Fin cfg12.N) : (iblk12 V c 1 t : Vec Ideal S1x168x768 .f32) = blk12_1 V c (batch12 t) := by
  obtain ⟨-, -, -, e0, e1, e2, -⟩ := idx_facts12 t
  funext y
  unfold iblk12 blk12_1
  rw [View.read_apply]
  show V c main_v38 _ = V c main_v38 _
  congr 1
  funext a
  apply Fin.ext
  match a with
  | ⟨0, _⟩ => show win12_1.index t (0 : Fin 3) * 1 + 1 * (y 0).val = t.val; have hy : (y 0).val < 1 := (y 0).isLt; omega
  | ⟨1, _⟩ => show win12_1.index t (1 : Fin 3) * 168 + 1 * (y 1).val = (y 1).val; omega
  | ⟨2, _⟩ => show win12_1.index t (2 : Fin 3) * 768 + 1 * (y 2).val = (y 2).val; omega

theorem iblk12_2_eq (c : Dev nD) (t : Fin cfg12.N) : (iblk12 V c 2 t : Vec Ideal S1x768 .f32) = blk12_2 V c := by
  obtain ⟨-, -, -, -, -, -, e0, e1, -⟩ := idx_facts12 t
  funext y
  unfold iblk12 blk12_2
  rw [View.read_apply]
  show V c main_v4 _ = V c main_v4 _
  congr 1
  funext a
  apply Fin.ext
  match a with
  | ⟨0, _⟩ => show win12_2.index t (0 : Fin 2) * 1 + 1 * (y 0).val = (y 0).val; omega
  | ⟨1, _⟩ => show win12_2.index t (1 : Fin 2) * 768 + 1 * (y 1).val = (y 1).val; omega

/-- The result array as ONE function of the three arrays the chunk reads: at batch `b`, row `p`, the value the body
    stores for batch `b`'s blocks, read at row `p`. -/
noncomputable def G12 (c : Dev nD) : S4x1316x768.Idx → EReal :=
  fun i => stored12 (blk12_0 V c (i 0 : Fin 4)) (blk12_1 V c (i 0 : Fin 4)) (blk12_2 V c) (ix3 (0 : Fin 1) (i 1 : Fin 1316) (i 2 : Fin 768))

/-- What point `t` writes back is block `t` of `G12`. -/
theorem flushed12_eq (c : Dev nD) (t : Fin cfg12.N) :
    (dat12 (F := Ideal) V c).flushed 3 t = ((cfg12.win 3).blk t).view.read (Elt Ideal) (G12 V c) := by
  obtain ⟨-, -, -, -, -, -, -, -, e0, e1, e2⟩ := idx_facts12 t
  show (cfg12.win 3).cut (grid12.coords t) ((dat12 (F := Ideal) V c).after 3 t) = _
  rw [after12_3]
  unfold out12_3
  rw [View.canon_unit_zero hzA12]
  simp only [View.ld_unit_zero (S := S1x8x768) hzA12, View.ld_unit_zero (S := S1x168x768) hzA12, View.ld_unit_zero (S := S1x768) hzB12]
  rw [iblk12_0_eq, iblk12_1_eq, iblk12_2_eq]
  funext j
  show stored12 (blk12_0 V c (batch12 t)) (blk12_1 V c (batch12 t)) (blk12_2 V c) j = G12 V c (((cfg12.win 3).blk t).view.emb j)
  have hj0 : (j 0).val < 1 := (j 0).isLt
  have he : ((cfg12.win 3).blk t).view.emb j = (ix3 (batch12 t) (j 1 : Fin 1316) (j 2 : Fin 768) : S4x1316x768.Idx) := by
    funext a
    apply Fin.ext
    match a with
    | ⟨0, _⟩ => show win12_3.index t (0 : Fin 3) * 1 + 1 * (j 0).val = t.val; omega
    | ⟨1, _⟩ => show win12_3.index t (1 : Fin 3) * 1316 + 1 * (j 1).val = (j 1).val; omega
    | ⟨2, _⟩ => show win12_3.index t (2 : Fin 3) * 768 + 1 * (j 2).val = (j 2).val; omega
  rw [he]
  show _ = stored12 (blk12_0 V c (batch12 t)) (blk12_1 V c (batch12 t)) (blk12_2 V c) (ix3 (0 : Fin 1) (j 1 : Fin 1316) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk12 (t : Fin cfg12.N) (i : S4x1316x768.Idx) :
    i ∈ ((cfg12.win 3).blk t).view.set ↔ ∀ a : Fin 3, win12_3.index t a * S1x1316x768.size a ≤ (i a).val ∧ (i a).val < win12_3.index t a * S1x1316x768.size a + S1x1316x768.size a := by
  show i ∈ ((View.whole main_v39).slice (win12_3.rect t)).set ↔ _
  rw [View.set_slice_whole, Rect.mem_set_unit]
  exact Iff.rfl

/-- Batch `b` of the result is written by point `b`. -/
theorem cover12 (i : S4x1316x768.Idx) : ∃ t : Fin cfg12.N, (cfg12.win 3).flush t = true ∧ i ∈ ((cfg12.win 3).blk t).view.set := by
  have hi0 : (i 0).val < 4 := (i 0).isLt
  have hi1 : (i 1).val < 1316 := (i 1).isLt
  have hi2 : (i 2).val < 768 := (i 2).isLt
  let t : Fin cfg12.N := ⟨(i 0).val, lt_of_lt_of_eq hi0 N_12.symm⟩
  obtain ⟨-, -, -, -, -, -, -, -, e0, e1, e2⟩ := idx_facts12 t
  refine ⟨t, flush12_3 t, ?_⟩
  rw [mem_blk12]
  intro a
  match a with
  | ⟨0, _⟩ => show win12_3.index t (0 : Fin 3) * 1 ≤ (i 0).val ∧ (i 0).val < win12_3.index t (0 : Fin 3) * 1 + 1; rw [e0]; show (i 0).val * 1 ≤ (i 0).val ∧ (i 0).val < (i 0).val * 1 + 1; omega
  | ⟨1, _⟩ => show win12_3.index t (1 : Fin 3) * 1316 ≤ (i 1).val ∧ (i 1).val < win12_3.index t (1 : Fin 3) * 1316 + 1316; omega
  | ⟨2, _⟩ => show win12_3.index t (2 : Fin 3) * 768 ≤ (i 2).val ∧ (i 2).val < win12_3.index t (2 : Fin 3) * 768 + 768; omega

/-- The result array after the region is `G12`. -/
theorem arr12_eq (c : Dev nD) : (dat12 (F := Ideal) V c).arrAt 3 cfg12.N = G12 V c :=
  (dat12 (F := Ideal) V c).arrAt_eq_of_cover 3 (G12 V c) (fun t _ => flushed12_eq V c t) cover12

/-- The three arrays the chunk reads, at their literal types (so that their entries add as extended reals). -/
abbrev src12_0 (c : Dev nD) : S4x8x768.Idx → EReal := V c main_v37
abbrev src12_1 (c : Dev nD) : S4x168x768.Idx → EReal := V c main_v38
abbrev src12_2 (c : Dev nD) : S1x768.Idx → EReal := V c main_v4

/-- The result array at batch `b`, row `locOff 168 r + d`: the pair of row `r` of the first slice with row `r + d` of
    the second, at batch `b`. -/
theorem final12 (c : Dev nD) (b : Fin 4) (r : Fin 8) (d : ℕ) (q : Fin 168) (hq : q.val = r.val + d)
    (p : Fin 1316) (hp : p.val = locOff 168 r.val + d) (o : Fin 768) :
    (dat12 (F := Ideal) V c).arrAt 3 cfg12.N (ix3 b p o)
      = Ideal.tanh ((src12_0 V c (ix3 b r o) + src12_1 V c (ix3 b q o)) + src12_2 V c (ix2 0 o)) := by
  rw [arr12_eq]
  show stored12 (blk12_0 V c b) (blk12_1 V c b) (blk12_2 V c) (ix3 0 p o) = _
  rw [pay12_apply _ _ _ r d q hq p hp o]
  rfl

end Cert.KernelIdeal.Val

end
-- ==== Proof.KI.Case12.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT12
import proofs.«116342_j30605936951494_1_alg».proof.Proof.KI.PayLib

/-!
# Chunk 12 of the triangle: the pairs (i, j) with 88 ≤ i < 88 + 8

The chunk's region reads three arrays: its eight rows 88 … 88 + 7 of the first projection, the rows 88 … 255 of the
second, and the bias row, each cut by the host from what boundary 3 holds. Its result, still in place when the last
stretch reads it, holds at local row `locOff 168 r + d` the value of the pair (88 + r, 88 + r + d). In the packed
order the chunk starts at row 18700 = triOff 88 and the pair (i, j) sits at `triOff i + (j - i)`: with `r = i mod 8` and
`d = j - i` that is row 18700 + (locOff 168 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 168 r + d` holds the pair (88 + r, 88 + r + d). -/
theorem chunk12 (c : Dev nD) (b : Fin 4) (r : Fin 8) (d : ℕ) (hd : r.val + d < 168) (p : Fin 1316)
    (hp : p.val = locOff 168 r.val + d) (o : Fin 768) :
    (W66 m ρ c (Proc.devRef .tc main_v39) : Vec Ideal S4x1316x768 .f32) (ix3 b p o)
      = Cert.Tri.pairValue (argX m c) (argW m c) (argB m c) b ⟨88 + r.val, by omega⟩ ⟨88 + r.val + d, by omega⟩ o := by
  have e0 : src12_0 (V25 m ρ) c (ix3 b r o)
      = Cert.Tri.proj1 (argX m c) (argW m c) b ⟨88 + r.val, by omega⟩ o :=
    (host12_rows (W24 m ρ c) b r o ⟨88 + r.val, by omega⟩ rfl).trans
      ((congrFun (W24_main_v2 m ρ c) _).trans (p1_W3 m ρ c b _ o))
  have e1 : src12_1 (V25 m ρ) c (ix3 b (⟨r.val + d, hd⟩ : Fin 168) o)
      = Cert.Tri.proj2 (argX m c) (argW m c) b ⟨88 + r.val + d, by omega⟩ o :=
    (host12_pair (W24 m ρ c) b ⟨r.val + d, hd⟩ o ⟨88 + r.val + d, by omega⟩
        (by show 88 + r.val + d = 88 + (r.val + d); omega)).trans
      ((congrFun (W24_main_v3 m ρ c) _).trans (p2_W3 m ρ c b _ o))
  have e2 : src12_2 (V25 m ρ) c (ix2 0 o) = argB m c (ix1 o) :=
    (congrFun (W25_main_v4 m ρ c) _).trans (bias_W3 m ρ c 0 o)
  calc (W66 m ρ c (Proc.devRef .tc main_v39) : Vec Ideal S4x1316x768 .f32) (ix3 b p o)
      = ((dat12 (F := Ideal) (V25 m ρ) c).arrAt 3 cfg12.N : Vec Ideal S4x1316x768 .f32) (ix3 b p o) :=
        congrFun (out12_final m ρ c) _
    _ = Ideal.tanh ((src12_0 (V25 m ρ) c (ix3 b r o) + src12_1 (V25 m ρ) c (ix3 b (⟨r.val + d, hd⟩ : Fin 168) o))
          + src12_2 (V25 m ρ) c (ix2 0 o)) :=
        final12 (V25 m ρ) c b r d ⟨r.val + d, hd⟩ rfl p hp o
    _ = Cert.Tri.pairValue (argX m c) (argW m c) (argB m c) b ⟨88 + r.val, by omega⟩ ⟨88 + r.val + d, by omega⟩ o := by
        rw [e0, e1, e2]
        rfl

/-- The program's result at the rank of a pair (i, j) of this chunk (`i / 8 = 11`). -/
theorem case12 (c : Dev nD) (b : Fin 4) (i j : Fin 256) (o : Fin 768) (hij : i.val ≤ j.val) (hK : i.val / 8 = 11) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 88 + i.val % 8 = i.val := by omega
  have hj : 88 + i.val % 8 + (j.val - i.val) = j.val := by omega
  have hd : i.val % 8 + (j.val - i.val) < 168 := by have := j.isLt; omega
  have hT : locOff 168 (i.val % 8) + (j.val - i.val) < 1316 := by
    have := locOff_add_lt (L := 168) hr (by norm_num) hd
    omega
  have hrank : Cert.Tri.rank i.val j.val = 18700 + (locOff 168 (i.val % 8) + (j.val - i.val)) := by
    have h0 : Cert.Tri.triOff i.val = Cert.Tri.triOff (88 + i.val % 8) := congrArg Cert.Tri.triOff hi.symm
    have h1 : Cert.Tri.triOff (88 + i.val % 8) = Cert.Tri.triOff 88 + locOff 168 (i.val % 8) :=
      triOff_add_locOff 88 (i.val % 8)
    have h2 : Cert.Tri.triOff 88 = 18700 := triOff_chunk_eq 11 88 18700 (by norm_num) rfl rfl
    unfold Cert.Tri.rank
    omega
  refine (out_piece12 (W66 m ρ c) b _ ⟨_, hT⟩ o hrank).trans ?_
  refine (chunk12 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT13.lean ====
/-
  Chunk 13's stored value, read at an index.

  The body stores one value over its whole result block: the eight pieces `tanh ((p₁ row r + p₂ rows r…) + bias)`,
  `r = 0 … 7`, laid one under the other and given a leading unit axis. With 160 rows of the second product in view,
  piece `r` has `160 - r` rows and starts at row `locOff 160 r`. So the stored value at row `locOff 160 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 13 stores, as a function of the three blocks it loads. -/
abbrev stored13 {F : FTy → Type} [FloatOps F] (x0 : Vec F S1x8x768 .f32) (x1 : Vec F S1x160x768 .f32) (x2 : Vec F S1x768 .f32) :
    Vec F S1x1252x768 .f32 :=
  k13_pay1 (k13_pay2 x0) (k13_pay3 x1) (k13_pay4 x2) (k13_pay5 x0 x1 x2) (k13_pay6 x0 x1 x2) (k13_pay7 x0 x1 x2) (k13_pay8 x0 x1 x2)
    (k13_pay9 x0 x1 x2) (k13_pay10 x0 x1 x2) (k13_pay11 x0 x1)

/-- The stored value at row `locOff 160 r + d` of its block pairs row `r` of the first block with row `r + d` of the
    second. -/
theorem pay13_apply (x0 : Vec Ideal S1x8x768 .f32) (x1 : Vec Ideal S1x160x768 .f32) (x2 : Vec Ideal S1x768 .f32)
    (r : Fin 8) (d : ℕ) (q : Fin 160) (hq : q.val = r.val + d) (p : Fin 1252) (hp : p.val = locOff 160 r.val + d) (o : Fin 768) :
    stored13 x0 x1 x2 (ix3 0 p o) = Ideal.tanh ((x0 (ix3 0 r o) + x1 (ix3 0 q o)) + x2 (ix2 0 o)) := by
  have hql := q.isLt
  unfold stored13 k13_pay1
  refine (shapeCast_ab_1ab_apply _ _ 0 p o).trans ?_
  match r, hq, hp with
  | ⟨0, _⟩, hq, hp =>
    have hq : q.val = 0 + d := hq
    have hp : p.val = locOff 160 0 + d := hp
    have hd : d < 160 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 160 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 160 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 160 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 160 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 160 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 160 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 160 7 + d := hp
    refine (cat8_at7 _ _ _ _ _ _ _ _ _ d (by omega) o p (by simp only [locOff] at hp; omega)).trans ?_
    -- the last piece has 153 rows; a last piece of a single row is stored without broadcasts and has its own lemma
    first
      | have single : (153 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT13.lean ====
/-
  Chunk 13's result array after its region, read at an index.

  The region's grid is the batch: point `t` loads batch `t`'s eight rows of the first product's slice, batch `t`'s 160
  rows of the second product's slice and the bias row, and writes back the whole block `t` of the result. What it
  writes is the body's stored value of those three blocks. So the result array is ONE function of the three arrays it
  reads — at batch `b`, row `p`: the stored value of batch `b`'s blocks at row `p` (`G13`) —, every point writes its
  block of that function (`flushed13_eq`), the four blocks cover the array (`cover13`), hence the array ends as that
  function (`arr13_eq`); and at row `locOff 160 r + d` the stored value is the pair of row `r` with row `r + d`
  (`final13`).
-/
import proofs.«116342_j30605936951494_1_alg».proof.Proof.KI.Reg13
import proofs.«116342_j30605936951494_1_alg».proof.Proof.KI.PayT13
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA13 : (![0, 0, 0] : Fin 3 → Nat) = fun _ => 0 := funext fun a => by fin_cases a <;> rfl
theorem hzB13 : (![0, 0] : Fin 2 → Nat) = fun _ => 0 := funext fun a => by fin_cases a <;> rfl

/-- The grid is the batch: point `t` works on batch `t`. -/
noncomputable def batch13 (t : Fin cfg13.N) : Fin 4 := ⟨t.val, lt_of_lt_of_eq t.isLt N_13⟩

/-- The printed index maps, decided over the four points: the three batched windows sit at block `(t, 0, 0)`, the bias
    row at its one block. -/
theorem idx_facts13 : ∀ t : Fin cfg13.N,
    win13_0.index t (0 : Fin 3) = t.val ∧ win13_0.index t (1 : Fin 3) = 0 ∧ win13_0.index t (2 : Fin 3) = 0
    ∧ win13_1.index t (0 : Fin 3) = t.val ∧ win13_1.index t (1 : Fin 3) = 0 ∧ win13_1.index t (2 : Fin 3) = 0
    ∧ win13_2.index t (0 : Fin 2) = 0 ∧ win13_2.index t (1 : Fin 2) = 0
    ∧ win13_3.index t (0 : Fin 3) = t.val ∧ win13_3.index t (1 : Fin 3) = 0 ∧ win13_3.index t (2 : Fin 3) = 0 :=
  (by decide +kernel : ∀ t : Fin grid13.N, _)

/-- Batch `b`'s eight rows of the first product's slice, as a block. -/
noncomputable def blk13_0 (c : Dev nD) (b : Fin 4) : Vec Ideal S1x8x768 .f32 :=
  fun y => (V c main_v40 : S4x8x768.Idx → EReal) (ix3 b (y 1 : Fin 8) (y 2 : Fin 768))
/-- Batch `b`'s 160 rows of the second product's slice, as a block. -/
noncomputable def blk13_1 (c : Dev nD) (b : Fin 4) : Vec Ideal S1x160x768 .f32 :=
  fun y => (V c main_v41 : S4x160x768.Idx → EReal) (ix3 b (y 1 : Fin 160) (y 2 : Fin 768))
/-- The bias row. -/
noncomputable def blk13_2 (c : Dev nD) : Vec Ideal S1x768 .f32 := fun y => (V c main_v4 : S1x768.Idx → EReal) y

theorem iblk13_0_eq (c : Dev nD) (t : Fin cfg13.N) : (iblk13 V c 0 t : Vec Ideal S1x8x768 .f32) = blk13_0 V c (batch13 t) := by
  obtain ⟨e0, e1, e2, -⟩ := idx_facts13 t
  funext y
  unfold iblk13 blk13_0
  rw [View.read_apply]
  show V c main_v40 _ = V c main_v40 _
  congr 1
  funext a
  apply Fin.ext
  match a with
  | ⟨0, _⟩ => show win13_0.index t (0 : Fin 3) * 1 + 1 * (y 0).val = t.val; have hy : (y 0).val < 1 := (y 0).isLt; omega
  | ⟨1, _⟩ => show win13_0.index t (1 : Fin 3) * 8 + 1 * (y 1).val = (y 1).val; omega
  | ⟨2, _⟩ => show win13_0.index t (2 : Fin 3) * 768 + 1 * (y 2).val = (y 2).val; omega

theorem iblk13_1_eq (c : Dev nD) (t : Fin cfg13.N) : (iblk13 V c 1 t : Vec Ideal S1x160x768 .f32) = blk13_1 V c (batch13 t) := by
  obtain ⟨-, -, -, e0, e1, e2, -⟩ := idx_facts13 t
  funext y
  unfold iblk13 blk13_1
  rw [View.read_apply]
  show V c main_v41 _ = V c main_v41 _
  congr 1
  funext a
  apply Fin.ext
  match a with
  | ⟨0, _⟩ => show win13_1.index t (0 : Fin 3) * 1 + 1 * (y 0).val = t.val; have hy : (y 0).val < 1 := (y 0).isLt; omega
  | ⟨1, _⟩ => show win13_1.index t (1 : Fin 3) * 160 + 1 * (y 1).val = (y 1).val; omega
  | ⟨2, _⟩ => show win13_1.index t (2 : Fin 3) * 768 + 1 * (y 2).val = (y 2).val; omega

theorem iblk13_2_eq (c : Dev nD) (t : Fin cfg13.N) : (iblk13 V c 2 t : Vec Ideal S1x768 .f32) = blk13_2 V c := by
  obtain ⟨-, -, -, -, -, -, e0, e1, -⟩ := idx_facts13 t
  funext y
  unfold iblk13 blk13_2
  rw [View.read_apply]
  show V c main_v4 _ = V c main_v4 _
  congr 1
  funext a
  apply Fin.ext
  match a with
  | ⟨0, _⟩ => show win13_2.index t (0 : Fin 2) * 1 + 1 * (y 0).val = (y 0).val; omega
  | ⟨1, _⟩ => show win13_2.index t (1 : Fin 2) * 768 + 1 * (y 1).val = (y 1).val; omega

/-- The result array as ONE function of the three arrays the chunk reads: at batch `b`, row `p`, the value the body
    stores for batch `b`'s blocks, read at row `p`. -/
noncomputable def G13 (c : Dev nD) : S4x1252x768.Idx → EReal :=
  fun i => stored13 (blk13_0 V c (i 0 : Fin 4)) (blk13_1 V c (i 0 : Fin 4)) (blk13_2 V c) (ix3 (0 : Fin 1) (i 1 : Fin 1252) (i 2 : Fin 768))

/-- What point `t` writes back is block `t` of `G13`. -/
theorem flushed13_eq (c : Dev nD) (t : Fin cfg13.N) :
    (dat13 (F := Ideal) V c).flushed 3 t = ((cfg13.win 3).blk t).view.read (Elt Ideal) (G13 V c) := by
  obtain ⟨-, -, -, -, -, -, -, -, e0, e1, e2⟩ := idx_facts13 t
  show (cfg13.win 3).cut (grid13.coords t) ((dat13 (F := Ideal) V c).after 3 t) = _
  rw [after13_3]
  unfold out13_3
  rw [View.canon_unit_zero hzA13]
  simp only [View.ld_unit_zero (S := S1x8x768) hzA13, View.ld_unit_zero (S := S1x160x768) hzA13, View.ld_unit_zero (S := S1x768) hzB13]
  rw [iblk13_0_eq, iblk13_1_eq, iblk13_2_eq]
  funext j
  show stored13 (blk13_0 V c (batch13 t)) (blk13_1 V c (batch13 t)) (blk13_2 V c) j = G13 V c (((cfg13.win 3).blk t).view.emb j)
  have hj0 : (j 0).val < 1 := (j 0).isLt
  have he : ((cfg13.win 3).blk t).view.emb j = (ix3 (batch13 t) (j 1 : Fin 1252) (j 2 : Fin 768) : S4x1252x768.Idx) := by
    funext a
    apply Fin.ext
    match a with
    | ⟨0, _⟩ => show win13_3.index t (0 : Fin 3) * 1 + 1 * (j 0).val = t.val; omega
    | ⟨1, _⟩ => show win13_3.index t (1 : Fin 3) * 1252 + 1 * (j 1).val = (j 1).val; omega
    | ⟨2, _⟩ => show win13_3.index t (2 : Fin 3) * 768 + 1 * (j 2).val = (j 2).val; omega
  rw [he]
  show _ = stored13 (blk13_0 V c (batch13 t)) (blk13_1 V c (batch13 t)) (blk13_2 V c) (ix3 (0 : Fin 1) (j 1 : Fin 1252) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk13 (t : Fin cfg13.N) (i : S4x1252x768.Idx) :
    i ∈ ((cfg13.win 3).blk t).view.set ↔ ∀ a : Fin 3, win13_3.index t a * S1x1252x768.size a ≤ (i a).val ∧ (i a).val < win13_3.index t a * S1x1252x768.size a + S1x1252x768.size a := by
  show i ∈ ((View.whole main_v42).slice (win13_3.rect t)).set ↔ _
  rw [View.set_slice_whole, Rect.mem_set_unit]
  exact Iff.rfl

/-- Batch `b` of the result is written by point `b`. -/
theorem cover13 (i : S4x1252x768.Idx) : ∃ t : Fin cfg13.N, (cfg13.win 3).flush t = true ∧ i ∈ ((cfg13.win 3).blk t).view.set := by
  have hi0 : (i 0).val < 4 := (i 0).isLt
  have hi1 : (i 1).val < 1252 := (i 1).isLt
  have hi2 : (i 2).val < 768 := (i 2).isLt
  let t : Fin cfg13.N := ⟨(i 0).val, lt_of_lt_of_eq hi0 N_13.symm⟩
  obtain ⟨-, -, -, -, -, -, -, -, e0, e1, e2⟩ := idx_facts13 t
  refine ⟨t, flush13_3 t, ?_⟩
  rw [mem_blk13]
  intro a
  match a with
  | ⟨0, _⟩ => show win13_3.index t (0 : Fin 3) * 1 ≤ (i 0).val ∧ (i 0).val < win13_3.index t (0 : Fin 3) * 1 + 1; rw [e0]; show (i 0).val * 1 ≤ (i 0).val ∧ (i 0).val < (i 0).val * 1 + 1; omega
  | ⟨1, _⟩ => show win13_3.index t (1 : Fin 3) * 1252 ≤ (i 1).val ∧ (i 1).val < win13_3.index t (1 : Fin 3) * 1252 + 1252; omega
  | ⟨2, _⟩ => show win13_3.index t (2 : Fin 3) * 768 ≤ (i 2).val ∧ (i 2).val < win13_3.index t (2 : Fin 3) * 768 + 768; omega

/-- The result array after the region is `G13`. -/
theorem arr13_eq (c : Dev nD) : (dat13 (F := Ideal) V c).arrAt 3 cfg13.N = G13 V c :=
  (dat13 (F := Ideal) V c).arrAt_eq_of_cover 3 (G13 V c) (fun t _ => flushed13_eq V c t) cover13

/-- The three arrays the chunk reads, at their literal types (so that their entries add as extended reals). -/
abbrev src13_0 (c : Dev nD) : S4x8x768.Idx → EReal := V c main_v40
abbrev src13_1 (c : Dev nD) : S4x160x768.Idx → EReal := V c main_v41
abbrev src13_2 (c : Dev nD) : S1x768.Idx → EReal := V c main_v4

/-- The result array at batch `b`, row `locOff 160 r + d`: the pair of row `r` of the first slice with row `r + d` of
    the second, at batch `b`. -/
theorem final13 (c : Dev nD) (b : Fin 4) (r : Fin 8) (d : ℕ) (q : Fin 160) (hq : q.val = r.val + d)
    (p : Fin 1252) (hp : p.val = locOff 160 r.val + d) (o : Fin 768) :
    (dat13 (F := Ideal) V c).arrAt 3 cfg13.N (ix3 b p o)
      = Ideal.tanh ((src13_0 V c (ix3 b r o) + src13_1 V c (ix3 b q o)) + src13_2 V c (ix2 0 o)) := by
  rw [arr13_eq]
  show stored13 (blk13_0 V c b) (blk13_1 V c b) (blk13_2 V c) (ix3 0 p o) = _
  rw [pay13_apply _ _ _ r d q hq p hp o]
  rfl

end Cert.KernelIdeal.Val

end
-- ==== Proof.KI.Case13.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT13
import proofs.«116342_j30605936951494_1_alg».proof.Proof.KI.PayLib

/-!
# Chunk 13 of the triangle: the pairs (i, j) with 96 ≤ i < 96 + 8

The chunk's region reads three arrays: its eight rows 96 … 96 + 7 of the first projection, the rows 96 … 255 of the
second, and the bias row, each cut by the host from what boundary 3 holds. Its result, still in place when the last
stretch reads it, holds at local row `locOff 160 r + d` the value of the pair (96 + r, 96 + r + d). In the packed
order the chunk starts at row 20016 = triOff 96 and the pair (i, j) sits at `triOff i + (j - i)`: with `r = i mod 8` and
`d = j - i` that is row 20016 + (locOff 160 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 160 r + d` holds the pair (96 + r, 96 + r + d). -/
theorem chunk13 (c : Dev nD) (b : Fin 4) (r : Fin 8) (d : ℕ) (hd : r.val + d < 160) (p : Fin 1252)
    (hp : p.val = locOff 160 r.val + d) (o : Fin 768) :
    (W66 m ρ c (Proc.devRef .tc main_v42) : Vec Ideal S4x1252x768 .f32) (ix3 b p o)
      = Cert.Tri.pairValue (argX m c) (argW m c) (argB m c) b ⟨96 + r.val, by omega⟩ ⟨96 + r.val + d, by omega⟩ o := by
  have e0 : src13_0 (V27 m ρ) c (ix3 b r o)
      = Cert.Tri.proj1 (argX m c) (argW m c) b ⟨96 + r.val, by omega⟩ o :=
    (host13_rows (W26 m ρ c) b r o ⟨96 + r.val, by omega⟩ rfl).trans
      ((congrFun (W26_main_v2 m ρ c) _).trans (p1_W3 m ρ c b _ o))
  have e1 : src13_1 (V27 m ρ) c (ix3 b (⟨r.val + d, hd⟩ : Fin 160) o)
      = Cert.Tri.proj2 (argX m c) (argW m c) b ⟨96 + r.val + d, by omega⟩ o :=
    (host13_pair (W26 m ρ c) b ⟨r.val + d, hd⟩ o ⟨96 + r.val + d, by omega⟩
        (by show 96 + r.val + d = 96 + (r.val + d); omega)).trans
      ((congrFun (W26_main_v3 m ρ c) _).trans (p2_W3 m ρ c b _ o))
  have e2 : src13_2 (V27 m ρ) c (ix2 0 o) = argB m c (ix1 o) :=
    (congrFun (W27_main_v4 m ρ c) _).trans (bias_W3 m ρ c 0 o)
  calc (W66 m ρ c (Proc.devRef .tc main_v42) : Vec Ideal S4x1252x768 .f32) (ix3 b p o)
      = ((dat13 (F := Ideal) (V27 m ρ) c).arrAt 3 cfg13.N : Vec Ideal S4x1252x768 .f32) (ix3 b p o) :=
        congrFun (out13_final m ρ c) _
    _ = Ideal.tanh ((src13_0 (V27 m ρ) c (ix3 b r o) + src13_1 (V27 m ρ) c (ix3 b (⟨r.val + d, hd⟩ : Fin 160) o))
          + src13_2 (V27 m ρ) c (ix2 0 o)) :=
        final13 (V27 m ρ) c b r d ⟨r.val + d, hd⟩ rfl p hp o
    _ = Cert.Tri.pairValue (argX m c) (argW m c) (argB m c) b ⟨96 + r.val, by omega⟩ ⟨96 + r.val + d, by omega⟩ o := by
        rw [e0, e1, e2]
        rfl

/-- The program's result at the rank of a pair (i, j) of this chunk (`i / 8 = 12`). -/
theorem case13 (c : Dev nD) (b : Fin 4) (i j : Fin 256) (o : Fin 768) (hij : i.val ≤ j.val) (hK : i.val / 8 = 12) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 96 + i.val % 8 = i.val := by omega
  have hj : 96 + i.val % 8 + (j.val - i.val) = j.val := by omega
  have hd : i.val % 8 + (j.val - i.val) < 160 := by have := j.isLt; omega
  have hT : locOff 160 (i.val % 8) + (j.val - i.val) < 1252 := by
    have := locOff_add_lt (L := 160) hr (by norm_num) hd
    omega
  have hrank : Cert.Tri.rank i.val j.val = 20016 + (locOff 160 (i.val % 8) + (j.val - i.val)) := by
    have h0 : Cert.Tri.triOff i.val = Cert.Tri.triOff (96 + i.val % 8) := congrArg Cert.Tri.triOff hi.symm
    have h1 : Cert.Tri.triOff (96 + i.val % 8) = Cert.Tri.triOff 96 + locOff 160 (i.val % 8) :=
      triOff_add_locOff 96 (i.val % 8)
    have h2 : Cert.Tri.triOff 96 = 20016 := triOff_chunk_eq 12 96 20016 (by norm_num) rfl rfl
    unfold Cert.Tri.rank
    omega
  refine (out_piece13 (W66 m ρ c) b _ ⟨_, hT⟩ o hrank).trans ?_
  refine (chunk13 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT14.lean ====
/-
  Chunk 14's stored value, read at an index.

  The body stores one value over its whole result block: the eight pieces `tanh ((p₁ row r + p₂ rows r…) + bias)`,
  `r = 0 … 7`, laid one under the other and given a leading unit axis. With 152 rows of the second product in view,
  piece `r` has `152 - r` rows and starts at row `locOff 152 r`. So the stored value at row `locOff 152 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 14 stores, as a function of the three blocks it loads. -/
abbrev stored14 {F : FTy → Type} [FloatOps F] (x0 : Vec F S1x8x768 .f32) (x1 : Vec F S1x152x768 .f32) (x2 : Vec F S1x768 .f32) :
    Vec F S1x1188x768 .f32 :=
  k14_pay1 (k14_pay2 x0) (k14_pay3 x1) (k14_pay4 x2) (k14_pay5 x0 x1 x2) (k14_pay6 x0 x1 x2) (k14_pay7 x0 x1 x2) (k14_pay8 x0 x1 x2)
    (k14_pay9 x0 x1 x2) (k14_pay10 x0 x1 x2) (k14_pay11 x0 x1)

/-- The stored value at row `locOff 152 r + d` of its block pairs row `r` of the first block with row `r + d` of the
    second. -/
theorem pay14_apply (x0 : Vec Ideal S1x8x768 .f32) (x1 : Vec Ideal S1x152x768 .f32) (x2 : Vec Ideal S1x768 .f32)
    (r : Fin 8) (d : ℕ) (q : Fin 152) (hq : q.val = r.val + d) (p : Fin 1188) (hp : p.val = locOff 152 r.val + d) (o : Fin 768) :
    stored14 x0 x1 x2 (ix3 0 p o) = Ideal.tanh ((x0 (ix3 0 r o) + x1 (ix3 0 q o)) + x2 (ix2 0 o)) := by
  have hql := q.isLt
  unfold stored14 k14_pay1
  refine (shapeCast_ab_1ab_apply _ _ 0 p o).trans ?_
  match r, hq, hp with
  | ⟨0, _⟩, hq, hp =>
    have hq : q.val = 0 + d := hq
    have hp : p.val = locOff 152 0 + d := hp
    have hd : d < 152 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 152 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 152 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 152 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 152 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 152 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 152 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 152 7 + d := hp
    refine (cat8_at7 _ _ _ _ _ _ _ _ _ d (by omega) o p (by simp only [locOff] at hp; omega)).trans ?_
    -- the last piece has 145 rows; a last piece of a single row is stored without broadcasts and has its own lemma
    first
      | have single : (145 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT14.lean ====
/-
  Chunk 14's result array after its region, read at an index.

  The region's grid is the batch: point `t` loads batch `t`'s eight rows of the first product's slice, batch `t`'s 152
  rows of the second product's slice and the bias row, and writes back the whole block `t` of the result. What it
  writes is the body's stored value of those three blocks. So the result array is ONE function of the three arrays it
  reads — at batch `b`, row `p`: the stored value of batch `b`'s blocks at row `p` (`G14`) —, every point writes its
  block of that function (`flushed14_eq`), the four blocks cover the array (`cover14`), hence the array ends as that
  function (`arr14_eq`); and at row `locOff 152 r + d` the stored value is the pair of row `r` with row `r + d`
  (`final14`).
-/
import proofs.«116342_j30605936951494_1_alg».proof.Proof.KI.Reg14
import proofs.«116342_j30605936951494_1_alg».proof.Proof.KI.PayT14
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA14 : (![0, 0, 0] : Fin 3 → Nat) = fun _ => 0 := funext fun a => by fin_cases a <;> rfl
theorem hzB14 : (![0, 0] : Fin 2 → Nat) = fun _ => 0 := funext fun a => by fin_cases a <;> rfl

/-- The grid is the batch: point `t` works on batch `t`. -/
noncomputable def batch14 (t : Fin cfg14.N) : Fin 4 := ⟨t.val, lt_of_lt_of_eq t.isLt N_14⟩

/-- The printed index maps, decided over the four points: the three batched windows sit at block `(t, 0, 0)`, the bias
    row at its one block. -/
theorem idx_facts14 : ∀ t : Fin cfg14.N,
    win14_0.index t (0 : Fin 3) = t.val ∧ win14_0.index t (1 : Fin 3) = 0 ∧ win14_0.index t (2 : Fin 3) = 0
    ∧ win14_1.index t (0 : Fin 3) = t.val ∧ win14_1.index t (1 : Fin 3) = 0 ∧ win14_1.index t (2 : Fin 3) = 0
    ∧ win14_2.index t (0 : Fin 2) = 0 ∧ win14_2.index t (1 : Fin 2) = 0
    ∧ win14_3.index t (0 : Fin 3) = t.val ∧ win14_3.index t (1 : Fin 3) = 0 ∧ win14_3.index t (2 : Fin 3) = 0 :=
  (by decide +kernel : ∀ t : Fin grid14.N, _)

/-- Batch `b`'s eight rows of the first product's slice, as a block. -/
noncomputable def blk14_0 (c : Dev nD) (b : Fin 4) : Vec Ideal S1x8x768 .f32 :=
  fun y => (V c main_v43 : S4x8x768.Idx → EReal) (ix3 b (y 1 : Fin 8) (y 2 : Fin 768))
/-- Batch `b`'s 152 rows of the second product's slice, as a block. -/
noncomputable def blk14_1 (c : Dev nD) (b : Fin 4) : Vec Ideal S1x152x768 .f32 :=
  fun y => (V c main_v44 : S4x152x768.Idx → EReal) (ix3 b (y 1 : Fin 152) (y 2 : Fin 768))
/-- The bias row. -/
noncomputable def blk14_2 (c : Dev nD) : Vec Ideal S1x768 .f32 := fun y => (V c main_v4 : S1x768.Idx → EReal) y

theorem iblk14_0_eq (c : Dev nD) (t : Fin cfg14.N) : (iblk14 V c 0 t : Vec Ideal S1x8x768 .f32) = blk14_0 V c (batch14 t) := by
  obtain ⟨e0, e1, e2, -⟩ := idx_facts14 t
  funext y
  unfold iblk14 blk14_0
  rw [View.read_apply]
  show V c main_v43 _ = V c main_v43 _
  congr 1
  funext a
  apply Fin.ext
  match a with
  | ⟨0, _⟩ => show win14_0.index t (0 : Fin 3) * 1 + 1 * (y 0).val = t.val; have hy : (y 0).val < 1 := (y 0).isLt; omega
  | ⟨1, _⟩ => show win14_0.index t (1 : Fin 3) * 8 + 1 * (y 1).val = (y 1).val; omega
  | ⟨2, _⟩ => show win14_0.index t (2 : Fin 3) * 768 + 1 * (y 2).val = (y 2).val; omega

theorem iblk14_1_eq (c : Dev nD) (t : Fin cfg14.N) : (iblk14 V c 1 t : Vec Ideal S1x152x768 .f32) = blk14_1 V c (batch14 t) := by
  obtain ⟨-, -, -, e0, e1, e2, -⟩ := idx_facts14 t
  funext y
  unfold iblk14 blk14_1
  rw [View.read_apply]
  show V c main_v44 _ = V c main_v44 _
  congr 1
  funext a
  apply Fin.ext
  match a with
  | ⟨0, _⟩ => show win14_1.index t (0 : Fin 3) * 1 + 1 * (y 0).val = t.val; have hy : (y 0).val < 1 := (y 0).isLt; omega
  | ⟨1, _⟩ => show win14_1.index t (1 : Fin 3) * 152 + 1 * (y 1).val = (y 1).val; omega
  | ⟨2, _⟩ => show win14_1.index t (2 : Fin 3) * 768 + 1 * (y 2).val = (y 2).val; omega

theorem iblk14_2_eq (c : Dev nD) (t : Fin cfg14.N) : (iblk14 V c 2 t : Vec Ideal S1x768 .f32) = blk14_2 V c := by
  obtain ⟨-, -, -, -, -, -, e0, e1, -⟩ := idx_facts14 t
  funext y
  unfold iblk14 blk14_2
  rw [View.read_apply]
  show V c main_v4 _ = V c main_v4 _
  congr 1
  funext a
  apply Fin.ext
  match a with
  | ⟨0, _⟩ => show win14_2.index t (0 : Fin 2) * 1 + 1 * (y 0).val = (y 0).val; omega
  | ⟨1, _⟩ => show win14_2.index t (1 : Fin 2) * 768 + 1 * (y 1).val = (y 1).val; omega

/-- The result array as ONE function of the three arrays the chunk reads: at batch `b`, row `p`, the value the body
    stores for batch `b`'s blocks, read at row `p`. -/
noncomputable def G14 (c : Dev nD) : S4x1188x768.Idx → EReal :=
  fun i => stored14 (blk14_0 V c (i 0 : Fin 4)) (blk14_1 V c (i 0 : Fin 4)) (blk14_2 V c) (ix3 (0 : Fin 1) (i 1 : Fin 1188) (i 2 : Fin 768))

/-- What point `t` writes back is block `t` of `G14`. -/
theorem flushed14_eq (c : Dev nD) (t : Fin cfg14.N) :
    (dat14 (F := Ideal) V c).flushed 3 t = ((cfg14.win 3).blk t).view.read (Elt Ideal) (G14 V c) := by
  obtain ⟨-, -, -, -, -, -, -, -, e0, e1, e2⟩ := idx_facts14 t
  show (cfg14.win 3).cut (grid14.coords t) ((dat14 (F := Ideal) V c).after 3 t) = _
  rw [after14_3]
  unfold out14_3
  rw [View.canon_unit_zero hzA14]
  simp only [View.ld_unit_zero (S := S1x8x768) hzA14, View.ld_unit_zero (S := S1x152x768) hzA14, View.ld_unit_zero (S := S1x768) hzB14]
  rw [iblk14_0_eq, iblk14_1_eq, iblk14_2_eq]
  funext j
  show stored14 (blk14_0 V c (batch14 t)) (blk14_1 V c (batch14 t)) (blk14_2 V c) j = G14 V c (((cfg14.win 3).blk t).view.emb j)
  have hj0 : (j 0).val < 1 := (j 0).isLt
  have he : ((cfg14.win 3).blk t).view.emb j = (ix3 (batch14 t) (j 1 : Fin 1188) (j 2 : Fin 768) : S4x1188x768.Idx) := by
    funext a
    apply Fin.ext
    match a with
    | ⟨0, _⟩ => show win14_3.index t (0 : Fin 3) * 1 + 1 * (j 0).val = t.val; omega
    | ⟨1, _⟩ => show win14_3.index t (1 : Fin 3) * 1188 + 1 * (j 1).val = (j 1).val; omega
    | ⟨2, _⟩ => show win14_3.index t (2 : Fin 3) * 768 + 1 * (j 2).val = (j 2).val; omega
  rw [he]
  show _ = stored14 (blk14_0 V c (batch14 t)) (blk14_1 V c (batch14 t)) (blk14_2 V c) (ix3 (0 : Fin 1) (j 1 : Fin 1188) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk14 (t : Fin cfg14.N) (i : S4x1188x768.Idx) :
    i ∈ ((cfg14.win 3).blk t).view.set ↔ ∀ a : Fin 3, win14_3.index t a * S1x1188x768.size a ≤ (i a).val ∧ (i a).val < win14_3.index t a * S1x1188x768.size a + S1x1188x768.size a := by
  show i ∈ ((View.whole main_v45).slice (win14_3.rect t)).set ↔ _
  rw [View.set_slice_whole, Rect.mem_set_unit]
  exact Iff.rfl

/-- Batch `b` of the result is written by point `b`. -/
theorem cover14 (i : S4x1188x768.Idx) : ∃ t : Fin cfg14.N, (cfg14.win 3).flush t = true ∧ i ∈ ((cfg14.win 3).blk t).view.set := by
  have hi0 : (i 0).val < 4 := (i 0).isLt
  have hi1 : (i 1).val < 1188 := (i 1).isLt
  have hi2 : (i 2).val < 768 := (i 2).isLt
  let t : Fin cfg14.N := ⟨(i 0).val, lt_of_lt_of_eq hi0 N_14.symm⟩
  obtain ⟨-, -, -, -, -, -, -, -, e0, e1, e2⟩ := idx_facts14 t
  refine ⟨t, flush14_3 t, ?_⟩
  rw [mem_blk14]
  intro a
  match a with
  | ⟨0, _⟩ => show win14_3.index t (0 : Fin 3) * 1 ≤ (i 0).val ∧ (i 0).val < win14_3.index t (0 : Fin 3) * 1 + 1; rw [e0]; show (i 0).val * 1 ≤ (i 0).val ∧ (i 0).val < (i 0).val * 1 + 1; omega
  | ⟨1, _⟩ => show win14_3.index t (1 : Fin 3) * 1188 ≤ (i 1).val ∧ (i 1).val < win14_3.index t (1 : Fin 3) * 1188 + 1188; omega
  | ⟨2, _⟩ => show win14_3.index t (2 : Fin 3) * 768 ≤ (i 2).val ∧ (i 2).val < win14_3.index t (2 : Fin 3) * 768 + 768; omega

/-- The result array after the region is `G14`. -/
theorem arr14_eq (c : Dev nD) : (dat14 (F := Ideal) V c).arrAt 3 cfg14.N = G14 V c :=
  (dat14 (F := Ideal) V c).arrAt_eq_of_cover 3 (G14 V c) (fun t _ => flushed14_eq V c t) cover14

/-- The three arrays the chunk reads, at their literal types (so that their entries add as extended reals). -/
abbrev src14_0 (c : Dev nD) : S4x8x768.Idx → EReal := V c main_v43
abbrev src14_1 (c : Dev nD) : S4x152x768.Idx → EReal := V c main_v44
abbrev src14_2 (c : Dev nD) : S1x768.Idx → EReal := V c main_v4

/-- The result array at batch `b`, row `locOff 152 r + d`: the pair of row `r` of the first slice with row `r + d` of
    the second, at batch `b`. -/
theorem final14 (c : Dev nD) (b : Fin 4) (r : Fin 8) (d : ℕ) (q : Fin 152) (hq : q.val = r.val + d)
    (p : Fin 1188) (hp : p.val = locOff 152 r.val + d) (o : Fin 768) :
    (dat14 (F := Ideal) V c).arrAt 3 cfg14.N (ix3 b p o)
      = Ideal.tanh ((src14_0 V c (ix3 b r o) + src14_1 V c (ix3 b q o)) + src14_2 V c (ix2 0 o)) := by
  rw [arr14_eq]
  show stored14 (blk14_0 V c b) (blk14_1 V c b) (blk14_2 V c) (ix3 0 p o) = _
  rw [pay14_apply _ _ _ r d q hq p hp o]
  rfl

end Cert.KernelIdeal.Val

end
-- ==== Proof.KI.Case14.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT14
import proofs.«116342_j30605936951494_1_alg».proof.Proof.KI.PayLib

/-!
# Chunk 14 of the triangle: the pairs (i, j) with 104 ≤ i < 104 + 8

The chunk's region reads three arrays: its eight rows 104 … 104 + 7 of the first projection, the rows 104 … 255 of the
second, and the bias row, each cut by the host from what boundary 3 holds. Its result, still in place when the last
stretch reads it, holds at local row `locOff 152 r + d` the value of the pair (104 + r, 104 + r + d). In the packed
order the chunk starts at row 21268 = triOff 104 and the pair (i, j) sits at `triOff i + (j - i)`: with `r = i mod 8` and
`d = j - i` that is row 21268 + (locOff 152 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 152 r + d` holds the pair (104 + r, 104 + r + d). -/
theorem chunk14 (c : Dev nD) (b : Fin 4) (r : Fin 8) (d : ℕ) (hd : r.val + d < 152) (p : Fin 1188)
    (hp : p.val = locOff 152 r.val + d) (o : Fin 768) :
    (W66 m ρ c (Proc.devRef .tc main_v45) : Vec Ideal S4x1188x768 .f32) (ix3 b p o)
      = Cert.Tri.pairValue (argX m c) (argW m c) (argB m c) b ⟨104 + r.val, by omega⟩ ⟨104 + r.val + d, by omega⟩ o := by
  have e0 : src14_0 (V29 m ρ) c (ix3 b r o)
      = Cert.Tri.proj1 (argX m c) (argW m c) b ⟨104 + r.val, by omega⟩ o :=
    (host14_rows (W28 m ρ c) b r o ⟨104 + r.val, by omega⟩ rfl).trans
      ((congrFun (W28_main_v2 m ρ c) _).trans (p1_W3 m ρ c b _ o))
  have e1 : src14_1 (V29 m ρ) c (ix3 b (⟨r.val + d, hd⟩ : Fin 152) o)
      = Cert.Tri.proj2 (argX m c) (argW m c) b ⟨104 + r.val + d, by omega⟩ o :=
    (host14_pair (W28 m ρ c) b ⟨r.val + d, hd⟩ o ⟨104 + r.val + d, by omega⟩
        (by show 104 + r.val + d = 104 + (r.val + d); omega)).trans
      ((congrFun (W28_main_v3 m ρ c) _).trans (p2_W3 m ρ c b _ o))
  have e2 : src14_2 (V29 m ρ) c (ix2 0 o) = argB m c (ix1 o) :=
    (congrFun (W29_main_v4 m ρ c) _).trans (bias_W3 m ρ c 0 o)
  calc (W66 m ρ c (Proc.devRef .tc main_v45) : Vec Ideal S4x1188x768 .f32) (ix3 b p o)
      = ((dat14 (F := Ideal) (V29 m ρ) c).arrAt 3 cfg14.N : Vec Ideal S4x1188x768 .f32) (ix3 b p o) :=
        congrFun (out14_final m ρ c) _
    _ = Ideal.tanh ((src14_0 (V29 m ρ) c (ix3 b r o) + src14_1 (V29 m ρ) c (ix3 b (⟨r.val + d, hd⟩ : Fin 152) o))
          + src14_2 (V29 m ρ) c (ix2 0 o)) :=
        final14 (V29 m ρ) c b r d ⟨r.val + d, hd⟩ rfl p hp o
    _ = Cert.Tri.pairValue (argX m c) (argW m c) (argB m c) b ⟨104 + r.val, by omega⟩ ⟨104 + r.val + d, by omega⟩ o := by
        rw [e0, e1, e2]
        rfl

/-- The program's result at the rank of a pair (i, j) of this chunk (`i / 8 = 13`). -/
theorem case14 (c : Dev nD) (b : Fin 4) (i j : Fin 256) (o : Fin 768) (hij : i.val ≤ j.val) (hK : i.val / 8 = 13) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 104 + i.val % 8 = i.val := by omega
  have hj : 104 + i.val % 8 + (j.val - i.val) = j.val := by omega
  have hd : i.val % 8 + (j.val - i.val) < 152 := by have := j.isLt; omega
  have hT : locOff 152 (i.val % 8) + (j.val - i.val) < 1188 := by
    have := locOff_add_lt (L := 152) hr (by norm_num) hd
    omega
  have hrank : Cert.Tri.rank i.val j.val = 21268 + (locOff 152 (i.val % 8) + (j.val - i.val)) := by
    have h0 : Cert.Tri.triOff i.val = Cert.Tri.triOff (104 + i.val % 8) := congrArg Cert.Tri.triOff hi.symm
    have h1 : Cert.Tri.triOff (104 + i.val % 8) = Cert.Tri.triOff 104 + locOff 152 (i.val % 8) :=
      triOff_add_locOff 104 (i.val % 8)
    have h2 : Cert.Tri.triOff 104 = 21268 := triOff_chunk_eq 13 104 21268 (by norm_num) rfl rfl
    unfold Cert.Tri.rank
    omega
  refine (out_piece14 (W66 m ρ c) b _ ⟨_, hT⟩ o hrank).trans ?_
  refine (chunk14 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT15.lean ====
/-
  Chunk 15's stored value, read at an index.

  The body stores one value over its whole result block: the eight pieces `tanh ((p₁ row r + p₂ rows r…) + bias)`,
  `r = 0 … 7`, laid one under the other and given a leading unit axis. With 144 rows of the second product in view,
  piece `r` has `144 - r` rows and starts at row `locOff 144 r`. So the stored value at row `locOff 144 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 15 stores, as a function of the three blocks it loads. -/
abbrev stored15 {F : FTy → Type} [FloatOps F] (x0 : Vec F S1x8x768 .f32) (x1 : Vec F S1x144x768 .f32) (x2 : Vec F S1x768 .f32) :
    Vec F S1x1124x768 .f32 :=
  k15_pay1 (k15_pay2 x0) (k15_pay3 x1) (k15_pay4 x2) (k15_pay5 x0 x1 x2) (k15_pay6 x0 x1 x2) (k15_pay7 x0 x1 x2) (k15_pay8 x0 x1 x2)
    (k15_pay9 x0 x1 x2) (k15_pay10 x0 x1 x2) (k15_pay11 x0 x1)

/-- The stored value at row `locOff 144 r + d` of its block pairs row `r` of the first block with row `r + d` of the
    second. -/
theorem pay15_apply (x0 : Vec Ideal S1x8x768 .f32) (x1 : Vec Ideal S1x144x768 .f32) (x2 : Vec Ideal S1x768 .f32)
    (r : Fin 8) (d : ℕ) (q : Fin 144) (hq : q.val = r.val + d) (p : Fin 1124) (hp : p.val = locOff 144 r.val + d) (o : Fin 768) :
    stored15 x0 x1 x2 (ix3 0 p o) = Ideal.tanh ((x0 (ix3 0 r o) + x1 (ix3 0 q o)) + x2 (ix2 0 o)) := by
  have hql := q.isLt
  unfold stored15 k15_pay1
  refine (shapeCast_ab_1ab_apply _ _ 0 p o).trans ?_
  match r, hq, hp with
  | ⟨0, _⟩, hq, hp =>
    have hq : q.val = 0 + d := hq
    have hp : p.val = locOff 144 0 + d := hp
    have hd : d < 144 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 144 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 144 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 144 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 144 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 144 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 144 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 144 7 + d := hp
    refine (cat8_at7 _ _ _ _ _ _ _ _ _ d (by omega) o p (by simp only [locOff] at hp; omega)).trans ?_
    -- the last piece has 137 rows; a last piece of a single row is stored without broadcasts and has its own lemma
    first
      | have single : (137 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT15.lean ====
/-
  Chunk 15's result array after its region, read at an index.

  The region's grid is the batch: point `t` loads batch `t`'s eight rows of the first product's slice, batch `t`'s 144
  rows of the second product's slice and the bias row, and writes back the whole block `t` of the result. What it
  writes is the body's stored value of those three blocks. So the result array is ONE function of the three arrays it
  reads — at batch `b`, row `p`: the stored value of batch `b`'s blocks at row `p` (`G15`) —, every point writes its
  block of that function (`flushed15_eq`), the four blocks cover the array (`cover15`), hence the array ends as that
  function (`arr15_eq`); and at row `locOff 144 r + d` the stored value is the pair of row `r` with row `r + d`
  (`final15`).
-/
import proofs.«116342_j30605936951494_1_alg».proof.Proof.KI.Reg15
import proofs.«116342_j30605936951494_1_alg».proof.Proof.KI.PayT15
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA15 : (![0, 0, 0] : Fin 3 → Nat) = fun _ => 0 := funext fun a => by fin_cases a <;> rfl
theorem hzB15 : (![0, 0] : Fin 2 → Nat) = fun _ => 0 := funext fun a => by fin_cases a <;> rfl

/-- The grid is the batch: point `t` works on batch `t`. -/
noncomputable def batch15 (t : Fin cfg15.N) : Fin 4 := ⟨t.val, lt_of_lt_of_eq t.isLt N_15⟩

/-- The printed index maps, decided over the four points: the three batched windows sit at block `(t, 0, 0)`, the bias
    row at its one block. -/
theorem idx_facts15 : ∀ t : Fin cfg15.N,
    win15_0.index t (0 : Fin 3) = t.val ∧ win15_0.index t (1 : Fin 3) = 0 ∧ win15_0.index t (2 : Fin 3) = 0
    ∧ win15_1.index t (0 : Fin 3) = t.val ∧ win15_1.index t (1 : Fin 3) = 0 ∧ win15_1.index t (2 : Fin 3) = 0
    ∧ win15_2.index t (0 : Fin 2) = 0 ∧ win15_2.index t (1 : Fin 2) = 0
    ∧ win15_3.index t (0 : Fin 3) = t.val ∧ win15_3.index t (1 : Fin 3) = 0 ∧ win15_3.index t (2 : Fin 3) = 0 :=
  (by decide +kernel : ∀ t : Fin grid15.N, _)

/-- Batch `b`'s eight rows of the first product's slice, as a block. -/
noncomputable def blk15_0 (c : Dev nD) (b : Fin 4) : Vec Ideal S1x8x768 .f32 :=
  fun y => (V c main_v46 : S4x8x768.Idx → EReal) (ix3 b (y 1 : Fin 8) (y 2 : Fin 768))
/-- Batch `b`'s 144 rows of the second product's slice, as a block. -/
noncomputable def blk15_1 (c : Dev nD) (b : Fin 4) : Vec Ideal S1x144x768 .f32 :=
  fun y => (V c main_v47 : S4x144x768.Idx → EReal) (ix3 b (y 1 : Fin 144) (y 2 : Fin 768))
/-- The bias row. -/
noncomputable def blk15_2 (c : Dev nD) : Vec Ideal S1x768 .f32 := fun y => (V c main_v4 : S1x768.Idx → EReal) y

theorem iblk15_0_eq (c : Dev nD) (t : Fin cfg15.N) : (iblk15 V c 0 t : Vec Ideal S1x8x768 .f32) = blk15_0 V c (batch15 t) := by
  obtain ⟨e0, e1, e2, -⟩ := idx_facts15 t
  funext y
  unfold iblk15 blk15_0
  rw [View.read_apply]
  show V c main_v46 _ = V c main_v46 _
  congr 1
  funext a
  apply Fin.ext
  match a with
  | ⟨0, _⟩ => show win15_0.index t (0 : Fin 3) * 1 + 1 * (y 0).val = t.val; have hy : (y 0).val < 1 := (y 0).isLt; omega
  | ⟨1, _⟩ => show win15_0.index t (1 : Fin 3) * 8 + 1 * (y 1).val = (y 1).val; omega
  | ⟨2, _⟩ => show win15_0.index t (2 : Fin 3) * 768 + 1 * (y 2).val = (y 2).val; omega

theorem iblk15_1_eq (c : Dev nD) (t : Fin cfg15.N) : (iblk15 V c 1 t : Vec Ideal S1x144x768 .f32) = blk15_1 V c (batch15 t) := by
  obtain ⟨-, -, -, e0, e1, e2, -⟩ := idx_facts15 t
  funext y
  unfold iblk15 blk15_1
  rw [View.read_apply]
  show V c main_v47 _ = V c main_v47 _
  congr 1
  funext a
  apply Fin.ext
  match a with
  | ⟨0, _⟩ => show win15_1.index t (0 : Fin 3) * 1 + 1 * (y 0).val = t.val; have hy : (y 0).val < 1 := (y 0).isLt; omega
  | ⟨1, _⟩ => show win15_1.index t (1 : Fin 3) * 144 + 1 * (y 1).val = (y 1).val; omega
  | ⟨2, _⟩ => show win15_1.index t (2 : Fin 3) * 768 + 1 * (y 2).val = (y 2).val; omega

theorem iblk15_2_eq (c : Dev nD) (t : Fin cfg15.N) : (iblk15 V c 2 t : Vec Ideal S1x768 .f32) = blk15_2 V c := by
  obtain ⟨-, -, -, -, -, -, e0, e1, -⟩ := idx_facts15 t
  funext y
  unfold iblk15 blk15_2
  rw [View.read_apply]
  show V c main_v4 _ = V c main_v4 _
  congr 1
  funext a
  apply Fin.ext
  match a with
  | ⟨0, _⟩ => show win15_2.index t (0 : Fin 2) * 1 + 1 * (y 0).val = (y 0).val; omega
  | ⟨1, _⟩ => show win15_2.index t (1 : Fin 2) * 768 + 1 * (y 1).val = (y 1).val; omega

/-- The result array as ONE function of the three arrays the chunk reads: at batch `b`, row `p`, the value the body
    stores for batch `b`'s blocks, read at row `p`. -/
noncomputable def G15 (c : Dev nD) : S4x1124x768.Idx → EReal :=
  fun i => stored15 (blk15_0 V c (i 0 : Fin 4)) (blk15_1 V c (i 0 : Fin 4)) (blk15_2 V c) (ix3 (0 : Fin 1) (i 1 : Fin 1124) (i 2 : Fin 768))

/-- What point `t` writes back is block `t` of `G15`. -/
theorem flushed15_eq (c : Dev nD) (t : Fin cfg15.N) :
    (dat15 (F := Ideal) V c).flushed 3 t = ((cfg15.win 3).blk t).view.read (Elt Ideal) (G15 V c) := by
  obtain ⟨-, -, -, -, -, -, -, -, e0, e1, e2⟩ := idx_facts15 t
  show (cfg15.win 3).cut (grid15.coords t) ((dat15 (F := Ideal) V c).after 3 t) = _
  rw [after15_3]
  unfold out15_3
  rw [View.canon_unit_zero hzA15]
  simp only [View.ld_unit_zero (S := S1x8x768) hzA15, View.ld_unit_zero (S := S1x144x768) hzA15, View.ld_unit_zero (S := S1x768) hzB15]
  rw [iblk15_0_eq, iblk15_1_eq, iblk15_2_eq]
  funext j
  show stored15 (blk15_0 V c (batch15 t)) (blk15_1 V c (batch15 t)) (blk15_2 V c) j = G15 V c (((cfg15.win 3).blk t).view.emb j)
  have hj0 : (j 0).val < 1 := (j 0).isLt
  have he : ((cfg15.win 3).blk t).view.emb j = (ix3 (batch15 t) (j 1 : Fin 1124) (j 2 : Fin 768) : S4x1124x768.Idx) := by
    funext a
    apply Fin.ext
    match a with
    | ⟨0, _⟩ => show win15_3.index t (0 : Fin 3) * 1 + 1 * (j 0).val = t.val; omega
    | ⟨1, _⟩ => show win15_3.index t (1 : Fin 3) * 1124 + 1 * (j 1).val = (j 1).val; omega
    | ⟨2, _⟩ => show win15_3.index t (2 : Fin 3) * 768 + 1 * (j 2).val = (j 2).val; omega
  rw [he]
  show _ = stored15 (blk15_0 V c (batch15 t)) (blk15_1 V c (batch15 t)) (blk15_2 V c) (ix3 (0 : Fin 1) (j 1 : Fin 1124) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk15 (t : Fin cfg15.N) (i : S4x1124x768.Idx) :
    i ∈ ((cfg15.win 3).blk t).view.set ↔ ∀ a : Fin 3, win15_3.index t a * S1x1124x768.size a ≤ (i a).val ∧ (i a).val < win15_3.index t a * S1x1124x768.size a + S1x1124x768.size a := by
  show i ∈ ((View.whole main_v48).slice (win15_3.rect t)).set ↔ _
  rw [View.set_slice_whole, Rect.mem_set_unit]
  exact Iff.rfl

/-- Batch `b` of the result is written by point `b`. -/
theorem cover15 (i : S4x1124x768.Idx) : ∃ t : Fin cfg15.N, (cfg15.win 3).flush t = true ∧ i ∈ ((cfg15.win 3).blk t).view.set := by
  have hi0 : (i 0).val < 4 := (i 0).isLt
  have hi1 : (i 1).val < 1124 := (i 1).isLt
  have hi2 : (i 2).val < 768 := (i 2).isLt
  let t : Fin cfg15.N := ⟨(i 0).val, lt_of_lt_of_eq hi0 N_15.symm⟩
  obtain ⟨-, -, -, -, -, -, -, -, e0, e1, e2⟩ := idx_facts15 t
  refine ⟨t, flush15_3 t, ?_⟩
  rw [mem_blk15]
  intro a
  match a with
  | ⟨0, _⟩ => show win15_3.index t (0 : Fin 3) * 1 ≤ (i 0).val ∧ (i 0).val < win15_3.index t (0 : Fin 3) * 1 + 1; rw [e0]; show (i 0).val * 1 ≤ (i 0).val ∧ (i 0).val < (i 0).val * 1 + 1; omega
  | ⟨1, _⟩ => show win15_3.index t (1 : Fin 3) * 1124 ≤ (i 1).val ∧ (i 1).val < win15_3.index t (1 : Fin 3) * 1124 + 1124; omega
  | ⟨2, _⟩ => show win15_3.index t (2 : Fin 3) * 768 ≤ (i 2).val ∧ (i 2).val < win15_3.index t (2 : Fin 3) * 768 + 768; omega

/-- The result array after the region is `G15`. -/
theorem arr15_eq (c : Dev nD) : (dat15 (F := Ideal) V c).arrAt 3 cfg15.N = G15 V c :=
  (dat15 (F := Ideal) V c).arrAt_eq_of_cover 3 (G15 V c) (fun t _ => flushed15_eq V c t) cover15

/-- The three arrays the chunk reads, at their literal types (so that their entries add as extended reals). -/
abbrev src15_0 (c : Dev nD) : S4x8x768.Idx → EReal := V c main_v46
abbrev src15_1 (c : Dev nD) : S4x144x768.Idx → EReal := V c main_v47
abbrev src15_2 (c : Dev nD) : S1x768.Idx → EReal := V c main_v4

/-- The result array at batch `b`, row `locOff 144 r + d`: the pair of row `r` of the first slice with row `r + d` of
    the second, at batch `b`. -/
theorem final15 (c : Dev nD) (b : Fin 4) (r : Fin 8) (d : ℕ) (q : Fin 144) (hq : q.val = r.val + d)
    (p : Fin 1124) (hp : p.val = locOff 144 r.val + d) (o : Fin 768) :
    (dat15 (F := Ideal) V c).arrAt 3 cfg15.N (ix3 b p o)
      = Ideal.tanh ((src15_0 V c (ix3 b r o) + src15_1 V c (ix3 b q o)) + src15_2 V c (ix2 0 o)) := by
  rw [arr15_eq]
  show stored15 (blk15_0 V c b) (blk15_1 V c b) (blk15_2 V c) (ix3 0 p o) = _
  rw [pay15_apply _ _ _ r d q hq p hp o]
  rfl

end Cert.KernelIdeal.Val

end
-- ==== Proof.KI.Case15.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT15
import proofs.«116342_j30605936951494_1_alg».proof.Proof.KI.PayLib

/-!
# Chunk 15 of the triangle: the pairs (i, j) with 112 ≤ i < 112 + 8

The chunk's region reads three arrays: its eight rows 112 … 112 + 7 of the first projection, the rows 112 … 255 of the
second, and the bias row, each cut by the host from what boundary 3 holds. Its result, still in place when the last
stretch reads it, holds at local row `locOff 144 r + d` the value of the pair (112 + r, 112 + r + d). In the packed
order the chunk starts at row 22456 = triOff 112 and the pair (i, j) sits at `triOff i + (j - i)`: with `r = i mod 8` and
`d = j - i` that is row 22456 + (locOff 144 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 144 r + d` holds the pair (112 + r, 112 + r + d). -/
theorem chunk15 (c : Dev nD) (b : Fin 4) (r : Fin 8) (d : ℕ) (hd : r.val + d < 144) (p : Fin 1124)
    (hp : p.val = locOff 144 r.val + d) (o : Fin 768) :
    (W66 m ρ c (Proc.devRef .tc main_v48) : Vec Ideal S4x1124x768 .f32) (ix3 b p o)
      = Cert.Tri.pairValue (argX m c) (argW m c) (argB m c) b ⟨112 + r.val, by omega⟩ ⟨112 + r.val + d, by omega⟩ o := by
  have e0 : src15_0 (V31 m ρ) c (ix3 b r o)
      = Cert.Tri.proj1 (argX m c) (argW m c) b ⟨112 + r.val, by omega⟩ o :=
    (host15_rows (W30 m ρ c) b r o ⟨112 + r.val, by omega⟩ rfl).trans
      ((congrFun (W30_main_v2 m ρ c) _).trans (p1_W3 m ρ c b _ o))
  have e1 : src15_1 (V31 m ρ) c (ix3 b (⟨r.val + d, hd⟩ : Fin 144) o)
      = Cert.Tri.proj2 (argX m c) (argW m c) b ⟨112 + r.val + d, by omega⟩ o :=
    (host15_pair (W30 m ρ c) b ⟨r.val + d, hd⟩ o ⟨112 + r.val + d, by omega⟩
        (by show 112 + r.val + d = 112 + (r.val + d); omega)).trans
      ((congrFun (W30_main_v3 m ρ c) _).trans (p2_W3 m ρ c b _ o))
  have e2 : src15_2 (V31 m ρ) c (ix2 0 o) = argB m c (ix1 o) :=
    (congrFun (W31_main_v4 m ρ c) _).trans (bias_W3 m ρ c 0 o)
  calc (W66 m ρ c (Proc.devRef .tc main_v48) : Vec Ideal S4x1124x768 .f32) (ix3 b p o)
      = ((dat15 (F := Ideal) (V31 m ρ) c).arrAt 3 cfg15.N : Vec Ideal S4x1124x768 .f32) (ix3 b p o) :=
        congrFun (out15_final m ρ c) _
    _ = Ideal.tanh ((src15_0 (V31 m ρ) c (ix3 b r o) + src15_1 (V31 m ρ) c (ix3 b (⟨r.val + d, hd⟩ : Fin 144) o))
          + src15_2 (V31 m ρ) c (ix2 0 o)) :=
        final15 (V31 m ρ) c b r d ⟨r.val + d, hd⟩ rfl p hp o
    _ = Cert.Tri.pairValue (argX m c) (argW m c) (argB m c) b ⟨112 + r.val, by omega⟩ ⟨112 + r.val + d, by omega⟩ o := by
        rw [e0, e1, e2]
        rfl

/-- The program's result at the rank of a pair (i, j) of this chunk (`i / 8 = 14`). -/
theorem case15 (c : Dev nD) (b : Fin 4) (i j : Fin 256) (o : Fin 768) (hij : i.val ≤ j.val) (hK : i.val / 8 = 14) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 112 + i.val % 8 = i.val := by omega
  have hj : 112 + i.val % 8 + (j.val - i.val) = j.val := by omega
  have hd : i.val % 8 + (j.val - i.val) < 144 := by have := j.isLt; omega
  have hT : locOff 144 (i.val % 8) + (j.val - i.val) < 1124 := by
    have := locOff_add_lt (L := 144) hr (by norm_num) hd
    omega
  have hrank : Cert.Tri.rank i.val j.val = 22456 + (locOff 144 (i.val % 8) + (j.val - i.val)) := by
    have h0 : Cert.Tri.triOff i.val = Cert.Tri.triOff (112 + i.val % 8) := congrArg Cert.Tri.triOff hi.symm
    have h1 : Cert.Tri.triOff (112 + i.val % 8) = Cert.Tri.triOff 112 + locOff 144 (i.val % 8) :=
      triOff_add_locOff 112 (i.val % 8)
    have h2 : Cert.Tri.triOff 112 = 22456 := triOff_chunk_eq 14 112 22456 (by norm_num) rfl rfl
    unfold Cert.Tri.rank
    omega
  refine (out_piece15 (W66 m ρ c) b _ ⟨_, hT⟩ o hrank).trans ?_
  refine (chunk15 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT16.lean ====
/-
  Chunk 16's stored value, read at an index.

  The body stores one value over its whole result block: the eight pieces `tanh ((p₁ row r + p₂ rows r…) + bias)`,
  `r = 0 … 7`, laid one under the other and given a leading unit axis. With 136 rows of the second product in view,
  piece `r` has `136 - r` rows and starts at row `locOff 136 r`. So the stored value at row `locOff 136 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 16 stores, as a function of the three blocks it loads. -/
abbrev stored16 {F : FTy → Type} [FloatOps F] (x0 : Vec F S1x8x768 .f32) (x1 : Vec F S1x136x768 .f32) (x2 : Vec F S1x768 .f32) :
    Vec F S1x1060x768 .f32 :=
  k16_pay1 (k16_pay2 x0) (k16_pay3 x1) (k16_pay4 x2) (k16_pay5 x0 x1 x2) (k16_pay6 x0 x1 x2) (k16_pay7 x0 x1 x2) (k16_pay8 x0 x1 x2)
    (k16_pay9 x0 x1 x2) (k16_pay10 x0 x1 x2) (k16_pay11 x0 x1)

/-- The stored value at row `locOff 136 r + d` of its block pairs row `r` of the first block with row `r + d` of the
    second. -/
theorem pay16_apply (x0 : Vec Ideal S1x8x768 .f32) (x1 : Vec Ideal S1x136x768 .f32) (x2 : Vec Ideal S1x768 .f32)
    (r : Fin 8) (d : ℕ) (q : Fin 136) (hq : q.val = r.val + d) (p : Fin 1060) (hp : p.val = locOff 136 r.val + d) (o : Fin 768) :
    stored16 x0 x1 x2 (ix3 0 p o) = Ideal.tanh ((x0 (ix3 0 r o) + x1 (ix3 0 q o)) + x2 (ix2 0 o)) := by
  have hql := q.isLt
  unfold stored16 k16_pay1
  refine (shapeCast_ab_1ab_apply _ _ 0 p o).trans ?_
  match r, hq, hp with
  | ⟨0, _⟩, hq, hp =>
    have hq : q.val = 0 + d := hq
    have hp : p.val = locOff 136 0 + d := hp
    have hd : d < 136 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 136 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 136 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 136 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 136 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 136 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 136 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 136 7 + d := hp
    refine (cat8_at7 _ _ _ _ _ _ _ _ _ d (by omega) o p (by simp only [locOff] at hp; omega)).trans ?_
    -- the last piece has 129 rows; a last piece of a single row is stored without broadcasts and has its own lemma
    first
      | have single : (129 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT16.lean ====
/-
  Chunk 16's result array after its region, read at an index.

  The region's grid is the batch: point `t` loads batch `t`'s eight rows of the first product's slice, batch `t`'s 136
  rows of the second product's slice and the bias row, and writes back the whole block `t` of the result. What it
  writes is the body's stored value of those three blocks. So the result array is ONE function of the three arrays it
  reads — at batch `b`, row `p`: the stored value of batch `b`'s blocks at row `p` (`G16`) —, every point writes its
  block of that function (`flushed16_eq`), the four blocks cover the array (`cover16`), hence the array ends as that
  function (`arr16_eq`); and at row `locOff 136 r + d` the stored value is the pair of row `r` with row `r + d`
  (`final16`).
-/
import proofs.«116342_j30605936951494_1_alg».proof.Proof.KI.Reg16
import proofs.«116342_j30605936951494_1_alg».proof.Proof.KI.PayT16
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA16 : (![0, 0, 0] : Fin 3 → Nat) = fun _ => 0 := funext fun a => by fin_cases a <;> rfl
theorem hzB16 : (![0, 0] : Fin 2 → Nat) = fun _ => 0 := funext fun a => by fin_cases a <;> rfl

/-- The grid is the batch: point `t` works on batch `t`. -/
noncomputable def batch16 (t : Fin cfg16.N) : Fin 4 := ⟨t.val, lt_of_lt_of_eq t.isLt N_16⟩

/-- The printed index maps, decided over the four points: the three batched windows sit at block `(t, 0, 0)`, the bias
    row at its one block. -/
theorem idx_facts16 : ∀ t : Fin cfg16.N,
    win16_0.index t (0 : Fin 3) = t.val ∧ win16_0.index t (1 : Fin 3) = 0 ∧ win16_0.index t (2 : Fin 3) = 0
    ∧ win16_1.index t (0 : Fin 3) = t.val ∧ win16_1.index t (1 : Fin 3) = 0 ∧ win16_1.index t (2 : Fin 3) = 0
    ∧ win16_2.index t (0 : Fin 2) = 0 ∧ win16_2.index t (1 : Fin 2) = 0
    ∧ win16_3.index t (0 : Fin 3) = t.val ∧ win16_3.index t (1 : Fin 3) = 0 ∧ win16_3.index t (2 : Fin 3) = 0 :=
  (by decide +kernel : ∀ t : Fin grid16.N, _)

/-- Batch `b`'s eight rows of the first product's slice, as a block. -/
noncomputable def blk16_0 (c : Dev nD) (b : Fin 4) : Vec Ideal S1x8x768 .f32 :=
  fun y => (V c main_v49 : S4x8x768.Idx → EReal) (ix3 b (y 1 : Fin 8) (y 2 : Fin 768))
/-- Batch `b`'s 136 rows of the second product's slice, as a block. -/
noncomputable def blk16_1 (c : Dev nD) (b : Fin 4) : Vec Ideal S1x136x768 .f32 :=
  fun y => (V c main_v50 : S4x136x768.Idx → EReal) (ix3 b (y 1 : Fin 136) (y 2 : Fin 768))
/-- The bias row. -/
noncomputable def blk16_2 (c : Dev nD) : Vec Ideal S1x768 .f32 := fun y => (V c main_v4 : S1x768.Idx → EReal) y

theorem iblk16_0_eq (c : Dev nD) (t : Fin cfg16.N) : (iblk16 V c 0 t : Vec Ideal S1x8x768 .f32) = blk16_0 V c (batch16 t) := by
  obtain ⟨e0, e1, e2, -⟩ := idx_facts16 t
  funext y
  unfold iblk16 blk16_0
  rw [View.read_apply]
  show V c main_v49 _ = V c main_v49 _
  congr 1
  funext a
  apply Fin.ext
  match a with
  | ⟨0, _⟩ => show win16_0.index t (0 : Fin 3) * 1 + 1 * (y 0).val = t.val; have hy : (y 0).val < 1 := (y 0).isLt; omega
  | ⟨1, _⟩ => show win16_0.index t (1 : Fin 3) * 8 + 1 * (y 1).val = (y 1).val; omega
  | ⟨2, _⟩ => show win16_0.index t (2 : Fin 3) * 768 + 1 * (y 2).val = (y 2).val; omega

theorem iblk16_1_eq (c : Dev nD) (t : Fin cfg16.N) : (iblk16 V c 1 t : Vec Ideal S1x136x768 .f32) = blk16_1 V c (batch16 t) := by
  obtain ⟨-, -, -, e0, e1, e2, -⟩ := idx_facts16 t
  funext y
  unfold iblk16 blk16_1
  rw [View.read_apply]
  show V c main_v50 _ = V c main_v50 _
  congr 1
  funext a
  apply Fin.ext
  match a with
  | ⟨0, _⟩ => show win16_1.index t (0 : Fin 3) * 1 + 1 * (y 0).val = t.val; have hy : (y 0).val < 1 := (y 0).isLt; omega
  | ⟨1, _⟩ => show win16_1.index t (1 : Fin 3) * 136 + 1 * (y 1).val = (y 1).val; omega
  | ⟨2, _⟩ => show win16_1.index t (2 : Fin 3) * 768 + 1 * (y 2).val = (y 2).val; omega

theorem iblk16_2_eq (c : Dev nD) (t : Fin cfg16.N) : (iblk16 V c 2 t : Vec Ideal S1x768 .f32) = blk16_2 V c := by
  obtain ⟨-, -, -, -, -, -, e0, e1, -⟩ := idx_facts16 t
  funext y
  unfold iblk16 blk16_2
  rw [View.read_apply]
  show V c main_v4 _ = V c main_v4 _
  congr 1
  funext a
  apply Fin.ext
  match a with
  | ⟨0, _⟩ => show win16_2.index t (0 : Fin 2) * 1 + 1 * (y 0).val = (y 0).val; omega
  | ⟨1, _⟩ => show win16_2.index t (1 : Fin 2) * 768 + 1 * (y 1).val = (y 1).val; omega

/-- The result array as ONE function of the three arrays the chunk reads: at batch `b`, row `p`, the value the body
    stores for batch `b`'s blocks, read at row `p`. -/
noncomputable def G16 (c : Dev nD) : S4x1060x768.Idx → EReal :=
  fun i => stored16 (blk16_0 V c (i 0 : Fin 4)) (blk16_1 V c (i 0 : Fin 4)) (blk16_2 V c) (ix3 (0 : Fin 1) (i 1 : Fin 1060) (i 2 : Fin 768))

/-- What point `t` writes back is block `t` of `G16`. -/
theorem flushed16_eq (c : Dev nD) (t : Fin cfg16.N) :
    (dat16 (F := Ideal) V c).flushed 3 t = ((cfg16.win 3).blk t).view.read (Elt Ideal) (G16 V c) := by
  obtain ⟨-, -, -, -, -, -, -, -, e0, e1, e2⟩ := idx_facts16 t
  show (cfg16.win 3).cut (grid16.coords t) ((dat16 (F := Ideal) V c).after 3 t) = _
  rw [after16_3]
  unfold out16_3
  rw [View.canon_unit_zero hzA16]
  simp only [View.ld_unit_zero (S := S1x8x768) hzA16, View.ld_unit_zero (S := S1x136x768) hzA16, View.ld_unit_zero (S := S1x768) hzB16]
  rw [iblk16_0_eq, iblk16_1_eq, iblk16_2_eq]
  funext j
  show stored16 (blk16_0 V c (batch16 t)) (blk16_1 V c (batch16 t)) (blk16_2 V c) j = G16 V c (((cfg16.win 3).blk t).view.emb j)
  have hj0 : (j 0).val < 1 := (j 0).isLt
  have he : ((cfg16.win 3).blk t).view.emb j = (ix3 (batch16 t) (j 1 : Fin 1060) (j 2 : Fin 768) : S4x1060x768.Idx) := by
    funext a
    apply Fin.ext
    match a with
    | ⟨0, _⟩ => show win16_3.index t (0 : Fin 3) * 1 + 1 * (j 0).val = t.val; omega
    | ⟨1, _⟩ => show win16_3.index t (1 : Fin 3) * 1060 + 1 * (j 1).val = (j 1).val; omega
    | ⟨2, _⟩ => show win16_3.index t (2 : Fin 3) * 768 + 1 * (j 2).val = (j 2).val; omega
  rw [he]
  show _ = stored16 (blk16_0 V c (batch16 t)) (blk16_1 V c (batch16 t)) (blk16_2 V c) (ix3 (0 : Fin 1) (j 1 : Fin 1060) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk16 (t : Fin cfg16.N) (i : S4x1060x768.Idx) :
    i ∈ ((cfg16.win 3).blk t).view.set ↔ ∀ a : Fin 3, win16_3.index t a * S1x1060x768.size a ≤ (i a).val ∧ (i a).val < win16_3.index t a * S1x1060x768.size a + S1x1060x768.size a := by
  show i ∈ ((View.whole main_v51).slice (win16_3.rect t)).set ↔ _
  rw [View.set_slice_whole, Rect.mem_set_unit]
  exact Iff.rfl

/-- Batch `b` of the result is written by point `b`. -/
theorem cover16 (i : S4x1060x768.Idx) : ∃ t : Fin cfg16.N, (cfg16.win 3).flush t = true ∧ i ∈ ((cfg16.win 3).blk t).view.set := by
  have hi0 : (i 0).val < 4 := (i 0).isLt
  have hi1 : (i 1).val < 1060 := (i 1).isLt
  have hi2 : (i 2).val < 768 := (i 2).isLt
  let t : Fin cfg16.N := ⟨(i 0).val, lt_of_lt_of_eq hi0 N_16.symm⟩
  obtain ⟨-, -, -, -, -, -, -, -, e0, e1, e2⟩ := idx_facts16 t
  refine ⟨t, flush16_3 t, ?_⟩
  rw [mem_blk16]
  intro a
  match a with
  | ⟨0, _⟩ => show win16_3.index t (0 : Fin 3) * 1 ≤ (i 0).val ∧ (i 0).val < win16_3.index t (0 : Fin 3) * 1 + 1; rw [e0]; show (i 0).val * 1 ≤ (i 0).val ∧ (i 0).val < (i 0).val * 1 + 1; omega
  | ⟨1, _⟩ => show win16_3.index t (1 : Fin 3) * 1060 ≤ (i 1).val ∧ (i 1).val < win16_3.index t (1 : Fin 3) * 1060 + 1060; omega
  | ⟨2, _⟩ => show win16_3.index t (2 : Fin 3) * 768 ≤ (i 2).val ∧ (i 2).val < win16_3.index t (2 : Fin 3) * 768 + 768; omega

/-- The result array after the region is `G16`. -/
theorem arr16_eq (c : Dev nD) : (dat16 (F := Ideal) V c).arrAt 3 cfg16.N = G16 V c :=
  (dat16 (F := Ideal) V c).arrAt_eq_of_cover 3 (G16 V c) (fun t _ => flushed16_eq V c t) cover16

/-- The three arrays the chunk reads, at their literal types (so that their entries add as extended reals). -/
abbrev src16_0 (c : Dev nD) : S4x8x768.Idx → EReal := V c main_v49
abbrev src16_1 (c : Dev nD) : S4x136x768.Idx → EReal := V c main_v50
abbrev src16_2 (c : Dev nD) : S1x768.Idx → EReal := V c main_v4

/-- The result array at batch `b`, row `locOff 136 r + d`: the pair of row `r` of the first slice with row `r + d` of
    the second, at batch `b`. -/
theorem final16 (c : Dev nD) (b : Fin 4) (r : Fin 8) (d : ℕ) (q : Fin 136) (hq : q.val = r.val + d)
    (p : Fin 1060) (hp : p.val = locOff 136 r.val + d) (o : Fin 768) :
    (dat16 (F := Ideal) V c).arrAt 3 cfg16.N (ix3 b p o)
      = Ideal.tanh ((src16_0 V c (ix3 b r o) + src16_1 V c (ix3 b q o)) + src16_2 V c (ix2 0 o)) := by
  rw [arr16_eq]
  show stored16 (blk16_0 V c b) (blk16_1 V c b) (blk16_2 V c) (ix3 0 p o) = _
  rw [pay16_apply _ _ _ r d q hq p hp o]
  rfl

end Cert.KernelIdeal.Val

end
-- ==== Proof.KI.Case16.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT16
import proofs.«116342_j30605936951494_1_alg».proof.Proof.KI.PayLib

/-!
# Chunk 16 of the triangle: the pairs (i, j) with 120 ≤ i < 120 + 8

The chunk's region reads three arrays: its eight rows 120 … 120 + 7 of the first projection, the rows 120 … 255 of the
second, and the bias row, each cut by the host from what boundary 3 holds. Its result, still in place when the last
stretch reads it, holds at local row `locOff 136 r + d` the value of the pair (120 + r, 120 + r + d). In the packed
order the chunk starts at row 23580 = triOff 120 and the pair (i, j) sits at `triOff i + (j - i)`: with `r = i mod 8` and
`d = j - i` that is row 23580 + (locOff 136 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 136 r + d` holds the pair (120 + r, 120 + r + d). -/
theorem chunk16 (c : Dev nD) (b : Fin 4) (r : Fin 8) (d : ℕ) (hd : r.val + d < 136) (p : Fin 1060)
    (hp : p.val = locOff 136 r.val + d) (o : Fin 768) :
    (W66 m ρ c (Proc.devRef .tc main_v51) : Vec Ideal S4x1060x768 .f32) (ix3 b p o)
      = Cert.Tri.pairValue (argX m c) (argW m c) (argB m c) b ⟨120 + r.val, by omega⟩ ⟨120 + r.val + d, by omega⟩ o := by
  have e0 : src16_0 (V33 m ρ) c (ix3 b r o)
      = Cert.Tri.proj1 (argX m c) (argW m c) b ⟨120 + r.val, by omega⟩ o :=
    (host16_rows (W32 m ρ c) b r o ⟨120 + r.val, by omega⟩ rfl).trans
      ((congrFun (W32_main_v2 m ρ c) _).trans (p1_W3 m ρ c b _ o))
  have e1 : src16_1 (V33 m ρ) c (ix3 b (⟨r.val + d, hd⟩ : Fin 136) o)
      = Cert.Tri.proj2 (argX m c) (argW m c) b ⟨120 + r.val + d, by omega⟩ o :=
    (host16_pair (W32 m ρ c) b ⟨r.val + d, hd⟩ o ⟨120 + r.val + d, by omega⟩
        (by show 120 + r.val + d = 120 + (r.val + d); omega)).trans
      ((congrFun (W32_main_v3 m ρ c) _).trans (p2_W3 m ρ c b _ o))
  have e2 : src16_2 (V33 m ρ) c (ix2 0 o) = argB m c (ix1 o) :=
    (congrFun (W33_main_v4 m ρ c) _).trans (bias_W3 m ρ c 0 o)
  calc (W66 m ρ c (Proc.devRef .tc main_v51) : Vec Ideal S4x1060x768 .f32) (ix3 b p o)
      = ((dat16 (F := Ideal) (V33 m ρ) c).arrAt 3 cfg16.N : Vec Ideal S4x1060x768 .f32) (ix3 b p o) :=
        congrFun (out16_final m ρ c) _
    _ = Ideal.tanh ((src16_0 (V33 m ρ) c (ix3 b r o) + src16_1 (V33 m ρ) c (ix3 b (⟨r.val + d, hd⟩ : Fin 136) o))
          + src16_2 (V33 m ρ) c (ix2 0 o)) :=
        final16 (V33 m ρ) c b r d ⟨r.val + d, hd⟩ rfl p hp o
    _ = Cert.Tri.pairValue (argX m c) (argW m c) (argB m c) b ⟨120 + r.val, by omega⟩ ⟨120 + r.val + d, by omega⟩ o := by
        rw [e0, e1, e2]
        rfl

/-- The program's result at the rank of a pair (i, j) of this chunk (`i / 8 = 15`). -/
theorem case16 (c : Dev nD) (b : Fin 4) (i j : Fin 256) (o : Fin 768) (hij : i.val ≤ j.val) (hK : i.val / 8 = 15) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 120 + i.val % 8 = i.val := by omega
  have hj : 120 + i.val % 8 + (j.val - i.val) = j.val := by omega
  have hd : i.val % 8 + (j.val - i.val) < 136 := by have := j.isLt; omega
  have hT : locOff 136 (i.val % 8) + (j.val - i.val) < 1060 := by
    have := locOff_add_lt (L := 136) hr (by norm_num) hd
    omega
  have hrank : Cert.Tri.rank i.val j.val = 23580 + (locOff 136 (i.val % 8) + (j.val - i.val)) := by
    have h0 : Cert.Tri.triOff i.val = Cert.Tri.triOff (120 + i.val % 8) := congrArg Cert.Tri.triOff hi.symm
    have h1 : Cert.Tri.triOff (120 + i.val % 8) = Cert.Tri.triOff 120 + locOff 136 (i.val % 8) :=
      triOff_add_locOff 120 (i.val % 8)
    have h2 : Cert.Tri.triOff 120 = 23580 := triOff_chunk_eq 15 120 23580 (by norm_num) rfl rfl
    unfold Cert.Tri.rank
    omega
  refine (out_piece16 (W66 m ρ c) b _ ⟨_, hT⟩ o hrank).trans ?_
  refine (chunk16 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT17.lean ====
/-
  Chunk 17's stored value, read at an index.

  The body stores one value over its whole result block: the eight pieces `tanh ((p₁ row r + p₂ rows r…) + bias)`,
  `r = 0 … 7`, laid one under the other and given a leading unit axis. With 128 rows of the second product in view,
  piece `r` has `128 - r` rows and starts at row `locOff 128 r`. So the stored value at row `locOff 128 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 17 stores, as a function of the three blocks it loads. -/
abbrev stored17 {F : FTy → Type} [FloatOps F] (x0 : Vec F S1x8x768 .f32) (x1 : Vec F S1x128x768 .f32) (x2 : Vec F S1x768 .f32) :
    Vec F S1x996x768 .f32 :=
  k17_pay1 (k17_pay2 x0) (k17_pay3 x1) (k17_pay4 x2) (k17_pay5 x0 x1 x2) (k17_pay6 x0 x1 x2) (k17_pay7 x0 x1 x2) (k17_pay8 x0 x1 x2)
    (k17_pay9 x0 x1 x2) (k17_pay10 x0 x1 x2) (k17_pay11 x0 x1)

/-- The stored value at row `locOff 128 r + d` of its block pairs row `r` of the first block with row `r + d` of the
    second. -/
theorem pay17_apply (x0 : Vec Ideal S1x8x768 .f32) (x1 : Vec Ideal S1x128x768 .f32) (x2 : Vec Ideal S1x768 .f32)
    (r : Fin 8) (d : ℕ) (q : Fin 128) (hq : q.val = r.val + d) (p : Fin 996) (hp : p.val = locOff 128 r.val + d) (o : Fin 768) :
    stored17 x0 x1 x2 (ix3 0 p o) = Ideal.tanh ((x0 (ix3 0 r o) + x1 (ix3 0 q o)) + x2 (ix2 0 o)) := by
  have hql := q.isLt
  unfold stored17 k17_pay1
  refine (shapeCast_ab_1ab_apply _ _ 0 p o).trans ?_
  match r, hq, hp with
  | ⟨0, _⟩, hq, hp =>
    have hq : q.val = 0 + d := hq
    have hp : p.val = locOff 128 0 + d := hp
    have hd : d < 128 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 128 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 128 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 128 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 128 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 128 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 128 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 128 7 + d := hp
    refine (cat8_at7 _ _ _ _ _ _ _ _ _ d (by omega) o p (by simp only [locOff] at hp; omega)).trans ?_
    -- the last piece has 121 rows; a last piece of a single row is stored without broadcasts and has its own lemma
    first
      | have single : (121 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT17.lean ====
/-
  Chunk 17's result array after its region, read at an index.

  The region's grid is the batch: point `t` loads batch `t`'s eight rows of the first product's slice, batch `t`'s 128
  rows of the second product's slice and the bias row, and writes back the whole block `t` of the result. What it
  writes is the body's stored value of those three blocks. So the result array is ONE function of the three arrays it
  reads — at batch `b`, row `p`: the stored value of batch `b`'s blocks at row `p` (`G17`) —, every point writes its
  block of that function (`flushed17_eq`), the four blocks cover the array (`cover17`), hence the array ends as that
  function (`arr17_eq`); and at row `locOff 128 r + d` the stored value is the pair of row `r` with row `r + d`
  (`final17`).
-/
import proofs.«116342_j30605936951494_1_alg».proof.Proof.KI.Reg17
import proofs.«116342_j30605936951494_1_alg».proof.Proof.KI.PayT17
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA17 : (![0, 0, 0] : Fin 3 → Nat) = fun _ => 0 := funext fun a => by fin_cases a <;> rfl
theorem hzB17 : (![0, 0] : Fin 2 → Nat) = fun _ => 0 := funext fun a => by fin_cases a <;> rfl

/-- The grid is the batch: point `t` works on batch `t`. -/
noncomputable def batch17 (t : Fin cfg17.N) : Fin 4 := ⟨t.val, lt_of_lt_of_eq t.isLt N_17⟩

/-- The printed index maps, decided over the four points: the three batched windows sit at block `(t, 0, 0)`, the bias
    row at its one block. -/
theorem idx_facts17 : ∀ t : Fin cfg17.N,
    win17_0.index t (0 : Fin 3) = t.val ∧ win17_0.index t (1 : Fin 3) = 0 ∧ win17_0.index t (2 : Fin 3) = 0
    ∧ win17_1.index t (0 : Fin 3) = t.val ∧ win17_1.index t (1 : Fin 3) = 0 ∧ win17_1.index t (2 : Fin 3) = 0
    ∧ win17_2.index t (0 : Fin 2) = 0 ∧ win17_2.index t (1 : Fin 2) = 0
    ∧ win17_3.index t (0 : Fin 3) = t.val ∧ win17_3.index t (1 : Fin 3) = 0 ∧ win17_3.index t (2 : Fin 3) = 0 :=
  (by decide +kernel : ∀ t : Fin grid17.N, _)

/-- Batch `b`'s eight rows of the first product's slice, as a block. -/
noncomputable def blk17_0 (c : Dev nD) (b : Fin 4) : Vec Ideal S1x8x768 .f32 :=
  fun y => (V c main_v52 : S4x8x768.Idx → EReal) (ix3 b (y 1 : Fin 8) (y 2 : Fin 768))
/-- Batch `b`'s 128 rows of the second product's slice, as a block. -/
noncomputable def blk17_1 (c : Dev nD) (b : Fin 4) : Vec Ideal S1x128x768 .f32 :=
  fun y => (V c main_v53 : S4x128x768.Idx → EReal) (ix3 b (y 1 : Fin 128) (y 2 : Fin 768))
/-- The bias row. -/
noncomputable def blk17_2 (c : Dev nD) : Vec Ideal S1x768 .f32 := fun y => (V c main_v4 : S1x768.Idx → EReal) y

theorem iblk17_0_eq (c : Dev nD) (t : Fin cfg17.N) : (iblk17 V c 0 t : Vec Ideal S1x8x768 .f32) = blk17_0 V c (batch17 t) := by
  obtain ⟨e0, e1, e2, -⟩ := idx_facts17 t
  funext y
  unfold iblk17 blk17_0
  rw [View.read_apply]
  show V c main_v52 _ = V c main_v52 _
  congr 1
  funext a
  apply Fin.ext
  match a with
  | ⟨0, _⟩ => show win17_0.index t (0 : Fin 3) * 1 + 1 * (y 0).val = t.val; have hy : (y 0).val < 1 := (y 0).isLt; omega
  | ⟨1, _⟩ => show win17_0.index t (1 : Fin 3) * 8 + 1 * (y 1).val = (y 1).val; omega
  | ⟨2, _⟩ => show win17_0.index t (2 : Fin 3) * 768 + 1 * (y 2).val = (y 2).val; omega

theorem iblk17_1_eq (c : Dev nD) (t : Fin cfg17.N) : (iblk17 V c 1 t : Vec Ideal S1x128x768 .f32) = blk17_1 V c (batch17 t) := by
  obtain ⟨-, -, -, e0, e1, e2, -⟩ := idx_facts17 t
  funext y
  unfold iblk17 blk17_1
  rw [View.read_apply]
  show V c main_v53 _ = V c main_v53 _
  congr 1
  funext a
  apply Fin.ext
  match a with
  | ⟨0, _⟩ => show win17_1.index t (0 : Fin 3) * 1 + 1 * (y 0).val = t.val; have hy : (y 0).val < 1 := (y 0).isLt; omega
  | ⟨1, _⟩ => show win17_1.index t (1 : Fin 3) * 128 + 1 * (y 1).val = (y 1).val; omega
  | ⟨2, _⟩ => show win17_1.index t (2 : Fin 3) * 768 + 1 * (y 2).val = (y 2).val; omega

theorem iblk17_2_eq (c : Dev nD) (t : Fin cfg17.N) : (iblk17 V c 2 t : Vec Ideal S1x768 .f32) = blk17_2 V c := by
  obtain ⟨-, -, -, -, -, -, e0, e1, -⟩ := idx_facts17 t
  funext y
  unfold iblk17 blk17_2
  rw [View.read_apply]
  show V c main_v4 _ = V c main_v4 _
  congr 1
  funext a
  apply Fin.ext
  match a with
  | ⟨0, _⟩ => show win17_2.index t (0 : Fin 2) * 1 + 1 * (y 0).val = (y 0).val; omega
  | ⟨1, _⟩ => show win17_2.index t (1 : Fin 2) * 768 + 1 * (y 1).val = (y 1).val; omega

/-- The result array as ONE function of the three arrays the chunk reads: at batch `b`, row `p`, the value the body
    stores for batch `b`'s blocks, read at row `p`. -/
noncomputable def G17 (c : Dev nD) : S4x996x768.Idx → EReal :=
  fun i => stored17 (blk17_0 V c (i 0 : Fin 4)) (blk17_1 V c (i 0 : Fin 4)) (blk17_2 V c) (ix3 (0 : Fin 1) (i 1 : Fin 996) (i 2 : Fin 768))

/-- What point `t` writes back is block `t` of `G17`. -/
theorem flushed17_eq (c : Dev nD) (t : Fin cfg17.N) :
    (dat17 (F := Ideal) V c).flushed 3 t = ((cfg17.win 3).blk t).view.read (Elt Ideal) (G17 V c) := by
  obtain ⟨-, -, -, -, -, -, -, -, e0, e1, e2⟩ := idx_facts17 t
  show (cfg17.win 3).cut (grid17.coords t) ((dat17 (F := Ideal) V c).after 3 t) = _
  rw [after17_3]
  unfold out17_3
  rw [View.canon_unit_zero hzA17]
  simp only [View.ld_unit_zero (S := S1x8x768) hzA17, View.ld_unit_zero (S := S1x128x768) hzA17, View.ld_unit_zero (S := S1x768) hzB17]
  rw [iblk17_0_eq, iblk17_1_eq, iblk17_2_eq]
  funext j
  show stored17 (blk17_0 V c (batch17 t)) (blk17_1 V c (batch17 t)) (blk17_2 V c) j = G17 V c (((cfg17.win 3).blk t).view.emb j)
  have hj0 : (j 0).val < 1 := (j 0).isLt
  have he : ((cfg17.win 3).blk t).view.emb j = (ix3 (batch17 t) (j 1 : Fin 996) (j 2 : Fin 768) : S4x996x768.Idx) := by
    funext a
    apply Fin.ext
    match a with
    | ⟨0, _⟩ => show win17_3.index t (0 : Fin 3) * 1 + 1 * (j 0).val = t.val; omega
    | ⟨1, _⟩ => show win17_3.index t (1 : Fin 3) * 996 + 1 * (j 1).val = (j 1).val; omega
    | ⟨2, _⟩ => show win17_3.index t (2 : Fin 3) * 768 + 1 * (j 2).val = (j 2).val; omega
  rw [he]
  show _ = stored17 (blk17_0 V c (batch17 t)) (blk17_1 V c (batch17 t)) (blk17_2 V c) (ix3 (0 : Fin 1) (j 1 : Fin 996) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk17 (t : Fin cfg17.N) (i : S4x996x768.Idx) :
    i ∈ ((cfg17.win 3).blk t).view.set ↔ ∀ a : Fin 3, win17_3.index t a * S1x996x768.size a ≤ (i a).val ∧ (i a).val < win17_3.index t a * S1x996x768.size a + S1x996x768.size a := by
  show i ∈ ((View.whole main_v54).slice (win17_3.rect t)).set ↔ _
  rw [View.set_slice_whole, Rect.mem_set_unit]
  exact Iff.rfl

/-- Batch `b` of the result is written by point `b`. -/
theorem cover17 (i : S4x996x768.Idx) : ∃ t : Fin cfg17.N, (cfg17.win 3).flush t = true ∧ i ∈ ((cfg17.win 3).blk t).view.set := by
  have hi0 : (i 0).val < 4 := (i 0).isLt
  have hi1 : (i 1).val < 996 := (i 1).isLt
  have hi2 : (i 2).val < 768 := (i 2).isLt
  let t : Fin cfg17.N := ⟨(i 0).val, lt_of_lt_of_eq hi0 N_17.symm⟩
  obtain ⟨-, -, -, -, -, -, -, -, e0, e1, e2⟩ := idx_facts17 t
  refine ⟨t, flush17_3 t, ?_⟩
  rw [mem_blk17]
  intro a
  match a with
  | ⟨0, _⟩ => show win17_3.index t (0 : Fin 3) * 1 ≤ (i 0).val ∧ (i 0).val < win17_3.index t (0 : Fin 3) * 1 + 1; rw [e0]; show (i 0).val * 1 ≤ (i 0).val ∧ (i 0).val < (i 0).val * 1 + 1; omega
  | ⟨1, _⟩ => show win17_3.index t (1 : Fin 3) * 996 ≤ (i 1).val ∧ (i 1).val < win17_3.index t (1 : Fin 3) * 996 + 996; omega
  | ⟨2, _⟩ => show win17_3.index t (2 : Fin 3) * 768 ≤ (i 2).val ∧ (i 2).val < win17_3.index t (2 : Fin 3) * 768 + 768; omega

/-- The result array after the region is `G17`. -/
theorem arr17_eq (c : Dev nD) : (dat17 (F := Ideal) V c).arrAt 3 cfg17.N = G17 V c :=
  (dat17 (F := Ideal) V c).arrAt_eq_of_cover 3 (G17 V c) (fun t _ => flushed17_eq V c t) cover17

/-- The three arrays the chunk reads, at their literal types (so that their entries add as extended reals). -/
abbrev src17_0 (c : Dev nD) : S4x8x768.Idx → EReal := V c main_v52
abbrev src17_1 (c : Dev nD) : S4x128x768.Idx → EReal := V c main_v53
abbrev src17_2 (c : Dev nD) : S1x768.Idx → EReal := V c main_v4

/-- The result array at batch `b`, row `locOff 128 r + d`: the pair of row `r` of the first slice with row `r + d` of
    the second, at batch `b`. -/
theorem final17 (c : Dev nD) (b : Fin 4) (r : Fin 8) (d : ℕ) (q : Fin 128) (hq : q.val = r.val + d)
    (p : Fin 996) (hp : p.val = locOff 128 r.val + d) (o : Fin 768) :
    (dat17 (F := Ideal) V c).arrAt 3 cfg17.N (ix3 b p o)
      = Ideal.tanh ((src17_0 V c (ix3 b r o) + src17_1 V c (ix3 b q o)) + src17_2 V c (ix2 0 o)) := by
  rw [arr17_eq]
  show stored17 (blk17_0 V c b) (blk17_1 V c b) (blk17_2 V c) (ix3 0 p o) = _
  rw [pay17_apply _ _ _ r d q hq p hp o]
  rfl

end Cert.KernelIdeal.Val

end
-- ==== Proof.KI.Case17.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT17
import proofs.«116342_j30605936951494_1_alg».proof.Proof.KI.PayLib

/-!
# Chunk 17 of the triangle: the pairs (i, j) with 128 ≤ i < 128 + 8

The chunk's region reads three arrays: its eight rows 128 … 128 + 7 of the first projection, the rows 128 … 255 of the
second, and the bias row, each cut by the host from what boundary 3 holds. Its result, still in place when the last
stretch reads it, holds at local row `locOff 128 r + d` the value of the pair (128 + r, 128 + r + d). In the packed
order the chunk starts at row 24640 = triOff 128 and the pair (i, j) sits at `triOff i + (j - i)`: with `r = i mod 8` and
`d = j - i` that is row 24640 + (locOff 128 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 128 r + d` holds the pair (128 + r, 128 + r + d). -/
theorem chunk17 (c : Dev nD) (b : Fin 4) (r : Fin 8) (d : ℕ) (hd : r.val + d < 128) (p : Fin 996)
    (hp : p.val = locOff 128 r.val + d) (o : Fin 768) :
    (W66 m ρ c (Proc.devRef .tc main_v54) : Vec Ideal S4x996x768 .f32) (ix3 b p o)
      = Cert.Tri.pairValue (argX m c) (argW m c) (argB m c) b ⟨128 + r.val, by omega⟩ ⟨128 + r.val + d, by omega⟩ o := by
  have e0 : src17_0 (V35 m ρ) c (ix3 b r o)
      = Cert.Tri.proj1 (argX m c) (argW m c) b ⟨128 + r.val, by omega⟩ o :=
    (host17_rows (W34 m ρ c) b r o ⟨128 + r.val, by omega⟩ rfl).trans
      ((congrFun (W34_main_v2 m ρ c) _).trans (p1_W3 m ρ c b _ o))
  have e1 : src17_1 (V35 m ρ) c (ix3 b (⟨r.val + d, hd⟩ : Fin 128) o)
      = Cert.Tri.proj2 (argX m c) (argW m c) b ⟨128 + r.val + d, by omega⟩ o :=
    (host17_pair (W34 m ρ c) b ⟨r.val + d, hd⟩ o ⟨128 + r.val + d, by omega⟩
        (by show 128 + r.val + d = 128 + (r.val + d); omega)).trans
      ((congrFun (W34_main_v3 m ρ c) _).trans (p2_W3 m ρ c b _ o))
  have e2 : src17_2 (V35 m ρ) c (ix2 0 o) = argB m c (ix1 o) :=
    (congrFun (W35_main_v4 m ρ c) _).trans (bias_W3 m ρ c 0 o)
  calc (W66 m ρ c (Proc.devRef .tc main_v54) : Vec Ideal S4x996x768 .f32) (ix3 b p o)
      = ((dat17 (F := Ideal) (V35 m ρ) c).arrAt 3 cfg17.N : Vec Ideal S4x996x768 .f32) (ix3 b p o) :=
        congrFun (out17_final m ρ c) _
    _ = Ideal.tanh ((src17_0 (V35 m ρ) c (ix3 b r o) + src17_1 (V35 m ρ) c (ix3 b (⟨r.val + d, hd⟩ : Fin 128) o))
          + src17_2 (V35 m ρ) c (ix2 0 o)) :=
        final17 (V35 m ρ) c b r d ⟨r.val + d, hd⟩ rfl p hp o
    _ = Cert.Tri.pairValue (argX m c) (argW m c) (argB m c) b ⟨128 + r.val, by omega⟩ ⟨128 + r.val + d, by omega⟩ o := by
        rw [e0, e1, e2]
        rfl

/-- The program's result at the rank of a pair (i, j) of this chunk (`i / 8 = 16`). -/
theorem case17 (c : Dev nD) (b : Fin 4) (i j : Fin 256) (o : Fin 768) (hij : i.val ≤ j.val) (hK : i.val / 8 = 16) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 128 + i.val % 8 = i.val := by omega
  have hj : 128 + i.val % 8 + (j.val - i.val) = j.val := by omega
  have hd : i.val % 8 + (j.val - i.val) < 128 := by have := j.isLt; omega
  have hT : locOff 128 (i.val % 8) + (j.val - i.val) < 996 := by
    have := locOff_add_lt (L := 128) hr (by norm_num) hd
    omega
  have hrank : Cert.Tri.rank i.val j.val = 24640 + (locOff 128 (i.val % 8) + (j.val - i.val)) := by
    have h0 : Cert.Tri.triOff i.val = Cert.Tri.triOff (128 + i.val % 8) := congrArg Cert.Tri.triOff hi.symm
    have h1 : Cert.Tri.triOff (128 + i.val % 8) = Cert.Tri.triOff 128 + locOff 128 (i.val % 8) :=
      triOff_add_locOff 128 (i.val % 8)
    have h2 : Cert.Tri.triOff 128 = 24640 := triOff_chunk_eq 16 128 24640 (by norm_num) rfl rfl
    unfold Cert.Tri.rank
    omega
  refine (out_piece17 (W66 m ρ c) b _ ⟨_, hT⟩ o hrank).trans ?_
  refine (chunk17 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT18.lean ====
/-
  Chunk 18's stored value, read at an index.

  The body stores one value over its whole result block: the eight pieces `tanh ((p₁ row r + p₂ rows r…) + bias)`,
  `r = 0 … 7`, laid one under the other and given a leading unit axis. With 120 rows of the second product in view,
  piece `r` has `120 - r` rows and starts at row `locOff 120 r`. So the stored value at row `locOff 120 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 18 stores, as a function of the three blocks it loads. -/
abbrev stored18 {F : FTy → Type} [FloatOps F] (x0 : Vec F S1x8x768 .f32) (x1 : Vec F S1x120x768 .f32) (x2 : Vec F S1x768 .f32) :
    Vec F S1x932x768 .f32 :=
  k18_pay1 (k18_pay2 x0) (k18_pay3 x1) (k18_pay4 x2) (k18_pay5 x0 x1 x2) (k18_pay6 x0 x1 x2) (k18_pay7 x0 x1 x2) (k18_pay8 x0 x1 x2)
    (k18_pay9 x0 x1 x2) (k18_pay10 x0 x1 x2) (k18_pay11 x0 x1)

/-- The stored value at row `locOff 120 r + d` of its block pairs row `r` of the first block with row `r + d` of the
    second. -/
theorem pay18_apply (x0 : Vec Ideal S1x8x768 .f32) (x1 : Vec Ideal S1x120x768 .f32) (x2 : Vec Ideal S1x768 .f32)
    (r : Fin 8) (d : ℕ) (q : Fin 120) (hq : q.val = r.val + d) (p : Fin 932) (hp : p.val = locOff 120 r.val + d) (o : Fin 768) :
    stored18 x0 x1 x2 (ix3 0 p o) = Ideal.tanh ((x0 (ix3 0 r o) + x1 (ix3 0 q o)) + x2 (ix2 0 o)) := by
  have hql := q.isLt
  unfold stored18 k18_pay1
  refine (shapeCast_ab_1ab_apply _ _ 0 p o).trans ?_
  match r, hq, hp with
  | ⟨0, _⟩, hq, hp =>
    have hq : q.val = 0 + d := hq
    have hp : p.val = locOff 120 0 + d := hp
    have hd : d < 120 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 120 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 120 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 120 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 120 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 120 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 120 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 120 7 + d := hp
    refine (cat8_at7 _ _ _ _ _ _ _ _ _ d (by omega) o p (by simp only [locOff] at hp; omega)).trans ?_
    -- the last piece has 113 rows; a last piece of a single row is stored without broadcasts and has its own lemma
    first
      | have single : (113 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT18.lean ====
/-
  Chunk 18's result array after its region, read at an index.

  The region's grid is the batch: point `t` loads batch `t`'s eight rows of the first product's slice, batch `t`'s 120
  rows of the second product's slice and the bias row, and writes back the whole block `t` of the result. What it
  writes is the body's stored value of those three blocks. So the result array is ONE function of the three arrays it
  reads — at batch `b`, row `p`: the stored value of batch `b`'s blocks at row `p` (`G18`) —, every point writes its
  block of that function (`flushed18_eq`), the four blocks cover the array (`cover18`), hence the array ends as that
  function (`arr18_eq`); and at row `locOff 120 r + d` the stored value is the pair of row `r` with row `r + d`
  (`final18`).
-/
import proofs.«116342_j30605936951494_1_alg».proof.Proof.KI.Reg18
import proofs.«116342_j30605936951494_1_alg».proof.Proof.KI.PayT18
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA18 : (![0, 0, 0] : Fin 3 → Nat) = fun _ => 0 := funext fun a => by fin_cases a <;> rfl
theorem hzB18 : (![0, 0] : Fin 2 → Nat) = fun _ => 0 := funext fun a => by fin_cases a <;> rfl

/-- The grid is the batch: point `t` works on batch `t`. -/
noncomputable def batch18 (t : Fin cfg18.N) : Fin 4 := ⟨t.val, lt_of_lt_of_eq t.isLt N_18⟩

/-- The printed index maps, decided over the four points: the three batched windows sit at block `(t, 0, 0)`, the bias
    row at its one block. -/
theorem idx_facts18 : ∀ t : Fin cfg18.N,
    win18_0.index t (0 : Fin 3) = t.val ∧ win18_0.index t (1 : Fin 3) = 0 ∧ win18_0.index t (2 : Fin 3) = 0
    ∧ win18_1.index t (0 : Fin 3) = t.val ∧ win18_1.index t (1 : Fin 3) = 0 ∧ win18_1.index t (2 : Fin 3) = 0
    ∧ win18_2.index t (0 : Fin 2) = 0 ∧ win18_2.index t (1 : Fin 2) = 0
    ∧ win18_3.index t (0 : Fin 3) = t.val ∧ win18_3.index t (1 : Fin 3) = 0 ∧ win18_3.index t (2 : Fin 3) = 0 :=
  (by decide +kernel : ∀ t : Fin grid18.N, _)

/-- Batch `b`'s eight rows of the first product's slice, as a block. -/
noncomputable def blk18_0 (c : Dev nD) (b : Fin 4) : Vec Ideal S1x8x768 .f32 :=
  fun y => (V c main_v55 : S4x8x768.Idx → EReal) (ix3 b (y 1 : Fin 8) (y 2 : Fin 768))
/-- Batch `b`'s 120 rows of the second product's slice, as a block. -/
noncomputable def blk18_1 (c : Dev nD) (b : Fin 4) : Vec Ideal S1x120x768 .f32 :=
  fun y => (V c main_v56 : S4x120x768.Idx → EReal) (ix3 b (y 1 : Fin 120) (y 2 : Fin 768))
/-- The bias row. -/
noncomputable def blk18_2 (c : Dev nD) : Vec Ideal S1x768 .f32 := fun y => (V c main_v4 : S1x768.Idx → EReal) y

theorem iblk18_0_eq (c : Dev nD) (t : Fin cfg18.N) : (iblk18 V c 0 t : Vec Ideal S1x8x768 .f32) = blk18_0 V c (batch18 t) := by
  obtain ⟨e0, e1, e2, -⟩ := idx_facts18 t
  funext y
  unfold iblk18 blk18_0
  rw [View.read_apply]
  show V c main_v55 _ = V c main_v55 _
  congr 1
  funext a
  apply Fin.ext
  match a with
  | ⟨0, _⟩ => show win18_0.index t (0 : Fin 3) * 1 + 1 * (y 0).val = t.val; have hy : (y 0).val < 1 := (y 0).isLt; omega
  | ⟨1, _⟩ => show win18_0.index t (1 : Fin 3) * 8 + 1 * (y 1).val = (y 1).val; omega
  | ⟨2, _⟩ => show win18_0.index t (2 : Fin 3) * 768 + 1 * (y 2).val = (y 2).val; omega

theorem iblk18_1_eq (c : Dev nD) (t : Fin cfg18.N) : (iblk18 V c 1 t : Vec Ideal S1x120x768 .f32) = blk18_1 V c (batch18 t) := by
  obtain ⟨-, -, -, e0, e1, e2, -⟩ := idx_facts18 t
  funext y
  unfold iblk18 blk18_1
  rw [View.read_apply]
  show V c main_v56 _ = V c main_v56 _
  congr 1
  funext a
  apply Fin.ext
  match a with
  | ⟨0, _⟩ => show win18_1.index t (0 : Fin 3) * 1 + 1 * (y 0).val = t.val; have hy : (y 0).val < 1 := (y 0).isLt; omega
  | ⟨1, _⟩ => show win18_1.index t (1 : Fin 3) * 120 + 1 * (y 1).val = (y 1).val; omega
  | ⟨2, _⟩ => show win18_1.index t (2 : Fin 3) * 768 + 1 * (y 2).val = (y 2).val; omega

theorem iblk18_2_eq (c : Dev nD) (t : Fin cfg18.N) : (iblk18 V c 2 t : Vec Ideal S1x768 .f32) = blk18_2 V c := by
  obtain ⟨-, -, -, -, -, -, e0, e1, -⟩ := idx_facts18 t
  funext y
  unfold iblk18 blk18_2
  rw [View.read_apply]
  show V c main_v4 _ = V c main_v4 _
  congr 1
  funext a
  apply Fin.ext
  match a with
  | ⟨0, _⟩ => show win18_2.index t (0 : Fin 2) * 1 + 1 * (y 0).val = (y 0).val; omega
  | ⟨1, _⟩ => show win18_2.index t (1 : Fin 2) * 768 + 1 * (y 1).val = (y 1).val; omega

/-- The result array as ONE function of the three arrays the chunk reads: at batch `b`, row `p`, the value the body
    stores for batch `b`'s blocks, read at row `p`. -/
noncomputable def G18 (c : Dev nD) : S4x932x768.Idx → EReal :=
  fun i => stored18 (blk18_0 V c (i 0 : Fin 4)) (blk18_1 V c (i 0 : Fin 4)) (blk18_2 V c) (ix3 (0 : Fin 1) (i 1 : Fin 932) (i 2 : Fin 768))

/-- What point `t` writes back is block `t` of `G18`. -/
theorem flushed18_eq (c : Dev nD) (t : Fin cfg18.N) :
    (dat18 (F := Ideal) V c).flushed 3 t = ((cfg18.win 3).blk t).view.read (Elt Ideal) (G18 V c) := by
  obtain ⟨-, -, -, -, -, -, -, -, e0, e1, e2⟩ := idx_facts18 t
  show (cfg18.win 3).cut (grid18.coords t) ((dat18 (F := Ideal) V c).after 3 t) = _
  rw [after18_3]
  unfold out18_3
  rw [View.canon_unit_zero hzA18]
  simp only [View.ld_unit_zero (S := S1x8x768) hzA18, View.ld_unit_zero (S := S1x120x768) hzA18, View.ld_unit_zero (S := S1x768) hzB18]
  rw [iblk18_0_eq, iblk18_1_eq, iblk18_2_eq]
  funext j
  show stored18 (blk18_0 V c (batch18 t)) (blk18_1 V c (batch18 t)) (blk18_2 V c) j = G18 V c (((cfg18.win 3).blk t).view.emb j)
  have hj0 : (j 0).val < 1 := (j 0).isLt
  have he : ((cfg18.win 3).blk t).view.emb j = (ix3 (batch18 t) (j 1 : Fin 932) (j 2 : Fin 768) : S4x932x768.Idx) := by
    funext a
    apply Fin.ext
    match a with
    | ⟨0, _⟩ => show win18_3.index t (0 : Fin 3) * 1 + 1 * (j 0).val = t.val; omega
    | ⟨1, _⟩ => show win18_3.index t (1 : Fin 3) * 932 + 1 * (j 1).val = (j 1).val; omega
    | ⟨2, _⟩ => show win18_3.index t (2 : Fin 3) * 768 + 1 * (j 2).val = (j 2).val; omega
  rw [he]
  show _ = stored18 (blk18_0 V c (batch18 t)) (blk18_1 V c (batch18 t)) (blk18_2 V c) (ix3 (0 : Fin 1) (j 1 : Fin 932) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk18 (t : Fin cfg18.N) (i : S4x932x768.Idx) :
    i ∈ ((cfg18.win 3).blk t).view.set ↔ ∀ a : Fin 3, win18_3.index t a * S1x932x768.size a ≤ (i a).val ∧ (i a).val < win18_3.index t a * S1x932x768.size a + S1x932x768.size a := by
  show i ∈ ((View.whole main_v57).slice (win18_3.rect t)).set ↔ _
  rw [View.set_slice_whole, Rect.mem_set_unit]
  exact Iff.rfl

/-- Batch `b` of the result is written by point `b`. -/
theorem cover18 (i : S4x932x768.Idx) : ∃ t : Fin cfg18.N, (cfg18.win 3).flush t = true ∧ i ∈ ((cfg18.win 3).blk t).view.set := by
  have hi0 : (i 0).val < 4 := (i 0).isLt
  have hi1 : (i 1).val < 932 := (i 1).isLt
  have hi2 : (i 2).val < 768 := (i 2).isLt
  let t : Fin cfg18.N := ⟨(i 0).val, lt_of_lt_of_eq hi0 N_18.symm⟩
  obtain ⟨-, -, -, -, -, -, -, -, e0, e1, e2⟩ := idx_facts18 t
  refine ⟨t, flush18_3 t, ?_⟩
  rw [mem_blk18]
  intro a
  match a with
  | ⟨0, _⟩ => show win18_3.index t (0 : Fin 3) * 1 ≤ (i 0).val ∧ (i 0).val < win18_3.index t (0 : Fin 3) * 1 + 1; rw [e0]; show (i 0).val * 1 ≤ (i 0).val ∧ (i 0).val < (i 0).val * 1 + 1; omega
  | ⟨1, _⟩ => show win18_3.index t (1 : Fin 3) * 932 ≤ (i 1).val ∧ (i 1).val < win18_3.index t (1 : Fin 3) * 932 + 932; omega
  | ⟨2, _⟩ => show win18_3.index t (2 : Fin 3) * 768 ≤ (i 2).val ∧ (i 2).val < win18_3.index t (2 : Fin 3) * 768 + 768; omega

/-- The result array after the region is `G18`. -/
theorem arr18_eq (c : Dev nD) : (dat18 (F := Ideal) V c).arrAt 3 cfg18.N = G18 V c :=
  (dat18 (F := Ideal) V c).arrAt_eq_of_cover 3 (G18 V c) (fun t _ => flushed18_eq V c t) cover18

/-- The three arrays the chunk reads, at their literal types (so that their entries add as extended reals). -/
abbrev src18_0 (c : Dev nD) : S4x8x768.Idx → EReal := V c main_v55
abbrev src18_1 (c : Dev nD) : S4x120x768.Idx → EReal := V c main_v56
abbrev src18_2 (c : Dev nD) : S1x768.Idx → EReal := V c main_v4

/-- The result array at batch `b`, row `locOff 120 r + d`: the pair of row `r` of the first slice with row `r + d` of
    the second, at batch `b`. -/
theorem final18 (c : Dev nD) (b : Fin 4) (r : Fin 8) (d : ℕ) (q : Fin 120) (hq : q.val = r.val + d)
    (p : Fin 932) (hp : p.val = locOff 120 r.val + d) (o : Fin 768) :
    (dat18 (F := Ideal) V c).arrAt 3 cfg18.N (ix3 b p o)
      = Ideal.tanh ((src18_0 V c (ix3 b r o) + src18_1 V c (ix3 b q o)) + src18_2 V c (ix2 0 o)) := by
  rw [arr18_eq]
  show stored18 (blk18_0 V c b) (blk18_1 V c b) (blk18_2 V c) (ix3 0 p o) = _
  rw [pay18_apply _ _ _ r d q hq p hp o]
  rfl

end Cert.KernelIdeal.Val

end
-- ==== Proof.KI.Case18.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT18
import proofs.«116342_j30605936951494_1_alg».proof.Proof.KI.PayLib

/-!
# Chunk 18 of the triangle: the pairs (i, j) with 136 ≤ i < 136 + 8

The chunk's region reads three arrays: its eight rows 136 … 136 + 7 of the first projection, the rows 136 … 255 of the
second, and the bias row, each cut by the host from what boundary 3 holds. Its result, still in place when the last
stretch reads it, holds at local row `locOff 120 r + d` the value of the pair (136 + r, 136 + r + d). In the packed
order the chunk starts at row 25636 = triOff 136 and the pair (i, j) sits at `triOff i + (j - i)`: with `r = i mod 8` and
`d = j - i` that is row 25636 + (locOff 120 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 120 r + d` holds the pair (136 + r, 136 + r + d). -/
theorem chunk18 (c : Dev nD) (b : Fin 4) (r : Fin 8) (d : ℕ) (hd : r.val + d < 120) (p : Fin 932)
    (hp : p.val = locOff 120 r.val + d) (o : Fin 768) :
    (W66 m ρ c (Proc.devRef .tc main_v57) : Vec Ideal S4x932x768 .f32) (ix3 b p o)
      = Cert.Tri.pairValue (argX m c) (argW m c) (argB m c) b ⟨136 + r.val, by omega⟩ ⟨136 + r.val + d, by omega⟩ o := by
  have e0 : src18_0 (V37 m ρ) c (ix3 b r o)
      = Cert.Tri.proj1 (argX m c) (argW m c) b ⟨136 + r.val, by omega⟩ o :=
    (host18_rows (W36 m ρ c) b r o ⟨136 + r.val, by omega⟩ rfl).trans
      ((congrFun (W36_main_v2 m ρ c) _).trans (p1_W3 m ρ c b _ o))
  have e1 : src18_1 (V37 m ρ) c (ix3 b (⟨r.val + d, hd⟩ : Fin 120) o)
      = Cert.Tri.proj2 (argX m c) (argW m c) b ⟨136 + r.val + d, by omega⟩ o :=
    (host18_pair (W36 m ρ c) b ⟨r.val + d, hd⟩ o ⟨136 + r.val + d, by omega⟩
        (by show 136 + r.val + d = 136 + (r.val + d); omega)).trans
      ((congrFun (W36_main_v3 m ρ c) _).trans (p2_W3 m ρ c b _ o))
  have e2 : src18_2 (V37 m ρ) c (ix2 0 o) = argB m c (ix1 o) :=
    (congrFun (W37_main_v4 m ρ c) _).trans (bias_W3 m ρ c 0 o)
  calc (W66 m ρ c (Proc.devRef .tc main_v57) : Vec Ideal S4x932x768 .f32) (ix3 b p o)
      = ((dat18 (F := Ideal) (V37 m ρ) c).arrAt 3 cfg18.N : Vec Ideal S4x932x768 .f32) (ix3 b p o) :=
        congrFun (out18_final m ρ c) _
    _ = Ideal.tanh ((src18_0 (V37 m ρ) c (ix3 b r o) + src18_1 (V37 m ρ) c (ix3 b (⟨r.val + d, hd⟩ : Fin 120) o))
          + src18_2 (V37 m ρ) c (ix2 0 o)) :=
        final18 (V37 m ρ) c b r d ⟨r.val + d, hd⟩ rfl p hp o
    _ = Cert.Tri.pairValue (argX m c) (argW m c) (argB m c) b ⟨136 + r.val, by omega⟩ ⟨136 + r.val + d, by omega⟩ o := by
        rw [e0, e1, e2]
        rfl

/-- The program's result at the rank of a pair (i, j) of this chunk (`i / 8 = 17`). -/
theorem case18 (c : Dev nD) (b : Fin 4) (i j : Fin 256) (o : Fin 768) (hij : i.val ≤ j.val) (hK : i.val / 8 = 17) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 136 + i.val % 8 = i.val := by omega
  have hj : 136 + i.val % 8 + (j.val - i.val) = j.val := by omega
  have hd : i.val % 8 + (j.val - i.val) < 120 := by have := j.isLt; omega
  have hT : locOff 120 (i.val % 8) + (j.val - i.val) < 932 := by
    have := locOff_add_lt (L := 120) hr (by norm_num) hd
    omega
  have hrank : Cert.Tri.rank i.val j.val = 25636 + (locOff 120 (i.val % 8) + (j.val - i.val)) := by
    have h0 : Cert.Tri.triOff i.val = Cert.Tri.triOff (136 + i.val % 8) := congrArg Cert.Tri.triOff hi.symm
    have h1 : Cert.Tri.triOff (136 + i.val % 8) = Cert.Tri.triOff 136 + locOff 120 (i.val % 8) :=
      triOff_add_locOff 136 (i.val % 8)
    have h2 : Cert.Tri.triOff 136 = 25636 := triOff_chunk_eq 17 136 25636 (by norm_num) rfl rfl
    unfold Cert.Tri.rank
    omega
  refine (out_piece18 (W66 m ρ c) b _ ⟨_, hT⟩ o hrank).trans ?_
  refine (chunk18 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT19.lean ====
/-
  Chunk 19's stored value, read at an index.

  The body stores one value over its whole result block: the eight pieces `tanh ((p₁ row r + p₂ rows r…) + bias)`,
  `r = 0 … 7`, laid one under the other and given a leading unit axis. With 112 rows of the second product in view,
  piece `r` has `112 - r` rows and starts at row `locOff 112 r`. So the stored value at row `locOff 112 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 19 stores, as a function of the three blocks it loads. -/
abbrev stored19 {F : FTy → Type} [FloatOps F] (x0 : Vec F S1x8x768 .f32) (x1 : Vec F S1x112x768 .f32) (x2 : Vec F S1x768 .f32) :
    Vec F S1x868x768 .f32 :=
  k19_pay1 (k19_pay2 x0) (k19_pay3 x1) (k19_pay4 x2) (k19_pay5 x0 x1 x2) (k19_pay6 x0 x1 x2) (k19_pay7 x0 x1 x2) (k19_pay8 x0 x1 x2)
    (k19_pay9 x0 x1 x2) (k19_pay10 x0 x1 x2) (k19_pay11 x0 x1)

/-- The stored value at row `locOff 112 r + d` of its block pairs row `r` of the first block with row `r + d` of the
    second. -/
theorem pay19_apply (x0 : Vec Ideal S1x8x768 .f32) (x1 : Vec Ideal S1x112x768 .f32) (x2 : Vec Ideal S1x768 .f32)
    (r : Fin 8) (d : ℕ) (q : Fin 112) (hq : q.val = r.val + d) (p : Fin 868) (hp : p.val = locOff 112 r.val + d) (o : Fin 768) :
    stored19 x0 x1 x2 (ix3 0 p o) = Ideal.tanh ((x0 (ix3 0 r o) + x1 (ix3 0 q o)) + x2 (ix2 0 o)) := by
  have hql := q.isLt
  unfold stored19 k19_pay1
  refine (shapeCast_ab_1ab_apply _ _ 0 p o).trans ?_
  match r, hq, hp with
  | ⟨0, _⟩, hq, hp =>
    have hq : q.val = 0 + d := hq
    have hp : p.val = locOff 112 0 + d := hp
    have hd : d < 112 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 112 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 112 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 112 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 112 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 112 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 112 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 112 7 + d := hp
    refine (cat8_at7 _ _ _ _ _ _ _ _ _ d (by omega) o p (by simp only [locOff] at hp; omega)).trans ?_
    -- the last piece has 105 rows; a last piece of a single row is stored without broadcasts and has its own lemma
    first
      | have single : (105 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT19.lean ====
/-
  Chunk 19's result array after its region, read at an index.

  The region's grid is the batch: point `t` loads batch `t`'s eight rows of the first product's slice, batch `t`'s 112
  rows of the second product's slice and the bias row, and writes back the whole block `t` of the result. What it
  writes is the body's stored value of those three blocks. So the result array is ONE function of the three arrays it
  reads — at batch `b`, row `p`: the stored value of batch `b`'s blocks at row `p` (`G19`) —, every point writes its
  block of that function (`flushed19_eq`), the four blocks cover the array (`cover19`), hence the array ends as that
  function (`arr19_eq`); and at row `locOff 112 r + d` the stored value is the pair of row `r` with row `r + d`
  (`final19`).
-/
import proofs.«116342_j30605936951494_1_alg».proof.Proof.KI.Reg19
import proofs.«116342_j30605936951494_1_alg».proof.Proof.KI.PayT19
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA19 : (![0, 0, 0] : Fin 3 → Nat) = fun _ => 0 := funext fun a => by fin_cases a <;> rfl
theorem hzB19 : (![0, 0] : Fin 2 → Nat) = fun _ => 0 := funext fun a => by fin_cases a <;> rfl

/-- The grid is the batch: point `t` works on batch `t`. -/
noncomputable def batch19 (t : Fin cfg19.N) : Fin 4 := ⟨t.val, lt_of_lt_of_eq t.isLt N_19⟩

/-- The printed index maps, decided over the four points: the three batched windows sit at block `(t, 0, 0)`, the bias
    row at its one block. -/
theorem idx_facts19 : ∀ t : Fin cfg19.N,
    win19_0.index t (0 : Fin 3) = t.val ∧ win19_0.index t (1 : Fin 3) = 0 ∧ win19_0.index t (2 : Fin 3) = 0
    ∧ win19_1.index t (0 : Fin 3) = t.val ∧ win19_1.index t (1 : Fin 3) = 0 ∧ win19_1.index t (2 : Fin 3) = 0
    ∧ win19_2.index t (0 : Fin 2) = 0 ∧ win19_2.index t (1 : Fin 2) = 0
    ∧ win19_3.index t (0 : Fin 3) = t.val ∧ win19_3.index t (1 : Fin 3) = 0 ∧ win19_3.index t (2 : Fin 3) = 0 :=
  (by decide +kernel : ∀ t : Fin grid19.N, _)

/-- Batch `b`'s eight rows of the first product's slice, as a block. -/
noncomputable def blk19_0 (c : Dev nD) (b : Fin 4) : Vec Ideal S1x8x768 .f32 :=
  fun y => (V c main_v58 : S4x8x768.Idx → EReal) (ix3 b (y 1 : Fin 8) (y 2 : Fin 768))
/-- Batch `b`'s 112 rows of the second product's slice, as a block. -/
noncomputable def blk19_1 (c : Dev nD) (b : Fin 4) : Vec Ideal S1x112x768 .f32 :=
  fun y => (V c main_v59 : S4x112x768.Idx → EReal) (ix3 b (y 1 : Fin 112) (y 2 : Fin 768))
/-- The bias row. -/
noncomputable def blk19_2 (c : Dev nD) : Vec Ideal S1x768 .f32 := fun y => (V c main_v4 : S1x768.Idx → EReal) y

theorem iblk19_0_eq (c : Dev nD) (t : Fin cfg19.N) : (iblk19 V c 0 t : Vec Ideal S1x8x768 .f32) = blk19_0 V c (batch19 t) := by
  obtain ⟨e0, e1, e2, -⟩ := idx_facts19 t
  funext y
  unfold iblk19 blk19_0
  rw [View.read_apply]
  show V c main_v58 _ = V c main_v58 _
  congr 1
  funext a
  apply Fin.ext
  match a with
  | ⟨0, _⟩ => show win19_0.index t (0 : Fin 3) * 1 + 1 * (y 0).val = t.val; have hy : (y 0).val < 1 := (y 0).isLt; omega
  | ⟨1, _⟩ => show win19_0.index t (1 : Fin 3) * 8 + 1 * (y 1).val = (y 1).val; omega
  | ⟨2, _⟩ => show win19_0.index t (2 : Fin 3) * 768 + 1 * (y 2).val = (y 2).val; omega

theorem iblk19_1_eq (c : Dev nD) (t : Fin cfg19.N) : (iblk19 V c 1 t : Vec Ideal S1x112x768 .f32) = blk19_1 V c (batch19 t) := by
  obtain ⟨-, -, -, e0, e1, e2, -⟩ := idx_facts19 t
  funext y
  unfold iblk19 blk19_1
  rw [View.read_apply]
  show V c main_v59 _ = V c main_v59 _
  congr 1
  funext a
  apply Fin.ext
  match a with
  | ⟨0, _⟩ => show win19_1.index t (0 : Fin 3) * 1 + 1 * (y 0).val = t.val; have hy : (y 0).val < 1 := (y 0).isLt; omega
  | ⟨1, _⟩ => show win19_1.index t (1 : Fin 3) * 112 + 1 * (y 1).val = (y 1).val; omega
  | ⟨2, _⟩ => show win19_1.index t (2 : Fin 3) * 768 + 1 * (y 2).val = (y 2).val; omega

theorem iblk19_2_eq (c : Dev nD) (t : Fin cfg19.N) : (iblk19 V c 2 t : Vec Ideal S1x768 .f32) = blk19_2 V c := by
  obtain ⟨-, -, -, -, -, -, e0, e1, -⟩ := idx_facts19 t
  funext y
  unfold iblk19 blk19_2
  rw [View.read_apply]
  show V c main_v4 _ = V c main_v4 _
  congr 1
  funext a
  apply Fin.ext
  match a with
  | ⟨0, _⟩ => show win19_2.index t (0 : Fin 2) * 1 + 1 * (y 0).val = (y 0).val; omega
  | ⟨1, _⟩ => show win19_2.index t (1 : Fin 2) * 768 + 1 * (y 1).val = (y 1).val; omega

/-- The result array as ONE function of the three arrays the chunk reads: at batch `b`, row `p`, the value the body
    stores for batch `b`'s blocks, read at row `p`. -/
noncomputable def G19 (c : Dev nD) : S4x868x768.Idx → EReal :=
  fun i => stored19 (blk19_0 V c (i 0 : Fin 4)) (blk19_1 V c (i 0 : Fin 4)) (blk19_2 V c) (ix3 (0 : Fin 1) (i 1 : Fin 868) (i 2 : Fin 768))

/-- What point `t` writes back is block `t` of `G19`. -/
theorem flushed19_eq (c : Dev nD) (t : Fin cfg19.N) :
    (dat19 (F := Ideal) V c).flushed 3 t = ((cfg19.win 3).blk t).view.read (Elt Ideal) (G19 V c) := by
  obtain ⟨-, -, -, -, -, -, -, -, e0, e1, e2⟩ := idx_facts19 t
  show (cfg19.win 3).cut (grid19.coords t) ((dat19 (F := Ideal) V c).after 3 t) = _
  rw [after19_3]
  unfold out19_3
  rw [View.canon_unit_zero hzA19]
  simp only [View.ld_unit_zero (S := S1x8x768) hzA19, View.ld_unit_zero (S := S1x112x768) hzA19, View.ld_unit_zero (S := S1x768) hzB19]
  rw [iblk19_0_eq, iblk19_1_eq, iblk19_2_eq]
  funext j
  show stored19 (blk19_0 V c (batch19 t)) (blk19_1 V c (batch19 t)) (blk19_2 V c) j = G19 V c (((cfg19.win 3).blk t).view.emb j)
  have hj0 : (j 0).val < 1 := (j 0).isLt
  have he : ((cfg19.win 3).blk t).view.emb j = (ix3 (batch19 t) (j 1 : Fin 868) (j 2 : Fin 768) : S4x868x768.Idx) := by
    funext a
    apply Fin.ext
    match a with
    | ⟨0, _⟩ => show win19_3.index t (0 : Fin 3) * 1 + 1 * (j 0).val = t.val; omega
    | ⟨1, _⟩ => show win19_3.index t (1 : Fin 3) * 868 + 1 * (j 1).val = (j 1).val; omega
    | ⟨2, _⟩ => show win19_3.index t (2 : Fin 3) * 768 + 1 * (j 2).val = (j 2).val; omega
  rw [he]
  show _ = stored19 (blk19_0 V c (batch19 t)) (blk19_1 V c (batch19 t)) (blk19_2 V c) (ix3 (0 : Fin 1) (j 1 : Fin 868) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk19 (t : Fin cfg19.N) (i : S4x868x768.Idx) :
    i ∈ ((cfg19.win 3).blk t).view.set ↔ ∀ a : Fin 3, win19_3.index t a * S1x868x768.size a ≤ (i a).val ∧ (i a).val < win19_3.index t a * S1x868x768.size a + S1x868x768.size a := by
  show i ∈ ((View.whole main_v60).slice (win19_3.rect t)).set ↔ _
  rw [View.set_slice_whole, Rect.mem_set_unit]
  exact Iff.rfl

/-- Batch `b` of the result is written by point `b`. -/
theorem cover19 (i : S4x868x768.Idx) : ∃ t : Fin cfg19.N, (cfg19.win 3).flush t = true ∧ i ∈ ((cfg19.win 3).blk t).view.set := by
  have hi0 : (i 0).val < 4 := (i 0).isLt
  have hi1 : (i 1).val < 868 := (i 1).isLt
  have hi2 : (i 2).val < 768 := (i 2).isLt
  let t : Fin cfg19.N := ⟨(i 0).val, lt_of_lt_of_eq hi0 N_19.symm⟩
  obtain ⟨-, -, -, -, -, -, -, -, e0, e1, e2⟩ := idx_facts19 t
  refine ⟨t, flush19_3 t, ?_⟩
  rw [mem_blk19]
  intro a
  match a with
  | ⟨0, _⟩ => show win19_3.index t (0 : Fin 3) * 1 ≤ (i 0).val ∧ (i 0).val < win19_3.index t (0 : Fin 3) * 1 + 1; rw [e0]; show (i 0).val * 1 ≤ (i 0).val ∧ (i 0).val < (i 0).val * 1 + 1; omega
  | ⟨1, _⟩ => show win19_3.index t (1 : Fin 3) * 868 ≤ (i 1).val ∧ (i 1).val < win19_3.index t (1 : Fin 3) * 868 + 868; omega
  | ⟨2, _⟩ => show win19_3.index t (2 : Fin 3) * 768 ≤ (i 2).val ∧ (i 2).val < win19_3.index t (2 : Fin 3) * 768 + 768; omega

/-- The result array after the region is `G19`. -/
theorem arr19_eq (c : Dev nD) : (dat19 (F := Ideal) V c).arrAt 3 cfg19.N = G19 V c :=
  (dat19 (F := Ideal) V c).arrAt_eq_of_cover 3 (G19 V c) (fun t _ => flushed19_eq V c t) cover19

/-- The three arrays the chunk reads, at their literal types (so that their entries add as extended reals). -/
abbrev src19_0 (c : Dev nD) : S4x8x768.Idx → EReal := V c main_v58
abbrev src19_1 (c : Dev nD) : S4x112x768.Idx → EReal := V c main_v59
abbrev src19_2 (c : Dev nD) : S1x768.Idx → EReal := V c main_v4

/-- The result array at batch `b`, row `locOff 112 r + d`: the pair of row `r` of the first slice with row `r + d` of
    the second, at batch `b`. -/
theorem final19 (c : Dev nD) (b : Fin 4) (r : Fin 8) (d : ℕ) (q : Fin 112) (hq : q.val = r.val + d)
    (p : Fin 868) (hp : p.val = locOff 112 r.val + d) (o : Fin 768) :
    (dat19 (F := Ideal) V c).arrAt 3 cfg19.N (ix3 b p o)
      = Ideal.tanh ((src19_0 V c (ix3 b r o) + src19_1 V c (ix3 b q o)) + src19_2 V c (ix2 0 o)) := by
  rw [arr19_eq]
  show stored19 (blk19_0 V c b) (blk19_1 V c b) (blk19_2 V c) (ix3 0 p o) = _
  rw [pay19_apply _ _ _ r d q hq p hp o]
  rfl

end Cert.KernelIdeal.Val

end
-- ==== Proof.KI.Case19.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT19
import proofs.«116342_j30605936951494_1_alg».proof.Proof.KI.PayLib

/-!
# Chunk 19 of the triangle: the pairs (i, j) with 144 ≤ i < 144 + 8

The chunk's region reads three arrays: its eight rows 144 … 144 + 7 of the first projection, the rows 144 … 255 of the
second, and the bias row, each cut by the host from what boundary 3 holds. Its result, still in place when the last
stretch reads it, holds at local row `locOff 112 r + d` the value of the pair (144 + r, 144 + r + d). In the packed
order the chunk starts at row 26568 = triOff 144 and the pair (i, j) sits at `triOff i + (j - i)`: with `r = i mod 8` and
`d = j - i` that is row 26568 + (locOff 112 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 112 r + d` holds the pair (144 + r, 144 + r + d). -/
theorem chunk19 (c : Dev nD) (b : Fin 4) (r : Fin 8) (d : ℕ) (hd : r.val + d < 112) (p : Fin 868)
    (hp : p.val = locOff 112 r.val + d) (o : Fin 768) :
    (W66 m ρ c (Proc.devRef .tc main_v60) : Vec Ideal S4x868x768 .f32) (ix3 b p o)
      = Cert.Tri.pairValue (argX m c) (argW m c) (argB m c) b ⟨144 + r.val, by omega⟩ ⟨144 + r.val + d, by omega⟩ o := by
  have e0 : src19_0 (V39 m ρ) c (ix3 b r o)
      = Cert.Tri.proj1 (argX m c) (argW m c) b ⟨144 + r.val, by omega⟩ o :=
    (host19_rows (W38 m ρ c) b r o ⟨144 + r.val, by omega⟩ rfl).trans
      ((congrFun (W38_main_v2 m ρ c) _).trans (p1_W3 m ρ c b _ o))
  have e1 : src19_1 (V39 m ρ) c (ix3 b (⟨r.val + d, hd⟩ : Fin 112) o)
      = Cert.Tri.proj2 (argX m c) (argW m c) b ⟨144 + r.val + d, by omega⟩ o :=
    (host19_pair (W38 m ρ c) b ⟨r.val + d, hd⟩ o ⟨144 + r.val + d, by omega⟩
        (by show 144 + r.val + d = 144 + (r.val + d); omega)).trans
      ((congrFun (W38_main_v3 m ρ c) _).trans (p2_W3 m ρ c b _ o))
  have e2 : src19_2 (V39 m ρ) c (ix2 0 o) = argB m c (ix1 o) :=
    (congrFun (W39_main_v4 m ρ c) _).trans (bias_W3 m ρ c 0 o)
  calc (W66 m ρ c (Proc.devRef .tc main_v60) : Vec Ideal S4x868x768 .f32) (ix3 b p o)
      = ((dat19 (F := Ideal) (V39 m ρ) c).arrAt 3 cfg19.N : Vec Ideal S4x868x768 .f32) (ix3 b p o) :=
        congrFun (out19_final m ρ c) _
    _ = Ideal.tanh ((src19_0 (V39 m ρ) c (ix3 b r o) + src19_1 (V39 m ρ) c (ix3 b (⟨r.val + d, hd⟩ : Fin 112) o))
          + src19_2 (V39 m ρ) c (ix2 0 o)) :=
        final19 (V39 m ρ) c b r d ⟨r.val + d, hd⟩ rfl p hp o
    _ = Cert.Tri.pairValue (argX m c) (argW m c) (argB m c) b ⟨144 + r.val, by omega⟩ ⟨144 + r.val + d, by omega⟩ o := by
        rw [e0, e1, e2]
        rfl

/-- The program's result at the rank of a pair (i, j) of this chunk (`i / 8 = 18`). -/
theorem case19 (c : Dev nD) (b : Fin 4) (i j : Fin 256) (o : Fin 768) (hij : i.val ≤ j.val) (hK : i.val / 8 = 18) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 144 + i.val % 8 = i.val := by omega
  have hj : 144 + i.val % 8 + (j.val - i.val) = j.val := by omega
  have hd : i.val % 8 + (j.val - i.val) < 112 := by have := j.isLt; omega
  have hT : locOff 112 (i.val % 8) + (j.val - i.val) < 868 := by
    have := locOff_add_lt (L := 112) hr (by norm_num) hd
    omega
  have hrank : Cert.Tri.rank i.val j.val = 26568 + (locOff 112 (i.val % 8) + (j.val - i.val)) := by
    have h0 : Cert.Tri.triOff i.val = Cert.Tri.triOff (144 + i.val % 8) := congrArg Cert.Tri.triOff hi.symm
    have h1 : Cert.Tri.triOff (144 + i.val % 8) = Cert.Tri.triOff 144 + locOff 112 (i.val % 8) :=
      triOff_add_locOff 144 (i.val % 8)
    have h2 : Cert.Tri.triOff 144 = 26568 := triOff_chunk_eq 18 144 26568 (by norm_num) rfl rfl
    unfold Cert.Tri.rank
    omega
  refine (out_piece19 (W66 m ρ c) b _ ⟨_, hT⟩ o hrank).trans ?_
  refine (chunk19 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT20.lean ====
/-
  Chunk 20's stored value, read at an index.

  The body stores one value over its whole result block: the eight pieces `tanh ((p₁ row r + p₂ rows r…) + bias)`,
  `r = 0 … 7`, laid one under the other and given a leading unit axis. With 104 rows of the second product in view,
  piece `r` has `104 - r` rows and starts at row `locOff 104 r`. So the stored value at row `locOff 104 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 20 stores, as a function of the three blocks it loads. -/
abbrev stored20 {F : FTy → Type} [FloatOps F] (x0 : Vec F S1x8x768 .f32) (x1 : Vec F S1x104x768 .f32) (x2 : Vec F S1x768 .f32) :
    Vec F S1x804x768 .f32 :=
  k20_pay1 (k20_pay2 x0) (k20_pay3 x1) (k20_pay4 x2) (k20_pay5 x0 x1 x2) (k20_pay6 x0 x1 x2) (k20_pay7 x0 x1 x2) (k20_pay8 x0 x1 x2)
    (k20_pay9 x0 x1 x2) (k20_pay10 x0 x1 x2) (k20_pay11 x0 x1)

/-- The stored value at row `locOff 104 r + d` of its block pairs row `r` of the first block with row `r + d` of the
    second. -/
theorem pay20_apply (x0 : Vec Ideal S1x8x768 .f32) (x1 : Vec Ideal S1x104x768 .f32) (x2 : Vec Ideal S1x768 .f32)
    (r : Fin 8) (d : ℕ) (q : Fin 104) (hq : q.val = r.val + d) (p : Fin 804) (hp : p.val = locOff 104 r.val + d) (o : Fin 768) :
    stored20 x0 x1 x2 (ix3 0 p o) = Ideal.tanh ((x0 (ix3 0 r o) + x1 (ix3 0 q o)) + x2 (ix2 0 o)) := by
  have hql := q.isLt
  unfold stored20 k20_pay1
  refine (shapeCast_ab_1ab_apply _ _ 0 p o).trans ?_
  match r, hq, hp with
  | ⟨0, _⟩, hq, hp =>
    have hq : q.val = 0 + d := hq
    have hp : p.val = locOff 104 0 + d := hp
    have hd : d < 104 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 104 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 104 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 104 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 104 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 104 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 104 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 104 7 + d := hp
    refine (cat8_at7 _ _ _ _ _ _ _ _ _ d (by omega) o p (by simp only [locOff] at hp; omega)).trans ?_
    -- the last piece has 97 rows; a last piece of a single row is stored without broadcasts and has its own lemma
    first
      | have single : (97 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT20.lean ====
/-
  Chunk 20's result array after its region, read at an index.

  The region's grid is the batch: point `t` loads batch `t`'s eight rows of the first product's slice, batch `t`'s 104
  rows of the second product's slice and the bias row, and writes back the whole block `t` of the result. What it
  writes is the body's stored value of those three blocks. So the result array is ONE function of the three arrays it
  reads — at batch `b`, row `p`: the stored value of batch `b`'s blocks at row `p` (`G20`) —, every point writes its
  block of that function (`flushed20_eq`), the four blocks cover the array (`cover20`), hence the array ends as that
  function (`arr20_eq`); and at row `locOff 104 r + d` the stored value is the pair of row `r` with row `r + d`
  (`final20`).
-/
import proofs.«116342_j30605936951494_1_alg».proof.Proof.KI.Reg20
import proofs.«116342_j30605936951494_1_alg».proof.Proof.KI.PayT20
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA20 : (![0, 0, 0] : Fin 3 → Nat) = fun _ => 0 := funext fun a => by fin_cases a <;> rfl
theorem hzB20 : (![0, 0] : Fin 2 → Nat) = fun _ => 0 := funext fun a => by fin_cases a <;> rfl

/-- The grid is the batch: point `t` works on batch `t`. -/
noncomputable def batch20 (t : Fin cfg20.N) : Fin 4 := ⟨t.val, lt_of_lt_of_eq t.isLt N_20⟩

/-- The printed index maps, decided over the four points: the three batched windows sit at block `(t, 0, 0)`, the bias
    row at its one block. -/
theorem idx_facts20 : ∀ t : Fin cfg20.N,
    win20_0.index t (0 : Fin 3) = t.val ∧ win20_0.index t (1 : Fin 3) = 0 ∧ win20_0.index t (2 : Fin 3) = 0
    ∧ win20_1.index t (0 : Fin 3) = t.val ∧ win20_1.index t (1 : Fin 3) = 0 ∧ win20_1.index t (2 : Fin 3) = 0
    ∧ win20_2.index t (0 : Fin 2) = 0 ∧ win20_2.index t (1 : Fin 2) = 0
    ∧ win20_3.index t (0 : Fin 3) = t.val ∧ win20_3.index t (1 : Fin 3) = 0 ∧ win20_3.index t (2 : Fin 3) = 0 :=
  (by decide +kernel : ∀ t : Fin grid20.N, _)

/-- Batch `b`'s eight rows of the first product's slice, as a block. -/
noncomputable def blk20_0 (c : Dev nD) (b : Fin 4) : Vec Ideal S1x8x768 .f32 :=
  fun y => (V c main_v61 : S4x8x768.Idx → EReal) (ix3 b (y 1 : Fin 8) (y 2 : Fin 768))
/-- Batch `b`'s 104 rows of the second product's slice, as a block. -/
noncomputable def blk20_1 (c : Dev nD) (b : Fin 4) : Vec Ideal S1x104x768 .f32 :=
  fun y => (V c main_v62 : S4x104x768.Idx → EReal) (ix3 b (y 1 : Fin 104) (y 2 : Fin 768))
/-- The bias row. -/
noncomputable def blk20_2 (c : Dev nD) : Vec Ideal S1x768 .f32 := fun y => (V c main_v4 : S1x768.Idx → EReal) y

theorem iblk20_0_eq (c : Dev nD) (t : Fin cfg20.N) : (iblk20 V c 0 t : Vec Ideal S1x8x768 .f32) = blk20_0 V c (batch20 t) := by
  obtain ⟨e0, e1, e2, -⟩ := idx_facts20 t
  funext y
  unfold iblk20 blk20_0
  rw [View.read_apply]
  show V c main_v61 _ = V c main_v61 _
  congr 1
  funext a
  apply Fin.ext
  match a with
  | ⟨0, _⟩ => show win20_0.index t (0 : Fin 3) * 1 + 1 * (y 0).val = t.val; have hy : (y 0).val < 1 := (y 0).isLt; omega
  | ⟨1, _⟩ => show win20_0.index t (1 : Fin 3) * 8 + 1 * (y 1).val = (y 1).val; omega
  | ⟨2, _⟩ => show win20_0.index t (2 : Fin 3) * 768 + 1 * (y 2).val = (y 2).val; omega

theorem iblk20_1_eq (c : Dev nD) (t : Fin cfg20.N) : (iblk20 V c 1 t : Vec Ideal S1x104x768 .f32) = blk20_1 V c (batch20 t) := by
  obtain ⟨-, -, -, e0, e1, e2, -⟩ := idx_facts20 t
  funext y
  unfold iblk20 blk20_1
  rw [View.read_apply]
  show V c main_v62 _ = V c main_v62 _
  congr 1
  funext a
  apply Fin.ext
  match a with
  | ⟨0, _⟩ => show win20_1.index t (0 : Fin 3) * 1 + 1 * (y 0).val = t.val; have hy : (y 0).val < 1 := (y 0).isLt; omega
  | ⟨1, _⟩ => show win20_1.index t (1 : Fin 3) * 104 + 1 * (y 1).val = (y 1).val; omega
  | ⟨2, _⟩ => show win20_1.index t (2 : Fin 3) * 768 + 1 * (y 2).val = (y 2).val; omega

theorem iblk20_2_eq (c : Dev nD) (t : Fin cfg20.N) : (iblk20 V c 2 t : Vec Ideal S1x768 .f32) = blk20_2 V c := by
  obtain ⟨-, -, -, -, -, -, e0, e1, -⟩ := idx_facts20 t
  funext y
  unfold iblk20 blk20_2
  rw [View.read_apply]
  show V c main_v4 _ = V c main_v4 _
  congr 1
  funext a
  apply Fin.ext
  match a with
  | ⟨0, _⟩ => show win20_2.index t (0 : Fin 2) * 1 + 1 * (y 0).val = (y 0).val; omega
  | ⟨1, _⟩ => show win20_2.index t (1 : Fin 2) * 768 + 1 * (y 1).val = (y 1).val; omega

/-- The result array as ONE function of the three arrays the chunk reads: at batch `b`, row `p`, the value the body
    stores for batch `b`'s blocks, read at row `p`. -/
noncomputable def G20 (c : Dev nD) : S4x804x768.Idx → EReal :=
  fun i => stored20 (blk20_0 V c (i 0 : Fin 4)) (blk20_1 V c (i 0 : Fin 4)) (blk20_2 V c) (ix3 (0 : Fin 1) (i 1 : Fin 804) (i 2 : Fin 768))

/-- What point `t` writes back is block `t` of `G20`. -/
theorem flushed20_eq (c : Dev nD) (t : Fin cfg20.N) :
    (dat20 (F := Ideal) V c).flushed 3 t = ((cfg20.win 3).blk t).view.read (Elt Ideal) (G20 V c) := by
  obtain ⟨-, -, -, -, -, -, -, -, e0, e1, e2⟩ := idx_facts20 t
  show (cfg20.win 3).cut (grid20.coords t) ((dat20 (F := Ideal) V c).after 3 t) = _
  rw [after20_3]
  unfold out20_3
  rw [View.canon_unit_zero hzA20]
  simp only [View.ld_unit_zero (S := S1x8x768) hzA20, View.ld_unit_zero (S := S1x104x768) hzA20, View.ld_unit_zero (S := S1x768) hzB20]
  rw [iblk20_0_eq, iblk20_1_eq, iblk20_2_eq]
  funext j
  show stored20 (blk20_0 V c (batch20 t)) (blk20_1 V c (batch20 t)) (blk20_2 V c) j = G20 V c (((cfg20.win 3).blk t).view.emb j)
  have hj0 : (j 0).val < 1 := (j 0).isLt
  have he : ((cfg20.win 3).blk t).view.emb j = (ix3 (batch20 t) (j 1 : Fin 804) (j 2 : Fin 768) : S4x804x768.Idx) := by
    funext a
    apply Fin.ext
    match a with
    | ⟨0, _⟩ => show win20_3.index t (0 : Fin 3) * 1 + 1 * (j 0).val = t.val; omega
    | ⟨1, _⟩ => show win20_3.index t (1 : Fin 3) * 804 + 1 * (j 1).val = (j 1).val; omega
    | ⟨2, _⟩ => show win20_3.index t (2 : Fin 3) * 768 + 1 * (j 2).val = (j 2).val; omega
  rw [he]
  show _ = stored20 (blk20_0 V c (batch20 t)) (blk20_1 V c (batch20 t)) (blk20_2 V c) (ix3 (0 : Fin 1) (j 1 : Fin 804) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk20 (t : Fin cfg20.N) (i : S4x804x768.Idx) :
    i ∈ ((cfg20.win 3).blk t).view.set ↔ ∀ a : Fin 3, win20_3.index t a * S1x804x768.size a ≤ (i a).val ∧ (i a).val < win20_3.index t a * S1x804x768.size a + S1x804x768.size a := by
  show i ∈ ((View.whole main_v63).slice (win20_3.rect t)).set ↔ _
  rw [View.set_slice_whole, Rect.mem_set_unit]
  exact Iff.rfl

/-- Batch `b` of the result is written by point `b`. -/
theorem cover20 (i : S4x804x768.Idx) : ∃ t : Fin cfg20.N, (cfg20.win 3).flush t = true ∧ i ∈ ((cfg20.win 3).blk t).view.set := by
  have hi0 : (i 0).val < 4 := (i 0).isLt
  have hi1 : (i 1).val < 804 := (i 1).isLt
  have hi2 : (i 2).val < 768 := (i 2).isLt
  let t : Fin cfg20.N := ⟨(i 0).val, lt_of_lt_of_eq hi0 N_20.symm⟩
  obtain ⟨-, -, -, -, -, -, -, -, e0, e1, e2⟩ := idx_facts20 t
  refine ⟨t, flush20_3 t, ?_⟩
  rw [mem_blk20]
  intro a
  match a with
  | ⟨0, _⟩ => show win20_3.index t (0 : Fin 3) * 1 ≤ (i 0).val ∧ (i 0).val < win20_3.index t (0 : Fin 3) * 1 + 1; rw [e0]; show (i 0).val * 1 ≤ (i 0).val ∧ (i 0).val < (i 0).val * 1 + 1; omega
  | ⟨1, _⟩ => show win20_3.index t (1 : Fin 3) * 804 ≤ (i 1).val ∧ (i 1).val < win20_3.index t (1 : Fin 3) * 804 + 804; omega
  | ⟨2, _⟩ => show win20_3.index t (2 : Fin 3) * 768 ≤ (i 2).val ∧ (i 2).val < win20_3.index t (2 : Fin 3) * 768 + 768; omega

/-- The result array after the region is `G20`. -/
theorem arr20_eq (c : Dev nD) : (dat20 (F := Ideal) V c).arrAt 3 cfg20.N = G20 V c :=
  (dat20 (F := Ideal) V c).arrAt_eq_of_cover 3 (G20 V c) (fun t _ => flushed20_eq V c t) cover20

/-- The three arrays the chunk reads, at their literal types (so that their entries add as extended reals). -/
abbrev src20_0 (c : Dev nD) : S4x8x768.Idx → EReal := V c main_v61
abbrev src20_1 (c : Dev nD) : S4x104x768.Idx → EReal := V c main_v62
abbrev src20_2 (c : Dev nD) : S1x768.Idx → EReal := V c main_v4

/-- The result array at batch `b`, row `locOff 104 r + d`: the pair of row `r` of the first slice with row `r + d` of
    the second, at batch `b`. -/
theorem final20 (c : Dev nD) (b : Fin 4) (r : Fin 8) (d : ℕ) (q : Fin 104) (hq : q.val = r.val + d)
    (p : Fin 804) (hp : p.val = locOff 104 r.val + d) (o : Fin 768) :
    (dat20 (F := Ideal) V c).arrAt 3 cfg20.N (ix3 b p o)
      = Ideal.tanh ((src20_0 V c (ix3 b r o) + src20_1 V c (ix3 b q o)) + src20_2 V c (ix2 0 o)) := by
  rw [arr20_eq]
  show stored20 (blk20_0 V c b) (blk20_1 V c b) (blk20_2 V c) (ix3 0 p o) = _
  rw [pay20_apply _ _ _ r d q hq p hp o]
  rfl

end Cert.KernelIdeal.Val

end
-- ==== Proof.KI.Case20.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT20
import proofs.«116342_j30605936951494_1_alg».proof.Proof.KI.PayLib

/-!
# Chunk 20 of the triangle: the pairs (i, j) with 152 ≤ i < 152 + 8

The chunk's region reads three arrays: its eight rows 152 … 152 + 7 of the first projection, the rows 152 … 255 of the
second, and the bias row, each cut by the host from what boundary 3 holds. Its result, still in place when the last
stretch reads it, holds at local row `locOff 104 r + d` the value of the pair (152 + r, 152 + r + d). In the packed
order the chunk starts at row 27436 = triOff 152 and the pair (i, j) sits at `triOff i + (j - i)`: with `r = i mod 8` and
`d = j - i` that is row 27436 + (locOff 104 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 104 r + d` holds the pair (152 + r, 152 + r + d). -/
theorem chunk20 (c : Dev nD) (b : Fin 4) (r : Fin 8) (d : ℕ) (hd : r.val + d < 104) (p : Fin 804)
    (hp : p.val = locOff 104 r.val + d) (o : Fin 768) :
    (W66 m ρ c (Proc.devRef .tc main_v63) : Vec Ideal S4x804x768 .f32) (ix3 b p o)
      = Cert.Tri.pairValue (argX m c) (argW m c) (argB m c) b ⟨152 + r.val, by omega⟩ ⟨152 + r.val + d, by omega⟩ o := by
  have e0 : src20_0 (V41 m ρ) c (ix3 b r o)
      = Cert.Tri.proj1 (argX m c) (argW m c) b ⟨152 + r.val, by omega⟩ o :=
    (host20_rows (W40 m ρ c) b r o ⟨152 + r.val, by omega⟩ rfl).trans
      ((congrFun (W40_main_v2 m ρ c) _).trans (p1_W3 m ρ c b _ o))
  have e1 : src20_1 (V41 m ρ) c (ix3 b (⟨r.val + d, hd⟩ : Fin 104) o)
      = Cert.Tri.proj2 (argX m c) (argW m c) b ⟨152 + r.val + d, by omega⟩ o :=
    (host20_pair (W40 m ρ c) b ⟨r.val + d, hd⟩ o ⟨152 + r.val + d, by omega⟩
        (by show 152 + r.val + d = 152 + (r.val + d); omega)).trans
      ((congrFun (W40_main_v3 m ρ c) _).trans (p2_W3 m ρ c b _ o))
  have e2 : src20_2 (V41 m ρ) c (ix2 0 o) = argB m c (ix1 o) :=
    (congrFun (W41_main_v4 m ρ c) _).trans (bias_W3 m ρ c 0 o)
  calc (W66 m ρ c (Proc.devRef .tc main_v63) : Vec Ideal S4x804x768 .f32) (ix3 b p o)
      = ((dat20 (F := Ideal) (V41 m ρ) c).arrAt 3 cfg20.N : Vec Ideal S4x804x768 .f32) (ix3 b p o) :=
        congrFun (out20_final m ρ c) _
    _ = Ideal.tanh ((src20_0 (V41 m ρ) c (ix3 b r o) + src20_1 (V41 m ρ) c (ix3 b (⟨r.val + d, hd⟩ : Fin 104) o))
          + src20_2 (V41 m ρ) c (ix2 0 o)) :=
        final20 (V41 m ρ) c b r d ⟨r.val + d, hd⟩ rfl p hp o
    _ = Cert.Tri.pairValue (argX m c) (argW m c) (argB m c) b ⟨152 + r.val, by omega⟩ ⟨152 + r.val + d, by omega⟩ o := by
        rw [e0, e1, e2]
        rfl

/-- The program's result at the rank of a pair (i, j) of this chunk (`i / 8 = 19`). -/
theorem case20 (c : Dev nD) (b : Fin 4) (i j : Fin 256) (o : Fin 768) (hij : i.val ≤ j.val) (hK : i.val / 8 = 19) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 152 + i.val % 8 = i.val := by omega
  have hj : 152 + i.val % 8 + (j.val - i.val) = j.val := by omega
  have hd : i.val % 8 + (j.val - i.val) < 104 := by have := j.isLt; omega
  have hT : locOff 104 (i.val % 8) + (j.val - i.val) < 804 := by
    have := locOff_add_lt (L := 104) hr (by norm_num) hd
    omega
  have hrank : Cert.Tri.rank i.val j.val = 27436 + (locOff 104 (i.val % 8) + (j.val - i.val)) := by
    have h0 : Cert.Tri.triOff i.val = Cert.Tri.triOff (152 + i.val % 8) := congrArg Cert.Tri.triOff hi.symm
    have h1 : Cert.Tri.triOff (152 + i.val % 8) = Cert.Tri.triOff 152 + locOff 104 (i.val % 8) :=
      triOff_add_locOff 152 (i.val % 8)
    have h2 : Cert.Tri.triOff 152 = 27436 := triOff_chunk_eq 19 152 27436 (by norm_num) rfl rfl
    unfold Cert.Tri.rank
    omega
  refine (out_piece20 (W66 m ρ c) b _ ⟨_, hT⟩ o hrank).trans ?_
  refine (chunk20 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT21.lean ====
/-
  Chunk 21's stored value, read at an index.

  The body stores one value over its whole result block: the eight pieces `tanh ((p₁ row r + p₂ rows r…) + bias)`,
  `r = 0 … 7`, laid one under the other and given a leading unit axis. With 96 rows of the second product in view,
  piece `r` has `96 - r` rows and starts at row `locOff 96 r`. So the stored value at row `locOff 96 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 21 stores, as a function of the three blocks it loads. -/
abbrev stored21 {F : FTy → Type} [FloatOps F] (x0 : Vec F S1x8x768 .f32) (x1 : Vec F S1x96x768 .f32) (x2 : Vec F S1x768 .f32) :
    Vec F S1x740x768 .f32 :=
  k21_pay1 (k21_pay2 x0) (k21_pay3 x1) (k21_pay4 x2) (k21_pay5 x0 x1 x2) (k21_pay6 x0 x1 x2) (k21_pay7 x0 x1 x2) (k21_pay8 x0 x1 x2)
    (k21_pay9 x0 x1 x2) (k21_pay10 x0 x1 x2) (k21_pay11 x0 x1)

/-- The stored value at row `locOff 96 r + d` of its block pairs row `r` of the first block with row `r + d` of the
    second. -/
theorem pay21_apply (x0 : Vec Ideal S1x8x768 .f32) (x1 : Vec Ideal S1x96x768 .f32) (x2 : Vec Ideal S1x768 .f32)
    (r : Fin 8) (d : ℕ) (q : Fin 96) (hq : q.val = r.val + d) (p : Fin 740) (hp : p.val = locOff 96 r.val + d) (o : Fin 768) :
    stored21 x0 x1 x2 (ix3 0 p o) = Ideal.tanh ((x0 (ix3 0 r o) + x1 (ix3 0 q o)) + x2 (ix2 0 o)) := by
  have hql := q.isLt
  unfold stored21 k21_pay1
  refine (shapeCast_ab_1ab_apply _ _ 0 p o).trans ?_
  match r, hq, hp with
  | ⟨0, _⟩, hq, hp =>
    have hq : q.val = 0 + d := hq
    have hp : p.val = locOff 96 0 + d := hp
    have hd : d < 96 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 96 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 96 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 96 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 96 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 96 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 96 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 96 7 + d := hp
    refine (cat8_at7 _ _ _ _ _ _ _ _ _ d (by omega) o p (by simp only [locOff] at hp; omega)).trans ?_
    -- the last piece has 89 rows; a last piece of a single row is stored without broadcasts and has its own lemma
    first
      | have single : (89 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT21.lean ====
/-
  Chunk 21's result array after its region, read at an index.

  The region's grid is the batch: point `t` loads batch `t`'s eight rows of the first product's slice, batch `t`'s 96
  rows of the second product's slice and the bias row, and writes back the whole block `t` of the result. What it
  writes is the body's stored value of those three blocks. So the result array is ONE function of the three arrays it
  reads — at batch `b`, row `p`: the stored value of batch `b`'s blocks at row `p` (`G21`) —, every point writes its
  block of that function (`flushed21_eq`), the four blocks cover the array (`cover21`), hence the array ends as that
  function (`arr21_eq`); and at row `locOff 96 r + d` the stored value is the pair of row `r` with row `r + d`
  (`final21`).
-/
import proofs.«116342_j30605936951494_1_alg».proof.Proof.KI.Reg21
import proofs.«116342_j30605936951494_1_alg».proof.Proof.KI.PayT21
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA21 : (![0, 0, 0] : Fin 3 → Nat) = fun _ => 0 := funext fun a => by fin_cases a <;> rfl
theorem hzB21 : (![0, 0] : Fin 2 → Nat) = fun _ => 0 := funext fun a => by fin_cases a <;> rfl

/-- The grid is the batch: point `t` works on batch `t`. -/
noncomputable def batch21 (t : Fin cfg21.N) : Fin 4 := ⟨t.val, lt_of_lt_of_eq t.isLt N_21⟩

/-- The printed index maps, decided over the four points: the three batched windows sit at block `(t, 0, 0)`, the bias
    row at its one block. -/
theorem idx_facts21 : ∀ t : Fin cfg21.N,
    win21_0.index t (0 : Fin 3) = t.val ∧ win21_0.index t (1 : Fin 3) = 0 ∧ win21_0.index t (2 : Fin 3) = 0
    ∧ win21_1.index t (0 : Fin 3) = t.val ∧ win21_1.index t (1 : Fin 3) = 0 ∧ win21_1.index t (2 : Fin 3) = 0
    ∧ win21_2.index t (0 : Fin 2) = 0 ∧ win21_2.index t (1 : Fin 2) = 0
    ∧ win21_3.index t (0 : Fin 3) = t.val ∧ win21_3.index t (1 : Fin 3) = 0 ∧ win21_3.index t (2 : Fin 3) = 0 :=
  (by decide +kernel : ∀ t : Fin grid21.N, _)

/-- Batch `b`'s eight rows of the first product's slice, as a block. -/
noncomputable def blk21_0 (c : Dev nD) (b : Fin 4) : Vec Ideal S1x8x768 .f32 :=
  fun y => (V c main_v64 : S4x8x768.Idx → EReal) (ix3 b (y 1 : Fin 8) (y 2 : Fin 768))
/-- Batch `b`'s 96 rows of the second product's slice, as a block. -/
noncomputable def blk21_1 (c : Dev nD) (b : Fin 4) : Vec Ideal S1x96x768 .f32 :=
  fun y => (V c main_v65 : S4x96x768.Idx → EReal) (ix3 b (y 1 : Fin 96) (y 2 : Fin 768))
/-- The bias row. -/
noncomputable def blk21_2 (c : Dev nD) : Vec Ideal S1x768 .f32 := fun y => (V c main_v4 : S1x768.Idx → EReal) y

theorem iblk21_0_eq (c : Dev nD) (t : Fin cfg21.N) : (iblk21 V c 0 t : Vec Ideal S1x8x768 .f32) = blk21_0 V c (batch21 t) := by
  obtain ⟨e0, e1, e2, -⟩ := idx_facts21 t
  funext y
  unfold iblk21 blk21_0
  rw [View.read_apply]
  show V c main_v64 _ = V c main_v64 _
  congr 1
  funext a
  apply Fin.ext
  match a with
  | ⟨0, _⟩ => show win21_0.index t (0 : Fin 3) * 1 + 1 * (y 0).val = t.val; have hy : (y 0).val < 1 := (y 0).isLt; omega
  | ⟨1, _⟩ => show win21_0.index t (1 : Fin 3) * 8 + 1 * (y 1).val = (y 1).val; omega
  | ⟨2, _⟩ => show win21_0.index t (2 : Fin 3) * 768 + 1 * (y 2).val = (y 2).val; omega

theorem iblk21_1_eq (c : Dev nD) (t : Fin cfg21.N) : (iblk21 V c 1 t : Vec Ideal S1x96x768 .f32) = blk21_1 V c (batch21 t) := by
  obtain ⟨-, -, -, e0, e1, e2, -⟩ := idx_facts21 t
  funext y
  unfold iblk21 blk21_1
  rw [View.read_apply]
  show V c main_v65 _ = V c main_v65 _
  congr 1
  funext a
  apply Fin.ext
  match a with
  | ⟨0, _⟩ => show win21_1.index t (0 : Fin 3) * 1 + 1 * (y 0).val = t.val; have hy : (y 0).val < 1 := (y 0).isLt; omega
  | ⟨1, _⟩ => show win21_1.index t (1 : Fin 3) * 96 + 1 * (y 1).val = (y 1).val; omega
  | ⟨2, _⟩ => show win21_1.index t (2 : Fin 3) * 768 + 1 * (y 2).val = (y 2).val; omega

theorem iblk21_2_eq (c : Dev nD) (t : Fin cfg21.N) : (iblk21 V c 2 t : Vec Ideal S1x768 .f32) = blk21_2 V c := by
  obtain ⟨-, -, -, -, -, -, e0, e1, -⟩ := idx_facts21 t
  funext y
  unfold iblk21 blk21_2
  rw [View.read_apply]
  show V c main_v4 _ = V c main_v4 _
  congr 1
  funext a
  apply Fin.ext
  match a with
  | ⟨0, _⟩ => show win21_2.index t (0 : Fin 2) * 1 + 1 * (y 0).val = (y 0).val; omega
  | ⟨1, _⟩ => show win21_2.index t (1 : Fin 2) * 768 + 1 * (y 1).val = (y 1).val; omega

/-- The result array as ONE function of the three arrays the chunk reads: at batch `b`, row `p`, the value the body
    stores for batch `b`'s blocks, read at row `p`. -/
noncomputable def G21 (c : Dev nD) : S4x740x768.Idx → EReal :=
  fun i => stored21 (blk21_0 V c (i 0 : Fin 4)) (blk21_1 V c (i 0 : Fin 4)) (blk21_2 V c) (ix3 (0 : Fin 1) (i 1 : Fin 740) (i 2 : Fin 768))

/-- What point `t` writes back is block `t` of `G21`. -/
theorem flushed21_eq (c : Dev nD) (t : Fin cfg21.N) :
    (dat21 (F := Ideal) V c).flushed 3 t = ((cfg21.win 3).blk t).view.read (Elt Ideal) (G21 V c) := by
  obtain ⟨-, -, -, -, -, -, -, -, e0, e1, e2⟩ := idx_facts21 t
  show (cfg21.win 3).cut (grid21.coords t) ((dat21 (F := Ideal) V c).after 3 t) = _
  rw [after21_3]
  unfold out21_3
  rw [View.canon_unit_zero hzA21]
  simp only [View.ld_unit_zero (S := S1x8x768) hzA21, View.ld_unit_zero (S := S1x96x768) hzA21, View.ld_unit_zero (S := S1x768) hzB21]
  rw [iblk21_0_eq, iblk21_1_eq, iblk21_2_eq]
  funext j
  show stored21 (blk21_0 V c (batch21 t)) (blk21_1 V c (batch21 t)) (blk21_2 V c) j = G21 V c (((cfg21.win 3).blk t).view.emb j)
  have hj0 : (j 0).val < 1 := (j 0).isLt
  have he : ((cfg21.win 3).blk t).view.emb j = (ix3 (batch21 t) (j 1 : Fin 740) (j 2 : Fin 768) : S4x740x768.Idx) := by
    funext a
    apply Fin.ext
    match a with
    | ⟨0, _⟩ => show win21_3.index t (0 : Fin 3) * 1 + 1 * (j 0).val = t.val; omega
    | ⟨1, _⟩ => show win21_3.index t (1 : Fin 3) * 740 + 1 * (j 1).val = (j 1).val; omega
    | ⟨2, _⟩ => show win21_3.index t (2 : Fin 3) * 768 + 1 * (j 2).val = (j 2).val; omega
  rw [he]
  show _ = stored21 (blk21_0 V c (batch21 t)) (blk21_1 V c (batch21 t)) (blk21_2 V c) (ix3 (0 : Fin 1) (j 1 : Fin 740) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk21 (t : Fin cfg21.N) (i : S4x740x768.Idx) :
    i ∈ ((cfg21.win 3).blk t).view.set ↔ ∀ a : Fin 3, win21_3.index t a * S1x740x768.size a ≤ (i a).val ∧ (i a).val < win21_3.index t a * S1x740x768.size a + S1x740x768.size a := by
  show i ∈ ((View.whole main_v66).slice (win21_3.rect t)).set ↔ _
  rw [View.set_slice_whole, Rect.mem_set_unit]
  exact Iff.rfl

/-- Batch `b` of the result is written by point `b`. -/
theorem cover21 (i : S4x740x768.Idx) : ∃ t : Fin cfg21.N, (cfg21.win 3).flush t = true ∧ i ∈ ((cfg21.win 3).blk t).view.set := by
  have hi0 : (i 0).val < 4 := (i 0).isLt
  have hi1 : (i 1).val < 740 := (i 1).isLt
  have hi2 : (i 2).val < 768 := (i 2).isLt
  let t : Fin cfg21.N := ⟨(i 0).val, lt_of_lt_of_eq hi0 N_21.symm⟩
  obtain ⟨-, -, -, -, -, -, -, -, e0, e1, e2⟩ := idx_facts21 t
  refine ⟨t, flush21_3 t, ?_⟩
  rw [mem_blk21]
  intro a
  match a with
  | ⟨0, _⟩ => show win21_3.index t (0 : Fin 3) * 1 ≤ (i 0).val ∧ (i 0).val < win21_3.index t (0 : Fin 3) * 1 + 1; rw [e0]; show (i 0).val * 1 ≤ (i 0).val ∧ (i 0).val < (i 0).val * 1 + 1; omega
  | ⟨1, _⟩ => show win21_3.index t (1 : Fin 3) * 740 ≤ (i 1).val ∧ (i 1).val < win21_3.index t (1 : Fin 3) * 740 + 740; omega
  | ⟨2, _⟩ => show win21_3.index t (2 : Fin 3) * 768 ≤ (i 2).val ∧ (i 2).val < win21_3.index t (2 : Fin 3) * 768 + 768; omega

/-- The result array after the region is `G21`. -/
theorem arr21_eq (c : Dev nD) : (dat21 (F := Ideal) V c).arrAt 3 cfg21.N = G21 V c :=
  (dat21 (F := Ideal) V c).arrAt_eq_of_cover 3 (G21 V c) (fun t _ => flushed21_eq V c t) cover21

/-- The three arrays the chunk reads, at their literal types (so that their entries add as extended reals). -/
abbrev src21_0 (c : Dev nD) : S4x8x768.Idx → EReal := V c main_v64
abbrev src21_1 (c : Dev nD) : S4x96x768.Idx → EReal := V c main_v65
abbrev src21_2 (c : Dev nD) : S1x768.Idx → EReal := V c main_v4

/-- The result array at batch `b`, row `locOff 96 r + d`: the pair of row `r` of the first slice with row `r + d` of
    the second, at batch `b`. -/
theorem final21 (c : Dev nD) (b : Fin 4) (r : Fin 8) (d : ℕ) (q : Fin 96) (hq : q.val = r.val + d)
    (p : Fin 740) (hp : p.val = locOff 96 r.val + d) (o : Fin 768) :
    (dat21 (F := Ideal) V c).arrAt 3 cfg21.N (ix3 b p o)
      = Ideal.tanh ((src21_0 V c (ix3 b r o) + src21_1 V c (ix3 b q o)) + src21_2 V c (ix2 0 o)) := by
  rw [arr21_eq]
  show stored21 (blk21_0 V c b) (blk21_1 V c b) (blk21_2 V c) (ix3 0 p o) = _
  rw [pay21_apply _ _ _ r d q hq p hp o]
  rfl

end Cert.KernelIdeal.Val

end
-- ==== Proof.KI.Case21.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT21
import proofs.«116342_j30605936951494_1_alg».proof.Proof.KI.PayLib

/-!
# Chunk 21 of the triangle: the pairs (i, j) with 160 ≤ i < 160 + 8

The chunk's region reads three arrays: its eight rows 160 … 160 + 7 of the first projection, the rows 160 … 255 of the
second, and the bias row, each cut by the host from what boundary 3 holds. Its result, still in place when the last
stretch reads it, holds at local row `locOff 96 r + d` the value of the pair (160 + r, 160 + r + d). In the packed
order the chunk starts at row 28240 = triOff 160 and the pair (i, j) sits at `triOff i + (j - i)`: with `r = i mod 8` and
`d = j - i` that is row 28240 + (locOff 96 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 96 r + d` holds the pair (160 + r, 160 + r + d). -/
theorem chunk21 (c : Dev nD) (b : Fin 4) (r : Fin 8) (d : ℕ) (hd : r.val + d < 96) (p : Fin 740)
    (hp : p.val = locOff 96 r.val + d) (o : Fin 768) :
    (W66 m ρ c (Proc.devRef .tc main_v66) : Vec Ideal S4x740x768 .f32) (ix3 b p o)
      = Cert.Tri.pairValue (argX m c) (argW m c) (argB m c) b ⟨160 + r.val, by omega⟩ ⟨160 + r.val + d, by omega⟩ o := by
  have e0 : src21_0 (V43 m ρ) c (ix3 b r o)
      = Cert.Tri.proj1 (argX m c) (argW m c) b ⟨160 + r.val, by omega⟩ o :=
    (host21_rows (W42 m ρ c) b r o ⟨160 + r.val, by omega⟩ rfl).trans
      ((congrFun (W42_main_v2 m ρ c) _).trans (p1_W3 m ρ c b _ o))
  have e1 : src21_1 (V43 m ρ) c (ix3 b (⟨r.val + d, hd⟩ : Fin 96) o)
      = Cert.Tri.proj2 (argX m c) (argW m c) b ⟨160 + r.val + d, by omega⟩ o :=
    (host21_pair (W42 m ρ c) b ⟨r.val + d, hd⟩ o ⟨160 + r.val + d, by omega⟩
        (by show 160 + r.val + d = 160 + (r.val + d); omega)).trans
      ((congrFun (W42_main_v3 m ρ c) _).trans (p2_W3 m ρ c b _ o))
  have e2 : src21_2 (V43 m ρ) c (ix2 0 o) = argB m c (ix1 o) :=
    (congrFun (W43_main_v4 m ρ c) _).trans (bias_W3 m ρ c 0 o)
  calc (W66 m ρ c (Proc.devRef .tc main_v66) : Vec Ideal S4x740x768 .f32) (ix3 b p o)
      = ((dat21 (F := Ideal) (V43 m ρ) c).arrAt 3 cfg21.N : Vec Ideal S4x740x768 .f32) (ix3 b p o) :=
        congrFun (out21_final m ρ c) _
    _ = Ideal.tanh ((src21_0 (V43 m ρ) c (ix3 b r o) + src21_1 (V43 m ρ) c (ix3 b (⟨r.val + d, hd⟩ : Fin 96) o))
          + src21_2 (V43 m ρ) c (ix2 0 o)) :=
        final21 (V43 m ρ) c b r d ⟨r.val + d, hd⟩ rfl p hp o
    _ = Cert.Tri.pairValue (argX m c) (argW m c) (argB m c) b ⟨160 + r.val, by omega⟩ ⟨160 + r.val + d, by omega⟩ o := by
        rw [e0, e1, e2]
        rfl

/-- The program's result at the rank of a pair (i, j) of this chunk (`i / 8 = 20`). -/
theorem case21 (c : Dev nD) (b : Fin 4) (i j : Fin 256) (o : Fin 768) (hij : i.val ≤ j.val) (hK : i.val / 8 = 20) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 160 + i.val % 8 = i.val := by omega
  have hj : 160 + i.val % 8 + (j.val - i.val) = j.val := by omega
  have hd : i.val % 8 + (j.val - i.val) < 96 := by have := j.isLt; omega
  have hT : locOff 96 (i.val % 8) + (j.val - i.val) < 740 := by
    have := locOff_add_lt (L := 96) hr (by norm_num) hd
    omega
  have hrank : Cert.Tri.rank i.val j.val = 28240 + (locOff 96 (i.val % 8) + (j.val - i.val)) := by
    have h0 : Cert.Tri.triOff i.val = Cert.Tri.triOff (160 + i.val % 8) := congrArg Cert.Tri.triOff hi.symm
    have h1 : Cert.Tri.triOff (160 + i.val % 8) = Cert.Tri.triOff 160 + locOff 96 (i.val % 8) :=
      triOff_add_locOff 160 (i.val % 8)
    have h2 : Cert.Tri.triOff 160 = 28240 := triOff_chunk_eq 20 160 28240 (by norm_num) rfl rfl
    unfold Cert.Tri.rank
    omega
  refine (out_piece21 (W66 m ρ c) b _ ⟨_, hT⟩ o hrank).trans ?_
  refine (chunk21 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT22.lean ====
/-
  Chunk 22's stored value, read at an index.

  The body stores one value over its whole result block: the eight pieces `tanh ((p₁ row r + p₂ rows r…) + bias)`,
  `r = 0 … 7`, laid one under the other and given a leading unit axis. With 88 rows of the second product in view,
  piece `r` has `88 - r` rows and starts at row `locOff 88 r`. So the stored value at row `locOff 88 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 22 stores, as a function of the three blocks it loads. -/
abbrev stored22 {F : FTy → Type} [FloatOps F] (x0 : Vec F S1x8x768 .f32) (x1 : Vec F S1x88x768 .f32) (x2 : Vec F S1x768 .f32) :
    Vec F S1x676x768 .f32 :=
  k22_pay1 (k22_pay2 x0) (k22_pay3 x1) (k22_pay4 x2) (k22_pay5 x0 x1 x2) (k22_pay6 x0 x1 x2) (k22_pay7 x0 x1 x2) (k22_pay8 x0 x1 x2)
    (k22_pay9 x0 x1 x2) (k22_pay10 x0 x1 x2) (k22_pay11 x0 x1)

/-- The stored value at row `locOff 88 r + d` of its block pairs row `r` of the first block with row `r + d` of the
    second. -/
theorem pay22_apply (x0 : Vec Ideal S1x8x768 .f32) (x1 : Vec Ideal S1x88x768 .f32) (x2 : Vec Ideal S1x768 .f32)
    (r : Fin 8) (d : ℕ) (q : Fin 88) (hq : q.val = r.val + d) (p : Fin 676) (hp : p.val = locOff 88 r.val + d) (o : Fin 768) :
    stored22 x0 x1 x2 (ix3 0 p o) = Ideal.tanh ((x0 (ix3 0 r o) + x1 (ix3 0 q o)) + x2 (ix2 0 o)) := by
  have hql := q.isLt
  unfold stored22 k22_pay1
  refine (shapeCast_ab_1ab_apply _ _ 0 p o).trans ?_
  match r, hq, hp with
  | ⟨0, _⟩, hq, hp =>
    have hq : q.val = 0 + d := hq
    have hp : p.val = locOff 88 0 + d := hp
    have hd : d < 88 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 88 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 88 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 88 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 88 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 88 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 88 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 88 7 + d := hp
    refine (cat8_at7 _ _ _ _ _ _ _ _ _ d (by omega) o p (by simp only [locOff] at hp; omega)).trans ?_
    -- the last piece has 81 rows; a last piece of a single row is stored without broadcasts and has its own lemma
    first
      | have single : (81 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT22.lean ====
/-
  Chunk 22's result array after its region, read at an index.

  The region's grid is the batch: point `t` loads batch `t`'s eight rows of the first product's slice, batch `t`'s 88
  rows of the second product's slice and the bias row, and writes back the whole block `t` of the result. What it
  writes is the body's stored value of those three blocks. So the result array is ONE function of the three arrays it
  reads — at batch `b`, row `p`: the stored value of batch `b`'s blocks at row `p` (`G22`) —, every point writes its
  block of that function (`flushed22_eq`), the four blocks cover the array (`cover22`), hence the array ends as that
  function (`arr22_eq`); and at row `locOff 88 r + d` the stored value is the pair of row `r` with row `r + d`
  (`final22`).
-/
import proofs.«116342_j30605936951494_1_alg».proof.Proof.KI.Reg22
import proofs.«116342_j30605936951494_1_alg».proof.Proof.KI.PayT22
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA22 : (![0, 0, 0] : Fin 3 → Nat) = fun _ => 0 := funext fun a => by fin_cases a <;> rfl
theorem hzB22 : (![0, 0] : Fin 2 → Nat) = fun _ => 0 := funext fun a => by fin_cases a <;> rfl

/-- The grid is the batch: point `t` works on batch `t`. -/
noncomputable def batch22 (t : Fin cfg22.N) : Fin 4 := ⟨t.val, lt_of_lt_of_eq t.isLt N_22⟩

/-- The printed index maps, decided over the four points: the three batched windows sit at block `(t, 0, 0)`, the bias
    row at its one block. -/
theorem idx_facts22 : ∀ t : Fin cfg22.N,
    win22_0.index t (0 : Fin 3) = t.val ∧ win22_0.index t (1 : Fin 3) = 0 ∧ win22_0.index t (2 : Fin 3) = 0
    ∧ win22_1.index t (0 : Fin 3) = t.val ∧ win22_1.index t (1 : Fin 3) = 0 ∧ win22_1.index t (2 : Fin 3) = 0
    ∧ win22_2.index t (0 : Fin 2) = 0 ∧ win22_2.index t (1 : Fin 2) = 0
    ∧ win22_3.index t (0 : Fin 3) = t.val ∧ win22_3.index t (1 : Fin 3) = 0 ∧ win22_3.index t (2 : Fin 3) = 0 :=
  (by decide +kernel : ∀ t : Fin grid22.N, _)

/-- Batch `b`'s eight rows of the first product's slice, as a block. -/
noncomputable def blk22_0 (c : Dev nD) (b : Fin 4) : Vec Ideal S1x8x768 .f32 :=
  fun y => (V c main_v67 : S4x8x768.Idx → EReal) (ix3 b (y 1 : Fin 8) (y 2 : Fin 768))
/-- Batch `b`'s 88 rows of the second product's slice, as a block. -/
noncomputable def blk22_1 (c : Dev nD) (b : Fin 4) : Vec Ideal S1x88x768 .f32 :=
  fun y => (V c main_v68 : S4x88x768.Idx → EReal) (ix3 b (y 1 : Fin 88) (y 2 : Fin 768))
/-- The bias row. -/
noncomputable def blk22_2 (c : Dev nD) : Vec Ideal S1x768 .f32 := fun y => (V c main_v4 : S1x768.Idx → EReal) y

theorem iblk22_0_eq (c : Dev nD) (t : Fin cfg22.N) : (iblk22 V c 0 t : Vec Ideal S1x8x768 .f32) = blk22_0 V c (batch22 t) := by
  obtain ⟨e0, e1, e2, -⟩ := idx_facts22 t
  funext y
  unfold iblk22 blk22_0
  rw [View.read_apply]
  show V c main_v67 _ = V c main_v67 _
  congr 1
  funext a
  apply Fin.ext
  match a with
  | ⟨0, _⟩ => show win22_0.index t (0 : Fin 3) * 1 + 1 * (y 0).val = t.val; have hy : (y 0).val < 1 := (y 0).isLt; omega
  | ⟨1, _⟩ => show win22_0.index t (1 : Fin 3) * 8 + 1 * (y 1).val = (y 1).val; omega
  | ⟨2, _⟩ => show win22_0.index t (2 : Fin 3) * 768 + 1 * (y 2).val = (y 2).val; omega

theorem iblk22_1_eq (c : Dev nD) (t : Fin cfg22.N) : (iblk22 V c 1 t : Vec Ideal S1x88x768 .f32) = blk22_1 V c (batch22 t) := by
  obtain ⟨-, -, -, e0, e1, e2, -⟩ := idx_facts22 t
  funext y
  unfold iblk22 blk22_1
  rw [View.read_apply]
  show V c main_v68 _ = V c main_v68 _
  congr 1
  funext a
  apply Fin.ext
  match a with
  | ⟨0, _⟩ => show win22_1.index t (0 : Fin 3) * 1 + 1 * (y 0).val = t.val; have hy : (y 0).val < 1 := (y 0).isLt; omega
  | ⟨1, _⟩ => show win22_1.index t (1 : Fin 3) * 88 + 1 * (y 1).val = (y 1).val; omega
  | ⟨2, _⟩ => show win22_1.index t (2 : Fin 3) * 768 + 1 * (y 2).val = (y 2).val; omega

theorem iblk22_2_eq (c : Dev nD) (t : Fin cfg22.N) : (iblk22 V c 2 t : Vec Ideal S1x768 .f32) = blk22_2 V c := by
  obtain ⟨-, -, -, -, -, -, e0, e1, -⟩ := idx_facts22 t
  funext y
  unfold iblk22 blk22_2
  rw [View.read_apply]
  show V c main_v4 _ = V c main_v4 _
  congr 1
  funext a
  apply Fin.ext
  match a with
  | ⟨0, _⟩ => show win22_2.index t (0 : Fin 2) * 1 + 1 * (y 0).val = (y 0).val; omega
  | ⟨1, _⟩ => show win22_2.index t (1 : Fin 2) * 768 + 1 * (y 1).val = (y 1).val; omega

/-- The result array as ONE function of the three arrays the chunk reads: at batch `b`, row `p`, the value the body
    stores for batch `b`'s blocks, read at row `p`. -/
noncomputable def G22 (c : Dev nD) : S4x676x768.Idx → EReal :=
  fun i => stored22 (blk22_0 V c (i 0 : Fin 4)) (blk22_1 V c (i 0 : Fin 4)) (blk22_2 V c) (ix3 (0 : Fin 1) (i 1 : Fin 676) (i 2 : Fin 768))

/-- What point `t` writes back is block `t` of `G22`. -/
theorem flushed22_eq (c : Dev nD) (t : Fin cfg22.N) :
    (dat22 (F := Ideal) V c).flushed 3 t = ((cfg22.win 3).blk t).view.read (Elt Ideal) (G22 V c) := by
  obtain ⟨-, -, -, -, -, -, -, -, e0, e1, e2⟩ := idx_facts22 t
  show (cfg22.win 3).cut (grid22.coords t) ((dat22 (F := Ideal) V c).after 3 t) = _
  rw [after22_3]
  unfold out22_3
  rw [View.canon_unit_zero hzA22]
  simp only [View.ld_unit_zero (S := S1x8x768) hzA22, View.ld_unit_zero (S := S1x88x768) hzA22, View.ld_unit_zero (S := S1x768) hzB22]
  rw [iblk22_0_eq, iblk22_1_eq, iblk22_2_eq]
  funext j
  show stored22 (blk22_0 V c (batch22 t)) (blk22_1 V c (batch22 t)) (blk22_2 V c) j = G22 V c (((cfg22.win 3).blk t).view.emb j)
  have hj0 : (j 0).val < 1 := (j 0).isLt
  have he : ((cfg22.win 3).blk t).view.emb j = (ix3 (batch22 t) (j 1 : Fin 676) (j 2 : Fin 768) : S4x676x768.Idx) := by
    funext a
    apply Fin.ext
    match a with
    | ⟨0, _⟩ => show win22_3.index t (0 : Fin 3) * 1 + 1 * (j 0).val = t.val; omega
    | ⟨1, _⟩ => show win22_3.index t (1 : Fin 3) * 676 + 1 * (j 1).val = (j 1).val; omega
    | ⟨2, _⟩ => show win22_3.index t (2 : Fin 3) * 768 + 1 * (j 2).val = (j 2).val; omega
  rw [he]
  show _ = stored22 (blk22_0 V c (batch22 t)) (blk22_1 V c (batch22 t)) (blk22_2 V c) (ix3 (0 : Fin 1) (j 1 : Fin 676) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk22 (t : Fin cfg22.N) (i : S4x676x768.Idx) :
    i ∈ ((cfg22.win 3).blk t).view.set ↔ ∀ a : Fin 3, win22_3.index t a * S1x676x768.size a ≤ (i a).val ∧ (i a).val < win22_3.index t a * S1x676x768.size a + S1x676x768.size a := by
  show i ∈ ((View.whole main_v69).slice (win22_3.rect t)).set ↔ _
  rw [View.set_slice_whole, Rect.mem_set_unit]
  exact Iff.rfl

/-- Batch `b` of the result is written by point `b`. -/
theorem cover22 (i : S4x676x768.Idx) : ∃ t : Fin cfg22.N, (cfg22.win 3).flush t = true ∧ i ∈ ((cfg22.win 3).blk t).view.set := by
  have hi0 : (i 0).val < 4 := (i 0).isLt
  have hi1 : (i 1).val < 676 := (i 1).isLt
  have hi2 : (i 2).val < 768 := (i 2).isLt
  let t : Fin cfg22.N := ⟨(i 0).val, lt_of_lt_of_eq hi0 N_22.symm⟩
  obtain ⟨-, -, -, -, -, -, -, -, e0, e1, e2⟩ := idx_facts22 t
  refine ⟨t, flush22_3 t, ?_⟩
  rw [mem_blk22]
  intro a
  match a with
  | ⟨0, _⟩ => show win22_3.index t (0 : Fin 3) * 1 ≤ (i 0).val ∧ (i 0).val < win22_3.index t (0 : Fin 3) * 1 + 1; rw [e0]; show (i 0).val * 1 ≤ (i 0).val ∧ (i 0).val < (i 0).val * 1 + 1; omega
  | ⟨1, _⟩ => show win22_3.index t (1 : Fin 3) * 676 ≤ (i 1).val ∧ (i 1).val < win22_3.index t (1 : Fin 3) * 676 + 676; omega
  | ⟨2, _⟩ => show win22_3.index t (2 : Fin 3) * 768 ≤ (i 2).val ∧ (i 2).val < win22_3.index t (2 : Fin 3) * 768 + 768; omega

/-- The result array after the region is `G22`. -/
theorem arr22_eq (c : Dev nD) : (dat22 (F := Ideal) V c).arrAt 3 cfg22.N = G22 V c :=
  (dat22 (F := Ideal) V c).arrAt_eq_of_cover 3 (G22 V c) (fun t _ => flushed22_eq V c t) cover22

/-- The three arrays the chunk reads, at their literal types (so that their entries add as extended reals). -/
abbrev src22_0 (c : Dev nD) : S4x8x768.Idx → EReal := V c main_v67
abbrev src22_1 (c : Dev nD) : S4x88x768.Idx → EReal := V c main_v68
abbrev src22_2 (c : Dev nD) : S1x768.Idx → EReal := V c main_v4

/-- The result array at batch `b`, row `locOff 88 r + d`: the pair of row `r` of the first slice with row `r + d` of
    the second, at batch `b`. -/
theorem final22 (c : Dev nD) (b : Fin 4) (r : Fin 8) (d : ℕ) (q : Fin 88) (hq : q.val = r.val + d)
    (p : Fin 676) (hp : p.val = locOff 88 r.val + d) (o : Fin 768) :
    (dat22 (F := Ideal) V c).arrAt 3 cfg22.N (ix3 b p o)
      = Ideal.tanh ((src22_0 V c (ix3 b r o) + src22_1 V c (ix3 b q o)) + src22_2 V c (ix2 0 o)) := by
  rw [arr22_eq]
  show stored22 (blk22_0 V c b) (blk22_1 V c b) (blk22_2 V c) (ix3 0 p o) = _
  rw [pay22_apply _ _ _ r d q hq p hp o]
  rfl

end Cert.KernelIdeal.Val

end
-- ==== Proof.KI.Case22.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT22
import proofs.«116342_j30605936951494_1_alg».proof.Proof.KI.PayLib

/-!
# Chunk 22 of the triangle: the pairs (i, j) with 168 ≤ i < 168 + 8

The chunk's region reads three arrays: its eight rows 168 … 168 + 7 of the first projection, the rows 168 … 255 of the
second, and the bias row, each cut by the host from what boundary 3 holds. Its result, still in place when the last
stretch reads it, holds at local row `locOff 88 r + d` the value of the pair (168 + r, 168 + r + d). In the packed
order the chunk starts at row 28980 = triOff 168 and the pair (i, j) sits at `triOff i + (j - i)`: with `r = i mod 8` and
`d = j - i` that is row 28980 + (locOff 88 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 88 r + d` holds the pair (168 + r, 168 + r + d). -/
theorem chunk22 (c : Dev nD) (b : Fin 4) (r : Fin 8) (d : ℕ) (hd : r.val + d < 88) (p : Fin 676)
    (hp : p.val = locOff 88 r.val + d) (o : Fin 768) :
    (W66 m ρ c (Proc.devRef .tc main_v69) : Vec Ideal S4x676x768 .f32) (ix3 b p o)
      = Cert.Tri.pairValue (argX m c) (argW m c) (argB m c) b ⟨168 + r.val, by omega⟩ ⟨168 + r.val + d, by omega⟩ o := by
  have e0 : src22_0 (V45 m ρ) c (ix3 b r o)
      = Cert.Tri.proj1 (argX m c) (argW m c) b ⟨168 + r.val, by omega⟩ o :=
    (host22_rows (W44 m ρ c) b r o ⟨168 + r.val, by omega⟩ rfl).trans
      ((congrFun (W44_main_v2 m ρ c) _).trans (p1_W3 m ρ c b _ o))
  have e1 : src22_1 (V45 m ρ) c (ix3 b (⟨r.val + d, hd⟩ : Fin 88) o)
      = Cert.Tri.proj2 (argX m c) (argW m c) b ⟨168 + r.val + d, by omega⟩ o :=
    (host22_pair (W44 m ρ c) b ⟨r.val + d, hd⟩ o ⟨168 + r.val + d, by omega⟩
        (by show 168 + r.val + d = 168 + (r.val + d); omega)).trans
      ((congrFun (W44_main_v3 m ρ c) _).trans (p2_W3 m ρ c b _ o))
  have e2 : src22_2 (V45 m ρ) c (ix2 0 o) = argB m c (ix1 o) :=
    (congrFun (W45_main_v4 m ρ c) _).trans (bias_W3 m ρ c 0 o)
  calc (W66 m ρ c (Proc.devRef .tc main_v69) : Vec Ideal S4x676x768 .f32) (ix3 b p o)
      = ((dat22 (F := Ideal) (V45 m ρ) c).arrAt 3 cfg22.N : Vec Ideal S4x676x768 .f32) (ix3 b p o) :=
        congrFun (out22_final m ρ c) _
    _ = Ideal.tanh ((src22_0 (V45 m ρ) c (ix3 b r o) + src22_1 (V45 m ρ) c (ix3 b (⟨r.val + d, hd⟩ : Fin 88) o))
          + src22_2 (V45 m ρ) c (ix2 0 o)) :=
        final22 (V45 m ρ) c b r d ⟨r.val + d, hd⟩ rfl p hp o
    _ = Cert.Tri.pairValue (argX m c) (argW m c) (argB m c) b ⟨168 + r.val, by omega⟩ ⟨168 + r.val + d, by omega⟩ o := by
        rw [e0, e1, e2]
        rfl

/-- The program's result at the rank of a pair (i, j) of this chunk (`i / 8 = 21`). -/
theorem case22 (c : Dev nD) (b : Fin 4) (i j : Fin 256) (o : Fin 768) (hij : i.val ≤ j.val) (hK : i.val / 8 = 21) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 168 + i.val % 8 = i.val := by omega
  have hj : 168 + i.val % 8 + (j.val - i.val) = j.val := by omega
  have hd : i.val % 8 + (j.val - i.val) < 88 := by have := j.isLt; omega
  have hT : locOff 88 (i.val % 8) + (j.val - i.val) < 676 := by
    have := locOff_add_lt (L := 88) hr (by norm_num) hd
    omega
  have hrank : Cert.Tri.rank i.val j.val = 28980 + (locOff 88 (i.val % 8) + (j.val - i.val)) := by
    have h0 : Cert.Tri.triOff i.val = Cert.Tri.triOff (168 + i.val % 8) := congrArg Cert.Tri.triOff hi.symm
    have h1 : Cert.Tri.triOff (168 + i.val % 8) = Cert.Tri.triOff 168 + locOff 88 (i.val % 8) :=
      triOff_add_locOff 168 (i.val % 8)
    have h2 : Cert.Tri.triOff 168 = 28980 := triOff_chunk_eq 21 168 28980 (by norm_num) rfl rfl
    unfold Cert.Tri.rank
    omega
  refine (out_piece22 (W66 m ρ c) b _ ⟨_, hT⟩ o hrank).trans ?_
  refine (chunk22 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT23.lean ====
/-
  Chunk 23's stored value, read at an index.

  The body stores one value over its whole result block: the eight pieces `tanh ((p₁ row r + p₂ rows r…) + bias)`,
  `r = 0 … 7`, laid one under the other and given a leading unit axis. With 80 rows of the second product in view,
  piece `r` has `80 - r` rows and starts at row `locOff 80 r`. So the stored value at row `locOff 80 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 23 stores, as a function of the three blocks it loads. -/
abbrev stored23 {F : FTy → Type} [FloatOps F] (x0 : Vec F S1x8x768 .f32) (x1 : Vec F S1x80x768 .f32) (x2 : Vec F S1x768 .f32) :
    Vec F S1x612x768 .f32 :=
  k23_pay1 (k23_pay2 x0) (k23_pay3 x1) (k23_pay4 x2) (k23_pay5 x0 x1 x2) (k23_pay6 x0 x1 x2) (k23_pay7 x0 x1 x2) (k23_pay8 x0 x1 x2)
    (k23_pay9 x0 x1 x2) (k23_pay10 x0 x1 x2) (k23_pay11 x0 x1)

/-- The stored value at row `locOff 80 r + d` of its block pairs row `r` of the first block with row `r + d` of the
    second. -/
theorem pay23_apply (x0 : Vec Ideal S1x8x768 .f32) (x1 : Vec Ideal S1x80x768 .f32) (x2 : Vec Ideal S1x768 .f32)
    (r : Fin 8) (d : ℕ) (q : Fin 80) (hq : q.val = r.val + d) (p : Fin 612) (hp : p.val = locOff 80 r.val + d) (o : Fin 768) :
    stored23 x0 x1 x2 (ix3 0 p o) = Ideal.tanh ((x0 (ix3 0 r o) + x1 (ix3 0 q o)) + x2 (ix2 0 o)) := by
  have hql := q.isLt
  unfold stored23 k23_pay1
  refine (shapeCast_ab_1ab_apply _ _ 0 p o).trans ?_
  match r, hq, hp with
  | ⟨0, _⟩, hq, hp =>
    have hq : q.val = 0 + d := hq
    have hp : p.val = locOff 80 0 + d := hp
    have hd : d < 80 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 80 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 80 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 80 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 80 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 80 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 80 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 80 7 + d := hp
    refine (cat8_at7 _ _ _ _ _ _ _ _ _ d (by omega) o p (by simp only [locOff] at hp; omega)).trans ?_
    -- the last piece has 73 rows; a last piece of a single row is stored without broadcasts and has its own lemma
    first
      | have single : (73 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT23.lean ====
/-
  Chunk 23's result array after its region, read at an index.

  The region's grid is the batch: point `t` loads batch `t`'s eight rows of the first product's slice, batch `t`'s 80
  rows of the second product's slice and the bias row, and writes back the whole block `t` of the result. What it
  writes is the body's stored value of those three blocks. So the result array is ONE function of the three arrays it
  reads — at batch `b`, row `p`: the stored value of batch `b`'s blocks at row `p` (`G23`) —, every point writes its
  block of that function (`flushed23_eq`), the four blocks cover the array (`cover23`), hence the array ends as that
  function (`arr23_eq`); and at row `locOff 80 r + d` the stored value is the pair of row `r` with row `r + d`
  (`final23`).
-/
import proofs.«116342_j30605936951494_1_alg».proof.Proof.KI.Reg23
import proofs.«116342_j30605936951494_1_alg».proof.Proof.KI.PayT23
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA23 : (![0, 0, 0] : Fin 3 → Nat) = fun _ => 0 := funext fun a => by fin_cases a <;> rfl
theorem hzB23 : (![0, 0] : Fin 2 → Nat) = fun _ => 0 := funext fun a => by fin_cases a <;> rfl

/-- The grid is the batch: point `t` works on batch `t`. -/
noncomputable def batch23 (t : Fin cfg23.N) : Fin 4 := ⟨t.val, lt_of_lt_of_eq t.isLt N_23⟩

/-- The printed index maps, decided over the four points: the three batched windows sit at block `(t, 0, 0)`, the bias
    row at its one block. -/
theorem idx_facts23 : ∀ t : Fin cfg23.N,
    win23_0.index t (0 : Fin 3) = t.val ∧ win23_0.index t (1 : Fin 3) = 0 ∧ win23_0.index t (2 : Fin 3) = 0
    ∧ win23_1.index t (0 : Fin 3) = t.val ∧ win23_1.index t (1 : Fin 3) = 0 ∧ win23_1.index t (2 : Fin 3) = 0
    ∧ win23_2.index t (0 : Fin 2) = 0 ∧ win23_2.index t (1 : Fin 2) = 0
    ∧ win23_3.index t (0 : Fin 3) = t.val ∧ win23_3.index t (1 : Fin 3) = 0 ∧ win23_3.index t (2 : Fin 3) = 0 :=
  (by decide +kernel : ∀ t : Fin grid23.N, _)

/-- Batch `b`'s eight rows of the first product's slice, as a block. -/
noncomputable def blk23_0 (c : Dev nD) (b : Fin 4) : Vec Ideal S1x8x768 .f32 :=
  fun y => (V c main_v70 : S4x8x768.Idx → EReal) (ix3 b (y 1 : Fin 8) (y 2 : Fin 768))
/-- Batch `b`'s 80 rows of the second product's slice, as a block. -/
noncomputable def blk23_1 (c : Dev nD) (b : Fin 4) : Vec Ideal S1x80x768 .f32 :=
  fun y => (V c main_v71 : S4x80x768.Idx → EReal) (ix3 b (y 1 : Fin 80) (y 2 : Fin 768))
/-- The bias row. -/
noncomputable def blk23_2 (c : Dev nD) : Vec Ideal S1x768 .f32 := fun y => (V c main_v4 : S1x768.Idx → EReal) y

theorem iblk23_0_eq (c : Dev nD) (t : Fin cfg23.N) : (iblk23 V c 0 t : Vec Ideal S1x8x768 .f32) = blk23_0 V c (batch23 t) := by
  obtain ⟨e0, e1, e2, -⟩ := idx_facts23 t
  funext y
  unfold iblk23 blk23_0
  rw [View.read_apply]
  show V c main_v70 _ = V c main_v70 _
  congr 1
  funext a
  apply Fin.ext
  match a with
  | ⟨0, _⟩ => show win23_0.index t (0 : Fin 3) * 1 + 1 * (y 0).val = t.val; have hy : (y 0).val < 1 := (y 0).isLt; omega
  | ⟨1, _⟩ => show win23_0.index t (1 : Fin 3) * 8 + 1 * (y 1).val = (y 1).val; omega
  | ⟨2, _⟩ => show win23_0.index t (2 : Fin 3) * 768 + 1 * (y 2).val = (y 2).val; omega

theorem iblk23_1_eq (c : Dev nD) (t : Fin cfg23.N) : (iblk23 V c 1 t : Vec Ideal S1x80x768 .f32) = blk23_1 V c (batch23 t) := by
  obtain ⟨-, -, -, e0, e1, e2, -⟩ := idx_facts23 t
  funext y
  unfold iblk23 blk23_1
  rw [View.read_apply]
  show V c main_v71 _ = V c main_v71 _
  congr 1
  funext a
  apply Fin.ext
  match a with
  | ⟨0, _⟩ => show win23_1.index t (0 : Fin 3) * 1 + 1 * (y 0).val = t.val; have hy : (y 0).val < 1 := (y 0).isLt; omega
  | ⟨1, _⟩ => show win23_1.index t (1 : Fin 3) * 80 + 1 * (y 1).val = (y 1).val; omega
  | ⟨2, _⟩ => show win23_1.index t (2 : Fin 3) * 768 + 1 * (y 2).val = (y 2).val; omega

theorem iblk23_2_eq (c : Dev nD) (t : Fin cfg23.N) : (iblk23 V c 2 t : Vec Ideal S1x768 .f32) = blk23_2 V c := by
  obtain ⟨-, -, -, -, -, -, e0, e1, -⟩ := idx_facts23 t
  funext y
  unfold iblk23 blk23_2
  rw [View.read_apply]
  show V c main_v4 _ = V c main_v4 _
  congr 1
  funext a
  apply Fin.ext
  match a with
  | ⟨0, _⟩ => show win23_2.index t (0 : Fin 2) * 1 + 1 * (y 0).val = (y 0).val; omega
  | ⟨1, _⟩ => show win23_2.index t (1 : Fin 2) * 768 + 1 * (y 1).val = (y 1).val; omega

/-- The result array as ONE function of the three arrays the chunk reads: at batch `b`, row `p`, the value the body
    stores for batch `b`'s blocks, read at row `p`. -/
noncomputable def G23 (c : Dev nD) : S4x612x768.Idx → EReal :=
  fun i => stored23 (blk23_0 V c (i 0 : Fin 4)) (blk23_1 V c (i 0 : Fin 4)) (blk23_2 V c) (ix3 (0 : Fin 1) (i 1 : Fin 612) (i 2 : Fin 768))

/-- What point `t` writes back is block `t` of `G23`. -/
theorem flushed23_eq (c : Dev nD) (t : Fin cfg23.N) :
    (dat23 (F := Ideal) V c).flushed 3 t = ((cfg23.win 3).blk t).view.read (Elt Ideal) (G23 V c) := by
  obtain ⟨-, -, -, -, -, -, -, -, e0, e1, e2⟩ := idx_facts23 t
  show (cfg23.win 3).cut (grid23.coords t) ((dat23 (F := Ideal) V c).after 3 t) = _
  rw [after23_3]
  unfold out23_3
  rw [View.canon_unit_zero hzA23]
  simp only [View.ld_unit_zero (S := S1x8x768) hzA23, View.ld_unit_zero (S := S1x80x768) hzA23, View.ld_unit_zero (S := S1x768) hzB23]
  rw [iblk23_0_eq, iblk23_1_eq, iblk23_2_eq]
  funext j
  show stored23 (blk23_0 V c (batch23 t)) (blk23_1 V c (batch23 t)) (blk23_2 V c) j = G23 V c (((cfg23.win 3).blk t).view.emb j)
  have hj0 : (j 0).val < 1 := (j 0).isLt
  have he : ((cfg23.win 3).blk t).view.emb j = (ix3 (batch23 t) (j 1 : Fin 612) (j 2 : Fin 768) : S4x612x768.Idx) := by
    funext a
    apply Fin.ext
    match a with
    | ⟨0, _⟩ => show win23_3.index t (0 : Fin 3) * 1 + 1 * (j 0).val = t.val; omega
    | ⟨1, _⟩ => show win23_3.index t (1 : Fin 3) * 612 + 1 * (j 1).val = (j 1).val; omega
    | ⟨2, _⟩ => show win23_3.index t (2 : Fin 3) * 768 + 1 * (j 2).val = (j 2).val; omega
  rw [he]
  show _ = stored23 (blk23_0 V c (batch23 t)) (blk23_1 V c (batch23 t)) (blk23_2 V c) (ix3 (0 : Fin 1) (j 1 : Fin 612) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk23 (t : Fin cfg23.N) (i : S4x612x768.Idx) :
    i ∈ ((cfg23.win 3).blk t).view.set ↔ ∀ a : Fin 3, win23_3.index t a * S1x612x768.size a ≤ (i a).val ∧ (i a).val < win23_3.index t a * S1x612x768.size a + S1x612x768.size a := by
  show i ∈ ((View.whole main_v72).slice (win23_3.rect t)).set ↔ _
  rw [View.set_slice_whole, Rect.mem_set_unit]
  exact Iff.rfl

/-- Batch `b` of the result is written by point `b`. -/
theorem cover23 (i : S4x612x768.Idx) : ∃ t : Fin cfg23.N, (cfg23.win 3).flush t = true ∧ i ∈ ((cfg23.win 3).blk t).view.set := by
  have hi0 : (i 0).val < 4 := (i 0).isLt
  have hi1 : (i 1).val < 612 := (i 1).isLt
  have hi2 : (i 2).val < 768 := (i 2).isLt
  let t : Fin cfg23.N := ⟨(i 0).val, lt_of_lt_of_eq hi0 N_23.symm⟩
  obtain ⟨-, -, -, -, -, -, -, -, e0, e1, e2⟩ := idx_facts23 t
  refine ⟨t, flush23_3 t, ?_⟩
  rw [mem_blk23]
  intro a
  match a with
  | ⟨0, _⟩ => show win23_3.index t (0 : Fin 3) * 1 ≤ (i 0).val ∧ (i 0).val < win23_3.index t (0 : Fin 3) * 1 + 1; rw [e0]; show (i 0).val * 1 ≤ (i 0).val ∧ (i 0).val < (i 0).val * 1 + 1; omega
  | ⟨1, _⟩ => show win23_3.index t (1 : Fin 3) * 612 ≤ (i 1).val ∧ (i 1).val < win23_3.index t (1 : Fin 3) * 612 + 612; omega
  | ⟨2, _⟩ => show win23_3.index t (2 : Fin 3) * 768 ≤ (i 2).val ∧ (i 2).val < win23_3.index t (2 : Fin 3) * 768 + 768; omega

/-- The result array after the region is `G23`. -/
theorem arr23_eq (c : Dev nD) : (dat23 (F := Ideal) V c).arrAt 3 cfg23.N = G23 V c :=
  (dat23 (F := Ideal) V c).arrAt_eq_of_cover 3 (G23 V c) (fun t _ => flushed23_eq V c t) cover23

/-- The three arrays the chunk reads, at their literal types (so that their entries add as extended reals). -/
abbrev src23_0 (c : Dev nD) : S4x8x768.Idx → EReal := V c main_v70
abbrev src23_1 (c : Dev nD) : S4x80x768.Idx → EReal := V c main_v71
abbrev src23_2 (c : Dev nD) : S1x768.Idx → EReal := V c main_v4

/-- The result array at batch `b`, row `locOff 80 r + d`: the pair of row `r` of the first slice with row `r + d` of
    the second, at batch `b`. -/
theorem final23 (c : Dev nD) (b : Fin 4) (r : Fin 8) (d : ℕ) (q : Fin 80) (hq : q.val = r.val + d)
    (p : Fin 612) (hp : p.val = locOff 80 r.val + d) (o : Fin 768) :
    (dat23 (F := Ideal) V c).arrAt 3 cfg23.N (ix3 b p o)
      = Ideal.tanh ((src23_0 V c (ix3 b r o) + src23_1 V c (ix3 b q o)) + src23_2 V c (ix2 0 o)) := by
  rw [arr23_eq]
  show stored23 (blk23_0 V c b) (blk23_1 V c b) (blk23_2 V c) (ix3 0 p o) = _
  rw [pay23_apply _ _ _ r d q hq p hp o]
  rfl

end Cert.KernelIdeal.Val

end
-- ==== Proof.KI.Case23.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT23
import proofs.«116342_j30605936951494_1_alg».proof.Proof.KI.PayLib

/-!
# Chunk 23 of the triangle: the pairs (i, j) with 176 ≤ i < 176 + 8

The chunk's region reads three arrays: its eight rows 176 … 176 + 7 of the first projection, the rows 176 … 255 of the
second, and the bias row, each cut by the host from what boundary 3 holds. Its result, still in place when the last
stretch reads it, holds at local row `locOff 80 r + d` the value of the pair (176 + r, 176 + r + d). In the packed
order the chunk starts at row 29656 = triOff 176 and the pair (i, j) sits at `triOff i + (j - i)`: with `r = i mod 8` and
`d = j - i` that is row 29656 + (locOff 80 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 80 r + d` holds the pair (176 + r, 176 + r + d). -/
theorem chunk23 (c : Dev nD) (b : Fin 4) (r : Fin 8) (d : ℕ) (hd : r.val + d < 80) (p : Fin 612)
    (hp : p.val = locOff 80 r.val + d) (o : Fin 768) :
    (W66 m ρ c (Proc.devRef .tc main_v72) : Vec Ideal S4x612x768 .f32) (ix3 b p o)
      = Cert.Tri.pairValue (argX m c) (argW m c) (argB m c) b ⟨176 + r.val, by omega⟩ ⟨176 + r.val + d, by omega⟩ o := by
  have e0 : src23_0 (V47 m ρ) c (ix3 b r o)
      = Cert.Tri.proj1 (argX m c) (argW m c) b ⟨176 + r.val, by omega⟩ o :=
    (host23_rows (W46 m ρ c) b r o ⟨176 + r.val, by omega⟩ rfl).trans
      ((congrFun (W46_main_v2 m ρ c) _).trans (p1_W3 m ρ c b _ o))
  have e1 : src23_1 (V47 m ρ) c (ix3 b (⟨r.val + d, hd⟩ : Fin 80) o)
      = Cert.Tri.proj2 (argX m c) (argW m c) b ⟨176 + r.val + d, by omega⟩ o :=
    (host23_pair (W46 m ρ c) b ⟨r.val + d, hd⟩ o ⟨176 + r.val + d, by omega⟩
        (by show 176 + r.val + d = 176 + (r.val + d); omega)).trans
      ((congrFun (W46_main_v3 m ρ c) _).trans (p2_W3 m ρ c b _ o))
  have e2 : src23_2 (V47 m ρ) c (ix2 0 o) = argB m c (ix1 o) :=
    (congrFun (W47_main_v4 m ρ c) _).trans (bias_W3 m ρ c 0 o)
  calc (W66 m ρ c (Proc.devRef .tc main_v72) : Vec Ideal S4x612x768 .f32) (ix3 b p o)
      = ((dat23 (F := Ideal) (V47 m ρ) c).arrAt 3 cfg23.N : Vec Ideal S4x612x768 .f32) (ix3 b p o) :=
        congrFun (out23_final m ρ c) _
    _ = Ideal.tanh ((src23_0 (V47 m ρ) c (ix3 b r o) + src23_1 (V47 m ρ) c (ix3 b (⟨r.val + d, hd⟩ : Fin 80) o))
          + src23_2 (V47 m ρ) c (ix2 0 o)) :=
        final23 (V47 m ρ) c b r d ⟨r.val + d, hd⟩ rfl p hp o
    _ = Cert.Tri.pairValue (argX m c) (argW m c) (argB m c) b ⟨176 + r.val, by omega⟩ ⟨176 + r.val + d, by omega⟩ o := by
        rw [e0, e1, e2]
        rfl

/-- The program's result at the rank of a pair (i, j) of this chunk (`i / 8 = 22`). -/
theorem case23 (c : Dev nD) (b : Fin 4) (i j : Fin 256) (o : Fin 768) (hij : i.val ≤ j.val) (hK : i.val / 8 = 22) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 176 + i.val % 8 = i.val := by omega
  have hj : 176 + i.val % 8 + (j.val - i.val) = j.val := by omega
  have hd : i.val % 8 + (j.val - i.val) < 80 := by have := j.isLt; omega
  have hT : locOff 80 (i.val % 8) + (j.val - i.val) < 612 := by
    have := locOff_add_lt (L := 80) hr (by norm_num) hd
    omega
  have hrank : Cert.Tri.rank i.val j.val = 29656 + (locOff 80 (i.val % 8) + (j.val - i.val)) := by
    have h0 : Cert.Tri.triOff i.val = Cert.Tri.triOff (176 + i.val % 8) := congrArg Cert.Tri.triOff hi.symm
    have h1 : Cert.Tri.triOff (176 + i.val % 8) = Cert.Tri.triOff 176 + locOff 80 (i.val % 8) :=
      triOff_add_locOff 176 (i.val % 8)
    have h2 : Cert.Tri.triOff 176 = 29656 := triOff_chunk_eq 22 176 29656 (by norm_num) rfl rfl
    unfold Cert.Tri.rank
    omega
  refine (out_piece23 (W66 m ρ c) b _ ⟨_, hT⟩ o hrank).trans ?_
  refine (chunk23 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT24.lean ====
/-
  Chunk 24's stored value, read at an index.

  The body stores one value over its whole result block: the eight pieces `tanh ((p₁ row r + p₂ rows r…) + bias)`,
  `r = 0 … 7`, laid one under the other and given a leading unit axis. With 72 rows of the second product in view,
  piece `r` has `72 - r` rows and starts at row `locOff 72 r`. So the stored value at row `locOff 72 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 24 stores, as a function of the three blocks it loads. -/
abbrev stored24 {F : FTy → Type} [FloatOps F] (x0 : Vec F S1x8x768 .f32) (x1 : Vec F S1x72x768 .f32) (x2 : Vec F S1x768 .f32) :
    Vec F S1x548x768 .f32 :=
  k24_pay1 (k24_pay2 x0) (k24_pay3 x1) (k24_pay4 x2) (k24_pay5 x0 x1 x2) (k24_pay6 x0 x1 x2) (k24_pay7 x0 x1 x2) (k24_pay8 x0 x1 x2)
    (k24_pay9 x0 x1 x2) (k24_pay10 x0 x1 x2) (k24_pay11 x0 x1)

/-- The stored value at row `locOff 72 r + d` of its block pairs row `r` of the first block with row `r + d` of the
    second. -/
theorem pay24_apply (x0 : Vec Ideal S1x8x768 .f32) (x1 : Vec Ideal S1x72x768 .f32) (x2 : Vec Ideal S1x768 .f32)
    (r : Fin 8) (d : ℕ) (q : Fin 72) (hq : q.val = r.val + d) (p : Fin 548) (hp : p.val = locOff 72 r.val + d) (o : Fin 768) :
    stored24 x0 x1 x2 (ix3 0 p o) = Ideal.tanh ((x0 (ix3 0 r o) + x1 (ix3 0 q o)) + x2 (ix2 0 o)) := by
  have hql := q.isLt
  unfold stored24 k24_pay1
  refine (shapeCast_ab_1ab_apply _ _ 0 p o).trans ?_
  match r, hq, hp with
  | ⟨0, _⟩, hq, hp =>
    have hq : q.val = 0 + d := hq
    have hp : p.val = locOff 72 0 + d := hp
    have hd : d < 72 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 72 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 72 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 72 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 72 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 72 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 72 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 72 7 + d := hp
    refine (cat8_at7 _ _ _ _ _ _ _ _ _ d (by omega) o p (by simp only [locOff] at hp; omega)).trans ?_
    -- the last piece has 65 rows; a last piece of a single row is stored without broadcasts and has its own lemma
    first
      | have single : (65 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT24.lean ====
/-
  Chunk 24's result array after its region, read at an index.

  The region's grid is the batch: point `t` loads batch `t`'s eight rows of the first product's slice, batch `t`'s 72
  rows of the second product's slice and the bias row, and writes back the whole block `t` of the result. What it
  writes is the body's stored value of those three blocks. So the result array is ONE function of the three arrays it
  reads — at batch `b`, row `p`: the stored value of batch `b`'s blocks at row `p` (`G24`) —, every point writes its
  block of that function (`flushed24_eq`), the four blocks cover the array (`cover24`), hence the array ends as that
  function (`arr24_eq`); and at row `locOff 72 r + d` the stored value is the pair of row `r` with row `r + d`
  (`final24`).
-/
import proofs.«116342_j30605936951494_1_alg».proof.Proof.KI.Reg24
import proofs.«116342_j30605936951494_1_alg».proof.Proof.KI.PayT24
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA24 : (![0, 0, 0] : Fin 3 → Nat) = fun _ => 0 := funext fun a => by fin_cases a <;> rfl
theorem hzB24 : (![0, 0] : Fin 2 → Nat) = fun _ => 0 := funext fun a => by fin_cases a <;> rfl

/-- The grid is the batch: point `t` works on batch `t`. -/
noncomputable def batch24 (t : Fin cfg24.N) : Fin 4 := ⟨t.val, lt_of_lt_of_eq t.isLt N_24⟩

/-- The printed index maps, decided over the four points: the three batched windows sit at block `(t, 0, 0)`, the bias
    row at its one block. -/
theorem idx_facts24 : ∀ t : Fin cfg24.N,
    win24_0.index t (0 : Fin 3) = t.val ∧ win24_0.index t (1 : Fin 3) = 0 ∧ win24_0.index t (2 : Fin 3) = 0
    ∧ win24_1.index t (0 : Fin 3) = t.val ∧ win24_1.index t (1 : Fin 3) = 0 ∧ win24_1.index t (2 : Fin 3) = 0
    ∧ win24_2.index t (0 : Fin 2) = 0 ∧ win24_2.index t (1 : Fin 2) = 0
    ∧ win24_3.index t (0 : Fin 3) = t.val ∧ win24_3.index t (1 : Fin 3) = 0 ∧ win24_3.index t (2 : Fin 3) = 0 :=
  (by decide +kernel : ∀ t : Fin grid24.N, _)

/-- Batch `b`'s eight rows of the first product's slice, as a block. -/
noncomputable def blk24_0 (c : Dev nD) (b : Fin 4) : Vec Ideal S1x8x768 .f32 :=
  fun y => (V c main_v73 : S4x8x768.Idx → EReal) (ix3 b (y 1 : Fin 8) (y 2 : Fin 768))
/-- Batch `b`'s 72 rows of the second product's slice, as a block. -/
noncomputable def blk24_1 (c : Dev nD) (b : Fin 4) : Vec Ideal S1x72x768 .f32 :=
  fun y => (V c main_v74 : S4x72x768.Idx → EReal) (ix3 b (y 1 : Fin 72) (y 2 : Fin 768))
/-- The bias row. -/
noncomputable def blk24_2 (c : Dev nD) : Vec Ideal S1x768 .f32 := fun y => (V c main_v4 : S1x768.Idx → EReal) y

theorem iblk24_0_eq (c : Dev nD) (t : Fin cfg24.N) : (iblk24 V c 0 t : Vec Ideal S1x8x768 .f32) = blk24_0 V c (batch24 t) := by
  obtain ⟨e0, e1, e2, -⟩ := idx_facts24 t
  funext y
  unfold iblk24 blk24_0
  rw [View.read_apply]
  show V c main_v73 _ = V c main_v73 _
  congr 1
  funext a
  apply Fin.ext
  match a with
  | ⟨0, _⟩ => show win24_0.index t (0 : Fin 3) * 1 + 1 * (y 0).val = t.val; have hy : (y 0).val < 1 := (y 0).isLt; omega
  | ⟨1, _⟩ => show win24_0.index t (1 : Fin 3) * 8 + 1 * (y 1).val = (y 1).val; omega
  | ⟨2, _⟩ => show win24_0.index t (2 : Fin 3) * 768 + 1 * (y 2).val = (y 2).val; omega

theorem iblk24_1_eq (c : Dev nD) (t : Fin cfg24.N) : (iblk24 V c 1 t : Vec Ideal S1x72x768 .f32) = blk24_1 V c (batch24 t) := by
  obtain ⟨-, -, -, e0, e1, e2, -⟩ := idx_facts24 t
  funext y
  unfold iblk24 blk24_1
  rw [View.read_apply]
  show V c main_v74 _ = V c main_v74 _
  congr 1
  funext a
  apply Fin.ext
  match a with
  | ⟨0, _⟩ => show win24_1.index t (0 : Fin 3) * 1 + 1 * (y 0).val = t.val; have hy : (y 0).val < 1 := (y 0).isLt; omega
  | ⟨1, _⟩ => show win24_1.index t (1 : Fin 3) * 72 + 1 * (y 1).val = (y 1).val; omega
  | ⟨2, _⟩ => show win24_1.index t (2 : Fin 3) * 768 + 1 * (y 2).val = (y 2).val; omega

theorem iblk24_2_eq (c : Dev nD) (t : Fin cfg24.N) : (iblk24 V c 2 t : Vec Ideal S1x768 .f32) = blk24_2 V c := by
  obtain ⟨-, -, -, -, -, -, e0, e1, -⟩ := idx_facts24 t
  funext y
  unfold iblk24 blk24_2
  rw [View.read_apply]
  show V c main_v4 _ = V c main_v4 _
  congr 1
  funext a
  apply Fin.ext
  match a with
  | ⟨0, _⟩ => show win24_2.index t (0 : Fin 2) * 1 + 1 * (y 0).val = (y 0).val; omega
  | ⟨1, _⟩ => show win24_2.index t (1 : Fin 2) * 768 + 1 * (y 1).val = (y 1).val; omega

/-- The result array as ONE function of the three arrays the chunk reads: at batch `b`, row `p`, the value the body
    stores for batch `b`'s blocks, read at row `p`. -/
noncomputable def G24 (c : Dev nD) : S4x548x768.Idx → EReal :=
  fun i => stored24 (blk24_0 V c (i 0 : Fin 4)) (blk24_1 V c (i 0 : Fin 4)) (blk24_2 V c) (ix3 (0 : Fin 1) (i 1 : Fin 548) (i 2 : Fin 768))

/-- What point `t` writes back is block `t` of `G24`. -/
theorem flushed24_eq (c : Dev nD) (t : Fin cfg24.N) :
    (dat24 (F := Ideal) V c).flushed 3 t = ((cfg24.win 3).blk t).view.read (Elt Ideal) (G24 V c) := by
  obtain ⟨-, -, -, -, -, -, -, -, e0, e1, e2⟩ := idx_facts24 t
  show (cfg24.win 3).cut (grid24.coords t) ((dat24 (F := Ideal) V c).after 3 t) = _
  rw [after24_3]
  unfold out24_3
  rw [View.canon_unit_zero hzA24]
  simp only [View.ld_unit_zero (S := S1x8x768) hzA24, View.ld_unit_zero (S := S1x72x768) hzA24, View.ld_unit_zero (S := S1x768) hzB24]
  rw [iblk24_0_eq, iblk24_1_eq, iblk24_2_eq]
  funext j
  show stored24 (blk24_0 V c (batch24 t)) (blk24_1 V c (batch24 t)) (blk24_2 V c) j = G24 V c (((cfg24.win 3).blk t).view.emb j)
  have hj0 : (j 0).val < 1 := (j 0).isLt
  have he : ((cfg24.win 3).blk t).view.emb j = (ix3 (batch24 t) (j 1 : Fin 548) (j 2 : Fin 768) : S4x548x768.Idx) := by
    funext a
    apply Fin.ext
    match a with
    | ⟨0, _⟩ => show win24_3.index t (0 : Fin 3) * 1 + 1 * (j 0).val = t.val; omega
    | ⟨1, _⟩ => show win24_3.index t (1 : Fin 3) * 548 + 1 * (j 1).val = (j 1).val; omega
    | ⟨2, _⟩ => show win24_3.index t (2 : Fin 3) * 768 + 1 * (j 2).val = (j 2).val; omega
  rw [he]
  show _ = stored24 (blk24_0 V c (batch24 t)) (blk24_1 V c (batch24 t)) (blk24_2 V c) (ix3 (0 : Fin 1) (j 1 : Fin 548) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk24 (t : Fin cfg24.N) (i : S4x548x768.Idx) :
    i ∈ ((cfg24.win 3).blk t).view.set ↔ ∀ a : Fin 3, win24_3.index t a * S1x548x768.size a ≤ (i a).val ∧ (i a).val < win24_3.index t a * S1x548x768.size a + S1x548x768.size a := by
  show i ∈ ((View.whole main_v75).slice (win24_3.rect t)).set ↔ _
  rw [View.set_slice_whole, Rect.mem_set_unit]
  exact Iff.rfl

/-- Batch `b` of the result is written by point `b`. -/
theorem cover24 (i : S4x548x768.Idx) : ∃ t : Fin cfg24.N, (cfg24.win 3).flush t = true ∧ i ∈ ((cfg24.win 3).blk t).view.set := by
  have hi0 : (i 0).val < 4 := (i 0).isLt
  have hi1 : (i 1).val < 548 := (i 1).isLt
  have hi2 : (i 2).val < 768 := (i 2).isLt
  let t : Fin cfg24.N := ⟨(i 0).val, lt_of_lt_of_eq hi0 N_24.symm⟩
  obtain ⟨-, -, -, -, -, -, -, -, e0, e1, e2⟩ := idx_facts24 t
  refine ⟨t, flush24_3 t, ?_⟩
  rw [mem_blk24]
  intro a
  match a with
  | ⟨0, _⟩ => show win24_3.index t (0 : Fin 3) * 1 ≤ (i 0).val ∧ (i 0).val < win24_3.index t (0 : Fin 3) * 1 + 1; rw [e0]; show (i 0).val * 1 ≤ (i 0).val ∧ (i 0).val < (i 0).val * 1 + 1; omega
  | ⟨1, _⟩ => show win24_3.index t (1 : Fin 3) * 548 ≤ (i 1).val ∧ (i 1).val < win24_3.index t (1 : Fin 3) * 548 + 548; omega
  | ⟨2, _⟩ => show win24_3.index t (2 : Fin 3) * 768 ≤ (i 2).val ∧ (i 2).val < win24_3.index t (2 : Fin 3) * 768 + 768; omega

/-- The result array after the region is `G24`. -/
theorem arr24_eq (c : Dev nD) : (dat24 (F := Ideal) V c).arrAt 3 cfg24.N = G24 V c :=
  (dat24 (F := Ideal) V c).arrAt_eq_of_cover 3 (G24 V c) (fun t _ => flushed24_eq V c t) cover24

/-- The three arrays the chunk reads, at their literal types (so that their entries add as extended reals). -/
abbrev src24_0 (c : Dev nD) : S4x8x768.Idx → EReal := V c main_v73
abbrev src24_1 (c : Dev nD) : S4x72x768.Idx → EReal := V c main_v74
abbrev src24_2 (c : Dev nD) : S1x768.Idx → EReal := V c main_v4

/-- The result array at batch `b`, row `locOff 72 r + d`: the pair of row `r` of the first slice with row `r + d` of
    the second, at batch `b`. -/
theorem final24 (c : Dev nD) (b : Fin 4) (r : Fin 8) (d : ℕ) (q : Fin 72) (hq : q.val = r.val + d)
    (p : Fin 548) (hp : p.val = locOff 72 r.val + d) (o : Fin 768) :
    (dat24 (F := Ideal) V c).arrAt 3 cfg24.N (ix3 b p o)
      = Ideal.tanh ((src24_0 V c (ix3 b r o) + src24_1 V c (ix3 b q o)) + src24_2 V c (ix2 0 o)) := by
  rw [arr24_eq]
  show stored24 (blk24_0 V c b) (blk24_1 V c b) (blk24_2 V c) (ix3 0 p o) = _
  rw [pay24_apply _ _ _ r d q hq p hp o]
  rfl

end Cert.KernelIdeal.Val

end
-- ==== Proof.KI.Case24.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT24
import proofs.«116342_j30605936951494_1_alg».proof.Proof.KI.PayLib

/-!
# Chunk 24 of the triangle: the pairs (i, j) with 184 ≤ i < 184 + 8

The chunk's region reads three arrays: its eight rows 184 … 184 + 7 of the first projection, the rows 184 … 255 of the
second, and the bias row, each cut by the host from what boundary 3 holds. Its result, still in place when the last
stretch reads it, holds at local row `locOff 72 r + d` the value of the pair (184 + r, 184 + r + d). In the packed
order the chunk starts at row 30268 = triOff 184 and the pair (i, j) sits at `triOff i + (j - i)`: with `r = i mod 8` and
`d = j - i` that is row 30268 + (locOff 72 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 72 r + d` holds the pair (184 + r, 184 + r + d). -/
theorem chunk24 (c : Dev nD) (b : Fin 4) (r : Fin 8) (d : ℕ) (hd : r.val + d < 72) (p : Fin 548)
    (hp : p.val = locOff 72 r.val + d) (o : Fin 768) :
    (W66 m ρ c (Proc.devRef .tc main_v75) : Vec Ideal S4x548x768 .f32) (ix3 b p o)
      = Cert.Tri.pairValue (argX m c) (argW m c) (argB m c) b ⟨184 + r.val, by omega⟩ ⟨184 + r.val + d, by omega⟩ o := by
  have e0 : src24_0 (V49 m ρ) c (ix3 b r o)
      = Cert.Tri.proj1 (argX m c) (argW m c) b ⟨184 + r.val, by omega⟩ o :=
    (host24_rows (W48 m ρ c) b r o ⟨184 + r.val, by omega⟩ rfl).trans
      ((congrFun (W48_main_v2 m ρ c) _).trans (p1_W3 m ρ c b _ o))
  have e1 : src24_1 (V49 m ρ) c (ix3 b (⟨r.val + d, hd⟩ : Fin 72) o)
      = Cert.Tri.proj2 (argX m c) (argW m c) b ⟨184 + r.val + d, by omega⟩ o :=
    (host24_pair (W48 m ρ c) b ⟨r.val + d, hd⟩ o ⟨184 + r.val + d, by omega⟩
        (by show 184 + r.val + d = 184 + (r.val + d); omega)).trans
      ((congrFun (W48_main_v3 m ρ c) _).trans (p2_W3 m ρ c b _ o))
  have e2 : src24_2 (V49 m ρ) c (ix2 0 o) = argB m c (ix1 o) :=
    (congrFun (W49_main_v4 m ρ c) _).trans (bias_W3 m ρ c 0 o)
  calc (W66 m ρ c (Proc.devRef .tc main_v75) : Vec Ideal S4x548x768 .f32) (ix3 b p o)
      = ((dat24 (F := Ideal) (V49 m ρ) c).arrAt 3 cfg24.N : Vec Ideal S4x548x768 .f32) (ix3 b p o) :=
        congrFun (out24_final m ρ c) _
    _ = Ideal.tanh ((src24_0 (V49 m ρ) c (ix3 b r o) + src24_1 (V49 m ρ) c (ix3 b (⟨r.val + d, hd⟩ : Fin 72) o))
          + src24_2 (V49 m ρ) c (ix2 0 o)) :=
        final24 (V49 m ρ) c b r d ⟨r.val + d, hd⟩ rfl p hp o
    _ = Cert.Tri.pairValue (argX m c) (argW m c) (argB m c) b ⟨184 + r.val, by omega⟩ ⟨184 + r.val + d, by omega⟩ o := by
        rw [e0, e1, e2]
        rfl

/-- The program's result at the rank of a pair (i, j) of this chunk (`i / 8 = 23`). -/
theorem case24 (c : Dev nD) (b : Fin 4) (i j : Fin 256) (o : Fin 768) (hij : i.val ≤ j.val) (hK : i.val / 8 = 23) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 184 + i.val % 8 = i.val := by omega
  have hj : 184 + i.val % 8 + (j.val - i.val) = j.val := by omega
  have hd : i.val % 8 + (j.val - i.val) < 72 := by have := j.isLt; omega
  have hT : locOff 72 (i.val % 8) + (j.val - i.val) < 548 := by
    have := locOff_add_lt (L := 72) hr (by norm_num) hd
    omega
  have hrank : Cert.Tri.rank i.val j.val = 30268 + (locOff 72 (i.val % 8) + (j.val - i.val)) := by
    have h0 : Cert.Tri.triOff i.val = Cert.Tri.triOff (184 + i.val % 8) := congrArg Cert.Tri.triOff hi.symm
    have h1 : Cert.Tri.triOff (184 + i.val % 8) = Cert.Tri.triOff 184 + locOff 72 (i.val % 8) :=
      triOff_add_locOff 184 (i.val % 8)
    have h2 : Cert.Tri.triOff 184 = 30268 := triOff_chunk_eq 23 184 30268 (by norm_num) rfl rfl
    unfold Cert.Tri.rank
    omega
  refine (out_piece24 (W66 m ρ c) b _ ⟨_, hT⟩ o hrank).trans ?_
  refine (chunk24 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT25.lean ====
/-
  Chunk 25's stored value, read at an index.

  The body stores one value over its whole result block: the eight pieces `tanh ((p₁ row r + p₂ rows r…) + bias)`,
  `r = 0 … 7`, laid one under the other and given a leading unit axis. With 64 rows of the second product in view,
  piece `r` has `64 - r` rows and starts at row `locOff 64 r`. So the stored value at row `locOff 64 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 25 stores, as a function of the three blocks it loads. -/
abbrev stored25 {F : FTy → Type} [FloatOps F] (x0 : Vec F S1x8x768 .f32) (x1 : Vec F S1x64x768 .f32) (x2 : Vec F S1x768 .f32) :
    Vec F S1x484x768 .f32 :=
  k25_pay1 (k25_pay2 x0) (k25_pay3 x1) (k25_pay4 x2) (k25_pay5 x0 x1 x2) (k25_pay6 x0 x1 x2) (k25_pay7 x0 x1 x2) (k25_pay8 x0 x1 x2)
    (k25_pay9 x0 x1 x2) (k25_pay10 x0 x1 x2) (k25_pay11 x0 x1)

/-- The stored value at row `locOff 64 r + d` of its block pairs row `r` of the first block with row `r + d` of the
    second. -/
theorem pay25_apply (x0 : Vec Ideal S1x8x768 .f32) (x1 : Vec Ideal S1x64x768 .f32) (x2 : Vec Ideal S1x768 .f32)
    (r : Fin 8) (d : ℕ) (q : Fin 64) (hq : q.val = r.val + d) (p : Fin 484) (hp : p.val = locOff 64 r.val + d) (o : Fin 768) :
    stored25 x0 x1 x2 (ix3 0 p o) = Ideal.tanh ((x0 (ix3 0 r o) + x1 (ix3 0 q o)) + x2 (ix2 0 o)) := by
  have hql := q.isLt
  unfold stored25 k25_pay1
  refine (shapeCast_ab_1ab_apply _ _ 0 p o).trans ?_
  match r, hq, hp with
  | ⟨0, _⟩, hq, hp =>
    have hq : q.val = 0 + d := hq
    have hp : p.val = locOff 64 0 + d := hp
    have hd : d < 64 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 64 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 64 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 64 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 64 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 64 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 64 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 64 7 + d := hp
    refine (cat8_at7 _ _ _ _ _ _ _ _ _ d (by omega) o p (by simp only [locOff] at hp; omega)).trans ?_
    -- the last piece has 57 rows; a last piece of a single row is stored without broadcasts and has its own lemma
    first
      | have single : (57 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT25.lean ====
/-
  Chunk 25's result array after its region, read at an index.

  The region's grid is the batch: point `t` loads batch `t`'s eight rows of the first product's slice, batch `t`'s 64
  rows of the second product's slice and the bias row, and writes back the whole block `t` of the result. What it
  writes is the body's stored value of those three blocks. So the result array is ONE function of the three arrays it
  reads — at batch `b`, row `p`: the stored value of batch `b`'s blocks at row `p` (`G25`) —, every point writes its
  block of that function (`flushed25_eq`), the four blocks cover the array (`cover25`), hence the array ends as that
  function (`arr25_eq`); and at row `locOff 64 r + d` the stored value is the pair of row `r` with row `r + d`
  (`final25`).
-/
import proofs.«116342_j30605936951494_1_alg».proof.Proof.KI.Reg25
import proofs.«116342_j30605936951494_1_alg».proof.Proof.KI.PayT25
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA25 : (![0, 0, 0] : Fin 3 → Nat) = fun _ => 0 := funext fun a => by fin_cases a <;> rfl
theorem hzB25 : (![0, 0] : Fin 2 → Nat) = fun _ => 0 := funext fun a => by fin_cases a <;> rfl

/-- The grid is the batch: point `t` works on batch `t`. -/
noncomputable def batch25 (t : Fin cfg25.N) : Fin 4 := ⟨t.val, lt_of_lt_of_eq t.isLt N_25⟩

/-- The printed index maps, decided over the four points: the three batched windows sit at block `(t, 0, 0)`, the bias
    row at its one block. -/
theorem idx_facts25 : ∀ t : Fin cfg25.N,
    win25_0.index t (0 : Fin 3) = t.val ∧ win25_0.index t (1 : Fin 3) = 0 ∧ win25_0.index t (2 : Fin 3) = 0
    ∧ win25_1.index t (0 : Fin 3) = t.val ∧ win25_1.index t (1 : Fin 3) = 0 ∧ win25_1.index t (2 : Fin 3) = 0
    ∧ win25_2.index t (0 : Fin 2) = 0 ∧ win25_2.index t (1 : Fin 2) = 0
    ∧ win25_3.index t (0 : Fin 3) = t.val ∧ win25_3.index t (1 : Fin 3) = 0 ∧ win25_3.index t (2 : Fin 3) = 0 :=
  (by decide +kernel : ∀ t : Fin grid25.N, _)

/-- Batch `b`'s eight rows of the first product's slice, as a block. -/
noncomputable def blk25_0 (c : Dev nD) (b : Fin 4) : Vec Ideal S1x8x768 .f32 :=
  fun y => (V c main_v76 : S4x8x768.Idx → EReal) (ix3 b (y 1 : Fin 8) (y 2 : Fin 768))
/-- Batch `b`'s 64 rows of the second product's slice, as a block. -/
noncomputable def blk25_1 (c : Dev nD) (b : Fin 4) : Vec Ideal S1x64x768 .f32 :=
  fun y => (V c main_v77 : S4x64x768.Idx → EReal) (ix3 b (y 1 : Fin 64) (y 2 : Fin 768))
/-- The bias row. -/
noncomputable def blk25_2 (c : Dev nD) : Vec Ideal S1x768 .f32 := fun y => (V c main_v4 : S1x768.Idx → EReal) y

theorem iblk25_0_eq (c : Dev nD) (t : Fin cfg25.N) : (iblk25 V c 0 t : Vec Ideal S1x8x768 .f32) = blk25_0 V c (batch25 t) := by
  obtain ⟨e0, e1, e2, -⟩ := idx_facts25 t
  funext y
  unfold iblk25 blk25_0
  rw [View.read_apply]
  show V c main_v76 _ = V c main_v76 _
  congr 1
  funext a
  apply Fin.ext
  match a with
  | ⟨0, _⟩ => show win25_0.index t (0 : Fin 3) * 1 + 1 * (y 0).val = t.val; have hy : (y 0).val < 1 := (y 0).isLt; omega
  | ⟨1, _⟩ => show win25_0.index t (1 : Fin 3) * 8 + 1 * (y 1).val = (y 1).val; omega
  | ⟨2, _⟩ => show win25_0.index t (2 : Fin 3) * 768 + 1 * (y 2).val = (y 2).val; omega

theorem iblk25_1_eq (c : Dev nD) (t : Fin cfg25.N) : (iblk25 V c 1 t : Vec Ideal S1x64x768 .f32) = blk25_1 V c (batch25 t) := by
  obtain ⟨-, -, -, e0, e1, e2, -⟩ := idx_facts25 t
  funext y
  unfold iblk25 blk25_1
  rw [View.read_apply]
  show V c main_v77 _ = V c main_v77 _
  congr 1
  funext a
  apply Fin.ext
  match a with
  | ⟨0, _⟩ => show win25_1.index t (0 : Fin 3) * 1 + 1 * (y 0).val = t.val; have hy : (y 0).val < 1 := (y 0).isLt; omega
  | ⟨1, _⟩ => show win25_1.index t (1 : Fin 3) * 64 + 1 * (y 1).val = (y 1).val; omega
  | ⟨2, _⟩ => show win25_1.index t (2 : Fin 3) * 768 + 1 * (y 2).val = (y 2).val; omega

theorem iblk25_2_eq (c : Dev nD) (t : Fin cfg25.N) : (iblk25 V c 2 t : Vec Ideal S1x768 .f32) = blk25_2 V c := by
  obtain ⟨-, -, -, -, -, -, e0, e1, -⟩ := idx_facts25 t
  funext y
  unfold iblk25 blk25_2
  rw [View.read_apply]
  show V c main_v4 _ = V c main_v4 _
  congr 1
  funext a
  apply Fin.ext
  match a with
  | ⟨0, _⟩ => show win25_2.index t (0 : Fin 2) * 1 + 1 * (y 0).val = (y 0).val; omega
  | ⟨1, _⟩ => show win25_2.index t (1 : Fin 2) * 768 + 1 * (y 1).val = (y 1).val; omega

/-- The result array as ONE function of the three arrays the chunk reads: at batch `b`, row `p`, the value the body
    stores for batch `b`'s blocks, read at row `p`. -/
noncomputable def G25 (c : Dev nD) : S4x484x768.Idx → EReal :=
  fun i => stored25 (blk25_0 V c (i 0 : Fin 4)) (blk25_1 V c (i 0 : Fin 4)) (blk25_2 V c) (ix3 (0 : Fin 1) (i 1 : Fin 484) (i 2 : Fin 768))

/-- What point `t` writes back is block `t` of `G25`. -/
theorem flushed25_eq (c : Dev nD) (t : Fin cfg25.N) :
    (dat25 (F := Ideal) V c).flushed 3 t = ((cfg25.win 3).blk t).view.read (Elt Ideal) (G25 V c) := by
  obtain ⟨-, -, -, -, -, -, -, -, e0, e1, e2⟩ := idx_facts25 t
  show (cfg25.win 3).cut (grid25.coords t) ((dat25 (F := Ideal) V c).after 3 t) = _
  rw [after25_3]
  unfold out25_3
  rw [View.canon_unit_zero hzA25]
  simp only [View.ld_unit_zero (S := S1x8x768) hzA25, View.ld_unit_zero (S := S1x64x768) hzA25, View.ld_unit_zero (S := S1x768) hzB25]
  rw [iblk25_0_eq, iblk25_1_eq, iblk25_2_eq]
  funext j
  show stored25 (blk25_0 V c (batch25 t)) (blk25_1 V c (batch25 t)) (blk25_2 V c) j = G25 V c (((cfg25.win 3).blk t).view.emb j)
  have hj0 : (j 0).val < 1 := (j 0).isLt
  have he : ((cfg25.win 3).blk t).view.emb j = (ix3 (batch25 t) (j 1 : Fin 484) (j 2 : Fin 768) : S4x484x768.Idx) := by
    funext a
    apply Fin.ext
    match a with
    | ⟨0, _⟩ => show win25_3.index t (0 : Fin 3) * 1 + 1 * (j 0).val = t.val; omega
    | ⟨1, _⟩ => show win25_3.index t (1 : Fin 3) * 484 + 1 * (j 1).val = (j 1).val; omega
    | ⟨2, _⟩ => show win25_3.index t (2 : Fin 3) * 768 + 1 * (j 2).val = (j 2).val; omega
  rw [he]
  show _ = stored25 (blk25_0 V c (batch25 t)) (blk25_1 V c (batch25 t)) (blk25_2 V c) (ix3 (0 : Fin 1) (j 1 : Fin 484) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk25 (t : Fin cfg25.N) (i : S4x484x768.Idx) :
    i ∈ ((cfg25.win 3).blk t).view.set ↔ ∀ a : Fin 3, win25_3.index t a * S1x484x768.size a ≤ (i a).val ∧ (i a).val < win25_3.index t a * S1x484x768.size a + S1x484x768.size a := by
  show i ∈ ((View.whole main_v78).slice (win25_3.rect t)).set ↔ _
  rw [View.set_slice_whole, Rect.mem_set_unit]
  exact Iff.rfl

/-- Batch `b` of the result is written by point `b`. -/
theorem cover25 (i : S4x484x768.Idx) : ∃ t : Fin cfg25.N, (cfg25.win 3).flush t = true ∧ i ∈ ((cfg25.win 3).blk t).view.set := by
  have hi0 : (i 0).val < 4 := (i 0).isLt
  have hi1 : (i 1).val < 484 := (i 1).isLt
  have hi2 : (i 2).val < 768 := (i 2).isLt
  let t : Fin cfg25.N := ⟨(i 0).val, lt_of_lt_of_eq hi0 N_25.symm⟩
  obtain ⟨-, -, -, -, -, -, -, -, e0, e1, e2⟩ := idx_facts25 t
  refine ⟨t, flush25_3 t, ?_⟩
  rw [mem_blk25]
  intro a
  match a with
  | ⟨0, _⟩ => show win25_3.index t (0 : Fin 3) * 1 ≤ (i 0).val ∧ (i 0).val < win25_3.index t (0 : Fin 3) * 1 + 1; rw [e0]; show (i 0).val * 1 ≤ (i 0).val ∧ (i 0).val < (i 0).val * 1 + 1; omega
  | ⟨1, _⟩ => show win25_3.index t (1 : Fin 3) * 484 ≤ (i 1).val ∧ (i 1).val < win25_3.index t (1 : Fin 3) * 484 + 484; omega
  | ⟨2, _⟩ => show win25_3.index t (2 : Fin 3) * 768 ≤ (i 2).val ∧ (i 2).val < win25_3.index t (2 : Fin 3) * 768 + 768; omega

/-- The result array after the region is `G25`. -/
theorem arr25_eq (c : Dev nD) : (dat25 (F := Ideal) V c).arrAt 3 cfg25.N = G25 V c :=
  (dat25 (F := Ideal) V c).arrAt_eq_of_cover 3 (G25 V c) (fun t _ => flushed25_eq V c t) cover25

/-- The three arrays the chunk reads, at their literal types (so that their entries add as extended reals). -/
abbrev src25_0 (c : Dev nD) : S4x8x768.Idx → EReal := V c main_v76
abbrev src25_1 (c : Dev nD) : S4x64x768.Idx → EReal := V c main_v77
abbrev src25_2 (c : Dev nD) : S1x768.Idx → EReal := V c main_v4

/-- The result array at batch `b`, row `locOff 64 r + d`: the pair of row `r` of the first slice with row `r + d` of
    the second, at batch `b`. -/
theorem final25 (c : Dev nD) (b : Fin 4) (r : Fin 8) (d : ℕ) (q : Fin 64) (hq : q.val = r.val + d)
    (p : Fin 484) (hp : p.val = locOff 64 r.val + d) (o : Fin 768) :
    (dat25 (F := Ideal) V c).arrAt 3 cfg25.N (ix3 b p o)
      = Ideal.tanh ((src25_0 V c (ix3 b r o) + src25_1 V c (ix3 b q o)) + src25_2 V c (ix2 0 o)) := by
  rw [arr25_eq]
  show stored25 (blk25_0 V c b) (blk25_1 V c b) (blk25_2 V c) (ix3 0 p o) = _
  rw [pay25_apply _ _ _ r d q hq p hp o]
  rfl

end Cert.KernelIdeal.Val

end
-- ==== Proof.KI.Case25.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT25
import proofs.«116342_j30605936951494_1_alg».proof.Proof.KI.PayLib

/-!
# Chunk 25 of the triangle: the pairs (i, j) with 192 ≤ i < 192 + 8

The chunk's region reads three arrays: its eight rows 192 … 192 + 7 of the first projection, the rows 192 … 255 of the
second, and the bias row, each cut by the host from what boundary 3 holds. Its result, still in place when the last
stretch reads it, holds at local row `locOff 64 r + d` the value of the pair (192 + r, 192 + r + d). In the packed
order the chunk starts at row 30816 = triOff 192 and the pair (i, j) sits at `triOff i + (j - i)`: with `r = i mod 8` and
`d = j - i` that is row 30816 + (locOff 64 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 64 r + d` holds the pair (192 + r, 192 + r + d). -/
theorem chunk25 (c : Dev nD) (b : Fin 4) (r : Fin 8) (d : ℕ) (hd : r.val + d < 64) (p : Fin 484)
    (hp : p.val = locOff 64 r.val + d) (o : Fin 768) :
    (W66 m ρ c (Proc.devRef .tc main_v78) : Vec Ideal S4x484x768 .f32) (ix3 b p o)
      = Cert.Tri.pairValue (argX m c) (argW m c) (argB m c) b ⟨192 + r.val, by omega⟩ ⟨192 + r.val + d, by omega⟩ o := by
  have e0 : src25_0 (V51 m ρ) c (ix3 b r o)
      = Cert.Tri.proj1 (argX m c) (argW m c) b ⟨192 + r.val, by omega⟩ o :=
    (host25_rows (W50 m ρ c) b r o ⟨192 + r.val, by omega⟩ rfl).trans
      ((congrFun (W50_main_v2 m ρ c) _).trans (p1_W3 m ρ c b _ o))
  have e1 : src25_1 (V51 m ρ) c (ix3 b (⟨r.val + d, hd⟩ : Fin 64) o)
      = Cert.Tri.proj2 (argX m c) (argW m c) b ⟨192 + r.val + d, by omega⟩ o :=
    (host25_pair (W50 m ρ c) b ⟨r.val + d, hd⟩ o ⟨192 + r.val + d, by omega⟩
        (by show 192 + r.val + d = 192 + (r.val + d); omega)).trans
      ((congrFun (W50_main_v3 m ρ c) _).trans (p2_W3 m ρ c b _ o))
  have e2 : src25_2 (V51 m ρ) c (ix2 0 o) = argB m c (ix1 o) :=
    (congrFun (W51_main_v4 m ρ c) _).trans (bias_W3 m ρ c 0 o)
  calc (W66 m ρ c (Proc.devRef .tc main_v78) : Vec Ideal S4x484x768 .f32) (ix3 b p o)
      = ((dat25 (F := Ideal) (V51 m ρ) c).arrAt 3 cfg25.N : Vec Ideal S4x484x768 .f32) (ix3 b p o) :=
        congrFun (out25_final m ρ c) _
    _ = Ideal.tanh ((src25_0 (V51 m ρ) c (ix3 b r o) + src25_1 (V51 m ρ) c (ix3 b (⟨r.val + d, hd⟩ : Fin 64) o))
          + src25_2 (V51 m ρ) c (ix2 0 o)) :=
        final25 (V51 m ρ) c b r d ⟨r.val + d, hd⟩ rfl p hp o
    _ = Cert.Tri.pairValue (argX m c) (argW m c) (argB m c) b ⟨192 + r.val, by omega⟩ ⟨192 + r.val + d, by omega⟩ o := by
        rw [e0, e1, e2]
        rfl

/-- The program's result at the rank of a pair (i, j) of this chunk (`i / 8 = 24`). -/
theorem case25 (c : Dev nD) (b : Fin 4) (i j : Fin 256) (o : Fin 768) (hij : i.val ≤ j.val) (hK : i.val / 8 = 24) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 192 + i.val % 8 = i.val := by omega
  have hj : 192 + i.val % 8 + (j.val - i.val) = j.val := by omega
  have hd : i.val % 8 + (j.val - i.val) < 64 := by have := j.isLt; omega
  have hT : locOff 64 (i.val % 8) + (j.val - i.val) < 484 := by
    have := locOff_add_lt (L := 64) hr (by norm_num) hd
    omega
  have hrank : Cert.Tri.rank i.val j.val = 30816 + (locOff 64 (i.val % 8) + (j.val - i.val)) := by
    have h0 : Cert.Tri.triOff i.val = Cert.Tri.triOff (192 + i.val % 8) := congrArg Cert.Tri.triOff hi.symm
    have h1 : Cert.Tri.triOff (192 + i.val % 8) = Cert.Tri.triOff 192 + locOff 64 (i.val % 8) :=
      triOff_add_locOff 192 (i.val % 8)
    have h2 : Cert.Tri.triOff 192 = 30816 := triOff_chunk_eq 24 192 30816 (by norm_num) rfl rfl
    unfold Cert.Tri.rank
    omega
  refine (out_piece25 (W66 m ρ c) b _ ⟨_, hT⟩ o hrank).trans ?_
  refine (chunk25 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT26.lean ====
/-
  Chunk 26's stored value, read at an index.

  The body stores one value over its whole result block: the eight pieces `tanh ((p₁ row r + p₂ rows r…) + bias)`,
  `r = 0 … 7`, laid one under the other and given a leading unit axis. With 56 rows of the second product in view,
  piece `r` has `56 - r` rows and starts at row `locOff 56 r`. So the stored value at row `locOff 56 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 26 stores, as a function of the three blocks it loads. -/
abbrev stored26 {F : FTy → Type} [FloatOps F] (x0 : Vec F S1x8x768 .f32) (x1 : Vec F S1x56x768 .f32) (x2 : Vec F S1x768 .f32) :
    Vec F S1x420x768 .f32 :=
  k26_pay1 (k26_pay2 x0) (k26_pay3 x1) (k26_pay4 x2) (k26_pay5 x0 x1 x2) (k26_pay6 x0 x1 x2) (k26_pay7 x0 x1 x2) (k26_pay8 x0 x1 x2)
    (k26_pay9 x0 x1 x2) (k26_pay10 x0 x1 x2) (k26_pay11 x0 x1)

/-- The stored value at row `locOff 56 r + d` of its block pairs row `r` of the first block with row `r + d` of the
    second. -/
theorem pay26_apply (x0 : Vec Ideal S1x8x768 .f32) (x1 : Vec Ideal S1x56x768 .f32) (x2 : Vec Ideal S1x768 .f32)
    (r : Fin 8) (d : ℕ) (q : Fin 56) (hq : q.val = r.val + d) (p : Fin 420) (hp : p.val = locOff 56 r.val + d) (o : Fin 768) :
    stored26 x0 x1 x2 (ix3 0 p o) = Ideal.tanh ((x0 (ix3 0 r o) + x1 (ix3 0 q o)) + x2 (ix2 0 o)) := by
  have hql := q.isLt
  unfold stored26 k26_pay1
  refine (shapeCast_ab_1ab_apply _ _ 0 p o).trans ?_
  match r, hq, hp with
  | ⟨0, _⟩, hq, hp =>
    have hq : q.val = 0 + d := hq
    have hp : p.val = locOff 56 0 + d := hp
    have hd : d < 56 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 56 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 56 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 56 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 56 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 56 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 56 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 56 7 + d := hp
    refine (cat8_at7 _ _ _ _ _ _ _ _ _ d (by omega) o p (by simp only [locOff] at hp; omega)).trans ?_
    -- the last piece has 49 rows; a last piece of a single row is stored without broadcasts and has its own lemma
    first
      | have single : (49 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT26.lean ====
/-
  Chunk 26's result array after its region, read at an index.

  The region's grid is the batch: point `t` loads batch `t`'s eight rows of the first product's slice, batch `t`'s 56
  rows of the second product's slice and the bias row, and writes back the whole block `t` of the result. What it
  writes is the body's stored value of those three blocks. So the result array is ONE function of the three arrays it
  reads — at batch `b`, row `p`: the stored value of batch `b`'s blocks at row `p` (`G26`) —, every point writes its
  block of that function (`flushed26_eq`), the four blocks cover the array (`cover26`), hence the array ends as that
  function (`arr26_eq`); and at row `locOff 56 r + d` the stored value is the pair of row `r` with row `r + d`
  (`final26`).
-/
import proofs.«116342_j30605936951494_1_alg».proof.Proof.KI.Reg26
import proofs.«116342_j30605936951494_1_alg».proof.Proof.KI.PayT26
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA26 : (![0, 0, 0] : Fin 3 → Nat) = fun _ => 0 := funext fun a => by fin_cases a <;> rfl
theorem hzB26 : (![0, 0] : Fin 2 → Nat) = fun _ => 0 := funext fun a => by fin_cases a <;> rfl

/-- The grid is the batch: point `t` works on batch `t`. -/
noncomputable def batch26 (t : Fin cfg26.N) : Fin 4 := ⟨t.val, lt_of_lt_of_eq t.isLt N_26⟩

/-- The printed index maps, decided over the four points: the three batched windows sit at block `(t, 0, 0)`, the bias
    row at its one block. -/
theorem idx_facts26 : ∀ t : Fin cfg26.N,
    win26_0.index t (0 : Fin 3) = t.val ∧ win26_0.index t (1 : Fin 3) = 0 ∧ win26_0.index t (2 : Fin 3) = 0
    ∧ win26_1.index t (0 : Fin 3) = t.val ∧ win26_1.index t (1 : Fin 3) = 0 ∧ win26_1.index t (2 : Fin 3) = 0
    ∧ win26_2.index t (0 : Fin 2) = 0 ∧ win26_2.index t (1 : Fin 2) = 0
    ∧ win26_3.index t (0 : Fin 3) = t.val ∧ win26_3.index t (1 : Fin 3) = 0 ∧ win26_3.index t (2 : Fin 3) = 0 :=
  (by decide +kernel : ∀ t : Fin grid26.N, _)

/-- Batch `b`'s eight rows of the first product's slice, as a block. -/
noncomputable def blk26_0 (c : Dev nD) (b : Fin 4) : Vec Ideal S1x8x768 .f32 :=
  fun y => (V c main_v79 : S4x8x768.Idx → EReal) (ix3 b (y 1 : Fin 8) (y 2 : Fin 768))
/-- Batch `b`'s 56 rows of the second product's slice, as a block. -/
noncomputable def blk26_1 (c : Dev nD) (b : Fin 4) : Vec Ideal S1x56x768 .f32 :=
  fun y => (V c main_v80 : S4x56x768.Idx → EReal) (ix3 b (y 1 : Fin 56) (y 2 : Fin 768))
/-- The bias row. -/
noncomputable def blk26_2 (c : Dev nD) : Vec Ideal S1x768 .f32 := fun y => (V c main_v4 : S1x768.Idx → EReal) y

theorem iblk26_0_eq (c : Dev nD) (t : Fin cfg26.N) : (iblk26 V c 0 t : Vec Ideal S1x8x768 .f32) = blk26_0 V c (batch26 t) := by
  obtain ⟨e0, e1, e2, -⟩ := idx_facts26 t
  funext y
  unfold iblk26 blk26_0
  rw [View.read_apply]
  show V c main_v79 _ = V c main_v79 _
  congr 1
  funext a
  apply Fin.ext
  match a with
  | ⟨0, _⟩ => show win26_0.index t (0 : Fin 3) * 1 + 1 * (y 0).val = t.val; have hy : (y 0).val < 1 := (y 0).isLt; omega
  | ⟨1, _⟩ => show win26_0.index t (1 : Fin 3) * 8 + 1 * (y 1).val = (y 1).val; omega
  | ⟨2, _⟩ => show win26_0.index t (2 : Fin 3) * 768 + 1 * (y 2).val = (y 2).val; omega

theorem iblk26_1_eq (c : Dev nD) (t : Fin cfg26.N) : (iblk26 V c 1 t : Vec Ideal S1x56x768 .f32) = blk26_1 V c (batch26 t) := by
  obtain ⟨-, -, -, e0, e1, e2, -⟩ := idx_facts26 t
  funext y
  unfold iblk26 blk26_1
  rw [View.read_apply]
  show V c main_v80 _ = V c main_v80 _
  congr 1
  funext a
  apply Fin.ext
  match a with
  | ⟨0, _⟩ => show win26_1.index t (0 : Fin 3) * 1 + 1 * (y 0).val = t.val; have hy : (y 0).val < 1 := (y 0).isLt; omega
  | ⟨1, _⟩ => show win26_1.index t (1 : Fin 3) * 56 + 1 * (y 1).val = (y 1).val; omega
  | ⟨2, _⟩ => show win26_1.index t (2 : Fin 3) * 768 + 1 * (y 2).val = (y 2).val; omega

theorem iblk26_2_eq (c : Dev nD) (t : Fin cfg26.N) : (iblk26 V c 2 t : Vec Ideal S1x768 .f32) = blk26_2 V c := by
  obtain ⟨-, -, -, -, -, -, e0, e1, -⟩ := idx_facts26 t
  funext y
  unfold iblk26 blk26_2
  rw [View.read_apply]
  show V c main_v4 _ = V c main_v4 _
  congr 1
  funext a
  apply Fin.ext
  match a with
  | ⟨0, _⟩ => show win26_2.index t (0 : Fin 2) * 1 + 1 * (y 0).val = (y 0).val; omega
  | ⟨1, _⟩ => show win26_2.index t (1 : Fin 2) * 768 + 1 * (y 1).val = (y 1).val; omega

/-- The result array as ONE function of the three arrays the chunk reads: at batch `b`, row `p`, the value the body
    stores for batch `b`'s blocks, read at row `p`. -/
noncomputable def G26 (c : Dev nD) : S4x420x768.Idx → EReal :=
  fun i => stored26 (blk26_0 V c (i 0 : Fin 4)) (blk26_1 V c (i 0 : Fin 4)) (blk26_2 V c) (ix3 (0 : Fin 1) (i 1 : Fin 420) (i 2 : Fin 768))

/-- What point `t` writes back is block `t` of `G26`. -/
theorem flushed26_eq (c : Dev nD) (t : Fin cfg26.N) :
    (dat26 (F := Ideal) V c).flushed 3 t = ((cfg26.win 3).blk t).view.read (Elt Ideal) (G26 V c) := by
  obtain ⟨-, -, -, -, -, -, -, -, e0, e1, e2⟩ := idx_facts26 t
  show (cfg26.win 3).cut (grid26.coords t) ((dat26 (F := Ideal) V c).after 3 t) = _
  rw [after26_3]
  unfold out26_3
  rw [View.canon_unit_zero hzA26]
  simp only [View.ld_unit_zero (S := S1x8x768) hzA26, View.ld_unit_zero (S := S1x56x768) hzA26, View.ld_unit_zero (S := S1x768) hzB26]
  rw [iblk26_0_eq, iblk26_1_eq, iblk26_2_eq]
  funext j
  show stored26 (blk26_0 V c (batch26 t)) (blk26_1 V c (batch26 t)) (blk26_2 V c) j = G26 V c (((cfg26.win 3).blk t).view.emb j)
  have hj0 : (j 0).val < 1 := (j 0).isLt
  have he : ((cfg26.win 3).blk t).view.emb j = (ix3 (batch26 t) (j 1 : Fin 420) (j 2 : Fin 768) : S4x420x768.Idx) := by
    funext a
    apply Fin.ext
    match a with
    | ⟨0, _⟩ => show win26_3.index t (0 : Fin 3) * 1 + 1 * (j 0).val = t.val; omega
    | ⟨1, _⟩ => show win26_3.index t (1 : Fin 3) * 420 + 1 * (j 1).val = (j 1).val; omega
    | ⟨2, _⟩ => show win26_3.index t (2 : Fin 3) * 768 + 1 * (j 2).val = (j 2).val; omega
  rw [he]
  show _ = stored26 (blk26_0 V c (batch26 t)) (blk26_1 V c (batch26 t)) (blk26_2 V c) (ix3 (0 : Fin 1) (j 1 : Fin 420) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk26 (t : Fin cfg26.N) (i : S4x420x768.Idx) :
    i ∈ ((cfg26.win 3).blk t).view.set ↔ ∀ a : Fin 3, win26_3.index t a * S1x420x768.size a ≤ (i a).val ∧ (i a).val < win26_3.index t a * S1x420x768.size a + S1x420x768.size a := by
  show i ∈ ((View.whole main_v81).slice (win26_3.rect t)).set ↔ _
  rw [View.set_slice_whole, Rect.mem_set_unit]
  exact Iff.rfl

/-- Batch `b` of the result is written by point `b`. -/
theorem cover26 (i : S4x420x768.Idx) : ∃ t : Fin cfg26.N, (cfg26.win 3).flush t = true ∧ i ∈ ((cfg26.win 3).blk t).view.set := by
  have hi0 : (i 0).val < 4 := (i 0).isLt
  have hi1 : (i 1).val < 420 := (i 1).isLt
  have hi2 : (i 2).val < 768 := (i 2).isLt
  let t : Fin cfg26.N := ⟨(i 0).val, lt_of_lt_of_eq hi0 N_26.symm⟩
  obtain ⟨-, -, -, -, -, -, -, -, e0, e1, e2⟩ := idx_facts26 t
  refine ⟨t, flush26_3 t, ?_⟩
  rw [mem_blk26]
  intro a
  match a with
  | ⟨0, _⟩ => show win26_3.index t (0 : Fin 3) * 1 ≤ (i 0).val ∧ (i 0).val < win26_3.index t (0 : Fin 3) * 1 + 1; rw [e0]; show (i 0).val * 1 ≤ (i 0).val ∧ (i 0).val < (i 0).val * 1 + 1; omega
  | ⟨1, _⟩ => show win26_3.index t (1 : Fin 3) * 420 ≤ (i 1).val ∧ (i 1).val < win26_3.index t (1 : Fin 3) * 420 + 420; omega
  | ⟨2, _⟩ => show win26_3.index t (2 : Fin 3) * 768 ≤ (i 2).val ∧ (i 2).val < win26_3.index t (2 : Fin 3) * 768 + 768; omega

/-- The result array after the region is `G26`. -/
theorem arr26_eq (c : Dev nD) : (dat26 (F := Ideal) V c).arrAt 3 cfg26.N = G26 V c :=
  (dat26 (F := Ideal) V c).arrAt_eq_of_cover 3 (G26 V c) (fun t _ => flushed26_eq V c t) cover26

/-- The three arrays the chunk reads, at their literal types (so that their entries add as extended reals). -/
abbrev src26_0 (c : Dev nD) : S4x8x768.Idx → EReal := V c main_v79
abbrev src26_1 (c : Dev nD) : S4x56x768.Idx → EReal := V c main_v80
abbrev src26_2 (c : Dev nD) : S1x768.Idx → EReal := V c main_v4

/-- The result array at batch `b`, row `locOff 56 r + d`: the pair of row `r` of the first slice with row `r + d` of
    the second, at batch `b`. -/
theorem final26 (c : Dev nD) (b : Fin 4) (r : Fin 8) (d : ℕ) (q : Fin 56) (hq : q.val = r.val + d)
    (p : Fin 420) (hp : p.val = locOff 56 r.val + d) (o : Fin 768) :
    (dat26 (F := Ideal) V c).arrAt 3 cfg26.N (ix3 b p o)
      = Ideal.tanh ((src26_0 V c (ix3 b r o) + src26_1 V c (ix3 b q o)) + src26_2 V c (ix2 0 o)) := by
  rw [arr26_eq]
  show stored26 (blk26_0 V c b) (blk26_1 V c b) (blk26_2 V c) (ix3 0 p o) = _
  rw [pay26_apply _ _ _ r d q hq p hp o]
  rfl

end Cert.KernelIdeal.Val

end
-- ==== Proof.KI.Case26.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT26
import proofs.«116342_j30605936951494_1_alg».proof.Proof.KI.PayLib

/-!
# Chunk 26 of the triangle: the pairs (i, j) with 200 ≤ i < 200 + 8

The chunk's region reads three arrays: its eight rows 200 … 200 + 7 of the first projection, the rows 200 … 255 of the
second, and the bias row, each cut by the host from what boundary 3 holds. Its result, still in place when the last
stretch reads it, holds at local row `locOff 56 r + d` the value of the pair (200 + r, 200 + r + d). In the packed
order the chunk starts at row 31300 = triOff 200 and the pair (i, j) sits at `triOff i + (j - i)`: with `r = i mod 8` and
`d = j - i` that is row 31300 + (locOff 56 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 56 r + d` holds the pair (200 + r, 200 + r + d). -/
theorem chunk26 (c : Dev nD) (b : Fin 4) (r : Fin 8) (d : ℕ) (hd : r.val + d < 56) (p : Fin 420)
    (hp : p.val = locOff 56 r.val + d) (o : Fin 768) :
    (W66 m ρ c (Proc.devRef .tc main_v81) : Vec Ideal S4x420x768 .f32) (ix3 b p o)
      = Cert.Tri.pairValue (argX m c) (argW m c) (argB m c) b ⟨200 + r.val, by omega⟩ ⟨200 + r.val + d, by omega⟩ o := by
  have e0 : src26_0 (V53 m ρ) c (ix3 b r o)
      = Cert.Tri.proj1 (argX m c) (argW m c) b ⟨200 + r.val, by omega⟩ o :=
    (host26_rows (W52 m ρ c) b r o ⟨200 + r.val, by omega⟩ rfl).trans
      ((congrFun (W52_main_v2 m ρ c) _).trans (p1_W3 m ρ c b _ o))
  have e1 : src26_1 (V53 m ρ) c (ix3 b (⟨r.val + d, hd⟩ : Fin 56) o)
      = Cert.Tri.proj2 (argX m c) (argW m c) b ⟨200 + r.val + d, by omega⟩ o :=
    (host26_pair (W52 m ρ c) b ⟨r.val + d, hd⟩ o ⟨200 + r.val + d, by omega⟩
        (by show 200 + r.val + d = 200 + (r.val + d); omega)).trans
      ((congrFun (W52_main_v3 m ρ c) _).trans (p2_W3 m ρ c b _ o))
  have e2 : src26_2 (V53 m ρ) c (ix2 0 o) = argB m c (ix1 o) :=
    (congrFun (W53_main_v4 m ρ c) _).trans (bias_W3 m ρ c 0 o)
  calc (W66 m ρ c (Proc.devRef .tc main_v81) : Vec Ideal S4x420x768 .f32) (ix3 b p o)
      = ((dat26 (F := Ideal) (V53 m ρ) c).arrAt 3 cfg26.N : Vec Ideal S4x420x768 .f32) (ix3 b p o) :=
        congrFun (out26_final m ρ c) _
    _ = Ideal.tanh ((src26_0 (V53 m ρ) c (ix3 b r o) + src26_1 (V53 m ρ) c (ix3 b (⟨r.val + d, hd⟩ : Fin 56) o))
          + src26_2 (V53 m ρ) c (ix2 0 o)) :=
        final26 (V53 m ρ) c b r d ⟨r.val + d, hd⟩ rfl p hp o
    _ = Cert.Tri.pairValue (argX m c) (argW m c) (argB m c) b ⟨200 + r.val, by omega⟩ ⟨200 + r.val + d, by omega⟩ o := by
        rw [e0, e1, e2]
        rfl

/-- The program's result at the rank of a pair (i, j) of this chunk (`i / 8 = 25`). -/
theorem case26 (c : Dev nD) (b : Fin 4) (i j : Fin 256) (o : Fin 768) (hij : i.val ≤ j.val) (hK : i.val / 8 = 25) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 200 + i.val % 8 = i.val := by omega
  have hj : 200 + i.val % 8 + (j.val - i.val) = j.val := by omega
  have hd : i.val % 8 + (j.val - i.val) < 56 := by have := j.isLt; omega
  have hT : locOff 56 (i.val % 8) + (j.val - i.val) < 420 := by
    have := locOff_add_lt (L := 56) hr (by norm_num) hd
    omega
  have hrank : Cert.Tri.rank i.val j.val = 31300 + (locOff 56 (i.val % 8) + (j.val - i.val)) := by
    have h0 : Cert.Tri.triOff i.val = Cert.Tri.triOff (200 + i.val % 8) := congrArg Cert.Tri.triOff hi.symm
    have h1 : Cert.Tri.triOff (200 + i.val % 8) = Cert.Tri.triOff 200 + locOff 56 (i.val % 8) :=
      triOff_add_locOff 200 (i.val % 8)
    have h2 : Cert.Tri.triOff 200 = 31300 := triOff_chunk_eq 25 200 31300 (by norm_num) rfl rfl
    unfold Cert.Tri.rank
    omega
  refine (out_piece26 (W66 m ρ c) b _ ⟨_, hT⟩ o hrank).trans ?_
  refine (chunk26 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT27.lean ====
/-
  Chunk 27's stored value, read at an index.

  The body stores one value over its whole result block: the eight pieces `tanh ((p₁ row r + p₂ rows r…) + bias)`,
  `r = 0 … 7`, laid one under the other and given a leading unit axis. With 48 rows of the second product in view,
  piece `r` has `48 - r` rows and starts at row `locOff 48 r`. So the stored value at row `locOff 48 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 27 stores, as a function of the three blocks it loads. -/
abbrev stored27 {F : FTy → Type} [FloatOps F] (x0 : Vec F S1x8x768 .f32) (x1 : Vec F S1x48x768 .f32) (x2 : Vec F S1x768 .f32) :
    Vec F S1x356x768 .f32 :=
  k27_pay1 (k27_pay2 x0) (k27_pay3 x1) (k27_pay4 x2) (k27_pay5 x0 x1 x2) (k27_pay6 x0 x1 x2) (k27_pay7 x0 x1 x2) (k27_pay8 x0 x1 x2)
    (k27_pay9 x0 x1 x2) (k27_pay10 x0 x1 x2) (k27_pay11 x0 x1)

/-- The stored value at row `locOff 48 r + d` of its block pairs row `r` of the first block with row `r + d` of the
    second. -/
theorem pay27_apply (x0 : Vec Ideal S1x8x768 .f32) (x1 : Vec Ideal S1x48x768 .f32) (x2 : Vec Ideal S1x768 .f32)
    (r : Fin 8) (d : ℕ) (q : Fin 48) (hq : q.val = r.val + d) (p : Fin 356) (hp : p.val = locOff 48 r.val + d) (o : Fin 768) :
    stored27 x0 x1 x2 (ix3 0 p o) = Ideal.tanh ((x0 (ix3 0 r o) + x1 (ix3 0 q o)) + x2 (ix2 0 o)) := by
  have hql := q.isLt
  unfold stored27 k27_pay1
  refine (shapeCast_ab_1ab_apply _ _ 0 p o).trans ?_
  match r, hq, hp with
  | ⟨0, _⟩, hq, hp =>
    have hq : q.val = 0 + d := hq
    have hp : p.val = locOff 48 0 + d := hp
    have hd : d < 48 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 48 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 48 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 48 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 48 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 48 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 48 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 48 7 + d := hp
    refine (cat8_at7 _ _ _ _ _ _ _ _ _ d (by omega) o p (by simp only [locOff] at hp; omega)).trans ?_
    -- the last piece has 41 rows; a last piece of a single row is stored without broadcasts and has its own lemma
    first
      | have single : (41 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT27.lean ====
/-
  Chunk 27's result array after its region, read at an index.

  The region's grid is the batch: point `t` loads batch `t`'s eight rows of the first product's slice, batch `t`'s 48
  rows of the second product's slice and the bias row, and writes back the whole block `t` of the result. What it
  writes is the body's stored value of those three blocks. So the result array is ONE function of the three arrays it
  reads — at batch `b`, row `p`: the stored value of batch `b`'s blocks at row `p` (`G27`) —, every point writes its
  block of that function (`flushed27_eq`), the four blocks cover the array (`cover27`), hence the array ends as that
  function (`arr27_eq`); and at row `locOff 48 r + d` the stored value is the pair of row `r` with row `r + d`
  (`final27`).
-/
import proofs.«116342_j30605936951494_1_alg».proof.Proof.KI.Reg27
import proofs.«116342_j30605936951494_1_alg».proof.Proof.KI.PayT27
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA27 : (![0, 0, 0] : Fin 3 → Nat) = fun _ => 0 := funext fun a => by fin_cases a <;> rfl
theorem hzB27 : (![0, 0] : Fin 2 → Nat) = fun _ => 0 := funext fun a => by fin_cases a <;> rfl

/-- The grid is the batch: point `t` works on batch `t`. -/
noncomputable def batch27 (t : Fin cfg27.N) : Fin 4 := ⟨t.val, lt_of_lt_of_eq t.isLt N_27⟩

/-- The printed index maps, decided over the four points: the three batched windows sit at block `(t, 0, 0)`, the bias
    row at its one block. -/
theorem idx_facts27 : ∀ t : Fin cfg27.N,
    win27_0.index t (0 : Fin 3) = t.val ∧ win27_0.index t (1 : Fin 3) = 0 ∧ win27_0.index t (2 : Fin 3) = 0
    ∧ win27_1.index t (0 : Fin 3) = t.val ∧ win27_1.index t (1 : Fin 3) = 0 ∧ win27_1.index t (2 : Fin 3) = 0
    ∧ win27_2.index t (0 : Fin 2) = 0 ∧ win27_2.index t (1 : Fin 2) = 0
    ∧ win27_3.index t (0 : Fin 3) = t.val ∧ win27_3.index t (1 : Fin 3) = 0 ∧ win27_3.index t (2 : Fin 3) = 0 :=
  (by decide +kernel : ∀ t : Fin grid27.N, _)

/-- Batch `b`'s eight rows of the first product's slice, as a block. -/
noncomputable def blk27_0 (c : Dev nD) (b : Fin 4) : Vec Ideal S1x8x768 .f32 :=
  fun y => (V c main_v82 : S4x8x768.Idx → EReal) (ix3 b (y 1 : Fin 8) (y 2 : Fin 768))
/-- Batch `b`'s 48 rows of the second product's slice, as a block. -/
noncomputable def blk27_1 (c : Dev nD) (b : Fin 4) : Vec Ideal S1x48x768 .f32 :=
  fun y => (V c main_v83 : S4x48x768.Idx → EReal) (ix3 b (y 1 : Fin 48) (y 2 : Fin 768))
/-- The bias row. -/
noncomputable def blk27_2 (c : Dev nD) : Vec Ideal S1x768 .f32 := fun y => (V c main_v4 : S1x768.Idx → EReal) y

theorem iblk27_0_eq (c : Dev nD) (t : Fin cfg27.N) : (iblk27 V c 0 t : Vec Ideal S1x8x768 .f32) = blk27_0 V c (batch27 t) := by
  obtain ⟨e0, e1, e2, -⟩ := idx_facts27 t
  funext y
  unfold iblk27 blk27_0
  rw [View.read_apply]
  show V c main_v82 _ = V c main_v82 _
  congr 1
  funext a
  apply Fin.ext
  match a with
  | ⟨0, _⟩ => show win27_0.index t (0 : Fin 3) * 1 + 1 * (y 0).val = t.val; have hy : (y 0).val < 1 := (y 0).isLt; omega
  | ⟨1, _⟩ => show win27_0.index t (1 : Fin 3) * 8 + 1 * (y 1).val = (y 1).val; omega
  | ⟨2, _⟩ => show win27_0.index t (2 : Fin 3) * 768 + 1 * (y 2).val = (y 2).val; omega

theorem iblk27_1_eq (c : Dev nD) (t : Fin cfg27.N) : (iblk27 V c 1 t : Vec Ideal S1x48x768 .f32) = blk27_1 V c (batch27 t) := by
  obtain ⟨-, -, -, e0, e1, e2, -⟩ := idx_facts27 t
  funext y
  unfold iblk27 blk27_1
  rw [View.read_apply]
  show V c main_v83 _ = V c main_v83 _
  congr 1
  funext a
  apply Fin.ext
  match a with
  | ⟨0, _⟩ => show win27_1.index t (0 : Fin 3) * 1 + 1 * (y 0).val = t.val; have hy : (y 0).val < 1 := (y 0).isLt; omega
  | ⟨1, _⟩ => show win27_1.index t (1 : Fin 3) * 48 + 1 * (y 1).val = (y 1).val; omega
  | ⟨2, _⟩ => show win27_1.index t (2 : Fin 3) * 768 + 1 * (y 2).val = (y 2).val; omega

theorem iblk27_2_eq (c : Dev nD) (t : Fin cfg27.N) : (iblk27 V c 2 t : Vec Ideal S1x768 .f32) = blk27_2 V c := by
  obtain ⟨-, -, -, -, -, -, e0, e1, -⟩ := idx_facts27 t
  funext y
  unfold iblk27 blk27_2
  rw [View.read_apply]
  show V c main_v4 _ = V c main_v4 _
  congr 1
  funext a
  apply Fin.ext
  match a with
  | ⟨0, _⟩ => show win27_2.index t (0 : Fin 2) * 1 + 1 * (y 0).val = (y 0).val; omega
  | ⟨1, _⟩ => show win27_2.index t (1 : Fin 2) * 768 + 1 * (y 1).val = (y 1).val; omega

/-- The result array as ONE function of the three arrays the chunk reads: at batch `b`, row `p`, the value the body
    stores for batch `b`'s blocks, read at row `p`. -/
noncomputable def G27 (c : Dev nD) : S4x356x768.Idx → EReal :=
  fun i => stored27 (blk27_0 V c (i 0 : Fin 4)) (blk27_1 V c (i 0 : Fin 4)) (blk27_2 V c) (ix3 (0 : Fin 1) (i 1 : Fin 356) (i 2 : Fin 768))

/-- What point `t` writes back is block `t` of `G27`. -/
theorem flushed27_eq (c : Dev nD) (t : Fin cfg27.N) :
    (dat27 (F := Ideal) V c).flushed 3 t = ((cfg27.win 3).blk t).view.read (Elt Ideal) (G27 V c) := by
  obtain ⟨-, -, -, -, -, -, -, -, e0, e1, e2⟩ := idx_facts27 t
  show (cfg27.win 3).cut (grid27.coords t) ((dat27 (F := Ideal) V c).after 3 t) = _
  rw [after27_3]
  unfold out27_3
  rw [View.canon_unit_zero hzA27]
  simp only [View.ld_unit_zero (S := S1x8x768) hzA27, View.ld_unit_zero (S := S1x48x768) hzA27, View.ld_unit_zero (S := S1x768) hzB27]
  rw [iblk27_0_eq, iblk27_1_eq, iblk27_2_eq]
  funext j
  show stored27 (blk27_0 V c (batch27 t)) (blk27_1 V c (batch27 t)) (blk27_2 V c) j = G27 V c (((cfg27.win 3).blk t).view.emb j)
  have hj0 : (j 0).val < 1 := (j 0).isLt
  have he : ((cfg27.win 3).blk t).view.emb j = (ix3 (batch27 t) (j 1 : Fin 356) (j 2 : Fin 768) : S4x356x768.Idx) := by
    funext a
    apply Fin.ext
    match a with
    | ⟨0, _⟩ => show win27_3.index t (0 : Fin 3) * 1 + 1 * (j 0).val = t.val; omega
    | ⟨1, _⟩ => show win27_3.index t (1 : Fin 3) * 356 + 1 * (j 1).val = (j 1).val; omega
    | ⟨2, _⟩ => show win27_3.index t (2 : Fin 3) * 768 + 1 * (j 2).val = (j 2).val; omega
  rw [he]
  show _ = stored27 (blk27_0 V c (batch27 t)) (blk27_1 V c (batch27 t)) (blk27_2 V c) (ix3 (0 : Fin 1) (j 1 : Fin 356) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk27 (t : Fin cfg27.N) (i : S4x356x768.Idx) :
    i ∈ ((cfg27.win 3).blk t).view.set ↔ ∀ a : Fin 3, win27_3.index t a * S1x356x768.size a ≤ (i a).val ∧ (i a).val < win27_3.index t a * S1x356x768.size a + S1x356x768.size a := by
  show i ∈ ((View.whole main_v84).slice (win27_3.rect t)).set ↔ _
  rw [View.set_slice_whole, Rect.mem_set_unit]
  exact Iff.rfl

/-- Batch `b` of the result is written by point `b`. -/
theorem cover27 (i : S4x356x768.Idx) : ∃ t : Fin cfg27.N, (cfg27.win 3).flush t = true ∧ i ∈ ((cfg27.win 3).blk t).view.set := by
  have hi0 : (i 0).val < 4 := (i 0).isLt
  have hi1 : (i 1).val < 356 := (i 1).isLt
  have hi2 : (i 2).val < 768 := (i 2).isLt
  let t : Fin cfg27.N := ⟨(i 0).val, lt_of_lt_of_eq hi0 N_27.symm⟩
  obtain ⟨-, -, -, -, -, -, -, -, e0, e1, e2⟩ := idx_facts27 t
  refine ⟨t, flush27_3 t, ?_⟩
  rw [mem_blk27]
  intro a
  match a with
  | ⟨0, _⟩ => show win27_3.index t (0 : Fin 3) * 1 ≤ (i 0).val ∧ (i 0).val < win27_3.index t (0 : Fin 3) * 1 + 1; rw [e0]; show (i 0).val * 1 ≤ (i 0).val ∧ (i 0).val < (i 0).val * 1 + 1; omega
  | ⟨1, _⟩ => show win27_3.index t (1 : Fin 3) * 356 ≤ (i 1).val ∧ (i 1).val < win27_3.index t (1 : Fin 3) * 356 + 356; omega
  | ⟨2, _⟩ => show win27_3.index t (2 : Fin 3) * 768 ≤ (i 2).val ∧ (i 2).val < win27_3.index t (2 : Fin 3) * 768 + 768; omega

/-- The result array after the region is `G27`. -/
theorem arr27_eq (c : Dev nD) : (dat27 (F := Ideal) V c).arrAt 3 cfg27.N = G27 V c :=
  (dat27 (F := Ideal) V c).arrAt_eq_of_cover 3 (G27 V c) (fun t _ => flushed27_eq V c t) cover27

/-- The three arrays the chunk reads, at their literal types (so that their entries add as extended reals). -/
abbrev src27_0 (c : Dev nD) : S4x8x768.Idx → EReal := V c main_v82
abbrev src27_1 (c : Dev nD) : S4x48x768.Idx → EReal := V c main_v83
abbrev src27_2 (c : Dev nD) : S1x768.Idx → EReal := V c main_v4

/-- The result array at batch `b`, row `locOff 48 r + d`: the pair of row `r` of the first slice with row `r + d` of
    the second, at batch `b`. -/
theorem final27 (c : Dev nD) (b : Fin 4) (r : Fin 8) (d : ℕ) (q : Fin 48) (hq : q.val = r.val + d)
    (p : Fin 356) (hp : p.val = locOff 48 r.val + d) (o : Fin 768) :
    (dat27 (F := Ideal) V c).arrAt 3 cfg27.N (ix3 b p o)
      = Ideal.tanh ((src27_0 V c (ix3 b r o) + src27_1 V c (ix3 b q o)) + src27_2 V c (ix2 0 o)) := by
  rw [arr27_eq]
  show stored27 (blk27_0 V c b) (blk27_1 V c b) (blk27_2 V c) (ix3 0 p o) = _
  rw [pay27_apply _ _ _ r d q hq p hp o]
  rfl

end Cert.KernelIdeal.Val

end
-- ==== Proof.KI.Case27.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT27
import proofs.«116342_j30605936951494_1_alg».proof.Proof.KI.PayLib

/-!
# Chunk 27 of the triangle: the pairs (i, j) with 208 ≤ i < 208 + 8

The chunk's region reads three arrays: its eight rows 208 … 208 + 7 of the first projection, the rows 208 … 255 of the
second, and the bias row, each cut by the host from what boundary 3 holds. Its result, still in place when the last
stretch reads it, holds at local row `locOff 48 r + d` the value of the pair (208 + r, 208 + r + d). In the packed
order the chunk starts at row 31720 = triOff 208 and the pair (i, j) sits at `triOff i + (j - i)`: with `r = i mod 8` and
`d = j - i` that is row 31720 + (locOff 48 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 48 r + d` holds the pair (208 + r, 208 + r + d). -/
theorem chunk27 (c : Dev nD) (b : Fin 4) (r : Fin 8) (d : ℕ) (hd : r.val + d < 48) (p : Fin 356)
    (hp : p.val = locOff 48 r.val + d) (o : Fin 768) :
    (W66 m ρ c (Proc.devRef .tc main_v84) : Vec Ideal S4x356x768 .f32) (ix3 b p o)
      = Cert.Tri.pairValue (argX m c) (argW m c) (argB m c) b ⟨208 + r.val, by omega⟩ ⟨208 + r.val + d, by omega⟩ o := by
  have e0 : src27_0 (V55 m ρ) c (ix3 b r o)
      = Cert.Tri.proj1 (argX m c) (argW m c) b ⟨208 + r.val, by omega⟩ o :=
    (host27_rows (W54 m ρ c) b r o ⟨208 + r.val, by omega⟩ rfl).trans
      ((congrFun (W54_main_v2 m ρ c) _).trans (p1_W3 m ρ c b _ o))
  have e1 : src27_1 (V55 m ρ) c (ix3 b (⟨r.val + d, hd⟩ : Fin 48) o)
      = Cert.Tri.proj2 (argX m c) (argW m c) b ⟨208 + r.val + d, by omega⟩ o :=
    (host27_pair (W54 m ρ c) b ⟨r.val + d, hd⟩ o ⟨208 + r.val + d, by omega⟩
        (by show 208 + r.val + d = 208 + (r.val + d); omega)).trans
      ((congrFun (W54_main_v3 m ρ c) _).trans (p2_W3 m ρ c b _ o))
  have e2 : src27_2 (V55 m ρ) c (ix2 0 o) = argB m c (ix1 o) :=
    (congrFun (W55_main_v4 m ρ c) _).trans (bias_W3 m ρ c 0 o)
  calc (W66 m ρ c (Proc.devRef .tc main_v84) : Vec Ideal S4x356x768 .f32) (ix3 b p o)
      = ((dat27 (F := Ideal) (V55 m ρ) c).arrAt 3 cfg27.N : Vec Ideal S4x356x768 .f32) (ix3 b p o) :=
        congrFun (out27_final m ρ c) _
    _ = Ideal.tanh ((src27_0 (V55 m ρ) c (ix3 b r o) + src27_1 (V55 m ρ) c (ix3 b (⟨r.val + d, hd⟩ : Fin 48) o))
          + src27_2 (V55 m ρ) c (ix2 0 o)) :=
        final27 (V55 m ρ) c b r d ⟨r.val + d, hd⟩ rfl p hp o
    _ = Cert.Tri.pairValue (argX m c) (argW m c) (argB m c) b ⟨208 + r.val, by omega⟩ ⟨208 + r.val + d, by omega⟩ o := by
        rw [e0, e1, e2]
        rfl

/-- The program's result at the rank of a pair (i, j) of this chunk (`i / 8 = 26`). -/
theorem case27 (c : Dev nD) (b : Fin 4) (i j : Fin 256) (o : Fin 768) (hij : i.val ≤ j.val) (hK : i.val / 8 = 26) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 208 + i.val % 8 = i.val := by omega
  have hj : 208 + i.val % 8 + (j.val - i.val) = j.val := by omega
  have hd : i.val % 8 + (j.val - i.val) < 48 := by have := j.isLt; omega
  have hT : locOff 48 (i.val % 8) + (j.val - i.val) < 356 := by
    have := locOff_add_lt (L := 48) hr (by norm_num) hd
    omega
  have hrank : Cert.Tri.rank i.val j.val = 31720 + (locOff 48 (i.val % 8) + (j.val - i.val)) := by
    have h0 : Cert.Tri.triOff i.val = Cert.Tri.triOff (208 + i.val % 8) := congrArg Cert.Tri.triOff hi.symm
    have h1 : Cert.Tri.triOff (208 + i.val % 8) = Cert.Tri.triOff 208 + locOff 48 (i.val % 8) :=
      triOff_add_locOff 208 (i.val % 8)
    have h2 : Cert.Tri.triOff 208 = 31720 := triOff_chunk_eq 26 208 31720 (by norm_num) rfl rfl
    unfold Cert.Tri.rank
    omega
  refine (out_piece27 (W66 m ρ c) b _ ⟨_, hT⟩ o hrank).trans ?_
  refine (chunk27 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT28.lean ====
/-
  Chunk 28's stored value, read at an index.

  The body stores one value over its whole result block: the eight pieces `tanh ((p₁ row r + p₂ rows r…) + bias)`,
  `r = 0 … 7`, laid one under the other and given a leading unit axis. With 40 rows of the second product in view,
  piece `r` has `40 - r` rows and starts at row `locOff 40 r`. So the stored value at row `locOff 40 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 28 stores, as a function of the three blocks it loads. -/
abbrev stored28 {F : FTy → Type} [FloatOps F] (x0 : Vec F S1x8x768 .f32) (x1 : Vec F S1x40x768 .f32) (x2 : Vec F S1x768 .f32) :
    Vec F S1x292x768 .f32 :=
  k28_pay1 (k28_pay2 x0) (k28_pay3 x1) (k28_pay4 x2) (k28_pay5 x0 x1 x2) (k28_pay6 x0 x1 x2) (k28_pay7 x0 x1 x2) (k28_pay8 x0 x1 x2)
    (k28_pay9 x0 x1 x2) (k28_pay10 x0 x1 x2) (k28_pay11 x0 x1)

/-- The stored value at row `locOff 40 r + d` of its block pairs row `r` of the first block with row `r + d` of the
    second. -/
theorem pay28_apply (x0 : Vec Ideal S1x8x768 .f32) (x1 : Vec Ideal S1x40x768 .f32) (x2 : Vec Ideal S1x768 .f32)
    (r : Fin 8) (d : ℕ) (q : Fin 40) (hq : q.val = r.val + d) (p : Fin 292) (hp : p.val = locOff 40 r.val + d) (o : Fin 768) :
    stored28 x0 x1 x2 (ix3 0 p o) = Ideal.tanh ((x0 (ix3 0 r o) + x1 (ix3 0 q o)) + x2 (ix2 0 o)) := by
  have hql := q.isLt
  unfold stored28 k28_pay1
  refine (shapeCast_ab_1ab_apply _ _ 0 p o).trans ?_
  match r, hq, hp with
  | ⟨0, _⟩, hq, hp =>
    have hq : q.val = 0 + d := hq
    have hp : p.val = locOff 40 0 + d := hp
    have hd : d < 40 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 40 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 40 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 40 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 40 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 40 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 40 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 40 7 + d := hp
    refine (cat8_at7 _ _ _ _ _ _ _ _ _ d (by omega) o p (by simp only [locOff] at hp; omega)).trans ?_
    -- the last piece has 33 rows; a last piece of a single row is stored without broadcasts and has its own lemma
    first
      | have single : (33 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT28.lean ====
/-
  Chunk 28's result array after its region, read at an index.

  The region's grid is the batch: point `t` loads batch `t`'s eight rows of the first product's slice, batch `t`'s 40
  rows of the second product's slice and the bias row, and writes back the whole block `t` of the result. What it
  writes is the body's stored value of those three blocks. So the result array is ONE function of the three arrays it
  reads — at batch `b`, row `p`: the stored value of batch `b`'s blocks at row `p` (`G28`) —, every point writes its
  block of that function (`flushed28_eq`), the four blocks cover the array (`cover28`), hence the array ends as that
  function (`arr28_eq`); and at row `locOff 40 r + d` the stored value is the pair of row `r` with row `r + d`
  (`final28`).
-/
import proofs.«116342_j30605936951494_1_alg».proof.Proof.KI.Reg28
import proofs.«116342_j30605936951494_1_alg».proof.Proof.KI.PayT28
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA28 : (![0, 0, 0] : Fin 3 → Nat) = fun _ => 0 := funext fun a => by fin_cases a <;> rfl
theorem hzB28 : (![0, 0] : Fin 2 → Nat) = fun _ => 0 := funext fun a => by fin_cases a <;> rfl

/-- The grid is the batch: point `t` works on batch `t`. -/
noncomputable def batch28 (t : Fin cfg28.N) : Fin 4 := ⟨t.val, lt_of_lt_of_eq t.isLt N_28⟩

/-- The printed index maps, decided over the four points: the three batched windows sit at block `(t, 0, 0)`, the bias
    row at its one block. -/
theorem idx_facts28 : ∀ t : Fin cfg28.N,
    win28_0.index t (0 : Fin 3) = t.val ∧ win28_0.index t (1 : Fin 3) = 0 ∧ win28_0.index t (2 : Fin 3) = 0
    ∧ win28_1.index t (0 : Fin 3) = t.val ∧ win28_1.index t (1 : Fin 3) = 0 ∧ win28_1.index t (2 : Fin 3) = 0
    ∧ win28_2.index t (0 : Fin 2) = 0 ∧ win28_2.index t (1 : Fin 2) = 0
    ∧ win28_3.index t (0 : Fin 3) = t.val ∧ win28_3.index t (1 : Fin 3) = 0 ∧ win28_3.index t (2 : Fin 3) = 0 :=
  (by decide +kernel : ∀ t : Fin grid28.N, _)

/-- Batch `b`'s eight rows of the first product's slice, as a block. -/
noncomputable def blk28_0 (c : Dev nD) (b : Fin 4) : Vec Ideal S1x8x768 .f32 :=
  fun y => (V c main_v85 : S4x8x768.Idx → EReal) (ix3 b (y 1 : Fin 8) (y 2 : Fin 768))
/-- Batch `b`'s 40 rows of the second product's slice, as a block. -/
noncomputable def blk28_1 (c : Dev nD) (b : Fin 4) : Vec Ideal S1x40x768 .f32 :=
  fun y => (V c main_v86 : S4x40x768.Idx → EReal) (ix3 b (y 1 : Fin 40) (y 2 : Fin 768))
/-- The bias row. -/
noncomputable def blk28_2 (c : Dev nD) : Vec Ideal S1x768 .f32 := fun y => (V c main_v4 : S1x768.Idx → EReal) y

theorem iblk28_0_eq (c : Dev nD) (t : Fin cfg28.N) : (iblk28 V c 0 t : Vec Ideal S1x8x768 .f32) = blk28_0 V c (batch28 t) := by
  obtain ⟨e0, e1, e2, -⟩ := idx_facts28 t
  funext y
  unfold iblk28 blk28_0
  rw [View.read_apply]
  show V c main_v85 _ = V c main_v85 _
  congr 1
  funext a
  apply Fin.ext
  match a with
  | ⟨0, _⟩ => show win28_0.index t (0 : Fin 3) * 1 + 1 * (y 0).val = t.val; have hy : (y 0).val < 1 := (y 0).isLt; omega
  | ⟨1, _⟩ => show win28_0.index t (1 : Fin 3) * 8 + 1 * (y 1).val = (y 1).val; omega
  | ⟨2, _⟩ => show win28_0.index t (2 : Fin 3) * 768 + 1 * (y 2).val = (y 2).val; omega

theorem iblk28_1_eq (c : Dev nD) (t : Fin cfg28.N) : (iblk28 V c 1 t : Vec Ideal S1x40x768 .f32) = blk28_1 V c (batch28 t) := by
  obtain ⟨-, -, -, e0, e1, e2, -⟩ := idx_facts28 t
  funext y
  unfold iblk28 blk28_1
  rw [View.read_apply]
  show V c main_v86 _ = V c main_v86 _
  congr 1
  funext a
  apply Fin.ext
  match a with
  | ⟨0, _⟩ => show win28_1.index t (0 : Fin 3) * 1 + 1 * (y 0).val = t.val; have hy : (y 0).val < 1 := (y 0).isLt; omega
  | ⟨1, _⟩ => show win28_1.index t (1 : Fin 3) * 40 + 1 * (y 1).val = (y 1).val; omega
  | ⟨2, _⟩ => show win28_1.index t (2 : Fin 3) * 768 + 1 * (y 2).val = (y 2).val; omega

theorem iblk28_2_eq (c : Dev nD) (t : Fin cfg28.N) : (iblk28 V c 2 t : Vec Ideal S1x768 .f32) = blk28_2 V c := by
  obtain ⟨-, -, -, -, -, -, e0, e1, -⟩ := idx_facts28 t
  funext y
  unfold iblk28 blk28_2
  rw [View.read_apply]
  show V c main_v4 _ = V c main_v4 _
  congr 1
  funext a
  apply Fin.ext
  match a with
  | ⟨0, _⟩ => show win28_2.index t (0 : Fin 2) * 1 + 1 * (y 0).val = (y 0).val; omega
  | ⟨1, _⟩ => show win28_2.index t (1 : Fin 2) * 768 + 1 * (y 1).val = (y 1).val; omega

/-- The result array as ONE function of the three arrays the chunk reads: at batch `b`, row `p`, the value the body
    stores for batch `b`'s blocks, read at row `p`. -/
noncomputable def G28 (c : Dev nD) : S4x292x768.Idx → EReal :=
  fun i => stored28 (blk28_0 V c (i 0 : Fin 4)) (blk28_1 V c (i 0 : Fin 4)) (blk28_2 V c) (ix3 (0 : Fin 1) (i 1 : Fin 292) (i 2 : Fin 768))

/-- What point `t` writes back is block `t` of `G28`. -/
theorem flushed28_eq (c : Dev nD) (t : Fin cfg28.N) :
    (dat28 (F := Ideal) V c).flushed 3 t = ((cfg28.win 3).blk t).view.read (Elt Ideal) (G28 V c) := by
  obtain ⟨-, -, -, -, -, -, -, -, e0, e1, e2⟩ := idx_facts28 t
  show (cfg28.win 3).cut (grid28.coords t) ((dat28 (F := Ideal) V c).after 3 t) = _
  rw [after28_3]
  unfold out28_3
  rw [View.canon_unit_zero hzA28]
  simp only [View.ld_unit_zero (S := S1x8x768) hzA28, View.ld_unit_zero (S := S1x40x768) hzA28, View.ld_unit_zero (S := S1x768) hzB28]
  rw [iblk28_0_eq, iblk28_1_eq, iblk28_2_eq]
  funext j
  show stored28 (blk28_0 V c (batch28 t)) (blk28_1 V c (batch28 t)) (blk28_2 V c) j = G28 V c (((cfg28.win 3).blk t).view.emb j)
  have hj0 : (j 0).val < 1 := (j 0).isLt
  have he : ((cfg28.win 3).blk t).view.emb j = (ix3 (batch28 t) (j 1 : Fin 292) (j 2 : Fin 768) : S4x292x768.Idx) := by
    funext a
    apply Fin.ext
    match a with
    | ⟨0, _⟩ => show win28_3.index t (0 : Fin 3) * 1 + 1 * (j 0).val = t.val; omega
    | ⟨1, _⟩ => show win28_3.index t (1 : Fin 3) * 292 + 1 * (j 1).val = (j 1).val; omega
    | ⟨2, _⟩ => show win28_3.index t (2 : Fin 3) * 768 + 1 * (j 2).val = (j 2).val; omega
  rw [he]
  show _ = stored28 (blk28_0 V c (batch28 t)) (blk28_1 V c (batch28 t)) (blk28_2 V c) (ix3 (0 : Fin 1) (j 1 : Fin 292) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk28 (t : Fin cfg28.N) (i : S4x292x768.Idx) :
    i ∈ ((cfg28.win 3).blk t).view.set ↔ ∀ a : Fin 3, win28_3.index t a * S1x292x768.size a ≤ (i a).val ∧ (i a).val < win28_3.index t a * S1x292x768.size a + S1x292x768.size a := by
  show i ∈ ((View.whole main_v87).slice (win28_3.rect t)).set ↔ _
  rw [View.set_slice_whole, Rect.mem_set_unit]
  exact Iff.rfl

/-- Batch `b` of the result is written by point `b`. -/
theorem cover28 (i : S4x292x768.Idx) : ∃ t : Fin cfg28.N, (cfg28.win 3).flush t = true ∧ i ∈ ((cfg28.win 3).blk t).view.set := by
  have hi0 : (i 0).val < 4 := (i 0).isLt
  have hi1 : (i 1).val < 292 := (i 1).isLt
  have hi2 : (i 2).val < 768 := (i 2).isLt
  let t : Fin cfg28.N := ⟨(i 0).val, lt_of_lt_of_eq hi0 N_28.symm⟩
  obtain ⟨-, -, -, -, -, -, -, -, e0, e1, e2⟩ := idx_facts28 t
  refine ⟨t, flush28_3 t, ?_⟩
  rw [mem_blk28]
  intro a
  match a with
  | ⟨0, _⟩ => show win28_3.index t (0 : Fin 3) * 1 ≤ (i 0).val ∧ (i 0).val < win28_3.index t (0 : Fin 3) * 1 + 1; rw [e0]; show (i 0).val * 1 ≤ (i 0).val ∧ (i 0).val < (i 0).val * 1 + 1; omega
  | ⟨1, _⟩ => show win28_3.index t (1 : Fin 3) * 292 ≤ (i 1).val ∧ (i 1).val < win28_3.index t (1 : Fin 3) * 292 + 292; omega
  | ⟨2, _⟩ => show win28_3.index t (2 : Fin 3) * 768 ≤ (i 2).val ∧ (i 2).val < win28_3.index t (2 : Fin 3) * 768 + 768; omega

/-- The result array after the region is `G28`. -/
theorem arr28_eq (c : Dev nD) : (dat28 (F := Ideal) V c).arrAt 3 cfg28.N = G28 V c :=
  (dat28 (F := Ideal) V c).arrAt_eq_of_cover 3 (G28 V c) (fun t _ => flushed28_eq V c t) cover28

/-- The three arrays the chunk reads, at their literal types (so that their entries add as extended reals). -/
abbrev src28_0 (c : Dev nD) : S4x8x768.Idx → EReal := V c main_v85
abbrev src28_1 (c : Dev nD) : S4x40x768.Idx → EReal := V c main_v86
abbrev src28_2 (c : Dev nD) : S1x768.Idx → EReal := V c main_v4

/-- The result array at batch `b`, row `locOff 40 r + d`: the pair of row `r` of the first slice with row `r + d` of
    the second, at batch `b`. -/
theorem final28 (c : Dev nD) (b : Fin 4) (r : Fin 8) (d : ℕ) (q : Fin 40) (hq : q.val = r.val + d)
    (p : Fin 292) (hp : p.val = locOff 40 r.val + d) (o : Fin 768) :
    (dat28 (F := Ideal) V c).arrAt 3 cfg28.N (ix3 b p o)
      = Ideal.tanh ((src28_0 V c (ix3 b r o) + src28_1 V c (ix3 b q o)) + src28_2 V c (ix2 0 o)) := by
  rw [arr28_eq]
  show stored28 (blk28_0 V c b) (blk28_1 V c b) (blk28_2 V c) (ix3 0 p o) = _
  rw [pay28_apply _ _ _ r d q hq p hp o]
  rfl

end Cert.KernelIdeal.Val

end
-- ==== Proof.KI.Case28.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT28
import proofs.«116342_j30605936951494_1_alg».proof.Proof.KI.PayLib

/-!
# Chunk 28 of the triangle: the pairs (i, j) with 216 ≤ i < 216 + 8

The chunk's region reads three arrays: its eight rows 216 … 216 + 7 of the first projection, the rows 216 … 255 of the
second, and the bias row, each cut by the host from what boundary 3 holds. Its result, still in place when the last
stretch reads it, holds at local row `locOff 40 r + d` the value of the pair (216 + r, 216 + r + d). In the packed
order the chunk starts at row 32076 = triOff 216 and the pair (i, j) sits at `triOff i + (j - i)`: with `r = i mod 8` and
`d = j - i` that is row 32076 + (locOff 40 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 40 r + d` holds the pair (216 + r, 216 + r + d). -/
theorem chunk28 (c : Dev nD) (b : Fin 4) (r : Fin 8) (d : ℕ) (hd : r.val + d < 40) (p : Fin 292)
    (hp : p.val = locOff 40 r.val + d) (o : Fin 768) :
    (W66 m ρ c (Proc.devRef .tc main_v87) : Vec Ideal S4x292x768 .f32) (ix3 b p o)
      = Cert.Tri.pairValue (argX m c) (argW m c) (argB m c) b ⟨216 + r.val, by omega⟩ ⟨216 + r.val + d, by omega⟩ o := by
  have e0 : src28_0 (V57 m ρ) c (ix3 b r o)
      = Cert.Tri.proj1 (argX m c) (argW m c) b ⟨216 + r.val, by omega⟩ o :=
    (host28_rows (W56 m ρ c) b r o ⟨216 + r.val, by omega⟩ rfl).trans
      ((congrFun (W56_main_v2 m ρ c) _).trans (p1_W3 m ρ c b _ o))
  have e1 : src28_1 (V57 m ρ) c (ix3 b (⟨r.val + d, hd⟩ : Fin 40) o)
      = Cert.Tri.proj2 (argX m c) (argW m c) b ⟨216 + r.val + d, by omega⟩ o :=
    (host28_pair (W56 m ρ c) b ⟨r.val + d, hd⟩ o ⟨216 + r.val + d, by omega⟩
        (by show 216 + r.val + d = 216 + (r.val + d); omega)).trans
      ((congrFun (W56_main_v3 m ρ c) _).trans (p2_W3 m ρ c b _ o))
  have e2 : src28_2 (V57 m ρ) c (ix2 0 o) = argB m c (ix1 o) :=
    (congrFun (W57_main_v4 m ρ c) _).trans (bias_W3 m ρ c 0 o)
  calc (W66 m ρ c (Proc.devRef .tc main_v87) : Vec Ideal S4x292x768 .f32) (ix3 b p o)
      = ((dat28 (F := Ideal) (V57 m ρ) c).arrAt 3 cfg28.N : Vec Ideal S4x292x768 .f32) (ix3 b p o) :=
        congrFun (out28_final m ρ c) _
    _ = Ideal.tanh ((src28_0 (V57 m ρ) c (ix3 b r o) + src28_1 (V57 m ρ) c (ix3 b (⟨r.val + d, hd⟩ : Fin 40) o))
          + src28_2 (V57 m ρ) c (ix2 0 o)) :=
        final28 (V57 m ρ) c b r d ⟨r.val + d, hd⟩ rfl p hp o
    _ = Cert.Tri.pairValue (argX m c) (argW m c) (argB m c) b ⟨216 + r.val, by omega⟩ ⟨216 + r.val + d, by omega⟩ o := by
        rw [e0, e1, e2]
        rfl

/-- The program's result at the rank of a pair (i, j) of this chunk (`i / 8 = 27`). -/
theorem case28 (c : Dev nD) (b : Fin 4) (i j : Fin 256) (o : Fin 768) (hij : i.val ≤ j.val) (hK : i.val / 8 = 27) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 216 + i.val % 8 = i.val := by omega
  have hj : 216 + i.val % 8 + (j.val - i.val) = j.val := by omega
  have hd : i.val % 8 + (j.val - i.val) < 40 := by have := j.isLt; omega
  have hT : locOff 40 (i.val % 8) + (j.val - i.val) < 292 := by
    have := locOff_add_lt (L := 40) hr (by norm_num) hd
    omega
  have hrank : Cert.Tri.rank i.val j.val = 32076 + (locOff 40 (i.val % 8) + (j.val - i.val)) := by
    have h0 : Cert.Tri.triOff i.val = Cert.Tri.triOff (216 + i.val % 8) := congrArg Cert.Tri.triOff hi.symm
    have h1 : Cert.Tri.triOff (216 + i.val % 8) = Cert.Tri.triOff 216 + locOff 40 (i.val % 8) :=
      triOff_add_locOff 216 (i.val % 8)
    have h2 : Cert.Tri.triOff 216 = 32076 := triOff_chunk_eq 27 216 32076 (by norm_num) rfl rfl
    unfold Cert.Tri.rank
    omega
  refine (out_piece28 (W66 m ρ c) b _ ⟨_, hT⟩ o hrank).trans ?_
  refine (chunk28 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT29.lean ====
/-
  Chunk 29's stored value, read at an index.

  The body stores one value over its whole result block: the eight pieces `tanh ((p₁ row r + p₂ rows r…) + bias)`,
  `r = 0 … 7`, laid one under the other and given a leading unit axis. With 32 rows of the second product in view,
  piece `r` has `32 - r` rows and starts at row `locOff 32 r`. So the stored value at row `locOff 32 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 29 stores, as a function of the three blocks it loads. -/
abbrev stored29 {F : FTy → Type} [FloatOps F] (x0 : Vec F S1x8x768 .f32) (x1 : Vec F S1x32x768 .f32) (x2 : Vec F S1x768 .f32) :
    Vec F S1x228x768 .f32 :=
  k29_pay1 (k29_pay2 x0) (k29_pay3 x1) (k29_pay4 x2) (k29_pay5 x0 x1 x2) (k29_pay6 x0 x1 x2) (k29_pay7 x0 x1 x2) (k29_pay8 x0 x1 x2)
    (k29_pay9 x0 x1 x2) (k29_pay10 x0 x1 x2) (k29_pay11 x0 x1)

/-- The stored value at row `locOff 32 r + d` of its block pairs row `r` of the first block with row `r + d` of the
    second. -/
theorem pay29_apply (x0 : Vec Ideal S1x8x768 .f32) (x1 : Vec Ideal S1x32x768 .f32) (x2 : Vec Ideal S1x768 .f32)
    (r : Fin 8) (d : ℕ) (q : Fin 32) (hq : q.val = r.val + d) (p : Fin 228) (hp : p.val = locOff 32 r.val + d) (o : Fin 768) :
    stored29 x0 x1 x2 (ix3 0 p o) = Ideal.tanh ((x0 (ix3 0 r o) + x1 (ix3 0 q o)) + x2 (ix2 0 o)) := by
  have hql := q.isLt
  unfold stored29 k29_pay1
  refine (shapeCast_ab_1ab_apply _ _ 0 p o).trans ?_
  match r, hq, hp with
  | ⟨0, _⟩, hq, hp =>
    have hq : q.val = 0 + d := hq
    have hp : p.val = locOff 32 0 + d := hp
    have hd : d < 32 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 32 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 32 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 32 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 32 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 32 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 32 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 32 7 + d := hp
    refine (cat8_at7 _ _ _ _ _ _ _ _ _ d (by omega) o p (by simp only [locOff] at hp; omega)).trans ?_
    -- the last piece has 25 rows; a last piece of a single row is stored without broadcasts and has its own lemma
    first
      | have single : (25 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT29.lean ====
/-
  Chunk 29's result array after its region, read at an index.

  The region's grid is the batch: point `t` loads batch `t`'s eight rows of the first product's slice, batch `t`'s 32
  rows of the second product's slice and the bias row, and writes back the whole block `t` of the result. What it
  writes is the body's stored value of those three blocks. So the result array is ONE function of the three arrays it
  reads — at batch `b`, row `p`: the stored value of batch `b`'s blocks at row `p` (`G29`) —, every point writes its
  block of that function (`flushed29_eq`), the four blocks cover the array (`cover29`), hence the array ends as that
  function (`arr29_eq`); and at row `locOff 32 r + d` the stored value is the pair of row `r` with row `r + d`
  (`final29`).
-/
import proofs.«116342_j30605936951494_1_alg».proof.Proof.KI.Reg29
import proofs.«116342_j30605936951494_1_alg».proof.Proof.KI.PayT29
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA29 : (![0, 0, 0] : Fin 3 → Nat) = fun _ => 0 := funext fun a => by fin_cases a <;> rfl
theorem hzB29 : (![0, 0] : Fin 2 → Nat) = fun _ => 0 := funext fun a => by fin_cases a <;> rfl

/-- The grid is the batch: point `t` works on batch `t`. -/
noncomputable def batch29 (t : Fin cfg29.N) : Fin 4 := ⟨t.val, lt_of_lt_of_eq t.isLt N_29⟩

/-- The printed index maps, decided over the four points: the three batched windows sit at block `(t, 0, 0)`, the bias
    row at its one block. -/
theorem idx_facts29 : ∀ t : Fin cfg29.N,
    win29_0.index t (0 : Fin 3) = t.val ∧ win29_0.index t (1 : Fin 3) = 0 ∧ win29_0.index t (2 : Fin 3) = 0
    ∧ win29_1.index t (0 : Fin 3) = t.val ∧ win29_1.index t (1 : Fin 3) = 0 ∧ win29_1.index t (2 : Fin 3) = 0
    ∧ win29_2.index t (0 : Fin 2) = 0 ∧ win29_2.index t (1 : Fin 2) = 0
    ∧ win29_3.index t (0 : Fin 3) = t.val ∧ win29_3.index t (1 : Fin 3) = 0 ∧ win29_3.index t (2 : Fin 3) = 0 :=
  (by decide +kernel : ∀ t : Fin grid29.N, _)

/-- Batch `b`'s eight rows of the first product's slice, as a block. -/
noncomputable def blk29_0 (c : Dev nD) (b : Fin 4) : Vec Ideal S1x8x768 .f32 :=
  fun y => (V c main_v88 : S4x8x768.Idx → EReal) (ix3 b (y 1 : Fin 8) (y 2 : Fin 768))
/-- Batch `b`'s 32 rows of the second product's slice, as a block. -/
noncomputable def blk29_1 (c : Dev nD) (b : Fin 4) : Vec Ideal S1x32x768 .f32 :=
  fun y => (V c main_v89 : S4x32x768.Idx → EReal) (ix3 b (y 1 : Fin 32) (y 2 : Fin 768))
/-- The bias row. -/
noncomputable def blk29_2 (c : Dev nD) : Vec Ideal S1x768 .f32 := fun y => (V c main_v4 : S1x768.Idx → EReal) y

theorem iblk29_0_eq (c : Dev nD) (t : Fin cfg29.N) : (iblk29 V c 0 t : Vec Ideal S1x8x768 .f32) = blk29_0 V c (batch29 t) := by
  obtain ⟨e0, e1, e2, -⟩ := idx_facts29 t
  funext y
  unfold iblk29 blk29_0
  rw [View.read_apply]
  show V c main_v88 _ = V c main_v88 _
  congr 1
  funext a
  apply Fin.ext
  match a with
  | ⟨0, _⟩ => show win29_0.index t (0 : Fin 3) * 1 + 1 * (y 0).val = t.val; have hy : (y 0).val < 1 := (y 0).isLt; omega
  | ⟨1, _⟩ => show win29_0.index t (1 : Fin 3) * 8 + 1 * (y 1).val = (y 1).val; omega
  | ⟨2, _⟩ => show win29_0.index t (2 : Fin 3) * 768 + 1 * (y 2).val = (y 2).val; omega

theorem iblk29_1_eq (c : Dev nD) (t : Fin cfg29.N) : (iblk29 V c 1 t : Vec Ideal S1x32x768 .f32) = blk29_1 V c (batch29 t) := by
  obtain ⟨-, -, -, e0, e1, e2, -⟩ := idx_facts29 t
  funext y
  unfold iblk29 blk29_1
  rw [View.read_apply]
  show V c main_v89 _ = V c main_v89 _
  congr 1
  funext a
  apply Fin.ext
  match a with
  | ⟨0, _⟩ => show win29_1.index t (0 : Fin 3) * 1 + 1 * (y 0).val = t.val; have hy : (y 0).val < 1 := (y 0).isLt; omega
  | ⟨1, _⟩ => show win29_1.index t (1 : Fin 3) * 32 + 1 * (y 1).val = (y 1).val; omega
  | ⟨2, _⟩ => show win29_1.index t (2 : Fin 3) * 768 + 1 * (y 2).val = (y 2).val; omega

theorem iblk29_2_eq (c : Dev nD) (t : Fin cfg29.N) : (iblk29 V c 2 t : Vec Ideal S1x768 .f32) = blk29_2 V c := by
  obtain ⟨-, -, -, -, -, -, e0, e1, -⟩ := idx_facts29 t
  funext y
  unfold iblk29 blk29_2
  rw [View.read_apply]
  show V c main_v4 _ = V c main_v4 _
  congr 1
  funext a
  apply Fin.ext
  match a with
  | ⟨0, _⟩ => show win29_2.index t (0 : Fin 2) * 1 + 1 * (y 0).val = (y 0).val; omega
  | ⟨1, _⟩ => show win29_2.index t (1 : Fin 2) * 768 + 1 * (y 1).val = (y 1).val; omega

/-- The result array as ONE function of the three arrays the chunk reads: at batch `b`, row `p`, the value the body
    stores for batch `b`'s blocks, read at row `p`. -/
noncomputable def G29 (c : Dev nD) : S4x228x768.Idx → EReal :=
  fun i => stored29 (blk29_0 V c (i 0 : Fin 4)) (blk29_1 V c (i 0 : Fin 4)) (blk29_2 V c) (ix3 (0 : Fin 1) (i 1 : Fin 228) (i 2 : Fin 768))

/-- What point `t` writes back is block `t` of `G29`. -/
theorem flushed29_eq (c : Dev nD) (t : Fin cfg29.N) :
    (dat29 (F := Ideal) V c).flushed 3 t = ((cfg29.win 3).blk t).view.read (Elt Ideal) (G29 V c) := by
  obtain ⟨-, -, -, -, -, -, -, -, e0, e1, e2⟩ := idx_facts29 t
  show (cfg29.win 3).cut (grid29.coords t) ((dat29 (F := Ideal) V c).after 3 t) = _
  rw [after29_3]
  unfold out29_3
  rw [View.canon_unit_zero hzA29]
  simp only [View.ld_unit_zero (S := S1x8x768) hzA29, View.ld_unit_zero (S := S1x32x768) hzA29, View.ld_unit_zero (S := S1x768) hzB29]
  rw [iblk29_0_eq, iblk29_1_eq, iblk29_2_eq]
  funext j
  show stored29 (blk29_0 V c (batch29 t)) (blk29_1 V c (batch29 t)) (blk29_2 V c) j = G29 V c (((cfg29.win 3).blk t).view.emb j)
  have hj0 : (j 0).val < 1 := (j 0).isLt
  have he : ((cfg29.win 3).blk t).view.emb j = (ix3 (batch29 t) (j 1 : Fin 228) (j 2 : Fin 768) : S4x228x768.Idx) := by
    funext a
    apply Fin.ext
    match a with
    | ⟨0, _⟩ => show win29_3.index t (0 : Fin 3) * 1 + 1 * (j 0).val = t.val; omega
    | ⟨1, _⟩ => show win29_3.index t (1 : Fin 3) * 228 + 1 * (j 1).val = (j 1).val; omega
    | ⟨2, _⟩ => show win29_3.index t (2 : Fin 3) * 768 + 1 * (j 2).val = (j 2).val; omega
  rw [he]
  show _ = stored29 (blk29_0 V c (batch29 t)) (blk29_1 V c (batch29 t)) (blk29_2 V c) (ix3 (0 : Fin 1) (j 1 : Fin 228) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk29 (t : Fin cfg29.N) (i : S4x228x768.Idx) :
    i ∈ ((cfg29.win 3).blk t).view.set ↔ ∀ a : Fin 3, win29_3.index t a * S1x228x768.size a ≤ (i a).val ∧ (i a).val < win29_3.index t a * S1x228x768.size a + S1x228x768.size a := by
  show i ∈ ((View.whole main_v90).slice (win29_3.rect t)).set ↔ _
  rw [View.set_slice_whole, Rect.mem_set_unit]
  exact Iff.rfl

/-- Batch `b` of the result is written by point `b`. -/
theorem cover29 (i : S4x228x768.Idx) : ∃ t : Fin cfg29.N, (cfg29.win 3).flush t = true ∧ i ∈ ((cfg29.win 3).blk t).view.set := by
  have hi0 : (i 0).val < 4 := (i 0).isLt
  have hi1 : (i 1).val < 228 := (i 1).isLt
  have hi2 : (i 2).val < 768 := (i 2).isLt
  let t : Fin cfg29.N := ⟨(i 0).val, lt_of_lt_of_eq hi0 N_29.symm⟩
  obtain ⟨-, -, -, -, -, -, -, -, e0, e1, e2⟩ := idx_facts29 t
  refine ⟨t, flush29_3 t, ?_⟩
  rw [mem_blk29]
  intro a
  match a with
  | ⟨0, _⟩ => show win29_3.index t (0 : Fin 3) * 1 ≤ (i 0).val ∧ (i 0).val < win29_3.index t (0 : Fin 3) * 1 + 1; rw [e0]; show (i 0).val * 1 ≤ (i 0).val ∧ (i 0).val < (i 0).val * 1 + 1; omega
  | ⟨1, _⟩ => show win29_3.index t (1 : Fin 3) * 228 ≤ (i 1).val ∧ (i 1).val < win29_3.index t (1 : Fin 3) * 228 + 228; omega
  | ⟨2, _⟩ => show win29_3.index t (2 : Fin 3) * 768 ≤ (i 2).val ∧ (i 2).val < win29_3.index t (2 : Fin 3) * 768 + 768; omega

/-- The result array after the region is `G29`. -/
theorem arr29_eq (c : Dev nD) : (dat29 (F := Ideal) V c).arrAt 3 cfg29.N = G29 V c :=
  (dat29 (F := Ideal) V c).arrAt_eq_of_cover 3 (G29 V c) (fun t _ => flushed29_eq V c t) cover29

/-- The three arrays the chunk reads, at their literal types (so that their entries add as extended reals). -/
abbrev src29_0 (c : Dev nD) : S4x8x768.Idx → EReal := V c main_v88
abbrev src29_1 (c : Dev nD) : S4x32x768.Idx → EReal := V c main_v89
abbrev src29_2 (c : Dev nD) : S1x768.Idx → EReal := V c main_v4

/-- The result array at batch `b`, row `locOff 32 r + d`: the pair of row `r` of the first slice with row `r + d` of
    the second, at batch `b`. -/
theorem final29 (c : Dev nD) (b : Fin 4) (r : Fin 8) (d : ℕ) (q : Fin 32) (hq : q.val = r.val + d)
    (p : Fin 228) (hp : p.val = locOff 32 r.val + d) (o : Fin 768) :
    (dat29 (F := Ideal) V c).arrAt 3 cfg29.N (ix3 b p o)
      = Ideal.tanh ((src29_0 V c (ix3 b r o) + src29_1 V c (ix3 b q o)) + src29_2 V c (ix2 0 o)) := by
  rw [arr29_eq]
  show stored29 (blk29_0 V c b) (blk29_1 V c b) (blk29_2 V c) (ix3 0 p o) = _
  rw [pay29_apply _ _ _ r d q hq p hp o]
  rfl

end Cert.KernelIdeal.Val

end
-- ==== Proof.KI.Case29.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT29
import proofs.«116342_j30605936951494_1_alg».proof.Proof.KI.PayLib

/-!
# Chunk 29 of the triangle: the pairs (i, j) with 224 ≤ i < 224 + 8

The chunk's region reads three arrays: its eight rows 224 … 224 + 7 of the first projection, the rows 224 … 255 of the
second, and the bias row, each cut by the host from what boundary 3 holds. Its result, still in place when the last
stretch reads it, holds at local row `locOff 32 r + d` the value of the pair (224 + r, 224 + r + d). In the packed
order the chunk starts at row 32368 = triOff 224 and the pair (i, j) sits at `triOff i + (j - i)`: with `r = i mod 8` and
`d = j - i` that is row 32368 + (locOff 32 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 32 r + d` holds the pair (224 + r, 224 + r + d). -/
theorem chunk29 (c : Dev nD) (b : Fin 4) (r : Fin 8) (d : ℕ) (hd : r.val + d < 32) (p : Fin 228)
    (hp : p.val = locOff 32 r.val + d) (o : Fin 768) :
    (W66 m ρ c (Proc.devRef .tc main_v90) : Vec Ideal S4x228x768 .f32) (ix3 b p o)
      = Cert.Tri.pairValue (argX m c) (argW m c) (argB m c) b ⟨224 + r.val, by omega⟩ ⟨224 + r.val + d, by omega⟩ o := by
  have e0 : src29_0 (V59 m ρ) c (ix3 b r o)
      = Cert.Tri.proj1 (argX m c) (argW m c) b ⟨224 + r.val, by omega⟩ o :=
    (host29_rows (W58 m ρ c) b r o ⟨224 + r.val, by omega⟩ rfl).trans
      ((congrFun (W58_main_v2 m ρ c) _).trans (p1_W3 m ρ c b _ o))
  have e1 : src29_1 (V59 m ρ) c (ix3 b (⟨r.val + d, hd⟩ : Fin 32) o)
      = Cert.Tri.proj2 (argX m c) (argW m c) b ⟨224 + r.val + d, by omega⟩ o :=
    (host29_pair (W58 m ρ c) b ⟨r.val + d, hd⟩ o ⟨224 + r.val + d, by omega⟩
        (by show 224 + r.val + d = 224 + (r.val + d); omega)).trans
      ((congrFun (W58_main_v3 m ρ c) _).trans (p2_W3 m ρ c b _ o))
  have e2 : src29_2 (V59 m ρ) c (ix2 0 o) = argB m c (ix1 o) :=
    (congrFun (W59_main_v4 m ρ c) _).trans (bias_W3 m ρ c 0 o)
  calc (W66 m ρ c (Proc.devRef .tc main_v90) : Vec Ideal S4x228x768 .f32) (ix3 b p o)
      = ((dat29 (F := Ideal) (V59 m ρ) c).arrAt 3 cfg29.N : Vec Ideal S4x228x768 .f32) (ix3 b p o) :=
        congrFun (out29_final m ρ c) _
    _ = Ideal.tanh ((src29_0 (V59 m ρ) c (ix3 b r o) + src29_1 (V59 m ρ) c (ix3 b (⟨r.val + d, hd⟩ : Fin 32) o))
          + src29_2 (V59 m ρ) c (ix2 0 o)) :=
        final29 (V59 m ρ) c b r d ⟨r.val + d, hd⟩ rfl p hp o
    _ = Cert.Tri.pairValue (argX m c) (argW m c) (argB m c) b ⟨224 + r.val, by omega⟩ ⟨224 + r.val + d, by omega⟩ o := by
        rw [e0, e1, e2]
        rfl

/-- The program's result at the rank of a pair (i, j) of this chunk (`i / 8 = 28`). -/
theorem case29 (c : Dev nD) (b : Fin 4) (i j : Fin 256) (o : Fin 768) (hij : i.val ≤ j.val) (hK : i.val / 8 = 28) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 224 + i.val % 8 = i.val := by omega
  have hj : 224 + i.val % 8 + (j.val - i.val) = j.val := by omega
  have hd : i.val % 8 + (j.val - i.val) < 32 := by have := j.isLt; omega
  have hT : locOff 32 (i.val % 8) + (j.val - i.val) < 228 := by
    have := locOff_add_lt (L := 32) hr (by norm_num) hd
    omega
  have hrank : Cert.Tri.rank i.val j.val = 32368 + (locOff 32 (i.val % 8) + (j.val - i.val)) := by
    have h0 : Cert.Tri.triOff i.val = Cert.Tri.triOff (224 + i.val % 8) := congrArg Cert.Tri.triOff hi.symm
    have h1 : Cert.Tri.triOff (224 + i.val % 8) = Cert.Tri.triOff 224 + locOff 32 (i.val % 8) :=
      triOff_add_locOff 224 (i.val % 8)
    have h2 : Cert.Tri.triOff 224 = 32368 := triOff_chunk_eq 28 224 32368 (by norm_num) rfl rfl
    unfold Cert.Tri.rank
    omega
  refine (out_piece29 (W66 m ρ c) b _ ⟨_, hT⟩ o hrank).trans ?_
  refine (chunk29 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT30.lean ====
/-
  Chunk 30's stored value, read at an index.

  The body stores one value over its whole result block: the eight pieces `tanh ((p₁ row r + p₂ rows r…) + bias)`,
  `r = 0 … 7`, laid one under the other and given a leading unit axis. With 24 rows of the second product in view,
  piece `r` has `24 - r` rows and starts at row `locOff 24 r`. So the stored value at row `locOff 24 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 30 stores, as a function of the three blocks it loads. -/
abbrev stored30 {F : FTy → Type} [FloatOps F] (x0 : Vec F S1x8x768 .f32) (x1 : Vec F S1x24x768 .f32) (x2 : Vec F S1x768 .f32) :
    Vec F S1x164x768 .f32 :=
  k30_pay1 (k30_pay2 x0) (k30_pay3 x1) (k30_pay4 x2) (k30_pay5 x0 x1 x2) (k30_pay6 x0 x1 x2) (k30_pay7 x0 x1 x2) (k30_pay8 x0 x1 x2)
    (k30_pay9 x0 x1 x2) (k30_pay10 x0 x1 x2) (k30_pay11 x0 x1)

/-- The stored value at row `locOff 24 r + d` of its block pairs row `r` of the first block with row `r + d` of the
    second. -/
theorem pay30_apply (x0 : Vec Ideal S1x8x768 .f32) (x1 : Vec Ideal S1x24x768 .f32) (x2 : Vec Ideal S1x768 .f32)
    (r : Fin 8) (d : ℕ) (q : Fin 24) (hq : q.val = r.val + d) (p : Fin 164) (hp : p.val = locOff 24 r.val + d) (o : Fin 768) :
    stored30 x0 x1 x2 (ix3 0 p o) = Ideal.tanh ((x0 (ix3 0 r o) + x1 (ix3 0 q o)) + x2 (ix2 0 o)) := by
  have hql := q.isLt
  unfold stored30 k30_pay1
  refine (shapeCast_ab_1ab_apply _ _ 0 p o).trans ?_
  match r, hq, hp with
  | ⟨0, _⟩, hq, hp =>
    have hq : q.val = 0 + d := hq
    have hp : p.val = locOff 24 0 + d := hp
    have hd : d < 24 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 24 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 24 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 24 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 24 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 24 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 24 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 24 7 + d := hp
    refine (cat8_at7 _ _ _ _ _ _ _ _ _ d (by omega) o p (by simp only [locOff] at hp; omega)).trans ?_
    -- the last piece has 17 rows; a last piece of a single row is stored without broadcasts and has its own lemma
    first
      | have single : (17 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT30.lean ====
/-
  Chunk 30's result array after its region, read at an index.

  The region's grid is the batch: point `t` loads batch `t`'s eight rows of the first product's slice, batch `t`'s 24
  rows of the second product's slice and the bias row, and writes back the whole block `t` of the result. What it
  writes is the body's stored value of those three blocks. So the result array is ONE function of the three arrays it
  reads — at batch `b`, row `p`: the stored value of batch `b`'s blocks at row `p` (`G30`) —, every point writes its
  block of that function (`flushed30_eq`), the four blocks cover the array (`cover30`), hence the array ends as that
  function (`arr30_eq`); and at row `locOff 24 r + d` the stored value is the pair of row `r` with row `r + d`
  (`final30`).
-/
import proofs.«116342_j30605936951494_1_alg».proof.Proof.KI.Reg30
import proofs.«116342_j30605936951494_1_alg».proof.Proof.KI.PayT30
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA30 : (![0, 0, 0] : Fin 3 → Nat) = fun _ => 0 := funext fun a => by fin_cases a <;> rfl
theorem hzB30 : (![0, 0] : Fin 2 → Nat) = fun _ => 0 := funext fun a => by fin_cases a <;> rfl

/-- The grid is the batch: point `t` works on batch `t`. -/
noncomputable def batch30 (t : Fin cfg30.N) : Fin 4 := ⟨t.val, lt_of_lt_of_eq t.isLt N_30⟩

/-- The printed index maps, decided over the four points: the three batched windows sit at block `(t, 0, 0)`, the bias
    row at its one block. -/
theorem idx_facts30 : ∀ t : Fin cfg30.N,
    win30_0.index t (0 : Fin 3) = t.val ∧ win30_0.index t (1 : Fin 3) = 0 ∧ win30_0.index t (2 : Fin 3) = 0
    ∧ win30_1.index t (0 : Fin 3) = t.val ∧ win30_1.index t (1 : Fin 3) = 0 ∧ win30_1.index t (2 : Fin 3) = 0
    ∧ win30_2.index t (0 : Fin 2) = 0 ∧ win30_2.index t (1 : Fin 2) = 0
    ∧ win30_3.index t (0 : Fin 3) = t.val ∧ win30_3.index t (1 : Fin 3) = 0 ∧ win30_3.index t (2 : Fin 3) = 0 :=
  (by decide +kernel : ∀ t : Fin grid30.N, _)

/-- Batch `b`'s eight rows of the first product's slice, as a block. -/
noncomputable def blk30_0 (c : Dev nD) (b : Fin 4) : Vec Ideal S1x8x768 .f32 :=
  fun y => (V c main_v91 : S4x8x768.Idx → EReal) (ix3 b (y 1 : Fin 8) (y 2 : Fin 768))
/-- Batch `b`'s 24 rows of the second product's slice, as a block. -/
noncomputable def blk30_1 (c : Dev nD) (b : Fin 4) : Vec Ideal S1x24x768 .f32 :=
  fun y => (V c main_v92 : S4x24x768.Idx → EReal) (ix3 b (y 1 : Fin 24) (y 2 : Fin 768))
/-- The bias row. -/
noncomputable def blk30_2 (c : Dev nD) : Vec Ideal S1x768 .f32 := fun y => (V c main_v4 : S1x768.Idx → EReal) y

theorem iblk30_0_eq (c : Dev nD) (t : Fin cfg30.N) : (iblk30 V c 0 t : Vec Ideal S1x8x768 .f32) = blk30_0 V c (batch30 t) := by
  obtain ⟨e0, e1, e2, -⟩ := idx_facts30 t
  funext y
  unfold iblk30 blk30_0
  rw [View.read_apply]
  show V c main_v91 _ = V c main_v91 _
  congr 1
  funext a
  apply Fin.ext
  match a with
  | ⟨0, _⟩ => show win30_0.index t (0 : Fin 3) * 1 + 1 * (y 0).val = t.val; have hy : (y 0).val < 1 := (y 0).isLt; omega
  | ⟨1, _⟩ => show win30_0.index t (1 : Fin 3) * 8 + 1 * (y 1).val = (y 1).val; omega
  | ⟨2, _⟩ => show win30_0.index t (2 : Fin 3) * 768 + 1 * (y 2).val = (y 2).val; omega

theorem iblk30_1_eq (c : Dev nD) (t : Fin cfg30.N) : (iblk30 V c 1 t : Vec Ideal S1x24x768 .f32) = blk30_1 V c (batch30 t) := by
  obtain ⟨-, -, -, e0, e1, e2, -⟩ := idx_facts30 t
  funext y
  unfold iblk30 blk30_1
  rw [View.read_apply]
  show V c main_v92 _ = V c main_v92 _
  congr 1
  funext a
  apply Fin.ext
  match a with
  | ⟨0, _⟩ => show win30_1.index t (0 : Fin 3) * 1 + 1 * (y 0).val = t.val; have hy : (y 0).val < 1 := (y 0).isLt; omega
  | ⟨1, _⟩ => show win30_1.index t (1 : Fin 3) * 24 + 1 * (y 1).val = (y 1).val; omega
  | ⟨2, _⟩ => show win30_1.index t (2 : Fin 3) * 768 + 1 * (y 2).val = (y 2).val; omega

theorem iblk30_2_eq (c : Dev nD) (t : Fin cfg30.N) : (iblk30 V c 2 t : Vec Ideal S1x768 .f32) = blk30_2 V c := by
  obtain ⟨-, -, -, -, -, -, e0, e1, -⟩ := idx_facts30 t
  funext y
  unfold iblk30 blk30_2
  rw [View.read_apply]
  show V c main_v4 _ = V c main_v4 _
  congr 1
  funext a
  apply Fin.ext
  match a with
  | ⟨0, _⟩ => show win30_2.index t (0 : Fin 2) * 1 + 1 * (y 0).val = (y 0).val; omega
  | ⟨1, _⟩ => show win30_2.index t (1 : Fin 2) * 768 + 1 * (y 1).val = (y 1).val; omega

/-- The result array as ONE function of the three arrays the chunk reads: at batch `b`, row `p`, the value the body
    stores for batch `b`'s blocks, read at row `p`. -/
noncomputable def G30 (c : Dev nD) : S4x164x768.Idx → EReal :=
  fun i => stored30 (blk30_0 V c (i 0 : Fin 4)) (blk30_1 V c (i 0 : Fin 4)) (blk30_2 V c) (ix3 (0 : Fin 1) (i 1 : Fin 164) (i 2 : Fin 768))

/-- What point `t` writes back is block `t` of `G30`. -/
theorem flushed30_eq (c : Dev nD) (t : Fin cfg30.N) :
    (dat30 (F := Ideal) V c).flushed 3 t = ((cfg30.win 3).blk t).view.read (Elt Ideal) (G30 V c) := by
  obtain ⟨-, -, -, -, -, -, -, -, e0, e1, e2⟩ := idx_facts30 t
  show (cfg30.win 3).cut (grid30.coords t) ((dat30 (F := Ideal) V c).after 3 t) = _
  rw [after30_3]
  unfold out30_3
  rw [View.canon_unit_zero hzA30]
  simp only [View.ld_unit_zero (S := S1x8x768) hzA30, View.ld_unit_zero (S := S1x24x768) hzA30, View.ld_unit_zero (S := S1x768) hzB30]
  rw [iblk30_0_eq, iblk30_1_eq, iblk30_2_eq]
  funext j
  show stored30 (blk30_0 V c (batch30 t)) (blk30_1 V c (batch30 t)) (blk30_2 V c) j = G30 V c (((cfg30.win 3).blk t).view.emb j)
  have hj0 : (j 0).val < 1 := (j 0).isLt
  have he : ((cfg30.win 3).blk t).view.emb j = (ix3 (batch30 t) (j 1 : Fin 164) (j 2 : Fin 768) : S4x164x768.Idx) := by
    funext a
    apply Fin.ext
    match a with
    | ⟨0, _⟩ => show win30_3.index t (0 : Fin 3) * 1 + 1 * (j 0).val = t.val; omega
    | ⟨1, _⟩ => show win30_3.index t (1 : Fin 3) * 164 + 1 * (j 1).val = (j 1).val; omega
    | ⟨2, _⟩ => show win30_3.index t (2 : Fin 3) * 768 + 1 * (j 2).val = (j 2).val; omega
  rw [he]
  show _ = stored30 (blk30_0 V c (batch30 t)) (blk30_1 V c (batch30 t)) (blk30_2 V c) (ix3 (0 : Fin 1) (j 1 : Fin 164) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk30 (t : Fin cfg30.N) (i : S4x164x768.Idx) :
    i ∈ ((cfg30.win 3).blk t).view.set ↔ ∀ a : Fin 3, win30_3.index t a * S1x164x768.size a ≤ (i a).val ∧ (i a).val < win30_3.index t a * S1x164x768.size a + S1x164x768.size a := by
  show i ∈ ((View.whole main_v93).slice (win30_3.rect t)).set ↔ _
  rw [View.set_slice_whole, Rect.mem_set_unit]
  exact Iff.rfl

/-- Batch `b` of the result is written by point `b`. -/
theorem cover30 (i : S4x164x768.Idx) : ∃ t : Fin cfg30.N, (cfg30.win 3).flush t = true ∧ i ∈ ((cfg30.win 3).blk t).view.set := by
  have hi0 : (i 0).val < 4 := (i 0).isLt
  have hi1 : (i 1).val < 164 := (i 1).isLt
  have hi2 : (i 2).val < 768 := (i 2).isLt
  let t : Fin cfg30.N := ⟨(i 0).val, lt_of_lt_of_eq hi0 N_30.symm⟩
  obtain ⟨-, -, -, -, -, -, -, -, e0, e1, e2⟩ := idx_facts30 t
  refine ⟨t, flush30_3 t, ?_⟩
  rw [mem_blk30]
  intro a
  match a with
  | ⟨0, _⟩ => show win30_3.index t (0 : Fin 3) * 1 ≤ (i 0).val ∧ (i 0).val < win30_3.index t (0 : Fin 3) * 1 + 1; rw [e0]; show (i 0).val * 1 ≤ (i 0).val ∧ (i 0).val < (i 0).val * 1 + 1; omega
  | ⟨1, _⟩ => show win30_3.index t (1 : Fin 3) * 164 ≤ (i 1).val ∧ (i 1).val < win30_3.index t (1 : Fin 3) * 164 + 164; omega
  | ⟨2, _⟩ => show win30_3.index t (2 : Fin 3) * 768 ≤ (i 2).val ∧ (i 2).val < win30_3.index t (2 : Fin 3) * 768 + 768; omega

/-- The result array after the region is `G30`. -/
theorem arr30_eq (c : Dev nD) : (dat30 (F := Ideal) V c).arrAt 3 cfg30.N = G30 V c :=
  (dat30 (F := Ideal) V c).arrAt_eq_of_cover 3 (G30 V c) (fun t _ => flushed30_eq V c t) cover30

/-- The three arrays the chunk reads, at their literal types (so that their entries add as extended reals). -/
abbrev src30_0 (c : Dev nD) : S4x8x768.Idx → EReal := V c main_v91
abbrev src30_1 (c : Dev nD) : S4x24x768.Idx → EReal := V c main_v92
abbrev src30_2 (c : Dev nD) : S1x768.Idx → EReal := V c main_v4

/-- The result array at batch `b`, row `locOff 24 r + d`: the pair of row `r` of the first slice with row `r + d` of
    the second, at batch `b`. -/
theorem final30 (c : Dev nD) (b : Fin 4) (r : Fin 8) (d : ℕ) (q : Fin 24) (hq : q.val = r.val + d)
    (p : Fin 164) (hp : p.val = locOff 24 r.val + d) (o : Fin 768) :
    (dat30 (F := Ideal) V c).arrAt 3 cfg30.N (ix3 b p o)
      = Ideal.tanh ((src30_0 V c (ix3 b r o) + src30_1 V c (ix3 b q o)) + src30_2 V c (ix2 0 o)) := by
  rw [arr30_eq]
  show stored30 (blk30_0 V c b) (blk30_1 V c b) (blk30_2 V c) (ix3 0 p o) = _
  rw [pay30_apply _ _ _ r d q hq p hp o]
  rfl

end Cert.KernelIdeal.Val

end
-- ==== Proof.KI.Case30.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT30
import proofs.«116342_j30605936951494_1_alg».proof.Proof.KI.PayLib

/-!
# Chunk 30 of the triangle: the pairs (i, j) with 232 ≤ i < 232 + 8

The chunk's region reads three arrays: its eight rows 232 … 232 + 7 of the first projection, the rows 232 … 255 of the
second, and the bias row, each cut by the host from what boundary 3 holds. Its result, still in place when the last
stretch reads it, holds at local row `locOff 24 r + d` the value of the pair (232 + r, 232 + r + d). In the packed
order the chunk starts at row 32596 = triOff 232 and the pair (i, j) sits at `triOff i + (j - i)`: with `r = i mod 8` and
`d = j - i` that is row 32596 + (locOff 24 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 24 r + d` holds the pair (232 + r, 232 + r + d). -/
theorem chunk30 (c : Dev nD) (b : Fin 4) (r : Fin 8) (d : ℕ) (hd : r.val + d < 24) (p : Fin 164)
    (hp : p.val = locOff 24 r.val + d) (o : Fin 768) :
    (W66 m ρ c (Proc.devRef .tc main_v93) : Vec Ideal S4x164x768 .f32) (ix3 b p o)
      = Cert.Tri.pairValue (argX m c) (argW m c) (argB m c) b ⟨232 + r.val, by omega⟩ ⟨232 + r.val + d, by omega⟩ o := by
  have e0 : src30_0 (V61 m ρ) c (ix3 b r o)
      = Cert.Tri.proj1 (argX m c) (argW m c) b ⟨232 + r.val, by omega⟩ o :=
    (host30_rows (W60 m ρ c) b r o ⟨232 + r.val, by omega⟩ rfl).trans
      ((congrFun (W60_main_v2 m ρ c) _).trans (p1_W3 m ρ c b _ o))
  have e1 : src30_1 (V61 m ρ) c (ix3 b (⟨r.val + d, hd⟩ : Fin 24) o)
      = Cert.Tri.proj2 (argX m c) (argW m c) b ⟨232 + r.val + d, by omega⟩ o :=
    (host30_pair (W60 m ρ c) b ⟨r.val + d, hd⟩ o ⟨232 + r.val + d, by omega⟩
        (by show 232 + r.val + d = 232 + (r.val + d); omega)).trans
      ((congrFun (W60_main_v3 m ρ c) _).trans (p2_W3 m ρ c b _ o))
  have e2 : src30_2 (V61 m ρ) c (ix2 0 o) = argB m c (ix1 o) :=
    (congrFun (W61_main_v4 m ρ c) _).trans (bias_W3 m ρ c 0 o)
  calc (W66 m ρ c (Proc.devRef .tc main_v93) : Vec Ideal S4x164x768 .f32) (ix3 b p o)
      = ((dat30 (F := Ideal) (V61 m ρ) c).arrAt 3 cfg30.N : Vec Ideal S4x164x768 .f32) (ix3 b p o) :=
        congrFun (out30_final m ρ c) _
    _ = Ideal.tanh ((src30_0 (V61 m ρ) c (ix3 b r o) + src30_1 (V61 m ρ) c (ix3 b (⟨r.val + d, hd⟩ : Fin 24) o))
          + src30_2 (V61 m ρ) c (ix2 0 o)) :=
        final30 (V61 m ρ) c b r d ⟨r.val + d, hd⟩ rfl p hp o
    _ = Cert.Tri.pairValue (argX m c) (argW m c) (argB m c) b ⟨232 + r.val, by omega⟩ ⟨232 + r.val + d, by omega⟩ o := by
        rw [e0, e1, e2]
        rfl

/-- The program's result at the rank of a pair (i, j) of this chunk (`i / 8 = 29`). -/
theorem case30 (c : Dev nD) (b : Fin 4) (i j : Fin 256) (o : Fin 768) (hij : i.val ≤ j.val) (hK : i.val / 8 = 29) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 232 + i.val % 8 = i.val := by omega
  have hj : 232 + i.val % 8 + (j.val - i.val) = j.val := by omega
  have hd : i.val % 8 + (j.val - i.val) < 24 := by have := j.isLt; omega
  have hT : locOff 24 (i.val % 8) + (j.val - i.val) < 164 := by
    have := locOff_add_lt (L := 24) hr (by norm_num) hd
    omega
  have hrank : Cert.Tri.rank i.val j.val = 32596 + (locOff 24 (i.val % 8) + (j.val - i.val)) := by
    have h0 : Cert.Tri.triOff i.val = Cert.Tri.triOff (232 + i.val % 8) := congrArg Cert.Tri.triOff hi.symm
    have h1 : Cert.Tri.triOff (232 + i.val % 8) = Cert.Tri.triOff 232 + locOff 24 (i.val % 8) :=
      triOff_add_locOff 232 (i.val % 8)
    have h2 : Cert.Tri.triOff 232 = 32596 := triOff_chunk_eq 29 232 32596 (by norm_num) rfl rfl
    unfold Cert.Tri.rank
    omega
  refine (out_piece30 (W66 m ρ c) b _ ⟨_, hT⟩ o hrank).trans ?_
  refine (chunk30 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT31.lean ====
/-
  Chunk 31's stored value, read at an index.

  The body stores one value over its whole result block: the eight pieces `tanh ((p₁ row r + p₂ rows r…) + bias)`,
  `r = 0 … 7`, laid one under the other and given a leading unit axis. With 16 rows of the second product in view,
  piece `r` has `16 - r` rows and starts at row `locOff 16 r`. So the stored value at row `locOff 16 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 31 stores, as a function of the three blocks it loads. -/
abbrev stored31 {F : FTy → Type} [FloatOps F] (x0 : Vec F S1x8x768 .f32) (x1 : Vec F S1x16x768 .f32) (x2 : Vec F S1x768 .f32) :
    Vec F S1x100x768 .f32 :=
  k31_pay1 (k31_pay2 x0) (k31_pay3 x1) (k31_pay4 x2) (k31_pay5 x0 x1 x2) (k31_pay6 x0 x1 x2) (k31_pay7 x0 x1 x2) (k31_pay8 x0 x1 x2)
    (k31_pay9 x0 x1 x2) (k31_pay10 x0 x1 x2) (k31_pay11 x0 x1)

/-- The stored value at row `locOff 16 r + d` of its block pairs row `r` of the first block with row `r + d` of the
    second. -/
theorem pay31_apply (x0 : Vec Ideal S1x8x768 .f32) (x1 : Vec Ideal S1x16x768 .f32) (x2 : Vec Ideal S1x768 .f32)
    (r : Fin 8) (d : ℕ) (q : Fin 16) (hq : q.val = r.val + d) (p : Fin 100) (hp : p.val = locOff 16 r.val + d) (o : Fin 768) :
    stored31 x0 x1 x2 (ix3 0 p o) = Ideal.tanh ((x0 (ix3 0 r o) + x1 (ix3 0 q o)) + x2 (ix2 0 o)) := by
  have hql := q.isLt
  unfold stored31 k31_pay1
  refine (shapeCast_ab_1ab_apply _ _ 0 p o).trans ?_
  match r, hq, hp with
  | ⟨0, _⟩, hq, hp =>
    have hq : q.val = 0 + d := hq
    have hp : p.val = locOff 16 0 + d := hp
    have hd : d < 16 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 16 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 16 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 16 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 16 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 16 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 16 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 16 7 + d := hp
    refine (cat8_at7 _ _ _ _ _ _ _ _ _ d (by omega) o p (by simp only [locOff] at hp; omega)).trans ?_
    -- the last piece has 9 rows; a last piece of a single row is stored without broadcasts and has its own lemma
    first
      | have single : (9 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT31.lean ====
/-
  Chunk 31's result array after its region, read at an index.

  The region's grid is the batch: point `t` loads batch `t`'s eight rows of the first product's slice, batch `t`'s 16
  rows of the second product's slice and the bias row, and writes back the whole block `t` of the result. What it
  writes is the body's stored value of those three blocks. So the result array is ONE function of the three arrays it
  reads — at batch `b`, row `p`: the stored value of batch `b`'s blocks at row `p` (`G31`) —, every point writes its
  block of that function (`flushed31_eq`), the four blocks cover the array (`cover31`), hence the array ends as that
  function (`arr31_eq`); and at row `locOff 16 r + d` the stored value is the pair of row `r` with row `r + d`
  (`final31`).
-/
import proofs.«116342_j30605936951494_1_alg».proof.Proof.KI.Reg31
import proofs.«116342_j30605936951494_1_alg».proof.Proof.KI.PayT31
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA31 : (![0, 0, 0] : Fin 3 → Nat) = fun _ => 0 := funext fun a => by fin_cases a <;> rfl
theorem hzB31 : (![0, 0] : Fin 2 → Nat) = fun _ => 0 := funext fun a => by fin_cases a <;> rfl

/-- The grid is the batch: point `t` works on batch `t`. -/
noncomputable def batch31 (t : Fin cfg31.N) : Fin 4 := ⟨t.val, lt_of_lt_of_eq t.isLt N_31⟩

/-- The printed index maps, decided over the four points: the three batched windows sit at block `(t, 0, 0)`, the bias
    row at its one block. -/
theorem idx_facts31 : ∀ t : Fin cfg31.N,
    win31_0.index t (0 : Fin 3) = t.val ∧ win31_0.index t (1 : Fin 3) = 0 ∧ win31_0.index t (2 : Fin 3) = 0
    ∧ win31_1.index t (0 : Fin 3) = t.val ∧ win31_1.index t (1 : Fin 3) = 0 ∧ win31_1.index t (2 : Fin 3) = 0
    ∧ win31_2.index t (0 : Fin 2) = 0 ∧ win31_2.index t (1 : Fin 2) = 0
    ∧ win31_3.index t (0 : Fin 3) = t.val ∧ win31_3.index t (1 : Fin 3) = 0 ∧ win31_3.index t (2 : Fin 3) = 0 :=
  (by decide +kernel : ∀ t : Fin grid31.N, _)

/-- Batch `b`'s eight rows of the first product's slice, as a block. -/
noncomputable def blk31_0 (c : Dev nD) (b : Fin 4) : Vec Ideal S1x8x768 .f32 :=
  fun y => (V c main_v94 : S4x8x768.Idx → EReal) (ix3 b (y 1 : Fin 8) (y 2 : Fin 768))
/-- Batch `b`'s 16 rows of the second product's slice, as a block. -/
noncomputable def blk31_1 (c : Dev nD) (b : Fin 4) : Vec Ideal S1x16x768 .f32 :=
  fun y => (V c main_v95 : S4x16x768.Idx → EReal) (ix3 b (y 1 : Fin 16) (y 2 : Fin 768))
/-- The bias row. -/
noncomputable def blk31_2 (c : Dev nD) : Vec Ideal S1x768 .f32 := fun y => (V c main_v4 : S1x768.Idx → EReal) y

theorem iblk31_0_eq (c : Dev nD) (t : Fin cfg31.N) : (iblk31 V c 0 t : Vec Ideal S1x8x768 .f32) = blk31_0 V c (batch31 t) := by
  obtain ⟨e0, e1, e2, -⟩ := idx_facts31 t
  funext y
  unfold iblk31 blk31_0
  rw [View.read_apply]
  show V c main_v94 _ = V c main_v94 _
  congr 1
  funext a
  apply Fin.ext
  match a with
  | ⟨0, _⟩ => show win31_0.index t (0 : Fin 3) * 1 + 1 * (y 0).val = t.val; have hy : (y 0).val < 1 := (y 0).isLt; omega
  | ⟨1, _⟩ => show win31_0.index t (1 : Fin 3) * 8 + 1 * (y 1).val = (y 1).val; omega
  | ⟨2, _⟩ => show win31_0.index t (2 : Fin 3) * 768 + 1 * (y 2).val = (y 2).val; omega

theorem iblk31_1_eq (c : Dev nD) (t : Fin cfg31.N) : (iblk31 V c 1 t : Vec Ideal S1x16x768 .f32) = blk31_1 V c (batch31 t) := by
  obtain ⟨-, -, -, e0, e1, e2, -⟩ := idx_facts31 t
  funext y
  unfold iblk31 blk31_1
  rw [View.read_apply]
  show V c main_v95 _ = V c main_v95 _
  congr 1
  funext a
  apply Fin.ext
  match a with
  | ⟨0, _⟩ => show win31_1.index t (0 : Fin 3) * 1 + 1 * (y 0).val = t.val; have hy : (y 0).val < 1 := (y 0).isLt; omega
  | ⟨1, _⟩ => show win31_1.index t (1 : Fin 3) * 16 + 1 * (y 1).val = (y 1).val; omega
  | ⟨2, _⟩ => show win31_1.index t (2 : Fin 3) * 768 + 1 * (y 2).val = (y 2).val; omega

theorem iblk31_2_eq (c : Dev nD) (t : Fin cfg31.N) : (iblk31 V c 2 t : Vec Ideal S1x768 .f32) = blk31_2 V c := by
  obtain ⟨-, -, -, -, -, -, e0, e1, -⟩ := idx_facts31 t
  funext y
  unfold iblk31 blk31_2
  rw [View.read_apply]
  show V c main_v4 _ = V c main_v4 _
  congr 1
  funext a
  apply Fin.ext
  match a with
  | ⟨0, _⟩ => show win31_2.index t (0 : Fin 2) * 1 + 1 * (y 0).val = (y 0).val; omega
  | ⟨1, _⟩ => show win31_2.index t (1 : Fin 2) * 768 + 1 * (y 1).val = (y 1).val; omega

/-- The result array as ONE function of the three arrays the chunk reads: at batch `b`, row `p`, the value the body
    stores for batch `b`'s blocks, read at row `p`. -/
noncomputable def G31 (c : Dev nD) : S4x100x768.Idx → EReal :=
  fun i => stored31 (blk31_0 V c (i 0 : Fin 4)) (blk31_1 V c (i 0 : Fin 4)) (blk31_2 V c) (ix3 (0 : Fin 1) (i 1 : Fin 100) (i 2 : Fin 768))

/-- What point `t` writes back is block `t` of `G31`. -/
theorem flushed31_eq (c : Dev nD) (t : Fin cfg31.N) :
    (dat31 (F := Ideal) V c).flushed 3 t = ((cfg31.win 3).blk t).view.read (Elt Ideal) (G31 V c) := by
  obtain ⟨-, -, -, -, -, -, -, -, e0, e1, e2⟩ := idx_facts31 t
  show (cfg31.win 3).cut (grid31.coords t) ((dat31 (F := Ideal) V c).after 3 t) = _
  rw [after31_3]
  unfold out31_3
  rw [View.canon_unit_zero hzA31]
  simp only [View.ld_unit_zero (S := S1x8x768) hzA31, View.ld_unit_zero (S := S1x16x768) hzA31, View.ld_unit_zero (S := S1x768) hzB31]
  rw [iblk31_0_eq, iblk31_1_eq, iblk31_2_eq]
  funext j
  show stored31 (blk31_0 V c (batch31 t)) (blk31_1 V c (batch31 t)) (blk31_2 V c) j = G31 V c (((cfg31.win 3).blk t).view.emb j)
  have hj0 : (j 0).val < 1 := (j 0).isLt
  have he : ((cfg31.win 3).blk t).view.emb j = (ix3 (batch31 t) (j 1 : Fin 100) (j 2 : Fin 768) : S4x100x768.Idx) := by
    funext a
    apply Fin.ext
    match a with
    | ⟨0, _⟩ => show win31_3.index t (0 : Fin 3) * 1 + 1 * (j 0).val = t.val; omega
    | ⟨1, _⟩ => show win31_3.index t (1 : Fin 3) * 100 + 1 * (j 1).val = (j 1).val; omega
    | ⟨2, _⟩ => show win31_3.index t (2 : Fin 3) * 768 + 1 * (j 2).val = (j 2).val; omega
  rw [he]
  show _ = stored31 (blk31_0 V c (batch31 t)) (blk31_1 V c (batch31 t)) (blk31_2 V c) (ix3 (0 : Fin 1) (j 1 : Fin 100) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk31 (t : Fin cfg31.N) (i : S4x100x768.Idx) :
    i ∈ ((cfg31.win 3).blk t).view.set ↔ ∀ a : Fin 3, win31_3.index t a * S1x100x768.size a ≤ (i a).val ∧ (i a).val < win31_3.index t a * S1x100x768.size a + S1x100x768.size a := by
  show i ∈ ((View.whole main_v96).slice (win31_3.rect t)).set ↔ _
  rw [View.set_slice_whole, Rect.mem_set_unit]
  exact Iff.rfl

/-- Batch `b` of the result is written by point `b`. -/
theorem cover31 (i : S4x100x768.Idx) : ∃ t : Fin cfg31.N, (cfg31.win 3).flush t = true ∧ i ∈ ((cfg31.win 3).blk t).view.set := by
  have hi0 : (i 0).val < 4 := (i 0).isLt
  have hi1 : (i 1).val < 100 := (i 1).isLt
  have hi2 : (i 2).val < 768 := (i 2).isLt
  let t : Fin cfg31.N := ⟨(i 0).val, lt_of_lt_of_eq hi0 N_31.symm⟩
  obtain ⟨-, -, -, -, -, -, -, -, e0, e1, e2⟩ := idx_facts31 t
  refine ⟨t, flush31_3 t, ?_⟩
  rw [mem_blk31]
  intro a
  match a with
  | ⟨0, _⟩ => show win31_3.index t (0 : Fin 3) * 1 ≤ (i 0).val ∧ (i 0).val < win31_3.index t (0 : Fin 3) * 1 + 1; rw [e0]; show (i 0).val * 1 ≤ (i 0).val ∧ (i 0).val < (i 0).val * 1 + 1; omega
  | ⟨1, _⟩ => show win31_3.index t (1 : Fin 3) * 100 ≤ (i 1).val ∧ (i 1).val < win31_3.index t (1 : Fin 3) * 100 + 100; omega
  | ⟨2, _⟩ => show win31_3.index t (2 : Fin 3) * 768 ≤ (i 2).val ∧ (i 2).val < win31_3.index t (2 : Fin 3) * 768 + 768; omega

/-- The result array after the region is `G31`. -/
theorem arr31_eq (c : Dev nD) : (dat31 (F := Ideal) V c).arrAt 3 cfg31.N = G31 V c :=
  (dat31 (F := Ideal) V c).arrAt_eq_of_cover 3 (G31 V c) (fun t _ => flushed31_eq V c t) cover31

/-- The three arrays the chunk reads, at their literal types (so that their entries add as extended reals). -/
abbrev src31_0 (c : Dev nD) : S4x8x768.Idx → EReal := V c main_v94
abbrev src31_1 (c : Dev nD) : S4x16x768.Idx → EReal := V c main_v95
abbrev src31_2 (c : Dev nD) : S1x768.Idx → EReal := V c main_v4

/-- The result array at batch `b`, row `locOff 16 r + d`: the pair of row `r` of the first slice with row `r + d` of
    the second, at batch `b`. -/
theorem final31 (c : Dev nD) (b : Fin 4) (r : Fin 8) (d : ℕ) (q : Fin 16) (hq : q.val = r.val + d)
    (p : Fin 100) (hp : p.val = locOff 16 r.val + d) (o : Fin 768) :
    (dat31 (F := Ideal) V c).arrAt 3 cfg31.N (ix3 b p o)
      = Ideal.tanh ((src31_0 V c (ix3 b r o) + src31_1 V c (ix3 b q o)) + src31_2 V c (ix2 0 o)) := by
  rw [arr31_eq]
  show stored31 (blk31_0 V c b) (blk31_1 V c b) (blk31_2 V c) (ix3 0 p o) = _
  rw [pay31_apply _ _ _ r d q hq p hp o]
  rfl

end Cert.KernelIdeal.Val

end
-- ==== Proof.KI.Case31.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT31
import proofs.«116342_j30605936951494_1_alg».proof.Proof.KI.PayLib

/-!
# Chunk 31 of the triangle: the pairs (i, j) with 240 ≤ i < 240 + 8

The chunk's region reads three arrays: its eight rows 240 … 240 + 7 of the first projection, the rows 240 … 255 of the
second, and the bias row, each cut by the host from what boundary 3 holds. Its result, still in place when the last
stretch reads it, holds at local row `locOff 16 r + d` the value of the pair (240 + r, 240 + r + d). In the packed
order the chunk starts at row 32760 = triOff 240 and the pair (i, j) sits at `triOff i + (j - i)`: with `r = i mod 8` and
`d = j - i` that is row 32760 + (locOff 16 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 16 r + d` holds the pair (240 + r, 240 + r + d). -/
theorem chunk31 (c : Dev nD) (b : Fin 4) (r : Fin 8) (d : ℕ) (hd : r.val + d < 16) (p : Fin 100)
    (hp : p.val = locOff 16 r.val + d) (o : Fin 768) :
    (W66 m ρ c (Proc.devRef .tc main_v96) : Vec Ideal S4x100x768 .f32) (ix3 b p o)
      = Cert.Tri.pairValue (argX m c) (argW m c) (argB m c) b ⟨240 + r.val, by omega⟩ ⟨240 + r.val + d, by omega⟩ o := by
  have e0 : src31_0 (V63 m ρ) c (ix3 b r o)
      = Cert.Tri.proj1 (argX m c) (argW m c) b ⟨240 + r.val, by omega⟩ o :=
    (host31_rows (W62 m ρ c) b r o ⟨240 + r.val, by omega⟩ rfl).trans
      ((congrFun (W62_main_v2 m ρ c) _).trans (p1_W3 m ρ c b _ o))
  have e1 : src31_1 (V63 m ρ) c (ix3 b (⟨r.val + d, hd⟩ : Fin 16) o)
      = Cert.Tri.proj2 (argX m c) (argW m c) b ⟨240 + r.val + d, by omega⟩ o :=
    (host31_pair (W62 m ρ c) b ⟨r.val + d, hd⟩ o ⟨240 + r.val + d, by omega⟩
        (by show 240 + r.val + d = 240 + (r.val + d); omega)).trans
      ((congrFun (W62_main_v3 m ρ c) _).trans (p2_W3 m ρ c b _ o))
  have e2 : src31_2 (V63 m ρ) c (ix2 0 o) = argB m c (ix1 o) :=
    (congrFun (W63_main_v4 m ρ c) _).trans (bias_W3 m ρ c 0 o)
  calc (W66 m ρ c (Proc.devRef .tc main_v96) : Vec Ideal S4x100x768 .f32) (ix3 b p o)
      = ((dat31 (F := Ideal) (V63 m ρ) c).arrAt 3 cfg31.N : Vec Ideal S4x100x768 .f32) (ix3 b p o) :=
        congrFun (out31_final m ρ c) _
    _ = Ideal.tanh ((src31_0 (V63 m ρ) c (ix3 b r o) + src31_1 (V63 m ρ) c (ix3 b (⟨r.val + d, hd⟩ : Fin 16) o))
          + src31_2 (V63 m ρ) c (ix2 0 o)) :=
        final31 (V63 m ρ) c b r d ⟨r.val + d, hd⟩ rfl p hp o
    _ = Cert.Tri.pairValue (argX m c) (argW m c) (argB m c) b ⟨240 + r.val, by omega⟩ ⟨240 + r.val + d, by omega⟩ o := by
        rw [e0, e1, e2]
        rfl

/-- The program's result at the rank of a pair (i, j) of this chunk (`i / 8 = 30`). -/
theorem case31 (c : Dev nD) (b : Fin 4) (i j : Fin 256) (o : Fin 768) (hij : i.val ≤ j.val) (hK : i.val / 8 = 30) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 240 + i.val % 8 = i.val := by omega
  have hj : 240 + i.val % 8 + (j.val - i.val) = j.val := by omega
  have hd : i.val % 8 + (j.val - i.val) < 16 := by have := j.isLt; omega
  have hT : locOff 16 (i.val % 8) + (j.val - i.val) < 100 := by
    have := locOff_add_lt (L := 16) hr (by norm_num) hd
    omega
  have hrank : Cert.Tri.rank i.val j.val = 32760 + (locOff 16 (i.val % 8) + (j.val - i.val)) := by
    have h0 : Cert.Tri.triOff i.val = Cert.Tri.triOff (240 + i.val % 8) := congrArg Cert.Tri.triOff hi.symm
    have h1 : Cert.Tri.triOff (240 + i.val % 8) = Cert.Tri.triOff 240 + locOff 16 (i.val % 8) :=
      triOff_add_locOff 240 (i.val % 8)
    have h2 : Cert.Tri.triOff 240 = 32760 := triOff_chunk_eq 30 240 32760 (by norm_num) rfl rfl
    unfold Cert.Tri.rank
    omega
  refine (out_piece31 (W66 m ρ c) b _ ⟨_, hT⟩ o hrank).trans ?_
  refine (chunk31 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.PayT32.lean ====
/-
  Chunk 32's stored value, read at an index.

  The body stores one value over its whole result block: the eight pieces `tanh ((p₁ row r + p₂ rows r…) + bias)`,
  `r = 0 … 7`, laid one under the other and given a leading unit axis. With 8 rows of the second product in view,
  piece `r` has `8 - r` rows and starts at row `locOff 8 r`. So the stored value at row `locOff 8 r + d` is
  `tanh ((x0 row r + x1 row (r + d)) + x2 row 0)` of the three loaded blocks: the leading unit axis is dropped, the
  concatenation is read in the piece that holds the row, and that piece is read at its row `d`.
-/
import proofs.«116342_j30605936951494_1_alg».proof.Proof.Gen.KernelIdeal.Skeleton
import proofs.«116342_j30605936951494_1_alg».proof.Proof.KI.PayLib

noncomputable section

namespace Cert.KernelIdeal.Val

open Cert.KernelIdeal Cert.KernelIdeal.Gen
open Idealize.ShloMosaic Idealize.ShloMosaic.ValueIdx

/-- What the body of chunk 32 stores, as a function of the three blocks it loads. -/
abbrev stored32 {F : FTy → Type} [FloatOps F] (x0 : Vec F S1x8x768 .f32) (x1 : Vec F S1x8x768 .f32) (x2 : Vec F S1x768 .f32) :
    Vec F S1x36x768 .f32 :=
  k32_pay1 (k32_pay2 x0) (k32_pay3 x1) (k32_pay4 x2) (k32_pay5 x0 x1 x2) (k32_pay6 x0 x1 x2) (k32_pay7 x0 x1 x2) (k32_pay8 x0 x1 x2)
    (k32_pay9 x0 x1 x2) (k32_pay10 x0 x1 x2) (k32_pay11 x0 x1)

/-- The stored value at row `locOff 8 r + d` of its block pairs row `r` of the first block with row `r + d` of the
    second. -/
theorem pay32_apply (x0 : Vec Ideal S1x8x768 .f32) (x1 : Vec Ideal S1x8x768 .f32) (x2 : Vec Ideal S1x768 .f32)
    (r : Fin 8) (d : ℕ) (q : Fin 8) (hq : q.val = r.val + d) (p : Fin 36) (hp : p.val = locOff 8 r.val + d) (o : Fin 768) :
    stored32 x0 x1 x2 (ix3 0 p o) = Ideal.tanh ((x0 (ix3 0 r o) + x1 (ix3 0 q o)) + x2 (ix2 0 o)) := by
  have hql := q.isLt
  unfold stored32 k32_pay1
  refine (shapeCast_ab_1ab_apply _ _ 0 p o).trans ?_
  match r, hq, hp with
  | ⟨0, _⟩, hq, hp =>
    have hq : q.val = 0 + d := hq
    have hp : p.val = locOff 8 0 + d := hp
    have hd : d < 8 := by omega
    have e : q = ⟨d, hd⟩ := Fin.ext (by show q.val = d; omega)
    subst e
    refine (cat8_at0 _ _ _ _ _ _ _ _ _ d hd o p (by simp only [locOff] at hp; omega)).trans ?_
    exact piece0_apply x0 x1 x2 _ _ _ _ _ _ d hd o
  | ⟨1, _⟩, hq, hp =>
    have hq : q.val = 1 + d := hq
    have hp : p.val = locOff 8 1 + d := hp
    refine (cat8_at1 _ _ _ _ _ _ _ _ _ d (by omega) o p (by simp only [locOff] at hp; omega)).trans ?_
    exact pieceR_apply 1 x0 x1 x2 _ _ _ _ _ _ _ d _ o 1 rfl q hq
  | ⟨2, _⟩, hq, hp =>
    have hq : q.val = 2 + d := hq
    have hp : p.val = locOff 8 2 + d := hp
    refine (cat8_at2 _ _ _ _ _ _ _ _ _ d (by omega) o p (by simp only [locOff] at hp; omega)).trans ?_
    exact pieceR_apply 2 x0 x1 x2 _ _ _ _ _ _ _ d _ o 2 rfl q hq
  | ⟨3, _⟩, hq, hp =>
    have hq : q.val = 3 + d := hq
    have hp : p.val = locOff 8 3 + d := hp
    refine (cat8_at3 _ _ _ _ _ _ _ _ _ d (by omega) o p (by simp only [locOff] at hp; omega)).trans ?_
    exact pieceR_apply 3 x0 x1 x2 _ _ _ _ _ _ _ d _ o 3 rfl q hq
  | ⟨4, _⟩, hq, hp =>
    have hq : q.val = 4 + d := hq
    have hp : p.val = locOff 8 4 + d := hp
    refine (cat8_at4 _ _ _ _ _ _ _ _ _ d (by omega) o p (by simp only [locOff] at hp; omega)).trans ?_
    exact pieceR_apply 4 x0 x1 x2 _ _ _ _ _ _ _ d _ o 4 rfl q hq
  | ⟨5, _⟩, hq, hp =>
    have hq : q.val = 5 + d := hq
    have hp : p.val = locOff 8 5 + d := hp
    refine (cat8_at5 _ _ _ _ _ _ _ _ _ d (by omega) o p (by simp only [locOff] at hp; omega)).trans ?_
    exact pieceR_apply 5 x0 x1 x2 _ _ _ _ _ _ _ d _ o 5 rfl q hq
  | ⟨6, _⟩, hq, hp =>
    have hq : q.val = 6 + d := hq
    have hp : p.val = locOff 8 6 + d := hp
    refine (cat8_at6 _ _ _ _ _ _ _ _ _ d (by omega) o p (by simp only [locOff] at hp; omega)).trans ?_
    exact pieceR_apply 6 x0 x1 x2 _ _ _ _ _ _ _ d _ o 6 rfl q hq
  | ⟨7, _⟩, hq, hp =>
    have hq : q.val = 7 + d := hq
    have hp : p.val = locOff 8 7 + d := hp
    refine (cat8_at7 _ _ _ _ _ _ _ _ _ d (by omega) o p (by simp only [locOff] at hp; omega)).trans ?_
    -- the last piece has 1 rows; a last piece of a single row is stored without broadcasts and has its own lemma
    first
      | have single : (1 : ℕ) = 1 := by decide
        exact piece1_apply 7 x0 x1 x2 _ _ _ _ _ d _ o 7 rfl q hq
      | exact pieceR_apply 7 x0 x1 x2 _ _ _ _ _ _ _ d _ o 7 rfl q hq

end Cert.KernelIdeal.Val

end
-- ==== Proof.KI.ValT32.lean ====
/-
  Chunk 32's result array after its region, read at an index.

  The region's grid is the batch: point `t` loads batch `t`'s eight rows of the first product's slice, batch `t`'s 8
  rows of the second product's slice and the bias row, and writes back the whole block `t` of the result. What it
  writes is the body's stored value of those three blocks. So the result array is ONE function of the three arrays it
  reads — at batch `b`, row `p`: the stored value of batch `b`'s blocks at row `p` (`G32`) —, every point writes its
  block of that function (`flushed32_eq`), the four blocks cover the array (`cover32`), hence the array ends as that
  function (`arr32_eq`); and at row `locOff 8 r + d` the stored value is the pair of row `r` with row `r + d`
  (`final32`).
-/
import proofs.«116342_j30605936951494_1_alg».proof.Proof.KI.Reg32
import proofs.«116342_j30605936951494_1_alg».proof.Proof.KI.PayT32
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzA32 : (![0, 0, 0] : Fin 3 → Nat) = fun _ => 0 := funext fun a => by fin_cases a <;> rfl
theorem hzB32 : (![0, 0] : Fin 2 → Nat) = fun _ => 0 := funext fun a => by fin_cases a <;> rfl

/-- The grid is the batch: point `t` works on batch `t`. -/
noncomputable def batch32 (t : Fin cfg32.N) : Fin 4 := ⟨t.val, lt_of_lt_of_eq t.isLt N_32⟩

/-- The printed index maps, decided over the four points: the three batched windows sit at block `(t, 0, 0)`, the bias
    row at its one block. -/
theorem idx_facts32 : ∀ t : Fin cfg32.N,
    win32_0.index t (0 : Fin 3) = t.val ∧ win32_0.index t (1 : Fin 3) = 0 ∧ win32_0.index t (2 : Fin 3) = 0
    ∧ win32_1.index t (0 : Fin 3) = t.val ∧ win32_1.index t (1 : Fin 3) = 0 ∧ win32_1.index t (2 : Fin 3) = 0
    ∧ win32_2.index t (0 : Fin 2) = 0 ∧ win32_2.index t (1 : Fin 2) = 0
    ∧ win32_3.index t (0 : Fin 3) = t.val ∧ win32_3.index t (1 : Fin 3) = 0 ∧ win32_3.index t (2 : Fin 3) = 0 :=
  (by decide +kernel : ∀ t : Fin grid32.N, _)

/-- Batch `b`'s eight rows of the first product's slice, as a block. -/
noncomputable def blk32_0 (c : Dev nD) (b : Fin 4) : Vec Ideal S1x8x768 .f32 :=
  fun y => (V c main_v97 : S4x8x768.Idx → EReal) (ix3 b (y 1 : Fin 8) (y 2 : Fin 768))
/-- Batch `b`'s 8 rows of the second product's slice, as a block. -/
noncomputable def blk32_1 (c : Dev nD) (b : Fin 4) : Vec Ideal S1x8x768 .f32 :=
  fun y => (V c main_v98 : S4x8x768.Idx → EReal) (ix3 b (y 1 : Fin 8) (y 2 : Fin 768))
/-- The bias row. -/
noncomputable def blk32_2 (c : Dev nD) : Vec Ideal S1x768 .f32 := fun y => (V c main_v4 : S1x768.Idx → EReal) y

theorem iblk32_0_eq (c : Dev nD) (t : Fin cfg32.N) : (iblk32 V c 0 t : Vec Ideal S1x8x768 .f32) = blk32_0 V c (batch32 t) := by
  obtain ⟨e0, e1, e2, -⟩ := idx_facts32 t
  funext y
  unfold iblk32 blk32_0
  rw [View.read_apply]
  show V c main_v97 _ = V c main_v97 _
  congr 1
  funext a
  apply Fin.ext
  match a with
  | ⟨0, _⟩ => show win32_0.index t (0 : Fin 3) * 1 + 1 * (y 0).val = t.val; have hy : (y 0).val < 1 := (y 0).isLt; omega
  | ⟨1, _⟩ => show win32_0.index t (1 : Fin 3) * 8 + 1 * (y 1).val = (y 1).val; omega
  | ⟨2, _⟩ => show win32_0.index t (2 : Fin 3) * 768 + 1 * (y 2).val = (y 2).val; omega

theorem iblk32_1_eq (c : Dev nD) (t : Fin cfg32.N) : (iblk32 V c 1 t : Vec Ideal S1x8x768 .f32) = blk32_1 V c (batch32 t) := by
  obtain ⟨-, -, -, e0, e1, e2, -⟩ := idx_facts32 t
  funext y
  unfold iblk32 blk32_1
  rw [View.read_apply]
  show V c main_v98 _ = V c main_v98 _
  congr 1
  funext a
  apply Fin.ext
  match a with
  | ⟨0, _⟩ => show win32_1.index t (0 : Fin 3) * 1 + 1 * (y 0).val = t.val; have hy : (y 0).val < 1 := (y 0).isLt; omega
  | ⟨1, _⟩ => show win32_1.index t (1 : Fin 3) * 8 + 1 * (y 1).val = (y 1).val; omega
  | ⟨2, _⟩ => show win32_1.index t (2 : Fin 3) * 768 + 1 * (y 2).val = (y 2).val; omega

theorem iblk32_2_eq (c : Dev nD) (t : Fin cfg32.N) : (iblk32 V c 2 t : Vec Ideal S1x768 .f32) = blk32_2 V c := by
  obtain ⟨-, -, -, -, -, -, e0, e1, -⟩ := idx_facts32 t
  funext y
  unfold iblk32 blk32_2
  rw [View.read_apply]
  show V c main_v4 _ = V c main_v4 _
  congr 1
  funext a
  apply Fin.ext
  match a with
  | ⟨0, _⟩ => show win32_2.index t (0 : Fin 2) * 1 + 1 * (y 0).val = (y 0).val; omega
  | ⟨1, _⟩ => show win32_2.index t (1 : Fin 2) * 768 + 1 * (y 1).val = (y 1).val; omega

/-- The result array as ONE function of the three arrays the chunk reads: at batch `b`, row `p`, the value the body
    stores for batch `b`'s blocks, read at row `p`. -/
noncomputable def G32 (c : Dev nD) : S4x36x768.Idx → EReal :=
  fun i => stored32 (blk32_0 V c (i 0 : Fin 4)) (blk32_1 V c (i 0 : Fin 4)) (blk32_2 V c) (ix3 (0 : Fin 1) (i 1 : Fin 36) (i 2 : Fin 768))

/-- What point `t` writes back is block `t` of `G32`. -/
theorem flushed32_eq (c : Dev nD) (t : Fin cfg32.N) :
    (dat32 (F := Ideal) V c).flushed 3 t = ((cfg32.win 3).blk t).view.read (Elt Ideal) (G32 V c) := by
  obtain ⟨-, -, -, -, -, -, -, -, e0, e1, e2⟩ := idx_facts32 t
  show (cfg32.win 3).cut (grid32.coords t) ((dat32 (F := Ideal) V c).after 3 t) = _
  rw [after32_3]
  unfold out32_3
  rw [View.canon_unit_zero hzA32]
  simp only [View.ld_unit_zero (S := S1x8x768) hzA32, View.ld_unit_zero (S := S1x8x768) hzA32, View.ld_unit_zero (S := S1x768) hzB32]
  rw [iblk32_0_eq, iblk32_1_eq, iblk32_2_eq]
  funext j
  show stored32 (blk32_0 V c (batch32 t)) (blk32_1 V c (batch32 t)) (blk32_2 V c) j = G32 V c (((cfg32.win 3).blk t).view.emb j)
  have hj0 : (j 0).val < 1 := (j 0).isLt
  have he : ((cfg32.win 3).blk t).view.emb j = (ix3 (batch32 t) (j 1 : Fin 36) (j 2 : Fin 768) : S4x36x768.Idx) := by
    funext a
    apply Fin.ext
    match a with
    | ⟨0, _⟩ => show win32_3.index t (0 : Fin 3) * 1 + 1 * (j 0).val = t.val; omega
    | ⟨1, _⟩ => show win32_3.index t (1 : Fin 3) * 36 + 1 * (j 1).val = (j 1).val; omega
    | ⟨2, _⟩ => show win32_3.index t (2 : Fin 3) * 768 + 1 * (j 2).val = (j 2).val; omega
  rw [he]
  show _ = stored32 (blk32_0 V c (batch32 t)) (blk32_1 V c (batch32 t)) (blk32_2 V c) (ix3 (0 : Fin 1) (j 1 : Fin 36) (j 2 : Fin 768))
  congr 1
  funext a
  apply Fin.ext
  match a with
  | ⟨0, _⟩ => show (j 0).val = 0; omega
  | ⟨1, _⟩ => rfl
  | ⟨2, _⟩ => rfl

/-- An index of the array is in point `t`'s block iff each coordinate is in the block's range on its axis. -/
theorem mem_blk32 (t : Fin cfg32.N) (i : S4x36x768.Idx) :
    i ∈ ((cfg32.win 3).blk t).view.set ↔ ∀ a : Fin 3, win32_3.index t a * S1x36x768.size a ≤ (i a).val ∧ (i a).val < win32_3.index t a * S1x36x768.size a + S1x36x768.size a := by
  show i ∈ ((View.whole main_v99).slice (win32_3.rect t)).set ↔ _
  rw [View.set_slice_whole, Rect.mem_set_unit]
  exact Iff.rfl

/-- Batch `b` of the result is written by point `b`. -/
theorem cover32 (i : S4x36x768.Idx) : ∃ t : Fin cfg32.N, (cfg32.win 3).flush t = true ∧ i ∈ ((cfg32.win 3).blk t).view.set := by
  have hi0 : (i 0).val < 4 := (i 0).isLt
  have hi1 : (i 1).val < 36 := (i 1).isLt
  have hi2 : (i 2).val < 768 := (i 2).isLt
  let t : Fin cfg32.N := ⟨(i 0).val, lt_of_lt_of_eq hi0 N_32.symm⟩
  obtain ⟨-, -, -, -, -, -, -, -, e0, e1, e2⟩ := idx_facts32 t
  refine ⟨t, flush32_3 t, ?_⟩
  rw [mem_blk32]
  intro a
  match a with
  | ⟨0, _⟩ => show win32_3.index t (0 : Fin 3) * 1 ≤ (i 0).val ∧ (i 0).val < win32_3.index t (0 : Fin 3) * 1 + 1; rw [e0]; show (i 0).val * 1 ≤ (i 0).val ∧ (i 0).val < (i 0).val * 1 + 1; omega
  | ⟨1, _⟩ => show win32_3.index t (1 : Fin 3) * 36 ≤ (i 1).val ∧ (i 1).val < win32_3.index t (1 : Fin 3) * 36 + 36; omega
  | ⟨2, _⟩ => show win32_3.index t (2 : Fin 3) * 768 ≤ (i 2).val ∧ (i 2).val < win32_3.index t (2 : Fin 3) * 768 + 768; omega

/-- The result array after the region is `G32`. -/
theorem arr32_eq (c : Dev nD) : (dat32 (F := Ideal) V c).arrAt 3 cfg32.N = G32 V c :=
  (dat32 (F := Ideal) V c).arrAt_eq_of_cover 3 (G32 V c) (fun t _ => flushed32_eq V c t) cover32

/-- The three arrays the chunk reads, at their literal types (so that their entries add as extended reals). -/
abbrev src32_0 (c : Dev nD) : S4x8x768.Idx → EReal := V c main_v97
abbrev src32_1 (c : Dev nD) : S4x8x768.Idx → EReal := V c main_v98
abbrev src32_2 (c : Dev nD) : S1x768.Idx → EReal := V c main_v4

/-- The result array at batch `b`, row `locOff 8 r + d`: the pair of row `r` of the first slice with row `r + d` of
    the second, at batch `b`. -/
theorem final32 (c : Dev nD) (b : Fin 4) (r : Fin 8) (d : ℕ) (q : Fin 8) (hq : q.val = r.val + d)
    (p : Fin 36) (hp : p.val = locOff 8 r.val + d) (o : Fin 768) :
    (dat32 (F := Ideal) V c).arrAt 3 cfg32.N (ix3 b p o)
      = Ideal.tanh ((src32_0 V c (ix3 b r o) + src32_1 V c (ix3 b q o)) + src32_2 V c (ix2 0 o)) := by
  rw [arr32_eq]
  show stored32 (blk32_0 V c b) (blk32_1 V c b) (blk32_2 V c) (ix3 0 p o) = _
  rw [pay32_apply _ _ _ r d q hq p hp o]
  rfl

end Cert.KernelIdeal.Val

end
-- ==== Proof.KI.Case32.lean ====
import proofs.«116342_j30605936951494_1_alg».proof.Proof.KI.KeepOut
import proofs.«116342_j30605936951494_1_alg».proof.Proof.KI.Proj
import proofs.«116342_j30605936951494_1_alg».proof.Proof.KI.Bands
import proofs.«116342_j30605936951494_1_alg».proof.Proof.KI.OutPiece
import proofs.«116342_j30605936951494_1_alg».proof.Proof.KI.ValT32
import proofs.«116342_j30605936951494_1_alg».proof.Proof.KI.PayLib

/-!
# Chunk 32 of the triangle: the pairs (i, j) with 248 ≤ i < 248 + 8

The chunk's region reads three arrays: its eight rows 248 … 248 + 7 of the first projection, the rows 248 … 255 of the
second, and the bias row, each cut by the host from what boundary 3 holds. Its result, still in place when the last
stretch reads it, holds at local row `locOff 8 r + d` the value of the pair (248 + r, 248 + r + d). In the packed
order the chunk starts at row 32860 = triOff 248 and the pair (i, j) sits at `triOff i + (j - i)`: with `r = i mod 8` and
`d = j - i` that is row 32860 + (locOff 8 r + d) of the result, inside this chunk's piece of the concatenation.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- The chunk's result at the last stretch's entry: local row `locOff 8 r + d` holds the pair (248 + r, 248 + r + d). -/
theorem chunk32 (c : Dev nD) (b : Fin 4) (r : Fin 8) (d : ℕ) (hd : r.val + d < 8) (p : Fin 36)
    (hp : p.val = locOff 8 r.val + d) (o : Fin 768) :
    (W66 m ρ c (Proc.devRef .tc main_v99) : Vec Ideal S4x36x768 .f32) (ix3 b p o)
      = Cert.Tri.pairValue (argX m c) (argW m c) (argB m c) b ⟨248 + r.val, by omega⟩ ⟨248 + r.val + d, by omega⟩ o := by
  have e0 : src32_0 (V65 m ρ) c (ix3 b r o)
      = Cert.Tri.proj1 (argX m c) (argW m c) b ⟨248 + r.val, by omega⟩ o :=
    (host32_rows (W64 m ρ c) b r o ⟨248 + r.val, by omega⟩ rfl).trans
      ((congrFun (W64_main_v2 m ρ c) _).trans (p1_W3 m ρ c b _ o))
  have e1 : src32_1 (V65 m ρ) c (ix3 b (⟨r.val + d, hd⟩ : Fin 8) o)
      = Cert.Tri.proj2 (argX m c) (argW m c) b ⟨248 + r.val + d, by omega⟩ o :=
    (host32_pair (W64 m ρ c) b ⟨r.val + d, hd⟩ o ⟨248 + r.val + d, by omega⟩
        (by show 248 + r.val + d = 248 + (r.val + d); omega)).trans
      ((congrFun (W64_main_v3 m ρ c) _).trans (p2_W3 m ρ c b _ o))
  have e2 : src32_2 (V65 m ρ) c (ix2 0 o) = argB m c (ix1 o) :=
    (congrFun (W65_main_v4 m ρ c) _).trans (bias_W3 m ρ c 0 o)
  calc (W66 m ρ c (Proc.devRef .tc main_v99) : Vec Ideal S4x36x768 .f32) (ix3 b p o)
      = ((dat32 (F := Ideal) (V65 m ρ) c).arrAt 3 cfg32.N : Vec Ideal S4x36x768 .f32) (ix3 b p o) :=
        congrFun (out32_final m ρ c) _
    _ = Ideal.tanh ((src32_0 (V65 m ρ) c (ix3 b r o) + src32_1 (V65 m ρ) c (ix3 b (⟨r.val + d, hd⟩ : Fin 8) o))
          + src32_2 (V65 m ρ) c (ix2 0 o)) :=
        final32 (V65 m ρ) c b r d ⟨r.val + d, hd⟩ rfl p hp o
    _ = Cert.Tri.pairValue (argX m c) (argW m c) (argB m c) b ⟨248 + r.val, by omega⟩ ⟨248 + r.val + d, by omega⟩ o := by
        rw [e0, e1, e2]
        rfl

/-- The program's result at the rank of a pair (i, j) of this chunk (`i / 8 = 31`). -/
theorem case32 (c : Dev nD) (b : Fin 4) (i j : Fin 256) (o : Fin 768) (hij : i.val ≤ j.val) (hK : i.val / 8 = 31) :
    (W67 m ρ c (Proc.devRef .tc main_v102) : Vec Ideal S4x32896x768 .f32)
        (ix3 b ⟨Cert.Tri.rank i.val j.val, Cert.Tri.rank_lt hij j.isLt⟩ o)
      = Cert.Tri.pairValue (argX m c) (argW m c) (argB m c) b i j o := by
  have hr : i.val % 8 < 8 := Nat.mod_lt _ (by norm_num)
  have hi : 248 + i.val % 8 = i.val := by omega
  have hj : 248 + i.val % 8 + (j.val - i.val) = j.val := by omega
  have hd : i.val % 8 + (j.val - i.val) < 8 := by have := j.isLt; omega
  have hT : locOff 8 (i.val % 8) + (j.val - i.val) < 36 := by
    have := locOff_add_lt (L := 8) hr (by norm_num) hd
    omega
  have hrank : Cert.Tri.rank i.val j.val = 32860 + (locOff 8 (i.val % 8) + (j.val - i.val)) := by
    have h0 : Cert.Tri.triOff i.val = Cert.Tri.triOff (248 + i.val % 8) := congrArg Cert.Tri.triOff hi.symm
    have h1 : Cert.Tri.triOff (248 + i.val % 8) = Cert.Tri.triOff 248 + locOff 8 (i.val % 8) :=
      triOff_add_locOff 248 (i.val % 8)
    have h2 : Cert.Tri.triOff 248 = 32860 := triOff_chunk_eq 31 248 32860 (by norm_num) rfl rfl
    unfold Cert.Tri.rank
    omega
  refine (out_piece32 (W66 m ρ c) b _ ⟨_, hT⟩ o hrank).trans ?_
  refine (chunk32 m ρ c b ⟨i.val % 8, hr⟩ (j.val - i.val) hd ⟨_, hT⟩ rfl o).trans ?_
  exact congrArg₂ (fun i' j' : Fin 256 => Cert.Tri.pairValue (argX m c) (argW m c) (argB m c) b i' j' o)
    (Fin.ext hi) (Fin.ext hj)

end Cert.KernelIdeal.Val

end
-- ==== Proof.KI.KernelValue.lean ====
/-
  The kernel program's result holds the handshake of its arguments.

  A pair (i, j), i ≤ j < 256, belongs to the chunk of eight rows that holds i: chunk `i / 8 + 1` of 32. Each chunk's
  module proves that the result buffer, at the rank of any of its pairs, holds that pair's value; here the 32 are put
  together.
-/
import proofs.«116342_j30605936951494_1_alg».proof.Proof.KI.Case1
import proofs.«116342_j30605936951494_1_alg».proof.Proof.KI.Case2
import proofs.«116342_j30605936951494_1_alg».proof.Proof.KI.Case3
import proofs.«116342_j30605936951494_1_alg».proof.Proof.KI.Case4
import proofs.«116342_j30605936951494_1_alg».proof.Proof.KI.Case5
import proofs.«116342_j30605936951494_1_alg».proof.Proof.KI.Case6
import proofs.«116342_j30605936951494_1_alg».proof.Proof.KI.Case7
import proofs.«116342_j30605936951494_1_alg».proof.Proof.KI.Case8
import proofs.«116342_j30605936951494_1_alg».proof.Proof.KI.Case9
import proofs.«116342_j30605936951494_1_alg».proof.Proof.KI.Case10
import proofs.«116342_j30605936951494_1_alg».proof.Proof.KI.Case11
import proofs.«116342_j30605936951494_1_alg».proof.Proof.KI.Case12
import proofs.«116342_j30605936951494_1_alg».proof.Proof.KI.Case13
import proofs.«116342_j30605936951494_1_alg».proof.Proof.KI.Case14
import proofs.«116342_j30605936951494_1_alg».proof.Proof.KI.Case15
import proofs.«116342_j30605936951494_1_alg».proof.Proof.KI.Case16
import proofs.«116342_j30605936951494_1_alg».proof.Proof.KI.Case17
import proofs.«116342_j30605936951494_1_alg».proof.Proof.KI.Case18
import proofs.«116342_j30605936951494_1_alg».proof.Proof.KI.Case19
import proofs.«116342_j30605936951494_1_alg».proof.Proof.KI.Case20
import proofs.«116342_j30605936951494_1_alg».proof.Proof.KI.Case21
import proofs.«116342_j30605936951494_1_alg».proof.Proof.KI.Case22
import proofs.«116342_j30605936951494_1_alg».proof.Proof.KI.Case23
import proofs.«116342_j30605936951494_1_alg».proof.Proof.KI.Case24
import proofs.«116342_j30605936951494_1_alg».proof.Proof.KI.Case25
import proofs.«116342_j30605936951494_1_alg».proof.Proof.KI.Case26
import proofs.«116342_j30605936951494_1_alg».proof.Proof.KI.Case27
import proofs.«116342_j30605936951494_1_alg».proof.Proof.KI.Case28
import proofs.«116342_j30605936951494_1_alg».proof.Proof.KI.Case29
import proofs.«116342_j30605936951494_1_alg».proof.Proof.KI.Case30
import proofs.«116342_j30605936951494_1_alg».proof.Proof.KI.Case31
import proofs.«116342_j30605936951494_1_alg».proof.Proof.KI.Case32
import Mathlib.Tactic.IntervalCases

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (ρ : Dev nD → PrngReg)

/-- What the program returns with, on core `c`, holds `tanh ((p₁ b i o + p₂ b j o) + β o)` at the rank of every pair
    `i ≤ j`, for the hidden state, weight and bias it was launched with. -/
theorem kernel_holds (c : Dev nD) :
    Cert.Tri.HoldsPairs (argX m c) (argW m c) (argB m c)
      (W67 m ρ c (Proc.devRef .tc main_v102) : Vec Ideal S4x32896x768 .f32) := by
  intro b i j o hij
  have key : ∀ n, n < 32 → i.val / 8 = n →
      (W67 m ρ c (Proc.devRef .tc main_v102) : Vec Ideal S4x32896x768 .f32)
          (ix3 b ⟨Cert.Tri.rank i.val j.val, Cert.Tri.rank_lt hij j.isLt⟩ o)
        = Cert.Tri.pairValue (argX m c) (argW m c) (argB m c) b i j o := by
    intro n hn
    interval_cases n <;> intro h
    exacts [case1 m ρ c b i j o hij h,
    case2 m ρ c b i j o hij h,
    case3 m ρ c b i j o hij h,
    case4 m ρ c b i j o hij h,
    case5 m ρ c b i j o hij h,
    case6 m ρ c b i j o hij h,
    case7 m ρ c b i j o hij h,
    case8 m ρ c b i j o hij h,
    case9 m ρ c b i j o hij h,
    case10 m ρ c b i j o hij h,
    case11 m ρ c b i j o hij h,
    case12 m ρ c b i j o hij h,
    case13 m ρ c b i j o hij h,
    case14 m ρ c b i j o hij h,
    case15 m ρ c b i j o hij h,
    case16 m ρ c b i j o hij h,
    case17 m ρ c b i j o hij h,
    case18 m ρ c b i j o hij h,
    case19 m ρ c b i j o hij h,
    case20 m ρ c b i j o hij h,
    case21 m ρ c b i j o hij h,
    case22 m ρ c b i j o hij h,
    case23 m ρ c b i j o hij h,
    case24 m ρ c b i j o hij h,
    case25 m ρ c b i j o hij h,
    case26 m ρ c b i j o hij h,
    case27 m ρ c b i j o hij h,
    case28 m ρ c b i j o hij h,
    case29 m ρ c b i j o hij h,
    case30 m ρ c b i j o hij h,
    case31 m ρ c b i j o hij h,
    case32 m ρ c b i j o hij h]
  exact key (i.val / 8) (by have := i.isLt; omega) rfl

end Cert.KernelIdeal.Val

end
-- ==== Proof.RefFold.lean ====
import Idealize.ShloMosaic.Lib.StableHlo.Run

/-! # Reading a single-assignment line of operations buffer by buffer

A straight line of StableHLO operations in which the operation at position `j` writes exactly one buffer, and
that buffer is the one numbered `n + j` in the TensorCore's table, is in single-assignment form: a buffer is
written once, and only buffers numbered lower than an operation's own result can have been written before it.
Two facts about the fold `after` follow. A buffer numbered below `n + k` has the same contents after the
first `k` operations as after the whole line (no later operation writes it). And the buffer the operation at
position `k` writes holds, after the whole line, that operation's result over the contents after the first `k`
operations. Together: each written buffer's final contents are its operation's function of its operands' FINAL
contents, which is what lets the line be read one buffer at a time. -/

namespace Cert.ReferenceIdeal.RefRun

open Idealize.ShloMosaic Idealize.ShloMosaic.StableHlo

variable {τ : Topo} {sig : RefSig} {Val : EltTy → Type}

/-- The number of a TensorCore reference in its table. -/
def num (r : Ref sig .tc) : Nat := r.idx.val

theorem ne_of_num_ne {r r' : Ref sig .tc} (h : num r ≠ num r') : r ≠ r' := fun e => h (e ▸ rfl)

/-- Single assignment in table order: the operation at position `j` of the line writes exactly one buffer, the
    reference numbered `n + j`. -/
def WritesFrom : Nat → List (HloOp τ sig Val) → Prop
  | _, [] => True
  | n, op :: ops => (∃ r : Ref sig .tc, op.writes = {Proc.devRef (τ := τ) .tc r} ∧ num r = n) ∧ WritesFrom (n + 1) ops

namespace WritesFrom

/-- No operation of such a line writes a buffer numbered below the line's first. -/
theorem not_mem_writes : ∀ {n : Nat} {ops : List (HloOp τ sig Val)}, WritesFrom n ops → ∀ {r : Ref sig .tc}, num r < n →
    ∀ op ∈ ops, Proc.devRef (τ := τ) .tc r ∉ op.writes
  | _, [], _, _, _, _, h => nomatch h
  | n, o :: ops, ⟨⟨r', hw, hn⟩, hrest⟩, r, hr, op, hop => by
    rcases List.mem_cons.mp hop with rfl | hop
    · rw [hw, Finset.mem_singleton]
      exact devRef_ne_of_ne (ne_of_num_ne (by omega))
    · exact not_mem_writes hrest (Nat.lt_succ_of_lt hr) op hop

/-- A buffer numbered below the line's first keeps its contents. -/
theorem after_low {n : Nat} {ops : List (HloOp τ sig Val)} (h : WritesFrom n ops) (V : Valuation τ sig Val) {r : Ref sig .tc}
    (hr : num r < n) : after ops V (Proc.devRef .tc r) = V (Proc.devRef .tc r) :=
  after_of_forall_not_mem ops V (h.not_mem_writes hr)

/-- A buffer numbered below `n + k` is not written from position `k` on: its contents after the first `k`
    operations are its contents after all of them. -/
theorem after_take : ∀ {n : Nat} {ops : List (HloOp τ sig Val)}, WritesFrom n ops → ∀ (V : Valuation τ sig Val) (k : Nat)
    {r : Ref sig .tc}, num r < n + k → after (ops.take k) V (Proc.devRef .tc r) = after ops V (Proc.devRef .tc r)
  | _, [], _, _, _, _, _ => by rw [List.take_nil]
  | _, _ :: _, h, V, 0, _, hr => by rw [List.take_zero, after_nil, h.after_low V hr]
  | _, o :: ops, h, V, k + 1, _, hr => by
    rw [List.take_succ_cons, after_cons, after_cons]
    exact after_take h.2 (o.result V) k (by omega)

/-- The buffer the operation at position `k` writes (or any numbered no higher) holds, after the whole line, what
    that operation leaves there over the contents after the first `k` operations. -/
theorem after_at : ∀ {n : Nat} {ops : List (HloOp τ sig Val)}, WritesFrom n ops → ∀ (V : Valuation τ sig Val) (k : Nat)
    {op : HloOp τ sig Val}, ops[k]? = some op → ∀ {r : Ref sig .tc}, num r < n + (k + 1) →
    after ops V (Proc.devRef .tc r) = op.result (after (ops.take k) V) (Proc.devRef .tc r)
  | _, [], _, _, _, _, hop, _, _ => by simp at hop
  | _, o :: ops, h, V, 0, op, hop, _, hr => by
    obtain rfl : o = op := by simpa using hop
    rw [List.take_zero, after_nil, after_cons, h.2.after_low _ (by omega)]
  | _, o :: ops, h, V, k + 1, op, hop, _, hr => by
    rw [List.take_succ_cons, after_cons, after_cons]
    exact after_at h.2 (o.result V) k (by simpa using hop) (by omega)

/-- The operation at position `k` writes the buffer numbered `n + k`. -/
theorem num_at : ∀ {n : Nat} {ops : List (HloOp τ sig Val)}, WritesFrom n ops → ∀ (k : Nat) {op : HloOp τ sig Val},
    ops[k]? = some op → ∀ {y : Ref sig .tc}, op.writes = {Proc.devRef (τ := τ) .tc y} → num y = n + k
  | _, [], _, _, _, hop, _, _ => by simp at hop
  | _, o :: ops, ⟨⟨r, hw, hn⟩, _⟩, 0, op, hop, y, hy => by
    obtain rfl : o = op := by simpa using hop
    have e : Proc.devRef (τ := τ) .tc y = Proc.devRef .tc r := Finset.singleton_injective (hy.symm.trans hw)
    rw [Proc.devRef_injective _ e, hn]; rfl
  | _, o :: ops, h, k + 1, op, hop, y, hy => by
    rw [num_at h.2 k (by simpa using hop) hy]; omega

end WritesFrom

/-! ## One operation of the line, by its builder

Each written buffer after the whole line, as its operation's function of its operands' contents after the whole
line. The operation is named by its position; its operands are numbered below its own result. -/

section Steps

variable {n : Nat} {ops : List (HloOp τ sig Val)} (h : WritesFrom n ops) (V : Valuation τ sig Val) (k : Nat)
variable {x a b c y : Ref sig .tc}
include h

theorem step_nullary {v : y.ty.Contents Val} {hy}
    (hop : ops[k]? = some (nullary (τ := τ) y v hy)) :
    after ops V (Proc.devRef .tc y) = v := by
  rw [h.after_at V k hop (by rw [h.num_at k hop (nullary_writes y v hy)]; omega), nullary_result]

theorem step_unary {f : x.ty.Contents Val → y.ty.Contents Val} {hx hy}
    (hop : ops[k]? = some (unary (τ := τ) x y f hx hy)) (nx : num x < n + k)
    {vx : x.ty.Contents Val} (ex : after ops V (Proc.devRef .tc x) = vx) :
    after ops V (Proc.devRef .tc y) = f vx := by
  rw [h.after_at V k hop (by rw [h.num_at k hop (unary_writes x y f hx hy)]; omega), unary_result, h.after_take V k nx, ex]

theorem step_binary {f : a.ty.Contents Val → b.ty.Contents Val → y.ty.Contents Val} {ha hb hy}
    (hop : ops[k]? = some (binary (τ := τ) a b y f ha hb hy)) (na : num a < n + k) (nb : num b < n + k)
    {va : a.ty.Contents Val} {vb : b.ty.Contents Val}
    (ea : after ops V (Proc.devRef .tc a) = va) (eb : after ops V (Proc.devRef .tc b) = vb) :
    after ops V (Proc.devRef .tc y) = f va vb := by
  rw [h.after_at V k hop (by rw [h.num_at k hop (binary_writes a b y f ha hb hy)]; omega), binary_result,
    h.after_take V k na, h.after_take V k nb, ea, eb]

theorem step_ternary {f : c.ty.Contents Val → a.ty.Contents Val → b.ty.Contents Val → y.ty.Contents Val} {hc ha hb hy}
    (hop : ops[k]? = some (ternary (τ := τ) c a b y f hc ha hb hy)) (nc : num c < n + k) (na : num a < n + k) (nb : num b < n + k)
    {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [h.after_at V k hop (by rw [h.num_at k hop (ternary_writes _ _ _ _ f hc ha hb hy)]; omega), ternary_result,
    h.after_take V k nc, h.after_take V k na, h.after_take V k nb, ec, ea, eb]

theorem step_reshape {he : x.ty.elt = y.ty.elt} {hn : x.ty.shape.ShapeCasts y.ty.shape} {hx hy}
    (hop : ops[k]? = some (reshape (τ := τ) (Val := Val) x y he hn hx hy)) (nx : num x < n + k)
    {vx : x.ty.Contents Val} (ex : after ops V (Proc.devRef .tc x) = vx) :
    after ops V (Proc.devRef .tc y) = fun i => he ▸ shapeCast y.ty.shape vx hn i := by
  rw [h.after_at V k hop (by rw [h.num_at k hop (reshape_writes x y he hn hx hy)]; omega), reshape_result,
    h.after_take V k nx, ex]

end Steps

end Cert.ReferenceIdeal.RefRun
-- ==== Proof.RefOps.lean ====
import proofs.«116342_j30605936951494_1_alg».proof.ReferenceIdeal
import proofs.«116342_j30605936951494_1_alg».proof.Proof.Gen.ReferenceIdeal
import proofs.«116342_j30605936951494_1_alg».proof.Proof.RefFold

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 144 operations in order, each call's body in the call's place over that call's buffers. -/
abbrev ops : List (HloOp τ sig (Elt F)) :=
  [ unary main_arg1 main_v0 ((extractStridedSlice S768x768 ![0, 0] · slices_S768x1536_S768x768_0_0) : (⟨S768x1536, .f32⟩ : BufTy).Contents (Elt F) → (⟨S768x768, .f32⟩ : BufTy).Contents (Elt F)),
    unary main_arg1 main_v1 ((extractStridedSlice S768x768 ![0, 768] · slices_S768x1536_S768x768_0_768) : (⟨S768x1536, .f32⟩ : BufTy).Contents (Elt F) → (⟨S768x768, .f32⟩ : BufTy).Contents (Elt F)),
    binary main_arg0 main_v0 main_v2 ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F)),
    binary main_arg0 main_v1 main_v3 ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F)),
    nullary main_cst (constant S_ .f32 0x3F800000#32),
    unary main_cst main_v4 (broadcastInDim S256x256 ![] bcast_S_S256x256 : (⟨S_, .f32⟩ : BufTy).Contents (Elt F) → (⟨S256x256, .f32⟩ : BufTy).Contents (Elt F)),
    TRef.nullary main_call0.v0 (iotaInDim S256x256 32 0),
    TRef.nullary main_call0.c (constantI S_ 32 4294967295#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.cst (constant S_ .f32 0x00000000#32),
    TRef.unary main_call0.cst main_call0.v5 (broadcastInDim S256x256 ![] bcast_S_S256x256),
    TRef.ternary main_call0.v4 main_call0.v5 (.of main_v4 : TRef sig ⟨S256x256, .f32⟩) main_call0.v6 select,
    nullary main_cst_0 (constant S_ .f32 0x00000000#32),
    unary main_cst_0 main_v6 (broadcastInDim S256x256 ![] bcast_S_S256x256 : (⟨S_, .f32⟩ : BufTy).Contents (Elt F) → (⟨S256x256, .f32⟩ : BufTy).Contents (Elt F)),
    binary main_v5 main_v6 main_v7 (cmpf .une : (⟨S256x256, .f32⟩ : BufTy).Contents (Elt F) → (⟨S256x256, .f32⟩ : BufTy).Contents (Elt F) → (⟨S256x256, .i1⟩ : BufTy).Contents (Elt F)),
    TRef.reshape (.of main_v7 : TRef sig ⟨S256x256, .i1⟩) main_call1.v0 rfl shapeCasts_S256x256_S65536,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![65536] ![1] ![65535] ![0] x v reduceWindows_S65536_S65536_w65536s1p65535_0 h_S_),
    nullary main_c (constantI S_ 32 0#32),
    unary main_c main_v9 (broadcastInDim S32896 ![] bcast_S_S32896 : (⟨S_, .i32⟩ : BufTy).Contents (Elt F) → (⟨S32896, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S65536 ![] bcast_S_S65536),
    TRef.binary main_call2.v1 (.of main_v8 : TRef sig ⟨S65536, .i32⟩) main_call2.v2 maxsi,
    nullary main_c_2 (constantI S_ 32 0#32),
    unary main_c_2 main_v11 (broadcastInDim S65536 ![] bcast_S_S65536 : (⟨S_, .i32⟩ : BufTy).Contents (Elt F) → (⟨S65536, .i32⟩ : BufTy).Contents (Elt F)),
    binary main_v10 main_v11 main_v12 (cmpi .slt : (⟨S65536, .i32⟩ : BufTy).Contents (Elt F) → (⟨S65536, .i32⟩ : BufTy).Contents (Elt F) → (⟨S65536, .i1⟩ : BufTy).Contents (Elt F)),
    nullary main_c_3 (constantI S_ 32 32896#32),
    unary main_c_3 main_v13 (broadcastInDim S65536 ![] bcast_S_S65536 : (⟨S_, .i32⟩ : BufTy).Contents (Elt F) → (⟨S65536, .i32⟩ : BufTy).Contents (Elt F)),
    binary main_v10 main_v13 main_v14 (addi : (⟨S65536, .i32⟩ : BufTy).Contents (Elt F) → (⟨S65536, .i32⟩ : BufTy).Contents (Elt F) → (⟨S65536, .i32⟩ : BufTy).Contents (Elt F)),
    ternary main_v12 main_v14 main_v10 main_v15 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v15 main_v16 (broadcastInDim S65536x1 ![0] bcast_S65536_S65536x1_0 : (⟨S65536, .i32⟩ : BufTy).Contents (Elt F) → (⟨S65536x1, .i32⟩ : BufTy).Contents (Elt F)),
    nullary main_c_4 (constantI S_ 32 1#32),
    unary main_c_4 main_v17 (broadcastInDim S65536 ![] bcast_S_S65536 : (⟨S_, .i32⟩ : BufTy).Contents (Elt F) → (⟨S65536, .i32⟩ : BufTy).Contents (Elt F)),
    ternary main_v9 main_v16 main_v17 main_v18 ((fun x i u => Host.scatter scatter_S32896_S65536x1_S65536_n_0_0_1 IntOp.addi x i u) : (⟨S32896, .i32⟩ : BufTy).Contents (Elt F) → (⟨S65536x1, .i32⟩ : BufTy).Contents (Elt F) → (⟨S65536, .i32⟩ : BufTy).Contents (Elt F) → (⟨S32896, .i32⟩ : BufTy).Contents (Elt F)),
    TRef.nullary main_call3.call0.c (constantI S_ 32 0#32),
    TRef.unary main_call3.call0.c main_call3.call0.v0 (broadcastInDim S_ ![] bcast_S_S_),
    TRef.binary (.of main_v18 : TRef sig ⟨S32896, .i32⟩) main_call3.call0.v0 main_call3.call0.v1 (fun x v => Host.reduceWindow IntOp.addi ![32896] ![1] ![32895] ![0] x v reduceWindows_S32896_S32896_w32896s1p32895_0 h_S_),
    nullary main_c_5 (constantI S_ 32 256#32),
    TRef.unary (.of main_c_5 : TRef sig ⟨S_, .i32⟩) main_call4.v0 (broadcastInDim S32896 ![] bcast_S_S32896),
    TRef.binary (.of main_v19 : TRef sig ⟨S32896, .i32⟩) main_call4.v0 main_call4.v1 Host.divsi,
    TRef.unary (.of main_v19 : TRef sig ⟨S32896, .i32⟩) main_call4.v2 signi,
    TRef.unary (.of main_c_5 : TRef sig ⟨S_, .i32⟩) main_call4.v3 signi,
    TRef.unary main_call4.v3 main_call4.v4 (broadcastInDim S32896 ![] bcast_S_S32896),
    TRef.binary main_call4.v2 main_call4.v4 main_call4.v5 (cmpi .ne),
    TRef.unary (.of main_c_5 : TRef sig ⟨S_, .i32⟩) main_call4.v6 (broadcastInDim S32896 ![] bcast_S_S32896),
    TRef.binary (.of main_v19 : TRef sig ⟨S32896, .i32⟩) main_call4.v6 main_call4.v7 Host.remsi,
    TRef.nullary main_call4.c (constantI S_ 32 0#32),
    TRef.unary main_call4.c main_call4.v8 (broadcastInDim S32896 ![] bcast_S_S32896),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S32896 ![] bcast_S_S32896),
    TRef.binary main_call4.v1 main_call4.v11 main_call4.v12 subi,
    TRef.ternary main_call4.v10 main_call4.v12 main_call4.v1 main_call4.call0.v0 select,
    nullary main_c_6 (constantI S_ 32 256#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S32896 ![] bcast_S_S32896),
    TRef.binary (.of main_v20 : TRef sig ⟨S32896, .i32⟩) main_call5.v3 main_call5.v4 Host.remsi,
    TRef.nullary main_call5.c_1 (constantI S_ 32 0#32),
    TRef.unary main_call5.c_1 main_call5.v5 (broadcastInDim S32896 ![] bcast_S_S32896),
    TRef.binary main_call5.v4 main_call5.v5 main_call5.v6 (cmpi .ne),
    TRef.nullary main_call5.c_2 (constantI S_ 32 0#32),
    TRef.unary main_call5.c_2 main_call5.v7 (broadcastInDim S32896 ![] bcast_S_S32896),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S32896 ![] bcast_S_S32896),
    TRef.binary main_call5.v8 main_call5.v10 main_call5.v11 (cmpi .ne),
    TRef.binary main_call5.v11 main_call5.v6 main_call5.v12 andi,
    TRef.unary main_call5.call0.v0 main_call5.v13 (broadcastInDim S32896 ![] bcast_S_S32896),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S32896 ![] bcast_S_S32896),
    TRef.binary (.of main_v19 : TRef sig ⟨S32896, .i32⟩) main_call6.v0 main_call6.v1 Host.divsi,
    TRef.unary (.of main_v19 : TRef sig ⟨S32896, .i32⟩) main_call6.v2 signi,
    TRef.unary (.of main_c_7 : TRef sig ⟨S_, .i32⟩) main_call6.v3 signi,
    TRef.unary main_call6.v3 main_call6.v4 (broadcastInDim S32896 ![] bcast_S_S32896),
    TRef.binary main_call6.v2 main_call6.v4 main_call6.v5 (cmpi .ne),
    TRef.unary (.of main_c_7 : TRef sig ⟨S_, .i32⟩) main_call6.v6 (broadcastInDim S32896 ![] bcast_S_S32896),
    TRef.binary (.of main_v19 : TRef sig ⟨S32896, .i32⟩) main_call6.v6 main_call6.v7 Host.remsi,
    TRef.nullary main_call6.c (constantI S_ 32 0#32),
    TRef.unary main_call6.c main_call6.v8 (broadcastInDim S32896 ![] bcast_S_S32896),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S32896 ![] bcast_S_S32896),
    TRef.binary main_call6.v1 main_call6.v11 main_call6.v12 subi,
    TRef.ternary main_call6.v10 main_call6.v12 main_call6.v1 main_call6.call0.v0 select,
    nullary main_c_8 (constantI S_ 32 256#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S32896 ![] bcast_S_S32896),
    TRef.binary (.of main_v22 : TRef sig ⟨S32896, .i32⟩) main_call7.v3 main_call7.v4 Host.remsi,
    TRef.nullary main_call7.c_1 (constantI S_ 32 0#32),
    TRef.unary main_call7.c_1 main_call7.v5 (broadcastInDim S32896 ![] bcast_S_S32896),
    TRef.binary main_call7.v4 main_call7.v5 main_call7.v6 (cmpi .ne),
    TRef.nullary main_call7.c_2 (constantI S_ 32 0#32),
    TRef.unary main_call7.c_2 main_call7.v7 (broadcastInDim S32896 ![] bcast_S_S32896),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S32896 ![] bcast_S_S32896),
    TRef.binary main_call7.v8 main_call7.v10 main_call7.v11 (cmpi .ne),
    TRef.binary main_call7.v11 main_call7.v6 main_call7.v12 andi,
    TRef.unary main_call7.call0.v0 main_call7.v13 (broadcastInDim S32896 ![] bcast_S_S32896),
    TRef.binary main_call7.v4 main_call7.v13 main_call7.v14 addi,
    TRef.ternary main_call7.v12 main_call7.v14 main_call7.v4 main_call7.v15 select,
    nullary main_c_9 (constantI S_ 32 0#32),
    unary main_c_9 main_v24 (broadcastInDim S32896 ![] bcast_S_S32896 : (⟨S_, .i32⟩ : BufTy).Contents (Elt F) → (⟨S32896, .i32⟩ : BufTy).Contents (Elt F)),
    binary main_v21 main_v24 main_v25 (cmpi .slt : (⟨S32896, .i32⟩ : BufTy).Contents (Elt F) → (⟨S32896, .i32⟩ : BufTy).Contents (Elt F) → (⟨S32896, .i1⟩ : BufTy).Contents (Elt F)),
    nullary main_c_10 (constantI S_ 32 256#32),
    unary main_c_10 main_v26 (broadcastInDim S32896 ![] bcast_S_S32896 : (⟨S_, .i32⟩ : BufTy).Contents (Elt F) → (⟨S32896, .i32⟩ : BufTy).Contents (Elt F)),
    binary main_v21 main_v26 main_v27 (addi : (⟨S32896, .i32⟩ : BufTy).Contents (Elt F) → (⟨S32896, .i32⟩ : BufTy).Contents (Elt F) → (⟨S32896, .i32⟩ : BufTy).Contents (Elt F)),
    ternary main_v25 main_v27 main_v21 main_v28 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    unary main_v28 main_v29 (broadcastInDim S32896x1 ![0] bcast_S32896_S32896x1_0 : (⟨S32896, .i32⟩ : BufTy).Contents (Elt F) → (⟨S32896x1, .i32⟩ : BufTy).Contents (Elt F)),
    binary main_v2 main_v29 main_v30 ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F)),
    nullary main_c_11 (constantI S_ 32 0#32),
    unary main_c_11 main_v31 (broadcastInDim S32896 ![] bcast_S_S32896 : (⟨S_, .i32⟩ : BufTy).Contents (Elt F) → (⟨S32896, .i32⟩ : BufTy).Contents (Elt F)),
    binary main_v23 main_v31 main_v32 (cmpi .slt : (⟨S32896, .i32⟩ : BufTy).Contents (Elt F) → (⟨S32896, .i32⟩ : BufTy).Contents (Elt F) → (⟨S32896, .i1⟩ : BufTy).Contents (Elt F)),
    nullary main_c_12 (constantI S_ 32 256#32),
    unary main_c_12 main_v33 (broadcastInDim S32896 ![] bcast_S_S32896 : (⟨S_, .i32⟩ : BufTy).Contents (Elt F) → (⟨S32896, .i32⟩ : BufTy).Contents (Elt F)),
    binary main_v23 main_v33 main_v34 (addi : (⟨S32896, .i32⟩ : BufTy).Contents (Elt F) → (⟨S32896, .i32⟩ : BufTy).Contents (Elt F) → (⟨S32896, .i32⟩ : BufTy).Contents (Elt F)),
    ternary main_v32 main_v34 main_v23 main_v35 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    unary main_v35 main_v36 (broadcastInDim S32896x1 ![0] bcast_S32896_S32896x1_0 : (⟨S32896, .i32⟩ : BufTy).Contents (Elt F) → (⟨S32896x1, .i32⟩ : BufTy).Contents (Elt F)),
    binary main_v3 main_v36 main_v37 ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F)),
    binary main_v30 main_v37 main_v38 (addf : (⟨S4x32896x768, .f32⟩ : BufTy).Contents (Elt F) → (⟨S4x32896x768, .f32⟩ : BufTy).Contents (Elt F) → (⟨S4x32896x768, .f32⟩ : BufTy).Contents (Elt F)),
    unary main_arg2 main_v39 (broadcastInDim S1x1x768 ![2] bcast_S768_S1x1x768_2 : (⟨S768, .f32⟩ : BufTy).Contents (Elt F) → (⟨S1x1x768, .f32⟩ : BufTy).Contents (Elt F)),
    unary main_v39 main_v40 (broadcastInDim S4x32896x768 ![0, 1, 2] bcast_S1x1x768_S4x32896x768_0_1_2 : (⟨S1x1x768, .f32⟩ : BufTy).Contents (Elt F) → (⟨S4x32896x768, .f32⟩ : BufTy).Contents (Elt F)),
    binary main_v38 main_v40 main_v41 (addf : (⟨S4x32896x768, .f32⟩ : BufTy).Contents (Elt F) → (⟨S4x32896x768, .f32⟩ : BufTy).Contents (Elt F) → (⟨S4x32896x768, .f32⟩ : BufTy).Contents (Elt F)),
    unary main_v41 main_v42 (Host.tanh : (⟨S4x32896x768, .f32⟩ : BufTy).Contents (Elt F) → (⟨S4x32896x768, .f32⟩ : BufTy).Contents (Elt F)) ]

/-- Every buffer an operation touches is one of the TensorCore's. -/
theorem ops_sub : (ops : List (HloOp τ sig (Elt F))).Forall fun op => op.bufs ⊆ tcRefs τ sig :=
  ⟨unary_bufs_sub .., unary_bufs_sub .., binary_bufs_sub .., binary_bufs_sub .., nullary_bufs_sub .., unary_bufs_sub ..,
    nullary_bufs_sub .., nullary_bufs_sub .., unary_bufs_sub .., binary_bufs_sub .., nullary_bufs_sub .., binary_bufs_sub ..,
    nullary_bufs_sub .., unary_bufs_sub .., ternary_bufs_sub .., nullary_bufs_sub .., unary_bufs_sub .., binary_bufs_sub ..,
    reshape_bufs_sub .., unary_bufs_sub .., nullary_bufs_sub .., unary_bufs_sub .., binary_bufs_sub .., nullary_bufs_sub ..,
    unary_bufs_sub .., nullary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., unary_bufs_sub ..⟩

/-- The operation at position j writes exactly the buffer numbered 3 + j: the buffers are numbered in the order
    the program writes them, after its three arguments. -/
theorem ops_numbered : WritesFrom 3 (ops : List (HloOp τ sig (Elt F))) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩,
    trivial⟩

end Cert.ReferenceIdeal.RefRun

end
-- ==== Proof.RefRun.lean ====
import proofs.«116342_j30605936951494_1_alg».proof.Proof.RefOps

/-! # The reference's run

The reference is a host program: @main is a straight line of StableHLO operations, some of them calls of
module-local functions. A call executes the callee's body on the operands, so with every call unfolded in place
@main is the line `ops` of 144 operations, each writing one buffer of its own. On a signature that scopes nothing,
every weakly fair execution of such a line terminates, and each TensorCore buffer ends at the fold `after ops` of
the operations' results over what the launch put there. The three arguments are written by no operation and end
as they began. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one hundred and forty-four binds re-associated: the rewrite under the chain recurses once per statement
set_option maxRecDepth 4096 in
/-- @main is that line: the functions' definitions unfolded at their calls and the call records at their fields,
    both sides are one chain of `hlo` steps once sequencing is re-associated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

/-- The signature scopes no buffer. -/
theorem scopedRefs_eq : (Finset.univ.filter fun b : Ref sig .tc => b.isScoped) = ∅ := by decide
/-- The signature has no semaphore, so none scoped. -/
theorem scopedSems_eq : (Finset.univ.filter fun sm : SemLoc sig => sm.isScoped .tc) = ∅ := by decide

/-- From any memory with zero counters, every weakly fair execution of @main terminates, and every final state has
    each TensorCore buffer at the fold of the line's results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- The arguments are numbered 0, 1, 2, below every written buffer: the run leaves them as the launch put them. -/
theorem frame_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_arg0).trans (ops_numbered.after_low _ (by decide)),
       (h c main_arg1).trans (ops_numbered.after_low _ (by decide)),
       (h c main_arg2).trans (ops_numbered.after_low _ (by decide))⟩)
    (run_after m ρ)

end Cert.ReferenceIdeal.RefRun

end
-- ==== Proof.RefTermsInt.lean ====
/-
  What each buffer of the reference's mask and index computation holds once the program has run, as a closed term:
  one definition per buffer, the operation that writes it applied to the definitions of the buffers it reads, in
  program order, the bodies of the called functions in the place of their calls.  The chain starts at the constant
  1.0 that fills the 256 × 256 matrix whose lower triangle is then zeroed, and ends at the two vectors of 32896 row
  and column numbers (`res_main_v28`, `res_main_v35`) the two gathers read.  Nothing here depends on the arguments.
  Every definition takes the float model `F` implicitly (pass it by name, `(F := F)`), although only the first
  steps of the mask are float operations.
-/
import proofs.«116342_j30605936951494_1_alg».proof.ReferenceIdeal
import proofs.«116342_j30605936951494_1_alg».proof.Proof.Gen.ReferenceIdeal

noncomputable section

namespace Cert.ReferenceIdeal.Terms

open Idealize.ShloMosaic Idealize.SL.Sem
open Cert.ReferenceIdeal Cert.ReferenceIdeal.Facts₀ Cert.ReferenceIdeal.Facts

def res_main_cst {F : FTy → Type} [FloatOps F] [Facts] : FVec F S_ .f32 := constant S_ .f32 0x3F800000#32
def res_main_v4 {F : FTy → Type} [FloatOps F] [Facts] : FVec F S256x256 .f32 := broadcastInDim S256x256 ![] bcast_S_S256x256 (res_main_cst (F := F))
def res_main_call0_v0 {F : FTy → Type} [FloatOps F] [Facts] : IVec S256x256 32 := iotaInDim S256x256 32 0
def res_main_call0_c {F : FTy → Type} [FloatOps F] [Facts] : IVec S_ 32 := constantI S_ 32 4294967295#32
def res_main_call0_v1 {F : FTy → Type} [FloatOps F] [Facts] : IVec S256x256 32 := broadcastInDim S256x256 ![] bcast_S_S256x256 (res_main_call0_c (F := F))
def res_main_call0_v2 {F : FTy → Type} [FloatOps F] [Facts] : IVec S256x256 32 := addi (res_main_call0_v0 (F := F)) (res_main_call0_v1 (F := F))
def res_main_call0_v3 {F : FTy → Type} [FloatOps F] [Facts] : IVec S256x256 32 := iotaInDim S256x256 32 1
def res_main_call0_v4 {F : FTy → Type} [FloatOps F] [Facts] : IVec S256x256 1 := cmpi .sge (res_main_call0_v2 (F := F)) (res_main_call0_v3 (F := F))
def res_main_call0_cst {F : FTy → Type} [FloatOps F] [Facts] : FVec F S_ .f32 := constant S_ .f32 0x00000000#32
def res_main_call0_v5 {F : FTy → Type} [FloatOps F] [Facts] : FVec F S256x256 .f32 := broadcastInDim S256x256 ![] bcast_S_S256x256 (res_main_call0_cst (F := F))
def res_main_v5 {F : FTy → Type} [FloatOps F] [Facts] : FVec F S256x256 .f32 := select (res_main_call0_v4 (F := F)) (res_main_call0_v5 (F := F)) (res_main_v4 (F := F))
def res_main_cst_0 {F : FTy → Type} [FloatOps F] [Facts] : FVec F S_ .f32 := constant S_ .f32 0x00000000#32
def res_main_v6 {F : FTy → Type} [FloatOps F] [Facts] : FVec F S256x256 .f32 := broadcastInDim S256x256 ![] bcast_S_S256x256 (res_main_cst_0 (F := F))
def res_main_v7 {F : FTy → Type} [FloatOps F] [Facts] : IVec S256x256 1 := cmpf .une (res_main_v5 (F := F)) (res_main_v6 (F := F))
def res_main_call1_v0 {F : FTy → Type} [FloatOps F] [Facts] : IVec S65536 1 := shapeCast S65536 (res_main_v7 (F := F)) shapeCasts_S256x256_S65536
def res_main_call1_v1 {F : FTy → Type} [FloatOps F] [Facts] : IVec S65536 32 := extui 32 (res_main_call1_v0 (F := F)) natLt_1_32
def res_main_call1_call0_c {F : FTy → Type} [FloatOps F] [Facts] : IVec S_ 32 := constantI S_ 32 0#32
def res_main_call1_call0_v0 {F : FTy → Type} [FloatOps F] [Facts] : IVec S_ 32 := broadcastInDim S_ ![] bcast_S_S_ (res_main_call1_call0_c (F := F))
def res_main_v8 {F : FTy → Type} [FloatOps F] [Facts] : IVec S65536 32 := Host.reduceWindow IntOp.addi ![65536] ![1] ![65535] ![0] (res_main_call1_v1 (F := F)) (res_main_call1_call0_v0 (F := F)) reduceWindows_S65536_S65536_w65536s1p65535_0 h_S_
def res_main_c {F : FTy → Type} [FloatOps F] [Facts] : IVec S_ 32 := constantI S_ 32 0#32
def res_main_v9 {F : FTy → Type} [FloatOps F] [Facts] : IVec S32896 32 := broadcastInDim S32896 ![] bcast_S_S32896 (res_main_c (F := F))
def res_main_c_1 {F : FTy → Type} [FloatOps F] [Facts] : IVec S_ 32 := constantI S_ 32 0#32
def res_main_call2_v0 {F : FTy → Type} [FloatOps F] [Facts] : IVec S_ 32 := id (res_main_c_1 (F := F))
def res_main_call2_v1 {F : FTy → Type} [FloatOps F] [Facts] : IVec S65536 32 := broadcastInDim S65536 ![] bcast_S_S65536 (res_main_call2_v0 (F := F))
def res_main_v10 {F : FTy → Type} [FloatOps F] [Facts] : IVec S65536 32 := maxsi (res_main_call2_v1 (F := F)) (res_main_v8 (F := F))
def res_main_c_2 {F : FTy → Type} [FloatOps F] [Facts] : IVec S_ 32 := constantI S_ 32 0#32
def res_main_v11 {F : FTy → Type} [FloatOps F] [Facts] : IVec S65536 32 := broadcastInDim S65536 ![] bcast_S_S65536 (res_main_c_2 (F := F))
def res_main_v12 {F : FTy → Type} [FloatOps F] [Facts] : IVec S65536 1 := cmpi .slt (res_main_v10 (F := F)) (res_main_v11 (F := F))
def res_main_c_3 {F : FTy → Type} [FloatOps F] [Facts] : IVec S_ 32 := constantI S_ 32 32896#32
def res_main_v13 {F : FTy → Type} [FloatOps F] [Facts] : IVec S65536 32 := broadcastInDim S65536 ![] bcast_S_S65536 (res_main_c_3 (F := F))
def res_main_v14 {F : FTy → Type} [FloatOps F] [Facts] : IVec S65536 32 := addi (res_main_v10 (F := F)) (res_main_v13 (F := F))
def res_main_v15 {F : FTy → Type} [FloatOps F] [Facts] : IVec S65536 32 := select (res_main_v12 (F := F)) (res_main_v14 (F := F)) (res_main_v10 (F := F))
def res_main_v16 {F : FTy → Type} [FloatOps F] [Facts] : IVec S65536x1 32 := broadcastInDim S65536x1 ![0] bcast_S65536_S65536x1_0 (res_main_v15 (F := F))
def res_main_c_4 {F : FTy → Type} [FloatOps F] [Facts] : IVec S_ 32 := constantI S_ 32 1#32
def res_main_v17 {F : FTy → Type} [FloatOps F] [Facts] : IVec S65536 32 := broadcastInDim S65536 ![] bcast_S_S65536 (res_main_c_4 (F := F))
def res_main_v18 {F : FTy → Type} [FloatOps F] [Facts] : IVec S32896 32 := Host.scatter scatter_S32896_S65536x1_S65536_n_0_0_1 IntOp.addi (res_main_v9 (F := F)) (res_main_v16 (F := F)) (res_main_v17 (F := F))
def res_main_call3_call0_c {F : FTy → Type} [FloatOps F] [Facts] : IVec S_ 32 := constantI S_ 32 0#32
def res_main_call3_call0_v0 {F : FTy → Type} [FloatOps F] [Facts] : IVec S_ 32 := broadcastInDim S_ ![] bcast_S_S_ (res_main_call3_call0_c (F := F))
def res_main_v19 {F : FTy → Type} [FloatOps F] [Facts] : IVec S32896 32 := Host.reduceWindow IntOp.addi ![32896] ![1] ![32895] ![0] (res_main_v18 (F := F)) (res_main_call3_call0_v0 (F := F)) reduceWindows_S32896_S32896_w32896s1p32895_0 h_S_
def res_main_c_5 {F : FTy → Type} [FloatOps F] [Facts] : IVec S_ 32 := constantI S_ 32 256#32
def res_main_call4_v0 {F : FTy → Type} [FloatOps F] [Facts] : IVec S32896 32 := broadcastInDim S32896 ![] bcast_S_S32896 (res_main_c_5 (F := F))
def res_main_call4_v1 {F : FTy → Type} [FloatOps F] [Facts] : IVec S32896 32 := Host.divsi (res_main_v19 (F := F)) (res_main_call4_v0 (F := F))
def res_main_call4_v2 {F : FTy → Type} [FloatOps F] [Facts] : IVec S32896 32 := signi (res_main_v19 (F := F))
def res_main_call4_v3 {F : FTy → Type} [FloatOps F] [Facts] : IVec S_ 32 := signi (res_main_c_5 (F := F))
def res_main_call4_v4 {F : FTy → Type} [FloatOps F] [Facts] : IVec S32896 32 := broadcastInDim S32896 ![] bcast_S_S32896 (res_main_call4_v3 (F := F))
def res_main_call4_v5 {F : FTy → Type} [FloatOps F] [Facts] : IVec S32896 1 := cmpi .ne (res_main_call4_v2 (F := F)) (res_main_call4_v4 (F := F))
def res_main_call4_v6 {F : FTy → Type} [FloatOps F] [Facts] : IVec S32896 32 := broadcastInDim S32896 ![] bcast_S_S32896 (res_main_c_5 (F := F))
def res_main_call4_v7 {F : FTy → Type} [FloatOps F] [Facts] : IVec S32896 32 := Host.remsi (res_main_v19 (F := F)) (res_main_call4_v6 (F := F))
def res_main_call4_c {F : FTy → Type} [FloatOps F] [Facts] : IVec S_ 32 := constantI S_ 32 0#32
def res_main_call4_v8 {F : FTy → Type} [FloatOps F] [Facts] : IVec S32896 32 := broadcastInDim S32896 ![] bcast_S_S32896 (res_main_call4_c (F := F))
def res_main_call4_v9 {F : FTy → Type} [FloatOps F] [Facts] : IVec S32896 1 := cmpi .ne (res_main_call4_v7 (F := F)) (res_main_call4_v8 (F := F))
def res_main_call4_v10 {F : FTy → Type} [FloatOps F] [Facts] : IVec S32896 1 := andi (res_main_call4_v5 (F := F)) (res_main_call4_v9 (F := F))
def res_main_call4_c_0 {F : FTy → Type} [FloatOps F] [Facts] : IVec S_ 32 := constantI S_ 32 1#32
def res_main_call4_v11 {F : FTy → Type} [FloatOps F] [Facts] : IVec S32896 32 := broadcastInDim S32896 ![] bcast_S_S32896 (res_main_call4_c_0 (F := F))
def res_main_call4_v12 {F : FTy → Type} [FloatOps F] [Facts] : IVec S32896 32 := subi (res_main_call4_v1 (F := F)) (res_main_call4_v11 (F := F))
def res_main_v20 {F : FTy → Type} [FloatOps F] [Facts] : IVec S32896 32 := select (res_main_call4_v10 (F := F)) (res_main_call4_v12 (F := F)) (res_main_call4_v1 (F := F))
def res_main_c_6 {F : FTy → Type} [FloatOps F] [Facts] : IVec S_ 32 := constantI S_ 32 256#32
def res_main_call5_v0 {F : FTy → Type} [FloatOps F] [Facts] : IVec S_ 32 := id (res_main_c_6 (F := F))
def res_main_call5_c {F : FTy → Type} [FloatOps F] [Facts] : IVec S_ 32 := constantI S_ 32 0#32
def res_main_call5_v1 {F : FTy → Type} [FloatOps F] [Facts] : IVec S_ 1 := cmpi .eq (res_main_call5_v0 (F := F)) (res_main_call5_c (F := F))
def res_main_call5_c_0 {F : FTy → Type} [FloatOps F] [Facts] : IVec S_ 32 := constantI S_ 32 1#32
def res_main_call5_v2 {F : FTy → Type} [FloatOps F] [Facts] : IVec S_ 32 := select (res_main_call5_v1 (F := F)) (res_main_call5_c_0 (F := F)) (res_main_call5_v0 (F := F))
def res_main_call5_v3 {F : FTy → Type} [FloatOps F] [Facts] : IVec S32896 32 := broadcastInDim S32896 ![] bcast_S_S32896 (res_main_call5_v2 (F := F))
def res_main_call5_v4 {F : FTy → Type} [FloatOps F] [Facts] : IVec S32896 32 := Host.remsi (res_main_v20 (F := F)) (res_main_call5_v3 (F := F))
def res_main_call5_c_1 {F : FTy → Type} [FloatOps F] [Facts] : IVec S_ 32 := constantI S_ 32 0#32
def res_main_call5_v5 {F : FTy → Type} [FloatOps F] [Facts] : IVec S32896 32 := broadcastInDim S32896 ![] bcast_S_S32896 (res_main_call5_c_1 (F := F))
def res_main_call5_v6 {F : FTy → Type} [FloatOps F] [Facts] : IVec S32896 1 := cmpi .ne (res_main_call5_v4 (F := F)) (res_main_call5_v5 (F := F))
def res_main_call5_c_2 {F : FTy → Type} [FloatOps F] [Facts] : IVec S_ 32 := constantI S_ 32 0#32
def res_main_call5_v7 {F : FTy → Type} [FloatOps F] [Facts] : IVec S32896 32 := broadcastInDim S32896 ![] bcast_S_S32896 (res_main_call5_c_2 (F := F))
def res_main_call5_v8 {F : FTy → Type} [FloatOps F] [Facts] : IVec S32896 1 := cmpi .slt (res_main_call5_v4 (F := F)) (res_main_call5_v7 (F := F))
def res_main_call5_c_3 {F : FTy → Type} [FloatOps F] [Facts] : IVec S_ 32 := constantI S_ 32 0#32
def res_main_call5_v9 {F : FTy → Type} [FloatOps F] [Facts] : IVec S_ 1 := cmpi .slt (res_main_call5_v2 (F := F)) (res_main_call5_c_3 (F := F))
def res_main_call5_v10 {F : FTy → Type} [FloatOps F] [Facts] : IVec S32896 1 := broadcastInDim S32896 ![] bcast_S_S32896 (res_main_call5_v9 (F := F))
def res_main_call5_v11 {F : FTy → Type} [FloatOps F] [Facts] : IVec S32896 1 := cmpi .ne (res_main_call5_v8 (F := F)) (res_main_call5_v10 (F := F))
def res_main_call5_v12 {F : FTy → Type} [FloatOps F] [Facts] : IVec S32896 1 := andi (res_main_call5_v11 (F := F)) (res_main_call5_v6 (F := F))
def res_main_call5_v13 {F : FTy → Type} [FloatOps F] [Facts] : IVec S32896 32 := broadcastInDim S32896 ![] bcast_S_S32896 (res_main_call5_v2 (F := F))
def res_main_call5_v14 {F : FTy → Type} [FloatOps F] [Facts] : IVec S32896 32 := addi (res_main_call5_v4 (F := F)) (res_main_call5_v13 (F := F))
def res_main_v21 {F : FTy → Type} [FloatOps F] [Facts] : IVec S32896 32 := select (res_main_call5_v12 (F := F)) (res_main_call5_v14 (F := F)) (res_main_call5_v4 (F := F))
def res_main_c_7 {F : FTy → Type} [FloatOps F] [Facts] : IVec S_ 32 := constantI S_ 32 1#32
def res_main_call6_v0 {F : FTy → Type} [FloatOps F] [Facts] : IVec S32896 32 := broadcastInDim S32896 ![] bcast_S_S32896 (res_main_c_7 (F := F))
def res_main_call6_v1 {F : FTy → Type} [FloatOps F] [Facts] : IVec S32896 32 := Host.divsi (res_main_v19 (F := F)) (res_main_call6_v0 (F := F))
def res_main_call6_v2 {F : FTy → Type} [FloatOps F] [Facts] : IVec S32896 32 := signi (res_main_v19 (F := F))
def res_main_call6_v3 {F : FTy → Type} [FloatOps F] [Facts] : IVec S_ 32 := signi (res_main_c_7 (F := F))
def res_main_call6_v4 {F : FTy → Type} [FloatOps F] [Facts] : IVec S32896 32 := broadcastInDim S32896 ![] bcast_S_S32896 (res_main_call6_v3 (F := F))
def res_main_call6_v5 {F : FTy → Type} [FloatOps F] [Facts] : IVec S32896 1 := cmpi .ne (res_main_call6_v2 (F := F)) (res_main_call6_v4 (F := F))
def res_main_call6_v6 {F : FTy → Type} [FloatOps F] [Facts] : IVec S32896 32 := broadcastInDim S32896 ![] bcast_S_S32896 (res_main_c_7 (F := F))
def res_main_call6_v7 {F : FTy → Type} [FloatOps F] [Facts] : IVec S32896 32 := Host.remsi (res_main_v19 (F := F)) (res_main_call6_v6 (F := F))
def res_main_call6_c {F : FTy → Type} [FloatOps F] [Facts] : IVec S_ 32 := constantI S_ 32 0#32
def res_main_call6_v8 {F : FTy → Type} [FloatOps F] [Facts] : IVec S32896 32 := broadcastInDim S32896 ![] bcast_S_S32896 (res_main_call6_c (F := F))
def res_main_call6_v9 {F : FTy → Type} [FloatOps F] [Facts] : IVec S32896 1 := cmpi .ne (res_main_call6_v7 (F := F)) (res_main_call6_v8 (F := F))
def res_main_call6_v10 {F : FTy → Type} [FloatOps F] [Facts] : IVec S32896 1 := andi (res_main_call6_v5 (F := F)) (res_main_call6_v9 (F := F))
def res_main_call6_c_0 {F : FTy → Type} [FloatOps F] [Facts] : IVec S_ 32 := constantI S_ 32 1#32
def res_main_call6_v11 {F : FTy → Type} [FloatOps F] [Facts] : IVec S32896 32 := broadcastInDim S32896 ![] bcast_S_S32896 (res_main_call6_c_0 (F := F))
def res_main_call6_v12 {F : FTy → Type} [FloatOps F] [Facts] : IVec S32896 32 := subi (res_main_call6_v1 (F := F)) (res_main_call6_v11 (F := F))
def res_main_v22 {F : FTy → Type} [FloatOps F] [Facts] : IVec S32896 32 := select (res_main_call6_v10 (F := F)) (res_main_call6_v12 (F := F)) (res_main_call6_v1 (F := F))
def res_main_c_8 {F : FTy → Type} [FloatOps F] [Facts] : IVec S_ 32 := constantI S_ 32 256#32
def res_main_call7_v0 {F : FTy → Type} [FloatOps F] [Facts] : IVec S_ 32 := id (res_main_c_8 (F := F))
def res_main_call7_c {F : FTy → Type} [FloatOps F] [Facts] : IVec S_ 32 := constantI S_ 32 0#32
def res_main_call7_v1 {F : FTy → Type} [FloatOps F] [Facts] : IVec S_ 1 := cmpi .eq (res_main_call7_v0 (F := F)) (res_main_call7_c (F := F))
def res_main_call7_c_0 {F : FTy → Type} [FloatOps F] [Facts] : IVec S_ 32 := constantI S_ 32 1#32
def res_main_call7_v2 {F : FTy → Type} [FloatOps F] [Facts] : IVec S_ 32 := select (res_main_call7_v1 (F := F)) (res_main_call7_c_0 (F := F)) (res_main_call7_v0 (F := F))
def res_main_call7_v3 {F : FTy → Type} [FloatOps F] [Facts] : IVec S32896 32 := broadcastInDim S32896 ![] bcast_S_S32896 (res_main_call7_v2 (F := F))
def res_main_call7_v4 {F : FTy → Type} [FloatOps F] [Facts] : IVec S32896 32 := Host.remsi (res_main_v22 (F := F)) (res_main_call7_v3 (F := F))
def res_main_call7_c_1 {F : FTy → Type} [FloatOps F] [Facts] : IVec S_ 32 := constantI S_ 32 0#32
def res_main_call7_v5 {F : FTy → Type} [FloatOps F] [Facts] : IVec S32896 32 := broadcastInDim S32896 ![] bcast_S_S32896 (res_main_call7_c_1 (F := F))
def res_main_call7_v6 {F : FTy → Type} [FloatOps F] [Facts] : IVec S32896 1 := cmpi .ne (res_main_call7_v4 (F := F)) (res_main_call7_v5 (F := F))
def res_main_call7_c_2 {F : FTy → Type} [FloatOps F] [Facts] : IVec S_ 32 := constantI S_ 32 0#32
def res_main_call7_v7 {F : FTy → Type} [FloatOps F] [Facts] : IVec S32896 32 := broadcastInDim S32896 ![] bcast_S_S32896 (res_main_call7_c_2 (F := F))
def res_main_call7_v8 {F : FTy → Type} [FloatOps F] [Facts] : IVec S32896 1 := cmpi .slt (res_main_call7_v4 (F := F)) (res_main_call7_v7 (F := F))
def res_main_call7_c_3 {F : FTy → Type} [FloatOps F] [Facts] : IVec S_ 32 := constantI S_ 32 0#32
def res_main_call7_v9 {F : FTy → Type} [FloatOps F] [Facts] : IVec S_ 1 := cmpi .slt (res_main_call7_v2 (F := F)) (res_main_call7_c_3 (F := F))
def res_main_call7_v10 {F : FTy → Type} [FloatOps F] [Facts] : IVec S32896 1 := broadcastInDim S32896 ![] bcast_S_S32896 (res_main_call7_v9 (F := F))
def res_main_call7_v11 {F : FTy → Type} [FloatOps F] [Facts] : IVec S32896 1 := cmpi .ne (res_main_call7_v8 (F := F)) (res_main_call7_v10 (F := F))
def res_main_call7_v12 {F : FTy → Type} [FloatOps F] [Facts] : IVec S32896 1 := andi (res_main_call7_v11 (F := F)) (res_main_call7_v6 (F := F))
def res_main_call7_v13 {F : FTy → Type} [FloatOps F] [Facts] : IVec S32896 32 := broadcastInDim S32896 ![] bcast_S_S32896 (res_main_call7_v2 (F := F))
def res_main_call7_v14 {F : FTy → Type} [FloatOps F] [Facts] : IVec S32896 32 := addi (res_main_call7_v4 (F := F)) (res_main_call7_v13 (F := F))
def res_main_v23 {F : FTy → Type} [FloatOps F] [Facts] : IVec S32896 32 := select (res_main_call7_v12 (F := F)) (res_main_call7_v14 (F := F)) (res_main_call7_v4 (F := F))
def res_main_c_9 {F : FTy → Type} [FloatOps F] [Facts] : IVec S_ 32 := constantI S_ 32 0#32
def res_main_v24 {F : FTy → Type} [FloatOps F] [Facts] : IVec S32896 32 := broadcastInDim S32896 ![] bcast_S_S32896 (res_main_c_9 (F := F))
def res_main_v25 {F : FTy → Type} [FloatOps F] [Facts] : IVec S32896 1 := cmpi .slt (res_main_v21 (F := F)) (res_main_v24 (F := F))
def res_main_c_10 {F : FTy → Type} [FloatOps F] [Facts] : IVec S_ 32 := constantI S_ 32 256#32
def res_main_v26 {F : FTy → Type} [FloatOps F] [Facts] : IVec S32896 32 := broadcastInDim S32896 ![] bcast_S_S32896 (res_main_c_10 (F := F))
def res_main_v27 {F : FTy → Type} [FloatOps F] [Facts] : IVec S32896 32 := addi (res_main_v21 (F := F)) (res_main_v26 (F := F))
def res_main_v28 {F : FTy → Type} [FloatOps F] [Facts] : IVec S32896 32 := select (res_main_v25 (F := F)) (res_main_v27 (F := F)) (res_main_v21 (F := F))
def res_main_c_11 {F : FTy → Type} [FloatOps F] [Facts] : IVec S_ 32 := constantI S_ 32 0#32
def res_main_v31 {F : FTy → Type} [FloatOps F] [Facts] : IVec S32896 32 := broadcastInDim S32896 ![] bcast_S_S32896 (res_main_c_11 (F := F))
def res_main_v32 {F : FTy → Type} [FloatOps F] [Facts] : IVec S32896 1 := cmpi .slt (res_main_v23 (F := F)) (res_main_v31 (F := F))
def res_main_c_12 {F : FTy → Type} [FloatOps F] [Facts] : IVec S_ 32 := constantI S_ 32 256#32
def res_main_v33 {F : FTy → Type} [FloatOps F] [Facts] : IVec S32896 32 := broadcastInDim S32896 ![] bcast_S_S32896 (res_main_c_12 (F := F))
def res_main_v34 {F : FTy → Type} [FloatOps F] [Facts] : IVec S32896 32 := addi (res_main_v23 (F := F)) (res_main_v33 (F := F))
def res_main_v35 {F : FTy → Type} [FloatOps F] [Facts] : IVec S32896 32 := select (res_main_v32 (F := F)) (res_main_v34 (F := F)) (res_main_v23 (F := F))

end Cert.ReferenceIdeal.Terms

end
-- ==== Proof.RefTermsFloat.lean ====
/-
  The float half of the host program's values, one definition per buffer it writes: each buffer's contents after the
  run, as the operation's function applied to the contents of its operands. The two halves of the weight, the two
  projections p₁ and p₂ (the hidden state contracted against each half), the two row gathers at the run-time pair
  indices (the integer chain's `res_main_v28`, `res_main_v35`), their sum, the bias repeated over every row, and the
  hyperbolic tangent. `x`, `w`, `β` are the contents of the three argument buffers.
-/
import proofs.«116342_j30605936951494_1_alg».proof.ReferenceIdeal
import proofs.«116342_j30605936951494_1_alg».proof.Proof.Gen.ReferenceIdeal
import proofs.«116342_j30605936951494_1_alg».proof.Proof.RefTermsInt

noncomputable section

namespace Cert.ReferenceIdeal.Terms

open Idealize.ShloMosaic Idealize.SL.Sem
open Cert.ReferenceIdeal Cert.ReferenceIdeal.Facts₀ Cert.ReferenceIdeal.Facts

/-- The left half of the weight: columns 0 to 767 of every row. -/
def res_main_v0 {F : FTy → Type} [FloatOps F] [Facts] (w : (⟨S768x1536, .f32⟩ : BufTy).Contents (Elt F)) : (⟨S768x768, .f32⟩ : BufTy).Contents (Elt F) :=
  extractStridedSlice S768x768 ![0, 0] w slices_S768x1536_S768x768_0_0

/-- The right half of the weight: columns 768 to 1535 of every row. -/
def res_main_v1 {F : FTy → Type} [FloatOps F] [Facts] (w : (⟨S768x1536, .f32⟩ : BufTy).Contents (Elt F)) : (⟨S768x768, .f32⟩ : BufTy).Contents (Elt F) :=
  extractStridedSlice S768x768 ![0, 768] w slices_S768x1536_S768x768_0_768

/-- The left projection p₁: the hidden state contracted against the left half of the weight. -/
def res_main_v2 {F : FTy → Type} [FloatOps F] [Facts] (x : (⟨S4x256x768, .f32⟩ : BufTy).Contents (Elt F)) (w : (⟨S768x1536, .f32⟩ : BufTy).Contents (Elt F)) :
    (⟨S4x256x768, .f32⟩ : BufTy).Contents (Elt F) :=
  Host.dotGeneral dot_S4x256x768_S768x768_S4x256x768_2_1_01_0_n_n none x (res_main_v0 w)

/-- The right projection p₂: the hidden state contracted against the right half of the weight. -/
def res_main_v3 {F : FTy → Type} [FloatOps F] [Facts] (x : (⟨S4x256x768, .f32⟩ : BufTy).Contents (Elt F)) (w : (⟨S768x1536, .f32⟩ : BufTy).Contents (Elt F)) :
    (⟨S4x256x768, .f32⟩ : BufTy).Contents (Elt F) :=
  Host.dotGeneral dot_S4x256x768_S768x768_S4x256x768_2_1_01_0_n_n none x (res_main_v1 w)

/-- The row indices as a one-column array of start indices. -/
def res_main_v29 {F : FTy → Type} [FloatOps F] [Facts] : (⟨S32896x1, .i32⟩ : BufTy).Contents (Elt F) :=
  broadcastInDim S32896x1 ![0] bcast_S32896_S32896x1_0 (res_main_v28 (F := F))

/-- The rows of p₁ gathered at the row indices. -/
def res_main_v30 {F : FTy → Type} [FloatOps F] [Facts] (x : (⟨S4x256x768, .f32⟩ : BufTy).Contents (Elt F)) (w : (⟨S768x1536, .f32⟩ : BufTy).Contents (Elt F)) :
    (⟨S4x32896x768, .f32⟩ : BufTy).Contents (Elt F) :=
  Host.gather gather_S4x256x768_S32896x1_S4x32896x768_02_1_n_n_1_1_41768 (res_main_v2 x w) (res_main_v29 (F := F))

/-- The column indices as a one-column array of start indices. -/
def res_main_v36 {F : FTy → Type} [FloatOps F] [Facts] : (⟨S32896x1, .i32⟩ : BufTy).Contents (Elt F) :=
  broadcastInDim S32896x1 ![0] bcast_S32896_S32896x1_0 (res_main_v35 (F := F))

/-- The rows of p₂ gathered at the column indices. -/
def res_main_v37 {F : FTy → Type} [FloatOps F] [Facts] (x : (⟨S4x256x768, .f32⟩ : BufTy).Contents (Elt F)) (w : (⟨S768x1536, .f32⟩ : BufTy).Contents (Elt F)) :
    (⟨S4x32896x768, .f32⟩ : BufTy).Contents (Elt F) :=
  Host.gather gather_S4x256x768_S32896x1_S4x32896x768_02_1_n_n_1_1_41768 (res_main_v3 x w) (res_main_v36 (F := F))

/-- The sum of the two gathered projections. -/
def res_main_v38 {F : FTy → Type} [FloatOps F] [Facts] (x : (⟨S4x256x768, .f32⟩ : BufTy).Contents (Elt F)) (w : (⟨S768x1536, .f32⟩ : BufTy).Contents (Elt F)) :
    (⟨S4x32896x768, .f32⟩ : BufTy).Contents (Elt F) :=
  addf (res_main_v30 x w) (res_main_v37 x w)

/-- The bias as a [1, 1, 768] array. -/
def res_main_v39 {F : FTy → Type} [FloatOps F] [Facts] (β : (⟨S768, .f32⟩ : BufTy).Contents (Elt F)) : (⟨S1x1x768, .f32⟩ : BufTy).Contents (Elt F) :=
  broadcastInDim S1x1x768 ![2] bcast_S768_S1x1x768_2 β

/-- The bias repeated over every batch and every pair row. -/
def res_main_v40 {F : FTy → Type} [FloatOps F] [Facts] (β : (⟨S768, .f32⟩ : BufTy).Contents (Elt F)) : (⟨S4x32896x768, .f32⟩ : BufTy).Contents (Elt F) :=
  broadcastInDim S4x32896x768 ![0, 1, 2] bcast_S1x1x768_S4x32896x768_0_1_2 (res_main_v39 β)

/-- The two projections' sum plus the bias. -/
def res_main_v41 {F : FTy → Type} [FloatOps F] [Facts] (x : (⟨S4x256x768, .f32⟩ : BufTy).Contents (Elt F)) (w : (⟨S768x1536, .f32⟩ : BufTy).Contents (Elt F))
    (β : (⟨S768, .f32⟩ : BufTy).Contents (Elt F)) : (⟨S4x32896x768, .f32⟩ : BufTy).Contents (Elt F) :=
  addf (res_main_v38 x w) (res_main_v40 β)

/-- The result: the hyperbolic tangent of every entry. -/
def res_main_v42 {F : FTy → Type} [FloatOps F] [Facts] (x : (⟨S4x256x768, .f32⟩ : BufTy).Contents (Elt F)) (w : (⟨S768x1536, .f32⟩ : BufTy).Contents (Elt F))
    (β : (⟨S768, .f32⟩ : BufTy).Contents (Elt F)) : (⟨S4x32896x768, .f32⟩ : BufTy).Contents (Elt F) :=
  Host.tanh (res_main_v41 x w β)

end Cert.ReferenceIdeal.Terms

end
-- ==== Proof.RefReadRows.lean ====
import proofs.«116342_j30605936951494_1_alg».proof.Proof.RefOps
import proofs.«116342_j30605936951494_1_alg».proof.Proof.RefTermsInt
import proofs.«116342_j30605936951494_1_alg».proof.Proof.RefTermsFloat

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

-- a windowed reduction, a scatter and a gather are folds and searches over their operand's elements: kept folded, so that
-- an entry of the line is compared with its operation by the identity of the typed references' transports, not by walking them
attribute [local irreducible] Host.reduceWindow Host.scatter Host.gather

/-! The arguments: no operation writes them. -/
theorem after_main_arg0 : after ops V (Proc.devRef .tc main_arg0) = V (Proc.devRef .tc main_arg0) := ops_numbered.after_low V (by decide)
theorem after_main_arg1 : after ops V (Proc.devRef .tc main_arg1) = V (Proc.devRef .tc main_arg1) := ops_numbered.after_low V (by decide)
theorem after_main_arg2 : after ops V (Proc.devRef .tc main_arg2) = V (Proc.devRef .tc main_arg2) := ops_numbered.after_low V (by decide)

/-! Positions 0 to 143 of the line: each written buffer as its operation's function of its operands' terms. -/
theorem after_main_v0 : after ops V (Proc.devRef .tc main_v0) = Terms.res_main_v0 (F := F) (V (Proc.devRef .tc main_arg1)) := by
  have h := step_unary ops_numbered V 0 (x := main_arg1) (y := main_v0) (f := ((extractStridedSlice S768x768 ![0, 0] · slices_S768x1536_S768x768_0_0) : (⟨S768x1536, .f32⟩ : BufTy).Contents (Elt F) → (⟨S768x768, .f32⟩ : BufTy).Contents (Elt F))) rfl (by decide) (after_main_arg1 V)
  exact h
theorem after_main_v1 : after ops V (Proc.devRef .tc main_v1) = Terms.res_main_v1 (F := F) (V (Proc.devRef .tc main_arg1)) := by
  have h := step_unary ops_numbered V 1 (x := main_arg1) (y := main_v1) (f := ((extractStridedSlice S768x768 ![0, 768] · slices_S768x1536_S768x768_0_768) : (⟨S768x1536, .f32⟩ : BufTy).Contents (Elt F) → (⟨S768x768, .f32⟩ : BufTy).Contents (Elt F))) rfl (by decide) (after_main_arg1 V)
  exact h
theorem after_main_v2 : after ops V (Proc.devRef .tc main_v2) = Terms.res_main_v2 (F := F) (V (Proc.devRef .tc main_arg0)) (V (Proc.devRef .tc main_arg1)) := by
  have h := step_binary ops_numbered V 2 (a := main_arg0) (b := main_v0) (y := main_v2) (f := ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F))) rfl (by decide) (by decide) (after_main_arg0 V) (after_main_v0 V)
  exact h
theorem after_main_v3 : after ops V (Proc.devRef .tc main_v3) = Terms.res_main_v3 (F := F) (V (Proc.devRef .tc main_arg0)) (V (Proc.devRef .tc main_arg1)) := by
  have h := step_binary ops_numbered V 3 (a := main_arg0) (b := main_v1) (y := main_v3) (f := ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F))) rfl (by decide) (by decide) (after_main_arg0 V) (after_main_v1 V)
  exact h
theorem after_main_cst : after ops V (Proc.devRef .tc main_cst) = Terms.res_main_cst (F := F) := by
  have h := step_nullary ops_numbered V 4 (y := main_cst) (v := (constant S_ .f32 0x3F800000#32)) rfl
  exact h
theorem after_main_v4 : after ops V (Proc.devRef .tc main_v4) = Terms.res_main_v4 (F := F) := by
  have h := step_unary ops_numbered V 5 (x := main_cst) (y := main_v4) (f := (broadcastInDim S256x256 ![] bcast_S_S256x256 : (⟨S_, .f32⟩ : BufTy).Contents (Elt F) → (⟨S256x256, .f32⟩ : BufTy).Contents (Elt F))) rfl (by decide) (after_main_cst V)
  exact h
theorem after_main_call0_v0 : after ops V (Proc.devRef .tc main_call0_v0) = Terms.res_main_call0_v0 (F := F) := by
  have h := step_nullary ops_numbered V 6 (y := main_call0_v0) (v := (iotaInDim S256x256 32 0)) rfl
  exact h
theorem after_main_call0_c : after ops V (Proc.devRef .tc main_call0_c) = Terms.res_main_call0_c (F := F) := by
  have h := step_nullary ops_numbered V 7 (y := main_call0_c) (v := (constantI S_ 32 4294967295#32)) rfl
  exact h
theorem after_main_call0_v1 : after ops V (Proc.devRef .tc main_call0_v1) = Terms.res_main_call0_v1 (F := F) := by
  have h := step_unary ops_numbered V 8 (x := main_call0_c) (y := main_call0_v1) (f := (broadcastInDim S256x256 ![] bcast_S_S256x256)) rfl (by decide) (after_main_call0_c V)
  exact h
theorem after_main_call0_v2 : after ops V (Proc.devRef .tc main_call0_v2) = Terms.res_main_call0_v2 (F := F) := by
  have h := step_binary ops_numbered V 9 (a := main_call0_v0) (b := main_call0_v1) (y := main_call0_v2) (f := addi) rfl (by decide) (by decide) (after_main_call0_v0 V) (after_main_call0_v1 V)
  exact h
theorem after_main_call0_v3 : after ops V (Proc.devRef .tc main_call0_v3) = Terms.res_main_call0_v3 (F := F) := by
  have h := step_nullary ops_numbered V 10 (y := main_call0_v3) (v := (iotaInDim S256x256 32 1)) rfl
  exact h
theorem after_main_call0_v4 : after ops V (Proc.devRef .tc main_call0_v4) = Terms.res_main_call0_v4 (F := F) := by
  have h := step_binary ops_numbered V 11 (a := main_call0_v2) (b := main_call0_v3) (y := main_call0_v4) (f := (cmpi .sge)) rfl (by decide) (by decide) (after_main_call0_v2 V) (after_main_call0_v3 V)
  exact h
theorem after_main_call0_cst : after ops V (Proc.devRef .tc main_call0_cst) = Terms.res_main_call0_cst (F := F) := by
  have h := step_nullary ops_numbered V 12 (y := main_call0_cst) (v := (constant S_ .f32 0x00000000#32)) rfl
  exact h
theorem after_main_call0_v5 : after ops V (Proc.devRef .tc main_call0_v5) = Terms.res_main_call0_v5 (F := F) := by
  have h := step_unary ops_numbered V 13 (x := main_call0_cst) (y := main_call0_v5) (f := (broadcastInDim S256x256 ![] bcast_S_S256x256)) rfl (by decide) (after_main_call0_cst V)
  exact h
theorem after_main_v5 : after ops V (Proc.devRef .tc main_v5) = Terms.res_main_v5 (F := F) := by
  have h := step_ternary ops_numbered V 14 (c := main_call0_v4) (a := main_call0_v5) (b := main_v4) (y := main_v5) (f := select) rfl (by decide) (by decide) (by decide) (after_main_call0_v4 V) (after_main_call0_v5 V) (after_main_v4 V)
  exact h
theorem after_main_cst_0 : after ops V (Proc.devRef .tc main_cst_0) = Terms.res_main_cst_0 (F := F) := by
  have h := step_nullary ops_numbered V 15 (y := main_cst_0) (v := (constant S_ .f32 0x00000000#32)) rfl
  exact h
theorem after_main_v6 : after ops V (Proc.devRef .tc main_v6) = Terms.res_main_v6 (F := F) := by
  have h := step_unary ops_numbered V 16 (x := main_cst_0) (y := main_v6) (f := (broadcastInDim S256x256 ![] bcast_S_S256x256 : (⟨S_, .f32⟩ : BufTy).Contents (Elt F) → (⟨S256x256, .f32⟩ : BufTy).Contents (Elt F))) rfl (by decide) (after_main_cst_0 V)
  exact h
theorem after_main_v7 : after ops V (Proc.devRef .tc main_v7) = Terms.res_main_v7 (F := F) := by
  have h := step_binary ops_numbered V 17 (a := main_v5) (b := main_v6) (y := main_v7) (f := (cmpf .une : (⟨S256x256, .f32⟩ : BufTy).Contents (Elt F) → (⟨S256x256, .f32⟩ : BufTy).Contents (Elt F) → (⟨S256x256, .i1⟩ : BufTy).Contents (Elt F))) rfl (by decide) (by decide) (after_main_v5 V) (after_main_v6 V)
  exact h
theorem after_main_call1_v0 : after ops V (Proc.devRef .tc main_call1_v0) = Terms.res_main_call1_v0 (F := F) := by
  have h := step_reshape ops_numbered V 18 (x := main_v7) (y := main_call1_v0) rfl (by decide) (after_main_v7 V)
  exact h
theorem after_main_call1_v1 : after ops V (Proc.devRef .tc main_call1_v1) = Terms.res_main_call1_v1 (F := F) := by
  have h := step_unary ops_numbered V 19 (x := main_call1_v0) (y := main_call1_v1) (f := (extui 32 · natLt_1_32)) rfl (by decide) (after_main_call1_v0 V)
  exact h
theorem after_main_call1_call0_c : after ops V (Proc.devRef .tc main_call1_call0_c) = Terms.res_main_call1_call0_c (F := F) := by
  have h := step_nullary ops_numbered V 20 (y := main_call1_call0_c) (v := (constantI S_ 32 0#32)) rfl
  exact h
theorem after_main_call1_call0_v0 : after ops V (Proc.devRef .tc main_call1_call0_v0) = Terms.res_main_call1_call0_v0 (F := F) := by
  have h := step_unary ops_numbered V 21 (x := main_call1_call0_c) (y := main_call1_call0_v0) (f := (broadcastInDim S_ ![] bcast_S_S_)) rfl (by decide) (after_main_call1_call0_c V)
  exact h
theorem after_main_v8 : after ops V (Proc.devRef .tc main_v8) = Terms.res_main_v8 (F := F) := by
  have h := step_binary ops_numbered V 22 (a := main_call1_v1) (b := main_call1_call0_v0) (y := main_v8) (f := (fun x v => Host.reduceWindow IntOp.addi ![65536] ![1] ![65535] ![0] x v reduceWindows_S65536_S65536_w65536s1p65535_0 h_S_)) rfl (by decide) (by decide) (after_main_call1_v1 V) (after_main_call1_call0_v0 V)
  exact h
theorem after_main_c : after ops V (Proc.devRef .tc main_c) = Terms.res_main_c (F := F) := by
  have h := step_nullary ops_numbered V 23 (y := main_c) (v := (constantI S_ 32 0#32)) rfl
  exact h
theorem after_main_v9 : after ops V (Proc.devRef .tc main_v9) = Terms.res_main_v9 (F := F) := by
  have h := step_unary ops_numbered V 24 (x := main_c) (y := main_v9) (f := (broadcastInDim S32896 ![] bcast_S_S32896 : (⟨S_, .i32⟩ : BufTy).Contents (Elt F) → (⟨S32896, .i32⟩ : BufTy).Contents (Elt F))) rfl (by decide) (after_main_c V)
  exact h
theorem after_main_c_1 : after ops V (Proc.devRef .tc main_c_1) = Terms.res_main_c_1 (F := F) := by
  have h := step_nullary ops_numbered V 25 (y := main_c_1) (v := (constantI S_ 32 0#32)) rfl
  exact h
theorem after_main_call2_v0 : after ops V (Proc.devRef .tc main_call2_v0) = Terms.res_main_call2_v0 (F := F) := by
  have h := step_unary ops_numbered V 26 (x := main_c_1) (y := main_call2_v0) (f := id) rfl (by decide) (after_main_c_1 V)
  exact h
theorem after_main_call2_v1 : after ops V (Proc.devRef .tc main_call2_v1) = Terms.res_main_call2_v1 (F := F) := by
  have h := step_unary ops_numbered V 27 (x := main_call2_v0) (y := main_call2_v1) (f := (broadcastInDim S65536 ![] bcast_S_S65536)) rfl (by decide) (after_main_call2_v0 V)
  exact h
theorem after_main_v10 : after ops V (Proc.devRef .tc main_v10) = Terms.res_main_v10 (F := F) := by
  have h := step_binary ops_numbered V 28 (a := main_call2_v1) (b := main_v8) (y := main_v10) (f := maxsi) rfl (by decide) (by decide) (after_main_call2_v1 V) (after_main_v8 V)
  exact h
theorem after_main_c_2 : after ops V (Proc.devRef .tc main_c_2) = Terms.res_main_c_2 (F := F) := by
  have h := step_nullary ops_numbered V 29 (y := main_c_2) (v := (constantI S_ 32 0#32)) rfl
  exact h
theorem after_main_v11 : after ops V (Proc.devRef .tc main_v11) = Terms.res_main_v11 (F := F) := by
  have h := step_unary ops_numbered V 30 (x := main_c_2) (y := main_v11) (f := (broadcastInDim S65536 ![] bcast_S_S65536 : (⟨S_, .i32⟩ : BufTy).Contents (Elt F) → (⟨S65536, .i32⟩ : BufTy).Contents (Elt F))) rfl (by decide) (after_main_c_2 V)
  exact h
theorem after_main_v12 : after ops V (Proc.devRef .tc main_v12) = Terms.res_main_v12 (F := F) := by
  have h := step_binary ops_numbered V 31 (a := main_v10) (b := main_v11) (y := main_v12) (f := (cmpi .slt : (⟨S65536, .i32⟩ : BufTy).Contents (Elt F) → (⟨S65536, .i32⟩ : BufTy).Contents (Elt F) → (⟨S65536, .i1⟩ : BufTy).Contents (Elt F))) rfl (by decide) (by decide) (after_main_v10 V) (after_main_v11 V)
  exact h
theorem after_main_c_3 : after ops V (Proc.devRef .tc main_c_3) = Terms.res_main_c_3 (F := F) := by
  have h := step_nullary ops_numbered V 32 (y := main_c_3) (v := (constantI S_ 32 32896#32)) rfl
  exact h
theorem after_main_v13 : after ops V (Proc.devRef .tc main_v13) = Terms.res_main_v13 (F := F) := by
  have h := step_unary ops_numbered V 33 (x := main_c_3) (y := main_v13) (f := (broadcastInDim S65536 ![] bcast_S_S65536 : (⟨S_, .i32⟩ : BufTy).Contents (Elt F) → (⟨S65536, .i32⟩ : BufTy).Contents (Elt F))) rfl (by decide) (after_main_c_3 V)
  exact h
theorem after_main_v14 : after ops V (Proc.devRef .tc main_v14) = Terms.res_main_v14 (F := F) := by
  have h := step_binary ops_numbered V 34 (a := main_v10) (b := main_v13) (y := main_v14) (f := (addi : (⟨S65536, .i32⟩ : BufTy).Contents (Elt F) → (⟨S65536, .i32⟩ : BufTy).Contents (Elt F) → (⟨S65536, .i32⟩ : BufTy).Contents (Elt F))) rfl (by decide) (by decide) (after_main_v10 V) (after_main_v13 V)
  exact h
theorem after_main_v15 : after ops V (Proc.devRef .tc main_v15) = Terms.res_main_v15 (F := F) := by
  have h := step_ternary ops_numbered V 35 (c := main_v12) (a := main_v14) (b := main_v10) (y := main_v15) (f := (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))) rfl (by decide) (by decide) (by decide) (after_main_v12 V) (after_main_v14 V) (after_main_v10 V)
  exact h
theorem after_main_v16 : after ops V (Proc.devRef .tc main_v16) = Terms.res_main_v16 (F := F) := by
  have h := step_unary ops_numbered V 36 (x := main_v15) (y := main_v16) (f := (broadcastInDim S65536x1 ![0] bcast_S65536_S65536x1_0 : (⟨S65536, .i32⟩ : BufTy).Contents (Elt F) → (⟨S65536x1, .i32⟩ : BufTy).Contents (Elt F))) rfl (by decide) (after_main_v15 V)
  exact h
theorem after_main_c_4 : after ops V (Proc.devRef .tc main_c_4) = Terms.res_main_c_4 (F := F) := by
  have h := step_nullary ops_numbered V 37 (y := main_c_4) (v := (constantI S_ 32 1#32)) rfl
  exact h
theorem after_main_v17 : after ops V (Proc.devRef .tc main_v17) = Terms.res_main_v17 (F := F) := by
  have h := step_unary ops_numbered V 38 (x := main_c_4) (y := main_v17) (f := (broadcastInDim S65536 ![] bcast_S_S65536 : (⟨S_, .i32⟩ : BufTy).Contents (Elt F) → (⟨S65536, .i32⟩ : BufTy).Contents (Elt F))) rfl (by decide) (after_main_c_4 V)
  exact h
theorem after_main_v18 : after ops V (Proc.devRef .tc main_v18) = Terms.res_main_v18 (F := F) := by
  have h := step_ternary ops_numbered V 39 (c := main_v9) (a := main_v16) (b := main_v17) (y := main_v18) (f := ((fun x i u => Host.scatter scatter_S32896_S65536x1_S65536_n_0_0_1 IntOp.addi x i u) : (⟨S32896, .i32⟩ : BufTy).Contents (Elt F) → (⟨S65536x1, .i32⟩ : BufTy).Contents (Elt F) → (⟨S65536, .i32⟩ : BufTy).Contents (Elt F) → (⟨S32896, .i32⟩ : BufTy).Contents (Elt F))) rfl (by decide) (by decide) (by decide) (after_main_v9 V) (after_main_v16 V) (after_main_v17 V)
  exact h
theorem after_main_call3_call0_c : after ops V (Proc.devRef .tc main_call3_call0_c) = Terms.res_main_call3_call0_c (F := F) := by
  have h := step_nullary ops_numbered V 40 (y := main_call3_call0_c) (v := (constantI S_ 32 0#32)) rfl
  exact h
theorem after_main_call3_call0_v0 : after ops V (Proc.devRef .tc main_call3_call0_v0) = Terms.res_main_call3_call0_v0 (F := F) := by
  have h := step_unary ops_numbered V 41 (x := main_call3_call0_c) (y := main_call3_call0_v0) (f := (broadcastInDim S_ ![] bcast_S_S_)) rfl (by decide) (after_main_call3_call0_c V)
  exact h
theorem after_main_v19 : after ops V (Proc.devRef .tc main_v19) = Terms.res_main_v19 (F := F) := by
  have h := step_binary ops_numbered V 42 (a := main_v18) (b := main_call3_call0_v0) (y := main_v19) (f := (fun x v => Host.reduceWindow IntOp.addi ![32896] ![1] ![32895] ![0] x v reduceWindows_S32896_S32896_w32896s1p32895_0 h_S_)) rfl (by decide) (by decide) (after_main_v18 V) (after_main_call3_call0_v0 V)
  exact h
theorem after_main_c_5 : after ops V (Proc.devRef .tc main_c_5) = Terms.res_main_c_5 (F := F) := by
  have h := step_nullary ops_numbered V 43 (y := main_c_5) (v := (constantI S_ 32 256#32)) rfl
  exact h
theorem after_main_call4_v0 : after ops V (Proc.devRef .tc main_call4_v0) = Terms.res_main_call4_v0 (F := F) := by
  have h := step_unary ops_numbered V 44 (x := main_c_5) (y := main_call4_v0) (f := (broadcastInDim S32896 ![] bcast_S_S32896)) rfl (by decide) (after_main_c_5 V)
  exact h
theorem after_main_call4_v1 : after ops V (Proc.devRef .tc main_call4_v1) = Terms.res_main_call4_v1 (F := F) := by
  have h := step_binary ops_numbered V 45 (a := main_v19) (b := main_call4_v0) (y := main_call4_v1) (f := Host.divsi) rfl (by decide) (by decide) (after_main_v19 V) (after_main_call4_v0 V)
  exact h
theorem after_main_call4_v2 : after ops V (Proc.devRef .tc main_call4_v2) = Terms.res_main_call4_v2 (F := F) := by
  have h := step_unary ops_numbered V 46 (x := main_v19) (y := main_call4_v2) (f := signi) rfl (by decide) (after_main_v19 V)
  exact h
theorem after_main_call4_v3 : after ops V (Proc.devRef .tc main_call4_v3) = Terms.res_main_call4_v3 (F := F) := by
  have h := step_unary ops_numbered V 47 (x := main_c_5) (y := main_call4_v3) (f := signi) rfl (by decide) (after_main_c_5 V)
  exact h
theorem after_main_call4_v4 : after ops V (Proc.devRef .tc main_call4_v4) = Terms.res_main_call4_v4 (F := F) := by
  have h := step_unary ops_numbered V 48 (x := main_call4_v3) (y := main_call4_v4) (f := (broadcastInDim S32896 ![] bcast_S_S32896)) rfl (by decide) (after_main_call4_v3 V)
  exact h
theorem after_main_call4_v5 : after ops V (Proc.devRef .tc main_call4_v5) = Terms.res_main_call4_v5 (F := F) := by
  have h := step_binary ops_numbered V 49 (a := main_call4_v2) (b := main_call4_v4) (y := main_call4_v5) (f := (cmpi .ne)) rfl (by decide) (by decide) (after_main_call4_v2 V) (after_main_call4_v4 V)
  exact h
theorem after_main_call4_v6 : after ops V (Proc.devRef .tc main_call4_v6) = Terms.res_main_call4_v6 (F := F) := by
  have h := step_unary ops_numbered V 50 (x := main_c_5) (y := main_call4_v6) (f := (broadcastInDim S32896 ![] bcast_S_S32896)) rfl (by decide) (after_main_c_5 V)
  exact h
theorem after_main_call4_v7 : after ops V (Proc.devRef .tc main_call4_v7) = Terms.res_main_call4_v7 (F := F) := by
  have h := step_binary ops_numbered V 51 (a := main_v19) (b := main_call4_v6) (y := main_call4_v7) (f := Host.remsi) rfl (by decide) (by decide) (after_main_v19 V) (after_main_call4_v6 V)
  exact h
theorem after_main_call4_c : after ops V (Proc.devRef .tc main_call4_c) = Terms.res_main_call4_c (F := F) := by
  have h := step_nullary ops_numbered V 52 (y := main_call4_c) (v := (constantI S_ 32 0#32)) rfl
  exact h
theorem after_main_call4_v8 : after ops V (Proc.devRef .tc main_call4_v8) = Terms.res_main_call4_v8 (F := F) := by
  have h := step_unary ops_numbered V 53 (x := main_call4_c) (y := main_call4_v8) (f := (broadcastInDim S32896 ![] bcast_S_S32896)) rfl (by decide) (after_main_call4_c V)
  exact h
theorem after_main_call4_v9 : after ops V (Proc.devRef .tc main_call4_v9) = Terms.res_main_call4_v9 (F := F) := by
  have h := step_binary ops_numbered V 54 (a := main_call4_v7) (b := main_call4_v8) (y := main_call4_v9) (f := (cmpi .ne)) rfl (by decide) (by decide) (after_main_call4_v7 V) (after_main_call4_v8 V)
  exact h
theorem after_main_call4_v10 : after ops V (Proc.devRef .tc main_call4_v10) = Terms.res_main_call4_v10 (F := F) := by
  have h := step_binary ops_numbered V 55 (a := main_call4_v5) (b := main_call4_v9) (y := main_call4_v10) (f := andi) rfl (by decide) (by decide) (after_main_call4_v5 V) (after_main_call4_v9 V)
  exact h
theorem after_main_call4_c_0 : after ops V (Proc.devRef .tc main_call4_c_0) = Terms.res_main_call4_c_0 (F := F) := by
  have h := step_nullary ops_numbered V 56 (y := main_call4_c_0) (v := (constantI S_ 32 1#32)) rfl
  exact h
theorem after_main_call4_v11 : after ops V (Proc.devRef .tc main_call4_v11) = Terms.res_main_call4_v11 (F := F) := by
  have h := step_unary ops_numbered V 57 (x := main_call4_c_0) (y := main_call4_v11) (f := (broadcastInDim S32896 ![] bcast_S_S32896)) rfl (by decide) (after_main_call4_c_0 V)
  exact h
theorem after_main_call4_v12 : after ops V (Proc.devRef .tc main_call4_v12) = Terms.res_main_call4_v12 (F := F) := by
  have h := step_binary ops_numbered V 58 (a := main_call4_v1) (b := main_call4_v11) (y := main_call4_v12) (f := subi) rfl (by decide) (by decide) (after_main_call4_v1 V) (after_main_call4_v11 V)
  exact h
theorem after_main_v20 : after ops V (Proc.devRef .tc main_v20) = Terms.res_main_v20 (F := F) := by
  have h := step_ternary ops_numbered V 59 (c := main_call4_v10) (a := main_call4_v12) (b := main_call4_v1) (y := main_v20) (f := select) rfl (by decide) (by decide) (by decide) (after_main_call4_v10 V) (after_main_call4_v12 V) (after_main_call4_v1 V)
  exact h
theorem after_main_c_6 : after ops V (Proc.devRef .tc main_c_6) = Terms.res_main_c_6 (F := F) := by
  have h := step_nullary ops_numbered V 60 (y := main_c_6) (v := (constantI S_ 32 256#32)) rfl
  exact h
theorem after_main_call5_v0 : after ops V (Proc.devRef .tc main_call5_v0) = Terms.res_main_call5_v0 (F := F) := by
  have h := step_unary ops_numbered V 61 (x := main_c_6) (y := main_call5_v0) (f := id) rfl (by decide) (after_main_c_6 V)
  exact h
theorem after_main_call5_c : after ops V (Proc.devRef .tc main_call5_c) = Terms.res_main_call5_c (F := F) := by
  have h := step_nullary ops_numbered V 62 (y := main_call5_c) (v := (constantI S_ 32 0#32)) rfl
  exact h
theorem after_main_call5_v1 : after ops V (Proc.devRef .tc main_call5_v1) = Terms.res_main_call5_v1 (F := F) := by
  have h := step_binary ops_numbered V 63 (a := main_call5_v0) (b := main_call5_c) (y := main_call5_v1) (f := (cmpi .eq)) rfl (by decide) (by decide) (after_main_call5_v0 V) (after_main_call5_c V)
  exact h
theorem after_main_call5_c_0 : after ops V (Proc.devRef .tc main_call5_c_0) = Terms.res_main_call5_c_0 (F := F) := by
  have h := step_nullary ops_numbered V 64 (y := main_call5_c_0) (v := (constantI S_ 32 1#32)) rfl
  exact h
theorem after_main_call5_v2 : after ops V (Proc.devRef .tc main_call5_v2) = Terms.res_main_call5_v2 (F := F) := by
  have h := step_ternary ops_numbered V 65 (c := main_call5_v1) (a := main_call5_c_0) (b := main_call5_v0) (y := main_call5_v2) (f := select) rfl (by decide) (by decide) (by decide) (after_main_call5_v1 V) (after_main_call5_c_0 V) (after_main_call5_v0 V)
  exact h
theorem after_main_call5_v3 : after ops V (Proc.devRef .tc main_call5_v3) = Terms.res_main_call5_v3 (F := F) := by
  have h := step_unary ops_numbered V 66 (x := main_call5_v2) (y := main_call5_v3) (f := (broadcastInDim S32896 ![] bcast_S_S32896)) rfl (by decide) (after_main_call5_v2 V)
  exact h
theorem after_main_call5_v4 : after ops V (Proc.devRef .tc main_call5_v4) = Terms.res_main_call5_v4 (F := F) := by
  have h := step_binary ops_numbered V 67 (a := main_v20) (b := main_call5_v3) (y := main_call5_v4) (f := Host.remsi) rfl (by decide) (by decide) (after_main_v20 V) (after_main_call5_v3 V)
  exact h
theorem after_main_call5_c_1 : after ops V (Proc.devRef .tc main_call5_c_1) = Terms.res_main_call5_c_1 (F := F) := by
  have h := step_nullary ops_numbered V 68 (y := main_call5_c_1) (v := (constantI S_ 32 0#32)) rfl
  exact h
theorem after_main_call5_v5 : after ops V (Proc.devRef .tc main_call5_v5) = Terms.res_main_call5_v5 (F := F) := by
  have h := step_unary ops_numbered V 69 (x := main_call5_c_1) (y := main_call5_v5) (f := (broadcastInDim S32896 ![] bcast_S_S32896)) rfl (by decide) (after_main_call5_c_1 V)
  exact h
theorem after_main_call5_v6 : after ops V (Proc.devRef .tc main_call5_v6) = Terms.res_main_call5_v6 (F := F) := by
  have h := step_binary ops_numbered V 70 (a := main_call5_v4) (b := main_call5_v5) (y := main_call5_v6) (f := (cmpi .ne)) rfl (by decide) (by decide) (after_main_call5_v4 V) (after_main_call5_v5 V)
  exact h
theorem after_main_call5_c_2 : after ops V (Proc.devRef .tc main_call5_c_2) = Terms.res_main_call5_c_2 (F := F) := by
  have h := step_nullary ops_numbered V 71 (y := main_call5_c_2) (v := (constantI S_ 32 0#32)) rfl
  exact h
theorem after_main_call5_v7 : after ops V (Proc.devRef .tc main_call5_v7) = Terms.res_main_call5_v7 (F := F) := by
  have h := step_unary ops_numbered V 72 (x := main_call5_c_2) (y := main_call5_v7) (f := (broadcastInDim S32896 ![] bcast_S_S32896)) rfl (by decide) (after_main_call5_c_2 V)
  exact h
theorem after_main_call5_v8 : after ops V (Proc.devRef .tc main_call5_v8) = Terms.res_main_call5_v8 (F := F) := by
  have h := step_binary ops_numbered V 73 (a := main_call5_v4) (b := main_call5_v7) (y := main_call5_v8) (f := (cmpi .slt)) rfl (by decide) (by decide) (after_main_call5_v4 V) (after_main_call5_v7 V)
  exact h
theorem after_main_call5_c_3 : after ops V (Proc.devRef .tc main_call5_c_3) = Terms.res_main_call5_c_3 (F := F) := by
  have h := step_nullary ops_numbered V 74 (y := main_call5_c_3) (v := (constantI S_ 32 0#32)) rfl
  exact h
theorem after_main_call5_v9 : after ops V (Proc.devRef .tc main_call5_v9) = Terms.res_main_call5_v9 (F := F) := by
  have h := step_binary ops_numbered V 75 (a := main_call5_v2) (b := main_call5_c_3) (y := main_call5_v9) (f := (cmpi .slt)) rfl (by decide) (by decide) (after_main_call5_v2 V) (after_main_call5_c_3 V)
  exact h
theorem after_main_call5_v10 : after ops V (Proc.devRef .tc main_call5_v10) = Terms.res_main_call5_v10 (F := F) := by
  have h := step_unary ops_numbered V 76 (x := main_call5_v9) (y := main_call5_v10) (f := (broadcastInDim S32896 ![] bcast_S_S32896)) rfl (by decide) (after_main_call5_v9 V)
  exact h
theorem after_main_call5_v11 : after ops V (Proc.devRef .tc main_call5_v11) = Terms.res_main_call5_v11 (F := F) := by
  have h := step_binary ops_numbered V 77 (a := main_call5_v8) (b := main_call5_v10) (y := main_call5_v11) (f := (cmpi .ne)) rfl (by decide) (by decide) (after_main_call5_v8 V) (after_main_call5_v10 V)
  exact h
theorem after_main_call5_v12 : after ops V (Proc.devRef .tc main_call5_v12) = Terms.res_main_call5_v12 (F := F) := by
  have h := step_binary ops_numbered V 78 (a := main_call5_v11) (b := main_call5_v6) (y := main_call5_v12) (f := andi) rfl (by decide) (by decide) (after_main_call5_v11 V) (after_main_call5_v6 V)
  exact h
theorem after_main_call5_v13 : after ops V (Proc.devRef .tc main_call5_v13) = Terms.res_main_call5_v13 (F := F) := by
  have h := step_unary ops_numbered V 79 (x := main_call5_v2) (y := main_call5_v13) (f := (broadcastInDim S32896 ![] bcast_S_S32896)) rfl (by decide) (after_main_call5_v2 V)
  exact h
theorem after_main_call5_v14 : after ops V (Proc.devRef .tc main_call5_v14) = Terms.res_main_call5_v14 (F := F) := by
  have h := step_binary ops_numbered V 80 (a := main_call5_v4) (b := main_call5_v13) (y := main_call5_v14) (f := addi) rfl (by decide) (by decide) (after_main_call5_v4 V) (after_main_call5_v13 V)
  exact h
theorem after_main_v21 : after ops V (Proc.devRef .tc main_v21) = Terms.res_main_v21 (F := F) := by
  have h := step_ternary ops_numbered V 81 (c := main_call5_v12) (a := main_call5_v14) (b := main_call5_v4) (y := main_v21) (f := select) rfl (by decide) (by decide) (by decide) (after_main_call5_v12 V) (after_main_call5_v14 V) (after_main_call5_v4 V)
  exact h
theorem after_main_c_7 : after ops V (Proc.devRef .tc main_c_7) = Terms.res_main_c_7 (F := F) := by
  have h := step_nullary ops_numbered V 82 (y := main_c_7) (v := (constantI S_ 32 1#32)) rfl
  exact h
theorem after_main_call6_v0 : after ops V (Proc.devRef .tc main_call6_v0) = Terms.res_main_call6_v0 (F := F) := by
  have h := step_unary ops_numbered V 83 (x := main_c_7) (y := main_call6_v0) (f := (broadcastInDim S32896 ![] bcast_S_S32896)) rfl (by decide) (after_main_c_7 V)
  exact h
theorem after_main_call6_v1 : after ops V (Proc.devRef .tc main_call6_v1) = Terms.res_main_call6_v1 (F := F) := by
  have h := step_binary ops_numbered V 84 (a := main_v19) (b := main_call6_v0) (y := main_call6_v1) (f := Host.divsi) rfl (by decide) (by decide) (after_main_v19 V) (after_main_call6_v0 V)
  exact h
theorem after_main_call6_v2 : after ops V (Proc.devRef .tc main_call6_v2) = Terms.res_main_call6_v2 (F := F) := by
  have h := step_unary ops_numbered V 85 (x := main_v19) (y := main_call6_v2) (f := signi) rfl (by decide) (after_main_v19 V)
  exact h
theorem after_main_call6_v3 : after ops V (Proc.devRef .tc main_call6_v3) = Terms.res_main_call6_v3 (F := F) := by
  have h := step_unary ops_numbered V 86 (x := main_c_7) (y := main_call6_v3) (f := signi) rfl (by decide) (after_main_c_7 V)
  exact h
theorem after_main_call6_v4 : after ops V (Proc.devRef .tc main_call6_v4) = Terms.res_main_call6_v4 (F := F) := by
  have h := step_unary ops_numbered V 87 (x := main_call6_v3) (y := main_call6_v4) (f := (broadcastInDim S32896 ![] bcast_S_S32896)) rfl (by decide) (after_main_call6_v3 V)
  exact h
theorem after_main_call6_v5 : after ops V (Proc.devRef .tc main_call6_v5) = Terms.res_main_call6_v5 (F := F) := by
  have h := step_binary ops_numbered V 88 (a := main_call6_v2) (b := main_call6_v4) (y := main_call6_v5) (f := (cmpi .ne)) rfl (by decide) (by decide) (after_main_call6_v2 V) (after_main_call6_v4 V)
  exact h
theorem after_main_call6_v6 : after ops V (Proc.devRef .tc main_call6_v6) = Terms.res_main_call6_v6 (F := F) := by
  have h := step_unary ops_numbered V 89 (x := main_c_7) (y := main_call6_v6) (f := (broadcastInDim S32896 ![] bcast_S_S32896)) rfl (by decide) (after_main_c_7 V)
  exact h
theorem after_main_call6_v7 : after ops V (Proc.devRef .tc main_call6_v7) = Terms.res_main_call6_v7 (F := F) := by
  have h := step_binary ops_numbered V 90 (a := main_v19) (b := main_call6_v6) (y := main_call6_v7) (f := Host.remsi) rfl (by decide) (by decide) (after_main_v19 V) (after_main_call6_v6 V)
  exact h
theorem after_main_call6_c : after ops V (Proc.devRef .tc main_call6_c) = Terms.res_main_call6_c (F := F) := by
  have h := step_nullary ops_numbered V 91 (y := main_call6_c) (v := (constantI S_ 32 0#32)) rfl
  exact h
theorem after_main_call6_v8 : after ops V (Proc.devRef .tc main_call6_v8) = Terms.res_main_call6_v8 (F := F) := by
  have h := step_unary ops_numbered V 92 (x := main_call6_c) (y := main_call6_v8) (f := (broadcastInDim S32896 ![] bcast_S_S32896)) rfl (by decide) (after_main_call6_c V)
  exact h
theorem after_main_call6_v9 : after ops V (Proc.devRef .tc main_call6_v9) = Terms.res_main_call6_v9 (F := F) := by
  have h := step_binary ops_numbered V 93 (a := main_call6_v7) (b := main_call6_v8) (y := main_call6_v9) (f := (cmpi .ne)) rfl (by decide) (by decide) (after_main_call6_v7 V) (after_main_call6_v8 V)
  exact h
theorem after_main_call6_v10 : after ops V (Proc.devRef .tc main_call6_v10) = Terms.res_main_call6_v10 (F := F) := by
  have h := step_binary ops_numbered V 94 (a := main_call6_v5) (b := main_call6_v9) (y := main_call6_v10) (f := andi) rfl (by decide) (by decide) (after_main_call6_v5 V) (after_main_call6_v9 V)
  exact h
theorem after_main_call6_c_0 : after ops V (Proc.devRef .tc main_call6_c_0) = Terms.res_main_call6_c_0 (F := F) := by
  have h := step_nullary ops_numbered V 95 (y := main_call6_c_0) (v := (constantI S_ 32 1#32)) rfl
  exact h
theorem after_main_call6_v11 : after ops V (Proc.devRef .tc main_call6_v11) = Terms.res_main_call6_v11 (F := F) := by
  have h := step_unary ops_numbered V 96 (x := main_call6_c_0) (y := main_call6_v11) (f := (broadcastInDim S32896 ![] bcast_S_S32896)) rfl (by decide) (after_main_call6_c_0 V)
  exact h
theorem after_main_call6_v12 : after ops V (Proc.devRef .tc main_call6_v12) = Terms.res_main_call6_v12 (F := F) := by
  have h := step_binary ops_numbered V 97 (a := main_call6_v1) (b := main_call6_v11) (y := main_call6_v12) (f := subi) rfl (by decide) (by decide) (after_main_call6_v1 V) (after_main_call6_v11 V)
  exact h
theorem after_main_v22 : after ops V (Proc.devRef .tc main_v22) = Terms.res_main_v22 (F := F) := by
  have h := step_ternary ops_numbered V 98 (c := main_call6_v10) (a := main_call6_v12) (b := main_call6_v1) (y := main_v22) (f := select) rfl (by decide) (by decide) (by decide) (after_main_call6_v10 V) (after_main_call6_v12 V) (after_main_call6_v1 V)
  exact h
theorem after_main_c_8 : after ops V (Proc.devRef .tc main_c_8) = Terms.res_main_c_8 (F := F) := by
  have h := step_nullary ops_numbered V 99 (y := main_c_8) (v := (constantI S_ 32 256#32)) rfl
  exact h
theorem after_main_call7_v0 : after ops V (Proc.devRef .tc main_call7_v0) = Terms.res_main_call7_v0 (F := F) := by
  have h := step_unary ops_numbered V 100 (x := main_c_8) (y := main_call7_v0) (f := id) rfl (by decide) (after_main_c_8 V)
  exact h
theorem after_main_call7_c : after ops V (Proc.devRef .tc main_call7_c) = Terms.res_main_call7_c (F := F) := by
  have h := step_nullary ops_numbered V 101 (y := main_call7_c) (v := (constantI S_ 32 0#32)) rfl
  exact h
theorem after_main_call7_v1 : after ops V (Proc.devRef .tc main_call7_v1) = Terms.res_main_call7_v1 (F := F) := by
  have h := step_binary ops_numbered V 102 (a := main_call7_v0) (b := main_call7_c) (y := main_call7_v1) (f := (cmpi .eq)) rfl (by decide) (by decide) (after_main_call7_v0 V) (after_main_call7_c V)
  exact h
theorem after_main_call7_c_0 : after ops V (Proc.devRef .tc main_call7_c_0) = Terms.res_main_call7_c_0 (F := F) := by
  have h := step_nullary ops_numbered V 103 (y := main_call7_c_0) (v := (constantI S_ 32 1#32)) rfl
  exact h
theorem after_main_call7_v2 : after ops V (Proc.devRef .tc main_call7_v2) = Terms.res_main_call7_v2 (F := F) := by
  have h := step_ternary ops_numbered V 104 (c := main_call7_v1) (a := main_call7_c_0) (b := main_call7_v0) (y := main_call7_v2) (f := select) rfl (by decide) (by decide) (by decide) (after_main_call7_v1 V) (after_main_call7_c_0 V) (after_main_call7_v0 V)
  exact h
theorem after_main_call7_v3 : after ops V (Proc.devRef .tc main_call7_v3) = Terms.res_main_call7_v3 (F := F) := by
  have h := step_unary ops_numbered V 105 (x := main_call7_v2) (y := main_call7_v3) (f := (broadcastInDim S32896 ![] bcast_S_S32896)) rfl (by decide) (after_main_call7_v2 V)
  exact h
theorem after_main_call7_v4 : after ops V (Proc.devRef .tc main_call7_v4) = Terms.res_main_call7_v4 (F := F) := by
  have h := step_binary ops_numbered V 106 (a := main_v22) (b := main_call7_v3) (y := main_call7_v4) (f := Host.remsi) rfl (by decide) (by decide) (after_main_v22 V) (after_main_call7_v3 V)
  exact h
theorem after_main_call7_c_1 : after ops V (Proc.devRef .tc main_call7_c_1) = Terms.res_main_call7_c_1 (F := F) := by
  have h := step_nullary ops_numbered V 107 (y := main_call7_c_1) (v := (constantI S_ 32 0#32)) rfl
  exact h
theorem after_main_call7_v5 : after ops V (Proc.devRef .tc main_call7_v5) = Terms.res_main_call7_v5 (F := F) := by
  have h := step_unary ops_numbered V 108 (x := main_call7_c_1) (y := main_call7_v5) (f := (broadcastInDim S32896 ![] bcast_S_S32896)) rfl (by decide) (after_main_call7_c_1 V)
  exact h
theorem after_main_call7_v6 : after ops V (Proc.devRef .tc main_call7_v6) = Terms.res_main_call7_v6 (F := F) := by
  have h := step_binary ops_numbered V 109 (a := main_call7_v4) (b := main_call7_v5) (y := main_call7_v6) (f := (cmpi .ne)) rfl (by decide) (by decide) (after_main_call7_v4 V) (after_main_call7_v5 V)
  exact h
theorem after_main_call7_c_2 : after ops V (Proc.devRef .tc main_call7_c_2) = Terms.res_main_call7_c_2 (F := F) := by
  have h := step_nullary ops_numbered V 110 (y := main_call7_c_2) (v := (constantI S_ 32 0#32)) rfl
  exact h
theorem after_main_call7_v7 : after ops V (Proc.devRef .tc main_call7_v7) = Terms.res_main_call7_v7 (F := F) := by
  have h := step_unary ops_numbered V 111 (x := main_call7_c_2) (y := main_call7_v7) (f := (broadcastInDim S32896 ![] bcast_S_S32896)) rfl (by decide) (after_main_call7_c_2 V)
  exact h
theorem after_main_call7_v8 : after ops V (Proc.devRef .tc main_call7_v8) = Terms.res_main_call7_v8 (F := F) := by
  have h := step_binary ops_numbered V 112 (a := main_call7_v4) (b := main_call7_v7) (y := main_call7_v8) (f := (cmpi .slt)) rfl (by decide) (by decide) (after_main_call7_v4 V) (after_main_call7_v7 V)
  exact h
theorem after_main_call7_c_3 : after ops V (Proc.devRef .tc main_call7_c_3) = Terms.res_main_call7_c_3 (F := F) := by
  have h := step_nullary ops_numbered V 113 (y := main_call7_c_3) (v := (constantI S_ 32 0#32)) rfl
  exact h
theorem after_main_call7_v9 : after ops V (Proc.devRef .tc main_call7_v9) = Terms.res_main_call7_v9 (F := F) := by
  have h := step_binary ops_numbered V 114 (a := main_call7_v2) (b := main_call7_c_3) (y := main_call7_v9) (f := (cmpi .slt)) rfl (by decide) (by decide) (after_main_call7_v2 V) (after_main_call7_c_3 V)
  exact h
theorem after_main_call7_v10 : after ops V (Proc.devRef .tc main_call7_v10) = Terms.res_main_call7_v10 (F := F) := by
  have h := step_unary ops_numbered V 115 (x := main_call7_v9) (y := main_call7_v10) (f := (broadcastInDim S32896 ![] bcast_S_S32896)) rfl (by decide) (after_main_call7_v9 V)
  exact h
theorem after_main_call7_v11 : after ops V (Proc.devRef .tc main_call7_v11) = Terms.res_main_call7_v11 (F := F) := by
  have h := step_binary ops_numbered V 116 (a := main_call7_v8) (b := main_call7_v10) (y := main_call7_v11) (f := (cmpi .ne)) rfl (by decide) (by decide) (after_main_call7_v8 V) (after_main_call7_v10 V)
  exact h
theorem after_main_call7_v12 : after ops V (Proc.devRef .tc main_call7_v12) = Terms.res_main_call7_v12 (F := F) := by
  have h := step_binary ops_numbered V 117 (a := main_call7_v11) (b := main_call7_v6) (y := main_call7_v12) (f := andi) rfl (by decide) (by decide) (after_main_call7_v11 V) (after_main_call7_v6 V)
  exact h
theorem after_main_call7_v13 : after ops V (Proc.devRef .tc main_call7_v13) = Terms.res_main_call7_v13 (F := F) := by
  have h := step_unary ops_numbered V 118 (x := main_call7_v2) (y := main_call7_v13) (f := (broadcastInDim S32896 ![] bcast_S_S32896)) rfl (by decide) (after_main_call7_v2 V)
  exact h
theorem after_main_call7_v14 : after ops V (Proc.devRef .tc main_call7_v14) = Terms.res_main_call7_v14 (F := F) := by
  have h := step_binary ops_numbered V 119 (a := main_call7_v4) (b := main_call7_v13) (y := main_call7_v14) (f := addi) rfl (by decide) (by decide) (after_main_call7_v4 V) (after_main_call7_v13 V)
  exact h
theorem after_main_v23 : after ops V (Proc.devRef .tc main_v23) = Terms.res_main_v23 (F := F) := by
  have h := step_ternary ops_numbered V 120 (c := main_call7_v12) (a := main_call7_v14) (b := main_call7_v4) (y := main_v23) (f := select) rfl (by decide) (by decide) (by decide) (after_main_call7_v12 V) (after_main_call7_v14 V) (after_main_call7_v4 V)
  exact h
theorem after_main_c_9 : after ops V (Proc.devRef .tc main_c_9) = Terms.res_main_c_9 (F := F) := by
  have h := step_nullary ops_numbered V 121 (y := main_c_9) (v := (constantI S_ 32 0#32)) rfl
  exact h
theorem after_main_v24 : after ops V (Proc.devRef .tc main_v24) = Terms.res_main_v24 (F := F) := by
  have h := step_unary ops_numbered V 122 (x := main_c_9) (y := main_v24) (f := (broadcastInDim S32896 ![] bcast_S_S32896 : (⟨S_, .i32⟩ : BufTy).Contents (Elt F) → (⟨S32896, .i32⟩ : BufTy).Contents (Elt F))) rfl (by decide) (after_main_c_9 V)
  exact h
theorem after_main_v25 : after ops V (Proc.devRef .tc main_v25) = Terms.res_main_v25 (F := F) := by
  have h := step_binary ops_numbered V 123 (a := main_v21) (b := main_v24) (y := main_v25) (f := (cmpi .slt : (⟨S32896, .i32⟩ : BufTy).Contents (Elt F) → (⟨S32896, .i32⟩ : BufTy).Contents (Elt F) → (⟨S32896, .i1⟩ : BufTy).Contents (Elt F))) rfl (by decide) (by decide) (after_main_v21 V) (after_main_v24 V)
  exact h
theorem after_main_c_10 : after ops V (Proc.devRef .tc main_c_10) = Terms.res_main_c_10 (F := F) := by
  have h := step_nullary ops_numbered V 124 (y := main_c_10) (v := (constantI S_ 32 256#32)) rfl
  exact h
theorem after_main_v26 : after ops V (Proc.devRef .tc main_v26) = Terms.res_main_v26 (F := F) := by
  have h := step_unary ops_numbered V 125 (x := main_c_10) (y := main_v26) (f := (broadcastInDim S32896 ![] bcast_S_S32896 : (⟨S_, .i32⟩ : BufTy).Contents (Elt F) → (⟨S32896, .i32⟩ : BufTy).Contents (Elt F))) rfl (by decide) (after_main_c_10 V)
  exact h
theorem after_main_v27 : after ops V (Proc.devRef .tc main_v27) = Terms.res_main_v27 (F := F) := by
  have h := step_binary ops_numbered V 126 (a := main_v21) (b := main_v26) (y := main_v27) (f := (addi : (⟨S32896, .i32⟩ : BufTy).Contents (Elt F) → (⟨S32896, .i32⟩ : BufTy).Contents (Elt F) → (⟨S32896, .i32⟩ : BufTy).Contents (Elt F))) rfl (by decide) (by decide) (after_main_v21 V) (after_main_v26 V)
  exact h
theorem after_main_v28 : after ops V (Proc.devRef .tc main_v28) = Terms.res_main_v28 (F := F) := by
  have h := step_ternary ops_numbered V 127 (c := main_v25) (a := main_v27) (b := main_v21) (y := main_v28) (f := (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F))) rfl (by decide) (by decide) (by decide) (after_main_v25 V) (after_main_v27 V) (after_main_v21 V)
  exact h
theorem after_main_v29 : after ops V (Proc.devRef .tc main_v29) = Terms.res_main_v29 (F := F) := by
  have h := step_unary ops_numbered V 128 (x := main_v28) (y := main_v29) (f := (broadcastInDim S32896x1 ![0] bcast_S32896_S32896x1_0 : (⟨S32896, .i32⟩ : BufTy).Contents (Elt F) → (⟨S32896x1, .i32⟩ : BufTy).Contents (Elt F))) rfl (by decide) (after_main_v28 V)
  exact h
theorem after_main_v30 : after ops V (Proc.devRef .tc main_v30) = Terms.res_main_v30 (F := F) (V (Proc.devRef .tc main_arg0)) (V (Proc.devRef .tc main_arg1)) := by
  have h := step_binary ops_numbered V 129 (a := main_v2) (b := main_v29) (y := main_v30) (f := ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F))) rfl (by decide) (by decide) (after_main_v2 V) (after_main_v29 V)
  exact h
theorem after_main_c_11 : after ops V (Proc.devRef .tc main_c_11) = Terms.res_main_c_11 (F := F) := by
  have h := step_nullary ops_numbered V 130 (y := main_c_11) (v := (constantI S_ 32 0#32)) rfl
  exact h
theorem after_main_v31 : after ops V (Proc.devRef .tc main_v31) = Terms.res_main_v31 (F := F) := by
  have h := step_unary ops_numbered V 131 (x := main_c_11) (y := main_v31) (f := (broadcastInDim S32896 ![] bcast_S_S32896 : (⟨S_, .i32⟩ : BufTy).Contents (Elt F) → (⟨S32896, .i32⟩ : BufTy).Contents (Elt F))) rfl (by decide) (after_main_c_11 V)
  exact h
theorem after_main_v32 : after ops V (Proc.devRef .tc main_v32) = Terms.res_main_v32 (F := F) := by
  have h := step_binary ops_numbered V 132 (a := main_v23) (b := main_v31) (y := main_v32) (f := (cmpi .slt : (⟨S32896, .i32⟩ : BufTy).Contents (Elt F) → (⟨S32896, .i32⟩ : BufTy).Contents (Elt F) → (⟨S32896, .i1⟩ : BufTy).Contents (Elt F))) rfl (by decide) (by decide) (after_main_v23 V) (after_main_v31 V)
  exact h
theorem after_main_c_12 : after ops V (Proc.devRef .tc main_c_12) = Terms.res_main_c_12 (F := F) := by
  have h := step_nullary ops_numbered V 133 (y := main_c_12) (v := (constantI S_ 32 256#32)) rfl
  exact h
theorem after_main_v33 : after ops V (Proc.devRef .tc main_v33) = Terms.res_main_v33 (F := F) := by
  have h := step_unary ops_numbered V 134 (x := main_c_12) (y := main_v33) (f := (broadcastInDim S32896 ![] bcast_S_S32896 : (⟨S_, .i32⟩ : BufTy).Contents (Elt F) → (⟨S32896, .i32⟩ : BufTy).Contents (Elt F))) rfl (by decide) (after_main_c_12 V)
  exact h
theorem after_main_v34 : after ops V (Proc.devRef .tc main_v34) = Terms.res_main_v34 (F := F) := by
  have h := step_binary ops_numbered V 135 (a := main_v23) (b := main_v33) (y := main_v34) (f := (addi : (⟨S32896, .i32⟩ : BufTy).Contents (Elt F) → (⟨S32896, .i32⟩ : BufTy).Contents (Elt F) → (⟨S32896, .i32⟩ : BufTy).Contents (Elt F))) rfl (by decide) (by decide) (after_main_v23 V) (after_main_v33 V)
  exact h
theorem after_main_v35 : after ops V (Proc.devRef .tc main_v35) = Terms.res_main_v35 (F := F) := by
  have h := step_ternary ops_numbered V 136 (c := main_v32) (a := main_v34) (b := main_v23) (y := main_v35) (f := (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F))) rfl (by decide) (by decide) (by decide) (after_main_v32 V) (after_main_v34 V) (after_main_v23 V)
  exact h
theorem after_main_v36 : after ops V (Proc.devRef .tc main_v36) = Terms.res_main_v36 (F := F) := by
  have h := step_unary ops_numbered V 137 (x := main_v35) (y := main_v36) (f := (broadcastInDim S32896x1 ![0] bcast_S32896_S32896x1_0 : (⟨S32896, .i32⟩ : BufTy).Contents (Elt F) → (⟨S32896x1, .i32⟩ : BufTy).Contents (Elt F))) rfl (by decide) (after_main_v35 V)
  exact h
theorem after_main_v37 : after ops V (Proc.devRef .tc main_v37) = Terms.res_main_v37 (F := F) (V (Proc.devRef .tc main_arg0)) (V (Proc.devRef .tc main_arg1)) := by
  have h := step_binary ops_numbered V 138 (a := main_v3) (b := main_v36) (y := main_v37) (f := ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F))) rfl (by decide) (by decide) (after_main_v3 V) (after_main_v36 V)
  exact h
theorem after_main_v38 : after ops V (Proc.devRef .tc main_v38) = Terms.res_main_v38 (F := F) (V (Proc.devRef .tc main_arg0)) (V (Proc.devRef .tc main_arg1)) := by
  have h := step_binary ops_numbered V 139 (a := main_v30) (b := main_v37) (y := main_v38) (f := (addf : (⟨S4x32896x768, .f32⟩ : BufTy).Contents (Elt F) → (⟨S4x32896x768, .f32⟩ : BufTy).Contents (Elt F) → (⟨S4x32896x768, .f32⟩ : BufTy).Contents (Elt F))) rfl (by decide) (by decide) (after_main_v30 V) (after_main_v37 V)
  exact h
theorem after_main_v39 : after ops V (Proc.devRef .tc main_v39) = Terms.res_main_v39 (F := F) (V (Proc.devRef .tc main_arg2)) := by
  have h := step_unary ops_numbered V 140 (x := main_arg2) (y := main_v39) (f := (broadcastInDim S1x1x768 ![2] bcast_S768_S1x1x768_2 : (⟨S768, .f32⟩ : BufTy).Contents (Elt F) → (⟨S1x1x768, .f32⟩ : BufTy).Contents (Elt F))) rfl (by decide) (after_main_arg2 V)
  exact h
theorem after_main_v40 : after ops V (Proc.devRef .tc main_v40) = Terms.res_main_v40 (F := F) (V (Proc.devRef .tc main_arg2)) := by
  have h := step_unary ops_numbered V 141 (x := main_v39) (y := main_v40) (f := (broadcastInDim S4x32896x768 ![0, 1, 2] bcast_S1x1x768_S4x32896x768_0_1_2 : (⟨S1x1x768, .f32⟩ : BufTy).Contents (Elt F) → (⟨S4x32896x768, .f32⟩ : BufTy).Contents (Elt F))) rfl (by decide) (after_main_v39 V)
  exact h
theorem after_main_v41 : after ops V (Proc.devRef .tc main_v41) = Terms.res_main_v41 (F := F) (V (Proc.devRef .tc main_arg0)) (V (Proc.devRef .tc main_arg1)) (V (Proc.devRef .tc main_arg2)) := by
  have h := step_binary ops_numbered V 142 (a := main_v38) (b := main_v40) (y := main_v41) (f := (addf : (⟨S4x32896x768, .f32⟩ : BufTy).Contents (Elt F) → (⟨S4x32896x768, .f32⟩ : BufTy).Contents (Elt F) → (⟨S4x32896x768, .f32⟩ : BufTy).Contents (Elt F))) rfl (by decide) (by decide) (after_main_v38 V) (after_main_v40 V)
  exact h
theorem after_main_v42 : after ops V (Proc.devRef .tc main_v42) = Terms.res_main_v42 (F := F) (V (Proc.devRef .tc main_arg0)) (V (Proc.devRef .tc main_arg1)) (V (Proc.devRef .tc main_arg2)) := by
  have h := step_unary ops_numbered V 143 (x := main_v41) (y := main_v42) (f := (Host.tanh : (⟨S4x32896x768, .f32⟩ : BufTy).Contents (Elt F) → (⟨S4x32896x768, .f32⟩ : BufTy).Contents (Elt F))) rfl (by decide) (after_main_v41 V)
  exact h

end Cert.ReferenceIdeal.RefRun

end
-- ==== Proof.RefRead.lean ====
import proofs.«116342_j30605936951494_1_alg».proof.Proof.RefRun
import proofs.«116342_j30605936951494_1_alg».proof.Proof.RefReadRows

/-! # The reference's result

The run leaves every TensorCore buffer at the fold of the line's 144 operations over the launch contents, and the
line is in single-assignment form, so the fold is read one buffer at a time: each written buffer holds its
operation's function of what its operands hold. Followed from the three arguments down to the returned value,
this says the result buffer holds `Terms.res_main_v42` of the arguments' launch contents — the hyperbolic tangent
of the gathered sum of the two projections plus the bias, with the gathers' row and column numbers computed by
the argument-free integer part of the line. The arguments themselves are left as they were. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From any memory with zero counters, every weakly fair execution of @main terminates with the returned value's
    buffer at the composed term of the three arguments' launch contents, and the arguments unchanged. -/
theorem result_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = Terms.res_main_v42 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v42).trans (after_main_v42 (launchContents m c)),
       (h c main_arg0).trans (after_main_arg0 (launchContents m c)),
       (h c main_arg1).trans (after_main_arg1 (launchContents m c)),
       (h c main_arg2).trans (after_main_arg2 (launchContents m c))⟩)
    (run_after m ρ)

end Cert.ReferenceIdeal.RefRun

end
-- ==== Proof.RefValue.lean ====
/-
  The host program's result is the handshake of its arguments: at the rank of every pair i ≤ j < 256 it holds
  tanh ((p₁ b i o + p₂ b j o) + β o).

  Read at an index (b, k, o), the result is tanh of the sum of three terms. The first is a gather of rows of p₁ at
  the k-th row index: the operand's entry (b, r, o), r the index word read signed and clamped into [0, 255]; the
  second the same gather of p₂ at the k-th column index; the third the bias at o. p₁ and p₂ are contractions of the
  hidden state against the left and right halves of the weight: sums over the 768 hidden features of
  x (b, s, h) · w (o, h) and x (b, s, h) · w (o, 768 + h). At k = rank i j the two index words are i and j (the
  hypotheses `hrow`, `hcol` of `ref_holds_of_idx`), both below 256, so the clamps are the identity.
-/
import proofs.«116342_j30605936951494_1_alg».proof.Proof.RefTermsFloat
import proofs.«116342_j30605936951494_1_alg».proof.Proof.Spec
import Idealize.ShloMosaic.Lib.ValueIdx
import Idealize.ShloMosaic.PureOps.Ideal.Laws

noncomputable section

namespace Cert.ReferenceIdeal.Value'

open Idealize.ShloMosaic Idealize.ShloMosaic.ValueIdx
open Cert.ReferenceIdeal Cert.ReferenceIdeal.Facts₀ Cert.ReferenceIdeal.Facts
open scoped BigOperators
open Cert.Tri (SHid SW SBias SOut)

/-! ## The layout operations read at an index -/

/-- The left half of the weight at (o, k) is the weight at (o, k). -/
theorem sliceLeft_apply {α : Type} (w : S768x1536.Idx → α) (h : S768x1536.Slices ![0, 0] S768x768)
    (o k : Fin 768) :
    extractStridedSlice S768x768 ![0, 0] w h (ix2 o k) = w (ix2 o ⟨k.val, by omega⟩) := by
  unfold extractStridedSlice
  congr 1
  funext a
  match a with
  | ⟨0, _⟩ => exact Fin.ext (Nat.zero_add _)
  | ⟨1, _⟩ => exact Fin.ext (Nat.zero_add _)

/-- The right half of the weight at (o, k) is the weight at (o, 768 + k). -/
theorem sliceRight_apply {α : Type} (w : S768x1536.Idx → α) (h : S768x1536.Slices ![0, 768] S768x768)
    (o k : Fin 768) :
    extractStridedSlice S768x768 ![0, 768] w h (ix2 o k) = w (ix2 o ⟨768 + k.val, by omega⟩) := by
  unfold extractStridedSlice
  congr 1
  funext a
  match a with
  | ⟨0, _⟩ => exact Fin.ext (Nat.zero_add _)
  | ⟨1, _⟩ => rfl

/-- A vector of 32896 words as a one-column array: entry (k, 0) is entry k. -/
theorem column_apply {α : Type} (v : S32896.Idx → α) (h : S32896.BroadcastsInDim S32896x1 ![0])
    (k : Fin 32896) (z : Fin 1) :
    broadcastInDim S32896x1 ![0] h v (ix2 k z) = v (ix1 k) := by
  unfold broadcastInDim
  congr 1
  funext a
  match a with
  | ⟨0, _⟩ => rfl

/-- The bias repeated over every batch and row: entry (b, k, o) is the bias at o. -/
theorem bias_apply {α : Type} (β : S768.Idx → α) (h1 : S768.BroadcastsInDim S1x1x768 ![2])
    (h2 : S1x1x768.BroadcastsInDim S4x32896x768 ![0, 1, 2]) (b : Fin 4) (k : Fin 32896) (o : Fin 768) :
    broadcastInDim S4x32896x768 ![0, 1, 2] h2 (broadcastInDim S1x1x768 ![2] h1 β) (ix3 b k o) = β (ix1 o) := by
  unfold broadcastInDim
  congr 1
  funext a
  match a with
  | ⟨0, _⟩ => rfl

/-! ## The two contractions read at an index -/

/-- The contraction of the hidden state [4, 256, 768] against a [768, 768] matrix on the last axis of each, read at
    (b, s, o): the sum over k of x (b, s, k) · r (o, k). -/
theorem proj_apply [Facts₀] (x : FVec Ideal S4x256x768 .f32) (r : FVec Ideal S768x768 .f32)
    (b : Fin 4) (s : Fin 256) (o : Fin 768) :
    Host.dotGeneral dot_S4x256x768_S768x768_S4x256x768_2_1_01_0_n_n none x r (ix3 b s o)
      = ∑ k : Fin 768, x (ix3 b s k) * r (ix2 o k) := by
  show FloatOps.dotGeneral _ none _ x r (ix3 b s o) = _
  rw [Ideal.dotGeneral_apply,
    ← Equiv.sum_comp (contrEquiv1 dot_S4x256x768_S768x768_S4x256x768_2_1_01_0_n_n 768 rfl rfl).symm]
  refine Finset.sum_congr rfl fun c _ => ?_
  have c3 := contrEquiv1_symm_val dot_S4x256x768_S768x768_S4x256x768_2_1_01_0_n_n 768 rfl rfl c
  have l3 : dot_S4x256x768_S768x768_S4x256x768_2_1_01_0_n_n.lhsIdx (ix3 b s o)
      ((contrEquiv1 _ 768 rfl rfl).symm c) = ix3 b s c := by
    funext ax; apply Fin.ext
    match ax with
    | ⟨0, _⟩ => simp [DotDims.lhsIdx, dot_S4x256x768_S768x768_S4x256x768_2_1_01_0_n_n]; rfl
    | ⟨1, _⟩ => simp [DotDims.lhsIdx, dot_S4x256x768_S768x768_S4x256x768_2_1_01_0_n_n]; rfl
    | ⟨2, _⟩ => simp [DotDims.lhsIdx, dot_S4x256x768_S768x768_S4x256x768_2_1_01_0_n_n]; exact c3
  have r3 : dot_S4x256x768_S768x768_S4x256x768_2_1_01_0_n_n.rhsIdx (ix3 b s o)
      ((contrEquiv1 _ 768 rfl rfl).symm c) = ix2 o c := by
    funext ax; apply Fin.ext
    match ax with
    | ⟨0, _⟩ => simp [DotDims.rhsIdx, dot_S4x256x768_S768x768_S4x256x768_2_1_01_0_n_n]; rfl
    | ⟨1, _⟩ => simp [DotDims.rhsIdx, dot_S4x256x768_S768x768_S4x256x768_2_1_01_0_n_n]; exact c3
  rw [l3, r3]

/-! ## The row gather read at an index

The gather's dimension numbers keep the batch axis 0 and the feature axis 2 of the operand whole (offset axes 0 and 2
of the result), collapse the row axis 1, and read one start index per result row, for the row axis. -/

/-- The batch axis has no start index. -/
theorem rows_sim_0 [Facts₀] : (0 : Fin S4x256x768.rank) ∉ gather_S4x256x768_S32896x1_S4x32896x768_02_1_n_n_1_1_41768.startIndexMap :=
  (by decide : (0 : Fin 3) ∉ ([1] : List (Fin 3)))
/-- The row axis is the one the start index names. -/
theorem rows_sim_1 [Facts₀] : (1 : Fin S4x256x768.rank) ∈ gather_S4x256x768_S32896x1_S4x32896x768_02_1_n_n_1_1_41768.startIndexMap :=
  (by decide : (1 : Fin 3) ∈ ([1] : List (Fin 3)))
/-- The feature axis has no start index. -/
theorem rows_sim_2 [Facts₀] : (2 : Fin S4x256x768.rank) ∉ gather_S4x256x768_S32896x1_S4x32896x768_02_1_n_n_1_1_41768.startIndexMap :=
  (by decide : (2 : Fin 3) ∉ ([1] : List (Fin 3)))
/-- The batch axis is kept. -/
theorem rows_kept_0 [Facts₀] : (0 : Fin S4x256x768.rank) ∈ gather_S4x256x768_S32896x1_S4x32896x768_02_1_n_n_1_1_41768.sKept :=
  (GatherDims.mem_sKept _ _).2 ⟨(by decide : (0 : Fin 3) ∉ ([1] : List (Fin 3))), List.not_mem_nil⟩
/-- The row axis is collapsed. -/
theorem rows_kept_1 [Facts₀] : (1 : Fin S4x256x768.rank) ∉ gather_S4x256x768_S32896x1_S4x32896x768_02_1_n_n_1_1_41768.sKept :=
  fun h => ((GatherDims.mem_sKept _ _).1 h).1 (by decide : (1 : Fin 3) ∈ ([1] : List (Fin 3)))
/-- The feature axis is kept. -/
theorem rows_kept_2 [Facts₀] : (2 : Fin S4x256x768.rank) ∈ gather_S4x256x768_S32896x1_S4x32896x768_02_1_n_n_1_1_41768.sKept :=
  (GatherDims.mem_sKept _ _).2 ⟨(by decide : (2 : Fin 3) ∉ ([1] : List (Fin 3))), List.not_mem_nil⟩

/-- On the batch axis the slice starts at 0. -/
theorem rows_start_0 [Facts₀] (j : S4x32896x768.Idx) (idx : IVec S32896x1 32) :
    gather_S4x256x768_S32896x1_S4x32896x768_02_1_n_n_1_1_41768.start j idx 0 = 0 := by
  unfold GatherDims.start
  rw [dif_neg rows_sim_0]

/-- On the feature axis the slice starts at 0. -/
theorem rows_start_2 [Facts₀] (j : S4x32896x768.Idx) (idx : IVec S32896x1 32) :
    gather_S4x256x768_S32896x1_S4x32896x768_02_1_n_n_1_1_41768.start j idx 2 = 0 := by
  unfold GatherDims.start
  rw [dif_neg rows_sim_2]

/-- On the row axis the slice starts at the result row's start index, read signed and clamped into [0, 255]. -/
theorem rows_start_1 [Facts₀] (b : Fin 4) (k : Fin 32896) (o : Fin 768) (idx : IVec S32896x1 32) :
    gather_S4x256x768_S32896x1_S4x32896x768_02_1_n_n_1_1_41768.start (ix3 b k o) idx 1 = min (idx (ix2 k (0 : Fin 1))).toInt.toNat 255 := by
  unfold GatherDims.start
  rw [dif_pos rows_sim_1]
  have hsi : gather_S4x256x768_S32896x1_S4x32896x768_02_1_n_n_1_1_41768.siIdx (ix3 b k o)
      ⟨List.idxOf (1 : Fin S4x256x768.rank) gather_S4x256x768_S32896x1_S4x32896x768_02_1_n_n_1_1_41768.startIndexMap, List.idxOf_lt_length_iff.2 rows_sim_1⟩
        = ix2 k (0 : Fin 1) := by
    funext c; refine Fin.ext ?_
    match c with
    | ⟨0, _⟩ => rfl
    | ⟨1, _⟩ => rfl
  rw [hsi]
  rfl

/-- On the batch axis the offset is the result's batch coordinate. -/
theorem rows_off_0 [Facts₀] (j : S4x32896x768.Idx) : gather_S4x256x768_S32896x1_S4x32896x768_02_1_n_n_1_1_41768.offCoord j 0 = (j 0).val := by
  unfold GatherDims.offCoord
  rw [dif_pos rows_kept_0]
  rfl

/-- On the collapsed row axis there is no offset. -/
theorem rows_off_1 [Facts₀] (j : S4x32896x768.Idx) : gather_S4x256x768_S32896x1_S4x32896x768_02_1_n_n_1_1_41768.offCoord j 1 = 0 :=
  GatherDims.offCoord_eq_zero _ _ _ rows_kept_1

/-- On the feature axis the offset is the result's feature coordinate. -/
theorem rows_off_2 [Facts₀] (j : S4x32896x768.Idx) : gather_S4x256x768_S32896x1_S4x32896x768_02_1_n_n_1_1_41768.offCoord j 2 = (j 2).val := by
  unfold GatherDims.offCoord
  rw [dif_pos rows_kept_2]
  rfl

/-- The gather of rows of a [4, 256, 768] array at a one-column array of 32896 start indices: entry (b, k, o) is the
    operand's entry (b, r, o), r the k-th start index read signed and clamped into [0, 255]. -/
theorem rows_apply [Facts₀] {α : Type} (p : S4x256x768.Idx → α) (idx : IVec S32896x1 32)
    (b : Fin 4) (k : Fin 32896) (o : Fin 768) :
    Host.gather gather_S4x256x768_S32896x1_S4x32896x768_02_1_n_n_1_1_41768 p idx (ix3 b k o)
      = p (ix3 b ⟨min (idx (ix2 k (0 : Fin 1))).toInt.toNat 255, by omega⟩ o) := by
  unfold Host.gather
  congr 1
  funext a
  refine Fin.ext ?_
  show gather_S4x256x768_S32896x1_S4x32896x768_02_1_n_n_1_1_41768.start (ix3 b k o) idx a
      + gather_S4x256x768_S32896x1_S4x32896x768_02_1_n_n_1_1_41768.batchCoord (ix3 b k o) a
      + gather_S4x256x768_S32896x1_S4x32896x768_02_1_n_n_1_1_41768.offCoord (ix3 b k o) a = _
  rw [GatherDims.batchCoord_eq_zero _ _ _ List.not_mem_nil, Nat.add_zero]
  match a with
  | ⟨0, _⟩ => exact (congrArg₂ (· + ·) (rows_start_0 _ idx) (rows_off_0 _)).trans (Nat.zero_add _)
  | ⟨1, _⟩ => exact (congrArg₂ (· + ·) (rows_start_1 b k o idx) (rows_off_1 _)).trans (Nat.add_zero _)
  | ⟨2, _⟩ => exact (congrArg₂ (· + ·) (rows_start_2 _ idx) (rows_off_2 _)).trans (Nat.zero_add _)

/-! ## The start indices: a small row number, read signed and clamped, is itself -/

/-- The 32-bit word of a row number below 256, read as a signed integer and clamped into [0, 255], is that number. -/
theorem clamp_ofNat (i : ℕ) (hi : i < 256) : min (BitVec.ofNat 32 i).toInt.toNat 255 = i := by
  have h : (BitVec.ofNat 32 i).toInt = (i : Int) := by
    rw [BitVec.toInt_eq_toNat_cond, BitVec.toNat_ofNat]
    have : i % 2 ^ 32 = i := Nat.mod_eq_of_lt (by omega)
    rw [this]
    split <;> omega
  rw [h]
  omega

/-- A gather of rows at a vector of start indices whose k-th word is the row number r: entry (b, k, o) is the
    operand's entry (b, r, o). -/
theorem gathered_apply [Facts₀] {α : Type} (p : S4x256x768.Idx → α) (v : IVec S32896 32)
    (h : S32896.BroadcastsInDim S32896x1 ![0]) (b : Fin 4) (k : Fin 32896) (o : Fin 768) (r : Fin 256)
    (hr : v (ix1 k) = BitVec.ofNat 32 r.val) :
    Host.gather gather_S4x256x768_S32896x1_S4x32896x768_02_1_n_n_1_1_41768 p (broadcastInDim S32896x1 ![0] h v) (ix3 b k o) = p (ix3 b r o) := by
  rw [rows_apply]
  have hm : (⟨min ((broadcastInDim S32896x1 ![0] h v) (ix2 k (0 : Fin 1))).toInt.toNat 255,
      by omega⟩ : Fin 256) = r := Fin.ext (by
    show min ((broadcastInDim S32896x1 ![0] h v) (ix2 k (0 : Fin 1))).toInt.toNat 255 = r.val
    rw [column_apply, hr]
    exact clamp_ofNat _ r.isLt)
  rw [hm]

/-! ## The two projections -/

/-- The program's p₁ at (b, s, o) is the left projection. -/
theorem p1_apply (x : SHid.Idx → EReal) (w : SW.Idx → EReal) (b : Fin 4) (s : Fin 256) (o : Fin 768) :
    Terms.res_main_v2 (F := Ideal) x w (ix3 b s o) = Cert.Tri.proj1 x w b s o := by
  unfold Terms.res_main_v2 Cert.Tri.proj1
  rw [proj_apply]
  refine Finset.sum_congr rfl fun k _ => ?_
  unfold Terms.res_main_v0
  rw [sliceLeft_apply]

/-- The program's p₂ at (b, s, o) is the right projection. -/
theorem p2_apply (x : SHid.Idx → EReal) (w : SW.Idx → EReal) (b : Fin 4) (s : Fin 256) (o : Fin 768) :
    Terms.res_main_v3 (F := Ideal) x w (ix3 b s o) = Cert.Tri.proj2 x w b s o := by
  unfold Terms.res_main_v3 Cert.Tri.proj2
  rw [proj_apply]
  refine Finset.sum_congr rfl fun k _ => ?_
  unfold Terms.res_main_v1
  rw [sliceRight_apply]

/-! ## The result -/

/-- Given that the row and column index vectors hold, at the rank of every pair i ≤ j, the numbers i and j, the
    program's result holds every pair's value at the pair's rank. -/
theorem ref_holds_of_idx
    (hrow : ∀ {i j : ℕ} (hij : i ≤ j) (hj : j < 256),
      Terms.res_main_v28 (F := Ideal) (ix1 ⟨Cert.Tri.rank i j, Cert.Tri.rank_lt hij hj⟩) = BitVec.ofNat 32 i)
    (hcol : ∀ {i j : ℕ} (hij : i ≤ j) (hj : j < 256),
      Terms.res_main_v35 (F := Ideal) (ix1 ⟨Cert.Tri.rank i j, Cert.Tri.rank_lt hij hj⟩) = BitVec.ofNat 32 j)
    (x : (⟨S4x256x768, .f32⟩ : BufTy).Contents (Elt Ideal)) (w : (⟨S768x1536, .f32⟩ : BufTy).Contents (Elt Ideal))
    (β : (⟨S768, .f32⟩ : BufTy).Contents (Elt Ideal)) :
    Cert.Tri.HoldsPairs x w β (Terms.res_main_v42 (F := Ideal) x w β) := by
  intro b i j o hij
  show Ideal.tanh
      ((Terms.res_main_v30 (F := Ideal) x w (ix3 b ⟨Cert.Tri.rank i.val j.val, Cert.Tri.rank_lt hij j.isLt⟩ o)
        + Terms.res_main_v37 (F := Ideal) x w (ix3 b ⟨Cert.Tri.rank i.val j.val, Cert.Tri.rank_lt hij j.isLt⟩ o))
        + Terms.res_main_v40 (F := Ideal) β (ix3 b ⟨Cert.Tri.rank i.val j.val, Cert.Tri.rank_lt hij j.isLt⟩ o))
    = Ideal.tanh ((Cert.Tri.proj1 x w b i o + Cert.Tri.proj2 x w b j o) + β (ix1 o))
  have e1 : Terms.res_main_v30 (F := Ideal) x w (ix3 b ⟨Cert.Tri.rank i.val j.val, Cert.Tri.rank_lt hij j.isLt⟩ o)
      = Cert.Tri.proj1 x w b i o := by
    unfold Terms.res_main_v30 Terms.res_main_v29
    rw [gathered_apply _ _ _ b _ o i (hrow hij j.isLt)]
    exact p1_apply x w b i o
  have e2 : Terms.res_main_v37 (F := Ideal) x w (ix3 b ⟨Cert.Tri.rank i.val j.val, Cert.Tri.rank_lt hij j.isLt⟩ o)
      = Cert.Tri.proj2 x w b j o := by
    unfold Terms.res_main_v37 Terms.res_main_v36
    rw [gathered_apply _ _ _ b _ o j (hcol hij j.isLt)]
    exact p2_apply x w b j o
  have e3 : Terms.res_main_v40 (F := Ideal) β (ix3 b ⟨Cert.Tri.rank i.val j.val, Cert.Tri.rank_lt hij j.isLt⟩ o)
      = β (ix1 o) := by
    unfold Terms.res_main_v40 Terms.res_main_v39
    exact bias_apply β _ _ b _ o
  rw [e1, e2, e3]

end Cert.ReferenceIdeal.Value'

end
-- ==== Proof.TriCount.lean ====
/-
  Counting the upper-triangular positions of a 256 × 256 matrix in row-major order.

  Position `p = 256·r + c` is TRUE when `r ≤ c`.  `cum p` counts the TRUE positions up to and including `p`,
  `cnt v` counts the positions whose running count is `v`, and `pos k` is the running sum of those bin counts.
  The point of the file: `pos (rank i j) = 256·i + j`, i.e. the running sum of the bins at the rank of the pair
  `(i, j)` is the flat position of that pair.

  The road.  Write `below n` for the number of TRUE positions strictly below `n`.  Row `r` holds its TRUE positions
  at the columns `r, …, 255`, so `below (256·r + c) = triOff r + (c - r)` (truncated subtraction), by induction on the
  position.  `below` is monotone and `cum p = below (p + 1)` for a position of the matrix.  The bins are turned into
  a count of positions by summing the fibres of `cum`: `∑_{v < n} cnt v = #{p | cum p < n}`.  Finally, at
  `k = rank i j` the positions with `cum p ≤ k` are exactly those before `256·i + j`, because `below` takes the value
  `k` at `256·i + j` and `k + 1` one step later.
-/
import proofs.«116342_j30605936951494_1_alg».proof.Proof.Spec
import Mathlib.Algebra.BigOperators.Group.Finset.Basic
import Mathlib.Algebra.BigOperators.Group.Finset.Piecewise
import Mathlib.Data.Fintype.BigOperators
import Mathlib.Data.Finset.Card
import Mathlib.Data.Finset.Range
import Mathlib.Tactic.Ring
import Mathlib.Tactic.Linarith

namespace Cert.TriCount

open Finset Cert.Tri

/-- Position `p` of the flattened 256 × 256 matrix lies on or above the diagonal: its row is at most its column. -/
def mask (p : ℕ) : Prop := p / 256 ≤ p % 256

instance : DecidablePred mask := fun p => inferInstanceAs (Decidable (p / 256 ≤ p % 256))

/-- The number of TRUE positions at or before `p`. -/
def cum (p : ℕ) : ℕ := ∑ q : Fin 65536, if q.val ≤ p ∧ mask q.val then 1 else 0

/-- The number of positions whose running count is `v`. -/
def cnt (v : ℕ) : ℕ := ∑ p : Fin 65536, if cum p.val = v then 1 else 0

/-- The running sum of the bins up to and including bin `k`. -/
def pos (k : ℕ) : ℕ := ∑ v : Fin 32896, if v.val ≤ k then cnt v.val else 0

/-- The number of TRUE positions strictly below `n`. -/
def below (n : ℕ) : ℕ := #{q ∈ range n | mask q}

theorem below_zero : below 0 = 0 := by simp [below]

theorem below_succ (n : ℕ) : below (n + 1) = below n + if mask n then 1 else 0 := by
  unfold below
  rw [range_add_one, filter_insert]
  split_ifs with h
  · rw [card_insert_of_notMem (by simp)]
  · rfl

theorem below_mono {a b : ℕ} (h : a ≤ b) : below a ≤ below b :=
  card_le_card (filter_subset_filter _ (range_mono h))

/-- Rows before `n / 256` are complete and contribute `triOff`; the current row contributes its columns from the
diagonal up to (not including) `n % 256`. -/
theorem below_closed (n : ℕ) (hn : n ≤ 65536) : below n = triOff (n / 256) + (n % 256 - n / 256) := by
  induction n with
  | zero => simp [below_zero, triOff]
  | succ n ih =>
    have ih := ih (by omega)
    rw [below_succ, ih]
    by_cases hc : n % 256 = 255
    · have h1 : (n + 1) / 256 = n / 256 + 1 := by omega
      have h2 : (n + 1) % 256 = 0 := by omega
      have hm : mask n := by unfold mask; omega
      rw [h1, h2, triOff_succ, if_pos hm]
      generalize triOff (n / 256) = t
      omega
    · have h1 : (n + 1) / 256 = n / 256 := by omega
      have h2 : (n + 1) % 256 = n % 256 + 1 := by omega
      rw [h1, h2]
      generalize triOff (n / 256) = t
      by_cases hm : mask n
      · rw [if_pos hm]
        unfold mask at hm
        omega
      · rw [if_neg hm]
        unfold mask at hm
        omega

theorem below_all : below 65536 = 32896 := by
  rw [below_closed 65536 le_rfl]
  have : triOff (65536 / 256) = 32896 := triOff_256
  omega

theorem below_one : below 1 = 1 := by
  rw [below_succ, below_zero]
  simp [mask]

/-- At the pair `(i, j)`, `i ≤ j`, the count of TRUE positions before it is its rank. -/
theorem below_pair {i j : ℕ} (hij : i ≤ j) (hj : j < 256) : below (256 * i + j) = rank i j := by
  rw [below_closed _ (by omega)]
  have h1 : (256 * i + j) / 256 = i := by omega
  have h2 : (256 * i + j) % 256 = j := by omega
  rw [h1, h2]
  rfl

theorem below_pair_succ {i j : ℕ} (hij : i ≤ j) (hj : j < 256) : below (256 * i + j + 1) = rank i j + 1 := by
  rw [below_succ, below_pair hij hj, if_pos]
  unfold mask
  omega

/-- The running count in terms of `below`: positions beyond the matrix add nothing. -/
theorem cum_eq (p : ℕ) : cum p = below (min (p + 1) 65536) := by
  unfold cum below
  rw [Fin.sum_univ_eq_sum_range (fun q => if q ≤ p ∧ mask q then 1 else 0) 65536, ← card_filter]
  refine congrArg card ?_
  ext q
  simp only [mem_filter, mem_range]
  constructor
  · rintro ⟨h1, h2, h3⟩
    exact ⟨by omega, h3⟩
  · rintro ⟨h1, h3⟩
    exact ⟨by omega, by omega, h3⟩

theorem cum_eq_of_lt {p : ℕ} (hp : p < 65536) : cum p = below (p + 1) := by
  rw [cum_eq, min_eq_left (by omega)]

theorem cum_pos (p : ℕ) (hp : p < 65536) : 1 ≤ cum p := by
  rw [cum_eq_of_lt hp]
  exact below_one.symm.le.trans (below_mono (by omega))

theorem cum_le (p : ℕ) : cum p ≤ 32896 := by
  rw [cum_eq, ← below_all]
  exact below_mono (min_le_right _ _)

theorem cum_last : cum 65535 = 32896 := by
  rw [cum_eq_of_lt (by omega), below_all]

theorem cnt_eq (v : ℕ) : cnt v = #{p ∈ range 65536 | cum p = v} := by
  unfold cnt
  rw [Fin.sum_univ_eq_sum_range (fun p => if cum p = v then 1 else 0) 65536, ← card_filter]

/-- Summing the bins below `n` counts the positions whose running count is below `n`: every position falls in
exactly one bin. -/
theorem sum_cnt_range (n : ℕ) : ∑ v ∈ range n, cnt v = #{p ∈ range 65536 | cum p < n} := by
  simp only [cnt_eq]
  rw [sum_card_fiberwise_eq_card_filter]
  simp only [mem_range]

theorem sum_cnt_le : (∑ v : Fin 32896, cnt v.val) ≤ 65536 := by
  rw [Fin.sum_univ_eq_sum_range (fun v => cnt v) 32896, sum_cnt_range]
  calc #{p ∈ range 65536 | cum p < 32896} ≤ #(range 65536) := card_filter_le _ _
    _ = 65536 := card_range _

/-- The running sum of the bins up to `k` counts the positions whose running count is at most `k`. -/
theorem pos_eq (k : ℕ) (hk : k < 32896) : pos k = #{p ∈ range 65536 | cum p ≤ k} := by
  unfold pos
  rw [Fin.sum_univ_eq_sum_range (fun v => if v ≤ k then cnt v else 0) 32896, ← sum_filter]
  have hf : {v ∈ range 32896 | v ≤ k} = range (k + 1) := by
    ext v
    simp only [mem_filter, mem_range]
    omega
  rw [hf, sum_cnt_range]
  refine congrArg card ?_
  ext p
  simp only [mem_filter, mem_range]
  omega

theorem pos_rank {i j : ℕ} (hij : i ≤ j) (hj : j < 256) : pos (rank i j) = 256 * i + j := by
  rw [pos_eq _ (rank_lt hij hj)]
  have hf : {p ∈ range 65536 | cum p ≤ rank i j} = range (256 * i + j) := by
    ext p
    simp only [mem_filter, mem_range]
    constructor
    · rintro ⟨hp, hc⟩
      by_contra hlt
      have h1 : below (256 * i + j + 1) ≤ below (p + 1) := below_mono (by omega)
      rw [below_pair_succ hij hj, ← cum_eq_of_lt hp] at h1
      omega
    · intro hp
      have hp' : p < 65536 := by omega
      refine ⟨hp', ?_⟩
      rw [cum_eq_of_lt hp', ← below_pair hij hj]
      exact below_mono (by omega)
  rw [hf, card_range]

theorem pos_lt (k : ℕ) (hk : k < 32896) : pos k < 65536 := by
  obtain ⟨i, j, hij, hj, hr⟩ := rank_surj k hk
  rw [← hr, pos_rank hij hj]
  omega

end Cert.TriCount
-- ==== Proof.LibScan.lean ====
/-
  A windowed sum read as a prefix sum.

  `jnp.cumsum` of a length-`N` vector of 32-bit words is written as a `reduce_window` with one window of
  `N` positions per result element, stride one, `N - 1` positions of padding below and none above: result
  element `j` folds the padded positions `j, j + 1, …, j + N - 1`, and padded position `p` is operand element
  `p - (N - 1)` when `N - 1 ≤ p` and the initial value (zero) otherwise.  So the window of result `j` meets
  the operand exactly in the elements `0, …, j`, and the fold is their sum.

  The steps:
  • a left fold of word addition over a list is the start value plus the sum of the list (`foldl_add_eq_add_sum`);
  • the fold over the window's row-major positions is a sum over the window's one coordinate `m : Fin N`
    (`reduceWindow_eq_sum`; any low padding `lo`);
  • with `lo + 1 = N` the map `m ↦ j + m - lo` (where `lo ≤ j + m`), `m ↦ j + m + 1` (elsewhere) is the
    rotation of `Fin N` by `j + 1`; it carries the in-operand positions onto `{q ≤ j}` (`sum_shift`);
  • the sum of words is the sum of their values while the total stays below `2 ^ 32`
    (`reduceWindow_cumsum_toNat`).
-/
import Idealize.ShloMosaic.PureOps.Contract
import Idealize.ShloMosaic.Lib.ValueIdxRank1
import Idealize.ShloMosaic.Lib.WordSum
import Mathlib.Data.BitVec
import Mathlib.Algebra.BigOperators.Fin

open scoped BigOperators

namespace Cert.LibScan

open Idealize.ShloMosaic Idealize.ShloMosaic.ValueIdx

/-- A left fold of word addition over a list, from `v`, is `v` plus the sum of the list's terms. -/
theorem foldl_add_eq_add_sum {w : ℕ} {ι : Type} (g : ι → BitVec w) (l : List ι) (v : BitVec w) :
    l.foldl (fun r i => IntOp.addi r (g i)) v = v + (l.map g).sum := by
  induction l generalizing v with
  | nil => simp
  | cons a l ih =>
    rw [List.foldl_cons, ih, List.map_cons, List.sum_cons]
    show v + g a + _ = _
    rw [add_assoc]

/-- The same over all of `Fin n` in order: `v` plus the sum over `Fin n`. -/
theorem foldl_finRange_add {w n : ℕ} (g : Fin n → BitVec w) (v : BitVec w) :
    (List.finRange n).foldl (fun r i => IntOp.addi r (g i)) v = v + ∑ i, g i := by
  rw [foldl_add_eq_add_sum, Fin.sum_univ_def]

/-- A rank-1 additive `reduce_window` with a window of `N` positions, stride one and low padding `lo`, read at
    result index `j`: the initial value plus, over the window's positions `m`, the operand element
    `j + m - lo` where padded position `j + m` lies inside the operand and the initial value where it is
    padding. -/
theorem reduceWindow_eq_sum {N lo : ℕ}
    (x : (⟨1, ![N]⟩ : Shape).Idx → BitVec 32) (init : (⟨0, ![]⟩ : Shape).Idx → BitVec 32)
    (h : (⟨1, ![N]⟩ : Shape).ReduceWindows (![N] : Fin 1 → ℕ) ![1] ![lo] ![0] ⟨1, ![N]⟩)
    (hu : 0 < (⟨0, ![]⟩ : Shape).numel) (j : Fin N) :
    Host.reduceWindow IntOp.addi (![N] : Fin 1 → ℕ) ![1] ![lo] ![0] x init h hu (ix1 j)
      = init ix0 + ∑ m : Fin N, (if hin : lo ≤ j.val + m.val ∧ j.val + m.val - lo < N
          then x (ix1 ⟨j.val + m.val - lo, hin.2⟩) else init ix0) := by
  unfold Host.reduceWindow
  simp only []
  rw [foldl_finRange_add, eq_ix0 (Shape.Idx.first hu)]
  congr 1
  -- the window's row-major positions are its one coordinate
  rw [← Equiv.sum_comp ((⟨1, ![N]⟩ : Shape).rowMajor), ← Equiv.sum_comp (idxEquiv1 (n := N)).symm]
  refine Finset.sum_congr rfl fun m _ => ?_
  simp only [Equiv.symm_apply_apply]
  have hm : ((idxEquiv1 (n := N)).symm m) = ix1 m := rfl
  rw [hm]
  -- on the one axis the padded position is `j * 1 + m`
  have hiff : (∀ a : Fin 1, (![lo] : Fin 1 → ℕ) a
        ≤ ((ix1 j (Fin.cast h.1.symm a) : Fin _) : ℕ) * (![1] : Fin 1 → ℕ) a + ((ix1 m a : Fin _) : ℕ) ∧
      ((ix1 j (Fin.cast h.1.symm a) : Fin _) : ℕ) * (![1] : Fin 1 → ℕ) a + ((ix1 m a : Fin _) : ℕ)
        - (![lo] : Fin 1 → ℕ) a < (![N] : Fin 1 → ℕ) a)
      ↔ (lo ≤ j.val + m.val ∧ j.val + m.val - lo < N) := by
    rw [Fin.forall_fin_one]
    show lo ≤ j.val * 1 + m.val ∧ j.val * 1 + m.val - lo < N ↔ _
    rw [Nat.mul_one]
  by_cases hc : lo ≤ j.val + m.val ∧ j.val + m.val - lo < N
  · rw [dif_pos hc, dif_pos (hiff.mpr hc)]
    congr 1
    funext a
    obtain rfl : a = 0 := Subsingleton.elim _ _
    refine Fin.ext ?_
    show j.val * 1 + m.val - lo = j.val + m.val - lo
    rw [Nat.mul_one]
  · rw [dif_neg hc, dif_neg (fun hh => hc (hiff.mp hh))]

/-- With `lo + 1 = N`, the window positions `m` whose padded position `j + m` is inside the operand read the
    operand elements `0, …, j`, each once: the rotation of `Fin N` by `j + 1` re-indexes the sum. -/
theorem sum_shift {N lo : ℕ} (hlo : lo + 1 = N) {M : Type*} [AddCommMonoid M] (F : Fin N → M) (j : Fin N) :
    (∑ m : Fin N, if hin : lo ≤ j.val + m.val ∧ j.val + m.val - lo < N then F ⟨j.val + m.val - lo, hin.2⟩ else 0)
      = ∑ q : Fin N, if q.val ≤ j.val then F q else 0 := by
  have hj := j.isLt
  -- `m ↦ j + m + 1 (mod N)`, written without the remainder
  let σ : Fin N → Fin N := fun m =>
    if hc : lo ≤ j.val + m.val then ⟨j.val + m.val - lo, by have := m.isLt; omega⟩
    else ⟨j.val + m.val + 1, by omega⟩
  have hσ : Function.Bijective σ := by
    rw [← Finite.injective_iff_bijective]
    intro a b hab
    have ha := a.isLt
    have hb := b.isLt
    simp only [σ] at hab
    split_ifs at hab <;> simp only [Fin.mk.injEq] at hab <;> exact Fin.ext (by omega)
  refine Fintype.sum_bijective σ hσ _ _ fun m => ?_
  have hm := m.isLt
  by_cases hc : lo ≤ j.val + m.val
  · -- inside the operand: `m ≤ lo`, so the element read, `j + m - lo`, is at most `j`
    have h2 : j.val + m.val - lo < N := by omega
    rw [dif_pos ⟨hc, h2⟩]
    simp only [σ, dif_pos hc]
    rw [if_pos (by omega)]
  · -- padding: the rotation sends `m` above `j`, where the right side adds nothing
    rw [dif_neg (fun h => hc h.1)]
    simp only [σ, dif_neg hc]
    rw [if_neg (by omega)]

/-- THE CUMULATIVE SUM, as words: from the initial value zero, with `N - 1` positions of low padding, result
    element `j` is the (wrapping) sum of the operand's elements `0, …, j`. -/
theorem reduceWindow_cumsum {N lo : ℕ} (hlo : lo + 1 = N)
    (x : (⟨1, ![N]⟩ : Shape).Idx → BitVec 32) (init : (⟨0, ![]⟩ : Shape).Idx → BitVec 32) (hinit : init ix0 = 0#32)
    (h : (⟨1, ![N]⟩ : Shape).ReduceWindows (![N] : Fin 1 → ℕ) ![1] ![lo] ![0] ⟨1, ![N]⟩)
    (hu : 0 < (⟨0, ![]⟩ : Shape).numel) (j : Fin N) :
    Host.reduceWindow IntOp.addi (![N] : Fin 1 → ℕ) ![1] ![lo] ![0] x init h hu (ix1 j)
      = ∑ q : Fin N, if q.val ≤ j.val then x (ix1 q) else 0 := by
  rw [reduceWindow_eq_sum x init h hu j, hinit, show (0#32 : BitVec 32) = 0 from rfl, zero_add]
  exact sum_shift hlo (fun q => x (ix1 q)) j

/-- THE CUMULATIVE SUM, as natural numbers: while the operand's values sum to less than `2 ^ 32`, the value of
    result element `j` is the sum of the values of the operand's elements `0, …, j`. -/
theorem reduceWindow_cumsum_toNat {N lo : ℕ} (hlo : lo + 1 = N)
    (x : (⟨1, ![N]⟩ : Shape).Idx → BitVec 32) (init : (⟨0, ![]⟩ : Shape).Idx → BitVec 32) (hinit : init ix0 = 0#32)
    (h : (⟨1, ![N]⟩ : Shape).ReduceWindows (![N] : Fin 1 → ℕ) ![1] ![lo] ![0] ⟨1, ![N]⟩)
    (hu : 0 < (⟨0, ![]⟩ : Shape).numel)
    (hb : (∑ q : Fin N, (x (ix1 q)).toNat) < 2 ^ 32) (j : Fin N) :
    (Host.reduceWindow IntOp.addi (![N] : Fin 1 → ℕ) ![1] ![lo] ![0] x init h hu (ix1 j)).toNat
      = ∑ q : Fin N, if q.val ≤ j.val then (x (ix1 q)).toNat else 0 := by
  have e3 : ∀ q : Fin N, (if q.val ≤ j.val then x (ix1 q) else 0).toNat
      = if q.val ≤ j.val then (x (ix1 q)).toNat else 0 := fun q => by
    split_ifs <;> rfl
  rw [reduceWindow_cumsum hlo x init hinit h hu j, WordSum.toNat_sum]
  · exact Finset.sum_congr rfl fun q _ => e3 q
  · -- a partial sum of values is at most the whole
    refine lt_of_le_of_lt (Finset.sum_le_sum fun q _ => ?_) hb
    rw [e3 q]
    split_ifs
    · exact le_rfl
    · exact Nat.zero_le _

end Cert.LibScan
-- ==== Proof.LibScatterCount.lean ====
/-
  An integer scatter-add of scalar updates into a rank-1 array, read at one index as a sum over natural numbers.

  The scatter is a left fold over the update positions: each update is added to the result element its start index
  names, and dropped when that index lies outside the array. Reading the fold at ONE index k, only the updates whose
  start index is k matter, so the element is the operand's element plus the word sum of those updates
  (scatter_apply_fold, for any dimension numbers and any body). For an operand [M], scatter indices [N, 1] and
  updates [N] with the one operand axis inserted, update n lands at the signed value of idx[n, 0] when that lies in
  [0, M) (resultIdx?_eq_some_iff). When the operand's element and all updates together stay below 2 ^ w, no word
  addition wraps, and the word sum is the sum of the natural numbers (scatter_add_toNat).
-/
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

/-! ## The fold read at one index -/

/-- A scatter read at the index k: the fold, over the update positions in row-major order, that applies the body
    to the running element and the update exactly when the update lands at k. -/
theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

/-! ## Conditional word additions along a list, as natural numbers -/

/-- Adding to a word, along a list, the words v n of the positions that satisfy c: when the word and ALL the v n
    together stay below 2 ^ w nothing wraps, and the result is the word plus the sum of the selected v n. -/
theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

/-! ## A rank-1 index set, by its coordinate -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum along the row-major positions of a rank-1 shape is the sum over the coordinate. -/
theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

/-! ## Where an update lands: operand [M], scatter indices [N, 1], updates [N], the operand's axis inserted -/

section Landing
variable {M N : Nat} (d : ScatterDims ⟨1, ![M]⟩ ⟨2, ![N, 1]⟩ ⟨1, ![N]⟩)

/-- The operand's one axis is inserted, so no update has a window coordinate on it. -/
theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

/-- The start of update j on the operand's axis is the scatter index idx[j, 0], read signed. -/
theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- Update j lands at k exactly when its scatter index, read signed, is k (an index outside [0, M) lands nowhere). -/
theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

/-! ## The scatter-add read at an index, as natural numbers -/

/-- THE SCATTER-ADD AT k, any word widths: when the operand's element at k and all N updates together stay below
    2 ^ w, the result's element at k is the operand's plus the sum of the updates whose scatter index, read signed,
    is k. -/
theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

/-- THE SCATTER-ADD AT k, 32-bit words. -/
theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.LibWordDiv.lean ====
/-
  Integer floor division, remainder, clipping at zero and the negative-index wrap, on 32-bit words that are
  nonnegative as signed integers.

  A word below 2 ^ 31 has its sign bit clear, so read as a signed integer it is its natural number. For such a
  dividend n and a divisor d with 0 < d < 2 ^ 31 the signed division is not at a corner (d is neither 0 nor -1), and
  the quotient rounded toward zero and the remainder with the dividend's sign are the unsigned n / d and n % d.
  Floor division corrects the truncated quotient by one only when the signs of n and d differ and the remainder is
  not zero: the signs differ only for n = 0, where the remainder is zero, so nothing is corrected. The floored
  remainder adds d back only when the remainder and d have different signs: both are nonnegative. The maximum with
  zero, and a select on "n is negative", leave a nonnegative n alone.
-/
import Idealize.ShloMosaic.PureOps.ShapeOps
import Idealize.ShloMosaic.Lib.ValueIdx

namespace Cert.LibWordDiv

open Idealize.ShloMosaic Idealize.ShloMosaic.ValueIdx

/-! ## Nonnegative words -/

/-- A word below 2 ^ 31 has its sign bit clear. -/
theorem msb_false {x : BitVec 32} (h : x.toNat < 2 ^ 31) : x.msb = false := by
  rw [BitVec.msb_eq_decide]
  exact decide_eq_false (by omega)

/-- A positive divisor below 2 ^ 31 is neither 0 nor -1: the signed division is not at its corner. -/
theorem not_corner (n : BitVec 32) {d : BitVec 32} (hd0 : 0 < d.toNat) (hd : d.toNat < 2 ^ 31) :
    ¬ IntOp.SDivCorner n d := by
  rintro (h | ⟨-, h⟩)
  · rw [h] at hd0; exact absurd hd0 (by decide)
  · rw [h] at hd; exact absurd hd (by decide)

/-- The signed quotient of nonnegative words is the unsigned one. -/
theorem divsi_host {n d : BitVec 32} (hn : n.toNat < 2 ^ 31) (hd0 : 0 < d.toNat) (hd : d.toNat < 2 ^ 31) :
    IntOp.divsi .host n d = n / d := by
  unfold IntOp.divsi
  rw [if_neg (not_corner n hd0 hd), BitVec.sdiv_eq, msb_false hn, msb_false hd]
  rfl

/-- The signed remainder of nonnegative words is the unsigned one. -/
theorem remsi_host {n d : BitVec 32} (hn : n.toNat < 2 ^ 31) (hd0 : 0 < d.toNat) (hd : d.toNat < 2 ^ 31) :
    IntOp.remsi .host n d = n % d := by
  unfold IntOp.remsi
  rw [if_neg (not_corner n hd0 hd), BitVec.srem_eq, msb_false hn, msb_false hd]

/-- The sign word of a positive word below 2 ^ 31 is 1. -/
theorem sign_pos {x : BitVec 32} (h0 : 0 < x.toNat) (h : x.toNat < 2 ^ 31) :
    (if x = 0 then (0 : BitVec 32) else if x.msb then -1 else 1) = 1 := by
  have hx : x ≠ 0 := by rintro rfl; exact absurd h0 (by decide)
  rw [if_neg hx, msb_false h]
  rfl

/-- The unsigned quotient as a word is the word of the quotient of the natural numbers. -/
theorem ofNat_div (n d : BitVec 32) : BitVec.ofNat 32 (n.toNat / d.toNat) = n / d := by
  apply BitVec.eq_of_toNat_eq
  rw [BitVec.toNat_ofNat, BitVec.toNat_udiv]
  exact Nat.mod_eq_of_lt (lt_of_le_of_lt (Nat.div_le_self _ _) n.isLt)

/-- The unsigned remainder as a word is the word of the remainder of the natural numbers. -/
theorem ofNat_mod (n d : BitVec 32) : BitVec.ofNat 32 (n.toNat % d.toNat) = n % d := by
  apply BitVec.eq_of_toNat_eq
  rw [BitVec.toNat_ofNat, BitVec.toNat_umod]
  exact Nat.mod_eq_of_lt (lt_of_le_of_lt (Nat.mod_le _ _) n.isLt)

/-! ## Floor division -/

/-- FLOOR DIVISION of a nonnegative word by a positive one: the truncated quotient, corrected by one when the signs
    differ and the remainder is not zero, is the word of n / d. -/
theorem floor_divide_word (n d : BitVec 32) (hn : n.toNat < 2 ^ 31) (hd0 : 0 < d.toNat) (hd : d.toNat < 2 ^ 31) :
    Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)
      = BitVec.ofNat 32 (n.toNat / d.toNat) := by
  have hc : IntOp.andi
      (IntOp.cmpi .ne (if n = 0 then (0 : BitVec 32) else if n.msb then -1 else 1)
        (if d = 0 then (0 : BitVec 32) else if d.msb then -1 else 1))
      (IntOp.cmpi .ne (IntOp.remsi .host n d) 0#32) = 0#1 := by
    rw [sign_pos hd0 hd, remsi_host hn hd0 hd]
    by_cases h0 : n = 0
    · subst h0
      simp [IntOp.andi, IntOp.cmpi]
    · have hpos : 0 < n.toNat := by
        rcases Nat.eq_zero_or_pos n.toNat with hz | hp
        · exact absurd (BitVec.eq_of_toNat_eq (by simpa using hz)) h0
        · exact hp
      rw [sign_pos hpos hn]
      simp [IntOp.andi, IntOp.cmpi]
  rw [hc, select_zero, divsi_host hn hd0 hd, ofNat_div]

theorem floor_divide_word_udiv (n d : BitVec 32) (hn : n.toNat < 2 ^ 31) (hd0 : 0 < d.toNat) (hd : d.toNat < 2 ^ 31) :
    Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)
      = n / d := by
  rw [floor_divide_word n d hn hd0 hd, ofNat_div]

/-- … and as a natural number it is n / d. -/
theorem floor_divide_word_toNat (n d : BitVec 32) (hn : n.toNat < 2 ^ 31) (hd0 : 0 < d.toNat) (hd : d.toNat < 2 ^ 31) :
    (Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)).toNat
      = n.toNat / d.toNat := by
  rw [floor_divide_word_udiv n d hn hd0 hd, BitVec.toNat_udiv]

/-! ## The floored remainder -/

/-- A divisor replaced by 1 when it is 0 is itself when it is positive. -/
theorem where_nonzero {d : BitVec 32} (hd0 : 0 < d.toNat) : Scalar.select (IntOp.cmpi .eq d 0#32) 1#32 d = d := by
  have hx : d ≠ 0#32 := by rintro rfl; exact absurd hd0 (by decide)
  have h : IntOp.cmpi .eq d 0#32 = 0#1 := by
    show BitVec.ofBool (d == 0#32) = 0#1
    rw [beq_eq_false_iff_ne.2 hx]
    rfl
  rw [h, select_zero]

/-- A word below 2 ^ 31 is not below zero as a signed integer. -/
theorem slt_zero_of_nonneg {x : BitVec 32} (h : x.toNat < 2 ^ 31) : IntOp.cmpi .slt x 0#32 = 0#1 := by
  show BitVec.ofBool (x.slt 0#32) = 0#1
  rw [BitVec.slt_zero_eq_msb, msb_false h]
  rfl

/-- THE FLOORED REMAINDER of a nonnegative word by a positive one: the truncated remainder, with the divisor added
    back when their signs differ and it is not zero, is the word of n % d. -/
theorem remainder_word (n d : BitVec 32) (hn : n.toNat < 2 ^ 31) (hd0 : 0 < d.toNat) (hd : d.toNat < 2 ^ 31) :
    Scalar.select
        (IntOp.andi
          (IntOp.cmpi .ne
            (IntOp.cmpi .slt (IntOp.remsi .host n (Scalar.select (IntOp.cmpi .eq d 0#32) 1#32 d)) 0#32)
            (IntOp.cmpi .slt (Scalar.select (IntOp.cmpi .eq d 0#32) 1#32 d) 0#32))
          (IntOp.cmpi .ne (IntOp.remsi .host n (Scalar.select (IntOp.cmpi .eq d 0#32) 1#32 d)) 0#32))
        (IntOp.addi (IntOp.remsi .host n (Scalar.select (IntOp.cmpi .eq d 0#32) 1#32 d))
          (Scalar.select (IntOp.cmpi .eq d 0#32) 1#32 d))
        (IntOp.remsi .host n (Scalar.select (IntOp.cmpi .eq d 0#32) 1#32 d))
      = BitVec.ofNat 32 (n.toNat % d.toNat) := by
  rw [where_nonzero hd0, remsi_host hn hd0 hd]
  have hr : (n % d).toNat < 2 ^ 31 := by
    rw [BitVec.toNat_umod]; exact lt_trans (Nat.mod_lt _ hd0) hd
  rw [slt_zero_of_nonneg hr, slt_zero_of_nonneg hd]
  have hc : IntOp.andi (IntOp.cmpi .ne 0#1 0#1) (IntOp.cmpi .ne (n % d) 0#32) = 0#1 := by
    simp [IntOp.andi, IntOp.cmpi]
  rw [hc, select_zero, ofNat_mod]

/-- … and as a natural number it is n % d. -/
theorem remainder_word_toNat (n d : BitVec 32) (hn : n.toNat < 2 ^ 31) (hd0 : 0 < d.toNat) (hd : d.toNat < 2 ^ 31) :
    (Scalar.select
        (IntOp.andi
          (IntOp.cmpi .ne
            (IntOp.cmpi .slt (IntOp.remsi .host n (Scalar.select (IntOp.cmpi .eq d 0#32) 1#32 d)) 0#32)
            (IntOp.cmpi .slt (Scalar.select (IntOp.cmpi .eq d 0#32) 1#32 d) 0#32))
          (IntOp.cmpi .ne (IntOp.remsi .host n (Scalar.select (IntOp.cmpi .eq d 0#32) 1#32 d)) 0#32))
        (IntOp.addi (IntOp.remsi .host n (Scalar.select (IntOp.cmpi .eq d 0#32) 1#32 d))
          (Scalar.select (IntOp.cmpi .eq d 0#32) 1#32 d))
        (IntOp.remsi .host n (Scalar.select (IntOp.cmpi .eq d 0#32) 1#32 d))).toNat
      = n.toNat % d.toNat := by
  rw [remainder_word n d hn hd0 hd, ofNat_mod, BitVec.toNat_umod]

/-! ## Clipping at zero, and the wrap of a negative index -/

/-- The signed maximum of zero and a nonnegative word is the word. -/
theorem clip_word {n : BitVec 32} (hn : n.toNat < 2 ^ 31) : IntOp.maxsi 0#32 n = n := by
  unfold IntOp.maxsi
  rw [BitVec.slt_zero_eq_msb, msb_false hn]
  rfl

/-- A select on "n is negative" leaves a nonnegative word alone, whatever is added on the other branch. -/
theorem wrap_word {n : BitVec 32} (k : BitVec 32) (hn : n.toNat < 2 ^ 31) :
    Scalar.select (IntOp.cmpi .slt n 0#32) (IntOp.addi n k) n = n := by
  rw [slt_zero_of_nonneg hn, select_zero]

/-! ## The divisors 256 and 1 -/

theorem floor_divide_word_256 (n : BitVec 32) (hn : n.toNat < 2 ^ 31) :
    Scalar.select
        (IntOp.andi
          (IntOp.cmpi .ne (if n = 0 then (0 : BitVec 32) else if n.msb then -1 else 1)
            (if 256#32 = 0 then (0 : BitVec 32) else if (256#32).msb then -1 else 1))
          (IntOp.cmpi .ne (IntOp.remsi .host n 256#32) 0#32))
        (IntOp.subi (IntOp.divsi .host n 256#32) 1#32) (IntOp.divsi .host n 256#32)
      = BitVec.ofNat 32 (n.toNat / 256) :=
  floor_divide_word n 256#32 hn (by decide) (by decide)

theorem floor_divide_word_256_toNat (n : BitVec 32) (hn : n.toNat < 2 ^ 31) :
    (Scalar.select
        (IntOp.andi
          (IntOp.cmpi .ne (if n = 0 then (0 : BitVec 32) else if n.msb then -1 else 1)
            (if 256#32 = 0 then (0 : BitVec 32) else if (256#32).msb then -1 else 1))
          (IntOp.cmpi .ne (IntOp.remsi .host n 256#32) 0#32))
        (IntOp.subi (IntOp.divsi .host n 256#32) 1#32) (IntOp.divsi .host n 256#32)).toNat
      = n.toNat / 256 :=
  floor_divide_word_toNat n 256#32 hn (by decide) (by decide)

theorem floor_divide_word_1 (n : BitVec 32) (hn : n.toNat < 2 ^ 31) :
    Scalar.select
        (IntOp.andi
          (IntOp.cmpi .ne (if n = 0 then (0 : BitVec 32) else if n.msb then -1 else 1)
            (if 1#32 = 0 then (0 : BitVec 32) else if (1#32).msb then -1 else 1))
          (IntOp.cmpi .ne (IntOp.remsi .host n 1#32) 0#32))
        (IntOp.subi (IntOp.divsi .host n 1#32) 1#32) (IntOp.divsi .host n 1#32)
      = n := by
  rw [floor_divide_word_udiv n 1#32 hn (by decide) (by decide)]
  apply BitVec.eq_of_toNat_eq
  rw [BitVec.toNat_udiv]
  exact Nat.div_one _

theorem remainder_word_256 (n : BitVec 32) (hn : n.toNat < 2 ^ 31) :
    Scalar.select
        (IntOp.andi
          (IntOp.cmpi .ne
            (IntOp.cmpi .slt (IntOp.remsi .host n (Scalar.select (IntOp.cmpi .eq 256#32 0#32) 1#32 256#32)) 0#32)
            (IntOp.cmpi .slt (Scalar.select (IntOp.cmpi .eq 256#32 0#32) 1#32 256#32) 0#32))
          (IntOp.cmpi .ne (IntOp.remsi .host n (Scalar.select (IntOp.cmpi .eq 256#32 0#32) 1#32 256#32)) 0#32))
        (IntOp.addi (IntOp.remsi .host n (Scalar.select (IntOp.cmpi .eq 256#32 0#32) 1#32 256#32))
          (Scalar.select (IntOp.cmpi .eq 256#32 0#32) 1#32 256#32))
        (IntOp.remsi .host n (Scalar.select (IntOp.cmpi .eq 256#32 0#32) 1#32 256#32))
      = BitVec.ofNat 32 (n.toNat % 256) :=
  remainder_word n 256#32 hn (by decide) (by decide)

theorem remainder_word_256_toNat (n : BitVec 32) (hn : n.toNat < 2 ^ 31) :
    (Scalar.select
        (IntOp.andi
          (IntOp.cmpi .ne
            (IntOp.cmpi .slt (IntOp.remsi .host n (Scalar.select (IntOp.cmpi .eq 256#32 0#32) 1#32 256#32)) 0#32)
            (IntOp.cmpi .slt (Scalar.select (IntOp.cmpi .eq 256#32 0#32) 1#32 256#32) 0#32))
          (IntOp.cmpi .ne (IntOp.remsi .host n (Scalar.select (IntOp.cmpi .eq 256#32 0#32) 1#32 256#32)) 0#32))
        (IntOp.addi (IntOp.remsi .host n (Scalar.select (IntOp.cmpi .eq 256#32 0#32) 1#32 256#32))
          (Scalar.select (IntOp.cmpi .eq 256#32 0#32) 1#32 256#32))
        (IntOp.remsi .host n (Scalar.select (IntOp.cmpi .eq 256#32 0#32) 1#32 256#32))).toNat
      = n.toNat % 256 :=
  remainder_word_toNat n 256#32 hn (by decide) (by decide)

/-! ## The same, on vectors at an index, the divisor a broadcast rank-0 tensor

The nesting below is the one the host program's functions are printed with: every rank-0 operand d, and every rank-0
constant, reaches the vector operations through its own broadcast. -/

section Vec
variable {t : Shape} (dims : Fin 0 → Fin t.rank) (hB : (⟨0, ![]⟩ : Shape).BroadcastsInDim t dims)

/-- A broadcast rank-0 tensor reads its one element everywhere. -/
theorem broadcastInDim_scalar {α : Type} (y : (⟨0, ![]⟩ : Shape).Idx → α) :
    broadcastInDim t dims hB y = fun _ => y ix0 := by
  funext j
  unfold broadcastInDim
  congr 1
  funext a
  exact a.elim0

/-- Floor division at an index. -/
theorem floor_divide_apply (x : IVec t 32) (d : IVec ⟨0, ![]⟩ 32) (i : t.Idx)
    (hn : (x i).toNat < 2 ^ 31) (hd0 : 0 < (d ix0).toNat) (hd : (d ix0).toNat < 2 ^ 31) :
    select
        (andi (cmpi .ne (signi x) (broadcastInDim t dims hB (signi d)))
          (cmpi .ne (Host.remsi x (broadcastInDim t dims hB d))
            (broadcastInDim t dims hB (constantI ⟨0, ![]⟩ 32 0#32))))
        (subi (Host.divsi x (broadcastInDim t dims hB d)) (broadcastInDim t dims hB (constantI ⟨0, ![]⟩ 32 1#32)))
        (Host.divsi x (broadcastInDim t dims hB d)) i
      = BitVec.ofNat 32 ((x i).toNat / (d ix0).toNat) := by
  simp only [broadcastInDim_scalar]
  exact floor_divide_word (x i) (d ix0) hn hd0 hd

/-- The floored remainder at an index. -/
theorem remainder_apply (x : IVec t 32) (d : IVec ⟨0, ![]⟩ 32) (i : t.Idx)
    (hn : (x i).toNat < 2 ^ 31) (hd0 : 0 < (d ix0).toNat) (hd : (d ix0).toNat < 2 ^ 31) :
    select
        (andi
          (cmpi .ne
            (cmpi .slt
              (Host.remsi x (broadcastInDim t dims hB
                (select (cmpi .eq d (constantI ⟨0, ![]⟩ 32 0#32)) (constantI ⟨0, ![]⟩ 32 1#32) d)))
              (broadcastInDim t dims hB (constantI ⟨0, ![]⟩ 32 0#32)))
            (broadcastInDim t dims hB
              (cmpi .slt (select (cmpi .eq d (constantI ⟨0, ![]⟩ 32 0#32)) (constantI ⟨0, ![]⟩ 32 1#32) d)
                (constantI ⟨0, ![]⟩ 32 0#32))))
          (cmpi .ne
            (Host.remsi x (broadcastInDim t dims hB
              (select (cmpi .eq d (constantI ⟨0, ![]⟩ 32 0#32)) (constantI ⟨0, ![]⟩ 32 1#32) d)))
            (broadcastInDim t dims hB (constantI ⟨0, ![]⟩ 32 0#32))))
        (addi
          (Host.remsi x (broadcastInDim t dims hB
            (select (cmpi .eq d (constantI ⟨0, ![]⟩ 32 0#32)) (constantI ⟨0, ![]⟩ 32 1#32) d)))
          (broadcastInDim t dims hB
            (select (cmpi .eq d (constantI ⟨0, ![]⟩ 32 0#32)) (constantI ⟨0, ![]⟩ 32 1#32) d)))
        (Host.remsi x (broadcastInDim t dims hB
          (select (cmpi .eq d (constantI ⟨0, ![]⟩ 32 0#32)) (constantI ⟨0, ![]⟩ 32 1#32) d))) i
      = BitVec.ofNat 32 ((x i).toNat % (d ix0).toNat) := by
  simp only [broadcastInDim_scalar]
  exact remainder_word (x i) (d ix0) hn hd0 hd

/-- Clipping at a broadcast zero, at an index. -/
theorem clip_apply (x : IVec t 32) (c : IVec ⟨0, ![]⟩ 32) (i : t.Idx) (hc : c ix0 = 0#32)
    (hn : (x i).toNat < 2 ^ 31) :
    maxsi (broadcastInDim t dims hB c) x i = x i := by
  simp only [broadcastInDim_scalar]
  show IntOp.maxsi (c ix0) (x i) = x i
  rw [hc]
  exact clip_word hn

/-- The wrap of a negative index at an index: a nonnegative element is left alone. -/
theorem wrap_apply (x : IVec t 32) (z k : IVec ⟨0, ![]⟩ 32) (i : t.Idx) (hz : z ix0 = 0#32)
    (hn : (x i).toNat < 2 ^ 31) :
    select (cmpi .slt x (broadcastInDim t dims hB z)) (addi x (broadcastInDim t dims hB k)) x i = x i := by
  simp only [broadcastInDim_scalar]
  show Scalar.select (IntOp.cmpi .slt (x i) (z ix0)) (IntOp.addi (x i) (k ix0)) (x i) = x i
  rw [hz]
  exact wrap_word (k ix0) hn

end Vec

/-! ## At the constant divisors 256 and 1 -/

section VecConst
variable {t : Shape} (dims : Fin 0 → Fin t.rank) (hB : (⟨0, ![]⟩ : Shape).BroadcastsInDim t dims)

/-- Floor division by the constant 256, at an index. -/
theorem floor_divide_apply_256 (x : IVec t 32) (i : t.Idx) (hn : (x i).toNat < 2 ^ 31) :
    select
        (andi (cmpi .ne (signi x) (broadcastInDim t dims hB (signi (constantI ⟨0, ![]⟩ 32 256#32))))
          (cmpi .ne (Host.remsi x (broadcastInDim t dims hB (constantI ⟨0, ![]⟩ 32 256#32)))
            (broadcastInDim t dims hB (constantI ⟨0, ![]⟩ 32 0#32))))
        (subi (Host.divsi x (broadcastInDim t dims hB (constantI ⟨0, ![]⟩ 32 256#32))) (broadcastInDim t dims hB (constantI ⟨0, ![]⟩ 32 1#32)))
        (Host.divsi x (broadcastInDim t dims hB (constantI ⟨0, ![]⟩ 32 256#32))) i
      = BitVec.ofNat 32 ((x i).toNat / 256) :=
  floor_divide_apply dims hB x (constantI ⟨0, ![]⟩ 32 256#32) i hn (by decide) (by decide)

theorem floor_divide_apply_256_toNat (x : IVec t 32) (i : t.Idx) (hn : (x i).toNat < 2 ^ 31) :
    (select
        (andi (cmpi .ne (signi x) (broadcastInDim t dims hB (signi (constantI ⟨0, ![]⟩ 32 256#32))))
          (cmpi .ne (Host.remsi x (broadcastInDim t dims hB (constantI ⟨0, ![]⟩ 32 256#32)))
            (broadcastInDim t dims hB (constantI ⟨0, ![]⟩ 32 0#32))))
        (subi (Host.divsi x (broadcastInDim t dims hB (constantI ⟨0, ![]⟩ 32 256#32))) (broadcastInDim t dims hB (constantI ⟨0, ![]⟩ 32 1#32)))
        (Host.divsi x (broadcastInDim t dims hB (constantI ⟨0, ![]⟩ 32 256#32))) i).toNat
      = (x i).toNat / 256 := by
  rw [floor_divide_apply_256 dims hB x i hn, BitVec.toNat_ofNat]
  exact Nat.mod_eq_of_lt (lt_of_le_of_lt (Nat.div_le_self _ _) (x i).isLt)

/-- Floor division by the constant 1, at an index: the element itself. -/
theorem floor_divide_apply_1 (x : IVec t 32) (i : t.Idx) (hn : (x i).toNat < 2 ^ 31) :
    select
        (andi (cmpi .ne (signi x) (broadcastInDim t dims hB (signi (constantI ⟨0, ![]⟩ 32 1#32))))
          (cmpi .ne (Host.remsi x (broadcastInDim t dims hB (constantI ⟨0, ![]⟩ 32 1#32)))
            (broadcastInDim t dims hB (constantI ⟨0, ![]⟩ 32 0#32))))
        (subi (Host.divsi x (broadcastInDim t dims hB (constantI ⟨0, ![]⟩ 32 1#32))) (broadcastInDim t dims hB (constantI ⟨0, ![]⟩ 32 1#32)))
        (Host.divsi x (broadcastInDim t dims hB (constantI ⟨0, ![]⟩ 32 1#32))) i
      = x i := by
  rw [floor_divide_apply dims hB x (constantI ⟨0, ![]⟩ 32 1#32) i hn (by decide) (by decide)]
  show BitVec.ofNat 32 ((x i).toNat / 1) = x i
  rw [Nat.div_one]
  exact BitVec.eq_of_toNat_eq (by rw [BitVec.toNat_ofNat]; exact Nat.mod_eq_of_lt (x i).isLt)

/-- The floored remainder by the constant 256, at an index. -/
theorem remainder_apply_256 (x : IVec t 32) (i : t.Idx) (hn : (x i).toNat < 2 ^ 31) :
    select
        (andi
          (cmpi .ne
            (cmpi .slt (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
              (broadcastInDim t dims hB (constantI ⟨0, ![]⟩ 32 0#32)))
            (broadcastInDim t dims hB (cmpi .slt (select (cmpi .eq (constantI ⟨0, ![]⟩ 32 256#32) (constantI ⟨0, ![]⟩ 32 0#32)) (constantI ⟨0, ![]⟩ 32 1#32) (constantI ⟨0, ![]⟩ 32 256#32)) (constantI ⟨0, ![]⟩ 32 0#32))))
          (cmpi .ne (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
            (broadcastInDim t dims hB (constantI ⟨0, ![]⟩ 32 0#32))))
        (addi (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
          (broadcastInDim t dims hB (select (cmpi .eq (constantI ⟨0, ![]⟩ 32 256#32) (constantI ⟨0, ![]⟩ 32 0#32)) (constantI ⟨0, ![]⟩ 32 1#32) (constantI ⟨0, ![]⟩ 32 256#32))))
        (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32)))) i
      = BitVec.ofNat 32 ((x i).toNat % 256) :=
  remainder_apply dims hB x (constantI ⟨0, ![]⟩ 32 256#32) i hn (by decide) (by decide)

theorem remainder_apply_256_toNat (x : IVec t 32) (i : t.Idx) (hn : (x i).toNat < 2 ^ 31) :
    (select
        (andi
          (cmpi .ne
            (cmpi .slt (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
              (broadcastInDim t dims hB (constantI ⟨0, ![]⟩ 32 0#32)))
            (broadcastInDim t dims hB (cmpi .slt (select (cmpi .eq (constantI ⟨0, ![]⟩ 32 256#32) (constantI ⟨0, ![]⟩ 32 0#32)) (constantI ⟨0, ![]⟩ 32 1#32) (constantI ⟨0, ![]⟩ 32 256#32)) (constantI ⟨0, ![]⟩ 32 0#32))))
          (cmpi .ne (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
            (broadcastInDim t dims hB (constantI ⟨0, ![]⟩ 32 0#32))))
        (addi (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
          (broadcastInDim t dims hB (select (cmpi .eq (constantI ⟨0, ![]⟩ 32 256#32) (constantI ⟨0, ![]⟩ 32 0#32)) (constantI ⟨0, ![]⟩ 32 1#32) (constantI ⟨0, ![]⟩ 32 256#32))))
        (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32)))) i).toNat
      = (x i).toNat % 256 := by
  rw [remainder_apply_256 dims hB x i hn, BitVec.toNat_ofNat]
  exact Nat.mod_eq_of_lt (lt_of_le_of_lt (Nat.mod_le _ _) (x i).isLt)

/-- Clipping at the broadcast constant 0, at an index. -/
theorem clip_apply_0 (x : IVec t 32) (i : t.Idx) (hn : (x i).toNat < 2 ^ 31) :
    maxsi (broadcastInDim t dims hB (constantI ⟨0, ![]⟩ 32 0#32)) x i = x i :=
  clip_apply dims hB x (constantI ⟨0, ![]⟩ 32 0#32) i rfl hn

/-- The wrap against the broadcast constant 0, at an index. -/
theorem wrap_apply_0 (k : BitVec 32) (x : IVec t 32) (i : t.Idx) (hn : (x i).toNat < 2 ^ 31) :
    select (cmpi .slt x (broadcastInDim t dims hB (constantI ⟨0, ![]⟩ 32 0#32))) (addi x (broadcastInDim t dims hB (constantI ⟨0, ![]⟩ 32 k))) x i = x i :=
  wrap_apply dims hB x (constantI ⟨0, ![]⟩ 32 0#32) (constantI ⟨0, ![]⟩ 32 k) i rfl hn

end VecConst

end Cert.LibWordDiv
-- ==== Proof.RefIdx.lean ====
/-
  The two index vectors the reference's gathers read, at the rank of a pair.

  The reference finds the pairs i ≤ j < 256 at run time.  It builds the 256 × 256 matrix of ones, zeroes the entries
  below the diagonal and compares with zero: a mask that is one exactly where the row is at most the column.  Flattened
  row by row and widened, its running sum at the flat position p counts the upper-triangle positions up to p (`cum`).
  A scatter-add of ones into 32896 bins, the bin of p being that running count, leaves in bin v the number of positions
  whose running count is v (`cnt`); the last position's count, 32896, names no bin and its update is dropped.  The running
  sum of the bins at k is then the number of positions whose running count is at most k (`pos`), which is the flat
  position of the (k + 1)-th upper-triangle entry: at the rank of the pair (i, j) it is 256·i + j.  Floor division by 256
  followed by the remainder by 256 gives the row i, floor division by 1 followed by the remainder by 256 the column j;
  the clip at zero and the wraps of negative indices in between act on nonnegative words and change nothing.

  Each stage is read at one index as a natural number; the counting itself is in TriCount, the windowed sum, the
  scatter-add and the word arithmetic in their own modules.
-/
import proofs.«116342_j30605936951494_1_alg».proof.Proof.RefTermsInt
import proofs.«116342_j30605936951494_1_alg».proof.Proof.TriCount
import proofs.«116342_j30605936951494_1_alg».proof.Proof.LibScan
import proofs.«116342_j30605936951494_1_alg».proof.Proof.LibScatterCount
import proofs.«116342_j30605936951494_1_alg».proof.Proof.LibWordDiv
import Idealize.ShloMosaic.Lib.StableHlo.Predicate
import Idealize.ShloMosaic.Lib.IdealHost
import Idealize.ShloMosaic.Lib.ValueIdx
import Idealize.ShloMosaic.Lib.Pipeline.Value

namespace Cert.ReferenceIdeal.Idx

open Idealize.ShloMosaic Idealize.ShloMosaic.ValueIdx Idealize.ShloMosaic.StableHlo.Predicate
open Cert.ReferenceIdeal Cert.ReferenceIdeal.Facts₀ Cert.ReferenceIdeal.Terms Cert.TriCount

/-! ## The mask: one where the row is at most the column -/

/-- A signed "greater or equal" of two words, as the order of their signed values. -/
theorem cmpi_sge_iff (a b : BitVec 32) : IntOp.cmpi .sge a b = 1#1 ↔ b.toInt ≤ a.toInt := by
  simp only [IntOp.cmpi, ofBool_eq_one_iff, BitVec.sle, decide_eq_true_eq]

/-- A small word plus the word -1, read signed, is its value less one. -/
theorem toInt_add_neg_one (r : ℕ) (hr : r < 2 ^ 31) :
    (BitVec.ofNat 32 r + 4294967295#32).toInt = (r : ℤ) - 1 := by
  rw [BitVec.toInt_add, toInt_ofNat_small r hr, show (4294967295#32 : BitVec 32).toInt = -1 from by decide]
  simp only [Int.bmod]
  omega

/-- The comparison that marks the entries strictly below the diagonal: row r, column c is marked when c < r. -/
theorem below_diag (r c : Fin 256) :
    res_main_call0_v4 (F := Ideal) (ix2 r c) = if c.val < r.val then 1#1 else 0#1 := by
  show IntOp.cmpi .sge (BitVec.ofNat 32 r.val + 4294967295#32) (BitVec.ofNat 32 c.val) = _
  have hr := r.isLt
  have hc := c.isLt
  by_cases h : c.val < r.val
  · rw [if_pos h]
    rw [cmpi_sge_iff, toInt_add_neg_one _ (by omega), toInt_ofNat_small _ (by omega)]
    omega
  · rw [if_neg h]
    refine eq_zero_of_ne_one fun h1 => h ?_
    rw [cmpi_sge_iff, toInt_add_neg_one _ (by omega), toInt_ofNat_small _ (by omega)] at h1
    omega

/-- The matrix filled with the constant 1.0 reads one everywhere. -/
theorem ones_apply (j : S256x256.Idx) : res_main_v4 (F := Ideal) j = 1 := by
  unfold res_main_v4 res_main_cst
  rw [bcast_scalar _ h_S_, constant_apply, Ideal.ofBits_one_f32]

/-- The matrix filled with the constant 0.0 inside the triangle function reads zero everywhere. -/
theorem zeros_apply (j : S256x256.Idx) : res_main_call0_v5 (F := Ideal) j = 0 := by
  unfold res_main_call0_v5 res_main_call0_cst
  rw [bcast_scalar _ h_S_, constant_apply, Ideal.ofBits_zero_f32]

/-- The matrix of zeros the mask is compared with reads zero everywhere. -/
theorem zeros'_apply (j : S256x256.Idx) : res_main_v6 (F := Ideal) j = 0 := by
  unfold res_main_v6 res_main_cst_0
  rw [bcast_scalar _ h_S_, constant_apply, Ideal.ofBits_zero_f32]

/-- The matrix of ones with the lower triangle zeroed, compared with zero: one where r ≤ c, zero below the diagonal. -/
theorem mask_apply (r c : Fin 256) :
    res_main_v7 (F := Ideal) (ix2 r c) = if r.val ≤ c.val then 1#1 else 0#1 := by
  unfold res_main_v7 res_main_v5
  rw [cmpf_apply, select_apply, below_diag, ones_apply, zeros_apply, zeros'_apply]
  show Ideal.cmp .une _ _ = _
  by_cases h : c.val < r.val
  · rw [if_pos h, select_one, if_neg (by omega)]
    simp [Ideal.cmp]
  · rw [if_neg h, select_zero, if_pos (by omega)]
    simp [Ideal.cmp]

/-! ## Flattened and widened: the indicator of the upper triangle at a flat position -/

/-- The flattened mask at position p is the matrix entry at row p / 256, column p % 256. -/
theorem flat_mask_apply (p : Fin 65536) :
    res_main_call1_v0 (F := Ideal) (ix1 p)
      = res_main_v7 (F := Ideal) (ix2 ⟨p.val / 256, by have := p.isLt; omega⟩ ⟨p.val % 256, by omega⟩) := by
  unfold res_main_call1_v0
  refine shapeCast_apply _ _ _ _ ?_
  rw [Shape.rowMajor_val_two, Shape.rowMajor_val_one]
  show p.val / 256 * 256 + p.val % 256 = p.val
  omega

/-- The widened flat mask, as a number: one on the positions of the upper triangle, zero elsewhere. -/
theorem wide_mask_toNat (p : Fin 65536) :
    (res_main_call1_v1 (F := Ideal) (ix1 p)).toNat = if mask p.val then 1 else 0 := by
  unfold res_main_call1_v1
  rw [extui_apply, toNat_setWidth_bit, flat_mask_apply, mask_apply]
  by_cases h : mask p.val
  · have h' : p.val / 256 ≤ p.val % 256 := h
    rw [if_pos h, if_pos h', if_pos rfl]
  · have h' : ¬ p.val / 256 ≤ p.val % 256 := h
    rw [if_neg h, if_neg h', if_neg (by decide)]

/-! ## The running count of the mask -/

/-- The zero the running sums start from. -/
theorem init0_apply : res_main_call1_call0_v0 (F := Ideal) ix0 = 0#32 := rfl

/-- The mask holds at most 65536 ones: the running sum cannot wrap. -/
theorem wide_mask_sum_lt : (∑ q : Fin 65536, (res_main_call1_v1 (F := Ideal) (ix1 q)).toNat) < 2 ^ 32 := by
  have h1 : (∑ q : Fin 65536, (res_main_call1_v1 (F := Ideal) (ix1 q)).toNat) ≤ (Finset.univ : Finset (Fin 65536)).card • 1 :=
    Finset.sum_le_card_nsmul _ _ _ fun q _ => by
      rw [wide_mask_toNat]
      split_ifs <;> omega
  rw [Finset.card_univ, Fintype.card_fin, smul_eq_mul] at h1
  omega

/-- The cumulative sum of the widened mask at position p counts the upper-triangle positions up to p. -/
theorem cum_toNat (p : Fin 65536) : (res_main_v8 (F := Ideal) (ix1 p)).toNat = cum p.val := by
  unfold res_main_v8
  rw [Cert.LibScan.reduceWindow_cumsum_toNat (by norm_num) _ _ init0_apply _ _ wide_mask_sum_lt p]
  unfold cum
  refine Finset.sum_congr rfl fun q _ => ?_
  rw [wide_mask_toNat]
  by_cases h1 : q.val ≤ p.val
  · by_cases h2 : mask q.val
    · rw [if_pos h1, if_pos h2, if_pos ⟨h1, h2⟩]
    · rw [if_pos h1, if_neg h2, if_neg (fun h => h2 h.2)]
  · rw [if_neg h1, if_neg (fun h => h1 h.1)]

/-! ## Clip and wrap leave the running count -/

/-- The running count is far below 2 ^ 31. -/
theorem cum_word_lt (p : Fin 65536) : (res_main_v8 (F := Ideal) (ix1 p)).toNat < 2 ^ 31 := by
  rw [cum_toNat]
  have := cum_le p.val
  omega

/-- Clipping the running count at zero from below changes nothing: it is not negative. -/
theorem clip_eq (p : Fin 65536) : res_main_v10 (F := Ideal) (ix1 p) = res_main_v8 (F := Ideal) (ix1 p) := by
  unfold res_main_v10 res_main_call2_v1
  exact Cert.LibWordDiv.clip_apply _ _ _ _ _ rfl (cum_word_lt p)

/-- Wrapping a negative index around changes nothing either. -/
theorem idx_eq (p : Fin 65536) : res_main_v15 (F := Ideal) (ix1 p) = res_main_v8 (F := Ideal) (ix1 p) := by
  have hn : (res_main_v10 (F := Ideal) (ix1 p)).toNat < 2 ^ 31 := by rw [clip_eq]; exact cum_word_lt p
  unfold res_main_v15 res_main_v12 res_main_v14 res_main_v11 res_main_v13 res_main_c_2 res_main_c_3
  exact (Cert.LibWordDiv.wrap_apply_0 _ _ _ _ _ hn).trans (clip_eq p)

theorem idx_toNat (p : Fin 65536) : (res_main_v15 (F := Ideal) (ix1 p)).toNat = cum p.val := by
  rw [idx_eq, cum_toNat]

/-! ## The bins: how many positions have each running count -/

/-- The scatter's index column at row n is the wrapped running count at n. -/
theorem idx_col_apply (n : Fin 65536) : res_main_v16 (F := Ideal) (ix2 n 0) = res_main_v15 (F := Ideal) (ix1 n) := by
  unfold res_main_v16
  refine broadcastInDim_apply _ _ _ _ (ix1 n) fun a => ?_
  obtain rfl : a = 0 := Subsingleton.elim _ _
  rfl

/-- The start index of update n, read signed, is the running count at n. -/
theorem idx_toInt (n : Fin 65536) : (res_main_v16 (F := Ideal) (ix2 n 0)).toInt = (cum n.val : ℤ) := by
  rw [idx_col_apply, toInt_eq_toNat_of_lt (by rw [idx_toNat]; have := cum_le n.val; omega), idx_toNat]

/-- The updates are ones. -/
theorem upd_apply (j : S65536.Idx) : res_main_v17 (F := Ideal) j = 1#32 := rfl

/-- The bins start at zero. -/
theorem bins0_apply (j : S32896.Idx) : res_main_v9 (F := Ideal) j = 0#32 := rfl

/-- Bin v of the scatter-add holds the number of positions whose running count is v. -/
theorem cnt_toNat (v : Fin 32896) : (res_main_v18 (F := Ideal) (ix1 v)).toNat = cnt v.val := by
  unfold res_main_v18
  have hb : (res_main_v9 (F := Ideal) (ix1 v)).toNat
      + (∑ n : Fin 65536, (res_main_v17 (F := Ideal) (ix1 n)).toNat) < 2 ^ 32 := by
    have h1 : (∑ n : Fin 65536, (res_main_v17 (F := Ideal) (ix1 n)).toNat) ≤ (Finset.univ : Finset (Fin 65536)).card • 1 :=
      Finset.sum_le_card_nsmul _ _ _ fun n _ => by rw [upd_apply]; decide
    rw [Finset.card_univ, Fintype.card_fin, smul_eq_mul] at h1
    rw [bins0_apply]
    have : (0#32 : BitVec 32).toNat = 0 := rfl
    omega
  rw [Cert.LibScatterCount.scatter_add_toNat _ rfl rfl rfl rfl _ _ _ v hb, bins0_apply]
  unfold cnt
  rw [show (0#32 : BitVec 32).toNat = 0 from rfl, Nat.zero_add]
  refine Finset.sum_congr rfl fun n _ => ?_
  rw [idx_toInt, upd_apply]
  by_cases h : cum n.val = v.val
  · rw [if_pos h, if_pos (by rw [h])]; rfl
  · rw [if_neg h, if_neg (fun hh => h (by exact_mod_cast hh))]

/-! ## The running sum of the bins: the flat position of the k-th upper-triangle entry -/

/-- The zero the second running sum starts from. -/
theorem init1_apply : res_main_call3_call0_v0 (F := Ideal) ix0 = 0#32 := rfl

/-- The running sum of the bins at k is the number of positions whose running count is at most k. -/
theorem pos_toNat (k : Fin 32896) : (res_main_v19 (F := Ideal) (ix1 k)).toNat = pos k.val := by
  unfold res_main_v19
  have hb : (∑ q : Fin 32896, (res_main_v18 (F := Ideal) (ix1 q)).toNat) < 2 ^ 32 := by
    have h1 : (∑ q : Fin 32896, (res_main_v18 (F := Ideal) (ix1 q)).toNat) = ∑ q : Fin 32896, cnt q.val :=
      Finset.sum_congr rfl fun q _ => cnt_toNat q
    have h2 := sum_cnt_le
    omega
  rw [Cert.LibScan.reduceWindow_cumsum_toNat (by norm_num) _ _ init1_apply _ _ hb k]
  unfold pos
  refine Finset.sum_congr rfl fun q _ => ?_
  rw [cnt_toNat]

/-! ## Row and column of the k-th upper-triangle entry -/

/-- The flat position is below 65536, far below 2 ^ 31. -/
theorem pos_word_lt (k : Fin 32896) : (res_main_v19 (F := Ideal) (ix1 k)).toNat < 2 ^ 31 := by
  rw [pos_toNat]
  have := pos_lt k.val k.isLt
  omega

/-- Floor division of the flat position by 256. -/
theorem div256_toNat (k : Fin 32896) : (res_main_v20 (F := Ideal) (ix1 k)).toNat = pos k.val / 256 := by
  unfold res_main_v20 res_main_call4_v10 res_main_call4_v12 res_main_call4_v5 res_main_call4_v9 res_main_call4_v2
    res_main_call4_v4 res_main_call4_v3 res_main_call4_v7 res_main_call4_v8 res_main_call4_v6 res_main_call4_c
    res_main_call4_v1 res_main_call4_v11 res_main_call4_c_0 res_main_call4_v0 res_main_c_5
  rw [Cert.LibWordDiv.floor_divide_apply_256_toNat _ _ _ _ (pos_word_lt k), pos_toNat]

/-- The row: the quotient's remainder by 256. -/
theorem row_toNat (k : Fin 32896) : (res_main_v21 (F := Ideal) (ix1 k)).toNat = pos k.val / 256 % 256 := by
  have hn : (res_main_v20 (F := Ideal) (ix1 k)).toNat < 2 ^ 31 := by
    rw [div256_toNat]
    have := pos_lt k.val k.isLt
    omega
  unfold res_main_v21 res_main_call5_v12 res_main_call5_v14 res_main_call5_v11 res_main_call5_v6 res_main_call5_v8
    res_main_call5_v10 res_main_call5_v9 res_main_call5_v7 res_main_call5_v5 res_main_call5_v13 res_main_call5_v4
    res_main_call5_v3 res_main_call5_v2 res_main_call5_v1 res_main_call5_c res_main_call5_c_0 res_main_call5_c_1
    res_main_call5_c_2 res_main_call5_c_3 res_main_call5_v0 res_main_c_6
  have h := Cert.LibWordDiv.remainder_apply (t := S32896) ![] bcast_S_S32896 (res_main_v20 (F := Ideal))
    (id (constantI S_ 32 256#32)) (ix1 k) hn (by decide) (by decide)
  rw [show (id (constantI S_ 32 256#32) ix0 : BitVec 32).toNat = 256 from rfl, div256_toNat] at h
  have h2 := congrArg BitVec.toNat h
  rw [BitVec.toNat_ofNat] at h2
  rw [h2]
  exact Nat.mod_eq_of_lt (by omega)

/-- The last wrap leaves the row. -/
theorem row_eq (k : Fin 32896) : res_main_v28 (F := Ideal) (ix1 k) = res_main_v21 (F := Ideal) (ix1 k) := by
  have hn : (res_main_v21 (F := Ideal) (ix1 k)).toNat < 2 ^ 31 := by rw [row_toNat]; omega
  unfold res_main_v28 res_main_v25 res_main_v27 res_main_v24 res_main_v26 res_main_c_9 res_main_c_10
  exact Cert.LibWordDiv.wrap_apply_0 _ _ _ _ _ hn

/-- Floor division of the flat position by 1 is the flat position. -/
theorem div1_eq (k : Fin 32896) : res_main_v22 (F := Ideal) (ix1 k) = res_main_v19 (F := Ideal) (ix1 k) := by
  unfold res_main_v22 res_main_call6_v10 res_main_call6_v12 res_main_call6_v5 res_main_call6_v9 res_main_call6_v2
    res_main_call6_v4 res_main_call6_v3 res_main_call6_v7 res_main_call6_v8 res_main_call6_v6 res_main_call6_c
    res_main_call6_v1 res_main_call6_v11 res_main_call6_c_0 res_main_call6_v0 res_main_c_7
  exact Cert.LibWordDiv.floor_divide_apply_1 _ _ _ _ (pos_word_lt k)

/-- The column: the flat position's remainder by 256. -/
theorem col_toNat (k : Fin 32896) : (res_main_v23 (F := Ideal) (ix1 k)).toNat = pos k.val % 256 := by
  have hn : (res_main_v22 (F := Ideal) (ix1 k)).toNat < 2 ^ 31 := by rw [div1_eq]; exact pos_word_lt k
  unfold res_main_v23 res_main_call7_v12 res_main_call7_v14 res_main_call7_v11 res_main_call7_v6 res_main_call7_v8
    res_main_call7_v10 res_main_call7_v9 res_main_call7_v7 res_main_call7_v5 res_main_call7_v13 res_main_call7_v4
    res_main_call7_v3 res_main_call7_v2 res_main_call7_v1 res_main_call7_c res_main_call7_c_0 res_main_call7_c_1
    res_main_call7_c_2 res_main_call7_c_3 res_main_call7_v0 res_main_c_8
  have h := Cert.LibWordDiv.remainder_apply (t := S32896) ![] bcast_S_S32896 (res_main_v22 (F := Ideal))
    (id (constantI S_ 32 256#32)) (ix1 k) hn (by decide) (by decide)
  rw [show (id (constantI S_ 32 256#32) ix0 : BitVec 32).toNat = 256 from rfl, div1_eq, pos_toNat] at h
  have h2 := congrArg BitVec.toNat h
  rw [BitVec.toNat_ofNat] at h2
  rw [h2]
  exact Nat.mod_eq_of_lt (by omega)

/-- The last wrap leaves the column. -/
theorem col_eq (k : Fin 32896) : res_main_v35 (F := Ideal) (ix1 k) = res_main_v23 (F := Ideal) (ix1 k) := by
  have hn : (res_main_v23 (F := Ideal) (ix1 k)).toNat < 2 ^ 31 := by rw [col_toNat]; omega
  unfold res_main_v35 res_main_v32 res_main_v34 res_main_v31 res_main_v33 res_main_c_11 res_main_c_12
  exact Cert.LibWordDiv.wrap_apply_0 _ _ _ _ _ hn

/-! ## The two index vectors at the rank of a pair -/

/-- At the rank of the pair (i, j), i ≤ j, the row index vector holds i. -/
theorem rowIdx_rank {i j : ℕ} (hij : i ≤ j) (hj : j < 256) :
    Terms.res_main_v28 (F := Ideal) (ix1 ⟨Cert.Tri.rank i j, Cert.Tri.rank_lt hij hj⟩) = BitVec.ofNat 32 i := by
  apply BitVec.eq_of_toNat_eq
  rw [row_eq, row_toNat, BitVec.toNat_ofNat]
  show pos (Cert.Tri.rank i j) / 256 % 256 = i % 2 ^ 32
  rw [pos_rank hij hj]
  omega

/-- At the rank of the pair (i, j), i ≤ j, the column index vector holds j. -/
theorem colIdx_rank {i j : ℕ} (hij : i ≤ j) (hj : j < 256) :
    Terms.res_main_v35 (F := Ideal) (ix1 ⟨Cert.Tri.rank i j, Cert.Tri.rank_lt hij hj⟩) = BitVec.ofNat 32 j := by
  apply BitVec.eq_of_toNat_eq
  rw [col_eq, col_toNat, BitVec.toNat_ofNat]
  show pos (Cert.Tri.rank i j) % 256 = j % 2 ^ 32
  rw [pos_rank hij hj]
  omega

end Cert.ReferenceIdeal.Idx
-- ==== Proof.lean ====
/-
  The certificate of the triangular handshake: for every pair of positions `i ≤ j` of a sequence of 256 hidden
  rows, `tanh (W₁ hᵢ + W₂ hⱼ + β)`, the pairs laid out row by row in one packed array of 32896 rows.

  The kernel computes the two projections `p₁ = h W₁ᵀ`, `p₂ = h W₂ᵀ` once (one matrix-product region over the 1024
  flattened rows) and then, for each group of eight consecutive `i`, adds row `i` of `p₁` to the rows `j ≥ i` of
  `p₂`, adds the bias and takes `tanh` (32 regions, one per group, each writing exactly the rows its group owns); the
  32 results are concatenated. The reference computes the same projections as two host contractions, finds the index
  pairs of the upper triangle at run time (the positions of the non-zero entries of a triangular mask, by a running
  count, a bin count and a running sum), gathers the rows of `p₁` at `i` and of `p₂` at `j`, adds them, adds the bias
  and takes `tanh`. Over the extended reals both arrays hold, at the rank of every pair `i ≤ j`, the value
  `tanh ((p₁ b i o + p₂ b j o) + β o)` (`Cert.Tri.HoldsPairs`), and the ranks exhaust the rows, so the two arrays
  are equal (`Cert.Tri.eq_of_holdsPairs`). Sums over the contracted axis are finite sums in a commutative monoid, so
  neither side's order of summation matters, and no law that needs finiteness is used: the precondition is not opened.
  The idealization rewrote no operation, so `preserves` states nothing.
-/
import proofs.«116342_j30605936951494_1_alg».proof.Defs
import proofs.«116342_j30605936951494_1_alg».proof.Proof.Gen.Kernel
import proofs.«116342_j30605936951494_1_alg».proof.Proof.Gen.KernelIdeal
import proofs.«116342_j30605936951494_1_alg».proof.Proof.Gen.ReferenceIdeal
import proofs.«116342_j30605936951494_1_alg».proof.Proof.Gen.Pre_finite_inputs
import proofs.«116342_j30605936951494_1_alg».proof.Proof.Spec
import proofs.«116342_j30605936951494_1_alg».proof.Proof.K.Run
import proofs.«116342_j30605936951494_1_alg».proof.Proof.KI.Run
import proofs.«116342_j30605936951494_1_alg».proof.Proof.KI.KernelValue
import proofs.«116342_j30605936951494_1_alg».proof.Proof.RefRead
import proofs.«116342_j30605936951494_1_alg».proof.Proof.RefValue
import proofs.«116342_j30605936951494_1_alg».proof.Proof.RefIdx
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Fr.frame_run m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame_run m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame_run m ρ

/-- Both runs end; the kernel's packed array and the reference's hold the same value at the rank of every pair, and
    the ranks are all the rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.W67 (F := Ideal) m ρ c (Proc.devRef .tc Cert.KernelIdeal.main_v102),
    Cert.KernelIdeal.Fr.result_run (F := Ideal) m ρ, ?_⟩
  refine (θ_run (Cert.ReferenceIdeal.defs (F := Ideal)) _ _).mono (fun _ h c => ⟨(h c).1.trans ?_, (h c).2⟩)
    (Cert.ReferenceIdeal.RefRun.result_run (F := Ideal) m' ρ')
  rw [(hagree c).1, (hagree c).2.1, (hagree c).2.2]
  exact Cert.Tri.eq_of_holdsPairs
    (Cert.ReferenceIdeal.Value'.ref_holds_of_idx (fun hij hj => Cert.ReferenceIdeal.Idx.rowIdx_rank hij hj)
      (fun hij hj => Cert.ReferenceIdeal.Idx.colIdx_rank hij hj) _ _ _)
    (Cert.KernelIdeal.Val.kernel_holds m ρ c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
